-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![2048, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S256x512 : Shape := ⟨2, ![256, 512]⟩
abbrev S512x256 : Shape := ⟨2, ![512, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg4 : FVec F S512x256 .f32) (main_arg5 : FVec F S256x512 .f32) (main_arg6 : FVec F S512x256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  main_v33

def fn {F : FTy → Type} [FloatOps F] (main_arg0 : FVec F S256x256 .f32) (main_arg1 : FVec F S256x512 .f32) (main_arg2 : FVec F S512x256 .f32) (main_arg3 : FVec F S256x512 .f32) (main_arg4 : FVec F S512x256 .f32) (main_arg5 : FVec F S256x512 .f32) (main_arg6 : FVec F S512x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Pre_finite_inputs_ReferenceIdeal.lean ====
abbrev S2048x256 : Shape := ⟨2, ![2048, 256]⟩
abbrev S256x4096 : Shape := ⟨2, ![256, 4096]⟩
abbrev S4096x256 : Shape := ⟨2, ![4096, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_arg4 : FVec F S4096x256 .f32) (main_arg5 : FVec F S256x4096 .f32) (main_arg6 : FVec F S4096x256 .f32) (main_v13 : IVec S_ 1) (main_v16 : IVec S256x4096 1) : IVec S_ 1 :=
  let main_c_5 : IVec S_ 1 := constantI S_ 1 1#1
  let main_v17 : IVec S_ 1 := (fun x v => Host.reduce IntOp.andi x v reducesTo_S256x4096_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S256x4096 .f32 := Host.absf main_arg5
  let main_cst_8 : FVec F S_ .f32 := constant S_ .f32 0x7F800000#32
  let main_v25 : FVec F S256x4096 .f32 := broadcastInDim S256x4096 ![] bcast_S_S256x4096 main_cst_8
  let main_v26 : IVec S256x4096 1 := cmpf .olt main_v24 main_v25
  let main_c_9 : IVec S_ 1 := constantI S_ 1 1#1
  let main_v27 : IVec S_ 1 := (fun x v => Host.reduce IntOp.andi x v reducesTo_S256x4096_S_d0_1 h_S_) main_v26 main_c_9
  let main_v28 : IVec S_ 1 := andi main_v23 main_v27
  let main_v29 : FVec F S4096x256 .f32 := Host.absf main_arg6
  let main_cst_10 : FVec F S_ .f32 := constant S_ .f32 0x7F800000#32
  let main_v30 : FVec F S4096x256 .f32 := broadcastInDim S4096x256 ![] bcast_S_S4096x256 main_cst_10
  let main_v31 : IVec S4096x256 1 := cmpf .olt main_v29 main_v30
  let main_c_11 : IVec S_ 1 := constantI S_ 1 1#1
  let main_v32 : IVec S_ 1 := (fun x v => Host.reduce IntOp.andi x v reducesTo_S4096x256_S_d0_1 h_S_) main_v31 main_c_11
  let main_v33 : IVec S_ 1 := andi main_v28 main_v32
  main_v33

def fn {F : FTy → Type} [FloatOps F] (main_arg0 : FVec F S2048x256 .f32) (main_arg1 : FVec F S256x4096 .f32) (main_arg2 : FVec F S4096x256 .f32) (main_arg3 : FVec F S256x4096 .f32) (main_arg4 : FVec F S4096x256 .f32) (main_arg5 : FVec F S256x4096 .f32) (main_arg6 : FVec F S4096x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S256x4096 .f32 := Host.absf main_arg3
  let main_cst_4 : FVec F S_ .f32 := constant S_ .f32 0x7F800000#32
  let main_v15 : FVec F S256x4096 .f32 := broadcastInDim S256x4096 ![] bcast_S_S256x4096 main_cst_4
  let main_v16 : IVec S256x4096 1 := cmpf .olt main_v14 main_v15
  fn_part1 (F := F) main_arg4 main_arg5 main_arg6 main_v13 main_v16
-- ==== Kernel.lean ====
abbrev S256x256 : Shape := ⟨2, ![256, 256]⟩
abbrev S256x512 : Shape := ⟨2, ![256, 512]⟩
abbrev S512x256 : Shape := ⟨2, ![512, 256]⟩
abbrev S1024x256 : Shape := ⟨2, ![1024, 256]⟩
abbrev S1280x256 : Shape := ⟨2, ![1280, 256]⟩
abbrev S3 : Shape := ⟨1, ![3]⟩
abbrev S5 : Shape := ⟨1, ![5]⟩
abbrev S128x256 : Shape := ⟨2, ![128, 256]⟩
abbrev S_ : Shape := ⟨0, ![]⟩
abbrev S1 : Shape := ⟨1, ![1]⟩

abbrev nBuf : Space → Nat
  | .hbm => 8
  | .vmem => 18
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .f32⟩
  | .local _ .vmem, ⟨11, _⟩ => ⟨S1024x256, .f32⟩
  | .local _ .vmem, ⟨12, _⟩ => ⟨S512x256, .bf16⟩
  | .local _ .vmem, ⟨13, _⟩ => ⟨S512x256, .bf16⟩
  | .local _ .vmem, ⟨14, _⟩ => ⟨S1280x256, .bf16⟩
  | .local _ .vmem, ⟨15, _⟩ => ⟨S1280x256, .bf16⟩
  | .local _ .vmem, ⟨16, _⟩ => ⟨S256x512, .bf16⟩
  | .local _ .vmem, ⟨17, _⟩ => ⟨S512x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v15 : BitVec 32 := Scalar.muli v2 c128_i32
  v15
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v15 : BitVec 32 := Scalar.muli v2 c128_i32
  let v16 : BitVec 32 := v15
  let v17 : Index := Scalar.indexCast v16
  let c0_5 : Index := 0#32
  ![v17.toNat, 0]
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c128_i32_7 : BitVec 32 := 128#32
  let v24 : BitVec 32 := Scalar.muli v11 c128_i32_7
  v24
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c128_i32_7 : BitVec 32 := 128#32
  let v24 : BitVec 32 := Scalar.muli v11 c128_i32_7
  let v25 : BitVec 32 := v24
  let v26 : Index := Scalar.indexCast v25
  let c0_8 : Index := 0#32
  ![v26.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v31 : BitVec 32 := Scalar.xori v2 c1_i32_9
  let c1_i32_11 : BitVec 32 := 1#32
  let v32 : BitVec 32 := Scalar.muli v31 c1_i32_11
  let v33 : BitVec 32 := Scalar.addi c0_i32 v32
  v33.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_12 : BitVec 32 := 4#32
  let v34 : BitVec 32 := Scalar.andi v2 c4_i32_12
  let c3_i32_13 : BitVec 32 := 3#32
  let c3_i32 : BitVec 32 := 3#32
  let v35 : BitVec 32 := Scalar.andi v2 c3_i32
  let v36 : BitVec 32 := Scalar.subi c3_i32_13 v35
  let v37 : BitVec 32 := Scalar.addi v34 v36
  let c1_i32_15 : BitVec 32 := 1#32
  let v38 : BitVec 32 := Scalar.muli v37 c1_i32_15
  let v39 : BitVec 32 := Scalar.addi c0_i32_16 v38
  v39.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v40 : BitVec 32 := Scalar.xori v2 c4_i32_17
  let c1_i32_19 : BitVec 32 := 1#32
  let v41 : BitVec 32 := Scalar.muli v40 c1_i32_19
  let v42 : BitVec 32 := Scalar.addi c0_i32_20 v41
  v42.toNat
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v44 : BitVec 32 := Scalar.andi v2 c7_i32
  let c128_i32_23 : BitVec 32 := 128#32
  let v45 : BitVec 32 := Scalar.muli v44 c128_i32_23
  v45
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v44 : BitVec 32 := Scalar.andi v2 c7_i32
  let c128_i32_23 : BitVec 32 := 128#32
  let v45 : BitVec 32 := Scalar.muli v44 c128_i32_23
  let v46 : BitVec 32 := v45
  let c0_i32_28 : BitVec 32 := 0#32
  ![v46.toNat, 0]
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v43 : BitVec 32 := Scalar.xori v2 c1_i32_22
  let c1_i32_26 : BitVec 32 := 1#32
  let v47 : BitVec 32 := Scalar.muli v43 c1_i32_26
  let v48 : BitVec 32 := Scalar.addi c0_i32_27 v47
  v48.toNat
def k0_mult4 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c7_i32_33 : BitVec 32 := 7#32
  let v59 : BitVec 32 := Scalar.andi v11 c7_i32_33
  let c128_i32_34 : BitVec 32 := 128#32
  let v60 : BitVec 32 := Scalar.muli v59 c128_i32_34
  v60
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c7_i32_33 : BitVec 32 := 7#32
  let v59 : BitVec 32 := Scalar.andi v11 c7_i32_33
  let c128_i32_34 : BitVec 32 := 128#32
  let v60 : BitVec 32 := Scalar.muli v59 c128_i32_34
  let v61 : BitVec 32 := v60
  let c0_i32_39 : BitVec 32 := 0#32
  ![v61.toNat, 0]
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_30 : BitVec 32 := 4#32
  let v55 : BitVec 32 := Scalar.andi v2 c4_i32_30
  let c3_i32_32 : BitVec 32 := 3#32
  let c3_i32_31 : BitVec 32 := 3#32
  let v56 : BitVec 32 := Scalar.andi v2 c3_i32_31
  let v57 : BitVec 32 := Scalar.subi c3_i32_32 v56
  let v58 : BitVec 32 := Scalar.addi v55 v57
  let c1_i32_37 : BitVec 32 := 1#32
  let v62 : BitVec 32 := Scalar.muli v58 c1_i32_37
  let v63 : BitVec 32 := Scalar.addi c0_i32_38 v62
  v63.toNat
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v106 : BitVec 32 := Scalar.andi v2 c6_i32
  let c128_i32_74 : BitVec 32 := 128#32
  let v107 : BitVec 32 := Scalar.muli v106 c128_i32_74
  v107
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v106 : BitVec 32 := Scalar.andi v2 c6_i32
  let c128_i32_74 : BitVec 32 := 128#32
  let v107 : BitVec 32 := Scalar.muli v106 c128_i32_74
  let v108 : BitVec 32 := v107
  let c0_i32_79 : BitVec 32 := 0#32
  ![v108.toNat, 0]
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_71 : BitVec 32 := 4#32
  let v102 : BitVec 32 := Scalar.andi v2 c4_i32_71
  let c3_i32_73 : BitVec 32 := 3#32
  let c3_i32_72 : BitVec 32 := 3#32
  let v103 : BitVec 32 := Scalar.andi v2 c3_i32_72
  let v104 : BitVec 32 := Scalar.subi c3_i32_73 v103
  let v105 : BitVec 32 := Scalar.addi v102 v104
  let c1_i32_77 : BitVec 32 := 1#32
  let v109 : BitVec 32 := Scalar.muli v105 c1_i32_77
  let v110 : BitVec 32 := Scalar.addi c0_i32_78 v109
  v110.toNat
def k0_mult6 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_82 : BitVec 32 := 6#32
  let v118 : BitVec 32 := Scalar.andi v11 c6_i32_82
  let c128_i32_83 : BitVec 32 := 128#32
  let v119 : BitVec 32 := Scalar.muli v118 c128_i32_83
  v119
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_82 : BitVec 32 := 6#32
  let v118 : BitVec 32 := Scalar.andi v11 c6_i32_82
  let c128_i32_83 : BitVec 32 := 128#32
  let v119 : BitVec 32 := Scalar.muli v118 c128_i32_83
  let v120 : BitVec 32 := v119
  let c0_i32_88 : BitVec 32 := 0#32
  ![v120.toNat, 0]
def k0_dev7 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_81 : BitVec 32 := 4#32
  let v117 : BitVec 32 := Scalar.xori v2 c4_i32_81
  let c1_i32_86 : BitVec 32 := 1#32
  let v121 : BitVec 32 := Scalar.muli v117 c1_i32_86
  let v122 : BitVec 32 := Scalar.addi c0_i32_87 v121
  v122.toNat
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  v130
def k0_mult8 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  v133
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  v131
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  let v135 : BitVec 32 := v131
  let v136 : Index := Scalar.indexCast v135
  let c0_94 : Index := 0#32
  ![v136.toNat, 0]
def k0_mult10 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  v131
def k0_mult11 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  v134
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  let v150 : BitVec 32 := v134
  let v151 : Index := Scalar.indexCast v150
  let c0_102 : Index := 0#32
  ![v151.toNat, 0]
def k0_mult12 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  v134
def k0_mult13 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_134 : BitVec 32 := 4#32
  let v186 : BitVec 32 := Scalar.andi v2 c4_i32_134
  let c128_i32_135 : BitVec 32 := 128#32
  let v187 : BitVec 32 := Scalar.muli v186 c128_i32_135
  v187
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_134 : BitVec 32 := 4#32
  let v186 : BitVec 32 := Scalar.andi v2 c4_i32_134
  let c128_i32_135 : BitVec 32 := 128#32
  let v187 : BitVec 32 := Scalar.muli v186 c128_i32_135
  let v188 : BitVec 32 := v187
  let c0_i32_140 : BitVec 32 := 0#32
  ![v188.toNat, 0]
def k0_dev8 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_133 : BitVec 32 := 4#32
  let v185 : BitVec 32 := Scalar.xori v2 c4_i32_133
  let c1_i32_138 : BitVec 32 := 1#32
  let v189 : BitVec 32 := Scalar.muli v185 c1_i32_138
  let v190 : BitVec 32 := Scalar.addi c0_i32_139 v189
  v190.toNat
def k0_mult14 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_143 : BitVec 32 := 4#32
  let v198 : BitVec 32 := Scalar.andi v11 c4_i32_143
  let c128_i32_144 : BitVec 32 := 128#32
  let v199 : BitVec 32 := Scalar.muli v198 c128_i32_144
  v199
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_143 : BitVec 32 := 4#32
  let v198 : BitVec 32 := Scalar.andi v11 c4_i32_143
  let c128_i32_144 : BitVec 32 := 128#32
  let v199 : BitVec 32 := Scalar.muli v198 c128_i32_144
  let v200 : BitVec 32 := v199
  let c0_i32_149 : BitVec 32 := 0#32
  ![v200.toNat, 0]
def k0_dev9 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_142 : BitVec 32 := 1#32
  let v197 : BitVec 32 := Scalar.xori v2 c1_i32_142
  let c1_i32_147 : BitVec 32 := 1#32
  let v201 : BitVec 32 := Scalar.muli v197 c1_i32_147
  let v202 : BitVec 32 := Scalar.addi c0_i32_148 v201
  v202.toNat
def k0_mult15 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  let c256_i32 : BitVec 32 := 256#32
  let v209 : BitVec 32 := Scalar.xori v131 c256_i32
  v209
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  let c256_i32 : BitVec 32 := 256#32
  let v209 : BitVec 32 := Scalar.xori v131 c256_i32
  let v210 : BitVec 32 := v209
  let v211 : Index := Scalar.indexCast v210
  let c0_151 : Index := 0#32
  ![v211.toNat, 0]
def k0_mult16 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  let c256_i32 : BitVec 32 := 256#32
  let v209 : BitVec 32 := Scalar.xori v131 c256_i32
  v209
def k0_mult17 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  let c256_i32_160 : BitVec 32 := 256#32
  let v225 : BitVec 32 := Scalar.xori v134 c256_i32_160
  v225
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  let c256_i32_160 : BitVec 32 := 256#32
  let v225 : BitVec 32 := Scalar.xori v134 c256_i32_160
  let v226 : BitVec 32 := v225
  let v227 : Index := Scalar.indexCast v226
  let c0_161 : Index := 0#32
  ![v227.toNat, 0]
def k0_mult18 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  let c256_i32_160 : BitVec 32 := 256#32
  let v225 : BitVec 32 := Scalar.xori v134 c256_i32_160
  v225
def k0_mult19 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_192 : BitVec 32 := 4#32
  let v261 : BitVec 32 := Scalar.xori v2 c4_i32_192
  let c6_i32_193 : BitVec 32 := 6#32
  let v262 : BitVec 32 := Scalar.andi v261 c6_i32_193
  let c128_i32_194 : BitVec 32 := 128#32
  let v263 : BitVec 32 := Scalar.muli v262 c128_i32_194
  v263
def k0_mult20 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_195 : BitVec 32 := 4#32
  let v265 : BitVec 32 := Scalar.xori v11 c4_i32_195
  let c6_i32_196 : BitVec 32 := 6#32
  let v266 : BitVec 32 := Scalar.andi v265 c6_i32_196
  let c128_i32_197 : BitVec 32 := 128#32
  let v267 : BitVec 32 := Scalar.muli v266 c128_i32_197
  v267
def k0_mult21 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_192 : BitVec 32 := 4#32
  let v261 : BitVec 32 := Scalar.xori v2 c4_i32_192
  let c6_i32_193 : BitVec 32 := 6#32
  let v262 : BitVec 32 := Scalar.andi v261 c6_i32_193
  let c128_i32_194 : BitVec 32 := 128#32
  let v263 : BitVec 32 := Scalar.muli v262 c128_i32_194
  let v264 : BitVec 32 := v263
  v264
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_192 : BitVec 32 := 4#32
  let v261 : BitVec 32 := Scalar.xori v2 c4_i32_192
  let c6_i32_193 : BitVec 32 := 6#32
  let v262 : BitVec 32 := Scalar.andi v261 c6_i32_193
  let c128_i32_194 : BitVec 32 := 128#32
  let v263 : BitVec 32 := Scalar.muli v262 c128_i32_194
  let v264 : BitVec 32 := v263
  let v269 : BitVec 32 := v264
  let v270 : Index := Scalar.indexCast v269
  let c0_198 : Index := 0#32
  ![v270.toNat, 0]
def k0_mult22 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_192 : BitVec 32 := 4#32
  let v261 : BitVec 32 := Scalar.xori v2 c4_i32_192
  let c6_i32_193 : BitVec 32 := 6#32
  let v262 : BitVec 32 := Scalar.andi v261 c6_i32_193
  let c128_i32_194 : BitVec 32 := 128#32
  let v263 : BitVec 32 := Scalar.muli v262 c128_i32_194
  let v264 : BitVec 32 := v263
  v264
def k0_mult23 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_195 : BitVec 32 := 4#32
  let v265 : BitVec 32 := Scalar.xori v11 c4_i32_195
  let c6_i32_196 : BitVec 32 := 6#32
  let v266 : BitVec 32 := Scalar.andi v265 c6_i32_196
  let c128_i32_197 : BitVec 32 := 128#32
  let v267 : BitVec 32 := Scalar.muli v266 c128_i32_197
  let v268 : BitVec 32 := v267
  v268
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_195 : BitVec 32 := 4#32
  let v265 : BitVec 32 := Scalar.xori v11 c4_i32_195
  let c6_i32_196 : BitVec 32 := 6#32
  let v266 : BitVec 32 := Scalar.andi v265 c6_i32_196
  let c128_i32_197 : BitVec 32 := 128#32
  let v267 : BitVec 32 := Scalar.muli v266 c128_i32_197
  let v268 : BitVec 32 := v267
  let v284 : BitVec 32 := v268
  let v285 : Index := Scalar.indexCast v284
  let c0_207 : Index := 0#32
  ![v285.toNat, 0]
def k0_mult24 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_195 : BitVec 32 := 4#32
  let v265 : BitVec 32 := Scalar.xori v11 c4_i32_195
  let c6_i32_196 : BitVec 32 := 6#32
  let v266 : BitVec 32 := Scalar.andi v265 c6_i32_196
  let c128_i32_197 : BitVec 32 := 128#32
  let v267 : BitVec 32 := Scalar.muli v266 c128_i32_197
  let v268 : BitVec 32 := v267
  v268
def k0_mult25 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_192 : BitVec 32 := 4#32
  let v261 : BitVec 32 := Scalar.xori v2 c4_i32_192
  let c6_i32_193 : BitVec 32 := 6#32
  let v262 : BitVec 32 := Scalar.andi v261 c6_i32_193
  let c128_i32_194 : BitVec 32 := 128#32
  let v263 : BitVec 32 := Scalar.muli v262 c128_i32_194
  let v264 : BitVec 32 := v263
  v264
def k0_dev10 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_216 : BitVec 32 := 4#32
  let v299 : BitVec 32 := Scalar.xori v2 c4_i32_216
  let c1_i32_222 : BitVec 32 := 1#32
  let v307 : BitVec 32 := Scalar.muli v299 c1_i32_222
  let v308 : BitVec 32 := Scalar.addi c0_i32_223 v307
  v308.toNat
def k0_mult26 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_195 : BitVec 32 := 4#32
  let v265 : BitVec 32 := Scalar.xori v11 c4_i32_195
  let c6_i32_196 : BitVec 32 := 6#32
  let v266 : BitVec 32 := Scalar.andi v265 c6_i32_196
  let c128_i32_197 : BitVec 32 := 128#32
  let v267 : BitVec 32 := Scalar.muli v266 c128_i32_197
  let v268 : BitVec 32 := v267
  v268
def k0_dev11 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_228 : BitVec 32 := 1#32
  let v315 : BitVec 32 := Scalar.xori v2 c1_i32_228
  let c1_i32_234 : BitVec 32 := 1#32
  let v323 : BitVec 32 := Scalar.muli v315 c1_i32_234
  let v324 : BitVec 32 := Scalar.addi c0_i32_235 v323
  v324.toNat
def k0_mult27 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_192 : BitVec 32 := 4#32
  let v261 : BitVec 32 := Scalar.xori v2 c4_i32_192
  let c6_i32_193 : BitVec 32 := 6#32
  let v262 : BitVec 32 := Scalar.andi v261 c6_i32_193
  let c128_i32_194 : BitVec 32 := 128#32
  let v263 : BitVec 32 := Scalar.muli v262 c128_i32_194
  let v264 : BitVec 32 := v263
  let c256_i32_240 : BitVec 32 := 256#32
  let v331 : BitVec 32 := Scalar.xori v264 c256_i32_240
  v331
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_192 : BitVec 32 := 4#32
  let v261 : BitVec 32 := Scalar.xori v2 c4_i32_192
  let c6_i32_193 : BitVec 32 := 6#32
  let v262 : BitVec 32 := Scalar.andi v261 c6_i32_193
  let c128_i32_194 : BitVec 32 := 128#32
  let v263 : BitVec 32 := Scalar.muli v262 c128_i32_194
  let v264 : BitVec 32 := v263
  let c256_i32_240 : BitVec 32 := 256#32
  let v331 : BitVec 32 := Scalar.xori v264 c256_i32_240
  let v332 : BitVec 32 := v331
  let v333 : Index := Scalar.indexCast v332
  let c0_241 : Index := 0#32
  ![v333.toNat, 0]
def k0_mult28 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_192 : BitVec 32 := 4#32
  let v261 : BitVec 32 := Scalar.xori v2 c4_i32_192
  let c6_i32_193 : BitVec 32 := 6#32
  let v262 : BitVec 32 := Scalar.andi v261 c6_i32_193
  let c128_i32_194 : BitVec 32 := 128#32
  let v263 : BitVec 32 := Scalar.muli v262 c128_i32_194
  let v264 : BitVec 32 := v263
  let c256_i32_240 : BitVec 32 := 256#32
  let v331 : BitVec 32 := Scalar.xori v264 c256_i32_240
  v331
def k0_mult29 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_195 : BitVec 32 := 4#32
  let v265 : BitVec 32 := Scalar.xori v11 c4_i32_195
  let c6_i32_196 : BitVec 32 := 6#32
  let v266 : BitVec 32 := Scalar.andi v265 c6_i32_196
  let c128_i32_197 : BitVec 32 := 128#32
  let v267 : BitVec 32 := Scalar.muli v266 c128_i32_197
  let v268 : BitVec 32 := v267
  let c256_i32_250 : BitVec 32 := 256#32
  let v347 : BitVec 32 := Scalar.xori v268 c256_i32_250
  v347
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_195 : BitVec 32 := 4#32
  let v265 : BitVec 32 := Scalar.xori v11 c4_i32_195
  let c6_i32_196 : BitVec 32 := 6#32
  let v266 : BitVec 32 := Scalar.andi v265 c6_i32_196
  let c128_i32_197 : BitVec 32 := 128#32
  let v267 : BitVec 32 := Scalar.muli v266 c128_i32_197
  let v268 : BitVec 32 := v267
  let c256_i32_250 : BitVec 32 := 256#32
  let v347 : BitVec 32 := Scalar.xori v268 c256_i32_250
  let v348 : BitVec 32 := v347
  let v349 : Index := Scalar.indexCast v348
  let c0_251 : Index := 0#32
  ![v349.toNat, 0]
def k0_mult30 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_195 : BitVec 32 := 4#32
  let v265 : BitVec 32 := Scalar.xori v11 c4_i32_195
  let c6_i32_196 : BitVec 32 := 6#32
  let v266 : BitVec 32 := Scalar.andi v265 c6_i32_196
  let c128_i32_197 : BitVec 32 := 128#32
  let v267 : BitVec 32 := Scalar.muli v266 c128_i32_197
  let v268 : BitVec 32 := v267
  let c256_i32_250 : BitVec 32 := 256#32
  let v347 : BitVec 32 := Scalar.xori v268 c256_i32_250
  v347
def k0_mult31 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_192 : BitVec 32 := 4#32
  let v261 : BitVec 32 := Scalar.xori v2 c4_i32_192
  let c6_i32_193 : BitVec 32 := 6#32
  let v262 : BitVec 32 := Scalar.andi v261 c6_i32_193
  let c128_i32_194 : BitVec 32 := 128#32
  let v263 : BitVec 32 := Scalar.muli v262 c128_i32_194
  let v264 : BitVec 32 := v263
  let c256_i32_260 : BitVec 32 := 256#32
  let v363 : BitVec 32 := Scalar.xori v264 c256_i32_260
  v363
def k0_dev12 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_261 : BitVec 32 := 4#32
  let v364 : BitVec 32 := Scalar.xori v2 c4_i32_261
  let c1_i32_266 : BitVec 32 := 1#32
  let v372 : BitVec 32 := Scalar.muli v364 c1_i32_266
  let v373 : BitVec 32 := Scalar.addi c0_i32_267 v372
  v373.toNat
def k0_mult32 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_195 : BitVec 32 := 4#32
  let v265 : BitVec 32 := Scalar.xori v11 c4_i32_195
  let c6_i32_196 : BitVec 32 := 6#32
  let v266 : BitVec 32 := Scalar.andi v265 c6_i32_196
  let c128_i32_197 : BitVec 32 := 128#32
  let v267 : BitVec 32 := Scalar.muli v266 c128_i32_197
  let v268 : BitVec 32 := v267
  let c256_i32_272 : BitVec 32 := 256#32
  let v380 : BitVec 32 := Scalar.xori v268 c256_i32_272
  v380
def k0_dev13 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_273 : BitVec 32 := 1#32
  let v381 : BitVec 32 := Scalar.xori v2 c1_i32_273
  let c1_i32_279 : BitVec 32 := 1#32
  let v389 : BitVec 32 := Scalar.muli v381 c1_i32_279
  let v390 : BitVec 32 := Scalar.addi c0_i32_280 v389
  v390.toNat
def k0_mult33 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  v131
def k0_mult34 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  v131
def k0_mult35 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  v134
def k0_mult36 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  v134
def k0_mult37 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  let c256_i32_361 : BitVec 32 := 256#32
  let v471 : BitVec 32 := Scalar.xori v131 c256_i32_361
  v471
def k0_mult38 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  let c256_i32_361 : BitVec 32 := 256#32
  let v471 : BitVec 32 := Scalar.xori v131 c256_i32_361
  v471
def k0_mult39 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  let c256_i32_366 : BitVec 32 := 256#32
  let v483 : BitVec 32 := Scalar.xori v134 c256_i32_366
  v483
def k0_mult40 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  let c256_i32_366 : BitVec 32 := 256#32
  let v483 : BitVec 32 := Scalar.xori v134 c256_i32_366
  v483
def k0_mult41 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  let c256_i32_371 : BitVec 32 := 256#32
  let v495 : BitVec 32 := Scalar.xori v131 c256_i32_371
  v495
def k0_dev14 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_373 : BitVec 32 := 4#32
  let v497 : BitVec 32 := Scalar.andi v2 c4_i32_373
  let c3_i32_375 : BitVec 32 := 3#32
  let c3_i32_374 : BitVec 32 := 3#32
  let v498 : BitVec 32 := Scalar.andi v2 c3_i32_374
  let v499 : BitVec 32 := Scalar.subi c3_i32_375 v498
  let v500 : BitVec 32 := Scalar.addi v497 v499
  let c1_i32_381 : BitVec 32 := 1#32
  let v508 : BitVec 32 := Scalar.muli v500 c1_i32_381
  let v509 : BitVec 32 := Scalar.addi c0_i32_382 v508
  v509.toNat
def k0_mult42 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  let c256_i32_372 : BitVec 32 := 256#32
  let v496 : BitVec 32 := Scalar.xori v134 c256_i32_372
  v496
def k0_dev15 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_386 : BitVec 32 := 4#32
  let v516 : BitVec 32 := Scalar.xori v2 c4_i32_386
  let c1_i32_392 : BitVec 32 := 1#32
  let v524 : BitVec 32 := Scalar.muli v516 c1_i32_392
  let v525 : BitVec 32 := Scalar.addi c0_i32_393 v524
  v525.toNat
def k0_mult43 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  v131
def k0_mult44 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  v131
def k0_mult45 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  v134
def k0_mult46 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  v134
def k0_mult47 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  v131
def k0_dev16 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_435 : BitVec 32 := 1#32
  let v574 : BitVec 32 := Scalar.xori v2 c1_i32_435
  let c1_i32_441 : BitVec 32 := 1#32
  let v582 : BitVec 32 := Scalar.muli v574 c1_i32_441
  let v583 : BitVec 32 := Scalar.addi c0_i32_442 v582
  v583.toNat
def k0_mult48 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  v134
def k0_dev17 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_446 : BitVec 32 := 4#32
  let v590 : BitVec 32 := Scalar.andi v2 c4_i32_446
  let c3_i32_448 : BitVec 32 := 3#32
  let c3_i32_447 : BitVec 32 := 3#32
  let v591 : BitVec 32 := Scalar.andi v2 c3_i32_447
  let v592 : BitVec 32 := Scalar.subi c3_i32_448 v591
  let v593 : BitVec 32 := Scalar.addi v590 v592
  let c1_i32_454 : BitVec 32 := 1#32
  let v601 : BitVec 32 := Scalar.muli v593 c1_i32_454
  let v602 : BitVec 32 := Scalar.addi c0_i32_455 v601
  v602.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v129 : BitVec 32 := Scalar.andi v2 c6_i32_90
  let c128_i32_91 : BitVec 32 := 128#32
  let v130 : BitVec 32 := Scalar.muli v129 c128_i32_91
  let v131 : BitVec 32 := v130
  let v629 : Index := Scalar.indexCast v131
  let c0_490 : Index := 0#32
  ![v629.toNat, 0]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_92 : BitVec 32 := 6#32
  let v132 : BitVec 32 := Scalar.andi v11 c6_i32_92
  let c128_i32_93 : BitVec 32 := 128#32
  let v133 : BitVec 32 := Scalar.muli v132 c128_i32_93
  let v134 : BitVec 32 := v133
  let v639 : Index := Scalar.indexCast v134
  let c0_493 : Index := 0#32
  ![v639.toNat, 0]
def k0_mult49 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_500 : BitVec 32 := 6#32
  let v653 : BitVec 32 := Scalar.andi v2 c6_i32_500
  let c128_i32_501 : BitVec 32 := 128#32
  let v654 : BitVec 32 := Scalar.muli v653 c128_i32_501
  v654
def k0_dev18 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_497 : BitVec 32 := 4#32
  let v649 : BitVec 32 := Scalar.andi v2 c4_i32_497
  let c3_i32_499 : BitVec 32 := 3#32
  let c3_i32_498 : BitVec 32 := 3#32
  let v650 : BitVec 32 := Scalar.andi v2 c3_i32_498
  let v651 : BitVec 32 := Scalar.subi c3_i32_499 v650
  let v652 : BitVec 32 := Scalar.addi v649 v651
  let c1_i32_504 : BitVec 32 := 1#32
  let v656 : BitVec 32 := Scalar.muli v652 c1_i32_504
  let v657 : BitVec 32 := Scalar.addi c0_i32_505 v656
  v657.toNat
def k0_mult50 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_509 : BitVec 32 := 6#32
  let v665 : BitVec 32 := Scalar.andi v11 c6_i32_509
  let c128_i32_510 : BitVec 32 := 128#32
  let v666 : BitVec 32 := Scalar.muli v665 c128_i32_510
  v666
def k0_dev19 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_508 : BitVec 32 := 4#32
  let v664 : BitVec 32 := Scalar.xori v2 c4_i32_508
  let c1_i32_513 : BitVec 32 := 1#32
  let v668 : BitVec 32 := Scalar.muli v664 c1_i32_513
  let v669 : BitVec 32 := Scalar.addi c0_i32_514 v668
  v669.toNat
def k0_mult51 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  v677
def k0_mult52 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  v680
def k0_mult53 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  let v678 : BitVec 32 := v677
  v678
def k0_mult54 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  let v678 : BitVec 32 := v677
  v678
def k0_mult55 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  let v681 : BitVec 32 := v680
  v681
def k0_mult56 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  let v681 : BitVec 32 := v680
  v681
def k0_mult57 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_562 : BitVec 32 := 4#32
  let v733 : BitVec 32 := Scalar.andi v2 c4_i32_562
  let c128_i32_563 : BitVec 32 := 128#32
  let v734 : BitVec 32 := Scalar.muli v733 c128_i32_563
  v734
def k0_dev20 (d0 : Dev nD) : Nat :=
  let c0_i32_567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_561 : BitVec 32 := 4#32
  let v732 : BitVec 32 := Scalar.xori v2 c4_i32_561
  let c1_i32_566 : BitVec 32 := 1#32
  let v736 : BitVec 32 := Scalar.muli v732 c1_i32_566
  let v737 : BitVec 32 := Scalar.addi c0_i32_567 v736
  v737.toNat
def k0_mult58 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_571 : BitVec 32 := 4#32
  let v745 : BitVec 32 := Scalar.andi v11 c4_i32_571
  let c128_i32_572 : BitVec 32 := 128#32
  let v746 : BitVec 32 := Scalar.muli v745 c128_i32_572
  v746
def k0_dev21 (d0 : Dev nD) : Nat :=
  let c0_i32_576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_570 : BitVec 32 := 1#32
  let v744 : BitVec 32 := Scalar.xori v2 c1_i32_570
  let c1_i32_575 : BitVec 32 := 1#32
  let v748 : BitVec 32 := Scalar.muli v744 c1_i32_575
  let v749 : BitVec 32 := Scalar.addi c0_i32_576 v748
  v749.toNat
def k0_mult59 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  let v678 : BitVec 32 := v677
  let c256_i32_579 : BitVec 32 := 256#32
  let v756 : BitVec 32 := Scalar.xori v678 c256_i32_579
  v756
def k0_mult60 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  let v678 : BitVec 32 := v677
  let c256_i32_579 : BitVec 32 := 256#32
  let v756 : BitVec 32 := Scalar.xori v678 c256_i32_579
  v756
def k0_mult61 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  let v681 : BitVec 32 := v680
  let c256_i32_589 : BitVec 32 := 256#32
  let v772 : BitVec 32 := Scalar.xori v681 c256_i32_589
  v772
def k0_mult62 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  let v681 : BitVec 32 := v680
  let c256_i32_589 : BitVec 32 := 256#32
  let v772 : BitVec 32 := Scalar.xori v681 c256_i32_589
  v772
def k0_mult63 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_621 : BitVec 32 := 4#32
  let v808 : BitVec 32 := Scalar.xori v2 c4_i32_621
  let c6_i32_622 : BitVec 32 := 6#32
  let v809 : BitVec 32 := Scalar.andi v808 c6_i32_622
  let c128_i32_623 : BitVec 32 := 128#32
  let v810 : BitVec 32 := Scalar.muli v809 c128_i32_623
  v810
def k0_mult64 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_624 : BitVec 32 := 4#32
  let v812 : BitVec 32 := Scalar.xori v11 c4_i32_624
  let c6_i32_625 : BitVec 32 := 6#32
  let v813 : BitVec 32 := Scalar.andi v812 c6_i32_625
  let c128_i32_626 : BitVec 32 := 128#32
  let v814 : BitVec 32 := Scalar.muli v813 c128_i32_626
  v814
def k0_mult65 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_621 : BitVec 32 := 4#32
  let v808 : BitVec 32 := Scalar.xori v2 c4_i32_621
  let c6_i32_622 : BitVec 32 := 6#32
  let v809 : BitVec 32 := Scalar.andi v808 c6_i32_622
  let c128_i32_623 : BitVec 32 := 128#32
  let v810 : BitVec 32 := Scalar.muli v809 c128_i32_623
  let v811 : BitVec 32 := v810
  v811
def k0_mult66 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_621 : BitVec 32 := 4#32
  let v808 : BitVec 32 := Scalar.xori v2 c4_i32_621
  let c6_i32_622 : BitVec 32 := 6#32
  let v809 : BitVec 32 := Scalar.andi v808 c6_i32_622
  let c128_i32_623 : BitVec 32 := 128#32
  let v810 : BitVec 32 := Scalar.muli v809 c128_i32_623
  let v811 : BitVec 32 := v810
  v811
def k0_mult67 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_624 : BitVec 32 := 4#32
  let v812 : BitVec 32 := Scalar.xori v11 c4_i32_624
  let c6_i32_625 : BitVec 32 := 6#32
  let v813 : BitVec 32 := Scalar.andi v812 c6_i32_625
  let c128_i32_626 : BitVec 32 := 128#32
  let v814 : BitVec 32 := Scalar.muli v813 c128_i32_626
  let v815 : BitVec 32 := v814
  v815
def k0_mult68 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_624 : BitVec 32 := 4#32
  let v812 : BitVec 32 := Scalar.xori v11 c4_i32_624
  let c6_i32_625 : BitVec 32 := 6#32
  let v813 : BitVec 32 := Scalar.andi v812 c6_i32_625
  let c128_i32_626 : BitVec 32 := 128#32
  let v814 : BitVec 32 := Scalar.muli v813 c128_i32_626
  let v815 : BitVec 32 := v814
  v815
def k0_mult69 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_621 : BitVec 32 := 4#32
  let v808 : BitVec 32 := Scalar.xori v2 c4_i32_621
  let c6_i32_622 : BitVec 32 := 6#32
  let v809 : BitVec 32 := Scalar.andi v808 c6_i32_622
  let c128_i32_623 : BitVec 32 := 128#32
  let v810 : BitVec 32 := Scalar.muli v809 c128_i32_623
  let v811 : BitVec 32 := v810
  v811
def k0_dev22 (d0 : Dev nD) : Nat :=
  let c0_i32_652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_645 : BitVec 32 := 4#32
  let v846 : BitVec 32 := Scalar.xori v2 c4_i32_645
  let c1_i32_651 : BitVec 32 := 1#32
  let v854 : BitVec 32 := Scalar.muli v846 c1_i32_651
  let v855 : BitVec 32 := Scalar.addi c0_i32_652 v854
  v855.toNat
def k0_mult70 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_624 : BitVec 32 := 4#32
  let v812 : BitVec 32 := Scalar.xori v11 c4_i32_624
  let c6_i32_625 : BitVec 32 := 6#32
  let v813 : BitVec 32 := Scalar.andi v812 c6_i32_625
  let c128_i32_626 : BitVec 32 := 128#32
  let v814 : BitVec 32 := Scalar.muli v813 c128_i32_626
  let v815 : BitVec 32 := v814
  v815
def k0_dev23 (d0 : Dev nD) : Nat :=
  let c0_i32_664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_657 : BitVec 32 := 1#32
  let v862 : BitVec 32 := Scalar.xori v2 c1_i32_657
  let c1_i32_663 : BitVec 32 := 1#32
  let v870 : BitVec 32 := Scalar.muli v862 c1_i32_663
  let v871 : BitVec 32 := Scalar.addi c0_i32_664 v870
  v871.toNat
def k0_mult71 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_621 : BitVec 32 := 4#32
  let v808 : BitVec 32 := Scalar.xori v2 c4_i32_621
  let c6_i32_622 : BitVec 32 := 6#32
  let v809 : BitVec 32 := Scalar.andi v808 c6_i32_622
  let c128_i32_623 : BitVec 32 := 128#32
  let v810 : BitVec 32 := Scalar.muli v809 c128_i32_623
  let v811 : BitVec 32 := v810
  let c256_i32_669 : BitVec 32 := 256#32
  let v878 : BitVec 32 := Scalar.xori v811 c256_i32_669
  v878
def k0_mult72 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_621 : BitVec 32 := 4#32
  let v808 : BitVec 32 := Scalar.xori v2 c4_i32_621
  let c6_i32_622 : BitVec 32 := 6#32
  let v809 : BitVec 32 := Scalar.andi v808 c6_i32_622
  let c128_i32_623 : BitVec 32 := 128#32
  let v810 : BitVec 32 := Scalar.muli v809 c128_i32_623
  let v811 : BitVec 32 := v810
  let c256_i32_669 : BitVec 32 := 256#32
  let v878 : BitVec 32 := Scalar.xori v811 c256_i32_669
  v878
def k0_mult73 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_624 : BitVec 32 := 4#32
  let v812 : BitVec 32 := Scalar.xori v11 c4_i32_624
  let c6_i32_625 : BitVec 32 := 6#32
  let v813 : BitVec 32 := Scalar.andi v812 c6_i32_625
  let c128_i32_626 : BitVec 32 := 128#32
  let v814 : BitVec 32 := Scalar.muli v813 c128_i32_626
  let v815 : BitVec 32 := v814
  let c256_i32_679 : BitVec 32 := 256#32
  let v894 : BitVec 32 := Scalar.xori v815 c256_i32_679
  v894
def k0_mult74 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_624 : BitVec 32 := 4#32
  let v812 : BitVec 32 := Scalar.xori v11 c4_i32_624
  let c6_i32_625 : BitVec 32 := 6#32
  let v813 : BitVec 32 := Scalar.andi v812 c6_i32_625
  let c128_i32_626 : BitVec 32 := 128#32
  let v814 : BitVec 32 := Scalar.muli v813 c128_i32_626
  let v815 : BitVec 32 := v814
  let c256_i32_679 : BitVec 32 := 256#32
  let v894 : BitVec 32 := Scalar.xori v815 c256_i32_679
  v894
def k0_mult75 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_621 : BitVec 32 := 4#32
  let v808 : BitVec 32 := Scalar.xori v2 c4_i32_621
  let c6_i32_622 : BitVec 32 := 6#32
  let v809 : BitVec 32 := Scalar.andi v808 c6_i32_622
  let c128_i32_623 : BitVec 32 := 128#32
  let v810 : BitVec 32 := Scalar.muli v809 c128_i32_623
  let v811 : BitVec 32 := v810
  let c256_i32_689 : BitVec 32 := 256#32
  let v910 : BitVec 32 := Scalar.xori v811 c256_i32_689
  v910
def k0_dev24 (d0 : Dev nD) : Nat :=
  let c0_i32_697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_690 : BitVec 32 := 4#32
  let v911 : BitVec 32 := Scalar.xori v2 c4_i32_690
  let c1_i32_696 : BitVec 32 := 1#32
  let v919 : BitVec 32 := Scalar.muli v911 c1_i32_696
  let v920 : BitVec 32 := Scalar.addi c0_i32_697 v919
  v920.toNat
def k0_mult76 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_624 : BitVec 32 := 4#32
  let v812 : BitVec 32 := Scalar.xori v11 c4_i32_624
  let c6_i32_625 : BitVec 32 := 6#32
  let v813 : BitVec 32 := Scalar.andi v812 c6_i32_625
  let c128_i32_626 : BitVec 32 := 128#32
  let v814 : BitVec 32 := Scalar.muli v813 c128_i32_626
  let v815 : BitVec 32 := v814
  let c256_i32_702 : BitVec 32 := 256#32
  let v927 : BitVec 32 := Scalar.xori v815 c256_i32_702
  v927
def k0_dev25 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_703 : BitVec 32 := 1#32
  let v928 : BitVec 32 := Scalar.xori v2 c1_i32_703
  let c1_i32_709 : BitVec 32 := 1#32
  let v936 : BitVec 32 := Scalar.muli v928 c1_i32_709
  let v937 : BitVec 32 := Scalar.addi c0_i32_710 v936
  v937.toNat
def k0_mult77 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  let v678 : BitVec 32 := v677
  v678
def k0_mult78 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  let v678 : BitVec 32 := v677
  v678
def k0_mult79 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  let v681 : BitVec 32 := v680
  v681
def k0_mult80 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  let v681 : BitVec 32 := v680
  v681
def k0_mult81 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  let v678 : BitVec 32 := v677
  let c256_i32_791 : BitVec 32 := 256#32
  let v1018 : BitVec 32 := Scalar.xori v678 c256_i32_791
  v1018
def k0_mult82 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  let v678 : BitVec 32 := v677
  let c256_i32_791 : BitVec 32 := 256#32
  let v1018 : BitVec 32 := Scalar.xori v678 c256_i32_791
  v1018
def k0_mult83 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  let v681 : BitVec 32 := v680
  let c256_i32_796 : BitVec 32 := 256#32
  let v1030 : BitVec 32 := Scalar.xori v681 c256_i32_796
  v1030
def k0_mult84 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  let v681 : BitVec 32 := v680
  let c256_i32_796 : BitVec 32 := 256#32
  let v1030 : BitVec 32 := Scalar.xori v681 c256_i32_796
  v1030
def k0_mult85 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  let v678 : BitVec 32 := v677
  let c256_i32_801 : BitVec 32 := 256#32
  let v1042 : BitVec 32 := Scalar.xori v678 c256_i32_801
  v1042
def k0_dev26 (d0 : Dev nD) : Nat :=
  let c0_i32_812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_803 : BitVec 32 := 4#32
  let v1044 : BitVec 32 := Scalar.andi v2 c4_i32_803
  let c3_i32_805 : BitVec 32 := 3#32
  let c3_i32_804 : BitVec 32 := 3#32
  let v1045 : BitVec 32 := Scalar.andi v2 c3_i32_804
  let v1046 : BitVec 32 := Scalar.subi c3_i32_805 v1045
  let v1047 : BitVec 32 := Scalar.addi v1044 v1046
  let c1_i32_811 : BitVec 32 := 1#32
  let v1055 : BitVec 32 := Scalar.muli v1047 c1_i32_811
  let v1056 : BitVec 32 := Scalar.addi c0_i32_812 v1055
  v1056.toNat
def k0_mult86 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  let v681 : BitVec 32 := v680
  let c256_i32_802 : BitVec 32 := 256#32
  let v1043 : BitVec 32 := Scalar.xori v681 c256_i32_802
  v1043
def k0_dev27 (d0 : Dev nD) : Nat :=
  let c0_i32_824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_817 : BitVec 32 := 4#32
  let v1063 : BitVec 32 := Scalar.xori v2 c4_i32_817
  let c1_i32_823 : BitVec 32 := 1#32
  let v1071 : BitVec 32 := Scalar.muli v1063 c1_i32_823
  let v1072 : BitVec 32 := Scalar.addi c0_i32_824 v1071
  v1072.toNat
def k0_mult87 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  let v678 : BitVec 32 := v677
  v678
def k0_mult88 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  let v678 : BitVec 32 := v677
  v678
def k0_mult89 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  let v681 : BitVec 32 := v680
  v681
def k0_mult90 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  let v681 : BitVec 32 := v680
  v681
def k0_mult91 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_517 : BitVec 32 := 6#32
  let v676 : BitVec 32 := Scalar.andi v2 c6_i32_517
  let c128_i32_518 : BitVec 32 := 128#32
  let v677 : BitVec 32 := Scalar.muli v676 c128_i32_518
  let v678 : BitVec 32 := v677
  v678
def k0_dev28 (d0 : Dev nD) : Nat :=
  let c0_i32_874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_867 : BitVec 32 := 1#32
  let v1121 : BitVec 32 := Scalar.xori v2 c1_i32_867
  let c1_i32_873 : BitVec 32 := 1#32
  let v1129 : BitVec 32 := Scalar.muli v1121 c1_i32_873
  let v1130 : BitVec 32 := Scalar.addi c0_i32_874 v1129
  v1130.toNat
def k0_mult92 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_519 : BitVec 32 := 6#32
  let v679 : BitVec 32 := Scalar.andi v11 c6_i32_519
  let c128_i32_520 : BitVec 32 := 128#32
  let v680 : BitVec 32 := Scalar.muli v679 c128_i32_520
  let v681 : BitVec 32 := v680
  v681
def k0_dev29 (d0 : Dev nD) : Nat :=
  let c0_i32_887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_878 : BitVec 32 := 4#32
  let v1137 : BitVec 32 := Scalar.andi v2 c4_i32_878
  let c3_i32_880 : BitVec 32 := 3#32
  let c3_i32_879 : BitVec 32 := 3#32
  let v1138 : BitVec 32 := Scalar.andi v2 c3_i32_879
  let v1139 : BitVec 32 := Scalar.subi c3_i32_880 v1138
  let v1140 : BitVec 32 := Scalar.addi v1137 v1139
  let c1_i32_886 : BitVec 32 := 1#32
  let v1148 : BitVec 32 := Scalar.muli v1140 c1_i32_886
  let v1149 : BitVec 32 := Scalar.addi c0_i32_887 v1148
  v1149.toNat
def k0_mult93 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_932 : BitVec 32 := 6#32
  let v1200 : BitVec 32 := Scalar.andi v2 c6_i32_932
  let c128_i32_933 : BitVec 32 := 128#32
  let v1201 : BitVec 32 := Scalar.muli v1200 c128_i32_933
  v1201
def k0_dev30 (d0 : Dev nD) : Nat :=
  let c0_i32_937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_929 : BitVec 32 := 4#32
  let v1196 : BitVec 32 := Scalar.andi v2 c4_i32_929
  let c3_i32_931 : BitVec 32 := 3#32
  let c3_i32_930 : BitVec 32 := 3#32
  let v1197 : BitVec 32 := Scalar.andi v2 c3_i32_930
  let v1198 : BitVec 32 := Scalar.subi c3_i32_931 v1197
  let v1199 : BitVec 32 := Scalar.addi v1196 v1198
  let c1_i32_936 : BitVec 32 := 1#32
  let v1203 : BitVec 32 := Scalar.muli v1199 c1_i32_936
  let v1204 : BitVec 32 := Scalar.addi c0_i32_937 v1203
  v1204.toNat
def k0_mult94 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_941 : BitVec 32 := 6#32
  let v1212 : BitVec 32 := Scalar.andi v11 c6_i32_941
  let c128_i32_942 : BitVec 32 := 128#32
  let v1213 : BitVec 32 := Scalar.muli v1212 c128_i32_942
  v1213
def k0_dev31 (d0 : Dev nD) : Nat :=
  let c0_i32_946 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_940 : BitVec 32 := 4#32
  let v1211 : BitVec 32 := Scalar.xori v2 c4_i32_940
  let c1_i32_945 : BitVec 32 := 1#32
  let v1215 : BitVec 32 := Scalar.muli v1211 c1_i32_945
  let v1216 : BitVec 32 := Scalar.addi c0_i32_946 v1215
  v1216.toNat
def k0_mult95 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v1223 : BitVec 32 := Scalar.andi v2 c6_i32_949
  let c128_i32_950 : BitVec 32 := 128#32
  let v1224 : BitVec 32 := Scalar.muli v1223 c128_i32_950
  v1224
def k0_mult96 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_951 : BitVec 32 := 6#32
  let v1226 : BitVec 32 := Scalar.andi v11 c6_i32_951
  let c128_i32_952 : BitVec 32 := 128#32
  let v1227 : BitVec 32 := Scalar.muli v1226 c128_i32_952
  v1227
def k0_mult97 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v1223 : BitVec 32 := Scalar.andi v2 c6_i32_949
  let c128_i32_950 : BitVec 32 := 128#32
  let v1224 : BitVec 32 := Scalar.muli v1223 c128_i32_950
  let v1225 : BitVec 32 := v1224
  v1225
def k0_mult98 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v1223 : BitVec 32 := Scalar.andi v2 c6_i32_949
  let c128_i32_950 : BitVec 32 := 128#32
  let v1224 : BitVec 32 := Scalar.muli v1223 c128_i32_950
  let v1225 : BitVec 32 := v1224
  v1225
def k0_mult99 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_951 : BitVec 32 := 6#32
  let v1226 : BitVec 32 := Scalar.andi v11 c6_i32_951
  let c128_i32_952 : BitVec 32 := 128#32
  let v1227 : BitVec 32 := Scalar.muli v1226 c128_i32_952
  let v1228 : BitVec 32 := v1227
  v1228
def k0_mult100 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_951 : BitVec 32 := 6#32
  let v1226 : BitVec 32 := Scalar.andi v11 c6_i32_951
  let c128_i32_952 : BitVec 32 := 128#32
  let v1227 : BitVec 32 := Scalar.muli v1226 c128_i32_952
  let v1228 : BitVec 32 := v1227
  v1228
def k0_mult101 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_994 : BitVec 32 := 4#32
  let v1280 : BitVec 32 := Scalar.andi v2 c4_i32_994
  let c128_i32_995 : BitVec 32 := 128#32
  let v1281 : BitVec 32 := Scalar.muli v1280 c128_i32_995
  v1281
def k0_dev32 (d0 : Dev nD) : Nat :=
  let c0_i32_999 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_993 : BitVec 32 := 4#32
  let v1279 : BitVec 32 := Scalar.xori v2 c4_i32_993
  let c1_i32_998 : BitVec 32 := 1#32
  let v1283 : BitVec 32 := Scalar.muli v1279 c1_i32_998
  let v1284 : BitVec 32 := Scalar.addi c0_i32_999 v1283
  v1284.toNat
def k0_mult102 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_1003 : BitVec 32 := 4#32
  let v1292 : BitVec 32 := Scalar.andi v11 c4_i32_1003
  let c128_i32_1004 : BitVec 32 := 128#32
  let v1293 : BitVec 32 := Scalar.muli v1292 c128_i32_1004
  v1293
def k0_dev33 (d0 : Dev nD) : Nat :=
  let c0_i32_1008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1002 : BitVec 32 := 1#32
  let v1291 : BitVec 32 := Scalar.xori v2 c1_i32_1002
  let c1_i32_1007 : BitVec 32 := 1#32
  let v1295 : BitVec 32 := Scalar.muli v1291 c1_i32_1007
  let v1296 : BitVec 32 := Scalar.addi c0_i32_1008 v1295
  v1296.toNat
def k0_mult103 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v1223 : BitVec 32 := Scalar.andi v2 c6_i32_949
  let c128_i32_950 : BitVec 32 := 128#32
  let v1224 : BitVec 32 := Scalar.muli v1223 c128_i32_950
  let v1225 : BitVec 32 := v1224
  let c256_i32_1011 : BitVec 32 := 256#32
  let v1303 : BitVec 32 := Scalar.xori v1225 c256_i32_1011
  v1303
def k0_mult104 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v1223 : BitVec 32 := Scalar.andi v2 c6_i32_949
  let c128_i32_950 : BitVec 32 := 128#32
  let v1224 : BitVec 32 := Scalar.muli v1223 c128_i32_950
  let v1225 : BitVec 32 := v1224
  let c256_i32_1011 : BitVec 32 := 256#32
  let v1303 : BitVec 32 := Scalar.xori v1225 c256_i32_1011
  v1303
def k0_mult105 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_951 : BitVec 32 := 6#32
  let v1226 : BitVec 32 := Scalar.andi v11 c6_i32_951
  let c128_i32_952 : BitVec 32 := 128#32
  let v1227 : BitVec 32 := Scalar.muli v1226 c128_i32_952
  let v1228 : BitVec 32 := v1227
  let c256_i32_1021 : BitVec 32 := 256#32
  let v1319 : BitVec 32 := Scalar.xori v1228 c256_i32_1021
  v1319
def k0_mult106 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_951 : BitVec 32 := 6#32
  let v1226 : BitVec 32 := Scalar.andi v11 c6_i32_951
  let c128_i32_952 : BitVec 32 := 128#32
  let v1227 : BitVec 32 := Scalar.muli v1226 c128_i32_952
  let v1228 : BitVec 32 := v1227
  let c256_i32_1021 : BitVec 32 := 256#32
  let v1319 : BitVec 32 := Scalar.xori v1228 c256_i32_1021
  v1319
def k0_mult107 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1053 : BitVec 32 := 4#32
  let v1355 : BitVec 32 := Scalar.xori v2 c4_i32_1053
  let c6_i32_1054 : BitVec 32 := 6#32
  let v1356 : BitVec 32 := Scalar.andi v1355 c6_i32_1054
  let c128_i32_1055 : BitVec 32 := 128#32
  let v1357 : BitVec 32 := Scalar.muli v1356 c128_i32_1055
  v1357
def k0_mult108 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_1056 : BitVec 32 := 4#32
  let v1359 : BitVec 32 := Scalar.xori v11 c4_i32_1056
  let c6_i32_1057 : BitVec 32 := 6#32
  let v1360 : BitVec 32 := Scalar.andi v1359 c6_i32_1057
  let c128_i32_1058 : BitVec 32 := 128#32
  let v1361 : BitVec 32 := Scalar.muli v1360 c128_i32_1058
  v1361
def k0_mult109 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1053 : BitVec 32 := 4#32
  let v1355 : BitVec 32 := Scalar.xori v2 c4_i32_1053
  let c6_i32_1054 : BitVec 32 := 6#32
  let v1356 : BitVec 32 := Scalar.andi v1355 c6_i32_1054
  let c128_i32_1055 : BitVec 32 := 128#32
  let v1357 : BitVec 32 := Scalar.muli v1356 c128_i32_1055
  let v1358 : BitVec 32 := v1357
  v1358
def k0_mult110 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1053 : BitVec 32 := 4#32
  let v1355 : BitVec 32 := Scalar.xori v2 c4_i32_1053
  let c6_i32_1054 : BitVec 32 := 6#32
  let v1356 : BitVec 32 := Scalar.andi v1355 c6_i32_1054
  let c128_i32_1055 : BitVec 32 := 128#32
  let v1357 : BitVec 32 := Scalar.muli v1356 c128_i32_1055
  let v1358 : BitVec 32 := v1357
  v1358
def k0_mult111 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_1056 : BitVec 32 := 4#32
  let v1359 : BitVec 32 := Scalar.xori v11 c4_i32_1056
  let c6_i32_1057 : BitVec 32 := 6#32
  let v1360 : BitVec 32 := Scalar.andi v1359 c6_i32_1057
  let c128_i32_1058 : BitVec 32 := 128#32
  let v1361 : BitVec 32 := Scalar.muli v1360 c128_i32_1058
  let v1362 : BitVec 32 := v1361
  v1362
def k0_mult112 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_1056 : BitVec 32 := 4#32
  let v1359 : BitVec 32 := Scalar.xori v11 c4_i32_1056
  let c6_i32_1057 : BitVec 32 := 6#32
  let v1360 : BitVec 32 := Scalar.andi v1359 c6_i32_1057
  let c128_i32_1058 : BitVec 32 := 128#32
  let v1361 : BitVec 32 := Scalar.muli v1360 c128_i32_1058
  let v1362 : BitVec 32 := v1361
  v1362
def k0_mult113 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1053 : BitVec 32 := 4#32
  let v1355 : BitVec 32 := Scalar.xori v2 c4_i32_1053
  let c6_i32_1054 : BitVec 32 := 6#32
  let v1356 : BitVec 32 := Scalar.andi v1355 c6_i32_1054
  let c128_i32_1055 : BitVec 32 := 128#32
  let v1357 : BitVec 32 := Scalar.muli v1356 c128_i32_1055
  let v1358 : BitVec 32 := v1357
  v1358
def k0_dev34 (d0 : Dev nD) : Nat :=
  let c0_i32_1084 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1077 : BitVec 32 := 4#32
  let v1393 : BitVec 32 := Scalar.xori v2 c4_i32_1077
  let c1_i32_1083 : BitVec 32 := 1#32
  let v1401 : BitVec 32 := Scalar.muli v1393 c1_i32_1083
  let v1402 : BitVec 32 := Scalar.addi c0_i32_1084 v1401
  v1402.toNat
def k0_mult114 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_1056 : BitVec 32 := 4#32
  let v1359 : BitVec 32 := Scalar.xori v11 c4_i32_1056
  let c6_i32_1057 : BitVec 32 := 6#32
  let v1360 : BitVec 32 := Scalar.andi v1359 c6_i32_1057
  let c128_i32_1058 : BitVec 32 := 128#32
  let v1361 : BitVec 32 := Scalar.muli v1360 c128_i32_1058
  let v1362 : BitVec 32 := v1361
  v1362
def k0_dev35 (d0 : Dev nD) : Nat :=
  let c0_i32_1096 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1089 : BitVec 32 := 1#32
  let v1409 : BitVec 32 := Scalar.xori v2 c1_i32_1089
  let c1_i32_1095 : BitVec 32 := 1#32
  let v1417 : BitVec 32 := Scalar.muli v1409 c1_i32_1095
  let v1418 : BitVec 32 := Scalar.addi c0_i32_1096 v1417
  v1418.toNat
def k0_mult115 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1053 : BitVec 32 := 4#32
  let v1355 : BitVec 32 := Scalar.xori v2 c4_i32_1053
  let c6_i32_1054 : BitVec 32 := 6#32
  let v1356 : BitVec 32 := Scalar.andi v1355 c6_i32_1054
  let c128_i32_1055 : BitVec 32 := 128#32
  let v1357 : BitVec 32 := Scalar.muli v1356 c128_i32_1055
  let v1358 : BitVec 32 := v1357
  let c256_i32_1101 : BitVec 32 := 256#32
  let v1425 : BitVec 32 := Scalar.xori v1358 c256_i32_1101
  v1425
def k0_mult116 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1053 : BitVec 32 := 4#32
  let v1355 : BitVec 32 := Scalar.xori v2 c4_i32_1053
  let c6_i32_1054 : BitVec 32 := 6#32
  let v1356 : BitVec 32 := Scalar.andi v1355 c6_i32_1054
  let c128_i32_1055 : BitVec 32 := 128#32
  let v1357 : BitVec 32 := Scalar.muli v1356 c128_i32_1055
  let v1358 : BitVec 32 := v1357
  let c256_i32_1101 : BitVec 32 := 256#32
  let v1425 : BitVec 32 := Scalar.xori v1358 c256_i32_1101
  v1425
def k0_mult117 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_1056 : BitVec 32 := 4#32
  let v1359 : BitVec 32 := Scalar.xori v11 c4_i32_1056
  let c6_i32_1057 : BitVec 32 := 6#32
  let v1360 : BitVec 32 := Scalar.andi v1359 c6_i32_1057
  let c128_i32_1058 : BitVec 32 := 128#32
  let v1361 : BitVec 32 := Scalar.muli v1360 c128_i32_1058
  let v1362 : BitVec 32 := v1361
  let c256_i32_1111 : BitVec 32 := 256#32
  let v1441 : BitVec 32 := Scalar.xori v1362 c256_i32_1111
  v1441
def k0_mult118 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_1056 : BitVec 32 := 4#32
  let v1359 : BitVec 32 := Scalar.xori v11 c4_i32_1056
  let c6_i32_1057 : BitVec 32 := 6#32
  let v1360 : BitVec 32 := Scalar.andi v1359 c6_i32_1057
  let c128_i32_1058 : BitVec 32 := 128#32
  let v1361 : BitVec 32 := Scalar.muli v1360 c128_i32_1058
  let v1362 : BitVec 32 := v1361
  let c256_i32_1111 : BitVec 32 := 256#32
  let v1441 : BitVec 32 := Scalar.xori v1362 c256_i32_1111
  v1441
def k0_mult119 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1053 : BitVec 32 := 4#32
  let v1355 : BitVec 32 := Scalar.xori v2 c4_i32_1053
  let c6_i32_1054 : BitVec 32 := 6#32
  let v1356 : BitVec 32 := Scalar.andi v1355 c6_i32_1054
  let c128_i32_1055 : BitVec 32 := 128#32
  let v1357 : BitVec 32 := Scalar.muli v1356 c128_i32_1055
  let v1358 : BitVec 32 := v1357
  let c256_i32_1121 : BitVec 32 := 256#32
  let v1457 : BitVec 32 := Scalar.xori v1358 c256_i32_1121
  v1457
def k0_dev36 (d0 : Dev nD) : Nat :=
  let c0_i32_1129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1122 : BitVec 32 := 4#32
  let v1458 : BitVec 32 := Scalar.xori v2 c4_i32_1122
  let c1_i32_1128 : BitVec 32 := 1#32
  let v1466 : BitVec 32 := Scalar.muli v1458 c1_i32_1128
  let v1467 : BitVec 32 := Scalar.addi c0_i32_1129 v1466
  v1467.toNat
def k0_mult120 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c4_i32_1056 : BitVec 32 := 4#32
  let v1359 : BitVec 32 := Scalar.xori v11 c4_i32_1056
  let c6_i32_1057 : BitVec 32 := 6#32
  let v1360 : BitVec 32 := Scalar.andi v1359 c6_i32_1057
  let c128_i32_1058 : BitVec 32 := 128#32
  let v1361 : BitVec 32 := Scalar.muli v1360 c128_i32_1058
  let v1362 : BitVec 32 := v1361
  let c256_i32_1134 : BitVec 32 := 256#32
  let v1474 : BitVec 32 := Scalar.xori v1362 c256_i32_1134
  v1474
def k0_dev37 (d0 : Dev nD) : Nat :=
  let c0_i32_1142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1135 : BitVec 32 := 1#32
  let v1475 : BitVec 32 := Scalar.xori v2 c1_i32_1135
  let c1_i32_1141 : BitVec 32 := 1#32
  let v1483 : BitVec 32 := Scalar.muli v1475 c1_i32_1141
  let v1484 : BitVec 32 := Scalar.addi c0_i32_1142 v1483
  v1484.toNat
def k0_mult121 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v1223 : BitVec 32 := Scalar.andi v2 c6_i32_949
  let c128_i32_950 : BitVec 32 := 128#32
  let v1224 : BitVec 32 := Scalar.muli v1223 c128_i32_950
  let v1225 : BitVec 32 := v1224
  v1225
def k0_mult122 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v1223 : BitVec 32 := Scalar.andi v2 c6_i32_949
  let c128_i32_950 : BitVec 32 := 128#32
  let v1224 : BitVec 32 := Scalar.muli v1223 c128_i32_950
  let v1225 : BitVec 32 := v1224
  v1225
def k0_mult123 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_951 : BitVec 32 := 6#32
  let v1226 : BitVec 32 := Scalar.andi v11 c6_i32_951
  let c128_i32_952 : BitVec 32 := 128#32
  let v1227 : BitVec 32 := Scalar.muli v1226 c128_i32_952
  let v1228 : BitVec 32 := v1227
  v1228
def k0_mult124 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_951 : BitVec 32 := 6#32
  let v1226 : BitVec 32 := Scalar.andi v11 c6_i32_951
  let c128_i32_952 : BitVec 32 := 128#32
  let v1227 : BitVec 32 := Scalar.muli v1226 c128_i32_952
  let v1228 : BitVec 32 := v1227
  v1228
def k0_mult125 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v1223 : BitVec 32 := Scalar.andi v2 c6_i32_949
  let c128_i32_950 : BitVec 32 := 128#32
  let v1224 : BitVec 32 := Scalar.muli v1223 c128_i32_950
  let v1225 : BitVec 32 := v1224
  let c256_i32_1215 : BitVec 32 := 256#32
  let v1553 : BitVec 32 := Scalar.xori v1225 c256_i32_1215
  v1553
def k0_mult126 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v1223 : BitVec 32 := Scalar.andi v2 c6_i32_949
  let c128_i32_950 : BitVec 32 := 128#32
  let v1224 : BitVec 32 := Scalar.muli v1223 c128_i32_950
  let v1225 : BitVec 32 := v1224
  let c256_i32_1215 : BitVec 32 := 256#32
  let v1553 : BitVec 32 := Scalar.xori v1225 c256_i32_1215
  v1553
def k0_mult127 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_951 : BitVec 32 := 6#32
  let v1226 : BitVec 32 := Scalar.andi v11 c6_i32_951
  let c128_i32_952 : BitVec 32 := 128#32
  let v1227 : BitVec 32 := Scalar.muli v1226 c128_i32_952
  let v1228 : BitVec 32 := v1227
  let c256_i32_1220 : BitVec 32 := 256#32
  let v1565 : BitVec 32 := Scalar.xori v1228 c256_i32_1220
  v1565
def k0_mult128 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_951 : BitVec 32 := 6#32
  let v1226 : BitVec 32 := Scalar.andi v11 c6_i32_951
  let c128_i32_952 : BitVec 32 := 128#32
  let v1227 : BitVec 32 := Scalar.muli v1226 c128_i32_952
  let v1228 : BitVec 32 := v1227
  let c256_i32_1220 : BitVec 32 := 256#32
  let v1565 : BitVec 32 := Scalar.xori v1228 c256_i32_1220
  v1565
def k0_mult129 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v1223 : BitVec 32 := Scalar.andi v2 c6_i32_949
  let c128_i32_950 : BitVec 32 := 128#32
  let v1224 : BitVec 32 := Scalar.muli v1223 c128_i32_950
  let v1225 : BitVec 32 := v1224
  let c256_i32_1225 : BitVec 32 := 256#32
  let v1577 : BitVec 32 := Scalar.xori v1225 c256_i32_1225
  v1577
def k0_dev38 (d0 : Dev nD) : Nat :=
  let c0_i32_1236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1227 : BitVec 32 := 4#32
  let v1579 : BitVec 32 := Scalar.andi v2 c4_i32_1227
  let c3_i32_1229 : BitVec 32 := 3#32
  let c3_i32_1228 : BitVec 32 := 3#32
  let v1580 : BitVec 32 := Scalar.andi v2 c3_i32_1228
  let v1581 : BitVec 32 := Scalar.subi c3_i32_1229 v1580
  let v1582 : BitVec 32 := Scalar.addi v1579 v1581
  let c1_i32_1235 : BitVec 32 := 1#32
  let v1590 : BitVec 32 := Scalar.muli v1582 c1_i32_1235
  let v1591 : BitVec 32 := Scalar.addi c0_i32_1236 v1590
  v1591.toNat
def k0_mult130 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_951 : BitVec 32 := 6#32
  let v1226 : BitVec 32 := Scalar.andi v11 c6_i32_951
  let c128_i32_952 : BitVec 32 := 128#32
  let v1227 : BitVec 32 := Scalar.muli v1226 c128_i32_952
  let v1228 : BitVec 32 := v1227
  let c256_i32_1226 : BitVec 32 := 256#32
  let v1578 : BitVec 32 := Scalar.xori v1228 c256_i32_1226
  v1578
def k0_dev39 (d0 : Dev nD) : Nat :=
  let c0_i32_1248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1241 : BitVec 32 := 4#32
  let v1598 : BitVec 32 := Scalar.xori v2 c4_i32_1241
  let c1_i32_1247 : BitVec 32 := 1#32
  let v1606 : BitVec 32 := Scalar.muli v1598 c1_i32_1247
  let v1607 : BitVec 32 := Scalar.addi c0_i32_1248 v1606
  v1607.toNat
def k0_mult131 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v1223 : BitVec 32 := Scalar.andi v2 c6_i32_949
  let c128_i32_950 : BitVec 32 := 128#32
  let v1224 : BitVec 32 := Scalar.muli v1223 c128_i32_950
  let v1225 : BitVec 32 := v1224
  v1225
def k0_mult132 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_949 : BitVec 32 := 6#32
  let v1223 : BitVec 32 := Scalar.andi v2 c6_i32_949
  let c128_i32_950 : BitVec 32 := 128#32
  let v1224 : BitVec 32 := Scalar.muli v1223 c128_i32_950
  let v1225 : BitVec 32 := v1224
  v1225
def k0_mult133 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_951 : BitVec 32 := 6#32
  let v1226 : BitVec 32 := Scalar.andi v11 c6_i32_951
  let c128_i32_952 : BitVec 32 := 128#32
  let v1227 : BitVec 32 := Scalar.muli v1226 c128_i32_952
  let v1228 : BitVec 32 := v1227
  v1228
def k0_mult134 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c6_i32_951 : BitVec 32 := 6#32
  let v1226 : BitVec 32 := Scalar.andi v11 c6_i32_951
  let c128_i32_952 : BitVec 32 := 128#32
  let v1227 : BitVec 32 := Scalar.muli v1226 c128_i32_952
  let v1228 : BitVec 32 := v1227
  v1228
def k0_mult135 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1291 : BitVec 32 := 128#32
  let v1656 : BitVec 32 := Scalar.muli v2 c128_i32_1291
  v1656
def k0_mult136 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c128_i32_1292 : BitVec 32 := 128#32
  let v1658 : BitVec 32 := Scalar.muli v11 c128_i32_1292
  v1658
def k0_mult137 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1291 : BitVec 32 := 128#32
  let v1656 : BitVec 32 := Scalar.muli v2 c128_i32_1291
  let v1657 : BitVec 32 := v1656
  let c128_i32_1293 : BitVec 32 := 128#32
  let v1660 : BitVec 32 := Scalar.xori v1657 c128_i32_1293
  v1660
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1291 : BitVec 32 := 128#32
  let v1656 : BitVec 32 := Scalar.muli v2 c128_i32_1291
  let v1657 : BitVec 32 := v1656
  let c128_i32_1293 : BitVec 32 := 128#32
  let v1660 : BitVec 32 := Scalar.xori v1657 c128_i32_1293
  let v1662 : BitVec 32 := v1660
  let v1663 : Index := Scalar.indexCast v1662
  let c0_1295 : Index := 0#32
  ![v1663.toNat, 0]
def k0_dev40 (d0 : Dev nD) : Nat :=
  let c0_i32_1301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1294 : BitVec 32 := 1#32
  let v1661 : BitVec 32 := Scalar.xori v2 c1_i32_1294
  let c1_i32_1300 : BitVec 32 := 1#32
  let v1669 : BitVec 32 := Scalar.muli v1661 c1_i32_1300
  let v1670 : BitVec 32 := Scalar.addi c0_i32_1301 v1669
  v1670.toNat
def k0_mult138 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c128_i32_1292 : BitVec 32 := 128#32
  let v1658 : BitVec 32 := Scalar.muli v11 c128_i32_1292
  let v1659 : BitVec 32 := v1658
  let c128_i32_1306 : BitVec 32 := 128#32
  let v1677 : BitVec 32 := Scalar.xori v1659 c128_i32_1306
  v1677
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrui v2 c1_i32_0
  let c1_i32_1 : BitVec 32 := 1#32
  let v4 : BitVec 32 := Scalar.andi v3 c1_i32_1
  let c4_i32 : BitVec 32 := 4#32
  let v5 : BitVec 32 := Scalar.andi v2 c4_i32
  let c1_i32_2 : BitVec 32 := 1#32
  let v6 : BitVec 32 := Scalar.shrui v5 c1_i32_2
  let v7 : BitVec 32 := Scalar.ori v4 v6
  let c1_i32_3 : BitVec 32 := 1#32
  let v8 : BitVec 32 := Scalar.andi v2 c1_i32_3
  let v9 : BitVec 32 := Scalar.xori v8 v4
  let c2_i32 : BitVec 32 := 2#32
  let v10 : BitVec 32 := Scalar.shli v9 c2_i32
  let v11 : BitVec 32 := Scalar.ori v7 v10
  let c128_i32_1292 : BitVec 32 := 128#32
  let v1658 : BitVec 32 := Scalar.muli v11 c128_i32_1292
  let v1659 : BitVec 32 := v1658
  let c128_i32_1306 : BitVec 32 := 128#32
  let v1677 : BitVec 32 := Scalar.xori v1659 c128_i32_1306
  let v1682 : BitVec 32 := v1677
  let v1683 : Index := Scalar.indexCast v1682
  let c0_1310 : Index := 0#32
  ![v1683.toNat, 0]
def k0_dev41 (d0 : Dev nD) : Nat :=
  let c0_i32_1316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1307 : BitVec 32 := 4#32
  let v1678 : BitVec 32 := Scalar.andi v2 c4_i32_1307
  let c3_i32_1309 : BitVec 32 := 3#32
  let c3_i32_1308 : BitVec 32 := 3#32
  let v1679 : BitVec 32 := Scalar.andi v2 c3_i32_1308
  let v1680 : BitVec 32 := Scalar.subi c3_i32_1309 v1679
  let v1681 : BitVec 32 := Scalar.addi v1678 v1680
  let c1_i32_1315 : BitVec 32 := 1#32
  let v1689 : BitVec 32 := Scalar.muli v1681 c1_i32_1315
  let v1690 : BitVec 32 := Scalar.addi c0_i32_1316 v1689
  v1690.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  inb_S256x256_S128x256_0_0 : ∀ a, (![0, 0] : Fin 2 → Nat) a + S128x256.size a ≤ S256x256.size a
  h_S128x256 : 0 < S128x256.numel
  shapeCasts_S128x256_S128x256 : S128x256.ShapeCasts S128x256
  bitsLt_bf16_f32 : FTy.bits .bf16 < FTy.bits .f32
  inb_S256x256_S128x256_128_0 : ∀ a, (![128, 0] : Fin 2 → Nat) a + S128x256.size a ≤ S256x256.size a
  hamt_1 : (1#32 : BitVec 32).msb = false
  hamt_3 : (3#32 : BitVec 32).msb = false
  inb_S3_S1_0 : ∀ a, (![0] : Fin 1 → Nat) a + S1.size a ≤ S3.size a
  squeezes_S1_S_ : S1.Squeezes S_
  inb_S256x512_S256x512_0_0 : ∀ a, (![0, 0] : Fin 2 → Nat) a + S256x512.size a ≤ S256x512.size a
  h_S256x512 : 0 < S256x512.numel
  shapeCasts_S256x512_S256x512 : S256x512.ShapeCasts S256x512
  packedbf16_S256x512_S256x512_0_0 : (Rect.unit (s := S256x512) ![0, 0] S256x512.size inb_S256x512_S256x512_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S512x256_S512x256_0_0 : (Rect.unit (s := S512x256) ![0, 0] S512x256.size inb_S512x256_S512x256_0_0).PackedRows (EltTy.packing .bf16)
  inb_S3_S1_1 : ∀ a, (![1] : Fin 1 → Nat) a + S1.size a ≤ S3.size a
  h_S256x256 : 0 < S256x256.numel
  shapeCasts_S256x256_S256x256 : S256x256.ShapeCasts S256x256
  inb_S3_S1_2 : ∀ a, (![2] : Fin 1 → Nat) a + S1.size a ≤ S3.size a
  inb_S512x256_S256x256_0_0 : ∀ a, (![0, 0] : Fin 2 → Nat) a + S256x256.size a ≤ S512x256.size a
  packedbf16_S512x256_S256x256_0_0 : (Rect.unit (s := S512x256) ![0, 0] S256x256.size inb_S512x256_S256x256_0_0).PackedRows (EltTy.packing .bf16)
  inb_S5_S1_0 : ∀ a, (![0] : Fin 1 → Nat) a + S1.size a ≤ S5.size a
  inb_S1280x256_S256x256_0_0 : ∀ a, (![0, 0] : Fin 2 → Nat) a + S256x256.size a ≤ S1280x256.size a
  wordsbf16_S512x256_S256x256_0_0 : (Rect.unit (s := S512x256) ![0, 0] S256x256.size inb_S512x256_S256x256_0_0).WholeWords (EltTy.packing .bf16)
  wordsbf16_S1280x256_S256x256_0_0 : (Rect.unit (s := S1280x256) ![0, 0] S256x256.size inb_S1280x256_S256x256_0_0).WholeWords (EltTy.packing .bf16)
  inb_S512x256_S256x256_256_0 : ∀ a, (![256, 0] : Fin 2 → Nat) a + S256x256.size a ≤ S512x256.size a
  packedbf16_S512x256_S256x256_256_0 : (Rect.unit (s := S512x256) ![256, 0] S256x256.size inb_S512x256_S256x256_256_0).PackedRows (EltTy.packing .bf16)
  inb_S5_S1_4 : ∀ a, (![4] : Fin 1 → Nat) a + S1.size a ≤ S5.size a
  inb_S1280x256_S256x256_256_0 : ∀ a, (![256, 0] : Fin 2 → Nat) a + S256x256.size a ≤ S1280x256.size a
  wordsbf16_S512x256_S256x256_256_0 : (Rect.unit (s := S512x256) ![256, 0] S256x256.size inb_S512x256_S256x256_256_0).WholeWords (EltTy.packing .bf16)
  wordsbf16_S1280x256_S256x256_256_0 : (Rect.unit (s := S1280x256) ![256, 0] S256x256.size inb_S1280x256_S256x256_256_0).WholeWords (EltTy.packing .bf16)
  inb_S5_S1_1 : ∀ a, (![1] : Fin 1 → Nat) a + S1.size a ≤ S5.size a
  inb_S1280x256_S256x256_512_0 : ∀ a, (![512, 0] : Fin 2 → Nat) a + S256x256.size a ≤ S1280x256.size a
  wordsbf16_S1280x256_S256x256_512_0 : (Rect.unit (s := S1280x256) ![512, 0] S256x256.size inb_S1280x256_S256x256_512_0).WholeWords (EltTy.packing .bf16)
  inb_S5_S1_2 : ∀ a, (![2] : Fin 1 → Nat) a + S1.size a ≤ S5.size a
  inb_S1280x256_S256x256_768_0 : ∀ a, (![768, 0] : Fin 2 → Nat) a + S256x256.size a ≤ S1280x256.size a
  wordsbf16_S1280x256_S256x256_768_0 : (Rect.unit (s := S1280x256) ![768, 0] S256x256.size inb_S1280x256_S256x256_768_0).WholeWords (EltTy.packing .bf16)
  inb_S5_S1_3 : ∀ a, (![3] : Fin 1 → Nat) a + S1.size a ≤ S5.size a
  inb_S1280x256_S256x256_1024_0 : ∀ a, (![1024, 0] : Fin 2 → Nat) a + S256x256.size a ≤ S1280x256.size a
  wordsbf16_S1280x256_S256x256_1024_0 : (Rect.unit (s := S1280x256) ![1024, 0] S256x256.size inb_S1280x256_S256x256_1024_0).WholeWords (EltTy.packing .bf16)
  inb_S512x256_S128x256_0_0 : ∀ a, (![0, 0] : Fin 2 → Nat) a + S128x256.size a ≤ S512x256.size a
  packedbf16_S512x256_S128x256_0_0 : (Rect.unit (s := S512x256) ![0, 0] S128x256.size inb_S512x256_S128x256_0_0).PackedRows (EltTy.packing .bf16)
  inb_S1280x256_S128x256_768_0 : ∀ a, (![768, 0] : Fin 2 → Nat) a + S128x256.size a ≤ S1280x256.size a
  wordsbf16_S512x256_S128x256_0_0 : (Rect.unit (s := S512x256) ![0, 0] S128x256.size inb_S512x256_S128x256_0_0).WholeWords (EltTy.packing .bf16)
  wordsbf16_S1280x256_S128x256_768_0 : (Rect.unit (s := S1280x256) ![768, 0] S128x256.size inb_S1280x256_S128x256_768_0).WholeWords (EltTy.packing .bf16)
  dot_S256x256_S256x512_S256x512_1_0_0_1_n_n_wf : DotDims.WF S256x256 S256x512 S256x512 [1] [0] [0] [1] [] []
  dot_S256x512_S512x256_S256x256_1_0_0_1_n_n_wf : DotDims.WF S256x512 S512x256 S256x256 [1] [0] [0] [1] [] []
  hcc0_scratch10 : 8 + S3.numel ≤ 40
  hcc0_scratch11 : 11 + S3.numel ≤ 40
  hcc0_scratch12 : 14 + S3.numel ≤ 40
  hcc0_scratch13 : 17 + S3.numel ≤ 40
  hcc0_scratch14 : 20 + S5.numel ≤ 40
  hcc0_scratch15 : 25 + S5.numel ≤ 40
  hcc0_scratch16 : 30 + S5.numel ≤ 40
  hcc0_scratch17 : 35 + S5.numel ≤ 40
  k0_mult1_dvd : ∀ d0 : Dev nD, 128 ∣ (k0_mult1 d0).toNat
  k0_off1_inb : ∀ d0 : Dev nD, ∀ a, (k0_off1 d0) a + S128x256.size a ≤ S1024x256.size a
  k0_off1_packedbf16 : ∀ d0 : Dev nD, (Rect.unit (s := S1024x256) (k0_off1 d0) S128x256.size (k0_off1_inb d0)).PackedRows (EltTy.packing .bf16)
  k0_mult2_dvd : ∀ d0 : Dev nD, 128 ∣ (k0_mult2 d0).toNat
  k0_off2_inb : ∀ d0 : Dev nD, ∀ a, (k0_off2 d0) a + S128x256.size a ≤ S1024x256.size a
  k0_off2_packedbf16 : ∀ d0 : Dev nD, (Rect.unit (s := S1024x256) (k0_off2 d0) S128x256.size (k0_off2_inb d0)).PackedRows (EltTy.packing .bf16)
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_mult3_dvd : ∀ d0 : Dev nD, 128 ∣ (k0_mult3 d0).toNat
  k0_off3_inb : ∀ d0 : Dev nD, ∀ a, (k0_off3 d0) a + S128x256.size a ≤ S1024x256.size a
  k0_off3_wordsbf16 : ∀ d0 : Dev nD, (Rect.unit (s := S1024x256) (k0_off3 d0) S128x256.size (k0_off3_inb d0)).WholeWords (EltTy.packing .bf16)
  k0_dev4_lt : ∀ d0 : Dev nD, (k0_dev4 d0) < nD
  k0_mult4_dvd : ∀ d0 : Dev nD, 128 ∣ (k0_mult4 d0).toNat
  k0_off4_inb : ∀ d0 : Dev nD, ∀ a, (k0_off4 d0) a + S128x256.size a ≤ S1024x256.size a
  k0_off4_wordsbf16 : ∀ d0 : Dev nD, (Rect.unit (s := S1024x256) (k0_off4 d0) S128x256.size (k0_off4_inb d0)).WholeWords (EltTy.packing .bf16)
  k0_dev5_lt : ∀ d0 : Dev nD, (k0_dev5 d0) < nD
  k0_mult5_dvd : ∀ d0 : Dev nD, 128 ∣ (k0_mult5 d0).toNat
  k0_off5_inb : ∀ d0 : Dev nD, ∀ a, (k0_off5 d0) a + S256x256.size a ≤ S1024x256.size a
  k0_off5_wordsbf16 : ∀ d0 : Dev nD, (Rect.unit (s := S1024x256) (k0_off5 d0) S256x256.size (k0_off5_inb d0)).WholeWords (EltTy.packing .bf16)
  k0_dev6_lt : ∀ d0 : Dev nD, (k0_dev6 d0) < nD
  k0_mult6_dvd : ∀ d0 : Dev nD, 128 ∣ (k0_mult6 d0).toNat
  k0_off6_inb : ∀ d0 : Dev nD, ∀ a, (k0_off6 d0) a + S256x256.size a ≤ S1024x256.size a
  k0_off6_wordsbf16 : ∀ d0 : Dev nD, (Rect.unit (s := S1024x256) (k0_off6 d0) S256x256.size (k0_off6_inb d0)).WholeWords (EltTy.packing .bf16)
  k0_dev7_lt : ∀ d0 : Dev nD, (k0_dev7 d0) < nD
  k0_mult7_dvd : ∀ d0 : Dev nD, 128 ∣ (k0_mult7 d0).toNat
  k0_mult8_dvd : ∀ d0 : Dev nD, 128 ∣ (k0_mult8 d0).toNat
  k0_mult9_dvd : ∀ d0 : Dev nD, 128 ∣ (k0_mult9 d0).toNat
  k0_off7_inb : ∀ d0 : Dev nD, ∀ a, (k0_off7 d0) a + S256x256.size a ≤ S1024x256.size a
  k0_mult10_dvd : ∀ d0 : Dev nD, 128 ∣ (k0_mult10 d0).toNat
  k0_mult11_dvd : ∀ d0 : Dev nD, 128 ∣ (k0_mult11 d0).toNat
  k0_off8_inb : ∀ d0 : Dev nD, ∀ a, (k0_off8 d0) a + S256x256.size a ≤ S1024x256.size a
  k0_mult12_dvd : ∀ d0 : Dev nD, 128 ∣ (k0_mult12 d0).toNat
  k0_mult13_dvd : ∀ d0 : Dev nD, 128 ∣ (k0_mult13 d0).toNat
  k0_off9_inb : ∀ d0 : Dev nD, ∀ a, (k0_off9 d0) a + S512x256.size a ≤ S1024x256.size a
  k0_off9_wordsbf16 : ∀ d0 : Dev nD, (Rect.unit (s := S1024x256) (k0_off9 d0) S512x256.size (k0_off9_inb d0)).WholeWords (EltTy.packing .bf16)
  k0_dev8_lt : ∀ d0 : Dev nD, (k0_dev8 d0) < nD
  k0_mult14_dvd : ∀ d0 : Dev nD, 128 ∣ (k0_mult14 d0).toNat
  k0_off10_inb : ∀ d0 : Dev nD, ∀ a, (k0_off10 d0) a + S512x256.size a ≤ S1024x256.size a
  k0_off10_wordsbf16 : ∀ d0 : Dev nD, (Rect.unit (s := S1024x256) (k0_off10 d0) S512x256.size (k0_off10_inb d0)).WholeWords (EltTy.packing .bf16)
  k0_dev9_lt : ∀ d0 : Dev nD, (k0_dev9 d0) < nD
  k0_mult15_dvd : ∀ d0 : Dev nD, 128 ∣ (k0_mult15 d0).toNat
  k0_off11_inb : ∀ d0 : Dev nD, ∀ a, (k0_off11 d0) a + S256x256.size a ≤ S1024x256.size a
  k0_mult16_dvd : ∀ d0 : Dev nD, 128 ∣ (k0_mult16 d0).toNat
  k0_mult17_dvd : ∀ d0 : Dev nD, 128 ∣ (k0_mult17 d0).toNat
  k0_off12_inb : ∀ d0 : Dev nD, ∀ a, (k0_off12 d0) a + S256x256.size a ≤ S1024x256.size a
  k0_mult18_dvd : ∀ d0 : Dev nD, 128 ∣ (k0_mult18 d0).toNat
  k0_mult19_dvd : ∀ d0 : Dev nD, 128 ∣ (k0_mult19 d0).toNat
  k0_mult20_dvd : ∀ d0 : Dev nD, 128 ∣ (k0_mult20 d0).toNat
  k0_mult21_dvd : ∀ d0 : Dev nD, 128 ∣ (k0_mult21 d0).toNat
  k0_off13_inb : ∀ d0 : Dev nD, ∀ a, (k0_off13 d0) a + S256x256.size a ≤ S1024x256.size a
  k0_mult22_dvd : ∀ d0 : Dev nD, 128 ∣ (k0_mult22 d0).toNat
  k0_mult23_dvd : ∀ d0 : Dev nD, 128 ∣ (k0_mult23 d0).toNat
  k0_off14_inb : ∀ d0 : Dev nD, ∀ a, (k0_off14 d0) a + S256x256.size a ≤ S1024x256.size a
  k0_mult24_dvd : ∀ d0 : Dev nD, 128 ∣ (k0_mult24 d0).toNat
  k0_mult25_dvd : ∀ d0 : Dev nD, 128 ∣ (k0_mult25 d0).toNat
  k0_dev10_lt : ∀ d0 : Dev nD, (k0_dev10 d0) < nD
  k0_mult26_dvd : ∀ d0 : Dev nD, 128 ∣ (k0_mult26 d0).toNat
  k0_dev11_lt : ∀ d0 : Dev nD, (k0_dev11 d0) < nD
  k0_mult27_dvd : ∀ d0 : Dev nD, 128 ∣ (k0_mult27 d0).toNat
  k0_off15_inb : ∀ d0 : Dev nD, ∀ a, (k0_off15 d0) a + S256x256.size a ≤ S1024x256.size a
  k0_mult28_dvd : ∀ d0 : Dev nD, 128 ∣ (k0_mult28 d0).toNat
  k0_mult29_dvd : ∀ d0 : Dev nD, 128 ∣ (k0_mult29 d0).toNat
  k0_off16_inb : ∀ d0 : Dev nD, ∀ a, (k0_off16 d0) a + S256x256.size a ≤ S1024x256.size a
  k0_mult30_dvd : ∀ d0 : Dev nD, 128 ∣ (k0_mult30 d0).toNat
  k0_mult31_dvd : ∀ d0 : Dev nD, 128 ∣ (k0_mult31 d0).toNat
  k0_dev12_lt : ∀ d0 : Dev nD, (k0_dev12 d0) < nD
  k0_mult32_dvd : ∀ d0 : Dev nD, 128 ∣ (k0_mult32 d0).toNat
  k0_dev13_lt : ∀ d0 : Dev nD, (k0_dev13 d0) < nD
  k0_mult33_dvd : ∀ d0 : Dev nD, 128 ∣ (k0_mult33 d0).toNat
  k0_mult34_dvd : ∀ d0 : Dev nD, 128 ∣ (k0_mult34 d0).toNat
  k0_mult35_dvd : ∀ d0 : Dev nD, 128 ∣ (k0_mult35 d0).toNat
  k0_mult36_dvd : ∀ d0 : Dev nD, 128 ∣ (k0_mult36 d0).toNat
  k0_mult37_dvd : ∀ d0 : Dev nD, 128 ∣ (k0_mult37 d0).toNat
  k0_mult38_dvd : ∀ d0 : Dev nD, 128 ∣ (k0_mult38 d0).toNat
  k0_mult39_dvd : ∀ d0 : Dev nD, 128 ∣ (k0_mult39 d0).toNat
  k0_mult40_dvd : ∀ d0 : Dev nD, 128 ∣ (k0_mult40 d0).toNat
  k0_mult41_dvd : ∀ d0 : Dev nD, 128 ∣ (k0_mult41 d0).toNat
  k0_dev14_lt : ∀ d0 : Dev nD, (k0_dev14 d0) < nD
  k0_mult42_dvd : ∀ d0 : Dev nD, 128 ∣ (k0_mult42 d0).toNat
  k0_dev15_lt : ∀ d0 : Dev nD, (k0_dev15 d0) < nD
  k0_mult43_dvd : ∀ d0 : Dev nD, 128 ∣ (k0_mult43 d0).toNat
  k0_mult44_dvd : ∀ d0 : Dev nD, 128 ∣ (k0_mult44 d0).toNat
  k0_mult45_dvd : ∀ d0 : Dev nD, 128 ∣ (k0_mult45 d0).toNat
  k0_mult46_dvd : ∀ d0 : Dev nD, 128 ∣ (k0_mult46 d0).toNat
  k0_mult47_dvd : ∀ d0 : Dev nD, 128 ∣ (k0_mult47 d0).toNat
  k0_dev16_lt : ∀ d0 : Dev nD, (k0_dev16 d0) < nD
  k0_mult48_dvd : ∀ d0 : Dev nD, 128 ∣ (k0_mult48 d0).toNat
  k0_dev17_lt : ∀ d0 : Dev nD, (k0_dev17 d0) < nD
  k0_off17_inb : ∀ d0 : Dev nD, ∀ a, (k0_off17 d0) a + S256x256.size a ≤ S1024x256.size a
  k0_off17_packedbf16 : ∀ d0 : Dev nD, (Rect.unit (s := S1024x256) (k0_off17 d0) S256x256.size (k0_off17_inb d0)).PackedRows (EltTy.packing .bf16)
  k0_off18_inb : ∀ d0 : Dev nD, ∀ a, (k0_off18 d0) a + S256x256.size a ≤ S1024x256.size a
  k0_off18_packedbf16 : ∀ d0 : Dev nD, (Rect.unit (s := S1024x256) (k0_off18 d0) S256x256.size (k0_off18_inb d0)).PackedRows (EltTy.packing .bf16)
  k0_mult49_dvd : ∀ d0 : Dev nD, 128 ∣ (k0_mult49 d0).toNat
  k0_dev18_lt : ∀ d0 : Dev nD, (k0_dev18 d0) < nD
  k0_mult50_dvd : ∀ d0 : Dev nD, 128 ∣ (k0_mult50 d0).toNat
  k0_dev19_lt : ∀ d0 : Dev nD, (k0_dev19 d0) < nD
  k0_mult51_dvd : ∀ d0 : Dev nD, 128 ∣ (k0_mult51 d0).toNat
  k0_mult52_dvd : ∀ d0 : Dev nD, 128 ∣ (k0_mult52 d0).toNat
  k0_mult53_dvd : ∀ d0 : Dev nD, 128 ∣ (k0_mult53 d0).toNat
  k0_mult54_dvd : ∀ d0 : Dev nD, 128 ∣ (k0_mult54 d0).toNat
  k0_mult55_dvd : ∀ d0 : Dev nD, 128 ∣ (k0_mult55 d0).toNat
  k0_mult56_dvd : ∀ d0 : Dev nD, 128 ∣ (k0_mult56 d0).toNat
  k0_mult57_dvd : ∀ d0 : Dev nD, 128 ∣ (k0_mult57 d0).toNat
  k0_dev20_lt : ∀ d0 : Dev nD, (k0_dev20 d0) < nD
  k0_mult58_dvd : ∀ d0 : Dev nD, 128 ∣ (k0_mult58 d0).toNat
  k0_dev21_lt : ∀ d0 : Dev nD, (k0_dev21 d0) < nD
  k0_mult59_dvd : ∀ d0 : Dev nD, 128 ∣ (k0_mult59 d0).toNat
  k0_mult60_dvd : ∀ d0 : Dev nD, 128 ∣ (k0_mult60 d0).toNat
  k0_mult61_dvd : ∀ d0 : Dev nD, 128 ∣ (k0_mult61 d0).toNat
  k0_mult62_dvd : ∀ d0 : Dev nD, 128 ∣ (k0_mult62 d0).toNat
  k0_mult63_dvd : ∀ d0 : Dev nD, 128 ∣ (k0_mult63 d0).toNat
  k0_mult64_dvd : ∀ d0 : Dev nD, 128 ∣ (k0_mult64 d0).toNat
  k0_mult65_dvd : ∀ d0 : Dev nD, 128 ∣ (k0_mult65 d0).toNat
  k0_mult66_dvd : ∀ d0 : Dev nD, 128 ∣ (k0_mult66 d0).toNat
  k0_mult67_dvd : ∀ d0 : Dev nD, 128 ∣ (k0_mult67 d0).toNat
  k0_mult68_dvd : ∀ d0 : Dev nD, 128 ∣ (k0_mult68 d0).toNat
  k0_mult69_dvd : ∀ d0 : Dev nD, 128 ∣ (k0_mult69 d0).toNat
  k0_dev22_lt : ∀ d0 : Dev nD, (k0_dev22 d0) < nD
  k0_mult70_dvd : ∀ d0 : Dev nD, 128 ∣ (k0_mult70 d0).toNat
  k0_dev23_lt : ∀ d0 : Dev nD, (k0_dev23 d0) < nD
  k0_mult71_dvd : ∀ d0 : Dev nD, 128 ∣ (k0_mult71 d0).toNat
  k0_mult72_dvd : ∀ d0 : Dev nD, 128 ∣ (k0_mult72 d0).toNat
  k0_mult73_dvd : ∀ d0 : Dev nD, 128 ∣ (k0_mult73 d0).toNat
  k0_mult74_dvd : ∀ d0 : Dev nD, 128 ∣ (k0_mult74 d0).toNat
  k0_mult75_dvd : ∀ d0 : Dev nD, 128 ∣ (k0_mult75 d0).toNat
  k0_dev24_lt : ∀ d0 : Dev nD, (k0_dev24 d0) < nD
  k0_mult76_dvd : ∀ d0 : Dev nD, 128 ∣ (k0_mult76 d0).toNat
  k0_dev25_lt : ∀ d0 : Dev nD, (k0_dev25 d0) < nD
  k0_mult77_dvd : ∀ d0 : Dev nD, 128 ∣ (k0_mult77 d0).toNat
  k0_mult78_dvd : ∀ d0 : Dev nD, 128 ∣ (k0_mult78 d0).toNat
  k0_mult79_dvd : ∀ d0 : Dev nD, 128 ∣ (k0_mult79 d0).toNat
  k0_mult80_dvd : ∀ d0 : Dev nD, 128 ∣ (k0_mult80 d0).toNat
  k0_mult81_dvd : ∀ d0 : Dev nD, 128 ∣ (k0_mult81 d0).toNat
  k0_mult82_dvd : ∀ d0 : Dev nD, 128 ∣ (k0_mult82 d0).toNat
  k0_mult83_dvd : ∀ d0 : Dev nD, 128 ∣ (k0_mult83 d0).toNat
  k0_mult84_dvd : ∀ d0 : Dev nD, 128 ∣ (k0_mult84 d0).toNat
  k0_mult85_dvd : ∀ d0 : Dev nD, 128 ∣ (k0_mult85 d0).toNat
  k0_dev26_lt : ∀ d0 : Dev nD, (k0_dev26 d0) < nD
  k0_mult86_dvd : ∀ d0 : Dev nD, 128 ∣ (k0_mult86 d0).toNat
  k0_dev27_lt : ∀ d0 : Dev nD, (k0_dev27 d0) < nD
  k0_mult87_dvd : ∀ d0 : Dev nD, 128 ∣ (k0_mult87 d0).toNat
  k0_mult88_dvd : ∀ d0 : Dev nD, 128 ∣ (k0_mult88 d0).toNat
  k0_mult89_dvd : ∀ d0 : Dev nD, 128 ∣ (k0_mult89 d0).toNat
  k0_mult90_dvd : ∀ d0 : Dev nD, 128 ∣ (k0_mult90 d0).toNat
  k0_mult91_dvd : ∀ d0 : Dev nD, 128 ∣ (k0_mult91 d0).toNat
  k0_dev28_lt : ∀ d0 : Dev nD, (k0_dev28 d0) < nD
  k0_mult92_dvd : ∀ d0 : Dev nD, 128 ∣ (k0_mult92 d0).toNat
  k0_dev29_lt : ∀ d0 : Dev nD, (k0_dev29 d0) < nD
  k0_mult93_dvd : ∀ d0 : Dev nD, 128 ∣ (k0_mult93 d0).toNat
  k0_dev30_lt : ∀ d0 : Dev nD, (k0_dev30 d0) < nD
  k0_mult94_dvd : ∀ d0 : Dev nD, 128 ∣ (k0_mult94 d0).toNat
  k0_dev31_lt : ∀ d0 : Dev nD, (k0_dev31 d0) < nD
  k0_mult95_dvd : ∀ d0 : Dev nD, 128 ∣ (k0_mult95 d0).toNat
  k0_mult96_dvd : ∀ d0 : Dev nD, 128 ∣ (k0_mult96 d0).toNat
  k0_mult97_dvd : ∀ d0 : Dev nD, 128 ∣ (k0_mult97 d0).toNat
  k0_mult98_dvd : ∀ d0 : Dev nD, 128 ∣ (k0_mult98 d0).toNat
  k0_mult99_dvd : ∀ d0 : Dev nD, 128 ∣ (k0_mult99 d0).toNat
  k0_mult100_dvd : ∀ d0 : Dev nD, 128 ∣ (k0_mult100 d0).toNat
  k0_mult101_dvd : ∀ d0 : Dev nD, 128 ∣ (k0_mult101 d0).toNat
  k0_dev32_lt : ∀ d0 : Dev nD, (k0_dev32 d0) < nD
  k0_mult102_dvd : ∀ d0 : Dev nD, 128 ∣ (k0_mult102 d0).toNat
  k0_dev33_lt : ∀ d0 : Dev nD, (k0_dev33 d0) < nD
  k0_mult103_dvd : ∀ d0 : Dev nD, 128 ∣ (k0_mult103 d0).toNat
  k0_mult104_dvd : ∀ d0 : Dev nD, 128 ∣ (k0_mult104 d0).toNat
  k0_mult105_dvd : ∀ d0 : Dev nD, 128 ∣ (k0_mult105 d0).toNat
  k0_mult106_dvd : ∀ d0 : Dev nD, 128 ∣ (k0_mult106 d0).toNat
  k0_mult107_dvd : ∀ d0 : Dev nD, 128 ∣ (k0_mult107 d0).toNat
  k0_mult108_dvd : ∀ d0 : Dev nD, 128 ∣ (k0_mult108 d0).toNat
  k0_mult109_dvd : ∀ d0 : Dev nD, 128 ∣ (k0_mult109 d0).toNat
  k0_mult110_dvd : ∀ d0 : Dev nD, 128 ∣ (k0_mult110 d0).toNat
  k0_mult111_dvd : ∀ d0 : Dev nD, 128 ∣ (k0_mult111 d0).toNat
  k0_mult112_dvd : ∀ d0 : Dev nD, 128 ∣ (k0_mult112 d0).toNat
  k0_mult113_dvd : ∀ d0 : Dev nD, 128 ∣ (k0_mult113 d0).toNat
  k0_dev34_lt : ∀ d0 : Dev nD, (k0_dev34 d0) < nD
  k0_mult114_dvd : ∀ d0 : Dev nD, 128 ∣ (k0_mult114 d0).toNat
  k0_dev35_lt : ∀ d0 : Dev nD, (k0_dev35 d0) < nD
  k0_mult115_dvd : ∀ d0 : Dev nD, 128 ∣ (k0_mult115 d0).toNat
  k0_mult116_dvd : ∀ d0 : Dev nD, 128 ∣ (k0_mult116 d0).toNat
  k0_mult117_dvd : ∀ d0 : Dev nD, 128 ∣ (k0_mult117 d0).toNat
  k0_mult118_dvd : ∀ d0 : Dev nD, 128 ∣ (k0_mult118 d0).toNat
  k0_mult119_dvd : ∀ d0 : Dev nD, 128 ∣ (k0_mult119 d0).toNat
  k0_dev36_lt : ∀ d0 : Dev nD, (k0_dev36 d0) < nD
  k0_mult120_dvd : ∀ d0 : Dev nD, 128 ∣ (k0_mult120 d0).toNat
  k0_dev37_lt : ∀ d0 : Dev nD, (k0_dev37 d0) < nD
  k0_mult121_dvd : ∀ d0 : Dev nD, 128 ∣ (k0_mult121 d0).toNat
  k0_mult122_dvd : ∀ d0 : Dev nD, 128 ∣ (k0_mult122 d0).toNat
  k0_mult123_dvd : ∀ d0 : Dev nD, 128 ∣ (k0_mult123 d0).toNat
  k0_mult124_dvd : ∀ d0 : Dev nD, 128 ∣ (k0_mult124 d0).toNat
  k0_mult125_dvd : ∀ d0 : Dev nD, 128 ∣ (k0_mult125 d0).toNat
  k0_mult126_dvd : ∀ d0 : Dev nD, 128 ∣ (k0_mult126 d0).toNat
  k0_mult127_dvd : ∀ d0 : Dev nD, 128 ∣ (k0_mult127 d0).toNat
  k0_mult128_dvd : ∀ d0 : Dev nD, 128 ∣ (k0_mult128 d0).toNat
  k0_mult129_dvd : ∀ d0 : Dev nD, 128 ∣ (k0_mult129 d0).toNat
  k0_dev38_lt : ∀ d0 : Dev nD, (k0_dev38 d0) < nD
  k0_mult130_dvd : ∀ d0 : Dev nD, 128 ∣ (k0_mult130 d0).toNat
  k0_dev39_lt : ∀ d0 : Dev nD, (k0_dev39 d0) < nD
  k0_mult131_dvd : ∀ d0 : Dev nD, 128 ∣ (k0_mult131 d0).toNat
  k0_mult132_dvd : ∀ d0 : Dev nD, 128 ∣ (k0_mult132 d0).toNat
  k0_mult133_dvd : ∀ d0 : Dev nD, 128 ∣ (k0_mult133 d0).toNat
  k0_mult134_dvd : ∀ d0 : Dev nD, 128 ∣ (k0_mult134 d0).toNat
  k0_mult135_dvd : ∀ d0 : Dev nD, 128 ∣ (k0_mult135 d0).toNat
  k0_mult136_dvd : ∀ d0 : Dev nD, 128 ∣ (k0_mult136 d0).toNat
  k0_mult137_dvd : ∀ d0 : Dev nD, 128 ∣ (k0_mult137 d0).toNat
  k0_off19_inb : ∀ d0 : Dev nD, ∀ a, (k0_off19 d0) a + S128x256.size a ≤ S1024x256.size a
  k0_dev40_lt : ∀ d0 : Dev nD, (k0_dev40 d0) < nD
  k0_mult138_dvd : ∀ d0 : Dev nD, 128 ∣ (k0_mult138 d0).toNat
  k0_off20_inb : ∀ d0 : Dev nD, ∀ a, (k0_off20 d0) a + S128x256.size a ≤ S1024x256.size a
  k0_dev41_lt : ∀ d0 : Dev nD, (k0_dev41 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scratch10 : DmaSems sig S3 := SemArray.consecutive 8 S3 hcc0_scratch10
abbrev cc0_scratch11 : DmaSems sig S3 := SemArray.consecutive 11 S3 hcc0_scratch11
abbrev cc0_scratch12 : DmaSems sig S3 := SemArray.consecutive 14 S3 hcc0_scratch12
abbrev cc0_scratch13 : DmaSems sig S3 := SemArray.consecutive 17 S3 hcc0_scratch13
abbrev cc0_scratch14 : DmaSems sig S5 := SemArray.consecutive 20 S5 hcc0_scratch14
abbrev cc0_scratch15 : DmaSems sig S5 := SemArray.consecutive 25 S5 hcc0_scratch15
abbrev cc0_scratch16 : DmaSems sig S5 := SemArray.consecutive 30 S5 hcc0_scratch16
abbrev cc0_scratch17 : DmaSems sig S5 := SemArray.consecutive 35 S5 hcc0_scratch17
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x4096 : Shape := ⟨2, ![256, 4096]⟩
abbrev S4096x256 : Shape := ⟨2, ![4096, 256]⟩
abbrev S2048x4096 : Shape := ⟨2, ![2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x4096, .f32⟩
  | .hbm, ⟨2, _⟩ => ⟨S4096x256, .f32⟩
  | .hbm, ⟨3, _⟩ => ⟨S256x4096, .f32⟩
  | .hbm, ⟨4, _⟩ => ⟨S4096x256, .f32⟩
  | .hbm, ⟨5, _⟩ => ⟨S256x4096, .f32⟩
  | .hbm, ⟨6, _⟩ => ⟨S4096x256, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x256, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x256, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  dot_S2048x256_S256x4096_S2048x4096_1_0_0_1_n_n_wf : DotDims.WF S2048x256 S256x4096 S2048x4096 [1] [0] [0] [1] [] []
  dot_S2048x4096_S4096x256_S2048x256_1_0_0_1_n_n_wf : DotDims.WF S2048x4096 S4096x256 S2048x256 [1] [0] [0] [1] [] []

variable [Facts₀]

def dot_S2048x256_S256x4096_S2048x4096_1_0_0_1_n_n : DotDims S2048x256 S256x4096 S2048x4096 where
  lhsContracting := [1]
  rhsContracting := [0]
  lhsNonContracting := [0]
  rhsNonContracting := [1]
  lhsBatch := []
  rhsBatch := []
  wf := dot_S2048x256_S256x4096_S2048x4096_1_0_0_1_n_n_wf
def dot_S2048x4096_S4096x256_S2048x256_1_0_0_1_n_n : DotDims S2048x4096 S4096x256 S2048x256 where
  lhsContracting := [1]
  rhsContracting := [0]
  lhsNonContracting := [0]
  rhsNonContracting := [1]
  lhsBatch := []
  rhsBatch := []
  wf := dot_S2048x4096_S4096x256_S2048x256_1_0_0_1_n_n_wf

class Facts : Prop extends Facts₀ where

variable [Facts]
-- ==== Proof.KernelIdeal.Devs.lean ====
/- The partner of every addressed operation, in closed form.

   A device's three partners are `c xor 1`, `c xor 3` and `c xor 4` (the kernel's second map
   `(c and 4) + (3 - (c and 3))` is `c xor 3`). Every barrier signal and every remote copy of the body names one
   of them; which one, operation by operation in program order, is decided here over the eight devices. -/
import proofs.«900979_g7700000000000980_dist_mlpseq_tp1d_bs_bs_b256_d256_h512_v7x_i8_bf16_1_alg».proof.Proof.Gen.KernelIdeal

namespace Cert.KernelIdeal.Hand

open Cert.KernelIdeal Idealize.ShloMosaic

/-- Device `c`'s partner across the mask `k` (1, 3 or 4): an involution of the eight devices. -/
def xr (k : Fin 8) (c : Dev nD) : Dev nD := ⟨c.val ^^^ k.val, by revert k c; decide⟩

theorem xr_xr (k : Fin 8) (c : Dev nD) : xr k (xr k c) = c := by revert k c; decide
theorem xr_ne {k : Fin 8} (hk : k ≠ 0) (c : Dev nD) : xr k c ≠ c := by revert k c; decide

/-- The three barrier signals go to `c xor 1`, `c xor 3`, `c xor 4`. -/
theorem dev_barrier : ∀ c : Dev nD, k0_dev1 c = c.val ^^^ 1 ∧ k0_dev2 c = c.val ^^^ 3 ∧ k0_dev3 c = c.val ^^^ 4 := by decide +kernel

/-- Layer 0: the gather's three exchanges of each stream, then the reduce's four sends of each stream. -/
theorem dev_layer0 : ∀ c : Dev nD,
    k0_dev4 c = c.val ^^^ 1 ∧ k0_dev5 c = c.val ^^^ 3 ∧ k0_dev6 c = c.val ^^^ 3 ∧ k0_dev7 c = c.val ^^^ 4 ∧ k0_dev8 c = c.val ^^^ 4 ∧ k0_dev9 c = c.val ^^^ 1 ∧ k0_dev10 c = c.val ^^^ 4 ∧ k0_dev11 c = c.val ^^^ 1 ∧ k0_dev12 c = c.val ^^^ 4 ∧ k0_dev13 c = c.val ^^^ 1 ∧ k0_dev14 c = c.val ^^^ 3 ∧ k0_dev15 c = c.val ^^^ 4 ∧ k0_dev16 c = c.val ^^^ 1 ∧ k0_dev17 c = c.val ^^^ 3 := by decide +kernel

/-- Layer 1. -/
theorem dev_layer1 : ∀ c : Dev nD,
    k0_dev18 c = c.val ^^^ 3 ∧ k0_dev19 c = c.val ^^^ 4 ∧ k0_dev20 c = c.val ^^^ 4 ∧ k0_dev21 c = c.val ^^^ 1 ∧ k0_dev22 c = c.val ^^^ 4 ∧ k0_dev23 c = c.val ^^^ 1 ∧ k0_dev24 c = c.val ^^^ 4 ∧ k0_dev25 c = c.val ^^^ 1 ∧ k0_dev26 c = c.val ^^^ 3 ∧ k0_dev27 c = c.val ^^^ 4 ∧ k0_dev28 c = c.val ^^^ 1 ∧ k0_dev29 c = c.val ^^^ 3 := by decide +kernel

/-- Layer 2. -/
theorem dev_layer2 : ∀ c : Dev nD,
    k0_dev30 c = c.val ^^^ 3 ∧ k0_dev31 c = c.val ^^^ 4 ∧ k0_dev32 c = c.val ^^^ 4 ∧ k0_dev33 c = c.val ^^^ 1 ∧ k0_dev34 c = c.val ^^^ 4 ∧ k0_dev35 c = c.val ^^^ 1 ∧ k0_dev36 c = c.val ^^^ 4 ∧ k0_dev37 c = c.val ^^^ 1 ∧ k0_dev38 c = c.val ^^^ 3 ∧ k0_dev39 c = c.val ^^^ 4 ∧ k0_dev40 c = c.val ^^^ 1 ∧ k0_dev41 c = c.val ^^^ 3 := by decide +kernel

end Cert.KernelIdeal.Hand
-- ==== Proof.KernelIdeal.Cells.lean ====
/- The cells of the protocol and their schedule.

   Each device owns 33 cells: the runtime's barrier semaphore and the 32 DMA semaphores of the two streams' gather
   (send / receive, three exchanges) and reduce (send / receive, five slots). A round of a DMA cell is one remote copy
   of one layer; round 0 of the barrier cell is the three partners' entry signals.
   What a landing hands the cell's owner: the slice it wrote, at some contents, and the ownership of the sender's own
   slots that the owner writes next, each with the fact that the sender's receive cell has reached that copy's round.
   That second part is the whole race argument: a device can only start a copy into a partner's buffer once the
   partner has handed the slot over, which it does only after its last read of it. -/
import proofs.«900979_g7700000000000980_dist_mlpseq_tp1d_bs_bs_b256_d256_h512_v7x_i8_bf16_1_alg».proof.Proof.KernelIdeal.Devs
import proofs.«900979_g7700000000000980_dist_mlpseq_tp1d_bs_bs_b256_d256_h512_v7x_i8_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's copy (one duty a round) beside the protocol's (three duties on the barrier) -/

abbrev DD : Type := Fin 3
abbrev UB : Type := URounds (GSem nD τ sig) DD
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Buffers and slices, spelt as the body spells them -/

abbrev XF : Fin 2 → Memref sig .tc .vmem S1024x256 .bf16
  | 0 => Memref.whole cc0_scratch0
  | 1 => Memref.whole cc0_scratch1
abbrev SND : Fin 2 → Memref sig .tc .vmem S512x256 .bf16
  | 0 => Memref.whole cc0_scratch4
  | 1 => Memref.whole cc0_scratch5
abbrev RCV : Fin 2 → Memref sig .tc .vmem S1280x256 .bf16
  | 0 => Memref.whole cc0_scratch6
  | 1 => Memref.whole cc0_scratch7

/-- The row block a device sends in the first exchange: its own 128 rows. -/
abbrev VE0 : Fin 2 → Dev nD → Memref sig .tc .vmem S128x256 .bf16
  | 0, c => (XF 0).slice (Rect.unit (s := S1024x256) (k0_off3 c) S128x256.size (k0_off3_inb c)) (fun _ => rfl)
  | 1, c => (XF 1).slice (Rect.unit (s := S1024x256) (k0_off4 c) S128x256.size (k0_off4_inb c)) (fun _ => rfl)
/-- In the second exchange: its aligned pair of blocks. -/
abbrev VE1 : Fin 2 → Dev nD → Memref sig .tc .vmem S256x256 .bf16
  | 0, c => (XF 0).slice (Rect.unit (s := S1024x256) (k0_off5 c) S256x256.size (k0_off5_inb c)) (fun _ => rfl)
  | 1, c => (XF 1).slice (Rect.unit (s := S1024x256) (k0_off6 c) S256x256.size (k0_off6_inb c)) (fun _ => rfl)
/-- In the third: its aligned four blocks. -/
abbrev VE2 : Fin 2 → Dev nD → Memref sig .tc .vmem S512x256 .bf16
  | 0, c => (XF 0).slice (Rect.unit (s := S1024x256) (k0_off9 c) S512x256.size (k0_off9_inb c)) (fun _ => rfl)
  | 1, c => (XF 1).slice (Rect.unit (s := S1024x256) (k0_off10 c) S512x256.size (k0_off10_inb c)) (fun _ => rfl)

/-- The send buffer's two halves, and its first 128 rows (the last layer's last step). -/
abbrev SA (s : Fin 2) : Memref sig .tc .vmem S256x256 .bf16 :=
  (SND s).slice (Rect.unit (s := S512x256) ![0, 0] S256x256.size inb_S512x256_S256x256_0_0) (fun _ => rfl)
abbrev SB (s : Fin 2) : Memref sig .tc .vmem S256x256 .bf16 :=
  (SND s).slice (Rect.unit (s := S512x256) ![256, 0] S256x256.size inb_S512x256_S256x256_256_0) (fun _ => rfl)
abbrev SH (s : Fin 2) : Memref sig .tc .vmem S128x256 .bf16 :=
  (SND s).slice (Rect.unit (s := S512x256) ![0, 0] S128x256.size inb_S512x256_S128x256_0_0) (fun _ => rfl)

/-- The receive buffer's five slots of 256 rows (at rows 0, 256, 512, 768, 1024), and the 128-row slot at 768. -/
abbrev R0 (s : Fin 2) : Memref sig .tc .vmem S256x256 .bf16 :=
  (RCV s).slice (Rect.unit (s := S1280x256) ![0, 0] S256x256.size inb_S1280x256_S256x256_0_0) (fun _ => rfl)
abbrev R1 (s : Fin 2) : Memref sig .tc .vmem S256x256 .bf16 :=
  (RCV s).slice (Rect.unit (s := S1280x256) ![256, 0] S256x256.size inb_S1280x256_S256x256_256_0) (fun _ => rfl)
abbrev R2 (s : Fin 2) : Memref sig .tc .vmem S256x256 .bf16 :=
  (RCV s).slice (Rect.unit (s := S1280x256) ![512, 0] S256x256.size inb_S1280x256_S256x256_512_0) (fun _ => rfl)
abbrev R3 (s : Fin 2) : Memref sig .tc .vmem S256x256 .bf16 :=
  (RCV s).slice (Rect.unit (s := S1280x256) ![768, 0] S256x256.size inb_S1280x256_S256x256_768_0) (fun _ => rfl)
abbrev R4 (s : Fin 2) : Memref sig .tc .vmem S256x256 .bf16 :=
  (RCV s).slice (Rect.unit (s := S1280x256) ![1024, 0] S256x256.size inb_S1280x256_S256x256_1024_0) (fun _ => rfl)
abbrev R3h (s : Fin 2) : Memref sig .tc .vmem S128x256 .bf16 :=
  (RCV s).slice (Rect.unit (s := S1280x256) ![768, 0] S128x256.size inb_S1280x256_S128x256_768_0) (fun _ => rfl)

/-- The elements of a view on device `p`, at some contents. -/
def ownAt (p : Dev nD) {s : Shape} {e : EltTy} (M : Memref sig .tc .vmem s e) : sProp 𝕄 :=
  iprop(∃ f : Buf (Elt F) (M.view.loc (p : Thread nD τ)), (M.view.loc (p : Thread nD τ)) ↦[M.view.set]{fullShare} f)

/-- Half a share of a view's elements on device `p`, at some contents: what a copy borrows of a source the device
    keeps reading while the copy is in flight. -/
def ownHalf (p : Dev nD) {s : Shape} {e : EltTy} (M : Memref sig .tc .vmem s e) : sProp 𝕄 :=
  iprop(∃ f : Buf (Elt F) (M.view.loc (p : Thread nD τ)), (M.view.loc (p : Thread nD τ)) ↦[M.view.set]{fullShare.left} f)

instance ownHalf_storable (p : Dev nD) {s : Shape} {e : EltTy} (M : Memref sig .tc .vmem s e) :
    BI.Storable (upEmb : UEmb _ 𝕄) (ownHalf (F := F) p M) := by unfold ownHalf; infer_instance

/-! ## The cells -/

abbrev barS : Sem sig := (SemArray.scalar (sig.barrier 0 rfl) : Sems sig S_).sem
abbrev barCell (c : Dev nD) : GSem nD τ sig := ((c : Thread nD τ), .reg barS)
abbrev dcell (c : Dev nD) (i : DmaSem sig) : GSem nD τ sig := ((c : Thread nD τ), .dma i)

/-- The gather's semaphores: stream `s`, exchange `r`; send at 8 + 6s + r, receive at 11 + 6s + r. -/
def agS (s : Fin 2) (r : Fin 3) : DmaSem sig := ⟨8 + 6 * s.val + r.val, by revert s r; decide⟩
def agR (s : Fin 2) (r : Fin 3) : DmaSem sig := ⟨11 + 6 * s.val + r.val, by revert s r; decide⟩
/-- The reduce's: stream `s`, slot `i`; send at 20 + 10s + i, receive at 25 + 10s + i. -/
def rsS (s : Fin 2) (i : Fin 5) : DmaSem sig := ⟨20 + 10 * s.val + i.val, by revert s i; decide⟩
def rsR (s : Fin 2) (i : Fin 5) : DmaSem sig := ⟨25 + 10 * s.val + i.val, by revert s i; decide⟩

end Cert.KernelIdeal.Hand

end
-- ==== Proof.KernelIdeal.Sched.lean ====
/- The schedule: for every cell and round, who pays, how much, and what the landing hands the owner.

   Round `l` of a gather or reduce cell is that copy in layer `l` (the first exchange's cells have round 0 only; the
   last reduce step alternates between two cells, so one has rounds for layers 0 and 2, the other for layer 1).
   A receive cell's payload is the slice that was written, at some contents, together with the slots the sender
   hands over for the owner's next copies to it (`grant`): the latest earlier landing from that partner whose wait
   precedes the enqueue carries the grant, the partner's entry signal for the first copy of each chain.
   A send cell's payload is the source slice coming back: the whole share, except for the second and third exchanges,
   whose source rows the device keeps reading (its matrix products run on them while the copy is in flight), so that
   the copy borrows half a share only. -/
import proofs.«900979_g7700000000000980_dist_mlpseq_tp1d_bs_bs_b256_d256_h512_v7x_i8_bf16_1_alg».proof.Proof.KernelIdeal.Cells

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Partner `p` hands over a slot of its own buffer, with the fact that its receive cell `i` has reached round `r`. -/
def grant (p : Dev nD) {s : Shape} {e : EltTy} (M : Memref sig .tc .vmem s e) (i : DmaSem sig) (r : ℕ) : sProp 𝕄 :=
  iprop(ownAt p M ∗ reached ER (dcell p i) r)

/-- The slot of the last reduce step of stream `s` in layer `l` on partner `p`: rows 768.. in layers 0 and 2
    (128 rows in layer 2), rows 1024.. in layer 1; on the semaphore of slot 2 (rounds 0 and 1) or slot 3. -/
def grantLast (p : Dev nD) (s : Fin 2) : ℕ → sProp 𝕄
  | 0 => grant p (R3 s) (rsR s 2) 0
  | 1 => grant p (R4 s) (rsR s 3) 0
  | _ => grant p (R3h s) (rsR s 2) 1

/-- How many rounds a DMA semaphore has: the pipeline's staging semaphores (0..7) none here. -/
def nRounds (j : ℕ) : ℕ :=
  if j < 8 then 0
  else if j < 20 then (if (j - 8) % 3 = 0 then 1 else 3)
  else if j < 40 then (match (j - 20) % 5 with | 2 => 2 | 3 => 1 | _ => 3)
  else 0

/-- What a landing on DMA semaphore `j` of device `c` hands over in round `l`. -/
def payDma (c : Dev nD) : ℕ → ℕ → sProp 𝕄
  -- gather, stream 0: sources back (8, 9, 10); landings (11, 12, 13)
  | 8, _ => ownAt c (VE0 0 c)
  | 9, _ => ownHalf c (VE1 0 c)
  | 10, _ => ownHalf c (VE2 0 c)
  | 11, _ => iprop(ownAt c (VE0 0 (xr 1 c)) ∗ grant (xr 1 c) (VE2 1 c) (agR 1 2) 0)
  | 12, l => iprop(ownAt c (VE1 0 (xr 3 c)) ∗ grant (xr 3 c) (R2 0) (rsR 0 1) l)
  | 13, l => iprop(ownAt c (VE2 0 (xr 4 c)) ∗ grant (xr 4 c) (R0 0) (rsR 0 0) l ∗ grant (xr 4 c) (R1 0) (rsR 0 4) l)
  -- gather, stream 1: sources back (14, 15, 16); landings (17, 18, 19)
  | 14, _ => ownAt c (VE0 1 c)
  | 15, _ => ownHalf c (VE1 1 c)
  | 16, _ => ownHalf c (VE2 1 c)
  | 17, _ => iprop(ownAt c (VE0 1 (xr 3 c)) ∗ grant (xr 3 c) (VE1 0 c) (agR 0 1) 0)
  | 18, l => iprop(ownAt c (VE1 1 (xr 4 c)) ∗ grant (xr 4 c) (VE2 0 c) (agR 0 2) l)
  | 19, l => iprop(ownAt c (VE2 1 (xr 1 c)) ∗ grant (xr 1 c) (R0 1) (rsR 1 0) l ∗ grant (xr 1 c) (R1 1) (rsR 1 4) l)
  -- reduce, stream 0: sources back (20 first half, 21 first half, 22 first half / 128 rows in its round 1, 23 first half, 24 second half)
  | 20, _ => ownAt c (SA 0)
  | 21, _ => ownAt c (SA 0)
  | 22, 0 => ownAt c (SA 0)
  | 22, _ => ownAt c (SH 0)
  | 23, _ => ownAt c (SA 0)
  | 24, _ => ownAt c (SB 0)
  -- reduce, stream 0: landings from c xor 4 (25, 29), c xor 3 (26), c xor 1 (27, 28)
  | 25, _ => ownAt c (R0 0)
  | 26, l => iprop(ownAt c (R2 0) ∗ grantLast (xr 3 c) 1 l)
  | 27, 0 => iprop(ownAt c (R3 0) ∗ grant (xr 1 c) (VE2 1 c) (agR 1 2) 1)
  | 27, _ => ownAt c (R3h 0)
  | 28, _ => iprop(ownAt c (R4 0) ∗ grant (xr 1 c) (VE2 1 c) (agR 1 2) 2)
  | 29, l => iprop(ownAt c (R1 0) ∗ grant (xr 4 c) (R2 1) (rsR 1 1) l)
  -- reduce, stream 1: sources back
  | 30, _ => ownAt c (SA 1)
  | 31, _ => ownAt c (SA 1)
  | 32, 0 => ownAt c (SA 1)
  | 32, _ => ownAt c (SH 1)
  | 33, _ => ownAt c (SA 1)
  | 34, _ => ownAt c (SB 1)
  -- reduce, stream 1: landings from c xor 1 (35, 39), c xor 4 (36), c xor 3 (37, 38)
  | 35, _ => ownAt c (R0 1)
  | 36, 0 => iprop(ownAt c (R2 1) ∗ grant (xr 4 c) (VE1 1 c) (agR 1 1) 1)
  | 36, 1 => iprop(ownAt c (R2 1) ∗ grant (xr 4 c) (VE1 1 c) (agR 1 1) 2)
  | 36, _ => ownAt c (R2 1)
  | 37, 0 => iprop(ownAt c (R3 1) ∗ grant (xr 3 c) (VE1 0 c) (agR 0 1) 1)
  | 37, _ => ownAt c (R3h 1)
  | 38, _ => iprop(ownAt c (R4 1) ∗ grant (xr 3 c) (VE1 0 c) (agR 0 1) 2)
  | 39, l => iprop(ownAt c (R1 1) ∗ grantLast (xr 1 c) 0 l)
  | _, _ => iprop(emp)

/-- What partner number `d` (0: c xor 1, 1: c xor 3, 2: c xor 4) hands over with its entry signal: the slot of the
    first copy of the chain with that partner. -/
def payBar (c : Dev nD) : DD → sProp 𝕄
  | 0 => grant (xr 1 c) (VE0 0 c) (agR 0 0) 0
  | 1 => grant (xr 3 c) (VE0 1 c) (agR 1 0) 0
  | 2 => grant (xr 4 c) (VE1 1 c) (agR 1 1) 0

/-- The units of a round of DMA semaphore `j`: the bits of the slice the copy moves. -/
def amtDma (j r : ℕ) : ℕ :=
  if j < 20 then (match (j - 8) % 3 with
      | 0 => (VE0 0 (0 : Dev nD)).view.dmaCredit | 1 => (VE1 0 (0 : Dev nD)).view.dmaCredit | _ => (VE2 0 (0 : Dev nD)).view.dmaCredit)
  else if (j - 20) % 5 = 2 ∧ r = 1 then (R3h 0).view.dmaCredit else (R0 0).view.dmaCredit

theorem amtDma_pos (j r : ℕ) : 0 < amtDma j r := by
  unfold amtDma
  split
  · split <;> exact View.dmaCredit_pos _ (by decide)
  · split <;> exact View.dmaCredit_pos _ (by decide)

/-- The schedule. The barrier cell: round 0, one duty per partner, one unit each. A DMA cell: one duty a round. -/
def sched : Rounds.Schedule (GSem nD τ sig) DD 𝕄 where
  duties g r := if g.1.2 = .tc then
      (match g.2 with
        | .reg s => if s = barS ∧ r = 0 then Finset.univ else ∅
        | .dma i => if r < nRounds i.val then {0} else ∅)
    else ∅
  amount g r _ := match g.2 with
    | .reg _ => 1
    | .dma i => amtDma i.val r
  payload g r d := match g.2 with
    | .reg _ => payBar g.1.1 d
    | .dma i => payDma g.1.1 i.val r
  amount_pos g r d _ := by
    cases g.2 with
    | reg _ => exact Nat.one_pos
    | dma i => exact amtDma_pos _ _

end Cert.KernelIdeal.Hand

end
-- ==== Proof.KernelIdeal.State.lean ====
/- The copies in program order, what each device owes at launch, the levels, and the states before and after the body.

   The same 38 remote copies are issued by every device, in the same order; copy number `k` of device `c` goes to
   `c xor mask k` and credits that partner's receive semaphore `recvSem k` in round `round k` (and `c`'s own send
   semaphore, three below for the gather, five below for the reduce, in the same round). The partner's copy `k` is the
   one that lands on `c`.
   Levels: a wait is allowed below everything still owed. Tallies and credits of copy `k` carry the index `k + 1`
   and sit at level `k + 2`; the three entry signals carry index 0, the barrier cell sits at level 1 and the
   pipeline's own staging cells at level 0. -/
import proofs.«900979_g7700000000000980_dist_mlpseq_tp1d_bs_bs_b256_d256_h512_v7x_i8_bf16_1_alg».proof.Proof.KernelIdeal.Sched

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- A DMA semaphore by its number. -/
def dsem (j : ℕ) : DmaSem sig := if h : j < 40 then ⟨j, h⟩ else 0

/-- The 38 copies in program order: (partner mask, receive semaphore, round). -/
def copyTab : List (Fin 8 × ℕ × ℕ) :=
  [(1, 11, 0), (3, 17, 0), (3, 12, 0), (4, 18, 0), (4, 13, 0), (1, 19, 0),
   (4, 25, 0), (1, 35, 0), (4, 29, 0), (1, 39, 0), (3, 26, 0), (4, 36, 0), (1, 27, 0), (3, 37, 0),
   (3, 12, 1), (4, 18, 1), (4, 13, 1), (1, 19, 1),
   (4, 25, 1), (1, 35, 1), (4, 29, 1), (1, 39, 1), (3, 26, 1), (4, 36, 1), (1, 28, 0), (3, 38, 0),
   (3, 12, 2), (4, 18, 2), (4, 13, 2), (1, 19, 2),
   (4, 25, 2), (1, 35, 2), (4, 29, 2), (1, 39, 2), (3, 26, 2), (4, 36, 2), (1, 27, 1), (3, 37, 1)]

/-- The send semaphore of a copy whose receive semaphore is `j`. -/
def sendOf (j : ℕ) : ℕ := if j < 20 then j - 3 else j - 5

/-- What copy number `k` (entry `e` of the table) makes device `c` owe: the partner's receive cell its units. -/
def tallyOf (c : Dev nD) (k : ℕ) (e : Fin 8 × ℕ × ℕ) : CellTallies nD τ sig ℕ :=
  tallyAt (dcell (xr e.1 c) (dsem e.2.1)) (k + 1) (amtDma e.2.1 e.2.2)

/-- What device `c` still owes once copies `0 .. n-1` are issued (later copies further out in the sum). -/
def owedAux (c : Dev nD) : ℕ → List (Fin 8 × ℕ × ℕ) → CellTallies nD τ sig ℕ
  | _, [] => 0
  | k, e :: es => owedAux c (k + 1) es + tallyOf c k e
def owedFrom (c : Dev nD) (n : ℕ) : CellTallies nD τ sig ℕ := owedAux c n (copyTab.drop n)

/-- At launch: every copy, and one unit to each partner's barrier cell; the first signal (to `c xor 1`) is the
    outermost summand, then `c xor 3`, then `c xor 4`. -/
def O₂ (c : Dev nD) : CellTallies nD τ sig ℕ := owedFrom c 0 + tallyAt (barCell (xr 4 c)) 0 1
def O₁ (c : Dev nD) : CellTallies nD τ sig ℕ := O₂ c + tallyAt (barCell (xr 3 c)) 0 1
def O₀ (c : Dev nD) : CellTallies nD τ sig ℕ := O₁ c + tallyAt (barCell (xr 1 c)) 0 1

/-- The indices a TensorCore cell may be waited or owed at. -/
def L (g : GSem nD τ sig) : Finset ℕ := if g.1.2 = .tc then Finset.range 39 else ∅
/-- Barrier cells at 1; otherwise index 0 (the pipeline's staging waits) at 0 and copy `k`'s index `k + 1` at `k + 2`. -/
def lv (g : GSem nD τ sig) (i : ℕ) : ℕ := if g.2 = .reg barS then 1 else if i = 0 then 0 else i + 1

/-! ## The protocol's cells, and what a device holds before and after the body -/

/-- Device `c`'s 33 cells: the barrier's, then the DMA semaphores 8 .. 39. -/
def kcell (ck : Dev nD × Fin 33) : GSem nD τ sig :=
  if ck.2.val = 0 then barCell ck.1 else dcell ck.1 (dsem (ck.2.val + 7))

/-- Every cell's invariant, at the names `K`: persistent, held by every device. -/
def invsAll (K : GSem nD τ sig → ℕ) : sProp 𝕄 :=
  bigSep (Finset.univ : Finset (Dev nD × Fin 33)) fun ck => cellInv ER (sched (F := F)) (K (kcell ck)) (kcell ck)
/-- Round 0 of every cell is reached at launch. -/
def reachedAll : sProp 𝕄 :=
  bigSep (Finset.univ : Finset (Dev nD × Fin 33)) fun ck => reached ER (kcell ck) 0
/-- The owner's positions at launch. -/
def posAll (c : Dev nD) : sProp 𝕄 :=
  bigSep (Finset.univ : Finset (Fin 33)) fun k => atPos ER (kcell (c, k)) 0 ∅ 0

/-- The duty tokens device `c` pays with: its place (0, 1, 2) on each partner's barrier cell, and for each copy the
    duty of its own send cell and of the partner's receive cell. -/
def toksCopies (c : Dev nD) : ℕ → List (Fin 8 × ℕ × ℕ) → sProp 𝕄
  | _, [] => iprop(emp)
  | k, e :: es => iprop((dutyTok ER (dcell c (dsem (sendOf e.2.1))) e.2.2 (0 : DD) ∗ dutyTok ER (dcell (xr e.1 c) (dsem e.2.1)) e.2.2 (0 : DD))
      ∗ toksCopies c (k + 1) es)
def toks (c : Dev nD) : sProp 𝕄 :=
  iprop(dutyTok ER (barCell (xr 1 c)) 0 (0 : DD) ∗ dutyTok ER (barCell (xr 3 c)) 0 (1 : DD) ∗ dutyTok ER (barCell (xr 4 c)) 0 (2 : DD)
    ∗ toksCopies c 0 copyTab)

/-- The credit tokens device `c` is dealt: its barrier cell's three units and, for each copy, the units the
    partner's copy of the same number lands on `c`'s receive cell. -/
def credsCopies (c : Dev nD) : ℕ → List (Fin 8 × ℕ × ℕ) → sProp 𝕄
  | _, [] => iprop(emp)
  | k, e :: es => iprop(cred (tallyAt (dcell c (dsem e.2.1)) (k + 1) (amtDma e.2.1 e.2.2)) ∗ credsCopies c (k + 1) es)
def creds (c : Dev nD) : sProp 𝕄 :=
  iprop(cred (tallyAt (barCell c) 0 3) ∗ credsCopies c 0 copyTab)

/-- The ten scratch buffers, each whole at some contents. -/
def scratchAll (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f)
    ∗ (∃ f : Buf (Elt F) ((c : Thread nD τ).loc cc0_scratch9), ((c : Thread nD τ).loc cc0_scratch9) ↦{fullShare} f))

/-- The ghost state of the protocol a device starts from, at some names of the invariants. -/
def ghost (K : GSem nD τ sig → ℕ) (c : Dev nD) : sProp 𝕄 :=
  iprop(invsAll (F := F) K ∗ reachedAll ∗ posAll c ∗ toks c)

/-- Before the body: the ghost state, the credit, the levels, the scratch buffers. -/
def Φ₀ (c : Dev nD) : sProp 𝕄 :=
  iprop((∃ K, ghost (F := F) K c) ∗ creds c ∗ levAts L lv ∗ scratchAll c)

/-- After it: the scratch buffers, and the 32 own semaphores back at zero. -/
def Φ₁ (c : Dev nD) : sProp 𝕄 :=
  iprop(scratchAll (F := F) c ∗ bigSep (Finset.univ : Finset (Fin 32)) fun k => semVal (dcell c (dsem (k.val + 8))) 0)

/-- The relational proof data of the pipeline (one grid point): nothing is claimed of what the body leaves in the
    windows' staging buffers; the state is `Φ₀` before the point and `Φ₁` after it; what is owed is everything
    before and nothing after. -/
def rdats (m : (ℓ : Loc nD τ sig) → Buf (Elt F) ℓ) (_ : Fin 1) (c : Dev nD) :
    Pipeline.RDat τ (Elt F) ℕ ℕ UU ℕ cfg0 c where
  A w := m ((cfg0.win w).arr.view.loc (c : Thread nD τ))
  after _ _ _ _ := True
  Φ t := match t with
    | ⟨0, _⟩ => Φ₀ c
    | ⟨_ + 1, _⟩ => Φ₁ c
  q _ := fullShare
  owed t := match t with
    | ⟨0, _⟩ => O₀ c
    | ⟨_ + 1, _⟩ => 0

end Cert.KernelIdeal.Hand

end
-- ==== Proof.KernelIdeal.Tables.lean ====
/- The schedule's tables, as rewrite lemmas.

   For the barrier cell and for each of the 32 gather and reduce cells: which duties a round has, what each duty
   contributes, what its landing hands the owner, and what a round expects in all. Every payload is an assertion
   about heap cells, ghost ownership and pure facts only, so the cells' invariants can hold it. What a copy
   credits a semaphore depends on the destination's shape and element type alone, so it is the table's amount
   whichever buffer and whichever row block the copy names. The printed semaphore slices are the cells' numbers. -/
import proofs.«900979_g7700000000000980_dist_mlpseq_tp1d_bs_bs_b256_d256_h512_v7x_i8_bf16_1_alg».proof.Proof.KernelIdeal.State

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The payloads can be stored -/

instance ownAt_storable (p : Dev nD) {s : Shape} {e : EltTy} (M : Memref sig .tc .vmem s e) :
    BI.Storable (upEmb : UEmb _ 𝕄) (ownAt (F := F) p M) := by unfold ownAt; infer_instance

instance grant_storable (p : Dev nD) {s : Shape} {e : EltTy} (M : Memref sig .tc .vmem s e) (i : DmaSem sig) (r : ℕ) :
    BI.Storable (upEmb : UEmb _ 𝕄) (grant (F := F) p M i r) := by unfold grant; infer_instance

instance grantLast_storable (p : Dev nD) (s : Fin 2) (l : ℕ) :
    BI.Storable (upEmb : UEmb _ 𝕄) (grantLast (F := F) p s l) := by
  unfold grantLast; split <;> infer_instance

instance payDma_storable (c : Dev nD) (j r : ℕ) : BI.Storable (upEmb : UEmb _ 𝕄) (payDma (F := F) c j r) := by
  unfold payDma; split <;> infer_instance

instance payBar_storable (c : Dev nD) (d : DD) : BI.Storable (upEmb : UEmb _ 𝕄) (payBar (F := F) c d) := by
  unfold payBar; split <;> infer_instance

instance sched_payload_storable (g : GSem nD τ sig) (r : ℕ) (d : DD) :
    BI.Storable (upEmb : UEmb _ 𝕄) ((sched (F := F)).payload g r d) := by
  show BI.Storable upEmb (match g.2 with
    | .reg _ => payBar (F := F) g.1.1 d
    | .dma i => payDma (F := F) g.1.1 i.val r)
  split <;> infer_instance

/-! ## The barrier cell: one round, the three partners' entry signals, one unit each -/

theorem duties_bar (c : Dev nD) : (sched (F := F)).duties (barCell c) 0 = Finset.univ := by
  show (if (barCell c).1.2 = Proc.tc then (if barS = barS ∧ (0 : ℕ) = 0 then (Finset.univ : Finset DD) else ∅) else ∅) = _
  rw [if_pos rfl, if_pos ⟨rfl, rfl⟩]

theorem duties_bar_later (c : Dev nD) (r : ℕ) (hr : 1 ≤ r) : (sched (F := F)).duties (barCell c) r = ∅ := by
  show (if (barCell c).1.2 = Proc.tc then (if barS = barS ∧ r = 0 then (Finset.univ : Finset DD) else ∅) else ∅) = _
  rw [if_pos rfl, if_neg fun h => absurd h.2 (by omega)]

theorem amount_bar (c : Dev nD) (d : DD) : (sched (F := F)).amount (barCell c) 0 d = 1 := rfl

theorem payload_bar (c : Dev nD) (d : DD) : (sched (F := F)).payload (barCell c) 0 d = payBar c d := rfl

theorem expect_bar (c : Dev nD) : (sched (F := F)).expect (barCell c) 0 = 3 := by
  show ∑ d ∈ (sched (F := F)).duties (barCell c) 0, (sched (F := F)).amount (barCell c) 0 d = 3
  rw [duties_bar]; rfl

theorem rest_bar (c : Dev nD) :
    bigSep ((sched (F := F)).duties (barCell c) 0 \ ∅) (fun d => (sched (F := F)).payload (barCell c) 0 d)
      = iprop(payBar c 0 ∗ payBar c 1 ∗ payBar c 2) := by
  rw [duties_bar, Finset.sdiff_empty, show (Finset.univ : Finset DD) = {0, 1, 2} from by decide,
    bigSep_insert (by decide), bigSep_insert (by decide), bigSep_singleton]
  rfl

/-! ## A gather or reduce cell: one duty a round, for as many rounds as the semaphore has copies -/

theorem dsem_val (j : ℕ) (h : j < 40) : (dsem j).val = j := by unfold dsem; rw [dif_pos h]

theorem duties_dma (c : Dev nD) (j r : ℕ) (hj : j < 40) (hr : r < nRounds j) :
    (sched (F := F)).duties (dcell c (dsem j)) r = {0} := by
  show (if (dcell c (dsem j)).1.2 = Proc.tc then (if r < nRounds (dsem j).val then ({0} : Finset DD) else ∅) else ∅) = _
  rw [if_pos rfl, dsem_val j hj, if_pos hr]

theorem duties_dma_later (c : Dev nD) (j r : ℕ) (hj : j < 40) (hr : nRounds j ≤ r) :
    (sched (F := F)).duties (dcell c (dsem j)) r = ∅ := by
  show (if (dcell c (dsem j)).1.2 = Proc.tc then (if r < nRounds (dsem j).val then ({0} : Finset DD) else ∅) else ∅) = _
  rw [if_pos rfl, dsem_val j hj, if_neg (Nat.not_lt.mpr hr)]

theorem amount_dma (c : Dev nD) (j r : ℕ) (d : DD) (hj : j < 40) :
    (sched (F := F)).amount (dcell c (dsem j)) r d = amtDma j r := by
  show amtDma (dsem j).val r = _
  rw [dsem_val j hj]

theorem payload_dma (c : Dev nD) (j r : ℕ) (d : DD) (hj : j < 40) :
    (sched (F := F)).payload (dcell c (dsem j)) r d = payDma c j r := by
  show payDma c (dsem j).val r = _
  rw [dsem_val j hj]

theorem expect_dma (c : Dev nD) (j r : ℕ) (hj : j < 40) (hr : r < nRounds j) :
    (sched (F := F)).expect (dcell c (dsem j)) r = amtDma j r := by
  show ∑ d ∈ (sched (F := F)).duties (dcell c (dsem j)) r, (sched (F := F)).amount (dcell c (dsem j)) r d = _
  rw [duties_dma c j r hj hr, Finset.sum_singleton, amount_dma c j r 0 hj]

theorem rest_dma (c : Dev nD) (j r : ℕ) (hj : j < 40) (hr : r < nRounds j) :
    bigSep ((sched (F := F)).duties (dcell c (dsem j)) r \ ∅) (fun d => (sched (F := F)).payload (dcell c (dsem j)) r d)
      = payDma c j r := by
  rw [duties_dma c j r hj hr, Finset.sdiff_empty, bigSep_singleton, payload_dma c j r 0 hj]

/-! ## The amounts: what a copy credits depends on the destination's shape and element type only -/

/-- The credit of a view of a TensorCore buffer: the footprint of its shape and element type, whichever buffer. -/
theorem credit_tile {s : Shape} {e : EltTy} (M : Memref sig .tc .vmem s e) : M.view.dmaCredit = RefSig.tileCredit s e := rfl

theorem credit_VE0 (s : Fin 2) (c : Dev nD) : (VE0 s c).view.dmaCredit = amtDma 11 0 := by rw [credit_tile]; rfl
theorem credit_VE1 (s : Fin 2) (c : Dev nD) : (VE1 s c).view.dmaCredit = amtDma 12 0 := by rw [credit_tile]; rfl
theorem credit_VE2 (s : Fin 2) (c : Dev nD) : (VE2 s c).view.dmaCredit = amtDma 13 0 := by rw [credit_tile]; rfl
theorem credit_R0 (s : Fin 2) : (R0 s).view.dmaCredit = amtDma 25 0 := by rw [credit_tile]; rfl
theorem credit_R1 (s : Fin 2) : (R1 s).view.dmaCredit = amtDma 25 0 := by rw [credit_tile]; rfl
theorem credit_R2 (s : Fin 2) : (R2 s).view.dmaCredit = amtDma 25 0 := by rw [credit_tile]; rfl
theorem credit_R3 (s : Fin 2) : (R3 s).view.dmaCredit = amtDma 25 0 := by rw [credit_tile]; rfl
theorem credit_R4 (s : Fin 2) : (R4 s).view.dmaCredit = amtDma 25 0 := by rw [credit_tile]; rfl
theorem credit_R3h (s : Fin 2) : (R3h s).view.dmaCredit = amtDma 27 1 := by rw [credit_tile]; rfl
theorem credit_SA (s : Fin 2) : (SA s).view.dmaCredit = amtDma 25 0 := by rw [credit_tile]; rfl
theorem credit_SB (s : Fin 2) : (SB s).view.dmaCredit = amtDma 25 0 := by rw [credit_tile]; rfl
theorem credit_SH (s : Fin 2) : (SH s).view.dmaCredit = amtDma 27 1 := by rw [credit_tile]; rfl

/-! ## The printed semaphore slices are the cells' numbers

    The gather's send and receive semaphores of the first stream start at 8 and 11, of the second at 14 and 17;
    the reduce's at 20 and 25, and at 30 and 35. -/

theorem sem_ag0s_0 : (((cc0_scratch10 : DmaSems sig S3).slice (Rect.unit (s := S3) ![0] S1.size inb_S3_S1_0)).squeeze S_ squeezes_S1_S_).sem = dsem 8 := by decide
theorem sem_ag0s_1 : (((cc0_scratch10 : DmaSems sig S3).slice (Rect.unit (s := S3) ![1] S1.size inb_S3_S1_1)).squeeze S_ squeezes_S1_S_).sem = dsem 9 := by decide
theorem sem_ag0s_2 : (((cc0_scratch10 : DmaSems sig S3).slice (Rect.unit (s := S3) ![2] S1.size inb_S3_S1_2)).squeeze S_ squeezes_S1_S_).sem = dsem 10 := by decide

theorem sem_ag0r_0 : (((cc0_scratch11 : DmaSems sig S3).slice (Rect.unit (s := S3) ![0] S1.size inb_S3_S1_0)).squeeze S_ squeezes_S1_S_).sem = dsem 11 := by decide
theorem sem_ag0r_1 : (((cc0_scratch11 : DmaSems sig S3).slice (Rect.unit (s := S3) ![1] S1.size inb_S3_S1_1)).squeeze S_ squeezes_S1_S_).sem = dsem 12 := by decide
theorem sem_ag0r_2 : (((cc0_scratch11 : DmaSems sig S3).slice (Rect.unit (s := S3) ![2] S1.size inb_S3_S1_2)).squeeze S_ squeezes_S1_S_).sem = dsem 13 := by decide

theorem sem_ag1s_0 : (((cc0_scratch12 : DmaSems sig S3).slice (Rect.unit (s := S3) ![0] S1.size inb_S3_S1_0)).squeeze S_ squeezes_S1_S_).sem = dsem 14 := by decide
theorem sem_ag1s_1 : (((cc0_scratch12 : DmaSems sig S3).slice (Rect.unit (s := S3) ![1] S1.size inb_S3_S1_1)).squeeze S_ squeezes_S1_S_).sem = dsem 15 := by decide
theorem sem_ag1s_2 : (((cc0_scratch12 : DmaSems sig S3).slice (Rect.unit (s := S3) ![2] S1.size inb_S3_S1_2)).squeeze S_ squeezes_S1_S_).sem = dsem 16 := by decide

theorem sem_ag1r_0 : (((cc0_scratch13 : DmaSems sig S3).slice (Rect.unit (s := S3) ![0] S1.size inb_S3_S1_0)).squeeze S_ squeezes_S1_S_).sem = dsem 17 := by decide
theorem sem_ag1r_1 : (((cc0_scratch13 : DmaSems sig S3).slice (Rect.unit (s := S3) ![1] S1.size inb_S3_S1_1)).squeeze S_ squeezes_S1_S_).sem = dsem 18 := by decide
theorem sem_ag1r_2 : (((cc0_scratch13 : DmaSems sig S3).slice (Rect.unit (s := S3) ![2] S1.size inb_S3_S1_2)).squeeze S_ squeezes_S1_S_).sem = dsem 19 := by decide

theorem sem_rs0s_0 : (((cc0_scratch14 : DmaSems sig S5).slice (Rect.unit (s := S5) ![0] S1.size inb_S5_S1_0)).squeeze S_ squeezes_S1_S_).sem = dsem 20 := by decide
theorem sem_rs0s_1 : (((cc0_scratch14 : DmaSems sig S5).slice (Rect.unit (s := S5) ![1] S1.size inb_S5_S1_1)).squeeze S_ squeezes_S1_S_).sem = dsem 21 := by decide
theorem sem_rs0s_2 : (((cc0_scratch14 : DmaSems sig S5).slice (Rect.unit (s := S5) ![2] S1.size inb_S5_S1_2)).squeeze S_ squeezes_S1_S_).sem = dsem 22 := by decide
theorem sem_rs0s_3 : (((cc0_scratch14 : DmaSems sig S5).slice (Rect.unit (s := S5) ![3] S1.size inb_S5_S1_3)).squeeze S_ squeezes_S1_S_).sem = dsem 23 := by decide
theorem sem_rs0s_4 : (((cc0_scratch14 : DmaSems sig S5).slice (Rect.unit (s := S5) ![4] S1.size inb_S5_S1_4)).squeeze S_ squeezes_S1_S_).sem = dsem 24 := by decide

theorem sem_rs0r_0 : (((cc0_scratch15 : DmaSems sig S5).slice (Rect.unit (s := S5) ![0] S1.size inb_S5_S1_0)).squeeze S_ squeezes_S1_S_).sem = dsem 25 := by decide
theorem sem_rs0r_1 : (((cc0_scratch15 : DmaSems sig S5).slice (Rect.unit (s := S5) ![1] S1.size inb_S5_S1_1)).squeeze S_ squeezes_S1_S_).sem = dsem 26 := by decide
theorem sem_rs0r_2 : (((cc0_scratch15 : DmaSems sig S5).slice (Rect.unit (s := S5) ![2] S1.size inb_S5_S1_2)).squeeze S_ squeezes_S1_S_).sem = dsem 27 := by decide
theorem sem_rs0r_3 : (((cc0_scratch15 : DmaSems sig S5).slice (Rect.unit (s := S5) ![3] S1.size inb_S5_S1_3)).squeeze S_ squeezes_S1_S_).sem = dsem 28 := by decide
theorem sem_rs0r_4 : (((cc0_scratch15 : DmaSems sig S5).slice (Rect.unit (s := S5) ![4] S1.size inb_S5_S1_4)).squeeze S_ squeezes_S1_S_).sem = dsem 29 := by decide

theorem sem_rs1s_0 : (((cc0_scratch16 : DmaSems sig S5).slice (Rect.unit (s := S5) ![0] S1.size inb_S5_S1_0)).squeeze S_ squeezes_S1_S_).sem = dsem 30 := by decide
theorem sem_rs1s_1 : (((cc0_scratch16 : DmaSems sig S5).slice (Rect.unit (s := S5) ![1] S1.size inb_S5_S1_1)).squeeze S_ squeezes_S1_S_).sem = dsem 31 := by decide
theorem sem_rs1s_2 : (((cc0_scratch16 : DmaSems sig S5).slice (Rect.unit (s := S5) ![2] S1.size inb_S5_S1_2)).squeeze S_ squeezes_S1_S_).sem = dsem 32 := by decide
theorem sem_rs1s_3 : (((cc0_scratch16 : DmaSems sig S5).slice (Rect.unit (s := S5) ![3] S1.size inb_S5_S1_3)).squeeze S_ squeezes_S1_S_).sem = dsem 33 := by decide
theorem sem_rs1s_4 : (((cc0_scratch16 : DmaSems sig S5).slice (Rect.unit (s := S5) ![4] S1.size inb_S5_S1_4)).squeeze S_ squeezes_S1_S_).sem = dsem 34 := by decide

theorem sem_rs1r_0 : (((cc0_scratch17 : DmaSems sig S5).slice (Rect.unit (s := S5) ![0] S1.size inb_S5_S1_0)).squeeze S_ squeezes_S1_S_).sem = dsem 35 := by decide
theorem sem_rs1r_1 : (((cc0_scratch17 : DmaSems sig S5).slice (Rect.unit (s := S5) ![1] S1.size inb_S5_S1_1)).squeeze S_ squeezes_S1_S_).sem = dsem 36 := by decide
theorem sem_rs1r_2 : (((cc0_scratch17 : DmaSems sig S5).slice (Rect.unit (s := S5) ![2] S1.size inb_S5_S1_2)).squeeze S_ squeezes_S1_S_).sem = dsem 37 := by decide
theorem sem_rs1r_3 : (((cc0_scratch17 : DmaSems sig S5).slice (Rect.unit (s := S5) ![3] S1.size inb_S5_S1_3)).squeeze S_ squeezes_S1_S_).sem = dsem 38 := by decide
theorem sem_rs1r_4 : (((cc0_scratch17 : DmaSems sig S5).slice (Rect.unit (s := S5) ![4] S1.size inb_S5_S1_4)).squeeze S_ squeezes_S1_S_).sem = dsem 39 := by decide

end Cert.KernelIdeal.Hand

end
-- ==== Proof.KernelIdeal.Levels.lean ====
import proofs.«900979_g7700000000000980_dist_mlpseq_tp1d_bs_bs_b256_d256_h512_v7x_i8_bf16_1_alg».proof.Proof.KernelIdeal.State

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # What a device still owes, and that every wait of the body is below it

   After its first `n` copies a device owes the copies `n .. 37`: copy `k` owes, at index `k + 1`, the units of a
   DMA cell of its partner, and that index of a DMA cell sits at level `k + 2`. So a wait at index `k + 1` of one
   of the device's own DMA cells, with `k < n`, sits strictly below everything still owed. The barrier wait (its
   cell at level 1) comes after the three entry signals and sits below every copy; the staging waits of the
   pipeline (index 0 of a DMA cell, level 0) sit below every copy and below the entry signals. -/

/-! ## The chain of copies -/

/-- Issuing copy `n` takes the outermost summand off the chain. -/
theorem owedFrom_succ (c : Dev nD) (n : ℕ) (e : Fin 8 × ℕ × ℕ) (h : copyTab[n]? = some e) :
    owedFrom c n = owedFrom c (n + 1) + tallyOf c n e := by
  obtain ⟨hn, he⟩ := List.getElem?_eq_some_iff.mp h
  unfold owedFrom
  rw [List.drop_eq_getElem_cons hn, he]
  rfl

/-- After the last copy nothing is owed. -/
theorem owedFrom_end (c : Dev nD) : owedFrom c 38 = 0 := rfl

/-! ## The indices and the levels -/

theorem L_of_ne (g : GSem nD τ sig) (h : g.1.2 ≠ .tc) : L g = ∅ := if_neg h
theorem L_tc (c : Dev nD) (sm : SemLoc sig) : L ((c : Thread nD τ), sm) = Finset.range 39 := if_pos rfl

/-- Every index up to 38 of a TensorCore cell is one of its indices. -/
theorem mem_L_of_tc {g : GSem nD τ sig} {i : ℕ} (htc : g.1.2 = .tc) (hi : i < 39) : i ∈ L g := by
  unfold L
  rw [if_pos htc]
  exact Finset.mem_range.mpr hi

/-- A barrier cell sits at level 1, at every index. -/
theorem lv_bar (t : Thread nD τ) (i : ℕ) : lv (t, .reg barS) i = 1 := if_pos rfl

/-- Any other cell has its index `k + 1` at level `k + 2`. -/
theorem lv_of_ne_bar {g : GSem nD τ sig} (hb : g.2 ≠ .reg barS) (k : ℕ) : lv g (k + 1) = k + 2 := by
  unfold lv
  rw [if_neg hb, if_neg (Nat.succ_ne_zero k)]

theorem dma_ne_bar (i : DmaSem sig) : (SemLoc.dma i : SemLoc sig) ≠ SemLoc.reg barS := fun h => by cases h

theorem lv_dma (t : Thread nD τ) (i : DmaSem sig) (k : ℕ) : lv (t, .dma i) (k + 1) = k + 2 :=
  lv_of_ne_bar (g := (t, .dma i)) (dma_ne_bar i) k

/-- Index 0 of a DMA cell (the staging waits) sits at level 0. -/
theorem lv_dma_zero (t : Thread nD τ) (q : DmaSem sig) : lv (t, .dma q) 0 = 0 := by
  unfold lv
  rw [if_neg (show ¬ ((t, SemLoc.dma q).2 = SemLoc.reg barS) from dma_ne_bar q), if_pos rfl]

/-! ## Where the chain is positive -/

/-- A positive tally of a chain of copies numbered from `k` is one of its copies: at that copy's index, on a DMA
    cell of a TensorCore. -/
theorem owedAux_pos (c : Dev nD) {g : GSem nD τ sig} {u : ℕ} :
    ∀ (es : List (Fin 8 × ℕ × ℕ)) (k : ℕ), 0 < owedAux c k es g u →
      ∃ j, k ≤ j ∧ j < k + es.length ∧ u = j + 1 ∧ g.1.2 = .tc ∧ g.2 ≠ .reg barS
  | [], k, h => by
    rw [show owedAux c k [] = 0 from rfl, Pi.zero_apply, Finsupp.zero_apply] at h
    exact absurd h (Nat.lt_irrefl 0)
  | e :: es, k, h => by
    rw [show owedAux c k (e :: es) = owedAux c (k + 1) es + tallyOf c k e from rfl] at h
    rcases Pipeline.add_pos_cases h with h1 | h1
    · obtain ⟨j, hj1, hj2, hu, htc, hb⟩ := owedAux_pos c es (k + 1) h1
      exact ⟨j, by omega, by rw [List.length_cons]; omega, hu, htc, hb⟩
    · unfold tallyOf at h1
      obtain ⟨hg, hu⟩ := Pipeline.tallyAt_pos h1
      refine ⟨k, le_refl k, by rw [List.length_cons]; omega, hu, ?_, ?_⟩
      · rw [hg]
      · rw [hg]; exact dma_ne_bar _

/-- A positive tally of what is owed after `n` copies is one of the copies `n .. 37`. -/
theorem owed_pos {c : Dev nD} {n : ℕ} {g : GSem nD τ sig} {u : ℕ} (h : 0 < owedFrom c n g u) :
    ∃ k, n ≤ k ∧ k < 38 ∧ u = k + 1 ∧ g.1.2 = .tc ∧ g.2 ≠ .reg barS := by
  unfold owedFrom at h
  obtain ⟨j, h1, h2, hu, htc, hb⟩ := owedAux_pos c _ n h
  rw [List.length_drop, show copyTab.length = 38 from rfl] at h2
  exact ⟨j, h1, by omega, hu, htc, hb⟩

/-- Before the third entry signal: a copy, or the unit owed to the barrier cell of `c xor 4`. -/
theorem O₂_pos {c : Dev nD} {g : GSem nD τ sig} {u : ℕ} (h : 0 < O₂ c g u) :
    (∃ k, k < 38 ∧ u = k + 1 ∧ g.1.2 = .tc ∧ g.2 ≠ .reg barS) ∨ (u = 0 ∧ g = barCell (xr 4 c)) := by
  unfold O₂ at h
  rcases Pipeline.add_pos_cases h with h1 | h1
  · obtain ⟨k, -, hk, hu, htc, hb⟩ := owed_pos h1
    exact Or.inl ⟨k, hk, hu, htc, hb⟩
  · obtain ⟨hg, hu⟩ := Pipeline.tallyAt_pos h1
    exact Or.inr ⟨hu, hg⟩

/-- Before the second: also the unit owed to `c xor 3`. -/
theorem O₁_pos {c : Dev nD} {g : GSem nD τ sig} {u : ℕ} (h : 0 < O₁ c g u) :
    (∃ k, k < 38 ∧ u = k + 1 ∧ g.1.2 = .tc ∧ g.2 ≠ .reg barS)
      ∨ (u = 0 ∧ (g = barCell (xr 3 c) ∨ g = barCell (xr 4 c))) := by
  unfold O₁ at h
  rcases Pipeline.add_pos_cases h with h1 | h1
  · rcases O₂_pos h1 with h2 | ⟨hu, hg⟩
    · exact Or.inl h2
    · exact Or.inr ⟨hu, Or.inr hg⟩
  · obtain ⟨hg, hu⟩ := Pipeline.tallyAt_pos h1
    exact Or.inr ⟨hu, Or.inl hg⟩

/-- At launch: a copy, or the unit owed to the barrier cell of one of the three partners. -/
theorem O₀_pos {c : Dev nD} {g : GSem nD τ sig} {u : ℕ} (h : 0 < O₀ c g u) :
    (∃ k, k < 38 ∧ u = k + 1 ∧ g.1.2 = .tc ∧ g.2 ≠ .reg barS)
      ∨ (u = 0 ∧ (g = barCell (xr 1 c) ∨ g = barCell (xr 3 c) ∨ g = barCell (xr 4 c))) := by
  unfold O₀ at h
  rcases Pipeline.add_pos_cases h with h1 | h1
  · rcases O₁_pos h1 with h2 | ⟨hu, hg⟩
    · exact Or.inl h2
    · exact Or.inr ⟨hu, Or.inr hg⟩
  · obtain ⟨hg, hu⟩ := Pipeline.tallyAt_pos h1
    exact Or.inr ⟨hu, Or.inl hg⟩

/-! ## The waits -/

/-- A wait at index `k + 1` of an own DMA cell (level `k + 2`) while the copies `n ..` are owed, `k < n`: those
    sit at levels `n + 2` and above. -/
theorem mayWait_copy (c : Dev nD) (i : DmaSem sig) (k n : ℕ) (hk : k < n) (hn : n ≤ 38) :
    (levAts L lv : sProp 𝕄) ⊢ MayWait (c : Thread nD τ) (.dma i) (k + 1) (owedFrom c n) :=
  Pipeline.mayWait_of_levAts (L := L) (lev := lv) (mem_L_of_tc rfl (by omega)) fun g u hg => by
    obtain ⟨j, hj, hj38, hu, htc, hb⟩ := owed_pos hg
    subst hu
    refine ⟨mem_L_of_tc htc (by omega), ?_⟩
    rw [lv_dma, lv_of_ne_bar hb]
    omega

/-- The barrier wait (level 1) while every copy is still owed (levels 2 and above). -/
theorem mayWait_bar (c : Dev nD) :
    (levAts L lv : sProp 𝕄) ⊢ MayWait (c : Thread nD τ) (.reg barS) 0 (owedFrom c 0) :=
  Pipeline.mayWait_of_levAts (L := L) (lev := lv) (mem_L_of_tc rfl (by omega)) fun g u hg => by
    obtain ⟨j, -, hj38, hu, htc, hb⟩ := owed_pos hg
    subst hu
    refine ⟨mem_L_of_tc htc (by omega), ?_⟩
    rw [lv_bar, lv_of_ne_bar hb]
    omega

/-- A staging wait of the pipeline (index 0 of a DMA cell, level 0), before the body (everything owed: copies at
    levels 2 and above, entry signals at level 1) or after it (nothing owed). -/
theorem mayWait_stage (c : Dev nD) (q : DmaSem sig) (O : CellTallies nD τ sig ℕ) (hO : O = O₀ c ∨ O = 0) :
    (levAts L lv : sProp 𝕄) ⊢ MayWait (c : Thread nD τ) (.dma q) 0 O :=
  Pipeline.mayWait_of_levAts (L := L) (lev := lv) (mem_L_of_tc rfl (by omega)) fun g u hg => by
    rw [lv_dma_zero]
    rcases hO with hO | hO
    · rw [hO] at hg
      rcases O₀_pos hg with ⟨j, hj38, hu, htc, hb⟩ | ⟨hu, hg' | hg' | hg'⟩
      · subst hu
        exact ⟨mem_L_of_tc htc (by omega), by rw [lv_of_ne_bar hb]; omega⟩
      · subst hu hg'
        exact ⟨mem_L_of_tc rfl (by omega), by rw [lv_bar]; omega⟩
      · subst hu hg'
        exact ⟨mem_L_of_tc rfl (by omega), by rw [lv_bar]; omega⟩
      · subst hu hg'
        exact ⟨mem_L_of_tc rfl (by omega), by rw [lv_bar]; omega⟩
    · rw [hO, Pi.zero_apply, Finsupp.zero_apply] at hg
      exact absurd hg (Nat.lt_irrefl 0)

/-! ## The wait lemmas rest on the standard axioms only -/

/-- info: 'Cert.KernelIdeal.Hand.mayWait_copy' depends on axioms: [propext, Classical.choice, Quot.sound] -/
#guard_msgs in #print axioms mayWait_copy
/-- info: 'Cert.KernelIdeal.Hand.mayWait_bar' depends on axioms: [propext, Classical.choice, Quot.sound] -/
#guard_msgs in #print axioms mayWait_bar
/-- info: 'Cert.KernelIdeal.Hand.mayWait_stage' depends on axioms: [propext, Classical.choice, Quot.sound] -/
#guard_msgs in #print axioms mayWait_stage

end Cert.KernelIdeal.Hand

end
-- ==== Proof.KernelIdeal.Launch.lean ====
import proofs.«900979_g7700000000000980_dist_mlpseq_tp1d_bs_bs_b256_d256_h512_v7x_i8_bf16_1_alg».proof.Proof.KernelIdeal.State
import proofs.«900979_g7700000000000980_dist_mlpseq_tp1d_bs_bs_b256_d256_h512_v7x_i8_bf16_1_alg».proof.Proof.Gen.KernelIdeal.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # The launch: from the body obligation of every device to the run of the whole mesh

The launch element is the pipeline's copy beside the protocol's. The protocol's copy is funded for the 33 cells of
every device (its barrier semaphore and its 32 DMA semaphores) and for one token per duty of the schedule: the three
entry signals of each barrier cell, and for each of the 38 copies the duty of the sender's send cell and of the
partner's receive cell. In one global step every cell's invariant is allocated from its counter at zero and every
token travels from the cell's owner to the device that pays the duty; the partner maps are involutions of the eight
devices, so the tokens of one duty are permuted among the devices. The launch credit is read off what the devices owe:
copy `k` of the partner across the copy's mask lands on this device's receive cell, so this device is dealt that
copy's units at index `k + 1`, and the three partners' entry signals make the three units of its barrier cell.
No argument array is written: each is an input window's array, which holds its entry contents at the end. -/

/-! ## Small facts about big separating conjunctions -/

theorem bigSep_fin_succ {M : Type} [URA M] {n : ℕ} (Φ : Fin (n + 1) → sProp M) :
    bigSep Finset.univ Φ = iprop(Φ 0 ∗ bigSep Finset.univ fun j : Fin n => Φ j.succ) := by
  rw [Fin.univ_succ, Finset.cons_eq_insert, bigSep_insert (by simp), bigSep_map]
  rfl

theorem bigSep_bool {M : Type} [URA M] (Φ : Bool → sProp M) : bigSep Finset.univ Φ = iprop(Φ false ∗ Φ true) :=
  bigSep_univ_eq_bigSepL [false, true] (by decide) (by decide) Φ

theorem bigSep_univ_sum' {M : Type} [URA M] {α β : Type} [Fintype α] [Fintype β] (Φ : α ⊕ β → sProp M) :
    bigSep Finset.univ Φ = iprop((bigSep Finset.univ fun a => Φ (.inl a)) ∗ bigSep Finset.univ fun b => Φ (.inr b)) := bigSep_univ_sum Φ

theorem bigSep_three {M : Type} [URA M] (Φ : Fin 3 → sProp M) : bigSep Finset.univ Φ = iprop(Φ 0 ∗ Φ 1 ∗ Φ 2) :=
  bigSep_univ_eq_bigSepL [0, 1, 2] (by decide) (by decide) Φ

/-! ## The kernel's own semaphores, the protocol's cells and its duty tokens -/

/-- The 32 DMA semaphores of the two streams' exchanges. -/
def osem : Fin 32 → SemLoc sig := fun k => .dma (dsem (k.val + 8))

theorem ownSemFacts : Pipeline.OwnSemFacts cfg0.spec osem := by decide

theorem share_eq (m : (ℓ : Loc nD τ sig) → Buf (Elt F) ℓ) (c : Dev nD) (w : Fin cfg0.W) : (rdats (F := F) m 0 c).share w = fullShare :=
  Pipeline.RDat.share_full _ (fun _ => rfl) w

/-- The semaphore of a device's cell number `k`. -/
def ksem (k : Fin 33) : SemLoc sig := if k.val = 0 then .reg barS else .dma (dsem (k.val + 7))

theorem kcell_eq (c : Dev nD) (k : Fin 33) : kcell (c, k) = ((c : Thread nD τ), ksem k) := by
  unfold kcell ksem; split <;> rfl

theorem ksem_injective : Function.Injective ksem := by decide

theorem kcell_injective : Function.Injective (kcell : Dev nD × Fin 33 → GSem nD τ sig) := by
  rintro ⟨c, k⟩ ⟨c', k'⟩ h
  rw [kcell_eq, kcell_eq] at h
  have h1 : c = c' := congrArg (fun g : GSem nD τ sig => g.1.1) h
  subst h1
  have h2 : k = k' := ksem_injective (congrArg Prod.snd h)
  subst h2; rfl

def protoCells : Finset (GSem nD τ sig) := Finset.univ.map ⟨kcell, kcell_injective⟩

/-- Entry `k` of the table of copies. -/
def ent (k : ℕ) : Fin 8 × ℕ × ℕ := copyTab.getD k (0, 0, 0)

/-- The duties of one device's cells: the barrier's three, and for each copy its send cell's and its receive cell's. -/
abbrev TI : Type := Fin 3 ⊕ (Fin copyTab.length × Bool)

/-- The partner mask of the barrier's duty `d`. -/
def bmask : DD → Fin 8 := ![1, 3, 4]

/-- Duty `i`: its semaphore, round and place. -/
def tkey : TI → SemLoc sig × ℕ × DD
  | .inl d => (.reg barS, 0, d)
  | .inr (k, false) => (.dma (dsem (sendOf (ent k.val).2.1)), (ent k.val).2.2, 0)
  | .inr (k, true) => (.dma (dsem (ent k.val).2.1), (ent k.val).2.2, 0)

/-- The partner map as a permutation of the devices. -/
def xrEquiv (k : Fin 8) : Dev nD ≃ Dev nD := ⟨xr k, xr k, xr_xr k, xr_xr k⟩

/-- Who pays duty `i` of a device's cell, as a permutation of the devices: the partner across the duty's mask, the
    device itself for a send cell. -/
def payEquiv : TI → (Dev nD ≃ Dev nD)
  | .inl d => xrEquiv (bmask d)
  | .inr (_, false) => Equiv.refl _
  | .inr (k, true) => xrEquiv (ent k.val).1

/-- Duty `i` of device `c`'s cells, as a (cell, round, place) triple. -/
def otok (ci : Dev nD × TI) : GSem nD τ sig × ℕ × DD := (((ci.1 : Thread nD τ), (tkey ci.2).1), (tkey ci.2).2)

theorem tkey_injective : Function.Injective tkey := by decide +kernel

theorem otok_injective : Function.Injective otok := by
  rintro ⟨c, i⟩ ⟨c', i'⟩ h
  have h1 : c = c' := congrArg (fun x : GSem nD τ sig × ℕ × DD => x.1.1.1) h
  subst h1
  have ha : (tkey i).1 = (tkey i').1 := congrArg (fun x : GSem nD τ sig × ℕ × DD => x.1.2) h
  have hb : (tkey i).2 = (tkey i').2 := congrArg (fun x : GSem nD τ sig × ℕ × DD => x.2) h
  rw [tkey_injective (Prod.ext ha hb)]

def protoToks : Finset (GSem nD τ sig × ℕ × DD) := Finset.univ.map ⟨otok, otok_injective⟩

/-- The launch element: the pipeline's copy beside the protocol's. -/
def u₀ : UU :=
  (initOf (Pipeline.cells cfgs cellOf_inj) (Pipeline.launchToks cfgs cellOf_inj), initOf protoCells protoToks)

/-- A duty token by its triple. -/
abbrev tokP (x : GSem nD τ sig × ℕ × DD) : sProp 𝕄 := dutyTok ER x.1 x.2.1 x.2.2

/-- The tokens of the duties of device `c`'s own cells. -/
def otoks (c : Dev nD) : sProp 𝕄 := bigSep Finset.univ fun i : TI => tokP (F := F) (otok (c, i))

/-- What the launch element deals device `c`: its cells' round states, positions and reached facts, and its cells' tokens. -/
def G (c : Dev nD) : sProp 𝕄 :=
  iprop((bigSep Finset.univ fun k : Fin 33 => roundState ER (sched (F := F)) (kcell (c, k)) 0)
    ∗ (bigSep Finset.univ fun k : Fin 33 => iprop(atPos ER (kcell (c, k)) 0 ∅ 0 ∗ reached ER (kcell (c, k)) 0)) ∗ otoks c)

/-- What the global step makes of it. -/
def G' (c : Dev nD) : sProp 𝕄 := iprop(∃ K, ghost (F := F) K c)

theorem fund_proto : BI.own (ER (initOf protoCells protoToks)) ⊢ (|==> bigSep Finset.univ (G (F := F)) : sProp 𝕄) := by
  have hX (Φ : GSem nD τ sig → sProp 𝕄) : bigSep protoCells Φ = bigSep Finset.univ fun c : Dev nD => bigSep Finset.univ fun k : Fin 33 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => otoks (F := F) c := by
    unfold protoToks otoks; rw [bigSep_map, bigSep_univ_prod]; rfl
  iintro HX
  imod (Rounds.fund ER (sched (F := F)) protoCells protoToks) $$ HX with ⟨Hst, Hr, Hat, Htok⟩
  imodintro
  ihave Hst' := (Entails.of_eq (hX fun g => roundState ER (sched (F := F)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The global step: every cell's invariant allocated, the tokens dealt to their payers -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores on a device, one by one. -/
theorem ownSems0_eq (c : Dev nD) : (Pipeline.ownSems0 (Ix := ℕ) (Name := ℕ) (U := UU) (Lvl := ℕ) (Val := Elt F) (τ := τ) osem c : sProp 𝕄)
    = bigSep Finset.univ fun k : Fin 32 => semVal (dcell c (dsem (k.val + 8))) 0 := rfl

/-- Cell number `j + 1` of a device is its DMA semaphore `j + 8`. -/
theorem kcell_succ (c : Dev nD) (j : Fin 32) : kcell (c, j.succ) = dcell c (dsem (j.val + 8)) := by
  unfold kcell
  rw [if_neg (by simp)]
  show dcell c (dsem ((j.val + 1) + 7)) = dcell c (dsem (j.val + 8))
  rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 33 => semVal (kcell (c, k)) 0 : sProp 𝕄) := by
  rw [unscopedSems0_eq, bigSep_fin_succ, ownSems0_eq,
    bigSep_congr (s := Finset.univ) fun (j : Fin 32) _ =>
      show (semVal (kcell (c, j.succ)) 0 : sProp 𝕄) = semVal (dcell c (dsem (j.val + 8))) 0 by rw [kcell_succ]]
  iintro ⟨HS, HB⟩
  isplitl [HB]; · iexact HB
  iexact HS

theorem core_alloc [∀ g r d, BI.Storable (upEmb : UEmb _ 𝕄) ((sched (F := F)).payload g r d)] (c : Dev nD) :
    iprop(Pipeline.ownSems0 (Ix := ℕ) (Name := ℕ) (U := UU) (Lvl := ℕ) (Val := Elt F) (τ := τ) osem c ∗ unscopedSems0 c ∗ G (F := F) c)
      ⊢ |={Set.univ}=> iprop((bigSep Finset.univ fun k : Fin 33 => iprop(∃ κ : ℕ, cellInv ER (sched (F := F)) κ (kcell (c, k))))
          ∗ (bigSep Finset.univ fun k : Fin 33 => iprop(atPos ER (kcell (c, k)) 0 ∅ 0 ∗ reached ER (kcell (c, k)) 0)) ∗ otoks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (sched (F := F)) (kcell (c, k)) 0)
      ⊢ (|={Set.univ}=> bigSep Finset.univ fun k : Fin 33 => iprop(∃ κ : ℕ, cellInv ER (sched (F := F)) κ (kcell (c, k))) : sProp 𝕄) from by
        rw [← bigSep_sep']
        exact (bigSep_mono fun k _ => (Rounds.body_intro ER (sched (F := F)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent part of a device's ghost state. -/
def records (K : GSem nD τ sig → ℕ) : sProp 𝕄 := iprop(invsAll (F := F) K ∗ reachedAll)

instance records_persistent (K : GSem nD τ sig → ℕ) : BI.Persistent (records (F := F) K) := by
  unfold records invsAll reachedAll; infer_instance

theorem ghost_intro (K : GSem nD τ sig → ℕ) (c : Dev nD) : iprop(records (F := F) K ∗ (posAll c ∗ toks c)) ⊢ G' (F := F) c := by
  unfold records G' ghost
  iintro ⟨⟨HI, HR⟩, HP, HT⟩
  iexists K
  isplitl [HI]; · iexact HI
  isplitl [HR]; · iexact HR
  isplitl [HP]; · iexact HP
  iexact HT

/-- The tokens of a list of copies, one pair a copy, as the recursion over the table has them. -/
theorem toksCopies_of (c : Dev nD) : ∀ (es : List (Fin 8 × ℕ × ℕ)) (k : ℕ),
    (bigSep (Finset.univ : Finset (Fin es.length)) fun j =>
        iprop(dutyTok ER (dcell c (dsem (sendOf (es.getD j.val (0, 0, 0)).2.1))) (es.getD j.val (0, 0, 0)).2.2 (0 : DD)
          ∗ dutyTok ER (dcell (xr (es.getD j.val (0, 0, 0)).1 c) (dsem (es.getD j.val (0, 0, 0)).2.1)) (es.getD j.val (0, 0, 0)).2.2 (0 : DD)) : sProp 𝕄)
      ⊢ toksCopies c k es
  | [], k => by unfold toksCopies; iintro -; iempintro
  | e :: es, k => by
      show (bigSep (Finset.univ : Finset (Fin (es.length + 1))) _ : sProp 𝕄) ⊢ _
      rw [bigSep_fin_succ]
      unfold toksCopies
      exact sep_mono_right (toksCopies_of c es (k + 1))

/-- What device `c` pays with, gathered duty by duty from the partners' cells. -/
theorem toks_of_pay (c : Dev nD) : (bigSep Finset.univ fun i : TI => tokP (F := F) (otok (payEquiv i c, i))) ⊢ toks c := by
  have hC : (bigSep Finset.univ fun k : Fin copyTab.length => bigSep Finset.univ fun b : Bool =>
        tokP (F := F) (otok (payEquiv (Sum.inr (k, b)) c, Sum.inr (k, b))))
      ⊢ toksCopies c 0 copyTab :=
    (bigSep_mono (s := Finset.univ) fun (k : Fin copyTab.length) _ =>
      Entails.of_eq (bigSep_bool fun b => tokP (F := F) (otok (payEquiv (Sum.inr (k, b)) c, Sum.inr (k, b))))).trans
      (toksCopies_of c copyTab 0)
  rw [bigSep_univ_sum', bigSep_three, bigSep_univ_prod]
  unfold toks
  iintro ⟨⟨H0, H1, H2⟩, HC⟩
  isplitl [H0]; · iexact H0
  isplitl [H1]; · iexact H1
  isplitl [H2]; · iexact H2
  iapply hC
  iexact HC

/-- The tokens dealt around: each duty's token goes from the cell's owner to the partner that pays it. -/
theorem toks_around : (bigSep Finset.univ fun c : Dev nD => (otoks (F := F) c : sProp 𝕄)) ⊢ bigSep Finset.univ fun c : Dev nD => toks c := by
  unfold otoks
  rw [bigSep_univ_comm (fun (c : Dev nD) (i : TI) => tokP (F := F) (otok (c, i))),
    bigSep_congr (s := Finset.univ) (fun (i : TI) _ => bigSep_univ_equiv (payEquiv i) (fun c : Dev nD => tokP (F := F) (otok (c, i)))),
    bigSep_univ_comm (fun (i : TI) (c : Dev nD) => tokP (F := F) (otok (payEquiv i c, i)))]
  exact bigSep_mono fun c _ => toks_of_pay c

theorem regroup :
    (bigSep Finset.univ fun c : Dev nD => iprop((bigSep Finset.univ fun k : Fin 33 => iprop(∃ κ : ℕ, cellInv ER (sched (F := F)) κ (kcell (c, k))))
          ∗ (bigSep Finset.univ fun k : Fin 33 => iprop(atPos ER (kcell (c, k)) 0 ∅ 0 ∗ reached ER (kcell (c, k)) 0)) ∗ otoks c) : sProp 𝕄)
      ⊢ bigSep Finset.univ (G' (F := F)) := by
  rw [bigSep_sep', bigSep_sep', ← bigSep_univ_prod (fun ck : Dev nD × Fin 33 => iprop(∃ κ : ℕ, cellInv ER (sched (F := F)) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (sched (F := F)) κ (kcell ck) : sProp 𝕄))) $$ HI
  icases HK with ⟨%K', #HI⟩
  ihave Htk := (toks_around (F := F)) $$ Htok
  iapply (bigSep_with_persistent (R := records (F := F) (Function.extend kcell K' 0)) fun c _ => ghost_intro (Function.extend kcell K' 0) c)
  isplitr
  · unfold records invsAll reachedAll
    isplitl
    · iapply (Entails.of_eq (bigSep_congr (s := Finset.univ) fun (ck : Dev nD × Fin 33) _ =>
        show (cellInv ER (sched (F := F)) (K' ck) (kcell ck) : sProp 𝕄) = cellInv ER (sched (F := F)) (Function.extend kcell K' 0 (kcell ck)) (kcell ck) by
          rw [kcell_injective.extend_apply]))
      iexact HI
    · iexact HR
  · iapply (Entails.of_eq (bigSep_sep' Finset.univ (fun c : Dev nD => (posAll c : sProp 𝕄)) (fun c => toks c)).symm)
    isplitl [Hat]; · iexact Hat
    iexact Htk

/-- The global step: own and unscoped semaphores of every device at once. -/
theorem glob [∀ g r d, BI.Storable (upEmb : UEmb _ 𝕄) ((sched (F := F)).payload g r d)] :
    (bigSep Finset.univ fun c => iprop(Pipeline.ownSems0 (Ix := ℕ) (Name := ℕ) (U := UU) (Lvl := ℕ) (Val := Elt F) (τ := τ) osem c ∗ unscopedSems0 c ∗ G (F := F) c) : sProp 𝕄)
      ⊢ |={Set.univ}=> bigSep Finset.univ (G' (F := F)) :=
  ((bigSep_mono fun c _ => core_alloc c).trans (bigSep_fupd _ _)).trans (BI.fupd_mono regroup)

/-! ### The launch credit -/

/-- The credit of a list of copies: every partner owes the copy of the same number, so the launch deals its units
    to the device the copy lands on. -/
theorem cred_copies (c : Dev nD) : ∀ (es : List (Fin 8 × ℕ × ℕ)) (k : ℕ),
    (Pipeline.launchCred (fun d => owedAux d k es) c : sProp 𝕄) ⊢ credsCopies c k es
  | [], k => by
      show (Pipeline.launchCred (fun _ : Dev nD => (0 : CellTallies nD τ sig ℕ)) c : sProp 𝕄) ⊢ _
      rw [Pipeline.launchCred_zero]; unfold credsCopies; exact Entails.refl _
  | e :: es, k => by
      show (Pipeline.launchCred (fun d => owedAux d (k + 1) es + tallyOf d k e) c : sProp 𝕄) ⊢ _
      rw [Pipeline.launchCred_add]
      unfold credsCopies
      iintro ⟨H1, H2⟩
      isplitl [H2]
      · iapply (Pipeline.launchCred_tallyAt (.dma (dsem e.2.1)) (xr e.1) (xr e.1) (xr_xr e.1) (xr_xr e.1) (k + 1) (amtDma e.2.1 e.2.2) c)
        iexact H2
      · iapply (cred_copies c es (k + 1)); iexact H1

theorem creds_of_launch (c : Dev nD) : (Pipeline.launchCred O₀ c : sProp 𝕄) ⊢ creds c := by
  show (Pipeline.launchCred (fun d => ((owedAux d 0 copyTab + tallyAt (barCell (xr 4 d)) 0 1) + tallyAt (barCell (xr 3 d)) 0 1)
    + tallyAt (barCell (xr 1 d)) 0 1) c : sProp 𝕄) ⊢ _
  rw [Pipeline.launchCred_add, Pipeline.launchCred_add, Pipeline.launchCred_add]
  unfold creds
  iintro ⟨⟨⟨HC, H4⟩, H3⟩, H1⟩
  ihave H4' := (Pipeline.launchCred_tallyAt (.reg barS) (xr 4) (xr 4) (xr_xr 4) (xr_xr 4) (0 : ℕ) 1 c) $$ H4
  ihave H3' := (Pipeline.launchCred_tallyAt (.reg barS) (xr 3) (xr 3) (xr_xr 3) (xr_xr 3) (0 : ℕ) 1 c) $$ H3
  ihave H1' := (Pipeline.launchCred_tallyAt (.reg barS) (xr 1) (xr 1) (xr_xr 1) (xr_xr 1) (0 : ℕ) 1 c) $$ H1
  isplitl [H1' H3' H4']
  · have e : (tallyAt (barCell c) (0 : ℕ) 3 : CellTallies nD τ sig ℕ) = tallyAt (barCell c) 0 1 + tallyAt (barCell c) 0 1 + tallyAt (barCell c) 0 1 := by
      rw [tallyAt_add, tallyAt_add]
    rw [e]
    iapply (cred_add _ _).2
    isplitl [H1' H3']
    · iapply (cred_add _ _).2
      isplitl [H1'] <;> iassumption
    · iexact H4'
  · iapply (cred_copies c copyTab 0); iexact HC

/-! ### The theorem's side conditions -/

/-- What a device enters the pipeline with. -/
def start (c : Dev nD) : sProp 𝕄 := iprop((∃ K, ghost (F := F) K c) ∗ creds c ∗ levAts L lv)

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) c)
      ⊢ |={Set.univ}=> iprop(start (F := F) c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

theorem phi0_intro (m : (ℓ : Loc nD τ sig) → Buf (Elt F) ℓ) (c : Dev nD) :
    iprop(start (F := F) c ∗ Pipeline.prefHeld Pipeline.Prefetch.none c (fun _ => fullShare.right) (fun k => k.elim0) ∗ Pipeline.scopedRest cfg0.spec c)
      ⊢ (rdats (F := F) m 0 c).Φ 0 := by
  rw [show (rdats (F := F) m 0 c).Φ 0 = Φ₀ (F := F) c from rfl, scopedRest0_eq]
  unfold Φ₀ start scratchAll
  iintro ⟨⟨HG, Hc, Hl⟩, -, Hs⟩
  isplitl [HG]; · iexact HG
  isplitl [Hc]; · iexact Hc
  isplitl [Hl]; · iexact Hl
  iexact Hs

theorem phi1_exit (m : (ℓ : Loc nD τ sig) → Buf (Elt F) ℓ) (c : Dev nD) :
    (rdats (F := F) m 0 c).Φ (Fin.last cfg0.N) ⊢ iprop(emp ∗ Pipeline.ownSems0 osem c ∗ Pipeline.scopedRest cfg0.spec c) := by
  rw [show (rdats (F := F) m 0 c).Φ (Fin.last cfg0.N) = Φ₁ (F := F) c from rfl, scopedRest0_eq, ownSems0_eq]
  unfold Φ₁ scratchAll
  iintro ⟨Hs, Hz⟩
  isplitr; · iempintro
  isplitl [Hz]; · iexact Hz
  iexact Hs

theorem waits (mayWait_stage : ∀ (c : Dev nD) (q : DmaSem sig) (O : CellTallies nD τ sig ℕ), (O = O₀ c ∨ O = 0) →
      (levAts L lv : sProp 𝕄) ⊢ MayWait (c : Thread nD τ) (.dma q) 0 O)
    (m : (ℓ : Loc nD τ sig) → Buf (Elt F) ℓ) (c : Dev nD) :
    (levAts L lv : sProp 𝕄) ⊢ Pipeline.RDat.cellsWaits cfgs (rdats (F := F) m) 0 0 c :=
  Pipeline.RDat.cellsWaits_intro cfgs (rdats m) 0 0 c fun w s t =>
    mayWait_stage c _ _ (by
      rcases t with ⟨_ | _, ht⟩
      · exact Or.inl rfl
      · exact Or.inr rfl)

/-! ### The run -/

/-- From every device's body obligation to the run of the mesh: every weakly fair execution of @main terminates, and
    every final state has each device's argument arrays as launched. -/
theorem run_of_body [∀ g r d, BI.Storable (upEmb : UEmb _ 𝕄) ((sched (F := F)).payload g r d)]
    (L_of_ne : ∀ g : GSem nD τ sig, g.1.2 ≠ .tc → L g = ∅)
    (mayWait_stage : ∀ (c : Dev nD) (q : DmaSem sig) (O : CellTallies nD τ sig ℕ), (O = O₀ c ∨ O = 0) →
      (levAts L lv : sProp 𝕄) ⊢ MayWait (c : Thread nD τ) (.dma q) 0 O)
    (m : (ℓ : Loc nD τ sig) → Buf (Elt F) ℓ) (ρ : Dev nD → PrngReg)
    (hbody : ∀ c, (rdats (F := F) m 0 c).BodyObligation (defs₀ (F := F)) Variants.none 0 Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.RDat.θ_run_region_owing_glob_pf (pcfgs (F := F)) (fun p => (cfgs p).toPCfg_adm) (rdats (F := F) m) (0 : ℕ) cellOf_inj (0 : Fin 1)
    winFacts0.to₀ ownSemFacts (Pipeline.PreFacts.none _) EP defs₀ Variants.none m ρ main
    (hmain := fun c => (main_chain c).trans rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits mayWait_stage m)
    (G := G (F := F)) (G' := G' (F := F)) (u₀ := u₀)
    (hu₀ := by
      unfold u₀
      iintro Hu
      ihave H := (ownU_pair _ _) $$ Hu
      icases H with ⟨HP, HX⟩
      imod (fund_proto (F := F)) $$ HX with HG
      imodintro
      isplitl [HP] <;> iassumption)
    (hglob := glob (F := F))
    (hA := fun _ _ => rfl) (hpf := fun _ k => k.elim0)
    (X := start (F := F)) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => by
      have h0 := (h c).1 0; have h1 := (h c).1 1; have h2 := (h c).1 2; have h3 := (h c).1 3
      have h4 := (h c).1 4; have h5 := (h c).1 5; have h6 := (h c).1 6
      rw [Pipeline.RDat.ArrAt_in _ 0 rfl] at h0
      rw [Pipeline.RDat.ArrAt_in _ 1 rfl] at h1
      rw [Pipeline.RDat.ArrAt_in _ 2 rfl] at h2
      rw [Pipeline.RDat.ArrAt_in _ 3 rfl] at h3
      rw [Pipeline.RDat.ArrAt_in _ 4 rfl] at h4
      rw [Pipeline.RDat.ArrAt_in _ 5 rfl] at h5
      rw [Pipeline.RDat.ArrAt_in _ 6 rfl] at h6
      exact ⟨h0, h1, h2, h3, h4, h5, h6⟩)

/-- info: 'Cert.KernelIdeal.Hand.run_of_body' depends on axioms: [propext, Classical.choice, Quot.sound] -/
#guard_msgs in #print axioms run_of_body

end Cert.KernelIdeal.Hand

end
-- ==== Proof.KernelIdeal.Quiet.lean ====
import proofs.«900979_g7700000000000980_dist_mlpseq_tp1d_bs_bs_b256_d256_h512_v7x_i8_bf16_1_alg».proof.Proof.KernelIdeal.State
import proofs.«900979_g7700000000000980_dist_mlpseq_tp1d_bs_bs_b256_d256_h512_v7x_i8_bf16_1_alg».proof.Proof.KernelIdeal.Tables

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # The state of a device at the points of the body where no copy is in flight

   Between two phases of the protocol every copy issued so far has been waited for on both its cells, every source
   slice is back and every landing has been taken. What is still outstanding is the hand-over of slots: for each of the
   next copies whose carrier has already landed, the partner's slot is held (`grant`) and the device's own slot for the
   partner's copy of the same number is away, so the buffer it lies in is held without that slice. -/

/-- A whole buffer of device `c` held at contents `f`, through its memref. -/
abbrev ptw (c : Dev nD) (b : Ref sig .tc) (f : Buf (Elt F) ((Memref.whole b).view.loc (c : Thread nD τ))) : sProp 𝕄 :=
  (Memref.whole b).view.loc (c : Thread nD τ) ↦{fullShare} f

/-- A buffer of device `c` held except for the elements `A`, at some contents. -/
def heldBut (c : Dev nD) (b : Ref sig .tc) (A : Finset (Idx ((Memref.whole b).view.loc (c : Thread nD τ)))) : sProp 𝕄 :=
  iprop(∃ f : Buf (Elt F) ((Memref.whole b).view.loc (c : Thread nD τ)),
    (Memref.whole b).view.loc (c : Thread nD τ) ↦[Finset.univ \ A]{fullShare} f)

/-- How many rounds of DMA semaphore `j` are over once copies `0 .. k₀-1` are issued and waited for. -/
def roundsDone (k₀ j : ℕ) : ℕ := ((copyTab.take k₀).filter fun e => e.2.1 = j ∨ sendOf e.2.1 = j).length

/-- The owner's position on each of its 32 DMA cells, with the fact that the round is reached. -/
def posAt (c : Dev nD) (R : ℕ → ℕ) : sProp 𝕄 :=
  iprop(atPos ER (dcell c (dsem 8)) (R 8) ∅ 0 ∗ reached ER (dcell c (dsem 8)) (R 8)
    ∗ atPos ER (dcell c (dsem 9)) (R 9) ∅ 0 ∗ reached ER (dcell c (dsem 9)) (R 9)
    ∗ atPos ER (dcell c (dsem 10)) (R 10) ∅ 0 ∗ reached ER (dcell c (dsem 10)) (R 10)
    ∗ atPos ER (dcell c (dsem 11)) (R 11) ∅ 0 ∗ reached ER (dcell c (dsem 11)) (R 11)
    ∗ atPos ER (dcell c (dsem 12)) (R 12) ∅ 0 ∗ reached ER (dcell c (dsem 12)) (R 12)
    ∗ atPos ER (dcell c (dsem 13)) (R 13) ∅ 0 ∗ reached ER (dcell c (dsem 13)) (R 13)
    ∗ atPos ER (dcell c (dsem 14)) (R 14) ∅ 0 ∗ reached ER (dcell c (dsem 14)) (R 14)
    ∗ atPos ER (dcell c (dsem 15)) (R 15) ∅ 0 ∗ reached ER (dcell c (dsem 15)) (R 15)
    ∗ atPos ER (dcell c (dsem 16)) (R 16) ∅ 0 ∗ reached ER (dcell c (dsem 16)) (R 16)
    ∗ atPos ER (dcell c (dsem 17)) (R 17) ∅ 0 ∗ reached ER (dcell c (dsem 17)) (R 17)
    ∗ atPos ER (dcell c (dsem 18)) (R 18) ∅ 0 ∗ reached ER (dcell c (dsem 18)) (R 18)
    ∗ atPos ER (dcell c (dsem 19)) (R 19) ∅ 0 ∗ reached ER (dcell c (dsem 19)) (R 19)
    ∗ atPos ER (dcell c (dsem 20)) (R 20) ∅ 0 ∗ reached ER (dcell c (dsem 20)) (R 20)
    ∗ atPos ER (dcell c (dsem 21)) (R 21) ∅ 0 ∗ reached ER (dcell c (dsem 21)) (R 21)
    ∗ atPos ER (dcell c (dsem 22)) (R 22) ∅ 0 ∗ reached ER (dcell c (dsem 22)) (R 22)
    ∗ atPos ER (dcell c (dsem 23)) (R 23) ∅ 0 ∗ reached ER (dcell c (dsem 23)) (R 23)
    ∗ atPos ER (dcell c (dsem 24)) (R 24) ∅ 0 ∗ reached ER (dcell c (dsem 24)) (R 24)
    ∗ atPos ER (dcell c (dsem 25)) (R 25) ∅ 0 ∗ reached ER (dcell c (dsem 25)) (R 25)
    ∗ atPos ER (dcell c (dsem 26)) (R 26) ∅ 0 ∗ reached ER (dcell c (dsem 26)) (R 26)
    ∗ atPos ER (dcell c (dsem 27)) (R 27) ∅ 0 ∗ reached ER (dcell c (dsem 27)) (R 27)
    ∗ atPos ER (dcell c (dsem 28)) (R 28) ∅ 0 ∗ reached ER (dcell c (dsem 28)) (R 28)
    ∗ atPos ER (dcell c (dsem 29)) (R 29) ∅ 0 ∗ reached ER (dcell c (dsem 29)) (R 29)
    ∗ atPos ER (dcell c (dsem 30)) (R 30) ∅ 0 ∗ reached ER (dcell c (dsem 30)) (R 30)
    ∗ atPos ER (dcell c (dsem 31)) (R 31) ∅ 0 ∗ reached ER (dcell c (dsem 31)) (R 31)
    ∗ atPos ER (dcell c (dsem 32)) (R 32) ∅ 0 ∗ reached ER (dcell c (dsem 32)) (R 32)
    ∗ atPos ER (dcell c (dsem 33)) (R 33) ∅ 0 ∗ reached ER (dcell c (dsem 33)) (R 33)
    ∗ atPos ER (dcell c (dsem 34)) (R 34) ∅ 0 ∗ reached ER (dcell c (dsem 34)) (R 34)
    ∗ atPos ER (dcell c (dsem 35)) (R 35) ∅ 0 ∗ reached ER (dcell c (dsem 35)) (R 35)
    ∗ atPos ER (dcell c (dsem 36)) (R 36) ∅ 0 ∗ reached ER (dcell c (dsem 36)) (R 36)
    ∗ atPos ER (dcell c (dsem 37)) (R 37) ∅ 0 ∗ reached ER (dcell c (dsem 37)) (R 37)
    ∗ atPos ER (dcell c (dsem 38)) (R 38) ∅ 0 ∗ reached ER (dcell c (dsem 38)) (R 38)
    ∗ atPos ER (dcell c (dsem 39)) (R 39) ∅ 0 ∗ reached ER (dcell c (dsem 39)) (R 39))

/-- The buffers no copy touches: the eight windows' staging buffers, the two accumulators, the two send buffers
    (whole whenever no copy is in flight) and the two weight buffers, each whole at some contents. -/
def localBufs (c : Dev nD) : sProp 𝕄 :=
  iprop((∃ f, ptw (F := F) c cc0_stg0_0 f) ∗ (∃ f, ptw (F := F) c cc0_stg1_0 f) ∗ (∃ f, ptw (F := F) c cc0_stg2_0 f) ∗ (∃ f, ptw (F := F) c cc0_stg3_0 f) ∗ (∃ f, ptw (F := F) c cc0_stg4_0 f) ∗ (∃ f, ptw (F := F) c cc0_stg5_0 f) ∗ (∃ f, ptw (F := F) c cc0_stg6_0 f) ∗ (∃ f, ptw (F := F) c cc0_stg7_0 f) ∗ (∃ f, ptw (F := F) c cc0_scratch2 f) ∗ (∃ f, ptw (F := F) c cc0_scratch3 f) ∗ (∃ f, ptw (F := F) c cc0_scratch4 f) ∗ (∃ f, ptw (F := F) c cc0_scratch5 f) ∗ (∃ f, ptw (F := F) c cc0_scratch8 f) ∗ (∃ f, ptw (F := F) c cc0_scratch9 f))

/-- What every quiet point has in common, `k₀` copies issued: the invariants and levels, the barrier cell consumed,
    the positions, the tokens and credits of the copies to come, what is still owed, the untouched buffers. -/
def core (K : GSem nD τ sig → ℕ) (c : Dev nD) (k₀ : ℕ) : sProp 𝕄 :=
  iprop(invsAll (F := F) K ∗ reachedAll ∗ levAts L lv ∗ atPos ER (barCell c) 1 ∅ 0
    ∗ posAt c (roundsDone k₀) ∗ toksCopies c k₀ (copyTab.drop k₀) ∗ credsCopies c k₀ (copyTab.drop k₀)
    ∗ (∃ W, owes (c : Thread nD τ) (owedFrom c k₀) W) ∗ localBufs c)

/-- After the first exchange (4 copies): pending are the third exchange of both streams and stream 0's third reduce step. -/
def Q4 (K : GSem nD τ sig → ℕ) (c : Dev nD) : sProp 𝕄 :=
  iprop(core (F := F) K c 4
    ∗ heldBut c cc0_scratch0 (VE2 0 (xr 4 c)).view.set ∗ heldBut c cc0_scratch1 (VE2 1 (xr 1 c)).view.set
    ∗ heldBut c cc0_scratch6 (R2 0).view.set ∗ heldBut c cc0_scratch7 ∅
    ∗ grant (xr 4 c) (VE2 0 c) (agR 0 2) 0 ∗ grant (xr 1 c) (VE2 1 c) (agR 1 2) 0 ∗ grant (xr 3 c) (R2 0) (rsR 0 1) 0)

/-- After the third exchange of layer `l` (`k₀` = 6, 18, 30): pending are the four half-block reduce copies and
    stream 0's third reduce step. -/
def QE2 (K : GSem nD τ sig → ℕ) (c : Dev nD) (k₀ l : ℕ) : sProp 𝕄 :=
  iprop(core (F := F) K c k₀
    ∗ heldBut c cc0_scratch0 ∅ ∗ heldBut c cc0_scratch1 ∅
    ∗ heldBut c cc0_scratch6 ((R0 0).view.set ∪ (R1 0).view.set ∪ (R2 0).view.set) ∗ heldBut c cc0_scratch7 ((R0 1).view.set ∪ (R1 1).view.set)
    ∗ grant (xr 4 c) (R0 0) (rsR 0 0) l ∗ grant (xr 1 c) (R0 1) (rsR 1 0) l ∗ grant (xr 4 c) (R1 0) (rsR 0 4) l
    ∗ grant (xr 1 c) (R1 1) (rsR 1 4) l ∗ grant (xr 3 c) (R2 0) (rsR 0 1) l)

/-- After the two half-block reduce steps of layer `l` (`k₀` = 10, 22, 34): pending are both streams' third reduce
    step and stream 0's last. -/
def QAB (K : GSem nD τ sig → ℕ) (c : Dev nD) (k₀ l : ℕ) : sProp 𝕄 :=
  iprop(core (F := F) K c k₀
    ∗ heldBut c cc0_scratch0 ∅ ∗ heldBut c cc0_scratch1 ∅
    ∗ heldBut c cc0_scratch6 ((R2 0).view.set ∪ (match l with | 1 => (R4 0).view.set | 2 => (R3h 0).view.set | _ => (R3 0).view.set))
    ∗ heldBut c cc0_scratch7 (R2 1).view.set
    ∗ grant (xr 3 c) (R2 0) (rsR 0 1) l ∗ grant (xr 4 c) (R2 1) (rsR 1 1) l ∗ grantLast (xr 1 c) 0 l)

/-- After the third reduce step of layer `l` (`k₀` = 12, 24, 36): pending are both streams' last step and, before the
    last layer, stream 1's second exchange of the next layer. -/
def QC (K : GSem nD τ sig → ℕ) (c : Dev nD) (k₀ l : ℕ) : sProp 𝕄 :=
  iprop(core (F := F) K c k₀
    ∗ heldBut c cc0_scratch0 ∅
    ∗ heldBut c cc0_scratch1 (if l < 2 then (VE1 1 (xr 4 c)).view.set else ∅)
    ∗ heldBut c cc0_scratch6 (match l with | 1 => (R4 0).view.set | 2 => (R3h 0).view.set | _ => (R3 0).view.set)
    ∗ heldBut c cc0_scratch7 (match l with | 1 => (R4 1).view.set | 2 => (R3h 1).view.set | _ => (R3 1).view.set)
    ∗ grantLast (xr 1 c) 0 l ∗ grantLast (xr 3 c) 1 l
    ∗ (if l < 2 then grant (xr 4 c) (VE1 1 c) (agR 1 1) (l + 1) else iprop(emp)))

/-- After the last step of layer `l` < 2 (`k₀` = 14, 26): pending are the next layer's second exchange of both
    streams and stream 1's third. -/
def QD (K : GSem nD τ sig → ℕ) (c : Dev nD) (k₀ l : ℕ) : sProp 𝕄 :=
  iprop(core (F := F) K c k₀
    ∗ heldBut c cc0_scratch0 (VE1 0 (xr 3 c)).view.set
    ∗ heldBut c cc0_scratch1 ((VE1 1 (xr 4 c)).view.set ∪ (VE2 1 (xr 1 c)).view.set)
    ∗ heldBut c cc0_scratch6 ∅ ∗ heldBut c cc0_scratch7 ∅
    ∗ grant (xr 3 c) (VE1 0 c) (agR 0 1) (l + 1) ∗ grant (xr 4 c) (VE1 1 c) (agR 1 1) (l + 1) ∗ grant (xr 1 c) (VE2 1 c) (agR 1 2) (l + 1))

/-- In the last layer after its second exchange (28 copies): as after the first exchange of layer 0, at round 2. -/
def Q28 (K : GSem nD τ sig → ℕ) (c : Dev nD) : sProp 𝕄 :=
  iprop(core (F := F) K c 28
    ∗ heldBut c cc0_scratch0 (VE2 0 (xr 4 c)).view.set ∗ heldBut c cc0_scratch1 (VE2 1 (xr 1 c)).view.set
    ∗ heldBut c cc0_scratch6 (R2 0).view.set ∗ heldBut c cc0_scratch7 ∅
    ∗ grant (xr 4 c) (VE2 0 c) (agR 0 2) 2 ∗ grant (xr 1 c) (VE2 1 c) (agR 1 2) 2 ∗ grant (xr 3 c) (R2 0) (rsR 0 1) 2)

/-- After the last copy: nothing pending. -/
def Q38 (K : GSem nD τ sig → ℕ) (c : Dev nD) : sProp 𝕄 :=
  iprop(core (F := F) K c 38
    ∗ heldBut c cc0_scratch0 ∅ ∗ heldBut c cc0_scratch1 ∅ ∗ heldBut c cc0_scratch6 ∅ ∗ heldBut c cc0_scratch7 ∅)

end Cert.KernelIdeal.Hand
end
-- ==== Proof.KernelIdeal.Segments.lean ====
import proofs.«900979_g7700000000000980_dist_mlpseq_tp1d_bs_bs_b256_d256_h512_v7x_i8_bf16_1_alg».proof.Proof.Gen.KernelIdeal.Skeleton
import proofs.«900979_g7700000000000980_dist_mlpseq_tp1d_bs_bs_b256_d256_h512_v7x_i8_bf16_1_alg».proof.Proof.Gen.KernelIdeal.Points
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig ℕ (Elt F) ℕ U ℕ

/-! # The kernel's body as a sequence of fifteen segments

The body is one root sequence of 55 parts followed by two reads, and then a read and a store. It is cut here
into fifteen consecutive stretches of parts; a stretch is a program of its own that takes the values of earlier
stretches it reads (the device id, a few words, a few vectors) and returns the values later stretches read. The body
is the stretches run one after another (`body_eq_segments`: only the associativity of sequencing is used, no part
is opened), so a proof of the body is a proof of each stretch between consecutive intermediate assertions
(`wp_segments`). The first stretch reads the device id; every later one is stated at that device. -/

/-! ## The segments -/

/-- Segment 1 (parts 1–6 of the body). -/
def seg1 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) :
    Prog (TpuEff nD τ sig (Elt F) Λ₀ .tc) (Σ' (d0 : Dev nD) (v2 : BitVec 32) (v11 : BitVec 32) (v131 : BitVec 32) (v134 : BitVec 32) (v185 : BitVec 32), BitVec 32) := do
  let ⟨d0, v2, v11, v30, v34⟩ : Σ' (d0 : Dev nD) (v2 : BitVec 32) (v11 : BitVec 32) (v30 : Sems sig S_), BitVec 32 ← k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25
  let ⟨v43, v58, v62⟩ : Σ' (v43 : BitVec 32) (v58 : BitVec 32), BitVec 32 ← k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v30 v34
  k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v43 v62
  let ⟨v105, v117⟩ : Σ' (v105 : BitVec 32), BitVec 32 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v58
  let ⟨v131, v134, v157, v158, cst_109⟩ : Σ' (v131 : BitVec 32) (v134 : BitVec 32) (v157 : FVec F S256x512 .bf16) (v158 : Vec F S512x256 .bf16), FVec F S256x256 .f32 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11
  let ⟨v185, v187⟩ : Σ' (v185 : BitVec 32), BitVec 32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v105 v117 v134 v157 v158 cst_109
  pure ⟨d0, v2, v11, v131, v134, v185, v187⟩

/-- Segment 2 (parts 7–9 of the body). -/
def seg2 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v11 : BitVec 32) (v131 : BitVec 32) (v134 : BitVec 32) (v185 : BitVec 32) (v187 : BitVec 32) :
    Prog (TpuEff nD τ sig (Elt F) Λ₀ .tc) (Σ' (v264 : BitVec 32), BitVec 32) := do
  let ⟨v197, v219⟩ : Σ' (v197 : BitVec 32), FVec F S256x256 .f32 ← k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v131 v185 v187
  k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v134 v185 v219
  let ⟨v264, v268⟩ : Σ' (v264 : BitVec 32), BitVec 32 ← k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v197
  pure ⟨v264, v268⟩

/-- Segment 3 (parts 10–16 of the body). -/
def seg3 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v131 : BitVec 32) (v134 : BitVec 32) (v264 : BitVec 32) (v268 : BitVec 32) :
    Prog (TpuEff nD τ sig (Elt F) Λ₀ .tc) (Σ' (v496 : BitVec 32), BitVec 32) := do
  let ⟨v299, v315, v319⟩ : Σ' (v299 : BitVec 32) (v315 : BitVec 32), FVec F S256x256 .bf16 ← k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v264 v268
  let ⟨v347, v352⟩ : Σ' (v347 : BitVec 32), FVec F S256x512 .f32 ← k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v264 v268 v315 v319
  let ⟨v364, v381, v385, v386⟩ : Σ' (v364 : BitVec 32) (v381 : BitVec 32) (v385 : FVec F S256x256 .bf16), Vec F S256x256 .bf16 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v264 v268 v347 v352
  k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v299 v381 v385 v386
  let ⟨v442, v444⟩ : Σ' (v442 : Vec F S256x256 .f32), FVec F S256x256 .f32 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v131 v134 v315
  k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v134 v364 v381 v442 v444
  let ⟨v496, v500⟩ : Σ' (v496 : BitVec 32), BitVec 32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v131 v134
  pure ⟨v496, v500⟩

/-- Segment 4 (parts 17–18 of the body). -/
def seg4 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v131 : BitVec 32) (v134 : BitVec 32) (v496 : BitVec 32) (v500 : BitVec 32) :
    Prog (TpuEff nD τ sig (Elt F) Λ₀ .tc) PUnit := do
  let v516 : BitVec 32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v496 v500
  k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v131 v134 v500 v516

/-- Segment 5 (parts 19–21 of the body). -/
def seg5 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v131 : BitVec 32) (v134 : BitVec 32) :
    Prog (TpuEff nD τ sig (Elt F) Λ₀ .tc) (BitVec 32) := do
  let ⟨v574, v593, v600⟩ : Σ' (v574 : BitVec 32) (v593 : BitVec 32), FVec F S256x256 .bf16 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v131 v134
  let c1_i32_484 : BitVec 32 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v574 v593 v600
  let v652 : BitVec 32 ← k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v131 v134 v593 c1_i32_484
  pure v652

/-- Segment 6 (parts 22–26 of the body). -/
def seg6 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v11 : BitVec 32) (v652 : BitVec 32) :
    Prog (TpuEff nD τ sig (Elt F) Λ₀ .tc) (Σ' (v678 : BitVec 32) (v681 : BitVec 32) (v811 : BitVec 32) (v815 : BitVec 32), Vec F S256x256 .bf16) := do
  let ⟨v664, v678, v681, v691, v692⟩ : Σ' (v664 : BitVec 32) (v678 : BitVec 32) (v681 : BitVec 32) (v691 : FVec F S256x256 .f32), BitVec 32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11
  k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v652 v681 v691 v692
  let ⟨v732, v744⟩ : Σ' (v732 : BitVec 32), BitVec 32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v664
  k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v678 v681
  let ⟨v811, v815, v818⟩ : Σ' (v811 : BitVec 32) (v815 : BitVec 32), Vec F S256x256 .bf16 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v732 v744
  pure ⟨v678, v681, v811, v815, v818⟩

/-- Segment 7 (parts 27–33 of the body). -/
def seg7 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v678 : BitVec 32) (v681 : BitVec 32) (v811 : BitVec 32) (v815 : BitVec 32) (v818 : Vec F S256x256 .bf16) :
    Prog (TpuEff nD τ sig (Elt F) Λ₀ .tc) (FVec F S256x256 .f32) := do
  let v846 : BitVec 32 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v811 v815 v818
  let ⟨v862, v878, v886⟩ : Σ' (v862 : BitVec 32) (v878 : BitVec 32), FVec F S256x512 .bf16 ← k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v811 v815 v846
  let v911 : BitVec 32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v811 v815 v878 v886
  let ⟨v928, v952⟩ : Σ' (v928 : BitVec 32), FVec F S512x256 .bf16 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v815
  let v976 : BitVec 32 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v678 v846 v862 v952
  k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v678 v681 v911 v976
  let v1041 : FVec F S256x256 .f32 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v678 v681 v928
  pure v1041

/-- Segment 8 (parts 34–36 of the body). -/
def seg8 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v678 : BitVec 32) (v681 : BitVec 32) (v1041 : FVec F S256x256 .f32) :
    Prog (TpuEff nD τ sig (Elt F) Λ₀ .tc) (BitVec 32) := do
  let ⟨v1047, v1063⟩ : Σ' (v1047 : BitVec 32), BitVec 32 ← k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v678 v681 v1041
  k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1047 v1063
  let v1121 : BitVec 32 ← k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v678 v681
  pure v1121

/-- Segment 9 (parts 37–38 of the body). -/
def seg9 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v678 : BitVec 32) (v681 : BitVec 32) (v1121 : BitVec 32) :
    Prog (TpuEff nD τ sig (Elt F) Λ₀ .tc) (FVec F S256x256 .bf16) := do
  let v1140 : BitVec 32 ← k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v681 v1121
  let v1191 : FVec F S256x256 .bf16 ← k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v678 v681 v1140
  pure v1191

/-- Segment 10 (parts 39–41 of the body). -/
def seg10 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v11 : BitVec 32) (v1191 : FVec F S256x256 .bf16) :
    Prog (TpuEff nD τ sig (Elt F) Λ₀ .tc) (Σ' (v1225 : BitVec 32) (v1228 : BitVec 32), BitVec 32) := do
  let ⟨v1199, v1211, v1225, c6_i32_951⟩ : Σ' (v1199 : BitVec 32) (v1211 : BitVec 32) (v1225 : BitVec 32), BitVec 32 ← k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v1191
  let v1228 : BitVec 32 ← k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v11 v1225 c6_i32_951
  let v1279 : BitVec 32 ← k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1199 v1211
  pure ⟨v1225, v1228, v1279⟩

/-- Segment 11 (parts 42–44 of the body). -/
def seg11 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v11 : BitVec 32) (v1225 : BitVec 32) (v1228 : BitVec 32) (v1279 : BitVec 32) :
    Prog (TpuEff nD τ sig (Elt F) Λ₀ .tc) (Σ' (v1358 : BitVec 32) (v1362 : BitVec 32) (v1385 : FVec F S256x512 .bf16) (v1386 : Vec F S512x256 .bf16), FVec F S256x256 .f32) := do
  let ⟨v1291, v1319, v1322, v1323⟩ : Σ' (v1291 : BitVec 32) (v1319 : BitVec 32) (v1322 : Vec F S256x256 .bf16), Vec F S256x512 .bf16 ← k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v1225 v1228
  k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1279 v1291 v1319 v1322 v1323
  let ⟨v1358, v1362, v1385, v1386, cst_1075⟩ : Σ' (v1358 : BitVec 32) (v1362 : BitVec 32) (v1385 : FVec F S256x512 .bf16) (v1386 : Vec F S512x256 .bf16), FVec F S256x256 .f32 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11
  pure ⟨v1358, v1362, v1385, v1386, cst_1075⟩

/-- Segment 12 (parts 45–50 of the body). -/
def seg12 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v1225 : BitVec 32) (v1228 : BitVec 32) (v1358 : BitVec 32) (v1362 : BitVec 32) (v1385 : FVec F S256x512 .bf16) (v1386 : Vec F S512x256 .bf16) (cst_1075 : FVec F S256x256 .f32) :
    Prog (TpuEff nD τ sig (Elt F) Λ₀ .tc) (FVec F S256x256 .f32) := do
  let ⟨v1393, v1409⟩ : Σ' (v1393 : BitVec 32), BitVec 32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1358 v1362 v1385 v1386 cst_1075
  let v1451 : FVec F S256x256 .f32 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1358 v1362
  let ⟨v1458, v1475⟩ : Σ' (v1458 : BitVec 32), BitVec 32 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1358 v1362 v1451
  k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1393 v1409
  k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1225 v1228 v1458
  let v1571 : FVec F S256x256 .f32 ← k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1225 v1228 v1475
  pure v1571

/-- Segment 13 (parts 51–53 of the body). -/
def seg13 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v11 : BitVec 32) (v1225 : BitVec 32) (v1228 : BitVec 32) (v1571 : FVec F S256x256 .f32) :
    Prog (TpuEff nD τ sig (Elt F) Λ₀ .tc) (Σ' (v1657 : BitVec 32) (v1659 : BitVec 32), BitVec 32) := do
  let ⟨v1582, v1598⟩ : Σ' (v1582 : BitVec 32), BitVec 32 ← k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1225 v1228 v1571
  k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1582 v1598
  let ⟨v1657, v1659, v1661⟩ : Σ' (v1657 : BitVec 32) (v1659 : BitVec 32), BitVec 32 ← k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v1225 v1228
  pure ⟨v1657, v1659, v1661⟩

/-- Segment 14 (parts 54–55 of the body). -/
def seg14 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v1657 : BitVec 32) (v1659 : BitVec 32) (v1661 : BitVec 32) :
    Prog (TpuEff nD τ sig (Elt F) Λ₀ .tc) PUnit := do
  let v1681 : BitVec 32 ← k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1659 v1661
  k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1657 v1659 v1661 v1681

/-- Segment 15: the last reads and the store of the result's second half. -/
def seg15 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) :
    Prog (TpuEff nD τ sig (Elt F) Λ₀ .tc) PUnit := do
  let v1724 : Vec F S128x256 .f32 ← Prog.lift (.load arg11 (Rect.unit (s := S1024x256) (k0_off2 d0) S128x256.size (k0_off2_inb d0)).toLoadRect (View.loadsAt_vmem h_S128x256))
  let v1725 : Vec F S128x256 .bf16 ← Prog.lift (.load arg15 (Rect.unit (s := S1280x256) ![768, 0] S128x256.size inb_S1280x256_S128x256_768_0).toLoadRect (View.loadsAt_vmem h_S128x256))
  let v1728 : Vec F S128x256 .f32 ← Prog.lift (.load arg7 (Rect.unit (s := S256x256) ![128, 0] S128x256.size inb_S256x256_S128x256_128_0).toLoadRect (View.loadsAt_vmem h_S128x256))
  Prog.lift (.store arg7 (Rect.unit (s := S256x256) ![128, 0] S128x256.size inb_S256x256_S128x256_128_0) (k0_pay1 v1724 (k0_pay94 v1725)) Finset.univ (View.stores_vmem_bits_univ h_S128x256 rfl) (.inl rfl))
  pure ⟨⟩

/-- The body as the sequence of its fifteen segments, each handed the values of the earlier ones it reads. -/
def segments (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) :
    Prog (TpuEff nD τ sig (Elt F) Λ₀ .tc) PUnit := do
  let ⟨d0, v2, v11, v131, v134, v185, v187⟩ : Σ' (d0 : Dev nD) (v2 : BitVec 32) (v11 : BitVec 32) (v131 : BitVec 32) (v134 : BitVec 32) (v185 : BitVec 32), BitVec 32 ← seg1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25
  let ⟨v264, v268⟩ : Σ' (v264 : BitVec 32), BitVec 32 ← seg2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v131 v134 v185 v187
  let ⟨v496, v500⟩ : Σ' (v496 : BitVec 32), BitVec 32 ← seg3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v131 v134 v264 v268
  seg4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v131 v134 v496 v500
  let v652 ← seg5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v131 v134
  let ⟨v678, v681, v811, v815, v818⟩ : Σ' (v678 : BitVec 32) (v681 : BitVec 32) (v811 : BitVec 32) (v815 : BitVec 32), Vec F S256x256 .bf16 ← seg6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v652
  let v1041 ← seg7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v678 v681 v811 v815 v818
  let v1121 ← seg8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v678 v681 v1041
  let v1191 ← seg9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v678 v681 v1121
  let ⟨v1225, v1228, v1279⟩ : Σ' (v1225 : BitVec 32) (v1228 : BitVec 32), BitVec 32 ← seg10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v1191
  let ⟨v1358, v1362, v1385, v1386, cst_1075⟩ : Σ' (v1358 : BitVec 32) (v1362 : BitVec 32) (v1385 : FVec F S256x512 .bf16) (v1386 : Vec F S512x256 .bf16), FVec F S256x256 .f32 ← seg11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v1225 v1228 v1279
  let v1571 ← seg12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1225 v1228 v1358 v1362 v1385 v1386 cst_1075
  let ⟨v1657, v1659, v1661⟩ : Σ' (v1657 : BitVec 32) (v1659 : BitVec 32), BitVec 32 ← seg13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v1225 v1228 v1571
  seg14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1657 v1659 v1661
  seg15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0

/-! ## Sequencing in the weakest-precondition logic -/

/-- A program followed by a continuation: the program to an intermediate assertion, the continuation from it. -/
theorem wp_seq {α β : Type} (c : Dev nD) (p : Prog (TpuEff nD τ sig (Elt F) Λ₀ .tc) α) (k : α → Prog (TpuEff nD τ sig (Elt F) Λ₀ .tc) β)
    {A : sProp 𝕄} {R : α → sProp 𝕄} {Q : β → sProp 𝕄}
    (hp : A ⊢ wp frame (wpE (defs₀ (F := F)) Variants.none (c : Thread nD τ) none) Set.univ p R)
    (hk : ∀ a, R a ⊢ wp frame (wpE (defs₀ (F := F)) Variants.none (c : Thread nD τ) none) Set.univ (k a) Q) :
    A ⊢ wp frame (wpE (defs₀ (F := F)) Variants.none (c : Thread nD τ) none) Set.univ (p >>= k) Q := by
  rw [wp_bind]; exact hp.trans (wp_mono _ _ _ hk)

/-- A pure fact beside an assertion may be used to prove what the assertion entails. -/
theorem pure_sep_elim {φ : Prop} {A B : sProp 𝕄} (h : φ → A ⊢ B) : iprop(⌜φ⌝ ∗ A) ⊢ B := by
  iintro ⟨%hφ, HA⟩; iapply (h hφ); iexact HA

set_option maxRecDepth 65536 in
theorem body_eq_segments (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) :
    cc0_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 = segments arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 := by
  show (((k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 >>= fun r1 =>
    k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r1.2.2.2.1 r1.2.2.2.2 >>= fun r2 =>
    k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r2.1 r2.2.2 >>= fun _ =>
    k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r2.2.1 >>= fun r4 =>
    k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 >>= fun r5 =>
    k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r4.1 r4.2 r5.2.1 r5.2.2.1 r5.2.2.2.1 r5.2.2.2.2 >>= fun r6 =>
    k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r5.1 r6.1 r6.2 >>= fun r7 =>
    k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r5.2.1 r6.1 r7.2 >>= fun _ =>
    k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r7.1 >>= fun r9 =>
    k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r9.1 r9.2 >>= fun r10 =>
    k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r9.1 r9.2 r10.2.1 r10.2.2 >>= fun r11 =>
    k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r9.1 r9.2 r11.1 r11.2 >>= fun r12 =>
    k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r10.1 r12.2.1 r12.2.2.1 r12.2.2.2 >>= fun _ =>
    k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r5.1 r5.2.1 r10.2.1 >>= fun r14 =>
    k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r5.2.1 r12.1 r12.2.1 r14.1 r14.2 >>= fun _ =>
    k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r5.1 r5.2.1 >>= fun r16 =>
    k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r16.1 r16.2 >>= fun r17 =>
    k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r5.1 r5.2.1 r16.2 r17 >>= fun _ =>
    k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r5.1 r5.2.1 >>= fun r19 =>
    k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r19.1 r19.2.1 r19.2.2 >>= fun r20 =>
    k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r5.1 r5.2.1 r19.2.1 r20 >>= fun r21 =>
    k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 >>= fun r22 =>
    k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r21 r22.2.2.1 r22.2.2.2.1 r22.2.2.2.2 >>= fun _ =>
    k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r22.1 >>= fun r24 =>
    k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r22.2.1 r22.2.2.1 >>= fun _ =>
    k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r24.1 r24.2 >>= fun r26 =>
    k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r26.1 r26.2.1 r26.2.2 >>= fun r27 =>
    k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r26.1 r26.2.1 r27 >>= fun r28 =>
    k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r26.1 r26.2.1 r28.2.1 r28.2.2 >>= fun r29 =>
    k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r26.2.1 >>= fun r30 =>
    k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r22.2.1 r27 r28.1 r30.2 >>= fun r31 =>
    k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r22.2.1 r22.2.2.1 r29 r31 >>= fun _ =>
    k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r22.2.1 r22.2.2.1 r30.1 >>= fun r33 =>
    k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r22.2.1 r22.2.2.1 r33 >>= fun r34 =>
    k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r34.1 r34.2 >>= fun _ =>
    k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r22.2.1 r22.2.2.1 >>= fun r36 =>
    k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r22.2.2.1 r36 >>= fun r37 =>
    k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r22.2.1 r22.2.2.1 r37 >>= fun r38 =>
    k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r38 >>= fun r39 =>
    k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.2.1 r39.2.2.1 r39.2.2.2 >>= fun r40 =>
    k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r39.1 r39.2.1 >>= fun r41 =>
    k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r39.2.2.1 r40 >>= fun r42 =>
    k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r41 r42.1 r42.2.1 r42.2.2.1 r42.2.2.2 >>= fun _ =>
    k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 >>= fun r44 =>
    k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r44.1 r44.2.1 r44.2.2.1 r44.2.2.2.1 r44.2.2.2.2 >>= fun r45 =>
    k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r44.1 r44.2.1 >>= fun r46 =>
    k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r44.1 r44.2.1 r46 >>= fun r47 =>
    k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r45.1 r45.2 >>= fun _ =>
    k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r39.2.2.1 r40 r47.1 >>= fun _ =>
    k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r39.2.2.1 r40 r47.2 >>= fun r50 =>
    k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r39.2.2.1 r40 r50 >>= fun r51 =>
    k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r51.1 r51.2 >>= fun _ =>
    k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r39.2.2.1 r40 >>= fun r53 =>
    k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r53.2.1 r53.2.2 >>= fun r54 =>
    k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r53.1 r53.2.1 r53.2.2 r54 >>= fun _ =>
    Prog.lift (.load arg11 (Rect.unit (s := S1024x256) (k0_off2 r1.1) S128x256.size (k0_off2_inb r1.1)).toLoadRect (View.loadsAt_vmem h_S128x256)) >>= fun v1724 =>
    Prog.lift (.load arg15 (Rect.unit (s := S1280x256) ![768, 0] S128x256.size inb_S1280x256_S128x256_768_0).toLoadRect (View.loadsAt_vmem h_S128x256)) >>= fun v1725 =>
    (pure (⟨v1724, k0_pay94 v1725⟩ : Σ' (v1724 : Vec F S128x256 .f32), FVec F S128x256 .f32) : Prog (TpuEff nD τ sig (Elt F) Λ₀ .tc) (Σ' (v1724 : Vec F S128x256 .f32), FVec F S128x256 .f32))) >>= fun z =>
    Prog.lift (.load arg7 (Rect.unit (s := S256x256) ![128, 0] S128x256.size inb_S256x256_S128x256_128_0).toLoadRect (View.loadsAt_vmem h_S128x256)) >>= fun v1728 =>
    Prog.lift (.store arg7 (Rect.unit (s := S256x256) ![128, 0] S128x256.size inb_S256x256_S128x256_128_0) (k0_pay1 z.1 z.2) Finset.univ (View.stores_vmem_bits_univ h_S128x256 rfl) (.inl rfl)) >>= fun _ =>
    (pure ⟨⟩ : Prog (TpuEff nD τ sig (Elt F) Λ₀ .tc) PUnit)) : Prog (TpuEff nD τ sig (Elt F) Λ₀ .tc) PUnit)
    = ((k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 >>= fun r1 =>
      k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r1.2.2.2.1 r1.2.2.2.2 >>= fun r2 =>
      k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r2.1 r2.2.2 >>= fun _ =>
      k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r2.2.1 >>= fun r4 =>
      k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 >>= fun r5 =>
      k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r4.1 r4.2 r5.2.1 r5.2.2.1 r5.2.2.2.1 r5.2.2.2.2 >>= fun r6 =>
      (pure (⟨r1.1, r1.2.1, r1.2.2.1, r5.1, r5.2.1, r6.1, r6.2⟩ : Σ' (d0 : Dev nD) (v2 : BitVec 32) (v11 : BitVec 32) (v131 : BitVec 32) (v134 : BitVec 32) (v185 : BitVec 32), BitVec 32) : Prog (TpuEff nD τ sig (Elt F) Λ₀ .tc) (Σ' (d0 : Dev nD) (v2 : BitVec 32) (v11 : BitVec 32) (v131 : BitVec 32) (v134 : BitVec 32) (v185 : BitVec 32), BitVec 32))) >>= fun o1 =>
    (k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 o1.2.2.2.1 o1.2.2.2.2.2.1 o1.2.2.2.2.2.2 >>= fun r7 =>
      k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.2.2.2.1 o1.2.2.2.2.2.1 r7.2 >>= fun _ =>
      k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 r7.1 >>= fun r9 =>
      (pure (⟨r9.1, r9.2⟩ : Σ' (v264 : BitVec 32), BitVec 32) : Prog (TpuEff nD τ sig (Elt F) Λ₀ .tc) (Σ' (v264 : BitVec 32), BitVec 32))) >>= fun o2 =>
    (k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o2.1 o2.2 >>= fun r10 =>
      k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o2.1 o2.2 r10.2.1 r10.2.2 >>= fun r11 =>
      k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o2.1 o2.2 r11.1 r11.2 >>= fun r12 =>
      k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 r10.1 r12.2.1 r12.2.2.1 r12.2.2.2 >>= fun _ =>
      k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.2.2.1 o1.2.2.2.2.1 r10.2.1 >>= fun r14 =>
      k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.2.2.2.1 r12.1 r12.2.1 r14.1 r14.2 >>= fun _ =>
      k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.2.1 o1.2.2.2.2.1 >>= fun r16 =>
      (pure (⟨r16.1, r16.2⟩ : Σ' (v496 : BitVec 32), BitVec 32) : Prog (TpuEff nD τ sig (Elt F) Λ₀ .tc) (Σ' (v496 : BitVec 32), BitVec 32))) >>= fun o3 =>
    (k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o3.1 o3.2 >>= fun r17 =>
      k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.2.2.1 o1.2.2.2.2.1 o3.2 r17) >>= fun _ =>
    (k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.2.1 o1.2.2.2.2.1 >>= fun r19 =>
      k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 r19.1 r19.2.1 r19.2.2 >>= fun r20 =>
      k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.2.1 o1.2.2.2.2.1 r19.2.1 r20 >>= fun r21 =>
      (pure r21 : Prog (TpuEff nD τ sig (Elt F) Λ₀ .tc) (BitVec 32))) >>= fun o5 =>
    (k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 >>= fun r22 =>
      k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o5 r22.2.2.1 r22.2.2.2.1 r22.2.2.2.2 >>= fun _ =>
      k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 r22.1 >>= fun r24 =>
      k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 r22.2.1 r22.2.2.1 >>= fun _ =>
      k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 r24.1 r24.2 >>= fun r26 =>
      (pure (⟨r22.2.1, r22.2.2.1, r26.1, r26.2.1, r26.2.2⟩ : Σ' (v678 : BitVec 32) (v681 : BitVec 32) (v811 : BitVec 32) (v815 : BitVec 32), Vec F S256x256 .bf16) : Prog (TpuEff nD τ sig (Elt F) Λ₀ .tc) (Σ' (v678 : BitVec 32) (v681 : BitVec 32) (v811 : BitVec 32) (v815 : BitVec 32), Vec F S256x256 .bf16))) >>= fun o6 =>
    (k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.2.2.1 o6.2.2.2.1 o6.2.2.2.2 >>= fun r27 =>
      k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.2.2.1 o6.2.2.2.1 r27 >>= fun r28 =>
      k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.2.2.1 o6.2.2.2.1 r28.2.1 r28.2.2 >>= fun r29 =>
      k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.2.2.2.1 >>= fun r30 =>
      k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o6.1 r27 r28.1 r30.2 >>= fun r31 =>
      k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o6.1 o6.2.1 r29 r31 >>= fun _ =>
      k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o6.1 o6.2.1 r30.1 >>= fun r33 =>
      (pure r33 : Prog (TpuEff nD τ sig (Elt F) Λ₀ .tc) (FVec F S256x256 .f32))) >>= fun o7 =>
    (k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.1 o6.2.1 o7 >>= fun r34 =>
      k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 r34.1 r34.2 >>= fun _ =>
      k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.1 o6.2.1 >>= fun r36 =>
      (pure r36 : Prog (TpuEff nD τ sig (Elt F) Λ₀ .tc) (BitVec 32))) >>= fun o8 =>
    (k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.2.1 o8 >>= fun r37 =>
      k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o6.1 o6.2.1 r37 >>= fun r38 =>
      (pure r38 : Prog (TpuEff nD τ sig (Elt F) Λ₀ .tc) (FVec F S256x256 .bf16))) >>= fun o9 =>
    (k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 o9 >>= fun r39 =>
      k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.2.1 r39.2.2.1 r39.2.2.2 >>= fun r40 =>
      k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 r39.1 r39.2.1 >>= fun r41 =>
      (pure (⟨r39.2.2.1, r40, r41⟩ : Σ' (v1225 : BitVec 32) (v1228 : BitVec 32), BitVec 32) : Prog (TpuEff nD τ sig (Elt F) Λ₀ .tc) (Σ' (v1225 : BitVec 32) (v1228 : BitVec 32), BitVec 32))) >>= fun o10 =>
    (k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 o10.1 o10.2.1 >>= fun r42 =>
      k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o10.2.2 r42.1 r42.2.1 r42.2.2.1 r42.2.2.2 >>= fun _ =>
      k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 >>= fun r44 =>
      (pure (⟨r44.1, r44.2.1, r44.2.2.1, r44.2.2.2.1, r44.2.2.2.2⟩ : Σ' (v1358 : BitVec 32) (v1362 : BitVec 32) (v1385 : FVec F S256x512 .bf16) (v1386 : Vec F S512x256 .bf16), FVec F S256x256 .f32) : Prog (TpuEff nD τ sig (Elt F) Λ₀ .tc) (Σ' (v1358 : BitVec 32) (v1362 : BitVec 32) (v1385 : FVec F S256x512 .bf16) (v1386 : Vec F S512x256 .bf16), FVec F S256x256 .f32))) >>= fun o11 =>
    (k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o11.1 o11.2.1 o11.2.2.1 o11.2.2.2.1 o11.2.2.2.2 >>= fun r45 =>
      k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o11.1 o11.2.1 >>= fun r46 =>
      k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o11.1 o11.2.1 r46 >>= fun r47 =>
      k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 r45.1 r45.2 >>= fun _ =>
      k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o10.1 o10.2.1 r47.1 >>= fun _ =>
      k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o10.1 o10.2.1 r47.2 >>= fun r50 =>
      (pure r50 : Prog (TpuEff nD τ sig (Elt F) Λ₀ .tc) (FVec F S256x256 .f32))) >>= fun o12 =>
    (k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o10.1 o10.2.1 o12 >>= fun r51 =>
      k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 r51.1 r51.2 >>= fun _ =>
      k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 o10.1 o10.2.1 >>= fun r53 =>
      (pure (⟨r53.1, r53.2.1, r53.2.2⟩ : Σ' (v1657 : BitVec 32) (v1659 : BitVec 32), BitVec 32) : Prog (TpuEff nD τ sig (Elt F) Λ₀ .tc) (Σ' (v1657 : BitVec 32) (v1659 : BitVec 32), BitVec 32))) >>= fun o13 =>
    (k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o13.2.1 o13.2.2 >>= fun r54 =>
      k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o13.1 o13.2.1 o13.2.2 r54) >>= fun _ =>
    (Prog.lift (.load arg11 (Rect.unit (s := S1024x256) (k0_off2 o1.1) S128x256.size (k0_off2_inb o1.1)).toLoadRect (View.loadsAt_vmem h_S128x256)) >>= fun v1724 =>
      Prog.lift (.load arg15 (Rect.unit (s := S1280x256) ![768, 0] S128x256.size inb_S1280x256_S128x256_768_0).toLoadRect (View.loadsAt_vmem h_S128x256)) >>= fun v1725 =>
      Prog.lift (.load arg7 (Rect.unit (s := S256x256) ![128, 0] S128x256.size inb_S256x256_S128x256_128_0).toLoadRect (View.loadsAt_vmem h_S128x256)) >>= fun v1728 =>
      Prog.lift (.store arg7 (Rect.unit (s := S256x256) ![128, 0] S128x256.size inb_S256x256_S128x256_128_0) (k0_pay1 v1724 (k0_pay94 v1725)) Finset.univ (View.stores_vmem_bits_univ h_S128x256 rfl) (.inl rfl)) >>= fun _ =>
      (pure ⟨⟩ : Prog (TpuEff nD τ sig (Elt F) Λ₀ .tc) PUnit)))
  simp only [Prog.bind_assoc, Prog.pure_eq_ret, Prog.bind_ret]

end Cert.KernelIdeal.Hand

end
-- ==== Proof.KernelIdeal.Specs.lean ====
import proofs.«900979_g7700000000000980_dist_mlpseq_tp1d_bs_bs_b256_d256_h512_v7x_i8_bf16_1_alg».proof.Proof.KernelIdeal.State
import proofs.«900979_g7700000000000980_dist_mlpseq_tp1d_bs_bs_b256_d256_h512_v7x_i8_bf16_1_alg».proof.Proof.KernelIdeal.Quiet
import proofs.«900979_g7700000000000980_dist_mlpseq_tp1d_bs_bs_b256_d256_h512_v7x_i8_bf16_1_alg».proof.Proof.KernelIdeal.Segments

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # What each segment of the body has to establish

   The body is cut at the points where no copy is in flight (Quiet.lean). Segment 1 starts from the state the launch
   hands over and ends at the first quiet point, having read the device id; segments 2 to 14 go from one quiet point to
   the next; segment 15 (the last loads and the store of the result) ends in the state the launch takes back. The names
   of the cells' invariants are chosen at launch and are the same throughout; each state is stated under `∃ K`. -/

/-- Before the body: the launch's state, what is owed, and the eight windows' staging buffers at the blocks `Y`. -/
def PreBody (m : (ℓ : Loc nD τ sig) → Buf (Elt F) ℓ) (c : Dev nD) (Y : (w : Fin cfg0.W) → (cfg0.win w).block.Idx → Elt F (cfg0.win w).elt) : sProp 𝕄 :=
  iprop(Φ₀ (F := F) c ∗ (rdats (F := F) m 0 c).owesAt 0 Gen.t0_0.castSucc
      ∗ owns (c : Thread nD τ) (Memref.whole cc0_stg0_0) fullShare (Y 0)
      ∗ owns (c : Thread nD τ) (Memref.whole cc0_stg1_0) fullShare (Y 1)
      ∗ owns (c : Thread nD τ) (Memref.whole cc0_stg2_0) fullShare (Y 2)
      ∗ owns (c : Thread nD τ) (Memref.whole cc0_stg3_0) fullShare (Y 3)
      ∗ owns (c : Thread nD τ) (Memref.whole cc0_stg4_0) fullShare (Y 4)
      ∗ owns (c : Thread nD τ) (Memref.whole cc0_stg5_0) fullShare (Y 5)
      ∗ owns (c : Thread nD τ) (Memref.whole cc0_stg6_0) fullShare (Y 6)
      ∗ owns (c : Thread nD τ) (Memref.whole cc0_stg7_0) fullShare (Y 7))

/-- After it: the launch's closing state, nothing owed, the staging buffers at some contents. -/
def PostBody (m : (ℓ : Loc nD τ sig) → Buf (Elt F) ℓ) (c : Dev nD) : sProp 𝕄 :=
  iprop(Φ₁ (F := F) c ∗ (rdats (F := F) m 0 c).owesAt 0 Gen.t0_0.succ
      ∗ (∃ X, ⌜True⌝ ∗ owns (c : Thread nD τ) (Memref.whole cc0_stg0_0) fullShare X)
      ∗ (∃ X, ⌜True⌝ ∗ owns (c : Thread nD τ) (Memref.whole cc0_stg1_0) fullShare X)
      ∗ (∃ X, ⌜True⌝ ∗ owns (c : Thread nD τ) (Memref.whole cc0_stg2_0) fullShare X)
      ∗ (∃ X, ⌜True⌝ ∗ owns (c : Thread nD τ) (Memref.whole cc0_stg3_0) fullShare X)
      ∗ (∃ X, ⌜True⌝ ∗ owns (c : Thread nD τ) (Memref.whole cc0_stg4_0) fullShare X)
      ∗ (∃ X, ⌜True⌝ ∗ owns (c : Thread nD τ) (Memref.whole cc0_stg5_0) fullShare X)
      ∗ (∃ X, ⌜True⌝ ∗ owns (c : Thread nD τ) (Memref.whole cc0_stg6_0) fullShare X)
      ∗ (∃ X, ⌜True⌝ ∗ owns (c : Thread nD τ) (Memref.whole cc0_stg7_0) fullShare X))

/-- Segment 1: the entry handshake and the first exchange; it returns the device id it read. -/
def Spec1 (m : (ℓ : Loc nD τ sig) → Buf (Elt F) ℓ) (c : Dev nD) : Prop :=
  ∀ Y, (PreBody (F := F) m c Y)
      ⊢ wp frame (wpE (defs₀ (F := F)) Variants.none (c : Thread nD τ) none) Set.univ
          (seg1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17)
          (fun r => iprop(⌜r.1 = c⌝ ∗ ∃ K, Q4 (F := F) K c))

/-- Segment 2: from the quiet point before it to the one after it, for all values of the words and vectors it is
    handed (it reads none of them). -/
def Spec2 (c : Dev nD) : Prop :=
  ∀ (v2 : BitVec 32) (v11 : BitVec 32) (v131 : BitVec 32) (v134 : BitVec 32) (v185 : BitVec 32) (v187 : BitVec 32),
    (iprop(∃ K, Q4 (F := F) K c) : sProp 𝕄)
      ⊢ wp frame (wpE (defs₀ (F := F)) Variants.none (c : Thread nD τ) none) Set.univ
          (seg2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v131 v134 v185 v187)
          (fun _ => iprop(∃ K, QE2 (F := F) K c 6 0))

/-- Segment 3: from the quiet point before it to the one after it, for all values of the words and vectors it is
    handed (it reads none of them). -/
def Spec3 (c : Dev nD) : Prop :=
  ∀ (v2 : BitVec 32) (v131 : BitVec 32) (v134 : BitVec 32) (v264 : BitVec 32) (v268 : BitVec 32),
    (iprop(∃ K, QE2 (F := F) K c 6 0) : sProp 𝕄)
      ⊢ wp frame (wpE (defs₀ (F := F)) Variants.none (c : Thread nD τ) none) Set.univ
          (seg3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134 v264 v268)
          (fun _ => iprop(∃ K, QAB (F := F) K c 10 0))

/-- Segment 4: from the quiet point before it to the one after it, for all values of the words and vectors it is
    handed (it reads none of them). -/
def Spec4 (c : Dev nD) : Prop :=
  ∀ (v2 : BitVec 32) (v131 : BitVec 32) (v134 : BitVec 32) (v496 : BitVec 32) (v500 : BitVec 32),
    (iprop(∃ K, QAB (F := F) K c 10 0) : sProp 𝕄)
      ⊢ wp frame (wpE (defs₀ (F := F)) Variants.none (c : Thread nD τ) none) Set.univ
          (seg4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134 v496 v500)
          (fun _ => iprop(∃ K, QC (F := F) K c 12 0))

/-- Segment 5: from the quiet point before it to the one after it, for all values of the words and vectors it is
    handed (it reads none of them). -/
def Spec5 (c : Dev nD) : Prop :=
  ∀ (v2 : BitVec 32) (v131 : BitVec 32) (v134 : BitVec 32),
    (iprop(∃ K, QC (F := F) K c 12 0) : sProp 𝕄)
      ⊢ wp frame (wpE (defs₀ (F := F)) Variants.none (c : Thread nD τ) none) Set.univ
          (seg5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134)
          (fun _ => iprop(∃ K, QD (F := F) K c 14 0))

/-- Segment 6: from the quiet point before it to the one after it, for all values of the words and vectors it is
    handed (it reads none of them). -/
def Spec6 (c : Dev nD) : Prop :=
  ∀ (v2 : BitVec 32) (v11 : BitVec 32) (v652 : BitVec 32),
    (iprop(∃ K, QD (F := F) K c 14 0) : sProp 𝕄)
      ⊢ wp frame (wpE (defs₀ (F := F)) Variants.none (c : Thread nD τ) none) Set.univ
          (seg6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v652)
          (fun _ => iprop(∃ K, QE2 (F := F) K c 18 1))

/-- Segment 7: from the quiet point before it to the one after it, for all values of the words and vectors it is
    handed (it reads none of them). -/
def Spec7 (c : Dev nD) : Prop :=
  ∀ (v2 : BitVec 32) (v678 : BitVec 32) (v681 : BitVec 32) (v811 : BitVec 32) (v815 : BitVec 32) (v818 : Vec F S256x256 .bf16),
    (iprop(∃ K, QE2 (F := F) K c 18 1) : sProp 𝕄)
      ⊢ wp frame (wpE (defs₀ (F := F)) Variants.none (c : Thread nD τ) none) Set.univ
          (seg7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v811 v815 v818)
          (fun _ => iprop(∃ K, QAB (F := F) K c 22 1))

/-- Segment 8: from the quiet point before it to the one after it, for all values of the words and vectors it is
    handed (it reads none of them). -/
def Spec8 (c : Dev nD) : Prop :=
  ∀ (v2 : BitVec 32) (v678 : BitVec 32) (v681 : BitVec 32) (v1041 : FVec F S256x256 .f32),
    (iprop(∃ K, QAB (F := F) K c 22 1) : sProp 𝕄)
      ⊢ wp frame (wpE (defs₀ (F := F)) Variants.none (c : Thread nD τ) none) Set.univ
          (seg8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v1041)
          (fun _ => iprop(∃ K, QC (F := F) K c 24 1))

/-- Segment 9: from the quiet point before it to the one after it, for all values of the words and vectors it is
    handed (it reads none of them). -/
def Spec9 (c : Dev nD) : Prop :=
  ∀ (v2 : BitVec 32) (v678 : BitVec 32) (v681 : BitVec 32) (v1121 : BitVec 32),
    (iprop(∃ K, QC (F := F) K c 24 1) : sProp 𝕄)
      ⊢ wp frame (wpE (defs₀ (F := F)) Variants.none (c : Thread nD τ) none) Set.univ
          (seg9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v1121)
          (fun _ => iprop(∃ K, QD (F := F) K c 26 1))

/-- Segment 10: from the quiet point before it to the one after it, for all values of the words and vectors it is
    handed (it reads none of them). -/
def Spec10 (c : Dev nD) : Prop :=
  ∀ (v2 : BitVec 32) (v11 : BitVec 32) (v1191 : FVec F S256x256 .bf16),
    (iprop(∃ K, QD (F := F) K c 26 1) : sProp 𝕄)
      ⊢ wp frame (wpE (defs₀ (F := F)) Variants.none (c : Thread nD τ) none) Set.univ
          (seg10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v1191)
          (fun _ => iprop(∃ K, Q28 (F := F) K c))

/-- Segment 11: from the quiet point before it to the one after it, for all values of the words and vectors it is
    handed (it reads none of them). -/
def Spec11 (c : Dev nD) : Prop :=
  ∀ (v2 : BitVec 32) (v11 : BitVec 32) (v1225 : BitVec 32) (v1228 : BitVec 32) (v1279 : BitVec 32),
    (iprop(∃ K, Q28 (F := F) K c) : sProp 𝕄)
      ⊢ wp frame (wpE (defs₀ (F := F)) Variants.none (c : Thread nD τ) none) Set.univ
          (seg11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v1225 v1228 v1279)
          (fun _ => iprop(∃ K, QE2 (F := F) K c 30 2))

/-- Segment 12: from the quiet point before it to the one after it, for all values of the words and vectors it is
    handed (it reads none of them). -/
def Spec12 (c : Dev nD) : Prop :=
  ∀ (v2 : BitVec 32) (v1225 : BitVec 32) (v1228 : BitVec 32) (v1358 : BitVec 32) (v1362 : BitVec 32) (v1385 : FVec F S256x512 .bf16) (v1386 : Vec F S512x256 .bf16) (cst_1075 : FVec F S256x256 .f32),
    (iprop(∃ K, QE2 (F := F) K c 30 2) : sProp 𝕄)
      ⊢ wp frame (wpE (defs₀ (F := F)) Variants.none (c : Thread nD τ) none) Set.univ
          (seg12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v1225 v1228 v1358 v1362 v1385 v1386 cst_1075)
          (fun _ => iprop(∃ K, QAB (F := F) K c 34 2))

/-- Segment 13: from the quiet point before it to the one after it, for all values of the words and vectors it is
    handed (it reads none of them). -/
def Spec13 (c : Dev nD) : Prop :=
  ∀ (v2 : BitVec 32) (v11 : BitVec 32) (v1225 : BitVec 32) (v1228 : BitVec 32) (v1571 : FVec F S256x256 .f32),
    (iprop(∃ K, QAB (F := F) K c 34 2) : sProp 𝕄)
      ⊢ wp frame (wpE (defs₀ (F := F)) Variants.none (c : Thread nD τ) none) Set.univ
          (seg13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v1225 v1228 v1571)
          (fun _ => iprop(∃ K, QC (F := F) K c 36 2))

/-- Segment 14: from the quiet point before it to the one after it, for all values of the words and vectors it is
    handed (it reads none of them). -/
def Spec14 (c : Dev nD) : Prop :=
  ∀ (v2 : BitVec 32) (v1657 : BitVec 32) (v1659 : BitVec 32) (v1661 : BitVec 32),
    (iprop(∃ K, QC (F := F) K c 36 2) : sProp 𝕄)
      ⊢ wp frame (wpE (defs₀ (F := F)) Variants.none (c : Thread nD τ) none) Set.univ
          (seg14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v1657 v1659 v1661)
          (fun _ => iprop(∃ K, Q38 (F := F) K c))

/-- Segment 15: the last loads and the store of the result; the 32 cells are closed and their counters handed back. -/
def Spec15 (m : (ℓ : Loc nD τ sig) → Buf (Elt F) ℓ) (c : Dev nD) : Prop :=
  (iprop(∃ K, Q38 (F := F) K c) : sProp 𝕄)
    ⊢ wp frame (wpE (defs₀ (F := F)) Variants.none (c : Thread nD τ) none) Set.univ
        (seg15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c)
        (fun _ => PostBody (F := F) m c)

end Cert.KernelIdeal.Hand
end
-- ==== Proof.KernelIdeal.Compose.lean ====
import proofs.«900979_g7700000000000980_dist_mlpseq_tp1d_bs_bs_b256_d256_h512_v7x_i8_bf16_1_alg».proof.Proof.KernelIdeal.Segments

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig ℕ (Elt F) ℕ U ℕ

/-! # The body from its segments

A proof of the body is a proof of each of its fifteen segments between consecutive intermediate assertions: the first
segment reads the device id and says so in its post, every later one is taken at that device and for all values of the
words and vectors it is handed, and the sequencing rule of the weakest-precondition logic joins them in order. -/

set_option maxHeartbeats 4000000 in
theorem wp_segments (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5)
    (c : Dev nD) (P : Fin 16 → sProp 𝕄)
    (h1 : P 0 ⊢ wp frame (wpE (defs₀ (F := F)) Variants.none (c : Thread nD τ) none) Set.univ (seg1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25) (fun r => iprop(⌜r.1 = c⌝ ∗ P 1)))
    (h2 : ∀ (v2 : BitVec 32) (v11 : BitVec 32) (v131 : BitVec 32) (v134 : BitVec 32) (v185 : BitVec 32) (v187 : BitVec 32), P 1 ⊢ wp frame (wpE (defs₀ (F := F)) Variants.none (c : Thread nD τ) none) Set.univ (seg2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v131 v134 v185 v187) (fun _ => P 2))
    (h3 : ∀ (v2 : BitVec 32) (v131 : BitVec 32) (v134 : BitVec 32) (v264 : BitVec 32) (v268 : BitVec 32), P 2 ⊢ wp frame (wpE (defs₀ (F := F)) Variants.none (c : Thread nD τ) none) Set.univ (seg3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v131 v134 v264 v268) (fun _ => P 3))
    (h4 : ∀ (v2 : BitVec 32) (v131 : BitVec 32) (v134 : BitVec 32) (v496 : BitVec 32) (v500 : BitVec 32), P 3 ⊢ wp frame (wpE (defs₀ (F := F)) Variants.none (c : Thread nD τ) none) Set.univ (seg4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v131 v134 v496 v500) (fun _ => P 4))
    (h5 : ∀ (v2 : BitVec 32) (v131 : BitVec 32) (v134 : BitVec 32), P 4 ⊢ wp frame (wpE (defs₀ (F := F)) Variants.none (c : Thread nD τ) none) Set.univ (seg5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v131 v134) (fun _ => P 5))
    (h6 : ∀ (v2 : BitVec 32) (v11 : BitVec 32) (v652 : BitVec 32), P 5 ⊢ wp frame (wpE (defs₀ (F := F)) Variants.none (c : Thread nD τ) none) Set.univ (seg6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v652) (fun _ => P 6))
    (h7 : ∀ (v2 : BitVec 32) (v678 : BitVec 32) (v681 : BitVec 32) (v811 : BitVec 32) (v815 : BitVec 32) (v818 : Vec F S256x256 .bf16), P 6 ⊢ wp frame (wpE (defs₀ (F := F)) Variants.none (c : Thread nD τ) none) Set.univ (seg7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v678 v681 v811 v815 v818) (fun _ => P 7))
    (h8 : ∀ (v2 : BitVec 32) (v678 : BitVec 32) (v681 : BitVec 32) (v1041 : FVec F S256x256 .f32), P 7 ⊢ wp frame (wpE (defs₀ (F := F)) Variants.none (c : Thread nD τ) none) Set.univ (seg8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v678 v681 v1041) (fun _ => P 8))
    (h9 : ∀ (v2 : BitVec 32) (v678 : BitVec 32) (v681 : BitVec 32) (v1121 : BitVec 32), P 8 ⊢ wp frame (wpE (defs₀ (F := F)) Variants.none (c : Thread nD τ) none) Set.univ (seg9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v678 v681 v1121) (fun _ => P 9))
    (h10 : ∀ (v2 : BitVec 32) (v11 : BitVec 32) (v1191 : FVec F S256x256 .bf16), P 9 ⊢ wp frame (wpE (defs₀ (F := F)) Variants.none (c : Thread nD τ) none) Set.univ (seg10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v1191) (fun _ => P 10))
    (h11 : ∀ (v2 : BitVec 32) (v11 : BitVec 32) (v1225 : BitVec 32) (v1228 : BitVec 32) (v1279 : BitVec 32), P 10 ⊢ wp frame (wpE (defs₀ (F := F)) Variants.none (c : Thread nD τ) none) Set.univ (seg11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v1225 v1228 v1279) (fun _ => P 11))
    (h12 : ∀ (v2 : BitVec 32) (v1225 : BitVec 32) (v1228 : BitVec 32) (v1358 : BitVec 32) (v1362 : BitVec 32) (v1385 : FVec F S256x512 .bf16) (v1386 : Vec F S512x256 .bf16) (cst_1075 : FVec F S256x256 .f32), P 11 ⊢ wp frame (wpE (defs₀ (F := F)) Variants.none (c : Thread nD τ) none) Set.univ (seg12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v1225 v1228 v1358 v1362 v1385 v1386 cst_1075) (fun _ => P 12))
    (h13 : ∀ (v2 : BitVec 32) (v11 : BitVec 32) (v1225 : BitVec 32) (v1228 : BitVec 32) (v1571 : FVec F S256x256 .f32), P 12 ⊢ wp frame (wpE (defs₀ (F := F)) Variants.none (c : Thread nD τ) none) Set.univ (seg13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v1225 v1228 v1571) (fun _ => P 13))
    (h14 : ∀ (v2 : BitVec 32) (v1657 : BitVec 32) (v1659 : BitVec 32) (v1661 : BitVec 32), P 13 ⊢ wp frame (wpE (defs₀ (F := F)) Variants.none (c : Thread nD τ) none) Set.univ (seg14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v1657 v1659 v1661) (fun _ => P 14))
    (h15 : P 14 ⊢ wp frame (wpE (defs₀ (F := F)) Variants.none (c : Thread nD τ) none) Set.univ (seg15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c) (fun _ => P 15)) :
    P 0 ⊢ wp frame (wpE (defs₀ (F := F)) Variants.none (c : Thread nD τ) none) Set.univ (cc0_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25) (fun _ => P 15) := by
  rw [body_eq_segments]; unfold segments
  refine wp_seq c _ _ h1 (fun o1 => ?_)
  obtain ⟨d0, v2, v11, v131, v134, v185, v187⟩ := o1
  refine pure_sep_elim (fun hd => ?_)
  dsimp only at hd
  subst hd
  try dsimp only
  refine wp_seq _ _ _ (h2 v2 v11 v131 v134 v185 v187) (fun o2 => ?_)
  obtain ⟨v264, v268⟩ := o2
  try dsimp only
  refine wp_seq _ _ _ (h3 v2 v131 v134 v264 v268) (fun o3 => ?_)
  obtain ⟨v496, v500⟩ := o3
  try dsimp only
  refine wp_seq _ _ _ (h4 v2 v131 v134 v496 v500) (fun _ => ?_)
  try dsimp only
  refine wp_seq _ _ _ (h5 v2 v131 v134) (fun v652 => ?_)
  try dsimp only
  refine wp_seq _ _ _ (h6 v2 v11 v652) (fun o6 => ?_)
  obtain ⟨v678, v681, v811, v815, v818⟩ := o6
  try dsimp only
  refine wp_seq _ _ _ (h7 v2 v678 v681 v811 v815 v818) (fun v1041 => ?_)
  try dsimp only
  refine wp_seq _ _ _ (h8 v2 v678 v681 v1041) (fun v1121 => ?_)
  try dsimp only
  refine wp_seq _ _ _ (h9 v2 v678 v681 v1121) (fun v1191 => ?_)
  try dsimp only
  refine wp_seq _ _ _ (h10 v2 v11 v1191) (fun o10 => ?_)
  obtain ⟨v1225, v1228, v1279⟩ := o10
  try dsimp only
  refine wp_seq _ _ _ (h11 v2 v11 v1225 v1228 v1279) (fun o11 => ?_)
  obtain ⟨v1358, v1362, v1385, v1386, cst_1075⟩ := o11
  try dsimp only
  refine wp_seq _ _ _ (h12 v2 v1225 v1228 v1358 v1362 v1385 v1386 cst_1075) (fun v1571 => ?_)
  try dsimp only
  refine wp_seq _ _ _ (h13 v2 v11 v1225 v1228 v1571) (fun o13 => ?_)
  obtain ⟨v1657, v1659, v1661⟩ := o13
  try dsimp only
  refine wp_seq _ _ _ (h14 v2 v1657 v1659 v1661) (fun _ => ?_)
  try dsimp only
  exact h15

/-- info: 'Cert.KernelIdeal.Hand.wp_segments' depends on axioms: [propext, Classical.choice, Quot.sound] -/
#guard_msgs in #print axioms wp_segments

end Cert.KernelIdeal.Hand

end
-- ==== Proof.KernelIdeal.DevEqs.lean ====
/- The addressed device of every barrier signal and remote copy of the body, as the partner `c xor mask`:
   decided over the eight devices, one equation per printed device chain. -/
import proofs.«900979_g7700000000000980_dist_mlpseq_tp1d_bs_bs_b256_d256_h512_v7x_i8_bf16_1_alg».proof.Proof.KernelIdeal.Devs

namespace Cert.KernelIdeal.Hand

open Cert.KernelIdeal Cert.KernelIdeal.Gen Idealize.ShloMosaic

theorem dev1_eq : ∀ c : Dev nD, (⟨k0_dev1 c, k0_dev1_lt c⟩ : Dev nD) = xr 1 c := by decide +kernel
theorem dev2_eq : ∀ c : Dev nD, (⟨k0_dev2 c, k0_dev2_lt c⟩ : Dev nD) = xr 3 c := by decide +kernel
theorem dev3_eq : ∀ c : Dev nD, (⟨k0_dev3 c, k0_dev3_lt c⟩ : Dev nD) = xr 4 c := by decide +kernel
theorem dev4_eq : ∀ c : Dev nD, (⟨k0_dev4 c, k0_dev4_lt c⟩ : Dev nD) = xr 1 c := by decide +kernel
theorem dev5_eq : ∀ c : Dev nD, (⟨k0_dev5 c, k0_dev5_lt c⟩ : Dev nD) = xr 3 c := by decide +kernel
theorem dev6_eq : ∀ c : Dev nD, (⟨k0_dev6 c, k0_dev6_lt c⟩ : Dev nD) = xr 3 c := by decide +kernel
theorem dev7_eq : ∀ c : Dev nD, (⟨k0_dev7 c, k0_dev7_lt c⟩ : Dev nD) = xr 4 c := by decide +kernel
theorem dev8_eq : ∀ c : Dev nD, (⟨k0_dev8 c, k0_dev8_lt c⟩ : Dev nD) = xr 4 c := by decide +kernel
theorem dev9_eq : ∀ c : Dev nD, (⟨k0_dev9 c, k0_dev9_lt c⟩ : Dev nD) = xr 1 c := by decide +kernel
theorem dev10_eq : ∀ c : Dev nD, (⟨k0_dev10 c, k0_dev10_lt c⟩ : Dev nD) = xr 4 c := by decide +kernel
theorem dev11_eq : ∀ c : Dev nD, (⟨k0_dev11 c, k0_dev11_lt c⟩ : Dev nD) = xr 1 c := by decide +kernel
theorem dev12_eq : ∀ c : Dev nD, (⟨k0_dev12 c, k0_dev12_lt c⟩ : Dev nD) = xr 4 c := by decide +kernel
theorem dev13_eq : ∀ c : Dev nD, (⟨k0_dev13 c, k0_dev13_lt c⟩ : Dev nD) = xr 1 c := by decide +kernel
theorem dev14_eq : ∀ c : Dev nD, (⟨k0_dev14 c, k0_dev14_lt c⟩ : Dev nD) = xr 3 c := by decide +kernel
theorem dev15_eq : ∀ c : Dev nD, (⟨k0_dev15 c, k0_dev15_lt c⟩ : Dev nD) = xr 4 c := by decide +kernel
theorem dev16_eq : ∀ c : Dev nD, (⟨k0_dev16 c, k0_dev16_lt c⟩ : Dev nD) = xr 1 c := by decide +kernel
theorem dev17_eq : ∀ c : Dev nD, (⟨k0_dev17 c, k0_dev17_lt c⟩ : Dev nD) = xr 3 c := by decide +kernel
theorem dev18_eq : ∀ c : Dev nD, (⟨k0_dev18 c, k0_dev18_lt c⟩ : Dev nD) = xr 3 c := by decide +kernel
theorem dev19_eq : ∀ c : Dev nD, (⟨k0_dev19 c, k0_dev19_lt c⟩ : Dev nD) = xr 4 c := by decide +kernel
theorem dev20_eq : ∀ c : Dev nD, (⟨k0_dev20 c, k0_dev20_lt c⟩ : Dev nD) = xr 4 c := by decide +kernel
theorem dev21_eq : ∀ c : Dev nD, (⟨k0_dev21 c, k0_dev21_lt c⟩ : Dev nD) = xr 1 c := by decide +kernel
theorem dev22_eq : ∀ c : Dev nD, (⟨k0_dev22 c, k0_dev22_lt c⟩ : Dev nD) = xr 4 c := by decide +kernel
theorem dev23_eq : ∀ c : Dev nD, (⟨k0_dev23 c, k0_dev23_lt c⟩ : Dev nD) = xr 1 c := by decide +kernel
theorem dev24_eq : ∀ c : Dev nD, (⟨k0_dev24 c, k0_dev24_lt c⟩ : Dev nD) = xr 4 c := by decide +kernel
theorem dev25_eq : ∀ c : Dev nD, (⟨k0_dev25 c, k0_dev25_lt c⟩ : Dev nD) = xr 1 c := by decide +kernel
theorem dev26_eq : ∀ c : Dev nD, (⟨k0_dev26 c, k0_dev26_lt c⟩ : Dev nD) = xr 3 c := by decide +kernel
theorem dev27_eq : ∀ c : Dev nD, (⟨k0_dev27 c, k0_dev27_lt c⟩ : Dev nD) = xr 4 c := by decide +kernel
theorem dev28_eq : ∀ c : Dev nD, (⟨k0_dev28 c, k0_dev28_lt c⟩ : Dev nD) = xr 1 c := by decide +kernel
theorem dev29_eq : ∀ c : Dev nD, (⟨k0_dev29 c, k0_dev29_lt c⟩ : Dev nD) = xr 3 c := by decide +kernel
theorem dev30_eq : ∀ c : Dev nD, (⟨k0_dev30 c, k0_dev30_lt c⟩ : Dev nD) = xr 3 c := by decide +kernel
theorem dev31_eq : ∀ c : Dev nD, (⟨k0_dev31 c, k0_dev31_lt c⟩ : Dev nD) = xr 4 c := by decide +kernel
theorem dev32_eq : ∀ c : Dev nD, (⟨k0_dev32 c, k0_dev32_lt c⟩ : Dev nD) = xr 4 c := by decide +kernel
theorem dev33_eq : ∀ c : Dev nD, (⟨k0_dev33 c, k0_dev33_lt c⟩ : Dev nD) = xr 1 c := by decide +kernel
theorem dev34_eq : ∀ c : Dev nD, (⟨k0_dev34 c, k0_dev34_lt c⟩ : Dev nD) = xr 4 c := by decide +kernel
theorem dev35_eq : ∀ c : Dev nD, (⟨k0_dev35 c, k0_dev35_lt c⟩ : Dev nD) = xr 1 c := by decide +kernel
theorem dev36_eq : ∀ c : Dev nD, (⟨k0_dev36 c, k0_dev36_lt c⟩ : Dev nD) = xr 4 c := by decide +kernel
theorem dev37_eq : ∀ c : Dev nD, (⟨k0_dev37 c, k0_dev37_lt c⟩ : Dev nD) = xr 1 c := by decide +kernel
theorem dev38_eq : ∀ c : Dev nD, (⟨k0_dev38 c, k0_dev38_lt c⟩ : Dev nD) = xr 3 c := by decide +kernel
theorem dev39_eq : ∀ c : Dev nD, (⟨k0_dev39 c, k0_dev39_lt c⟩ : Dev nD) = xr 4 c := by decide +kernel
theorem dev40_eq : ∀ c : Dev nD, (⟨k0_dev40 c, k0_dev40_lt c⟩ : Dev nD) = xr 1 c := by decide +kernel
theorem dev41_eq : ∀ c : Dev nD, (⟨k0_dev41 c, k0_dev41_lt c⟩ : Dev nD) = xr 3 c := by decide +kernel

end Cert.KernelIdeal.Hand
-- ==== Proof.KernelIdeal.Slices.lean ====
/- Cutting a scratch buffer into a slice and the rest, and putting it back.

   A remote copy names a slice of a buffer: rows of a gather buffer, a half of a send buffer, a slot of a receive
   buffer. The elements under a slice are a subset of the buffer's, so a buffer held whole is the slice together
   with the rest, and a slice at new contents together with the rest is the buffer whole again at some contents.
   Every slice here is a unit-stride rectangle of rows, so two slices of one buffer whose row ranges do not meet
   are disjoint: a device's own row block and its partner's at each exchange, the two halves of a send buffer,
   the five slots of a receive buffer. -/
import proofs.«900979_g7700000000000980_dist_mlpseq_tp1d_bs_bs_b256_d256_h512_v7x_i8_bf16_1_alg».proof.Proof.KernelIdeal.Tables

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## A slice and the rest -/

/-- A buffer held whole is the elements under the view together with the others. -/
theorem slice_split (c : Dev nD) {s : Shape} {e : EltTy} (M : Memref sig .tc .vmem s e)
    (f : Buf (Elt F) (M.view.loc (c : Thread nD τ))) :
    (M.view.loc (c : Thread nD τ) ↦{fullShare} f : sProp 𝕄)
      ⊣⊢ iprop((M.view.loc (c : Thread nD τ) ↦[M.view.set]{fullShare} f)
          ∗ (M.view.loc (c : Thread nD τ) ↦[Finset.univ \ M.view.set]{fullShare} f)) :=
  pointsTo_split_subset (Finset.subset_univ _)

/-- The elements under the view at one valuation and the others at another are the buffer whole, at the
    valuation that follows the first on the view and the second off it. -/
theorem slice_join_at (c : Dev nD) {s : Shape} {e : EltTy} (M : Memref sig .tc .vmem s e)
    (f g : Buf (Elt F) (M.view.loc (c : Thread nD τ))) :
    iprop((M.view.loc (c : Thread nD τ) ↦[M.view.set]{fullShare} g)
        ∗ (M.view.loc (c : Thread nD τ) ↦[Finset.univ \ M.view.set]{fullShare} f))
      ⊢ (M.view.loc (c : Thread nD τ) ↦{fullShare} (M.view.set.piecewise g f) : sProp 𝕄) :=
  pointsTo_join_subset (Finset.subset_univ _)

/-- So the buffer is whole at some valuation. -/
theorem slice_join (c : Dev nD) {s : Shape} {e : EltTy} (M : Memref sig .tc .vmem s e)
    (f g : Buf (Elt F) (M.view.loc (c : Thread nD τ))) :
    iprop((M.view.loc (c : Thread nD τ) ↦[M.view.set]{fullShare} g)
        ∗ (M.view.loc (c : Thread nD τ) ↦[Finset.univ \ M.view.set]{fullShare} f))
      ⊢ (iprop(∃ h, (M.view.loc (c : Thread nD τ) ↦{fullShare} h)) : sProp 𝕄) :=
  (slice_join_at c M f g).trans (exists_intro (Φ := fun h => (M.view.loc (c : Thread nD τ) ↦{fullShare} h : sProp 𝕄)) _)

/-- The same from the view's elements at some contents. -/
theorem slice_join_ownAt (c : Dev nD) {s : Shape} {e : EltTy} (M : Memref sig .tc .vmem s e)
    (f : Buf (Elt F) (M.view.loc (c : Thread nD τ))) :
    iprop(ownAt c M ∗ (M.view.loc (c : Thread nD τ) ↦[Finset.univ \ M.view.set]{fullShare} f))
      ⊢ (iprop(∃ h, (M.view.loc (c : Thread nD τ) ↦{fullShare} h)) : sProp 𝕄) := by
  unfold ownAt
  iintro ⟨⟨%g, Hg⟩, Hf⟩
  iapply (slice_join c M f g)
  isplitl [Hg]
  · iexact Hg
  · iexact Hf

/-! ## A slice's location is its buffer's

    At a literal stream each of these holds by unfolding; they are stated for a stream that is a variable. -/

theorem loc_VE0 (s : Fin 2) (c d : Dev nD) : (VE0 s d).view.loc (c : Thread nD τ) = (XF s).view.loc (c : Thread nD τ) := by
  fin_cases s <;> rfl
theorem loc_VE1 (s : Fin 2) (c d : Dev nD) : (VE1 s d).view.loc (c : Thread nD τ) = (XF s).view.loc (c : Thread nD τ) := by
  fin_cases s <;> rfl
theorem loc_VE2 (s : Fin 2) (c d : Dev nD) : (VE2 s d).view.loc (c : Thread nD τ) = (XF s).view.loc (c : Thread nD τ) := by
  fin_cases s <;> rfl
theorem loc_SA (s : Fin 2) (c : Dev nD) : (SA s).view.loc (c : Thread nD τ) = (SND s).view.loc (c : Thread nD τ) := rfl
theorem loc_SB (s : Fin 2) (c : Dev nD) : (SB s).view.loc (c : Thread nD τ) = (SND s).view.loc (c : Thread nD τ) := rfl
theorem loc_SH (s : Fin 2) (c : Dev nD) : (SH s).view.loc (c : Thread nD τ) = (SND s).view.loc (c : Thread nD τ) := rfl
theorem loc_R0 (s : Fin 2) (c : Dev nD) : (R0 s).view.loc (c : Thread nD τ) = (RCV s).view.loc (c : Thread nD τ) := rfl
theorem loc_R1 (s : Fin 2) (c : Dev nD) : (R1 s).view.loc (c : Thread nD τ) = (RCV s).view.loc (c : Thread nD τ) := rfl
theorem loc_R2 (s : Fin 2) (c : Dev nD) : (R2 s).view.loc (c : Thread nD τ) = (RCV s).view.loc (c : Thread nD τ) := rfl
theorem loc_R3 (s : Fin 2) (c : Dev nD) : (R3 s).view.loc (c : Thread nD τ) = (RCV s).view.loc (c : Thread nD τ) := rfl
theorem loc_R4 (s : Fin 2) (c : Dev nD) : (R4 s).view.loc (c : Thread nD τ) = (RCV s).view.loc (c : Thread nD τ) := rfl
theorem loc_R3h (s : Fin 2) (c : Dev nD) : (R3h s).view.loc (c : Thread nD τ) = (RCV s).view.loc (c : Thread nD τ) := rfl
theorem loc_XF0 (c : Dev nD) : (XF 0).view.loc (c : Thread nD τ) = (c : Thread nD τ).loc cc0_scratch0 := rfl
theorem loc_XF1 (c : Dev nD) : (XF 1).view.loc (c : Thread nD τ) = (c : Thread nD τ).loc cc0_scratch1 := rfl
theorem loc_SND0 (c : Dev nD) : (SND 0).view.loc (c : Thread nD τ) = (c : Thread nD τ).loc cc0_scratch4 := rfl
theorem loc_SND1 (c : Dev nD) : (SND 1).view.loc (c : Thread nD τ) = (c : Thread nD τ).loc cc0_scratch5 := rfl
theorem loc_RCV0 (c : Dev nD) : (RCV 0).view.loc (c : Thread nD τ) = (c : Thread nD τ).loc cc0_scratch6 := rfl
theorem loc_RCV1 (c : Dev nD) : (RCV 1).view.loc (c : Thread nD τ) = (c : Thread nD τ).loc cc0_scratch7 := rfl

/-! ## Slices that do not meet -/

/-- The elements under a unit-stride slice of a whole buffer are the rectangle's. -/
theorem set_slice_of_whole (b : Ref sig .tc) (r : Rect b.ty.shape) (hr : ∀ a, r.stride a = 1) :
    ((Memref.whole b).slice r hr).view.set = r.set := View.set_slice_whole b r

/-- Two unit-stride slices of one buffer separated on an axis are disjoint. -/
theorem disj_slices (b : Ref sig .tc) {off size off' size' : Fin b.ty.shape.rank → ℕ} {inb inb'} (a : Fin b.ty.shape.rank)
    (h : off a + size a ≤ off' a ∨ off' a + size' a ≤ off a) :
    Disjoint ((Memref.whole b).slice (Rect.unit off size inb) (fun _ => rfl)).view.set
      ((Memref.whole b).slice (Rect.unit off' size' inb') (fun _ => rfl)).view.set := by
  rw [set_slice_of_whole, set_slice_of_whole]
  exact Rect.unit_disjoint a h

/-- A unit-stride slice inside another's span on every axis is contained in it. -/
theorem sub_slices (b : Ref sig .tc) {off size off' size' : Fin b.ty.shape.rank → ℕ} {inb inb'}
    (h : ∀ a, off' a ≤ off a ∧ off a + size a ≤ off' a + size' a) :
    ((Memref.whole b).slice (Rect.unit off size inb) (fun _ => rfl)).view.set
      ⊆ ((Memref.whole b).slice (Rect.unit off' size' inb') (fun _ => rfl)).view.set := by
  rw [set_slice_of_whole, set_slice_of_whole]
  intro i hi
  rw [Rect.mem_set_unit] at hi ⊢
  intro a
  have h1 := hi a
  have h2 := h a
  omega

/-! The gather buffers: at each exchange a device's own row block and its partner's are different blocks of the
    same size (the partner's index differs in the bit the exchange pairs on). -/

theorem disj_VE0_0 (c : Dev nD) : Disjoint (VE0 0 c).view.set (VE0 0 (xr 1 c)).view.set :=
  disj_slices cc0_scratch0 0 (by revert c; decide +kernel)
theorem disj_VE0_1 (c : Dev nD) : Disjoint (VE0 1 c).view.set (VE0 1 (xr 3 c)).view.set :=
  disj_slices cc0_scratch1 0 (by revert c; decide +kernel)
theorem disj_VE1_0 (c : Dev nD) : Disjoint (VE1 0 c).view.set (VE1 0 (xr 3 c)).view.set :=
  disj_slices cc0_scratch0 0 (by revert c; decide +kernel)
theorem disj_VE1_1 (c : Dev nD) : Disjoint (VE1 1 c).view.set (VE1 1 (xr 4 c)).view.set :=
  disj_slices cc0_scratch1 0 (by revert c; decide +kernel)
theorem disj_VE2_0 (c : Dev nD) : Disjoint (VE2 0 c).view.set (VE2 0 (xr 4 c)).view.set :=
  disj_slices cc0_scratch0 0 (by revert c; decide +kernel)
theorem disj_VE2_1 (c : Dev nD) : Disjoint (VE2 1 c).view.set (VE2 1 (xr 1 c)).view.set :=
  disj_slices cc0_scratch1 0 (by revert c; decide +kernel)

/-! The send buffers: the two halves; the first 128 rows lie in the first half. -/

theorem disj_SA_SB (s : Fin 2) : Disjoint (SA s).view.set (SB s).view.set := by
  fin_cases s <;> exact disj_slices _ 0 (by decide)
theorem sub_SH_SA (s : Fin 2) : (SH s).view.set ⊆ (SA s).view.set := by
  fin_cases s <;> exact sub_slices _ (by decide)
theorem disj_SH_SB (s : Fin 2) : Disjoint (SH s).view.set (SB s).view.set :=
  (disj_SA_SB s).mono_left (sub_SH_SA s)

/-! The receive buffers: five slots of 256 rows one after the other; the 128-row slot is the start of the fourth. -/

theorem disj_R0_R1 (s : Fin 2) : Disjoint (R0 s).view.set (R1 s).view.set := by
  fin_cases s <;> exact disj_slices _ 0 (by decide)
theorem disj_R0_R2 (s : Fin 2) : Disjoint (R0 s).view.set (R2 s).view.set := by
  fin_cases s <;> exact disj_slices _ 0 (by decide)
theorem disj_R0_R3 (s : Fin 2) : Disjoint (R0 s).view.set (R3 s).view.set := by
  fin_cases s <;> exact disj_slices _ 0 (by decide)
theorem disj_R0_R4 (s : Fin 2) : Disjoint (R0 s).view.set (R4 s).view.set := by
  fin_cases s <;> exact disj_slices _ 0 (by decide)
theorem disj_R1_R2 (s : Fin 2) : Disjoint (R1 s).view.set (R2 s).view.set := by
  fin_cases s <;> exact disj_slices _ 0 (by decide)
theorem disj_R1_R3 (s : Fin 2) : Disjoint (R1 s).view.set (R3 s).view.set := by
  fin_cases s <;> exact disj_slices _ 0 (by decide)
theorem disj_R1_R4 (s : Fin 2) : Disjoint (R1 s).view.set (R4 s).view.set := by
  fin_cases s <;> exact disj_slices _ 0 (by decide)
theorem disj_R2_R3 (s : Fin 2) : Disjoint (R2 s).view.set (R3 s).view.set := by
  fin_cases s <;> exact disj_slices _ 0 (by decide)
theorem disj_R2_R4 (s : Fin 2) : Disjoint (R2 s).view.set (R4 s).view.set := by
  fin_cases s <;> exact disj_slices _ 0 (by decide)
theorem disj_R3_R4 (s : Fin 2) : Disjoint (R3 s).view.set (R4 s).view.set := by
  fin_cases s <;> exact disj_slices _ 0 (by decide)
theorem sub_R3h_R3 (s : Fin 2) : (R3h s).view.set ⊆ (R3 s).view.set := by
  fin_cases s <;> exact sub_slices _ (by decide)
theorem disj_R0_R3h (s : Fin 2) : Disjoint (R0 s).view.set (R3h s).view.set := (disj_R0_R3 s).mono_right (sub_R3h_R3 s)
theorem disj_R1_R3h (s : Fin 2) : Disjoint (R1 s).view.set (R3h s).view.set := (disj_R1_R3 s).mono_right (sub_R3h_R3 s)
theorem disj_R2_R3h (s : Fin 2) : Disjoint (R2 s).view.set (R3h s).view.set := (disj_R2_R3 s).mono_right (sub_R3h_R3 s)
theorem disj_R3h_R4 (s : Fin 2) : Disjoint (R3h s).view.set (R4 s).view.set := (disj_R3_R4 s).mono_left (sub_R3h_R3 s)

/-! ## A second slice out of the rest -/

/-- Elements disjoint from those already cut out can be cut out of the rest. -/
theorem rest_split {ℓ : Loc nD τ sig} {A B : Finset (Idx ℓ)} (h : Disjoint A B) (f : Buf (Elt F) ℓ) :
    (ℓ ↦[Finset.univ \ A]{fullShare} f : sProp 𝕄)
      ⊣⊢ iprop((ℓ ↦[B]{fullShare} f) ∗ (ℓ ↦[(Finset.univ \ A) \ B]{fullShare} f)) :=
  pointsTo_split_subset (Finset.subset_sdiff.mpr ⟨Finset.subset_univ _, h.symm⟩)

/-- And put back, at new contents. -/
theorem rest_join_at {ℓ : Loc nD τ sig} {A B : Finset (Idx ℓ)} (h : Disjoint A B) (f g : Buf (Elt F) ℓ) :
    iprop((ℓ ↦[B]{fullShare} g) ∗ (ℓ ↦[(Finset.univ \ A) \ B]{fullShare} f))
      ⊢ (ℓ ↦[Finset.univ \ A]{fullShare} (B.piecewise g f) : sProp 𝕄) :=
  pointsTo_join_subset (Finset.subset_sdiff.mpr ⟨Finset.subset_univ _, h.symm⟩)

end Cert.KernelIdeal.Hand

end
-- ==== Proof.KernelIdeal.Steps.lean ====
import proofs.«900979_g7700000000000980_dist_mlpseq_tp1d_bs_bs_b256_d256_h512_v7x_i8_bf16_1_alg».proof.Proof.KernelIdeal.State
import proofs.«900979_g7700000000000980_dist_mlpseq_tp1d_bs_bs_b256_d256_h512_v7x_i8_bf16_1_alg».proof.Proof.KernelIdeal.Tables
import proofs.«900979_g7700000000000980_dist_mlpseq_tp1d_bs_bs_b256_d256_h512_v7x_i8_bf16_1_alg».proof.Proof.KernelIdeal.Levels
import proofs.«900979_g7700000000000980_dist_mlpseq_tp1d_bs_bs_b256_d256_h512_v7x_i8_bf16_1_alg».proof.Proof.KernelIdeal.DevEqs
import proofs.«900979_g7700000000000980_dist_mlpseq_tp1d_bs_bs_b256_d256_h512_v7x_i8_bf16_1_alg».proof.Proof.KernelIdeal.Slices
import proofs.«900979_g7700000000000980_dist_mlpseq_tp1d_bs_bs_b256_d256_h512_v7x_i8_bf16_1_alg».proof.Proof.KernelIdeal.Quiet
import proofs.«900979_g7700000000000980_dist_mlpseq_tp1d_bs_bs_b256_d256_h512_v7x_i8_bf16_1_alg».proof.Proof.Gen.KernelIdeal.Skeleton
import proofs.«900979_g7700000000000980_dist_mlpseq_tp1d_bs_bs_b256_d256_h512_v7x_i8_bf16_1_alg».proof.Proof.Gen.KernelIdeal.Points
import proofs.«900979_g7700000000000980_dist_mlpseq_tp1d_bs_bs_b256_d256_h512_v7x_i8_bf16_1_alg».proof.Proof.Gen.KernelIdeal.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.Tactic

instance invsAll_persistent (K : GSem nD τ sig → ℕ) : BI.Persistent (invsAll (F := F) K) := by unfold invsAll; infer_instance
instance reachedAll_persistent : BI.Persistent (reachedAll (F := F)) := by unfold reachedAll; infer_instance

attribute [local sl_canon] dev1_eq dev2_eq dev3_eq

/-- One cell's invariant out of the family. -/
theorem invsAll_elim (K : GSem nD τ sig → ℕ) (ck : Dev nD × Fin 33) :
    (invsAll (F := F) K) ⊢ cellInv ER (sched (F := F)) (K (kcell ck)) (kcell ck) := by
  unfold invsAll
  exact bigSep_elim (Finset.mem_univ ck)

theorem reachedAll_elim (ck : Dev nD × Fin 33) : (reachedAll (F := F)) ⊢ reached ER (kcell ck) 0 := by
  unfold reachedAll
  exact bigSep_elim (Finset.mem_univ ck)

theorem kcell_bar (c : Dev nD) : kcell (c, 0) = barCell c := by unfold kcell; rfl

/-- The entry signal to partner number `d` (mask `μ`): it pays duty `d` of the partner's barrier cell, handing over
    the slot of the first copy of that chain. -/
theorem wp_signal_bar (c : Dev nD) (μ : Fin 8) (d : DD) (K : GSem nD τ sig → ℕ)
    {α : Type} {Q : α → sProp 𝕄} {k : PUnit → Prog (TpuEff nD τ sig (Elt F) Λ₀ .tc) α}
    {O₀' : CellTallies nD τ sig ℕ} (O : CellTallies nD τ sig ℕ) (hO : O₀' = O + tallyAt (barCell (xr μ c)) 0 1) (W : Waits sig ℕ)
    (hr : τ.routes (c : Thread nD τ) (xr μ c : Thread nD τ) = true) :
    iprop(invsAll (F := F) K ∗ reachedAll ∗ owes (c : Thread nD τ) O₀' W ∗ dutyTok ER (barCell (xr μ c)) 0 d ∗ payBar (xr μ c) d)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ
              (.op (.semSignal (xr μ c : Thread nD τ) barS 1) k) Q) := by
  iintro ⟨#HI, #Hr, HO, Htok, Hpay⟩
  iapply (Rounds.wp_signal Variants.none ER (sched (F := F)) (c : Thread nD τ) none (dst := (xr μ c : Thread nD τ)) (κ := K (barCell (xr μ c)))
      (d := d) (by rw [duties_bar]; exact Finset.mem_univ _) (amount_bar (xr μ c) d) 0 O hO hr) $$ [HO Htok Hpay]
  · isplitr
    · ihave H := (invsAll_elim K (xr μ c, 0)) $$ HI
      rw [kcell_bar]; iexact H
    isplitl [HO]; · iexact HO
    isplitl [Htok]; · iexact Htok
    isplitl [Hpay]; · rw [payload_bar]; iexact Hpay
    ihave H := (reachedAll_elim (F := F) (xr μ c, 0)) $$ Hr
    rw [kcell_bar]; iexact H

/-! ## The gather and reduce cells out of the family -/

/-- A semaphore that has a round is one of the 32 of the protocol. -/
theorem eight_le_of_lt_nRounds {j r : ℕ} (hr : r < nRounds j) : 8 ≤ j := by
  by_contra h
  have h0 : nRounds j = 0 := by unfold nRounds; rw [if_pos (by omega)]
  omega

theorem kcell_dma (c : Dev nD) (j : ℕ) (hj : 8 ≤ j) (hj' : j < 40) :
    kcell (c, ⟨j - 7, by omega⟩) = dcell c (dsem j) := by
  unfold kcell
  rw [if_neg (show ¬ (j - 7 = 0) by omega)]
  show dcell c (dsem (j - 7 + 7)) = _
  rw [Nat.sub_add_cancel (by omega)]

theorem invs_dma (K : GSem nD τ sig → ℕ) (c : Dev nD) (j : ℕ) (hj : 8 ≤ j) (hj' : j < 40) :
    (invsAll (F := F) K) ⊢ cellInv ER (sched (F := F)) (K (dcell c (dsem j))) (dcell c (dsem j)) := by
  have h := invsAll_elim (F := F) K (c, ⟨j - 7, by omega⟩)
  rw [kcell_dma c j hj hj'] at h
  exact h

theorem reached_dma (c : Dev nD) (j : ℕ) (hj : 8 ≤ j) (hj' : j < 40) :
    (reachedAll (F := F)) ⊢ reached ER (dcell c (dsem j)) 0 := by
  have h := reachedAll_elim (F := F) (c, ⟨j - 7, by omega⟩)
  rw [kcell_dma c j hj hj'] at h
  exact h

/-! ## The waits -/

/-- The wait for the three entry signals: the owner of the barrier cell comes back in round 1 with what each
    partner handed over. -/
theorem wp_wait_bar (c : Dev nD) (K : GSem nD τ sig → ℕ) (O : CellTallies nD τ sig ℕ) (W : Waits sig ℕ)
    {α : Type} {Q : α → sProp 𝕄} {k : PUnit → Prog (TpuEff nD τ sig (Elt F) Λ₀ .tc) α} :
    iprop(invsAll (F := F) K ∗ cred (tallyAt (barCell c) 0 3) ∗ owes (c : Thread nD τ) O W
        ∗ MayWait (c : Thread nD τ) (.reg barS) 0 O ∗ atPos ER (barCell c) 0 ∅ 0)
      ⊢ iprop(((owes (c : Thread nD τ) O (insert (.reg barS, 0) W) ∗ atPos ER (barCell c) 1 ∅ 0 ∗ reached ER (barCell c) 1
              ∗ payBar c 0 ∗ payBar c 1 ∗ payBar c 2)
            -∗ wp frame (wpE (defs₀ (F := F)) Variants.none (c : Thread nD τ) none) Set.univ (k ⟨⟩) Q)
          -∗ wp frame (wpE (defs₀ (F := F)) Variants.none (c : Thread nD τ) none) Set.univ
              (.op (.semWait barS 3) k) Q) := by
  rw [← rest_bar (F := F) c]
  iintro ⟨#HI, Hc, HO, Hlev, Hat⟩
  iapply (Rounds.wp_wait_rest_token Variants.none ER (sched (F := F)) (c : Thread nD τ) none (sm := .reg barS) (k' := 3)
      (κ := K (barCell c)) (fun Kt => wpE_semWait_eq Variants.none (c : Thread nD τ) none Set.univ Kt) (Set.mem_univ _) 0
      (by rw [expect_bar])) $$ [Hc HO Hlev Hat]
  · isplitr
    · ihave H := (invsAll_elim K (c, 0)) $$ HI
      rw [kcell_bar]; iexact H
    isplitl [Hc]; · iexact Hc
    isplitl [HO]; · iexact HO
    isplitl [Hlev]; · iexact Hlev
    iexact Hat

/-- The wait for round `r` of a gather or reduce cell at the credit index `ι`: the owner comes back in round
    `r + 1` with what the landing hands over. The wait is any effect whose clause is the wait clause at the
    cell and the round's amount. -/
theorem wp_wait_copy (c : Dev nD) (j r ι : ℕ) (hj : j < 40) (hr : r < nRounds j) (K : GSem nD τ sig → ℕ)
    (O : CellTallies nD τ sig ℕ) (W : Waits sig ℕ) {w : TpuEff nD τ sig (Elt F) Λ₀ .tc PUnit}
    (hw : ∀ Kt : PUnit → sProp 𝕄, wpE (defs₀ (F := F)) Variants.none (c : Thread nD τ) none Set.univ w Kt
        = waitSpec (c : Thread nD τ) Set.univ (.dma (dsem j)) (amtDma j r) Kt)
    {α : Type} {Q : α → sProp 𝕄} {k : PUnit → Prog (TpuEff nD τ sig (Elt F) Λ₀ .tc) α} :
    iprop(invsAll (F := F) K ∗ cred (tallyAt (dcell c (dsem j)) ι (amtDma j r)) ∗ owes (c : Thread nD τ) O W
        ∗ MayWait (c : Thread nD τ) (.dma (dsem j)) ι O ∗ atPos ER (dcell c (dsem j)) r ∅ 0)
      ⊢ iprop(((owes (c : Thread nD τ) O (insert (.dma (dsem j), ι) W) ∗ atPos ER (dcell c (dsem j)) (r + 1) ∅ 0
              ∗ reached ER (dcell c (dsem j)) (r + 1) ∗ payDma c j r)
            -∗ wp frame (wpE (defs₀ (F := F)) Variants.none (c : Thread nD τ) none) Set.univ (k ⟨⟩) Q)
          -∗ wp frame (wpE (defs₀ (F := F)) Variants.none (c : Thread nD τ) none) Set.univ (.op w k) Q) := by
  rw [← rest_dma (F := F) c j r hj hr]
  iintro ⟨#HI, Hc, HO, Hlev, Hat⟩
  iapply (Rounds.wp_wait_rest_token Variants.none ER (sched (F := F)) (c : Thread nD τ) none (sm := .dma (dsem j))
      (k' := amtDma j r) (κ := K (dcell c (dsem j))) hw (Set.mem_univ _) ι
      (by rw [expect_dma c j r hj hr, Nat.zero_add])) $$ [Hc HO Hlev Hat]
  · isplitr
    · ihave H := (invs_dma K c j (eight_le_of_lt_nRounds hr) hj) $$ HI
      iexact H
    isplitl [Hc]; · iexact Hc
    isplitl [HO]; · iexact HO
    isplitl [Hlev]; · iexact Hlev
    iexact Hat

/-- The printed wait names a semaphore and a destination view; its clause is the wait clause at the view's credit. -/
theorem hw_waitDma2 (c : Dev nD) (j r : ℕ) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = amtDma j r) (Kt : PUnit → sProp 𝕄) :
    wpE (defs₀ (F := F)) Variants.none (c : Thread nD τ) none Set.univ (.waitDma2 (dsem j) src dst hsrc hdst) Kt
      = waitSpec (c : Thread nD τ) Set.univ (.dma (dsem j)) (amtDma j r) Kt := by
  rw [wpE_waitDma2_eq, hN]

/-! ## Shares of a slice

    A copy whose source the device keeps reading borrows the left half of the source's share; the landing on the
    send cell brings it back, and the two halves are the slice again. -/

theorem ownAt_of (c : Dev nD) {s : Shape} {e : EltTy} (M : Memref sig .tc .vmem s e)
    (fs : Buf (Elt F) (M.view.loc (c : Thread nD τ))) :
    (M.view.loc (c : Thread nD τ) ↦[M.view.set]{fullShare} fs : sProp 𝕄) ⊢ ownAt c M := by
  unfold ownAt
  exact exists_intro (Φ := fun f => (M.view.loc (c : Thread nD τ) ↦[M.view.set]{fullShare} f : sProp 𝕄)) fs

theorem ownHalf_of (c : Dev nD) {s : Shape} {e : EltTy} (M : Memref sig .tc .vmem s e)
    (fs : Buf (Elt F) (M.view.loc (c : Thread nD τ))) :
    (M.view.loc (c : Thread nD τ) ↦[M.view.set]{fullShare.left} fs : sProp 𝕄) ⊢ ownHalf c M := by
  unfold ownHalf
  exact exists_intro (Φ := fun f => (M.view.loc (c : Thread nD τ) ↦[M.view.set]{fullShare.left} f : sProp 𝕄)) fs

/-- Elements held in full are their two halves, at the same contents. -/
theorem halves_split {ℓ : Loc nD τ sig} {I : Finset (Idx ℓ)} (f : Buf (Elt F) ℓ) :
    (ℓ ↦[I]{fullShare} f : sProp 𝕄) ⊣⊢ iprop((ℓ ↦[I]{fullShare.left} f) ∗ (ℓ ↦[I]{fullShare.right} f)) :=
  pointsTo_share (PosShare.mem_left_op_right fullShare)

/-- Two halves of the same elements agree on the contents, so they are the elements in full (at either's). -/
theorem halves_join {ℓ : Loc nD τ sig} {I : Finset (Idx ℓ)} (f g : Buf (Elt F) ℓ) :
    iprop((ℓ ↦[I]{fullShare.left} f) ∗ (ℓ ↦[I]{fullShare.right} g)) ⊢ (ℓ ↦[I]{fullShare} g : sProp 𝕄) := by
  refine Laws.pure_elim _ pointsTo_agree (fun h => ?_)
  have hfg : ∀ i ∈ I, f i = g i := fun i hi => (h i (Finset.mem_inter.mpr ⟨hi, hi⟩)).1
  rw [pointsTo_congr (q := fullShare.left) hfg]
  exact (halves_split g).mpr

/-- The borrowed half coming back to the half the device kept. -/
theorem ownHalf_join (c : Dev nD) {s : Shape} {e : EltTy} (M : Memref sig .tc .vmem s e)
    (g : Buf (Elt F) (M.view.loc (c : Thread nD τ))) :
    iprop(ownHalf c M ∗ (M.view.loc (c : Thread nD τ) ↦[M.view.set]{fullShare.right} g))
      ⊢ (M.view.loc (c : Thread nD τ) ↦[M.view.set]{fullShare} g : sProp 𝕄) := by
  unfold ownHalf
  iintro ⟨⟨%f, Hf⟩, Hg⟩
  iapply (halves_join f g)
  isplitl [Hf]
  · iexact Hf
  · iexact Hg

/-! ## A remote copy -/

/-- Device `c` starts a copy of its slice `src`, held at the share `q`, into the slice `dst` of device `p`,
    which `p` handed over before. It pays the duty of round `r` of its own send cell `js` with the source slice,
    and that of `p`'s receive cell `jr` with the destination slice as written and whatever else (`G`) the landing is
    to hand `p`; the units it owed `p`'s cell at the index `ι` are paid, and it receives its send cell's units in
    credit at `ι`. -/
theorem wp_send_copy (c p : Dev nD) {s : Shape} (src dst : Memref sig .tc .vmem s .bf16) (js jr r ι : ℕ)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma (dsem jr)) (.remote (p : Thread nD τ) dst (.dma (dsem js)) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p : Thread nD τ) dst (.dma (dsem js)) hsc) (.dma (dsem jr)) hsrc hdst hsem) k) Q) := by
  iintro ⟨#HI, Hs, Hd, HG, HO, Ht1, Hr1, Ht2, Hr2⟩
  unfold ownAt
  icases Hd with ⟨%fd, Hd⟩
  iapply (Rounds.wp_send_pointsTo_with Variants.none ER (sched (F := F)) (c : Thread nD τ) none (c' := (p : Thread nD τ))
      (src := src) (dst := dst) (sS := .dma (dsem js)) (sem := .dma (dsem jr)) (q := q) (fs := fs) (fd := fd) (F := G)
      (r₁ := r) (r₂ := r) (d₁ := (0 : DD)) (d₂ := (0 : DD)) (κ₁ := K (dcell c (dsem js))) (κ₂ := K (dcell p (dsem jr)))
      (by rw [duties_dma c js r hjs hrs]; exact Finset.mem_singleton_self _)
      (by rw [duties_dma p jr r hjr hrr]; exact Finset.mem_singleton_self _)
      ι ι (amtDma jr r) hN ((amount_dma c js r 0 hjs).trans hNs) (amount_dma p jr r 0 hjr) O hO
      (by rw [payload_dma c js r 0 hjs]; exact hpayS)
      (by rw [payload_dma p jr r 0 hjr]
          exact (sep_mono_left (exists_intro (Φ := fun f => (dst.view.loc (p : Thread nD τ) ↦[dst.view.set]{fullShare} f : sProp 𝕄)) _)).trans
            (by unfold ownAt at hpayR; exact hpayR))
      hroute) $$ [Hs Hd HG HO Ht1 Hr1 Ht2 Hr2]
  · isplitr
    · ihave H := (invs_dma K c js (eight_le_of_lt_nRounds hrs) hjs) $$ HI
      iexact H
    isplitr
    · ihave H := (invs_dma K p jr (eight_le_of_lt_nRounds hrr) hjr) $$ HI
      iexact H
    isplitl [Hs]; · iexact Hs
    isplitl [Hd HG]
    · isplitl [Hd]; · iexact Hd
      iexact HG
    isplitl [HO]; · iexact HO
    isplitl [Ht1]; · iexact Ht1
    isplitl [Hr1]; · iexact Hr1
    isplitl [Ht2]; · iexact Ht2
    iexact Hr2

/-! ## The copies' table

    Send and receive cells of one copy take the same units: the send semaphore of a receive semaphore sits three
    below it in the gather and five below in the reduce, in the same place of its group. -/

theorem amtDma_sendOf (j r : ℕ) (h : 11 ≤ j ∧ j < 20 ∨ 25 ≤ j) : amtDma (sendOf j) r = amtDma j r := by
  rcases h with ⟨h1, h2⟩ | h
  · have hs : sendOf j = j - 3 := if_pos h2
    rw [hs]; unfold amtDma
    rw [if_pos (show j - 3 < 20 by omega), if_pos h2, show (j - 3 - 8) % 3 = (j - 8) % 3 by omega]
  · have hs : sendOf j = j - 5 := if_neg (by omega)
    rw [hs]; unfold amtDma
    rw [if_neg (show ¬ j - 5 < 20 by omega), if_neg (show ¬ j < 20 by omega), show (j - 5 - 20) % 5 = (j - 20) % 5 by omega]

/-- Every copy of the table: its partner is across one of the three masks; its receive semaphore is a receive
    semaphore of the gather or the reduce; both its semaphores are of the 40, and its round is one of theirs. -/
theorem copyTab_facts : ∀ e ∈ copyTab,
    (e.1 = 1 ∨ e.1 = 3 ∨ e.1 = 4) ∧ (11 ≤ e.2.1 ∧ e.2.1 < 20 ∨ 25 ≤ e.2.1) ∧ e.2.1 < 40 ∧ sendOf e.2.1 < 40
      ∧ e.2.2 < nRounds e.2.1 ∧ e.2.2 < nRounds (sendOf e.2.1) := by decide

theorem copyTab_amt : ∀ e ∈ copyTab, amtDma (sendOf e.2.1) e.2.2 = amtDma e.2.1 e.2.2 :=
  fun e he => amtDma_sendOf _ _ (copyTab_facts e he).2.1

theorem copyTab_length : copyTab.length = 38 := rfl
end Cert.KernelIdeal.Hand
end
-- ==== Proof.KernelIdeal.QuietTables.lean ====
/- The lists, duty tokens, credits and positions of a device at the points of the body where no copy is in flight,
   at numerals: the copies still to come from each such point, what the copies of each segment between two points
   pay with and are paid with, and how many rounds of each of its 32 cells are over. -/
import proofs.«900979_g7700000000000980_dist_mlpseq_tp1d_bs_bs_b256_d256_h512_v7x_i8_bf16_1_alg».proof.Proof.KernelIdeal.Quiet

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The send semaphore of each receive semaphore -/

theorem sendOf_11 : sendOf 11 = 8 := rfl
theorem sendOf_12 : sendOf 12 = 9 := rfl
theorem sendOf_13 : sendOf 13 = 10 := rfl
theorem sendOf_17 : sendOf 17 = 14 := rfl
theorem sendOf_18 : sendOf 18 = 15 := rfl
theorem sendOf_19 : sendOf 19 = 16 := rfl
theorem sendOf_25 : sendOf 25 = 20 := rfl
theorem sendOf_26 : sendOf 26 = 21 := rfl
theorem sendOf_27 : sendOf 27 = 22 := rfl
theorem sendOf_28 : sendOf 28 = 23 := rfl
theorem sendOf_29 : sendOf 29 = 24 := rfl
theorem sendOf_35 : sendOf 35 = 30 := rfl
theorem sendOf_36 : sendOf 36 = 31 := rfl
theorem sendOf_37 : sendOf 37 = 32 := rfl
theorem sendOf_38 : sendOf 38 = 33 := rfl
theorem sendOf_39 : sendOf 39 = 34 := rfl

/-! ## The copies still to come from each quiet point, in full -/

theorem drop_eq_0 : copyTab.drop 0 =
    [(1, 11, 0), (3, 17, 0), (3, 12, 0), (4, 18, 0), (4, 13, 0), (1, 19, 0), (4, 25, 0), (1, 35, 0), (4, 29, 0), (1, 39, 0), (3, 26, 0), (4, 36, 0), (1, 27, 0), (3, 37, 0), (3, 12, 1), (4, 18, 1), (4, 13, 1), (1, 19, 1), (4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_4 : copyTab.drop 4 =
    [(4, 13, 0), (1, 19, 0), (4, 25, 0), (1, 35, 0), (4, 29, 0), (1, 39, 0), (3, 26, 0), (4, 36, 0), (1, 27, 0), (3, 37, 0), (3, 12, 1), (4, 18, 1), (4, 13, 1), (1, 19, 1), (4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_6 : copyTab.drop 6 =
    [(4, 25, 0), (1, 35, 0), (4, 29, 0), (1, 39, 0), (3, 26, 0), (4, 36, 0), (1, 27, 0), (3, 37, 0), (3, 12, 1), (4, 18, 1), (4, 13, 1), (1, 19, 1), (4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_10 : copyTab.drop 10 =
    [(3, 26, 0), (4, 36, 0), (1, 27, 0), (3, 37, 0), (3, 12, 1), (4, 18, 1), (4, 13, 1), (1, 19, 1), (4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_12 : copyTab.drop 12 =
    [(1, 27, 0), (3, 37, 0), (3, 12, 1), (4, 18, 1), (4, 13, 1), (1, 19, 1), (4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_14 : copyTab.drop 14 =
    [(3, 12, 1), (4, 18, 1), (4, 13, 1), (1, 19, 1), (4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_18 : copyTab.drop 18 =
    [(4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_22 : copyTab.drop 22 =
    [(3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_24 : copyTab.drop 24 =
    [(1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_26 : copyTab.drop 26 =
    [(3, 12, 2), (4, 18, 2), (4, 13, 2), (1, 19, 2), (4, 25, 2), (1, 35, 2), (4, 29, 2), (1, 39, 2), (3, 26, 2), (4, 36, 2), (1, 27, 1), (3, 37, 1)] := rfl
theorem drop_eq_28 : copyTab.drop 28 =
    [(4, 13, 2), (1, 19, 2), (4, 25, 2), (1, 35, 2), (4, 29, 2), (1, 39, 2), (3, 26, 2), (4, 36, 2), (1, 27, 1), (3, 37, 1)] := rfl
theorem drop_eq_30 : copyTab.drop 30 =
    [(4, 25, 2), (1, 35, 2), (4, 29, 2), (1, 39, 2), (3, 26, 2), (4, 36, 2), (1, 27, 1), (3, 37, 1)] := rfl
theorem drop_eq_34 : copyTab.drop 34 =
    [(3, 26, 2), (4, 36, 2), (1, 27, 1), (3, 37, 1)] := rfl
theorem drop_eq_36 : copyTab.drop 36 =
    [(1, 27, 1), (3, 37, 1)] := rfl
theorem drop_eq_38 : copyTab.drop 38 =
    [] := rfl

/-! ## The copies of each segment, and the rest as the next quiet point has it -/

theorem drop_seg_0 : copyTab.drop 0 = (1, 11, 0) :: (3, 17, 0) :: (3, 12, 0) :: (4, 18, 0) :: copyTab.drop 4 := rfl
theorem drop_seg_4 : copyTab.drop 4 = (4, 13, 0) :: (1, 19, 0) :: copyTab.drop 6 := rfl
theorem drop_seg_6 : copyTab.drop 6 = (4, 25, 0) :: (1, 35, 0) :: (4, 29, 0) :: (1, 39, 0) :: copyTab.drop 10 := rfl
theorem drop_seg_10 : copyTab.drop 10 = (3, 26, 0) :: (4, 36, 0) :: copyTab.drop 12 := rfl
theorem drop_seg_12 : copyTab.drop 12 = (1, 27, 0) :: (3, 37, 0) :: copyTab.drop 14 := rfl
theorem drop_seg_14 : copyTab.drop 14 = (3, 12, 1) :: (4, 18, 1) :: (4, 13, 1) :: (1, 19, 1) :: copyTab.drop 18 := rfl
theorem drop_seg_18 : copyTab.drop 18 = (4, 25, 1) :: (1, 35, 1) :: (4, 29, 1) :: (1, 39, 1) :: copyTab.drop 22 := rfl
theorem drop_seg_22 : copyTab.drop 22 = (3, 26, 1) :: (4, 36, 1) :: copyTab.drop 24 := rfl
theorem drop_seg_24 : copyTab.drop 24 = (1, 28, 0) :: (3, 38, 0) :: copyTab.drop 26 := rfl
theorem drop_seg_26 : copyTab.drop 26 = (3, 12, 2) :: (4, 18, 2) :: copyTab.drop 28 := rfl
theorem drop_seg_28 : copyTab.drop 28 = (4, 13, 2) :: (1, 19, 2) :: copyTab.drop 30 := rfl
theorem drop_seg_30 : copyTab.drop 30 = (4, 25, 2) :: (1, 35, 2) :: (4, 29, 2) :: (1, 39, 2) :: copyTab.drop 34 := rfl
theorem drop_seg_34 : copyTab.drop 34 = (3, 26, 2) :: (4, 36, 2) :: copyTab.drop 36 := rfl
theorem drop_seg_36 : copyTab.drop 36 = (1, 27, 1) :: (3, 37, 1) :: copyTab.drop 38 := rfl

/-! ## What the copies of each segment pay with: the duty of the own send cell and of the partner's receive cell -/

theorem toks_seg_0 (c : Dev nD) : toksCopies (F := F) c 0 (copyTab.drop 0) =
    iprop((dutyTok ER (dcell c (dsem 8)) 0 (0 : DD) ∗ dutyTok ER (dcell (xr 1 c) (dsem 11)) 0 (0 : DD))
      ∗ (dutyTok ER (dcell c (dsem 14)) 0 (0 : DD) ∗ dutyTok ER (dcell (xr 3 c) (dsem 17)) 0 (0 : DD))
      ∗ (dutyTok ER (dcell c (dsem 9)) 0 (0 : DD) ∗ dutyTok ER (dcell (xr 3 c) (dsem 12)) 0 (0 : DD))
      ∗ (dutyTok ER (dcell c (dsem 15)) 0 (0 : DD) ∗ dutyTok ER (dcell (xr 4 c) (dsem 18)) 0 (0 : DD))
      ∗ toksCopies c 4 (copyTab.drop 4)) := rfl
theorem toks_seg_4 (c : Dev nD) : toksCopies (F := F) c 4 (copyTab.drop 4) =
    iprop((dutyTok ER (dcell c (dsem 10)) 0 (0 : DD) ∗ dutyTok ER (dcell (xr 4 c) (dsem 13)) 0 (0 : DD))
      ∗ (dutyTok ER (dcell c (dsem 16)) 0 (0 : DD) ∗ dutyTok ER (dcell (xr 1 c) (dsem 19)) 0 (0 : DD))
      ∗ toksCopies c 6 (copyTab.drop 6)) := rfl
theorem toks_seg_6 (c : Dev nD) : toksCopies (F := F) c 6 (copyTab.drop 6) =
    iprop((dutyTok ER (dcell c (dsem 20)) 0 (0 : DD) ∗ dutyTok ER (dcell (xr 4 c) (dsem 25)) 0 (0 : DD))
      ∗ (dutyTok ER (dcell c (dsem 30)) 0 (0 : DD) ∗ dutyTok ER (dcell (xr 1 c) (dsem 35)) 0 (0 : DD))
      ∗ (dutyTok ER (dcell c (dsem 24)) 0 (0 : DD) ∗ dutyTok ER (dcell (xr 4 c) (dsem 29)) 0 (0 : DD))
      ∗ (dutyTok ER (dcell c (dsem 34)) 0 (0 : DD) ∗ dutyTok ER (dcell (xr 1 c) (dsem 39)) 0 (0 : DD))
      ∗ toksCopies c 10 (copyTab.drop 10)) := rfl
theorem toks_seg_10 (c : Dev nD) : toksCopies (F := F) c 10 (copyTab.drop 10) =
    iprop((dutyTok ER (dcell c (dsem 21)) 0 (0 : DD) ∗ dutyTok ER (dcell (xr 3 c) (dsem 26)) 0 (0 : DD))
      ∗ (dutyTok ER (dcell c (dsem 31)) 0 (0 : DD) ∗ dutyTok ER (dcell (xr 4 c) (dsem 36)) 0 (0 : DD))
      ∗ toksCopies c 12 (copyTab.drop 12)) := rfl
theorem toks_seg_12 (c : Dev nD) : toksCopies (F := F) c 12 (copyTab.drop 12) =
    iprop((dutyTok ER (dcell c (dsem 22)) 0 (0 : DD) ∗ dutyTok ER (dcell (xr 1 c) (dsem 27)) 0 (0 : DD))
      ∗ (dutyTok ER (dcell c (dsem 32)) 0 (0 : DD) ∗ dutyTok ER (dcell (xr 3 c) (dsem 37)) 0 (0 : DD))
      ∗ toksCopies c 14 (copyTab.drop 14)) := rfl
theorem toks_seg_14 (c : Dev nD) : toksCopies (F := F) c 14 (copyTab.drop 14) =
    iprop((dutyTok ER (dcell c (dsem 9)) 1 (0 : DD) ∗ dutyTok ER (dcell (xr 3 c) (dsem 12)) 1 (0 : DD))
      ∗ (dutyTok ER (dcell c (dsem 15)) 1 (0 : DD) ∗ dutyTok ER (dcell (xr 4 c) (dsem 18)) 1 (0 : DD))
      ∗ (dutyTok ER (dcell c (dsem 10)) 1 (0 : DD) ∗ dutyTok ER (dcell (xr 4 c) (dsem 13)) 1 (0 : DD))
      ∗ (dutyTok ER (dcell c (dsem 16)) 1 (0 : DD) ∗ dutyTok ER (dcell (xr 1 c) (dsem 19)) 1 (0 : DD))
      ∗ toksCopies c 18 (copyTab.drop 18)) := rfl
theorem toks_seg_18 (c : Dev nD) : toksCopies (F := F) c 18 (copyTab.drop 18) =
    iprop((dutyTok ER (dcell c (dsem 20)) 1 (0 : DD) ∗ dutyTok ER (dcell (xr 4 c) (dsem 25)) 1 (0 : DD))
      ∗ (dutyTok ER (dcell c (dsem 30)) 1 (0 : DD) ∗ dutyTok ER (dcell (xr 1 c) (dsem 35)) 1 (0 : DD))
      ∗ (dutyTok ER (dcell c (dsem 24)) 1 (0 : DD) ∗ dutyTok ER (dcell (xr 4 c) (dsem 29)) 1 (0 : DD))
      ∗ (dutyTok ER (dcell c (dsem 34)) 1 (0 : DD) ∗ dutyTok ER (dcell (xr 1 c) (dsem 39)) 1 (0 : DD))
      ∗ toksCopies c 22 (copyTab.drop 22)) := rfl
theorem toks_seg_22 (c : Dev nD) : toksCopies (F := F) c 22 (copyTab.drop 22) =
    iprop((dutyTok ER (dcell c (dsem 21)) 1 (0 : DD) ∗ dutyTok ER (dcell (xr 3 c) (dsem 26)) 1 (0 : DD))
      ∗ (dutyTok ER (dcell c (dsem 31)) 1 (0 : DD) ∗ dutyTok ER (dcell (xr 4 c) (dsem 36)) 1 (0 : DD))
      ∗ toksCopies c 24 (copyTab.drop 24)) := rfl
theorem toks_seg_24 (c : Dev nD) : toksCopies (F := F) c 24 (copyTab.drop 24) =
    iprop((dutyTok ER (dcell c (dsem 23)) 0 (0 : DD) ∗ dutyTok ER (dcell (xr 1 c) (dsem 28)) 0 (0 : DD))
      ∗ (dutyTok ER (dcell c (dsem 33)) 0 (0 : DD) ∗ dutyTok ER (dcell (xr 3 c) (dsem 38)) 0 (0 : DD))
      ∗ toksCopies c 26 (copyTab.drop 26)) := rfl
theorem toks_seg_26 (c : Dev nD) : toksCopies (F := F) c 26 (copyTab.drop 26) =
    iprop((dutyTok ER (dcell c (dsem 9)) 2 (0 : DD) ∗ dutyTok ER (dcell (xr 3 c) (dsem 12)) 2 (0 : DD))
      ∗ (dutyTok ER (dcell c (dsem 15)) 2 (0 : DD) ∗ dutyTok ER (dcell (xr 4 c) (dsem 18)) 2 (0 : DD))
      ∗ toksCopies c 28 (copyTab.drop 28)) := rfl
theorem toks_seg_28 (c : Dev nD) : toksCopies (F := F) c 28 (copyTab.drop 28) =
    iprop((dutyTok ER (dcell c (dsem 10)) 2 (0 : DD) ∗ dutyTok ER (dcell (xr 4 c) (dsem 13)) 2 (0 : DD))
      ∗ (dutyTok ER (dcell c (dsem 16)) 2 (0 : DD) ∗ dutyTok ER (dcell (xr 1 c) (dsem 19)) 2 (0 : DD))
      ∗ toksCopies c 30 (copyTab.drop 30)) := rfl
theorem toks_seg_30 (c : Dev nD) : toksCopies (F := F) c 30 (copyTab.drop 30) =
    iprop((dutyTok ER (dcell c (dsem 20)) 2 (0 : DD) ∗ dutyTok ER (dcell (xr 4 c) (dsem 25)) 2 (0 : DD))
      ∗ (dutyTok ER (dcell c (dsem 30)) 2 (0 : DD) ∗ dutyTok ER (dcell (xr 1 c) (dsem 35)) 2 (0 : DD))
      ∗ (dutyTok ER (dcell c (dsem 24)) 2 (0 : DD) ∗ dutyTok ER (dcell (xr 4 c) (dsem 29)) 2 (0 : DD))
      ∗ (dutyTok ER (dcell c (dsem 34)) 2 (0 : DD) ∗ dutyTok ER (dcell (xr 1 c) (dsem 39)) 2 (0 : DD))
      ∗ toksCopies c 34 (copyTab.drop 34)) := rfl
theorem toks_seg_34 (c : Dev nD) : toksCopies (F := F) c 34 (copyTab.drop 34) =
    iprop((dutyTok ER (dcell c (dsem 21)) 2 (0 : DD) ∗ dutyTok ER (dcell (xr 3 c) (dsem 26)) 2 (0 : DD))
      ∗ (dutyTok ER (dcell c (dsem 31)) 2 (0 : DD) ∗ dutyTok ER (dcell (xr 4 c) (dsem 36)) 2 (0 : DD))
      ∗ toksCopies c 36 (copyTab.drop 36)) := rfl
theorem toks_seg_36 (c : Dev nD) : toksCopies (F := F) c 36 (copyTab.drop 36) =
    iprop((dutyTok ER (dcell c (dsem 22)) 1 (0 : DD) ∗ dutyTok ER (dcell (xr 1 c) (dsem 27)) 1 (0 : DD))
      ∗ (dutyTok ER (dcell c (dsem 32)) 1 (0 : DD) ∗ dutyTok ER (dcell (xr 3 c) (dsem 37)) 1 (0 : DD))
      ∗ toksCopies c 38 (copyTab.drop 38)) := rfl
theorem toks_end (c : Dev nD) : toksCopies (F := F) c 38 (copyTab.drop 38) = iprop(emp) := rfl

/-! ## What the partner's copies of each segment land on the own receive cells -/

theorem creds_seg_0 (c : Dev nD) : credsCopies (F := F) c 0 (copyTab.drop 0) =
    iprop(cred (tallyAt (dcell c (dsem 11)) 1 (amtDma 11 0))
      ∗ cred (tallyAt (dcell c (dsem 17)) 2 (amtDma 17 0))
      ∗ cred (tallyAt (dcell c (dsem 12)) 3 (amtDma 12 0))
      ∗ cred (tallyAt (dcell c (dsem 18)) 4 (amtDma 18 0))
      ∗ credsCopies c 4 (copyTab.drop 4)) := rfl
theorem creds_seg_4 (c : Dev nD) : credsCopies (F := F) c 4 (copyTab.drop 4) =
    iprop(cred (tallyAt (dcell c (dsem 13)) 5 (amtDma 13 0))
      ∗ cred (tallyAt (dcell c (dsem 19)) 6 (amtDma 19 0))
      ∗ credsCopies c 6 (copyTab.drop 6)) := rfl
theorem creds_seg_6 (c : Dev nD) : credsCopies (F := F) c 6 (copyTab.drop 6) =
    iprop(cred (tallyAt (dcell c (dsem 25)) 7 (amtDma 25 0))
      ∗ cred (tallyAt (dcell c (dsem 35)) 8 (amtDma 35 0))
      ∗ cred (tallyAt (dcell c (dsem 29)) 9 (amtDma 29 0))
      ∗ cred (tallyAt (dcell c (dsem 39)) 10 (amtDma 39 0))
      ∗ credsCopies c 10 (copyTab.drop 10)) := rfl
theorem creds_seg_10 (c : Dev nD) : credsCopies (F := F) c 10 (copyTab.drop 10) =
    iprop(cred (tallyAt (dcell c (dsem 26)) 11 (amtDma 26 0))
      ∗ cred (tallyAt (dcell c (dsem 36)) 12 (amtDma 36 0))
      ∗ credsCopies c 12 (copyTab.drop 12)) := rfl
theorem creds_seg_12 (c : Dev nD) : credsCopies (F := F) c 12 (copyTab.drop 12) =
    iprop(cred (tallyAt (dcell c (dsem 27)) 13 (amtDma 27 0))
      ∗ cred (tallyAt (dcell c (dsem 37)) 14 (amtDma 37 0))
      ∗ credsCopies c 14 (copyTab.drop 14)) := rfl
theorem creds_seg_14 (c : Dev nD) : credsCopies (F := F) c 14 (copyTab.drop 14) =
    iprop(cred (tallyAt (dcell c (dsem 12)) 15 (amtDma 12 1))
      ∗ cred (tallyAt (dcell c (dsem 18)) 16 (amtDma 18 1))
      ∗ cred (tallyAt (dcell c (dsem 13)) 17 (amtDma 13 1))
      ∗ cred (tallyAt (dcell c (dsem 19)) 18 (amtDma 19 1))
      ∗ credsCopies c 18 (copyTab.drop 18)) := rfl
theorem creds_seg_18 (c : Dev nD) : credsCopies (F := F) c 18 (copyTab.drop 18) =
    iprop(cred (tallyAt (dcell c (dsem 25)) 19 (amtDma 25 1))
      ∗ cred (tallyAt (dcell c (dsem 35)) 20 (amtDma 35 1))
      ∗ cred (tallyAt (dcell c (dsem 29)) 21 (amtDma 29 1))
      ∗ cred (tallyAt (dcell c (dsem 39)) 22 (amtDma 39 1))
      ∗ credsCopies c 22 (copyTab.drop 22)) := rfl
theorem creds_seg_22 (c : Dev nD) : credsCopies (F := F) c 22 (copyTab.drop 22) =
    iprop(cred (tallyAt (dcell c (dsem 26)) 23 (amtDma 26 1))
      ∗ cred (tallyAt (dcell c (dsem 36)) 24 (amtDma 36 1))
      ∗ credsCopies c 24 (copyTab.drop 24)) := rfl
theorem creds_seg_24 (c : Dev nD) : credsCopies (F := F) c 24 (copyTab.drop 24) =
    iprop(cred (tallyAt (dcell c (dsem 28)) 25 (amtDma 28 0))
      ∗ cred (tallyAt (dcell c (dsem 38)) 26 (amtDma 38 0))
      ∗ credsCopies c 26 (copyTab.drop 26)) := rfl
theorem creds_seg_26 (c : Dev nD) : credsCopies (F := F) c 26 (copyTab.drop 26) =
    iprop(cred (tallyAt (dcell c (dsem 12)) 27 (amtDma 12 2))
      ∗ cred (tallyAt (dcell c (dsem 18)) 28 (amtDma 18 2))
      ∗ credsCopies c 28 (copyTab.drop 28)) := rfl
theorem creds_seg_28 (c : Dev nD) : credsCopies (F := F) c 28 (copyTab.drop 28) =
    iprop(cred (tallyAt (dcell c (dsem 13)) 29 (amtDma 13 2))
      ∗ cred (tallyAt (dcell c (dsem 19)) 30 (amtDma 19 2))
      ∗ credsCopies c 30 (copyTab.drop 30)) := rfl
theorem creds_seg_30 (c : Dev nD) : credsCopies (F := F) c 30 (copyTab.drop 30) =
    iprop(cred (tallyAt (dcell c (dsem 25)) 31 (amtDma 25 2))
      ∗ cred (tallyAt (dcell c (dsem 35)) 32 (amtDma 35 2))
      ∗ cred (tallyAt (dcell c (dsem 29)) 33 (amtDma 29 2))
      ∗ cred (tallyAt (dcell c (dsem 39)) 34 (amtDma 39 2))
      ∗ credsCopies c 34 (copyTab.drop 34)) := rfl
theorem creds_seg_34 (c : Dev nD) : credsCopies (F := F) c 34 (copyTab.drop 34) =
    iprop(cred (tallyAt (dcell c (dsem 26)) 35 (amtDma 26 2))
      ∗ cred (tallyAt (dcell c (dsem 36)) 36 (amtDma 36 2))
      ∗ credsCopies c 36 (copyTab.drop 36)) := rfl
theorem creds_seg_36 (c : Dev nD) : credsCopies (F := F) c 36 (copyTab.drop 36) =
    iprop(cred (tallyAt (dcell c (dsem 27)) 37 (amtDma 27 1))
      ∗ cred (tallyAt (dcell c (dsem 37)) 38 (amtDma 37 1))
      ∗ credsCopies c 38 (copyTab.drop 38)) := rfl
theorem creds_end (c : Dev nD) : credsCopies (F := F) c 38 (copyTab.drop 38) = iprop(emp) := rfl

/-! ## How many rounds of each cell are over at each quiet point -/

theorem roundsDone_0 :
    roundsDone 0 8 = 0 ∧ roundsDone 0 9 = 0 ∧ roundsDone 0 10 = 0 ∧ roundsDone 0 11 = 0 ∧ roundsDone 0 12 = 0 ∧ roundsDone 0 13 = 0 ∧ roundsDone 0 14 = 0 ∧ roundsDone 0 15 = 0 ∧ roundsDone 0 16 = 0 ∧ roundsDone 0 17 = 0 ∧ roundsDone 0 18 = 0 ∧ roundsDone 0 19 = 0 ∧ roundsDone 0 20 = 0 ∧ roundsDone 0 21 = 0 ∧ roundsDone 0 22 = 0 ∧ roundsDone 0 23 = 0 ∧ roundsDone 0 24 = 0 ∧ roundsDone 0 25 = 0 ∧ roundsDone 0 26 = 0 ∧ roundsDone 0 27 = 0 ∧ roundsDone 0 28 = 0 ∧ roundsDone 0 29 = 0 ∧ roundsDone 0 30 = 0 ∧ roundsDone 0 31 = 0 ∧ roundsDone 0 32 = 0 ∧ roundsDone 0 33 = 0 ∧ roundsDone 0 34 = 0 ∧ roundsDone 0 35 = 0 ∧ roundsDone 0 36 = 0 ∧ roundsDone 0 37 = 0 ∧ roundsDone 0 38 = 0 ∧ roundsDone 0 39 = 0 := by decide
theorem roundsDone_4 :
    roundsDone 4 8 = 1 ∧ roundsDone 4 9 = 1 ∧ roundsDone 4 10 = 0 ∧ roundsDone 4 11 = 1 ∧ roundsDone 4 12 = 1 ∧ roundsDone 4 13 = 0 ∧ roundsDone 4 14 = 1 ∧ roundsDone 4 15 = 1 ∧ roundsDone 4 16 = 0 ∧ roundsDone 4 17 = 1 ∧ roundsDone 4 18 = 1 ∧ roundsDone 4 19 = 0 ∧ roundsDone 4 20 = 0 ∧ roundsDone 4 21 = 0 ∧ roundsDone 4 22 = 0 ∧ roundsDone 4 23 = 0 ∧ roundsDone 4 24 = 0 ∧ roundsDone 4 25 = 0 ∧ roundsDone 4 26 = 0 ∧ roundsDone 4 27 = 0 ∧ roundsDone 4 28 = 0 ∧ roundsDone 4 29 = 0 ∧ roundsDone 4 30 = 0 ∧ roundsDone 4 31 = 0 ∧ roundsDone 4 32 = 0 ∧ roundsDone 4 33 = 0 ∧ roundsDone 4 34 = 0 ∧ roundsDone 4 35 = 0 ∧ roundsDone 4 36 = 0 ∧ roundsDone 4 37 = 0 ∧ roundsDone 4 38 = 0 ∧ roundsDone 4 39 = 0 := by decide
theorem roundsDone_6 :
    roundsDone 6 8 = 1 ∧ roundsDone 6 9 = 1 ∧ roundsDone 6 10 = 1 ∧ roundsDone 6 11 = 1 ∧ roundsDone 6 12 = 1 ∧ roundsDone 6 13 = 1 ∧ roundsDone 6 14 = 1 ∧ roundsDone 6 15 = 1 ∧ roundsDone 6 16 = 1 ∧ roundsDone 6 17 = 1 ∧ roundsDone 6 18 = 1 ∧ roundsDone 6 19 = 1 ∧ roundsDone 6 20 = 0 ∧ roundsDone 6 21 = 0 ∧ roundsDone 6 22 = 0 ∧ roundsDone 6 23 = 0 ∧ roundsDone 6 24 = 0 ∧ roundsDone 6 25 = 0 ∧ roundsDone 6 26 = 0 ∧ roundsDone 6 27 = 0 ∧ roundsDone 6 28 = 0 ∧ roundsDone 6 29 = 0 ∧ roundsDone 6 30 = 0 ∧ roundsDone 6 31 = 0 ∧ roundsDone 6 32 = 0 ∧ roundsDone 6 33 = 0 ∧ roundsDone 6 34 = 0 ∧ roundsDone 6 35 = 0 ∧ roundsDone 6 36 = 0 ∧ roundsDone 6 37 = 0 ∧ roundsDone 6 38 = 0 ∧ roundsDone 6 39 = 0 := by decide
theorem roundsDone_10 :
    roundsDone 10 8 = 1 ∧ roundsDone 10 9 = 1 ∧ roundsDone 10 10 = 1 ∧ roundsDone 10 11 = 1 ∧ roundsDone 10 12 = 1 ∧ roundsDone 10 13 = 1 ∧ roundsDone 10 14 = 1 ∧ roundsDone 10 15 = 1 ∧ roundsDone 10 16 = 1 ∧ roundsDone 10 17 = 1 ∧ roundsDone 10 18 = 1 ∧ roundsDone 10 19 = 1 ∧ roundsDone 10 20 = 1 ∧ roundsDone 10 21 = 0 ∧ roundsDone 10 22 = 0 ∧ roundsDone 10 23 = 0 ∧ roundsDone 10 24 = 1 ∧ roundsDone 10 25 = 1 ∧ roundsDone 10 26 = 0 ∧ roundsDone 10 27 = 0 ∧ roundsDone 10 28 = 0 ∧ roundsDone 10 29 = 1 ∧ roundsDone 10 30 = 1 ∧ roundsDone 10 31 = 0 ∧ roundsDone 10 32 = 0 ∧ roundsDone 10 33 = 0 ∧ roundsDone 10 34 = 1 ∧ roundsDone 10 35 = 1 ∧ roundsDone 10 36 = 0 ∧ roundsDone 10 37 = 0 ∧ roundsDone 10 38 = 0 ∧ roundsDone 10 39 = 1 := by decide
theorem roundsDone_12 :
    roundsDone 12 8 = 1 ∧ roundsDone 12 9 = 1 ∧ roundsDone 12 10 = 1 ∧ roundsDone 12 11 = 1 ∧ roundsDone 12 12 = 1 ∧ roundsDone 12 13 = 1 ∧ roundsDone 12 14 = 1 ∧ roundsDone 12 15 = 1 ∧ roundsDone 12 16 = 1 ∧ roundsDone 12 17 = 1 ∧ roundsDone 12 18 = 1 ∧ roundsDone 12 19 = 1 ∧ roundsDone 12 20 = 1 ∧ roundsDone 12 21 = 1 ∧ roundsDone 12 22 = 0 ∧ roundsDone 12 23 = 0 ∧ roundsDone 12 24 = 1 ∧ roundsDone 12 25 = 1 ∧ roundsDone 12 26 = 1 ∧ roundsDone 12 27 = 0 ∧ roundsDone 12 28 = 0 ∧ roundsDone 12 29 = 1 ∧ roundsDone 12 30 = 1 ∧ roundsDone 12 31 = 1 ∧ roundsDone 12 32 = 0 ∧ roundsDone 12 33 = 0 ∧ roundsDone 12 34 = 1 ∧ roundsDone 12 35 = 1 ∧ roundsDone 12 36 = 1 ∧ roundsDone 12 37 = 0 ∧ roundsDone 12 38 = 0 ∧ roundsDone 12 39 = 1 := by decide
theorem roundsDone_14 :
    roundsDone 14 8 = 1 ∧ roundsDone 14 9 = 1 ∧ roundsDone 14 10 = 1 ∧ roundsDone 14 11 = 1 ∧ roundsDone 14 12 = 1 ∧ roundsDone 14 13 = 1 ∧ roundsDone 14 14 = 1 ∧ roundsDone 14 15 = 1 ∧ roundsDone 14 16 = 1 ∧ roundsDone 14 17 = 1 ∧ roundsDone 14 18 = 1 ∧ roundsDone 14 19 = 1 ∧ roundsDone 14 20 = 1 ∧ roundsDone 14 21 = 1 ∧ roundsDone 14 22 = 1 ∧ roundsDone 14 23 = 0 ∧ roundsDone 14 24 = 1 ∧ roundsDone 14 25 = 1 ∧ roundsDone 14 26 = 1 ∧ roundsDone 14 27 = 1 ∧ roundsDone 14 28 = 0 ∧ roundsDone 14 29 = 1 ∧ roundsDone 14 30 = 1 ∧ roundsDone 14 31 = 1 ∧ roundsDone 14 32 = 1 ∧ roundsDone 14 33 = 0 ∧ roundsDone 14 34 = 1 ∧ roundsDone 14 35 = 1 ∧ roundsDone 14 36 = 1 ∧ roundsDone 14 37 = 1 ∧ roundsDone 14 38 = 0 ∧ roundsDone 14 39 = 1 := by decide
theorem roundsDone_18 :
    roundsDone 18 8 = 1 ∧ roundsDone 18 9 = 2 ∧ roundsDone 18 10 = 2 ∧ roundsDone 18 11 = 1 ∧ roundsDone 18 12 = 2 ∧ roundsDone 18 13 = 2 ∧ roundsDone 18 14 = 1 ∧ roundsDone 18 15 = 2 ∧ roundsDone 18 16 = 2 ∧ roundsDone 18 17 = 1 ∧ roundsDone 18 18 = 2 ∧ roundsDone 18 19 = 2 ∧ roundsDone 18 20 = 1 ∧ roundsDone 18 21 = 1 ∧ roundsDone 18 22 = 1 ∧ roundsDone 18 23 = 0 ∧ roundsDone 18 24 = 1 ∧ roundsDone 18 25 = 1 ∧ roundsDone 18 26 = 1 ∧ roundsDone 18 27 = 1 ∧ roundsDone 18 28 = 0 ∧ roundsDone 18 29 = 1 ∧ roundsDone 18 30 = 1 ∧ roundsDone 18 31 = 1 ∧ roundsDone 18 32 = 1 ∧ roundsDone 18 33 = 0 ∧ roundsDone 18 34 = 1 ∧ roundsDone 18 35 = 1 ∧ roundsDone 18 36 = 1 ∧ roundsDone 18 37 = 1 ∧ roundsDone 18 38 = 0 ∧ roundsDone 18 39 = 1 := by decide
theorem roundsDone_22 :
    roundsDone 22 8 = 1 ∧ roundsDone 22 9 = 2 ∧ roundsDone 22 10 = 2 ∧ roundsDone 22 11 = 1 ∧ roundsDone 22 12 = 2 ∧ roundsDone 22 13 = 2 ∧ roundsDone 22 14 = 1 ∧ roundsDone 22 15 = 2 ∧ roundsDone 22 16 = 2 ∧ roundsDone 22 17 = 1 ∧ roundsDone 22 18 = 2 ∧ roundsDone 22 19 = 2 ∧ roundsDone 22 20 = 2 ∧ roundsDone 22 21 = 1 ∧ roundsDone 22 22 = 1 ∧ roundsDone 22 23 = 0 ∧ roundsDone 22 24 = 2 ∧ roundsDone 22 25 = 2 ∧ roundsDone 22 26 = 1 ∧ roundsDone 22 27 = 1 ∧ roundsDone 22 28 = 0 ∧ roundsDone 22 29 = 2 ∧ roundsDone 22 30 = 2 ∧ roundsDone 22 31 = 1 ∧ roundsDone 22 32 = 1 ∧ roundsDone 22 33 = 0 ∧ roundsDone 22 34 = 2 ∧ roundsDone 22 35 = 2 ∧ roundsDone 22 36 = 1 ∧ roundsDone 22 37 = 1 ∧ roundsDone 22 38 = 0 ∧ roundsDone 22 39 = 2 := by decide
theorem roundsDone_24 :
    roundsDone 24 8 = 1 ∧ roundsDone 24 9 = 2 ∧ roundsDone 24 10 = 2 ∧ roundsDone 24 11 = 1 ∧ roundsDone 24 12 = 2 ∧ roundsDone 24 13 = 2 ∧ roundsDone 24 14 = 1 ∧ roundsDone 24 15 = 2 ∧ roundsDone 24 16 = 2 ∧ roundsDone 24 17 = 1 ∧ roundsDone 24 18 = 2 ∧ roundsDone 24 19 = 2 ∧ roundsDone 24 20 = 2 ∧ roundsDone 24 21 = 2 ∧ roundsDone 24 22 = 1 ∧ roundsDone 24 23 = 0 ∧ roundsDone 24 24 = 2 ∧ roundsDone 24 25 = 2 ∧ roundsDone 24 26 = 2 ∧ roundsDone 24 27 = 1 ∧ roundsDone 24 28 = 0 ∧ roundsDone 24 29 = 2 ∧ roundsDone 24 30 = 2 ∧ roundsDone 24 31 = 2 ∧ roundsDone 24 32 = 1 ∧ roundsDone 24 33 = 0 ∧ roundsDone 24 34 = 2 ∧ roundsDone 24 35 = 2 ∧ roundsDone 24 36 = 2 ∧ roundsDone 24 37 = 1 ∧ roundsDone 24 38 = 0 ∧ roundsDone 24 39 = 2 := by decide
theorem roundsDone_26 :
    roundsDone 26 8 = 1 ∧ roundsDone 26 9 = 2 ∧ roundsDone 26 10 = 2 ∧ roundsDone 26 11 = 1 ∧ roundsDone 26 12 = 2 ∧ roundsDone 26 13 = 2 ∧ roundsDone 26 14 = 1 ∧ roundsDone 26 15 = 2 ∧ roundsDone 26 16 = 2 ∧ roundsDone 26 17 = 1 ∧ roundsDone 26 18 = 2 ∧ roundsDone 26 19 = 2 ∧ roundsDone 26 20 = 2 ∧ roundsDone 26 21 = 2 ∧ roundsDone 26 22 = 1 ∧ roundsDone 26 23 = 1 ∧ roundsDone 26 24 = 2 ∧ roundsDone 26 25 = 2 ∧ roundsDone 26 26 = 2 ∧ roundsDone 26 27 = 1 ∧ roundsDone 26 28 = 1 ∧ roundsDone 26 29 = 2 ∧ roundsDone 26 30 = 2 ∧ roundsDone 26 31 = 2 ∧ roundsDone 26 32 = 1 ∧ roundsDone 26 33 = 1 ∧ roundsDone 26 34 = 2 ∧ roundsDone 26 35 = 2 ∧ roundsDone 26 36 = 2 ∧ roundsDone 26 37 = 1 ∧ roundsDone 26 38 = 1 ∧ roundsDone 26 39 = 2 := by decide
theorem roundsDone_28 :
    roundsDone 28 8 = 1 ∧ roundsDone 28 9 = 3 ∧ roundsDone 28 10 = 2 ∧ roundsDone 28 11 = 1 ∧ roundsDone 28 12 = 3 ∧ roundsDone 28 13 = 2 ∧ roundsDone 28 14 = 1 ∧ roundsDone 28 15 = 3 ∧ roundsDone 28 16 = 2 ∧ roundsDone 28 17 = 1 ∧ roundsDone 28 18 = 3 ∧ roundsDone 28 19 = 2 ∧ roundsDone 28 20 = 2 ∧ roundsDone 28 21 = 2 ∧ roundsDone 28 22 = 1 ∧ roundsDone 28 23 = 1 ∧ roundsDone 28 24 = 2 ∧ roundsDone 28 25 = 2 ∧ roundsDone 28 26 = 2 ∧ roundsDone 28 27 = 1 ∧ roundsDone 28 28 = 1 ∧ roundsDone 28 29 = 2 ∧ roundsDone 28 30 = 2 ∧ roundsDone 28 31 = 2 ∧ roundsDone 28 32 = 1 ∧ roundsDone 28 33 = 1 ∧ roundsDone 28 34 = 2 ∧ roundsDone 28 35 = 2 ∧ roundsDone 28 36 = 2 ∧ roundsDone 28 37 = 1 ∧ roundsDone 28 38 = 1 ∧ roundsDone 28 39 = 2 := by decide
theorem roundsDone_30 :
    roundsDone 30 8 = 1 ∧ roundsDone 30 9 = 3 ∧ roundsDone 30 10 = 3 ∧ roundsDone 30 11 = 1 ∧ roundsDone 30 12 = 3 ∧ roundsDone 30 13 = 3 ∧ roundsDone 30 14 = 1 ∧ roundsDone 30 15 = 3 ∧ roundsDone 30 16 = 3 ∧ roundsDone 30 17 = 1 ∧ roundsDone 30 18 = 3 ∧ roundsDone 30 19 = 3 ∧ roundsDone 30 20 = 2 ∧ roundsDone 30 21 = 2 ∧ roundsDone 30 22 = 1 ∧ roundsDone 30 23 = 1 ∧ roundsDone 30 24 = 2 ∧ roundsDone 30 25 = 2 ∧ roundsDone 30 26 = 2 ∧ roundsDone 30 27 = 1 ∧ roundsDone 30 28 = 1 ∧ roundsDone 30 29 = 2 ∧ roundsDone 30 30 = 2 ∧ roundsDone 30 31 = 2 ∧ roundsDone 30 32 = 1 ∧ roundsDone 30 33 = 1 ∧ roundsDone 30 34 = 2 ∧ roundsDone 30 35 = 2 ∧ roundsDone 30 36 = 2 ∧ roundsDone 30 37 = 1 ∧ roundsDone 30 38 = 1 ∧ roundsDone 30 39 = 2 := by decide
theorem roundsDone_34 :
    roundsDone 34 8 = 1 ∧ roundsDone 34 9 = 3 ∧ roundsDone 34 10 = 3 ∧ roundsDone 34 11 = 1 ∧ roundsDone 34 12 = 3 ∧ roundsDone 34 13 = 3 ∧ roundsDone 34 14 = 1 ∧ roundsDone 34 15 = 3 ∧ roundsDone 34 16 = 3 ∧ roundsDone 34 17 = 1 ∧ roundsDone 34 18 = 3 ∧ roundsDone 34 19 = 3 ∧ roundsDone 34 20 = 3 ∧ roundsDone 34 21 = 2 ∧ roundsDone 34 22 = 1 ∧ roundsDone 34 23 = 1 ∧ roundsDone 34 24 = 3 ∧ roundsDone 34 25 = 3 ∧ roundsDone 34 26 = 2 ∧ roundsDone 34 27 = 1 ∧ roundsDone 34 28 = 1 ∧ roundsDone 34 29 = 3 ∧ roundsDone 34 30 = 3 ∧ roundsDone 34 31 = 2 ∧ roundsDone 34 32 = 1 ∧ roundsDone 34 33 = 1 ∧ roundsDone 34 34 = 3 ∧ roundsDone 34 35 = 3 ∧ roundsDone 34 36 = 2 ∧ roundsDone 34 37 = 1 ∧ roundsDone 34 38 = 1 ∧ roundsDone 34 39 = 3 := by decide
theorem roundsDone_36 :
    roundsDone 36 8 = 1 ∧ roundsDone 36 9 = 3 ∧ roundsDone 36 10 = 3 ∧ roundsDone 36 11 = 1 ∧ roundsDone 36 12 = 3 ∧ roundsDone 36 13 = 3 ∧ roundsDone 36 14 = 1 ∧ roundsDone 36 15 = 3 ∧ roundsDone 36 16 = 3 ∧ roundsDone 36 17 = 1 ∧ roundsDone 36 18 = 3 ∧ roundsDone 36 19 = 3 ∧ roundsDone 36 20 = 3 ∧ roundsDone 36 21 = 3 ∧ roundsDone 36 22 = 1 ∧ roundsDone 36 23 = 1 ∧ roundsDone 36 24 = 3 ∧ roundsDone 36 25 = 3 ∧ roundsDone 36 26 = 3 ∧ roundsDone 36 27 = 1 ∧ roundsDone 36 28 = 1 ∧ roundsDone 36 29 = 3 ∧ roundsDone 36 30 = 3 ∧ roundsDone 36 31 = 3 ∧ roundsDone 36 32 = 1 ∧ roundsDone 36 33 = 1 ∧ roundsDone 36 34 = 3 ∧ roundsDone 36 35 = 3 ∧ roundsDone 36 36 = 3 ∧ roundsDone 36 37 = 1 ∧ roundsDone 36 38 = 1 ∧ roundsDone 36 39 = 3 := by decide
theorem roundsDone_38 :
    roundsDone 38 8 = 1 ∧ roundsDone 38 9 = 3 ∧ roundsDone 38 10 = 3 ∧ roundsDone 38 11 = 1 ∧ roundsDone 38 12 = 3 ∧ roundsDone 38 13 = 3 ∧ roundsDone 38 14 = 1 ∧ roundsDone 38 15 = 3 ∧ roundsDone 38 16 = 3 ∧ roundsDone 38 17 = 1 ∧ roundsDone 38 18 = 3 ∧ roundsDone 38 19 = 3 ∧ roundsDone 38 20 = 3 ∧ roundsDone 38 21 = 3 ∧ roundsDone 38 22 = 2 ∧ roundsDone 38 23 = 1 ∧ roundsDone 38 24 = 3 ∧ roundsDone 38 25 = 3 ∧ roundsDone 38 26 = 3 ∧ roundsDone 38 27 = 2 ∧ roundsDone 38 28 = 1 ∧ roundsDone 38 29 = 3 ∧ roundsDone 38 30 = 3 ∧ roundsDone 38 31 = 3 ∧ roundsDone 38 32 = 2 ∧ roundsDone 38 33 = 1 ∧ roundsDone 38 34 = 3 ∧ roundsDone 38 35 = 3 ∧ roundsDone 38 36 = 3 ∧ roundsDone 38 37 = 2 ∧ roundsDone 38 38 = 1 ∧ roundsDone 38 39 = 3 := by decide

/-! ## The positions at each quiet point, at numerals -/

theorem posAt_0 (c : Dev nD) : posAt (F := F) c (roundsDone 0) =
    iprop(atPos ER (dcell c (dsem 8)) 0 ∅ 0 ∗ reached ER (dcell c (dsem 8)) 0
      ∗ atPos ER (dcell c (dsem 9)) 0 ∅ 0 ∗ reached ER (dcell c (dsem 9)) 0
      ∗ atPos ER (dcell c (dsem 10)) 0 ∅ 0 ∗ reached ER (dcell c (dsem 10)) 0
      ∗ atPos ER (dcell c (dsem 11)) 0 ∅ 0 ∗ reached ER (dcell c (dsem 11)) 0
      ∗ atPos ER (dcell c (dsem 12)) 0 ∅ 0 ∗ reached ER (dcell c (dsem 12)) 0
      ∗ atPos ER (dcell c (dsem 13)) 0 ∅ 0 ∗ reached ER (dcell c (dsem 13)) 0
      ∗ atPos ER (dcell c (dsem 14)) 0 ∅ 0 ∗ reached ER (dcell c (dsem 14)) 0
      ∗ atPos ER (dcell c (dsem 15)) 0 ∅ 0 ∗ reached ER (dcell c (dsem 15)) 0
      ∗ atPos ER (dcell c (dsem 16)) 0 ∅ 0 ∗ reached ER (dcell c (dsem 16)) 0
      ∗ atPos ER (dcell c (dsem 17)) 0 ∅ 0 ∗ reached ER (dcell c (dsem 17)) 0
      ∗ atPos ER (dcell c (dsem 18)) 0 ∅ 0 ∗ reached ER (dcell c (dsem 18)) 0
      ∗ atPos ER (dcell c (dsem 19)) 0 ∅ 0 ∗ reached ER (dcell c (dsem 19)) 0
      ∗ atPos ER (dcell c (dsem 20)) 0 ∅ 0 ∗ reached ER (dcell c (dsem 20)) 0
      ∗ atPos ER (dcell c (dsem 21)) 0 ∅ 0 ∗ reached ER (dcell c (dsem 21)) 0
      ∗ atPos ER (dcell c (dsem 22)) 0 ∅ 0 ∗ reached ER (dcell c (dsem 22)) 0
      ∗ atPos ER (dcell c (dsem 23)) 0 ∅ 0 ∗ reached ER (dcell c (dsem 23)) 0
      ∗ atPos ER (dcell c (dsem 24)) 0 ∅ 0 ∗ reached ER (dcell c (dsem 24)) 0
      ∗ atPos ER (dcell c (dsem 25)) 0 ∅ 0 ∗ reached ER (dcell c (dsem 25)) 0
      ∗ atPos ER (dcell c (dsem 26)) 0 ∅ 0 ∗ reached ER (dcell c (dsem 26)) 0
      ∗ atPos ER (dcell c (dsem 27)) 0 ∅ 0 ∗ reached ER (dcell c (dsem 27)) 0
      ∗ atPos ER (dcell c (dsem 28)) 0 ∅ 0 ∗ reached ER (dcell c (dsem 28)) 0
      ∗ atPos ER (dcell c (dsem 29)) 0 ∅ 0 ∗ reached ER (dcell c (dsem 29)) 0
      ∗ atPos ER (dcell c (dsem 30)) 0 ∅ 0 ∗ reached ER (dcell c (dsem 30)) 0
      ∗ atPos ER (dcell c (dsem 31)) 0 ∅ 0 ∗ reached ER (dcell c (dsem 31)) 0
      ∗ atPos ER (dcell c (dsem 32)) 0 ∅ 0 ∗ reached ER (dcell c (dsem 32)) 0
      ∗ atPos ER (dcell c (dsem 33)) 0 ∅ 0 ∗ reached ER (dcell c (dsem 33)) 0
      ∗ atPos ER (dcell c (dsem 34)) 0 ∅ 0 ∗ reached ER (dcell c (dsem 34)) 0
      ∗ atPos ER (dcell c (dsem 35)) 0 ∅ 0 ∗ reached ER (dcell c (dsem 35)) 0
      ∗ atPos ER (dcell c (dsem 36)) 0 ∅ 0 ∗ reached ER (dcell c (dsem 36)) 0
      ∗ atPos ER (dcell c (dsem 37)) 0 ∅ 0 ∗ reached ER (dcell c (dsem 37)) 0
      ∗ atPos ER (dcell c (dsem 38)) 0 ∅ 0 ∗ reached ER (dcell c (dsem 38)) 0
      ∗ atPos ER (dcell c (dsem 39)) 0 ∅ 0 ∗ reached ER (dcell c (dsem 39)) 0) := rfl
theorem posAt_4 (c : Dev nD) : posAt (F := F) c (roundsDone 4) =
    iprop(atPos ER (dcell c (dsem 8)) 1 ∅ 0 ∗ reached ER (dcell c (dsem 8)) 1
      ∗ atPos ER (dcell c (dsem 9)) 1 ∅ 0 ∗ reached ER (dcell c (dsem 9)) 1
      ∗ atPos ER (dcell c (dsem 10)) 0 ∅ 0 ∗ reached ER (dcell c (dsem 10)) 0
      ∗ atPos ER (dcell c (dsem 11)) 1 ∅ 0 ∗ reached ER (dcell c (dsem 11)) 1
      ∗ atPos ER (dcell c (dsem 12)) 1 ∅ 0 ∗ reached ER (dcell c (dsem 12)) 1
      ∗ atPos ER (dcell c (dsem 13)) 0 ∅ 0 ∗ reached ER (dcell c (dsem 13)) 0
      ∗ atPos ER (dcell c (dsem 14)) 1 ∅ 0 ∗ reached ER (dcell c (dsem 14)) 1
      ∗ atPos ER (dcell c (dsem 15)) 1 ∅ 0 ∗ reached ER (dcell c (dsem 15)) 1
      ∗ atPos ER (dcell c (dsem 16)) 0 ∅ 0 ∗ reached ER (dcell c (dsem 16)) 0
      ∗ atPos ER (dcell c (dsem 17)) 1 ∅ 0 ∗ reached ER (dcell c (dsem 17)) 1
      ∗ atPos ER (dcell c (dsem 18)) 1 ∅ 0 ∗ reached ER (dcell c (dsem 18)) 1
      ∗ atPos ER (dcell c (dsem 19)) 0 ∅ 0 ∗ reached ER (dcell c (dsem 19)) 0
      ∗ atPos ER (dcell c (dsem 20)) 0 ∅ 0 ∗ reached ER (dcell c (dsem 20)) 0
      ∗ atPos ER (dcell c (dsem 21)) 0 ∅ 0 ∗ reached ER (dcell c (dsem 21)) 0
      ∗ atPos ER (dcell c (dsem 22)) 0 ∅ 0 ∗ reached ER (dcell c (dsem 22)) 0
      ∗ atPos ER (dcell c (dsem 23)) 0 ∅ 0 ∗ reached ER (dcell c (dsem 23)) 0
      ∗ atPos ER (dcell c (dsem 24)) 0 ∅ 0 ∗ reached ER (dcell c (dsem 24)) 0
      ∗ atPos ER (dcell c (dsem 25)) 0 ∅ 0 ∗ reached ER (dcell c (dsem 25)) 0
      ∗ atPos ER (dcell c (dsem 26)) 0 ∅ 0 ∗ reached ER (dcell c (dsem 26)) 0
      ∗ atPos ER (dcell c (dsem 27)) 0 ∅ 0 ∗ reached ER (dcell c (dsem 27)) 0
      ∗ atPos ER (dcell c (dsem 28)) 0 ∅ 0 ∗ reached ER (dcell c (dsem 28)) 0
      ∗ atPos ER (dcell c (dsem 29)) 0 ∅ 0 ∗ reached ER (dcell c (dsem 29)) 0
      ∗ atPos ER (dcell c (dsem 30)) 0 ∅ 0 ∗ reached ER (dcell c (dsem 30)) 0
      ∗ atPos ER (dcell c (dsem 31)) 0 ∅ 0 ∗ reached ER (dcell c (dsem 31)) 0
      ∗ atPos ER (dcell c (dsem 32)) 0 ∅ 0 ∗ reached ER (dcell c (dsem 32)) 0
      ∗ atPos ER (dcell c (dsem 33)) 0 ∅ 0 ∗ reached ER (dcell c (dsem 33)) 0
      ∗ atPos ER (dcell c (dsem 34)) 0 ∅ 0 ∗ reached ER (dcell c (dsem 34)) 0
      ∗ atPos ER (dcell c (dsem 35)) 0 ∅ 0 ∗ reached ER (dcell c (dsem 35)) 0
      ∗ atPos ER (dcell c (dsem 36)) 0 ∅ 0 ∗ reached ER (dcell c (dsem 36)) 0
      ∗ atPos ER (dcell c (dsem 37)) 0 ∅ 0 ∗ reached ER (dcell c (dsem 37)) 0
      ∗ atPos ER (dcell c (dsem 38)) 0 ∅ 0 ∗ reached ER (dcell c (dsem 38)) 0
      ∗ atPos ER (dcell c (dsem 39)) 0 ∅ 0 ∗ reached ER (dcell c (dsem 39)) 0) := rfl
theorem posAt_6 (c : Dev nD) : posAt (F := F) c (roundsDone 6) =
    iprop(atPos ER (dcell c (dsem 8)) 1 ∅ 0 ∗ reached ER (dcell c (dsem 8)) 1
      ∗ atPos ER (dcell c (dsem 9)) 1 ∅ 0 ∗ reached ER (dcell c (dsem 9)) 1
      ∗ atPos ER (dcell c (dsem 10)) 1 ∅ 0 ∗ reached ER (dcell c (dsem 10)) 1
      ∗ atPos ER (dcell c (dsem 11)) 1 ∅ 0 ∗ reached ER (dcell c (dsem 11)) 1
      ∗ atPos ER (dcell c (dsem 12)) 1 ∅ 0 ∗ reached ER (dcell c (dsem 12)) 1
      ∗ atPos ER (dcell c (dsem 13)) 1 ∅ 0 ∗ reached ER (dcell c (dsem 13)) 1
      ∗ atPos ER (dcell c (dsem 14)) 1 ∅ 0 ∗ reached ER (dcell c (dsem 14)) 1
      ∗ atPos ER (dcell c (dsem 15)) 1 ∅ 0 ∗ reached ER (dcell c (dsem 15)) 1
      ∗ atPos ER (dcell c (dsem 16)) 1 ∅ 0 ∗ reached ER (dcell c (dsem 16)) 1
      ∗ atPos ER (dcell c (dsem 17)) 1 ∅ 0 ∗ reached ER (dcell c (dsem 17)) 1
      ∗ atPos ER (dcell c (dsem 18)) 1 ∅ 0 ∗ reached ER (dcell c (dsem 18)) 1
      ∗ atPos ER (dcell c (dsem 19)) 1 ∅ 0 ∗ reached ER (dcell c (dsem 19)) 1
      ∗ atPos ER (dcell c (dsem 20)) 0 ∅ 0 ∗ reached ER (dcell c (dsem 20)) 0
      ∗ atPos ER (dcell c (dsem 21)) 0 ∅ 0 ∗ reached ER (dcell c (dsem 21)) 0
      ∗ atPos ER (dcell c (dsem 22)) 0 ∅ 0 ∗ reached ER (dcell c (dsem 22)) 0
      ∗ atPos ER (dcell c (dsem 23)) 0 ∅ 0 ∗ reached ER (dcell c (dsem 23)) 0
      ∗ atPos ER (dcell c (dsem 24)) 0 ∅ 0 ∗ reached ER (dcell c (dsem 24)) 0
      ∗ atPos ER (dcell c (dsem 25)) 0 ∅ 0 ∗ reached ER (dcell c (dsem 25)) 0
      ∗ atPos ER (dcell c (dsem 26)) 0 ∅ 0 ∗ reached ER (dcell c (dsem 26)) 0
      ∗ atPos ER (dcell c (dsem 27)) 0 ∅ 0 ∗ reached ER (dcell c (dsem 27)) 0
      ∗ atPos ER (dcell c (dsem 28)) 0 ∅ 0 ∗ reached ER (dcell c (dsem 28)) 0
      ∗ atPos ER (dcell c (dsem 29)) 0 ∅ 0 ∗ reached ER (dcell c (dsem 29)) 0
      ∗ atPos ER (dcell c (dsem 30)) 0 ∅ 0 ∗ reached ER (dcell c (dsem 30)) 0
      ∗ atPos ER (dcell c (dsem 31)) 0 ∅ 0 ∗ reached ER (dcell c (dsem 31)) 0
      ∗ atPos ER (dcell c (dsem 32)) 0 ∅ 0 ∗ reached ER (dcell c (dsem 32)) 0
      ∗ atPos ER (dcell c (dsem 33)) 0 ∅ 0 ∗ reached ER (dcell c (dsem 33)) 0
      ∗ atPos ER (dcell c (dsem 34)) 0 ∅ 0 ∗ reached ER (dcell c (dsem 34)) 0
      ∗ atPos ER (dcell c (dsem 35)) 0 ∅ 0 ∗ reached ER (dcell c (dsem 35)) 0
      ∗ atPos ER (dcell c (dsem 36)) 0 ∅ 0 ∗ reached ER (dcell c (dsem 36)) 0
      ∗ atPos ER (dcell c (dsem 37)) 0 ∅ 0 ∗ reached ER (dcell c (dsem 37)) 0
      ∗ atPos ER (dcell c (dsem 38)) 0 ∅ 0 ∗ reached ER (dcell c (dsem 38)) 0
      ∗ atPos ER (dcell c (dsem 39)) 0 ∅ 0 ∗ reached ER (dcell c (dsem 39)) 0) := rfl
theorem posAt_10 (c : Dev nD) : posAt (F := F) c (roundsDone 10) =
    iprop(atPos ER (dcell c (dsem 8)) 1 ∅ 0 ∗ reached ER (dcell c (dsem 8)) 1
      ∗ atPos ER (dcell c (dsem 9)) 1 ∅ 0 ∗ reached ER (dcell c (dsem 9)) 1
      ∗ atPos ER (dcell c (dsem 10)) 1 ∅ 0 ∗ reached ER (dcell c (dsem 10)) 1
      ∗ atPos ER (dcell c (dsem 11)) 1 ∅ 0 ∗ reached ER (dcell c (dsem 11)) 1
      ∗ atPos ER (dcell c (dsem 12)) 1 ∅ 0 ∗ reached ER (dcell c (dsem 12)) 1
      ∗ atPos ER (dcell c (dsem 13)) 1 ∅ 0 ∗ reached ER (dcell c (dsem 13)) 1
      ∗ atPos ER (dcell c (dsem 14)) 1 ∅ 0 ∗ reached ER (dcell c (dsem 14)) 1
      ∗ atPos ER (dcell c (dsem 15)) 1 ∅ 0 ∗ reached ER (dcell c (dsem 15)) 1
      ∗ atPos ER (dcell c (dsem 16)) 1 ∅ 0 ∗ reached ER (dcell c (dsem 16)) 1
      ∗ atPos ER (dcell c (dsem 17)) 1 ∅ 0 ∗ reached ER (dcell c (dsem 17)) 1
      ∗ atPos ER (dcell c (dsem 18)) 1 ∅ 0 ∗ reached ER (dcell c (dsem 18)) 1
      ∗ atPos ER (dcell c (dsem 19)) 1 ∅ 0 ∗ reached ER (dcell c (dsem 19)) 1
      ∗ atPos ER (dcell c (dsem 20)) 1 ∅ 0 ∗ reached ER (dcell c (dsem 20)) 1
      ∗ atPos ER (dcell c (dsem 21)) 0 ∅ 0 ∗ reached ER (dcell c (dsem 21)) 0
      ∗ atPos ER (dcell c (dsem 22)) 0 ∅ 0 ∗ reached ER (dcell c (dsem 22)) 0
      ∗ atPos ER (dcell c (dsem 23)) 0 ∅ 0 ∗ reached ER (dcell c (dsem 23)) 0
      ∗ atPos ER (dcell c (dsem 24)) 1 ∅ 0 ∗ reached ER (dcell c (dsem 24)) 1
      ∗ atPos ER (dcell c (dsem 25)) 1 ∅ 0 ∗ reached ER (dcell c (dsem 25)) 1
      ∗ atPos ER (dcell c (dsem 26)) 0 ∅ 0 ∗ reached ER (dcell c (dsem 26)) 0
      ∗ atPos ER (dcell c (dsem 27)) 0 ∅ 0 ∗ reached ER (dcell c (dsem 27)) 0
      ∗ atPos ER (dcell c (dsem 28)) 0 ∅ 0 ∗ reached ER (dcell c (dsem 28)) 0
      ∗ atPos ER (dcell c (dsem 29)) 1 ∅ 0 ∗ reached ER (dcell c (dsem 29)) 1
      ∗ atPos ER (dcell c (dsem 30)) 1 ∅ 0 ∗ reached ER (dcell c (dsem 30)) 1
      ∗ atPos ER (dcell c (dsem 31)) 0 ∅ 0 ∗ reached ER (dcell c (dsem 31)) 0
      ∗ atPos ER (dcell c (dsem 32)) 0 ∅ 0 ∗ reached ER (dcell c (dsem 32)) 0
      ∗ atPos ER (dcell c (dsem 33)) 0 ∅ 0 ∗ reached ER (dcell c (dsem 33)) 0
      ∗ atPos ER (dcell c (dsem 34)) 1 ∅ 0 ∗ reached ER (dcell c (dsem 34)) 1
      ∗ atPos ER (dcell c (dsem 35)) 1 ∅ 0 ∗ reached ER (dcell c (dsem 35)) 1
      ∗ atPos ER (dcell c (dsem 36)) 0 ∅ 0 ∗ reached ER (dcell c (dsem 36)) 0
      ∗ atPos ER (dcell c (dsem 37)) 0 ∅ 0 ∗ reached ER (dcell c (dsem 37)) 0
      ∗ atPos ER (dcell c (dsem 38)) 0 ∅ 0 ∗ reached ER (dcell c (dsem 38)) 0
      ∗ atPos ER (dcell c (dsem 39)) 1 ∅ 0 ∗ reached ER (dcell c (dsem 39)) 1) := rfl
theorem posAt_12 (c : Dev nD) : posAt (F := F) c (roundsDone 12) =
    iprop(atPos ER (dcell c (dsem 8)) 1 ∅ 0 ∗ reached ER (dcell c (dsem 8)) 1
      ∗ atPos ER (dcell c (dsem 9)) 1 ∅ 0 ∗ reached ER (dcell c (dsem 9)) 1
      ∗ atPos ER (dcell c (dsem 10)) 1 ∅ 0 ∗ reached ER (dcell c (dsem 10)) 1
      ∗ atPos ER (dcell c (dsem 11)) 1 ∅ 0 ∗ reached ER (dcell c (dsem 11)) 1
      ∗ atPos ER (dcell c (dsem 12)) 1 ∅ 0 ∗ reached ER (dcell c (dsem 12)) 1
      ∗ atPos ER (dcell c (dsem 13)) 1 ∅ 0 ∗ reached ER (dcell c (dsem 13)) 1
      ∗ atPos ER (dcell c (dsem 14)) 1 ∅ 0 ∗ reached ER (dcell c (dsem 14)) 1
      ∗ atPos ER (dcell c (dsem 15)) 1 ∅ 0 ∗ reached ER (dcell c (dsem 15)) 1
      ∗ atPos ER (dcell c (dsem 16)) 1 ∅ 0 ∗ reached ER (dcell c (dsem 16)) 1
      ∗ atPos ER (dcell c (dsem 17)) 1 ∅ 0 ∗ reached ER (dcell c (dsem 17)) 1
      ∗ atPos ER (dcell c (dsem 18)) 1 ∅ 0 ∗ reached ER (dcell c (dsem 18)) 1
      ∗ atPos ER (dcell c (dsem 19)) 1 ∅ 0 ∗ reached ER (dcell c (dsem 19)) 1
      ∗ atPos ER (dcell c (dsem 20)) 1 ∅ 0 ∗ reached ER (dcell c (dsem 20)) 1
      ∗ atPos ER (dcell c (dsem 21)) 1 ∅ 0 ∗ reached ER (dcell c (dsem 21)) 1
      ∗ atPos ER (dcell c (dsem 22)) 0 ∅ 0 ∗ reached ER (dcell c (dsem 22)) 0
      ∗ atPos ER (dcell c (dsem 23)) 0 ∅ 0 ∗ reached ER (dcell c (dsem 23)) 0
      ∗ atPos ER (dcell c (dsem 24)) 1 ∅ 0 ∗ reached ER (dcell c (dsem 24)) 1
      ∗ atPos ER (dcell c (dsem 25)) 1 ∅ 0 ∗ reached ER (dcell c (dsem 25)) 1
      ∗ atPos ER (dcell c (dsem 26)) 1 ∅ 0 ∗ reached ER (dcell c (dsem 26)) 1
      ∗ atPos ER (dcell c (dsem 27)) 0 ∅ 0 ∗ reached ER (dcell c (dsem 27)) 0
      ∗ atPos ER (dcell c (dsem 28)) 0 ∅ 0 ∗ reached ER (dcell c (dsem 28)) 0
      ∗ atPos ER (dcell c (dsem 29)) 1 ∅ 0 ∗ reached ER (dcell c (dsem 29)) 1
      ∗ atPos ER (dcell c (dsem 30)) 1 ∅ 0 ∗ reached ER (dcell c (dsem 30)) 1
      ∗ atPos ER (dcell c (dsem 31)) 1 ∅ 0 ∗ reached ER (dcell c (dsem 31)) 1
      ∗ atPos ER (dcell c (dsem 32)) 0 ∅ 0 ∗ reached ER (dcell c (dsem 32)) 0
      ∗ atPos ER (dcell c (dsem 33)) 0 ∅ 0 ∗ reached ER (dcell c (dsem 33)) 0
      ∗ atPos ER (dcell c (dsem 34)) 1 ∅ 0 ∗ reached ER (dcell c (dsem 34)) 1
      ∗ atPos ER (dcell c (dsem 35)) 1 ∅ 0 ∗ reached ER (dcell c (dsem 35)) 1
      ∗ atPos ER (dcell c (dsem 36)) 1 ∅ 0 ∗ reached ER (dcell c (dsem 36)) 1
      ∗ atPos ER (dcell c (dsem 37)) 0 ∅ 0 ∗ reached ER (dcell c (dsem 37)) 0
      ∗ atPos ER (dcell c (dsem 38)) 0 ∅ 0 ∗ reached ER (dcell c (dsem 38)) 0
      ∗ atPos ER (dcell c (dsem 39)) 1 ∅ 0 ∗ reached ER (dcell c (dsem 39)) 1) := rfl
theorem posAt_14 (c : Dev nD) : posAt (F := F) c (roundsDone 14) =
    iprop(atPos ER (dcell c (dsem 8)) 1 ∅ 0 ∗ reached ER (dcell c (dsem 8)) 1
      ∗ atPos ER (dcell c (dsem 9)) 1 ∅ 0 ∗ reached ER (dcell c (dsem 9)) 1
      ∗ atPos ER (dcell c (dsem 10)) 1 ∅ 0 ∗ reached ER (dcell c (dsem 10)) 1
      ∗ atPos ER (dcell c (dsem 11)) 1 ∅ 0 ∗ reached ER (dcell c (dsem 11)) 1
      ∗ atPos ER (dcell c (dsem 12)) 1 ∅ 0 ∗ reached ER (dcell c (dsem 12)) 1
      ∗ atPos ER (dcell c (dsem 13)) 1 ∅ 0 ∗ reached ER (dcell c (dsem 13)) 1
      ∗ atPos ER (dcell c (dsem 14)) 1 ∅ 0 ∗ reached ER (dcell c (dsem 14)) 1
      ∗ atPos ER (dcell c (dsem 15)) 1 ∅ 0 ∗ reached ER (dcell c (dsem 15)) 1
      ∗ atPos ER (dcell c (dsem 16)) 1 ∅ 0 ∗ reached ER (dcell c (dsem 16)) 1
      ∗ atPos ER (dcell c (dsem 17)) 1 ∅ 0 ∗ reached ER (dcell c (dsem 17)) 1
      ∗ atPos ER (dcell c (dsem 18)) 1 ∅ 0 ∗ reached ER (dcell c (dsem 18)) 1
      ∗ atPos ER (dcell c (dsem 19)) 1 ∅ 0 ∗ reached ER (dcell c (dsem 19)) 1
      ∗ atPos ER (dcell c (dsem 20)) 1 ∅ 0 ∗ reached ER (dcell c (dsem 20)) 1
      ∗ atPos ER (dcell c (dsem 21)) 1 ∅ 0 ∗ reached ER (dcell c (dsem 21)) 1
      ∗ atPos ER (dcell c (dsem 22)) 1 ∅ 0 ∗ reached ER (dcell c (dsem 22)) 1
      ∗ atPos ER (dcell c (dsem 23)) 0 ∅ 0 ∗ reached ER (dcell c (dsem 23)) 0
      ∗ atPos ER (dcell c (dsem 24)) 1 ∅ 0 ∗ reached ER (dcell c (dsem 24)) 1
      ∗ atPos ER (dcell c (dsem 25)) 1 ∅ 0 ∗ reached ER (dcell c (dsem 25)) 1
      ∗ atPos ER (dcell c (dsem 26)) 1 ∅ 0 ∗ reached ER (dcell c (dsem 26)) 1
      ∗ atPos ER (dcell c (dsem 27)) 1 ∅ 0 ∗ reached ER (dcell c (dsem 27)) 1
      ∗ atPos ER (dcell c (dsem 28)) 0 ∅ 0 ∗ reached ER (dcell c (dsem 28)) 0
      ∗ atPos ER (dcell c (dsem 29)) 1 ∅ 0 ∗ reached ER (dcell c (dsem 29)) 1
      ∗ atPos ER (dcell c (dsem 30)) 1 ∅ 0 ∗ reached ER (dcell c (dsem 30)) 1
      ∗ atPos ER (dcell c (dsem 31)) 1 ∅ 0 ∗ reached ER (dcell c (dsem 31)) 1
      ∗ atPos ER (dcell c (dsem 32)) 1 ∅ 0 ∗ reached ER (dcell c (dsem 32)) 1
      ∗ atPos ER (dcell c (dsem 33)) 0 ∅ 0 ∗ reached ER (dcell c (dsem 33)) 0
      ∗ atPos ER (dcell c (dsem 34)) 1 ∅ 0 ∗ reached ER (dcell c (dsem 34)) 1
      ∗ atPos ER (dcell c (dsem 35)) 1 ∅ 0 ∗ reached ER (dcell c (dsem 35)) 1
      ∗ atPos ER (dcell c (dsem 36)) 1 ∅ 0 ∗ reached ER (dcell c (dsem 36)) 1
      ∗ atPos ER (dcell c (dsem 37)) 1 ∅ 0 ∗ reached ER (dcell c (dsem 37)) 1
      ∗ atPos ER (dcell c (dsem 38)) 0 ∅ 0 ∗ reached ER (dcell c (dsem 38)) 0
      ∗ atPos ER (dcell c (dsem 39)) 1 ∅ 0 ∗ reached ER (dcell c (dsem 39)) 1) := rfl
theorem posAt_18 (c : Dev nD) : posAt (F := F) c (roundsDone 18) =
    iprop(atPos ER (dcell c (dsem 8)) 1 ∅ 0 ∗ reached ER (dcell c (dsem 8)) 1
      ∗ atPos ER (dcell c (dsem 9)) 2 ∅ 0 ∗ reached ER (dcell c (dsem 9)) 2
      ∗ atPos ER (dcell c (dsem 10)) 2 ∅ 0 ∗ reached ER (dcell c (dsem 10)) 2
      ∗ atPos ER (dcell c (dsem 11)) 1 ∅ 0 ∗ reached ER (dcell c (dsem 11)) 1
      ∗ atPos ER (dcell c (dsem 12)) 2 ∅ 0 ∗ reached ER (dcell c (dsem 12)) 2
      ∗ atPos ER (dcell c (dsem 13)) 2 ∅ 0 ∗ reached ER (dcell c (dsem 13)) 2
      ∗ atPos ER (dcell c (dsem 14)) 1 ∅ 0 ∗ reached ER (dcell c (dsem 14)) 1
      ∗ atPos ER (dcell c (dsem 15)) 2 ∅ 0 ∗ reached ER (dcell c (dsem 15)) 2
      ∗ atPos ER (dcell c (dsem 16)) 2 ∅ 0 ∗ reached ER (dcell c (dsem 16)) 2
      ∗ atPos ER (dcell c (dsem 17)) 1 ∅ 0 ∗ reached ER (dcell c (dsem 17)) 1
      ∗ atPos ER (dcell c (dsem 18)) 2 ∅ 0 ∗ reached ER (dcell c (dsem 18)) 2
      ∗ atPos ER (dcell c (dsem 19)) 2 ∅ 0 ∗ reached ER (dcell c (dsem 19)) 2
      ∗ atPos ER (dcell c (dsem 20)) 1 ∅ 0 ∗ reached ER (dcell c (dsem 20)) 1
      ∗ atPos ER (dcell c (dsem 21)) 1 ∅ 0 ∗ reached ER (dcell c (dsem 21)) 1
      ∗ atPos ER (dcell c (dsem 22)) 1 ∅ 0 ∗ reached ER (dcell c (dsem 22)) 1
      ∗ atPos ER (dcell c (dsem 23)) 0 ∅ 0 ∗ reached ER (dcell c (dsem 23)) 0
      ∗ atPos ER (dcell c (dsem 24)) 1 ∅ 0 ∗ reached ER (dcell c (dsem 24)) 1
      ∗ atPos ER (dcell c (dsem 25)) 1 ∅ 0 ∗ reached ER (dcell c (dsem 25)) 1
      ∗ atPos ER (dcell c (dsem 26)) 1 ∅ 0 ∗ reached ER (dcell c (dsem 26)) 1
      ∗ atPos ER (dcell c (dsem 27)) 1 ∅ 0 ∗ reached ER (dcell c (dsem 27)) 1
      ∗ atPos ER (dcell c (dsem 28)) 0 ∅ 0 ∗ reached ER (dcell c (dsem 28)) 0
      ∗ atPos ER (dcell c (dsem 29)) 1 ∅ 0 ∗ reached ER (dcell c (dsem 29)) 1
      ∗ atPos ER (dcell c (dsem 30)) 1 ∅ 0 ∗ reached ER (dcell c (dsem 30)) 1
      ∗ atPos ER (dcell c (dsem 31)) 1 ∅ 0 ∗ reached ER (dcell c (dsem 31)) 1
      ∗ atPos ER (dcell c (dsem 32)) 1 ∅ 0 ∗ reached ER (dcell c (dsem 32)) 1
      ∗ atPos ER (dcell c (dsem 33)) 0 ∅ 0 ∗ reached ER (dcell c (dsem 33)) 0
      ∗ atPos ER (dcell c (dsem 34)) 1 ∅ 0 ∗ reached ER (dcell c (dsem 34)) 1
      ∗ atPos ER (dcell c (dsem 35)) 1 ∅ 0 ∗ reached ER (dcell c (dsem 35)) 1
      ∗ atPos ER (dcell c (dsem 36)) 1 ∅ 0 ∗ reached ER (dcell c (dsem 36)) 1
      ∗ atPos ER (dcell c (dsem 37)) 1 ∅ 0 ∗ reached ER (dcell c (dsem 37)) 1
      ∗ atPos ER (dcell c (dsem 38)) 0 ∅ 0 ∗ reached ER (dcell c (dsem 38)) 0
      ∗ atPos ER (dcell c (dsem 39)) 1 ∅ 0 ∗ reached ER (dcell c (dsem 39)) 1) := rfl
theorem posAt_22 (c : Dev nD) : posAt (F := F) c (roundsDone 22) =
    iprop(atPos ER (dcell c (dsem 8)) 1 ∅ 0 ∗ reached ER (dcell c (dsem 8)) 1
      ∗ atPos ER (dcell c (dsem 9)) 2 ∅ 0 ∗ reached ER (dcell c (dsem 9)) 2
      ∗ atPos ER (dcell c (dsem 10)) 2 ∅ 0 ∗ reached ER (dcell c (dsem 10)) 2
      ∗ atPos ER (dcell c (dsem 11)) 1 ∅ 0 ∗ reached ER (dcell c (dsem 11)) 1
      ∗ atPos ER (dcell c (dsem 12)) 2 ∅ 0 ∗ reached ER (dcell c (dsem 12)) 2
      ∗ atPos ER (dcell c (dsem 13)) 2 ∅ 0 ∗ reached ER (dcell c (dsem 13)) 2
      ∗ atPos ER (dcell c (dsem 14)) 1 ∅ 0 ∗ reached ER (dcell c (dsem 14)) 1
      ∗ atPos ER (dcell c (dsem 15)) 2 ∅ 0 ∗ reached ER (dcell c (dsem 15)) 2
      ∗ atPos ER (dcell c (dsem 16)) 2 ∅ 0 ∗ reached ER (dcell c (dsem 16)) 2
      ∗ atPos ER (dcell c (dsem 17)) 1 ∅ 0 ∗ reached ER (dcell c (dsem 17)) 1
      ∗ atPos ER (dcell c (dsem 18)) 2 ∅ 0 ∗ reached ER (dcell c (dsem 18)) 2
      ∗ atPos ER (dcell c (dsem 19)) 2 ∅ 0 ∗ reached ER (dcell c (dsem 19)) 2
      ∗ atPos ER (dcell c (dsem 20)) 2 ∅ 0 ∗ reached ER (dcell c (dsem 20)) 2
      ∗ atPos ER (dcell c (dsem 21)) 1 ∅ 0 ∗ reached ER (dcell c (dsem 21)) 1
      ∗ atPos ER (dcell c (dsem 22)) 1 ∅ 0 ∗ reached ER (dcell c (dsem 22)) 1
      ∗ atPos ER (dcell c (dsem 23)) 0 ∅ 0 ∗ reached ER (dcell c (dsem 23)) 0
      ∗ atPos ER (dcell c (dsem 24)) 2 ∅ 0 ∗ reached ER (dcell c (dsem 24)) 2
      ∗ atPos ER (dcell c (dsem 25)) 2 ∅ 0 ∗ reached ER (dcell c (dsem 25)) 2
      ∗ atPos ER (dcell c (dsem 26)) 1 ∅ 0 ∗ reached ER (dcell c (dsem 26)) 1
      ∗ atPos ER (dcell c (dsem 27)) 1 ∅ 0 ∗ reached ER (dcell c (dsem 27)) 1
      ∗ atPos ER (dcell c (dsem 28)) 0 ∅ 0 ∗ reached ER (dcell c (dsem 28)) 0
      ∗ atPos ER (dcell c (dsem 29)) 2 ∅ 0 ∗ reached ER (dcell c (dsem 29)) 2
      ∗ atPos ER (dcell c (dsem 30)) 2 ∅ 0 ∗ reached ER (dcell c (dsem 30)) 2
      ∗ atPos ER (dcell c (dsem 31)) 1 ∅ 0 ∗ reached ER (dcell c (dsem 31)) 1
      ∗ atPos ER (dcell c (dsem 32)) 1 ∅ 0 ∗ reached ER (dcell c (dsem 32)) 1
      ∗ atPos ER (dcell c (dsem 33)) 0 ∅ 0 ∗ reached ER (dcell c (dsem 33)) 0
      ∗ atPos ER (dcell c (dsem 34)) 2 ∅ 0 ∗ reached ER (dcell c (dsem 34)) 2
      ∗ atPos ER (dcell c (dsem 35)) 2 ∅ 0 ∗ reached ER (dcell c (dsem 35)) 2
      ∗ atPos ER (dcell c (dsem 36)) 1 ∅ 0 ∗ reached ER (dcell c (dsem 36)) 1
      ∗ atPos ER (dcell c (dsem 37)) 1 ∅ 0 ∗ reached ER (dcell c (dsem 37)) 1
      ∗ atPos ER (dcell c (dsem 38)) 0 ∅ 0 ∗ reached ER (dcell c (dsem 38)) 0
      ∗ atPos ER (dcell c (dsem 39)) 2 ∅ 0 ∗ reached ER (dcell c (dsem 39)) 2) := rfl
theorem posAt_24 (c : Dev nD) : posAt (F := F) c (roundsDone 24) =
    iprop(atPos ER (dcell c (dsem 8)) 1 ∅ 0 ∗ reached ER (dcell c (dsem 8)) 1
      ∗ atPos ER (dcell c (dsem 9)) 2 ∅ 0 ∗ reached ER (dcell c (dsem 9)) 2
      ∗ atPos ER (dcell c (dsem 10)) 2 ∅ 0 ∗ reached ER (dcell c (dsem 10)) 2
      ∗ atPos ER (dcell c (dsem 11)) 1 ∅ 0 ∗ reached ER (dcell c (dsem 11)) 1
      ∗ atPos ER (dcell c (dsem 12)) 2 ∅ 0 ∗ reached ER (dcell c (dsem 12)) 2
      ∗ atPos ER (dcell c (dsem 13)) 2 ∅ 0 ∗ reached ER (dcell c (dsem 13)) 2
      ∗ atPos ER (dcell c (dsem 14)) 1 ∅ 0 ∗ reached ER (dcell c (dsem 14)) 1
      ∗ atPos ER (dcell c (dsem 15)) 2 ∅ 0 ∗ reached ER (dcell c (dsem 15)) 2
      ∗ atPos ER (dcell c (dsem 16)) 2 ∅ 0 ∗ reached ER (dcell c (dsem 16)) 2
      ∗ atPos ER (dcell c (dsem 17)) 1 ∅ 0 ∗ reached ER (dcell c (dsem 17)) 1
      ∗ atPos ER (dcell c (dsem 18)) 2 ∅ 0 ∗ reached ER (dcell c (dsem 18)) 2
      ∗ atPos ER (dcell c (dsem 19)) 2 ∅ 0 ∗ reached ER (dcell c (dsem 19)) 2
      ∗ atPos ER (dcell c (dsem 20)) 2 ∅ 0 ∗ reached ER (dcell c (dsem 20)) 2
      ∗ atPos ER (dcell c (dsem 21)) 2 ∅ 0 ∗ reached ER (dcell c (dsem 21)) 2
      ∗ atPos ER (dcell c (dsem 22)) 1 ∅ 0 ∗ reached ER (dcell c (dsem 22)) 1
      ∗ atPos ER (dcell c (dsem 23)) 0 ∅ 0 ∗ reached ER (dcell c (dsem 23)) 0
      ∗ atPos ER (dcell c (dsem 24)) 2 ∅ 0 ∗ reached ER (dcell c (dsem 24)) 2
      ∗ atPos ER (dcell c (dsem 25)) 2 ∅ 0 ∗ reached ER (dcell c (dsem 25)) 2
      ∗ atPos ER (dcell c (dsem 26)) 2 ∅ 0 ∗ reached ER (dcell c (dsem 26)) 2
      ∗ atPos ER (dcell c (dsem 27)) 1 ∅ 0 ∗ reached ER (dcell c (dsem 27)) 1
      ∗ atPos ER (dcell c (dsem 28)) 0 ∅ 0 ∗ reached ER (dcell c (dsem 28)) 0
      ∗ atPos ER (dcell c (dsem 29)) 2 ∅ 0 ∗ reached ER (dcell c (dsem 29)) 2
      ∗ atPos ER (dcell c (dsem 30)) 2 ∅ 0 ∗ reached ER (dcell c (dsem 30)) 2
      ∗ atPos ER (dcell c (dsem 31)) 2 ∅ 0 ∗ reached ER (dcell c (dsem 31)) 2
      ∗ atPos ER (dcell c (dsem 32)) 1 ∅ 0 ∗ reached ER (dcell c (dsem 32)) 1
      ∗ atPos ER (dcell c (dsem 33)) 0 ∅ 0 ∗ reached ER (dcell c (dsem 33)) 0
      ∗ atPos ER (dcell c (dsem 34)) 2 ∅ 0 ∗ reached ER (dcell c (dsem 34)) 2
      ∗ atPos ER (dcell c (dsem 35)) 2 ∅ 0 ∗ reached ER (dcell c (dsem 35)) 2
      ∗ atPos ER (dcell c (dsem 36)) 2 ∅ 0 ∗ reached ER (dcell c (dsem 36)) 2
      ∗ atPos ER (dcell c (dsem 37)) 1 ∅ 0 ∗ reached ER (dcell c (dsem 37)) 1
      ∗ atPos ER (dcell c (dsem 38)) 0 ∅ 0 ∗ reached ER (dcell c (dsem 38)) 0
      ∗ atPos ER (dcell c (dsem 39)) 2 ∅ 0 ∗ reached ER (dcell c (dsem 39)) 2) := rfl
theorem posAt_26 (c : Dev nD) : posAt (F := F) c (roundsDone 26) =
    iprop(atPos ER (dcell c (dsem 8)) 1 ∅ 0 ∗ reached ER (dcell c (dsem 8)) 1
      ∗ atPos ER (dcell c (dsem 9)) 2 ∅ 0 ∗ reached ER (dcell c (dsem 9)) 2
      ∗ atPos ER (dcell c (dsem 10)) 2 ∅ 0 ∗ reached ER (dcell c (dsem 10)) 2
      ∗ atPos ER (dcell c (dsem 11)) 1 ∅ 0 ∗ reached ER (dcell c (dsem 11)) 1
      ∗ atPos ER (dcell c (dsem 12)) 2 ∅ 0 ∗ reached ER (dcell c (dsem 12)) 2
      ∗ atPos ER (dcell c (dsem 13)) 2 ∅ 0 ∗ reached ER (dcell c (dsem 13)) 2
      ∗ atPos ER (dcell c (dsem 14)) 1 ∅ 0 ∗ reached ER (dcell c (dsem 14)) 1
      ∗ atPos ER (dcell c (dsem 15)) 2 ∅ 0 ∗ reached ER (dcell c (dsem 15)) 2
      ∗ atPos ER (dcell c (dsem 16)) 2 ∅ 0 ∗ reached ER (dcell c (dsem 16)) 2
      ∗ atPos ER (dcell c (dsem 17)) 1 ∅ 0 ∗ reached ER (dcell c (dsem 17)) 1
      ∗ atPos ER (dcell c (dsem 18)) 2 ∅ 0 ∗ reached ER (dcell c (dsem 18)) 2
      ∗ atPos ER (dcell c (dsem 19)) 2 ∅ 0 ∗ reached ER (dcell c (dsem 19)) 2
      ∗ atPos ER (dcell c (dsem 20)) 2 ∅ 0 ∗ reached ER (dcell c (dsem 20)) 2
      ∗ atPos ER (dcell c (dsem 21)) 2 ∅ 0 ∗ reached ER (dcell c (dsem 21)) 2
      ∗ atPos ER (dcell c (dsem 22)) 1 ∅ 0 ∗ reached ER (dcell c (dsem 22)) 1
      ∗ atPos ER (dcell c (dsem 23)) 1 ∅ 0 ∗ reached ER (dcell c (dsem 23)) 1
      ∗ atPos ER (dcell c (dsem 24)) 2 ∅ 0 ∗ reached ER (dcell c (dsem 24)) 2
      ∗ atPos ER (dcell c (dsem 25)) 2 ∅ 0 ∗ reached ER (dcell c (dsem 25)) 2
      ∗ atPos ER (dcell c (dsem 26)) 2 ∅ 0 ∗ reached ER (dcell c (dsem 26)) 2
      ∗ atPos ER (dcell c (dsem 27)) 1 ∅ 0 ∗ reached ER (dcell c (dsem 27)) 1
      ∗ atPos ER (dcell c (dsem 28)) 1 ∅ 0 ∗ reached ER (dcell c (dsem 28)) 1
      ∗ atPos ER (dcell c (dsem 29)) 2 ∅ 0 ∗ reached ER (dcell c (dsem 29)) 2
      ∗ atPos ER (dcell c (dsem 30)) 2 ∅ 0 ∗ reached ER (dcell c (dsem 30)) 2
      ∗ atPos ER (dcell c (dsem 31)) 2 ∅ 0 ∗ reached ER (dcell c (dsem 31)) 2
      ∗ atPos ER (dcell c (dsem 32)) 1 ∅ 0 ∗ reached ER (dcell c (dsem 32)) 1
      ∗ atPos ER (dcell c (dsem 33)) 1 ∅ 0 ∗ reached ER (dcell c (dsem 33)) 1
      ∗ atPos ER (dcell c (dsem 34)) 2 ∅ 0 ∗ reached ER (dcell c (dsem 34)) 2
      ∗ atPos ER (dcell c (dsem 35)) 2 ∅ 0 ∗ reached ER (dcell c (dsem 35)) 2
      ∗ atPos ER (dcell c (dsem 36)) 2 ∅ 0 ∗ reached ER (dcell c (dsem 36)) 2
      ∗ atPos ER (dcell c (dsem 37)) 1 ∅ 0 ∗ reached ER (dcell c (dsem 37)) 1
      ∗ atPos ER (dcell c (dsem 38)) 1 ∅ 0 ∗ reached ER (dcell c (dsem 38)) 1
      ∗ atPos ER (dcell c (dsem 39)) 2 ∅ 0 ∗ reached ER (dcell c (dsem 39)) 2) := rfl
theorem posAt_28 (c : Dev nD) : posAt (F := F) c (roundsDone 28) =
    iprop(atPos ER (dcell c (dsem 8)) 1 ∅ 0 ∗ reached ER (dcell c (dsem 8)) 1
      ∗ atPos ER (dcell c (dsem 9)) 3 ∅ 0 ∗ reached ER (dcell c (dsem 9)) 3
      ∗ atPos ER (dcell c (dsem 10)) 2 ∅ 0 ∗ reached ER (dcell c (dsem 10)) 2
      ∗ atPos ER (dcell c (dsem 11)) 1 ∅ 0 ∗ reached ER (dcell c (dsem 11)) 1
      ∗ atPos ER (dcell c (dsem 12)) 3 ∅ 0 ∗ reached ER (dcell c (dsem 12)) 3
      ∗ atPos ER (dcell c (dsem 13)) 2 ∅ 0 ∗ reached ER (dcell c (dsem 13)) 2
      ∗ atPos ER (dcell c (dsem 14)) 1 ∅ 0 ∗ reached ER (dcell c (dsem 14)) 1
      ∗ atPos ER (dcell c (dsem 15)) 3 ∅ 0 ∗ reached ER (dcell c (dsem 15)) 3
      ∗ atPos ER (dcell c (dsem 16)) 2 ∅ 0 ∗ reached ER (dcell c (dsem 16)) 2
      ∗ atPos ER (dcell c (dsem 17)) 1 ∅ 0 ∗ reached ER (dcell c (dsem 17)) 1
      ∗ atPos ER (dcell c (dsem 18)) 3 ∅ 0 ∗ reached ER (dcell c (dsem 18)) 3
      ∗ atPos ER (dcell c (dsem 19)) 2 ∅ 0 ∗ reached ER (dcell c (dsem 19)) 2
      ∗ atPos ER (dcell c (dsem 20)) 2 ∅ 0 ∗ reached ER (dcell c (dsem 20)) 2
      ∗ atPos ER (dcell c (dsem 21)) 2 ∅ 0 ∗ reached ER (dcell c (dsem 21)) 2
      ∗ atPos ER (dcell c (dsem 22)) 1 ∅ 0 ∗ reached ER (dcell c (dsem 22)) 1
      ∗ atPos ER (dcell c (dsem 23)) 1 ∅ 0 ∗ reached ER (dcell c (dsem 23)) 1
      ∗ atPos ER (dcell c (dsem 24)) 2 ∅ 0 ∗ reached ER (dcell c (dsem 24)) 2
      ∗ atPos ER (dcell c (dsem 25)) 2 ∅ 0 ∗ reached ER (dcell c (dsem 25)) 2
      ∗ atPos ER (dcell c (dsem 26)) 2 ∅ 0 ∗ reached ER (dcell c (dsem 26)) 2
      ∗ atPos ER (dcell c (dsem 27)) 1 ∅ 0 ∗ reached ER (dcell c (dsem 27)) 1
      ∗ atPos ER (dcell c (dsem 28)) 1 ∅ 0 ∗ reached ER (dcell c (dsem 28)) 1
      ∗ atPos ER (dcell c (dsem 29)) 2 ∅ 0 ∗ reached ER (dcell c (dsem 29)) 2
      ∗ atPos ER (dcell c (dsem 30)) 2 ∅ 0 ∗ reached ER (dcell c (dsem 30)) 2
      ∗ atPos ER (dcell c (dsem 31)) 2 ∅ 0 ∗ reached ER (dcell c (dsem 31)) 2
      ∗ atPos ER (dcell c (dsem 32)) 1 ∅ 0 ∗ reached ER (dcell c (dsem 32)) 1
      ∗ atPos ER (dcell c (dsem 33)) 1 ∅ 0 ∗ reached ER (dcell c (dsem 33)) 1
      ∗ atPos ER (dcell c (dsem 34)) 2 ∅ 0 ∗ reached ER (dcell c (dsem 34)) 2
      ∗ atPos ER (dcell c (dsem 35)) 2 ∅ 0 ∗ reached ER (dcell c (dsem 35)) 2
      ∗ atPos ER (dcell c (dsem 36)) 2 ∅ 0 ∗ reached ER (dcell c (dsem 36)) 2
      ∗ atPos ER (dcell c (dsem 37)) 1 ∅ 0 ∗ reached ER (dcell c (dsem 37)) 1
      ∗ atPos ER (dcell c (dsem 38)) 1 ∅ 0 ∗ reached ER (dcell c (dsem 38)) 1
      ∗ atPos ER (dcell c (dsem 39)) 2 ∅ 0 ∗ reached ER (dcell c (dsem 39)) 2) := rfl
theorem posAt_30 (c : Dev nD) : posAt (F := F) c (roundsDone 30) =
    iprop(atPos ER (dcell c (dsem 8)) 1 ∅ 0 ∗ reached ER (dcell c (dsem 8)) 1
      ∗ atPos ER (dcell c (dsem 9)) 3 ∅ 0 ∗ reached ER (dcell c (dsem 9)) 3
      ∗ atPos ER (dcell c (dsem 10)) 3 ∅ 0 ∗ reached ER (dcell c (dsem 10)) 3
      ∗ atPos ER (dcell c (dsem 11)) 1 ∅ 0 ∗ reached ER (dcell c (dsem 11)) 1
      ∗ atPos ER (dcell c (dsem 12)) 3 ∅ 0 ∗ reached ER (dcell c (dsem 12)) 3
      ∗ atPos ER (dcell c (dsem 13)) 3 ∅ 0 ∗ reached ER (dcell c (dsem 13)) 3
      ∗ atPos ER (dcell c (dsem 14)) 1 ∅ 0 ∗ reached ER (dcell c (dsem 14)) 1
      ∗ atPos ER (dcell c (dsem 15)) 3 ∅ 0 ∗ reached ER (dcell c (dsem 15)) 3
      ∗ atPos ER (dcell c (dsem 16)) 3 ∅ 0 ∗ reached ER (dcell c (dsem 16)) 3
      ∗ atPos ER (dcell c (dsem 17)) 1 ∅ 0 ∗ reached ER (dcell c (dsem 17)) 1
      ∗ atPos ER (dcell c (dsem 18)) 3 ∅ 0 ∗ reached ER (dcell c (dsem 18)) 3
      ∗ atPos ER (dcell c (dsem 19)) 3 ∅ 0 ∗ reached ER (dcell c (dsem 19)) 3
      ∗ atPos ER (dcell c (dsem 20)) 2 ∅ 0 ∗ reached ER (dcell c (dsem 20)) 2
      ∗ atPos ER (dcell c (dsem 21)) 2 ∅ 0 ∗ reached ER (dcell c (dsem 21)) 2
      ∗ atPos ER (dcell c (dsem 22)) 1 ∅ 0 ∗ reached ER (dcell c (dsem 22)) 1
      ∗ atPos ER (dcell c (dsem 23)) 1 ∅ 0 ∗ reached ER (dcell c (dsem 23)) 1
      ∗ atPos ER (dcell c (dsem 24)) 2 ∅ 0 ∗ reached ER (dcell c (dsem 24)) 2
      ∗ atPos ER (dcell c (dsem 25)) 2 ∅ 0 ∗ reached ER (dcell c (dsem 25)) 2
      ∗ atPos ER (dcell c (dsem 26)) 2 ∅ 0 ∗ reached ER (dcell c (dsem 26)) 2
      ∗ atPos ER (dcell c (dsem 27)) 1 ∅ 0 ∗ reached ER (dcell c (dsem 27)) 1
      ∗ atPos ER (dcell c (dsem 28)) 1 ∅ 0 ∗ reached ER (dcell c (dsem 28)) 1
      ∗ atPos ER (dcell c (dsem 29)) 2 ∅ 0 ∗ reached ER (dcell c (dsem 29)) 2
      ∗ atPos ER (dcell c (dsem 30)) 2 ∅ 0 ∗ reached ER (dcell c (dsem 30)) 2
      ∗ atPos ER (dcell c (dsem 31)) 2 ∅ 0 ∗ reached ER (dcell c (dsem 31)) 2
      ∗ atPos ER (dcell c (dsem 32)) 1 ∅ 0 ∗ reached ER (dcell c (dsem 32)) 1
      ∗ atPos ER (dcell c (dsem 33)) 1 ∅ 0 ∗ reached ER (dcell c (dsem 33)) 1
      ∗ atPos ER (dcell c (dsem 34)) 2 ∅ 0 ∗ reached ER (dcell c (dsem 34)) 2
      ∗ atPos ER (dcell c (dsem 35)) 2 ∅ 0 ∗ reached ER (dcell c (dsem 35)) 2
      ∗ atPos ER (dcell c (dsem 36)) 2 ∅ 0 ∗ reached ER (dcell c (dsem 36)) 2
      ∗ atPos ER (dcell c (dsem 37)) 1 ∅ 0 ∗ reached ER (dcell c (dsem 37)) 1
      ∗ atPos ER (dcell c (dsem 38)) 1 ∅ 0 ∗ reached ER (dcell c (dsem 38)) 1
      ∗ atPos ER (dcell c (dsem 39)) 2 ∅ 0 ∗ reached ER (dcell c (dsem 39)) 2) := rfl
theorem posAt_34 (c : Dev nD) : posAt (F := F) c (roundsDone 34) =
    iprop(atPos ER (dcell c (dsem 8)) 1 ∅ 0 ∗ reached ER (dcell c (dsem 8)) 1
      ∗ atPos ER (dcell c (dsem 9)) 3 ∅ 0 ∗ reached ER (dcell c (dsem 9)) 3
      ∗ atPos ER (dcell c (dsem 10)) 3 ∅ 0 ∗ reached ER (dcell c (dsem 10)) 3
      ∗ atPos ER (dcell c (dsem 11)) 1 ∅ 0 ∗ reached ER (dcell c (dsem 11)) 1
      ∗ atPos ER (dcell c (dsem 12)) 3 ∅ 0 ∗ reached ER (dcell c (dsem 12)) 3
      ∗ atPos ER (dcell c (dsem 13)) 3 ∅ 0 ∗ reached ER (dcell c (dsem 13)) 3
      ∗ atPos ER (dcell c (dsem 14)) 1 ∅ 0 ∗ reached ER (dcell c (dsem 14)) 1
      ∗ atPos ER (dcell c (dsem 15)) 3 ∅ 0 ∗ reached ER (dcell c (dsem 15)) 3
      ∗ atPos ER (dcell c (dsem 16)) 3 ∅ 0 ∗ reached ER (dcell c (dsem 16)) 3
      ∗ atPos ER (dcell c (dsem 17)) 1 ∅ 0 ∗ reached ER (dcell c (dsem 17)) 1
      ∗ atPos ER (dcell c (dsem 18)) 3 ∅ 0 ∗ reached ER (dcell c (dsem 18)) 3
      ∗ atPos ER (dcell c (dsem 19)) 3 ∅ 0 ∗ reached ER (dcell c (dsem 19)) 3
      ∗ atPos ER (dcell c (dsem 20)) 3 ∅ 0 ∗ reached ER (dcell c (dsem 20)) 3
      ∗ atPos ER (dcell c (dsem 21)) 2 ∅ 0 ∗ reached ER (dcell c (dsem 21)) 2
      ∗ atPos ER (dcell c (dsem 22)) 1 ∅ 0 ∗ reached ER (dcell c (dsem 22)) 1
      ∗ atPos ER (dcell c (dsem 23)) 1 ∅ 0 ∗ reached ER (dcell c (dsem 23)) 1
      ∗ atPos ER (dcell c (dsem 24)) 3 ∅ 0 ∗ reached ER (dcell c (dsem 24)) 3
      ∗ atPos ER (dcell c (dsem 25)) 3 ∅ 0 ∗ reached ER (dcell c (dsem 25)) 3
      ∗ atPos ER (dcell c (dsem 26)) 2 ∅ 0 ∗ reached ER (dcell c (dsem 26)) 2
      ∗ atPos ER (dcell c (dsem 27)) 1 ∅ 0 ∗ reached ER (dcell c (dsem 27)) 1
      ∗ atPos ER (dcell c (dsem 28)) 1 ∅ 0 ∗ reached ER (dcell c (dsem 28)) 1
      ∗ atPos ER (dcell c (dsem 29)) 3 ∅ 0 ∗ reached ER (dcell c (dsem 29)) 3
      ∗ atPos ER (dcell c (dsem 30)) 3 ∅ 0 ∗ reached ER (dcell c (dsem 30)) 3
      ∗ atPos ER (dcell c (dsem 31)) 2 ∅ 0 ∗ reached ER (dcell c (dsem 31)) 2
      ∗ atPos ER (dcell c (dsem 32)) 1 ∅ 0 ∗ reached ER (dcell c (dsem 32)) 1
      ∗ atPos ER (dcell c (dsem 33)) 1 ∅ 0 ∗ reached ER (dcell c (dsem 33)) 1
      ∗ atPos ER (dcell c (dsem 34)) 3 ∅ 0 ∗ reached ER (dcell c (dsem 34)) 3
      ∗ atPos ER (dcell c (dsem 35)) 3 ∅ 0 ∗ reached ER (dcell c (dsem 35)) 3
      ∗ atPos ER (dcell c (dsem 36)) 2 ∅ 0 ∗ reached ER (dcell c (dsem 36)) 2
      ∗ atPos ER (dcell c (dsem 37)) 1 ∅ 0 ∗ reached ER (dcell c (dsem 37)) 1
      ∗ atPos ER (dcell c (dsem 38)) 1 ∅ 0 ∗ reached ER (dcell c (dsem 38)) 1
      ∗ atPos ER (dcell c (dsem 39)) 3 ∅ 0 ∗ reached ER (dcell c (dsem 39)) 3) := rfl
theorem posAt_36 (c : Dev nD) : posAt (F := F) c (roundsDone 36) =
    iprop(atPos ER (dcell c (dsem 8)) 1 ∅ 0 ∗ reached ER (dcell c (dsem 8)) 1
      ∗ atPos ER (dcell c (dsem 9)) 3 ∅ 0 ∗ reached ER (dcell c (dsem 9)) 3
      ∗ atPos ER (dcell c (dsem 10)) 3 ∅ 0 ∗ reached ER (dcell c (dsem 10)) 3
      ∗ atPos ER (dcell c (dsem 11)) 1 ∅ 0 ∗ reached ER (dcell c (dsem 11)) 1
      ∗ atPos ER (dcell c (dsem 12)) 3 ∅ 0 ∗ reached ER (dcell c (dsem 12)) 3
      ∗ atPos ER (dcell c (dsem 13)) 3 ∅ 0 ∗ reached ER (dcell c (dsem 13)) 3
      ∗ atPos ER (dcell c (dsem 14)) 1 ∅ 0 ∗ reached ER (dcell c (dsem 14)) 1
      ∗ atPos ER (dcell c (dsem 15)) 3 ∅ 0 ∗ reached ER (dcell c (dsem 15)) 3
      ∗ atPos ER (dcell c (dsem 16)) 3 ∅ 0 ∗ reached ER (dcell c (dsem 16)) 3
      ∗ atPos ER (dcell c (dsem 17)) 1 ∅ 0 ∗ reached ER (dcell c (dsem 17)) 1
      ∗ atPos ER (dcell c (dsem 18)) 3 ∅ 0 ∗ reached ER (dcell c (dsem 18)) 3
      ∗ atPos ER (dcell c (dsem 19)) 3 ∅ 0 ∗ reached ER (dcell c (dsem 19)) 3
      ∗ atPos ER (dcell c (dsem 20)) 3 ∅ 0 ∗ reached ER (dcell c (dsem 20)) 3
      ∗ atPos ER (dcell c (dsem 21)) 3 ∅ 0 ∗ reached ER (dcell c (dsem 21)) 3
      ∗ atPos ER (dcell c (dsem 22)) 1 ∅ 0 ∗ reached ER (dcell c (dsem 22)) 1
      ∗ atPos ER (dcell c (dsem 23)) 1 ∅ 0 ∗ reached ER (dcell c (dsem 23)) 1
      ∗ atPos ER (dcell c (dsem 24)) 3 ∅ 0 ∗ reached ER (dcell c (dsem 24)) 3
      ∗ atPos ER (dcell c (dsem 25)) 3 ∅ 0 ∗ reached ER (dcell c (dsem 25)) 3
      ∗ atPos ER (dcell c (dsem 26)) 3 ∅ 0 ∗ reached ER (dcell c (dsem 26)) 3
      ∗ atPos ER (dcell c (dsem 27)) 1 ∅ 0 ∗ reached ER (dcell c (dsem 27)) 1
      ∗ atPos ER (dcell c (dsem 28)) 1 ∅ 0 ∗ reached ER (dcell c (dsem 28)) 1
      ∗ atPos ER (dcell c (dsem 29)) 3 ∅ 0 ∗ reached ER (dcell c (dsem 29)) 3
      ∗ atPos ER (dcell c (dsem 30)) 3 ∅ 0 ∗ reached ER (dcell c (dsem 30)) 3
      ∗ atPos ER (dcell c (dsem 31)) 3 ∅ 0 ∗ reached ER (dcell c (dsem 31)) 3
      ∗ atPos ER (dcell c (dsem 32)) 1 ∅ 0 ∗ reached ER (dcell c (dsem 32)) 1
      ∗ atPos ER (dcell c (dsem 33)) 1 ∅ 0 ∗ reached ER (dcell c (dsem 33)) 1
      ∗ atPos ER (dcell c (dsem 34)) 3 ∅ 0 ∗ reached ER (dcell c (dsem 34)) 3
      ∗ atPos ER (dcell c (dsem 35)) 3 ∅ 0 ∗ reached ER (dcell c (dsem 35)) 3
      ∗ atPos ER (dcell c (dsem 36)) 3 ∅ 0 ∗ reached ER (dcell c (dsem 36)) 3
      ∗ atPos ER (dcell c (dsem 37)) 1 ∅ 0 ∗ reached ER (dcell c (dsem 37)) 1
      ∗ atPos ER (dcell c (dsem 38)) 1 ∅ 0 ∗ reached ER (dcell c (dsem 38)) 1
      ∗ atPos ER (dcell c (dsem 39)) 3 ∅ 0 ∗ reached ER (dcell c (dsem 39)) 3) := rfl
theorem posAt_38 (c : Dev nD) : posAt (F := F) c (roundsDone 38) =
    iprop(atPos ER (dcell c (dsem 8)) 1 ∅ 0 ∗ reached ER (dcell c (dsem 8)) 1
      ∗ atPos ER (dcell c (dsem 9)) 3 ∅ 0 ∗ reached ER (dcell c (dsem 9)) 3
      ∗ atPos ER (dcell c (dsem 10)) 3 ∅ 0 ∗ reached ER (dcell c (dsem 10)) 3
      ∗ atPos ER (dcell c (dsem 11)) 1 ∅ 0 ∗ reached ER (dcell c (dsem 11)) 1
      ∗ atPos ER (dcell c (dsem 12)) 3 ∅ 0 ∗ reached ER (dcell c (dsem 12)) 3
      ∗ atPos ER (dcell c (dsem 13)) 3 ∅ 0 ∗ reached ER (dcell c (dsem 13)) 3
      ∗ atPos ER (dcell c (dsem 14)) 1 ∅ 0 ∗ reached ER (dcell c (dsem 14)) 1
      ∗ atPos ER (dcell c (dsem 15)) 3 ∅ 0 ∗ reached ER (dcell c (dsem 15)) 3
      ∗ atPos ER (dcell c (dsem 16)) 3 ∅ 0 ∗ reached ER (dcell c (dsem 16)) 3
      ∗ atPos ER (dcell c (dsem 17)) 1 ∅ 0 ∗ reached ER (dcell c (dsem 17)) 1
      ∗ atPos ER (dcell c (dsem 18)) 3 ∅ 0 ∗ reached ER (dcell c (dsem 18)) 3
      ∗ atPos ER (dcell c (dsem 19)) 3 ∅ 0 ∗ reached ER (dcell c (dsem 19)) 3
      ∗ atPos ER (dcell c (dsem 20)) 3 ∅ 0 ∗ reached ER (dcell c (dsem 20)) 3
      ∗ atPos ER (dcell c (dsem 21)) 3 ∅ 0 ∗ reached ER (dcell c (dsem 21)) 3
      ∗ atPos ER (dcell c (dsem 22)) 2 ∅ 0 ∗ reached ER (dcell c (dsem 22)) 2
      ∗ atPos ER (dcell c (dsem 23)) 1 ∅ 0 ∗ reached ER (dcell c (dsem 23)) 1
      ∗ atPos ER (dcell c (dsem 24)) 3 ∅ 0 ∗ reached ER (dcell c (dsem 24)) 3
      ∗ atPos ER (dcell c (dsem 25)) 3 ∅ 0 ∗ reached ER (dcell c (dsem 25)) 3
      ∗ atPos ER (dcell c (dsem 26)) 3 ∅ 0 ∗ reached ER (dcell c (dsem 26)) 3
      ∗ atPos ER (dcell c (dsem 27)) 2 ∅ 0 ∗ reached ER (dcell c (dsem 27)) 2
      ∗ atPos ER (dcell c (dsem 28)) 1 ∅ 0 ∗ reached ER (dcell c (dsem 28)) 1
      ∗ atPos ER (dcell c (dsem 29)) 3 ∅ 0 ∗ reached ER (dcell c (dsem 29)) 3
      ∗ atPos ER (dcell c (dsem 30)) 3 ∅ 0 ∗ reached ER (dcell c (dsem 30)) 3
      ∗ atPos ER (dcell c (dsem 31)) 3 ∅ 0 ∗ reached ER (dcell c (dsem 31)) 3
      ∗ atPos ER (dcell c (dsem 32)) 2 ∅ 0 ∗ reached ER (dcell c (dsem 32)) 2
      ∗ atPos ER (dcell c (dsem 33)) 1 ∅ 0 ∗ reached ER (dcell c (dsem 33)) 1
      ∗ atPos ER (dcell c (dsem 34)) 3 ∅ 0 ∗ reached ER (dcell c (dsem 34)) 3
      ∗ atPos ER (dcell c (dsem 35)) 3 ∅ 0 ∗ reached ER (dcell c (dsem 35)) 3
      ∗ atPos ER (dcell c (dsem 36)) 3 ∅ 0 ∗ reached ER (dcell c (dsem 36)) 3
      ∗ atPos ER (dcell c (dsem 37)) 2 ∅ 0 ∗ reached ER (dcell c (dsem 37)) 2
      ∗ atPos ER (dcell c (dsem 38)) 1 ∅ 0 ∗ reached ER (dcell c (dsem 38)) 1
      ∗ atPos ER (dcell c (dsem 39)) 3 ∅ 0 ∗ reached ER (dcell c (dsem 39)) 3) := rfl

end Cert.KernelIdeal.Hand

end
-- ==== Proof.KernelIdeal.QuietLemmas.lean ====
import proofs.«900979_g7700000000000980_dist_mlpseq_tp1d_bs_bs_b256_d256_h512_v7x_i8_bf16_1_alg».proof.Proof.KernelIdeal.Quiet
import proofs.«900979_g7700000000000980_dist_mlpseq_tp1d_bs_bs_b256_d256_h512_v7x_i8_bf16_1_alg».proof.Proof.KernelIdeal.Slices
import proofs.«900979_g7700000000000980_dist_mlpseq_tp1d_bs_bs_b256_d256_h512_v7x_i8_bf16_1_alg».proof.Proof.KernelIdeal.QuietTables

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # Opening and closing the state of a device at the quiet points

   Each state is a separating conjunction of named pieces; the equations below unfold one level at a time, with the
   case distinctions on the layer resolved at the layers that occur. A buffer held without some of its elements
   (`heldBut`) gives up a further slice disjoint from those already away and takes one back: that is the whole
   algebra of the slots handed between partners. -/

/-! ## The pieces -/

theorem ownAt_eq (p : Dev nD) {s : Shape} {e : EltTy} (M : Memref sig .tc .vmem s e) :
    ownAt (F := F) p M = iprop(∃ f : Buf (Elt F) (M.view.loc (p : Thread nD τ)),
      (M.view.loc (p : Thread nD τ)) ↦[M.view.set]{fullShare} f) := rfl

theorem grant_eq (p : Dev nD) {s : Shape} {e : EltTy} (M : Memref sig .tc .vmem s e) (i : DmaSem sig) (r : ℕ) :
    grant (F := F) p M i r = iprop(ownAt p M ∗ reached ER (dcell p i) r) := rfl

/-- The slot of the last reduce step, layer by layer. -/
theorem grantLast_0 (p : Dev nD) (s : Fin 2) : grantLast (F := F) p s 0 = grant p (R3 s) (rsR s 2) 0 := rfl
theorem grantLast_1 (p : Dev nD) (s : Fin 2) : grantLast (F := F) p s 1 = grant p (R4 s) (rsR s 3) 0 := rfl
theorem grantLast_2 (p : Dev nD) (s : Fin 2) : grantLast (F := F) p s 2 = grant p (R3h s) (rsR s 2) 1 := rfl

theorem localBufs_eq (c : Dev nD) :
    localBufs (F := F) c = iprop((∃ f, ptw (F := F) c cc0_stg0_0 f) ∗ (∃ f, ptw (F := F) c cc0_stg1_0 f) ∗ (∃ f, ptw (F := F) c cc0_stg2_0 f) ∗ (∃ f, ptw (F := F) c cc0_stg3_0 f) ∗ (∃ f, ptw (F := F) c cc0_stg4_0 f) ∗ (∃ f, ptw (F := F) c cc0_stg5_0 f) ∗ (∃ f, ptw (F := F) c cc0_stg6_0 f) ∗ (∃ f, ptw (F := F) c cc0_stg7_0 f) ∗ (∃ f, ptw (F := F) c cc0_scratch2 f) ∗ (∃ f, ptw (F := F) c cc0_scratch3 f) ∗ (∃ f, ptw (F := F) c cc0_scratch4 f) ∗ (∃ f, ptw (F := F) c cc0_scratch5 f) ∗ (∃ f, ptw (F := F) c cc0_scratch8 f) ∗ (∃ f, ptw (F := F) c cc0_scratch9 f)) := rfl

theorem posAt_eq (c : Dev nD) (R : ℕ → ℕ) :
    posAt (F := F) c R = iprop(atPos ER (dcell c (dsem 8)) (R 8) ∅ 0 ∗ reached ER (dcell c (dsem 8)) (R 8)
      ∗ atPos ER (dcell c (dsem 9)) (R 9) ∅ 0 ∗ reached ER (dcell c (dsem 9)) (R 9)
      ∗ atPos ER (dcell c (dsem 10)) (R 10) ∅ 0 ∗ reached ER (dcell c (dsem 10)) (R 10)
      ∗ atPos ER (dcell c (dsem 11)) (R 11) ∅ 0 ∗ reached ER (dcell c (dsem 11)) (R 11)
      ∗ atPos ER (dcell c (dsem 12)) (R 12) ∅ 0 ∗ reached ER (dcell c (dsem 12)) (R 12)
      ∗ atPos ER (dcell c (dsem 13)) (R 13) ∅ 0 ∗ reached ER (dcell c (dsem 13)) (R 13)
      ∗ atPos ER (dcell c (dsem 14)) (R 14) ∅ 0 ∗ reached ER (dcell c (dsem 14)) (R 14)
      ∗ atPos ER (dcell c (dsem 15)) (R 15) ∅ 0 ∗ reached ER (dcell c (dsem 15)) (R 15)
      ∗ atPos ER (dcell c (dsem 16)) (R 16) ∅ 0 ∗ reached ER (dcell c (dsem 16)) (R 16)
      ∗ atPos ER (dcell c (dsem 17)) (R 17) ∅ 0 ∗ reached ER (dcell c (dsem 17)) (R 17)
      ∗ atPos ER (dcell c (dsem 18)) (R 18) ∅ 0 ∗ reached ER (dcell c (dsem 18)) (R 18)
      ∗ atPos ER (dcell c (dsem 19)) (R 19) ∅ 0 ∗ reached ER (dcell c (dsem 19)) (R 19)
      ∗ atPos ER (dcell c (dsem 20)) (R 20) ∅ 0 ∗ reached ER (dcell c (dsem 20)) (R 20)
      ∗ atPos ER (dcell c (dsem 21)) (R 21) ∅ 0 ∗ reached ER (dcell c (dsem 21)) (R 21)
      ∗ atPos ER (dcell c (dsem 22)) (R 22) ∅ 0 ∗ reached ER (dcell c (dsem 22)) (R 22)
      ∗ atPos ER (dcell c (dsem 23)) (R 23) ∅ 0 ∗ reached ER (dcell c (dsem 23)) (R 23)
      ∗ atPos ER (dcell c (dsem 24)) (R 24) ∅ 0 ∗ reached ER (dcell c (dsem 24)) (R 24)
      ∗ atPos ER (dcell c (dsem 25)) (R 25) ∅ 0 ∗ reached ER (dcell c (dsem 25)) (R 25)
      ∗ atPos ER (dcell c (dsem 26)) (R 26) ∅ 0 ∗ reached ER (dcell c (dsem 26)) (R 26)
      ∗ atPos ER (dcell c (dsem 27)) (R 27) ∅ 0 ∗ reached ER (dcell c (dsem 27)) (R 27)
      ∗ atPos ER (dcell c (dsem 28)) (R 28) ∅ 0 ∗ reached ER (dcell c (dsem 28)) (R 28)
      ∗ atPos ER (dcell c (dsem 29)) (R 29) ∅ 0 ∗ reached ER (dcell c (dsem 29)) (R 29)
      ∗ atPos ER (dcell c (dsem 30)) (R 30) ∅ 0 ∗ reached ER (dcell c (dsem 30)) (R 30)
      ∗ atPos ER (dcell c (dsem 31)) (R 31) ∅ 0 ∗ reached ER (dcell c (dsem 31)) (R 31)
      ∗ atPos ER (dcell c (dsem 32)) (R 32) ∅ 0 ∗ reached ER (dcell c (dsem 32)) (R 32)
      ∗ atPos ER (dcell c (dsem 33)) (R 33) ∅ 0 ∗ reached ER (dcell c (dsem 33)) (R 33)
      ∗ atPos ER (dcell c (dsem 34)) (R 34) ∅ 0 ∗ reached ER (dcell c (dsem 34)) (R 34)
      ∗ atPos ER (dcell c (dsem 35)) (R 35) ∅ 0 ∗ reached ER (dcell c (dsem 35)) (R 35)
      ∗ atPos ER (dcell c (dsem 36)) (R 36) ∅ 0 ∗ reached ER (dcell c (dsem 36)) (R 36)
      ∗ atPos ER (dcell c (dsem 37)) (R 37) ∅ 0 ∗ reached ER (dcell c (dsem 37)) (R 37)
      ∗ atPos ER (dcell c (dsem 38)) (R 38) ∅ 0 ∗ reached ER (dcell c (dsem 38)) (R 38)
      ∗ atPos ER (dcell c (dsem 39)) (R 39) ∅ 0 ∗ reached ER (dcell c (dsem 39)) (R 39)) := rfl

/-! ## The copies' tokens and credits, one copy at a time -/

theorem toksCopies_nil (c : Dev nD) (k : ℕ) : toksCopies (F := F) c k [] = iprop(emp) := rfl
theorem toksCopies_cons (c : Dev nD) (k : ℕ) (e : Fin 8 × ℕ × ℕ) (es : List (Fin 8 × ℕ × ℕ)) :
    toksCopies (F := F) c k (e :: es) =
      iprop((dutyTok ER (dcell c (dsem (sendOf e.2.1))) e.2.2 (0 : DD) ∗ dutyTok ER (dcell (xr e.1 c) (dsem e.2.1)) e.2.2 (0 : DD))
        ∗ toksCopies c (k + 1) es) := rfl

theorem credsCopies_nil (c : Dev nD) (k : ℕ) : credsCopies (F := F) c k [] = iprop(emp) := rfl
theorem credsCopies_cons (c : Dev nD) (k : ℕ) (e : Fin 8 × ℕ × ℕ) (es : List (Fin 8 × ℕ × ℕ)) :
    credsCopies (F := F) c k (e :: es) =
      iprop(cred (tallyAt (dcell c (dsem e.2.1)) (k + 1) (amtDma e.2.1 e.2.2)) ∗ credsCopies c (k + 1) es) := rfl

/-- Copy `k` off the list of the copies to come, the rest as it stands after that copy. -/
theorem toksCopies_drop (c : Dev nD) (k : ℕ) (e : Fin 8 × ℕ × ℕ) (h : copyTab[k]? = some e) :
    toksCopies (F := F) c k (copyTab.drop k) =
      iprop((dutyTok ER (dcell c (dsem (sendOf e.2.1))) e.2.2 (0 : DD) ∗ dutyTok ER (dcell (xr e.1 c) (dsem e.2.1)) e.2.2 (0 : DD))
        ∗ toksCopies c (k + 1) (copyTab.drop (k + 1))) := by
  obtain ⟨hk, he⟩ := List.getElem?_eq_some_iff.mp h
  rw [List.drop_eq_getElem_cons hk, he]
  rfl

theorem credsCopies_drop (c : Dev nD) (k : ℕ) (e : Fin 8 × ℕ × ℕ) (h : copyTab[k]? = some e) :
    credsCopies (F := F) c k (copyTab.drop k) =
      iprop(cred (tallyAt (dcell c (dsem e.2.1)) (k + 1) (amtDma e.2.1 e.2.2)) ∗ credsCopies c (k + 1) (copyTab.drop (k + 1))) := by
  obtain ⟨hk, he⟩ := List.getElem?_eq_some_iff.mp h
  rw [List.drop_eq_getElem_cons hk, he]
  rfl

/-! ## The states -/

theorem core_eq (K : GSem nD τ sig → ℕ) (c : Dev nD) (k₀ : ℕ) :
    core (F := F) K c k₀ = iprop(invsAll (F := F) K ∗ reachedAll ∗ levAts L lv ∗ atPos ER (barCell c) 1 ∅ 0
      ∗ posAt c (roundsDone k₀) ∗ toksCopies c k₀ (copyTab.drop k₀) ∗ credsCopies c k₀ (copyTab.drop k₀)
      ∗ (∃ W, owes (c : Thread nD τ) (owedFrom c k₀) W) ∗ localBufs c) := rfl

theorem Q4_eq (K : GSem nD τ sig → ℕ) (c : Dev nD) :
    Q4 (F := F) K c = iprop(core (F := F) K c 4
      ∗ heldBut c cc0_scratch0 (VE2 0 (xr 4 c)).view.set ∗ heldBut c cc0_scratch1 (VE2 1 (xr 1 c)).view.set
      ∗ heldBut c cc0_scratch6 (R2 0).view.set ∗ heldBut c cc0_scratch7 ∅
      ∗ grant (xr 4 c) (VE2 0 c) (agR 0 2) 0 ∗ grant (xr 1 c) (VE2 1 c) (agR 1 2) 0 ∗ grant (xr 3 c) (R2 0) (rsR 0 1) 0) := rfl

/-- After the third exchange of layer `l`, at `(k₀, l)` = (6, 0), (18, 1), (30, 2). -/
theorem QE2_eq (K : GSem nD τ sig → ℕ) (c : Dev nD) (k₀ l : ℕ) :
    QE2 (F := F) K c k₀ l = iprop(core (F := F) K c k₀
      ∗ heldBut c cc0_scratch0 ∅ ∗ heldBut c cc0_scratch1 ∅
      ∗ heldBut c cc0_scratch6 ((R0 0).view.set ∪ (R1 0).view.set ∪ (R2 0).view.set) ∗ heldBut c cc0_scratch7 ((R0 1).view.set ∪ (R1 1).view.set)
      ∗ grant (xr 4 c) (R0 0) (rsR 0 0) l ∗ grant (xr 1 c) (R0 1) (rsR 1 0) l ∗ grant (xr 4 c) (R1 0) (rsR 0 4) l
      ∗ grant (xr 1 c) (R1 1) (rsR 1 4) l ∗ grant (xr 3 c) (R2 0) (rsR 0 1) l) := rfl

/-- After the two half-block reduce steps, layer 0: the last step's slot is rows 768.. of the receive buffer. -/
theorem QAB_10_eq (K : GSem nD τ sig → ℕ) (c : Dev nD) :
    QAB (F := F) K c 10 0 = iprop(core (F := F) K c 10
      ∗ heldBut c cc0_scratch0 ∅ ∗ heldBut c cc0_scratch1 ∅
      ∗ heldBut c cc0_scratch6 ((R2 0).view.set ∪ (R3 0).view.set)
      ∗ heldBut c cc0_scratch7 (R2 1).view.set
      ∗ grant (xr 3 c) (R2 0) (rsR 0 1) 0 ∗ grant (xr 4 c) (R2 1) (rsR 1 1) 0 ∗ grant (xr 1 c) (R3 0) (rsR 0 2) 0) := rfl

/-- Layer 1: rows 1024.. -/
theorem QAB_22_eq (K : GSem nD τ sig → ℕ) (c : Dev nD) :
    QAB (F := F) K c 22 1 = iprop(core (F := F) K c 22
      ∗ heldBut c cc0_scratch0 ∅ ∗ heldBut c cc0_scratch1 ∅
      ∗ heldBut c cc0_scratch6 ((R2 0).view.set ∪ (R4 0).view.set)
      ∗ heldBut c cc0_scratch7 (R2 1).view.set
      ∗ grant (xr 3 c) (R2 0) (rsR 0 1) 1 ∗ grant (xr 4 c) (R2 1) (rsR 1 1) 1 ∗ grant (xr 1 c) (R4 0) (rsR 0 3) 0) := rfl

/-- Layer 2: the 128 rows at 768. -/
theorem QAB_34_eq (K : GSem nD τ sig → ℕ) (c : Dev nD) :
    QAB (F := F) K c 34 2 = iprop(core (F := F) K c 34
      ∗ heldBut c cc0_scratch0 ∅ ∗ heldBut c cc0_scratch1 ∅
      ∗ heldBut c cc0_scratch6 ((R2 0).view.set ∪ (R3h 0).view.set)
      ∗ heldBut c cc0_scratch7 (R2 1).view.set
      ∗ grant (xr 3 c) (R2 0) (rsR 0 1) 2 ∗ grant (xr 4 c) (R2 1) (rsR 1 1) 2 ∗ grant (xr 1 c) (R3h 0) (rsR 0 2) 1) := rfl

/-- After the third reduce step, layer 0. -/
theorem QC_12_eq (K : GSem nD τ sig → ℕ) (c : Dev nD) :
    QC (F := F) K c 12 0 = iprop(core (F := F) K c 12
      ∗ heldBut c cc0_scratch0 ∅
      ∗ heldBut c cc0_scratch1 (VE1 1 (xr 4 c)).view.set
      ∗ heldBut c cc0_scratch6 (R3 0).view.set
      ∗ heldBut c cc0_scratch7 (R3 1).view.set
      ∗ grant (xr 1 c) (R3 0) (rsR 0 2) 0 ∗ grant (xr 3 c) (R3 1) (rsR 1 2) 0
      ∗ grant (xr 4 c) (VE1 1 c) (agR 1 1) 1) := rfl

/-- Layer 1. -/
theorem QC_24_eq (K : GSem nD τ sig → ℕ) (c : Dev nD) :
    QC (F := F) K c 24 1 = iprop(core (F := F) K c 24
      ∗ heldBut c cc0_scratch0 ∅
      ∗ heldBut c cc0_scratch1 (VE1 1 (xr 4 c)).view.set
      ∗ heldBut c cc0_scratch6 (R4 0).view.set
      ∗ heldBut c cc0_scratch7 (R4 1).view.set
      ∗ grant (xr 1 c) (R4 0) (rsR 0 3) 0 ∗ grant (xr 3 c) (R4 1) (rsR 1 3) 0
      ∗ grant (xr 4 c) (VE1 1 c) (agR 1 1) 2) := rfl

/-- Layer 2: no next layer, so nothing of the gather buffer is away and no slot of it is held. -/
theorem QC_36_eq (K : GSem nD τ sig → ℕ) (c : Dev nD) :
    QC (F := F) K c 36 2 = iprop(core (F := F) K c 36
      ∗ heldBut c cc0_scratch0 ∅
      ∗ heldBut c cc0_scratch1 ∅
      ∗ heldBut c cc0_scratch6 (R3h 0).view.set
      ∗ heldBut c cc0_scratch7 (R3h 1).view.set
      ∗ grant (xr 1 c) (R3h 0) (rsR 0 2) 1 ∗ grant (xr 3 c) (R3h 1) (rsR 1 2) 1
      ∗ emp) := rfl

/-- After the last step of layer 0. -/
theorem QD_14_eq (K : GSem nD τ sig → ℕ) (c : Dev nD) :
    QD (F := F) K c 14 0 = iprop(core (F := F) K c 14
      ∗ heldBut c cc0_scratch0 (VE1 0 (xr 3 c)).view.set
      ∗ heldBut c cc0_scratch1 ((VE1 1 (xr 4 c)).view.set ∪ (VE2 1 (xr 1 c)).view.set)
      ∗ heldBut c cc0_scratch6 ∅ ∗ heldBut c cc0_scratch7 ∅
      ∗ grant (xr 3 c) (VE1 0 c) (agR 0 1) 1 ∗ grant (xr 4 c) (VE1 1 c) (agR 1 1) 1 ∗ grant (xr 1 c) (VE2 1 c) (agR 1 2) 1) := rfl

/-- Of layer 1. -/
theorem QD_26_eq (K : GSem nD τ sig → ℕ) (c : Dev nD) :
    QD (F := F) K c 26 1 = iprop(core (F := F) K c 26
      ∗ heldBut c cc0_scratch0 (VE1 0 (xr 3 c)).view.set
      ∗ heldBut c cc0_scratch1 ((VE1 1 (xr 4 c)).view.set ∪ (VE2 1 (xr 1 c)).view.set)
      ∗ heldBut c cc0_scratch6 ∅ ∗ heldBut c cc0_scratch7 ∅
      ∗ grant (xr 3 c) (VE1 0 c) (agR 0 1) 2 ∗ grant (xr 4 c) (VE1 1 c) (agR 1 1) 2 ∗ grant (xr 1 c) (VE2 1 c) (agR 1 2) 2) := rfl

theorem Q28_eq (K : GSem nD τ sig → ℕ) (c : Dev nD) :
    Q28 (F := F) K c = iprop(core (F := F) K c 28
      ∗ heldBut c cc0_scratch0 (VE2 0 (xr 4 c)).view.set ∗ heldBut c cc0_scratch1 (VE2 1 (xr 1 c)).view.set
      ∗ heldBut c cc0_scratch6 (R2 0).view.set ∗ heldBut c cc0_scratch7 ∅
      ∗ grant (xr 4 c) (VE2 0 c) (agR 0 2) 2 ∗ grant (xr 1 c) (VE2 1 c) (agR 1 2) 2 ∗ grant (xr 3 c) (R2 0) (rsR 0 1) 2) := rfl

theorem Q38_eq (K : GSem nD τ sig → ℕ) (c : Dev nD) :
    Q38 (F := F) K c = iprop(core (F := F) K c 38
      ∗ heldBut c cc0_scratch0 ∅ ∗ heldBut c cc0_scratch1 ∅ ∗ heldBut c cc0_scratch6 ∅ ∗ heldBut c cc0_scratch7 ∅) := rfl

/-! ## A buffer held without some of its elements -/

/-- Leaving out two sets is leaving out one and then the other. -/
theorem univ_sdiff_union {α : Type} [Fintype α] [DecidableEq α] (A B : Finset α) :
    Finset.univ \ (A ∪ B) = (Finset.univ \ A) \ B := by
  ext i
  simp only [Finset.mem_sdiff, Finset.mem_union, Finset.mem_univ, true_and, not_or]

/-- Nothing away: the buffer whole. -/
theorem heldBut_empty (c : Dev nD) (b : Ref sig .tc) : heldBut (F := F) c b ∅ = iprop(∃ f, ptw (F := F) c b f) := by
  unfold heldBut
  rw [Finset.sdiff_empty]

theorem heldBut_intro (c : Dev nD) (b : Ref sig .tc) (A : Finset (Idx ((Memref.whole b).view.loc (c : Thread nD τ))))
    (f : Buf (Elt F) ((Memref.whole b).view.loc (c : Thread nD τ))) :
    ((Memref.whole b).view.loc (c : Thread nD τ) ↦[Finset.univ \ A]{fullShare} f : sProp 𝕄) ⊢ heldBut c b A := by
  unfold heldBut
  iintro H
  iexists f
  iexact H

/-- The whole buffer is the buffer with nothing away. -/
theorem heldBut_of_whole (c : Dev nD) (b : Ref sig .tc) (f : Buf (Elt F) ((Memref.whole b).view.loc (c : Thread nD τ))) :
    ptw (F := F) c b f ⊢ heldBut c b ∅ := by
  rw [heldBut_empty]
  iintro H
  iexists f
  iexact H

/-- Elements disjoint from those away come out of what is held, at the contents the rest keeps. -/
theorem heldBut_split (c : Dev nD) (b : Ref sig .tc) (A B : Finset (Idx ((Memref.whole b).view.loc (c : Thread nD τ))))
    (hd : Disjoint A B) :
    heldBut (F := F) c b A ⊢ iprop(∃ f : Buf (Elt F) ((Memref.whole b).view.loc (c : Thread nD τ)),
      ((Memref.whole b).view.loc (c : Thread nD τ) ↦[B]{fullShare} f)
        ∗ ((Memref.whole b).view.loc (c : Thread nD τ) ↦[(Finset.univ \ A) \ B]{fullShare} f)) := by
  unfold heldBut
  iintro ⟨%f, H⟩
  iexists f
  iapply (rest_split hd f).1
  iexact H

/-- And go back in, at whatever contents. -/
theorem heldBut_join (c : Dev nD) (b : Ref sig .tc) (A B : Finset (Idx ((Memref.whole b).view.loc (c : Thread nD τ))))
    (hd : Disjoint A B) (f g : Buf (Elt F) ((Memref.whole b).view.loc (c : Thread nD τ))) :
    iprop(((Memref.whole b).view.loc (c : Thread nD τ) ↦[B]{fullShare} g)
        ∗ ((Memref.whole b).view.loc (c : Thread nD τ) ↦[(Finset.univ \ A) \ B]{fullShare} f))
      ⊢ heldBut (F := F) c b A :=
  (rest_join_at hd f g).trans (heldBut_intro c b A _)

/-- Held without a union: without the one set and then without the other. -/
theorem heldBut_union (c : Dev nD) (b : Ref sig .tc) (A B : Finset (Idx ((Memref.whole b).view.loc (c : Thread nD τ)))) :
    heldBut (F := F) c b (A ∪ B) = iprop(∃ f : Buf (Elt F) ((Memref.whole b).view.loc (c : Thread nD τ)),
      (Memref.whole b).view.loc (c : Thread nD τ) ↦[(Finset.univ \ A) \ B]{fullShare} f) := by
  unfold heldBut
  rw [univ_sdiff_union]

theorem heldBut_congr (c : Dev nD) (b : Ref sig .tc) {A A' : Finset (Idx ((Memref.whole b).view.loc (c : Thread nD τ)))}
    (h : A = A') : heldBut (F := F) c b A = heldBut c b A' := by rw [h]

/-- Giving up the elements `B`, disjoint from those already away, and taking them back: both ways. -/
theorem heldBut_take (c : Dev nD) (b : Ref sig .tc) (A B : Finset (Idx ((Memref.whole b).view.loc (c : Thread nD τ))))
    (hd : Disjoint A B) :
    heldBut (F := F) c b A ⊣⊢ iprop((∃ g : Buf (Elt F) ((Memref.whole b).view.loc (c : Thread nD τ)),
        (Memref.whole b).view.loc (c : Thread nD τ) ↦[B]{fullShare} g) ∗ heldBut (F := F) c b (A ∪ B)) := by
  constructor
  · rw [heldBut_union]
    iintro H
    ihave H' := (heldBut_split c b A B hd) $$ H
    icases H' with ⟨%f, H1, H2⟩
    isplitl [H1]
    · iexists f
      iexact H1
    · iexists f
      iexact H2
  · rw [heldBut_union]
    iintro ⟨⟨%g, H1⟩, ⟨%f, H2⟩⟩
    iapply (heldBut_join c b A B hd f g)
    isplitl [H1]
    · iexact H1
    · iexact H2

/-- The same for a slice of the buffer: it comes out as the slice at some contents (what a copy's landing or a
    grant speaks of), and the buffer is held without it too. -/
theorem heldBut_take_view (c : Dev nD) {s : Shape} {e : EltTy} (M : Memref sig .tc .vmem s e)
    (A : Finset (Idx (M.view.loc (c : Thread nD τ)))) (hd : Disjoint A M.view.set) :
    heldBut (F := F) c M.view.ref A ⊣⊢ iprop(ownAt c M ∗ heldBut (F := F) c M.view.ref (A ∪ M.view.set)) :=
  heldBut_take c M.view.ref A M.view.set hd

/-- From the buffer whole. -/
theorem heldBut_take_view_empty (c : Dev nD) {s : Shape} {e : EltTy} (M : Memref sig .tc .vmem s e) :
    heldBut (F := F) c M.view.ref ∅ ⊣⊢ iprop(ownAt c M ∗ heldBut (F := F) c M.view.ref M.view.set) := by
  have h := heldBut_take_view (F := F) c M ∅ (Finset.disjoint_empty_left _)
  rw [Finset.empty_union] at h
  exact h

/-- A slice that is away comes back: written on the right of what else is away … -/
theorem heldBut_put_right (c : Dev nD) {s : Shape} {e : EltTy} (M : Memref sig .tc .vmem s e)
    (A : Finset (Idx (M.view.loc (c : Thread nD τ)))) (hd : Disjoint A M.view.set) :
    iprop(ownAt c M ∗ heldBut (F := F) c M.view.ref (A ∪ M.view.set)) ⊢ heldBut (F := F) c M.view.ref A :=
  (heldBut_take_view c M A hd).2

/-- … or on the left. -/
theorem heldBut_put_left (c : Dev nD) {s : Shape} {e : EltTy} (M : Memref sig .tc .vmem s e)
    (A : Finset (Idx (M.view.loc (c : Thread nD τ)))) (hd : Disjoint A M.view.set) :
    iprop(ownAt c M ∗ heldBut (F := F) c M.view.ref (M.view.set ∪ A)) ⊢ heldBut (F := F) c M.view.ref A := by
  rw [Finset.union_comm]
  exact heldBut_put_right c M A hd

/-- The only slice away comes back: the buffer is whole. -/
theorem heldBut_put_only (c : Dev nD) {s : Shape} {e : EltTy} (M : Memref sig .tc .vmem s e) :
    iprop(ownAt c M ∗ heldBut (F := F) c M.view.ref M.view.set) ⊢ heldBut (F := F) c M.view.ref ∅ :=
  (heldBut_take_view_empty c M).2

/-! ## At launch -/

theorem ghost_eq (K : GSem nD τ sig → ℕ) (c : Dev nD) :
    ghost (F := F) K c = iprop(invsAll (F := F) K ∗ reachedAll ∗ posAll c ∗ toks c) := rfl

theorem Φ₀_eq (c : Dev nD) :
    Φ₀ (F := F) c = iprop((∃ K, ghost (F := F) K c) ∗ creds c ∗ levAts L lv ∗ scratchAll c) := rfl

/-- The three entry signals' duties on the partners' barrier cells, then the copies'. -/
theorem toks_eq (c : Dev nD) :
    toks (F := F) c = iprop(dutyTok ER (barCell (xr 1 c)) 0 (0 : DD) ∗ dutyTok ER (barCell (xr 3 c)) 0 (1 : DD)
      ∗ dutyTok ER (barCell (xr 4 c)) 0 (2 : DD) ∗ toksCopies c 0 (copyTab.drop 0)) := rfl

/-- The barrier cell's three units, then what the partners' copies land. -/
theorem creds_eq (c : Dev nD) :
    creds (F := F) c = iprop(cred (tallyAt (barCell c) 0 3) ∗ credsCopies c 0 (copyTab.drop 0)) := rfl

/-- The ten scratch buffers, each held whole through its memref. -/
theorem scratchAll_eq (c : Dev nD) :
    scratchAll (F := F) c = iprop((∃ f, ptw (F := F) c cc0_scratch0 f) ∗ (∃ f, ptw (F := F) c cc0_scratch1 f) ∗ (∃ f, ptw (F := F) c cc0_scratch2 f) ∗ (∃ f, ptw (F := F) c cc0_scratch3 f) ∗ (∃ f, ptw (F := F) c cc0_scratch4 f) ∗ (∃ f, ptw (F := F) c cc0_scratch5 f) ∗ (∃ f, ptw (F := F) c cc0_scratch6 f) ∗ (∃ f, ptw (F := F) c cc0_scratch7 f) ∗ (∃ f, ptw (F := F) c cc0_scratch8 f) ∗ (∃ f, ptw (F := F) c cc0_scratch9 f)) := rfl

/-- The owner's position on its barrier cell and on each of its 32 DMA cells, before anything is consumed. -/
theorem posAll_eq (c : Dev nD) :
    posAll (F := F) c = iprop(atPos ER (barCell c) 0 ∅ 0
      ∗ atPos ER (dcell c (dsem 8)) 0 ∅ 0
      ∗ atPos ER (dcell c (dsem 9)) 0 ∅ 0
      ∗ atPos ER (dcell c (dsem 10)) 0 ∅ 0
      ∗ atPos ER (dcell c (dsem 11)) 0 ∅ 0
      ∗ atPos ER (dcell c (dsem 12)) 0 ∅ 0
      ∗ atPos ER (dcell c (dsem 13)) 0 ∅ 0
      ∗ atPos ER (dcell c (dsem 14)) 0 ∅ 0
      ∗ atPos ER (dcell c (dsem 15)) 0 ∅ 0
      ∗ atPos ER (dcell c (dsem 16)) 0 ∅ 0
      ∗ atPos ER (dcell c (dsem 17)) 0 ∅ 0
      ∗ atPos ER (dcell c (dsem 18)) 0 ∅ 0
      ∗ atPos ER (dcell c (dsem 19)) 0 ∅ 0
      ∗ atPos ER (dcell c (dsem 20)) 0 ∅ 0
      ∗ atPos ER (dcell c (dsem 21)) 0 ∅ 0
      ∗ atPos ER (dcell c (dsem 22)) 0 ∅ 0
      ∗ atPos ER (dcell c (dsem 23)) 0 ∅ 0
      ∗ atPos ER (dcell c (dsem 24)) 0 ∅ 0
      ∗ atPos ER (dcell c (dsem 25)) 0 ∅ 0
      ∗ atPos ER (dcell c (dsem 26)) 0 ∅ 0
      ∗ atPos ER (dcell c (dsem 27)) 0 ∅ 0
      ∗ atPos ER (dcell c (dsem 28)) 0 ∅ 0
      ∗ atPos ER (dcell c (dsem 29)) 0 ∅ 0
      ∗ atPos ER (dcell c (dsem 30)) 0 ∅ 0
      ∗ atPos ER (dcell c (dsem 31)) 0 ∅ 0
      ∗ atPos ER (dcell c (dsem 32)) 0 ∅ 0
      ∗ atPos ER (dcell c (dsem 33)) 0 ∅ 0
      ∗ atPos ER (dcell c (dsem 34)) 0 ∅ 0
      ∗ atPos ER (dcell c (dsem 35)) 0 ∅ 0
      ∗ atPos ER (dcell c (dsem 36)) 0 ∅ 0
      ∗ atPos ER (dcell c (dsem 37)) 0 ∅ 0
      ∗ atPos ER (dcell c (dsem 38)) 0 ∅ 0
      ∗ atPos ER (dcell c (dsem 39)) 0 ∅ 0) := by
  unfold posAll
  rw [bigSep_univ_eq_bigSepL [0, 1, 2, 3, 4, 5, 6, 7, 8, 9, 10, 11, 12, 13, 14, 15, 16, 17, 18, 19, 20, 21, 22, 23, 24, 25, 26, 27, 28, 29, 30, 31, 32] (by decide) (by decide)]
  rfl

/-! ## These rest on the standard axioms only -/

/-- info: 'Cert.KernelIdeal.Hand.heldBut_take_view' depends on axioms: [propext, Classical.choice, Quot.sound] -/
#guard_msgs in #print axioms heldBut_take_view
/-- info: 'Cert.KernelIdeal.Hand.posAll_eq' depends on axioms: [propext, Classical.choice, Quot.sound] -/
#guard_msgs in #print axioms posAll_eq

end Cert.KernelIdeal.Hand

end
-- ==== Proof.KernelIdeal.Seg1Close.lean ====
import proofs.«900979_g7700000000000980_dist_mlpseq_tp1d_bs_bs_b256_d256_h512_v7x_i8_bf16_1_alg».proof.Proof.KernelIdeal.Steps
import proofs.«900979_g7700000000000980_dist_mlpseq_tp1d_bs_bs_b256_d256_h512_v7x_i8_bf16_1_alg».proof.Proof.KernelIdeal.QuietLemmas

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # The first quiet state, from what a device holds after the first two exchanges

   After the entry handshake and the copies 0 to 3 the eight cells of those copies (send and receive, both streams,
   first and second exchange) stand at round 1 and all the others at round 0; that the latter have reached round 0 is
   part of what every device knows from the launch. Each gather buffer is held without the rows of the partner's third
   exchange, the first receive buffer without the slot of the partner's third reduce step, and the three partners'
   slots for the own copies of those numbers are held. -/

theorem Q4_intro (K : GSem nD τ sig → ℕ) (c : Dev nD) :
    iprop(invsAll (F := F) K ∗ reachedAll ∗ levAts L lv ∗ atPos ER (barCell c) 1 ∅ 0
      ∗ atPos ER (dcell c (dsem 8)) 1 ∅ 0
      ∗ atPos ER (dcell c (dsem 9)) 1 ∅ 0
      ∗ atPos ER (dcell c (dsem 10)) 0 ∅ 0
      ∗ atPos ER (dcell c (dsem 11)) 1 ∅ 0
      ∗ atPos ER (dcell c (dsem 12)) 1 ∅ 0
      ∗ atPos ER (dcell c (dsem 13)) 0 ∅ 0
      ∗ atPos ER (dcell c (dsem 14)) 1 ∅ 0
      ∗ atPos ER (dcell c (dsem 15)) 1 ∅ 0
      ∗ atPos ER (dcell c (dsem 16)) 0 ∅ 0
      ∗ atPos ER (dcell c (dsem 17)) 1 ∅ 0
      ∗ atPos ER (dcell c (dsem 18)) 1 ∅ 0
      ∗ atPos ER (dcell c (dsem 19)) 0 ∅ 0
      ∗ atPos ER (dcell c (dsem 20)) 0 ∅ 0
      ∗ atPos ER (dcell c (dsem 21)) 0 ∅ 0
      ∗ atPos ER (dcell c (dsem 22)) 0 ∅ 0
      ∗ atPos ER (dcell c (dsem 23)) 0 ∅ 0
      ∗ atPos ER (dcell c (dsem 24)) 0 ∅ 0
      ∗ atPos ER (dcell c (dsem 25)) 0 ∅ 0
      ∗ atPos ER (dcell c (dsem 26)) 0 ∅ 0
      ∗ atPos ER (dcell c (dsem 27)) 0 ∅ 0
      ∗ atPos ER (dcell c (dsem 28)) 0 ∅ 0
      ∗ atPos ER (dcell c (dsem 29)) 0 ∅ 0
      ∗ atPos ER (dcell c (dsem 30)) 0 ∅ 0
      ∗ atPos ER (dcell c (dsem 31)) 0 ∅ 0
      ∗ atPos ER (dcell c (dsem 32)) 0 ∅ 0
      ∗ atPos ER (dcell c (dsem 33)) 0 ∅ 0
      ∗ atPos ER (dcell c (dsem 34)) 0 ∅ 0
      ∗ atPos ER (dcell c (dsem 35)) 0 ∅ 0
      ∗ atPos ER (dcell c (dsem 36)) 0 ∅ 0
      ∗ atPos ER (dcell c (dsem 37)) 0 ∅ 0
      ∗ atPos ER (dcell c (dsem 38)) 0 ∅ 0
      ∗ atPos ER (dcell c (dsem 39)) 0 ∅ 0
      ∗ reached ER (dcell c (dsem 8)) 1 ∗ reached ER (dcell c (dsem 9)) 1 ∗ reached ER (dcell c (dsem 11)) 1 ∗ reached ER (dcell c (dsem 12)) 1 ∗ reached ER (dcell c (dsem 14)) 1 ∗ reached ER (dcell c (dsem 15)) 1 ∗ reached ER (dcell c (dsem 17)) 1 ∗ reached ER (dcell c (dsem 18)) 1
      ∗ toksCopies c 4 (copyTab.drop 4) ∗ credsCopies c 4 (copyTab.drop 4)
      ∗ (∃ W, owes (c : Thread nD τ) (owedFrom c 4) W) ∗ localBufs c
      ∗ heldBut c cc0_scratch0 (VE2 0 (xr 4 c)).view.set ∗ heldBut c cc0_scratch1 (VE2 1 (xr 1 c)).view.set
      ∗ heldBut c cc0_scratch6 (R2 0).view.set ∗ heldBut c cc0_scratch7 ∅
      ∗ grant (xr 4 c) (VE2 0 c) (agR 0 2) 0 ∗ grant (xr 1 c) (VE2 1 c) (agR 1 2) 0 ∗ grant (xr 3 c) (R2 0) (rsR 0 1) 0)
      ⊢ Q4 (F := F) K c := by
  rw [Q4_eq, core_eq, posAt_4]
  iintro ⟨#HI, #HR, #Hlev, Hbar, A8, A9, A10, A11, A12, A13, A14, A15, A16, A17, A18, A19, A20, A21, A22, A23, A24, A25, A26, A27, A28, A29, A30, A31, A32, A33, A34, A35, A36, A37, A38, A39, #P8, #P9, #P11, #P12, #P14, #P15, #P17, #P18, Htoks, Hcreds, HO, Hloc, H0, H1, H6, H7, G1, G2, G3⟩
  -- the cells no copy has used yet have reached their first round
  ihave #P10 := (reached_dma (F := F) c 10 (by omega) (by omega)) $$ HR
  ihave #P13 := (reached_dma (F := F) c 13 (by omega) (by omega)) $$ HR
  ihave #P16 := (reached_dma (F := F) c 16 (by omega) (by omega)) $$ HR
  ihave #P19 := (reached_dma (F := F) c 19 (by omega) (by omega)) $$ HR
  ihave #P20 := (reached_dma (F := F) c 20 (by omega) (by omega)) $$ HR
  ihave #P21 := (reached_dma (F := F) c 21 (by omega) (by omega)) $$ HR
  ihave #P22 := (reached_dma (F := F) c 22 (by omega) (by omega)) $$ HR
  ihave #P23 := (reached_dma (F := F) c 23 (by omega) (by omega)) $$ HR
  ihave #P24 := (reached_dma (F := F) c 24 (by omega) (by omega)) $$ HR
  ihave #P25 := (reached_dma (F := F) c 25 (by omega) (by omega)) $$ HR
  ihave #P26 := (reached_dma (F := F) c 26 (by omega) (by omega)) $$ HR
  ihave #P27 := (reached_dma (F := F) c 27 (by omega) (by omega)) $$ HR
  ihave #P28 := (reached_dma (F := F) c 28 (by omega) (by omega)) $$ HR
  ihave #P29 := (reached_dma (F := F) c 29 (by omega) (by omega)) $$ HR
  ihave #P30 := (reached_dma (F := F) c 30 (by omega) (by omega)) $$ HR
  ihave #P31 := (reached_dma (F := F) c 31 (by omega) (by omega)) $$ HR
  ihave #P32 := (reached_dma (F := F) c 32 (by omega) (by omega)) $$ HR
  ihave #P33 := (reached_dma (F := F) c 33 (by omega) (by omega)) $$ HR
  ihave #P34 := (reached_dma (F := F) c 34 (by omega) (by omega)) $$ HR
  ihave #P35 := (reached_dma (F := F) c 35 (by omega) (by omega)) $$ HR
  ihave #P36 := (reached_dma (F := F) c 36 (by omega) (by omega)) $$ HR
  ihave #P37 := (reached_dma (F := F) c 37 (by omega) (by omega)) $$ HR
  ihave #P38 := (reached_dma (F := F) c 38 (by omega) (by omega)) $$ HR
  ihave #P39 := (reached_dma (F := F) c 39 (by omega) (by omega)) $$ HR
  isplitr [H0 H1 H6 H7 G1 G2 G3]
  · isplitr; · iexact HI
    isplitr; · iexact HR
    isplitr; · iexact Hlev
    isplitl [Hbar]; · iexact Hbar
    isplitl [A8 A9 A10 A11 A12 A13 A14 A15 A16 A17 A18 A19 A20 A21 A22 A23 A24 A25 A26 A27 A28 A29 A30 A31 A32 A33 A34 A35 A36 A37 A38 A39]
    · iframe ∗ #
    isplitl [Htoks]; · iexact Htoks
    isplitl [Hcreds]; · iexact Hcreds
    isplitl [HO]; · iexact HO
    iexact Hloc
  · isplitl [H0]; · iexact H0
    isplitl [H1]; · iexact H1
    isplitl [H6]; · iexact H6
    isplitl [H7]; · iexact H7
    isplitl [G1]; · iexact G1
    isplitl [G2]; · iexact G2
    iexact G3

/-- info: 'Cert.KernelIdeal.Hand.Q4_intro' depends on axioms: [propext, Classical.choice, Quot.sound] -/
#guard_msgs in #print axioms Q4_intro

end Cert.KernelIdeal.Hand

end
-- ==== Proof.KernelIdeal.Seg1.lean ====
/- Segment 1 of the body: the entry handshake (a signal to each of the three partners, the wait for theirs) and the
   first two exchanges of both streams (copies 0 to 3). Each signal and each copy hands the partner the slot of this
   device's buffer that the partner's next copy of that chain writes; each landing hands this device the partner's.
   The second exchange lends half a share of its source rows, which the first layer's matrix products read meanwhile. -/
import proofs.«900979_g7700000000000980_dist_mlpseq_tp1d_bs_bs_b256_d256_h512_v7x_i8_bf16_1_alg».proof.Proof.KernelIdeal.State
import proofs.«900979_g7700000000000980_dist_mlpseq_tp1d_bs_bs_b256_d256_h512_v7x_i8_bf16_1_alg».proof.Proof.KernelIdeal.Specs
import proofs.«900979_g7700000000000980_dist_mlpseq_tp1d_bs_bs_b256_d256_h512_v7x_i8_bf16_1_alg».proof.Proof.KernelIdeal.Steps
import proofs.«900979_g7700000000000980_dist_mlpseq_tp1d_bs_bs_b256_d256_h512_v7x_i8_bf16_1_alg».proof.Proof.KernelIdeal.QuietLemmas
import proofs.«900979_g7700000000000980_dist_mlpseq_tp1d_bs_bs_b256_d256_h512_v7x_i8_bf16_1_alg».proof.Proof.KernelIdeal.Seg1Close

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.Tactic

/-! ## Rules at the program's own spelling

    The printed program names a partner by its device chain and a semaphore by a slice of its array; the rule for a
    remote copy is stated here at those terms, each with the equation to the protocol's name. -/

/-- On a whole buffer the elements under a set of indices are that set. -/
private theorem setOn_whole1 (b : Ref sig .tc) (M : Finset b.ty.shape.Idx) : (Memref.whole b).view.setOn M = M := by
  show M.map (View.whole b).emb = M
  rw [View.emb_whole]; exact Finset.map_refl

/-- A unit-stride rectangle inside another's span on every axis is contained in it. -/
private theorem unit_subset1 {s : Shape} {off size off' size' : Fin s.rank → ℕ} {inb inb'}
    (h : ∀ a, off' a ≤ off a ∧ off a + size a ≤ off' a + size' a) :
    (Rect.unit (s := s) off size inb).set ⊆ (Rect.unit (s := s) off' size' inb').set := by
  intro i hi
  rw [Rect.mem_set_unit] at hi ⊢
  intro a
  have h1 := hi a
  have h2 := h a
  omega

/-- The copy rule with the partner and the semaphores as the program spells them. -/
private theorem send_copy_printed (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-! ## The partners are routable -/

theorem routes1 : ∀ c : Dev nD, τ.routes (c : Thread nD τ) (xr 1 c : Thread nD τ) = true := by decide
theorem routes3 : ∀ c : Dev nD, τ.routes (c : Thread nD τ) (xr 3 c : Thread nD τ) = true := by decide
theorem routes4 : ∀ c : Dev nD, τ.routes (c : Thread nD τ) (xr 4 c : Thread nD τ) = true := by decide

/-! ## The row blocks of the two gather buffers that are away during the first two exchanges

    Stream 0 (index `c`): the other half of the buffer (the partner's four blocks of the third exchange), the other
    pair of the own half (the partner's of the second), the other block of the own pair (the partner's of the first),
    the own block. Stream 1 the same at the index `q(c)`. They are cut out in this order, so that they come back
    last out, first in. -/

theorem d0_1 (c : Dev nD) : Disjoint (VE2 0 (xr 4 c)).view.set (VE1 0 (xr 3 c)).view.set :=
  disj_slices cc0_scratch0 0 (by revert c; decide +kernel)
theorem d0_2 (c : Dev nD) :
    Disjoint ((VE2 0 (xr 4 c)).view.set ∪ (VE1 0 (xr 3 c)).view.set) (VE0 0 (xr 1 c)).view.set :=
  Finset.disjoint_union_left.mpr ⟨disj_slices cc0_scratch0 0 (by revert c; decide +kernel),
    disj_slices cc0_scratch0 0 (by revert c; decide +kernel)⟩
theorem d0_3 (c : Dev nD) :
    Disjoint (((VE2 0 (xr 4 c)).view.set ∪ (VE1 0 (xr 3 c)).view.set) ∪ (VE0 0 (xr 1 c)).view.set) (VE0 0 c).view.set :=
  Finset.disjoint_union_left.mpr ⟨Finset.disjoint_union_left.mpr ⟨disj_slices cc0_scratch0 0 (by revert c; decide +kernel),
    disj_slices cc0_scratch0 0 (by revert c; decide +kernel)⟩, (disj_VE0_0 c).symm⟩
theorem d0_4 (c : Dev nD) :
    Disjoint ((VE2 0 (xr 4 c)).view.set ∪ (VE1 0 (xr 3 c)).view.set) (VE1 0 c).view.set :=
  Finset.disjoint_union_left.mpr ⟨disj_slices cc0_scratch0 0 (by revert c; decide +kernel), (disj_VE1_0 c).symm⟩

theorem d1_1 (c : Dev nD) : Disjoint (VE2 1 (xr 1 c)).view.set (VE1 1 (xr 4 c)).view.set :=
  disj_slices cc0_scratch1 0 (by revert c; decide +kernel)
theorem d1_2 (c : Dev nD) :
    Disjoint ((VE2 1 (xr 1 c)).view.set ∪ (VE1 1 (xr 4 c)).view.set) (VE0 1 (xr 3 c)).view.set :=
  Finset.disjoint_union_left.mpr ⟨disj_slices cc0_scratch1 0 (by revert c; decide +kernel),
    disj_slices cc0_scratch1 0 (by revert c; decide +kernel)⟩
theorem d1_3 (c : Dev nD) :
    Disjoint (((VE2 1 (xr 1 c)).view.set ∪ (VE1 1 (xr 4 c)).view.set) ∪ (VE0 1 (xr 3 c)).view.set) (VE0 1 c).view.set :=
  Finset.disjoint_union_left.mpr ⟨Finset.disjoint_union_left.mpr ⟨disj_slices cc0_scratch1 0 (by revert c; decide +kernel),
    disj_slices cc0_scratch1 0 (by revert c; decide +kernel)⟩, (disj_VE0_1 c).symm⟩
theorem d1_4 (c : Dev nD) :
    Disjoint ((VE2 1 (xr 1 c)).view.set ∪ (VE1 1 (xr 4 c)).view.set) (VE1 1 c).view.set :=
  Finset.disjoint_union_left.mpr ⟨disj_slices cc0_scratch1 0 (by revert c; decide +kernel), (disj_VE1_1 c).symm⟩

/-! ## Slots handed over -/

/-- A slot of one's own buffer with the fact that the cell of the copy that will fill it stands at its first round. -/
theorem grant_intro (p : Dev nD) {s : Shape} {e : EltTy} (M : Memref sig .tc .vmem s e) (j : ℕ) (hj : 8 ≤ j) (hj' : j < 40)
    (i : DmaSem sig) (hi : i = dsem j) :
    iprop(reachedAll (F := F) ∗ ownAt p M) ⊢ grant p M i 0 := by
  subst hi
  unfold grant
  iintro ⟨#HR, H⟩
  isplitl [H]
  · iexact H
  · iapply (reached_dma (F := F) p j hj hj'); iexact HR

theorem grant_elim (p : Dev nD) {s : Shape} {e : EltTy} (M : Memref sig .tc .vmem s e) (i : DmaSem sig) (r : ℕ) :
    grant (F := F) p M i r ⊢ iprop(ownAt p M ∗ reached ER (dcell p i) r) := by unfold grant; exact .rfl

theorem ownAt_elim (p : Dev nD) {s : Shape} {e : EltTy} (M : Memref sig .tc .vmem s e) :
    ownAt (F := F) p M ⊢ iprop(∃ f : Buf (Elt F) (M.view.loc (p : Thread nD τ)), (M.view.loc (p : Thread nD τ)) ↦[M.view.set]{fullShare} f) := by
  unfold ownAt; exact .rfl

/-- What the entry signals to the three partners hand over, spelt at this device. -/
theorem payBar_to_1 (c : Dev nD) : payBar (F := F) (xr 1 c) 0 = grant c (VE0 0 (xr 1 c)) (agR 0 0) 0 := by
  show grant (xr 1 (xr 1 c)) (VE0 0 (xr 1 c)) (agR 0 0) 0 = _
  rw [xr_xr]
theorem payBar_to_3 (c : Dev nD) : payBar (F := F) (xr 3 c) 1 = grant c (VE0 1 (xr 3 c)) (agR 1 0) 0 := by
  show grant (xr 3 (xr 3 c)) (VE0 1 (xr 3 c)) (agR 1 0) 0 = _
  rw [xr_xr]
theorem payBar_to_4 (c : Dev nD) : payBar (F := F) (xr 4 c) 2 = grant c (VE1 1 (xr 4 c)) (agR 1 1) 0 := by
  show grant (xr 4 (xr 4 c)) (VE1 1 (xr 4 c)) (agR 1 1) 0 = _
  rw [xr_xr]

/-- What the first four copies land on the partners' receive cells, spelt at this device. -/
theorem payR_11 (c : Dev nD) :
    iprop(ownAt (F := F) (xr 1 c) (VE0 0 c) ∗ grant c (VE2 1 (xr 1 c)) (agR 1 2) 0) ⊢ payDma (xr 1 c) 11 0 := by
  show _ ⊢ iprop(ownAt (xr 1 c) (VE0 0 (xr 1 (xr 1 c))) ∗ grant (xr 1 (xr 1 c)) (VE2 1 (xr 1 c)) (agR 1 2) 0)
  rw [xr_xr]
theorem payR_17 (c : Dev nD) :
    iprop(ownAt (F := F) (xr 3 c) (VE0 1 c) ∗ grant c (VE1 0 (xr 3 c)) (agR 0 1) 0) ⊢ payDma (xr 3 c) 17 0 := by
  show _ ⊢ iprop(ownAt (xr 3 c) (VE0 1 (xr 3 (xr 3 c))) ∗ grant (xr 3 (xr 3 c)) (VE1 0 (xr 3 c)) (agR 0 1) 0)
  rw [xr_xr]
theorem payR_12 (c : Dev nD) :
    iprop(ownAt (F := F) (xr 3 c) (VE1 0 c) ∗ grant c (R2 0) (rsR 0 1) 0) ⊢ payDma (xr 3 c) 12 0 := by
  show _ ⊢ iprop(ownAt (xr 3 c) (VE1 0 (xr 3 (xr 3 c))) ∗ grant (xr 3 (xr 3 c)) (R2 0) (rsR 0 1) 0)
  rw [xr_xr]
theorem payR_18 (c : Dev nD) :
    iprop(ownAt (F := F) (xr 4 c) (VE1 1 c) ∗ grant c (VE2 0 (xr 4 c)) (agR 0 2) 0) ⊢ payDma (xr 4 c) 18 0 := by
  show _ ⊢ iprop(ownAt (xr 4 c) (VE1 1 (xr 4 (xr 4 c))) ∗ grant (xr 4 (xr 4 c)) (VE2 0 (xr 4 c)) (agR 0 2) 0)
  rw [xr_xr]

/-- What the three partners' entry signals hand over. -/
theorem grant_elim_at (p : Dev nD) {s : Shape} {e : EltTy} (M : Memref sig .tc .vmem s e) (i : DmaSem sig) (r j : ℕ) (hi : i = dsem j) :
    grant (F := F) p M i r ⊢ iprop(ownAt p M ∗ reached ER (dcell p (dsem j)) r) := by subst hi; exact grant_elim _ _ _ _
theorem payBar_0_elim (c : Dev nD) :
    payBar (F := F) c 0 ⊢ iprop(ownAt (xr 1 c) (VE0 0 c) ∗ reached ER (dcell (xr 1 c) (dsem 11)) 0) :=
  grant_elim_at (xr 1 c) (VE0 0 c) (agR 0 0) 0 11 (by decide)
theorem payBar_1_elim (c : Dev nD) :
    payBar (F := F) c 1 ⊢ iprop(ownAt (xr 3 c) (VE0 1 c) ∗ reached ER (dcell (xr 3 c) (dsem 17)) 0) :=
  grant_elim_at (xr 3 c) (VE0 1 c) (agR 1 0) 0 17 (by decide)
theorem payBar_2_elim (c : Dev nD) :
    payBar (F := F) c 2 ⊢ iprop(ownAt (xr 4 c) (VE1 1 c) ∗ reached ER (dcell (xr 4 c) (dsem 18)) 0) :=
  grant_elim_at (xr 4 c) (VE1 1 c) (agR 1 1) 0 18 (by decide)

/-- What the landings of the partners' first four copies hand over. -/
theorem pay_8_elim (c : Dev nD) : payDma (F := F) c 8 0 ⊢ ownAt c (VE0 0 c) := .rfl
theorem pay_14_elim (c : Dev nD) : payDma (F := F) c 14 0 ⊢ ownAt c (VE0 1 c) := .rfl
theorem pay_9_elim (c : Dev nD) : payDma (F := F) c 9 0 ⊢ ownHalf c (VE1 0 c) := .rfl
theorem pay_15_elim (c : Dev nD) : payDma (F := F) c 15 0 ⊢ ownHalf c (VE1 1 c) := .rfl
theorem pay_11_elim (c : Dev nD) :
    payDma (F := F) c 11 0 ⊢ iprop(ownAt c (VE0 0 (xr 1 c)) ∗ grant (xr 1 c) (VE2 1 c) (agR 1 2) 0) := .rfl
theorem pay_17_elim (c : Dev nD) :
    payDma (F := F) c 17 0 ⊢ iprop(ownAt c (VE0 1 (xr 3 c)) ∗ grant (xr 3 c) (VE1 0 c) (agR 0 1) 0) := .rfl
theorem pay_12_elim (c : Dev nD) :
    payDma (F := F) c 12 0 ⊢ iprop(ownAt c (VE1 0 (xr 3 c)) ∗ grant (xr 3 c) (R2 0) (rsR 0 1) 0) := .rfl
theorem pay_18_elim (c : Dev nD) :
    payDma (F := F) c 18 0 ⊢ iprop(ownAt c (VE1 1 (xr 4 c)) ∗ grant (xr 4 c) (VE2 0 c) (agR 0 2) 0) := .rfl

/-- The rows the first layer's matrix products read are the own pair of blocks of each stream. -/
theorem off7_in (c : Dev nD) : ∀ a, k0_off5 c a ≤ k0_off7 c a ∧ k0_off7 c a + S256x256.size a ≤ k0_off5 c a + S256x256.size a := by
  revert c; decide +kernel
theorem off8_in (c : Dev nD) : ∀ a, k0_off6 c a ≤ k0_off8 c a ∧ k0_off8 c a + S256x256.size a ≤ k0_off6 c a + S256x256.size a := by
  revert c; decide +kernel
theorem sub_off7 (c : Dev nD) :
    (Memref.whole cc0_scratch0).view.setOn (Rect.unit (s := S1024x256) (k0_off7 c) S256x256.size (k0_off7_inb c)).toLoadRect.set
      ⊆ (VE1 0 c).view.set := by
  rw [setOn_whole1]
  intro i hi
  have h := set_slice_of_whole cc0_scratch0 (Rect.unit (s := S1024x256) (k0_off5 c) S256x256.size (k0_off5_inb c)) (fun _ => rfl)
  exact (Finset.ext_iff.mp h i).mpr (unit_subset1 (off7_in c) hi)
theorem sub_off8 (c : Dev nD) :
    (Memref.whole cc0_scratch1).view.setOn (Rect.unit (s := S1024x256) (k0_off8 c) S256x256.size (k0_off8_inb c)).toLoadRect.set
      ⊆ (VE1 1 c).view.set := by
  rw [setOn_whole1]
  intro i hi
  have h := set_slice_of_whole cc0_scratch1 (Rect.unit (s := S1024x256) (k0_off6 c) S256x256.size (k0_off6_inb c)) (fun _ => rfl)
  exact (Finset.ext_iff.mp h i).mpr (unit_subset1 (off8_in c) hi)

omit [FloatOps F] in
/-- A window's staging buffer held through its memref is the buffer whole. -/
theorem ptw_of_set (c : Dev nD) (b : Ref sig .tc) (f : Buf (Elt F) ((Memref.whole b).view.loc (c : Thread nD τ))) :
    ((Memref.whole b).view.loc (c : Thread nD τ) ↦[(Memref.whole b).view.set]{fullShare} f : sProp 𝕄) ⊢ iprop(∃ f, ptw (F := F) c b f) := by
  rw [show (Memref.whole b).view.set = Finset.univ from by rw [Memref.view_whole]; exact View.set_whole _]
  iintro H
  iexists f
  iexact H

set_option maxHeartbeats 3200000 in
theorem seg1_ok (m : (ℓ : Loc nD τ sig) → Buf (Elt F) ℓ) (c : Dev nD) : Spec1 (F := F) m c := by
  intro Y
  unfold PreBody
  rw [Φ₀_eq, creds_eq, creds_seg_0, scratchAll_eq]
  unfold ghost Pipeline.RDat.owesAt Pipeline.owesWithin owns
  rw [posAll_eq, toks_eq, toks_seg_0, show (rdats (F := F) m 0 c).owed Gen.t0_0.castSucc = O₀ c from rfl]
  iintro ⟨⟨⟨%K, #HI, #HR, ⟨HaB, Ha8, Ha9, Ha10, Ha11, Ha12, Ha13, Ha14, Ha15, Ha16, Ha17, Ha18, Ha19, Ha20, Ha21, Ha22, Ha23, Ha24, Ha25, Ha26, Ha27, Ha28, Ha29, Ha30, Ha31, Ha32, Ha33, Ha34, Ha35, Ha36, Ha37, Ha38, Ha39⟩, ⟨TB1, TB3, TB4, ⟨T0a, T0b⟩, ⟨T1a, T1b⟩, ⟨T2a, T2b⟩, ⟨T3a, T3b⟩, Htoks⟩⟩, ⟨CB, C0, C1, C2, C3, Hcreds⟩, #Hlev, ⟨%f0, Hx0⟩, ⟨%f1, Hx1⟩, ⟨%f2, Hs2⟩, ⟨%f3, Hs3⟩, ⟨%f4, Hs4⟩, ⟨%f5, Hs5⟩, ⟨%f6, Hy0⟩, ⟨%f7, Hy1⟩, ⟨%f8, Hs8⟩, ⟨%f9, Hs9⟩⟩,
    ⟨%W, %hW, HO⟩, ⟨%g0, %hg0, Hw0⟩, ⟨%g1, %hg1, Hw1⟩, ⟨%g2, %hg2, Hw2⟩, ⟨%g3, %hg3, Hw3⟩, ⟨%g4, %hg4, Hw4⟩, ⟨%g5, %hg5, Hw5⟩, ⟨%g6, %hg6, Hw6⟩, ⟨%g7, %hg7, Hw7⟩⟩
  unfold seg1
  -- the own row blocks of the two streams are written from the input window
  sl_exec

  -- the two gather buffers, cut: what goes to the partners with the entry signals and the first copies
  ihave Hx0 := (heldBut_of_whole (F := F) c cc0_scratch0 _) $$ Hx0
  ihave Hx0 := (heldBut_take_view_empty (F := F) c (VE2 0 (xr 4 c))).1 $$ Hx0
  icases Hx0 with ⟨HC', Hx0⟩
  ihave Hx0 := (heldBut_take_view (F := F) c (VE1 0 (xr 3 c)) (VE2 0 (xr 4 c)).view.set (d0_1 c)).1 $$ Hx0
  icases Hx0 with ⟨HB', Hx0⟩
  ihave Hx0 := (heldBut_take_view (F := F) c (VE0 0 (xr 1 c)) ((VE2 0 (xr 4 c)).view.set ∪ (VE1 0 (xr 3 c)).view.set) (d0_2 c)).1 $$ Hx0
  icases Hx0 with ⟨HA', Hx0⟩
  ihave Hx0 := (heldBut_take_view (F := F) c (VE0 0 c) (((VE2 0 (xr 4 c)).view.set ∪ (VE1 0 (xr 3 c)).view.set) ∪ (VE0 0 (xr 1 c)).view.set) (d0_3 c)).1 $$ Hx0
  icases Hx0 with ⟨HA, Hx0⟩
  ihave Hx1 := (heldBut_of_whole (F := F) c cc0_scratch1 _) $$ Hx1
  ihave Hx1 := (heldBut_take_view_empty (F := F) c (VE2 1 (xr 1 c))).1 $$ Hx1
  icases Hx1 with ⟨HG', Hx1⟩
  ihave Hx1 := (heldBut_take_view (F := F) c (VE1 1 (xr 4 c)) (VE2 1 (xr 1 c)).view.set (d1_1 c)).1 $$ Hx1
  icases Hx1 with ⟨HE', Hx1⟩
  ihave Hx1 := (heldBut_take_view (F := F) c (VE0 1 (xr 3 c)) ((VE2 1 (xr 1 c)).view.set ∪ (VE1 1 (xr 4 c)).view.set) (d1_2 c)).1 $$ Hx1
  icases Hx1 with ⟨HD', Hx1⟩
  ihave Hx1 := (heldBut_take_view (F := F) c (VE0 1 c) (((VE2 1 (xr 1 c)).view.set ∪ (VE1 1 (xr 4 c)).view.set) ∪ (VE0 1 (xr 3 c)).view.set) (d1_3 c)).1 $$ Hx1
  icases Hx1 with ⟨HD, Hx1⟩
  -- entry signal to c xor 1: it is handed the slot of its first copy of stream 0
  conv => rhs; simp only [dev1_eq]
  iapply (wp_signal_bar (F := F) c 1 0 K (O₁ c) rfl W (routes1 c)) $$ [HO TB1 HA']
  · isplitr; · iexact HI
    isplitr; · iexact HR
    isplitl [HO]; · iexact HO
    isplitl [TB1]; · iexact TB1
    rw [payBar_to_1]
    iapply (grant_intro (F := F) c (VE0 0 (xr 1 c)) 11 (by omega) (by omega) (agR 0 0) (by decide))
    isplitr; · iexact HR
    iexact HA'
  iintro HO
  sl_exec

  -- entry signal to c xor 3: the slot of its first copy of stream 1
  conv => rhs; simp only [dev2_eq]
  iapply (wp_signal_bar (F := F) c 3 1 K (O₂ c) rfl W (routes3 c)) $$ [HO TB3 HD']
  · isplitr; · iexact HI
    isplitr; · iexact HR
    isplitl [HO]; · iexact HO
    isplitl [TB3]; · iexact TB3
    rw [payBar_to_3]
    iapply (grant_intro (F := F) c (VE0 1 (xr 3 c)) 17 (by omega) (by omega) (agR 1 0) (by decide))
    isplitr; · iexact HR
    iexact HD'
  iintro HO
  sl_exec
  -- entry signal to c xor 4: the slot of its second copy of stream 1
  conv => rhs; simp only [dev3_eq]
  iapply (wp_signal_bar (F := F) c 4 2 K (owedFrom c 0) rfl W (routes4 c)) $$ [HO TB4 HE']
  · isplitr; · iexact HI
    isplitr; · iexact HR
    isplitl [HO]; · iexact HO
    isplitl [TB4]; · iexact TB4
    rw [payBar_to_4]
    iapply (grant_intro (F := F) c (VE1 1 (xr 4 c)) 18 (by omega) (by omega) (agR 1 1) (by decide))
    isplitr; · iexact HR
    iexact HE'
  iintro HO
  sl_exec
  -- the wait for the partners' three signals: their slots for the first copies of this device
  iapply (wp_wait_bar (F := F) c K (owedFrom c 0) W) $$ [CB HO HaB]
  · isplitr; · iexact HI
    isplitl [CB]; · iexact CB
    isplitl [HO]; · iexact HO
    isplitr; · iapply (mayWait_bar (F := F) c); iexact Hlev
    iexact HaB
  iintro ⟨HO, HaB, #HrB, HP0, HP1, HP2⟩
  ihave HP0 := (payBar_0_elim (F := F) c) $$ HP0
  icases HP0 with ⟨HgA, #HrA⟩
  ihave HP1 := (payBar_1_elim (F := F) c) $$ HP1
  icases HP1 with ⟨HgD, #HrD⟩
  ihave HP2 := (payBar_2_elim (F := F) c) $$ HP2
  icases HP2 with ⟨HgE, #HrE⟩
  sl_exec

  -- copy 0: the own block of stream 0 to c xor 1, into the slot it handed over; with its landing it is handed the slot
  -- of its third copy of stream 1
  ihave HA := (ownAt_elim (F := F) c (VE0 0 c)) $$ HA
  icases HA with ⟨%fA, HA⟩
  iapply (send_copy_printed (F := F) c (xr 1 c) _ (dev4_eq c) (VE0 0 c) (VE0 0 c) 8 11 0 1 _ _ sem_ag0s_0 sem_ag0r_0
      (by omega) (by omega) (by decide) (by decide)
      (credit_VE0 0 c) (amtDma_sendOf 11 0 (Or.inl ⟨by omega, by omega⟩)) (grant c (VE2 1 (xr 1 c)) (agR 1 2) 0) fullShare fA
      (ownAt_of c (VE0 0 c) fA) (payR_11 c) K (owedFrom c 1) (owedFrom_succ c 0 _ rfl) _ (routes1 c)) $$ [HA HgA HG' HO T0a T0b]
  · isplitr; · iexact HI
    isplitl [HA]; · iexact HA
    isplitl [HgA]; · iexact HgA
    isplitl [HG']
    · iapply (grant_intro (F := F) c (VE2 1 (xr 1 c)) 19 (by omega) (by omega) (agR 1 2) (by decide))
      isplitr; · iexact HR
      iexact HG'
    isplitl [HO]; · iexact HO
    isplitl [T0a]; · iexact T0a
    isplitr; · iapply (reached_dma (F := F) c 8 (by omega) (by omega)); iexact HR
    isplitl [T0b]; · iexact T0b
    iexact HrA
  iintro ⟨Cs0, HO⟩
  sl_exec
  -- copy 1: the own block of stream 1 to c xor 3; with its landing it is handed the slot of its second copy of stream 0
  ihave HD := (ownAt_elim (F := F) c (VE0 1 c)) $$ HD
  icases HD with ⟨%fD, HD⟩
  iapply (send_copy_printed (F := F) c (xr 3 c) _ (dev5_eq c) (VE0 1 c) (VE0 1 c) 14 17 0 2 _ _ sem_ag1s_0 sem_ag1r_0
      (by omega) (by omega) (by decide) (by decide)
      (credit_VE0 1 c) (amtDma_sendOf 17 0 (Or.inl ⟨by omega, by omega⟩)) (grant c (VE1 0 (xr 3 c)) (agR 0 1) 0) fullShare fD
      (ownAt_of c (VE0 1 c) fD) (payR_17 c) K (owedFrom c 2) (owedFrom_succ c 1 _ rfl) _ (routes3 c)) $$ [HD HgD HB' HO T1a T1b]
  · isplitr; · iexact HI
    isplitl [HD]; · iexact HD
    isplitl [HgD]; · iexact HgD
    isplitl [HB']
    · iapply (grant_intro (F := F) c (VE1 0 (xr 3 c)) 12 (by omega) (by omega) (agR 0 1) (by decide))
      isplitr; · iexact HR
      iexact HB'
    isplitl [HO]; · iexact HO
    isplitl [T1a]; · iexact T1a
    isplitr; · iapply (reached_dma (F := F) c 14 (by omega) (by omega)); iexact HR
    isplitl [T1b]; · iexact T1b
    iexact HrD
  iintro ⟨Cs1, HO⟩
  -- the first layer's weights are cast
  sl_exec

  -- copy 0 is waited for: its source comes back …
  first | sl_exec | skip
  try (conv => rhs; simp only [Prog.lift, Prog.bind_op, Prog.bind_ret, Prog.pure_eq_ret, sem_ag0s_0])
  iapply (wp_wait_copy (F := F) c 8 0 1 (by omega) (by decide) K (owedFrom c 2) _
      (hw_waitDma2 (F := F) c 8 0 ((credit_VE0 0 c).trans (amtDma_sendOf 11 0 (Or.inl ⟨by omega, by omega⟩)).symm))) $$ [Cs0 HO Ha8]
  · isplitr; · iexact HI
    isplitl [Cs0]; · iexact Cs0
    isplitl [HO]; · iexact HO
    isplitr; · iapply (mayWait_copy (F := F) c (dsem 8) 0 2 (by omega) (by omega)); iexact Hlev
    iexact Ha8
  iintro ⟨HO, Ha8, #Hr8, HA⟩
  ihave HA := (pay_8_elim (F := F) c) $$ HA
  -- … and the partner's block has landed, with its slot for the third copy of stream 1
  first | sl_exec | skip
  try (conv => rhs; simp only [Prog.lift, Prog.bind_op, Prog.bind_ret, Prog.pure_eq_ret, sem_ag0r_0])
  iapply (wp_wait_copy (F := F) c 11 0 1 (by omega) (by decide) K (owedFrom c 2) _
      (hw_waitDma2 (F := F) c 11 0 (credit_VE0 0 c))) $$ [C0 HO Ha11]
  · isplitr; · iexact HI
    isplitl [C0]; · iexact C0
    isplitl [HO]; · iexact HO
    isplitr; · iapply (mayWait_copy (F := F) c (dsem 11) 0 2 (by omega) (by omega)); iexact Hlev
    iexact Ha11
  iintro ⟨HO, Ha11, #Hr11, HP11⟩
  ihave HP11 := (pay_11_elim (F := F) c) $$ HP11
  icases HP11 with ⟨HA', HG1⟩
  -- copy 1 is waited for: its source comes back …
  first | sl_exec | skip
  try (conv => rhs; simp only [Prog.lift, Prog.bind_op, Prog.bind_ret, Prog.pure_eq_ret, sem_ag1s_0])
  iapply (wp_wait_copy (F := F) c 14 0 2 (by omega) (by decide) K (owedFrom c 2) _
      (hw_waitDma2 (F := F) c 14 0 ((credit_VE0 1 c).trans (amtDma_sendOf 17 0 (Or.inl ⟨by omega, by omega⟩)).symm))) $$ [Cs1 HO Ha14]
  · isplitr; · iexact HI
    isplitl [Cs1]; · iexact Cs1
    isplitl [HO]; · iexact HO
    isplitr; · iapply (mayWait_copy (F := F) c (dsem 14) 1 2 (by omega) (by omega)); iexact Hlev
    iexact Ha14
  iintro ⟨HO, Ha14, #Hr14, HD⟩
  ihave HD := (pay_14_elim (F := F) c) $$ HD
  -- … and the partner's block has landed, with its slot for the second copy of stream 0
  first | sl_exec | skip
  try (conv => rhs; simp only [Prog.lift, Prog.bind_op, Prog.bind_ret, Prog.pure_eq_ret, sem_ag1r_0])
  iapply (wp_wait_copy (F := F) c 17 0 2 (by omega) (by decide) K (owedFrom c 2) _
      (hw_waitDma2 (F := F) c 17 0 (credit_VE0 1 c))) $$ [C1 HO Ha17]
  · isplitr; · iexact HI
    isplitl [C1]; · iexact C1
    isplitl [HO]; · iexact HO
    isplitr; · iapply (mayWait_copy (F := F) c (dsem 17) 1 2 (by omega) (by omega)); iexact Hlev
    iexact Ha17
  iintro ⟨HO, Ha17, #Hr17, HP17⟩
  ihave HP17 := (pay_17_elim (F := F) c) $$ HP17
  icases HP17 with ⟨HD', HG3⟩
  ihave HG3 := (grant_elim_at (F := F) (xr 3 c) (VE1 0 c) (agR 0 1) 0 12 (by decide)) $$ HG3
  icases HG3 with ⟨HgB, #HrgB⟩
  first | sl_exec | skip
  try (conv => rhs; simp only [Prog.lift, Prog.bind_op, Prog.bind_ret, Prog.pure_eq_ret])

  -- the own block and the partner's go back into the first gather buffer and come out as the own pair of blocks;
  -- half of it is lent to copy 2, the other half stays for the matrix products
  ihave Hx0 := (heldBut_put_right (F := F) c (VE0 0 c) (((VE2 0 (xr 4 c)).view.set ∪ (VE1 0 (xr 3 c)).view.set) ∪ (VE0 0 (xr 1 c)).view.set) (d0_3 c)) $$ [HA Hx0]
  · isplitl [HA]; · iexact HA
    iexact Hx0
  ihave Hx0 := (heldBut_put_right (F := F) c (VE0 0 (xr 1 c)) ((VE2 0 (xr 4 c)).view.set ∪ (VE1 0 (xr 3 c)).view.set) (d0_2 c)) $$ [HA' Hx0]
  · isplitl [HA']; · iexact HA'
    iexact Hx0
  ihave Hx0 := (heldBut_take_view (F := F) c (VE1 0 c) ((VE2 0 (xr 4 c)).view.set ∪ (VE1 0 (xr 3 c)).view.set) (d0_4 c)).1 $$ Hx0
  icases Hx0 with ⟨HB, Hx0⟩
  ihave HB := (ownAt_elim (F := F) c (VE1 0 c)) $$ HB
  icases HB with ⟨%fB, HB⟩
  ihave HB := (halves_split (F := F) fB).1 $$ HB
  icases HB with ⟨HBl, HBr⟩
  -- the slot of the first receive buffer for the partner's third reduce step
  ihave Hy0 := (heldBut_of_whole (F := F) c cc0_scratch6 _) $$ Hy0
  ihave Hy0 := (heldBut_take_view_empty (F := F) c (R2 0)).1 $$ Hy0
  icases Hy0 with ⟨HR2, Hy0⟩
  -- copy 2: the own pair of blocks of stream 0 to c xor 3
  iapply (send_copy_printed (F := F) c (xr 3 c) _ (dev6_eq c) (VE1 0 c) (VE1 0 c) 9 12 0 3 _ _ sem_ag0s_1 sem_ag0r_1
      (by omega) (by omega) (by decide) (by decide)
      (credit_VE1 0 c) (amtDma_sendOf 12 0 (Or.inl ⟨by omega, by omega⟩)) (grant c (R2 0) (rsR 0 1) 0) fullShare.left fB
      (ownHalf_of c (VE1 0 c) fB) (payR_12 c) K (owedFrom c 3) (owedFrom_succ c 2 _ rfl) _ (routes3 c)) $$ [HBl HgB HR2 HO T2a T2b]
  · isplitr; · iexact HI
    isplitl [HBl]; · iexact HBl
    isplitl [HgB]; · iexact HgB
    isplitl [HR2]
    · iapply (grant_intro (F := F) c (R2 0) 26 (by omega) (by omega) (rsR 0 1) (by decide))
      isplitr; · iexact HR
      iexact HR2
    isplitl [HO]; · iexact HO
    isplitl [T2a]; · iexact T2a
    isplitr; · iapply (reached_dma (F := F) c 9 (by omega) (by omega)); iexact HR
    isplitl [T2b]; · iexact T2b
    iexact HrgB
  iintro ⟨Cs2, HO⟩
  first | sl_exec | skip
  try (conv => rhs; simp only [Prog.lift, Prog.bind_op, Prog.bind_ret, Prog.pure_eq_ret])
  -- the same for stream 1
  ihave Hx1 := (heldBut_put_right (F := F) c (VE0 1 c) (((VE2 1 (xr 1 c)).view.set ∪ (VE1 1 (xr 4 c)).view.set) ∪ (VE0 1 (xr 3 c)).view.set) (d1_3 c)) $$ [HD Hx1]
  · isplitl [HD]; · iexact HD
    iexact Hx1
  ihave Hx1 := (heldBut_put_right (F := F) c (VE0 1 (xr 3 c)) ((VE2 1 (xr 1 c)).view.set ∪ (VE1 1 (xr 4 c)).view.set) (d1_2 c)) $$ [HD' Hx1]
  · isplitl [HD']; · iexact HD'
    iexact Hx1
  ihave Hx1 := (heldBut_take_view (F := F) c (VE1 1 c) ((VE2 1 (xr 1 c)).view.set ∪ (VE1 1 (xr 4 c)).view.set) (d1_4 c)).1 $$ Hx1
  icases Hx1 with ⟨HE, Hx1⟩
  ihave HE := (ownAt_elim (F := F) c (VE1 1 c)) $$ HE
  icases HE with ⟨%fE, HE⟩
  ihave HE := (halves_split (F := F) fE).1 $$ HE
  icases HE with ⟨HEl, HEr⟩
  -- copy 3: the own pair of blocks of stream 1 to c xor 4
  iapply (send_copy_printed (F := F) c (xr 4 c) _ (dev7_eq c) (VE1 1 c) (VE1 1 c) 15 18 0 4 _ _ sem_ag1s_1 sem_ag1r_1
      (by omega) (by omega) (by decide) (by decide)
      (credit_VE1 1 c) (amtDma_sendOf 18 0 (Or.inl ⟨by omega, by omega⟩)) (grant c (VE2 0 (xr 4 c)) (agR 0 2) 0) fullShare.left fE
      (ownHalf_of c (VE1 1 c) fE) (payR_18 c) K (owedFrom c 4) (owedFrom_succ c 3 _ rfl) _ (routes4 c)) $$ [HEl HgE HC' HO T3a T3b]
  · isplitr; · iexact HI
    isplitl [HEl]; · iexact HEl
    isplitl [HgE]; · iexact HgE
    isplitl [HC']
    · iapply (grant_intro (F := F) c (VE2 0 (xr 4 c)) 13 (by omega) (by omega) (agR 0 2) (by decide))
      isplitr; · iexact HR
      iexact HC'
    isplitl [HO]; · iexact HO
    isplitl [T3a]; · iexact T3a
    isplitr; · iapply (reached_dma (F := F) c 15 (by omega) (by omega)); iexact HR
    isplitl [T3b]; · iexact T3b
    iexact HrE
  iintro ⟨Cs3, HO⟩
  -- the matrix products of the first layer run on the own pair of blocks of each stream while copies 2 and 3 fly:
  -- the rows they read lie in the pair, of which half a share stayed
  first | sl_exec | skip
  try (conv => rhs; simp only [Prog.lift, Prog.bind_op, Prog.bind_ret, Prog.pure_eq_ret])
  iapply (wp_load Variants.none (c : Thread nD τ) none Set.univ (sub_off7 c)) $$ [HBr]
  · iexact HBr
  iintro HBr
  first | sl_exec | skip
  try (conv => rhs; simp only [Prog.lift, Prog.bind_op, Prog.bind_ret, Prog.pure_eq_ret])
  iapply (wp_load Variants.none (c : Thread nD τ) none Set.univ (sub_off8 c)) $$ [HEr]
  · iexact HEr
  iintro HEr

  -- copy 2 is waited for: the lent half comes back, and the own pair of blocks goes back into the buffer …
  first | sl_exec | skip
  try (conv => rhs; simp only [Prog.lift, Prog.bind_op, Prog.bind_ret, Prog.pure_eq_ret, sem_ag0s_1])
  iapply (wp_wait_copy (F := F) c 9 0 3 (by omega) (by decide) K (owedFrom c 4) _
      (hw_waitDma2 (F := F) c 9 0 ((credit_VE1 0 c).trans (amtDma_sendOf 12 0 (Or.inl ⟨by omega, by omega⟩)).symm))) $$ [Cs2 HO Ha9]
  · isplitr; · iexact HI
    isplitl [Cs2]; · iexact Cs2
    isplitl [HO]; · iexact HO
    isplitr; · iapply (mayWait_copy (F := F) c (dsem 9) 2 4 (by omega) (by omega)); iexact Hlev
    iexact Ha9
  iintro ⟨HO, Ha9, #Hr9, HP9⟩
  ihave HP9 := (pay_9_elim (F := F) c) $$ HP9
  ihave HB := (ownHalf_join (F := F) c (VE1 0 c) fB) $$ [HP9 HBr]
  · isplitl [HP9]; · iexact HP9
    iexact HBr
  ihave HB := (ownAt_of (F := F) c (VE1 0 c) fB) $$ HB
  ihave Hx0 := (heldBut_put_right (F := F) c (VE1 0 c) ((VE2 0 (xr 4 c)).view.set ∪ (VE1 0 (xr 3 c)).view.set) (d0_4 c)) $$ [HB Hx0]
  · isplitl [HB]; · iexact HB
    iexact Hx0

  -- … and the partner's pair has landed, with its slot for the third reduce step of stream 0
  first | sl_exec | skip
  try (conv => rhs; simp only [Prog.lift, Prog.bind_op, Prog.bind_ret, Prog.pure_eq_ret, sem_ag0r_1])
  iapply (wp_wait_copy (F := F) c 12 0 3 (by omega) (by decide) K (owedFrom c 4) _
      (hw_waitDma2 (F := F) c 12 0 (credit_VE1 0 c))) $$ [C2 HO Ha12]
  · isplitr; · iexact HI
    isplitl [C2]; · iexact C2
    isplitl [HO]; · iexact HO
    isplitr; · iapply (mayWait_copy (F := F) c (dsem 12) 2 4 (by omega) (by omega)); iexact Hlev
    iexact Ha12
  iintro ⟨HO, Ha12, #Hr12, HP12⟩
  ihave HP12 := (pay_12_elim (F := F) c) $$ HP12
  icases HP12 with ⟨HB', HG2⟩
  ihave Hx0 := (heldBut_put_right (F := F) c (VE1 0 (xr 3 c)) (VE2 0 (xr 4 c)).view.set (d0_1 c)) $$ [HB' Hx0]
  · isplitl [HB']; · iexact HB'
    iexact Hx0

  -- copy 3 is waited for: the same for stream 1 …
  first | sl_exec | skip
  try (conv => rhs; simp only [Prog.lift, Prog.bind_op, Prog.bind_ret, Prog.pure_eq_ret, sem_ag1s_1])
  iapply (wp_wait_copy (F := F) c 15 0 4 (by omega) (by decide) K (owedFrom c 4) _
      (hw_waitDma2 (F := F) c 15 0 ((credit_VE1 1 c).trans (amtDma_sendOf 18 0 (Or.inl ⟨by omega, by omega⟩)).symm))) $$ [Cs3 HO Ha15]
  · isplitr; · iexact HI
    isplitl [Cs3]; · iexact Cs3
    isplitl [HO]; · iexact HO
    isplitr; · iapply (mayWait_copy (F := F) c (dsem 15) 3 4 (by omega) (by omega)); iexact Hlev
    iexact Ha15
  iintro ⟨HO, Ha15, #Hr15, HP15⟩
  ihave HP15 := (pay_15_elim (F := F) c) $$ HP15
  ihave HE := (ownHalf_join (F := F) c (VE1 1 c) fE) $$ [HP15 HEr]
  · isplitl [HP15]; · iexact HP15
    iexact HEr
  ihave HE := (ownAt_of (F := F) c (VE1 1 c) fE) $$ HE
  ihave Hx1 := (heldBut_put_right (F := F) c (VE1 1 c) ((VE2 1 (xr 1 c)).view.set ∪ (VE1 1 (xr 4 c)).view.set) (d1_4 c)) $$ [HE Hx1]
  · isplitl [HE]; · iexact HE
    iexact Hx1

  -- … and the partner's pair has landed, with its slot for the third copy of stream 0
  first | sl_exec | skip
  try (conv => rhs; simp only [Prog.lift, Prog.bind_op, Prog.bind_ret, Prog.pure_eq_ret, sem_ag1r_1])
  iapply (wp_wait_copy (F := F) c 18 0 4 (by omega) (by decide) K (owedFrom c 4) _
      (hw_waitDma2 (F := F) c 18 0 (credit_VE1 1 c))) $$ [C3 HO Ha18]
  · isplitr; · iexact HI
    isplitl [C3]; · iexact C3
    isplitl [HO]; · iexact HO
    isplitr; · iapply (mayWait_copy (F := F) c (dsem 18) 3 4 (by omega) (by omega)); iexact Hlev
    iexact Ha18
  iintro ⟨HO, Ha18, #Hr18, HP18⟩
  ihave HP18 := (pay_18_elim (F := F) c) $$ HP18
  icases HP18 with ⟨HE', HG4⟩
  ihave Hx1 := (heldBut_put_right (F := F) c (VE1 1 (xr 4 c)) (VE2 1 (xr 1 c)).view.set (d1_1 c)) $$ [HE' Hx1]
  · isplitl [HE']; · iexact HE'
    iexact Hx1
  first | sl_exec | skip
  try (conv => rhs; simp only [Prog.lift, Prog.bind_op, Prog.bind_ret, Prog.pure_eq_ret])

  -- the first quiet state
  rw [wp_ret]; imodintro
  isplitr
  · ipureintro; rfl
  iexists K
  iapply (Q4_intro (F := F) K c)
  isplitr; · iexact HI
  isplitr; · iexact HR
  isplitr; · iexact Hlev
  isplitl [HaB]; · iexact HaB
  isplitl [Ha8]; · iexact Ha8
  isplitl [Ha9]; · iexact Ha9
  isplitl [Ha10]; · iexact Ha10
  isplitl [Ha11]; · iexact Ha11
  isplitl [Ha12]; · iexact Ha12
  isplitl [Ha13]; · iexact Ha13
  isplitl [Ha14]; · iexact Ha14
  isplitl [Ha15]; · iexact Ha15
  isplitl [Ha16]; · iexact Ha16
  isplitl [Ha17]; · iexact Ha17
  isplitl [Ha18]; · iexact Ha18
  isplitl [Ha19]; · iexact Ha19
  isplitl [Ha20]; · iexact Ha20
  isplitl [Ha21]; · iexact Ha21
  isplitl [Ha22]; · iexact Ha22
  isplitl [Ha23]; · iexact Ha23
  isplitl [Ha24]; · iexact Ha24
  isplitl [Ha25]; · iexact Ha25
  isplitl [Ha26]; · iexact Ha26
  isplitl [Ha27]; · iexact Ha27
  isplitl [Ha28]; · iexact Ha28
  isplitl [Ha29]; · iexact Ha29
  isplitl [Ha30]; · iexact Ha30
  isplitl [Ha31]; · iexact Ha31
  isplitl [Ha32]; · iexact Ha32
  isplitl [Ha33]; · iexact Ha33
  isplitl [Ha34]; · iexact Ha34
  isplitl [Ha35]; · iexact Ha35
  isplitl [Ha36]; · iexact Ha36
  isplitl [Ha37]; · iexact Ha37
  isplitl [Ha38]; · iexact Ha38
  isplitl [Ha39]; · iexact Ha39
  isplitr; · iexact Hr8
  isplitr; · iexact Hr9
  isplitr; · iexact Hr11
  isplitr; · iexact Hr12
  isplitr; · iexact Hr14
  isplitr; · iexact Hr15
  isplitr; · iexact Hr17
  isplitr; · iexact Hr18
  isplitl [Htoks]; · iexact Htoks
  isplitl [Hcreds]; · iexact Hcreds
  isplitl [HO]; · (iexists _; iexact HO)
  isplitl [Hw0 Hw1 Hw2 Hw3 Hw4 Hw5 Hw6 Hw7 Hs2 Hs3 Hs4 Hs5 Hs8 Hs9]
  · rw [localBufs_eq]
    isplitl [Hw0]; · (iapply (ptw_of_set (F := F) c cc0_stg0_0 _); iexact Hw0)
    isplitl [Hw1]; · (iapply (ptw_of_set (F := F) c cc0_stg1_0 _); iexact Hw1)
    isplitl [Hw2]; · (iapply (ptw_of_set (F := F) c cc0_stg2_0 _); iexact Hw2)
    isplitl [Hw3]; · (iapply (ptw_of_set (F := F) c cc0_stg3_0 _); iexact Hw3)
    isplitl [Hw4]; · (iapply (ptw_of_set (F := F) c cc0_stg4_0 _); iexact Hw4)
    isplitl [Hw5]; · (iapply (ptw_of_set (F := F) c cc0_stg5_0 _); iexact Hw5)
    isplitl [Hw6]; · (iapply (ptw_of_set (F := F) c cc0_stg6_0 _); iexact Hw6)
    isplitl [Hw7]; · (iapply (ptw_of_set (F := F) c cc0_stg7_0 _); iexact Hw7)
    isplitl [Hs2]; · (iexists _; iexact Hs2)
    isplitl [Hs3]; · (iexists _; iexact Hs3)
    isplitl [Hs4]; · (iexists _; iexact Hs4)
    isplitl [Hs5]; · (iexists _; iexact Hs5)
    isplitl [Hs8]; · (iexists _; iexact Hs8)
    iexists _; iexact Hs9
  isplitl [Hx0]; · iexact Hx0
  isplitl [Hx1]; · iexact Hx1
  isplitl [Hy0]; · iexact Hy0
  isplitl [Hy1]; · (iapply (heldBut_of_whole (F := F) c cc0_scratch7 _); iexact Hy1)
  isplitl [HG4]; · iexact HG4
  isplitl [HG1]; · iexact HG1
  iexact HG2

/-- info: 'Cert.KernelIdeal.Hand.seg1_ok' depends on axioms: [propext, Classical.choice, Quot.sound] -/
#guard_msgs in #print axioms seg1_ok

end Cert.KernelIdeal.Hand
end
-- ==== Proof.KernelIdeal.Seg2.lean ====
/- The third exchange of the gather, in layer 0 (segment 2) and in the last layer (segment 11).

   Each stream sends its own aligned four row blocks to the partner of the exchange, into the same rows there, and
   receives the partner's four into the other half of its gather buffer. While the two copies fly the matrix
   products go on over the other pair of own blocks, so a copy borrows only half the share of its source rows;
   the send wait brings that half back, the receive wait brings the partner's rows, and the buffer is whole.
   With its copy a device hands the partner its own two receive slots of the half-block reduce steps to come (the
   partner writes them next); the landing of the partner's copy brings the partner's two slots in return. -/
import proofs.«900979_g7700000000000980_dist_mlpseq_tp1d_bs_bs_b256_d256_h512_v7x_i8_bf16_1_alg».proof.Proof.KernelIdeal.Specs
import proofs.«900979_g7700000000000980_dist_mlpseq_tp1d_bs_bs_b256_d256_h512_v7x_i8_bf16_1_alg».proof.Proof.KernelIdeal.Steps
import proofs.«900979_g7700000000000980_dist_mlpseq_tp1d_bs_bs_b256_d256_h512_v7x_i8_bf16_1_alg».proof.Proof.KernelIdeal.QuietLemmas

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig ℕ (Elt F) ℕ UU ℕ

/-! ## The semaphores of the third exchange and of the slots handed over with it, by number -/

theorem s2_agR_02 : (agR 0 2 : DmaSem sig) = dsem 13 := by decide
theorem s2_agR_12 : (agR 1 2 : DmaSem sig) = dsem 19 := by decide
theorem s2_rsR_00 : (rsR 0 0 : DmaSem sig) = dsem 25 := by decide
theorem s2_rsR_04 : (rsR 0 4 : DmaSem sig) = dsem 29 := by decide
theorem s2_rsR_10 : (rsR 1 0 : DmaSem sig) = dsem 35 := by decide
theorem s2_rsR_14 : (rsR 1 4 : DmaSem sig) = dsem 39 := by decide

theorem s2_heldBut_eq (c : Dev nD) (b : Ref sig .tc) (A : Finset (Idx ((Memref.whole b).view.loc (c : Thread nD τ)))) :
    heldBut (F := F) c b A = iprop(∃ f : Buf (Elt F) ((Memref.whole b).view.loc (c : Thread nD τ)),
      (Memref.whole b).view.loc (c : Thread nD τ) ↦[Finset.univ \ A]{fullShare} f) := rfl

/-! ## What the landing of the third exchange hands the partner

    Device `c`'s copy lands on the partner's receive cell; read at the partner, the payload of that cell names the
    partner's partner, which is `c` again: the four row blocks as written, and `c`'s own two receive slots of the
    half-block reduce steps, each with the fact that `c`'s receive cell has reached the layer's round. -/

theorem s2_payR13 (c : Dev nD) (l : ℕ) :
    iprop(ownAt (F := F) (xr 4 c) (VE2 0 c)
        ∗ ((ownAt c (R0 0) ∗ reached ER (dcell c (dsem 25)) l) ∗ (ownAt c (R1 0) ∗ reached ER (dcell c (dsem 29)) l)))
      ⊢ payDma (xr 4 c) 13 l := by
  show _ ⊢ iprop(ownAt (xr 4 c) (VE2 0 (xr 4 (xr 4 c))) ∗ grant (xr 4 (xr 4 c)) (R0 0) (rsR 0 0) l ∗ grant (xr 4 (xr 4 c)) (R1 0) (rsR 0 4) l)
  rw [xr_xr, grant_eq, grant_eq, s2_rsR_00, s2_rsR_04]

theorem s2_payR19 (c : Dev nD) (l : ℕ) :
    iprop(ownAt (F := F) (xr 1 c) (VE2 1 c)
        ∗ ((ownAt c (R0 1) ∗ reached ER (dcell c (dsem 35)) l) ∗ (ownAt c (R1 1) ∗ reached ER (dcell c (dsem 39)) l)))
      ⊢ payDma (xr 1 c) 19 l := by
  show _ ⊢ iprop(ownAt (xr 1 c) (VE2 1 (xr 1 (xr 1 c))) ∗ grant (xr 1 (xr 1 c)) (R0 1) (rsR 1 0) l ∗ grant (xr 1 (xr 1 c)) (R1 1) (rsR 1 4) l)
  rw [xr_xr, grant_eq, grant_eq, s2_rsR_10, s2_rsR_14]

/-! ## The receive slots handed over, out of the receive buffers -/

theorem s2_take6 (c : Dev nD) :
    heldBut (F := F) c cc0_scratch6 (R2 0).view.set
      ⊢ iprop(ownAt c (R0 0) ∗ ownAt c (R1 0)
          ∗ heldBut c cc0_scratch6 ((R0 0).view.set ∪ (R1 0).view.set ∪ (R2 0).view.set)) := by
  refine (heldBut_take_view (F := F) c (R0 0) (R2 0).view.set (disj_R0_R2 0).symm).1.trans ?_
  refine sep_mono_right ?_
  refine (heldBut_take_view (F := F) c (R1 0) ((R2 0).view.set ∪ (R0 0).view.set)
    (Finset.disjoint_union_left.mpr ⟨(disj_R1_R2 0).symm, disj_R0_R1 0⟩)).1.trans ?_
  refine sep_mono_right ?_
  rw [heldBut_congr c cc0_scratch6 (show (R2 0).view.set ∪ (R0 0).view.set ∪ (R1 0).view.set
      = (R0 0).view.set ∪ (R1 0).view.set ∪ (R2 0).view.set from by rw [Finset.union_assoc, Finset.union_comm])]

theorem s2_take7 (c : Dev nD) :
    heldBut (F := F) c cc0_scratch7 ∅
      ⊢ iprop(ownAt c (R0 1) ∗ ownAt c (R1 1) ∗ heldBut c cc0_scratch7 ((R0 1).view.set ∪ (R1 1).view.set)) := by
  refine (heldBut_take_view_empty (F := F) c (R0 1)).1.trans ?_
  refine sep_mono_right ?_
  exact (heldBut_take_view (F := F) c (R1 1) (R0 1).view.set (disj_R0_R1 1)).1

/-! ## The gather buffers during the third exchange

    All that is held of a gather buffer is the device's own four row blocks (the partner's four are away). The copy
    borrows the left half of their share; the right half stays, and the matrix products read the other pair of
    blocks through it. When both waits are over the halves are one again and the partner's four blocks have landed:
    the buffer is whole. -/

/-- On a whole buffer the elements under a set of indices are that set. -/
theorem s2_setOn_whole (b : Ref sig .tc) (M : Finset b.ty.shape.Idx) : (Memref.whole b).view.setOn M = M := by
  show M.map (View.whole b).emb = M
  rw [View.emb_whole]; exact Finset.map_refl

/-- A read through a rectangle inside the elements held reads held elements. -/
theorem s2_load_ok (b : Ref sig .tc) (r : Rect b.ty.shape) (B : Finset b.ty.shape.Idx) (h : r.set ⊆ B) :
    (Memref.whole b).view.setOn r.toLoadRect.set ⊆ B := by
  rw [s2_setOn_whole]; exact h

theorem s2_sub0 (c : Dev nD) :
    (Rect.unit (s := S1024x256) (k0_off11 c) S256x256.size (k0_off11_inb c)).set ⊆ (VE2 0 c).view.set := by
  rw [← set_slice_of_whole cc0_scratch0 (Rect.unit (s := S1024x256) (k0_off11 c) S256x256.size (k0_off11_inb c)) (fun _ => rfl)]
  exact sub_slices cc0_scratch0 (by revert c; decide +kernel)

theorem s2_sub1 (c : Dev nD) :
    (Rect.unit (s := S1024x256) (k0_off12 c) S256x256.size (k0_off12_inb c)).set ⊆ (VE2 1 c).view.set := by
  rw [← set_slice_of_whole cc0_scratch1 (Rect.unit (s := S1024x256) (k0_off12 c) S256x256.size (k0_off12_inb c)) (fun _ => rfl)]
  exact sub_slices cc0_scratch1 (by revert c; decide +kernel)

theorem s2_open0 (c : Dev nD) :
    heldBut (F := F) c cc0_scratch0 (VE2 0 (xr 4 c)).view.set
      ⊢ iprop(∃ f : Buf (Elt F) ((Memref.whole cc0_scratch0).view.loc (c : Thread nD τ)),
          ((VE2 0 c).view.loc (c : Thread nD τ) ↦[(VE2 0 c).view.set]{fullShare.left} f)
          ∗ ((Memref.whole cc0_scratch0).view.loc (c : Thread nD τ) ↦[(VE2 0 c).view.set]{fullShare.right} f)
          ∗ ((Memref.whole cc0_scratch0).view.loc (c : Thread nD τ) ↦[(Finset.univ \ (VE2 0 (xr 4 c)).view.set) \ (VE2 0 c).view.set]{fullShare} f)) := by
  have key : ∀ f : Buf (Elt F) ((Memref.whole cc0_scratch0).view.loc (c : Thread nD τ)),
      ((Memref.whole cc0_scratch0).view.loc (c : Thread nD τ) ↦[(VE2 0 c).view.set]{fullShare.left} f : sProp 𝕄)
        ⊢ ((VE2 0 c).view.loc (c : Thread nD τ) ↦[(VE2 0 c).view.set]{fullShare.left} f) := fun f => Entails.refl _
  iintro H
  ihave H' := (heldBut_split (F := F) c cc0_scratch0 (VE2 0 (xr 4 c)).view.set (VE2 0 c).view.set (disj_VE2_0 c).symm) $$ H
  icases H' with ⟨%f, H1, H2⟩
  ihave H1' := (halves_split (F := F) f).1 $$ H1
  icases H1' with ⟨HL, HR⟩
  ihave HL' := (key f) $$ HL
  iexists f
  isplitl [HL']
  · iexact HL'
  isplitl [HR]
  · iexact HR
  iexact H2

theorem s2_open1 (c : Dev nD) :
    heldBut (F := F) c cc0_scratch1 (VE2 1 (xr 1 c)).view.set
      ⊢ iprop(∃ f : Buf (Elt F) ((Memref.whole cc0_scratch1).view.loc (c : Thread nD τ)),
          ((VE2 1 c).view.loc (c : Thread nD τ) ↦[(VE2 1 c).view.set]{fullShare.left} f)
          ∗ ((Memref.whole cc0_scratch1).view.loc (c : Thread nD τ) ↦[(VE2 1 c).view.set]{fullShare.right} f)
          ∗ ((Memref.whole cc0_scratch1).view.loc (c : Thread nD τ) ↦[(Finset.univ \ (VE2 1 (xr 1 c)).view.set) \ (VE2 1 c).view.set]{fullShare} f)) := by
  have key : ∀ f : Buf (Elt F) ((Memref.whole cc0_scratch1).view.loc (c : Thread nD τ)),
      ((Memref.whole cc0_scratch1).view.loc (c : Thread nD τ) ↦[(VE2 1 c).view.set]{fullShare.left} f : sProp 𝕄)
        ⊢ ((VE2 1 c).view.loc (c : Thread nD τ) ↦[(VE2 1 c).view.set]{fullShare.left} f) := fun f => Entails.refl _
  iintro H
  ihave H' := (heldBut_split (F := F) c cc0_scratch1 (VE2 1 (xr 1 c)).view.set (VE2 1 c).view.set (disj_VE2_1 c).symm) $$ H
  icases H' with ⟨%f, H1, H2⟩
  ihave H1' := (halves_split (F := F) f).1 $$ H1
  icases H1' with ⟨HL, HR⟩
  ihave HL' := (key f) $$ HL
  iexists f
  isplitl [HL']
  · iexact HL'
  isplitl [HR]
  · iexact HR
  iexact H2

theorem s2_close0 (c : Dev nD) (f : Buf (Elt F) ((Memref.whole cc0_scratch0).view.loc (c : Thread nD τ))) :
    iprop(ownHalf (F := F) c (VE2 0 c)
        ∗ ((Memref.whole cc0_scratch0).view.loc (c : Thread nD τ) ↦[(VE2 0 c).view.set]{fullShare.right} f)
        ∗ ((Memref.whole cc0_scratch0).view.loc (c : Thread nD τ) ↦[(Finset.univ \ (VE2 0 (xr 4 c)).view.set) \ (VE2 0 c).view.set]{fullShare} f)
        ∗ ownAt c (VE2 0 (xr 4 c)))
      ⊢ iprop(∃ h, ptw (F := F) c cc0_scratch0 h) := by
  have h1 : iprop(ownHalf (F := F) c (VE2 0 c)
        ∗ ((Memref.whole cc0_scratch0).view.loc (c : Thread nD τ) ↦[(VE2 0 c).view.set]{fullShare.right} f))
      ⊢ ((Memref.whole cc0_scratch0).view.loc (c : Thread nD τ) ↦[(VE2 0 c).view.set]{fullShare} f : sProp 𝕄) :=
    ownHalf_join c (VE2 0 c) f
  have h2 := heldBut_join (F := F) c cc0_scratch0 (VE2 0 (xr 4 c)).view.set (VE2 0 c).view.set (disj_VE2_0 c).symm f f
  have h3 : iprop(ownAt (F := F) c (VE2 0 (xr 4 c)) ∗ heldBut c cc0_scratch0 (VE2 0 (xr 4 c)).view.set)
      ⊢ iprop(∃ h, ptw (F := F) c cc0_scratch0 h) := by
    rw [← heldBut_empty]; exact heldBut_put_only c (VE2 0 (xr 4 c))
  iintro ⟨Hh, HR, Hrest, Hland⟩
  ihave H1 := h1 $$ [Hh HR]
  · isplitl [Hh]
    · iexact Hh
    · iexact HR
  ihave H2 := h2 $$ [H1 Hrest]
  · isplitl [H1]
    · iexact H1
    · iexact Hrest
  iapply h3
  isplitl [Hland]
  · iexact Hland
  · iexact H2

theorem s2_close1 (c : Dev nD) (f : Buf (Elt F) ((Memref.whole cc0_scratch1).view.loc (c : Thread nD τ))) :
    iprop(ownHalf (F := F) c (VE2 1 c)
        ∗ ((Memref.whole cc0_scratch1).view.loc (c : Thread nD τ) ↦[(VE2 1 c).view.set]{fullShare.right} f)
        ∗ ((Memref.whole cc0_scratch1).view.loc (c : Thread nD τ) ↦[(Finset.univ \ (VE2 1 (xr 1 c)).view.set) \ (VE2 1 c).view.set]{fullShare} f)
        ∗ ownAt c (VE2 1 (xr 1 c)))
      ⊢ iprop(∃ h, ptw (F := F) c cc0_scratch1 h) := by
  have h1 : iprop(ownHalf (F := F) c (VE2 1 c)
        ∗ ((Memref.whole cc0_scratch1).view.loc (c : Thread nD τ) ↦[(VE2 1 c).view.set]{fullShare.right} f))
      ⊢ ((Memref.whole cc0_scratch1).view.loc (c : Thread nD τ) ↦[(VE2 1 c).view.set]{fullShare} f : sProp 𝕄) :=
    ownHalf_join c (VE2 1 c) f
  have h2 := heldBut_join (F := F) c cc0_scratch1 (VE2 1 (xr 1 c)).view.set (VE2 1 c).view.set (disj_VE2_1 c).symm f f
  have h3 : iprop(ownAt (F := F) c (VE2 1 (xr 1 c)) ∗ heldBut c cc0_scratch1 (VE2 1 (xr 1 c)).view.set)
      ⊢ iprop(∃ h, ptw (F := F) c cc0_scratch1 h) := by
    rw [← heldBut_empty]; exact heldBut_put_only c (VE2 1 (xr 1 c))
  iintro ⟨Hh, HR, Hrest, Hland⟩
  ihave H1 := h1 $$ [Hh HR]
  · isplitl [Hh]
    · iexact Hh
    · iexact HR
  ihave H2 := h2 $$ [H1 Hrest]
  · isplitl [H1]
    · iexact H1
    · iexact Hrest
  iapply h3
  isplitl [Hland]
  · iexact Hland
  · iexact H2

/-- A whole buffer at some contents. -/
theorem s2_some (c : Dev nD) (b : Ref sig .tc) (f : Buf (Elt F) ((Memref.whole b).view.loc (c : Thread nD τ))) :
    ptw (F := F) c b f ⊢ iprop(∃ h, ptw (F := F) c b h) :=
  exists_intro (Φ := fun h => ptw (F := F) c b h) f

/-! ## The two protocol steps as the program spells them

    The program names the partner by its printed device chain and the semaphores by their printed slices; each is
    equal to the protocol's partner and numbered semaphore. -/

/-- The copy rule at the printed partner and semaphores. -/
theorem s2_send (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-- The wait for copy `k` (credit index `ι = k + 1`) on cell `j`, when `n > k` copies are issued: everything still
    owed sits above it. The owner comes back one round on with what the landing hands over. -/
theorem s2_wait (c : Dev nD) (j r r' ι k n a : ℕ) (sW : DmaSem sig) (hsW : sW = dsem j) (hj : j < 40) (hr : r < nRounds j)
    (hr' : r' = r + 1) (hι : ι = k + 1) (ha : a = amtDma j r) (hk : k < n) (hn : n ≤ 38)
    (P : sProp 𝕄) (hP : payDma (F := F) c j r = P) (K : GSem nD τ sig → ℕ) (W : Waits sig ℕ)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = amtDma j r)
    {α : Type} {Q : α → sProp 𝕄} {kk : PUnit → Prog (TpuEff nD τ sig (Elt F) Λ₀ .tc) α} :
    iprop(invsAll (F := F) K ∗ levAts L lv ∗ cred (tallyAt (dcell c (dsem j)) ι a) ∗ owes (c : Thread nD τ) (owedFrom c n) W
        ∗ atPos ER (dcell c (dsem j)) r ∅ 0)
      ⊢ iprop(((owes (c : Thread nD τ) (owedFrom c n) (insert (.dma (dsem j), ι) W) ∗ atPos ER (dcell c (dsem j)) r' ∅ 0
              ∗ reached ER (dcell c (dsem j)) r' ∗ P)
            -∗ wp frame (wpE (defs₀ (F := F)) Variants.none (c : Thread nD τ) none) Set.univ (kk ⟨⟩) Q)
          -∗ wp frame (wpE (defs₀ (F := F)) Variants.none (c : Thread nD τ) none) Set.univ
              (.op (.waitDma2 sW src dst hsrc hdst) kk) Q) := by
  subst hsW hr' hι ha hP
  iintro ⟨#HI, #Hlev, Hc, HO, Hat⟩
  iapply (wp_wait_copy (F := F) c j r (k + 1) hj hr K (owedFrom c n) W (hw_waitDma2 c j r hN)) $$ [Hc HO Hat]
  isplitr
  · iexact HI
  isplitl [Hc]
  · iexact Hc
  isplitl [HO]
  · iexact HO
  isplitr
  · iapply (mayWait_copy (F := F) c (dsem j) k n hk hn)
    iexact Hlev
  iexact Hat

theorem s2_someW (c : Dev nD) (n : ℕ) (W : Waits sig ℕ) :
    (owes (c : Thread nD τ) (owedFrom c n) W : sProp 𝕄) ⊢ iprop(∃ W, owes (c : Thread nD τ) (owedFrom c n) W) :=
  exists_intro (Φ := fun W => (owes (c : Thread nD τ) (owedFrom c n) W : sProp 𝕄)) W

set_option maxHeartbeats 4000000 in
theorem seg2_ok (c : Dev nD) : Spec2 (F := F) c := by
  intro v2 v11 v131 v134 v185 v187
  have hroute4 : τ.routes (c : Thread nD τ) (xr 4 c : Thread nD τ) = true := by revert c; decide +kernel
  have hroute1 : τ.routes (c : Thread nD τ) (xr 1 c : Thread nD τ) = true := by revert c; decide +kernel
  refine exists_elim fun K => ?_
  rw [Q4_eq, core_eq, posAt_4, toks_seg_4, creds_seg_4, localBufs_eq, grant_eq, grant_eq, s2_agR_02, s2_agR_12]
  unfold seg2
  rw [k0_part7_eq_skeleton, k0_part8_eq_skeleton, k0_part9_eq_skeleton]
  unfold k0_part7_skel k0_part8_skel k0_part9_skel
  simp only [Prog.lift, Prog.bind_op, Prog.bind_ret, Prog.pure_eq_ret, Prog.bind_assoc]
  iintro ⟨⟨#HI, #HR, #Hlev, HatB, ⟨Ha8, #Hr8, Ha9, #Hr9, Ha10, #Hr10, Ha11, #Hr11, Ha12, #Hr12, Ha13, #Hr13, Ha14, #Hr14, Ha15, #Hr15, Ha16, #Hr16, Ha17, #Hr17, Ha18, #Hr18, Ha19, #Hr19, Ha20, #Hr20, Ha21, #Hr21, Ha22, #Hr22, Ha23, #Hr23, Ha24, #Hr24, Ha25, #Hr25, Ha26, #Hr26, Ha27, #Hr27, Ha28, #Hr28, Ha29, #Hr29, Ha30, #Hr30, Ha31, #Hr31, Ha32, #Hr32, Ha33, #Hr33, Ha34, #Hr34, Ha35, #Hr35, Ha36, #Hr36, Ha37, #Hr37, Ha38, #Hr38, Ha39, #Hr39⟩, ⟨⟨Ht10, Ht13⟩, ⟨Ht16, Ht19⟩, Htoks⟩, ⟨Hc13, Hc19, Hcreds⟩, ⟨%W, HO⟩, ⟨Hl0, Hl1, Hl2, Hl3, Hl4, Hl5, Hl6, Hl7, ⟨%a2, HS2⟩, ⟨%a3, HS3⟩, HS4, HS5, ⟨%a8, HS8⟩, ⟨%a9, HS9⟩⟩⟩, Hs0, Hs1, Hs6, Hs7, ⟨Hd4, #Hrp4⟩, ⟨Hd5, #Hrp5⟩, Hg3⟩
  -- the own four row blocks of each gather buffer: the left half of their share goes with the copy
  ihave Hx := (s2_open0 (F := F) c) $$ Hs0
  icases Hx with ⟨%f0, HsL0, HsR0, Hs0⟩
  ihave Hx := (s2_open1 (F := F) c) $$ Hs1
  icases Hx with ⟨%f1, HsL1, HsR1, Hs1⟩
  -- the own receive slots of the half-block reduce steps, handed to the partners with the copies
  ihave Hx := (s2_take6 (F := F) c) $$ Hs6
  icases Hx with ⟨HR00, HR10, Hs6⟩
  ihave Hx := (s2_take7 (F := F) c) $$ Hs7
  icases Hx with ⟨HR01, HR11, Hs7⟩
  -- the third exchange of the first stream, to the partner across 4
  iapply (s2_send (F := F) c (xr 4 c) _ (dev8_eq c) (VE2 0 c) (VE2 0 c) 10 13 0 5 _ _ sem_ag0s_2 sem_ag0r_2
      (by decide) (by decide) (by decide) (by decide) ((credit_VE2 0 c).trans rfl) rfl
      (iprop((ownAt c (R0 0) ∗ reached ER (dcell c (dsem 25)) 0) ∗ (ownAt c (R1 0) ∗ reached ER (dcell c (dsem 29)) 0)))
      fullShare.left f0 (ownHalf_of c (VE2 0 c) f0) (s2_payR13 c 0) K (owedFrom c 5)
      (owedFrom_succ c 4 (4, 13, 0) rfl) W hroute4) $$ [HsL0 Hd4 HR00 HR10 HO Ht10 Ht13]
  · iframe ∗ #
  iintro ⟨Hcs4, HO⟩
  -- of the second stream, to the partner across 1
  iapply (s2_send (F := F) c (xr 1 c) _ (dev9_eq c) (VE2 1 c) (VE2 1 c) 16 19 0 6 _ _ sem_ag1s_2 sem_ag1r_2
      (by decide) (by decide) (by decide) (by decide) ((credit_VE2 1 c).trans rfl) rfl
      (iprop((ownAt c (R0 1) ∗ reached ER (dcell c (dsem 35)) 0) ∗ (ownAt c (R1 1) ∗ reached ER (dcell c (dsem 39)) 0)))
      fullShare.left f1 (ownHalf_of c (VE2 1 c) f1) (s2_payR19 c 0) K (owedFrom c 6)
      (owedFrom_succ c 5 (1, 19, 0) rfl) W hroute1) $$ [HsL1 Hd5 HR01 HR11 HO Ht16 Ht19]
  · iframe ∗ #
  iintro ⟨Hcs5, HO⟩
  -- the first stream's other pair of own blocks, read through the half that stayed
  iapply (wp_load Variants.none (c : Thread nD τ) none Set.univ (s2_load_ok cc0_scratch0 _ _ (s2_sub0 c))) $$ [HsR0]
  · iexact HsR0
  iintro HsR0
  sl_exec
  -- the second stream's
  iapply (wp_load Variants.none (c : Thread nD τ) none Set.univ (s2_load_ok cc0_scratch1 _ _ (s2_sub1 c))) $$ [HsR1]
  · iexact HsR1
  iintro HsR1
  sl_exec
  -- the first stream's copy: its source's borrowed half comes back, then the partner's four blocks have landed
  iapply (s2_wait (F := F) c 10 0 1 5 4 6 (amtDma 13 0) _ sem_ag0s_2 (by decide) (by decide) rfl rfl rfl
      (by decide) (by decide) (ownHalf c (VE2 0 c)) rfl K _ ((credit_VE2 0 c).trans rfl)) $$ [Hcs4 HO Ha10]
  · iframe ∗ #
  iintro ⟨HO, Ha10, #Hr10', Hh0⟩
  iapply (s2_wait (F := F) c 13 0 1 5 4 6 (amtDma 13 0) _ sem_ag0r_2 (by decide) (by decide) rfl rfl rfl
      (by decide) (by decide)
      (iprop(ownAt c (VE2 0 (xr 4 c)) ∗ grant (xr 4 c) (R0 0) (rsR 0 0) 0 ∗ grant (xr 4 c) (R1 0) (rsR 0 4) 0)) rfl K _
      ((credit_VE2 0 c).trans rfl)) $$ [Hc13 HO Ha13]
  · iframe ∗ #
  iintro ⟨HO, Ha13, #Hr13', Hland0, Hg00, Hg10⟩
  -- the second stream's
  iapply (s2_wait (F := F) c 16 0 1 6 5 6 (amtDma 19 0) _ sem_ag1s_2 (by decide) (by decide) rfl rfl rfl
      (by decide) (by decide) (ownHalf c (VE2 1 c)) rfl K _ ((credit_VE2 1 c).trans rfl)) $$ [Hcs5 HO Ha16]
  · iframe ∗ #
  iintro ⟨HO, Ha16, #Hr16', Hh1⟩
  iapply (s2_wait (F := F) c 19 0 1 6 5 6 (amtDma 19 0) _ sem_ag1r_2 (by decide) (by decide) rfl rfl rfl
      (by decide) (by decide)
      (iprop(ownAt c (VE2 1 (xr 1 c)) ∗ grant (xr 1 c) (R0 1) (rsR 1 0) 0 ∗ grant (xr 1 c) (R1 1) (rsR 1 4) 0)) rfl K _
      ((credit_VE2 1 c).trans rfl)) $$ [Hc19 HO Ha19]
  · iframe ∗ #
  iintro ⟨HO, Ha19, #Hr19', Hland1, Hg01, Hg11⟩
  -- both gather buffers are whole again
  ihave Hx := (s2_close0 (F := F) c f0) $$ [Hh0 HsR0 Hs0 Hland0]
  · iframe ∗ #
  icases Hx with ⟨%g0, Hs0⟩
  ihave Hx := (s2_close1 (F := F) c f1) $$ [Hh1 HsR1 Hs1 Hland1]
  · iframe ∗ #
  icases Hx with ⟨%g1, Hs1⟩
  sl_exec
  -- the quiet state after the exchange
  rw [wp_ret]; imodintro
  iexists K
  rw [QE2_eq, core_eq, posAt_6, localBufs_eq, heldBut_empty, heldBut_empty]
  ihave HS2 := (s2_some (F := F) c cc0_scratch2 _) $$ HS2
  ihave HS3 := (s2_some (F := F) c cc0_scratch3 _) $$ HS3
  ihave HS8 := (s2_some (F := F) c cc0_scratch8 _) $$ HS8
  ihave HS9 := (s2_some (F := F) c cc0_scratch9 _) $$ HS9
  ihave Hs0 := (s2_some (F := F) c cc0_scratch0 _) $$ Hs0
  ihave Hs1 := (s2_some (F := F) c cc0_scratch1 _) $$ Hs1
  ihave HO := (s2_someW (F := F) c 6 _) $$ HO
  iframe ∗ #

/-- info: 'Cert.KernelIdeal.Hand.seg2_ok' depends on axioms: [propext, Classical.choice, Quot.sound] -/
#guard_msgs in #print axioms seg2_ok

set_option maxHeartbeats 4000000 in
theorem seg11_ok (c : Dev nD) : Spec11 (F := F) c := by
  intro v2 v11 v1225 v1228 v1279
  have hroute4 : τ.routes (c : Thread nD τ) (xr 4 c : Thread nD τ) = true := by revert c; decide +kernel
  have hroute1 : τ.routes (c : Thread nD τ) (xr 1 c : Thread nD τ) = true := by revert c; decide +kernel
  refine exists_elim fun K => ?_
  rw [Q28_eq, core_eq, posAt_28, toks_seg_28, creds_seg_28, localBufs_eq, grant_eq, grant_eq, s2_agR_02, s2_agR_12]
  unfold seg11
  rw [k0_part42_eq_skeleton, k0_part43_eq_skeleton, k0_part44_eq_skeleton]
  unfold k0_part42_skel k0_part43_skel k0_part44_skel
  simp only [Prog.lift, Prog.bind_op, Prog.bind_ret, Prog.pure_eq_ret, Prog.bind_assoc]
  iintro ⟨⟨#HI, #HR, #Hlev, HatB, ⟨Ha8, #Hr8, Ha9, #Hr9, Ha10, #Hr10, Ha11, #Hr11, Ha12, #Hr12, Ha13, #Hr13, Ha14, #Hr14, Ha15, #Hr15, Ha16, #Hr16, Ha17, #Hr17, Ha18, #Hr18, Ha19, #Hr19, Ha20, #Hr20, Ha21, #Hr21, Ha22, #Hr22, Ha23, #Hr23, Ha24, #Hr24, Ha25, #Hr25, Ha26, #Hr26, Ha27, #Hr27, Ha28, #Hr28, Ha29, #Hr29, Ha30, #Hr30, Ha31, #Hr31, Ha32, #Hr32, Ha33, #Hr33, Ha34, #Hr34, Ha35, #Hr35, Ha36, #Hr36, Ha37, #Hr37, Ha38, #Hr38, Ha39, #Hr39⟩, ⟨⟨Ht10, Ht13⟩, ⟨Ht16, Ht19⟩, Htoks⟩, ⟨Hc13, Hc19, Hcreds⟩, ⟨%W, HO⟩, ⟨Hl0, Hl1, Hl2, Hl3, Hl4, Hl5, Hl6, Hl7, ⟨%a2, HS2⟩, ⟨%a3, HS3⟩, HS4, HS5, ⟨%a8, HS8⟩, ⟨%a9, HS9⟩⟩⟩, Hs0, Hs1, Hs6, Hs7, ⟨Hd4, #Hrp4⟩, ⟨Hd5, #Hrp5⟩, Hg3⟩
  -- the own four row blocks of each gather buffer: the left half of their share goes with the copy
  ihave Hx := (s2_open0 (F := F) c) $$ Hs0
  icases Hx with ⟨%f0, HsL0, HsR0, Hs0⟩
  ihave Hx := (s2_open1 (F := F) c) $$ Hs1
  icases Hx with ⟨%f1, HsL1, HsR1, Hs1⟩
  -- the own receive slots of the half-block reduce steps, handed to the partners with the copies
  ihave Hx := (s2_take6 (F := F) c) $$ Hs6
  icases Hx with ⟨HR00, HR10, Hs6⟩
  ihave Hx := (s2_take7 (F := F) c) $$ Hs7
  icases Hx with ⟨HR01, HR11, Hs7⟩
  -- the third exchange of the first stream, to the partner across 4
  iapply (s2_send (F := F) c (xr 4 c) _ (dev32_eq c) (VE2 0 c) (VE2 0 c) 10 13 2 29 _ _ sem_ag0s_2 sem_ag0r_2
      (by decide) (by decide) (by decide) (by decide) ((credit_VE2 0 c).trans rfl) rfl
      (iprop((ownAt c (R0 0) ∗ reached ER (dcell c (dsem 25)) 2) ∗ (ownAt c (R1 0) ∗ reached ER (dcell c (dsem 29)) 2)))
      fullShare.left f0 (ownHalf_of c (VE2 0 c) f0) (s2_payR13 c 2) K (owedFrom c 29)
      (owedFrom_succ c 28 (4, 13, 2) rfl) W hroute4) $$ [HsL0 Hd4 HR00 HR10 HO Ht10 Ht13]
  · iframe ∗ #
  iintro ⟨Hcs4, HO⟩
  -- of the second stream, to the partner across 1
  iapply (s2_send (F := F) c (xr 1 c) _ (dev33_eq c) (VE2 1 c) (VE2 1 c) 16 19 2 30 _ _ sem_ag1s_2 sem_ag1r_2
      (by decide) (by decide) (by decide) (by decide) ((credit_VE2 1 c).trans rfl) rfl
      (iprop((ownAt c (R0 1) ∗ reached ER (dcell c (dsem 35)) 2) ∗ (ownAt c (R1 1) ∗ reached ER (dcell c (dsem 39)) 2)))
      fullShare.left f1 (ownHalf_of c (VE2 1 c) f1) (s2_payR19 c 2) K (owedFrom c 30)
      (owedFrom_succ c 29 (1, 19, 2) rfl) W hroute1) $$ [HsL1 Hd5 HR01 HR11 HO Ht16 Ht19]
  · iframe ∗ #
  iintro ⟨Hcs5, HO⟩
  -- the first stream's other pair of own blocks, read through the half that stayed
  iapply (wp_load Variants.none (c : Thread nD τ) none Set.univ (s2_load_ok cc0_scratch0 _ _ (s2_sub0 c))) $$ [HsR0]
  · iexact HsR0
  iintro HsR0
  sl_exec
  -- the second stream's
  iapply (wp_load Variants.none (c : Thread nD τ) none Set.univ (s2_load_ok cc0_scratch1 _ _ (s2_sub1 c))) $$ [HsR1]
  · iexact HsR1
  iintro HsR1
  sl_exec
  -- the first stream's copy: its source's borrowed half comes back, then the partner's four blocks have landed
  iapply (s2_wait (F := F) c 10 2 3 29 28 30 (amtDma 13 2) _ sem_ag0s_2 (by decide) (by decide) rfl rfl rfl
      (by decide) (by decide) (ownHalf c (VE2 0 c)) rfl K _ ((credit_VE2 0 c).trans rfl)) $$ [Hcs4 HO Ha10]
  · iframe ∗ #
  iintro ⟨HO, Ha10, #Hr10', Hh0⟩
  iapply (s2_wait (F := F) c 13 2 3 29 28 30 (amtDma 13 2) _ sem_ag0r_2 (by decide) (by decide) rfl rfl rfl
      (by decide) (by decide)
      (iprop(ownAt c (VE2 0 (xr 4 c)) ∗ grant (xr 4 c) (R0 0) (rsR 0 0) 2 ∗ grant (xr 4 c) (R1 0) (rsR 0 4) 2)) rfl K _
      ((credit_VE2 0 c).trans rfl)) $$ [Hc13 HO Ha13]
  · iframe ∗ #
  iintro ⟨HO, Ha13, #Hr13', Hland0, Hg00, Hg10⟩
  -- the second stream's
  iapply (s2_wait (F := F) c 16 2 3 30 29 30 (amtDma 19 2) _ sem_ag1s_2 (by decide) (by decide) rfl rfl rfl
      (by decide) (by decide) (ownHalf c (VE2 1 c)) rfl K _ ((credit_VE2 1 c).trans rfl)) $$ [Hcs5 HO Ha16]
  · iframe ∗ #
  iintro ⟨HO, Ha16, #Hr16', Hh1⟩
  iapply (s2_wait (F := F) c 19 2 3 30 29 30 (amtDma 19 2) _ sem_ag1r_2 (by decide) (by decide) rfl rfl rfl
      (by decide) (by decide)
      (iprop(ownAt c (VE2 1 (xr 1 c)) ∗ grant (xr 1 c) (R0 1) (rsR 1 0) 2 ∗ grant (xr 1 c) (R1 1) (rsR 1 4) 2)) rfl K _
      ((credit_VE2 1 c).trans rfl)) $$ [Hc19 HO Ha19]
  · iframe ∗ #
  iintro ⟨HO, Ha19, #Hr19', Hland1, Hg01, Hg11⟩
  -- both gather buffers are whole again
  ihave Hx := (s2_close0 (F := F) c f0) $$ [Hh0 HsR0 Hs0 Hland0]
  · iframe ∗ #
  icases Hx with ⟨%g0, Hs0⟩
  ihave Hx := (s2_close1 (F := F) c f1) $$ [Hh1 HsR1 Hs1 Hland1]
  · iframe ∗ #
  icases Hx with ⟨%g1, Hs1⟩
  sl_exec
  -- the quiet state after the exchange
  rw [wp_ret]; imodintro
  iexists K
  rw [QE2_eq, core_eq, posAt_30, localBufs_eq, heldBut_empty, heldBut_empty]
  ihave HS2 := (s2_some (F := F) c cc0_scratch2 _) $$ HS2
  ihave HS3 := (s2_some (F := F) c cc0_scratch3 _) $$ HS3
  ihave HS8 := (s2_some (F := F) c cc0_scratch8 _) $$ HS8
  ihave HS9 := (s2_some (F := F) c cc0_scratch9 _) $$ HS9
  ihave Hs0 := (s2_some (F := F) c cc0_scratch0 _) $$ Hs0
  ihave Hs1 := (s2_some (F := F) c cc0_scratch1 _) $$ Hs1
  ihave HO := (s2_someW (F := F) c 30 _) $$ HO
  iframe ∗ #

/-- info: 'Cert.KernelIdeal.Hand.seg11_ok' depends on axioms: [propext, Classical.choice, Quot.sound] -/
#guard_msgs in #print axioms seg11_ok

end Cert.KernelIdeal.Hand

end
-- ==== Proof.KernelIdeal.SegAB.lean ====
/- The two half-block steps of the reduce, layer by layer.

   After the third exchange of a layer a device holds the layer's partial sums in its two accumulators. It sends, for
   each stream, two 256-row halves of the partial sums (cast to bf16 in the halves of the stream's send buffer) to the
   partner of the first reduce step, and adds what the partner's copies land in the first two slots of its receive
   buffers into the halves it keeps. Four copies, each waited for on its send and on its receive cell.

   What moves between the devices besides the rows: with the second half of each stream the device hands its partner
   the slot of its own receive buffer that the partner's next copy to it will fill (the third reduce step's slot of
   stream 1, the last step's slot of stream 0), together with the fact that its receive cell has reached that copy's
   round; and the landings of the partner's copies bring the same for the partner's slots. Between the copies the
   device reads and writes only rows it holds: the other half of a send buffer while one half is away, the landed
   slots of the receive buffers, the accumulators and the weights. -/
import proofs.«900979_g7700000000000980_dist_mlpseq_tp1d_bs_bs_b256_d256_h512_v7x_i8_bf16_1_alg».proof.Proof.KernelIdeal.Specs
import proofs.«900979_g7700000000000980_dist_mlpseq_tp1d_bs_bs_b256_d256_h512_v7x_i8_bf16_1_alg».proof.Proof.KernelIdeal.Steps
import proofs.«900979_g7700000000000980_dist_mlpseq_tp1d_bs_bs_b256_d256_h512_v7x_i8_bf16_1_alg».proof.Proof.KernelIdeal.QuietLemmas

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig ℕ (Elt F) ℕ UU ℕ

namespace AB

/-! ## The quiet states, opened

    Equations that hold by unfolding, at the numerals the two-half reduce segments meet. -/

theorem rsR_00 : (rsR 0 0 : DmaSem sig) = dsem 25 := by decide
theorem rsR_04 : (rsR 0 4 : DmaSem sig) = dsem 29 := by decide
theorem rsR_10 : (rsR 1 0 : DmaSem sig) = dsem 35 := by decide
theorem rsR_14 : (rsR 1 4 : DmaSem sig) = dsem 39 := by decide
theorem rsR_11 : (rsR 1 1 : DmaSem sig) = dsem 36 := by decide
theorem rsR_01 : (rsR 0 1 : DmaSem sig) = dsem 26 := by decide
theorem rsR_02 : (rsR 0 2 : DmaSem sig) = dsem 27 := by decide
theorem rsR_03 : (rsR 0 3 : DmaSem sig) = dsem 28 := by decide

/-- The four copies of a two-half reduce segment, numbers `k₀ .. k₀ + 3` at round `l`: their duty tokens. -/
theorem toksAB (c : Dev nD) (k₀ l : ℕ) (es : List (Fin 8 × ℕ × ℕ)) :
    toksCopies (F := F) c k₀ ((4, 25, l) :: (1, 35, l) :: (4, 29, l) :: (1, 39, l) :: es) =
    iprop((dutyTok ER (dcell c (dsem 20)) l (0 : DD) ∗ dutyTok ER (dcell (xr 4 c) (dsem 25)) l (0 : DD))
      ∗ (dutyTok ER (dcell c (dsem 30)) l (0 : DD) ∗ dutyTok ER (dcell (xr 1 c) (dsem 35)) l (0 : DD))
      ∗ (dutyTok ER (dcell c (dsem 24)) l (0 : DD) ∗ dutyTok ER (dcell (xr 4 c) (dsem 29)) l (0 : DD))
      ∗ (dutyTok ER (dcell c (dsem 34)) l (0 : DD) ∗ dutyTok ER (dcell (xr 1 c) (dsem 39)) l (0 : DD))
      ∗ toksCopies c (k₀ + 1 + 1 + 1 + 1) es) := rfl

/-- And the credit the partners' copies of the same numbers land. -/
theorem credsAB (c : Dev nD) (k₀ l : ℕ) (es : List (Fin 8 × ℕ × ℕ)) :
    credsCopies (F := F) c k₀ ((4, 25, l) :: (1, 35, l) :: (4, 29, l) :: (1, 39, l) :: es) =
    iprop(cred (tallyAt (dcell c (dsem 25)) (k₀ + 1) (amtDma 25 l))
      ∗ cred (tallyAt (dcell c (dsem 35)) (k₀ + 1 + 1) (amtDma 35 l))
      ∗ cred (tallyAt (dcell c (dsem 29)) (k₀ + 1 + 1 + 1) (amtDma 29 l))
      ∗ cred (tallyAt (dcell c (dsem 39)) (k₀ + 1 + 1 + 1 + 1) (amtDma 39 l))
      ∗ credsCopies c (k₀ + 1 + 1 + 1 + 1) es) := rfl

/-- The rounds after the four copies: one more on each of their eight cells. -/
def step8 (R : ℕ → ℕ) : ℕ → ℕ
  | 20 => R 20 + 1 | 24 => R 24 + 1 | 25 => R 25 + 1 | 29 => R 29 + 1
  | 30 => R 30 + 1 | 34 => R 34 + 1 | 35 => R 35 + 1 | 39 => R 39 + 1
  | j => R j

theorem posAt_congr (c : Dev nD) {R R' : ℕ → ℕ} (h : ∀ j, 8 ≤ j → j < 40 → R j = R' j) :
    posAt (F := F) c R = posAt c R' := by
  have e : (fun j => if 8 ≤ j ∧ j < 40 then R j else 0) = (fun j => if 8 ≤ j ∧ j < 40 then R' j else 0) := by
    funext j
    by_cases hj : 8 ≤ j ∧ j < 40
    · rw [if_pos hj, if_pos hj, h j hj.1 hj.2]
    · rw [if_neg hj, if_neg hj]
  calc posAt (F := F) c R = posAt c (fun j => if 8 ≤ j ∧ j < 40 then R j else 0) := rfl
    _ = posAt c (fun j => if 8 ≤ j ∧ j < 40 then R' j else 0) := by rw [e]
    _ = posAt c R' := rfl

/-- The positions on the eight cells of the four copies taken out of the 32, with what puts them back one round on;
    and the rounds reached on the cells whose slots the copies hand over. -/
theorem posAt_focus8 (c : Dev nD) (R R' : ℕ → ℕ) (h : ∀ j, 8 ≤ j → j < 40 → R' j = step8 R j) :
    posAt (F := F) c R ⊢ iprop((atPos ER (dcell c (dsem 20)) (R 20) ∅ 0 ∗ reached ER (dcell c (dsem 20)) (R 20))
        ∗ (atPos ER (dcell c (dsem 24)) (R 24) ∅ 0 ∗ reached ER (dcell c (dsem 24)) (R 24))
        ∗ (atPos ER (dcell c (dsem 25)) (R 25) ∅ 0 ∗ reached ER (dcell c (dsem 25)) (R 25))
        ∗ (atPos ER (dcell c (dsem 29)) (R 29) ∅ 0 ∗ reached ER (dcell c (dsem 29)) (R 29))
        ∗ (atPos ER (dcell c (dsem 30)) (R 30) ∅ 0 ∗ reached ER (dcell c (dsem 30)) (R 30))
        ∗ (atPos ER (dcell c (dsem 34)) (R 34) ∅ 0 ∗ reached ER (dcell c (dsem 34)) (R 34))
        ∗ (atPos ER (dcell c (dsem 35)) (R 35) ∅ 0 ∗ reached ER (dcell c (dsem 35)) (R 35))
        ∗ (atPos ER (dcell c (dsem 39)) (R 39) ∅ 0 ∗ reached ER (dcell c (dsem 39)) (R 39))
        ∗ □ reached ER (dcell c (dsem 36)) (R 36) ∗ □ reached ER (dcell c (dsem 27)) (R 27) ∗ □ reached ER (dcell c (dsem 28)) (R 28)
        ∗ (((atPos ER (dcell c (dsem 20)) (R 20 + 1) ∅ 0 ∗ reached ER (dcell c (dsem 20)) (R 20 + 1))
        ∗ (atPos ER (dcell c (dsem 24)) (R 24 + 1) ∅ 0 ∗ reached ER (dcell c (dsem 24)) (R 24 + 1))
        ∗ (atPos ER (dcell c (dsem 25)) (R 25 + 1) ∅ 0 ∗ reached ER (dcell c (dsem 25)) (R 25 + 1))
        ∗ (atPos ER (dcell c (dsem 29)) (R 29 + 1) ∅ 0 ∗ reached ER (dcell c (dsem 29)) (R 29 + 1))
        ∗ (atPos ER (dcell c (dsem 30)) (R 30 + 1) ∅ 0 ∗ reached ER (dcell c (dsem 30)) (R 30 + 1))
        ∗ (atPos ER (dcell c (dsem 34)) (R 34 + 1) ∅ 0 ∗ reached ER (dcell c (dsem 34)) (R 34 + 1))
        ∗ (atPos ER (dcell c (dsem 35)) (R 35 + 1) ∅ 0 ∗ reached ER (dcell c (dsem 35)) (R 35 + 1))
        ∗ (atPos ER (dcell c (dsem 39)) (R 39 + 1) ∅ 0 ∗ reached ER (dcell c (dsem 39)) (R 39 + 1))) -∗ posAt c R')) := by
  rw [posAt_congr c h]
  unfold posAt
  simp only [show step8 R 8 = R 8 from rfl, show step8 R 9 = R 9 from rfl, show step8 R 10 = R 10 from rfl, show step8 R 11 = R 11 from rfl, show step8 R 12 = R 12 from rfl, show step8 R 13 = R 13 from rfl, show step8 R 14 = R 14 from rfl, show step8 R 15 = R 15 from rfl, show step8 R 16 = R 16 from rfl, show step8 R 17 = R 17 from rfl, show step8 R 18 = R 18 from rfl, show step8 R 19 = R 19 from rfl, show step8 R 20 = R 20 + 1 from rfl, show step8 R 21 = R 21 from rfl, show step8 R 22 = R 22 from rfl, show step8 R 23 = R 23 from rfl, show step8 R 24 = R 24 + 1 from rfl, show step8 R 25 = R 25 + 1 from rfl, show step8 R 26 = R 26 from rfl, show step8 R 27 = R 27 from rfl, show step8 R 28 = R 28 from rfl, show step8 R 29 = R 29 + 1 from rfl, show step8 R 30 = R 30 + 1 from rfl, show step8 R 31 = R 31 from rfl, show step8 R 32 = R 32 from rfl, show step8 R 33 = R 33 from rfl, show step8 R 34 = R 34 + 1 from rfl, show step8 R 35 = R 35 + 1 from rfl, show step8 R 36 = R 36 from rfl, show step8 R 37 = R 37 from rfl, show step8 R 38 = R 38 from rfl, show step8 R 39 = R 39 + 1 from rfl]
  iintro ⟨A8, #B8, A9, #B9, A10, #B10, A11, #B11, A12, #B12, A13, #B13, A14, #B14, A15, #B15, A16, #B16, A17, #B17, A18, #B18, A19, #B19, A20, #B20, A21, #B21, A22, #B22, A23, #B23, A24, #B24, A25, #B25, A26, #B26, A27, #B27, A28, #B28, A29, #B29, A30, #B30, A31, #B31, A32, #B32, A33, #B33, A34, #B34, A35, #B35, A36, #B36, A37, #B37, A38, #B38, A39, #B39⟩
  iframe A20 A24 A25 A29 A30 A34 A35 A39
  iframe B20 B24 B25 B29 B30 B34 B35 B39
  iframe B36 B27 B28
  iintro ⟨⟨A20, #C20⟩, ⟨A24, #C24⟩, ⟨A25, #C25⟩, ⟨A29, #C29⟩, ⟨A30, #C30⟩, ⟨A34, #C34⟩, ⟨A35, #C35⟩, ⟨A39, #C39⟩⟩
  iframe ∗ #

/-- The same with the rounds at numerals. -/
theorem posAt_focus8' (c : Dev nD) (R R' : ℕ → ℕ) (h : ∀ j, 8 ≤ j → j < 40 → R' j = step8 R j) (l l36 l27 l28 : ℕ)
    (e20 : R 20 = l) (e24 : R 24 = l) (e25 : R 25 = l) (e29 : R 29 = l) (e30 : R 30 = l) (e34 : R 34 = l) (e35 : R 35 = l) (e39 : R 39 = l) (e36 : R 36 = l36) (e27 : R 27 = l27) (e28 : R 28 = l28) :
    posAt (F := F) c R ⊢ iprop((atPos ER (dcell c (dsem 20)) (l) ∅ 0 ∗ reached ER (dcell c (dsem 20)) (l))
        ∗ (atPos ER (dcell c (dsem 24)) (l) ∅ 0 ∗ reached ER (dcell c (dsem 24)) (l))
        ∗ (atPos ER (dcell c (dsem 25)) (l) ∅ 0 ∗ reached ER (dcell c (dsem 25)) (l))
        ∗ (atPos ER (dcell c (dsem 29)) (l) ∅ 0 ∗ reached ER (dcell c (dsem 29)) (l))
        ∗ (atPos ER (dcell c (dsem 30)) (l) ∅ 0 ∗ reached ER (dcell c (dsem 30)) (l))
        ∗ (atPos ER (dcell c (dsem 34)) (l) ∅ 0 ∗ reached ER (dcell c (dsem 34)) (l))
        ∗ (atPos ER (dcell c (dsem 35)) (l) ∅ 0 ∗ reached ER (dcell c (dsem 35)) (l))
        ∗ (atPos ER (dcell c (dsem 39)) (l) ∅ 0 ∗ reached ER (dcell c (dsem 39)) (l))
        ∗ □ reached ER (dcell c (dsem 36)) l36 ∗ □ reached ER (dcell c (dsem 27)) l27 ∗ □ reached ER (dcell c (dsem 28)) l28
        ∗ (((atPos ER (dcell c (dsem 20)) (l + 1) ∅ 0 ∗ reached ER (dcell c (dsem 20)) (l + 1))
        ∗ (atPos ER (dcell c (dsem 24)) (l + 1) ∅ 0 ∗ reached ER (dcell c (dsem 24)) (l + 1))
        ∗ (atPos ER (dcell c (dsem 25)) (l + 1) ∅ 0 ∗ reached ER (dcell c (dsem 25)) (l + 1))
        ∗ (atPos ER (dcell c (dsem 29)) (l + 1) ∅ 0 ∗ reached ER (dcell c (dsem 29)) (l + 1))
        ∗ (atPos ER (dcell c (dsem 30)) (l + 1) ∅ 0 ∗ reached ER (dcell c (dsem 30)) (l + 1))
        ∗ (atPos ER (dcell c (dsem 34)) (l + 1) ∅ 0 ∗ reached ER (dcell c (dsem 34)) (l + 1))
        ∗ (atPos ER (dcell c (dsem 35)) (l + 1) ∅ 0 ∗ reached ER (dcell c (dsem 35)) (l + 1))
        ∗ (atPos ER (dcell c (dsem 39)) (l + 1) ∅ 0 ∗ reached ER (dcell c (dsem 39)) (l + 1))) -∗ posAt c R')) := by
  have h0 := posAt_focus8 (F := F) c R R' h
  rw [e20, e24, e25, e29, e30, e34, e35, e39, e36, e27, e28] at h0
  exact h0

/-- A slot handed over, with the round of the receive cell at its number. -/
theorem grant_open (p : Dev nD) {s : Shape} {e : EltTy} (M : Memref sig .tc .vmem s e) (i : DmaSem sig) (r j : ℕ) (hi : i = dsem j) :
    grant (F := F) p M i r ⊢ iprop(ownAt p M ∗ □ reached ER (dcell p (dsem j)) r) := by
  subst hi
  unfold grant
  iintro ⟨H, #Hr⟩
  iframe H Hr

theorem toksAB_open (c : Dev nD) (k₀ k₄ l : ℕ) (es : List (Fin 8 × ℕ × ℕ))
    (hd : copyTab.drop k₀ = (4, 25, l) :: (1, 35, l) :: (4, 29, l) :: (1, 39, l) :: es) (hk : k₄ = k₀ + 1 + 1 + 1 + 1) :
    toksCopies (F := F) c k₀ (copyTab.drop k₀) ⊢ iprop((dutyTok ER (dcell c (dsem 20)) l (0 : DD) ∗ dutyTok ER (dcell (xr 4 c) (dsem 25)) l (0 : DD))
      ∗ (dutyTok ER (dcell c (dsem 30)) l (0 : DD) ∗ dutyTok ER (dcell (xr 1 c) (dsem 35)) l (0 : DD))
      ∗ (dutyTok ER (dcell c (dsem 24)) l (0 : DD) ∗ dutyTok ER (dcell (xr 4 c) (dsem 29)) l (0 : DD))
      ∗ (dutyTok ER (dcell c (dsem 34)) l (0 : DD) ∗ dutyTok ER (dcell (xr 1 c) (dsem 39)) l (0 : DD))
      ∗ toksCopies c k₄ es) := by
  rw [hd, hk]
  exact Entails.of_eq (toksAB c k₀ l es)

theorem credsAB_open (c : Dev nD) (k₀ i₁ i₂ i₃ i₄ l : ℕ) (es : List (Fin 8 × ℕ × ℕ))
    (hd : copyTab.drop k₀ = (4, 25, l) :: (1, 35, l) :: (4, 29, l) :: (1, 39, l) :: es)
    (h1 : i₁ = k₀ + 1) (h2 : i₂ = k₀ + 1 + 1) (h3 : i₃ = k₀ + 1 + 1 + 1) (h4 : i₄ = k₀ + 1 + 1 + 1 + 1) :
    credsCopies (F := F) c k₀ (copyTab.drop k₀) ⊢ iprop(cred (tallyAt (dcell c (dsem 25)) i₁ (amtDma 25 l))
      ∗ cred (tallyAt (dcell c (dsem 35)) i₂ (amtDma 35 l))
      ∗ cred (tallyAt (dcell c (dsem 29)) i₃ (amtDma 29 l))
      ∗ cred (tallyAt (dcell c (dsem 39)) i₄ (amtDma 39 l))
      ∗ credsCopies c i₄ es) := by
  rw [hd, h1, h2, h3, h4]
  exact Entails.of_eq (credsAB c k₀ l es)

/-! ## The step wrappers at the printed spelling

    The body names a copy's partner by the word it computes and its semaphores by slices of the semaphore arrays;
    the evidence terms of the printed effect mention those spellings, so the effect is not rewritten: the rules are
    applied at the printed terms, given that they are the partner and the semaphores meant. -/

theorem hw_waitDma2' (c : Dev nD) (j r : ℕ) {sp sp' : Space} {s s' : Shape} {e e' : EltTy}
    {src : Memref sig .tc sp' s' e'} {κ' : Kind} {dst : Memref sig κ' sp s e} {hsrc : src.view.WordExact} {hdst : dst.view.WordExact}
    (sm : DmaSem sig) (hsm : sm = dsem j) (hN : dst.view.dmaCredit = amtDma j r) (Kt : PUnit → sProp 𝕄) :
    wpE (defs₀ (F := F)) Variants.none (c : Thread nD τ) none Set.univ (.waitDma2 sm src dst hsrc hdst) Kt
      = waitSpec (c : Thread nD τ) Set.univ (.dma (dsem j)) (amtDma j r) Kt := by
  subst hsm
  exact hw_waitDma2 c j r hN Kt

theorem wp_send_copy' (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-! ## Boxes of a whole buffer inside what is held of it -/

/-- Under the whole buffer's view the elements under a set of indices are that set. -/
theorem setOn_whole (b : Ref sig .tc) (M : Finset b.ty.shape.Idx) : (Memref.whole b).view.setOn M = M := by
  unfold View.setOn
  exact Finset.map_refl

/-- The rows of a unit-stride slice, addressed through the whole buffer, are the slice's elements. -/
theorem setOn_slice_eq (b : Ref sig .tc) (r : Rect b.ty.shape) (hr : ∀ a, r.stride a = 1) :
    (Memref.whole b).view.setOn r.set = ((Memref.whole b).slice r hr).view.set := by
  rw [setOn_whole, set_slice_of_whole]

/-- The second half of a send buffer, addressed through the whole buffer, lies off the first half. -/
theorem sndB_off_A (s : Fin 2) :
    (SND s).view.setOn (Rect.unit (s := S512x256) ![256, 0] S256x256.size inb_S512x256_S256x256_256_0).set
      ⊆ Finset.univ \ (SA s).view.set := by
  fin_cases s
  · exact Finset.subset_sdiff.mpr ⟨Finset.subset_univ _, by
      rw [setOn_slice_eq cc0_scratch4 _ (fun _ => rfl)]; exact (disj_SA_SB 0).symm⟩
  · exact Finset.subset_sdiff.mpr ⟨Finset.subset_univ _, by
      rw [setOn_slice_eq cc0_scratch5 _ (fun _ => rfl)]; exact (disj_SA_SB 1).symm⟩

/-- A store into the second half, through the whole buffer, writes off the first half. -/
theorem sndB_store_off_A (s : Fin 2) :
    ((SND s).access (Rect.unit (s := S512x256) ![256, 0] S256x256.size inb_S512x256_S256x256_256_0)).setOn Finset.univ
      ⊆ Finset.univ \ (SA s).view.set := by
  have key : ∀ (b : Ref sig .tc) (r : Rect b.ty.shape) (A : Finset b.ty.shape.Idx), Disjoint r.set A →
      ((Memref.whole b).access r).setOn Finset.univ ⊆ Finset.univ \ A := fun b r A hd i hi =>
    Finset.mem_sdiff.mpr ⟨Finset.mem_univ _, fun hA => Finset.disjoint_left.mp hd
      (by have h := View.setOn_subset_set _ Finset.univ hi; rwa [View.set_slice_whole] at h) hA⟩
  fin_cases s
  · exact key cc0_scratch4 _ _ (by
      have h := (disj_SA_SB 0).symm
      rwa [show (SB 0).view.set = _ from set_slice_of_whole cc0_scratch4 _ (fun _ => rfl)] at h)
  · exact key cc0_scratch5 _ _ (by
      have h := (disj_SA_SB 1).symm
      rwa [show (SB 1).view.set = _ from set_slice_of_whole cc0_scratch5 _ (fun _ => rfl)] at h)

/-! ## The accumulators' row blocks in closed form

    The rows of an accumulator a step reads or adds into, by the bits of the device's number (for the second stream
    of its index in that stream): 256 rows at a multiple of 256. -/

theorem off7_eq : ∀ c : Dev nD, k0_off7 c = ![256 * (c.val / 2), 0] := by decide +kernel
instance closedOff7 (c : Dev nD) : ClosedOff (k0_off7 c) := ⟨![256 * (c.val / 2), 0], off7_eq c⟩
theorem off8_eq : ∀ c : Dev nD, k0_off8 c = ![256 * (c.val / 4) + 512 * ((c.val % 2 + c.val / 2 % 2) % 2), 0] := by decide +kernel
instance closedOff8 (c : Dev nD) : ClosedOff (k0_off8 c) := ⟨![256 * (c.val / 4) + 512 * ((c.val % 2 + c.val / 2 % 2) % 2), 0], off8_eq c⟩
theorem off11_eq : ∀ c : Dev nD, k0_off11 c = ![256 * (1 - c.val / 2 % 2) + 512 * (c.val / 4), 0] := by decide +kernel
instance closedOff11 (c : Dev nD) : ClosedOff (k0_off11 c) := ⟨![256 * (1 - c.val / 2 % 2) + 512 * (c.val / 4), 0], off11_eq c⟩
theorem off12_eq : ∀ c : Dev nD, k0_off12 c = ![256 * (1 - c.val / 4) + 512 * ((c.val % 2 + c.val / 2 % 2) % 2), 0] := by decide +kernel
instance closedOff12 (c : Dev nD) : ClosedOff (k0_off12 c) := ⟨![256 * (1 - c.val / 4) + 512 * ((c.val % 2 + c.val / 2 % 2) % 2), 0], off12_eq c⟩
theorem off13_eq : ∀ c : Dev nD, k0_off13 c = ![256 * (c.val / 2 % 2) + 512 * (1 - c.val / 4), 0] := by decide +kernel
instance closedOff13 (c : Dev nD) : ClosedOff (k0_off13 c) := ⟨![256 * (c.val / 2 % 2) + 512 * (1 - c.val / 4), 0], off13_eq c⟩
theorem off14_eq : ∀ c : Dev nD, k0_off14 c = ![256 * (c.val / 4) + 512 * ((c.val % 2 + c.val / 2 % 2 + 1) % 2), 0] := by decide +kernel
instance closedOff14 (c : Dev nD) : ClosedOff (k0_off14 c) := ⟨![256 * (c.val / 4) + 512 * ((c.val % 2 + c.val / 2 % 2 + 1) % 2), 0], off14_eq c⟩
theorem off15_eq : ∀ c : Dev nD, k0_off15 c = ![256 * (1 - c.val / 2 % 2) + 512 * (1 - c.val / 4), 0] := by decide +kernel
instance closedOff15 (c : Dev nD) : ClosedOff (k0_off15 c) := ⟨![256 * (1 - c.val / 2 % 2) + 512 * (1 - c.val / 4), 0], off15_eq c⟩
theorem off16_eq : ∀ c : Dev nD, k0_off16 c = ![256 * (1 - c.val / 4) + 512 * ((c.val % 2 + c.val / 2 % 2 + 1) % 2), 0] := by decide +kernel
instance closedOff16 (c : Dev nD) : ClosedOff (k0_off16 c) := ⟨![256 * (1 - c.val / 4) + 512 * ((c.val % 2 + c.val / 2 % 2 + 1) % 2), 0], off16_eq c⟩

/-- Credit of the same units, spelt through another semaphore of the same copy. -/
theorem cred_amt (g : GSem nD τ sig) (ι : ℕ) {a b : ℕ} (h : a = b) :
    (cred (tallyAt g ι a) : sProp 𝕄) ⊢ cred (tallyAt g ι b) := by
  subst h
  exact .rfl

/-- Orders of the slots away from a receive buffer. -/
theorem heldBut_rot4 (c : Dev nD) (b : Ref sig .tc) (A B C D : Finset (Idx ((Memref.whole b).view.loc (c : Thread nD τ)))) :
    heldBut (F := F) c b (A ∪ B ∪ C ∪ D) ⊢ heldBut c b (C ∪ D ∪ B ∪ A) :=
  Entails.of_eq (heldBut_congr c b (by ac_rfl))
theorem heldBut_rot3 (c : Dev nD) (b : Ref sig .tc) (A B C : Finset (Idx ((Memref.whole b).view.loc (c : Thread nD τ)))) :
    heldBut (F := F) c b (A ∪ B ∪ C) ⊢ heldBut c b (C ∪ B ∪ A) :=
  Entails.of_eq (heldBut_congr c b (by ac_rfl))

theorem ex_ptw (c : Dev nD) (b : Ref sig .tc) (f : Buf (Elt F) ((Memref.whole b).view.loc (c : Thread nD τ))) :
    ptw (F := F) c b f ⊢ iprop(∃ f, ptw (F := F) c b f) :=
  exists_intro (Φ := fun f => ptw (F := F) c b f) f
theorem ex_owes (t : Thread nD τ) (O : CellTallies nD τ sig ℕ) (W : Waits sig ℕ) :
    (owes t O W : sProp 𝕄) ⊢ iprop(∃ W, owes t O W) :=
  exists_intro (Φ := fun W => (owes t O W : sProp 𝕄)) W

end AB

open AB

set_option maxHeartbeats 4000000 in
theorem seg3_ok (c : Dev nD) : Spec3 (F := F) c := by
  intro v2 v131 v134 v264 v268
  -- what the local loads and stores need of the buffers held by parts
  have hin4 : (Memref.whole cc0_scratch4).view.setOn (Rect.unit (s := S512x256) ![256, 0] S256x256.size inb_S512x256_S256x256_256_0).set
      ⊆ (Finset.univ \ (SA 0).view.set : Finset (Idx ((SA 0).view.loc (c : Thread nD τ)))) := sndB_off_A 0
  have hin5 : (Memref.whole cc0_scratch5).view.setOn (Rect.unit (s := S512x256) ![256, 0] S256x256.size inb_S512x256_S256x256_256_0).set
      ⊆ (Finset.univ \ (SA 1).view.set : Finset (Idx ((SA 1).view.loc (c : Thread nD τ)))) := sndB_off_A 1
  have hR00 : (Memref.whole cc0_scratch6).view.setOn (Rect.unit (s := S1280x256) ![0, 0] S256x256.size inb_S1280x256_S256x256_0_0).set
      ⊆ (R0 0).view.set := (setOn_slice_eq cc0_scratch6 _ (fun _ => rfl)).subset
  have hR01 : (Memref.whole cc0_scratch7).view.setOn (Rect.unit (s := S1280x256) ![0, 0] S256x256.size inb_S1280x256_S256x256_0_0).set
      ⊆ (R0 1).view.set := (setOn_slice_eq cc0_scratch7 _ (fun _ => rfl)).subset
  have hR10 : (Memref.whole cc0_scratch6).view.setOn (Rect.unit (s := S1280x256) ![256, 0] S256x256.size inb_S1280x256_S256x256_256_0).set
      ⊆ (R1 0).view.set := (setOn_slice_eq cc0_scratch6 _ (fun _ => rfl)).subset
  have hR11 : (Memref.whole cc0_scratch7).view.setOn (Rect.unit (s := S1280x256) ![256, 0] S256x256.size inb_S1280x256_S256x256_256_0).set
      ⊆ (R1 1).view.set := (setOn_slice_eq cc0_scratch7 _ (fun _ => rfl)).subset
  have hst4 : ((Memref.whole cc0_scratch4).access (Rect.unit (s := S512x256) ![256, 0] S256x256.size inb_S512x256_S256x256_256_0)).setOn Finset.univ
      ⊆ (Finset.univ \ (SA 0).view.set : Finset (Idx ((SA 0).view.loc (c : Thread nD τ)))) := sndB_store_off_A 0
  have hst5 : ((Memref.whole cc0_scratch5).access (Rect.unit (s := S512x256) ![256, 0] S256x256.size inb_S512x256_S256x256_256_0)).setOn Finset.univ
      ⊆ (Finset.univ \ (SA 1).view.set : Finset (Idx ((SA 1).view.loc (c : Thread nD τ)))) := sndB_store_off_A 1
  have hdX : Disjoint ((R0 0).view.set ∪ (R1 0).view.set ∪ (R2 0).view.set) (R3 0).view.set :=
    Finset.disjoint_union_left.mpr ⟨Finset.disjoint_union_left.mpr ⟨disj_R0_R3 0, disj_R1_R3 0⟩, disj_R2_R3 0⟩
  have hd60 : Disjoint ((R2 0).view.set ∪ (R3 0).view.set ∪ (R1 0).view.set) (R0 0).view.set :=
    Finset.disjoint_union_left.mpr ⟨Finset.disjoint_union_left.mpr ⟨(disj_R0_R2 0).symm, (disj_R0_R3 0).symm⟩, (disj_R0_R1 0).symm⟩
  have hd61 : Disjoint ((R2 0).view.set ∪ (R3 0).view.set) (R1 0).view.set :=
    Finset.disjoint_union_left.mpr ⟨(disj_R1_R2 0).symm, (disj_R1_R3 0).symm⟩
  have hd70 : Disjoint ((R2 1).view.set ∪ (R1 1).view.set) (R0 1).view.set :=
    Finset.disjoint_union_left.mpr ⟨(disj_R0_R2 1).symm, (disj_R0_R1 1).symm⟩
  have hd71 : Disjoint (R2 1).view.set (R1 1).view.set := (disj_R1_R2 1).symm
  iintro ⟨%K, H⟩
  unfold QE2 core localBufs
  rw [heldBut_empty, heldBut_empty]
  icases H with ⟨⟨#HI, #HRA, #Hlev, Hbar, Hpos, Htoks, Hcreds, ⟨%W, HO⟩, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%a2, Ha2⟩, ⟨%a3, Ha3⟩, ⟨%a4, Ha4⟩, ⟨%a5, Ha5⟩, ⟨%a8, Ha8⟩, ⟨%a9, Ha9⟩⟩, ⟨%x0, Hx0⟩, ⟨%x1, Hx1⟩, Hr0, Hr1, Hg1, Hg2, Hg3, Hg4, Hg5⟩
  ihave Htoks := (toksAB_open c 6 10 0 _ drop_seg_6 rfl) $$ Htoks
  icases Htoks with ⟨⟨Ht6s, Ht6r⟩, ⟨Ht7s, Ht7r⟩, ⟨Ht8s, Ht8r⟩, ⟨Ht9s, Ht9r⟩, Htoks⟩
  ihave Hcreds := (credsAB_open c 6 7 8 9 10 0 _ drop_seg_6 rfl rfl rfl rfl) $$ Hcreds
  icases Hcreds with ⟨Hc6, Hc7, Hc8, Hc9, Hcreds⟩
  -- the positions on the eight cells of the four copies, and the rounds reached on the cells of the slots handed over
  ihave Hpos := (posAt_focus8' c (roundsDone 6) (roundsDone 10) (by decide) 0 0 0 0 rfl rfl rfl rfl rfl rfl rfl rfl rfl rfl rfl) $$ Hpos
  icases Hpos with ⟨⟨Hp20, #Hq20⟩, ⟨Hp24, #Hq24⟩, ⟨Hp25, #Hq25⟩, ⟨Hp29, #Hq29⟩, ⟨Hp30, #Hq30⟩, ⟨Hp34, #Hq34⟩, ⟨Hp35, #Hq35⟩, ⟨Hp39, #Hq39⟩, #Hq36, #Hq27, #Hq28, Hposback⟩
  ihave Hg1 := (grant_open _ _ _ _ 25 rsR_00) $$ Hg1
  icases Hg1 with ⟨Hd6, #Hrr6⟩
  ihave Hg2 := (grant_open _ _ _ _ 35 rsR_10) $$ Hg2
  icases Hg2 with ⟨Hd7, #Hrr7⟩
  ihave Hg3 := (grant_open _ _ _ _ 29 rsR_04) $$ Hg3
  icases Hg3 with ⟨Hd8, #Hrr8⟩
  ihave Hg4 := (grant_open _ _ _ _ 39 rsR_14) $$ Hg4
  icases Hg4 with ⟨Hd9, #Hrr9⟩
  unfold seg3
  sl_exec
  -- copy 6: SA 0 to R0 0 of the partner across 4
  ihave Hsp := (slice_split c (SA 0) _).1 $$ Ha4
  icases Hsp with ⟨Hsa0, Ha4⟩
  iapply (wp_send_copy' c (xr 4 c) _ (dev10_eq c) (SA 0) (R0 0) 20 25 0 7 _ _ sem_rs0s_0 sem_rs0r_0
      (by decide) (by decide) (by decide) (by decide)
      ((credit_R0 0).trans rfl) rfl (iprop(emp)) fullShare _ (ownAt_of c (SA 0) _)
      ((sep_emp (PROP := sProp 𝕄)).1)
      K (owedFrom c 7) (owedFrom_succ c 6 (4, 25, 0) rfl) _ (by routes)) $$ [Hsa0 Hd6 HO Ht6s Ht6r]
  · iframe ∗ #
  iintro ⟨Hcs6, HO⟩
  sl_exec
  -- copy 7: SA 1 to R0 1 of the partner across 1
  ihave Hsp := (slice_split c (SA 1) _).1 $$ Ha5
  icases Hsp with ⟨Hsa1, Ha5⟩
  iapply (wp_send_copy' c (xr 1 c) _ (dev11_eq c) (SA 1) (R0 1) 30 35 0 8 _ _ sem_rs1s_0 sem_rs1r_0
      (by decide) (by decide) (by decide) (by decide)
      ((credit_R0 1).trans rfl) rfl (iprop(emp)) fullShare _ (ownAt_of c (SA 1) _)
      ((sep_emp (PROP := sProp 𝕄)).1)
      K (owedFrom c 8) (owedFrom_succ c 7 (1, 35, 0) rfl) _ (by routes)) $$ [Hsa1 Hd7 HO Ht7s Ht7r]
  · iframe ∗ #
  iintro ⟨Hcs7, HO⟩
  sl_exec
  -- copy 8: SB 0 to R1 0 of the partner across 4
  ihave Hsp := (rest_split (disj_SA_SB 0) _).1 $$ Ha4
  icases Hsp with ⟨Hsb0, Ha4⟩
  -- the own slot for the partner's next copy to this device goes with it
  ihave Hr1 := (heldBut_take_view c (R2 1) _ (Finset.disjoint_union_left.mpr ⟨disj_R0_R2 1, disj_R1_R2 1⟩)).1 $$ Hr1
  icases Hr1 with ⟨Hown21, Hr1⟩
  iapply (wp_send_copy' c (xr 4 c) _ (dev12_eq c) (SB 0) (R1 0) 24 29 0 9 _ _ sem_rs0s_4 sem_rs0r_4
      (by decide) (by decide) (by decide) (by decide)
      ((credit_R1 0).trans rfl) rfl (iprop(ownAt c (R2 1) ∗ reached ER (dcell c (dsem 36)) 0)) fullShare _ (ownAt_of c (SB 0) _)
      (by
        rw [show payDma (F := F) (xr 4 c) 29 0 = iprop(ownAt (xr 4 c) (R1 0) ∗ (ownAt (xr 4 (xr 4 c)) (R2 1) ∗ reached ER (dcell (xr 4 (xr 4 c)) (rsR 1 1)) 0)) from rfl, xr_xr, rsR_11])
      K (owedFrom c 9) (owedFrom_succ c 8 (4, 29, 0) rfl) _ (by routes)) $$ [Hsb0 Hd8 Hown21 HO Ht8s Ht8r]
  · iframe ∗ #
  iintro ⟨Hcs8, HO⟩
  sl_exec
  -- copy 9: SB 1 to R1 1 of the partner across 1
  ihave Hsp := (rest_split (disj_SA_SB 1) _).1 $$ Ha5
  icases Hsp with ⟨Hsb1, Ha5⟩
  ihave Hr0 := (heldBut_take_view c (R3 0) _ hdX).1 $$ Hr0
  icases Hr0 with ⟨HownX, Hr0⟩
  iapply (wp_send_copy' c (xr 1 c) _ (dev13_eq c) (SB 1) (R1 1) 34 39 0 10 _ _ sem_rs1s_4 sem_rs1r_4
      (by decide) (by decide) (by decide) (by decide)
      ((credit_R1 1).trans rfl) rfl (iprop(ownAt c (R3 0) ∗ reached ER (dcell c (dsem 27)) 0)) fullShare _ (ownAt_of c (SB 1) _)
      (by
        rw [show payDma (F := F) (xr 1 c) 39 0 = iprop(ownAt (xr 1 c) (R1 1) ∗ (ownAt (xr 1 (xr 1 c)) (R3 0) ∗ reached ER (dcell (xr 1 (xr 1 c)) (rsR 0 2)) 0)) from rfl, xr_xr, rsR_02])
      K (owedFrom c 10) (owedFrom_succ c 9 (1, 39, 0) rfl) _ (by routes)) $$ [Hsb1 Hd9 HownX HO Ht9s Ht9r]
  · iframe ∗ #
  iintro ⟨Hcs9, HO⟩
  sl_exec
  -- the wait on semaphore 20 (copy 6)
  ihave Hcs6 := (cred_amt _ _ (show amtDma 25 0 = amtDma 20 0 from rfl)) $$ Hcs6
  ihave Hmw := (mayWait_copy c (dsem 20) 6 10 (by decide) (by decide)) $$ Hlev
  iapply (wp_wait_copy c 20 0 7 (by decide) (by decide) K (owedFrom c 10) _ (hw_waitDma2' c 20 0 _ sem_rs0s_0 ((credit_SA 0).trans rfl))) $$ [Hcs6 HO Hmw Hp20]
  · iframe ∗ #
  iintro ⟨HO, Hp20, #Hn20, Hpay⟩
  ihave Hpay := (Entails.of_eq (show payDma (F := F) c 20 0 = ownAt c (SA 0) from rfl)) $$ Hpay
  icases Hpay with Hsa0
  sl_exec
  -- the wait on semaphore 25 (copy 6)
  ihave Hmw := (mayWait_copy c (dsem 25) 6 10 (by decide) (by decide)) $$ Hlev
  iapply (wp_wait_copy c 25 0 7 (by decide) (by decide) K (owedFrom c 10) _ (hw_waitDma2' c 25 0 _ sem_rs0r_0 ((credit_R0 0).trans rfl))) $$ [Hc6 HO Hmw Hp25]
  · iframe ∗ #
  iintro ⟨HO, Hp25, #Hn25, Hpay⟩
  ihave Hpay := (Entails.of_eq (show payDma (F := F) c 25 0 = iprop(∃ f, (R0 0).view.loc (c : Thread nD τ) ↦[(R0 0).view.set]{fullShare} f) from rfl)) $$ Hpay
  icases Hpay with ⟨%g00, HR00⟩
  sl_exec
  -- the wait on semaphore 30 (copy 7)
  ihave Hcs7 := (cred_amt _ _ (show amtDma 35 0 = amtDma 30 0 from rfl)) $$ Hcs7
  ihave Hmw := (mayWait_copy c (dsem 30) 7 10 (by decide) (by decide)) $$ Hlev
  iapply (wp_wait_copy c 30 0 8 (by decide) (by decide) K (owedFrom c 10) _ (hw_waitDma2' c 30 0 _ sem_rs1s_0 ((credit_SA 1).trans rfl))) $$ [Hcs7 HO Hmw Hp30]
  · iframe ∗ #
  iintro ⟨HO, Hp30, #Hn30, Hpay⟩
  ihave Hpay := (Entails.of_eq (show payDma (F := F) c 30 0 = ownAt c (SA 1) from rfl)) $$ Hpay
  icases Hpay with Hsa1
  sl_exec
  -- the wait on semaphore 35 (copy 7)
  ihave Hmw := (mayWait_copy c (dsem 35) 7 10 (by decide) (by decide)) $$ Hlev
  iapply (wp_wait_copy c 35 0 8 (by decide) (by decide) K (owedFrom c 10) _ (hw_waitDma2' c 35 0 _ sem_rs1r_0 ((credit_R0 1).trans rfl))) $$ [Hc7 HO Hmw Hp35]
  · iframe ∗ #
  iintro ⟨HO, Hp35, #Hn35, Hpay⟩
  ihave Hpay := (Entails.of_eq (show payDma (F := F) c 35 0 = iprop(∃ f, (R0 1).view.loc (c : Thread nD τ) ↦[(R0 1).view.set]{fullShare} f) from rfl)) $$ Hpay
  icases Hpay with ⟨%g01, HR01⟩
  sl_exec
  -- the wait on semaphore 24 (copy 8)
  ihave Hcs8 := (cred_amt _ _ (show amtDma 29 0 = amtDma 24 0 from rfl)) $$ Hcs8
  ihave Hmw := (mayWait_copy c (dsem 24) 8 10 (by decide) (by decide)) $$ Hlev
  iapply (wp_wait_copy c 24 0 9 (by decide) (by decide) K (owedFrom c 10) _ (hw_waitDma2' c 24 0 _ sem_rs0s_4 ((credit_SB 0).trans rfl))) $$ [Hcs8 HO Hmw Hp24]
  · iframe ∗ #
  iintro ⟨HO, Hp24, #Hn24, Hpay⟩
  ihave Hpay := (Entails.of_eq (show payDma (F := F) c 24 0 = ownAt c (SB 0) from rfl)) $$ Hpay
  icases Hpay with Hsb0
  sl_exec
  -- the wait on semaphore 29 (copy 8)
  ihave Hmw := (mayWait_copy c (dsem 29) 8 10 (by decide) (by decide)) $$ Hlev
  iapply (wp_wait_copy c 29 0 9 (by decide) (by decide) K (owedFrom c 10) _ (hw_waitDma2' c 29 0 _ sem_rs0r_4 ((credit_R1 0).trans rfl))) $$ [Hc8 HO Hmw Hp29]
  · iframe ∗ #
  iintro ⟨HO, Hp29, #Hn29, Hpay⟩
  ihave Hpay := (Entails.of_eq (show payDma (F := F) c 29 0 = iprop((∃ f, (R1 0).view.loc (c : Thread nD τ) ↦[(R1 0).view.set]{fullShare} f) ∗ grant (xr 4 c) (R2 1) (rsR 1 1) 0) from rfl)) $$ Hpay
  icases Hpay with ⟨⟨%g10, HR10⟩, Hgn1⟩
  sl_exec
  -- the wait on semaphore 34 (copy 9)
  ihave Hcs9 := (cred_amt _ _ (show amtDma 39 0 = amtDma 34 0 from rfl)) $$ Hcs9
  ihave Hmw := (mayWait_copy c (dsem 34) 9 10 (by decide) (by decide)) $$ Hlev
  iapply (wp_wait_copy c 34 0 10 (by decide) (by decide) K (owedFrom c 10) _ (hw_waitDma2' c 34 0 _ sem_rs1s_4 ((credit_SB 1).trans rfl))) $$ [Hcs9 HO Hmw Hp34]
  · iframe ∗ #
  iintro ⟨HO, Hp34, #Hn34, Hpay⟩
  ihave Hpay := (Entails.of_eq (show payDma (F := F) c 34 0 = ownAt c (SB 1) from rfl)) $$ Hpay
  icases Hpay with Hsb1
  sl_exec
  -- the wait on semaphore 39 (copy 9)
  ihave Hmw := (mayWait_copy c (dsem 39) 9 10 (by decide) (by decide)) $$ Hlev
  iapply (wp_wait_copy c 39 0 10 (by decide) (by decide) K (owedFrom c 10) _ (hw_waitDma2' c 39 0 _ sem_rs1r_4 ((credit_R1 1).trans rfl))) $$ [Hc9 HO Hmw Hp39]
  · iframe ∗ #
  iintro ⟨HO, Hp39, #Hn39, Hpay⟩
  ihave Hpay := (Entails.of_eq (show payDma (F := F) c 39 0 = iprop((∃ f, (R1 1).view.loc (c : Thread nD τ) ↦[(R1 1).view.set]{fullShare} f) ∗ grant (xr 1 c) (R3 0) (rsR 0 2) 0) from rfl)) $$ Hpay
  icases Hpay with ⟨⟨%g11, HR11⟩, Hgn2⟩
  -- both send buffers whole again
  ihave Hsb0 := (Entails.of_eq (ownAt_eq c (SB 0))) $$ Hsb0
  icases Hsb0 with ⟨%h40, Hsb0⟩
  ihave Ha4 := (rest_join_at (disj_SA_SB 0) _ h40) $$ [Hsb0 Ha4]
  · iframe Hsb0 Ha4
  ihave Ha4 := (slice_join_ownAt c (SA 0) _) $$ [Hsa0 Ha4]
  · iframe Hsa0 Ha4
  icases Ha4 with ⟨%a4', Ha4⟩
  ihave Ha4 := (Entails.of_eq (show ((SA 0).view.loc (c : Thread nD τ) ↦{fullShare} a4' : sProp 𝕄) = ptw (F := F) c cc0_scratch4 a4' from rfl)) $$ Ha4
  ihave Hsb1 := (Entails.of_eq (ownAt_eq c (SB 1))) $$ Hsb1
  icases Hsb1 with ⟨%h50, Hsb1⟩
  ihave Ha5 := (rest_join_at (disj_SA_SB 1) _ h50) $$ [Hsb1 Ha5]
  · iframe Hsb1 Ha5
  ihave Ha5 := (slice_join_ownAt c (SA 1) _) $$ [Hsa1 Ha5]
  · iframe Hsa1 Ha5
  icases Ha5 with ⟨%a5', Ha5⟩
  ihave Ha5 := (Entails.of_eq (show ((SA 1).view.loc (c : Thread nD τ) ↦{fullShare} a5' : sProp 𝕄) = ptw (F := F) c cc0_scratch5 a5' from rfl)) $$ Ha5
  sl_exec
  sl_step
  iexists K
  irw [QAB_10_eq, core_eq, localBufs_eq, heldBut_empty, heldBut_empty]
  -- the positions, one round on
  ihave Hpos := Hposback $$ [Hp20 Hp24 Hp25 Hp29 Hp30 Hp34 Hp35 Hp39]
  · iframe ∗ #
  -- the receive buffers take back the landed slots
  ihave HR00 := (ownAt_of c (R0 0) _) $$ HR00
  ihave HR01 := (ownAt_of c (R0 1) _) $$ HR01
  ihave HR10 := (ownAt_of c (R1 0) _) $$ HR10
  ihave HR11 := (ownAt_of c (R1 1) _) $$ HR11
  ihave Hr0 := (heldBut_rot4 c _ _ _ _ _) $$ Hr0
  ihave Hr0 := (heldBut_put_right c (R0 0) _ hd60) $$ [HR00 Hr0]
  · iframe HR00 Hr0
  ihave Hr0 := (heldBut_put_right c (R1 0) _ hd61) $$ [HR10 Hr0]
  · iframe HR10 Hr0
  ihave Hr1 := (heldBut_rot3 c _ _ _ _) $$ Hr1
  ihave Hr1 := (heldBut_put_right c (R0 1) _ hd70) $$ [HR01 Hr1]
  · iframe HR01 Hr1
  ihave Hr1 := (heldBut_put_right c (R1 1) _ hd71) $$ [HR11 Hr1]
  · iframe HR11 Hr1
  -- every buffer at some contents
  ihave HO := (ex_owes _ _ _) $$ HO
  ihave Hs0 := (ex_ptw c cc0_stg0_0 _) $$ Hs0
  ihave Hs1 := (ex_ptw c cc0_stg1_0 _) $$ Hs1
  ihave Hs2 := (ex_ptw c cc0_stg2_0 _) $$ Hs2
  ihave Hs3 := (ex_ptw c cc0_stg3_0 _) $$ Hs3
  ihave Hs4 := (ex_ptw c cc0_stg4_0 _) $$ Hs4
  ihave Hs5 := (ex_ptw c cc0_stg5_0 _) $$ Hs5
  ihave Hs6 := (ex_ptw c cc0_stg6_0 _) $$ Hs6
  ihave Hs7 := (ex_ptw c cc0_stg7_0 _) $$ Hs7
  ihave Ha2 := (ex_ptw c cc0_scratch2 _) $$ Ha2
  ihave Ha3 := (ex_ptw c cc0_scratch3 _) $$ Ha3
  ihave Ha4 := (ex_ptw c cc0_scratch4 _) $$ Ha4
  ihave Ha5 := (ex_ptw c cc0_scratch5 _) $$ Ha5
  ihave Ha8 := (ex_ptw c cc0_scratch8 _) $$ Ha8
  ihave Ha9 := (ex_ptw c cc0_scratch9 _) $$ Ha9
  ihave Hx0 := (ex_ptw c cc0_scratch0 _) $$ Hx0
  ihave Hx1 := (ex_ptw c cc0_scratch1 _) $$ Hx1
  iframe ∗ #

/-- info: 'Cert.KernelIdeal.Hand.seg3_ok' depends on axioms: [propext, Classical.choice, Quot.sound] -/
#guard_msgs in #print axioms seg3_ok

end Cert.KernelIdeal.Hand
end
-- ==== Proof.KernelIdeal.SegCD.lean ====
import proofs.«900979_g7700000000000980_dist_mlpseq_tp1d_bs_bs_b256_d256_h512_v7x_i8_bf16_1_alg».proof.Proof.KernelIdeal.Specs
import proofs.«900979_g7700000000000980_dist_mlpseq_tp1d_bs_bs_b256_d256_h512_v7x_i8_bf16_1_alg».proof.Proof.KernelIdeal.Steps
import proofs.«900979_g7700000000000980_dist_mlpseq_tp1d_bs_bs_b256_d256_h512_v7x_i8_bf16_1_alg».proof.Proof.KernelIdeal.QuietLemmas

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.Tactic

/-! # The third reduce step of each layer (segments 4, 8 and 13)

   In each layer the device sends the first half of each send buffer to rows 512.. of the receive buffer of a partner
   (`c xor 3` for the first stream, `c xor 4` for the second), waits for both copies on their send and receive cells
   and adds the landed rows to its accumulator. With the first copy it hands the partner its own slot for that
   partner's last reduce step of the second stream; with the second (before the last layer) the rows of its second
   gather buffer where the partner's pair block lands in the next layer. The partners' copies of the same numbers
   hand the device the symmetric slots. -/

/-! ## Pieces every segment can use -/

/-- The two partners of this step are reachable. -/
theorem routes3 : ∀ c : Dev nD, τ.routes (c : Thread nD τ) (xr 3 c : Thread nD τ) = true := by decide
theorem routes4 : ∀ c : Dev nD, τ.routes (c : Thread nD τ) (xr 4 c : Thread nD τ) = true := by decide

/-- A buffer held without some elements, opened: the rest at some contents (one buffer at a time, the others stay folded). -/
theorem heldBut_open (c : Dev nD) (b : Ref sig .tc) (A : Finset (Idx ((Memref.whole b).view.loc (c : Thread nD τ)))) :
    heldBut (F := F) c b A ⊢ iprop(∃ f : Buf (Elt F) ((Memref.whole b).view.loc (c : Thread nD τ)),
      (Memref.whole b).view.loc (c : Thread nD τ) ↦[Finset.univ \ A]{fullShare} f) := by
  unfold heldBut
  exact .rfl

/-! ## The segments -/

set_option maxHeartbeats 4000000 in
/-- The third reduce step of layer 0: copies 10 and 11 (the first halves of the two send buffers to rows 512.. of the
    receive buffers of `c xor 3` and `c xor 4`), their four waits, and the first stream's sum of the landed rows. -/
theorem seg4_ok (c : Dev nD) : Spec4 (F := F) c := by
  intro v2 v131 v134 v496 v500
  refine exists_elim fun K => ?_
  rw [QAB_10_eq, core_eq, posAt_10, toks_seg_10, creds_seg_10, localBufs_eq, heldBut_empty, heldBut_empty]
  unfold grant
  rw [← dev14_eq c, ← dev15_eq c]
  iintro ⟨⟨#HI, #Hr, #Hlev, Hbar, ⟨A8, #P8, A9, #P9, A10, #P10, A11, #P11, A12, #P12, A13, #P13, A14, #P14, A15, #P15, A16, #P16, A17, #P17, A18, #P18, A19, #P19, A20, #P20, A21, #P21, A22, #P22, A23, #P23, A24, #P24, A25, #P25, A26, #P26, A27, #P27, A28, #P28, A29, #P29, A30, #P30, A31, #P31, A32, #P32, A33, #P33, A34, #P34, A35, #P35, A36, #P36, A37, #P37, A38, #P38, A39, #P39⟩, ⟨⟨TAa, TAb⟩, ⟨TBa, TBb⟩, Htoks⟩, ⟨CA, CB, Hcreds⟩, ⟨%W, HO⟩, ⟨⟨%g0, Hg0⟩, ⟨%g1, Hg1⟩, ⟨%g2, Hg2⟩, ⟨%g3, Hg3⟩, ⟨%g4, Hg4⟩, ⟨%g5, Hg5⟩, ⟨%g6, Hg6⟩, ⟨%g7, Hg7⟩, ⟨%s2, Hs2⟩, ⟨%s3, Hs3⟩, ⟨%s4, Hs4⟩, ⟨%s5, Hs5⟩, ⟨%s8, Hs8⟩, ⟨%s9, Hs9⟩⟩⟩, ⟨%f0, H0⟩, ⟨%f1, H1⟩, H6, H7, ⟨Gd1, #Gr1⟩, ⟨Gd2, #Gr2⟩, ⟨Gd3, #Gr3⟩⟩
  unfold seg4
  simp only [k0_part17, k0_part18, Prog.lift, Prog.bind_op, Prog.bind_ret, Prog.pure_eq_ret]
  ihave Hs4e : iprop(∃ f, ptw (F := F) c cc0_scratch4 f) $$ [Hs4]
  · iexists _; iexact Hs4
  icases Hs4e with ⟨%t4, Hs4⟩
  -- copy 10: with it goes the own slot for that partner's last reduce step of the second stream
  ihave H7' := (heldBut_take_view c (R3 1) (R2 1).view.set (disj_R2_R3 1)).1 $$ H7
  icases H7' with ⟨HownL, H7⟩
  ihave Hs4' := (slice_split c (SA 0) t4).1 $$ Hs4
  icases Hs4' with ⟨Hsrc0, Hrest4⟩
  iapply (wp_send_copy (F := F) c ⟨k0_dev14 c, k0_dev14_lt c⟩ (SA 0) (R2 0) 21 26 0 11 (by omega) (by omega) (by decide) (by decide)
      ((credit_R2 0).trans rfl) (amtDma_sendOf 26 0 (Or.inr (by omega))) (grantLast c 1 0) fullShare t4
      (ownAt_of c (SA 0) t4)
      (by rw [dev14_eq c]
          show iprop(ownAt (F := F) (xr 3 c) (R2 0) ∗ grantLast c 1 0) ⊢ iprop(ownAt (xr 3 c) (R2 0) ∗ grantLast (xr 3 (xr 3 c)) 1 0)
          rw [xr_xr])
      K (owedFrom c 11) (by rw [dev14_eq c]) W
      (by rw [dev14_eq c]; exact routes3 c)) $$ [Hsrc0 Gd1 HownL HO TAa TAb]
  · isplitr; · iexact HI
    isplitl [Hsrc0]; · iexact Hsrc0
    isplitl [Gd1]; · iexact Gd1
    isplitl [HownL]
    · rw [grantLast_0, grant_eq]
      isplitl [HownL]; · iexact HownL
      iexact P37
    isplitl [HO]; · iexact HO
    isplitl [TAa]; · iexact TAa
    isplitr; · iexact P21
    isplitl [TAb]; · iexact TAb
    iexact Gr1
  iintro ⟨CsA, HO⟩
  -- the local steps between the two copies (they fill the first half of the second send buffer)
  sl_exec
  ihave Hs5e : iprop(∃ f, ptw (F := F) c cc0_scratch5 f) $$ [Hs5]
  · iexists _; iexact Hs5
  icases Hs5e with ⟨%t5, Hs5⟩
  ihave Hs5' := (slice_split c (SA 1) t5).1 $$ Hs5
  icases Hs5' with ⟨Hsrc1, Hrest5⟩
  -- copy 11: with it go the rows of the second gather buffer where that partner's pair block lands in the next layer
  ihave H1' := (slice_split c (VE1 1 (xr 4 c)) f1).1 $$ H1
  icases H1' with ⟨Hown1, Hrest1⟩
  iapply (wp_send_copy (F := F) c ⟨k0_dev15 c, k0_dev15_lt c⟩ (SA 1) (R2 1) 31 36 0 12 (by omega) (by omega) (by decide) (by decide)
      ((credit_R2 1).trans rfl) (amtDma_sendOf 36 0 (Or.inr (by omega))) (grant c (VE1 1 (xr 4 c)) (agR 1 1) 1) fullShare t5
      (ownAt_of c (SA 1) t5)
      (by rw [dev15_eq c]
          show iprop(ownAt (F := F) (xr 4 c) (R2 1) ∗ grant c (VE1 1 (xr 4 c)) (agR 1 1) 1)
            ⊢ iprop(ownAt (xr 4 c) (R2 1) ∗ grant (xr 4 (xr 4 c)) (VE1 1 (xr 4 c)) (agR 1 1) 1)
          rw [xr_xr])
      K (owedFrom c 12) (by rw [dev15_eq c]) W
      (by rw [dev15_eq c]; exact routes4 c)) $$ [Hsrc1 Gd2 Hown1 HO TBa TBb]
  · isplitr; · iexact HI
    isplitl [Hsrc1]; · iexact Hsrc1
    isplitl [Gd2]; · iexact Gd2
    isplitl [Hown1]
    · rw [grant_eq]
      isplitl [Hown1]; · iapply (ownAt_of c (VE1 1 (xr 4 c)) f1); iexact Hown1
      iexact P18
    isplitl [HO]; · iexact HO
    isplitl [TBa]; · iexact TBa
    isplitr; · iexact P31
    isplitl [TBb]; · iexact TBb
    iexact Gr2
  iintro ⟨CsB, HO⟩
  -- the wait for copy 10's send cell: the source half comes back and the first send buffer is whole again
  ihave Hmw := (mayWait_copy (F := F) c (dsem 21) 10 12 (by omega) (by omega)) $$ Hlev
  iapply (wp_wait_copy (F := F) c 21 0 11 (by omega) (by decide) K (owedFrom c 12) W
      (hw := fun Kt => hw_waitDma2 c 21 0 (src := R2 0) (dst := SA 0) ((credit_SA 0).trans rfl) Kt)) $$ [CsA HO Hmw A21]
  · isplitr; · iexact HI
    isplitl [CsA]; · iexact CsA
    isplitl [HO]; · iexact HO
    isplitl [Hmw]; · iexact Hmw
    iexact A21
  rw [show payDma (F := F) c 21 0 = ownAt c (SA 0) from rfl]
  rw [Nat.zero_add]
  iintro ⟨HO, A21, #P21', Hback0⟩
  ihave Hs4e := (slice_join_ownAt c (SA 0) t4) $$ [Hback0 Hrest4]
  · isplitl [Hback0]; · iexact Hback0
    iexact Hrest4
  icases Hs4e with ⟨%u4, Hs4⟩
  ihave Hs4 : ptw (F := F) c cc0_scratch4 u4 $$ [Hs4]
  · iexact Hs4
  -- the wait for the partner's copy 10 on the own receive cell: rows 512.. of the receive buffer are written, and
  -- the partner hands over its slot for the own last reduce step of the second stream
  ihave Hmw2 := (mayWait_copy (F := F) c (dsem 26) 10 12 (by omega) (by omega)) $$ Hlev
  iapply (wp_wait_copy (F := F) c 26 0 11 (by omega) (by decide) K (owedFrom c 12) (insert (SemLoc.dma (dsem 21), 11) W)
      (hw := fun Kt => hw_waitDma2 c 26 0 (src := SA 0) (dst := R2 0) ((credit_R2 0).trans rfl) Kt)) $$ [CA HO Hmw2 A26]
  · isplitr; · iexact HI
    isplitl [CA]; · iexact CA
    isplitl [HO]; · iexact HO
    isplitl [Hmw2]; · iexact Hmw2
    iexact A26
  rw [show payDma (F := F) c 26 0 = iprop(ownAt c (R2 0) ∗ grantLast (xr 3 c) 1 0) from rfl, grantLast_0, grant_eq]
  rw [Nat.zero_add]
  iintro ⟨HO, A26, #P26', Hback20, HgLd, #HgLr⟩
  -- the wait for copy 11's send cell
  ihave Hmw3 := (mayWait_copy (F := F) c (dsem 31) 11 12 (by omega) (by omega)) $$ Hlev
  iapply (wp_wait_copy (F := F) c 31 0 12 (by omega) (by decide) K (owedFrom c 12) (insert (SemLoc.dma (dsem 26), 11) (insert (SemLoc.dma (dsem 21), 11) W))
      (hw := fun Kt => hw_waitDma2 c 31 0 (src := R2 1) (dst := SA 1) ((credit_SA 1).trans rfl) Kt)) $$ [CsB HO Hmw3 A31]
  · isplitr; · iexact HI
    isplitl [CsB]; · iexact CsB
    isplitl [HO]; · iexact HO
    isplitl [Hmw3]; · iexact Hmw3
    iexact A31
  rw [show payDma (F := F) c 31 0 = ownAt c (SA 1) from rfl]
  rw [Nat.zero_add]
  iintro ⟨HO, A31, #P31', Hback1⟩
  ihave Hs5e := (slice_join_ownAt c (SA 1) t5) $$ [Hback1 Hrest5]
  · isplitl [Hback1]; · iexact Hback1
    iexact Hrest5
  icases Hs5e with ⟨%u5, Hs5⟩
  ihave Hs5 : ptw (F := F) c cc0_scratch5 u5 $$ [Hs5]
  · iexact Hs5
  -- the wait for the partner's copy 11: rows 512.. of the second receive buffer are written, and the partner hands
  -- over the rows of its second gather buffer where the own pair block lands in the next layer
  ihave Hmw4 := (mayWait_copy (F := F) c (dsem 36) 11 12 (by omega) (by omega)) $$ Hlev
  iapply (wp_wait_copy (F := F) c 36 0 12 (by omega) (by decide) K (owedFrom c 12) (insert (SemLoc.dma (dsem 31), 12) (insert (SemLoc.dma (dsem 26), 11) (insert (SemLoc.dma (dsem 21), 11) W)))
      (hw := fun Kt => hw_waitDma2 c 36 0 (src := SA 1) (dst := R2 1) ((credit_R2 1).trans rfl) Kt)) $$ [CB HO Hmw4 A36]
  · isplitr; · iexact HI
    isplitl [CB]; · iexact CB
    isplitl [HO]; · iexact HO
    isplitl [Hmw4]; · iexact Hmw4
    iexact A36
  rw [show payDma (F := F) c 36 0 = iprop(ownAt c (R2 1) ∗ grant (xr 4 c) (VE1 1 c) (agR 1 1) 1) from rfl, grant_eq]
  rw [Nat.zero_add]
  iintro ⟨HO, A36, #P36', Hback21, Hg1d, #Hg1r⟩
  -- the landed slots go back into the receive buffers, which are then held without the last step's slot only
  ihave H6 := (heldBut_put_left c (R2 0) (R3 0).view.set (disj_R2_R3 0).symm) $$ [Hback20 H6]
  · isplitl [Hback20]; · iexact Hback20
    iexact H6
  ihave H7 := (heldBut_put_left c (R2 1) (R3 1).view.set (disj_R2_R3 1).symm) $$ [Hback21 H7]
  · isplitl [Hback21]; · iexact Hback21
    iexact H7
  -- the last local steps read the landed rows through the receive buffers held so
  ihave H6' := (heldBut_open c cc0_scratch6 (R3 0).view.set) $$ H6
  icases H6' with ⟨%u6, H6⟩
  ihave H7' := (heldBut_open c cc0_scratch7 (R3 1).view.set) $$ H7
  icases H7' with ⟨%u7, H7⟩
  sl_exec
  -- the state after the third reduce step
  rw [wp_ret]
  imodintro
  iexists K
  rw [QC_12_eq, core_eq, posAt_12, localBufs_eq]
  unfold grant
  isplitr [H0 Hrest1 H6 H7 Gd3 HgLd Hg1d]
  · isplitr; · iexact HI
    isplitr; · iexact Hr
    isplitr; · iexact Hlev
    isplitl [Hbar]; · iexact Hbar
    isplitl [A8 A9 A10 A11 A12 A13 A14 A15 A16 A17 A18 A19 A20 A21 A22 A23 A24 A25 A26 A27 A28 A29 A30 A31 A32 A33 A34 A35 A36 A37 A38 A39]
    · iframe ∗ #
    isplitl [Htoks]; · iexact Htoks
    isplitl [Hcreds]; · iexact Hcreds
    isplitl [HO]; · iexists _; iexact HO
    isplitl [Hg0]; · iexists _; iexact Hg0
    isplitl [Hg1]; · iexists _; iexact Hg1
    isplitl [Hg2]; · iexists _; iexact Hg2
    isplitl [Hg3]; · iexists _; iexact Hg3
    isplitl [Hg4]; · iexists _; iexact Hg4
    isplitl [Hg5]; · iexists _; iexact Hg5
    isplitl [Hg6]; · iexists _; iexact Hg6
    isplitl [Hg7]; · iexists _; iexact Hg7
    isplitl [Hs2]; · iexists _; iexact Hs2
    isplitl [Hs3]; · iexists _; iexact Hs3
    isplitl [Hs4]; · iexists _; iexact Hs4
    isplitl [Hs5]; · iexists _; iexact Hs5
    isplitl [Hs8]; · iexists _; iexact Hs8
    iexists _; iexact Hs9
  · isplitl [H0]; · iapply (heldBut_of_whole c cc0_scratch0 f0); iexact H0
    isplitl [Hrest1]; · iapply (heldBut_intro c cc0_scratch1 (VE1 1 (xr 4 c)).view.set f1); iexact Hrest1
    isplitl [H6]; · iapply (heldBut_intro c cc0_scratch6 (R3 0).view.set _); iexact H6
    isplitl [H7]; · iapply (heldBut_intro c cc0_scratch7 (R3 1).view.set _); iexact H7
    isplitl [Gd3]
    · isplitl [Gd3]; · iexact Gd3
      iexact Gr3
    isplitl [HgLd]
    · isplitl [HgLd]; · iexact HgLd
      iexact HgLr
    isplitl [Hg1d]; · iexact Hg1d
    iexact Hg1r

set_option maxHeartbeats 4000000 in
/-- The third reduce step of layer 1: copies 22 and 23 (the first halves of the two send buffers to rows 512.. of the
    receive buffers of `c xor 3` and `c xor 4`), their four waits, and the first stream's sum of the landed rows. -/
theorem seg8_ok (c : Dev nD) : Spec8 (F := F) c := by
  intro v2 v678 v681 v1041
  refine exists_elim fun K => ?_
  rw [QAB_22_eq, core_eq, posAt_22, toks_seg_22, creds_seg_22, localBufs_eq, heldBut_empty, heldBut_empty]
  unfold grant
  rw [← dev26_eq c, ← dev27_eq c]
  iintro ⟨⟨#HI, #Hr, #Hlev, Hbar, ⟨A8, #P8, A9, #P9, A10, #P10, A11, #P11, A12, #P12, A13, #P13, A14, #P14, A15, #P15, A16, #P16, A17, #P17, A18, #P18, A19, #P19, A20, #P20, A21, #P21, A22, #P22, A23, #P23, A24, #P24, A25, #P25, A26, #P26, A27, #P27, A28, #P28, A29, #P29, A30, #P30, A31, #P31, A32, #P32, A33, #P33, A34, #P34, A35, #P35, A36, #P36, A37, #P37, A38, #P38, A39, #P39⟩, ⟨⟨TAa, TAb⟩, ⟨TBa, TBb⟩, Htoks⟩, ⟨CA, CB, Hcreds⟩, ⟨%W, HO⟩, ⟨⟨%g0, Hg0⟩, ⟨%g1, Hg1⟩, ⟨%g2, Hg2⟩, ⟨%g3, Hg3⟩, ⟨%g4, Hg4⟩, ⟨%g5, Hg5⟩, ⟨%g6, Hg6⟩, ⟨%g7, Hg7⟩, ⟨%s2, Hs2⟩, ⟨%s3, Hs3⟩, ⟨%s4, Hs4⟩, ⟨%s5, Hs5⟩, ⟨%s8, Hs8⟩, ⟨%s9, Hs9⟩⟩⟩, ⟨%f0, H0⟩, ⟨%f1, H1⟩, H6, H7, ⟨Gd1, #Gr1⟩, ⟨Gd2, #Gr2⟩, ⟨Gd3, #Gr3⟩⟩
  unfold seg8
  simp only [k0_part34, k0_part35, k0_part36, Prog.lift, Prog.bind_op, Prog.bind_ret, Prog.pure_eq_ret]
  -- the local steps before the first copy (they fill the first half of the first send buffer)
  sl_exec
  ihave Hs4e : iprop(∃ f, ptw (F := F) c cc0_scratch4 f) $$ [Hs4]
  · iexists _; iexact Hs4
  icases Hs4e with ⟨%t4, Hs4⟩
  -- copy 22: with it goes the own slot for that partner's last reduce step of the second stream
  ihave H7' := (heldBut_take_view c (R4 1) (R2 1).view.set (disj_R2_R4 1)).1 $$ H7
  icases H7' with ⟨HownL, H7⟩
  ihave Hs4' := (slice_split c (SA 0) t4).1 $$ Hs4
  icases Hs4' with ⟨Hsrc0, Hrest4⟩
  iapply (wp_send_copy (F := F) c ⟨k0_dev26 c, k0_dev26_lt c⟩ (SA 0) (R2 0) 21 26 1 23 (by omega) (by omega) (by decide) (by decide)
      ((credit_R2 0).trans rfl) (amtDma_sendOf 26 1 (Or.inr (by omega))) (grantLast c 1 1) fullShare t4
      (ownAt_of c (SA 0) t4)
      (by rw [dev26_eq c]
          show iprop(ownAt (F := F) (xr 3 c) (R2 0) ∗ grantLast c 1 1) ⊢ iprop(ownAt (xr 3 c) (R2 0) ∗ grantLast (xr 3 (xr 3 c)) 1 1)
          rw [xr_xr])
      K (owedFrom c 23) (by rw [dev26_eq c]) W
      (by rw [dev26_eq c]; exact routes3 c)) $$ [Hsrc0 Gd1 HownL HO TAa TAb]
  · isplitr; · iexact HI
    isplitl [Hsrc0]; · iexact Hsrc0
    isplitl [Gd1]; · iexact Gd1
    isplitl [HownL]
    · rw [grantLast_1, grant_eq]
      isplitl [HownL]; · iexact HownL
      iexact P38
    isplitl [HO]; · iexact HO
    isplitl [TAa]; · iexact TAa
    isplitr; · iexact P21
    isplitl [TAb]; · iexact TAb
    iexact Gr1
  iintro ⟨CsA, HO⟩
  -- the local steps between the two copies (they fill the first half of the second send buffer)
  sl_exec
  ihave Hs5e : iprop(∃ f, ptw (F := F) c cc0_scratch5 f) $$ [Hs5]
  · iexists _; iexact Hs5
  icases Hs5e with ⟨%t5, Hs5⟩
  ihave Hs5' := (slice_split c (SA 1) t5).1 $$ Hs5
  icases Hs5' with ⟨Hsrc1, Hrest5⟩
  -- copy 23: with it go the rows of the second gather buffer where that partner's pair block lands in the next layer
  ihave H1' := (slice_split c (VE1 1 (xr 4 c)) f1).1 $$ H1
  icases H1' with ⟨Hown1, Hrest1⟩
  iapply (wp_send_copy (F := F) c ⟨k0_dev27 c, k0_dev27_lt c⟩ (SA 1) (R2 1) 31 36 1 24 (by omega) (by omega) (by decide) (by decide)
      ((credit_R2 1).trans rfl) (amtDma_sendOf 36 1 (Or.inr (by omega))) (grant c (VE1 1 (xr 4 c)) (agR 1 1) 2) fullShare t5
      (ownAt_of c (SA 1) t5)
      (by rw [dev27_eq c]
          show iprop(ownAt (F := F) (xr 4 c) (R2 1) ∗ grant c (VE1 1 (xr 4 c)) (agR 1 1) 2)
            ⊢ iprop(ownAt (xr 4 c) (R2 1) ∗ grant (xr 4 (xr 4 c)) (VE1 1 (xr 4 c)) (agR 1 1) 2)
          rw [xr_xr])
      K (owedFrom c 24) (by rw [dev27_eq c]) W
      (by rw [dev27_eq c]; exact routes4 c)) $$ [Hsrc1 Gd2 Hown1 HO TBa TBb]
  · isplitr; · iexact HI
    isplitl [Hsrc1]; · iexact Hsrc1
    isplitl [Gd2]; · iexact Gd2
    isplitl [Hown1]
    · rw [grant_eq]
      isplitl [Hown1]; · iapply (ownAt_of c (VE1 1 (xr 4 c)) f1); iexact Hown1
      iexact P18
    isplitl [HO]; · iexact HO
    isplitl [TBa]; · iexact TBa
    isplitr; · iexact P31
    isplitl [TBb]; · iexact TBb
    iexact Gr2
  iintro ⟨CsB, HO⟩
  -- the wait for copy 22's send cell: the source half comes back and the first send buffer is whole again
  ihave Hmw := (mayWait_copy (F := F) c (dsem 21) 22 24 (by omega) (by omega)) $$ Hlev
  iapply (wp_wait_copy (F := F) c 21 1 23 (by omega) (by decide) K (owedFrom c 24) W
      (hw := fun Kt => hw_waitDma2 c 21 1 (src := R2 0) (dst := SA 0) ((credit_SA 0).trans rfl) Kt)) $$ [CsA HO Hmw A21]
  · isplitr; · iexact HI
    isplitl [CsA]; · iexact CsA
    isplitl [HO]; · iexact HO
    isplitl [Hmw]; · iexact Hmw
    iexact A21
  rw [show payDma (F := F) c 21 1 = ownAt c (SA 0) from rfl]
  rw [show (1 : ℕ) + 1 = 2 from rfl]
  iintro ⟨HO, A21, #P21', Hback0⟩
  ihave Hs4e := (slice_join_ownAt c (SA 0) t4) $$ [Hback0 Hrest4]
  · isplitl [Hback0]; · iexact Hback0
    iexact Hrest4
  icases Hs4e with ⟨%u4, Hs4⟩
  ihave Hs4 : ptw (F := F) c cc0_scratch4 u4 $$ [Hs4]
  · iexact Hs4
  -- the wait for the partner's copy 22 on the own receive cell: rows 512.. of the receive buffer are written, and
  -- the partner hands over its slot for the own last reduce step of the second stream
  ihave Hmw2 := (mayWait_copy (F := F) c (dsem 26) 22 24 (by omega) (by omega)) $$ Hlev
  iapply (wp_wait_copy (F := F) c 26 1 23 (by omega) (by decide) K (owedFrom c 24) (insert (SemLoc.dma (dsem 21), 23) W)
      (hw := fun Kt => hw_waitDma2 c 26 1 (src := SA 0) (dst := R2 0) ((credit_R2 0).trans rfl) Kt)) $$ [CA HO Hmw2 A26]
  · isplitr; · iexact HI
    isplitl [CA]; · iexact CA
    isplitl [HO]; · iexact HO
    isplitl [Hmw2]; · iexact Hmw2
    iexact A26
  rw [show payDma (F := F) c 26 1 = iprop(ownAt c (R2 0) ∗ grantLast (xr 3 c) 1 1) from rfl, grantLast_1, grant_eq]
  rw [show (1 : ℕ) + 1 = 2 from rfl]
  iintro ⟨HO, A26, #P26', Hback20, HgLd, #HgLr⟩
  -- the wait for copy 23's send cell
  ihave Hmw3 := (mayWait_copy (F := F) c (dsem 31) 23 24 (by omega) (by omega)) $$ Hlev
  iapply (wp_wait_copy (F := F) c 31 1 24 (by omega) (by decide) K (owedFrom c 24) (insert (SemLoc.dma (dsem 26), 23) (insert (SemLoc.dma (dsem 21), 23) W))
      (hw := fun Kt => hw_waitDma2 c 31 1 (src := R2 1) (dst := SA 1) ((credit_SA 1).trans rfl) Kt)) $$ [CsB HO Hmw3 A31]
  · isplitr; · iexact HI
    isplitl [CsB]; · iexact CsB
    isplitl [HO]; · iexact HO
    isplitl [Hmw3]; · iexact Hmw3
    iexact A31
  rw [show payDma (F := F) c 31 1 = ownAt c (SA 1) from rfl]
  rw [show (1 : ℕ) + 1 = 2 from rfl]
  iintro ⟨HO, A31, #P31', Hback1⟩
  ihave Hs5e := (slice_join_ownAt c (SA 1) t5) $$ [Hback1 Hrest5]
  · isplitl [Hback1]; · iexact Hback1
    iexact Hrest5
  icases Hs5e with ⟨%u5, Hs5⟩
  ihave Hs5 : ptw (F := F) c cc0_scratch5 u5 $$ [Hs5]
  · iexact Hs5
  -- the wait for the partner's copy 23: rows 512.. of the second receive buffer are written, and the partner hands
  -- over the rows of its second gather buffer where the own pair block lands in the next layer
  ihave Hmw4 := (mayWait_copy (F := F) c (dsem 36) 23 24 (by omega) (by omega)) $$ Hlev
  iapply (wp_wait_copy (F := F) c 36 1 24 (by omega) (by decide) K (owedFrom c 24) (insert (SemLoc.dma (dsem 31), 24) (insert (SemLoc.dma (dsem 26), 23) (insert (SemLoc.dma (dsem 21), 23) W)))
      (hw := fun Kt => hw_waitDma2 c 36 1 (src := SA 1) (dst := R2 1) ((credit_R2 1).trans rfl) Kt)) $$ [CB HO Hmw4 A36]
  · isplitr; · iexact HI
    isplitl [CB]; · iexact CB
    isplitl [HO]; · iexact HO
    isplitl [Hmw4]; · iexact Hmw4
    iexact A36
  rw [show payDma (F := F) c 36 1 = iprop(ownAt c (R2 1) ∗ grant (xr 4 c) (VE1 1 c) (agR 1 1) 2) from rfl, grant_eq]
  rw [show (1 : ℕ) + 1 = 2 from rfl]
  iintro ⟨HO, A36, #P36', Hback21, Hg1d, #Hg1r⟩
  -- the landed slots go back into the receive buffers, which are then held without the last step's slot only
  ihave H6 := (heldBut_put_left c (R2 0) (R4 0).view.set (disj_R2_R4 0).symm) $$ [Hback20 H6]
  · isplitl [Hback20]; · iexact Hback20
    iexact H6
  ihave H7 := (heldBut_put_left c (R2 1) (R4 1).view.set (disj_R2_R4 1).symm) $$ [Hback21 H7]
  · isplitl [Hback21]; · iexact Hback21
    iexact H7
  -- the last local steps read the landed rows through the receive buffers held so; what the accumulators held before
  -- is forgotten first
  ihave Hs3e : iprop(∃ f, ptw (F := F) c cc0_scratch3 f) $$ [Hs3]
  · iexists _; iexact Hs3
  icases Hs3e with ⟨%t3, Hs3⟩
  ihave Hs2e : iprop(∃ f, ptw (F := F) c cc0_scratch2 f) $$ [Hs2]
  · iexists _; iexact Hs2
  icases Hs2e with ⟨%t2, Hs2⟩
  ihave H6' := (heldBut_open c cc0_scratch6 (R4 0).view.set) $$ H6
  icases H6' with ⟨%u6, H6⟩
  ihave H7' := (heldBut_open c cc0_scratch7 (R4 1).view.set) $$ H7
  icases H7' with ⟨%u7, H7⟩
  sl_exec
  -- the state after the third reduce step
  rw [wp_ret]
  imodintro
  iexists K
  rw [QC_24_eq, core_eq, posAt_24, localBufs_eq]
  unfold grant
  isplitr [H0 Hrest1 H6 H7 Gd3 HgLd Hg1d]
  · isplitr; · iexact HI
    isplitr; · iexact Hr
    isplitr; · iexact Hlev
    isplitl [Hbar]; · iexact Hbar
    isplitl [A8 A9 A10 A11 A12 A13 A14 A15 A16 A17 A18 A19 A20 A21 A22 A23 A24 A25 A26 A27 A28 A29 A30 A31 A32 A33 A34 A35 A36 A37 A38 A39]
    · iframe ∗ #
    isplitl [Htoks]; · iexact Htoks
    isplitl [Hcreds]; · iexact Hcreds
    isplitl [HO]; · iexists _; iexact HO
    isplitl [Hg0]; · iexists _; iexact Hg0
    isplitl [Hg1]; · iexists _; iexact Hg1
    isplitl [Hg2]; · iexists _; iexact Hg2
    isplitl [Hg3]; · iexists _; iexact Hg3
    isplitl [Hg4]; · iexists _; iexact Hg4
    isplitl [Hg5]; · iexists _; iexact Hg5
    isplitl [Hg6]; · iexists _; iexact Hg6
    isplitl [Hg7]; · iexists _; iexact Hg7
    isplitl [Hs2]; · iexists _; iexact Hs2
    isplitl [Hs3]; · iexists _; iexact Hs3
    isplitl [Hs4]; · iexists _; iexact Hs4
    isplitl [Hs5]; · iexists _; iexact Hs5
    isplitl [Hs8]; · iexists _; iexact Hs8
    iexists _; iexact Hs9
  · isplitl [H0]; · iapply (heldBut_of_whole c cc0_scratch0 f0); iexact H0
    isplitl [Hrest1]; · iapply (heldBut_intro c cc0_scratch1 (VE1 1 (xr 4 c)).view.set f1); iexact Hrest1
    isplitl [H6]; · iapply (heldBut_intro c cc0_scratch6 (R4 0).view.set _); iexact H6
    isplitl [H7]; · iapply (heldBut_intro c cc0_scratch7 (R4 1).view.set _); iexact H7
    isplitl [Gd3]
    · isplitl [Gd3]; · iexact Gd3
      iexact Gr3
    isplitl [HgLd]
    · isplitl [HgLd]; · iexact HgLd
      iexact HgLr
    isplitl [Hg1d]; · iexact Hg1d
    iexact Hg1r

set_option maxHeartbeats 4000000 in
/-- The third reduce step of layer 2: copies 34 and 35 (the first halves of the two send buffers to rows 512.. of the
    receive buffers of `c xor 3` and `c xor 4`), their four waits, and the first stream's sum of the landed rows. -/
theorem seg13_ok (c : Dev nD) : Spec13 (F := F) c := by
  intro v2 v11 v1225 v1228 v1571
  refine exists_elim fun K => ?_
  rw [QAB_34_eq, core_eq, posAt_34, toks_seg_34, creds_seg_34, localBufs_eq, heldBut_empty, heldBut_empty]
  unfold grant
  rw [← dev38_eq c, ← dev39_eq c]
  iintro ⟨⟨#HI, #Hr, #Hlev, Hbar, ⟨A8, #P8, A9, #P9, A10, #P10, A11, #P11, A12, #P12, A13, #P13, A14, #P14, A15, #P15, A16, #P16, A17, #P17, A18, #P18, A19, #P19, A20, #P20, A21, #P21, A22, #P22, A23, #P23, A24, #P24, A25, #P25, A26, #P26, A27, #P27, A28, #P28, A29, #P29, A30, #P30, A31, #P31, A32, #P32, A33, #P33, A34, #P34, A35, #P35, A36, #P36, A37, #P37, A38, #P38, A39, #P39⟩, ⟨⟨TAa, TAb⟩, ⟨TBa, TBb⟩, Htoks⟩, ⟨CA, CB, Hcreds⟩, ⟨%W, HO⟩, ⟨⟨%g0, Hg0⟩, ⟨%g1, Hg1⟩, ⟨%g2, Hg2⟩, ⟨%g3, Hg3⟩, ⟨%g4, Hg4⟩, ⟨%g5, Hg5⟩, ⟨%g6, Hg6⟩, ⟨%g7, Hg7⟩, ⟨%s2, Hs2⟩, ⟨%s3, Hs3⟩, ⟨%s4, Hs4⟩, ⟨%s5, Hs5⟩, ⟨%s8, Hs8⟩, ⟨%s9, Hs9⟩⟩⟩, ⟨%f0, H0⟩, ⟨%f1, H1⟩, H6, H7, ⟨Gd1, #Gr1⟩, ⟨Gd2, #Gr2⟩, ⟨Gd3, #Gr3⟩⟩
  unfold seg13
  simp only [k0_part51, k0_part52, k0_part53, Prog.lift, Prog.bind_op, Prog.bind_ret, Prog.pure_eq_ret]
  -- the local steps before the first copy (they fill the first half of the first send buffer)
  sl_exec
  ihave Hs4e : iprop(∃ f, ptw (F := F) c cc0_scratch4 f) $$ [Hs4]
  · iexists _; iexact Hs4
  icases Hs4e with ⟨%t4, Hs4⟩
  -- copy 34: with it goes the own slot for that partner's last reduce step of the second stream
  ihave H7' := (heldBut_take_view c (R3h 1) (R2 1).view.set (disj_R2_R3h 1)).1 $$ H7
  icases H7' with ⟨HownL, H7⟩
  ihave Hs4' := (slice_split c (SA 0) t4).1 $$ Hs4
  icases Hs4' with ⟨Hsrc0, Hrest4⟩
  iapply (wp_send_copy (F := F) c ⟨k0_dev38 c, k0_dev38_lt c⟩ (SA 0) (R2 0) 21 26 2 35 (by omega) (by omega) (by decide) (by decide)
      ((credit_R2 0).trans rfl) (amtDma_sendOf 26 2 (Or.inr (by omega))) (grantLast c 1 2) fullShare t4
      (ownAt_of c (SA 0) t4)
      (by rw [dev38_eq c]
          show iprop(ownAt (F := F) (xr 3 c) (R2 0) ∗ grantLast c 1 2) ⊢ iprop(ownAt (xr 3 c) (R2 0) ∗ grantLast (xr 3 (xr 3 c)) 1 2)
          rw [xr_xr])
      K (owedFrom c 35) (by rw [dev38_eq c]) W
      (by rw [dev38_eq c]; exact routes3 c)) $$ [Hsrc0 Gd1 HownL HO TAa TAb]
  · isplitr; · iexact HI
    isplitl [Hsrc0]; · iexact Hsrc0
    isplitl [Gd1]; · iexact Gd1
    isplitl [HownL]
    · rw [grantLast_2, grant_eq]
      isplitl [HownL]; · iexact HownL
      iexact P37
    isplitl [HO]; · iexact HO
    isplitl [TAa]; · iexact TAa
    isplitr; · iexact P21
    isplitl [TAb]; · iexact TAb
    iexact Gr1
  iintro ⟨CsA, HO⟩
  -- the local steps between the two copies (they fill the first half of the second send buffer)
  sl_exec
  ihave Hs5e : iprop(∃ f, ptw (F := F) c cc0_scratch5 f) $$ [Hs5]
  · iexists _; iexact Hs5
  icases Hs5e with ⟨%t5, Hs5⟩
  ihave Hs5' := (slice_split c (SA 1) t5).1 $$ Hs5
  icases Hs5' with ⟨Hsrc1, Hrest5⟩
  -- copy 35: the last layer, nothing goes with it
  iapply (wp_send_copy (F := F) c ⟨k0_dev39 c, k0_dev39_lt c⟩ (SA 1) (R2 1) 31 36 2 36 (by omega) (by omega) (by decide) (by decide)
      ((credit_R2 1).trans rfl) (amtDma_sendOf 36 2 (Or.inr (by omega))) iprop(emp) fullShare t5
      (ownAt_of c (SA 1) t5)
      Idealize.SL.BI.Laws.sep_emp.mp
      K (owedFrom c 36) (by rw [dev39_eq c]) W
      (by rw [dev39_eq c]; exact routes4 c)) $$ [Hsrc1 Gd2 HO TBa TBb]
  · isplitr; · iexact HI
    isplitl [Hsrc1]; · iexact Hsrc1
    isplitl [Gd2]; · iexact Gd2
    isplitl []; · iempintro
    isplitl [HO]; · iexact HO
    isplitl [TBa]; · iexact TBa
    isplitr; · iexact P31
    isplitl [TBb]; · iexact TBb
    iexact Gr2
  iintro ⟨CsB, HO⟩
  -- the wait for copy 34's send cell: the source half comes back and the first send buffer is whole again
  ihave Hmw := (mayWait_copy (F := F) c (dsem 21) 34 36 (by omega) (by omega)) $$ Hlev
  iapply (wp_wait_copy (F := F) c 21 2 35 (by omega) (by decide) K (owedFrom c 36) W
      (hw := fun Kt => hw_waitDma2 c 21 2 (src := R2 0) (dst := SA 0) ((credit_SA 0).trans rfl) Kt)) $$ [CsA HO Hmw A21]
  · isplitr; · iexact HI
    isplitl [CsA]; · iexact CsA
    isplitl [HO]; · iexact HO
    isplitl [Hmw]; · iexact Hmw
    iexact A21
  rw [show payDma (F := F) c 21 2 = ownAt c (SA 0) from rfl]
  rw [show (2 : ℕ) + 1 = 3 from rfl]
  iintro ⟨HO, A21, #P21', Hback0⟩
  ihave Hs4e := (slice_join_ownAt c (SA 0) t4) $$ [Hback0 Hrest4]
  · isplitl [Hback0]; · iexact Hback0
    iexact Hrest4
  icases Hs4e with ⟨%u4, Hs4⟩
  ihave Hs4 : ptw (F := F) c cc0_scratch4 u4 $$ [Hs4]
  · iexact Hs4
  -- the wait for the partner's copy 34 on the own receive cell: rows 512.. of the receive buffer are written, and
  -- the partner hands over its slot for the own last reduce step of the second stream
  ihave Hmw2 := (mayWait_copy (F := F) c (dsem 26) 34 36 (by omega) (by omega)) $$ Hlev
  iapply (wp_wait_copy (F := F) c 26 2 35 (by omega) (by decide) K (owedFrom c 36) (insert (SemLoc.dma (dsem 21), 35) W)
      (hw := fun Kt => hw_waitDma2 c 26 2 (src := SA 0) (dst := R2 0) ((credit_R2 0).trans rfl) Kt)) $$ [CA HO Hmw2 A26]
  · isplitr; · iexact HI
    isplitl [CA]; · iexact CA
    isplitl [HO]; · iexact HO
    isplitl [Hmw2]; · iexact Hmw2
    iexact A26
  rw [show payDma (F := F) c 26 2 = iprop(ownAt c (R2 0) ∗ grantLast (xr 3 c) 1 2) from rfl, grantLast_2, grant_eq]
  rw [show (2 : ℕ) + 1 = 3 from rfl]
  iintro ⟨HO, A26, #P26', Hback20, HgLd, #HgLr⟩
  -- the wait for copy 35's send cell
  ihave Hmw3 := (mayWait_copy (F := F) c (dsem 31) 35 36 (by omega) (by omega)) $$ Hlev
  iapply (wp_wait_copy (F := F) c 31 2 36 (by omega) (by decide) K (owedFrom c 36) (insert (SemLoc.dma (dsem 26), 35) (insert (SemLoc.dma (dsem 21), 35) W))
      (hw := fun Kt => hw_waitDma2 c 31 2 (src := R2 1) (dst := SA 1) ((credit_SA 1).trans rfl) Kt)) $$ [CsB HO Hmw3 A31]
  · isplitr; · iexact HI
    isplitl [CsB]; · iexact CsB
    isplitl [HO]; · iexact HO
    isplitl [Hmw3]; · iexact Hmw3
    iexact A31
  rw [show payDma (F := F) c 31 2 = ownAt c (SA 1) from rfl]
  rw [show (2 : ℕ) + 1 = 3 from rfl]
  iintro ⟨HO, A31, #P31', Hback1⟩
  ihave Hs5e := (slice_join_ownAt c (SA 1) t5) $$ [Hback1 Hrest5]
  · isplitl [Hback1]; · iexact Hback1
    iexact Hrest5
  icases Hs5e with ⟨%u5, Hs5⟩
  ihave Hs5 : ptw (F := F) c cc0_scratch5 u5 $$ [Hs5]
  · iexact Hs5
  -- the wait for the partner's copy 35: rows 512.. of the second receive buffer are written
  ihave Hmw4 := (mayWait_copy (F := F) c (dsem 36) 35 36 (by omega) (by omega)) $$ Hlev
  iapply (wp_wait_copy (F := F) c 36 2 36 (by omega) (by decide) K (owedFrom c 36) (insert (SemLoc.dma (dsem 31), 36) (insert (SemLoc.dma (dsem 26), 35) (insert (SemLoc.dma (dsem 21), 35) W)))
      (hw := fun Kt => hw_waitDma2 c 36 2 (src := SA 1) (dst := R2 1) ((credit_R2 1).trans rfl) Kt)) $$ [CB HO Hmw4 A36]
  · isplitr; · iexact HI
    isplitl [CB]; · iexact CB
    isplitl [HO]; · iexact HO
    isplitl [Hmw4]; · iexact Hmw4
    iexact A36
  rw [show payDma (F := F) c 36 2 = ownAt c (R2 1) from rfl]
  rw [show (2 : ℕ) + 1 = 3 from rfl]
  iintro ⟨HO, A36, #P36', Hback21⟩
  -- the landed slots go back into the receive buffers, which are then held without the last step's slot only
  ihave H6 := (heldBut_put_left c (R2 0) (R3h 0).view.set (disj_R2_R3h 0).symm) $$ [Hback20 H6]
  · isplitl [Hback20]; · iexact Hback20
    iexact H6
  ihave H7 := (heldBut_put_left c (R2 1) (R3h 1).view.set (disj_R2_R3h 1).symm) $$ [Hback21 H7]
  · isplitl [Hback21]; · iexact Hback21
    iexact H7
  -- the last local steps read the landed rows through the receive buffers held so; what the accumulators held before
  -- is forgotten first
  ihave Hs3e : iprop(∃ f, ptw (F := F) c cc0_scratch3 f) $$ [Hs3]
  · iexists _; iexact Hs3
  icases Hs3e with ⟨%t3, Hs3⟩
  ihave Hs2e : iprop(∃ f, ptw (F := F) c cc0_scratch2 f) $$ [Hs2]
  · iexists _; iexact Hs2
  icases Hs2e with ⟨%t2, Hs2⟩
  ihave H6' := (heldBut_open c cc0_scratch6 (R3h 0).view.set) $$ H6
  icases H6' with ⟨%u6, H6⟩
  ihave H7' := (heldBut_open c cc0_scratch7 (R3h 1).view.set) $$ H7
  icases H7' with ⟨%u7, H7⟩
  -- the last three steps read other rows of the first accumulator: they are run apart, after what it held is forgotten
  generalize hR : (Prog.op (TpuEff.load (Memref.whole cc0_scratch2) (Rect.unit (s := S1024x256) (k0_off19 c) _ _).toLoadRect _) _
      : Prog (TpuEff nD τ sig (Elt F) Λ₀ .tc) _) = R
  sl_exec
  ihave Hs2e : iprop(∃ f, ptw (F := F) c cc0_scratch2 f) $$ [Hs2]
  · iexists _; iexact Hs2
  icases Hs2e with ⟨%t2', Hs2⟩
  subst hR
  sl_exec
  -- the state after the third reduce step
  rw [wp_ret]
  imodintro
  iexists K
  rw [QC_36_eq, core_eq, posAt_36, localBufs_eq]
  unfold grant
  isplitr [H0 H1 H6 H7 Gd3 HgLd]
  · isplitr; · iexact HI
    isplitr; · iexact Hr
    isplitr; · iexact Hlev
    isplitl [Hbar]; · iexact Hbar
    isplitl [A8 A9 A10 A11 A12 A13 A14 A15 A16 A17 A18 A19 A20 A21 A22 A23 A24 A25 A26 A27 A28 A29 A30 A31 A32 A33 A34 A35 A36 A37 A38 A39]
    · iframe ∗ #
    isplitl [Htoks]; · iexact Htoks
    isplitl [Hcreds]; · iexact Hcreds
    isplitl [HO]; · iexists _; iexact HO
    isplitl [Hg0]; · iexists _; iexact Hg0
    isplitl [Hg1]; · iexists _; iexact Hg1
    isplitl [Hg2]; · iexists _; iexact Hg2
    isplitl [Hg3]; · iexists _; iexact Hg3
    isplitl [Hg4]; · iexists _; iexact Hg4
    isplitl [Hg5]; · iexists _; iexact Hg5
    isplitl [Hg6]; · iexists _; iexact Hg6
    isplitl [Hg7]; · iexists _; iexact Hg7
    isplitl [Hs2]; · iexists _; iexact Hs2
    isplitl [Hs3]; · iexists _; iexact Hs3
    isplitl [Hs4]; · iexists _; iexact Hs4
    isplitl [Hs5]; · iexists _; iexact Hs5
    isplitl [Hs8]; · iexists _; iexact Hs8
    iexists _; iexact Hs9
  · isplitl [H0]; · iapply (heldBut_of_whole c cc0_scratch0 f0); iexact H0
    isplitl [H1]; · iapply (heldBut_of_whole c cc0_scratch1 f1); iexact H1
    isplitl [H6]; · iapply (heldBut_intro c cc0_scratch6 (R3h 0).view.set _); iexact H6
    isplitl [H7]; · iapply (heldBut_intro c cc0_scratch7 (R3h 1).view.set _); iexact H7
    isplitl [Gd3]
    · isplitl [Gd3]; · iexact Gd3
      iexact Gr3
    isplitl [HgLd]
    · isplitl [HgLd]; · iexact HgLd
      iexact HgLr
    iempintro

/-! ## These rest on the standard axioms only -/

/-- info: 'Cert.KernelIdeal.Hand.seg4_ok' depends on axioms: [propext, Classical.choice, Quot.sound] -/
#guard_msgs in #print axioms seg4_ok
/-- info: 'Cert.KernelIdeal.Hand.seg8_ok' depends on axioms: [propext, Classical.choice, Quot.sound] -/
#guard_msgs in #print axioms seg8_ok
/-- info: 'Cert.KernelIdeal.Hand.seg13_ok' depends on axioms: [propext, Classical.choice, Quot.sound] -/
#guard_msgs in #print axioms seg13_ok

end Cert.KernelIdeal.Hand

end
-- ==== Proof.KernelIdeal.SegD.lean ====
/- The last step of the reduce of a layer that has a next layer (layers 0 and 1).

   Each stream sends the cast partial sums of the pair of row blocks that its last partner owns — the first half of
   its send buffer — into that partner's slot of this layer's last step (rows 768.. of the receive buffer in layer 0,
   rows 1024.. in layer 1), waits for its own send cell and for the partner's symmetric copy on its receive cell, adds
   what landed to its own partial sums and stores the sum, cast, into its own pair of row blocks of the gather
   buffer: the layer's output, from which the next layer's exchanges start.
   With each copy goes the hand-over the partner needs for the next layer: to c xor 1 the four row blocks of the
   second gather buffer where its third exchange will land, to c xor 3 the pair of row blocks of the first gather
   buffer where its second exchange will land. So from the first copy on the second gather buffer, and from the
   second copy on the first, are held without those blocks, and the reads and the store of the own pair go through
   the base rules with the disjointness of the row blocks as side condition. The landings hand back the own slots of
   the receive buffers, which are whole again, and the partners' blocks for the device's own next exchanges. -/
import proofs.«900979_g7700000000000980_dist_mlpseq_tp1d_bs_bs_b256_d256_h512_v7x_i8_bf16_1_alg».proof.Proof.KernelIdeal.Specs
import proofs.«900979_g7700000000000980_dist_mlpseq_tp1d_bs_bs_b256_d256_h512_v7x_i8_bf16_1_alg».proof.Proof.KernelIdeal.Steps
import proofs.«900979_g7700000000000980_dist_mlpseq_tp1d_bs_bs_b256_d256_h512_v7x_i8_bf16_1_alg».proof.Proof.KernelIdeal.QuietLemmas

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.Tactic

/-! ## Local steps on a buffer held without some of its elements -/

/-- On a whole buffer the elements under a set of indices are that set. -/
theorem setOn_whole_D (b : Ref sig .tc) (M : Finset b.ty.shape.Idx) : (Memref.whole b).view.setOn M = M := by
  show M.map (View.whole b).emb = M
  rw [View.emb_whole]; exact Finset.map_refl

/-- A read through a rectangle that avoids the elements away reads held elements. -/
theorem load_ok_D (b : Ref sig .tc) (r : Rect b.ty.shape) (A : Finset b.ty.shape.Idx) (hd : Disjoint r.set A) :
    (Memref.whole b).view.setOn r.toLoadRect.set ⊆ Finset.univ \ A := by
  rw [setOn_whole_D]; exact Finset.subset_sdiff.mpr ⟨Finset.subset_univ _, hd⟩

/-- A store through such a rectangle writes held elements. -/
theorem store_ok_D (b : Ref sig .tc) (r : Rect b.ty.shape) (Mk : Finset r.shape.Idx) (A : Finset b.ty.shape.Idx)
    (hd : Disjoint r.set A) : ((Memref.whole b).access r).setOn Mk ⊆ Finset.univ \ A := fun i hi =>
  Finset.mem_sdiff.mpr ⟨Finset.mem_univ _, fun hA => Finset.disjoint_left.mp hd
    (by have h := View.setOn_subset_set _ Mk hi; rwa [View.set_slice_whole] at h) hA⟩

/-! ## A remote copy and its waits as printed: the partner and the semaphores by their printed terms -/

/-- The copy rule with the partner and the semaphores as the program spells them, each equal to the protocol's. -/
theorem wp_send_copy_D (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-- The wait rule with the semaphore as the program spells it. -/
theorem wp_wait_copy_D (c : Dev nD) (j r ι : ℕ) (sW : DmaSem sig) (hsW : sW = dsem j) (hj : j < 40) (hr : r < nRounds j)
    (K : GSem nD τ sig → ℕ) (O : CellTallies nD τ sig ℕ) (W : Waits sig ℕ)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = amtDma j r)
    {α : Type} {Q : α → sProp 𝕄} {k : PUnit → Prog (TpuEff nD τ sig (Elt F) Λ₀ .tc) α} :
    iprop(invsAll (F := F) K ∗ cred (tallyAt (dcell c (dsem j)) ι (amtDma j r)) ∗ owes (c : Thread nD τ) O W
        ∗ MayWait (c : Thread nD τ) (.dma (dsem j)) ι O ∗ atPos ER (dcell c (dsem j)) r ∅ 0)
      ⊢ iprop(((owes (c : Thread nD τ) O (insert (.dma (dsem j), ι) W) ∗ atPos ER (dcell c (dsem j)) (r + 1) ∅ 0
              ∗ reached ER (dcell c (dsem j)) (r + 1) ∗ payDma c j r)
            -∗ wp frame (wpE (defs₀ (F := F)) Variants.none (c : Thread nD τ) none) Set.univ (k ⟨⟩) Q)
          -∗ wp frame (wpE (defs₀ (F := F)) Variants.none (c : Thread nD τ) none) Set.univ
              (.op (.waitDma2 sW src dst hsrc hdst) k) Q) := by
  subst hsW
  exact wp_wait_copy c j r ι hj hr K O W (hw := fun Kt => hw_waitDma2 c j r hN Kt)

/-- A buffer held without some elements, opened at its contents. -/
theorem heldBut_open_D (c : Dev nD) (b : Ref sig .tc) (A : Finset (Idx ((Memref.whole b).view.loc (c : Thread nD τ)))) :
    heldBut (F := F) c b A ⊢ iprop(∃ f : Buf (Elt F) ((Memref.whole b).view.loc (c : Thread nD τ)),
      (Memref.whole b).view.loc (c : Thread nD τ) ↦[Finset.univ \ A]{fullShare} f) := by
  unfold heldBut
  exact .rfl

/-! ## Side facts of the last reduce step, layer 0 -/

/-- Rows 512.. of the second receive buffer do not meet the slot at rows 768... -/
theorem d5_hd7 : Disjoint (Rect.unit (s := S1280x256) ![512, 0] S256x256.size inb_S1280x256_S256x256_512_0).set (R3 1).view.set := by
  rw [← set_slice_of_whole cc0_scratch7 (Rect.unit (s := S1280x256) ![512, 0] S256x256.size inb_S1280x256_S256x256_512_0) (fun _ => rfl)]
  exact disj_R2_R3 1

theorem d5_off17 : ∀ c : Dev nD, k0_off17 c 0 + S256x256.size 0 ≤ k0_off5 (xr 3 c) 0 ∨ k0_off5 (xr 3 c) 0 + S256x256.size 0 ≤ k0_off17 c 0 := by
  decide +kernel
theorem d5_off18a : ∀ c : Dev nD, k0_off18 c 0 + S256x256.size 0 ≤ k0_off6 (xr 4 c) 0 ∨ k0_off6 (xr 4 c) 0 + S256x256.size 0 ≤ k0_off18 c 0 := by
  decide +kernel
theorem d5_off18b : ∀ c : Dev nD, k0_off18 c 0 + S256x256.size 0 ≤ k0_off10 (xr 1 c) 0 ∨ k0_off10 (xr 1 c) 0 + S512x256.size 0 ≤ k0_off18 c 0 := by
  decide +kernel
theorem d5_offAB : ∀ c : Dev nD, k0_off6 (xr 4 c) 0 + S256x256.size 0 ≤ k0_off10 (xr 1 c) 0 ∨ k0_off10 (xr 1 c) 0 + S512x256.size 0 ≤ k0_off6 (xr 4 c) 0 := by
  decide +kernel

/-- The own pair of blocks of the first gather buffer does not meet the pair of c xor 3. -/
theorem d5_hd0 (c : Dev nD) : Disjoint (Rect.unit (s := S1024x256) (k0_off17 c) S256x256.size (k0_off17_inb c)).set (VE1 0 (xr 3 c)).view.set := by
  rw [← set_slice_of_whole cc0_scratch0 (Rect.unit (s := S1024x256) (k0_off17 c) S256x256.size (k0_off17_inb c)) (fun _ => rfl)]
  exact disj_slices cc0_scratch0 0 (d5_off17 c)

/-- In the second gather buffer the pair of c xor 4 and the four blocks of c xor 1 do not meet. -/
theorem d5_hdAB (c : Dev nD) : Disjoint (VE1 1 (xr 4 c)).view.set (VE2 1 (xr 1 c)).view.set :=
  disj_slices cc0_scratch1 0 (d5_offAB c)

/-- Nor does the own pair of blocks meet either. -/
theorem d5_hd1 (c : Dev nD) : Disjoint (Rect.unit (s := S1024x256) (k0_off18 c) S256x256.size (k0_off18_inb c)).set
    ((VE1 1 (xr 4 c)).view.set ∪ (VE2 1 (xr 1 c)).view.set) := by
  rw [← set_slice_of_whole cc0_scratch1 (Rect.unit (s := S1024x256) (k0_off18 c) S256x256.size (k0_off18_inb c)) (fun _ => rfl)]
  exact Finset.disjoint_union_right.mpr ⟨disj_slices cc0_scratch1 0 (d5_off18a c), disj_slices cc0_scratch1 0 (d5_off18b c)⟩

theorem d5_hpayR12 (c : Dev nD) : iprop(ownAt (F := F) (xr 1 c) (R3 0) ∗ grant c (VE2 1 (xr 1 c)) (agR 1 2) 1) ⊢ payDma (xr 1 c) 27 0 := by
  show _ ⊢ iprop(ownAt (xr 1 c) (R3 0) ∗ grant (xr 1 (xr 1 c)) (VE2 1 (xr 1 c)) (agR 1 2) 1)
  rw [xr_xr]
  first | done | exact .rfl
theorem d5_hpayR13 (c : Dev nD) : iprop(ownAt (F := F) (xr 3 c) (R3 1) ∗ grant c (VE1 0 (xr 3 c)) (agR 0 1) 1) ⊢ payDma (xr 3 c) 37 0 := by
  show _ ⊢ iprop(ownAt (xr 3 c) (R3 1) ∗ grant (xr 3 (xr 3 c)) (VE1 0 (xr 3 c)) (agR 0 1) 1)
  rw [xr_xr]
  first | done | exact .rfl
theorem amtD_27_0 : amtDma 27 0 = amtDma 25 0 := by decide
theorem amtD_22_0 : amtDma 22 0 = amtDma 27 0 := by decide
theorem amtD_37_0 : amtDma 37 0 = amtDma 25 0 := by decide
theorem amtD_32_0 : amtDma 32 0 = amtDma 37 0 := by decide

set_option maxHeartbeats 1600000 in
theorem seg5_ok (c : Dev nD) : Spec5 (F := F) c := by
  intro v2 v131 v134
  refine exists_elim fun K => ?_
  rw [QC_12_eq, core_eq, posAt_12, toks_seg_12, creds_seg_12, localBufs_eq, heldBut_empty]
  unfold grant
  rw [show (rsR 0 2 : DmaSem sig) = dsem 27 from by decide, show (rsR 1 2 : DmaSem sig) = dsem 37 from by decide,
    show (agR 1 1 : DmaSem sig) = dsem 18 from by decide]
  iintro ⟨⟨#HI, #Hr, #Hlev, Hbar, ⟨A8, #P8, A9, #P9, A10, #P10, A11, #P11, A12, #P12, A13, #P13, A14, #P14, A15, #P15, A16, #P16, A17, #P17, A18, #P18, A19, #P19, A20, #P20, A21, #P21, A22, #P22, A23, #P23, A24, #P24, A25, #P25, A26, #P26, A27, #P27, A28, #P28, A29, #P29, A30, #P30, A31, #P31, A32, #P32, A33, #P33, A34, #P34, A35, #P35, A36, #P36, A37, #P37, A38, #P38, A39, #P39⟩, ⟨⟨TAa, TAb⟩, ⟨TBa, TBb⟩, Htoks⟩, ⟨CA, CB, Hcreds⟩, ⟨%W, HO⟩, ⟨⟨%w0, Hw0⟩, ⟨%w1, Hw1⟩, ⟨%w2, Hw2⟩, ⟨%w3, Hw3⟩, ⟨%w4, Hw4⟩, ⟨%w5, Hw5⟩, ⟨%w6, Hw6⟩, ⟨%w7, Hw7⟩, ⟨%a2, Ha2⟩, ⟨%a3, Ha3⟩, ⟨%s4, Hs4⟩, ⟨%s5, Hs5⟩, ⟨%b8, Hb8⟩, ⟨%b9, Hb9⟩⟩⟩, ⟨%x0, Hx0⟩, H1, H6, H7, ⟨Gd1, #Gr1⟩, ⟨Gd2, #Gr2⟩, ⟨Gd3, #Gr3⟩⟩
  unfold seg5
  rw [k0_part19_eq_skeleton, k0_part20_eq_skeleton, k0_part21_eq_skeleton]
  unfold k0_part19_skel k0_part20_skel k0_part21_skel
  simp only [Prog.lift, Prog.bind_op, Prog.bind_ret, Prog.pure_eq_ret, Prog.bind_assoc]
  sl_exec
  -- the read of rows 512.. of the second receive buffer, held without its slot at rows 768..
  ihave H7o := (heldBut_open_D (F := F) c cc0_scratch7 _) $$ H7
  icases H7o with ⟨%f7, H7⟩
  iapply (wp_load Variants.none (c : Thread nD τ) none Set.univ (load_ok_D cc0_scratch7 _ _ d5_hd7)) $$ [H7]
  · iexact H7
  iintro H7
  ihave H7 := (heldBut_intro (F := F) c cc0_scratch7 (R3 1).view.set f7) $$ H7
  sl_exec
  ihave Ha3e : iprop(∃ f, ptw (F := F) c cc0_scratch3 f) $$ [Ha3]
  · iexists _
    iexact Ha3
  icases Ha3e with ⟨%a3', Ha3⟩
  -- copy 12: the first half of the first send buffer to the slot of this layer's last step in the receive buffer of
  -- c xor 1; with it go the four blocks of the second gather buffer where that partner's third exchange lands next
  ihave Hs4e : iprop(∃ f, ptw (F := F) c cc0_scratch4 f) $$ [Hs4]
  · iexists _
    iexact Hs4
  icases Hs4e with ⟨%t4, Hs4⟩
  ihave Hs4' := (slice_split c (SA 0) t4).1 $$ Hs4
  icases Hs4' with ⟨Hsrc0, Hrest4⟩
  ihave Hrest4 := (heldBut_intro (F := F) c cc0_scratch4 (SA 0).view.set t4) $$ Hrest4
  ihave H1' := (heldBut_take_view (F := F) c (VE2 1 (xr 1 c)) (VE1 1 (xr 4 c)).view.set (d5_hdAB c)).1 $$ H1
  icases H1' with ⟨Hown1, H1⟩
  iapply (wp_send_copy_D (F := F) c (xr 1 c) _ (dev16_eq c) (SA 0) (R3 0) 22 27 0 13 _ _ sem_rs0s_2 sem_rs0r_2
      (by omega) (by omega) (by decide) (by decide) ((credit_R3 0).trans amtD_27_0.symm) amtD_22_0
      (grant c (VE2 1 (xr 1 c)) (agR 1 2) 1) fullShare t4
      (ownAt_of c (SA 0) t4) (d5_hpayR12 c) K (owedFrom c 13) (owedFrom_succ c 12 (1, 27, 0) rfl) W (Topo.routes_tc _ _)) $$ [Hsrc0 Gd1 Hown1 HO TAa TAb]
  · isplitr
    · iexact HI
    isplitl [Hsrc0]
    · iexact Hsrc0
    isplitl [Gd1]
    · iexact Gd1
    isplitl [Hown1]
    · rw [grant_eq]
      isplitl [Hown1]
      · iexact Hown1
      iexact P19
    isplitl [HO]
    · iexact HO
    isplitl [TAa]
    · iexact TAa
    isplitr
    · iexact P22
    isplitl [TAb]
    · iexact TAb
    iexact Gr1
  iintro ⟨CsA, HO⟩
  sl_exec
  -- copy 13: the first half of the second send buffer to the same slot of the second receive buffer of c xor 3; with
  -- it goes that partner's pair of blocks of the first gather buffer, where its second exchange lands next
  ihave Hs5e : iprop(∃ f, ptw (F := F) c cc0_scratch5 f) $$ [Hs5]
  · iexists _
    iexact Hs5
  icases Hs5e with ⟨%t5, Hs5⟩
  ihave Hs5' := (slice_split c (SA 1) t5).1 $$ Hs5
  icases Hs5' with ⟨Hsrc1, Hrest5⟩
  ihave Hrest5 := (heldBut_intro (F := F) c cc0_scratch5 (SA 1).view.set t5) $$ Hrest5
  ihave H0w : heldBut (F := F) c cc0_scratch0 ∅ $$ [Hx0]
  · iapply (heldBut_of_whole (F := F) c cc0_scratch0 _)
    iexact Hx0
  ihave H0' := (heldBut_take_view_empty (F := F) c (VE1 0 (xr 3 c))).1 $$ H0w
  icases H0' with ⟨Hown0, H0⟩
  iapply (wp_send_copy_D (F := F) c (xr 3 c) _ (dev17_eq c) (SA 1) (R3 1) 32 37 0 14 _ _ sem_rs1s_2 sem_rs1r_2
      (by omega) (by omega) (by decide) (by decide) ((credit_R3 1).trans amtD_37_0.symm) amtD_32_0
      (grant c (VE1 0 (xr 3 c)) (agR 0 1) 1) fullShare t5
      (ownAt_of c (SA 1) t5) (d5_hpayR13 c) K (owedFrom c 14) (owedFrom_succ c 13 (3, 37, 0) rfl) W (Topo.routes_tc _ _)) $$ [Hsrc1 Gd2 Hown0 HO TBa TBb]
  · isplitr
    · iexact HI
    isplitl [Hsrc1]
    · iexact Hsrc1
    isplitl [Gd2]
    · iexact Gd2
    isplitl [Hown0]
    · rw [grant_eq]
      isplitl [Hown0]
      · iexact Hown0
      iexact P12
    isplitl [HO]
    · iexact HO
    isplitl [TBa]
    · iexact TBa
    isplitr
    · iexact P32
    isplitl [TBb]
    · iexact TBb
    iexact Gr2
  iintro ⟨CsB, HO⟩
  -- the wait on the first copy's send cell: the source half comes back and the send buffer is whole again
  ihave Hmw := (mayWait_copy (F := F) c (dsem 22) 12 14 (by omega) (by omega)) $$ Hlev
  iapply (wp_wait_copy_D (F := F) c 22 0 13 _ sem_rs0s_2 (by omega) (by decide) K (owedFrom c 14) _ ((credit_SA 0).trans (amtD_22_0.trans amtD_27_0).symm)) $$ [CsA HO Hmw A22]
  · isplitr
    · iexact HI
    isplitl [CsA]
    · iexact CsA
    isplitl [HO]
    · iexact HO
    isplitl [Hmw]
    · iexact Hmw
    iexact A22
  rw [show payDma (F := F) c 22 0 = ownAt c (SA 0) from rfl]
  iintro ⟨HO, A22, #P22', Hback0⟩
  ihave Hs4e : iprop(∃ f, ptw (F := F) c cc0_scratch4 f) $$ [Hback0 Hrest4]
  · rw [← heldBut_empty (F := F) c cc0_scratch4]
    iapply (heldBut_put_only (F := F) c (SA 0))
    isplitl [Hback0]
    · iexact Hback0
    iexact Hrest4
  -- the landing of the partner's copy: the slot of the first receive buffer comes back, and with it that partner's
  -- four blocks of its second gather buffer for the next layer's third exchange
  ihave Hmw := (mayWait_copy (F := F) c (dsem 27) 12 14 (by omega) (by omega)) $$ Hlev
  iapply (wp_wait_copy_D (F := F) c 27 0 13 _ sem_rs0r_2 (by omega) (by decide) K (owedFrom c 14) _ ((credit_R3 0).trans amtD_27_0.symm)) $$ [CA HO Hmw A27]
  · isplitr
    · iexact HI
    isplitl [CA]
    · iexact CA
    isplitl [HO]
    · iexact HO
    isplitl [Hmw]
    · iexact Hmw
    iexact A27
  rw [show payDma (F := F) c 27 0 = iprop(ownAt c (R3 0) ∗ grant (xr 1 c) (VE2 1 c) (agR 1 2) 1) from rfl]
  iintro ⟨HO, A27, #P27', HR30, Gn1⟩
  ihave H6e : iprop(∃ f, ptw (F := F) c cc0_scratch6 f) $$ [HR30 H6]
  · rw [← heldBut_empty (F := F) c cc0_scratch6]
    iapply (heldBut_put_only (F := F) c (R3 0))
    isplitl [HR30]
    · iexact HR30
    iexact H6
  icases H6e with ⟨%y6, Hy6⟩
  -- the same for the second stream
  ihave Hmw := (mayWait_copy (F := F) c (dsem 32) 13 14 (by omega) (by omega)) $$ Hlev
  iapply (wp_wait_copy_D (F := F) c 32 0 14 _ sem_rs1s_2 (by omega) (by decide) K (owedFrom c 14) _ ((credit_SA 1).trans (amtD_32_0.trans amtD_37_0).symm)) $$ [CsB HO Hmw A32]
  · isplitr
    · iexact HI
    isplitl [CsB]
    · iexact CsB
    isplitl [HO]
    · iexact HO
    isplitl [Hmw]
    · iexact Hmw
    iexact A32
  rw [show payDma (F := F) c 32 0 = ownAt c (SA 1) from rfl]
  iintro ⟨HO, A32, #P32', Hback1⟩
  ihave Hs5e : iprop(∃ f, ptw (F := F) c cc0_scratch5 f) $$ [Hback1 Hrest5]
  · rw [← heldBut_empty (F := F) c cc0_scratch5]
    iapply (heldBut_put_only (F := F) c (SA 1))
    isplitl [Hback1]
    · iexact Hback1
    iexact Hrest5
  ihave Hmw := (mayWait_copy (F := F) c (dsem 37) 13 14 (by omega) (by omega)) $$ Hlev
  iapply (wp_wait_copy_D (F := F) c 37 0 14 _ sem_rs1r_2 (by omega) (by decide) K (owedFrom c 14) _ ((credit_R3 1).trans amtD_37_0.symm)) $$ [CB HO Hmw A37]
  · isplitr
    · iexact HI
    isplitl [CB]
    · iexact CB
    isplitl [HO]
    · iexact HO
    isplitl [Hmw]
    · iexact Hmw
    iexact A37
  rw [show payDma (F := F) c 37 0 = iprop(ownAt c (R3 1) ∗ grant (xr 3 c) (VE1 0 c) (agR 0 1) 1) from rfl]
  iintro ⟨HO, A37, #P37', HR31, Gn2⟩
  ihave H7e : iprop(∃ f, ptw (F := F) c cc0_scratch7 f) $$ [HR31 H7]
  · rw [← heldBut_empty (F := F) c cc0_scratch7]
    iapply (heldBut_put_only (F := F) c (R3 1))
    isplitl [HR31]
    · iexact HR31
    iexact H7
  icases H7e with ⟨%y7, Hy7⟩
  sl_exec
  -- the sum of the first stream is stored, cast, into the own pair of blocks of the first gather buffer, which is held
  -- without the pair of c xor 3
  ihave H0o := (heldBut_open_D (F := F) c cc0_scratch0 _) $$ H0
  icases H0o with ⟨%g0, H0⟩
  iapply (wp_load Variants.none (c : Thread nD τ) none Set.univ (load_ok_D cc0_scratch0 _ _ (d5_hd0 c))) $$ [H0]
  · iexact H0
  iintro H0
  iapply (wp_store Variants.none (c : Thread nD τ) none Set.univ (store_ok_D cc0_scratch0 _ _ _ (d5_hd0 c))) $$ [H0]
  · iexact H0
  iintro H0
  ihave H0 := (heldBut_intro (F := F) c cc0_scratch0 (VE1 0 (xr 3 c)).view.set _) $$ H0
  sl_exec
  -- and of the second stream into the own pair of the second gather buffer, held without the pair of c xor 4 and
  -- the four blocks of c xor 1
  ihave H1o := (heldBut_open_D (F := F) c cc0_scratch1 _) $$ H1
  icases H1o with ⟨%g1, H1⟩
  iapply (wp_load Variants.none (c : Thread nD τ) none Set.univ (load_ok_D cc0_scratch1 _ _ (d5_hd1 c))) $$ [H1]
  · iexact H1
  iintro H1
  iapply (wp_store Variants.none (c : Thread nD τ) none Set.univ (store_ok_D cc0_scratch1 _ _ _ (d5_hd1 c))) $$ [H1]
  · iexact H1
  iintro H1
  ihave H1 := (heldBut_intro (F := F) c cc0_scratch1 ((VE1 1 (xr 4 c)).view.set ∪ (VE2 1 (xr 1 c)).view.set) _) $$ H1
  rw [wp_ret]
  imodintro
  iexists K
  rw [QD_14_eq, core_eq, posAt_14, localBufs_eq]
  isplitl [Hbar A8 A9 A10 A11 A12 A13 A14 A15 A16 A17 A18 A19 A20 A21 A22 A23 A24 A25 A26 A27 A28 A29 A30 A31 A32 A33 A34 A35 A36 A37 A38 A39 Htoks Hcreds HO Hw0 Hw1 Hw2 Hw3 Hw4 Hw5 Hw6 Hw7 Ha2 Ha3 Hs4e Hs5e Hb8 Hb9]
  · isplitr
    · iexact HI
    isplitr
    · iexact Hr
    isplitr
    · iexact Hlev
    isplitl [Hbar]
    · iexact Hbar
    isplitl [A8 A9 A10 A11 A12 A13 A14 A15 A16 A17 A18 A19 A20 A21 A22 A23 A24 A25 A26 A27 A28 A29 A30 A31 A32 A33 A34 A35 A36 A37 A38 A39]
    · skip
      isplitl [A8]
      · iexact A8
      isplitr
      · iexact P8
      isplitl [A9]
      · iexact A9
      isplitr
      · iexact P9
      isplitl [A10]
      · iexact A10
      isplitr
      · iexact P10
      isplitl [A11]
      · iexact A11
      isplitr
      · iexact P11
      isplitl [A12]
      · iexact A12
      isplitr
      · iexact P12
      isplitl [A13]
      · iexact A13
      isplitr
      · iexact P13
      isplitl [A14]
      · iexact A14
      isplitr
      · iexact P14
      isplitl [A15]
      · iexact A15
      isplitr
      · iexact P15
      isplitl [A16]
      · iexact A16
      isplitr
      · iexact P16
      isplitl [A17]
      · iexact A17
      isplitr
      · iexact P17
      isplitl [A18]
      · iexact A18
      isplitr
      · iexact P18
      isplitl [A19]
      · iexact A19
      isplitr
      · iexact P19
      isplitl [A20]
      · iexact A20
      isplitr
      · iexact P20
      isplitl [A21]
      · iexact A21
      isplitr
      · iexact P21
      isplitl [A22]
      · iexact A22
      isplitr
      · iexact P22'
      isplitl [A23]
      · iexact A23
      isplitr
      · iexact P23
      isplitl [A24]
      · iexact A24
      isplitr
      · iexact P24
      isplitl [A25]
      · iexact A25
      isplitr
      · iexact P25
      isplitl [A26]
      · iexact A26
      isplitr
      · iexact P26
      isplitl [A27]
      · iexact A27
      isplitr
      · iexact P27'
      isplitl [A28]
      · iexact A28
      isplitr
      · iexact P28
      isplitl [A29]
      · iexact A29
      isplitr
      · iexact P29
      isplitl [A30]
      · iexact A30
      isplitr
      · iexact P30
      isplitl [A31]
      · iexact A31
      isplitr
      · iexact P31
      isplitl [A32]
      · iexact A32
      isplitr
      · iexact P32'
      isplitl [A33]
      · iexact A33
      isplitr
      · iexact P33
      isplitl [A34]
      · iexact A34
      isplitr
      · iexact P34
      isplitl [A35]
      · iexact A35
      isplitr
      · iexact P35
      isplitl [A36]
      · iexact A36
      isplitr
      · iexact P36
      isplitl [A37]
      · iexact A37
      isplitr
      · iexact P37'
      isplitl [A38]
      · iexact A38
      isplitr
      · iexact P38
      isplitl [A39]
      · iexact A39
      iexact P39
    isplitl [Htoks]
    · iexact Htoks
    isplitl [Hcreds]
    · iexact Hcreds
    isplitl [HO]
    · iexists _
      iexact HO
    isplitl [Hw0]
    · iexists _
      iexact Hw0
    isplitl [Hw1]
    · iexists _
      iexact Hw1
    isplitl [Hw2]
    · iexists _
      iexact Hw2
    isplitl [Hw3]
    · iexists _
      iexact Hw3
    isplitl [Hw4]
    · iexists _
      iexact Hw4
    isplitl [Hw5]
    · iexists _
      iexact Hw5
    isplitl [Hw6]
    · iexists _
      iexact Hw6
    isplitl [Hw7]
    · iexists _
      iexact Hw7
    isplitl [Ha2]
    · iexists _
      iexact Ha2
    isplitl [Ha3]
    · iexists _
      iexact Ha3
    isplitl [Hs4e]
    · iexact Hs4e
    isplitl [Hs5e]
    · iexact Hs5e
    isplitl [Hb8]
    · iexists _
      iexact Hb8
    iexists _
    iexact Hb9
  isplitl [H0]
  · iexact H0
  isplitl [H1]
  · iexact H1
  isplitl [Hy6]
  · rw [heldBut_empty]
    iexists _
    iexact Hy6
  isplitl [Hy7]
  · rw [heldBut_empty]
    iexists _
    iexact Hy7
  isplitl [Gn2]
  · iexact Gn2
  isplitl [Gd3]
  · rw [grant_eq]
    isplitl [Gd3]
    · iexact Gd3
    iexact Gr3
  iexact Gn1

/-! ## These rest on the standard axioms only -/

/-- info: 'Cert.KernelIdeal.Hand.seg5_ok' depends on axioms: [propext, Classical.choice, Quot.sound] -/
#guard_msgs in #print axioms seg5_ok

end Cert.KernelIdeal.Hand
end
-- ==== Proof.KernelIdeal.Seg6.lean ====
/- Segment 6 of the body: the second and the third exchange of both streams in layer 1.

   Each exchange sends a device's own aligned rows of a gather buffer to the partner across one bit of the index and
   receives the partner's rows into the same buffer. The rows sent are read by the matrix products while the copy is
   in flight, so the copy borrows the left half of their share and the products read through the right half; the wait
   on the send cell brings the left half back. What travels with each copy is the ownership of the device's own slot
   that the partner's next copy to it writes: with the second exchange of stream 0 the receive slot of the third
   reduce step, with that of stream 1 the rows of the first gather buffer that the partner's third exchange fills,
   with the third exchanges the two receive slots of the half-block reduce steps. The waits on the receive cells
   return the rows the partners wrote and the partners' slots for this device's next copies to them. -/
import proofs.«900979_g7700000000000980_dist_mlpseq_tp1d_bs_bs_b256_d256_h512_v7x_i8_bf16_1_alg».proof.Proof.KernelIdeal.Specs
import proofs.«900979_g7700000000000980_dist_mlpseq_tp1d_bs_bs_b256_d256_h512_v7x_i8_bf16_1_alg».proof.Proof.KernelIdeal.Steps
import proofs.«900979_g7700000000000980_dist_mlpseq_tp1d_bs_bs_b256_d256_h512_v7x_i8_bf16_1_alg».proof.Proof.KernelIdeal.QuietLemmas

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig ℕ (Elt F) ℕ UU ℕ

/-! ## Reads through part of a buffer -/

/-- On a whole buffer the elements under a set of indices are that set. -/
private theorem setOn_whole_s6 (b : Ref sig .tc) (M : Finset b.ty.shape.Idx) : (Memref.whole b).view.setOn M = M := by
  show M.map (View.whole b).emb = M
  rw [View.emb_whole]; exact Finset.map_refl

/-- A read through a rectangle lying inside a slice on every axis reads elements of the slice. -/
private theorem load_in_slice (b : Ref sig .tc) {off size off' size' : Fin b.ty.shape.rank → ℕ} {inb inb'}
    (h : ∀ a, off' a ≤ off a ∧ off a + size a ≤ off' a + size' a) :
    (Memref.whole b).view.setOn (Rect.unit off size inb).toLoadRect.set
      ⊆ ((Memref.whole b).slice (Rect.unit off' size' inb') (fun _ => rfl)).view.set := by
  rw [setOn_whole_s6, set_slice_of_whole]
  intro i hi
  rw [Rect.mem_set_unit] at hi ⊢
  intro a
  have h1 := hi a
  have h2 := h a
  omega

/-- The elements of a view at some contents, opened. -/
private theorem ownAt_elim (p : Dev nD) {s : Shape} {e : EltTy} (M : Memref sig .tc .vmem s e) :
    ownAt (F := F) p M ⊢ iprop(∃ f : Buf (Elt F) (M.view.loc (p : Thread nD τ)),
      (M.view.loc (p : Thread nD τ)) ↦[M.view.set]{fullShare} f) := by
  unfold ownAt; exact .rfl

/-- A buffer with nothing away is whole at some contents. -/
private theorem heldBut_open (c : Dev nD) (b : Ref sig .tc) : heldBut (F := F) c b ∅ ⊢ iprop(∃ f, ptw (F := F) c b f) := by
  rw [heldBut_empty]

/-! ## The protocol's steps as the program spells them -/

/-- The copy rule with the partner and the two semaphores as printed, each equal to the protocol's. -/
private theorem send_copy (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-- The wait rule with the semaphore as printed; the waits recorded so far are kept at some set. -/
private theorem wait_copy (c : Dev nD) (j r ι : ℕ) (sW : DmaSem sig) (hsW : sW = dsem j) (hj : j < 40) (hr : r < nRounds j)
    (K : GSem nD τ sig → ℕ) (O : CellTallies nD τ sig ℕ) (W : Waits sig ℕ)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amtDma j r)
    {α : Type} {Q : α → sProp 𝕄} {k : PUnit → Prog (TpuEff nD τ sig (Elt F) Λ₀ .tc) α} :
    iprop(invsAll (F := F) K ∗ cred (tallyAt (dcell c (dsem j)) ι (amtDma j r)) ∗ owes (c : Thread nD τ) O W
        ∗ MayWait (c : Thread nD τ) (.dma (dsem j)) ι O ∗ atPos ER (dcell c (dsem j)) r ∅ 0)
      ⊢ iprop((((∃ W', owes (c : Thread nD τ) O W') ∗ atPos ER (dcell c (dsem j)) (r + 1) ∅ 0
              ∗ reached ER (dcell c (dsem j)) (r + 1) ∗ payDma c j r)
            -∗ wp frame (wpE (defs₀ (F := F)) Variants.none (c : Thread nD τ) none) Set.univ (k ⟨⟩) Q)
          -∗ wp frame (wpE (defs₀ (F := F)) Variants.none (c : Thread nD τ) none) Set.univ
              (.op (.waitDma2 sW src dst hsrc hdst) k) Q) := by
  subst hsW
  iintro Hpre Hk
  iapply (wp_wait_copy c j r ι hj hr K O W (hw_waitDma2 c j r hN)) $$ [Hpre]
  · iexact Hpre
  iintro ⟨HO, Hrest⟩
  iapply Hk
  isplitl [HO]
  · iexists _
    iexact HO
  iexact Hrest

/-! ## Where the rows of this segment lie in the gather buffers

   Each fact is about the eight devices' offsets and is checked device by device. -/

/-- The partner's pair of the second exchange and the far half of the buffer do not meet. -/
private theorem geo_d0a (c : Dev nD) : Disjoint (VE1 0 (xr 3 c)).view.set (VE2 0 (xr 4 c)).view.set :=
  disj_slices cc0_scratch0 0 (by revert c; decide +kernel)
/-- The far half and the device's own pair do not meet. -/
private theorem geo_d0cb (c : Dev nD) : Disjoint (VE2 0 (xr 4 c)).view.set (VE1 0 c).view.set :=
  disj_slices cc0_scratch0 0 (by revert c; decide +kernel)
private theorem geo_d1cb (c : Dev nD) : Disjoint (VE2 1 (xr 1 c)).view.set (VE1 1 c).view.set :=
  disj_slices cc0_scratch1 0 (by revert c; decide +kernel)
private theorem geo_d1ca (c : Dev nD) : Disjoint (VE2 1 (xr 1 c)).view.set (VE1 1 (xr 4 c)).view.set :=
  disj_slices cc0_scratch1 0 (by revert c; decide +kernel)
/-- The first matrix products read the device's own pair of row blocks. -/
private theorem geo_sub7 (c : Dev nD) :
    (Memref.whole cc0_scratch0).view.setOn (Rect.unit (s := S1024x256) (k0_off7 c) S256x256.size (k0_off7_inb c)).toLoadRect.set
      ⊆ (VE1 0 c).view.set := load_in_slice cc0_scratch0 (by revert c; decide +kernel)
private theorem geo_sub8 (c : Dev nD) :
    (Memref.whole cc0_scratch1).view.setOn (Rect.unit (s := S1024x256) (k0_off8 c) S256x256.size (k0_off8_inb c)).toLoadRect.set
      ⊆ (VE1 1 c).view.set := load_in_slice cc0_scratch1 (by revert c; decide +kernel)
/-- The second ones read rows of the device's own half: the pair the second exchange brought. -/
private theorem geo_sub11 (c : Dev nD) :
    (Memref.whole cc0_scratch0).view.setOn (Rect.unit (s := S1024x256) (k0_off11 c) S256x256.size (k0_off11_inb c)).toLoadRect.set
      ⊆ (VE2 0 c).view.set := load_in_slice cc0_scratch0 (by revert c; decide +kernel)
private theorem geo_sub12 (c : Dev nD) :
    (Memref.whole cc0_scratch1).view.setOn (Rect.unit (s := S1024x256) (k0_off12 c) S256x256.size (k0_off12_inb c)).toLoadRect.set
      ⊆ (VE2 1 c).view.set := load_in_slice cc0_scratch1 (by revert c; decide +kernel)

/-! ## What the landings of this segment hand over (the schedule's entries at round 1) -/

private theorem pay9 (c : Dev nD) : payDma (F := F) c 9 1 = ownHalf c (VE1 0 c) := rfl
private theorem pay15 (c : Dev nD) : payDma (F := F) c 15 1 = ownHalf c (VE1 1 c) := rfl
private theorem pay10 (c : Dev nD) : payDma (F := F) c 10 1 = ownHalf c (VE2 0 c) := rfl
private theorem pay16 (c : Dev nD) : payDma (F := F) c 16 1 = ownHalf c (VE2 1 c) := rfl
private theorem pay12 (c : Dev nD) : payDma (F := F) c 12 1
    = iprop(ownAt c (VE1 0 (xr 3 c)) ∗ grant (xr 3 c) (R2 0) (rsR 0 1) 1) := rfl
private theorem pay18 (c : Dev nD) : payDma (F := F) c 18 1
    = iprop(ownAt c (VE1 1 (xr 4 c)) ∗ grant (xr 4 c) (VE2 0 c) (agR 0 2) 1) := rfl
private theorem pay13 (c : Dev nD) : payDma (F := F) c 13 1
    = iprop(ownAt c (VE2 0 (xr 4 c)) ∗ grant (xr 4 c) (R0 0) (rsR 0 0) 1 ∗ grant (xr 4 c) (R1 0) (rsR 0 4) 1) := rfl
private theorem pay19 (c : Dev nD) : payDma (F := F) c 19 1
    = iprop(ownAt c (VE2 1 (xr 1 c)) ∗ grant (xr 1 c) (R0 1) (rsR 1 0) 1 ∗ grant (xr 1 c) (R1 1) (rsR 1 4) 1) := rfl

set_option maxRecDepth 65536 in
set_option maxHeartbeats 4000000 in
theorem seg6_ok (c : Dev nD) : Spec6 (F := F) c := by
  intro v2 v11 v652
  -- which slices of the gather and receive buffers do not meet, and where the matrix products read
  have d0a := geo_d0a c
  have d0b : Disjoint ((VE1 0 (xr 3 c)).view.set ∪ (VE2 0 (xr 4 c)).view.set) (VE1 0 c).view.set :=
    Finset.disjoint_union_left.mpr ⟨(disj_VE1_0 c).symm, geo_d0cb c⟩
  have d1ca := geo_d1ca c
  have d1b : Disjoint ((VE1 1 (xr 4 c)).view.set ∪ (VE2 1 (xr 1 c)).view.set) (VE1 1 c).view.set :=
    Finset.disjoint_union_left.mpr ⟨(disj_VE1_1 c).symm, geo_d1cb c⟩
  have dR2 : Disjoint ((R0 0).view.set ∪ (R1 0).view.set) (R2 0).view.set :=
    Finset.disjoint_union_left.mpr ⟨disj_R0_R2 0, disj_R1_R2 0⟩
  have hS7 := geo_sub7 c
  have hS8 := geo_sub8 c
  have hS11 := geo_sub11 c
  have hS12 := geo_sub12 c
  have hLd : ∀ (b : Ref sig .tc) (r : LoadRect b.ty.shape), (Memref.whole b).view.setOn r.set ⊆ Finset.univ :=
    fun _ _ => Finset.subset_univ _
  have hSt : ∀ (b : Ref sig .tc) (r : Rect b.ty.shape) (Mk : Finset r.shape.Idx),
      ((Memref.whole b).access r).setOn Mk ⊆ Finset.univ := fun _ _ _ => Finset.subset_univ _
  have hroute1 : τ.routes (c : Thread nD τ) (xr 1 c : Thread nD τ) = true := Topo.routes_tc _ _
  have hroute3 : τ.routes (c : Thread nD τ) (xr 3 c : Thread nD τ) = true := Topo.routes_tc _ _
  have hroute4 : τ.routes (c : Thread nD τ) (xr 4 c : Thread nD τ) = true := Topo.routes_tc _ _
  -- what each copy's landing hands the partner, read at the partner
  have hpayR14 : iprop(ownAt (F := F) (xr 3 c) (VE1 0 c) ∗ (ownAt c (R2 0) ∗ reached ER (dcell c (rsR 0 1)) 1)) ⊢ payDma (xr 3 c) 12 1 := by
    show _ ⊢ iprop(ownAt (xr 3 c) (VE1 0 (xr 3 (xr 3 c))) ∗ grant (xr 3 (xr 3 c)) (R2 0) (rsR 0 1) 1)
    rw [xr_xr]; exact .rfl
  have hpayR15 : iprop(ownAt (F := F) (xr 4 c) (VE1 1 c) ∗ (ownAt c (VE2 0 (xr 4 c)) ∗ reached ER (dcell c (agR 0 2)) 1)) ⊢ payDma (xr 4 c) 18 1 := by
    show _ ⊢ iprop(ownAt (xr 4 c) (VE1 1 (xr 4 (xr 4 c))) ∗ grant (xr 4 (xr 4 c)) (VE2 0 (xr 4 c)) (agR 0 2) 1)
    rw [xr_xr]; exact .rfl
  have hpayR16 : iprop(ownAt (F := F) (xr 4 c) (VE2 0 c) ∗ ((ownAt c (R0 0) ∗ reached ER (dcell c (rsR 0 0)) 1)
      ∗ (ownAt c (R1 0) ∗ reached ER (dcell c (rsR 0 4)) 1))) ⊢ payDma (xr 4 c) 13 1 := by
    show _ ⊢ iprop(ownAt (xr 4 c) (VE2 0 (xr 4 (xr 4 c))) ∗ grant (xr 4 (xr 4 c)) (R0 0) (rsR 0 0) 1 ∗ grant (xr 4 (xr 4 c)) (R1 0) (rsR 0 4) 1)
    rw [xr_xr]; exact .rfl
  have hpayR17 : iprop(ownAt (F := F) (xr 1 c) (VE2 1 c) ∗ ((ownAt c (R0 1) ∗ reached ER (dcell c (rsR 1 0)) 1)
      ∗ (ownAt c (R1 1) ∗ reached ER (dcell c (rsR 1 4)) 1))) ⊢ payDma (xr 1 c) 19 1 := by
    show _ ⊢ iprop(ownAt (xr 1 c) (VE2 1 (xr 1 (xr 1 c))) ∗ grant (xr 1 (xr 1 c)) (R0 1) (rsR 1 0) 1 ∗ grant (xr 1 (xr 1 c)) (R1 1) (rsR 1 4) 1)
    rw [xr_xr]; exact .rfl
  -- the state at the quiet point
  refine exists_elim fun K => ?_
  rw [QD_14_eq, core_eq, posAt_14, toks_seg_14, creds_seg_14, localBufs_eq, grant_eq, grant_eq, grant_eq]
  iintro ⟨⟨#HI, #HR, #Hlev, HatB, ⟨Ha8, #Hr8, Ha9, #Hr9, Ha10, #Hr10, Ha11, #Hr11, Ha12, #Hr12, Ha13, #Hr13, Ha14, #Hr14, Ha15, #Hr15, Ha16, #Hr16, Ha17, #Hr17, Ha18, #Hr18, Ha19, #Hr19, Ha20, #Hr20, Ha21, #Hr21, Ha22, #Hr22, Ha23, #Hr23, Ha24, #Hr24, Ha25, #Hr25, Ha26, #Hr26, Ha27, #Hr27, Ha28, #Hr28, Ha29, #Hr29, Ha30, #Hr30, Ha31, #Hr31, Ha32, #Hr32, Ha33, #Hr33, Ha34, #Hr34, Ha35, #Hr35, Ha36, #Hr36, Ha37, #Hr37, Ha38, #Hr38, Ha39, #Hr39⟩, ⟨⟨Ht9, Ht12⟩, ⟨Ht15, Ht18⟩, ⟨Ht10, Ht13⟩, ⟨Ht16, Ht19⟩, Htoks⟩, ⟨Hc12, Hc18, Hc13, Hc19, Hcreds⟩, ⟨%W, HO⟩, ⟨⟨%fw0, Hw0⟩, ⟨%fw1, Hw1⟩, ⟨%fw2, Hw2⟩, ⟨%fw3, Hw3⟩, ⟨%fw4, Hw4⟩, ⟨%fw5, Hw5⟩, ⟨%fw6, Hw6⟩, ⟨%fw7, Hw7⟩, ⟨%fa0, Hacc0⟩, ⟨%fa1, Hacc1⟩, ⟨%fs0, Hsnd0⟩, ⟨%fs1, Hsnd1⟩, ⟨%fb0, Hwt0⟩, ⟨%fb1, Hwt1⟩⟩⟩, Hs0, Hs1, Hs6, Hs7, ⟨Hd3, #Hrp3⟩, ⟨Hd4, #Hrp4⟩, ⟨Hd1, #Hrp1⟩⟩
  -- the slots this device hands over in this segment leave the receive buffers and the first gather buffer;
  -- the rows it sends in the second exchange leave the gather buffers, half of their share staying here
  icases (heldBut_take_view_empty (F := F) c (R0 0)).1 $$ Hs6 with ⟨HR00, Hs6⟩
  icases (heldBut_take_view (F := F) c (R1 0) _ (disj_R0_R1 0)).1 $$ Hs6 with ⟨HR10, Hs6⟩
  icases (heldBut_take_view (F := F) c (R2 0) _ dR2).1 $$ Hs6 with ⟨HR20, Hs6⟩
  icases (heldBut_take_view_empty (F := F) c (R0 1)).1 $$ Hs7 with ⟨HR01, Hs7⟩
  icases (heldBut_take_view (F := F) c (R1 1) _ (disj_R0_R1 1)).1 $$ Hs7 with ⟨HR11, Hs7⟩
  icases (heldBut_take_view (F := F) c (VE2 0 (xr 4 c)) _ d0a).1 $$ Hs0 with ⟨HC0, Hs0⟩
  icases (heldBut_take_view (F := F) c (VE1 0 c) _ d0b).1 $$ Hs0 with ⟨HB0, Hs0⟩
  icases (ownAt_elim (F := F) c (VE1 0 c)) $$ HB0 with ⟨%f0, Hsrc0⟩
  icases (halves_split (F := F) f0).1 $$ Hsrc0 with ⟨HsrcL0, HsrcR0⟩
  icases (heldBut_take_view (F := F) c (VE1 1 c) _ d1b).1 $$ Hs1 with ⟨HB1, Hs1⟩
  icases (ownAt_elim (F := F) c (VE1 1 c)) $$ HB1 with ⟨%f1, Hsrc1⟩
  icases (halves_split (F := F) f1).1 $$ Hsrc1 with ⟨HsrcL1, HsrcR1⟩
  -- the program as a chain of operations
  unfold seg6
  rw [k0_part22_eq_skeleton, k0_part23_eq_skeleton, k0_part24_eq_skeleton, k0_part25_eq_skeleton, k0_part26_eq_skeleton]
  unfold k0_part22_skel k0_part23_skel k0_part24_skel k0_part25_skel k0_part26_skel
  simp only [Prog.lift, Prog.bind_op, Prog.bind_ret, Prog.pure_eq_ret, Prog.bind_assoc]
  -- the second exchange of stream 0, to the partner across bits 0 and 1; with it the receive slot of the third reduce step
  iapply (send_copy (F := F) c (xr 3 c) _ (dev18_eq c) (VE1 0 c) (VE1 0 c) 9 12 1 15 _ _ sem_ag0s_1 sem_ag0r_1
      (by decide) (by decide) (by decide) (by decide) ((credit_VE1 0 c).trans rfl) rfl
      (iprop(ownAt c (R2 0) ∗ reached ER (dcell c (rsR 0 1)) 1)) fullShare.left f0
      (ownHalf_of c (VE1 0 c) f0) hpayR14 K (owedFrom c 15) (owedFrom_succ c 14 (3, 12, 1) rfl) W hroute3) $$ [HsrcL0 Hd3 HR20 HO Ht9 Ht12]
  · isplitr
    · iexact HI
    isplitl [HsrcL0]
    · iexact HsrcL0
    isplitl [Hd3]
    · iexact Hd3
    isplitl [HR20]
    · isplitl [HR20]
      · iexact HR20
      iexact Hr26
    isplitl [HO]
    · iexact HO
    isplitl [Ht9]
    · iexact Ht9
    isplitr
    · iexact Hr9
    isplitl [Ht12]
    · iexact Ht12
    iexact Hrp3
  iintro ⟨Hcs9, HO⟩
  -- the second exchange of stream 1, to the partner across bit 2; with it the rows of the first gather buffer that
  -- partner's third exchange fills
  iapply (send_copy (F := F) c (xr 4 c) _ (dev19_eq c) (VE1 1 c) (VE1 1 c) 15 18 1 16 _ _ sem_ag1s_1 sem_ag1r_1
      (by decide) (by decide) (by decide) (by decide) ((credit_VE1 1 c).trans rfl) rfl
      (iprop(ownAt c (VE2 0 (xr 4 c)) ∗ reached ER (dcell c (agR 0 2)) 1)) fullShare.left f1
      (ownHalf_of c (VE1 1 c) f1) hpayR15 K (owedFrom c 16) (owedFrom_succ c 15 (4, 18, 1) rfl) W hroute4) $$ [HsrcL1 Hd4 HC0 HO Ht15 Ht18]
  · isplitr
    · iexact HI
    isplitl [HsrcL1]
    · iexact HsrcL1
    isplitl [Hd4]
    · iexact Hd4
    isplitl [HC0]
    · isplitl [HC0]
      · iexact HC0
      iexact Hr13
    isplitl [HO]
    · iexact HO
    isplitl [Ht15]
    · iexact Ht15
    isplitr
    · iexact Hr15
    isplitl [Ht18]
    · iexact Ht18
    iexact Hrp4
  iintro ⟨Hcs15, HO⟩
  -- the matrix products on the device's own rows, read through the half of the share that stayed
  iapply (wp_load Variants.none (c : Thread nD τ) none Set.univ hS7) $$ [HsrcR0]
  · iexact HsrcR0
  iintro HsrcR0
  iapply (wp_load Variants.none (c : Thread nD τ) none Set.univ (hLd cc0_scratch8 _)) $$ [Hwt0]
  · iexact Hwt0
  iintro Hwt0
  iapply (wp_load Variants.none (c : Thread nD τ) none Set.univ (hLd cc0_scratch9 _)) $$ [Hwt1]
  · iexact Hwt1
  iintro Hwt1
  iapply (wp_load Variants.none (c : Thread nD τ) none Set.univ (hLd cc0_scratch2 _)) $$ [Hacc0]
  · iexact Hacc0
  iintro Hacc0
  iapply (wp_store Variants.none (c : Thread nD τ) none Set.univ (hSt cc0_scratch2 _ _)) $$ [Hacc0]
  · iexact Hacc0
  iintro Hacc0
  iapply (wp_load Variants.none (c : Thread nD τ) none Set.univ hS8) $$ [HsrcR1]
  · iexact HsrcR1
  iintro HsrcR1
  iapply (wp_load Variants.none (c : Thread nD τ) none Set.univ (hLd cc0_scratch8 _)) $$ [Hwt0]
  · iexact Hwt0
  iintro Hwt0
  iapply (wp_load Variants.none (c : Thread nD τ) none Set.univ (hLd cc0_scratch9 _)) $$ [Hwt1]
  · iexact Hwt1
  iintro Hwt1
  iapply (wp_load Variants.none (c : Thread nD τ) none Set.univ (hLd cc0_scratch3 _)) $$ [Hacc1]
  · iexact Hacc1
  iintro Hacc1
  iapply (wp_store Variants.none (c : Thread nD τ) none Set.univ (hSt cc0_scratch3 _ _)) $$ [Hacc1]
  · iexact Hacc1
  iintro Hacc1
  -- the waits of the second exchange: the lent halves come back, the partners' rows arrive with the partners' slots
  ihave Hmw := (mayWait_copy (F := F) c (dsem 9) 14 16 (by omega) (by omega)) $$ Hlev
  iapply (wait_copy (F := F) c 9 1 15 _ sem_ag0s_1 (by decide) (by decide) K (owedFrom c 16) W ((credit_VE1 0 c).trans rfl)) $$ [Hcs9 HO Hmw Ha9]
  · isplitr
    · iexact HI
    isplitl [Hcs9]
    · iexact Hcs9
    isplitl [HO]
    · iexact HO
    isplitl [Hmw]
    · iexact Hmw
    iexact Ha9
  rw [pay9]
  iintro ⟨⟨%W9, HO⟩, Ha9, #Hr9b, Hp9⟩
  ihave Hfull := (ownHalf_join (F := F) c (VE1 0 c) f0) $$ [Hp9 HsrcR0]
  · isplitl [Hp9]
    · iexact Hp9
    iexact HsrcR0
  ihave Hown := (ownAt_of (F := F) c (VE1 0 c) f0) $$ Hfull
  ihave Hs0 := (heldBut_put_right (F := F) c (VE1 0 c) _ d0b) $$ [Hown Hs0]
  · isplitl [Hown]
    · iexact Hown
    iexact Hs0
  ihave Hmw := (mayWait_copy (F := F) c (dsem 12) 14 16 (by omega) (by omega)) $$ Hlev
  iapply (wait_copy (F := F) c 12 1 15 _ sem_ag0r_1 (by decide) (by decide) K (owedFrom c 16) W9 ((credit_VE1 0 c).trans rfl)) $$ [Hc12 HO Hmw Ha12]
  · isplitr
    · iexact HI
    isplitl [Hc12]
    · iexact Hc12
    isplitl [HO]
    · iexact HO
    isplitl [Hmw]
    · iexact Hmw
    iexact Ha12
  rw [pay12]
  iintro ⟨⟨%W12, HO⟩, Ha12, #Hr12b, ⟨Hb3, Hg3n⟩⟩
  ihave Hs0 := (heldBut_put_left (F := F) c (VE1 0 (xr 3 c)) _ d0a.symm) $$ [Hb3 Hs0]
  · isplitl [Hb3]
    · iexact Hb3
    iexact Hs0
  ihave Hmw := (mayWait_copy (F := F) c (dsem 15) 15 16 (by omega) (by omega)) $$ Hlev
  iapply (wait_copy (F := F) c 15 1 16 _ sem_ag1s_1 (by decide) (by decide) K (owedFrom c 16) W12 ((credit_VE1 1 c).trans rfl)) $$ [Hcs15 HO Hmw Ha15]
  · isplitr
    · iexact HI
    isplitl [Hcs15]
    · iexact Hcs15
    isplitl [HO]
    · iexact HO
    isplitl [Hmw]
    · iexact Hmw
    iexact Ha15
  rw [pay15]
  iintro ⟨⟨%W15, HO⟩, Ha15, #Hr15b, Hp15⟩
  ihave Hfull := (ownHalf_join (F := F) c (VE1 1 c) f1) $$ [Hp15 HsrcR1]
  · isplitl [Hp15]
    · iexact Hp15
    iexact HsrcR1
  ihave Hown := (ownAt_of (F := F) c (VE1 1 c) f1) $$ Hfull
  ihave Hs1 := (heldBut_put_right (F := F) c (VE1 1 c) _ d1b) $$ [Hown Hs1]
  · isplitl [Hown]
    · iexact Hown
    iexact Hs1
  ihave Hmw := (mayWait_copy (F := F) c (dsem 18) 15 16 (by omega) (by omega)) $$ Hlev
  iapply (wait_copy (F := F) c 18 1 16 _ sem_ag1r_1 (by decide) (by decide) K (owedFrom c 16) W15 ((credit_VE1 1 c).trans rfl)) $$ [Hc18 HO Hmw Ha18]
  · isplitr
    · iexact HI
    isplitl [Hc18]
    · iexact Hc18
    isplitl [HO]
    · iexact HO
    isplitl [Hmw]
    · iexact Hmw
    iexact Ha18
  rw [pay18, grant_eq (xr 4 c) (VE2 0 c) (agR 0 2) 1]
  iintro ⟨⟨%W18, HO⟩, Ha18, #Hr18b, ⟨Hb4, ⟨Hd4n, #Hrp4n⟩⟩⟩
  ihave Hs1 := (heldBut_put_left (F := F) c (VE1 1 (xr 4 c)) _ d1ca) $$ [Hb4 Hs1]
  · isplitl [Hb4]
    · iexact Hb4
    iexact Hs1
  -- the third exchange of stream 0, to the partner across bit 2: the aligned four blocks, half of their share lent;
  -- with it the two receive slots of the half-block reduce steps
  icases (heldBut_take_view (F := F) c (VE2 0 c) _ (disj_VE2_0 c).symm).1 $$ Hs0 with ⟨HB0, Hs0⟩
  icases (ownAt_elim (F := F) c (VE2 0 c)) $$ HB0 with ⟨%g0, Hsrc0⟩
  icases (halves_split (F := F) g0).1 $$ Hsrc0 with ⟨HsrcL0, HsrcR0⟩
  iapply (send_copy (F := F) c (xr 4 c) _ (dev20_eq c) (VE2 0 c) (VE2 0 c) 10 13 1 17 _ _ sem_ag0s_2 sem_ag0r_2
      (by decide) (by decide) (by decide) (by decide) ((credit_VE2 0 c).trans rfl) rfl
      (iprop((ownAt c (R0 0) ∗ reached ER (dcell c (rsR 0 0)) 1) ∗ (ownAt c (R1 0) ∗ reached ER (dcell c (rsR 0 4)) 1))) fullShare.left g0
      (ownHalf_of c (VE2 0 c) g0) hpayR16 K (owedFrom c 17) (owedFrom_succ c 16 (4, 13, 1) rfl) W18 hroute4) $$ [HsrcL0 Hd4n HR00 HR10 HO Ht10 Ht13]
  · isplitr
    · iexact HI
    isplitl [HsrcL0]
    · iexact HsrcL0
    isplitl [Hd4n]
    · iexact Hd4n
    isplitl [HR00 HR10]
    · isplitl [HR00]
      · isplitl [HR00]
        · iexact HR00
        iexact Hr25
      isplitl [HR10]
      · iexact HR10
      iexact Hr29
    isplitl [HO]
    · iexact HO
    isplitl [Ht10]
    · iexact Ht10
    isplitr
    · iexact Hr10
    isplitl [Ht13]
    · iexact Ht13
    iexact Hrp4n
  iintro ⟨Hcs10, HO⟩
  -- the third exchange of stream 1, to the partner across bit 0
  icases (heldBut_take_view (F := F) c (VE2 1 c) _ (disj_VE2_1 c).symm).1 $$ Hs1 with ⟨HB1, Hs1⟩
  icases (ownAt_elim (F := F) c (VE2 1 c)) $$ HB1 with ⟨%g1, Hsrc1⟩
  icases (halves_split (F := F) g1).1 $$ Hsrc1 with ⟨HsrcL1, HsrcR1⟩
  iapply (send_copy (F := F) c (xr 1 c) _ (dev21_eq c) (VE2 1 c) (VE2 1 c) 16 19 1 18 _ _ sem_ag1s_2 sem_ag1r_2
      (by decide) (by decide) (by decide) (by decide) ((credit_VE2 1 c).trans rfl) rfl
      (iprop((ownAt c (R0 1) ∗ reached ER (dcell c (rsR 1 0)) 1) ∗ (ownAt c (R1 1) ∗ reached ER (dcell c (rsR 1 4)) 1))) fullShare.left g1
      (ownHalf_of c (VE2 1 c) g1) hpayR17 K (owedFrom c 18) (owedFrom_succ c 17 (1, 19, 1) rfl) W18 hroute1) $$ [HsrcL1 Hd1 HR01 HR11 HO Ht16 Ht19]
  · isplitr
    · iexact HI
    isplitl [HsrcL1]
    · iexact HsrcL1
    isplitl [Hd1]
    · iexact Hd1
    isplitl [HR01 HR11]
    · isplitl [HR01]
      · isplitl [HR01]
        · iexact HR01
        iexact Hr35
      isplitl [HR11]
      · iexact HR11
      iexact Hr39
    isplitl [HO]
    · iexact HO
    isplitl [Ht16]
    · iexact Ht16
    isplitr
    · iexact Hr16
    isplitl [Ht19]
    · iexact Ht19
    iexact Hrp1
  iintro ⟨Hcs16, HO⟩
  -- the matrix products on the rows the second exchange brought, read through the half that stayed
  iapply (wp_load Variants.none (c : Thread nD τ) none Set.univ hS11) $$ [HsrcR0]
  · iexact HsrcR0
  iintro HsrcR0
  iapply (wp_load Variants.none (c : Thread nD τ) none Set.univ (hLd cc0_scratch8 _)) $$ [Hwt0]
  · iexact Hwt0
  iintro Hwt0
  iapply (wp_load Variants.none (c : Thread nD τ) none Set.univ (hLd cc0_scratch9 _)) $$ [Hwt1]
  · iexact Hwt1
  iintro Hwt1
  iapply (wp_load Variants.none (c : Thread nD τ) none Set.univ (hLd cc0_scratch2 _)) $$ [Hacc0]
  · iexact Hacc0
  iintro Hacc0
  iapply (wp_store Variants.none (c : Thread nD τ) none Set.univ (hSt cc0_scratch2 _ _)) $$ [Hacc0]
  · iexact Hacc0
  iintro Hacc0
  iapply (wp_load Variants.none (c : Thread nD τ) none Set.univ hS12) $$ [HsrcR1]
  · iexact HsrcR1
  iintro HsrcR1
  iapply (wp_load Variants.none (c : Thread nD τ) none Set.univ (hLd cc0_scratch8 _)) $$ [Hwt0]
  · iexact Hwt0
  iintro Hwt0
  iapply (wp_load Variants.none (c : Thread nD τ) none Set.univ (hLd cc0_scratch9 _)) $$ [Hwt1]
  · iexact Hwt1
  iintro Hwt1
  iapply (wp_load Variants.none (c : Thread nD τ) none Set.univ (hLd cc0_scratch3 _)) $$ [Hacc1]
  · iexact Hacc1
  iintro Hacc1
  iapply (wp_store Variants.none (c : Thread nD τ) none Set.univ (hSt cc0_scratch3 _ _)) $$ [Hacc1]
  · iexact Hacc1
  iintro Hacc1
  -- the waits of the third exchange
  ihave Hmw := (mayWait_copy (F := F) c (dsem 10) 16 18 (by omega) (by omega)) $$ Hlev
  iapply (wait_copy (F := F) c 10 1 17 _ sem_ag0s_2 (by decide) (by decide) K (owedFrom c 18) W18 ((credit_VE2 0 c).trans rfl)) $$ [Hcs10 HO Hmw Ha10]
  · isplitr
    · iexact HI
    isplitl [Hcs10]
    · iexact Hcs10
    isplitl [HO]
    · iexact HO
    isplitl [Hmw]
    · iexact Hmw
    iexact Ha10
  rw [pay10]
  iintro ⟨⟨%W10, HO⟩, Ha10, #Hr10b, Hp10⟩
  ihave Hfull := (ownHalf_join (F := F) c (VE2 0 c) g0) $$ [Hp10 HsrcR0]
  · isplitl [Hp10]
    · iexact Hp10
    iexact HsrcR0
  ihave Hown := (ownAt_of (F := F) c (VE2 0 c) g0) $$ Hfull
  ihave Hs0 := (heldBut_put_right (F := F) c (VE2 0 c) _ (disj_VE2_0 c).symm) $$ [Hown Hs0]
  · isplitl [Hown]
    · iexact Hown
    iexact Hs0
  ihave Hmw := (mayWait_copy (F := F) c (dsem 13) 16 18 (by omega) (by omega)) $$ Hlev
  iapply (wait_copy (F := F) c 13 1 17 _ sem_ag0r_2 (by decide) (by decide) K (owedFrom c 18) W10 ((credit_VE2 0 c).trans rfl)) $$ [Hc13 HO Hmw Ha13]
  · isplitr
    · iexact HI
    isplitl [Hc13]
    · iexact Hc13
    isplitl [HO]
    · iexact HO
    isplitl [Hmw]
    · iexact Hmw
    iexact Ha13
  rw [pay13]
  iintro ⟨⟨%W13, HO⟩, Ha13, #Hr13b, ⟨Hb13, Hgf0, Hgf1⟩⟩
  ihave Hs0 := (heldBut_put_only (F := F) c (VE2 0 (xr 4 c))) $$ [Hb13 Hs0]
  · isplitl [Hb13]
    · iexact Hb13
    iexact Hs0
  ihave Hmw := (mayWait_copy (F := F) c (dsem 16) 17 18 (by omega) (by omega)) $$ Hlev
  iapply (wait_copy (F := F) c 16 1 18 _ sem_ag1s_2 (by decide) (by decide) K (owedFrom c 18) W13 ((credit_VE2 1 c).trans rfl)) $$ [Hcs16 HO Hmw Ha16]
  · isplitr
    · iexact HI
    isplitl [Hcs16]
    · iexact Hcs16
    isplitl [HO]
    · iexact HO
    isplitl [Hmw]
    · iexact Hmw
    iexact Ha16
  rw [pay16]
  iintro ⟨⟨%W16, HO⟩, Ha16, #Hr16b, Hp16⟩
  ihave Hfull := (ownHalf_join (F := F) c (VE2 1 c) g1) $$ [Hp16 HsrcR1]
  · isplitl [Hp16]
    · iexact Hp16
    iexact HsrcR1
  ihave Hown := (ownAt_of (F := F) c (VE2 1 c) g1) $$ Hfull
  ihave Hs1 := (heldBut_put_right (F := F) c (VE2 1 c) _ (disj_VE2_1 c).symm) $$ [Hown Hs1]
  · isplitl [Hown]
    · iexact Hown
    iexact Hs1
  ihave Hmw := (mayWait_copy (F := F) c (dsem 19) 17 18 (by omega) (by omega)) $$ Hlev
  iapply (wait_copy (F := F) c 19 1 18 _ sem_ag1r_2 (by decide) (by decide) K (owedFrom c 18) W16 ((credit_VE2 1 c).trans rfl)) $$ [Hc19 HO Hmw Ha19]
  · isplitr
    · iexact HI
    isplitl [Hc19]
    · iexact Hc19
    isplitl [HO]
    · iexact HO
    isplitl [Hmw]
    · iexact Hmw
    iexact Ha19
  rw [pay19]
  iintro ⟨⟨%W19, HO⟩, Ha19, #Hr19b, ⟨Hb19, Hgh0, Hgh1⟩⟩
  ihave Hs1 := (heldBut_put_only (F := F) c (VE2 1 (xr 1 c))) $$ [Hb19 Hs1]
  · isplitl [Hb19]
    · iexact Hb19
    iexact Hs1
  -- the first gather buffer is whole again: the last read of the segment
  icases (heldBut_open (F := F) c cc0_scratch0) $$ Hs0 with ⟨%e0, Hs0⟩
  iapply (wp_load Variants.none (c : Thread nD τ) none Set.univ (hLd cc0_scratch0 _)) $$ [Hs0]
  · iexact Hs0
  iintro Hs0
  ihave Hs0 := (heldBut_of_whole (F := F) c cc0_scratch0 e0) $$ Hs0
  -- the state at the next quiet point
  rw [wp_ret]
  imodintro
  iexists K
  rw [QE2_eq, core_eq, posAt_18, localBufs_eq]
  isplitl [HatB Ha8 Ha9 Ha10 Ha11 Ha12 Ha13 Ha14 Ha15 Ha16 Ha17 Ha18 Ha19 Ha20 Ha21 Ha22 Ha23 Ha24 Ha25 Ha26 Ha27 Ha28 Ha29 Ha30 Ha31 Ha32 Ha33 Ha34 Ha35 Ha36 Ha37 Ha38 Ha39 Htoks Hcreds HO Hw0 Hw1 Hw2 Hw3 Hw4 Hw5 Hw6 Hw7 Hacc0 Hacc1 Hsnd0 Hsnd1 Hwt0 Hwt1]
  · isplitr
    · iexact HI
    isplitr
    · iexact HR
    isplitr
    · iexact Hlev
    isplitl [HatB]
    · iexact HatB
    isplitl [Ha8 Ha9 Ha10 Ha11 Ha12 Ha13 Ha14 Ha15 Ha16 Ha17 Ha18 Ha19 Ha20 Ha21 Ha22 Ha23 Ha24 Ha25 Ha26 Ha27 Ha28 Ha29 Ha30 Ha31 Ha32 Ha33 Ha34 Ha35 Ha36 Ha37 Ha38 Ha39]
    · skip
      isplitl [Ha8]
      · iexact Ha8
      isplitr
      · iexact Hr8
      isplitl [Ha9]
      · iexact Ha9
      isplitr
      · iexact Hr9b
      isplitl [Ha10]
      · iexact Ha10
      isplitr
      · iexact Hr10b
      isplitl [Ha11]
      · iexact Ha11
      isplitr
      · iexact Hr11
      isplitl [Ha12]
      · iexact Ha12
      isplitr
      · iexact Hr12b
      isplitl [Ha13]
      · iexact Ha13
      isplitr
      · iexact Hr13b
      isplitl [Ha14]
      · iexact Ha14
      isplitr
      · iexact Hr14
      isplitl [Ha15]
      · iexact Ha15
      isplitr
      · iexact Hr15b
      isplitl [Ha16]
      · iexact Ha16
      isplitr
      · iexact Hr16b
      isplitl [Ha17]
      · iexact Ha17
      isplitr
      · iexact Hr17
      isplitl [Ha18]
      · iexact Ha18
      isplitr
      · iexact Hr18b
      isplitl [Ha19]
      · iexact Ha19
      isplitr
      · iexact Hr19b
      isplitl [Ha20]
      · iexact Ha20
      isplitr
      · iexact Hr20
      isplitl [Ha21]
      · iexact Ha21
      isplitr
      · iexact Hr21
      isplitl [Ha22]
      · iexact Ha22
      isplitr
      · iexact Hr22
      isplitl [Ha23]
      · iexact Ha23
      isplitr
      · iexact Hr23
      isplitl [Ha24]
      · iexact Ha24
      isplitr
      · iexact Hr24
      isplitl [Ha25]
      · iexact Ha25
      isplitr
      · iexact Hr25
      isplitl [Ha26]
      · iexact Ha26
      isplitr
      · iexact Hr26
      isplitl [Ha27]
      · iexact Ha27
      isplitr
      · iexact Hr27
      isplitl [Ha28]
      · iexact Ha28
      isplitr
      · iexact Hr28
      isplitl [Ha29]
      · iexact Ha29
      isplitr
      · iexact Hr29
      isplitl [Ha30]
      · iexact Ha30
      isplitr
      · iexact Hr30
      isplitl [Ha31]
      · iexact Ha31
      isplitr
      · iexact Hr31
      isplitl [Ha32]
      · iexact Ha32
      isplitr
      · iexact Hr32
      isplitl [Ha33]
      · iexact Ha33
      isplitr
      · iexact Hr33
      isplitl [Ha34]
      · iexact Ha34
      isplitr
      · iexact Hr34
      isplitl [Ha35]
      · iexact Ha35
      isplitr
      · iexact Hr35
      isplitl [Ha36]
      · iexact Ha36
      isplitr
      · iexact Hr36
      isplitl [Ha37]
      · iexact Ha37
      isplitr
      · iexact Hr37
      isplitl [Ha38]
      · iexact Ha38
      isplitr
      · iexact Hr38
      isplitl [Ha39]
      · iexact Ha39
      iexact Hr39
    isplitl [Htoks]
    · iexact Htoks
    isplitl [Hcreds]
    · iexact Hcreds
    isplitl [HO]
    · iexists _
      iexact HO
    isplitl [Hw0]
    · iexists _
      iexact Hw0
    isplitl [Hw1]
    · iexists _
      iexact Hw1
    isplitl [Hw2]
    · iexists _
      iexact Hw2
    isplitl [Hw3]
    · iexists _
      iexact Hw3
    isplitl [Hw4]
    · iexists _
      iexact Hw4
    isplitl [Hw5]
    · iexists _
      iexact Hw5
    isplitl [Hw6]
    · iexists _
      iexact Hw6
    isplitl [Hw7]
    · iexists _
      iexact Hw7
    isplitl [Hacc0]
    · iexists _
      iexact Hacc0
    isplitl [Hacc1]
    · iexists _
      iexact Hacc1
    isplitl [Hsnd0]
    · iexists _
      iexact Hsnd0
    isplitl [Hsnd1]
    · iexists _
      iexact Hsnd1
    isplitl [Hwt0]
    · iexists _
      iexact Hwt0
    iexists _
    iexact Hwt1
  isplitl [Hs0]
  · iexact Hs0
  isplitl [Hs1]
  · iexact Hs1
  isplitl [Hs6]
  · iexact Hs6
  isplitl [Hs7]
  · iexact Hs7
  isplitl [Hgf0]
  · iexact Hgf0
  isplitl [Hgh0]
  · iexact Hgh0
  isplitl [Hgf1]
  · iexact Hgf1
  isplitl [Hgh1]
  · iexact Hgh1
  iexact Hg3n

/-- info: 'Cert.KernelIdeal.Hand.seg6_ok' depends on axioms: [propext, Classical.choice, Quot.sound] -/
#guard_msgs in #print axioms seg6_ok

end Cert.KernelIdeal.Hand

end
-- ==== Proof.KernelIdeal.SegAB7.lean ====
/- The two half-block steps of the reduce in the second layer: the argument of segment 3 at this layer's round, the slot handed over with the
   last of the four copies being this layer's slot of the last reduce step. -/
import proofs.«900979_g7700000000000980_dist_mlpseq_tp1d_bs_bs_b256_d256_h512_v7x_i8_bf16_1_alg».proof.Proof.KernelIdeal.SegAB

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open AB

variable {F : FTy → Type} [FloatOps F]

local notation "𝕄" => MT nD τ sig ℕ (Elt F) ℕ UU ℕ

set_option maxHeartbeats 4000000 in
theorem seg7_ok (c : Dev nD) : Spec7 (F := F) c := by
  intro v2 v678 v681 v811 v815 v818
  -- what the local loads and stores need of the buffers held by parts
  have hin4 : (Memref.whole cc0_scratch4).view.setOn (Rect.unit (s := S512x256) ![256, 0] S256x256.size inb_S512x256_S256x256_256_0).set
      ⊆ (Finset.univ \ (SA 0).view.set : Finset (Idx ((SA 0).view.loc (c : Thread nD τ)))) := sndB_off_A 0
  have hin5 : (Memref.whole cc0_scratch5).view.setOn (Rect.unit (s := S512x256) ![256, 0] S256x256.size inb_S512x256_S256x256_256_0).set
      ⊆ (Finset.univ \ (SA 1).view.set : Finset (Idx ((SA 1).view.loc (c : Thread nD τ)))) := sndB_off_A 1
  have hR00 : (Memref.whole cc0_scratch6).view.setOn (Rect.unit (s := S1280x256) ![0, 0] S256x256.size inb_S1280x256_S256x256_0_0).set
      ⊆ (R0 0).view.set := (setOn_slice_eq cc0_scratch6 _ (fun _ => rfl)).subset
  have hR01 : (Memref.whole cc0_scratch7).view.setOn (Rect.unit (s := S1280x256) ![0, 0] S256x256.size inb_S1280x256_S256x256_0_0).set
      ⊆ (R0 1).view.set := (setOn_slice_eq cc0_scratch7 _ (fun _ => rfl)).subset
  have hR10 : (Memref.whole cc0_scratch6).view.setOn (Rect.unit (s := S1280x256) ![256, 0] S256x256.size inb_S1280x256_S256x256_256_0).set
      ⊆ (R1 0).view.set := (setOn_slice_eq cc0_scratch6 _ (fun _ => rfl)).subset
  have hR11 : (Memref.whole cc0_scratch7).view.setOn (Rect.unit (s := S1280x256) ![256, 0] S256x256.size inb_S1280x256_S256x256_256_0).set
      ⊆ (R1 1).view.set := (setOn_slice_eq cc0_scratch7 _ (fun _ => rfl)).subset
  have hst4 : ((Memref.whole cc0_scratch4).access (Rect.unit (s := S512x256) ![256, 0] S256x256.size inb_S512x256_S256x256_256_0)).setOn Finset.univ
      ⊆ (Finset.univ \ (SA 0).view.set : Finset (Idx ((SA 0).view.loc (c : Thread nD τ)))) := sndB_store_off_A 0
  have hst5 : ((Memref.whole cc0_scratch5).access (Rect.unit (s := S512x256) ![256, 0] S256x256.size inb_S512x256_S256x256_256_0)).setOn Finset.univ
      ⊆ (Finset.univ \ (SA 1).view.set : Finset (Idx ((SA 1).view.loc (c : Thread nD τ)))) := sndB_store_off_A 1
  have hdX : Disjoint ((R0 0).view.set ∪ (R1 0).view.set ∪ (R2 0).view.set) (R4 0).view.set :=
    Finset.disjoint_union_left.mpr ⟨Finset.disjoint_union_left.mpr ⟨disj_R0_R4 0, disj_R1_R4 0⟩, disj_R2_R4 0⟩
  have hd60 : Disjoint ((R2 0).view.set ∪ (R4 0).view.set ∪ (R1 0).view.set) (R0 0).view.set :=
    Finset.disjoint_union_left.mpr ⟨Finset.disjoint_union_left.mpr ⟨(disj_R0_R2 0).symm, (disj_R0_R4 0).symm⟩, (disj_R0_R1 0).symm⟩
  have hd61 : Disjoint ((R2 0).view.set ∪ (R4 0).view.set) (R1 0).view.set :=
    Finset.disjoint_union_left.mpr ⟨(disj_R1_R2 0).symm, (disj_R1_R4 0).symm⟩
  have hd70 : Disjoint ((R2 1).view.set ∪ (R1 1).view.set) (R0 1).view.set :=
    Finset.disjoint_union_left.mpr ⟨(disj_R0_R2 1).symm, (disj_R0_R1 1).symm⟩
  have hd71 : Disjoint (R2 1).view.set (R1 1).view.set := (disj_R1_R2 1).symm
  iintro ⟨%K, H⟩
  unfold QE2 core localBufs
  rw [heldBut_empty, heldBut_empty]
  icases H with ⟨⟨#HI, #HRA, #Hlev, Hbar, Hpos, Htoks, Hcreds, ⟨%W, HO⟩, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%a2, Ha2⟩, ⟨%a3, Ha3⟩, ⟨%a4, Ha4⟩, ⟨%a5, Ha5⟩, ⟨%a8, Ha8⟩, ⟨%a9, Ha9⟩⟩, ⟨%x0, Hx0⟩, ⟨%x1, Hx1⟩, Hr0, Hr1, Hg1, Hg2, Hg3, Hg4, Hg5⟩
  ihave Htoks := (toksAB_open c 18 22 1 _ drop_seg_18 rfl) $$ Htoks
  icases Htoks with ⟨⟨Ht6s, Ht6r⟩, ⟨Ht7s, Ht7r⟩, ⟨Ht8s, Ht8r⟩, ⟨Ht9s, Ht9r⟩, Htoks⟩
  ihave Hcreds := (credsAB_open c 18 19 20 21 22 1 _ drop_seg_18 rfl rfl rfl rfl) $$ Hcreds
  icases Hcreds with ⟨Hc6, Hc7, Hc8, Hc9, Hcreds⟩
  -- the positions on the eight cells of the four copies, and the rounds reached on the cells of the slots handed over
  ihave Hpos := (posAt_focus8' c (roundsDone 18) (roundsDone 22) (by decide) 1 1 1 0 rfl rfl rfl rfl rfl rfl rfl rfl rfl rfl rfl) $$ Hpos
  icases Hpos with ⟨⟨Hp20, #Hq20⟩, ⟨Hp24, #Hq24⟩, ⟨Hp25, #Hq25⟩, ⟨Hp29, #Hq29⟩, ⟨Hp30, #Hq30⟩, ⟨Hp34, #Hq34⟩, ⟨Hp35, #Hq35⟩, ⟨Hp39, #Hq39⟩, #Hq36, #Hq27, #Hq28, Hposback⟩
  ihave Hg1 := (grant_open _ _ _ _ 25 rsR_00) $$ Hg1
  icases Hg1 with ⟨Hd6, #Hrr6⟩
  ihave Hg2 := (grant_open _ _ _ _ 35 rsR_10) $$ Hg2
  icases Hg2 with ⟨Hd7, #Hrr7⟩
  ihave Hg3 := (grant_open _ _ _ _ 29 rsR_04) $$ Hg3
  icases Hg3 with ⟨Hd8, #Hrr8⟩
  ihave Hg4 := (grant_open _ _ _ _ 39 rsR_14) $$ Hg4
  icases Hg4 with ⟨Hd9, #Hrr9⟩
  unfold seg7
  sl_exec
  -- copy 18: SA 0 to R0 0 of the partner across 4
  ihave Hsp := (slice_split c (SA 0) _).1 $$ Ha4
  icases Hsp with ⟨Hsa0, Ha4⟩
  iapply (wp_send_copy' c (xr 4 c) _ (dev22_eq c) (SA 0) (R0 0) 20 25 1 19 _ _ sem_rs0s_0 sem_rs0r_0
      (by decide) (by decide) (by decide) (by decide)
      ((credit_R0 0).trans rfl) rfl (iprop(emp)) fullShare _ (ownAt_of c (SA 0) _)
      ((sep_emp (PROP := sProp 𝕄)).1)
      K (owedFrom c 19) (owedFrom_succ c 18 (4, 25, 1) rfl) _ (by routes)) $$ [Hsa0 Hd6 HO Ht6s Ht6r]
  · iframe ∗ #
  iintro ⟨Hcs6, HO⟩
  sl_exec
  -- copy 19: SA 1 to R0 1 of the partner across 1
  ihave Hsp := (slice_split c (SA 1) _).1 $$ Ha5
  icases Hsp with ⟨Hsa1, Ha5⟩
  iapply (wp_send_copy' c (xr 1 c) _ (dev23_eq c) (SA 1) (R0 1) 30 35 1 20 _ _ sem_rs1s_0 sem_rs1r_0
      (by decide) (by decide) (by decide) (by decide)
      ((credit_R0 1).trans rfl) rfl (iprop(emp)) fullShare _ (ownAt_of c (SA 1) _)
      ((sep_emp (PROP := sProp 𝕄)).1)
      K (owedFrom c 20) (owedFrom_succ c 19 (1, 35, 1) rfl) _ (by routes)) $$ [Hsa1 Hd7 HO Ht7s Ht7r]
  · iframe ∗ #
  iintro ⟨Hcs7, HO⟩
  sl_exec
  -- copy 20: SB 0 to R1 0 of the partner across 4
  ihave Hsp := (rest_split (disj_SA_SB 0) _).1 $$ Ha4
  icases Hsp with ⟨Hsb0, Ha4⟩
  -- the own slot for the partner's next copy to this device goes with it
  ihave Hr1 := (heldBut_take_view c (R2 1) _ (Finset.disjoint_union_left.mpr ⟨disj_R0_R2 1, disj_R1_R2 1⟩)).1 $$ Hr1
  icases Hr1 with ⟨Hown21, Hr1⟩
  iapply (wp_send_copy' c (xr 4 c) _ (dev24_eq c) (SB 0) (R1 0) 24 29 1 21 _ _ sem_rs0s_4 sem_rs0r_4
      (by decide) (by decide) (by decide) (by decide)
      ((credit_R1 0).trans rfl) rfl (iprop(ownAt c (R2 1) ∗ reached ER (dcell c (dsem 36)) 1)) fullShare _ (ownAt_of c (SB 0) _)
      (by
        rw [show payDma (F := F) (xr 4 c) 29 1 = iprop(ownAt (xr 4 c) (R1 0) ∗ (ownAt (xr 4 (xr 4 c)) (R2 1) ∗ reached ER (dcell (xr 4 (xr 4 c)) (rsR 1 1)) 1)) from rfl, xr_xr, rsR_11])
      K (owedFrom c 21) (owedFrom_succ c 20 (4, 29, 1) rfl) _ (by routes)) $$ [Hsb0 Hd8 Hown21 HO Ht8s Ht8r]
  · iframe ∗ #
  iintro ⟨Hcs8, HO⟩
  sl_exec
  -- copy 21: SB 1 to R1 1 of the partner across 1
  ihave Hsp := (rest_split (disj_SA_SB 1) _).1 $$ Ha5
  icases Hsp with ⟨Hsb1, Ha5⟩
  ihave Hr0 := (heldBut_take_view c (R4 0) _ hdX).1 $$ Hr0
  icases Hr0 with ⟨HownX, Hr0⟩
  iapply (wp_send_copy' c (xr 1 c) _ (dev25_eq c) (SB 1) (R1 1) 34 39 1 22 _ _ sem_rs1s_4 sem_rs1r_4
      (by decide) (by decide) (by decide) (by decide)
      ((credit_R1 1).trans rfl) rfl (iprop(ownAt c (R4 0) ∗ reached ER (dcell c (dsem 28)) 0)) fullShare _ (ownAt_of c (SB 1) _)
      (by
        rw [show payDma (F := F) (xr 1 c) 39 1 = iprop(ownAt (xr 1 c) (R1 1) ∗ (ownAt (xr 1 (xr 1 c)) (R4 0) ∗ reached ER (dcell (xr 1 (xr 1 c)) (rsR 0 3)) 0)) from rfl, xr_xr, rsR_03])
      K (owedFrom c 22) (owedFrom_succ c 21 (1, 39, 1) rfl) _ (by routes)) $$ [Hsb1 Hd9 HownX HO Ht9s Ht9r]
  · iframe ∗ #
  iintro ⟨Hcs9, HO⟩
  sl_exec
  -- the wait on semaphore 20 (copy 18)
  ihave Hcs6 := (cred_amt _ _ (show amtDma 25 1 = amtDma 20 1 from rfl)) $$ Hcs6
  ihave Hmw := (mayWait_copy c (dsem 20) 18 22 (by decide) (by decide)) $$ Hlev
  iapply (wp_wait_copy c 20 1 19 (by decide) (by decide) K (owedFrom c 22) _ (hw_waitDma2' c 20 1 _ sem_rs0s_0 ((credit_SA 0).trans rfl))) $$ [Hcs6 HO Hmw Hp20]
  · iframe ∗ #
  iintro ⟨HO, Hp20, #Hn20, Hpay⟩
  ihave Hpay := (Entails.of_eq (show payDma (F := F) c 20 1 = ownAt c (SA 0) from rfl)) $$ Hpay
  icases Hpay with Hsa0
  sl_exec
  -- the wait on semaphore 25 (copy 18)
  ihave Hmw := (mayWait_copy c (dsem 25) 18 22 (by decide) (by decide)) $$ Hlev
  iapply (wp_wait_copy c 25 1 19 (by decide) (by decide) K (owedFrom c 22) _ (hw_waitDma2' c 25 1 _ sem_rs0r_0 ((credit_R0 0).trans rfl))) $$ [Hc6 HO Hmw Hp25]
  · iframe ∗ #
  iintro ⟨HO, Hp25, #Hn25, Hpay⟩
  ihave Hpay := (Entails.of_eq (show payDma (F := F) c 25 1 = iprop(∃ f, (R0 0).view.loc (c : Thread nD τ) ↦[(R0 0).view.set]{fullShare} f) from rfl)) $$ Hpay
  icases Hpay with ⟨%g00, HR00⟩
  sl_exec
  -- the wait on semaphore 30 (copy 19)
  ihave Hcs7 := (cred_amt _ _ (show amtDma 35 1 = amtDma 30 1 from rfl)) $$ Hcs7
  ihave Hmw := (mayWait_copy c (dsem 30) 19 22 (by decide) (by decide)) $$ Hlev
  iapply (wp_wait_copy c 30 1 20 (by decide) (by decide) K (owedFrom c 22) _ (hw_waitDma2' c 30 1 _ sem_rs1s_0 ((credit_SA 1).trans rfl))) $$ [Hcs7 HO Hmw Hp30]
  · iframe ∗ #
  iintro ⟨HO, Hp30, #Hn30, Hpay⟩
  ihave Hpay := (Entails.of_eq (show payDma (F := F) c 30 1 = ownAt c (SA 1) from rfl)) $$ Hpay
  icases Hpay with Hsa1
  sl_exec
  -- the wait on semaphore 35 (copy 19)
  ihave Hmw := (mayWait_copy c (dsem 35) 19 22 (by decide) (by decide)) $$ Hlev
  iapply (wp_wait_copy c 35 1 20 (by decide) (by decide) K (owedFrom c 22) _ (hw_waitDma2' c 35 1 _ sem_rs1r_0 ((credit_R0 1).trans rfl))) $$ [Hc7 HO Hmw Hp35]
  · iframe ∗ #
  iintro ⟨HO, Hp35, #Hn35, Hpay⟩
  ihave Hpay := (Entails.of_eq (show payDma (F := F) c 35 1 = iprop(∃ f, (R0 1).view.loc (c : Thread nD τ) ↦[(R0 1).view.set]{fullShare} f) from rfl)) $$ Hpay
  icases Hpay with ⟨%g01, HR01⟩
  sl_exec
  -- the wait on semaphore 24 (copy 20)
  ihave Hcs8 := (cred_amt _ _ (show amtDma 29 1 = amtDma 24 1 from rfl)) $$ Hcs8
  ihave Hmw := (mayWait_copy c (dsem 24) 20 22 (by decide) (by decide)) $$ Hlev
  iapply (wp_wait_copy c 24 1 21 (by decide) (by decide) K (owedFrom c 22) _ (hw_waitDma2' c 24 1 _ sem_rs0s_4 ((credit_SB 0).trans rfl))) $$ [Hcs8 HO Hmw Hp24]
  · iframe ∗ #
  iintro ⟨HO, Hp24, #Hn24, Hpay⟩
  ihave Hpay := (Entails.of_eq (show payDma (F := F) c 24 1 = ownAt c (SB 0) from rfl)) $$ Hpay
  icases Hpay with Hsb0
  sl_exec
  -- the wait on semaphore 29 (copy 20)
  ihave Hmw := (mayWait_copy c (dsem 29) 20 22 (by decide) (by decide)) $$ Hlev
  iapply (wp_wait_copy c 29 1 21 (by decide) (by decide) K (owedFrom c 22) _ (hw_waitDma2' c 29 1 _ sem_rs0r_4 ((credit_R1 0).trans rfl))) $$ [Hc8 HO Hmw Hp29]
  · iframe ∗ #
  iintro ⟨HO, Hp29, #Hn29, Hpay⟩
  ihave Hpay := (Entails.of_eq (show payDma (F := F) c 29 1 = iprop((∃ f, (R1 0).view.loc (c : Thread nD τ) ↦[(R1 0).view.set]{fullShare} f) ∗ grant (xr 4 c) (R2 1) (rsR 1 1) 1) from rfl)) $$ Hpay
  icases Hpay with ⟨⟨%g10, HR10⟩, Hgn1⟩
  sl_exec
  -- the wait on semaphore 34 (copy 21)
  ihave Hcs9 := (cred_amt _ _ (show amtDma 39 1 = amtDma 34 1 from rfl)) $$ Hcs9
  ihave Hmw := (mayWait_copy c (dsem 34) 21 22 (by decide) (by decide)) $$ Hlev
  iapply (wp_wait_copy c 34 1 22 (by decide) (by decide) K (owedFrom c 22) _ (hw_waitDma2' c 34 1 _ sem_rs1s_4 ((credit_SB 1).trans rfl))) $$ [Hcs9 HO Hmw Hp34]
  · iframe ∗ #
  iintro ⟨HO, Hp34, #Hn34, Hpay⟩
  ihave Hpay := (Entails.of_eq (show payDma (F := F) c 34 1 = ownAt c (SB 1) from rfl)) $$ Hpay
  icases Hpay with Hsb1
  sl_exec
  -- the wait on semaphore 39 (copy 21)
  ihave Hmw := (mayWait_copy c (dsem 39) 21 22 (by decide) (by decide)) $$ Hlev
  iapply (wp_wait_copy c 39 1 22 (by decide) (by decide) K (owedFrom c 22) _ (hw_waitDma2' c 39 1 _ sem_rs1r_4 ((credit_R1 1).trans rfl))) $$ [Hc9 HO Hmw Hp39]
  · iframe ∗ #
  iintro ⟨HO, Hp39, #Hn39, Hpay⟩
  ihave Hpay := (Entails.of_eq (show payDma (F := F) c 39 1 = iprop((∃ f, (R1 1).view.loc (c : Thread nD τ) ↦[(R1 1).view.set]{fullShare} f) ∗ grant (xr 1 c) (R4 0) (rsR 0 3) 0) from rfl)) $$ Hpay
  icases Hpay with ⟨⟨%g11, HR11⟩, Hgn2⟩
  -- both send buffers whole again
  ihave Hsb0 := (Entails.of_eq (ownAt_eq c (SB 0))) $$ Hsb0
  icases Hsb0 with ⟨%h40, Hsb0⟩
  ihave Ha4 := (rest_join_at (disj_SA_SB 0) _ h40) $$ [Hsb0 Ha4]
  · iframe Hsb0 Ha4
  ihave Ha4 := (slice_join_ownAt c (SA 0) _) $$ [Hsa0 Ha4]
  · iframe Hsa0 Ha4
  icases Ha4 with ⟨%a4', Ha4⟩
  ihave Ha4 := (Entails.of_eq (show ((SA 0).view.loc (c : Thread nD τ) ↦{fullShare} a4' : sProp 𝕄) = ptw (F := F) c cc0_scratch4 a4' from rfl)) $$ Ha4
  ihave Hsb1 := (Entails.of_eq (ownAt_eq c (SB 1))) $$ Hsb1
  icases Hsb1 with ⟨%h50, Hsb1⟩
  ihave Ha5 := (rest_join_at (disj_SA_SB 1) _ h50) $$ [Hsb1 Ha5]
  · iframe Hsb1 Ha5
  ihave Ha5 := (slice_join_ownAt c (SA 1) _) $$ [Hsa1 Ha5]
  · iframe Hsa1 Ha5
  icases Ha5 with ⟨%a5', Ha5⟩
  ihave Ha5 := (Entails.of_eq (show ((SA 1).view.loc (c : Thread nD τ) ↦{fullShare} a5' : sProp 𝕄) = ptw (F := F) c cc0_scratch5 a5' from rfl)) $$ Ha5
  sl_exec
  sl_step
  iexists K
  irw [QAB_22_eq, core_eq, localBufs_eq, heldBut_empty, heldBut_empty]
  -- the positions, one round on
  ihave Hpos := Hposback $$ [Hp20 Hp24 Hp25 Hp29 Hp30 Hp34 Hp35 Hp39]
  · iframe ∗ #
  -- the receive buffers take back the landed slots
  ihave HR00 := (ownAt_of c (R0 0) _) $$ HR00
  ihave HR01 := (ownAt_of c (R0 1) _) $$ HR01
  ihave HR10 := (ownAt_of c (R1 0) _) $$ HR10
  ihave HR11 := (ownAt_of c (R1 1) _) $$ HR11
  ihave Hr0 := (heldBut_rot4 c _ _ _ _ _) $$ Hr0
  ihave Hr0 := (heldBut_put_right c (R0 0) _ hd60) $$ [HR00 Hr0]
  · iframe HR00 Hr0
  ihave Hr0 := (heldBut_put_right c (R1 0) _ hd61) $$ [HR10 Hr0]
  · iframe HR10 Hr0
  ihave Hr1 := (heldBut_rot3 c _ _ _ _) $$ Hr1
  ihave Hr1 := (heldBut_put_right c (R0 1) _ hd70) $$ [HR01 Hr1]
  · iframe HR01 Hr1
  ihave Hr1 := (heldBut_put_right c (R1 1) _ hd71) $$ [HR11 Hr1]
  · iframe HR11 Hr1
  -- every buffer at some contents
  ihave HO := (ex_owes _ _ _) $$ HO
  ihave Hs0 := (ex_ptw c cc0_stg0_0 _) $$ Hs0
  ihave Hs1 := (ex_ptw c cc0_stg1_0 _) $$ Hs1
  ihave Hs2 := (ex_ptw c cc0_stg2_0 _) $$ Hs2
  ihave Hs3 := (ex_ptw c cc0_stg3_0 _) $$ Hs3
  ihave Hs4 := (ex_ptw c cc0_stg4_0 _) $$ Hs4
  ihave Hs5 := (ex_ptw c cc0_stg5_0 _) $$ Hs5
  ihave Hs6 := (ex_ptw c cc0_stg6_0 _) $$ Hs6
  ihave Hs7 := (ex_ptw c cc0_stg7_0 _) $$ Hs7
  ihave Ha2 := (ex_ptw c cc0_scratch2 _) $$ Ha2
  ihave Ha3 := (ex_ptw c cc0_scratch3 _) $$ Ha3
  ihave Ha4 := (ex_ptw c cc0_scratch4 _) $$ Ha4
  ihave Ha5 := (ex_ptw c cc0_scratch5 _) $$ Ha5
  ihave Ha8 := (ex_ptw c cc0_scratch8 _) $$ Ha8
  ihave Ha9 := (ex_ptw c cc0_scratch9 _) $$ Ha9
  ihave Hx0 := (ex_ptw c cc0_scratch0 _) $$ Hx0
  ihave Hx1 := (ex_ptw c cc0_scratch1 _) $$ Hx1
  iframe ∗ #

/-- info: 'Cert.KernelIdeal.Hand.seg7_ok' depends on axioms: [propext, Classical.choice, Quot.sound] -/
#guard_msgs in #print axioms seg7_ok

end Cert.KernelIdeal.Hand
end
-- ==== Proof.KernelIdeal.SegE.lean ====
import proofs.«900979_g7700000000000980_dist_mlpseq_tp1d_bs_bs_b256_d256_h512_v7x_i8_bf16_1_alg».proof.Proof.KernelIdeal.Specs
import proofs.«900979_g7700000000000980_dist_mlpseq_tp1d_bs_bs_b256_d256_h512_v7x_i8_bf16_1_alg».proof.Proof.KernelIdeal.Steps
import proofs.«900979_g7700000000000980_dist_mlpseq_tp1d_bs_bs_b256_d256_h512_v7x_i8_bf16_1_alg».proof.Proof.KernelIdeal.QuietLemmas

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig ℕ (Elt F) ℕ UU ℕ

/-! # Segment 10: the second exchange of the last layer

Between the quiet point after 26 copies and the one after 28, a device stores the layer's result into its own pair of
row blocks of the second gather buffer, sends its own pair of each gather buffer to the partner of the second exchange
(across mask 3 for stream 0, across mask 4 for stream 1), runs two partial products that read the rows it has just
sent, and waits for both copies on their send and receive cells.

Neither gather buffer is whole at any moment of this segment: a slot of each is with a partner from before the first
step to after the last. Every local read and write therefore goes through the elements that ARE held, and is allowed
because its rectangle avoids the elements away; a read of rows whose left half-share is lent to a copy in flight goes
through the right half that stayed. With each copy the device hands the partner, beside the landed rows, its own slot
for the partner's next copy to it, with the fact that its receive cell for that copy has reached the copy's round. -/

/-! ## Local steps on a buffer held without some of its elements -/

/-- On a whole buffer the elements under a set of indices are that set. -/
theorem setOn_whole (b : Ref sig .tc) (M : Finset b.ty.shape.Idx) : (Memref.whole b).view.setOn M = M := by
  show M.map (View.whole b).emb = M
  rw [View.emb_whole]; exact Finset.map_refl

/-- A read through a rectangle that avoids the elements away reads held elements. -/
theorem load_ok_but (b : Ref sig .tc) (r : Rect b.ty.shape) (A : Finset b.ty.shape.Idx) (hd : Disjoint r.set A) :
    (Memref.whole b).view.setOn r.toLoadRect.set ⊆ Finset.univ \ A := by
  rw [setOn_whole]; exact Finset.subset_sdiff.mpr ⟨Finset.subset_univ _, hd⟩

/-- A store through such a rectangle writes held elements. -/
theorem store_ok_but (b : Ref sig .tc) (r : Rect b.ty.shape) (Mk : Finset r.shape.Idx) (A : Finset b.ty.shape.Idx)
    (hd : Disjoint r.set A) : ((Memref.whole b).access r).setOn Mk ⊆ Finset.univ \ A := fun i hi =>
  Finset.mem_sdiff.mpr ⟨Finset.mem_univ _, fun hA => Finset.disjoint_left.mp hd
    (by have h := View.setOn_subset_set _ Mk hi; rwa [View.set_slice_whole] at h) hA⟩

/-! ## A remote copy as printed: the partner and the two semaphores by their printed terms -/

/-- The copy rule with the partner and the semaphores as the program spells them, each equal to the protocol's. -/
theorem wp_send_copy' (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-- A buffer held without some elements, as the elements held at some contents. -/
theorem heldBut_elim (c : Dev nD) (b : Ref sig .tc) (A : Finset (Idx ((Memref.whole b).view.loc (c : Thread nD τ)))) :
    heldBut (F := F) c b A ⊢ iprop(∃ f : Buf (Elt F) ((Memref.whole b).view.loc (c : Thread nD τ)),
      (Memref.whole b).view.loc (c : Thread nD τ) ↦[Finset.univ \ A]{fullShare} f) := by
  unfold heldBut; exact Entails.refl _

/-- A unit-stride rectangle inside another's span on every axis is contained in it. -/
theorem unit_subset {s : Shape} {off size off' size' : Fin s.rank → ℕ} {inb inb'}
    (h : ∀ a, off' a ≤ off a ∧ off a + size a ≤ off' a + size' a) :
    (Rect.unit (s := s) off size inb).set ⊆ (Rect.unit (s := s) off' size' inb').set := by
  intro i hi
  rw [Rect.mem_set_unit] at hi ⊢
  intro a
  have h1 := hi a
  have h2 := h a
  omega

/-! ## Where the rectangles of segment 10 lie -/

theorem geo10_rect18 (c : Dev nD) : Disjoint (Rect.unit (s := S1024x256) (k0_off18 c) S256x256.size (k0_off18_inb c)).set
    ((VE1 1 (xr 4 c)).view.set ∪ (VE2 1 (xr 1 c)).view.set) := by
  rw [← set_slice_of_whole cc0_scratch1 (Rect.unit (s := S1024x256) (k0_off18 c) S256x256.size (k0_off18_inb c)) (fun _ => rfl)]
  exact Finset.disjoint_union_right.mpr ⟨disj_slices cc0_scratch1 0 (by revert c; decide +kernel),
    disj_slices cc0_scratch1 0 (by revert c; decide +kernel)⟩
theorem geo10_A0B' (c : Dev nD) : Disjoint (VE1 0 (xr 3 c)).view.set (VE2 0 (xr 4 c)).view.set :=
  disj_slices cc0_scratch0 0 (by revert c; decide +kernel)
theorem geo10_B0B' (c : Dev nD) : Disjoint (VE1 0 c).view.set (VE2 0 (xr 4 c)).view.set :=
  disj_slices cc0_scratch0 0 (by revert c; decide +kernel)
theorem geo10_A2B1 (c : Dev nD) : Disjoint (VE2 1 (xr 1 c)).view.set (VE1 1 c).view.set :=
  disj_slices cc0_scratch1 0 (by revert c; decide +kernel)
theorem geo10_A2A1 (c : Dev nD) : Disjoint (VE2 1 (xr 1 c)).view.set (VE1 1 (xr 4 c)).view.set :=
  disj_slices cc0_scratch1 0 (by revert c; decide +kernel)
theorem geo10_off7 : ∀ (c : Dev nD) (a : Fin 2), k0_off5 c a ≤ k0_off7 c a ∧ k0_off7 c a + S256x256.size a ≤ k0_off5 c a + S256x256.size a := by
  decide +kernel
theorem geo10_off8 : ∀ (c : Dev nD) (a : Fin 2), k0_off6 c a ≤ k0_off8 c a ∧ k0_off8 c a + S256x256.size a ≤ k0_off6 c a + S256x256.size a := by
  decide +kernel
theorem geo10_sub7 (c : Dev nD) :
    (Memref.whole cc0_scratch0).view.setOn (Rect.unit (s := S1024x256) (k0_off7 c) S256x256.size (k0_off7_inb c)).toLoadRect.set
      ⊆ (VE1 0 c).view.set := by
  rw [setOn_whole]
  show _ ⊆ ((Memref.whole cc0_scratch0).slice (Rect.unit (s := S1024x256) (k0_off5 c) S256x256.size (k0_off5_inb c)) (fun _ => rfl)).view.set
  rw [set_slice_of_whole]
  exact unit_subset (geo10_off7 c)
theorem geo10_sub8 (c : Dev nD) :
    (Memref.whole cc0_scratch1).view.setOn (Rect.unit (s := S1024x256) (k0_off8 c) S256x256.size (k0_off8_inb c)).toLoadRect.set
      ⊆ (VE1 1 c).view.set := by
  rw [setOn_whole]
  show _ ⊆ ((Memref.whole cc0_scratch1).slice (Rect.unit (s := S1024x256) (k0_off6 c) S256x256.size (k0_off6_inb c)) (fun _ => rfl)).view.set
  rw [set_slice_of_whole]
  exact unit_subset (geo10_off8 c)

set_option maxHeartbeats 2000000 in
theorem seg10_ok (c : Dev nD) : Spec10 (F := F) c := by
  intro v2 v11 v1191
  have hdA := geo10_rect18 c
  have hA0B' := geo10_A0B' c
  have hB0sub : (VE1 0 c).view.set ⊆ (Finset.univ \ (VE1 0 (xr 3 c)).view.set) \ (VE2 0 (xr 4 c)).view.set :=
    Finset.subset_sdiff.mpr ⟨Finset.subset_sdiff.mpr ⟨Finset.subset_univ _, disj_VE1_0 c⟩, geo10_B0B' c⟩
  have hAB1 : Disjoint ((VE1 1 (xr 4 c)).view.set ∪ (VE2 1 (xr 1 c)).view.set) (VE1 1 c).view.set :=
    Finset.disjoint_union_left.mpr ⟨(disj_VE1_1 c).symm, geo10_A2B1 c⟩
  have hA2A1 := geo10_A2A1 c
  have hsub7 := geo10_sub7 c
  have hsub8 := geo10_sub8 c
  have hroute3 : τ.routes (c : Thread nD τ) (xr 3 c : Thread nD τ) = true := Topo.routes_tc _ _
  have hroute4 : τ.routes (c : Thread nD τ) (xr 4 c : Thread nD τ) = true := Topo.routes_tc _ _
  -- what each of the two copies hands the partner: the landed pair of blocks, and the own slot of the partner's next copy
  have hpayR26 : iprop(ownAt (F := F) (xr 3 c) (VE1 0 c) ∗ (ownAt c (R2 0) ∗ reached ER (dcell c (dsem 26)) 2)) ⊢ payDma (xr 3 c) 12 2 := by
    show _ ⊢ iprop(ownAt (xr 3 c) (VE1 0 (xr 3 (xr 3 c))) ∗ (ownAt (xr 3 (xr 3 c)) (R2 0) ∗ reached ER (dcell (xr 3 (xr 3 c)) (rsR 0 1)) 2))
    rw [xr_xr]; first | done | exact Entails.refl _
  have hpayR27 : iprop(ownAt (F := F) (xr 4 c) (VE1 1 c) ∗ (ownAt c (VE2 0 (xr 4 c)) ∗ reached ER (dcell c (dsem 13)) 2)) ⊢ payDma (xr 4 c) 18 2 := by
    show _ ⊢ iprop(ownAt (xr 4 c) (VE1 1 (xr 4 (xr 4 c))) ∗ (ownAt (xr 4 (xr 4 c)) (VE2 0 (xr 4 c)) ∗ reached ER (dcell (xr 4 (xr 4 c)) (agR 0 2)) 2))
    rw [xr_xr]; first | done | exact Entails.refl _
  refine exists_elim fun K => ?_
  rw [QD_26_eq, core_eq, posAt_26, toks_seg_26, creds_seg_26, localBufs_eq,
    show (agR 0 1 : DmaSem sig) = dsem 12 from by decide, show (agR 1 1 : DmaSem sig) = dsem 18 from by decide]
  iintro ⟨⟨#HI, #HR, #Hlev, HatB, ⟨Ha8, Hr8, Ha9, Hr9, Ha10, Hr10, Ha11, Hr11, Ha12, Hr12, Ha13, #Hr13, Ha14, Hr14, Ha15, Hr15, Ha16, Hr16, Ha17, Hr17, Ha18, Hr18, Ha19, Hr19, Ha20, Hr20, Ha21, Hr21, Ha22, Hr22, Ha23, Hr23, Ha24, Hr24, Ha25, Hr25, Ha26, #Hr26, Ha27, Hr27, Ha28, Hr28, Ha29, Hr29, Ha30, Hr30, Ha31, Hr31, Ha32, Hr32, Ha33, Hr33, Ha34, Hr34, Ha35, Hr35, Ha36, Hr36, Ha37, Hr37, Ha38, Hr38, Ha39, Hr39⟩, ⟨⟨Ht9, Ht12⟩, ⟨Ht15, Ht18⟩, Htoks⟩, ⟨Hc12, Hc18, Hcreds⟩, ⟨%W, HO⟩, ⟨Hl0, Hl1, Hl2, Hl3, Hl4, Hl5, Hl6, Hl7, HS2, HS3, HS4, HS5, HS8, HS9⟩⟩, Hs0, Hs1, Hs6, Hs7, Hg3, Hg4, Hg1⟩
  -- the program: nineteen operations
  unfold seg10
  rw [k0_part39_eq_skeleton, k0_part40_eq_skeleton, k0_part41_eq_skeleton]
  unfold k0_part39_skel k0_part40_skel k0_part41_skel
  simp only [Prog.lift, Prog.bind_op, Prog.bind_ret, Prog.pure_eq_ret, Prog.bind_assoc]
  ihave Hs1 := (heldBut_elim (F := F) c cc0_scratch1 _) $$ Hs1
  icases Hs1 with ⟨%f1, Hs1⟩
  ihave Hs0 := (heldBut_elim (F := F) c cc0_scratch0 _) $$ Hs0
  icases Hs0 with ⟨%f0, Hs0⟩
  -- the read and the store on the second gather buffer, held without two slots
  iapply (wp_load Variants.none (c : Thread nD τ) none Set.univ (load_ok_but cc0_scratch1 _ _ hdA)) $$ [Hs1]
  · iexact Hs1
  iintro Hs1
  iapply (wp_store Variants.none (c : Thread nD τ) none Set.univ (store_ok_but cc0_scratch1 _ _ _ hdA)) $$ [Hs1]
  · iexact Hs1
  iintro Hs1
  ihave Hs1 := (heldBut_intro (F := F) c cc0_scratch1 _ _) $$ Hs1
  ihave Hs1 := (heldBut_elim (F := F) c cc0_scratch1 _) $$ Hs1
  icases Hs1 with ⟨%g1, Hs1⟩
  -- out of the first gather buffer: the slot handed over with the second copy, then the first copy's source, half of it lent
  ihave Hsp := (rest_split (F := F) hA0B' f0).1 $$ Hs0
  icases Hsp with ⟨HB', Hs0⟩
  ihave Hsp := (pointsTo_split_subset hB0sub).1 $$ Hs0
  icases Hsp with ⟨Hsrc0, Hs0⟩
  ihave Hh := (halves_split (F := F) f0).1 $$ Hsrc0
  icases Hh with ⟨HsrcL0, HsrcR0⟩
  ihave Hr2 := (heldBut_take_view_empty (F := F) c (R2 0)).1 $$ Hs6
  icases Hr2 with ⟨HR2, Hs6⟩
  unfold grant
  icases Hg3 with ⟨Hd3, #Hrp3⟩
  icases Hg4 with ⟨Hd4, #Hrp4⟩
  -- copy 26: the own pair of blocks of stream 0 to the partner across mask 3
  iapply (wp_send_copy' (F := F) c (xr 3 c) _ (dev30_eq c) (VE1 0 c) (VE1 0 c) 9 12 2 27 _ _ sem_ag0s_1 sem_ag0r_1
      (by decide) (by decide) (by decide) (by decide) ((credit_VE1 0 c).trans rfl) rfl
      (iprop(ownAt c (R2 0) ∗ reached ER (dcell c (dsem 26)) 2)) fullShare.left f0
      (ownHalf_of c (VE1 0 c) f0) hpayR26 K (owedFrom c 27) (owedFrom_succ c 26 (3, 12, 2) rfl) W hroute3) $$ [HsrcL0 Hd3 HR2 HO Ht9 Hr9 Ht12]
  · isplitr; · iexact HI
    isplitl [HsrcL0]; · iexact HsrcL0
    isplitl [Hd3]; · iexact Hd3
    isplitl [HR2]
    · isplitl [HR2]; · iexact HR2
      iexact Hr26
    isplitl [HO]; · iexact HO
    isplitl [Ht9]; · iexact Ht9
    isplitl [Hr9]; · iexact Hr9
    isplitl [Ht12]; · iexact Ht12
    iexact Hrp3
  iintro ⟨Hc9, HO⟩
  -- copy 27: the own pair of blocks of stream 1 to the partner across mask 4
  ihave Hsp := (rest_split (F := F) hAB1 g1).1 $$ Hs1
  icases Hsp with ⟨Hsrc1, Hs1⟩
  ihave Hh := (halves_split (F := F) g1).1 $$ Hsrc1
  icases Hh with ⟨HsrcL1, HsrcR1⟩
  ihave HV2 := (ownAt_of (F := F) c (VE2 0 (xr 4 c)) f0) $$ HB'
  iapply (wp_send_copy' (F := F) c (xr 4 c) _ (dev31_eq c) (VE1 1 c) (VE1 1 c) 15 18 2 28 _ _ sem_ag1s_1 sem_ag1r_1
      (by decide) (by decide) (by decide) (by decide) ((credit_VE1 1 c).trans rfl) rfl
      (iprop(ownAt c (VE2 0 (xr 4 c)) ∗ reached ER (dcell c (dsem 13)) 2)) fullShare.left g1
      (ownHalf_of c (VE1 1 c) g1) hpayR27 K (owedFrom c 28) (owedFrom_succ c 27 (4, 18, 2) rfl) W hroute4) $$ [HsrcL1 Hd4 HV2 HO Ht15 Hr15 Ht18]
  · isplitr; · iexact HI
    isplitl [HsrcL1]; · iexact HsrcL1
    isplitl [Hd4]; · iexact Hd4
    isplitl [HV2]
    · isplitl [HV2]; · iexact HV2
      iexact Hr13
    isplitl [HO]; · iexact HO
    isplitl [Ht15]; · iexact Ht15
    isplitl [Hr15]; · iexact Hr15
    isplitl [Ht18]; · iexact Ht18
    iexact Hrp4
  iintro ⟨Hc15, HO⟩
  -- the two partial products: their reads of the lent rows go through the half that stayed
  icases HS2 with ⟨%a2, HS2⟩
  icases HS3 with ⟨%a3, HS3⟩
  icases HS8 with ⟨%w8, HS8⟩
  icases HS9 with ⟨%w9, HS9⟩
  iapply (wp_load Variants.none (c : Thread nD τ) none Set.univ hsub7) $$ [HsrcR0]
  · iexact HsrcR0
  iintro HsrcR0
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS2]
  · iexact HS2
  iintro HS2
  iapply (wp_store Variants.none (c : Thread nD τ) none Set.univ (Finset.subset_univ _)) $$ [HS2]
  · iexact HS2
  iintro HS2
  iapply (wp_load Variants.none (c : Thread nD τ) none Set.univ hsub8) $$ [HsrcR1]
  · iexact HsrcR1
  iintro HsrcR1
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS3]
  · iexact HS3
  iintro HS3
  iapply (wp_store Variants.none (c : Thread nD τ) none Set.univ (Finset.subset_univ _)) $$ [HS3]
  · iexact HS3
  iintro HS3
  -- the four waits
  simp only [sem_ag0s_1, sem_ag0r_1, sem_ag1s_1, sem_ag1r_1]
  ihave Hc9 := (Entails.of_eq (show (cred (tallyAt (dcell c (dsem 9)) 27 (amtDma 12 2)) : sProp 𝕄) = cred (tallyAt (dcell c (dsem 9)) 27 (amtDma 9 2)) from rfl)) $$ Hc9
  ihave Hc15 := (Entails.of_eq (show (cred (tallyAt (dcell c (dsem 15)) 28 (amtDma 18 2)) : sProp 𝕄) = cred (tallyAt (dcell c (dsem 15)) 28 (amtDma 15 2)) from rfl)) $$ Hc15
  ihave HM := (mayWait_copy (F := F) c (dsem 9) 26 28 (by omega) (by omega)) $$ Hlev
  iapply (wp_wait_copy (F := F) c 9 2 27 (by decide) (by decide) K (owedFrom c 28) _ (hw_waitDma2 c 9 2 ((credit_VE1 0 c).trans rfl))) $$ [Hc9 HO HM Ha9]
  · isplitr; · iexact HI
    isplitl [Hc9]; · iexact Hc9
    isplitl [HO]; · iexact HO
    isplitl [HM]; · iexact HM
    iexact Ha9
  iintro ⟨HO, Ha9, Hr9, Hp9⟩
  ihave HM := (mayWait_copy (F := F) c (dsem 12) 26 28 (by omega) (by omega)) $$ Hlev
  iapply (wp_wait_copy (F := F) c 12 2 27 (by decide) (by decide) K (owedFrom c 28) _ (hw_waitDma2 c 12 2 ((credit_VE1 0 c).trans rfl))) $$ [Hc12 HO HM Ha12]
  · isplitr; · iexact HI
    isplitl [Hc12]; · iexact Hc12
    isplitl [HO]; · iexact HO
    isplitl [HM]; · iexact HM
    iexact Ha12
  iintro ⟨HO, Ha12, Hr12, Hp12⟩
  ihave HM := (mayWait_copy (F := F) c (dsem 15) 27 28 (by omega) (by omega)) $$ Hlev
  iapply (wp_wait_copy (F := F) c 15 2 28 (by decide) (by decide) K (owedFrom c 28) _ (hw_waitDma2 c 15 2 ((credit_VE1 1 c).trans rfl))) $$ [Hc15 HO HM Ha15]
  · isplitr; · iexact HI
    isplitl [Hc15]; · iexact Hc15
    isplitl [HO]; · iexact HO
    isplitl [HM]; · iexact HM
    iexact Ha15
  iintro ⟨HO, Ha15, Hr15, Hp15⟩
  ihave HM := (mayWait_copy (F := F) c (dsem 18) 27 28 (by omega) (by omega)) $$ Hlev
  iapply (wp_wait_copy (F := F) c 18 2 28 (by decide) (by decide) K (owedFrom c 28) _ (hw_waitDma2 c 18 2 ((credit_VE1 1 c).trans rfl))) $$ [Hc18 HO HM Ha18]
  · isplitr; · iexact HI
    isplitl [Hc18]; · iexact Hc18
    isplitl [HO]; · iexact HO
    isplitl [HM]; · iexact HM
    iexact Ha18
  iintro ⟨HO, Ha18, Hr18, Hp18⟩
  -- the run is over: what the four landings handed back becomes buffers again
  rw [wp_ret]
  imodintro
  iexists K
  rw [Q28_eq, core_eq, posAt_28, localBufs_eq]
  unfold grant
  ihave Hp9 := (Entails.of_eq (show payDma (F := F) c 9 2 = ownHalf c (VE1 0 c) from rfl)) $$ Hp9
  ihave Hp15 := (Entails.of_eq (show payDma (F := F) c 15 2 = ownHalf c (VE1 1 c) from rfl)) $$ Hp15
  ihave Hp12 := (Entails.of_eq (show payDma (F := F) c 12 2
      = iprop(ownAt c (VE1 0 (xr 3 c)) ∗ (ownAt (xr 3 c) (R2 0) ∗ reached ER (dcell (xr 3 c) (rsR 0 1)) 2)) from rfl)) $$ Hp12
  icases Hp12 with ⟨HA0, Hg3'⟩
  ihave Hp18 := (Entails.of_eq (show payDma (F := F) c 18 2
      = iprop(ownAt c (VE1 1 (xr 4 c)) ∗ (ownAt (xr 4 c) (VE2 0 c) ∗ reached ER (dcell (xr 4 c) (agR 0 2)) 2)) from rfl)) $$ Hp18
  icases Hp18 with ⟨HA1, Hg4'⟩
  -- the first gather buffer: the lent half, the source, the landed pair; the slot handed over stays away
  ihave Hsrc0 := (ownHalf_join (F := F) c (VE1 0 c) f0) $$ [Hp9 HsrcR0]
  · isplitl [Hp9]; · iexact Hp9
    iexact HsrcR0
  ihave Hs0 := (pointsTo_join_subset (ℓ := (Memref.whole cc0_scratch0).view.loc (c : Thread nD τ)) (q := fullShare) (f := f0) (g := f0) hB0sub) $$ [Hsrc0 Hs0]
  · isplitl [Hsrc0]; · iexact Hsrc0
    iexact Hs0
  rw [← univ_sdiff_union (VE1 0 (xr 3 c)).view.set (VE2 0 (xr 4 c)).view.set]
  ihave Hs0 := (heldBut_intro (F := F) c cc0_scratch0 _ _) $$ Hs0
  ihave Hs0 := (heldBut_put_left (F := F) c (VE1 0 (xr 3 c)) (VE2 0 (xr 4 c)).view.set hA0B'.symm) $$ [HA0 Hs0]
  · isplitl [HA0]; · iexact HA0
    iexact Hs0
  -- the second gather buffer likewise
  ihave Hsrc1 := (ownHalf_join (F := F) c (VE1 1 c) g1) $$ [Hp15 HsrcR1]
  · isplitl [Hp15]; · iexact Hp15
    iexact HsrcR1
  ihave Hs1 := (rest_join_at (F := F) hAB1 g1 g1) $$ [Hsrc1 Hs1]
  · isplitl [Hsrc1]; · iexact Hsrc1
    iexact Hs1
  ihave Hs1 := (heldBut_intro (F := F) c cc0_scratch1 _ _) $$ Hs1
  ihave Hs1 := (heldBut_put_left (F := F) c (VE1 1 (xr 4 c)) (VE2 1 (xr 1 c)).view.set hA2A1) $$ [HA1 Hs1]
  · isplitl [HA1]; · iexact HA1
    iexact Hs1
  -- the quiet state after 28 copies
  isplitr [Hs0 Hs1 Hs6 Hs7 Hg4' Hg1 Hg3']
  · isplitr; · iexact HI
    isplitr; · iexact HR
    isplitr; · iexact Hlev
    isplitl [HatB]; · iexact HatB
    isplitl [Ha8 Hr8 Ha9 Hr9 Ha10 Hr10 Ha11 Hr11 Ha12 Hr12 Ha13 Ha14 Hr14 Ha15 Hr15 Ha16 Hr16 Ha17 Hr17 Ha18 Hr18 Ha19 Hr19 Ha20 Hr20 Ha21 Hr21 Ha22 Hr22 Ha23 Hr23 Ha24 Hr24 Ha25 Hr25 Ha26 Ha27 Hr27 Ha28 Hr28 Ha29 Hr29 Ha30 Hr30 Ha31 Hr31 Ha32 Hr32 Ha33 Hr33 Ha34 Hr34 Ha35 Hr35 Ha36 Hr36 Ha37 Hr37 Ha38 Hr38 Ha39 Hr39]
    · isplitl [Ha8]; · iexact Ha8
      isplitl [Hr8]; · iexact Hr8
      isplitl [Ha9]; · iexact Ha9
      isplitl [Hr9]; · iexact Hr9
      isplitl [Ha10]; · iexact Ha10
      isplitl [Hr10]; · iexact Hr10
      isplitl [Ha11]; · iexact Ha11
      isplitl [Hr11]; · iexact Hr11
      isplitl [Ha12]; · iexact Ha12
      isplitl [Hr12]; · iexact Hr12
      isplitl [Ha13]; · iexact Ha13
      isplitr; · iexact Hr13
      isplitl [Ha14]; · iexact Ha14
      isplitl [Hr14]; · iexact Hr14
      isplitl [Ha15]; · iexact Ha15
      isplitl [Hr15]; · iexact Hr15
      isplitl [Ha16]; · iexact Ha16
      isplitl [Hr16]; · iexact Hr16
      isplitl [Ha17]; · iexact Ha17
      isplitl [Hr17]; · iexact Hr17
      isplitl [Ha18]; · iexact Ha18
      isplitl [Hr18]; · iexact Hr18
      isplitl [Ha19]; · iexact Ha19
      isplitl [Hr19]; · iexact Hr19
      isplitl [Ha20]; · iexact Ha20
      isplitl [Hr20]; · iexact Hr20
      isplitl [Ha21]; · iexact Ha21
      isplitl [Hr21]; · iexact Hr21
      isplitl [Ha22]; · iexact Ha22
      isplitl [Hr22]; · iexact Hr22
      isplitl [Ha23]; · iexact Ha23
      isplitl [Hr23]; · iexact Hr23
      isplitl [Ha24]; · iexact Ha24
      isplitl [Hr24]; · iexact Hr24
      isplitl [Ha25]; · iexact Ha25
      isplitl [Hr25]; · iexact Hr25
      isplitl [Ha26]; · iexact Ha26
      isplitr; · iexact Hr26
      isplitl [Ha27]; · iexact Ha27
      isplitl [Hr27]; · iexact Hr27
      isplitl [Ha28]; · iexact Ha28
      isplitl [Hr28]; · iexact Hr28
      isplitl [Ha29]; · iexact Ha29
      isplitl [Hr29]; · iexact Hr29
      isplitl [Ha30]; · iexact Ha30
      isplitl [Hr30]; · iexact Hr30
      isplitl [Ha31]; · iexact Ha31
      isplitl [Hr31]; · iexact Hr31
      isplitl [Ha32]; · iexact Ha32
      isplitl [Hr32]; · iexact Hr32
      isplitl [Ha33]; · iexact Ha33
      isplitl [Hr33]; · iexact Hr33
      isplitl [Ha34]; · iexact Ha34
      isplitl [Hr34]; · iexact Hr34
      isplitl [Ha35]; · iexact Ha35
      isplitl [Hr35]; · iexact Hr35
      isplitl [Ha36]; · iexact Ha36
      isplitl [Hr36]; · iexact Hr36
      isplitl [Ha37]; · iexact Ha37
      isplitl [Hr37]; · iexact Hr37
      isplitl [Ha38]; · iexact Ha38
      isplitl [Hr38]; · iexact Hr38
      isplitl [Ha39]; · iexact Ha39
      iexact Hr39
    isplitl [Htoks]; · iexact Htoks
    isplitl [Hcreds]; · iexact Hcreds
    isplitl [HO]; · iexists _; iexact HO
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [HS2]; · iexists _; iexact HS2
    isplitl [HS3]; · iexists _; iexact HS3
    isplitl [HS4]; · iexact HS4
    isplitl [HS5]; · iexact HS5
    isplitl [HS8]; · iexists _; iexact HS8
    iexists _; iexact HS9
  isplitl [Hs0]; · iexact Hs0
  isplitl [Hs1]; · iexact Hs1
  isplitl [Hs6]; · iexact Hs6
  isplitl [Hs7]; · iexact Hs7
  isplitl [Hg4']; · iexact Hg4'
  isplitl [Hg1]; · iexact Hg1
  iexact Hg3'

/-- info: 'Cert.KernelIdeal.Hand.seg10_ok' depends on axioms: [propext, Classical.choice, Quot.sound] -/
#guard_msgs in #print axioms seg10_ok

end Cert.KernelIdeal.Hand

end
-- ==== Proof.KernelIdeal.Seg9.lean ====
import proofs.«900979_g7700000000000980_dist_mlpseq_tp1d_bs_bs_b256_d256_h512_v7x_i8_bf16_1_alg».proof.Proof.KernelIdeal.Specs
import proofs.«900979_g7700000000000980_dist_mlpseq_tp1d_bs_bs_b256_d256_h512_v7x_i8_bf16_1_alg».proof.Proof.KernelIdeal.Steps
import proofs.«900979_g7700000000000980_dist_mlpseq_tp1d_bs_bs_b256_d256_h512_v7x_i8_bf16_1_alg».proof.Proof.KernelIdeal.QuietLemmas
import proofs.«900979_g7700000000000980_dist_mlpseq_tp1d_bs_bs_b256_d256_h512_v7x_i8_bf16_1_alg».proof.Proof.KernelIdeal.SegE

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig ℕ (Elt F) ℕ UU ℕ

/-! ## Segment 9: the last reduce step of layer 1 -/

/-- A whole buffer at given contents is that buffer at some contents. -/
theorem ptw_ex (c : Dev nD) (b : Ref sig .tc) (f : Buf (Elt F) ((Memref.whole b).view.loc (c : Thread nD τ))) :
    ptw (F := F) c b f ⊢ iprop(∃ g, ptw (F := F) c b g) :=
  exists_intro (Φ := fun g => ptw (F := F) c b g) f

/-- A read through a rectangle of a whole buffer reads elements of the slice at that rectangle. -/
theorem sub_whole_slice (b : Ref sig .tc) (r : Rect b.ty.shape) (hr : ∀ a, r.stride a = 1) :
    (Memref.whole b).view.setOn r.toLoadRect.set ⊆ ((Memref.whole b).slice r hr).view.set := by
  rw [setOn_whole, set_slice_of_whole]

/-- The own pair of blocks the layer's result is cast into lies off the pair handed over for the next layer's copy. -/
theorem geo9_rect17 (c : Dev nD) : Disjoint (Rect.unit (s := S1024x256) (k0_off17 c) S256x256.size (k0_off17_inb c)).set (VE1 0 (xr 3 c)).view.set := by
  rw [← set_slice_of_whole cc0_scratch0 (Rect.unit (s := S1024x256) (k0_off17 c) S256x256.size (k0_off17_inb c)) (fun _ => rfl)]
  exact disj_slices cc0_scratch0 0 (by revert c; decide +kernel)

set_option maxHeartbeats 2000000 in
theorem seg9_ok (c : Dev nD) : Spec9 (F := F) c := by
  intro v2 v678 v681 v1121
  have hd17 := geo9_rect17 c
  have hA1A2 : Disjoint (VE1 1 (xr 4 c)).view.set (VE2 1 (xr 1 c)).view.set := (geo10_A2A1 c).symm
  -- what the two copies hand the partners: the landed slot, and the own slot of the partner's copy of the next layer
  have hpayR24 : iprop(ownAt (F := F) (xr 1 c) (R4 0) ∗ (ownAt c (VE2 1 (xr 1 c)) ∗ reached ER (dcell c (dsem 19)) 2)) ⊢ payDma (xr 1 c) 28 0 := by
    show _ ⊢ iprop(ownAt (xr 1 c) (R4 0) ∗ (ownAt (xr 1 (xr 1 c)) (VE2 1 (xr 1 c)) ∗ reached ER (dcell (xr 1 (xr 1 c)) (agR 1 2)) 2))
    rw [xr_xr]; first | done | exact Entails.refl _
  have hpayR25 : iprop(ownAt (F := F) (xr 3 c) (R4 1) ∗ (ownAt c (VE1 0 (xr 3 c)) ∗ reached ER (dcell c (dsem 12)) 2)) ⊢ payDma (xr 3 c) 38 0 := by
    show _ ⊢ iprop(ownAt (xr 3 c) (R4 1) ∗ (ownAt (xr 3 (xr 3 c)) (VE1 0 (xr 3 c)) ∗ reached ER (dcell (xr 3 (xr 3 c)) (agR 0 1)) 2))
    rw [xr_xr]; first | done | exact Entails.refl _
  refine exists_elim fun K => ?_
  rw [QC_24_eq, core_eq, posAt_24, toks_seg_24, creds_seg_24, localBufs_eq,
    show (rsR 0 3 : DmaSem sig) = dsem 28 from by decide, show (rsR 1 3 : DmaSem sig) = dsem 38 from by decide]
  iintro ⟨⟨#HI, #HR, #Hlev, HatB, ⟨Ha8, Hr8, Ha9, Hr9, Ha10, Hr10, Ha11, Hr11, Ha12, #Hr12, Ha13, Hr13, Ha14, Hr14, Ha15, Hr15, Ha16, Hr16, Ha17, Hr17, Ha18, Hr18, Ha19, #Hr19, Ha20, Hr20, Ha21, Hr21, Ha22, Hr22, Ha23, Hr23, Ha24, Hr24, Ha25, Hr25, Ha26, Hr26, Ha27, Hr27, Ha28, Hr28, Ha29, Hr29, Ha30, Hr30, Ha31, Hr31, Ha32, Hr32, Ha33, Hr33, Ha34, Hr34, Ha35, Hr35, Ha36, Hr36, Ha37, Hr37, Ha38, Hr38, Ha39, Hr39⟩, ⟨⟨Ht23, Ht28⟩, ⟨Ht33, Ht38⟩, Htoks⟩, ⟨Hc28, Hc38, Hcreds⟩, ⟨%W, HO⟩, ⟨Hl0, Hl1, Hl2, Hl3, Hl4, Hl5, Hl6, Hl7, ⟨%a2, HS2⟩, ⟨%a3, HS3⟩, ⟨%b4, HS4⟩, ⟨%b5, HS5⟩, HS8, HS9⟩⟩, Hs0, Hs1, Hs6, Hs7, Hg1, Hg2, Hg3⟩
  unfold seg9
  rw [k0_part37_eq_skeleton, k0_part38_eq_skeleton]
  unfold k0_part37_skel k0_part38_skel
  simp only [Prog.lift, Prog.bind_op, Prog.bind_ret, Prog.pure_eq_ret, Prog.bind_assoc]
  unfold grant
  icases Hg1 with ⟨Hd1, #Hrp1⟩
  icases Hg2 with ⟨Hd2, #Hrp2⟩
  -- the slots of the gather buffers handed over for the next layer's second and third exchange
  ihave Hx := (heldBut_take_view (F := F) c (VE2 1 (xr 1 c)) _ hA1A2).1 $$ Hs1
  icases Hx with ⟨HV21, Hs1⟩
  ihave Hx := (heldBut_take_view_empty (F := F) c (VE1 0 (xr 3 c))).1 $$ Hs0
  icases Hx with ⟨HV10, Hs0⟩
  -- copy 24: the sums of stream 0 to the partner across mask 1
  ihave Hsp := (slice_split (F := F) c (SA 0) b4).1 $$ HS4
  icases Hsp with ⟨HSA0, HS4⟩
  iapply (wp_send_copy' (F := F) c (xr 1 c) _ (dev28_eq c) (SA 0) (R4 0) 23 28 0 25 _ _ sem_rs0s_3 sem_rs0r_3
      (by decide) (by decide) (by decide) (by decide) ((credit_R4 0).trans rfl) rfl
      (iprop(ownAt c (VE2 1 (xr 1 c)) ∗ reached ER (dcell c (dsem 19)) 2)) fullShare b4
      (ownAt_of c (SA 0) b4) hpayR24 K (owedFrom c 25) (owedFrom_succ c 24 (1, 28, 0) rfl) _ (Topo.routes_tc _ _)) $$ [HSA0 Hd1 HV21 HO Ht23 Hr23 Ht28]
  · isplitr; · iexact HI
    isplitl [HSA0]; · iexact HSA0
    isplitl [Hd1]; · iexact Hd1
    isplitl [HV21]
    · isplitl [HV21]; · iexact HV21
      iexact Hr19
    isplitl [HO]; · iexact HO
    isplitl [Ht23]; · iexact Ht23
    isplitl [Hr23]; · iexact Hr23
    isplitl [Ht28]; · iexact Ht28
    iexact Hrp1
  iintro ⟨Hc23, HO⟩
  -- the sums of stream 1 cast into its send buffer, and copy 25: to the partner across mask 3
  iapply (wp_load Variants.none (c : Thread nD τ) none Set.univ (Finset.subset_univ _)) $$ [HS3]
  · iexact HS3
  iintro HS3
  iapply (wp_load Variants.none (c : Thread nD τ) none Set.univ (Finset.subset_univ _)) $$ [HS5]
  · iexact HS5
  iintro HS5
  iapply (wp_store Variants.none (c : Thread nD τ) none Set.univ (Finset.subset_univ _)) $$ [HS5]
  · iexact HS5
  iintro HS5
  ihave HS5 := (ptw_ex (F := F) c cc0_scratch5 _) $$ HS5
  icases HS5 with ⟨%g5, HS5⟩
  ihave Hsp := (slice_split (F := F) c (SA 1) g5).1 $$ HS5
  icases Hsp with ⟨HSA1, HS5⟩
  iapply (wp_send_copy' (F := F) c (xr 3 c) _ (dev29_eq c) (SA 1) (R4 1) 33 38 0 26 _ _ sem_rs1s_3 sem_rs1r_3
      (by decide) (by decide) (by decide) (by decide) ((credit_R4 1).trans rfl) rfl
      (iprop(ownAt c (VE1 0 (xr 3 c)) ∗ reached ER (dcell c (dsem 12)) 2)) fullShare g5
      (ownAt_of c (SA 1) g5) hpayR25 K (owedFrom c 26) (owedFrom_succ c 25 (3, 38, 0) rfl) _ (Topo.routes_tc _ _)) $$ [HSA1 Hd2 HV10 HO Ht33 Hr33 Ht38]
  · isplitr; · iexact HI
    isplitl [HSA1]; · iexact HSA1
    isplitl [Hd2]; · iexact Hd2
    isplitl [HV10]
    · isplitl [HV10]; · iexact HV10
      iexact Hr12
    isplitl [HO]; · iexact HO
    isplitl [Ht33]; · iexact Ht33
    isplitl [Hr33]; · iexact Hr33
    isplitl [Ht38]; · iexact Ht38
    iexact Hrp2
  iintro ⟨Hc33, HO⟩
  -- the four waits
  simp only [sem_rs0s_3, sem_rs0r_3, sem_rs1s_3, sem_rs1r_3]
  ihave Hc23 := (Entails.of_eq (show (cred (tallyAt (dcell c (dsem 23)) 25 (amtDma 28 0)) : sProp 𝕄) = cred (tallyAt (dcell c (dsem 23)) 25 (amtDma 23 0)) from rfl)) $$ Hc23
  ihave Hc33 := (Entails.of_eq (show (cred (tallyAt (dcell c (dsem 33)) 26 (amtDma 38 0)) : sProp 𝕄) = cred (tallyAt (dcell c (dsem 33)) 26 (amtDma 33 0)) from rfl)) $$ Hc33
  ihave HM := (mayWait_copy (F := F) c (dsem 23) 24 26 (by omega) (by omega)) $$ Hlev
  iapply (wp_wait_copy (F := F) c 23 0 25 (by decide) (by decide) K (owedFrom c 26) _ (hw_waitDma2 c 23 0 ((credit_SA 0).trans rfl))) $$ [Hc23 HO HM Ha23]
  · isplitr; · iexact HI
    isplitl [Hc23]; · iexact Hc23
    isplitl [HO]; · iexact HO
    isplitl [HM]; · iexact HM
    iexact Ha23
  iintro ⟨HO, Ha23, Hr23, Hp23⟩
  ihave HM := (mayWait_copy (F := F) c (dsem 28) 24 26 (by omega) (by omega)) $$ Hlev
  iapply (wp_wait_copy (F := F) c 28 0 25 (by decide) (by decide) K (owedFrom c 26) _ (hw_waitDma2 c 28 0 ((credit_R4 0).trans rfl))) $$ [Hc28 HO HM Ha28]
  · isplitr; · iexact HI
    isplitl [Hc28]; · iexact Hc28
    isplitl [HO]; · iexact HO
    isplitl [HM]; · iexact HM
    iexact Ha28
  iintro ⟨HO, Ha28, Hr28, Hp28⟩
  ihave HM := (mayWait_copy (F := F) c (dsem 33) 25 26 (by omega) (by omega)) $$ Hlev
  iapply (wp_wait_copy (F := F) c 33 0 26 (by decide) (by decide) K (owedFrom c 26) _ (hw_waitDma2 c 33 0 ((credit_SA 1).trans rfl))) $$ [Hc33 HO HM Ha33]
  · isplitr; · iexact HI
    isplitl [Hc33]; · iexact Hc33
    isplitl [HO]; · iexact HO
    isplitl [HM]; · iexact HM
    iexact Ha33
  iintro ⟨HO, Ha33, Hr33, Hp33⟩
  ihave HM := (mayWait_copy (F := F) c (dsem 38) 25 26 (by omega) (by omega)) $$ Hlev
  iapply (wp_wait_copy (F := F) c 38 0 26 (by decide) (by decide) K (owedFrom c 26) _ (hw_waitDma2 c 38 0 ((credit_R4 1).trans rfl))) $$ [Hc38 HO HM Ha38]
  · isplitr; · iexact HI
    isplitl [Hc38]; · iexact Hc38
    isplitl [HO]; · iexact HO
    isplitl [HM]; · iexact HM
    iexact Ha38
  iintro ⟨HO, Ha38, Hr38, Hp38⟩
  ihave Hp28 := (Entails.of_eq (show payDma (F := F) c 28 0
      = iprop(ownAt c (R4 0) ∗ (ownAt (xr 1 c) (VE2 1 c) ∗ reached ER (dcell (xr 1 c) (agR 1 2)) 2)) from rfl)) $$ Hp28
  icases Hp28 with ⟨Hp28, Hg4⟩
  ihave Hp28 := (Entails.of_eq (ownAt_eq (F := F) c (R4 0))) $$ Hp28
  icases Hp28 with ⟨%r40, HR40⟩
  ihave Hp38 := (Entails.of_eq (show payDma (F := F) c 38 0
      = iprop(ownAt c (R4 1) ∗ (ownAt (xr 3 c) (VE1 0 c) ∗ reached ER (dcell (xr 3 c) (agR 0 1)) 2)) from rfl)) $$ Hp38
  icases Hp38 with ⟨Hp38, Hg5⟩
  ihave Hp38 := (Entails.of_eq (ownAt_eq (F := F) c (R4 1))) $$ Hp38
  icases Hp38 with ⟨%r41, HR41⟩
  -- the landed sums added to the own, the result cast into the own pair of blocks of the first gather buffer
  ihave Hs0 := (heldBut_elim (F := F) c cc0_scratch0 _) $$ Hs0
  icases Hs0 with ⟨%f0, Hs0⟩
  iapply (wp_load Variants.none (c : Thread nD τ) none Set.univ (Finset.subset_univ _)) $$ [HS2]
  · iexact HS2
  iintro HS2
  iapply (wp_load Variants.none (c : Thread nD τ) none Set.univ (sub_whole_slice cc0_scratch6 (Rect.unit (s := S1280x256) ![1024, 0] S256x256.size inb_S1280x256_S256x256_1024_0) (fun _ => rfl))) $$ [HR40]
  · iexact HR40
  iintro HR40
  iapply (wp_load Variants.none (c : Thread nD τ) none Set.univ (load_ok_but cc0_scratch0 _ _ hd17)) $$ [Hs0]
  · iexact Hs0
  iintro Hs0
  iapply (wp_store Variants.none (c : Thread nD τ) none Set.univ (store_ok_but cc0_scratch0 _ _ _ hd17)) $$ [Hs0]
  · iexact Hs0
  iintro Hs0
  iapply (wp_load Variants.none (c : Thread nD τ) none Set.univ (Finset.subset_univ _)) $$ [HS3]
  · iexact HS3
  iintro HS3
  iapply (wp_load Variants.none (c : Thread nD τ) none Set.univ (sub_whole_slice cc0_scratch7 (Rect.unit (s := S1280x256) ![1024, 0] S256x256.size inb_S1280x256_S256x256_1024_0) (fun _ => rfl))) $$ [HR41]
  · iexact HR41
  iintro HR41
  -- the quiet state after 26 copies
  rw [wp_ret]
  imodintro
  iexists K
  rw [QD_26_eq, core_eq, posAt_26, localBufs_eq]
  unfold grant
  ihave Hp23 := (Entails.of_eq (show payDma (F := F) c 23 0 = ownAt c (SA 0) from rfl)) $$ Hp23
  ihave HS4 := (slice_join_ownAt (F := F) c (SA 0) b4) $$ [Hp23 HS4]
  · isplitl [Hp23]; · iexact Hp23
    iexact HS4
  ihave Hp33 := (Entails.of_eq (show payDma (F := F) c 33 0 = ownAt c (SA 1) from rfl)) $$ Hp33
  ihave HS5 := (slice_join_ownAt (F := F) c (SA 1) g5) $$ [Hp33 HS5]
  · isplitl [Hp33]; · iexact Hp33
    iexact HS5
  ihave HR40 := (ownAt_of (F := F) c (R4 0) r40) $$ HR40
  ihave Hs6 := (heldBut_put_only (F := F) c (R4 0)) $$ [HR40 Hs6]
  · isplitl [HR40]; · iexact HR40
    iexact Hs6
  ihave HR41 := (ownAt_of (F := F) c (R4 1) r41) $$ HR41
  ihave Hs7 := (heldBut_put_only (F := F) c (R4 1)) $$ [HR41 Hs7]
  · isplitl [HR41]; · iexact HR41
    iexact Hs7
  ihave Hs0 := (heldBut_intro (F := F) c cc0_scratch0 (VE1 0 (xr 3 c)).view.set _) $$ Hs0
  isplitr [Hs0 Hs1 Hs6 Hs7 Hg5 Hg3 Hg4]
  · isplitr; · iexact HI
    isplitr; · iexact HR
    isplitr; · iexact Hlev
    isplitl [HatB]; · iexact HatB
    isplitl [Ha8 Hr8 Ha9 Hr9 Ha10 Hr10 Ha11 Hr11 Ha12 Ha13 Hr13 Ha14 Hr14 Ha15 Hr15 Ha16 Hr16 Ha17 Hr17 Ha18 Hr18 Ha19 Ha20 Hr20 Ha21 Hr21 Ha22 Hr22 Ha23 Hr23 Ha24 Hr24 Ha25 Hr25 Ha26 Hr26 Ha27 Hr27 Ha28 Hr28 Ha29 Hr29 Ha30 Hr30 Ha31 Hr31 Ha32 Hr32 Ha33 Hr33 Ha34 Hr34 Ha35 Hr35 Ha36 Hr36 Ha37 Hr37 Ha38 Hr38 Ha39 Hr39]
    · isplitl [Ha8]; · iexact Ha8
      isplitl [Hr8]; · iexact Hr8
      isplitl [Ha9]; · iexact Ha9
      isplitl [Hr9]; · iexact Hr9
      isplitl [Ha10]; · iexact Ha10
      isplitl [Hr10]; · iexact Hr10
      isplitl [Ha11]; · iexact Ha11
      isplitl [Hr11]; · iexact Hr11
      isplitl [Ha12]; · iexact Ha12
      isplitr; · iexact Hr12
      isplitl [Ha13]; · iexact Ha13
      isplitl [Hr13]; · iexact Hr13
      isplitl [Ha14]; · iexact Ha14
      isplitl [Hr14]; · iexact Hr14
      isplitl [Ha15]; · iexact Ha15
      isplitl [Hr15]; · iexact Hr15
      isplitl [Ha16]; · iexact Ha16
      isplitl [Hr16]; · iexact Hr16
      isplitl [Ha17]; · iexact Ha17
      isplitl [Hr17]; · iexact Hr17
      isplitl [Ha18]; · iexact Ha18
      isplitl [Hr18]; · iexact Hr18
      isplitl [Ha19]; · iexact Ha19
      isplitr; · iexact Hr19
      isplitl [Ha20]; · iexact Ha20
      isplitl [Hr20]; · iexact Hr20
      isplitl [Ha21]; · iexact Ha21
      isplitl [Hr21]; · iexact Hr21
      isplitl [Ha22]; · iexact Ha22
      isplitl [Hr22]; · iexact Hr22
      isplitl [Ha23]; · iexact Ha23
      isplitl [Hr23]; · iexact Hr23
      isplitl [Ha24]; · iexact Ha24
      isplitl [Hr24]; · iexact Hr24
      isplitl [Ha25]; · iexact Ha25
      isplitl [Hr25]; · iexact Hr25
      isplitl [Ha26]; · iexact Ha26
      isplitl [Hr26]; · iexact Hr26
      isplitl [Ha27]; · iexact Ha27
      isplitl [Hr27]; · iexact Hr27
      isplitl [Ha28]; · iexact Ha28
      isplitl [Hr28]; · iexact Hr28
      isplitl [Ha29]; · iexact Ha29
      isplitl [Hr29]; · iexact Hr29
      isplitl [Ha30]; · iexact Ha30
      isplitl [Hr30]; · iexact Hr30
      isplitl [Ha31]; · iexact Ha31
      isplitl [Hr31]; · iexact Hr31
      isplitl [Ha32]; · iexact Ha32
      isplitl [Hr32]; · iexact Hr32
      isplitl [Ha33]; · iexact Ha33
      isplitl [Hr33]; · iexact Hr33
      isplitl [Ha34]; · iexact Ha34
      isplitl [Hr34]; · iexact Hr34
      isplitl [Ha35]; · iexact Ha35
      isplitl [Hr35]; · iexact Hr35
      isplitl [Ha36]; · iexact Ha36
      isplitl [Hr36]; · iexact Hr36
      isplitl [Ha37]; · iexact Ha37
      isplitl [Hr37]; · iexact Hr37
      isplitl [Ha38]; · iexact Ha38
      isplitl [Hr38]; · iexact Hr38
      isplitl [Ha39]; · iexact Ha39
      iexact Hr39
    isplitl [Htoks]; · iexact Htoks
    isplitl [Hcreds]; · iexact Hcreds
    isplitl [HO]; · iexists _; iexact HO
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [HS2]; · iexists _; iexact HS2
    isplitl [HS3]; · iexists _; iexact HS3
    isplitl [HS4]; · iexact HS4
    isplitl [HS5]; · iexact HS5
    isplitl [HS8]; · iexact HS8
    iexact HS9
  isplitl [Hs0]; · iexact Hs0
  isplitl [Hs1]; · iexact Hs1
  isplitl [Hs6]; · iexact Hs6
  isplitl [Hs7]; · iexact Hs7
  isplitl [Hg5]; · iexact Hg5
  isplitl [Hg3]; · iexact Hg3
  iexact Hg4

/-- info: 'Cert.KernelIdeal.Hand.seg9_ok' depends on axioms: [propext, Classical.choice, Quot.sound] -/
#guard_msgs in #print axioms seg9_ok

end Cert.KernelIdeal.Hand

end
-- ==== Proof.KernelIdeal.SegAB12.lean ====
/- The two half-block steps of the reduce in the last layer: the argument of segment 3 at this layer's round, the slot handed over with the
   last of the four copies being this layer's slot of the last reduce step. -/
import proofs.«900979_g7700000000000980_dist_mlpseq_tp1d_bs_bs_b256_d256_h512_v7x_i8_bf16_1_alg».proof.Proof.KernelIdeal.SegAB

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open AB

variable {F : FTy → Type} [FloatOps F]

local notation "𝕄" => MT nD τ sig ℕ (Elt F) ℕ UU ℕ

set_option maxHeartbeats 4000000 in
theorem seg12_ok (c : Dev nD) : Spec12 (F := F) c := by
  intro v2 v1225 v1228 v1358 v1362 v1385 v1386 cst_1075
  -- what the local loads and stores need of the buffers held by parts
  have hin4 : (Memref.whole cc0_scratch4).view.setOn (Rect.unit (s := S512x256) ![256, 0] S256x256.size inb_S512x256_S256x256_256_0).set
      ⊆ (Finset.univ \ (SA 0).view.set : Finset (Idx ((SA 0).view.loc (c : Thread nD τ)))) := sndB_off_A 0
  have hin5 : (Memref.whole cc0_scratch5).view.setOn (Rect.unit (s := S512x256) ![256, 0] S256x256.size inb_S512x256_S256x256_256_0).set
      ⊆ (Finset.univ \ (SA 1).view.set : Finset (Idx ((SA 1).view.loc (c : Thread nD τ)))) := sndB_off_A 1
  have hR00 : (Memref.whole cc0_scratch6).view.setOn (Rect.unit (s := S1280x256) ![0, 0] S256x256.size inb_S1280x256_S256x256_0_0).set
      ⊆ (R0 0).view.set := (setOn_slice_eq cc0_scratch6 _ (fun _ => rfl)).subset
  have hR01 : (Memref.whole cc0_scratch7).view.setOn (Rect.unit (s := S1280x256) ![0, 0] S256x256.size inb_S1280x256_S256x256_0_0).set
      ⊆ (R0 1).view.set := (setOn_slice_eq cc0_scratch7 _ (fun _ => rfl)).subset
  have hR10 : (Memref.whole cc0_scratch6).view.setOn (Rect.unit (s := S1280x256) ![256, 0] S256x256.size inb_S1280x256_S256x256_256_0).set
      ⊆ (R1 0).view.set := (setOn_slice_eq cc0_scratch6 _ (fun _ => rfl)).subset
  have hR11 : (Memref.whole cc0_scratch7).view.setOn (Rect.unit (s := S1280x256) ![256, 0] S256x256.size inb_S1280x256_S256x256_256_0).set
      ⊆ (R1 1).view.set := (setOn_slice_eq cc0_scratch7 _ (fun _ => rfl)).subset
  have hst4 : ((Memref.whole cc0_scratch4).access (Rect.unit (s := S512x256) ![256, 0] S256x256.size inb_S512x256_S256x256_256_0)).setOn Finset.univ
      ⊆ (Finset.univ \ (SA 0).view.set : Finset (Idx ((SA 0).view.loc (c : Thread nD τ)))) := sndB_store_off_A 0
  have hst5 : ((Memref.whole cc0_scratch5).access (Rect.unit (s := S512x256) ![256, 0] S256x256.size inb_S512x256_S256x256_256_0)).setOn Finset.univ
      ⊆ (Finset.univ \ (SA 1).view.set : Finset (Idx ((SA 1).view.loc (c : Thread nD τ)))) := sndB_store_off_A 1
  have hdX : Disjoint ((R0 0).view.set ∪ (R1 0).view.set ∪ (R2 0).view.set) (R3h 0).view.set :=
    Finset.disjoint_union_left.mpr ⟨Finset.disjoint_union_left.mpr ⟨disj_R0_R3h 0, disj_R1_R3h 0⟩, disj_R2_R3h 0⟩
  have hd60 : Disjoint ((R2 0).view.set ∪ (R3h 0).view.set ∪ (R1 0).view.set) (R0 0).view.set :=
    Finset.disjoint_union_left.mpr ⟨Finset.disjoint_union_left.mpr ⟨(disj_R0_R2 0).symm, (disj_R0_R3h 0).symm⟩, (disj_R0_R1 0).symm⟩
  have hd61 : Disjoint ((R2 0).view.set ∪ (R3h 0).view.set) (R1 0).view.set :=
    Finset.disjoint_union_left.mpr ⟨(disj_R1_R2 0).symm, (disj_R1_R3h 0).symm⟩
  have hd70 : Disjoint ((R2 1).view.set ∪ (R1 1).view.set) (R0 1).view.set :=
    Finset.disjoint_union_left.mpr ⟨(disj_R0_R2 1).symm, (disj_R0_R1 1).symm⟩
  have hd71 : Disjoint (R2 1).view.set (R1 1).view.set := (disj_R1_R2 1).symm
  iintro ⟨%K, H⟩
  unfold QE2 core localBufs
  rw [heldBut_empty, heldBut_empty]
  icases H with ⟨⟨#HI, #HRA, #Hlev, Hbar, Hpos, Htoks, Hcreds, ⟨%W, HO⟩, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%a2, Ha2⟩, ⟨%a3, Ha3⟩, ⟨%a4, Ha4⟩, ⟨%a5, Ha5⟩, ⟨%a8, Ha8⟩, ⟨%a9, Ha9⟩⟩, ⟨%x0, Hx0⟩, ⟨%x1, Hx1⟩, Hr0, Hr1, Hg1, Hg2, Hg3, Hg4, Hg5⟩
  ihave Htoks := (toksAB_open c 30 34 2 _ drop_seg_30 rfl) $$ Htoks
  icases Htoks with ⟨⟨Ht6s, Ht6r⟩, ⟨Ht7s, Ht7r⟩, ⟨Ht8s, Ht8r⟩, ⟨Ht9s, Ht9r⟩, Htoks⟩
  ihave Hcreds := (credsAB_open c 30 31 32 33 34 2 _ drop_seg_30 rfl rfl rfl rfl) $$ Hcreds
  icases Hcreds with ⟨Hc6, Hc7, Hc8, Hc9, Hcreds⟩
  -- the positions on the eight cells of the four copies, and the rounds reached on the cells of the slots handed over
  ihave Hpos := (posAt_focus8' c (roundsDone 30) (roundsDone 34) (by decide) 2 2 1 1 rfl rfl rfl rfl rfl rfl rfl rfl rfl rfl rfl) $$ Hpos
  icases Hpos with ⟨⟨Hp20, #Hq20⟩, ⟨Hp24, #Hq24⟩, ⟨Hp25, #Hq25⟩, ⟨Hp29, #Hq29⟩, ⟨Hp30, #Hq30⟩, ⟨Hp34, #Hq34⟩, ⟨Hp35, #Hq35⟩, ⟨Hp39, #Hq39⟩, #Hq36, #Hq27, #Hq28, Hposback⟩
  ihave Hg1 := (grant_open _ _ _ _ 25 rsR_00) $$ Hg1
  icases Hg1 with ⟨Hd6, #Hrr6⟩
  ihave Hg2 := (grant_open _ _ _ _ 35 rsR_10) $$ Hg2
  icases Hg2 with ⟨Hd7, #Hrr7⟩
  ihave Hg3 := (grant_open _ _ _ _ 29 rsR_04) $$ Hg3
  icases Hg3 with ⟨Hd8, #Hrr8⟩
  ihave Hg4 := (grant_open _ _ _ _ 39 rsR_14) $$ Hg4
  icases Hg4 with ⟨Hd9, #Hrr9⟩
  unfold seg12
  sl_exec
  -- copy 30: SA 0 to R0 0 of the partner across 4
  ihave Hsp := (slice_split c (SA 0) _).1 $$ Ha4
  icases Hsp with ⟨Hsa0, Ha4⟩
  iapply (wp_send_copy' c (xr 4 c) _ (dev34_eq c) (SA 0) (R0 0) 20 25 2 31 _ _ sem_rs0s_0 sem_rs0r_0
      (by decide) (by decide) (by decide) (by decide)
      ((credit_R0 0).trans rfl) rfl (iprop(emp)) fullShare _ (ownAt_of c (SA 0) _)
      ((sep_emp (PROP := sProp 𝕄)).1)
      K (owedFrom c 31) (owedFrom_succ c 30 (4, 25, 2) rfl) _ (by routes)) $$ [Hsa0 Hd6 HO Ht6s Ht6r]
  · iframe ∗ #
  iintro ⟨Hcs6, HO⟩
  sl_exec
  -- copy 31: SA 1 to R0 1 of the partner across 1
  ihave Hsp := (slice_split c (SA 1) _).1 $$ Ha5
  icases Hsp with ⟨Hsa1, Ha5⟩
  iapply (wp_send_copy' c (xr 1 c) _ (dev35_eq c) (SA 1) (R0 1) 30 35 2 32 _ _ sem_rs1s_0 sem_rs1r_0
      (by decide) (by decide) (by decide) (by decide)
      ((credit_R0 1).trans rfl) rfl (iprop(emp)) fullShare _ (ownAt_of c (SA 1) _)
      ((sep_emp (PROP := sProp 𝕄)).1)
      K (owedFrom c 32) (owedFrom_succ c 31 (1, 35, 2) rfl) _ (by routes)) $$ [Hsa1 Hd7 HO Ht7s Ht7r]
  · iframe ∗ #
  iintro ⟨Hcs7, HO⟩
  sl_exec
  -- copy 32: SB 0 to R1 0 of the partner across 4
  ihave Hsp := (rest_split (disj_SA_SB 0) _).1 $$ Ha4
  icases Hsp with ⟨Hsb0, Ha4⟩
  -- the own slot for the partner's next copy to this device goes with it
  ihave Hr1 := (heldBut_take_view c (R2 1) _ (Finset.disjoint_union_left.mpr ⟨disj_R0_R2 1, disj_R1_R2 1⟩)).1 $$ Hr1
  icases Hr1 with ⟨Hown21, Hr1⟩
  iapply (wp_send_copy' c (xr 4 c) _ (dev36_eq c) (SB 0) (R1 0) 24 29 2 33 _ _ sem_rs0s_4 sem_rs0r_4
      (by decide) (by decide) (by decide) (by decide)
      ((credit_R1 0).trans rfl) rfl (iprop(ownAt c (R2 1) ∗ reached ER (dcell c (dsem 36)) 2)) fullShare _ (ownAt_of c (SB 0) _)
      (by
        rw [show payDma (F := F) (xr 4 c) 29 2 = iprop(ownAt (xr 4 c) (R1 0) ∗ (ownAt (xr 4 (xr 4 c)) (R2 1) ∗ reached ER (dcell (xr 4 (xr 4 c)) (rsR 1 1)) 2)) from rfl, xr_xr, rsR_11])
      K (owedFrom c 33) (owedFrom_succ c 32 (4, 29, 2) rfl) _ (by routes)) $$ [Hsb0 Hd8 Hown21 HO Ht8s Ht8r]
  · iframe ∗ #
  iintro ⟨Hcs8, HO⟩
  sl_exec
  -- copy 33: SB 1 to R1 1 of the partner across 1
  ihave Hsp := (rest_split (disj_SA_SB 1) _).1 $$ Ha5
  icases Hsp with ⟨Hsb1, Ha5⟩
  ihave Hr0 := (heldBut_take_view c (R3h 0) _ hdX).1 $$ Hr0
  icases Hr0 with ⟨HownX, Hr0⟩
  iapply (wp_send_copy' c (xr 1 c) _ (dev37_eq c) (SB 1) (R1 1) 34 39 2 34 _ _ sem_rs1s_4 sem_rs1r_4
      (by decide) (by decide) (by decide) (by decide)
      ((credit_R1 1).trans rfl) rfl (iprop(ownAt c (R3h 0) ∗ reached ER (dcell c (dsem 27)) 1)) fullShare _ (ownAt_of c (SB 1) _)
      (by
        rw [show payDma (F := F) (xr 1 c) 39 2 = iprop(ownAt (xr 1 c) (R1 1) ∗ (ownAt (xr 1 (xr 1 c)) (R3h 0) ∗ reached ER (dcell (xr 1 (xr 1 c)) (rsR 0 2)) 1)) from rfl, xr_xr, rsR_02])
      K (owedFrom c 34) (owedFrom_succ c 33 (1, 39, 2) rfl) _ (by routes)) $$ [Hsb1 Hd9 HownX HO Ht9s Ht9r]
  · iframe ∗ #
  iintro ⟨Hcs9, HO⟩
  sl_exec
  -- the wait on semaphore 20 (copy 30)
  ihave Hcs6 := (cred_amt _ _ (show amtDma 25 2 = amtDma 20 2 from rfl)) $$ Hcs6
  ihave Hmw := (mayWait_copy c (dsem 20) 30 34 (by decide) (by decide)) $$ Hlev
  iapply (wp_wait_copy c 20 2 31 (by decide) (by decide) K (owedFrom c 34) _ (hw_waitDma2' c 20 2 _ sem_rs0s_0 ((credit_SA 0).trans rfl))) $$ [Hcs6 HO Hmw Hp20]
  · iframe ∗ #
  iintro ⟨HO, Hp20, #Hn20, Hpay⟩
  ihave Hpay := (Entails.of_eq (show payDma (F := F) c 20 2 = ownAt c (SA 0) from rfl)) $$ Hpay
  icases Hpay with Hsa0
  sl_exec
  -- the wait on semaphore 25 (copy 30)
  ihave Hmw := (mayWait_copy c (dsem 25) 30 34 (by decide) (by decide)) $$ Hlev
  iapply (wp_wait_copy c 25 2 31 (by decide) (by decide) K (owedFrom c 34) _ (hw_waitDma2' c 25 2 _ sem_rs0r_0 ((credit_R0 0).trans rfl))) $$ [Hc6 HO Hmw Hp25]
  · iframe ∗ #
  iintro ⟨HO, Hp25, #Hn25, Hpay⟩
  ihave Hpay := (Entails.of_eq (show payDma (F := F) c 25 2 = iprop(∃ f, (R0 0).view.loc (c : Thread nD τ) ↦[(R0 0).view.set]{fullShare} f) from rfl)) $$ Hpay
  icases Hpay with ⟨%g00, HR00⟩
  sl_exec
  -- the wait on semaphore 30 (copy 31)
  ihave Hcs7 := (cred_amt _ _ (show amtDma 35 2 = amtDma 30 2 from rfl)) $$ Hcs7
  ihave Hmw := (mayWait_copy c (dsem 30) 31 34 (by decide) (by decide)) $$ Hlev
  iapply (wp_wait_copy c 30 2 32 (by decide) (by decide) K (owedFrom c 34) _ (hw_waitDma2' c 30 2 _ sem_rs1s_0 ((credit_SA 1).trans rfl))) $$ [Hcs7 HO Hmw Hp30]
  · iframe ∗ #
  iintro ⟨HO, Hp30, #Hn30, Hpay⟩
  ihave Hpay := (Entails.of_eq (show payDma (F := F) c 30 2 = ownAt c (SA 1) from rfl)) $$ Hpay
  icases Hpay with Hsa1
  sl_exec
  -- the wait on semaphore 35 (copy 31)
  ihave Hmw := (mayWait_copy c (dsem 35) 31 34 (by decide) (by decide)) $$ Hlev
  iapply (wp_wait_copy c 35 2 32 (by decide) (by decide) K (owedFrom c 34) _ (hw_waitDma2' c 35 2 _ sem_rs1r_0 ((credit_R0 1).trans rfl))) $$ [Hc7 HO Hmw Hp35]
  · iframe ∗ #
  iintro ⟨HO, Hp35, #Hn35, Hpay⟩
  ihave Hpay := (Entails.of_eq (show payDma (F := F) c 35 2 = iprop(∃ f, (R0 1).view.loc (c : Thread nD τ) ↦[(R0 1).view.set]{fullShare} f) from rfl)) $$ Hpay
  icases Hpay with ⟨%g01, HR01⟩
  sl_exec
  -- the wait on semaphore 24 (copy 32)
  ihave Hcs8 := (cred_amt _ _ (show amtDma 29 2 = amtDma 24 2 from rfl)) $$ Hcs8
  ihave Hmw := (mayWait_copy c (dsem 24) 32 34 (by decide) (by decide)) $$ Hlev
  iapply (wp_wait_copy c 24 2 33 (by decide) (by decide) K (owedFrom c 34) _ (hw_waitDma2' c 24 2 _ sem_rs0s_4 ((credit_SB 0).trans rfl))) $$ [Hcs8 HO Hmw Hp24]
  · iframe ∗ #
  iintro ⟨HO, Hp24, #Hn24, Hpay⟩
  ihave Hpay := (Entails.of_eq (show payDma (F := F) c 24 2 = ownAt c (SB 0) from rfl)) $$ Hpay
  icases Hpay with Hsb0
  sl_exec
  -- the wait on semaphore 29 (copy 32)
  ihave Hmw := (mayWait_copy c (dsem 29) 32 34 (by decide) (by decide)) $$ Hlev
  iapply (wp_wait_copy c 29 2 33 (by decide) (by decide) K (owedFrom c 34) _ (hw_waitDma2' c 29 2 _ sem_rs0r_4 ((credit_R1 0).trans rfl))) $$ [Hc8 HO Hmw Hp29]
  · iframe ∗ #
  iintro ⟨HO, Hp29, #Hn29, Hpay⟩
  ihave Hpay := (Entails.of_eq (show payDma (F := F) c 29 2 = iprop((∃ f, (R1 0).view.loc (c : Thread nD τ) ↦[(R1 0).view.set]{fullShare} f) ∗ grant (xr 4 c) (R2 1) (rsR 1 1) 2) from rfl)) $$ Hpay
  icases Hpay with ⟨⟨%g10, HR10⟩, Hgn1⟩
  sl_exec
  -- the wait on semaphore 34 (copy 33)
  ihave Hcs9 := (cred_amt _ _ (show amtDma 39 2 = amtDma 34 2 from rfl)) $$ Hcs9
  ihave Hmw := (mayWait_copy c (dsem 34) 33 34 (by decide) (by decide)) $$ Hlev
  iapply (wp_wait_copy c 34 2 34 (by decide) (by decide) K (owedFrom c 34) _ (hw_waitDma2' c 34 2 _ sem_rs1s_4 ((credit_SB 1).trans rfl))) $$ [Hcs9 HO Hmw Hp34]
  · iframe ∗ #
  iintro ⟨HO, Hp34, #Hn34, Hpay⟩
  ihave Hpay := (Entails.of_eq (show payDma (F := F) c 34 2 = ownAt c (SB 1) from rfl)) $$ Hpay
  icases Hpay with Hsb1
  sl_exec
  -- the wait on semaphore 39 (copy 33)
  ihave Hmw := (mayWait_copy c (dsem 39) 33 34 (by decide) (by decide)) $$ Hlev
  iapply (wp_wait_copy c 39 2 34 (by decide) (by decide) K (owedFrom c 34) _ (hw_waitDma2' c 39 2 _ sem_rs1r_4 ((credit_R1 1).trans rfl))) $$ [Hc9 HO Hmw Hp39]
  · iframe ∗ #
  iintro ⟨HO, Hp39, #Hn39, Hpay⟩
  ihave Hpay := (Entails.of_eq (show payDma (F := F) c 39 2 = iprop((∃ f, (R1 1).view.loc (c : Thread nD τ) ↦[(R1 1).view.set]{fullShare} f) ∗ grant (xr 1 c) (R3h 0) (rsR 0 2) 1) from rfl)) $$ Hpay
  icases Hpay with ⟨⟨%g11, HR11⟩, Hgn2⟩
  -- both send buffers whole again
  ihave Hsb0 := (Entails.of_eq (ownAt_eq c (SB 0))) $$ Hsb0
  icases Hsb0 with ⟨%h40, Hsb0⟩
  ihave Ha4 := (rest_join_at (disj_SA_SB 0) _ h40) $$ [Hsb0 Ha4]
  · iframe Hsb0 Ha4
  ihave Ha4 := (slice_join_ownAt c (SA 0) _) $$ [Hsa0 Ha4]
  · iframe Hsa0 Ha4
  icases Ha4 with ⟨%a4', Ha4⟩
  ihave Ha4 := (Entails.of_eq (show ((SA 0).view.loc (c : Thread nD τ) ↦{fullShare} a4' : sProp 𝕄) = ptw (F := F) c cc0_scratch4 a4' from rfl)) $$ Ha4
  ihave Hsb1 := (Entails.of_eq (ownAt_eq c (SB 1))) $$ Hsb1
  icases Hsb1 with ⟨%h50, Hsb1⟩
  ihave Ha5 := (rest_join_at (disj_SA_SB 1) _ h50) $$ [Hsb1 Ha5]
  · iframe Hsb1 Ha5
  ihave Ha5 := (slice_join_ownAt c (SA 1) _) $$ [Hsa1 Ha5]
  · iframe Hsa1 Ha5
  icases Ha5 with ⟨%a5', Ha5⟩
  ihave Ha5 := (Entails.of_eq (show ((SA 1).view.loc (c : Thread nD τ) ↦{fullShare} a5' : sProp 𝕄) = ptw (F := F) c cc0_scratch5 a5' from rfl)) $$ Ha5
  sl_exec
  sl_step
  iexists K
  irw [QAB_34_eq, core_eq, localBufs_eq, heldBut_empty, heldBut_empty]
  -- the positions, one round on
  ihave Hpos := Hposback $$ [Hp20 Hp24 Hp25 Hp29 Hp30 Hp34 Hp35 Hp39]
  · iframe ∗ #
  -- the receive buffers take back the landed slots
  ihave HR00 := (ownAt_of c (R0 0) _) $$ HR00
  ihave HR01 := (ownAt_of c (R0 1) _) $$ HR01
  ihave HR10 := (ownAt_of c (R1 0) _) $$ HR10
  ihave HR11 := (ownAt_of c (R1 1) _) $$ HR11
  ihave Hr0 := (heldBut_rot4 c _ _ _ _ _) $$ Hr0
  ihave Hr0 := (heldBut_put_right c (R0 0) _ hd60) $$ [HR00 Hr0]
  · iframe HR00 Hr0
  ihave Hr0 := (heldBut_put_right c (R1 0) _ hd61) $$ [HR10 Hr0]
  · iframe HR10 Hr0
  ihave Hr1 := (heldBut_rot3 c _ _ _ _) $$ Hr1
  ihave Hr1 := (heldBut_put_right c (R0 1) _ hd70) $$ [HR01 Hr1]
  · iframe HR01 Hr1
  ihave Hr1 := (heldBut_put_right c (R1 1) _ hd71) $$ [HR11 Hr1]
  · iframe HR11 Hr1
  -- every buffer at some contents
  ihave HO := (ex_owes _ _ _) $$ HO
  ihave Hs0 := (ex_ptw c cc0_stg0_0 _) $$ Hs0
  ihave Hs1 := (ex_ptw c cc0_stg1_0 _) $$ Hs1
  ihave Hs2 := (ex_ptw c cc0_stg2_0 _) $$ Hs2
  ihave Hs3 := (ex_ptw c cc0_stg3_0 _) $$ Hs3
  ihave Hs4 := (ex_ptw c cc0_stg4_0 _) $$ Hs4
  ihave Hs5 := (ex_ptw c cc0_stg5_0 _) $$ Hs5
  ihave Hs6 := (ex_ptw c cc0_stg6_0 _) $$ Hs6
  ihave Hs7 := (ex_ptw c cc0_stg7_0 _) $$ Hs7
  ihave Ha2 := (ex_ptw c cc0_scratch2 _) $$ Ha2
  ihave Ha3 := (ex_ptw c cc0_scratch3 _) $$ Ha3
  ihave Ha4 := (ex_ptw c cc0_scratch4 _) $$ Ha4
  ihave Ha5 := (ex_ptw c cc0_scratch5 _) $$ Ha5
  ihave Ha8 := (ex_ptw c cc0_scratch8 _) $$ Ha8
  ihave Ha9 := (ex_ptw c cc0_scratch9 _) $$ Ha9
  ihave Hx0 := (ex_ptw c cc0_scratch0 _) $$ Hx0
  ihave Hx1 := (ex_ptw c cc0_scratch1 _) $$ Hx1
  iframe ∗ #

/-- info: 'Cert.KernelIdeal.Hand.seg12_ok' depends on axioms: [propext, Classical.choice, Quot.sound] -/
#guard_msgs in #print axioms seg12_ok

end Cert.KernelIdeal.Hand
end
-- ==== Proof.KernelIdeal.Seg14.lean ====
/- The last reduce step of the last layer (segment 14).

   Each stream sends the first 128 rows of its send buffer to the partner of the step, into the partner's 128-row
   receive slot, which the partner handed over before; nothing is handed over with these copies, the last of the
   body. The source rows are away from the enqueue to the send wait; the partner's rows land in the device's own
   128-row slot, which goes back into the receive buffer: after the four waits every buffer is whole and nothing
   is pending. -/
import proofs.«900979_g7700000000000980_dist_mlpseq_tp1d_bs_bs_b256_d256_h512_v7x_i8_bf16_1_alg».proof.Proof.KernelIdeal.Specs
import proofs.«900979_g7700000000000980_dist_mlpseq_tp1d_bs_bs_b256_d256_h512_v7x_i8_bf16_1_alg».proof.Proof.KernelIdeal.Steps
import proofs.«900979_g7700000000000980_dist_mlpseq_tp1d_bs_bs_b256_d256_h512_v7x_i8_bf16_1_alg».proof.Proof.KernelIdeal.QuietLemmas

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig ℕ (Elt F) ℕ UU ℕ

/-! ## The receive semaphores of the last step by number -/

theorem s14_rsR_02 : (rsR 0 2 : DmaSem sig) = dsem 27 := by decide
theorem s14_rsR_12 : (rsR 1 2 : DmaSem sig) = dsem 37 := by decide

/-! ## What the landing hands the partner: the slot as written, nothing else -/

theorem s14_payR27 (c : Dev nD) : iprop(ownAt (F := F) (xr 1 c) (R3h 0) ∗ emp) ⊢ payDma (xr 1 c) 27 1 :=
  (sep_emp (PROP := sProp 𝕄)).1
theorem s14_payR37 (c : Dev nD) : iprop(ownAt (F := F) (xr 3 c) (R3h 1) ∗ emp) ⊢ payDma (xr 3 c) 37 1 :=
  (sep_emp (PROP := sProp 𝕄)).1

/-! ## Stream 0: the first 128 rows of the send buffer, the 128-row slot of the receive buffer -/

/-- The rows the copy sends, out of the whole send buffer. -/
theorem s14_cutH0 (c : Dev nD) (f : Buf (Elt F) ((Memref.whole cc0_scratch4).view.loc (c : Thread nD τ))) :
    ptw (F := F) c cc0_scratch4 f
      ⊢ iprop(((SH 0).view.loc (c : Thread nD τ) ↦[(SH 0).view.set]{fullShare} f)
          ∗ ((Memref.whole cc0_scratch4).view.loc (c : Thread nD τ) ↦[Finset.univ \ (SH 0).view.set]{fullShare} f)) :=
  (slice_split c (SH 0) f).1

/-- Back at the send wait, at whatever contents: the send buffer is whole. -/
theorem s14_joinH0 (c : Dev nD) (f : Buf (Elt F) ((Memref.whole cc0_scratch4).view.loc (c : Thread nD τ))) :
    iprop(ownAt (F := F) c (SH 0)
        ∗ ((Memref.whole cc0_scratch4).view.loc (c : Thread nD τ) ↦[Finset.univ \ (SH 0).view.set]{fullShare} f))
      ⊢ iprop(∃ h, ptw (F := F) c cc0_scratch4 h) :=
  slice_join_ownAt c (SH 0) f

/-- The landed slot goes back into the receive buffer: nothing of it is away. -/
theorem s14_put0 (c : Dev nD) :
    iprop(ownAt (F := F) c (R3h 0) ∗ heldBut c cc0_scratch6 (R3h 0).view.set) ⊢ iprop(∃ h, ptw (F := F) c cc0_scratch6 h) := by
  rw [← heldBut_empty]; exact heldBut_put_only c (R3h 0)
/-! ## Stream 1: the first 128 rows of the send buffer, the 128-row slot of the receive buffer -/

/-- The rows the copy sends, out of the whole send buffer. -/
theorem s14_cutH1 (c : Dev nD) (f : Buf (Elt F) ((Memref.whole cc0_scratch5).view.loc (c : Thread nD τ))) :
    ptw (F := F) c cc0_scratch5 f
      ⊢ iprop(((SH 1).view.loc (c : Thread nD τ) ↦[(SH 1).view.set]{fullShare} f)
          ∗ ((Memref.whole cc0_scratch5).view.loc (c : Thread nD τ) ↦[Finset.univ \ (SH 1).view.set]{fullShare} f)) :=
  (slice_split c (SH 1) f).1

/-- Back at the send wait, at whatever contents: the send buffer is whole. -/
theorem s14_joinH1 (c : Dev nD) (f : Buf (Elt F) ((Memref.whole cc0_scratch5).view.loc (c : Thread nD τ))) :
    iprop(ownAt (F := F) c (SH 1)
        ∗ ((Memref.whole cc0_scratch5).view.loc (c : Thread nD τ) ↦[Finset.univ \ (SH 1).view.set]{fullShare} f))
      ⊢ iprop(∃ h, ptw (F := F) c cc0_scratch5 h) :=
  slice_join_ownAt c (SH 1) f

/-- The landed slot goes back into the receive buffer: nothing of it is away. -/
theorem s14_put1 (c : Dev nD) :
    iprop(ownAt (F := F) c (R3h 1) ∗ heldBut c cc0_scratch7 (R3h 1).view.set) ⊢ iprop(∃ h, ptw (F := F) c cc0_scratch7 h) := by
  rw [← heldBut_empty]; exact heldBut_put_only c (R3h 1)

/-- A whole buffer at some contents; what is owed under some set of waits. -/
theorem s14_some (c : Dev nD) (b : Ref sig .tc) (f : Buf (Elt F) ((Memref.whole b).view.loc (c : Thread nD τ))) :
    ptw (F := F) c b f ⊢ iprop(∃ h, ptw (F := F) c b h) :=
  exists_intro (Φ := fun h => ptw (F := F) c b h) f
theorem s14_someW (c : Dev nD) (n : ℕ) (W : Waits sig ℕ) :
    (owes (c : Thread nD τ) (owedFrom c n) W : sProp 𝕄) ⊢ iprop(∃ W, owes (c : Thread nD τ) (owedFrom c n) W) :=
  exists_intro (Φ := fun W => (owes (c : Thread nD τ) (owedFrom c n) W : sProp 𝕄)) W

/-! ## The two protocol steps as the program spells them

    The program names the partner by its printed device chain and the semaphores by their printed slices; each is
    equal to the protocol's partner and numbered semaphore. -/

/-- The copy rule at the printed partner and semaphores. -/
theorem s14_send (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-- The wait for copy `k` (credit index `ι = k + 1`) on cell `j`, when `n > k` copies are issued: everything still
    owed sits above it. The owner comes back one round on with what the landing hands over. -/
theorem s14_wait (c : Dev nD) (j r r' ι k n a : ℕ) (sW : DmaSem sig) (hsW : sW = dsem j) (hj : j < 40) (hr : r < nRounds j)
    (hr' : r' = r + 1) (hι : ι = k + 1) (ha : a = amtDma j r) (hk : k < n) (hn : n ≤ 38)
    (P : sProp 𝕄) (hP : payDma (F := F) c j r = P) (K : GSem nD τ sig → ℕ) (W : Waits sig ℕ)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = amtDma j r)
    {α : Type} {Q : α → sProp 𝕄} {kk : PUnit → Prog (TpuEff nD τ sig (Elt F) Λ₀ .tc) α} :
    iprop(invsAll (F := F) K ∗ levAts L lv ∗ cred (tallyAt (dcell c (dsem j)) ι a) ∗ owes (c : Thread nD τ) (owedFrom c n) W
        ∗ atPos ER (dcell c (dsem j)) r ∅ 0)
      ⊢ iprop(((owes (c : Thread nD τ) (owedFrom c n) (insert (.dma (dsem j), ι) W) ∗ atPos ER (dcell c (dsem j)) r' ∅ 0
              ∗ reached ER (dcell c (dsem j)) r' ∗ P)
            -∗ wp frame (wpE (defs₀ (F := F)) Variants.none (c : Thread nD τ) none) Set.univ (kk ⟨⟩) Q)
          -∗ wp frame (wpE (defs₀ (F := F)) Variants.none (c : Thread nD τ) none) Set.univ
              (.op (.waitDma2 sW src dst hsrc hdst) kk) Q) := by
  subst hsW hr' hι ha hP
  iintro ⟨#HI, #Hlev, Hc, HO, Hat⟩
  iapply (wp_wait_copy (F := F) c j r (k + 1) hj hr K (owedFrom c n) W (hw_waitDma2 c j r hN)) $$ [Hc HO Hat]
  isplitr
  · iexact HI
  isplitl [Hc]
  · iexact Hc
  isplitl [HO]
  · iexact HO
  isplitr
  · iapply (mayWait_copy (F := F) c (dsem j) k n hk hn)
    iexact Hlev
  iexact Hat

set_option maxHeartbeats 4000000 in
theorem seg14_ok (c : Dev nD) : Spec14 (F := F) c := by
  intro v2 v1657 v1659 v1661
  have hroute1 : τ.routes (c : Thread nD τ) (xr 1 c : Thread nD τ) = true := by revert c; decide +kernel
  have hroute3 : τ.routes (c : Thread nD τ) (xr 3 c : Thread nD τ) = true := by revert c; decide +kernel
  refine exists_elim fun K => ?_
  rw [QC_36_eq, core_eq, posAt_36, toks_seg_36, creds_seg_36, localBufs_eq, heldBut_empty, heldBut_empty, grant_eq, grant_eq,
    s14_rsR_02, s14_rsR_12]
  unfold seg14
  rw [k0_part54_eq_skeleton, k0_part55_eq_skeleton]
  unfold k0_part54_skel k0_part55_skel
  simp only [Prog.lift, Prog.bind_op, Prog.bind_ret, Prog.pure_eq_ret, Prog.bind_assoc]
  iintro ⟨⟨#HI, #HR, #Hlev, HatB, ⟨Ha8, #Hr8, Ha9, #Hr9, Ha10, #Hr10, Ha11, #Hr11, Ha12, #Hr12, Ha13, #Hr13, Ha14, #Hr14, Ha15, #Hr15, Ha16, #Hr16, Ha17, #Hr17, Ha18, #Hr18, Ha19, #Hr19, Ha20, #Hr20, Ha21, #Hr21, Ha22, #Hr22, Ha23, #Hr23, Ha24, #Hr24, Ha25, #Hr25, Ha26, #Hr26, Ha27, #Hr27, Ha28, #Hr28, Ha29, #Hr29, Ha30, #Hr30, Ha31, #Hr31, Ha32, #Hr32, Ha33, #Hr33, Ha34, #Hr34, Ha35, #Hr35, Ha36, #Hr36, Ha37, #Hr37, Ha38, #Hr38, Ha39, #Hr39⟩, ⟨⟨Ht22, Ht27⟩, ⟨Ht32, Ht37⟩, Htoks⟩, ⟨Hc27, Hc37, Hcreds⟩, ⟨%W, HO⟩, ⟨Hl0, Hl1, Hl2, Hl3, Hl4, Hl5, Hl6, ⟨%w7, Hl7⟩, ⟨%a2, HS2⟩, ⟨%a3, HS3⟩, ⟨%a4, HS4⟩, ⟨%a5, HS5⟩, HS8, HS9⟩⟩, Hs0, Hs1, Hs6, Hs7, ⟨Hd36, #Hrp36⟩, ⟨Hd37, #Hrp37⟩, He⟩
  -- the first stream's 128 rows, to the partner across 1
  ihave Hx := (s14_cutH0 (F := F) c a4) $$ HS4
  icases Hx with ⟨HsH0, HS4⟩
  iapply (s14_send (F := F) c (xr 1 c) _ (dev40_eq c) (SH 0) (R3h 0) 22 27 1 37 _ _ sem_rs0s_2 sem_rs0r_2
      (by decide) (by decide) (by decide) (by decide) (credit_R3h 0) rfl (iprop(emp)) fullShare a4 (ownAt_of c (SH 0) a4)
      (s14_payR27 c) K (owedFrom c 37) (owedFrom_succ c 36 (1, 27, 1) rfl) W hroute1) $$ [HsH0 Hd36 HO Ht22 Ht27]
  · iframe ∗ #
  iintro ⟨Hcs36, HO⟩
  -- the second stream's rows are cast and stored, then sent to the partner across 3
  sl_exec
  ihave Hx := (s14_cutH1 (F := F) c _) $$ HS5
  icases Hx with ⟨HsH1, HS5⟩
  iapply (s14_send (F := F) c (xr 3 c) _ (dev41_eq c) (SH 1) (R3h 1) 32 37 1 38 _ _ sem_rs1s_2 sem_rs1r_2
      (by decide) (by decide) (by decide) (by decide) ((credit_R3h 1).trans rfl) rfl (iprop(emp)) fullShare _ (ownAt_of c (SH 1) _)
      (s14_payR37 c) K (owedFrom c 38) (owedFrom_succ c 37 (3, 37, 1) rfl) W hroute3) $$ [HsH1 Hd37 HO Ht32 Ht37]
  · iframe ∗ #
  iintro ⟨Hcs37, HO⟩
  -- the first stream's copy: its source rows come back, then the partner's rows have landed
  iapply (s14_wait (F := F) c 22 1 2 37 36 38 (amtDma 27 1) _ sem_rs0s_2 (by decide) (by decide) rfl rfl rfl
      (by decide) (by decide) (ownAt c (SH 0)) rfl K _ ((credit_SH 0).trans rfl)) $$ [Hcs36 HO Ha22]
  · iframe ∗ #
  iintro ⟨HO, Ha22, #Hr22', HbH0⟩
  iapply (s14_wait (F := F) c 27 1 2 37 36 38 (amtDma 27 1) _ sem_rs0r_2 (by decide) (by decide) rfl rfl rfl
      (by decide) (by decide) (ownAt c (R3h 0)) rfl K _ (credit_R3h 0)) $$ [Hc27 HO Ha27]
  · iframe ∗ #
  iintro ⟨HO, Ha27, #Hr27', Hland0⟩
  -- the second stream's
  iapply (s14_wait (F := F) c 32 1 2 38 37 38 (amtDma 37 1) _ sem_rs1s_2 (by decide) (by decide) rfl rfl rfl
      (by decide) (by decide) (ownAt c (SH 1)) rfl K _ ((credit_SH 1).trans rfl)) $$ [Hcs37 HO Ha32]
  · iframe ∗ #
  iintro ⟨HO, Ha32, #Hr32', HbH1⟩
  iapply (s14_wait (F := F) c 37 1 2 38 37 38 (amtDma 37 1) _ sem_rs1r_2 (by decide) (by decide) rfl rfl rfl
      (by decide) (by decide) (ownAt c (R3h 1)) rfl K _ ((credit_R3h 1).trans rfl)) $$ [Hc37 HO Ha37]
  · iframe ∗ #
  iintro ⟨HO, Ha37, #Hr37', Hland1⟩
  -- every buffer is whole again
  ihave HS4 := (s14_joinH0 (F := F) c _) $$ [HbH0 HS4]
  · iframe ∗ #
  ihave HS5 := (s14_joinH1 (F := F) c _) $$ [HbH1 HS5]
  · iframe ∗ #
  ihave Hs6 := (s14_put0 (F := F) c) $$ [Hland0 Hs6]
  · iframe ∗ #
  ihave Hs7 := (s14_put1 (F := F) c) $$ [Hland1 Hs7]
  · iframe ∗ #
  icases Hs6 with ⟨%g6, Hs6⟩
  -- the landed rows are added and stored into the result's window
  sl_exec
  -- nothing is pending
  rw [wp_ret]; imodintro
  iexists K
  rw [Q38_eq, core_eq, posAt_38, localBufs_eq, heldBut_empty, heldBut_empty, heldBut_empty, heldBut_empty]
  ihave Hl7 := (s14_some (F := F) c cc0_stg7_0 _) $$ Hl7
  ihave HS2 := (s14_some (F := F) c cc0_scratch2 _) $$ HS2
  ihave HS3 := (s14_some (F := F) c cc0_scratch3 _) $$ HS3
  ihave Hs6 := (s14_some (F := F) c cc0_scratch6 _) $$ Hs6
  ihave HO := (s14_someW (F := F) c 38 _) $$ HO
  iframe ∗ #

/-- info: 'Cert.KernelIdeal.Hand.seg14_ok' depends on axioms: [propext, Classical.choice, Quot.sound] -/
#guard_msgs in #print axioms seg14_ok

end Cert.KernelIdeal.Hand

end
-- ==== Proof.KernelIdeal.Seg15.lean ====
/- The last segment of the body: the final loads and the store of the result, the 32 cells closed and their counters
   handed back, the buffers re-packed as the launch takes them. -/
import proofs.«900979_g7700000000000980_dist_mlpseq_tp1d_bs_bs_b256_d256_h512_v7x_i8_bf16_1_alg».proof.Proof.KernelIdeal.State
import proofs.«900979_g7700000000000980_dist_mlpseq_tp1d_bs_bs_b256_d256_h512_v7x_i8_bf16_1_alg».proof.Proof.KernelIdeal.Specs
import proofs.«900979_g7700000000000980_dist_mlpseq_tp1d_bs_bs_b256_d256_h512_v7x_i8_bf16_1_alg».proof.Proof.KernelIdeal.Steps

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.Tactic

omit [FloatOps F] in
/-- Nothing lent: the buffer is whole. -/
theorem heldBut_empty_eq (c : Dev nD) (b : Ref sig .tc) : heldBut (F := F) c b ∅ = iprop(∃ f, ptw (F := F) c b f) := by
  unfold heldBut
  simp only [Finset.sdiff_empty]

/-- A DMA cell all of whose rounds are consumed closes: its counter, at zero, is the device's again. -/
theorem close_dma (K : GSem nD τ sig → ℕ) (c : Dev nD) (j R : ℕ) (hj8 : 8 ≤ j) (hj : j < 40) (hR : nRounds j ≤ R) :
    iprop(invsAll (F := F) K ∗ atPos ER (dcell c (dsem j)) R ∅ 0) ⊢ iprop(|={Set.univ}=> semVal (dcell c (dsem j)) 0) := by
  iintro ⟨#HI, Hat⟩
  iapply (Rounds.cell_close ER (sched (F := F)) (Set.mem_univ (K (dcell c (dsem j)))) (fun h => h) (R := R)
    (fun r hr => duties_dma_later c j r hj (le_trans hR hr)))
  isplitr
  · iapply (invs_dma K c j hj8 hj); iexact HI
  · iexact Hat

omit [FloatOps F] in
/-- The 32 counters, one by one. -/
theorem sems_eq (c : Dev nD) :
    (bigSep (Finset.univ : Finset (Fin 32)) fun k => (semVal (dcell c (dsem (k.val + 8))) 0 : sProp 𝕄))
      = iprop(semVal (dcell c (dsem 8)) 0 ∗ semVal (dcell c (dsem 9)) 0 ∗ semVal (dcell c (dsem 10)) 0 ∗ semVal (dcell c (dsem 11)) 0 ∗ semVal (dcell c (dsem 12)) 0 ∗ semVal (dcell c (dsem 13)) 0 ∗ semVal (dcell c (dsem 14)) 0 ∗ semVal (dcell c (dsem 15)) 0 ∗ semVal (dcell c (dsem 16)) 0 ∗ semVal (dcell c (dsem 17)) 0 ∗ semVal (dcell c (dsem 18)) 0 ∗ semVal (dcell c (dsem 19)) 0 ∗ semVal (dcell c (dsem 20)) 0 ∗ semVal (dcell c (dsem 21)) 0 ∗ semVal (dcell c (dsem 22)) 0 ∗ semVal (dcell c (dsem 23)) 0 ∗ semVal (dcell c (dsem 24)) 0 ∗ semVal (dcell c (dsem 25)) 0 ∗ semVal (dcell c (dsem 26)) 0 ∗ semVal (dcell c (dsem 27)) 0 ∗ semVal (dcell c (dsem 28)) 0 ∗ semVal (dcell c (dsem 29)) 0 ∗ semVal (dcell c (dsem 30)) 0 ∗ semVal (dcell c (dsem 31)) 0 ∗ semVal (dcell c (dsem 32)) 0 ∗ semVal (dcell c (dsem 33)) 0 ∗ semVal (dcell c (dsem 34)) 0 ∗ semVal (dcell c (dsem 35)) 0 ∗ semVal (dcell c (dsem 36)) 0 ∗ semVal (dcell c (dsem 37)) 0 ∗ semVal (dcell c (dsem 38)) 0 ∗ semVal (dcell c (dsem 39)) 0) :=
  bigSep_univ_eq_bigSepL [(0 : Fin 32), (1 : Fin 32), (2 : Fin 32), (3 : Fin 32), (4 : Fin 32), (5 : Fin 32), (6 : Fin 32), (7 : Fin 32), (8 : Fin 32), (9 : Fin 32), (10 : Fin 32), (11 : Fin 32), (12 : Fin 32), (13 : Fin 32), (14 : Fin 32), (15 : Fin 32), (16 : Fin 32), (17 : Fin 32), (18 : Fin 32), (19 : Fin 32), (20 : Fin 32), (21 : Fin 32), (22 : Fin 32), (23 : Fin 32), (24 : Fin 32), (25 : Fin 32), (26 : Fin 32), (27 : Fin 32), (28 : Fin 32), (29 : Fin 32), (30 : Fin 32), (31 : Fin 32)] (by decide) (by decide) _

omit [FloatOps F] in
/-- A window's staging buffer held whole, as the pipeline takes it back: at some contents, nothing claimed of them. -/
theorem win_close (c : Dev nD) (b : Ref sig .tc) (f : Buf (Elt F) ((Memref.whole b).view.loc (c : Thread nD τ))) :
    ptw (F := F) c b f ⊢ iprop(∃ X, ⌜True⌝ ∗ owns (Ix := ℕ) (Name := ℕ) (U := UU) (Lvl := ℕ) (c : Thread nD τ) (Memref.whole b) fullShare X) := by
  iintro H
  iexists ((Memref.whole b).view.read (Elt F) f)
  isplitr
  · ipureintro <;> trivial
  unfold owns
  iexists f
  isplitr
  · ipureintro; rfl
  rw [show (Memref.whole b).view.set = Finset.univ from by rw [Memref.view_whole]; exact View.set_whole _]
  iexact H

set_option maxHeartbeats 1600000 in
theorem seg15_ok (m : (ℓ : Loc nD τ sig) → Buf (Elt F) ℓ) (c : Dev nD) : Spec15 (F := F) m c := by
  unfold Spec15 Q38 core localBufs posAt
  rw [heldBut_empty_eq, heldBut_empty_eq, heldBut_empty_eq, heldBut_empty_eq]
  iintro ⟨%K, ⟨#HI, #Hr, #Hlev, HatB, ⟨Hp8, #Hq8, Hp9, #Hq9, Hp10, #Hq10, Hp11, #Hq11, Hp12, #Hq12, Hp13, #Hq13, Hp14, #Hq14, Hp15, #Hq15, Hp16, #Hq16, Hp17, #Hq17, Hp18, #Hq18, Hp19, #Hq19, Hp20, #Hq20, Hp21, #Hq21, Hp22, #Hq22, Hp23, #Hq23, Hp24, #Hq24, Hp25, #Hq25, Hp26, #Hq26, Hp27, #Hq27, Hp28, #Hq28, Hp29, #Hq29, Hp30, #Hq30, Hp31, #Hq31, Hp32, #Hq32, Hp33, #Hq33, Hp34, #Hq34, Hp35, #Hq35, Hp36, #Hq36, Hp37, #Hq37, Hp38, #Hq38, Hp39, #Hq39⟩, Htoks, Hcreds, ⟨%W, HO⟩, ⟨%fw0, Hw0⟩, ⟨%fw1, Hw1⟩, ⟨%fw2, Hw2⟩, ⟨%fw3, Hw3⟩, ⟨%fw4, Hw4⟩, ⟨%fw5, Hw5⟩, ⟨%fw6, Hw6⟩, ⟨%fw7, Hw7⟩, ⟨%fa0, Ha0⟩, ⟨%fa1, Ha1⟩, ⟨%fs0, Hs0⟩, ⟨%fs1, Hs1⟩, ⟨%fb0, Hb0⟩, ⟨%fb1, Hb1⟩⟩, ⟨%x0, Hx0⟩, ⟨%x1, Hx1⟩, ⟨%y0, Hy0⟩, ⟨%y1, Hy1⟩⟩
  unfold seg15
  sl_exec
  imod (close_dma (F := F) K c 8 (roundsDone 38 8) (by decide) (by decide) (by decide)) $$ [Hp8] with Hz8
  · isplitr; · iexact HI
    iexact Hp8
  imod (close_dma (F := F) K c 9 (roundsDone 38 9) (by decide) (by decide) (by decide)) $$ [Hp9] with Hz9
  · isplitr; · iexact HI
    iexact Hp9
  imod (close_dma (F := F) K c 10 (roundsDone 38 10) (by decide) (by decide) (by decide)) $$ [Hp10] with Hz10
  · isplitr; · iexact HI
    iexact Hp10
  imod (close_dma (F := F) K c 11 (roundsDone 38 11) (by decide) (by decide) (by decide)) $$ [Hp11] with Hz11
  · isplitr; · iexact HI
    iexact Hp11
  imod (close_dma (F := F) K c 12 (roundsDone 38 12) (by decide) (by decide) (by decide)) $$ [Hp12] with Hz12
  · isplitr; · iexact HI
    iexact Hp12
  imod (close_dma (F := F) K c 13 (roundsDone 38 13) (by decide) (by decide) (by decide)) $$ [Hp13] with Hz13
  · isplitr; · iexact HI
    iexact Hp13
  imod (close_dma (F := F) K c 14 (roundsDone 38 14) (by decide) (by decide) (by decide)) $$ [Hp14] with Hz14
  · isplitr; · iexact HI
    iexact Hp14
  imod (close_dma (F := F) K c 15 (roundsDone 38 15) (by decide) (by decide) (by decide)) $$ [Hp15] with Hz15
  · isplitr; · iexact HI
    iexact Hp15
  imod (close_dma (F := F) K c 16 (roundsDone 38 16) (by decide) (by decide) (by decide)) $$ [Hp16] with Hz16
  · isplitr; · iexact HI
    iexact Hp16
  imod (close_dma (F := F) K c 17 (roundsDone 38 17) (by decide) (by decide) (by decide)) $$ [Hp17] with Hz17
  · isplitr; · iexact HI
    iexact Hp17
  imod (close_dma (F := F) K c 18 (roundsDone 38 18) (by decide) (by decide) (by decide)) $$ [Hp18] with Hz18
  · isplitr; · iexact HI
    iexact Hp18
  imod (close_dma (F := F) K c 19 (roundsDone 38 19) (by decide) (by decide) (by decide)) $$ [Hp19] with Hz19
  · isplitr; · iexact HI
    iexact Hp19
  imod (close_dma (F := F) K c 20 (roundsDone 38 20) (by decide) (by decide) (by decide)) $$ [Hp20] with Hz20
  · isplitr; · iexact HI
    iexact Hp20
  imod (close_dma (F := F) K c 21 (roundsDone 38 21) (by decide) (by decide) (by decide)) $$ [Hp21] with Hz21
  · isplitr; · iexact HI
    iexact Hp21
  imod (close_dma (F := F) K c 22 (roundsDone 38 22) (by decide) (by decide) (by decide)) $$ [Hp22] with Hz22
  · isplitr; · iexact HI
    iexact Hp22
  imod (close_dma (F := F) K c 23 (roundsDone 38 23) (by decide) (by decide) (by decide)) $$ [Hp23] with Hz23
  · isplitr; · iexact HI
    iexact Hp23
  imod (close_dma (F := F) K c 24 (roundsDone 38 24) (by decide) (by decide) (by decide)) $$ [Hp24] with Hz24
  · isplitr; · iexact HI
    iexact Hp24
  imod (close_dma (F := F) K c 25 (roundsDone 38 25) (by decide) (by decide) (by decide)) $$ [Hp25] with Hz25
  · isplitr; · iexact HI
    iexact Hp25
  imod (close_dma (F := F) K c 26 (roundsDone 38 26) (by decide) (by decide) (by decide)) $$ [Hp26] with Hz26
  · isplitr; · iexact HI
    iexact Hp26
  imod (close_dma (F := F) K c 27 (roundsDone 38 27) (by decide) (by decide) (by decide)) $$ [Hp27] with Hz27
  · isplitr; · iexact HI
    iexact Hp27
  imod (close_dma (F := F) K c 28 (roundsDone 38 28) (by decide) (by decide) (by decide)) $$ [Hp28] with Hz28
  · isplitr; · iexact HI
    iexact Hp28
  imod (close_dma (F := F) K c 29 (roundsDone 38 29) (by decide) (by decide) (by decide)) $$ [Hp29] with Hz29
  · isplitr; · iexact HI
    iexact Hp29
  imod (close_dma (F := F) K c 30 (roundsDone 38 30) (by decide) (by decide) (by decide)) $$ [Hp30] with Hz30
  · isplitr; · iexact HI
    iexact Hp30
  imod (close_dma (F := F) K c 31 (roundsDone 38 31) (by decide) (by decide) (by decide)) $$ [Hp31] with Hz31
  · isplitr; · iexact HI
    iexact Hp31
  imod (close_dma (F := F) K c 32 (roundsDone 38 32) (by decide) (by decide) (by decide)) $$ [Hp32] with Hz32
  · isplitr; · iexact HI
    iexact Hp32
  imod (close_dma (F := F) K c 33 (roundsDone 38 33) (by decide) (by decide) (by decide)) $$ [Hp33] with Hz33
  · isplitr; · iexact HI
    iexact Hp33
  imod (close_dma (F := F) K c 34 (roundsDone 38 34) (by decide) (by decide) (by decide)) $$ [Hp34] with Hz34
  · isplitr; · iexact HI
    iexact Hp34
  imod (close_dma (F := F) K c 35 (roundsDone 38 35) (by decide) (by decide) (by decide)) $$ [Hp35] with Hz35
  · isplitr; · iexact HI
    iexact Hp35
  imod (close_dma (F := F) K c 36 (roundsDone 38 36) (by decide) (by decide) (by decide)) $$ [Hp36] with Hz36
  · isplitr; · iexact HI
    iexact Hp36
  imod (close_dma (F := F) K c 37 (roundsDone 38 37) (by decide) (by decide) (by decide)) $$ [Hp37] with Hz37
  · isplitr; · iexact HI
    iexact Hp37
  imod (close_dma (F := F) K c 38 (roundsDone 38 38) (by decide) (by decide) (by decide)) $$ [Hp38] with Hz38
  · isplitr; · iexact HI
    iexact Hp38
  imod (close_dma (F := F) K c 39 (roundsDone 38 39) (by decide) (by decide) (by decide)) $$ [Hp39] with Hz39
  · isplitr; · iexact HI
    iexact Hp39
  rw [wp_ret]; imodintro
  unfold PostBody Φ₁ scratchAll Pipeline.RDat.owesAt Pipeline.owesWithin
  rw [sems_eq]
  isplitl [Hx0 Hx1 Ha0 Ha1 Hs0 Hs1 Hy0 Hy1 Hb0 Hb1 Hz8 Hz9 Hz10 Hz11 Hz12 Hz13 Hz14 Hz15 Hz16 Hz17 Hz18 Hz19 Hz20 Hz21 Hz22 Hz23 Hz24 Hz25 Hz26 Hz27 Hz28 Hz29 Hz30 Hz31 Hz32 Hz33 Hz34 Hz35 Hz36 Hz37 Hz38 Hz39]
  · isplitl [Hx0 Hx1 Ha0 Ha1 Hs0 Hs1 Hy0 Hy1 Hb0 Hb1]
    · skip
      isplitl [Hx0]; · (iexists _; iexact Hx0)
      isplitl [Hx1]; · (iexists _; iexact Hx1)
      isplitl [Ha0]; · (iexists _; iexact Ha0)
      isplitl [Ha1]; · (iexists _; iexact Ha1)
      isplitl [Hs0]; · (iexists _; iexact Hs0)
      isplitl [Hs1]; · (iexists _; iexact Hs1)
      isplitl [Hy0]; · (iexists _; iexact Hy0)
      isplitl [Hy1]; · (iexists _; iexact Hy1)
      isplitl [Hb0]; · (iexists _; iexact Hb0)
      iexists _; iexact Hb1
    · skip
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      isplitl [Hz19]; · iexact Hz19
      isplitl [Hz20]; · iexact Hz20
      isplitl [Hz21]; · iexact Hz21
      isplitl [Hz22]; · iexact Hz22
      isplitl [Hz23]; · iexact Hz23
      isplitl [Hz24]; · iexact Hz24
      isplitl [Hz25]; · iexact Hz25
      isplitl [Hz26]; · iexact Hz26
      isplitl [Hz27]; · iexact Hz27
      isplitl [Hz28]; · iexact Hz28
      isplitl [Hz29]; · iexact Hz29
      isplitl [Hz30]; · iexact Hz30
      isplitl [Hz31]; · iexact Hz31
      isplitl [Hz32]; · iexact Hz32
      isplitl [Hz33]; · iexact Hz33
      isplitl [Hz34]; · iexact Hz34
      isplitl [Hz35]; · iexact Hz35
      isplitl [Hz36]; · iexact Hz36
      isplitl [Hz37]; · iexact Hz37
      isplitl [Hz38]; · iexact Hz38
      iexact Hz39
  isplitl [HO]
  · iexists W
    isplitr; · (ipureintro; exact fun _ _ => Or.inl trivial)
    rw [show (rdats (F := F) m 0 c).owed Gen.t0_0.succ = 0 from rfl, ← owedFrom_end c]
    iexact HO
  isplitl [Hw0]
  · iapply (win_close (F := F) c cc0_stg0_0 _); iexact Hw0
  isplitl [Hw1]
  · iapply (win_close (F := F) c cc0_stg1_0 _); iexact Hw1
  isplitl [Hw2]
  · iapply (win_close (F := F) c cc0_stg2_0 _); iexact Hw2
  isplitl [Hw3]
  · iapply (win_close (F := F) c cc0_stg3_0 _); iexact Hw3
  isplitl [Hw4]
  · iapply (win_close (F := F) c cc0_stg4_0 _); iexact Hw4
  isplitl [Hw5]
  · iapply (win_close (F := F) c cc0_stg5_0 _); iexact Hw5
  isplitl [Hw6]
  · iapply (win_close (F := F) c cc0_stg6_0 _); iexact Hw6
  iapply (win_close (F := F) c cc0_stg7_0 _); iexact Hw7

end Cert.KernelIdeal.Hand
end
-- ==== Proof.KernelIdeal.Body.lean ====
import proofs.«900979_g7700000000000980_dist_mlpseq_tp1d_bs_bs_b256_d256_h512_v7x_i8_bf16_1_alg».proof.Proof.KernelIdeal.State
import proofs.«900979_g7700000000000980_dist_mlpseq_tp1d_bs_bs_b256_d256_h512_v7x_i8_bf16_1_alg».proof.Proof.KernelIdeal.Tables
import proofs.«900979_g7700000000000980_dist_mlpseq_tp1d_bs_bs_b256_d256_h512_v7x_i8_bf16_1_alg».proof.Proof.KernelIdeal.Levels
import proofs.«900979_g7700000000000980_dist_mlpseq_tp1d_bs_bs_b256_d256_h512_v7x_i8_bf16_1_alg».proof.Proof.KernelIdeal.Launch
import proofs.«900979_g7700000000000980_dist_mlpseq_tp1d_bs_bs_b256_d256_h512_v7x_i8_bf16_1_alg».proof.Proof.KernelIdeal.Specs
import proofs.«900979_g7700000000000980_dist_mlpseq_tp1d_bs_bs_b256_d256_h512_v7x_i8_bf16_1_alg».proof.Proof.KernelIdeal.Compose
import proofs.«900979_g7700000000000980_dist_mlpseq_tp1d_bs_bs_b256_d256_h512_v7x_i8_bf16_1_alg».proof.Proof.KernelIdeal.Seg1
import proofs.«900979_g7700000000000980_dist_mlpseq_tp1d_bs_bs_b256_d256_h512_v7x_i8_bf16_1_alg».proof.Proof.KernelIdeal.Seg2
import proofs.«900979_g7700000000000980_dist_mlpseq_tp1d_bs_bs_b256_d256_h512_v7x_i8_bf16_1_alg».proof.Proof.KernelIdeal.SegAB
import proofs.«900979_g7700000000000980_dist_mlpseq_tp1d_bs_bs_b256_d256_h512_v7x_i8_bf16_1_alg».proof.Proof.KernelIdeal.SegCD
import proofs.«900979_g7700000000000980_dist_mlpseq_tp1d_bs_bs_b256_d256_h512_v7x_i8_bf16_1_alg».proof.Proof.KernelIdeal.SegD
import proofs.«900979_g7700000000000980_dist_mlpseq_tp1d_bs_bs_b256_d256_h512_v7x_i8_bf16_1_alg».proof.Proof.KernelIdeal.Seg6
import proofs.«900979_g7700000000000980_dist_mlpseq_tp1d_bs_bs_b256_d256_h512_v7x_i8_bf16_1_alg».proof.Proof.KernelIdeal.SegAB7
import proofs.«900979_g7700000000000980_dist_mlpseq_tp1d_bs_bs_b256_d256_h512_v7x_i8_bf16_1_alg».proof.Proof.KernelIdeal.Seg9
import proofs.«900979_g7700000000000980_dist_mlpseq_tp1d_bs_bs_b256_d256_h512_v7x_i8_bf16_1_alg».proof.Proof.KernelIdeal.SegE
import proofs.«900979_g7700000000000980_dist_mlpseq_tp1d_bs_bs_b256_d256_h512_v7x_i8_bf16_1_alg».proof.Proof.KernelIdeal.SegAB12
import proofs.«900979_g7700000000000980_dist_mlpseq_tp1d_bs_bs_b256_d256_h512_v7x_i8_bf16_1_alg».proof.Proof.KernelIdeal.Seg14
import proofs.«900979_g7700000000000980_dist_mlpseq_tp1d_bs_bs_b256_d256_h512_v7x_i8_bf16_1_alg».proof.Proof.KernelIdeal.Seg15

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # One device's body, from the state the launch hands it to the state it hands back

   The body is the straight-line sequence of 38 remote copies with their waits, the entry handshake before them and the
   matrix products between them. It is proved segment by segment between the points where no copy is in flight and
   joined by the sequencing rule. -/

/-- The assertions between the segments: the launch's state, the fourteen quiet points, the closing state. -/
def Pst (m : (ℓ : Loc nD τ sig) → Buf (Elt F) ℓ) (c : Dev nD)
    (Y : (w : Fin cfg0.W) → (cfg0.win w).block.Idx → Elt F (cfg0.win w).elt) : Fin 16 → sProp 𝕄
  | ⟨0, _⟩ => PreBody (F := F) m c Y
  | ⟨1, _⟩ => iprop(∃ K, Q4 (F := F) K c)
  | ⟨2, _⟩ => iprop(∃ K, QE2 (F := F) K c 6 0)
  | ⟨3, _⟩ => iprop(∃ K, QAB (F := F) K c 10 0)
  | ⟨4, _⟩ => iprop(∃ K, QC (F := F) K c 12 0)
  | ⟨5, _⟩ => iprop(∃ K, QD (F := F) K c 14 0)
  | ⟨6, _⟩ => iprop(∃ K, QE2 (F := F) K c 18 1)
  | ⟨7, _⟩ => iprop(∃ K, QAB (F := F) K c 22 1)
  | ⟨8, _⟩ => iprop(∃ K, QC (F := F) K c 24 1)
  | ⟨9, _⟩ => iprop(∃ K, QD (F := F) K c 26 1)
  | ⟨10, _⟩ => iprop(∃ K, Q28 (F := F) K c)
  | ⟨11, _⟩ => iprop(∃ K, QE2 (F := F) K c 30 2)
  | ⟨12, _⟩ => iprop(∃ K, QAB (F := F) K c 34 2)
  | ⟨13, _⟩ => iprop(∃ K, QC (F := F) K c 36 2)
  | ⟨14, _⟩ => iprop(∃ K, Q38 (F := F) K c)
  | ⟨15, _⟩ => PostBody (F := F) m c
  | ⟨_ + 16, h⟩ => absurd h (by omega)

/-- The pipeline's body obligation on device `c`. -/
theorem body_obligation (m : (ℓ : Loc nD τ sig) → Buf (Elt F) ℓ) (c : Dev nD) :
    (rdats (F := F) m 0 c).BodyObligation (defs₀ (F := F)) Variants.none 0 Set.univ := fun t Y hY => by
  have h1 : Spec1 (F := F) m c := seg1_ok m c
  have h2 : Spec2 (F := F) c := seg2_ok c
  have h3 : Spec3 (F := F) c := seg3_ok c
  have h4 : Spec4 (F := F) c := seg4_ok c
  have h5 : Spec5 (F := F) c := seg5_ok c
  have h6 : Spec6 (F := F) c := seg6_ok c
  have h7 : Spec7 (F := F) c := seg7_ok c
  have h8 : Spec8 (F := F) c := seg8_ok c
  have h9 : Spec9 (F := F) c := seg9_ok c
  have h10 : Spec10 (F := F) c := seg10_ok c
  have h11 : Spec11 (F := F) c := seg11_ok c
  have h12 : Spec12 (F := F) c := seg12_ok c
  have h13 : Spec13 (F := F) c := seg13_ok c
  have h14 : Spec14 (F := F) c := seg14_ok c
  have h15 : Spec15 (F := F) m c := seg15_ok m c
  rw [Gen.fin_N0 t]
  rw [Gen.bigSep_W0, Gen.bigSep_W0]
  show PreBody (F := F) m c Y ⊢ wp frame (wpE (defs₀ (F := F)) Variants.none (c : Thread nD τ) none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) (fun _ => PostBody (F := F) m c)
  exact wp_segments (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (Pst m c Y) (h1 Y) h2 h3 h4 h5 h6 h7 h8 h9 h10 h11 h12 h13 h14 h15

/-- Every fair interleaving of the eight devices' threads terminates, faults nowhere and leaves the argument arrays as
    they were. -/
theorem frame_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of_body L_of_ne mayWait_stage m ρ (body_obligation m)

end Cert.KernelIdeal.Hand
end
-- ==== Proof.Kernel.Devs.lean ====
/- The partner of every addressed operation, in closed form.

   A device's three partners are `c xor 1`, `c xor 3` and `c xor 4` (the kernel's second map
   `(c and 4) + (3 - (c and 3))` is `c xor 3`). Every barrier signal and every remote copy of the body names one
   of them; which one, operation by operation in program order, is decided here over the eight devices. -/
import proofs.«900979_g7700000000000980_dist_mlpseq_tp1d_bs_bs_b256_d256_h512_v7x_i8_bf16_1_alg».proof.Proof.Gen.Kernel

namespace Cert.Kernel.Hand

open Cert.Kernel Idealize.ShloMosaic

/-- Device `c`'s partner across the mask `k` (1, 3 or 4): an involution of the eight devices. -/
def xr (k : Fin 8) (c : Dev nD) : Dev nD := ⟨c.val ^^^ k.val, by revert k c; decide⟩

theorem xr_xr (k : Fin 8) (c : Dev nD) : xr k (xr k c) = c := by revert k c; decide
theorem xr_ne {k : Fin 8} (hk : k ≠ 0) (c : Dev nD) : xr k c ≠ c := by revert k c; decide

/-- The three barrier signals go to `c xor 1`, `c xor 3`, `c xor 4`. -/
theorem dev_barrier : ∀ c : Dev nD, k0_dev1 c = c.val ^^^ 1 ∧ k0_dev2 c = c.val ^^^ 3 ∧ k0_dev3 c = c.val ^^^ 4 := by decide +kernel

/-- Layer 0: the gather's three exchanges of each stream, then the reduce's four sends of each stream. -/
theorem dev_layer0 : ∀ c : Dev nD,
    k0_dev4 c = c.val ^^^ 1 ∧ k0_dev5 c = c.val ^^^ 3 ∧ k0_dev6 c = c.val ^^^ 3 ∧ k0_dev7 c = c.val ^^^ 4 ∧ k0_dev8 c = c.val ^^^ 4 ∧ k0_dev9 c = c.val ^^^ 1 ∧ k0_dev10 c = c.val ^^^ 4 ∧ k0_dev11 c = c.val ^^^ 1 ∧ k0_dev12 c = c.val ^^^ 4 ∧ k0_dev13 c = c.val ^^^ 1 ∧ k0_dev14 c = c.val ^^^ 3 ∧ k0_dev15 c = c.val ^^^ 4 ∧ k0_dev16 c = c.val ^^^ 1 ∧ k0_dev17 c = c.val ^^^ 3 := by decide +kernel

/-- Layer 1. -/
theorem dev_layer1 : ∀ c : Dev nD,
    k0_dev18 c = c.val ^^^ 3 ∧ k0_dev19 c = c.val ^^^ 4 ∧ k0_dev20 c = c.val ^^^ 4 ∧ k0_dev21 c = c.val ^^^ 1 ∧ k0_dev22 c = c.val ^^^ 4 ∧ k0_dev23 c = c.val ^^^ 1 ∧ k0_dev24 c = c.val ^^^ 4 ∧ k0_dev25 c = c.val ^^^ 1 ∧ k0_dev26 c = c.val ^^^ 3 ∧ k0_dev27 c = c.val ^^^ 4 ∧ k0_dev28 c = c.val ^^^ 1 ∧ k0_dev29 c = c.val ^^^ 3 := by decide +kernel

/-- Layer 2. -/
theorem dev_layer2 : ∀ c : Dev nD,
    k0_dev30 c = c.val ^^^ 3 ∧ k0_dev31 c = c.val ^^^ 4 ∧ k0_dev32 c = c.val ^^^ 4 ∧ k0_dev33 c = c.val ^^^ 1 ∧ k0_dev34 c = c.val ^^^ 4 ∧ k0_dev35 c = c.val ^^^ 1 ∧ k0_dev36 c = c.val ^^^ 4 ∧ k0_dev37 c = c.val ^^^ 1 ∧ k0_dev38 c = c.val ^^^ 3 ∧ k0_dev39 c = c.val ^^^ 4 ∧ k0_dev40 c = c.val ^^^ 1 ∧ k0_dev41 c = c.val ^^^ 3 := by decide +kernel

end Cert.Kernel.Hand
-- ==== Proof.Kernel.Cells.lean ====
/- The cells of the protocol and their schedule.

   Each device owns 33 cells: the runtime's barrier semaphore and the 32 DMA semaphores of the two streams' gather
   (send / receive, three exchanges) and reduce (send / receive, five slots). A round of a DMA cell is one remote copy
   of one layer; round 0 of the barrier cell is the three partners' entry signals.
   What a landing hands the cell's owner: the slice it wrote, at some contents, and the ownership of the sender's own
   slots that the owner writes next, each with the fact that the sender's receive cell has reached that copy's round.
   That second part is the whole race argument: a device can only start a copy into a partner's buffer once the
   partner has handed the slot over, which it does only after its last read of it. -/
import proofs.«900979_g7700000000000980_dist_mlpseq_tp1d_bs_bs_b256_d256_h512_v7x_i8_bf16_1_alg».proof.Proof.Kernel.Devs
import proofs.«900979_g7700000000000980_dist_mlpseq_tp1d_bs_bs_b256_d256_h512_v7x_i8_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's copy (one duty a round) beside the protocol's (three duties on the barrier) -/

abbrev DD : Type := Fin 3
abbrev UB : Type := URounds (GSem nD τ sig) DD
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Buffers and slices, spelt as the body spells them -/

abbrev XF : Fin 2 → Memref sig .tc .vmem S1024x256 .bf16
  | 0 => Memref.whole cc0_scratch0
  | 1 => Memref.whole cc0_scratch1
abbrev SND : Fin 2 → Memref sig .tc .vmem S512x256 .bf16
  | 0 => Memref.whole cc0_scratch4
  | 1 => Memref.whole cc0_scratch5
abbrev RCV : Fin 2 → Memref sig .tc .vmem S1280x256 .bf16
  | 0 => Memref.whole cc0_scratch6
  | 1 => Memref.whole cc0_scratch7

/-- The row block a device sends in the first exchange: its own 128 rows. -/
abbrev VE0 : Fin 2 → Dev nD → Memref sig .tc .vmem S128x256 .bf16
  | 0, c => (XF 0).slice (Rect.unit (s := S1024x256) (k0_off3 c) S128x256.size (k0_off3_inb c)) (fun _ => rfl)
  | 1, c => (XF 1).slice (Rect.unit (s := S1024x256) (k0_off4 c) S128x256.size (k0_off4_inb c)) (fun _ => rfl)
/-- In the second exchange: its aligned pair of blocks. -/
abbrev VE1 : Fin 2 → Dev nD → Memref sig .tc .vmem S256x256 .bf16
  | 0, c => (XF 0).slice (Rect.unit (s := S1024x256) (k0_off5 c) S256x256.size (k0_off5_inb c)) (fun _ => rfl)
  | 1, c => (XF 1).slice (Rect.unit (s := S1024x256) (k0_off6 c) S256x256.size (k0_off6_inb c)) (fun _ => rfl)
/-- In the third: its aligned four blocks. -/
abbrev VE2 : Fin 2 → Dev nD → Memref sig .tc .vmem S512x256 .bf16
  | 0, c => (XF 0).slice (Rect.unit (s := S1024x256) (k0_off9 c) S512x256.size (k0_off9_inb c)) (fun _ => rfl)
  | 1, c => (XF 1).slice (Rect.unit (s := S1024x256) (k0_off10 c) S512x256.size (k0_off10_inb c)) (fun _ => rfl)

/-- The send buffer's two halves, and its first 128 rows (the last layer's last step). -/
abbrev SA (s : Fin 2) : Memref sig .tc .vmem S256x256 .bf16 :=
  (SND s).slice (Rect.unit (s := S512x256) ![0, 0] S256x256.size inb_S512x256_S256x256_0_0) (fun _ => rfl)
abbrev SB (s : Fin 2) : Memref sig .tc .vmem S256x256 .bf16 :=
  (SND s).slice (Rect.unit (s := S512x256) ![256, 0] S256x256.size inb_S512x256_S256x256_256_0) (fun _ => rfl)
abbrev SH (s : Fin 2) : Memref sig .tc .vmem S128x256 .bf16 :=
  (SND s).slice (Rect.unit (s := S512x256) ![0, 0] S128x256.size inb_S512x256_S128x256_0_0) (fun _ => rfl)

/-- The receive buffer's five slots of 256 rows (at rows 0, 256, 512, 768, 1024), and the 128-row slot at 768. -/
abbrev R0 (s : Fin 2) : Memref sig .tc .vmem S256x256 .bf16 :=
  (RCV s).slice (Rect.unit (s := S1280x256) ![0, 0] S256x256.size inb_S1280x256_S256x256_0_0) (fun _ => rfl)
abbrev R1 (s : Fin 2) : Memref sig .tc .vmem S256x256 .bf16 :=
  (RCV s).slice (Rect.unit (s := S1280x256) ![256, 0] S256x256.size inb_S1280x256_S256x256_256_0) (fun _ => rfl)
abbrev R2 (s : Fin 2) : Memref sig .tc .vmem S256x256 .bf16 :=
  (RCV s).slice (Rect.unit (s := S1280x256) ![512, 0] S256x256.size inb_S1280x256_S256x256_512_0) (fun _ => rfl)
abbrev R3 (s : Fin 2) : Memref sig .tc .vmem S256x256 .bf16 :=
  (RCV s).slice (Rect.unit (s := S1280x256) ![768, 0] S256x256.size inb_S1280x256_S256x256_768_0) (fun _ => rfl)
abbrev R4 (s : Fin 2) : Memref sig .tc .vmem S256x256 .bf16 :=
  (RCV s).slice (Rect.unit (s := S1280x256) ![1024, 0] S256x256.size inb_S1280x256_S256x256_1024_0) (fun _ => rfl)
abbrev R3h (s : Fin 2) : Memref sig .tc .vmem S128x256 .bf16 :=
  (RCV s).slice (Rect.unit (s := S1280x256) ![768, 0] S128x256.size inb_S1280x256_S128x256_768_0) (fun _ => rfl)

/-- The elements of a view on device `p`, at some contents. -/
def ownAt (p : Dev nD) {s : Shape} {e : EltTy} (M : Memref sig .tc .vmem s e) : sProp 𝕄 :=
  iprop(∃ f : Buf (Elt F) (M.view.loc (p : Thread nD τ)), (M.view.loc (p : Thread nD τ)) ↦[M.view.set]{fullShare} f)

/-- Half a share of a view's elements on device `p`, at some contents: what a copy borrows of a source the device
    keeps reading while the copy is in flight. -/
def ownHalf (p : Dev nD) {s : Shape} {e : EltTy} (M : Memref sig .tc .vmem s e) : sProp 𝕄 :=
  iprop(∃ f : Buf (Elt F) (M.view.loc (p : Thread nD τ)), (M.view.loc (p : Thread nD τ)) ↦[M.view.set]{fullShare.left} f)

instance ownHalf_storable (p : Dev nD) {s : Shape} {e : EltTy} (M : Memref sig .tc .vmem s e) :
    BI.Storable (upEmb : UEmb _ 𝕄) (ownHalf (F := F) p M) := by unfold ownHalf; infer_instance

/-! ## The cells -/

abbrev barS : Sem sig := (SemArray.scalar (sig.barrier 0 rfl) : Sems sig S_).sem
abbrev barCell (c : Dev nD) : GSem nD τ sig := ((c : Thread nD τ), .reg barS)
abbrev dcell (c : Dev nD) (i : DmaSem sig) : GSem nD τ sig := ((c : Thread nD τ), .dma i)

/-- The gather's semaphores: stream `s`, exchange `r`; send at 8 + 6s + r, receive at 11 + 6s + r. -/
def agS (s : Fin 2) (r : Fin 3) : DmaSem sig := ⟨8 + 6 * s.val + r.val, by revert s r; decide⟩
def agR (s : Fin 2) (r : Fin 3) : DmaSem sig := ⟨11 + 6 * s.val + r.val, by revert s r; decide⟩
/-- The reduce's: stream `s`, slot `i`; send at 20 + 10s + i, receive at 25 + 10s + i. -/
def rsS (s : Fin 2) (i : Fin 5) : DmaSem sig := ⟨20 + 10 * s.val + i.val, by revert s i; decide⟩
def rsR (s : Fin 2) (i : Fin 5) : DmaSem sig := ⟨25 + 10 * s.val + i.val, by revert s i; decide⟩

end Cert.Kernel.Hand

end
-- ==== Proof.Kernel.Sched.lean ====
/- The schedule: for every cell and round, who pays, how much, and what the landing hands the owner.

   Round `l` of a gather or reduce cell is that copy in layer `l` (the first exchange's cells have round 0 only; the
   last reduce step alternates between two cells, so one has rounds for layers 0 and 2, the other for layer 1).
   A receive cell's payload is the slice that was written, at some contents, together with the slots the sender
   hands over for the owner's next copies to it (`grant`): the latest earlier landing from that partner whose wait
   precedes the enqueue carries the grant, the partner's entry signal for the first copy of each chain.
   A send cell's payload is the source slice coming back: the whole share, except for the second and third exchanges,
   whose source rows the device keeps reading (its matrix products run on them while the copy is in flight), so that
   the copy borrows half a share only. -/
import proofs.«900979_g7700000000000980_dist_mlpseq_tp1d_bs_bs_b256_d256_h512_v7x_i8_bf16_1_alg».proof.Proof.Kernel.Cells

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Partner `p` hands over a slot of its own buffer, with the fact that its receive cell `i` has reached round `r`. -/
def grant (p : Dev nD) {s : Shape} {e : EltTy} (M : Memref sig .tc .vmem s e) (i : DmaSem sig) (r : ℕ) : sProp 𝕄 :=
  iprop(ownAt p M ∗ reached ER (dcell p i) r)

/-- The slot of the last reduce step of stream `s` in layer `l` on partner `p`: rows 768.. in layers 0 and 2
    (128 rows in layer 2), rows 1024.. in layer 1; on the semaphore of slot 2 (rounds 0 and 1) or slot 3. -/
def grantLast (p : Dev nD) (s : Fin 2) : ℕ → sProp 𝕄
  | 0 => grant p (R3 s) (rsR s 2) 0
  | 1 => grant p (R4 s) (rsR s 3) 0
  | _ => grant p (R3h s) (rsR s 2) 1

/-- How many rounds a DMA semaphore has: the pipeline's staging semaphores (0..7) none here. -/
def nRounds (j : ℕ) : ℕ :=
  if j < 8 then 0
  else if j < 20 then (if (j - 8) % 3 = 0 then 1 else 3)
  else if j < 40 then (match (j - 20) % 5 with | 2 => 2 | 3 => 1 | _ => 3)
  else 0

/-- What a landing on DMA semaphore `j` of device `c` hands over in round `l`. -/
def payDma (c : Dev nD) : ℕ → ℕ → sProp 𝕄
  -- gather, stream 0: sources back (8, 9, 10); landings (11, 12, 13)
  | 8, _ => ownAt c (VE0 0 c)
  | 9, _ => ownHalf c (VE1 0 c)
  | 10, _ => ownHalf c (VE2 0 c)
  | 11, _ => iprop(ownAt c (VE0 0 (xr 1 c)) ∗ grant (xr 1 c) (VE2 1 c) (agR 1 2) 0)
  | 12, l => iprop(ownAt c (VE1 0 (xr 3 c)) ∗ grant (xr 3 c) (R2 0) (rsR 0 1) l)
  | 13, l => iprop(ownAt c (VE2 0 (xr 4 c)) ∗ grant (xr 4 c) (R0 0) (rsR 0 0) l ∗ grant (xr 4 c) (R1 0) (rsR 0 4) l)
  -- gather, stream 1: sources back (14, 15, 16); landings (17, 18, 19)
  | 14, _ => ownAt c (VE0 1 c)
  | 15, _ => ownHalf c (VE1 1 c)
  | 16, _ => ownHalf c (VE2 1 c)
  | 17, _ => iprop(ownAt c (VE0 1 (xr 3 c)) ∗ grant (xr 3 c) (VE1 0 c) (agR 0 1) 0)
  | 18, l => iprop(ownAt c (VE1 1 (xr 4 c)) ∗ grant (xr 4 c) (VE2 0 c) (agR 0 2) l)
  | 19, l => iprop(ownAt c (VE2 1 (xr 1 c)) ∗ grant (xr 1 c) (R0 1) (rsR 1 0) l ∗ grant (xr 1 c) (R1 1) (rsR 1 4) l)
  -- reduce, stream 0: sources back (20 first half, 21 first half, 22 first half / 128 rows in its round 1, 23 first half, 24 second half)
  | 20, _ => ownAt c (SA 0)
  | 21, _ => ownAt c (SA 0)
  | 22, 0 => ownAt c (SA 0)
  | 22, _ => ownAt c (SH 0)
  | 23, _ => ownAt c (SA 0)
  | 24, _ => ownAt c (SB 0)
  -- reduce, stream 0: landings from c xor 4 (25, 29), c xor 3 (26), c xor 1 (27, 28)
  | 25, _ => ownAt c (R0 0)
  | 26, l => iprop(ownAt c (R2 0) ∗ grantLast (xr 3 c) 1 l)
  | 27, 0 => iprop(ownAt c (R3 0) ∗ grant (xr 1 c) (VE2 1 c) (agR 1 2) 1)
  | 27, _ => ownAt c (R3h 0)
  | 28, _ => iprop(ownAt c (R4 0) ∗ grant (xr 1 c) (VE2 1 c) (agR 1 2) 2)
  | 29, l => iprop(ownAt c (R1 0) ∗ grant (xr 4 c) (R2 1) (rsR 1 1) l)
  -- reduce, stream 1: sources back
  | 30, _ => ownAt c (SA 1)
  | 31, _ => ownAt c (SA 1)
  | 32, 0 => ownAt c (SA 1)
  | 32, _ => ownAt c (SH 1)
  | 33, _ => ownAt c (SA 1)
  | 34, _ => ownAt c (SB 1)
  -- reduce, stream 1: landings from c xor 1 (35, 39), c xor 4 (36), c xor 3 (37, 38)
  | 35, _ => ownAt c (R0 1)
  | 36, 0 => iprop(ownAt c (R2 1) ∗ grant (xr 4 c) (VE1 1 c) (agR 1 1) 1)
  | 36, 1 => iprop(ownAt c (R2 1) ∗ grant (xr 4 c) (VE1 1 c) (agR 1 1) 2)
  | 36, _ => ownAt c (R2 1)
  | 37, 0 => iprop(ownAt c (R3 1) ∗ grant (xr 3 c) (VE1 0 c) (agR 0 1) 1)
  | 37, _ => ownAt c (R3h 1)
  | 38, _ => iprop(ownAt c (R4 1) ∗ grant (xr 3 c) (VE1 0 c) (agR 0 1) 2)
  | 39, l => iprop(ownAt c (R1 1) ∗ grantLast (xr 1 c) 0 l)
  | _, _ => iprop(emp)

/-- What partner number `d` (0: c xor 1, 1: c xor 3, 2: c xor 4) hands over with its entry signal: the slot of the
    first copy of the chain with that partner. -/
def payBar (c : Dev nD) : DD → sProp 𝕄
  | 0 => grant (xr 1 c) (VE0 0 c) (agR 0 0) 0
  | 1 => grant (xr 3 c) (VE0 1 c) (agR 1 0) 0
  | 2 => grant (xr 4 c) (VE1 1 c) (agR 1 1) 0

/-- The units of a round of DMA semaphore `j`: the bits of the slice the copy moves. -/
def amtDma (j r : ℕ) : ℕ :=
  if j < 20 then (match (j - 8) % 3 with
      | 0 => (VE0 0 (0 : Dev nD)).view.dmaCredit | 1 => (VE1 0 (0 : Dev nD)).view.dmaCredit | _ => (VE2 0 (0 : Dev nD)).view.dmaCredit)
  else if (j - 20) % 5 = 2 ∧ r = 1 then (R3h 0).view.dmaCredit else (R0 0).view.dmaCredit

theorem amtDma_pos (j r : ℕ) : 0 < amtDma j r := by
  unfold amtDma
  split
  · split <;> exact View.dmaCredit_pos _ (by decide)
  · split <;> exact View.dmaCredit_pos _ (by decide)

/-- The schedule. The barrier cell: round 0, one duty per partner, one unit each. A DMA cell: one duty a round. -/
def sched : Rounds.Schedule (GSem nD τ sig) DD 𝕄 where
  duties g r := if g.1.2 = .tc then
      (match g.2 with
        | .reg s => if s = barS ∧ r = 0 then Finset.univ else ∅
        | .dma i => if r < nRounds i.val then {0} else ∅)
    else ∅
  amount g r _ := match g.2 with
    | .reg _ => 1
    | .dma i => amtDma i.val r
  payload g r d := match g.2 with
    | .reg _ => payBar g.1.1 d
    | .dma i => payDma g.1.1 i.val r
  amount_pos g r d _ := by
    cases g.2 with
    | reg _ => exact Nat.one_pos
    | dma i => exact amtDma_pos _ _

end Cert.Kernel.Hand

end
-- ==== Proof.Kernel.State.lean ====
/- The copies in program order, what each device owes at launch, the levels, and the states before and after the body.

   The same 38 remote copies are issued by every device, in the same order; copy number `k` of device `c` goes to
   `c xor mask k` and credits that partner's receive semaphore `recvSem k` in round `round k` (and `c`'s own send
   semaphore, three below for the gather, five below for the reduce, in the same round). The partner's copy `k` is the
   one that lands on `c`.
   Levels: a wait is allowed below everything still owed. Tallies and credits of copy `k` carry the index `k + 1`
   and sit at level `k + 2`; the three entry signals carry index 0, the barrier cell sits at level 1 and the
   pipeline's own staging cells at level 0. -/
import proofs.«900979_g7700000000000980_dist_mlpseq_tp1d_bs_bs_b256_d256_h512_v7x_i8_bf16_1_alg».proof.Proof.Kernel.Sched

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- A DMA semaphore by its number. -/
def dsem (j : ℕ) : DmaSem sig := if h : j < 40 then ⟨j, h⟩ else 0

/-- The 38 copies in program order: (partner mask, receive semaphore, round). -/
def copyTab : List (Fin 8 × ℕ × ℕ) :=
  [(1, 11, 0), (3, 17, 0), (3, 12, 0), (4, 18, 0), (4, 13, 0), (1, 19, 0),
   (4, 25, 0), (1, 35, 0), (4, 29, 0), (1, 39, 0), (3, 26, 0), (4, 36, 0), (1, 27, 0), (3, 37, 0),
   (3, 12, 1), (4, 18, 1), (4, 13, 1), (1, 19, 1),
   (4, 25, 1), (1, 35, 1), (4, 29, 1), (1, 39, 1), (3, 26, 1), (4, 36, 1), (1, 28, 0), (3, 38, 0),
   (3, 12, 2), (4, 18, 2), (4, 13, 2), (1, 19, 2),
   (4, 25, 2), (1, 35, 2), (4, 29, 2), (1, 39, 2), (3, 26, 2), (4, 36, 2), (1, 27, 1), (3, 37, 1)]

/-- The send semaphore of a copy whose receive semaphore is `j`. -/
def sendOf (j : ℕ) : ℕ := if j < 20 then j - 3 else j - 5

/-- What copy number `k` (entry `e` of the table) makes device `c` owe: the partner's receive cell its units. -/
def tallyOf (c : Dev nD) (k : ℕ) (e : Fin 8 × ℕ × ℕ) : CellTallies nD τ sig ℕ :=
  tallyAt (dcell (xr e.1 c) (dsem e.2.1)) (k + 1) (amtDma e.2.1 e.2.2)

/-- What device `c` still owes once copies `0 .. n-1` are issued (later copies further out in the sum). -/
def owedAux (c : Dev nD) : ℕ → List (Fin 8 × ℕ × ℕ) → CellTallies nD τ sig ℕ
  | _, [] => 0
  | k, e :: es => owedAux c (k + 1) es + tallyOf c k e
def owedFrom (c : Dev nD) (n : ℕ) : CellTallies nD τ sig ℕ := owedAux c n (copyTab.drop n)

/-- At launch: every copy, and one unit to each partner's barrier cell; the first signal (to `c xor 1`) is the
    outermost summand, then `c xor 3`, then `c xor 4`. -/
def O₂ (c : Dev nD) : CellTallies nD τ sig ℕ := owedFrom c 0 + tallyAt (barCell (xr 4 c)) 0 1
def O₁ (c : Dev nD) : CellTallies nD τ sig ℕ := O₂ c + tallyAt (barCell (xr 3 c)) 0 1
def O₀ (c : Dev nD) : CellTallies nD τ sig ℕ := O₁ c + tallyAt (barCell (xr 1 c)) 0 1

/-- The indices a TensorCore cell may be waited or owed at. -/
def L (g : GSem nD τ sig) : Finset ℕ := if g.1.2 = .tc then Finset.range 39 else ∅
/-- Barrier cells at 1; otherwise index 0 (the pipeline's staging waits) at 0 and copy `k`'s index `k + 1` at `k + 2`. -/
def lv (g : GSem nD τ sig) (i : ℕ) : ℕ := if g.2 = .reg barS then 1 else if i = 0 then 0 else i + 1

/-! ## The protocol's cells, and what a device holds before and after the body -/

/-- Device `c`'s 33 cells: the barrier's, then the DMA semaphores 8 .. 39. -/
def kcell (ck : Dev nD × Fin 33) : GSem nD τ sig :=
  if ck.2.val = 0 then barCell ck.1 else dcell ck.1 (dsem (ck.2.val + 7))

/-- Every cell's invariant, at the names `K`: persistent, held by every device. -/
def invsAll (K : GSem nD τ sig → ℕ) : sProp 𝕄 :=
  bigSep (Finset.univ : Finset (Dev nD × Fin 33)) fun ck => cellInv ER (sched (F := F)) (K (kcell ck)) (kcell ck)
/-- Round 0 of every cell is reached at launch. -/
def reachedAll : sProp 𝕄 :=
  bigSep (Finset.univ : Finset (Dev nD × Fin 33)) fun ck => reached ER (kcell ck) 0
/-- The owner's positions at launch. -/
def posAll (c : Dev nD) : sProp 𝕄 :=
  bigSep (Finset.univ : Finset (Fin 33)) fun k => atPos ER (kcell (c, k)) 0 ∅ 0

/-- The duty tokens device `c` pays with: its place (0, 1, 2) on each partner's barrier cell, and for each copy the
    duty of its own send cell and of the partner's receive cell. -/
def toksCopies (c : Dev nD) : ℕ → List (Fin 8 × ℕ × ℕ) → sProp 𝕄
  | _, [] => iprop(emp)
  | k, e :: es => iprop((dutyTok ER (dcell c (dsem (sendOf e.2.1))) e.2.2 (0 : DD) ∗ dutyTok ER (dcell (xr e.1 c) (dsem e.2.1)) e.2.2 (0 : DD))
      ∗ toksCopies c (k + 1) es)
def toks (c : Dev nD) : sProp 𝕄 :=
  iprop(dutyTok ER (barCell (xr 1 c)) 0 (0 : DD) ∗ dutyTok ER (barCell (xr 3 c)) 0 (1 : DD) ∗ dutyTok ER (barCell (xr 4 c)) 0 (2 : DD)
    ∗ toksCopies c 0 copyTab)

/-- The credit tokens device `c` is dealt: its barrier cell's three units and, for each copy, the units the
    partner's copy of the same number lands on `c`'s receive cell. -/
def credsCopies (c : Dev nD) : ℕ → List (Fin 8 × ℕ × ℕ) → sProp 𝕄
  | _, [] => iprop(emp)
  | k, e :: es => iprop(cred (tallyAt (dcell c (dsem e.2.1)) (k + 1) (amtDma e.2.1 e.2.2)) ∗ credsCopies c (k + 1) es)
def creds (c : Dev nD) : sProp 𝕄 :=
  iprop(cred (tallyAt (barCell c) 0 3) ∗ credsCopies c 0 copyTab)

/-- The ten scratch buffers, each whole at some contents. -/
def scratchAll (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f)
    ∗ (∃ f : Buf (Elt F) ((c : Thread nD τ).loc cc0_scratch9), ((c : Thread nD τ).loc cc0_scratch9) ↦{fullShare} f))

/-- The ghost state of the protocol a device starts from, at some names of the invariants. -/
def ghost (K : GSem nD τ sig → ℕ) (c : Dev nD) : sProp 𝕄 :=
  iprop(invsAll (F := F) K ∗ reachedAll ∗ posAll c ∗ toks c)

/-- Before the body: the ghost state, the credit, the levels, the scratch buffers. -/
def Φ₀ (c : Dev nD) : sProp 𝕄 :=
  iprop((∃ K, ghost (F := F) K c) ∗ creds c ∗ levAts L lv ∗ scratchAll c)

/-- After it: the scratch buffers, and the 32 own semaphores back at zero. -/
def Φ₁ (c : Dev nD) : sProp 𝕄 :=
  iprop(scratchAll (F := F) c ∗ bigSep (Finset.univ : Finset (Fin 32)) fun k => semVal (dcell c (dsem (k.val + 8))) 0)

/-- The relational proof data of the pipeline (one grid point): nothing is claimed of what the body leaves in the
    windows' staging buffers; the state is `Φ₀` before the point and `Φ₁` after it; what is owed is everything
    before and nothing after. -/
def rdats (m : (ℓ : Loc nD τ sig) → Buf (Elt F) ℓ) (_ : Fin 1) (c : Dev nD) :
    Pipeline.RDat τ (Elt F) ℕ ℕ UU ℕ cfg0 c where
  A w := m ((cfg0.win w).arr.view.loc (c : Thread nD τ))
  after _ _ _ _ := True
  Φ t := match t with
    | ⟨0, _⟩ => Φ₀ c
    | ⟨_ + 1, _⟩ => Φ₁ c
  q _ := fullShare
  owed t := match t with
    | ⟨0, _⟩ => O₀ c
    | ⟨_ + 1, _⟩ => 0

end Cert.Kernel.Hand

end
-- ==== Proof.Kernel.Tables.lean ====
/- The schedule's tables, as rewrite lemmas.

   For the barrier cell and for each of the 32 gather and reduce cells: which duties a round has, what each duty
   contributes, what its landing hands the owner, and what a round expects in all. Every payload is an assertion
   about heap cells, ghost ownership and pure facts only, so the cells' invariants can hold it. What a copy
   credits a semaphore depends on the destination's shape and element type alone, so it is the table's amount
   whichever buffer and whichever row block the copy names. The printed semaphore slices are the cells' numbers. -/
import proofs.«900979_g7700000000000980_dist_mlpseq_tp1d_bs_bs_b256_d256_h512_v7x_i8_bf16_1_alg».proof.Proof.Kernel.State

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The payloads can be stored -/

instance ownAt_storable (p : Dev nD) {s : Shape} {e : EltTy} (M : Memref sig .tc .vmem s e) :
    BI.Storable (upEmb : UEmb _ 𝕄) (ownAt (F := F) p M) := by unfold ownAt; infer_instance

instance grant_storable (p : Dev nD) {s : Shape} {e : EltTy} (M : Memref sig .tc .vmem s e) (i : DmaSem sig) (r : ℕ) :
    BI.Storable (upEmb : UEmb _ 𝕄) (grant (F := F) p M i r) := by unfold grant; infer_instance

instance grantLast_storable (p : Dev nD) (s : Fin 2) (l : ℕ) :
    BI.Storable (upEmb : UEmb _ 𝕄) (grantLast (F := F) p s l) := by
  unfold grantLast; split <;> infer_instance

instance payDma_storable (c : Dev nD) (j r : ℕ) : BI.Storable (upEmb : UEmb _ 𝕄) (payDma (F := F) c j r) := by
  unfold payDma; split <;> infer_instance

instance payBar_storable (c : Dev nD) (d : DD) : BI.Storable (upEmb : UEmb _ 𝕄) (payBar (F := F) c d) := by
  unfold payBar; split <;> infer_instance

instance sched_payload_storable (g : GSem nD τ sig) (r : ℕ) (d : DD) :
    BI.Storable (upEmb : UEmb _ 𝕄) ((sched (F := F)).payload g r d) := by
  show BI.Storable upEmb (match g.2 with
    | .reg _ => payBar (F := F) g.1.1 d
    | .dma i => payDma (F := F) g.1.1 i.val r)
  split <;> infer_instance

/-! ## The barrier cell: one round, the three partners' entry signals, one unit each -/

theorem duties_bar (c : Dev nD) : (sched (F := F)).duties (barCell c) 0 = Finset.univ := by
  show (if (barCell c).1.2 = Proc.tc then (if barS = barS ∧ (0 : ℕ) = 0 then (Finset.univ : Finset DD) else ∅) else ∅) = _
  rw [if_pos rfl, if_pos ⟨rfl, rfl⟩]

theorem duties_bar_later (c : Dev nD) (r : ℕ) (hr : 1 ≤ r) : (sched (F := F)).duties (barCell c) r = ∅ := by
  show (if (barCell c).1.2 = Proc.tc then (if barS = barS ∧ r = 0 then (Finset.univ : Finset DD) else ∅) else ∅) = _
  rw [if_pos rfl, if_neg fun h => absurd h.2 (by omega)]

theorem amount_bar (c : Dev nD) (d : DD) : (sched (F := F)).amount (barCell c) 0 d = 1 := rfl

theorem payload_bar (c : Dev nD) (d : DD) : (sched (F := F)).payload (barCell c) 0 d = payBar c d := rfl

theorem expect_bar (c : Dev nD) : (sched (F := F)).expect (barCell c) 0 = 3 := by
  show ∑ d ∈ (sched (F := F)).duties (barCell c) 0, (sched (F := F)).amount (barCell c) 0 d = 3
  rw [duties_bar]; rfl

theorem rest_bar (c : Dev nD) :
    bigSep ((sched (F := F)).duties (barCell c) 0 \ ∅) (fun d => (sched (F := F)).payload (barCell c) 0 d)
      = iprop(payBar c 0 ∗ payBar c 1 ∗ payBar c 2) := by
  rw [duties_bar, Finset.sdiff_empty, show (Finset.univ : Finset DD) = {0, 1, 2} from by decide,
    bigSep_insert (by decide), bigSep_insert (by decide), bigSep_singleton]
  rfl

/-! ## A gather or reduce cell: one duty a round, for as many rounds as the semaphore has copies -/

theorem dsem_val (j : ℕ) (h : j < 40) : (dsem j).val = j := by unfold dsem; rw [dif_pos h]

theorem duties_dma (c : Dev nD) (j r : ℕ) (hj : j < 40) (hr : r < nRounds j) :
    (sched (F := F)).duties (dcell c (dsem j)) r = {0} := by
  show (if (dcell c (dsem j)).1.2 = Proc.tc then (if r < nRounds (dsem j).val then ({0} : Finset DD) else ∅) else ∅) = _
  rw [if_pos rfl, dsem_val j hj, if_pos hr]

theorem duties_dma_later (c : Dev nD) (j r : ℕ) (hj : j < 40) (hr : nRounds j ≤ r) :
    (sched (F := F)).duties (dcell c (dsem j)) r = ∅ := by
  show (if (dcell c (dsem j)).1.2 = Proc.tc then (if r < nRounds (dsem j).val then ({0} : Finset DD) else ∅) else ∅) = _
  rw [if_pos rfl, dsem_val j hj, if_neg (Nat.not_lt.mpr hr)]

theorem amount_dma (c : Dev nD) (j r : ℕ) (d : DD) (hj : j < 40) :
    (sched (F := F)).amount (dcell c (dsem j)) r d = amtDma j r := by
  show amtDma (dsem j).val r = _
  rw [dsem_val j hj]

theorem payload_dma (c : Dev nD) (j r : ℕ) (d : DD) (hj : j < 40) :
    (sched (F := F)).payload (dcell c (dsem j)) r d = payDma c j r := by
  show payDma c (dsem j).val r = _
  rw [dsem_val j hj]

theorem expect_dma (c : Dev nD) (j r : ℕ) (hj : j < 40) (hr : r < nRounds j) :
    (sched (F := F)).expect (dcell c (dsem j)) r = amtDma j r := by
  show ∑ d ∈ (sched (F := F)).duties (dcell c (dsem j)) r, (sched (F := F)).amount (dcell c (dsem j)) r d = _
  rw [duties_dma c j r hj hr, Finset.sum_singleton, amount_dma c j r 0 hj]

theorem rest_dma (c : Dev nD) (j r : ℕ) (hj : j < 40) (hr : r < nRounds j) :
    bigSep ((sched (F := F)).duties (dcell c (dsem j)) r \ ∅) (fun d => (sched (F := F)).payload (dcell c (dsem j)) r d)
      = payDma c j r := by
  rw [duties_dma c j r hj hr, Finset.sdiff_empty, bigSep_singleton, payload_dma c j r 0 hj]

/-! ## The amounts: what a copy credits depends on the destination's shape and element type only -/

/-- The credit of a view of a TensorCore buffer: the footprint of its shape and element type, whichever buffer. -/
theorem credit_tile {s : Shape} {e : EltTy} (M : Memref sig .tc .vmem s e) : M.view.dmaCredit = RefSig.tileCredit s e := rfl

theorem credit_VE0 (s : Fin 2) (c : Dev nD) : (VE0 s c).view.dmaCredit = amtDma 11 0 := by rw [credit_tile]; rfl
theorem credit_VE1 (s : Fin 2) (c : Dev nD) : (VE1 s c).view.dmaCredit = amtDma 12 0 := by rw [credit_tile]; rfl
theorem credit_VE2 (s : Fin 2) (c : Dev nD) : (VE2 s c).view.dmaCredit = amtDma 13 0 := by rw [credit_tile]; rfl
theorem credit_R0 (s : Fin 2) : (R0 s).view.dmaCredit = amtDma 25 0 := by rw [credit_tile]; rfl
theorem credit_R1 (s : Fin 2) : (R1 s).view.dmaCredit = amtDma 25 0 := by rw [credit_tile]; rfl
theorem credit_R2 (s : Fin 2) : (R2 s).view.dmaCredit = amtDma 25 0 := by rw [credit_tile]; rfl
theorem credit_R3 (s : Fin 2) : (R3 s).view.dmaCredit = amtDma 25 0 := by rw [credit_tile]; rfl
theorem credit_R4 (s : Fin 2) : (R4 s).view.dmaCredit = amtDma 25 0 := by rw [credit_tile]; rfl
theorem credit_R3h (s : Fin 2) : (R3h s).view.dmaCredit = amtDma 27 1 := by rw [credit_tile]; rfl
theorem credit_SA (s : Fin 2) : (SA s).view.dmaCredit = amtDma 25 0 := by rw [credit_tile]; rfl
theorem credit_SB (s : Fin 2) : (SB s).view.dmaCredit = amtDma 25 0 := by rw [credit_tile]; rfl
theorem credit_SH (s : Fin 2) : (SH s).view.dmaCredit = amtDma 27 1 := by rw [credit_tile]; rfl

/-! ## The printed semaphore slices are the cells' numbers

    The gather's send and receive semaphores of the first stream start at 8 and 11, of the second at 14 and 17;
    the reduce's at 20 and 25, and at 30 and 35. -/

theorem sem_ag0s_0 : (((cc0_scratch10 : DmaSems sig S3).slice (Rect.unit (s := S3) ![0] S1.size inb_S3_S1_0)).squeeze S_ squeezes_S1_S_).sem = dsem 8 := by decide
theorem sem_ag0s_1 : (((cc0_scratch10 : DmaSems sig S3).slice (Rect.unit (s := S3) ![1] S1.size inb_S3_S1_1)).squeeze S_ squeezes_S1_S_).sem = dsem 9 := by decide
theorem sem_ag0s_2 : (((cc0_scratch10 : DmaSems sig S3).slice (Rect.unit (s := S3) ![2] S1.size inb_S3_S1_2)).squeeze S_ squeezes_S1_S_).sem = dsem 10 := by decide

theorem sem_ag0r_0 : (((cc0_scratch11 : DmaSems sig S3).slice (Rect.unit (s := S3) ![0] S1.size inb_S3_S1_0)).squeeze S_ squeezes_S1_S_).sem = dsem 11 := by decide
theorem sem_ag0r_1 : (((cc0_scratch11 : DmaSems sig S3).slice (Rect.unit (s := S3) ![1] S1.size inb_S3_S1_1)).squeeze S_ squeezes_S1_S_).sem = dsem 12 := by decide
theorem sem_ag0r_2 : (((cc0_scratch11 : DmaSems sig S3).slice (Rect.unit (s := S3) ![2] S1.size inb_S3_S1_2)).squeeze S_ squeezes_S1_S_).sem = dsem 13 := by decide

theorem sem_ag1s_0 : (((cc0_scratch12 : DmaSems sig S3).slice (Rect.unit (s := S3) ![0] S1.size inb_S3_S1_0)).squeeze S_ squeezes_S1_S_).sem = dsem 14 := by decide
theorem sem_ag1s_1 : (((cc0_scratch12 : DmaSems sig S3).slice (Rect.unit (s := S3) ![1] S1.size inb_S3_S1_1)).squeeze S_ squeezes_S1_S_).sem = dsem 15 := by decide
theorem sem_ag1s_2 : (((cc0_scratch12 : DmaSems sig S3).slice (Rect.unit (s := S3) ![2] S1.size inb_S3_S1_2)).squeeze S_ squeezes_S1_S_).sem = dsem 16 := by decide

theorem sem_ag1r_0 : (((cc0_scratch13 : DmaSems sig S3).slice (Rect.unit (s := S3) ![0] S1.size inb_S3_S1_0)).squeeze S_ squeezes_S1_S_).sem = dsem 17 := by decide
theorem sem_ag1r_1 : (((cc0_scratch13 : DmaSems sig S3).slice (Rect.unit (s := S3) ![1] S1.size inb_S3_S1_1)).squeeze S_ squeezes_S1_S_).sem = dsem 18 := by decide
theorem sem_ag1r_2 : (((cc0_scratch13 : DmaSems sig S3).slice (Rect.unit (s := S3) ![2] S1.size inb_S3_S1_2)).squeeze S_ squeezes_S1_S_).sem = dsem 19 := by decide

theorem sem_rs0s_0 : (((cc0_scratch14 : DmaSems sig S5).slice (Rect.unit (s := S5) ![0] S1.size inb_S5_S1_0)).squeeze S_ squeezes_S1_S_).sem = dsem 20 := by decide
theorem sem_rs0s_1 : (((cc0_scratch14 : DmaSems sig S5).slice (Rect.unit (s := S5) ![1] S1.size inb_S5_S1_1)).squeeze S_ squeezes_S1_S_).sem = dsem 21 := by decide
theorem sem_rs0s_2 : (((cc0_scratch14 : DmaSems sig S5).slice (Rect.unit (s := S5) ![2] S1.size inb_S5_S1_2)).squeeze S_ squeezes_S1_S_).sem = dsem 22 := by decide
theorem sem_rs0s_3 : (((cc0_scratch14 : DmaSems sig S5).slice (Rect.unit (s := S5) ![3] S1.size inb_S5_S1_3)).squeeze S_ squeezes_S1_S_).sem = dsem 23 := by decide
theorem sem_rs0s_4 : (((cc0_scratch14 : DmaSems sig S5).slice (Rect.unit (s := S5) ![4] S1.size inb_S5_S1_4)).squeeze S_ squeezes_S1_S_).sem = dsem 24 := by decide

theorem sem_rs0r_0 : (((cc0_scratch15 : DmaSems sig S5).slice (Rect.unit (s := S5) ![0] S1.size inb_S5_S1_0)).squeeze S_ squeezes_S1_S_).sem = dsem 25 := by decide
theorem sem_rs0r_1 : (((cc0_scratch15 : DmaSems sig S5).slice (Rect.unit (s := S5) ![1] S1.size inb_S5_S1_1)).squeeze S_ squeezes_S1_S_).sem = dsem 26 := by decide
theorem sem_rs0r_2 : (((cc0_scratch15 : DmaSems sig S5).slice (Rect.unit (s := S5) ![2] S1.size inb_S5_S1_2)).squeeze S_ squeezes_S1_S_).sem = dsem 27 := by decide
theorem sem_rs0r_3 : (((cc0_scratch15 : DmaSems sig S5).slice (Rect.unit (s := S5) ![3] S1.size inb_S5_S1_3)).squeeze S_ squeezes_S1_S_).sem = dsem 28 := by decide
theorem sem_rs0r_4 : (((cc0_scratch15 : DmaSems sig S5).slice (Rect.unit (s := S5) ![4] S1.size inb_S5_S1_4)).squeeze S_ squeezes_S1_S_).sem = dsem 29 := by decide

theorem sem_rs1s_0 : (((cc0_scratch16 : DmaSems sig S5).slice (Rect.unit (s := S5) ![0] S1.size inb_S5_S1_0)).squeeze S_ squeezes_S1_S_).sem = dsem 30 := by decide
theorem sem_rs1s_1 : (((cc0_scratch16 : DmaSems sig S5).slice (Rect.unit (s := S5) ![1] S1.size inb_S5_S1_1)).squeeze S_ squeezes_S1_S_).sem = dsem 31 := by decide
theorem sem_rs1s_2 : (((cc0_scratch16 : DmaSems sig S5).slice (Rect.unit (s := S5) ![2] S1.size inb_S5_S1_2)).squeeze S_ squeezes_S1_S_).sem = dsem 32 := by decide
theorem sem_rs1s_3 : (((cc0_scratch16 : DmaSems sig S5).slice (Rect.unit (s := S5) ![3] S1.size inb_S5_S1_3)).squeeze S_ squeezes_S1_S_).sem = dsem 33 := by decide
theorem sem_rs1s_4 : (((cc0_scratch16 : DmaSems sig S5).slice (Rect.unit (s := S5) ![4] S1.size inb_S5_S1_4)).squeeze S_ squeezes_S1_S_).sem = dsem 34 := by decide

theorem sem_rs1r_0 : (((cc0_scratch17 : DmaSems sig S5).slice (Rect.unit (s := S5) ![0] S1.size inb_S5_S1_0)).squeeze S_ squeezes_S1_S_).sem = dsem 35 := by decide
theorem sem_rs1r_1 : (((cc0_scratch17 : DmaSems sig S5).slice (Rect.unit (s := S5) ![1] S1.size inb_S5_S1_1)).squeeze S_ squeezes_S1_S_).sem = dsem 36 := by decide
theorem sem_rs1r_2 : (((cc0_scratch17 : DmaSems sig S5).slice (Rect.unit (s := S5) ![2] S1.size inb_S5_S1_2)).squeeze S_ squeezes_S1_S_).sem = dsem 37 := by decide
theorem sem_rs1r_3 : (((cc0_scratch17 : DmaSems sig S5).slice (Rect.unit (s := S5) ![3] S1.size inb_S5_S1_3)).squeeze S_ squeezes_S1_S_).sem = dsem 38 := by decide
theorem sem_rs1r_4 : (((cc0_scratch17 : DmaSems sig S5).slice (Rect.unit (s := S5) ![4] S1.size inb_S5_S1_4)).squeeze S_ squeezes_S1_S_).sem = dsem 39 := by decide

end Cert.Kernel.Hand

end
-- ==== Proof.Kernel.Levels.lean ====
import proofs.«900979_g7700000000000980_dist_mlpseq_tp1d_bs_bs_b256_d256_h512_v7x_i8_bf16_1_alg».proof.Proof.Kernel.State

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # What a device still owes, and that every wait of the body is below it

   After its first `n` copies a device owes the copies `n .. 37`: copy `k` owes, at index `k + 1`, the units of a
   DMA cell of its partner, and that index of a DMA cell sits at level `k + 2`. So a wait at index `k + 1` of one
   of the device's own DMA cells, with `k < n`, sits strictly below everything still owed. The barrier wait (its
   cell at level 1) comes after the three entry signals and sits below every copy; the staging waits of the
   pipeline (index 0 of a DMA cell, level 0) sit below every copy and below the entry signals. -/

/-! ## The chain of copies -/

/-- Issuing copy `n` takes the outermost summand off the chain. -/
theorem owedFrom_succ (c : Dev nD) (n : ℕ) (e : Fin 8 × ℕ × ℕ) (h : copyTab[n]? = some e) :
    owedFrom c n = owedFrom c (n + 1) + tallyOf c n e := by
  obtain ⟨hn, he⟩ := List.getElem?_eq_some_iff.mp h
  unfold owedFrom
  rw [List.drop_eq_getElem_cons hn, he]
  rfl

/-- After the last copy nothing is owed. -/
theorem owedFrom_end (c : Dev nD) : owedFrom c 38 = 0 := rfl

/-! ## The indices and the levels -/

theorem L_of_ne (g : GSem nD τ sig) (h : g.1.2 ≠ .tc) : L g = ∅ := if_neg h
theorem L_tc (c : Dev nD) (sm : SemLoc sig) : L ((c : Thread nD τ), sm) = Finset.range 39 := if_pos rfl

/-- Every index up to 38 of a TensorCore cell is one of its indices. -/
theorem mem_L_of_tc {g : GSem nD τ sig} {i : ℕ} (htc : g.1.2 = .tc) (hi : i < 39) : i ∈ L g := by
  unfold L
  rw [if_pos htc]
  exact Finset.mem_range.mpr hi

/-- A barrier cell sits at level 1, at every index. -/
theorem lv_bar (t : Thread nD τ) (i : ℕ) : lv (t, .reg barS) i = 1 := if_pos rfl

/-- Any other cell has its index `k + 1` at level `k + 2`. -/
theorem lv_of_ne_bar {g : GSem nD τ sig} (hb : g.2 ≠ .reg barS) (k : ℕ) : lv g (k + 1) = k + 2 := by
  unfold lv
  rw [if_neg hb, if_neg (Nat.succ_ne_zero k)]

theorem dma_ne_bar (i : DmaSem sig) : (SemLoc.dma i : SemLoc sig) ≠ SemLoc.reg barS := fun h => by cases h

theorem lv_dma (t : Thread nD τ) (i : DmaSem sig) (k : ℕ) : lv (t, .dma i) (k + 1) = k + 2 :=
  lv_of_ne_bar (g := (t, .dma i)) (dma_ne_bar i) k

/-- Index 0 of a DMA cell (the staging waits) sits at level 0. -/
theorem lv_dma_zero (t : Thread nD τ) (q : DmaSem sig) : lv (t, .dma q) 0 = 0 := by
  unfold lv
  rw [if_neg (show ¬ ((t, SemLoc.dma q).2 = SemLoc.reg barS) from dma_ne_bar q), if_pos rfl]

/-! ## Where the chain is positive -/

/-- A positive tally of a chain of copies numbered from `k` is one of its copies: at that copy's index, on a DMA
    cell of a TensorCore. -/
theorem owedAux_pos (c : Dev nD) {g : GSem nD τ sig} {u : ℕ} :
    ∀ (es : List (Fin 8 × ℕ × ℕ)) (k : ℕ), 0 < owedAux c k es g u →
      ∃ j, k ≤ j ∧ j < k + es.length ∧ u = j + 1 ∧ g.1.2 = .tc ∧ g.2 ≠ .reg barS
  | [], k, h => by
    rw [show owedAux c k [] = 0 from rfl, Pi.zero_apply, Finsupp.zero_apply] at h
    exact absurd h (Nat.lt_irrefl 0)
  | e :: es, k, h => by
    rw [show owedAux c k (e :: es) = owedAux c (k + 1) es + tallyOf c k e from rfl] at h
    rcases Pipeline.add_pos_cases h with h1 | h1
    · obtain ⟨j, hj1, hj2, hu, htc, hb⟩ := owedAux_pos c es (k + 1) h1
      exact ⟨j, by omega, by rw [List.length_cons]; omega, hu, htc, hb⟩
    · unfold tallyOf at h1
      obtain ⟨hg, hu⟩ := Pipeline.tallyAt_pos h1
      refine ⟨k, le_refl k, by rw [List.length_cons]; omega, hu, ?_, ?_⟩
      · rw [hg]
      · rw [hg]; exact dma_ne_bar _

/-- A positive tally of what is owed after `n` copies is one of the copies `n .. 37`. -/
theorem owed_pos {c : Dev nD} {n : ℕ} {g : GSem nD τ sig} {u : ℕ} (h : 0 < owedFrom c n g u) :
    ∃ k, n ≤ k ∧ k < 38 ∧ u = k + 1 ∧ g.1.2 = .tc ∧ g.2 ≠ .reg barS := by
  unfold owedFrom at h
  obtain ⟨j, h1, h2, hu, htc, hb⟩ := owedAux_pos c _ n h
  rw [List.length_drop, show copyTab.length = 38 from rfl] at h2
  exact ⟨j, h1, by omega, hu, htc, hb⟩

/-- Before the third entry signal: a copy, or the unit owed to the barrier cell of `c xor 4`. -/
theorem O₂_pos {c : Dev nD} {g : GSem nD τ sig} {u : ℕ} (h : 0 < O₂ c g u) :
    (∃ k, k < 38 ∧ u = k + 1 ∧ g.1.2 = .tc ∧ g.2 ≠ .reg barS) ∨ (u = 0 ∧ g = barCell (xr 4 c)) := by
  unfold O₂ at h
  rcases Pipeline.add_pos_cases h with h1 | h1
  · obtain ⟨k, -, hk, hu, htc, hb⟩ := owed_pos h1
    exact Or.inl ⟨k, hk, hu, htc, hb⟩
  · obtain ⟨hg, hu⟩ := Pipeline.tallyAt_pos h1
    exact Or.inr ⟨hu, hg⟩

/-- Before the second: also the unit owed to `c xor 3`. -/
theorem O₁_pos {c : Dev nD} {g : GSem nD τ sig} {u : ℕ} (h : 0 < O₁ c g u) :
    (∃ k, k < 38 ∧ u = k + 1 ∧ g.1.2 = .tc ∧ g.2 ≠ .reg barS)
      ∨ (u = 0 ∧ (g = barCell (xr 3 c) ∨ g = barCell (xr 4 c))) := by
  unfold O₁ at h
  rcases Pipeline.add_pos_cases h with h1 | h1
  · rcases O₂_pos h1 with h2 | ⟨hu, hg⟩
    · exact Or.inl h2
    · exact Or.inr ⟨hu, Or.inr hg⟩
  · obtain ⟨hg, hu⟩ := Pipeline.tallyAt_pos h1
    exact Or.inr ⟨hu, Or.inl hg⟩

/-- At launch: a copy, or the unit owed to the barrier cell of one of the three partners. -/
theorem O₀_pos {c : Dev nD} {g : GSem nD τ sig} {u : ℕ} (h : 0 < O₀ c g u) :
    (∃ k, k < 38 ∧ u = k + 1 ∧ g.1.2 = .tc ∧ g.2 ≠ .reg barS)
      ∨ (u = 0 ∧ (g = barCell (xr 1 c) ∨ g = barCell (xr 3 c) ∨ g = barCell (xr 4 c))) := by
  unfold O₀ at h
  rcases Pipeline.add_pos_cases h with h1 | h1
  · rcases O₁_pos h1 with h2 | ⟨hu, hg⟩
    · exact Or.inl h2
    · exact Or.inr ⟨hu, Or.inr hg⟩
  · obtain ⟨hg, hu⟩ := Pipeline.tallyAt_pos h1
    exact Or.inr ⟨hu, Or.inl hg⟩

/-! ## The waits -/

/-- A wait at index `k + 1` of an own DMA cell (level `k + 2`) while the copies `n ..` are owed, `k < n`: those
    sit at levels `n + 2` and above. -/
theorem mayWait_copy (c : Dev nD) (i : DmaSem sig) (k n : ℕ) (hk : k < n) (hn : n ≤ 38) :
    (levAts L lv : sProp 𝕄) ⊢ MayWait (c : Thread nD τ) (.dma i) (k + 1) (owedFrom c n) :=
  Pipeline.mayWait_of_levAts (L := L) (lev := lv) (mem_L_of_tc rfl (by omega)) fun g u hg => by
    obtain ⟨j, hj, hj38, hu, htc, hb⟩ := owed_pos hg
    subst hu
    refine ⟨mem_L_of_tc htc (by omega), ?_⟩
    rw [lv_dma, lv_of_ne_bar hb]
    omega

/-- The barrier wait (level 1) while every copy is still owed (levels 2 and above). -/
theorem mayWait_bar (c : Dev nD) :
    (levAts L lv : sProp 𝕄) ⊢ MayWait (c : Thread nD τ) (.reg barS) 0 (owedFrom c 0) :=
  Pipeline.mayWait_of_levAts (L := L) (lev := lv) (mem_L_of_tc rfl (by omega)) fun g u hg => by
    obtain ⟨j, -, hj38, hu, htc, hb⟩ := owed_pos hg
    subst hu
    refine ⟨mem_L_of_tc htc (by omega), ?_⟩
    rw [lv_bar, lv_of_ne_bar hb]
    omega

/-- A staging wait of the pipeline (index 0 of a DMA cell, level 0), before the body (everything owed: copies at
    levels 2 and above, entry signals at level 1) or after it (nothing owed). -/
theorem mayWait_stage (c : Dev nD) (q : DmaSem sig) (O : CellTallies nD τ sig ℕ) (hO : O = O₀ c ∨ O = 0) :
    (levAts L lv : sProp 𝕄) ⊢ MayWait (c : Thread nD τ) (.dma q) 0 O :=
  Pipeline.mayWait_of_levAts (L := L) (lev := lv) (mem_L_of_tc rfl (by omega)) fun g u hg => by
    rw [lv_dma_zero]
    rcases hO with hO | hO
    · rw [hO] at hg
      rcases O₀_pos hg with ⟨j, hj38, hu, htc, hb⟩ | ⟨hu, hg' | hg' | hg'⟩
      · subst hu
        exact ⟨mem_L_of_tc htc (by omega), by rw [lv_of_ne_bar hb]; omega⟩
      · subst hu hg'
        exact ⟨mem_L_of_tc rfl (by omega), by rw [lv_bar]; omega⟩
      · subst hu hg'
        exact ⟨mem_L_of_tc rfl (by omega), by rw [lv_bar]; omega⟩
      · subst hu hg'
        exact ⟨mem_L_of_tc rfl (by omega), by rw [lv_bar]; omega⟩
    · rw [hO, Pi.zero_apply, Finsupp.zero_apply] at hg
      exact absurd hg (Nat.lt_irrefl 0)

/-! ## The wait lemmas rest on the standard axioms only -/

/-- info: 'Cert.Kernel.Hand.mayWait_copy' depends on axioms: [propext, Classical.choice, Quot.sound] -/
#guard_msgs in #print axioms mayWait_copy
/-- info: 'Cert.Kernel.Hand.mayWait_bar' depends on axioms: [propext, Classical.choice, Quot.sound] -/
#guard_msgs in #print axioms mayWait_bar
/-- info: 'Cert.Kernel.Hand.mayWait_stage' depends on axioms: [propext, Classical.choice, Quot.sound] -/
#guard_msgs in #print axioms mayWait_stage

end Cert.Kernel.Hand

end
-- ==== Proof.Kernel.Launch.lean ====
import proofs.«900979_g7700000000000980_dist_mlpseq_tp1d_bs_bs_b256_d256_h512_v7x_i8_bf16_1_alg».proof.Proof.Kernel.State
import proofs.«900979_g7700000000000980_dist_mlpseq_tp1d_bs_bs_b256_d256_h512_v7x_i8_bf16_1_alg».proof.Proof.Gen.Kernel.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # The launch: from the body obligation of every device to the run of the whole mesh

The launch element is the pipeline's copy beside the protocol's. The protocol's copy is funded for the 33 cells of
every device (its barrier semaphore and its 32 DMA semaphores) and for one token per duty of the schedule: the three
entry signals of each barrier cell, and for each of the 38 copies the duty of the sender's send cell and of the
partner's receive cell. In one global step every cell's invariant is allocated from its counter at zero and every
token travels from the cell's owner to the device that pays the duty; the partner maps are involutions of the eight
devices, so the tokens of one duty are permuted among the devices. The launch credit is read off what the devices owe:
copy `k` of the partner across the copy's mask lands on this device's receive cell, so this device is dealt that
copy's units at index `k + 1`, and the three partners' entry signals make the three units of its barrier cell.
No argument array is written: each is an input window's array, which holds its entry contents at the end. -/

/-! ## Small facts about big separating conjunctions -/

theorem bigSep_fin_succ {M : Type} [URA M] {n : ℕ} (Φ : Fin (n + 1) → sProp M) :
    bigSep Finset.univ Φ = iprop(Φ 0 ∗ bigSep Finset.univ fun j : Fin n => Φ j.succ) := by
  rw [Fin.univ_succ, Finset.cons_eq_insert, bigSep_insert (by simp), bigSep_map]
  rfl

theorem bigSep_bool {M : Type} [URA M] (Φ : Bool → sProp M) : bigSep Finset.univ Φ = iprop(Φ false ∗ Φ true) :=
  bigSep_univ_eq_bigSepL [false, true] (by decide) (by decide) Φ

theorem bigSep_univ_sum' {M : Type} [URA M] {α β : Type} [Fintype α] [Fintype β] (Φ : α ⊕ β → sProp M) :
    bigSep Finset.univ Φ = iprop((bigSep Finset.univ fun a => Φ (.inl a)) ∗ bigSep Finset.univ fun b => Φ (.inr b)) := bigSep_univ_sum Φ

theorem bigSep_three {M : Type} [URA M] (Φ : Fin 3 → sProp M) : bigSep Finset.univ Φ = iprop(Φ 0 ∗ Φ 1 ∗ Φ 2) :=
  bigSep_univ_eq_bigSepL [0, 1, 2] (by decide) (by decide) Φ

/-! ## The kernel's own semaphores, the protocol's cells and its duty tokens -/

/-- The 32 DMA semaphores of the two streams' exchanges. -/
def osem : Fin 32 → SemLoc sig := fun k => .dma (dsem (k.val + 8))

theorem ownSemFacts : Pipeline.OwnSemFacts cfg0.spec osem := by decide

theorem share_eq (m : (ℓ : Loc nD τ sig) → Buf (Elt F) ℓ) (c : Dev nD) (w : Fin cfg0.W) : (rdats (F := F) m 0 c).share w = fullShare :=
  Pipeline.RDat.share_full _ (fun _ => rfl) w

/-- The semaphore of a device's cell number `k`. -/
def ksem (k : Fin 33) : SemLoc sig := if k.val = 0 then .reg barS else .dma (dsem (k.val + 7))

theorem kcell_eq (c : Dev nD) (k : Fin 33) : kcell (c, k) = ((c : Thread nD τ), ksem k) := by
  unfold kcell ksem; split <;> rfl

theorem ksem_injective : Function.Injective ksem := by decide

theorem kcell_injective : Function.Injective (kcell : Dev nD × Fin 33 → GSem nD τ sig) := by
  rintro ⟨c, k⟩ ⟨c', k'⟩ h
  rw [kcell_eq, kcell_eq] at h
  have h1 : c = c' := congrArg (fun g : GSem nD τ sig => g.1.1) h
  subst h1
  have h2 : k = k' := ksem_injective (congrArg Prod.snd h)
  subst h2; rfl

def protoCells : Finset (GSem nD τ sig) := Finset.univ.map ⟨kcell, kcell_injective⟩

/-- Entry `k` of the table of copies. -/
def ent (k : ℕ) : Fin 8 × ℕ × ℕ := copyTab.getD k (0, 0, 0)

/-- The duties of one device's cells: the barrier's three, and for each copy its send cell's and its receive cell's. -/
abbrev TI : Type := Fin 3 ⊕ (Fin copyTab.length × Bool)

/-- The partner mask of the barrier's duty `d`. -/
def bmask : DD → Fin 8 := ![1, 3, 4]

/-- Duty `i`: its semaphore, round and place. -/
def tkey : TI → SemLoc sig × ℕ × DD
  | .inl d => (.reg barS, 0, d)
  | .inr (k, false) => (.dma (dsem (sendOf (ent k.val).2.1)), (ent k.val).2.2, 0)
  | .inr (k, true) => (.dma (dsem (ent k.val).2.1), (ent k.val).2.2, 0)

/-- The partner map as a permutation of the devices. -/
def xrEquiv (k : Fin 8) : Dev nD ≃ Dev nD := ⟨xr k, xr k, xr_xr k, xr_xr k⟩

/-- Who pays duty `i` of a device's cell, as a permutation of the devices: the partner across the duty's mask, the
    device itself for a send cell. -/
def payEquiv : TI → (Dev nD ≃ Dev nD)
  | .inl d => xrEquiv (bmask d)
  | .inr (_, false) => Equiv.refl _
  | .inr (k, true) => xrEquiv (ent k.val).1

/-- Duty `i` of device `c`'s cells, as a (cell, round, place) triple. -/
def otok (ci : Dev nD × TI) : GSem nD τ sig × ℕ × DD := (((ci.1 : Thread nD τ), (tkey ci.2).1), (tkey ci.2).2)

theorem tkey_injective : Function.Injective tkey := by decide +kernel

theorem otok_injective : Function.Injective otok := by
  rintro ⟨c, i⟩ ⟨c', i'⟩ h
  have h1 : c = c' := congrArg (fun x : GSem nD τ sig × ℕ × DD => x.1.1.1) h
  subst h1
  have ha : (tkey i).1 = (tkey i').1 := congrArg (fun x : GSem nD τ sig × ℕ × DD => x.1.2) h
  have hb : (tkey i).2 = (tkey i').2 := congrArg (fun x : GSem nD τ sig × ℕ × DD => x.2) h
  rw [tkey_injective (Prod.ext ha hb)]

def protoToks : Finset (GSem nD τ sig × ℕ × DD) := Finset.univ.map ⟨otok, otok_injective⟩

/-- The launch element: the pipeline's copy beside the protocol's. -/
def u₀ : UU :=
  (initOf (Pipeline.cells cfgs cellOf_inj) (Pipeline.launchToks cfgs cellOf_inj), initOf protoCells protoToks)

/-- A duty token by its triple. -/
abbrev tokP (x : GSem nD τ sig × ℕ × DD) : sProp 𝕄 := dutyTok ER x.1 x.2.1 x.2.2

/-- The tokens of the duties of device `c`'s own cells. -/
def otoks (c : Dev nD) : sProp 𝕄 := bigSep Finset.univ fun i : TI => tokP (F := F) (otok (c, i))

/-- What the launch element deals device `c`: its cells' round states, positions and reached facts, and its cells' tokens. -/
def G (c : Dev nD) : sProp 𝕄 :=
  iprop((bigSep Finset.univ fun k : Fin 33 => roundState ER (sched (F := F)) (kcell (c, k)) 0)
    ∗ (bigSep Finset.univ fun k : Fin 33 => iprop(atPos ER (kcell (c, k)) 0 ∅ 0 ∗ reached ER (kcell (c, k)) 0)) ∗ otoks c)

/-- What the global step makes of it. -/
def G' (c : Dev nD) : sProp 𝕄 := iprop(∃ K, ghost (F := F) K c)

theorem fund_proto : BI.own (ER (initOf protoCells protoToks)) ⊢ (|==> bigSep Finset.univ (G (F := F)) : sProp 𝕄) := by
  have hX (Φ : GSem nD τ sig → sProp 𝕄) : bigSep protoCells Φ = bigSep Finset.univ fun c : Dev nD => bigSep Finset.univ fun k : Fin 33 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => otoks (F := F) c := by
    unfold protoToks otoks; rw [bigSep_map, bigSep_univ_prod]; rfl
  iintro HX
  imod (Rounds.fund ER (sched (F := F)) protoCells protoToks) $$ HX with ⟨Hst, Hr, Hat, Htok⟩
  imodintro
  ihave Hst' := (Entails.of_eq (hX fun g => roundState ER (sched (F := F)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The global step: every cell's invariant allocated, the tokens dealt to their payers -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores on a device, one by one. -/
theorem ownSems0_eq (c : Dev nD) : (Pipeline.ownSems0 (Ix := ℕ) (Name := ℕ) (U := UU) (Lvl := ℕ) (Val := Elt F) (τ := τ) osem c : sProp 𝕄)
    = bigSep Finset.univ fun k : Fin 32 => semVal (dcell c (dsem (k.val + 8))) 0 := rfl

/-- Cell number `j + 1` of a device is its DMA semaphore `j + 8`. -/
theorem kcell_succ (c : Dev nD) (j : Fin 32) : kcell (c, j.succ) = dcell c (dsem (j.val + 8)) := by
  unfold kcell
  rw [if_neg (by simp)]
  show dcell c (dsem ((j.val + 1) + 7)) = dcell c (dsem (j.val + 8))
  rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 33 => semVal (kcell (c, k)) 0 : sProp 𝕄) := by
  rw [unscopedSems0_eq, bigSep_fin_succ, ownSems0_eq,
    bigSep_congr (s := Finset.univ) fun (j : Fin 32) _ =>
      show (semVal (kcell (c, j.succ)) 0 : sProp 𝕄) = semVal (dcell c (dsem (j.val + 8))) 0 by rw [kcell_succ]]
  iintro ⟨HS, HB⟩
  isplitl [HB]; · iexact HB
  iexact HS

theorem core_alloc [∀ g r d, BI.Storable (upEmb : UEmb _ 𝕄) ((sched (F := F)).payload g r d)] (c : Dev nD) :
    iprop(Pipeline.ownSems0 (Ix := ℕ) (Name := ℕ) (U := UU) (Lvl := ℕ) (Val := Elt F) (τ := τ) osem c ∗ unscopedSems0 c ∗ G (F := F) c)
      ⊢ |={Set.univ}=> iprop((bigSep Finset.univ fun k : Fin 33 => iprop(∃ κ : ℕ, cellInv ER (sched (F := F)) κ (kcell (c, k))))
          ∗ (bigSep Finset.univ fun k : Fin 33 => iprop(atPos ER (kcell (c, k)) 0 ∅ 0 ∗ reached ER (kcell (c, k)) 0)) ∗ otoks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (sched (F := F)) (kcell (c, k)) 0)
      ⊢ (|={Set.univ}=> bigSep Finset.univ fun k : Fin 33 => iprop(∃ κ : ℕ, cellInv ER (sched (F := F)) κ (kcell (c, k))) : sProp 𝕄) from by
        rw [← bigSep_sep']
        exact (bigSep_mono fun k _ => (Rounds.body_intro ER (sched (F := F)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent part of a device's ghost state. -/
def records (K : GSem nD τ sig → ℕ) : sProp 𝕄 := iprop(invsAll (F := F) K ∗ reachedAll)

instance records_persistent (K : GSem nD τ sig → ℕ) : BI.Persistent (records (F := F) K) := by
  unfold records invsAll reachedAll; infer_instance

theorem ghost_intro (K : GSem nD τ sig → ℕ) (c : Dev nD) : iprop(records (F := F) K ∗ (posAll c ∗ toks c)) ⊢ G' (F := F) c := by
  unfold records G' ghost
  iintro ⟨⟨HI, HR⟩, HP, HT⟩
  iexists K
  isplitl [HI]; · iexact HI
  isplitl [HR]; · iexact HR
  isplitl [HP]; · iexact HP
  iexact HT

/-- The tokens of a list of copies, one pair a copy, as the recursion over the table has them. -/
theorem toksCopies_of (c : Dev nD) : ∀ (es : List (Fin 8 × ℕ × ℕ)) (k : ℕ),
    (bigSep (Finset.univ : Finset (Fin es.length)) fun j =>
        iprop(dutyTok ER (dcell c (dsem (sendOf (es.getD j.val (0, 0, 0)).2.1))) (es.getD j.val (0, 0, 0)).2.2 (0 : DD)
          ∗ dutyTok ER (dcell (xr (es.getD j.val (0, 0, 0)).1 c) (dsem (es.getD j.val (0, 0, 0)).2.1)) (es.getD j.val (0, 0, 0)).2.2 (0 : DD)) : sProp 𝕄)
      ⊢ toksCopies c k es
  | [], k => by unfold toksCopies; iintro -; iempintro
  | e :: es, k => by
      show (bigSep (Finset.univ : Finset (Fin (es.length + 1))) _ : sProp 𝕄) ⊢ _
      rw [bigSep_fin_succ]
      unfold toksCopies
      exact sep_mono_right (toksCopies_of c es (k + 1))

/-- What device `c` pays with, gathered duty by duty from the partners' cells. -/
theorem toks_of_pay (c : Dev nD) : (bigSep Finset.univ fun i : TI => tokP (F := F) (otok (payEquiv i c, i))) ⊢ toks c := by
  have hC : (bigSep Finset.univ fun k : Fin copyTab.length => bigSep Finset.univ fun b : Bool =>
        tokP (F := F) (otok (payEquiv (Sum.inr (k, b)) c, Sum.inr (k, b))))
      ⊢ toksCopies c 0 copyTab :=
    (bigSep_mono (s := Finset.univ) fun (k : Fin copyTab.length) _ =>
      Entails.of_eq (bigSep_bool fun b => tokP (F := F) (otok (payEquiv (Sum.inr (k, b)) c, Sum.inr (k, b))))).trans
      (toksCopies_of c copyTab 0)
  rw [bigSep_univ_sum', bigSep_three, bigSep_univ_prod]
  unfold toks
  iintro ⟨⟨H0, H1, H2⟩, HC⟩
  isplitl [H0]; · iexact H0
  isplitl [H1]; · iexact H1
  isplitl [H2]; · iexact H2
  iapply hC
  iexact HC

/-- The tokens dealt around: each duty's token goes from the cell's owner to the partner that pays it. -/
theorem toks_around : (bigSep Finset.univ fun c : Dev nD => (otoks (F := F) c : sProp 𝕄)) ⊢ bigSep Finset.univ fun c : Dev nD => toks c := by
  unfold otoks
  rw [bigSep_univ_comm (fun (c : Dev nD) (i : TI) => tokP (F := F) (otok (c, i))),
    bigSep_congr (s := Finset.univ) (fun (i : TI) _ => bigSep_univ_equiv (payEquiv i) (fun c : Dev nD => tokP (F := F) (otok (c, i)))),
    bigSep_univ_comm (fun (i : TI) (c : Dev nD) => tokP (F := F) (otok (payEquiv i c, i)))]
  exact bigSep_mono fun c _ => toks_of_pay c

theorem regroup :
    (bigSep Finset.univ fun c : Dev nD => iprop((bigSep Finset.univ fun k : Fin 33 => iprop(∃ κ : ℕ, cellInv ER (sched (F := F)) κ (kcell (c, k))))
          ∗ (bigSep Finset.univ fun k : Fin 33 => iprop(atPos ER (kcell (c, k)) 0 ∅ 0 ∗ reached ER (kcell (c, k)) 0)) ∗ otoks c) : sProp 𝕄)
      ⊢ bigSep Finset.univ (G' (F := F)) := by
  rw [bigSep_sep', bigSep_sep', ← bigSep_univ_prod (fun ck : Dev nD × Fin 33 => iprop(∃ κ : ℕ, cellInv ER (sched (F := F)) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (sched (F := F)) κ (kcell ck) : sProp 𝕄))) $$ HI
  icases HK with ⟨%K', #HI⟩
  ihave Htk := (toks_around (F := F)) $$ Htok
  iapply (bigSep_with_persistent (R := records (F := F) (Function.extend kcell K' 0)) fun c _ => ghost_intro (Function.extend kcell K' 0) c)
  isplitr
  · unfold records invsAll reachedAll
    isplitl
    · iapply (Entails.of_eq (bigSep_congr (s := Finset.univ) fun (ck : Dev nD × Fin 33) _ =>
        show (cellInv ER (sched (F := F)) (K' ck) (kcell ck) : sProp 𝕄) = cellInv ER (sched (F := F)) (Function.extend kcell K' 0 (kcell ck)) (kcell ck) by
          rw [kcell_injective.extend_apply]))
      iexact HI
    · iexact HR
  · iapply (Entails.of_eq (bigSep_sep' Finset.univ (fun c : Dev nD => (posAll c : sProp 𝕄)) (fun c => toks c)).symm)
    isplitl [Hat]; · iexact Hat
    iexact Htk

/-- The global step: own and unscoped semaphores of every device at once. -/
theorem glob [∀ g r d, BI.Storable (upEmb : UEmb _ 𝕄) ((sched (F := F)).payload g r d)] :
    (bigSep Finset.univ fun c => iprop(Pipeline.ownSems0 (Ix := ℕ) (Name := ℕ) (U := UU) (Lvl := ℕ) (Val := Elt F) (τ := τ) osem c ∗ unscopedSems0 c ∗ G (F := F) c) : sProp 𝕄)
      ⊢ |={Set.univ}=> bigSep Finset.univ (G' (F := F)) :=
  ((bigSep_mono fun c _ => core_alloc c).trans (bigSep_fupd _ _)).trans (BI.fupd_mono regroup)

/-! ### The launch credit -/

/-- The credit of a list of copies: every partner owes the copy of the same number, so the launch deals its units
    to the device the copy lands on. -/
theorem cred_copies (c : Dev nD) : ∀ (es : List (Fin 8 × ℕ × ℕ)) (k : ℕ),
    (Pipeline.launchCred (fun d => owedAux d k es) c : sProp 𝕄) ⊢ credsCopies c k es
  | [], k => by
      show (Pipeline.launchCred (fun _ : Dev nD => (0 : CellTallies nD τ sig ℕ)) c : sProp 𝕄) ⊢ _
      rw [Pipeline.launchCred_zero]; unfold credsCopies; exact Entails.refl _
  | e :: es, k => by
      show (Pipeline.launchCred (fun d => owedAux d (k + 1) es + tallyOf d k e) c : sProp 𝕄) ⊢ _
      rw [Pipeline.launchCred_add]
      unfold credsCopies
      iintro ⟨H1, H2⟩
      isplitl [H2]
      · iapply (Pipeline.launchCred_tallyAt (.dma (dsem e.2.1)) (xr e.1) (xr e.1) (xr_xr e.1) (xr_xr e.1) (k + 1) (amtDma e.2.1 e.2.2) c)
        iexact H2
      · iapply (cred_copies c es (k + 1)); iexact H1

theorem creds_of_launch (c : Dev nD) : (Pipeline.launchCred O₀ c : sProp 𝕄) ⊢ creds c := by
  show (Pipeline.launchCred (fun d => ((owedAux d 0 copyTab + tallyAt (barCell (xr 4 d)) 0 1) + tallyAt (barCell (xr 3 d)) 0 1)
    + tallyAt (barCell (xr 1 d)) 0 1) c : sProp 𝕄) ⊢ _
  rw [Pipeline.launchCred_add, Pipeline.launchCred_add, Pipeline.launchCred_add]
  unfold creds
  iintro ⟨⟨⟨HC, H4⟩, H3⟩, H1⟩
  ihave H4' := (Pipeline.launchCred_tallyAt (.reg barS) (xr 4) (xr 4) (xr_xr 4) (xr_xr 4) (0 : ℕ) 1 c) $$ H4
  ihave H3' := (Pipeline.launchCred_tallyAt (.reg barS) (xr 3) (xr 3) (xr_xr 3) (xr_xr 3) (0 : ℕ) 1 c) $$ H3
  ihave H1' := (Pipeline.launchCred_tallyAt (.reg barS) (xr 1) (xr 1) (xr_xr 1) (xr_xr 1) (0 : ℕ) 1 c) $$ H1
  isplitl [H1' H3' H4']
  · have e : (tallyAt (barCell c) (0 : ℕ) 3 : CellTallies nD τ sig ℕ) = tallyAt (barCell c) 0 1 + tallyAt (barCell c) 0 1 + tallyAt (barCell c) 0 1 := by
      rw [tallyAt_add, tallyAt_add]
    rw [e]
    iapply (cred_add _ _).2
    isplitl [H1' H3']
    · iapply (cred_add _ _).2
      isplitl [H1'] <;> iassumption
    · iexact H4'
  · iapply (cred_copies c copyTab 0); iexact HC

/-! ### The theorem's side conditions -/

/-- What a device enters the pipeline with. -/
def start (c : Dev nD) : sProp 𝕄 := iprop((∃ K, ghost (F := F) K c) ∗ creds c ∗ levAts L lv)

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) c)
      ⊢ |={Set.univ}=> iprop(start (F := F) c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

theorem phi0_intro (m : (ℓ : Loc nD τ sig) → Buf (Elt F) ℓ) (c : Dev nD) :
    iprop(start (F := F) c ∗ Pipeline.prefHeld Pipeline.Prefetch.none c (fun _ => fullShare.right) (fun k => k.elim0) ∗ Pipeline.scopedRest cfg0.spec c)
      ⊢ (rdats (F := F) m 0 c).Φ 0 := by
  rw [show (rdats (F := F) m 0 c).Φ 0 = Φ₀ (F := F) c from rfl, scopedRest0_eq]
  unfold Φ₀ start scratchAll
  iintro ⟨⟨HG, Hc, Hl⟩, -, Hs⟩
  isplitl [HG]; · iexact HG
  isplitl [Hc]; · iexact Hc
  isplitl [Hl]; · iexact Hl
  iexact Hs

theorem phi1_exit (m : (ℓ : Loc nD τ sig) → Buf (Elt F) ℓ) (c : Dev nD) :
    (rdats (F := F) m 0 c).Φ (Fin.last cfg0.N) ⊢ iprop(emp ∗ Pipeline.ownSems0 osem c ∗ Pipeline.scopedRest cfg0.spec c) := by
  rw [show (rdats (F := F) m 0 c).Φ (Fin.last cfg0.N) = Φ₁ (F := F) c from rfl, scopedRest0_eq, ownSems0_eq]
  unfold Φ₁ scratchAll
  iintro ⟨Hs, Hz⟩
  isplitr; · iempintro
  isplitl [Hz]; · iexact Hz
  iexact Hs

theorem waits (mayWait_stage : ∀ (c : Dev nD) (q : DmaSem sig) (O : CellTallies nD τ sig ℕ), (O = O₀ c ∨ O = 0) →
      (levAts L lv : sProp 𝕄) ⊢ MayWait (c : Thread nD τ) (.dma q) 0 O)
    (m : (ℓ : Loc nD τ sig) → Buf (Elt F) ℓ) (c : Dev nD) :
    (levAts L lv : sProp 𝕄) ⊢ Pipeline.RDat.cellsWaits cfgs (rdats (F := F) m) 0 0 c :=
  Pipeline.RDat.cellsWaits_intro cfgs (rdats m) 0 0 c fun w s t =>
    mayWait_stage c _ _ (by
      rcases t with ⟨_ | _, ht⟩
      · exact Or.inl rfl
      · exact Or.inr rfl)

/-! ### The run -/

/-- From every device's body obligation to the run of the mesh: every weakly fair execution of @main terminates, and
    every final state has each device's argument arrays as launched. -/
theorem run_of_body [∀ g r d, BI.Storable (upEmb : UEmb _ 𝕄) ((sched (F := F)).payload g r d)]
    (L_of_ne : ∀ g : GSem nD τ sig, g.1.2 ≠ .tc → L g = ∅)
    (mayWait_stage : ∀ (c : Dev nD) (q : DmaSem sig) (O : CellTallies nD τ sig ℕ), (O = O₀ c ∨ O = 0) →
      (levAts L lv : sProp 𝕄) ⊢ MayWait (c : Thread nD τ) (.dma q) 0 O)
    (m : (ℓ : Loc nD τ sig) → Buf (Elt F) ℓ) (ρ : Dev nD → PrngReg)
    (hbody : ∀ c, (rdats (F := F) m 0 c).BodyObligation (defs₀ (F := F)) Variants.none 0 Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.RDat.θ_run_region_owing_glob_pf (pcfgs (F := F)) (fun p => (cfgs p).toPCfg_adm) (rdats (F := F) m) (0 : ℕ) cellOf_inj (0 : Fin 1)
    winFacts0.to₀ ownSemFacts (Pipeline.PreFacts.none _) EP defs₀ Variants.none m ρ main
    (hmain := fun c => (main_chain c).trans rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits mayWait_stage m)
    (G := G (F := F)) (G' := G' (F := F)) (u₀ := u₀)
    (hu₀ := by
      unfold u₀
      iintro Hu
      ihave H := (ownU_pair _ _) $$ Hu
      icases H with ⟨HP, HX⟩
      imod (fund_proto (F := F)) $$ HX with HG
      imodintro
      isplitl [HP] <;> iassumption)
    (hglob := glob (F := F))
    (hA := fun _ _ => rfl) (hpf := fun _ k => k.elim0)
    (X := start (F := F)) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => by
      have h0 := (h c).1 0; have h1 := (h c).1 1; have h2 := (h c).1 2; have h3 := (h c).1 3
      have h4 := (h c).1 4; have h5 := (h c).1 5; have h6 := (h c).1 6
      rw [Pipeline.RDat.ArrAt_in _ 0 rfl] at h0
      rw [Pipeline.RDat.ArrAt_in _ 1 rfl] at h1
      rw [Pipeline.RDat.ArrAt_in _ 2 rfl] at h2
      rw [Pipeline.RDat.ArrAt_in _ 3 rfl] at h3
      rw [Pipeline.RDat.ArrAt_in _ 4 rfl] at h4
      rw [Pipeline.RDat.ArrAt_in _ 5 rfl] at h5
      rw [Pipeline.RDat.ArrAt_in _ 6 rfl] at h6
      exact ⟨h0, h1, h2, h3, h4, h5, h6⟩)

/-- info: 'Cert.Kernel.Hand.run_of_body' depends on axioms: [propext, Classical.choice, Quot.sound] -/
#guard_msgs in #print axioms run_of_body

end Cert.Kernel.Hand

end
-- ==== Proof.Kernel.Quiet.lean ====
import proofs.«900979_g7700000000000980_dist_mlpseq_tp1d_bs_bs_b256_d256_h512_v7x_i8_bf16_1_alg».proof.Proof.Kernel.State
import proofs.«900979_g7700000000000980_dist_mlpseq_tp1d_bs_bs_b256_d256_h512_v7x_i8_bf16_1_alg».proof.Proof.Kernel.Tables

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # The state of a device at the points of the body where no copy is in flight

   Between two phases of the protocol every copy issued so far has been waited for on both its cells, every source
   slice is back and every landing has been taken. What is still outstanding is the hand-over of slots: for each of the
   next copies whose carrier has already landed, the partner's slot is held (`grant`) and the device's own slot for the
   partner's copy of the same number is away, so the buffer it lies in is held without that slice. -/

/-- A whole buffer of device `c` held at contents `f`, through its memref. -/
abbrev ptw (c : Dev nD) (b : Ref sig .tc) (f : Buf (Elt F) ((Memref.whole b).view.loc (c : Thread nD τ))) : sProp 𝕄 :=
  (Memref.whole b).view.loc (c : Thread nD τ) ↦{fullShare} f

/-- A buffer of device `c` held except for the elements `A`, at some contents. -/
def heldBut (c : Dev nD) (b : Ref sig .tc) (A : Finset (Idx ((Memref.whole b).view.loc (c : Thread nD τ)))) : sProp 𝕄 :=
  iprop(∃ f : Buf (Elt F) ((Memref.whole b).view.loc (c : Thread nD τ)),
    (Memref.whole b).view.loc (c : Thread nD τ) ↦[Finset.univ \ A]{fullShare} f)

/-- How many rounds of DMA semaphore `j` are over once copies `0 .. k₀-1` are issued and waited for. -/
def roundsDone (k₀ j : ℕ) : ℕ := ((copyTab.take k₀).filter fun e => e.2.1 = j ∨ sendOf e.2.1 = j).length

/-- The owner's position on each of its 32 DMA cells, with the fact that the round is reached. -/
def posAt (c : Dev nD) (R : ℕ → ℕ) : sProp 𝕄 :=
  iprop(atPos ER (dcell c (dsem 8)) (R 8) ∅ 0 ∗ reached ER (dcell c (dsem 8)) (R 8)
    ∗ atPos ER (dcell c (dsem 9)) (R 9) ∅ 0 ∗ reached ER (dcell c (dsem 9)) (R 9)
    ∗ atPos ER (dcell c (dsem 10)) (R 10) ∅ 0 ∗ reached ER (dcell c (dsem 10)) (R 10)
    ∗ atPos ER (dcell c (dsem 11)) (R 11) ∅ 0 ∗ reached ER (dcell c (dsem 11)) (R 11)
    ∗ atPos ER (dcell c (dsem 12)) (R 12) ∅ 0 ∗ reached ER (dcell c (dsem 12)) (R 12)
    ∗ atPos ER (dcell c (dsem 13)) (R 13) ∅ 0 ∗ reached ER (dcell c (dsem 13)) (R 13)
    ∗ atPos ER (dcell c (dsem 14)) (R 14) ∅ 0 ∗ reached ER (dcell c (dsem 14)) (R 14)
    ∗ atPos ER (dcell c (dsem 15)) (R 15) ∅ 0 ∗ reached ER (dcell c (dsem 15)) (R 15)
    ∗ atPos ER (dcell c (dsem 16)) (R 16) ∅ 0 ∗ reached ER (dcell c (dsem 16)) (R 16)
    ∗ atPos ER (dcell c (dsem 17)) (R 17) ∅ 0 ∗ reached ER (dcell c (dsem 17)) (R 17)
    ∗ atPos ER (dcell c (dsem 18)) (R 18) ∅ 0 ∗ reached ER (dcell c (dsem 18)) (R 18)
    ∗ atPos ER (dcell c (dsem 19)) (R 19) ∅ 0 ∗ reached ER (dcell c (dsem 19)) (R 19)
    ∗ atPos ER (dcell c (dsem 20)) (R 20) ∅ 0 ∗ reached ER (dcell c (dsem 20)) (R 20)
    ∗ atPos ER (dcell c (dsem 21)) (R 21) ∅ 0 ∗ reached ER (dcell c (dsem 21)) (R 21)
    ∗ atPos ER (dcell c (dsem 22)) (R 22) ∅ 0 ∗ reached ER (dcell c (dsem 22)) (R 22)
    ∗ atPos ER (dcell c (dsem 23)) (R 23) ∅ 0 ∗ reached ER (dcell c (dsem 23)) (R 23)
    ∗ atPos ER (dcell c (dsem 24)) (R 24) ∅ 0 ∗ reached ER (dcell c (dsem 24)) (R 24)
    ∗ atPos ER (dcell c (dsem 25)) (R 25) ∅ 0 ∗ reached ER (dcell c (dsem 25)) (R 25)
    ∗ atPos ER (dcell c (dsem 26)) (R 26) ∅ 0 ∗ reached ER (dcell c (dsem 26)) (R 26)
    ∗ atPos ER (dcell c (dsem 27)) (R 27) ∅ 0 ∗ reached ER (dcell c (dsem 27)) (R 27)
    ∗ atPos ER (dcell c (dsem 28)) (R 28) ∅ 0 ∗ reached ER (dcell c (dsem 28)) (R 28)
    ∗ atPos ER (dcell c (dsem 29)) (R 29) ∅ 0 ∗ reached ER (dcell c (dsem 29)) (R 29)
    ∗ atPos ER (dcell c (dsem 30)) (R 30) ∅ 0 ∗ reached ER (dcell c (dsem 30)) (R 30)
    ∗ atPos ER (dcell c (dsem 31)) (R 31) ∅ 0 ∗ reached ER (dcell c (dsem 31)) (R 31)
    ∗ atPos ER (dcell c (dsem 32)) (R 32) ∅ 0 ∗ reached ER (dcell c (dsem 32)) (R 32)
    ∗ atPos ER (dcell c (dsem 33)) (R 33) ∅ 0 ∗ reached ER (dcell c (dsem 33)) (R 33)
    ∗ atPos ER (dcell c (dsem 34)) (R 34) ∅ 0 ∗ reached ER (dcell c (dsem 34)) (R 34)
    ∗ atPos ER (dcell c (dsem 35)) (R 35) ∅ 0 ∗ reached ER (dcell c (dsem 35)) (R 35)
    ∗ atPos ER (dcell c (dsem 36)) (R 36) ∅ 0 ∗ reached ER (dcell c (dsem 36)) (R 36)
    ∗ atPos ER (dcell c (dsem 37)) (R 37) ∅ 0 ∗ reached ER (dcell c (dsem 37)) (R 37)
    ∗ atPos ER (dcell c (dsem 38)) (R 38) ∅ 0 ∗ reached ER (dcell c (dsem 38)) (R 38)
    ∗ atPos ER (dcell c (dsem 39)) (R 39) ∅ 0 ∗ reached ER (dcell c (dsem 39)) (R 39))

/-- The buffers no copy touches: the eight windows' staging buffers, the two accumulators, the two send buffers
    (whole whenever no copy is in flight) and the two weight buffers, each whole at some contents. -/
def localBufs (c : Dev nD) : sProp 𝕄 :=
  iprop((∃ f, ptw (F := F) c cc0_stg0_0 f) ∗ (∃ f, ptw (F := F) c cc0_stg1_0 f) ∗ (∃ f, ptw (F := F) c cc0_stg2_0 f) ∗ (∃ f, ptw (F := F) c cc0_stg3_0 f) ∗ (∃ f, ptw (F := F) c cc0_stg4_0 f) ∗ (∃ f, ptw (F := F) c cc0_stg5_0 f) ∗ (∃ f, ptw (F := F) c cc0_stg6_0 f) ∗ (∃ f, ptw (F := F) c cc0_stg7_0 f) ∗ (∃ f, ptw (F := F) c cc0_scratch2 f) ∗ (∃ f, ptw (F := F) c cc0_scratch3 f) ∗ (∃ f, ptw (F := F) c cc0_scratch4 f) ∗ (∃ f, ptw (F := F) c cc0_scratch5 f) ∗ (∃ f, ptw (F := F) c cc0_scratch8 f) ∗ (∃ f, ptw (F := F) c cc0_scratch9 f))

/-- What every quiet point has in common, `k₀` copies issued: the invariants and levels, the barrier cell consumed,
    the positions, the tokens and credits of the copies to come, what is still owed, the untouched buffers. -/
def core (K : GSem nD τ sig → ℕ) (c : Dev nD) (k₀ : ℕ) : sProp 𝕄 :=
  iprop(invsAll (F := F) K ∗ reachedAll ∗ levAts L lv ∗ atPos ER (barCell c) 1 ∅ 0
    ∗ posAt c (roundsDone k₀) ∗ toksCopies c k₀ (copyTab.drop k₀) ∗ credsCopies c k₀ (copyTab.drop k₀)
    ∗ (∃ W, owes (c : Thread nD τ) (owedFrom c k₀) W) ∗ localBufs c)

/-- After the first exchange (4 copies): pending are the third exchange of both streams and stream 0's third reduce step. -/
def Q4 (K : GSem nD τ sig → ℕ) (c : Dev nD) : sProp 𝕄 :=
  iprop(core (F := F) K c 4
    ∗ heldBut c cc0_scratch0 (VE2 0 (xr 4 c)).view.set ∗ heldBut c cc0_scratch1 (VE2 1 (xr 1 c)).view.set
    ∗ heldBut c cc0_scratch6 (R2 0).view.set ∗ heldBut c cc0_scratch7 ∅
    ∗ grant (xr 4 c) (VE2 0 c) (agR 0 2) 0 ∗ grant (xr 1 c) (VE2 1 c) (agR 1 2) 0 ∗ grant (xr 3 c) (R2 0) (rsR 0 1) 0)

/-- After the third exchange of layer `l` (`k₀` = 6, 18, 30): pending are the four half-block reduce copies and
    stream 0's third reduce step. -/
def QE2 (K : GSem nD τ sig → ℕ) (c : Dev nD) (k₀ l : ℕ) : sProp 𝕄 :=
  iprop(core (F := F) K c k₀
    ∗ heldBut c cc0_scratch0 ∅ ∗ heldBut c cc0_scratch1 ∅
    ∗ heldBut c cc0_scratch6 ((R0 0).view.set ∪ (R1 0).view.set ∪ (R2 0).view.set) ∗ heldBut c cc0_scratch7 ((R0 1).view.set ∪ (R1 1).view.set)
    ∗ grant (xr 4 c) (R0 0) (rsR 0 0) l ∗ grant (xr 1 c) (R0 1) (rsR 1 0) l ∗ grant (xr 4 c) (R1 0) (rsR 0 4) l
    ∗ grant (xr 1 c) (R1 1) (rsR 1 4) l ∗ grant (xr 3 c) (R2 0) (rsR 0 1) l)

/-- After the two half-block reduce steps of layer `l` (`k₀` = 10, 22, 34): pending are both streams' third reduce
    step and stream 0's last. -/
def QAB (K : GSem nD τ sig → ℕ) (c : Dev nD) (k₀ l : ℕ) : sProp 𝕄 :=
  iprop(core (F := F) K c k₀
    ∗ heldBut c cc0_scratch0 ∅ ∗ heldBut c cc0_scratch1 ∅
    ∗ heldBut c cc0_scratch6 ((R2 0).view.set ∪ (match l with | 1 => (R4 0).view.set | 2 => (R3h 0).view.set | _ => (R3 0).view.set))
    ∗ heldBut c cc0_scratch7 (R2 1).view.set
    ∗ grant (xr 3 c) (R2 0) (rsR 0 1) l ∗ grant (xr 4 c) (R2 1) (rsR 1 1) l ∗ grantLast (xr 1 c) 0 l)

/-- After the third reduce step of layer `l` (`k₀` = 12, 24, 36): pending are both streams' last step and, before the
    last layer, stream 1's second exchange of the next layer. -/
def QC (K : GSem nD τ sig → ℕ) (c : Dev nD) (k₀ l : ℕ) : sProp 𝕄 :=
  iprop(core (F := F) K c k₀
    ∗ heldBut c cc0_scratch0 ∅
    ∗ heldBut c cc0_scratch1 (if l < 2 then (VE1 1 (xr 4 c)).view.set else ∅)
    ∗ heldBut c cc0_scratch6 (match l with | 1 => (R4 0).view.set | 2 => (R3h 0).view.set | _ => (R3 0).view.set)
    ∗ heldBut c cc0_scratch7 (match l with | 1 => (R4 1).view.set | 2 => (R3h 1).view.set | _ => (R3 1).view.set)
    ∗ grantLast (xr 1 c) 0 l ∗ grantLast (xr 3 c) 1 l
    ∗ (if l < 2 then grant (xr 4 c) (VE1 1 c) (agR 1 1) (l + 1) else iprop(emp)))

/-- After the last step of layer `l` < 2 (`k₀` = 14, 26): pending are the next layer's second exchange of both
    streams and stream 1's third. -/
def QD (K : GSem nD τ sig → ℕ) (c : Dev nD) (k₀ l : ℕ) : sProp 𝕄 :=
  iprop(core (F := F) K c k₀
    ∗ heldBut c cc0_scratch0 (VE1 0 (xr 3 c)).view.set
    ∗ heldBut c cc0_scratch1 ((VE1 1 (xr 4 c)).view.set ∪ (VE2 1 (xr 1 c)).view.set)
    ∗ heldBut c cc0_scratch6 ∅ ∗ heldBut c cc0_scratch7 ∅
    ∗ grant (xr 3 c) (VE1 0 c) (agR 0 1) (l + 1) ∗ grant (xr 4 c) (VE1 1 c) (agR 1 1) (l + 1) ∗ grant (xr 1 c) (VE2 1 c) (agR 1 2) (l + 1))

/-- In the last layer after its second exchange (28 copies): as after the first exchange of layer 0, at round 2. -/
def Q28 (K : GSem nD τ sig → ℕ) (c : Dev nD) : sProp 𝕄 :=
  iprop(core (F := F) K c 28
    ∗ heldBut c cc0_scratch0 (VE2 0 (xr 4 c)).view.set ∗ heldBut c cc0_scratch1 (VE2 1 (xr 1 c)).view.set
    ∗ heldBut c cc0_scratch6 (R2 0).view.set ∗ heldBut c cc0_scratch7 ∅
    ∗ grant (xr 4 c) (VE2 0 c) (agR 0 2) 2 ∗ grant (xr 1 c) (VE2 1 c) (agR 1 2) 2 ∗ grant (xr 3 c) (R2 0) (rsR 0 1) 2)

/-- After the last copy: nothing pending. -/
def Q38 (K : GSem nD τ sig → ℕ) (c : Dev nD) : sProp 𝕄 :=
  iprop(core (F := F) K c 38
    ∗ heldBut c cc0_scratch0 ∅ ∗ heldBut c cc0_scratch1 ∅ ∗ heldBut c cc0_scratch6 ∅ ∗ heldBut c cc0_scratch7 ∅)

end Cert.Kernel.Hand
end
-- ==== Proof.Kernel.Segments.lean ====
import proofs.«900979_g7700000000000980_dist_mlpseq_tp1d_bs_bs_b256_d256_h512_v7x_i8_bf16_1_alg».proof.Proof.Gen.Kernel.Skeleton
import proofs.«900979_g7700000000000980_dist_mlpseq_tp1d_bs_bs_b256_d256_h512_v7x_i8_bf16_1_alg».proof.Proof.Gen.Kernel.Points
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig ℕ (Elt F) ℕ U ℕ

/-! # The kernel's body as a sequence of fifteen segments

The body is one root sequence of 55 parts followed by two reads, and then a read and a store. It is cut here
into fifteen consecutive stretches of parts; a stretch is a program of its own that takes the values of earlier
stretches it reads (the device id, a few words, a few vectors) and returns the values later stretches read. The body
is the stretches run one after another (`body_eq_segments`: only the associativity of sequencing is used, no part
is opened), so a proof of the body is a proof of each stretch between consecutive intermediate assertions
(`wp_segments`). The first stretch reads the device id; every later one is stated at that device. -/

/-! ## The segments -/

/-- Segment 1 (parts 1–6 of the body). -/
def seg1 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) :
    Prog (TpuEff nD τ sig (Elt F) Λ₀ .tc) (Σ' (d0 : Dev nD) (v2 : BitVec 32) (v11 : BitVec 32) (v131 : BitVec 32) (v134 : BitVec 32) (v185 : BitVec 32), BitVec 32) := do
  let ⟨d0, v2, v11, v30, v34⟩ : Σ' (d0 : Dev nD) (v2 : BitVec 32) (v11 : BitVec 32) (v30 : Sems sig S_), BitVec 32 ← k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25
  let ⟨v43, v58, v62⟩ : Σ' (v43 : BitVec 32) (v58 : BitVec 32), BitVec 32 ← k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v30 v34
  k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v43 v62
  let ⟨v105, v117⟩ : Σ' (v105 : BitVec 32), BitVec 32 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v58
  let ⟨v131, v134, v157, v158, cst_109⟩ : Σ' (v131 : BitVec 32) (v134 : BitVec 32) (v157 : FVec F S256x512 .bf16) (v158 : Vec F S512x256 .bf16), FVec F S256x256 .f32 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11
  let ⟨v185, v187⟩ : Σ' (v185 : BitVec 32), BitVec 32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v105 v117 v134 v157 v158 cst_109
  pure ⟨d0, v2, v11, v131, v134, v185, v187⟩

/-- Segment 2 (parts 7–9 of the body). -/
def seg2 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v11 : BitVec 32) (v131 : BitVec 32) (v134 : BitVec 32) (v185 : BitVec 32) (v187 : BitVec 32) :
    Prog (TpuEff nD τ sig (Elt F) Λ₀ .tc) (Σ' (v264 : BitVec 32), BitVec 32) := do
  let ⟨v197, v219⟩ : Σ' (v197 : BitVec 32), FVec F S256x256 .f32 ← k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v131 v185 v187
  k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v134 v185 v219
  let ⟨v264, v268⟩ : Σ' (v264 : BitVec 32), BitVec 32 ← k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v197
  pure ⟨v264, v268⟩

/-- Segment 3 (parts 10–16 of the body). -/
def seg3 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v131 : BitVec 32) (v134 : BitVec 32) (v264 : BitVec 32) (v268 : BitVec 32) :
    Prog (TpuEff nD τ sig (Elt F) Λ₀ .tc) (Σ' (v496 : BitVec 32), BitVec 32) := do
  let ⟨v299, v315, v319⟩ : Σ' (v299 : BitVec 32) (v315 : BitVec 32), FVec F S256x256 .bf16 ← k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v264 v268
  let ⟨v347, v352⟩ : Σ' (v347 : BitVec 32), FVec F S256x512 .f32 ← k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v264 v268 v315 v319
  let ⟨v364, v381, v385, v386⟩ : Σ' (v364 : BitVec 32) (v381 : BitVec 32) (v385 : FVec F S256x256 .bf16), Vec F S256x256 .bf16 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v264 v268 v347 v352
  k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v299 v381 v385 v386
  let ⟨v442, v444⟩ : Σ' (v442 : Vec F S256x256 .f32), FVec F S256x256 .f32 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v131 v134 v315
  k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v134 v364 v381 v442 v444
  let ⟨v496, v500⟩ : Σ' (v496 : BitVec 32), BitVec 32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v131 v134
  pure ⟨v496, v500⟩

/-- Segment 4 (parts 17–18 of the body). -/
def seg4 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v131 : BitVec 32) (v134 : BitVec 32) (v496 : BitVec 32) (v500 : BitVec 32) :
    Prog (TpuEff nD τ sig (Elt F) Λ₀ .tc) PUnit := do
  let v516 : BitVec 32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v496 v500
  k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v131 v134 v500 v516

/-- Segment 5 (parts 19–21 of the body). -/
def seg5 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v131 : BitVec 32) (v134 : BitVec 32) :
    Prog (TpuEff nD τ sig (Elt F) Λ₀ .tc) (BitVec 32) := do
  let ⟨v574, v593, v600⟩ : Σ' (v574 : BitVec 32) (v593 : BitVec 32), FVec F S256x256 .bf16 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v131 v134
  let c1_i32_484 : BitVec 32 ← k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v574 v593 v600
  let v652 : BitVec 32 ← k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v131 v134 v593 c1_i32_484
  pure v652

/-- Segment 6 (parts 22–26 of the body). -/
def seg6 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v11 : BitVec 32) (v652 : BitVec 32) :
    Prog (TpuEff nD τ sig (Elt F) Λ₀ .tc) (Σ' (v678 : BitVec 32) (v681 : BitVec 32) (v811 : BitVec 32) (v815 : BitVec 32), Vec F S256x256 .bf16) := do
  let ⟨v664, v678, v681, v691, v692⟩ : Σ' (v664 : BitVec 32) (v678 : BitVec 32) (v681 : BitVec 32) (v691 : FVec F S256x256 .f32), BitVec 32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11
  k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v652 v681 v691 v692
  let ⟨v732, v744⟩ : Σ' (v732 : BitVec 32), BitVec 32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v664
  k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v678 v681
  let ⟨v811, v815, v818⟩ : Σ' (v811 : BitVec 32) (v815 : BitVec 32), Vec F S256x256 .bf16 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v732 v744
  pure ⟨v678, v681, v811, v815, v818⟩

/-- Segment 7 (parts 27–33 of the body). -/
def seg7 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v678 : BitVec 32) (v681 : BitVec 32) (v811 : BitVec 32) (v815 : BitVec 32) (v818 : Vec F S256x256 .bf16) :
    Prog (TpuEff nD τ sig (Elt F) Λ₀ .tc) (FVec F S256x256 .f32) := do
  let v846 : BitVec 32 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v811 v815 v818
  let ⟨v862, v878, v886⟩ : Σ' (v862 : BitVec 32) (v878 : BitVec 32), FVec F S256x512 .bf16 ← k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v811 v815 v846
  let v911 : BitVec 32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v811 v815 v878 v886
  let ⟨v928, v952⟩ : Σ' (v928 : BitVec 32), FVec F S512x256 .bf16 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v815
  let v976 : BitVec 32 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 v678 v846 v862 v952
  k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v678 v681 v911 v976
  let v1041 : FVec F S256x256 .f32 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v678 v681 v928
  pure v1041

/-- Segment 8 (parts 34–36 of the body). -/
def seg8 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v678 : BitVec 32) (v681 : BitVec 32) (v1041 : FVec F S256x256 .f32) :
    Prog (TpuEff nD τ sig (Elt F) Λ₀ .tc) (BitVec 32) := do
  let ⟨v1047, v1063⟩ : Σ' (v1047 : BitVec 32), BitVec 32 ← k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v678 v681 v1041
  k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1047 v1063
  let v1121 : BitVec 32 ← k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v678 v681
  pure v1121

/-- Segment 9 (parts 37–38 of the body). -/
def seg9 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v678 : BitVec 32) (v681 : BitVec 32) (v1121 : BitVec 32) :
    Prog (TpuEff nD τ sig (Elt F) Λ₀ .tc) (FVec F S256x256 .bf16) := do
  let v1140 : BitVec 32 ← k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v681 v1121
  let v1191 : FVec F S256x256 .bf16 ← k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v678 v681 v1140
  pure v1191

/-- Segment 10 (parts 39–41 of the body). -/
def seg10 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v11 : BitVec 32) (v1191 : FVec F S256x256 .bf16) :
    Prog (TpuEff nD τ sig (Elt F) Λ₀ .tc) (Σ' (v1225 : BitVec 32) (v1228 : BitVec 32), BitVec 32) := do
  let ⟨v1199, v1211, v1225, c6_i32_951⟩ : Σ' (v1199 : BitVec 32) (v1211 : BitVec 32) (v1225 : BitVec 32), BitVec 32 ← k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v1191
  let v1228 : BitVec 32 ← k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v11 v1225 c6_i32_951
  let v1279 : BitVec 32 ← k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1199 v1211
  pure ⟨v1225, v1228, v1279⟩

/-- Segment 11 (parts 42–44 of the body). -/
def seg11 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v11 : BitVec 32) (v1225 : BitVec 32) (v1228 : BitVec 32) (v1279 : BitVec 32) :
    Prog (TpuEff nD τ sig (Elt F) Λ₀ .tc) (Σ' (v1358 : BitVec 32) (v1362 : BitVec 32) (v1385 : FVec F S256x512 .bf16) (v1386 : Vec F S512x256 .bf16), FVec F S256x256 .f32) := do
  let ⟨v1291, v1319, v1322, v1323⟩ : Σ' (v1291 : BitVec 32) (v1319 : BitVec 32) (v1322 : Vec F S256x256 .bf16), Vec F S256x512 .bf16 ← k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v1225 v1228
  k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1279 v1291 v1319 v1322 v1323
  let ⟨v1358, v1362, v1385, v1386, cst_1075⟩ : Σ' (v1358 : BitVec 32) (v1362 : BitVec 32) (v1385 : FVec F S256x512 .bf16) (v1386 : Vec F S512x256 .bf16), FVec F S256x256 .f32 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11
  pure ⟨v1358, v1362, v1385, v1386, cst_1075⟩

/-- Segment 12 (parts 45–50 of the body). -/
def seg12 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v1225 : BitVec 32) (v1228 : BitVec 32) (v1358 : BitVec 32) (v1362 : BitVec 32) (v1385 : FVec F S256x512 .bf16) (v1386 : Vec F S512x256 .bf16) (cst_1075 : FVec F S256x256 .f32) :
    Prog (TpuEff nD τ sig (Elt F) Λ₀ .tc) (FVec F S256x256 .f32) := do
  let ⟨v1393, v1409⟩ : Σ' (v1393 : BitVec 32), BitVec 32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1358 v1362 v1385 v1386 cst_1075
  let v1451 : FVec F S256x256 .f32 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1358 v1362
  let ⟨v1458, v1475⟩ : Σ' (v1458 : BitVec 32), BitVec 32 ← k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1358 v1362 v1451
  k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1393 v1409
  k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1225 v1228 v1458
  let v1571 : FVec F S256x256 .f32 ← k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1225 v1228 v1475
  pure v1571

/-- Segment 13 (parts 51–53 of the body). -/
def seg13 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v11 : BitVec 32) (v1225 : BitVec 32) (v1228 : BitVec 32) (v1571 : FVec F S256x256 .f32) :
    Prog (TpuEff nD τ sig (Elt F) Λ₀ .tc) (Σ' (v1657 : BitVec 32) (v1659 : BitVec 32), BitVec 32) := do
  let ⟨v1582, v1598⟩ : Σ' (v1582 : BitVec 32), BitVec 32 ← k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1225 v1228 v1571
  k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1582 v1598
  let ⟨v1657, v1659, v1661⟩ : Σ' (v1657 : BitVec 32) (v1659 : BitVec 32), BitVec 32 ← k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v1225 v1228
  pure ⟨v1657, v1659, v1661⟩

/-- Segment 14 (parts 54–55 of the body). -/
def seg14 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) (v2 : BitVec 32) (v1657 : BitVec 32) (v1659 : BitVec 32) (v1661 : BitVec 32) :
    Prog (TpuEff nD τ sig (Elt F) Λ₀ .tc) PUnit := do
  let v1681 : BitVec 32 ← k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1659 v1661
  k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v1657 v1659 v1661 v1681

/-- Segment 15: the last reads and the store of the result's second half. -/
def seg15 (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) (d0 : Dev nD) :
    Prog (TpuEff nD τ sig (Elt F) Λ₀ .tc) PUnit := do
  let v1724 : Vec F S128x256 .f32 ← Prog.lift (.load arg11 (Rect.unit (s := S1024x256) (k0_off2 d0) S128x256.size (k0_off2_inb d0)).toLoadRect (View.loadsAt_vmem h_S128x256))
  let v1725 : Vec F S128x256 .bf16 ← Prog.lift (.load arg15 (Rect.unit (s := S1280x256) ![768, 0] S128x256.size inb_S1280x256_S128x256_768_0).toLoadRect (View.loadsAt_vmem h_S128x256))
  let v1728 : Vec F S128x256 .f32 ← Prog.lift (.load arg7 (Rect.unit (s := S256x256) ![128, 0] S128x256.size inb_S256x256_S128x256_128_0).toLoadRect (View.loadsAt_vmem h_S128x256))
  Prog.lift (.store arg7 (Rect.unit (s := S256x256) ![128, 0] S128x256.size inb_S256x256_S128x256_128_0) (k0_pay1 v1724 (k0_pay94 v1725)) Finset.univ (View.stores_vmem_bits_univ h_S128x256 rfl) (.inl rfl))
  pure ⟨⟩

/-- The body as the sequence of its fifteen segments, each handed the values of the earlier ones it reads. -/
def segments (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) :
    Prog (TpuEff nD τ sig (Elt F) Λ₀ .tc) PUnit := do
  let ⟨d0, v2, v11, v131, v134, v185, v187⟩ : Σ' (d0 : Dev nD) (v2 : BitVec 32) (v11 : BitVec 32) (v131 : BitVec 32) (v134 : BitVec 32) (v185 : BitVec 32), BitVec 32 ← seg1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25
  let ⟨v264, v268⟩ : Σ' (v264 : BitVec 32), BitVec 32 ← seg2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v131 v134 v185 v187
  let ⟨v496, v500⟩ : Σ' (v496 : BitVec 32), BitVec 32 ← seg3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v131 v134 v264 v268
  seg4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v131 v134 v496 v500
  let v652 ← seg5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v131 v134
  let ⟨v678, v681, v811, v815, v818⟩ : Σ' (v678 : BitVec 32) (v681 : BitVec 32) (v811 : BitVec 32) (v815 : BitVec 32), Vec F S256x256 .bf16 ← seg6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v652
  let v1041 ← seg7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v678 v681 v811 v815 v818
  let v1121 ← seg8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v678 v681 v1041
  let v1191 ← seg9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v678 v681 v1121
  let ⟨v1225, v1228, v1279⟩ : Σ' (v1225 : BitVec 32) (v1228 : BitVec 32), BitVec 32 ← seg10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v1191
  let ⟨v1358, v1362, v1385, v1386, cst_1075⟩ : Σ' (v1358 : BitVec 32) (v1362 : BitVec 32) (v1385 : FVec F S256x512 .bf16) (v1386 : Vec F S512x256 .bf16), FVec F S256x256 .f32 ← seg11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v1225 v1228 v1279
  let v1571 ← seg12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1225 v1228 v1358 v1362 v1385 v1386 cst_1075
  let ⟨v1657, v1659, v1661⟩ : Σ' (v1657 : BitVec 32) (v1659 : BitVec 32), BitVec 32 ← seg13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v11 v1225 v1228 v1571
  seg14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0 v2 v1657 v1659 v1661
  seg15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 d0

/-! ## Sequencing in the weakest-precondition logic -/

/-- A program followed by a continuation: the program to an intermediate assertion, the continuation from it. -/
theorem wp_seq {α β : Type} (c : Dev nD) (p : Prog (TpuEff nD τ sig (Elt F) Λ₀ .tc) α) (k : α → Prog (TpuEff nD τ sig (Elt F) Λ₀ .tc) β)
    {A : sProp 𝕄} {R : α → sProp 𝕄} {Q : β → sProp 𝕄}
    (hp : A ⊢ wp frame (wpE (defs₀ (F := F)) Variants.none (c : Thread nD τ) none) Set.univ p R)
    (hk : ∀ a, R a ⊢ wp frame (wpE (defs₀ (F := F)) Variants.none (c : Thread nD τ) none) Set.univ (k a) Q) :
    A ⊢ wp frame (wpE (defs₀ (F := F)) Variants.none (c : Thread nD τ) none) Set.univ (p >>= k) Q := by
  rw [wp_bind]; exact hp.trans (wp_mono _ _ _ hk)

/-- A pure fact beside an assertion may be used to prove what the assertion entails. -/
theorem pure_sep_elim {φ : Prop} {A B : sProp 𝕄} (h : φ → A ⊢ B) : iprop(⌜φ⌝ ∗ A) ⊢ B := by
  iintro ⟨%hφ, HA⟩; iapply (h hφ); iexact HA

set_option maxRecDepth 65536 in
theorem body_eq_segments (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5) :
    cc0_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 = segments arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 := by
  show (((k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 >>= fun r1 =>
    k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r1.2.2.2.1 r1.2.2.2.2 >>= fun r2 =>
    k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r2.1 r2.2.2 >>= fun _ =>
    k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r2.2.1 >>= fun r4 =>
    k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 >>= fun r5 =>
    k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r4.1 r4.2 r5.2.1 r5.2.2.1 r5.2.2.2.1 r5.2.2.2.2 >>= fun r6 =>
    k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r5.1 r6.1 r6.2 >>= fun r7 =>
    k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r5.2.1 r6.1 r7.2 >>= fun _ =>
    k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r7.1 >>= fun r9 =>
    k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r9.1 r9.2 >>= fun r10 =>
    k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r9.1 r9.2 r10.2.1 r10.2.2 >>= fun r11 =>
    k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r9.1 r9.2 r11.1 r11.2 >>= fun r12 =>
    k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r10.1 r12.2.1 r12.2.2.1 r12.2.2.2 >>= fun _ =>
    k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r5.1 r5.2.1 r10.2.1 >>= fun r14 =>
    k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r5.2.1 r12.1 r12.2.1 r14.1 r14.2 >>= fun _ =>
    k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r5.1 r5.2.1 >>= fun r16 =>
    k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r16.1 r16.2 >>= fun r17 =>
    k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r5.1 r5.2.1 r16.2 r17 >>= fun _ =>
    k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r5.1 r5.2.1 >>= fun r19 =>
    k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r19.1 r19.2.1 r19.2.2 >>= fun r20 =>
    k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r5.1 r5.2.1 r19.2.1 r20 >>= fun r21 =>
    k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 >>= fun r22 =>
    k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r21 r22.2.2.1 r22.2.2.2.1 r22.2.2.2.2 >>= fun _ =>
    k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r22.1 >>= fun r24 =>
    k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r22.2.1 r22.2.2.1 >>= fun _ =>
    k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r24.1 r24.2 >>= fun r26 =>
    k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r26.1 r26.2.1 r26.2.2 >>= fun r27 =>
    k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r26.1 r26.2.1 r27 >>= fun r28 =>
    k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r26.1 r26.2.1 r28.2.1 r28.2.2 >>= fun r29 =>
    k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r26.2.1 >>= fun r30 =>
    k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r22.2.1 r27 r28.1 r30.2 >>= fun r31 =>
    k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r22.2.1 r22.2.2.1 r29 r31 >>= fun _ =>
    k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r22.2.1 r22.2.2.1 r30.1 >>= fun r33 =>
    k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r22.2.1 r22.2.2.1 r33 >>= fun r34 =>
    k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r34.1 r34.2 >>= fun _ =>
    k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r22.2.1 r22.2.2.1 >>= fun r36 =>
    k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r22.2.2.1 r36 >>= fun r37 =>
    k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r22.2.1 r22.2.2.1 r37 >>= fun r38 =>
    k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r38 >>= fun r39 =>
    k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.2.1 r39.2.2.1 r39.2.2.2 >>= fun r40 =>
    k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r39.1 r39.2.1 >>= fun r41 =>
    k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r39.2.2.1 r40 >>= fun r42 =>
    k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r41 r42.1 r42.2.1 r42.2.2.1 r42.2.2.2 >>= fun _ =>
    k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 >>= fun r44 =>
    k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r44.1 r44.2.1 r44.2.2.1 r44.2.2.2.1 r44.2.2.2.2 >>= fun r45 =>
    k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r44.1 r44.2.1 >>= fun r46 =>
    k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r44.1 r44.2.1 r46 >>= fun r47 =>
    k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r45.1 r45.2 >>= fun _ =>
    k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r39.2.2.1 r40 r47.1 >>= fun _ =>
    k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r39.2.2.1 r40 r47.2 >>= fun r50 =>
    k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r39.2.2.1 r40 r50 >>= fun r51 =>
    k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r51.1 r51.2 >>= fun _ =>
    k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r39.2.2.1 r40 >>= fun r53 =>
    k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r53.2.1 r53.2.2 >>= fun r54 =>
    k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r53.1 r53.2.1 r53.2.2 r54 >>= fun _ =>
    Prog.lift (.load arg11 (Rect.unit (s := S1024x256) (k0_off2 r1.1) S128x256.size (k0_off2_inb r1.1)).toLoadRect (View.loadsAt_vmem h_S128x256)) >>= fun v1724 =>
    Prog.lift (.load arg15 (Rect.unit (s := S1280x256) ![768, 0] S128x256.size inb_S1280x256_S128x256_768_0).toLoadRect (View.loadsAt_vmem h_S128x256)) >>= fun v1725 =>
    (pure (⟨v1724, k0_pay94 v1725⟩ : Σ' (v1724 : Vec F S128x256 .f32), FVec F S128x256 .f32) : Prog (TpuEff nD τ sig (Elt F) Λ₀ .tc) (Σ' (v1724 : Vec F S128x256 .f32), FVec F S128x256 .f32))) >>= fun z =>
    Prog.lift (.load arg7 (Rect.unit (s := S256x256) ![128, 0] S128x256.size inb_S256x256_S128x256_128_0).toLoadRect (View.loadsAt_vmem h_S128x256)) >>= fun v1728 =>
    Prog.lift (.store arg7 (Rect.unit (s := S256x256) ![128, 0] S128x256.size inb_S256x256_S128x256_128_0) (k0_pay1 z.1 z.2) Finset.univ (View.stores_vmem_bits_univ h_S128x256 rfl) (.inl rfl)) >>= fun _ =>
    (pure ⟨⟩ : Prog (TpuEff nD τ sig (Elt F) Λ₀ .tc) PUnit)) : Prog (TpuEff nD τ sig (Elt F) Λ₀ .tc) PUnit)
    = ((k0_part1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 >>= fun r1 =>
      k0_part2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r1.2.2.2.1 r1.2.2.2.2 >>= fun r2 =>
      k0_part3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r2.1 r2.2.2 >>= fun _ =>
      k0_part4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 r2.2.1 >>= fun r4 =>
      k0_part5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r1.2.2.1 >>= fun r5 =>
      k0_part6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 r1.1 r1.2.1 r4.1 r4.2 r5.2.1 r5.2.2.1 r5.2.2.2.1 r5.2.2.2.2 >>= fun r6 =>
      (pure (⟨r1.1, r1.2.1, r1.2.2.1, r5.1, r5.2.1, r6.1, r6.2⟩ : Σ' (d0 : Dev nD) (v2 : BitVec 32) (v11 : BitVec 32) (v131 : BitVec 32) (v134 : BitVec 32) (v185 : BitVec 32), BitVec 32) : Prog (TpuEff nD τ sig (Elt F) Λ₀ .tc) (Σ' (d0 : Dev nD) (v2 : BitVec 32) (v11 : BitVec 32) (v131 : BitVec 32) (v134 : BitVec 32) (v185 : BitVec 32), BitVec 32))) >>= fun o1 =>
    (k0_part7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 o1.2.2.2.1 o1.2.2.2.2.2.1 o1.2.2.2.2.2.2 >>= fun r7 =>
      k0_part8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.2.2.2.1 o1.2.2.2.2.2.1 r7.2 >>= fun _ =>
      k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 r7.1 >>= fun r9 =>
      (pure (⟨r9.1, r9.2⟩ : Σ' (v264 : BitVec 32), BitVec 32) : Prog (TpuEff nD τ sig (Elt F) Λ₀ .tc) (Σ' (v264 : BitVec 32), BitVec 32))) >>= fun o2 =>
    (k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o2.1 o2.2 >>= fun r10 =>
      k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o2.1 o2.2 r10.2.1 r10.2.2 >>= fun r11 =>
      k0_part12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o2.1 o2.2 r11.1 r11.2 >>= fun r12 =>
      k0_part13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 r10.1 r12.2.1 r12.2.2.1 r12.2.2.2 >>= fun _ =>
      k0_part14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.2.2.1 o1.2.2.2.2.1 r10.2.1 >>= fun r14 =>
      k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.2.2.2.1 r12.1 r12.2.1 r14.1 r14.2 >>= fun _ =>
      k0_part16 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.2.1 o1.2.2.2.2.1 >>= fun r16 =>
      (pure (⟨r16.1, r16.2⟩ : Σ' (v496 : BitVec 32), BitVec 32) : Prog (TpuEff nD τ sig (Elt F) Λ₀ .tc) (Σ' (v496 : BitVec 32), BitVec 32))) >>= fun o3 =>
    (k0_part17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o3.1 o3.2 >>= fun r17 =>
      k0_part18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.2.2.1 o1.2.2.2.2.1 o3.2 r17) >>= fun _ =>
    (k0_part19 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.2.1 o1.2.2.2.2.1 >>= fun r19 =>
      k0_part20 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 r19.1 r19.2.1 r19.2.2 >>= fun r20 =>
      k0_part21 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.2.1 o1.2.2.2.2.1 r19.2.1 r20 >>= fun r21 =>
      (pure r21 : Prog (TpuEff nD τ sig (Elt F) Λ₀ .tc) (BitVec 32))) >>= fun o5 =>
    (k0_part22 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 >>= fun r22 =>
      k0_part23 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o5 r22.2.2.1 r22.2.2.2.1 r22.2.2.2.2 >>= fun _ =>
      k0_part24 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 r22.1 >>= fun r24 =>
      k0_part25 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 r22.2.1 r22.2.2.1 >>= fun _ =>
      k0_part26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 r24.1 r24.2 >>= fun r26 =>
      (pure (⟨r22.2.1, r22.2.2.1, r26.1, r26.2.1, r26.2.2⟩ : Σ' (v678 : BitVec 32) (v681 : BitVec 32) (v811 : BitVec 32) (v815 : BitVec 32), Vec F S256x256 .bf16) : Prog (TpuEff nD τ sig (Elt F) Λ₀ .tc) (Σ' (v678 : BitVec 32) (v681 : BitVec 32) (v811 : BitVec 32) (v815 : BitVec 32), Vec F S256x256 .bf16))) >>= fun o6 =>
    (k0_part27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.2.2.1 o6.2.2.2.1 o6.2.2.2.2 >>= fun r27 =>
      k0_part28 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.2.2.1 o6.2.2.2.1 r27 >>= fun r28 =>
      k0_part29 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.2.2.1 o6.2.2.2.1 r28.2.1 r28.2.2 >>= fun r29 =>
      k0_part30 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.2.2.2.1 >>= fun r30 =>
      k0_part31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o6.1 r27 r28.1 r30.2 >>= fun r31 =>
      k0_part32 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o6.1 o6.2.1 r29 r31 >>= fun _ =>
      k0_part33 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o6.1 o6.2.1 r30.1 >>= fun r33 =>
      (pure r33 : Prog (TpuEff nD τ sig (Elt F) Λ₀ .tc) (FVec F S256x256 .f32))) >>= fun o7 =>
    (k0_part34 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.1 o6.2.1 o7 >>= fun r34 =>
      k0_part35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 r34.1 r34.2 >>= fun _ =>
      k0_part36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.1 o6.2.1 >>= fun r36 =>
      (pure r36 : Prog (TpuEff nD τ sig (Elt F) Λ₀ .tc) (BitVec 32))) >>= fun o8 =>
    (k0_part37 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o6.2.1 o8 >>= fun r37 =>
      k0_part38 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o6.1 o6.2.1 r37 >>= fun r38 =>
      (pure r38 : Prog (TpuEff nD τ sig (Elt F) Λ₀ .tc) (FVec F S256x256 .bf16))) >>= fun o9 =>
    (k0_part39 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 o9 >>= fun r39 =>
      k0_part40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.2.1 r39.2.2.1 r39.2.2.2 >>= fun r40 =>
      k0_part41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 r39.1 r39.2.1 >>= fun r41 =>
      (pure (⟨r39.2.2.1, r40, r41⟩ : Σ' (v1225 : BitVec 32) (v1228 : BitVec 32), BitVec 32) : Prog (TpuEff nD τ sig (Elt F) Λ₀ .tc) (Σ' (v1225 : BitVec 32) (v1228 : BitVec 32), BitVec 32))) >>= fun o10 =>
    (k0_part42 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 o10.1 o10.2.1 >>= fun r42 =>
      k0_part43 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o10.2.2 r42.1 r42.2.1 r42.2.2.1 r42.2.2.2 >>= fun _ =>
      k0_part44 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 >>= fun r44 =>
      (pure (⟨r44.1, r44.2.1, r44.2.2.1, r44.2.2.2.1, r44.2.2.2.2⟩ : Σ' (v1358 : BitVec 32) (v1362 : BitVec 32) (v1385 : FVec F S256x512 .bf16) (v1386 : Vec F S512x256 .bf16), FVec F S256x256 .f32) : Prog (TpuEff nD τ sig (Elt F) Λ₀ .tc) (Σ' (v1358 : BitVec 32) (v1362 : BitVec 32) (v1385 : FVec F S256x512 .bf16) (v1386 : Vec F S512x256 .bf16), FVec F S256x256 .f32))) >>= fun o11 =>
    (k0_part45 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o11.1 o11.2.1 o11.2.2.1 o11.2.2.2.1 o11.2.2.2.2 >>= fun r45 =>
      k0_part46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o11.1 o11.2.1 >>= fun r46 =>
      k0_part47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o11.1 o11.2.1 r46 >>= fun r47 =>
      k0_part48 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 r45.1 r45.2 >>= fun _ =>
      k0_part49 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o10.1 o10.2.1 r47.1 >>= fun _ =>
      k0_part50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o10.1 o10.2.1 r47.2 >>= fun r50 =>
      (pure r50 : Prog (TpuEff nD τ sig (Elt F) Λ₀ .tc) (FVec F S256x256 .f32))) >>= fun o12 =>
    (k0_part51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o10.1 o10.2.1 o12 >>= fun r51 =>
      k0_part52 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 r51.1 r51.2 >>= fun _ =>
      k0_part53 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o1.2.2.1 o10.1 o10.2.1 >>= fun r53 =>
      (pure (⟨r53.1, r53.2.1, r53.2.2⟩ : Σ' (v1657 : BitVec 32) (v1659 : BitVec 32), BitVec 32) : Prog (TpuEff nD τ sig (Elt F) Λ₀ .tc) (Σ' (v1657 : BitVec 32) (v1659 : BitVec 32), BitVec 32))) >>= fun o13 =>
    (k0_part54 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o1.2.1 o13.2.1 o13.2.2 >>= fun r54 =>
      k0_part55 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 o1.1 o13.1 o13.2.1 o13.2.2 r54) >>= fun _ =>
    (Prog.lift (.load arg11 (Rect.unit (s := S1024x256) (k0_off2 o1.1) S128x256.size (k0_off2_inb o1.1)).toLoadRect (View.loadsAt_vmem h_S128x256)) >>= fun v1724 =>
      Prog.lift (.load arg15 (Rect.unit (s := S1280x256) ![768, 0] S128x256.size inb_S1280x256_S128x256_768_0).toLoadRect (View.loadsAt_vmem h_S128x256)) >>= fun v1725 =>
      Prog.lift (.load arg7 (Rect.unit (s := S256x256) ![128, 0] S128x256.size inb_S256x256_S128x256_128_0).toLoadRect (View.loadsAt_vmem h_S128x256)) >>= fun v1728 =>
      Prog.lift (.store arg7 (Rect.unit (s := S256x256) ![128, 0] S128x256.size inb_S256x256_S128x256_128_0) (k0_pay1 v1724 (k0_pay94 v1725)) Finset.univ (View.stores_vmem_bits_univ h_S128x256 rfl) (.inl rfl)) >>= fun _ =>
      (pure ⟨⟩ : Prog (TpuEff nD τ sig (Elt F) Λ₀ .tc) PUnit)))
  simp only [Prog.bind_assoc, Prog.pure_eq_ret, Prog.bind_ret]

end Cert.Kernel.Hand

end
-- ==== Proof.Kernel.Specs.lean ====
import proofs.«900979_g7700000000000980_dist_mlpseq_tp1d_bs_bs_b256_d256_h512_v7x_i8_bf16_1_alg».proof.Proof.Kernel.State
import proofs.«900979_g7700000000000980_dist_mlpseq_tp1d_bs_bs_b256_d256_h512_v7x_i8_bf16_1_alg».proof.Proof.Kernel.Quiet
import proofs.«900979_g7700000000000980_dist_mlpseq_tp1d_bs_bs_b256_d256_h512_v7x_i8_bf16_1_alg».proof.Proof.Kernel.Segments

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # What each segment of the body has to establish

   The body is cut at the points where no copy is in flight (Quiet.lean). Segment 1 starts from the state the launch
   hands over and ends at the first quiet point, having read the device id; segments 2 to 14 go from one quiet point to
   the next; segment 15 (the last loads and the store of the result) ends in the state the launch takes back. The names
   of the cells' invariants are chosen at launch and are the same throughout; each state is stated under `∃ K`. -/

/-- Before the body: the launch's state, what is owed, and the eight windows' staging buffers at the blocks `Y`. -/
def PreBody (m : (ℓ : Loc nD τ sig) → Buf (Elt F) ℓ) (c : Dev nD) (Y : (w : Fin cfg0.W) → (cfg0.win w).block.Idx → Elt F (cfg0.win w).elt) : sProp 𝕄 :=
  iprop(Φ₀ (F := F) c ∗ (rdats (F := F) m 0 c).owesAt 0 Gen.t0_0.castSucc
      ∗ owns (c : Thread nD τ) (Memref.whole cc0_stg0_0) fullShare (Y 0)
      ∗ owns (c : Thread nD τ) (Memref.whole cc0_stg1_0) fullShare (Y 1)
      ∗ owns (c : Thread nD τ) (Memref.whole cc0_stg2_0) fullShare (Y 2)
      ∗ owns (c : Thread nD τ) (Memref.whole cc0_stg3_0) fullShare (Y 3)
      ∗ owns (c : Thread nD τ) (Memref.whole cc0_stg4_0) fullShare (Y 4)
      ∗ owns (c : Thread nD τ) (Memref.whole cc0_stg5_0) fullShare (Y 5)
      ∗ owns (c : Thread nD τ) (Memref.whole cc0_stg6_0) fullShare (Y 6)
      ∗ owns (c : Thread nD τ) (Memref.whole cc0_stg7_0) fullShare (Y 7))

/-- After it: the launch's closing state, nothing owed, the staging buffers at some contents. -/
def PostBody (m : (ℓ : Loc nD τ sig) → Buf (Elt F) ℓ) (c : Dev nD) : sProp 𝕄 :=
  iprop(Φ₁ (F := F) c ∗ (rdats (F := F) m 0 c).owesAt 0 Gen.t0_0.succ
      ∗ (∃ X, ⌜True⌝ ∗ owns (c : Thread nD τ) (Memref.whole cc0_stg0_0) fullShare X)
      ∗ (∃ X, ⌜True⌝ ∗ owns (c : Thread nD τ) (Memref.whole cc0_stg1_0) fullShare X)
      ∗ (∃ X, ⌜True⌝ ∗ owns (c : Thread nD τ) (Memref.whole cc0_stg2_0) fullShare X)
      ∗ (∃ X, ⌜True⌝ ∗ owns (c : Thread nD τ) (Memref.whole cc0_stg3_0) fullShare X)
      ∗ (∃ X, ⌜True⌝ ∗ owns (c : Thread nD τ) (Memref.whole cc0_stg4_0) fullShare X)
      ∗ (∃ X, ⌜True⌝ ∗ owns (c : Thread nD τ) (Memref.whole cc0_stg5_0) fullShare X)
      ∗ (∃ X, ⌜True⌝ ∗ owns (c : Thread nD τ) (Memref.whole cc0_stg6_0) fullShare X)
      ∗ (∃ X, ⌜True⌝ ∗ owns (c : Thread nD τ) (Memref.whole cc0_stg7_0) fullShare X))

/-- Segment 1: the entry handshake and the first exchange; it returns the device id it read. -/
def Spec1 (m : (ℓ : Loc nD τ sig) → Buf (Elt F) ℓ) (c : Dev nD) : Prop :=
  ∀ Y, (PreBody (F := F) m c Y)
      ⊢ wp frame (wpE (defs₀ (F := F)) Variants.none (c : Thread nD τ) none) Set.univ
          (seg1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17)
          (fun r => iprop(⌜r.1 = c⌝ ∗ ∃ K, Q4 (F := F) K c))

/-- Segment 2: from the quiet point before it to the one after it, for all values of the words and vectors it is
    handed (it reads none of them). -/
def Spec2 (c : Dev nD) : Prop :=
  ∀ (v2 : BitVec 32) (v11 : BitVec 32) (v131 : BitVec 32) (v134 : BitVec 32) (v185 : BitVec 32) (v187 : BitVec 32),
    (iprop(∃ K, Q4 (F := F) K c) : sProp 𝕄)
      ⊢ wp frame (wpE (defs₀ (F := F)) Variants.none (c : Thread nD τ) none) Set.univ
          (seg2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v131 v134 v185 v187)
          (fun _ => iprop(∃ K, QE2 (F := F) K c 6 0))

/-- Segment 3: from the quiet point before it to the one after it, for all values of the words and vectors it is
    handed (it reads none of them). -/
def Spec3 (c : Dev nD) : Prop :=
  ∀ (v2 : BitVec 32) (v131 : BitVec 32) (v134 : BitVec 32) (v264 : BitVec 32) (v268 : BitVec 32),
    (iprop(∃ K, QE2 (F := F) K c 6 0) : sProp 𝕄)
      ⊢ wp frame (wpE (defs₀ (F := F)) Variants.none (c : Thread nD τ) none) Set.univ
          (seg3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134 v264 v268)
          (fun _ => iprop(∃ K, QAB (F := F) K c 10 0))

/-- Segment 4: from the quiet point before it to the one after it, for all values of the words and vectors it is
    handed (it reads none of them). -/
def Spec4 (c : Dev nD) : Prop :=
  ∀ (v2 : BitVec 32) (v131 : BitVec 32) (v134 : BitVec 32) (v496 : BitVec 32) (v500 : BitVec 32),
    (iprop(∃ K, QAB (F := F) K c 10 0) : sProp 𝕄)
      ⊢ wp frame (wpE (defs₀ (F := F)) Variants.none (c : Thread nD τ) none) Set.univ
          (seg4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134 v496 v500)
          (fun _ => iprop(∃ K, QC (F := F) K c 12 0))

/-- Segment 5: from the quiet point before it to the one after it, for all values of the words and vectors it is
    handed (it reads none of them). -/
def Spec5 (c : Dev nD) : Prop :=
  ∀ (v2 : BitVec 32) (v131 : BitVec 32) (v134 : BitVec 32),
    (iprop(∃ K, QC (F := F) K c 12 0) : sProp 𝕄)
      ⊢ wp frame (wpE (defs₀ (F := F)) Variants.none (c : Thread nD τ) none) Set.univ
          (seg5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134)
          (fun _ => iprop(∃ K, QD (F := F) K c 14 0))

/-- Segment 6: from the quiet point before it to the one after it, for all values of the words and vectors it is
    handed (it reads none of them). -/
def Spec6 (c : Dev nD) : Prop :=
  ∀ (v2 : BitVec 32) (v11 : BitVec 32) (v652 : BitVec 32),
    (iprop(∃ K, QD (F := F) K c 14 0) : sProp 𝕄)
      ⊢ wp frame (wpE (defs₀ (F := F)) Variants.none (c : Thread nD τ) none) Set.univ
          (seg6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v652)
          (fun _ => iprop(∃ K, QE2 (F := F) K c 18 1))

/-- Segment 7: from the quiet point before it to the one after it, for all values of the words and vectors it is
    handed (it reads none of them). -/
def Spec7 (c : Dev nD) : Prop :=
  ∀ (v2 : BitVec 32) (v678 : BitVec 32) (v681 : BitVec 32) (v811 : BitVec 32) (v815 : BitVec 32) (v818 : Vec F S256x256 .bf16),
    (iprop(∃ K, QE2 (F := F) K c 18 1) : sProp 𝕄)
      ⊢ wp frame (wpE (defs₀ (F := F)) Variants.none (c : Thread nD τ) none) Set.univ
          (seg7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v811 v815 v818)
          (fun _ => iprop(∃ K, QAB (F := F) K c 22 1))

/-- Segment 8: from the quiet point before it to the one after it, for all values of the words and vectors it is
    handed (it reads none of them). -/
def Spec8 (c : Dev nD) : Prop :=
  ∀ (v2 : BitVec 32) (v678 : BitVec 32) (v681 : BitVec 32) (v1041 : FVec F S256x256 .f32),
    (iprop(∃ K, QAB (F := F) K c 22 1) : sProp 𝕄)
      ⊢ wp frame (wpE (defs₀ (F := F)) Variants.none (c : Thread nD τ) none) Set.univ
          (seg8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v1041)
          (fun _ => iprop(∃ K, QC (F := F) K c 24 1))

/-- Segment 9: from the quiet point before it to the one after it, for all values of the words and vectors it is
    handed (it reads none of them). -/
def Spec9 (c : Dev nD) : Prop :=
  ∀ (v2 : BitVec 32) (v678 : BitVec 32) (v681 : BitVec 32) (v1121 : BitVec 32),
    (iprop(∃ K, QC (F := F) K c 24 1) : sProp 𝕄)
      ⊢ wp frame (wpE (defs₀ (F := F)) Variants.none (c : Thread nD τ) none) Set.univ
          (seg9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v1121)
          (fun _ => iprop(∃ K, QD (F := F) K c 26 1))

/-- Segment 10: from the quiet point before it to the one after it, for all values of the words and vectors it is
    handed (it reads none of them). -/
def Spec10 (c : Dev nD) : Prop :=
  ∀ (v2 : BitVec 32) (v11 : BitVec 32) (v1191 : FVec F S256x256 .bf16),
    (iprop(∃ K, QD (F := F) K c 26 1) : sProp 𝕄)
      ⊢ wp frame (wpE (defs₀ (F := F)) Variants.none (c : Thread nD τ) none) Set.univ
          (seg10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v1191)
          (fun _ => iprop(∃ K, Q28 (F := F) K c))

/-- Segment 11: from the quiet point before it to the one after it, for all values of the words and vectors it is
    handed (it reads none of them). -/
def Spec11 (c : Dev nD) : Prop :=
  ∀ (v2 : BitVec 32) (v11 : BitVec 32) (v1225 : BitVec 32) (v1228 : BitVec 32) (v1279 : BitVec 32),
    (iprop(∃ K, Q28 (F := F) K c) : sProp 𝕄)
      ⊢ wp frame (wpE (defs₀ (F := F)) Variants.none (c : Thread nD τ) none) Set.univ
          (seg11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v1225 v1228 v1279)
          (fun _ => iprop(∃ K, QE2 (F := F) K c 30 2))

/-- Segment 12: from the quiet point before it to the one after it, for all values of the words and vectors it is
    handed (it reads none of them). -/
def Spec12 (c : Dev nD) : Prop :=
  ∀ (v2 : BitVec 32) (v1225 : BitVec 32) (v1228 : BitVec 32) (v1358 : BitVec 32) (v1362 : BitVec 32) (v1385 : FVec F S256x512 .bf16) (v1386 : Vec F S512x256 .bf16) (cst_1075 : FVec F S256x256 .f32),
    (iprop(∃ K, QE2 (F := F) K c 30 2) : sProp 𝕄)
      ⊢ wp frame (wpE (defs₀ (F := F)) Variants.none (c : Thread nD τ) none) Set.univ
          (seg12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v1225 v1228 v1358 v1362 v1385 v1386 cst_1075)
          (fun _ => iprop(∃ K, QAB (F := F) K c 34 2))

/-- Segment 13: from the quiet point before it to the one after it, for all values of the words and vectors it is
    handed (it reads none of them). -/
def Spec13 (c : Dev nD) : Prop :=
  ∀ (v2 : BitVec 32) (v11 : BitVec 32) (v1225 : BitVec 32) (v1228 : BitVec 32) (v1571 : FVec F S256x256 .f32),
    (iprop(∃ K, QAB (F := F) K c 34 2) : sProp 𝕄)
      ⊢ wp frame (wpE (defs₀ (F := F)) Variants.none (c : Thread nD τ) none) Set.univ
          (seg13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v1225 v1228 v1571)
          (fun _ => iprop(∃ K, QC (F := F) K c 36 2))

/-- Segment 14: from the quiet point before it to the one after it, for all values of the words and vectors it is
    handed (it reads none of them). -/
def Spec14 (c : Dev nD) : Prop :=
  ∀ (v2 : BitVec 32) (v1657 : BitVec 32) (v1659 : BitVec 32) (v1661 : BitVec 32),
    (iprop(∃ K, QC (F := F) K c 36 2) : sProp 𝕄)
      ⊢ wp frame (wpE (defs₀ (F := F)) Variants.none (c : Thread nD τ) none) Set.univ
          (seg14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v1657 v1659 v1661)
          (fun _ => iprop(∃ K, Q38 (F := F) K c))

/-- Segment 15: the last loads and the store of the result; the 32 cells are closed and their counters handed back. -/
def Spec15 (m : (ℓ : Loc nD τ sig) → Buf (Elt F) ℓ) (c : Dev nD) : Prop :=
  (iprop(∃ K, Q38 (F := F) K c) : sProp 𝕄)
    ⊢ wp frame (wpE (defs₀ (F := F)) Variants.none (c : Thread nD τ) none) Set.univ
        (seg15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c)
        (fun _ => PostBody (F := F) m c)

end Cert.Kernel.Hand
end
-- ==== Proof.Kernel.Compose.lean ====
import proofs.«900979_g7700000000000980_dist_mlpseq_tp1d_bs_bs_b256_d256_h512_v7x_i8_bf16_1_alg».proof.Proof.Kernel.Segments

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig ℕ (Elt F) ℕ U ℕ

/-! # The body from its segments

A proof of the body is a proof of each of its fifteen segments between consecutive intermediate assertions: the first
segment reads the device id and says so in its post, every later one is taken at that device and for all values of the
words and vectors it is handed, and the sequencing rule of the weakest-precondition logic joins them in order. -/

set_option maxHeartbeats 4000000 in
theorem wp_segments (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5)
    (c : Dev nD) (P : Fin 16 → sProp 𝕄)
    (h1 : P 0 ⊢ wp frame (wpE (defs₀ (F := F)) Variants.none (c : Thread nD τ) none) Set.univ (seg1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25) (fun r => iprop(⌜r.1 = c⌝ ∗ P 1)))
    (h2 : ∀ (v2 : BitVec 32) (v11 : BitVec 32) (v131 : BitVec 32) (v134 : BitVec 32) (v185 : BitVec 32) (v187 : BitVec 32), P 1 ⊢ wp frame (wpE (defs₀ (F := F)) Variants.none (c : Thread nD τ) none) Set.univ (seg2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v131 v134 v185 v187) (fun _ => P 2))
    (h3 : ∀ (v2 : BitVec 32) (v131 : BitVec 32) (v134 : BitVec 32) (v264 : BitVec 32) (v268 : BitVec 32), P 2 ⊢ wp frame (wpE (defs₀ (F := F)) Variants.none (c : Thread nD τ) none) Set.univ (seg3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v131 v134 v264 v268) (fun _ => P 3))
    (h4 : ∀ (v2 : BitVec 32) (v131 : BitVec 32) (v134 : BitVec 32) (v496 : BitVec 32) (v500 : BitVec 32), P 3 ⊢ wp frame (wpE (defs₀ (F := F)) Variants.none (c : Thread nD τ) none) Set.univ (seg4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v131 v134 v496 v500) (fun _ => P 4))
    (h5 : ∀ (v2 : BitVec 32) (v131 : BitVec 32) (v134 : BitVec 32), P 4 ⊢ wp frame (wpE (defs₀ (F := F)) Variants.none (c : Thread nD τ) none) Set.univ (seg5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v131 v134) (fun _ => P 5))
    (h6 : ∀ (v2 : BitVec 32) (v11 : BitVec 32) (v652 : BitVec 32), P 5 ⊢ wp frame (wpE (defs₀ (F := F)) Variants.none (c : Thread nD τ) none) Set.univ (seg6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v652) (fun _ => P 6))
    (h7 : ∀ (v2 : BitVec 32) (v678 : BitVec 32) (v681 : BitVec 32) (v811 : BitVec 32) (v815 : BitVec 32) (v818 : Vec F S256x256 .bf16), P 6 ⊢ wp frame (wpE (defs₀ (F := F)) Variants.none (c : Thread nD τ) none) Set.univ (seg7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v678 v681 v811 v815 v818) (fun _ => P 7))
    (h8 : ∀ (v2 : BitVec 32) (v678 : BitVec 32) (v681 : BitVec 32) (v1041 : FVec F S256x256 .f32), P 7 ⊢ wp frame (wpE (defs₀ (F := F)) Variants.none (c : Thread nD τ) none) Set.univ (seg8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v678 v681 v1041) (fun _ => P 8))
    (h9 : ∀ (v2 : BitVec 32) (v678 : BitVec 32) (v681 : BitVec 32) (v1121 : BitVec 32), P 8 ⊢ wp frame (wpE (defs₀ (F := F)) Variants.none (c : Thread nD τ) none) Set.univ (seg9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v678 v681 v1121) (fun _ => P 9))
    (h10 : ∀ (v2 : BitVec 32) (v11 : BitVec 32) (v1191 : FVec F S256x256 .bf16), P 9 ⊢ wp frame (wpE (defs₀ (F := F)) Variants.none (c : Thread nD τ) none) Set.univ (seg10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v1191) (fun _ => P 10))
    (h11 : ∀ (v2 : BitVec 32) (v11 : BitVec 32) (v1225 : BitVec 32) (v1228 : BitVec 32) (v1279 : BitVec 32), P 10 ⊢ wp frame (wpE (defs₀ (F := F)) Variants.none (c : Thread nD τ) none) Set.univ (seg11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v1225 v1228 v1279) (fun _ => P 11))
    (h12 : ∀ (v2 : BitVec 32) (v1225 : BitVec 32) (v1228 : BitVec 32) (v1358 : BitVec 32) (v1362 : BitVec 32) (v1385 : FVec F S256x512 .bf16) (v1386 : Vec F S512x256 .bf16) (cst_1075 : FVec F S256x256 .f32), P 11 ⊢ wp frame (wpE (defs₀ (F := F)) Variants.none (c : Thread nD τ) none) Set.univ (seg12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v1225 v1228 v1358 v1362 v1385 v1386 cst_1075) (fun _ => P 12))
    (h13 : ∀ (v2 : BitVec 32) (v11 : BitVec 32) (v1225 : BitVec 32) (v1228 : BitVec 32) (v1571 : FVec F S256x256 .f32), P 12 ⊢ wp frame (wpE (defs₀ (F := F)) Variants.none (c : Thread nD τ) none) Set.univ (seg13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v1225 v1228 v1571) (fun _ => P 13))
    (h14 : ∀ (v2 : BitVec 32) (v1657 : BitVec 32) (v1659 : BitVec 32) (v1661 : BitVec 32), P 13 ⊢ wp frame (wpE (defs₀ (F := F)) Variants.none (c : Thread nD τ) none) Set.univ (seg14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v1657 v1659 v1661) (fun _ => P 14))
    (h15 : P 14 ⊢ wp frame (wpE (defs₀ (F := F)) Variants.none (c : Thread nD τ) none) Set.univ (seg15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c) (fun _ => P 15)) :
    P 0 ⊢ wp frame (wpE (defs₀ (F := F)) Variants.none (c : Thread nD τ) none) Set.univ (cc0_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25) (fun _ => P 15) := by
  rw [body_eq_segments]; unfold segments
  refine wp_seq c _ _ h1 (fun o1 => ?_)
  obtain ⟨d0, v2, v11, v131, v134, v185, v187⟩ := o1
  refine pure_sep_elim (fun hd => ?_)
  dsimp only at hd
  subst hd
  try dsimp only
  refine wp_seq _ _ _ (h2 v2 v11 v131 v134 v185 v187) (fun o2 => ?_)
  obtain ⟨v264, v268⟩ := o2
  try dsimp only
  refine wp_seq _ _ _ (h3 v2 v131 v134 v264 v268) (fun o3 => ?_)
  obtain ⟨v496, v500⟩ := o3
  try dsimp only
  refine wp_seq _ _ _ (h4 v2 v131 v134 v496 v500) (fun _ => ?_)
  try dsimp only
  refine wp_seq _ _ _ (h5 v2 v131 v134) (fun v652 => ?_)
  try dsimp only
  refine wp_seq _ _ _ (h6 v2 v11 v652) (fun o6 => ?_)
  obtain ⟨v678, v681, v811, v815, v818⟩ := o6
  try dsimp only
  refine wp_seq _ _ _ (h7 v2 v678 v681 v811 v815 v818) (fun v1041 => ?_)
  try dsimp only
  refine wp_seq _ _ _ (h8 v2 v678 v681 v1041) (fun v1121 => ?_)
  try dsimp only
  refine wp_seq _ _ _ (h9 v2 v678 v681 v1121) (fun v1191 => ?_)
  try dsimp only
  refine wp_seq _ _ _ (h10 v2 v11 v1191) (fun o10 => ?_)
  obtain ⟨v1225, v1228, v1279⟩ := o10
  try dsimp only
  refine wp_seq _ _ _ (h11 v2 v11 v1225 v1228 v1279) (fun o11 => ?_)
  obtain ⟨v1358, v1362, v1385, v1386, cst_1075⟩ := o11
  try dsimp only
  refine wp_seq _ _ _ (h12 v2 v1225 v1228 v1358 v1362 v1385 v1386 cst_1075) (fun v1571 => ?_)
  try dsimp only
  refine wp_seq _ _ _ (h13 v2 v11 v1225 v1228 v1571) (fun o13 => ?_)
  obtain ⟨v1657, v1659, v1661⟩ := o13
  try dsimp only
  refine wp_seq _ _ _ (h14 v2 v1657 v1659 v1661) (fun _ => ?_)
  try dsimp only
  exact h15

/-- info: 'Cert.Kernel.Hand.wp_segments' depends on axioms: [propext, Classical.choice, Quot.sound] -/
#guard_msgs in #print axioms wp_segments

end Cert.Kernel.Hand

end
-- ==== Proof.Kernel.DevEqs.lean ====
/- The addressed device of every barrier signal and remote copy of the body, as the partner `c xor mask`:
   decided over the eight devices, one equation per printed device chain. -/
import proofs.«900979_g7700000000000980_dist_mlpseq_tp1d_bs_bs_b256_d256_h512_v7x_i8_bf16_1_alg».proof.Proof.Kernel.Devs

namespace Cert.Kernel.Hand

open Cert.Kernel Cert.Kernel.Gen Idealize.ShloMosaic

theorem dev1_eq : ∀ c : Dev nD, (⟨k0_dev1 c, k0_dev1_lt c⟩ : Dev nD) = xr 1 c := by decide +kernel
theorem dev2_eq : ∀ c : Dev nD, (⟨k0_dev2 c, k0_dev2_lt c⟩ : Dev nD) = xr 3 c := by decide +kernel
theorem dev3_eq : ∀ c : Dev nD, (⟨k0_dev3 c, k0_dev3_lt c⟩ : Dev nD) = xr 4 c := by decide +kernel
theorem dev4_eq : ∀ c : Dev nD, (⟨k0_dev4 c, k0_dev4_lt c⟩ : Dev nD) = xr 1 c := by decide +kernel
theorem dev5_eq : ∀ c : Dev nD, (⟨k0_dev5 c, k0_dev5_lt c⟩ : Dev nD) = xr 3 c := by decide +kernel
theorem dev6_eq : ∀ c : Dev nD, (⟨k0_dev6 c, k0_dev6_lt c⟩ : Dev nD) = xr 3 c := by decide +kernel
theorem dev7_eq : ∀ c : Dev nD, (⟨k0_dev7 c, k0_dev7_lt c⟩ : Dev nD) = xr 4 c := by decide +kernel
theorem dev8_eq : ∀ c : Dev nD, (⟨k0_dev8 c, k0_dev8_lt c⟩ : Dev nD) = xr 4 c := by decide +kernel
theorem dev9_eq : ∀ c : Dev nD, (⟨k0_dev9 c, k0_dev9_lt c⟩ : Dev nD) = xr 1 c := by decide +kernel
theorem dev10_eq : ∀ c : Dev nD, (⟨k0_dev10 c, k0_dev10_lt c⟩ : Dev nD) = xr 4 c := by decide +kernel
theorem dev11_eq : ∀ c : Dev nD, (⟨k0_dev11 c, k0_dev11_lt c⟩ : Dev nD) = xr 1 c := by decide +kernel
theorem dev12_eq : ∀ c : Dev nD, (⟨k0_dev12 c, k0_dev12_lt c⟩ : Dev nD) = xr 4 c := by decide +kernel
theorem dev13_eq : ∀ c : Dev nD, (⟨k0_dev13 c, k0_dev13_lt c⟩ : Dev nD) = xr 1 c := by decide +kernel
theorem dev14_eq : ∀ c : Dev nD, (⟨k0_dev14 c, k0_dev14_lt c⟩ : Dev nD) = xr 3 c := by decide +kernel
theorem dev15_eq : ∀ c : Dev nD, (⟨k0_dev15 c, k0_dev15_lt c⟩ : Dev nD) = xr 4 c := by decide +kernel
theorem dev16_eq : ∀ c : Dev nD, (⟨k0_dev16 c, k0_dev16_lt c⟩ : Dev nD) = xr 1 c := by decide +kernel
theorem dev17_eq : ∀ c : Dev nD, (⟨k0_dev17 c, k0_dev17_lt c⟩ : Dev nD) = xr 3 c := by decide +kernel
theorem dev18_eq : ∀ c : Dev nD, (⟨k0_dev18 c, k0_dev18_lt c⟩ : Dev nD) = xr 3 c := by decide +kernel
theorem dev19_eq : ∀ c : Dev nD, (⟨k0_dev19 c, k0_dev19_lt c⟩ : Dev nD) = xr 4 c := by decide +kernel
theorem dev20_eq : ∀ c : Dev nD, (⟨k0_dev20 c, k0_dev20_lt c⟩ : Dev nD) = xr 4 c := by decide +kernel
theorem dev21_eq : ∀ c : Dev nD, (⟨k0_dev21 c, k0_dev21_lt c⟩ : Dev nD) = xr 1 c := by decide +kernel
theorem dev22_eq : ∀ c : Dev nD, (⟨k0_dev22 c, k0_dev22_lt c⟩ : Dev nD) = xr 4 c := by decide +kernel
theorem dev23_eq : ∀ c : Dev nD, (⟨k0_dev23 c, k0_dev23_lt c⟩ : Dev nD) = xr 1 c := by decide +kernel
theorem dev24_eq : ∀ c : Dev nD, (⟨k0_dev24 c, k0_dev24_lt c⟩ : Dev nD) = xr 4 c := by decide +kernel
theorem dev25_eq : ∀ c : Dev nD, (⟨k0_dev25 c, k0_dev25_lt c⟩ : Dev nD) = xr 1 c := by decide +kernel
theorem dev26_eq : ∀ c : Dev nD, (⟨k0_dev26 c, k0_dev26_lt c⟩ : Dev nD) = xr 3 c := by decide +kernel
theorem dev27_eq : ∀ c : Dev nD, (⟨k0_dev27 c, k0_dev27_lt c⟩ : Dev nD) = xr 4 c := by decide +kernel
theorem dev28_eq : ∀ c : Dev nD, (⟨k0_dev28 c, k0_dev28_lt c⟩ : Dev nD) = xr 1 c := by decide +kernel
theorem dev29_eq : ∀ c : Dev nD, (⟨k0_dev29 c, k0_dev29_lt c⟩ : Dev nD) = xr 3 c := by decide +kernel
theorem dev30_eq : ∀ c : Dev nD, (⟨k0_dev30 c, k0_dev30_lt c⟩ : Dev nD) = xr 3 c := by decide +kernel
theorem dev31_eq : ∀ c : Dev nD, (⟨k0_dev31 c, k0_dev31_lt c⟩ : Dev nD) = xr 4 c := by decide +kernel
theorem dev32_eq : ∀ c : Dev nD, (⟨k0_dev32 c, k0_dev32_lt c⟩ : Dev nD) = xr 4 c := by decide +kernel
theorem dev33_eq : ∀ c : Dev nD, (⟨k0_dev33 c, k0_dev33_lt c⟩ : Dev nD) = xr 1 c := by decide +kernel
theorem dev34_eq : ∀ c : Dev nD, (⟨k0_dev34 c, k0_dev34_lt c⟩ : Dev nD) = xr 4 c := by decide +kernel
theorem dev35_eq : ∀ c : Dev nD, (⟨k0_dev35 c, k0_dev35_lt c⟩ : Dev nD) = xr 1 c := by decide +kernel
theorem dev36_eq : ∀ c : Dev nD, (⟨k0_dev36 c, k0_dev36_lt c⟩ : Dev nD) = xr 4 c := by decide +kernel
theorem dev37_eq : ∀ c : Dev nD, (⟨k0_dev37 c, k0_dev37_lt c⟩ : Dev nD) = xr 1 c := by decide +kernel
theorem dev38_eq : ∀ c : Dev nD, (⟨k0_dev38 c, k0_dev38_lt c⟩ : Dev nD) = xr 3 c := by decide +kernel
theorem dev39_eq : ∀ c : Dev nD, (⟨k0_dev39 c, k0_dev39_lt c⟩ : Dev nD) = xr 4 c := by decide +kernel
theorem dev40_eq : ∀ c : Dev nD, (⟨k0_dev40 c, k0_dev40_lt c⟩ : Dev nD) = xr 1 c := by decide +kernel
theorem dev41_eq : ∀ c : Dev nD, (⟨k0_dev41 c, k0_dev41_lt c⟩ : Dev nD) = xr 3 c := by decide +kernel

end Cert.Kernel.Hand
-- ==== Proof.Kernel.Slices.lean ====
/- Cutting a scratch buffer into a slice and the rest, and putting it back.

   A remote copy names a slice of a buffer: rows of a gather buffer, a half of a send buffer, a slot of a receive
   buffer. The elements under a slice are a subset of the buffer's, so a buffer held whole is the slice together
   with the rest, and a slice at new contents together with the rest is the buffer whole again at some contents.
   Every slice here is a unit-stride rectangle of rows, so two slices of one buffer whose row ranges do not meet
   are disjoint: a device's own row block and its partner's at each exchange, the two halves of a send buffer,
   the five slots of a receive buffer. -/
import proofs.«900979_g7700000000000980_dist_mlpseq_tp1d_bs_bs_b256_d256_h512_v7x_i8_bf16_1_alg».proof.Proof.Kernel.Tables

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## A slice and the rest -/

/-- A buffer held whole is the elements under the view together with the others. -/
theorem slice_split (c : Dev nD) {s : Shape} {e : EltTy} (M : Memref sig .tc .vmem s e)
    (f : Buf (Elt F) (M.view.loc (c : Thread nD τ))) :
    (M.view.loc (c : Thread nD τ) ↦{fullShare} f : sProp 𝕄)
      ⊣⊢ iprop((M.view.loc (c : Thread nD τ) ↦[M.view.set]{fullShare} f)
          ∗ (M.view.loc (c : Thread nD τ) ↦[Finset.univ \ M.view.set]{fullShare} f)) :=
  pointsTo_split_subset (Finset.subset_univ _)

/-- The elements under the view at one valuation and the others at another are the buffer whole, at the
    valuation that follows the first on the view and the second off it. -/
theorem slice_join_at (c : Dev nD) {s : Shape} {e : EltTy} (M : Memref sig .tc .vmem s e)
    (f g : Buf (Elt F) (M.view.loc (c : Thread nD τ))) :
    iprop((M.view.loc (c : Thread nD τ) ↦[M.view.set]{fullShare} g)
        ∗ (M.view.loc (c : Thread nD τ) ↦[Finset.univ \ M.view.set]{fullShare} f))
      ⊢ (M.view.loc (c : Thread nD τ) ↦{fullShare} (M.view.set.piecewise g f) : sProp 𝕄) :=
  pointsTo_join_subset (Finset.subset_univ _)

/-- So the buffer is whole at some valuation. -/
theorem slice_join (c : Dev nD) {s : Shape} {e : EltTy} (M : Memref sig .tc .vmem s e)
    (f g : Buf (Elt F) (M.view.loc (c : Thread nD τ))) :
    iprop((M.view.loc (c : Thread nD τ) ↦[M.view.set]{fullShare} g)
        ∗ (M.view.loc (c : Thread nD τ) ↦[Finset.univ \ M.view.set]{fullShare} f))
      ⊢ (iprop(∃ h, (M.view.loc (c : Thread nD τ) ↦{fullShare} h)) : sProp 𝕄) :=
  (slice_join_at c M f g).trans (exists_intro (Φ := fun h => (M.view.loc (c : Thread nD τ) ↦{fullShare} h : sProp 𝕄)) _)

/-- The same from the view's elements at some contents. -/
theorem slice_join_ownAt (c : Dev nD) {s : Shape} {e : EltTy} (M : Memref sig .tc .vmem s e)
    (f : Buf (Elt F) (M.view.loc (c : Thread nD τ))) :
    iprop(ownAt c M ∗ (M.view.loc (c : Thread nD τ) ↦[Finset.univ \ M.view.set]{fullShare} f))
      ⊢ (iprop(∃ h, (M.view.loc (c : Thread nD τ) ↦{fullShare} h)) : sProp 𝕄) := by
  unfold ownAt
  iintro ⟨⟨%g, Hg⟩, Hf⟩
  iapply (slice_join c M f g)
  isplitl [Hg]
  · iexact Hg
  · iexact Hf

/-! ## A slice's location is its buffer's

    At a literal stream each of these holds by unfolding; they are stated for a stream that is a variable. -/

theorem loc_VE0 (s : Fin 2) (c d : Dev nD) : (VE0 s d).view.loc (c : Thread nD τ) = (XF s).view.loc (c : Thread nD τ) := by
  fin_cases s <;> rfl
theorem loc_VE1 (s : Fin 2) (c d : Dev nD) : (VE1 s d).view.loc (c : Thread nD τ) = (XF s).view.loc (c : Thread nD τ) := by
  fin_cases s <;> rfl
theorem loc_VE2 (s : Fin 2) (c d : Dev nD) : (VE2 s d).view.loc (c : Thread nD τ) = (XF s).view.loc (c : Thread nD τ) := by
  fin_cases s <;> rfl
theorem loc_SA (s : Fin 2) (c : Dev nD) : (SA s).view.loc (c : Thread nD τ) = (SND s).view.loc (c : Thread nD τ) := rfl
theorem loc_SB (s : Fin 2) (c : Dev nD) : (SB s).view.loc (c : Thread nD τ) = (SND s).view.loc (c : Thread nD τ) := rfl
theorem loc_SH (s : Fin 2) (c : Dev nD) : (SH s).view.loc (c : Thread nD τ) = (SND s).view.loc (c : Thread nD τ) := rfl
theorem loc_R0 (s : Fin 2) (c : Dev nD) : (R0 s).view.loc (c : Thread nD τ) = (RCV s).view.loc (c : Thread nD τ) := rfl
theorem loc_R1 (s : Fin 2) (c : Dev nD) : (R1 s).view.loc (c : Thread nD τ) = (RCV s).view.loc (c : Thread nD τ) := rfl
theorem loc_R2 (s : Fin 2) (c : Dev nD) : (R2 s).view.loc (c : Thread nD τ) = (RCV s).view.loc (c : Thread nD τ) := rfl
theorem loc_R3 (s : Fin 2) (c : Dev nD) : (R3 s).view.loc (c : Thread nD τ) = (RCV s).view.loc (c : Thread nD τ) := rfl
theorem loc_R4 (s : Fin 2) (c : Dev nD) : (R4 s).view.loc (c : Thread nD τ) = (RCV s).view.loc (c : Thread nD τ) := rfl
theorem loc_R3h (s : Fin 2) (c : Dev nD) : (R3h s).view.loc (c : Thread nD τ) = (RCV s).view.loc (c : Thread nD τ) := rfl
theorem loc_XF0 (c : Dev nD) : (XF 0).view.loc (c : Thread nD τ) = (c : Thread nD τ).loc cc0_scratch0 := rfl
theorem loc_XF1 (c : Dev nD) : (XF 1).view.loc (c : Thread nD τ) = (c : Thread nD τ).loc cc0_scratch1 := rfl
theorem loc_SND0 (c : Dev nD) : (SND 0).view.loc (c : Thread nD τ) = (c : Thread nD τ).loc cc0_scratch4 := rfl
theorem loc_SND1 (c : Dev nD) : (SND 1).view.loc (c : Thread nD τ) = (c : Thread nD τ).loc cc0_scratch5 := rfl
theorem loc_RCV0 (c : Dev nD) : (RCV 0).view.loc (c : Thread nD τ) = (c : Thread nD τ).loc cc0_scratch6 := rfl
theorem loc_RCV1 (c : Dev nD) : (RCV 1).view.loc (c : Thread nD τ) = (c : Thread nD τ).loc cc0_scratch7 := rfl

/-! ## Slices that do not meet -/

/-- The elements under a unit-stride slice of a whole buffer are the rectangle's. -/
theorem set_slice_of_whole (b : Ref sig .tc) (r : Rect b.ty.shape) (hr : ∀ a, r.stride a = 1) :
    ((Memref.whole b).slice r hr).view.set = r.set := View.set_slice_whole b r

/-- Two unit-stride slices of one buffer separated on an axis are disjoint. -/
theorem disj_slices (b : Ref sig .tc) {off size off' size' : Fin b.ty.shape.rank → ℕ} {inb inb'} (a : Fin b.ty.shape.rank)
    (h : off a + size a ≤ off' a ∨ off' a + size' a ≤ off a) :
    Disjoint ((Memref.whole b).slice (Rect.unit off size inb) (fun _ => rfl)).view.set
      ((Memref.whole b).slice (Rect.unit off' size' inb') (fun _ => rfl)).view.set := by
  rw [set_slice_of_whole, set_slice_of_whole]
  exact Rect.unit_disjoint a h

/-- A unit-stride slice inside another's span on every axis is contained in it. -/
theorem sub_slices (b : Ref sig .tc) {off size off' size' : Fin b.ty.shape.rank → ℕ} {inb inb'}
    (h : ∀ a, off' a ≤ off a ∧ off a + size a ≤ off' a + size' a) :
    ((Memref.whole b).slice (Rect.unit off size inb) (fun _ => rfl)).view.set
      ⊆ ((Memref.whole b).slice (Rect.unit off' size' inb') (fun _ => rfl)).view.set := by
  rw [set_slice_of_whole, set_slice_of_whole]
  intro i hi
  rw [Rect.mem_set_unit] at hi ⊢
  intro a
  have h1 := hi a
  have h2 := h a
  omega

/-! The gather buffers: at each exchange a device's own row block and its partner's are different blocks of the
    same size (the partner's index differs in the bit the exchange pairs on). -/

theorem disj_VE0_0 (c : Dev nD) : Disjoint (VE0 0 c).view.set (VE0 0 (xr 1 c)).view.set :=
  disj_slices cc0_scratch0 0 (by revert c; decide +kernel)
theorem disj_VE0_1 (c : Dev nD) : Disjoint (VE0 1 c).view.set (VE0 1 (xr 3 c)).view.set :=
  disj_slices cc0_scratch1 0 (by revert c; decide +kernel)
theorem disj_VE1_0 (c : Dev nD) : Disjoint (VE1 0 c).view.set (VE1 0 (xr 3 c)).view.set :=
  disj_slices cc0_scratch0 0 (by revert c; decide +kernel)
theorem disj_VE1_1 (c : Dev nD) : Disjoint (VE1 1 c).view.set (VE1 1 (xr 4 c)).view.set :=
  disj_slices cc0_scratch1 0 (by revert c; decide +kernel)
theorem disj_VE2_0 (c : Dev nD) : Disjoint (VE2 0 c).view.set (VE2 0 (xr 4 c)).view.set :=
  disj_slices cc0_scratch0 0 (by revert c; decide +kernel)
theorem disj_VE2_1 (c : Dev nD) : Disjoint (VE2 1 c).view.set (VE2 1 (xr 1 c)).view.set :=
  disj_slices cc0_scratch1 0 (by revert c; decide +kernel)

/-! The send buffers: the two halves; the first 128 rows lie in the first half. -/

theorem disj_SA_SB (s : Fin 2) : Disjoint (SA s).view.set (SB s).view.set := by
  fin_cases s <;> exact disj_slices _ 0 (by decide)
theorem sub_SH_SA (s : Fin 2) : (SH s).view.set ⊆ (SA s).view.set := by
  fin_cases s <;> exact sub_slices _ (by decide)
theorem disj_SH_SB (s : Fin 2) : Disjoint (SH s).view.set (SB s).view.set :=
  (disj_SA_SB s).mono_left (sub_SH_SA s)

/-! The receive buffers: five slots of 256 rows one after the other; the 128-row slot is the start of the fourth. -/

theorem disj_R0_R1 (s : Fin 2) : Disjoint (R0 s).view.set (R1 s).view.set := by
  fin_cases s <;> exact disj_slices _ 0 (by decide)
theorem disj_R0_R2 (s : Fin 2) : Disjoint (R0 s).view.set (R2 s).view.set := by
  fin_cases s <;> exact disj_slices _ 0 (by decide)
theorem disj_R0_R3 (s : Fin 2) : Disjoint (R0 s).view.set (R3 s).view.set := by
  fin_cases s <;> exact disj_slices _ 0 (by decide)
theorem disj_R0_R4 (s : Fin 2) : Disjoint (R0 s).view.set (R4 s).view.set := by
  fin_cases s <;> exact disj_slices _ 0 (by decide)
theorem disj_R1_R2 (s : Fin 2) : Disjoint (R1 s).view.set (R2 s).view.set := by
  fin_cases s <;> exact disj_slices _ 0 (by decide)
theorem disj_R1_R3 (s : Fin 2) : Disjoint (R1 s).view.set (R3 s).view.set := by
  fin_cases s <;> exact disj_slices _ 0 (by decide)
theorem disj_R1_R4 (s : Fin 2) : Disjoint (R1 s).view.set (R4 s).view.set := by
  fin_cases s <;> exact disj_slices _ 0 (by decide)
theorem disj_R2_R3 (s : Fin 2) : Disjoint (R2 s).view.set (R3 s).view.set := by
  fin_cases s <;> exact disj_slices _ 0 (by decide)
theorem disj_R2_R4 (s : Fin 2) : Disjoint (R2 s).view.set (R4 s).view.set := by
  fin_cases s <;> exact disj_slices _ 0 (by decide)
theorem disj_R3_R4 (s : Fin 2) : Disjoint (R3 s).view.set (R4 s).view.set := by
  fin_cases s <;> exact disj_slices _ 0 (by decide)
theorem sub_R3h_R3 (s : Fin 2) : (R3h s).view.set ⊆ (R3 s).view.set := by
  fin_cases s <;> exact sub_slices _ (by decide)
theorem disj_R0_R3h (s : Fin 2) : Disjoint (R0 s).view.set (R3h s).view.set := (disj_R0_R3 s).mono_right (sub_R3h_R3 s)
theorem disj_R1_R3h (s : Fin 2) : Disjoint (R1 s).view.set (R3h s).view.set := (disj_R1_R3 s).mono_right (sub_R3h_R3 s)
theorem disj_R2_R3h (s : Fin 2) : Disjoint (R2 s).view.set (R3h s).view.set := (disj_R2_R3 s).mono_right (sub_R3h_R3 s)
theorem disj_R3h_R4 (s : Fin 2) : Disjoint (R3h s).view.set (R4 s).view.set := (disj_R3_R4 s).mono_left (sub_R3h_R3 s)

/-! ## A second slice out of the rest -/

/-- Elements disjoint from those already cut out can be cut out of the rest. -/
theorem rest_split {ℓ : Loc nD τ sig} {A B : Finset (Idx ℓ)} (h : Disjoint A B) (f : Buf (Elt F) ℓ) :
    (ℓ ↦[Finset.univ \ A]{fullShare} f : sProp 𝕄)
      ⊣⊢ iprop((ℓ ↦[B]{fullShare} f) ∗ (ℓ ↦[(Finset.univ \ A) \ B]{fullShare} f)) :=
  pointsTo_split_subset (Finset.subset_sdiff.mpr ⟨Finset.subset_univ _, h.symm⟩)

/-- And put back, at new contents. -/
theorem rest_join_at {ℓ : Loc nD τ sig} {A B : Finset (Idx ℓ)} (h : Disjoint A B) (f g : Buf (Elt F) ℓ) :
    iprop((ℓ ↦[B]{fullShare} g) ∗ (ℓ ↦[(Finset.univ \ A) \ B]{fullShare} f))
      ⊢ (ℓ ↦[Finset.univ \ A]{fullShare} (B.piecewise g f) : sProp 𝕄) :=
  pointsTo_join_subset (Finset.subset_sdiff.mpr ⟨Finset.subset_univ _, h.symm⟩)

end Cert.Kernel.Hand

end
-- ==== Proof.Kernel.Steps.lean ====
import proofs.«900979_g7700000000000980_dist_mlpseq_tp1d_bs_bs_b256_d256_h512_v7x_i8_bf16_1_alg».proof.Proof.Kernel.State
import proofs.«900979_g7700000000000980_dist_mlpseq_tp1d_bs_bs_b256_d256_h512_v7x_i8_bf16_1_alg».proof.Proof.Kernel.Tables
import proofs.«900979_g7700000000000980_dist_mlpseq_tp1d_bs_bs_b256_d256_h512_v7x_i8_bf16_1_alg».proof.Proof.Kernel.Levels
import proofs.«900979_g7700000000000980_dist_mlpseq_tp1d_bs_bs_b256_d256_h512_v7x_i8_bf16_1_alg».proof.Proof.Kernel.DevEqs
import proofs.«900979_g7700000000000980_dist_mlpseq_tp1d_bs_bs_b256_d256_h512_v7x_i8_bf16_1_alg».proof.Proof.Kernel.Slices
import proofs.«900979_g7700000000000980_dist_mlpseq_tp1d_bs_bs_b256_d256_h512_v7x_i8_bf16_1_alg».proof.Proof.Kernel.Quiet
import proofs.«900979_g7700000000000980_dist_mlpseq_tp1d_bs_bs_b256_d256_h512_v7x_i8_bf16_1_alg».proof.Proof.Gen.Kernel.Skeleton
import proofs.«900979_g7700000000000980_dist_mlpseq_tp1d_bs_bs_b256_d256_h512_v7x_i8_bf16_1_alg».proof.Proof.Gen.Kernel.Points
import proofs.«900979_g7700000000000980_dist_mlpseq_tp1d_bs_bs_b256_d256_h512_v7x_i8_bf16_1_alg».proof.Proof.Gen.Kernel.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.Tactic

instance invsAll_persistent (K : GSem nD τ sig → ℕ) : BI.Persistent (invsAll (F := F) K) := by unfold invsAll; infer_instance
instance reachedAll_persistent : BI.Persistent (reachedAll (F := F)) := by unfold reachedAll; infer_instance

attribute [local sl_canon] dev1_eq dev2_eq dev3_eq

/-- One cell's invariant out of the family. -/
theorem invsAll_elim (K : GSem nD τ sig → ℕ) (ck : Dev nD × Fin 33) :
    (invsAll (F := F) K) ⊢ cellInv ER (sched (F := F)) (K (kcell ck)) (kcell ck) := by
  unfold invsAll
  exact bigSep_elim (Finset.mem_univ ck)

theorem reachedAll_elim (ck : Dev nD × Fin 33) : (reachedAll (F := F)) ⊢ reached ER (kcell ck) 0 := by
  unfold reachedAll
  exact bigSep_elim (Finset.mem_univ ck)

theorem kcell_bar (c : Dev nD) : kcell (c, 0) = barCell c := by unfold kcell; rfl

/-- The entry signal to partner number `d` (mask `μ`): it pays duty `d` of the partner's barrier cell, handing over
    the slot of the first copy of that chain. -/
theorem wp_signal_bar (c : Dev nD) (μ : Fin 8) (d : DD) (K : GSem nD τ sig → ℕ)
    {α : Type} {Q : α → sProp 𝕄} {k : PUnit → Prog (TpuEff nD τ sig (Elt F) Λ₀ .tc) α}
    {O₀' : CellTallies nD τ sig ℕ} (O : CellTallies nD τ sig ℕ) (hO : O₀' = O + tallyAt (barCell (xr μ c)) 0 1) (W : Waits sig ℕ)
    (hr : τ.routes (c : Thread nD τ) (xr μ c : Thread nD τ) = true) :
    iprop(invsAll (F := F) K ∗ reachedAll ∗ owes (c : Thread nD τ) O₀' W ∗ dutyTok ER (barCell (xr μ c)) 0 d ∗ payBar (xr μ c) d)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ
              (.op (.semSignal (xr μ c : Thread nD τ) barS 1) k) Q) := by
  iintro ⟨#HI, #Hr, HO, Htok, Hpay⟩
  iapply (Rounds.wp_signal Variants.none ER (sched (F := F)) (c : Thread nD τ) none (dst := (xr μ c : Thread nD τ)) (κ := K (barCell (xr μ c)))
      (d := d) (by rw [duties_bar]; exact Finset.mem_univ _) (amount_bar (xr μ c) d) 0 O hO hr) $$ [HO Htok Hpay]
  · isplitr
    · ihave H := (invsAll_elim K (xr μ c, 0)) $$ HI
      rw [kcell_bar]; iexact H
    isplitl [HO]; · iexact HO
    isplitl [Htok]; · iexact Htok
    isplitl [Hpay]; · rw [payload_bar]; iexact Hpay
    ihave H := (reachedAll_elim (F := F) (xr μ c, 0)) $$ Hr
    rw [kcell_bar]; iexact H

/-! ## The gather and reduce cells out of the family -/

/-- A semaphore that has a round is one of the 32 of the protocol. -/
theorem eight_le_of_lt_nRounds {j r : ℕ} (hr : r < nRounds j) : 8 ≤ j := by
  by_contra h
  have h0 : nRounds j = 0 := by unfold nRounds; rw [if_pos (by omega)]
  omega

theorem kcell_dma (c : Dev nD) (j : ℕ) (hj : 8 ≤ j) (hj' : j < 40) :
    kcell (c, ⟨j - 7, by omega⟩) = dcell c (dsem j) := by
  unfold kcell
  rw [if_neg (show ¬ (j - 7 = 0) by omega)]
  show dcell c (dsem (j - 7 + 7)) = _
  rw [Nat.sub_add_cancel (by omega)]

theorem invs_dma (K : GSem nD τ sig → ℕ) (c : Dev nD) (j : ℕ) (hj : 8 ≤ j) (hj' : j < 40) :
    (invsAll (F := F) K) ⊢ cellInv ER (sched (F := F)) (K (dcell c (dsem j))) (dcell c (dsem j)) := by
  have h := invsAll_elim (F := F) K (c, ⟨j - 7, by omega⟩)
  rw [kcell_dma c j hj hj'] at h
  exact h

theorem reached_dma (c : Dev nD) (j : ℕ) (hj : 8 ≤ j) (hj' : j < 40) :
    (reachedAll (F := F)) ⊢ reached ER (dcell c (dsem j)) 0 := by
  have h := reachedAll_elim (F := F) (c, ⟨j - 7, by omega⟩)
  rw [kcell_dma c j hj hj'] at h
  exact h

/-! ## The waits -/

/-- The wait for the three entry signals: the owner of the barrier cell comes back in round 1 with what each
    partner handed over. -/
theorem wp_wait_bar (c : Dev nD) (K : GSem nD τ sig → ℕ) (O : CellTallies nD τ sig ℕ) (W : Waits sig ℕ)
    {α : Type} {Q : α → sProp 𝕄} {k : PUnit → Prog (TpuEff nD τ sig (Elt F) Λ₀ .tc) α} :
    iprop(invsAll (F := F) K ∗ cred (tallyAt (barCell c) 0 3) ∗ owes (c : Thread nD τ) O W
        ∗ MayWait (c : Thread nD τ) (.reg barS) 0 O ∗ atPos ER (barCell c) 0 ∅ 0)
      ⊢ iprop(((owes (c : Thread nD τ) O (insert (.reg barS, 0) W) ∗ atPos ER (barCell c) 1 ∅ 0 ∗ reached ER (barCell c) 1
              ∗ payBar c 0 ∗ payBar c 1 ∗ payBar c 2)
            -∗ wp frame (wpE (defs₀ (F := F)) Variants.none (c : Thread nD τ) none) Set.univ (k ⟨⟩) Q)
          -∗ wp frame (wpE (defs₀ (F := F)) Variants.none (c : Thread nD τ) none) Set.univ
              (.op (.semWait barS 3) k) Q) := by
  rw [← rest_bar (F := F) c]
  iintro ⟨#HI, Hc, HO, Hlev, Hat⟩
  iapply (Rounds.wp_wait_rest_token Variants.none ER (sched (F := F)) (c : Thread nD τ) none (sm := .reg barS) (k' := 3)
      (κ := K (barCell c)) (fun Kt => wpE_semWait_eq Variants.none (c : Thread nD τ) none Set.univ Kt) (Set.mem_univ _) 0
      (by rw [expect_bar])) $$ [Hc HO Hlev Hat]
  · isplitr
    · ihave H := (invsAll_elim K (c, 0)) $$ HI
      rw [kcell_bar]; iexact H
    isplitl [Hc]; · iexact Hc
    isplitl [HO]; · iexact HO
    isplitl [Hlev]; · iexact Hlev
    iexact Hat

/-- The wait for round `r` of a gather or reduce cell at the credit index `ι`: the owner comes back in round
    `r + 1` with what the landing hands over. The wait is any effect whose clause is the wait clause at the
    cell and the round's amount. -/
theorem wp_wait_copy (c : Dev nD) (j r ι : ℕ) (hj : j < 40) (hr : r < nRounds j) (K : GSem nD τ sig → ℕ)
    (O : CellTallies nD τ sig ℕ) (W : Waits sig ℕ) {w : TpuEff nD τ sig (Elt F) Λ₀ .tc PUnit}
    (hw : ∀ Kt : PUnit → sProp 𝕄, wpE (defs₀ (F := F)) Variants.none (c : Thread nD τ) none Set.univ w Kt
        = waitSpec (c : Thread nD τ) Set.univ (.dma (dsem j)) (amtDma j r) Kt)
    {α : Type} {Q : α → sProp 𝕄} {k : PUnit → Prog (TpuEff nD τ sig (Elt F) Λ₀ .tc) α} :
    iprop(invsAll (F := F) K ∗ cred (tallyAt (dcell c (dsem j)) ι (amtDma j r)) ∗ owes (c : Thread nD τ) O W
        ∗ MayWait (c : Thread nD τ) (.dma (dsem j)) ι O ∗ atPos ER (dcell c (dsem j)) r ∅ 0)
      ⊢ iprop(((owes (c : Thread nD τ) O (insert (.dma (dsem j), ι) W) ∗ atPos ER (dcell c (dsem j)) (r + 1) ∅ 0
              ∗ reached ER (dcell c (dsem j)) (r + 1) ∗ payDma c j r)
            -∗ wp frame (wpE (defs₀ (F := F)) Variants.none (c : Thread nD τ) none) Set.univ (k ⟨⟩) Q)
          -∗ wp frame (wpE (defs₀ (F := F)) Variants.none (c : Thread nD τ) none) Set.univ (.op w k) Q) := by
  rw [← rest_dma (F := F) c j r hj hr]
  iintro ⟨#HI, Hc, HO, Hlev, Hat⟩
  iapply (Rounds.wp_wait_rest_token Variants.none ER (sched (F := F)) (c : Thread nD τ) none (sm := .dma (dsem j))
      (k' := amtDma j r) (κ := K (dcell c (dsem j))) hw (Set.mem_univ _) ι
      (by rw [expect_dma c j r hj hr, Nat.zero_add])) $$ [Hc HO Hlev Hat]
  · isplitr
    · ihave H := (invs_dma K c j (eight_le_of_lt_nRounds hr) hj) $$ HI
      iexact H
    isplitl [Hc]; · iexact Hc
    isplitl [HO]; · iexact HO
    isplitl [Hlev]; · iexact Hlev
    iexact Hat

/-- The printed wait names a semaphore and a destination view; its clause is the wait clause at the view's credit. -/
theorem hw_waitDma2 (c : Dev nD) (j r : ℕ) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = amtDma j r) (Kt : PUnit → sProp 𝕄) :
    wpE (defs₀ (F := F)) Variants.none (c : Thread nD τ) none Set.univ (.waitDma2 (dsem j) src dst hsrc hdst) Kt
      = waitSpec (c : Thread nD τ) Set.univ (.dma (dsem j)) (amtDma j r) Kt := by
  rw [wpE_waitDma2_eq, hN]

/-! ## Shares of a slice

    A copy whose source the device keeps reading borrows the left half of the source's share; the landing on the
    send cell brings it back, and the two halves are the slice again. -/

theorem ownAt_of (c : Dev nD) {s : Shape} {e : EltTy} (M : Memref sig .tc .vmem s e)
    (fs : Buf (Elt F) (M.view.loc (c : Thread nD τ))) :
    (M.view.loc (c : Thread nD τ) ↦[M.view.set]{fullShare} fs : sProp 𝕄) ⊢ ownAt c M := by
  unfold ownAt
  exact exists_intro (Φ := fun f => (M.view.loc (c : Thread nD τ) ↦[M.view.set]{fullShare} f : sProp 𝕄)) fs

theorem ownHalf_of (c : Dev nD) {s : Shape} {e : EltTy} (M : Memref sig .tc .vmem s e)
    (fs : Buf (Elt F) (M.view.loc (c : Thread nD τ))) :
    (M.view.loc (c : Thread nD τ) ↦[M.view.set]{fullShare.left} fs : sProp 𝕄) ⊢ ownHalf c M := by
  unfold ownHalf
  exact exists_intro (Φ := fun f => (M.view.loc (c : Thread nD τ) ↦[M.view.set]{fullShare.left} f : sProp 𝕄)) fs

/-- Elements held in full are their two halves, at the same contents. -/
theorem halves_split {ℓ : Loc nD τ sig} {I : Finset (Idx ℓ)} (f : Buf (Elt F) ℓ) :
    (ℓ ↦[I]{fullShare} f : sProp 𝕄) ⊣⊢ iprop((ℓ ↦[I]{fullShare.left} f) ∗ (ℓ ↦[I]{fullShare.right} f)) :=
  pointsTo_share (PosShare.mem_left_op_right fullShare)

/-- Two halves of the same elements agree on the contents, so they are the elements in full (at either's). -/
theorem halves_join {ℓ : Loc nD τ sig} {I : Finset (Idx ℓ)} (f g : Buf (Elt F) ℓ) :
    iprop((ℓ ↦[I]{fullShare.left} f) ∗ (ℓ ↦[I]{fullShare.right} g)) ⊢ (ℓ ↦[I]{fullShare} g : sProp 𝕄) := by
  refine Laws.pure_elim _ pointsTo_agree (fun h => ?_)
  have hfg : ∀ i ∈ I, f i = g i := fun i hi => (h i (Finset.mem_inter.mpr ⟨hi, hi⟩)).1
  rw [pointsTo_congr (q := fullShare.left) hfg]
  exact (halves_split g).mpr

/-- The borrowed half coming back to the half the device kept. -/
theorem ownHalf_join (c : Dev nD) {s : Shape} {e : EltTy} (M : Memref sig .tc .vmem s e)
    (g : Buf (Elt F) (M.view.loc (c : Thread nD τ))) :
    iprop(ownHalf c M ∗ (M.view.loc (c : Thread nD τ) ↦[M.view.set]{fullShare.right} g))
      ⊢ (M.view.loc (c : Thread nD τ) ↦[M.view.set]{fullShare} g : sProp 𝕄) := by
  unfold ownHalf
  iintro ⟨⟨%f, Hf⟩, Hg⟩
  iapply (halves_join f g)
  isplitl [Hf]
  · iexact Hf
  · iexact Hg

/-! ## A remote copy -/

/-- Device `c` starts a copy of its slice `src`, held at the share `q`, into the slice `dst` of device `p`,
    which `p` handed over before. It pays the duty of round `r` of its own send cell `js` with the source slice,
    and that of `p`'s receive cell `jr` with the destination slice as written and whatever else (`G`) the landing is
    to hand `p`; the units it owed `p`'s cell at the index `ι` are paid, and it receives its send cell's units in
    credit at `ι`. -/
theorem wp_send_copy (c p : Dev nD) {s : Shape} (src dst : Memref sig .tc .vmem s .bf16) (js jr r ι : ℕ)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma (dsem jr)) (.remote (p : Thread nD τ) dst (.dma (dsem js)) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p : Thread nD τ) dst (.dma (dsem js)) hsc) (.dma (dsem jr)) hsrc hdst hsem) k) Q) := by
  iintro ⟨#HI, Hs, Hd, HG, HO, Ht1, Hr1, Ht2, Hr2⟩
  unfold ownAt
  icases Hd with ⟨%fd, Hd⟩
  iapply (Rounds.wp_send_pointsTo_with Variants.none ER (sched (F := F)) (c : Thread nD τ) none (c' := (p : Thread nD τ))
      (src := src) (dst := dst) (sS := .dma (dsem js)) (sem := .dma (dsem jr)) (q := q) (fs := fs) (fd := fd) (F := G)
      (r₁ := r) (r₂ := r) (d₁ := (0 : DD)) (d₂ := (0 : DD)) (κ₁ := K (dcell c (dsem js))) (κ₂ := K (dcell p (dsem jr)))
      (by rw [duties_dma c js r hjs hrs]; exact Finset.mem_singleton_self _)
      (by rw [duties_dma p jr r hjr hrr]; exact Finset.mem_singleton_self _)
      ι ι (amtDma jr r) hN ((amount_dma c js r 0 hjs).trans hNs) (amount_dma p jr r 0 hjr) O hO
      (by rw [payload_dma c js r 0 hjs]; exact hpayS)
      (by rw [payload_dma p jr r 0 hjr]
          exact (sep_mono_left (exists_intro (Φ := fun f => (dst.view.loc (p : Thread nD τ) ↦[dst.view.set]{fullShare} f : sProp 𝕄)) _)).trans
            (by unfold ownAt at hpayR; exact hpayR))
      hroute) $$ [Hs Hd HG HO Ht1 Hr1 Ht2 Hr2]
  · isplitr
    · ihave H := (invs_dma K c js (eight_le_of_lt_nRounds hrs) hjs) $$ HI
      iexact H
    isplitr
    · ihave H := (invs_dma K p jr (eight_le_of_lt_nRounds hrr) hjr) $$ HI
      iexact H
    isplitl [Hs]; · iexact Hs
    isplitl [Hd HG]
    · isplitl [Hd]; · iexact Hd
      iexact HG
    isplitl [HO]; · iexact HO
    isplitl [Ht1]; · iexact Ht1
    isplitl [Hr1]; · iexact Hr1
    isplitl [Ht2]; · iexact Ht2
    iexact Hr2

/-! ## The copies' table

    Send and receive cells of one copy take the same units: the send semaphore of a receive semaphore sits three
    below it in the gather and five below in the reduce, in the same place of its group. -/

theorem amtDma_sendOf (j r : ℕ) (h : 11 ≤ j ∧ j < 20 ∨ 25 ≤ j) : amtDma (sendOf j) r = amtDma j r := by
  rcases h with ⟨h1, h2⟩ | h
  · have hs : sendOf j = j - 3 := if_pos h2
    rw [hs]; unfold amtDma
    rw [if_pos (show j - 3 < 20 by omega), if_pos h2, show (j - 3 - 8) % 3 = (j - 8) % 3 by omega]
  · have hs : sendOf j = j - 5 := if_neg (by omega)
    rw [hs]; unfold amtDma
    rw [if_neg (show ¬ j - 5 < 20 by omega), if_neg (show ¬ j < 20 by omega), show (j - 5 - 20) % 5 = (j - 20) % 5 by omega]

/-- Every copy of the table: its partner is across one of the three masks; its receive semaphore is a receive
    semaphore of the gather or the reduce; both its semaphores are of the 40, and its round is one of theirs. -/
theorem copyTab_facts : ∀ e ∈ copyTab,
    (e.1 = 1 ∨ e.1 = 3 ∨ e.1 = 4) ∧ (11 ≤ e.2.1 ∧ e.2.1 < 20 ∨ 25 ≤ e.2.1) ∧ e.2.1 < 40 ∧ sendOf e.2.1 < 40
      ∧ e.2.2 < nRounds e.2.1 ∧ e.2.2 < nRounds (sendOf e.2.1) := by decide

theorem copyTab_amt : ∀ e ∈ copyTab, amtDma (sendOf e.2.1) e.2.2 = amtDma e.2.1 e.2.2 :=
  fun e he => amtDma_sendOf _ _ (copyTab_facts e he).2.1

theorem copyTab_length : copyTab.length = 38 := rfl
end Cert.Kernel.Hand
end
-- ==== Proof.Kernel.QuietTables.lean ====
/- The lists, duty tokens, credits and positions of a device at the points of the body where no copy is in flight,
   at numerals: the copies still to come from each such point, what the copies of each segment between two points
   pay with and are paid with, and how many rounds of each of its 32 cells are over. -/
import proofs.«900979_g7700000000000980_dist_mlpseq_tp1d_bs_bs_b256_d256_h512_v7x_i8_bf16_1_alg».proof.Proof.Kernel.Quiet

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The send semaphore of each receive semaphore -/

theorem sendOf_11 : sendOf 11 = 8 := rfl
theorem sendOf_12 : sendOf 12 = 9 := rfl
theorem sendOf_13 : sendOf 13 = 10 := rfl
theorem sendOf_17 : sendOf 17 = 14 := rfl
theorem sendOf_18 : sendOf 18 = 15 := rfl
theorem sendOf_19 : sendOf 19 = 16 := rfl
theorem sendOf_25 : sendOf 25 = 20 := rfl
theorem sendOf_26 : sendOf 26 = 21 := rfl
theorem sendOf_27 : sendOf 27 = 22 := rfl
theorem sendOf_28 : sendOf 28 = 23 := rfl
theorem sendOf_29 : sendOf 29 = 24 := rfl
theorem sendOf_35 : sendOf 35 = 30 := rfl
theorem sendOf_36 : sendOf 36 = 31 := rfl
theorem sendOf_37 : sendOf 37 = 32 := rfl
theorem sendOf_38 : sendOf 38 = 33 := rfl
theorem sendOf_39 : sendOf 39 = 34 := rfl

/-! ## The copies still to come from each quiet point, in full -/

theorem drop_eq_0 : copyTab.drop 0 =
    [(1, 11, 0), (3, 17, 0), (3, 12, 0), (4, 18, 0), (4, 13, 0), (1, 19, 0), (4, 25, 0), (1, 35, 0), (4, 29, 0), (1, 39, 0), (3, 26, 0), (4, 36, 0), (1, 27, 0), (3, 37, 0), (3, 12, 1), (4, 18, 1), (4, 13, 1), (1, 19, 1), (4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_4 : copyTab.drop 4 =
    [(4, 13, 0), (1, 19, 0), (4, 25, 0), (1, 35, 0), (4, 29, 0), (1, 39, 0), (3, 26, 0), (4, 36, 0), (1, 27, 0), (3, 37, 0), (3, 12, 1), (4, 18, 1), (4, 13, 1), (1, 19, 1), (4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_6 : copyTab.drop 6 =
    [(4, 25, 0), (1, 35, 0), (4, 29, 0), (1, 39, 0), (3, 26, 0), (4, 36, 0), (1, 27, 0), (3, 37, 0), (3, 12, 1), (4, 18, 1), (4, 13, 1), (1, 19, 1), (4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_10 : copyTab.drop 10 =
    [(3, 26, 0), (4, 36, 0), (1, 27, 0), (3, 37, 0), (3, 12, 1), (4, 18, 1), (4, 13, 1), (1, 19, 1), (4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_12 : copyTab.drop 12 =
    [(1, 27, 0), (3, 37, 0), (3, 12, 1), (4, 18, 1), (4, 13, 1), (1, 19, 1), (4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_14 : copyTab.drop 14 =
    [(3, 12, 1), (4, 18, 1), (4, 13, 1), (1, 19, 1), (4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_18 : copyTab.drop 18 =
    [(4, 25, 1), (1, 35, 1), (4, 29, 1), (1, 39, 1), (3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_22 : copyTab.drop 22 =
    [(3, 26, 1), (4, 36, 1), (1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_24 : copyTab.drop 24 =
    [(1, 28, 0), (3, 38, 0), (3, 12, 2), (4, 18, 2), (4, 13, 2), (1, 19, 2), (4, 25, 2), (1, 35, 2), (4, 29, 2), (1, 39, 2), (3, 26, 2), (4, 36, 2), (1, 27, 1), (3, 37, 1)] := rfl
theorem drop_eq_26 : copyTab.drop 26 =
    [(3, 12, 2), (4, 18, 2), (4, 13, 2), (1, 19, 2), (4, 25, 2), (1, 35, 2), (4, 29, 2), (1, 39, 2), (3, 26, 2), (4, 36, 2), (1, 27, 1), (3, 37, 1)] := rfl
theorem drop_eq_28 : copyTab.drop 28 =
    [(4, 13, 2), (1, 19, 2), (4, 25, 2), (1, 35, 2), (4, 29, 2), (1, 39, 2), (3, 26, 2), (4, 36, 2), (1, 27, 1), (3, 37, 1)] := rfl
theorem drop_eq_30 : copyTab.drop 30 =
    [(4, 25, 2), (1, 35, 2), (4, 29, 2), (1, 39, 2), (3, 26, 2), (4, 36, 2), (1, 27, 1), (3, 37, 1)] := rfl
theorem drop_eq_34 : copyTab.drop 34 =
    [(3, 26, 2), (4, 36, 2), (1, 27, 1), (3, 37, 1)] := rfl
theorem drop_eq_36 : copyTab.drop 36 =
    [(1, 27, 1), (3, 37, 1)] := rfl
theorem drop_eq_38 : copyTab.drop 38 =
    [] := rfl

/-! ## The copies of each segment, and the rest as the next quiet point has it -/

theorem drop_seg_0 : copyTab.drop 0 = (1, 11, 0) :: (3, 17, 0) :: (3, 12, 0) :: (4, 18, 0) :: copyTab.drop 4 := rfl
theorem drop_seg_4 : copyTab.drop 4 = (4, 13, 0) :: (1, 19, 0) :: copyTab.drop 6 := rfl
theorem drop_seg_6 : copyTab.drop 6 = (4, 25, 0) :: (1, 35, 0) :: (4, 29, 0) :: (1, 39, 0) :: copyTab.drop 10 := rfl
theorem drop_seg_10 : copyTab.drop 10 = (3, 26, 0) :: (4, 36, 0) :: copyTab.drop 12 := rfl
theorem drop_seg_12 : copyTab.drop 12 = (1, 27, 0) :: (3, 37, 0) :: copyTab.drop 14 := rfl
theorem drop_seg_14 : copyTab.drop 14 = (3, 12, 1) :: (4, 18, 1) :: (4, 13, 1) :: (1, 19, 1) :: copyTab.drop 18 := rfl
theorem drop_seg_18 : copyTab.drop 18 = (4, 25, 1) :: (1, 35, 1) :: (4, 29, 1) :: (1, 39, 1) :: copyTab.drop 22 := rfl
theorem drop_seg_22 : copyTab.drop 22 = (3, 26, 1) :: (4, 36, 1) :: copyTab.drop 24 := rfl
theorem drop_seg_24 : copyTab.drop 24 = (1, 28, 0) :: (3, 38, 0) :: copyTab.drop 26 := rfl
theorem drop_seg_26 : copyTab.drop 26 = (3, 12, 2) :: (4, 18, 2) :: copyTab.drop 28 := rfl
theorem drop_seg_28 : copyTab.drop 28 = (4, 13, 2) :: (1, 19, 2) :: copyTab.drop 30 := rfl
theorem drop_seg_30 : copyTab.drop 30 = (4, 25, 2) :: (1, 35, 2) :: (4, 29, 2) :: (1, 39, 2) :: copyTab.drop 34 := rfl
theorem drop_seg_34 : copyTab.drop 34 = (3, 26, 2) :: (4, 36, 2) :: copyTab.drop 36 := rfl
theorem drop_seg_36 : copyTab.drop 36 = (1, 27, 1) :: (3, 37, 1) :: copyTab.drop 38 := rfl

/-! ## What the copies of each segment pay with: the duty of the own send cell and of the partner's receive cell -/

theorem toks_seg_0 (c : Dev nD) : toksCopies (F := F) c 0 (copyTab.drop 0) =
    iprop((dutyTok ER (dcell c (dsem 8)) 0 (0 : DD) ∗ dutyTok ER (dcell (xr 1 c) (dsem 11)) 0 (0 : DD))
      ∗ (dutyTok ER (dcell c (dsem 14)) 0 (0 : DD) ∗ dutyTok ER (dcell (xr 3 c) (dsem 17)) 0 (0 : DD))
      ∗ (dutyTok ER (dcell c (dsem 9)) 0 (0 : DD) ∗ dutyTok ER (dcell (xr 3 c) (dsem 12)) 0 (0 : DD))
      ∗ (dutyTok ER (dcell c (dsem 15)) 0 (0 : DD) ∗ dutyTok ER (dcell (xr 4 c) (dsem 18)) 0 (0 : DD))
      ∗ toksCopies c 4 (copyTab.drop 4)) := rfl
theorem toks_seg_4 (c : Dev nD) : toksCopies (F := F) c 4 (copyTab.drop 4) =
    iprop((dutyTok ER (dcell c (dsem 10)) 0 (0 : DD) ∗ dutyTok ER (dcell (xr 4 c) (dsem 13)) 0 (0 : DD))
      ∗ (dutyTok ER (dcell c (dsem 16)) 0 (0 : DD) ∗ dutyTok ER (dcell (xr 1 c) (dsem 19)) 0 (0 : DD))
      ∗ toksCopies c 6 (copyTab.drop 6)) := rfl
theorem toks_seg_6 (c : Dev nD) : toksCopies (F := F) c 6 (copyTab.drop 6) =
    iprop((dutyTok ER (dcell c (dsem 20)) 0 (0 : DD) ∗ dutyTok ER (dcell (xr 4 c) (dsem 25)) 0 (0 : DD))
      ∗ (dutyTok ER (dcell c (dsem 30)) 0 (0 : DD) ∗ dutyTok ER (dcell (xr 1 c) (dsem 35)) 0 (0 : DD))
      ∗ (dutyTok ER (dcell c (dsem 24)) 0 (0 : DD) ∗ dutyTok ER (dcell (xr 4 c) (dsem 29)) 0 (0 : DD))
      ∗ (dutyTok ER (dcell c (dsem 34)) 0 (0 : DD) ∗ dutyTok ER (dcell (xr 1 c) (dsem 39)) 0 (0 : DD))
      ∗ toksCopies c 10 (copyTab.drop 10)) := rfl
theorem toks_seg_10 (c : Dev nD) : toksCopies (F := F) c 10 (copyTab.drop 10) =
    iprop((dutyTok ER (dcell c (dsem 21)) 0 (0 : DD) ∗ dutyTok ER (dcell (xr 3 c) (dsem 26)) 0 (0 : DD))
      ∗ (dutyTok ER (dcell c (dsem 31)) 0 (0 : DD) ∗ dutyTok ER (dcell (xr 4 c) (dsem 36)) 0 (0 : DD))
      ∗ toksCopies c 12 (copyTab.drop 12)) := rfl
theorem toks_seg_12 (c : Dev nD) : toksCopies (F := F) c 12 (copyTab.drop 12) =
    iprop((dutyTok ER (dcell c (dsem 22)) 0 (0 : DD) ∗ dutyTok ER (dcell (xr 1 c) (dsem 27)) 0 (0 : DD))
      ∗ (dutyTok ER (dcell c (dsem 32)) 0 (0 : DD) ∗ dutyTok ER (dcell (xr 3 c) (dsem 37)) 0 (0 : DD))
      ∗ toksCopies c 14 (copyTab.drop 14)) := rfl
theorem toks_seg_14 (c : Dev nD) : toksCopies (F := F) c 14 (copyTab.drop 14) =
    iprop((dutyTok ER (dcell c (dsem 9)) 1 (0 : DD) ∗ dutyTok ER (dcell (xr 3 c) (dsem 12)) 1 (0 : DD))
      ∗ (dutyTok ER (dcell c (dsem 15)) 1 (0 : DD) ∗ dutyTok ER (dcell (xr 4 c) (dsem 18)) 1 (0 : DD))
      ∗ (dutyTok ER (dcell c (dsem 10)) 1 (0 : DD) ∗ dutyTok ER (dcell (xr 4 c) (dsem 13)) 1 (0 : DD))
      ∗ (dutyTok ER (dcell c (dsem 16)) 1 (0 : DD) ∗ dutyTok ER (dcell (xr 1 c) (dsem 19)) 1 (0 : DD))
      ∗ toksCopies c 18 (copyTab.drop 18)) := rfl
theorem toks_seg_18 (c : Dev nD) : toksCopies (F := F) c 18 (copyTab.drop 18) =
    iprop((dutyTok ER (dcell c (dsem 20)) 1 (0 : DD) ∗ dutyTok ER (dcell (xr 4 c) (dsem 25)) 1 (0 : DD))
      ∗ (dutyTok ER (dcell c (dsem 30)) 1 (0 : DD) ∗ dutyTok ER (dcell (xr 1 c) (dsem 35)) 1 (0 : DD))
      ∗ (dutyTok ER (dcell c (dsem 24)) 1 (0 : DD) ∗ dutyTok ER (dcell (xr 4 c) (dsem 29)) 1 (0 : DD))
      ∗ (dutyTok ER (dcell c (dsem 34)) 1 (0 : DD) ∗ dutyTok ER (dcell (xr 1 c) (dsem 39)) 1 (0 : DD))
      ∗ toksCopies c 22 (copyTab.drop 22)) := rfl
theorem toks_seg_22 (c : Dev nD) : toksCopies (F := F) c 22 (copyTab.drop 22) =
    iprop((dutyTok ER (dcell c (dsem 21)) 1 (0 : DD) ∗ dutyTok ER (dcell (xr 3 c) (dsem 26)) 1 (0 : DD))
      ∗ (dutyTok ER (dcell c (dsem 31)) 1 (0 : DD) ∗ dutyTok ER (dcell (xr 4 c) (dsem 36)) 1 (0 : DD))
      ∗ toksCopies c 24 (copyTab.drop 24)) := rfl
theorem toks_seg_24 (c : Dev nD) : toksCopies (F := F) c 24 (copyTab.drop 24) =
    iprop((dutyTok ER (dcell c (dsem 23)) 0 (0 : DD) ∗ dutyTok ER (dcell (xr 1 c) (dsem 28)) 0 (0 : DD))
      ∗ (dutyTok ER (dcell c (dsem 33)) 0 (0 : DD) ∗ dutyTok ER (dcell (xr 3 c) (dsem 38)) 0 (0 : DD))
      ∗ toksCopies c 26 (copyTab.drop 26)) := rfl
theorem toks_seg_26 (c : Dev nD) : toksCopies (F := F) c 26 (copyTab.drop 26) =
    iprop((dutyTok ER (dcell c (dsem 9)) 2 (0 : DD) ∗ dutyTok ER (dcell (xr 3 c) (dsem 12)) 2 (0 : DD))
      ∗ (dutyTok ER (dcell c (dsem 15)) 2 (0 : DD) ∗ dutyTok ER (dcell (xr 4 c) (dsem 18)) 2 (0 : DD))
      ∗ toksCopies c 28 (copyTab.drop 28)) := rfl
theorem toks_seg_28 (c : Dev nD) : toksCopies (F := F) c 28 (copyTab.drop 28) =
    iprop((dutyTok ER (dcell c (dsem 10)) 2 (0 : DD) ∗ dutyTok ER (dcell (xr 4 c) (dsem 13)) 2 (0 : DD))
      ∗ (dutyTok ER (dcell c (dsem 16)) 2 (0 : DD) ∗ dutyTok ER (dcell (xr 1 c) (dsem 19)) 2 (0 : DD))
      ∗ toksCopies c 30 (copyTab.drop 30)) := rfl
theorem toks_seg_30 (c : Dev nD) : toksCopies (F := F) c 30 (copyTab.drop 30) =
    iprop((dutyTok ER (dcell c (dsem 20)) 2 (0 : DD) ∗ dutyTok ER (dcell (xr 4 c) (dsem 25)) 2 (0 : DD))
      ∗ (dutyTok ER (dcell c (dsem 30)) 2 (0 : DD) ∗ dutyTok ER (dcell (xr 1 c) (dsem 35)) 2 (0 : DD))
      ∗ (dutyTok ER (dcell c (dsem 24)) 2 (0 : DD) ∗ dutyTok ER (dcell (xr 4 c) (dsem 29)) 2 (0 : DD))
      ∗ (dutyTok ER (dcell c (dsem 34)) 2 (0 : DD) ∗ dutyTok ER (dcell (xr 1 c) (dsem 39)) 2 (0 : DD))
      ∗ toksCopies c 34 (copyTab.drop 34)) := rfl
theorem toks_seg_34 (c : Dev nD) : toksCopies (F := F) c 34 (copyTab.drop 34) =
    iprop((dutyTok ER (dcell c (dsem 21)) 2 (0 : DD) ∗ dutyTok ER (dcell (xr 3 c) (dsem 26)) 2 (0 : DD))
      ∗ (dutyTok ER (dcell c (dsem 31)) 2 (0 : DD) ∗ dutyTok ER (dcell (xr 4 c) (dsem 36)) 2 (0 : DD))
      ∗ toksCopies c 36 (copyTab.drop 36)) := rfl
theorem toks_seg_36 (c : Dev nD) : toksCopies (F := F) c 36 (copyTab.drop 36) =
    iprop((dutyTok ER (dcell c (dsem 22)) 1 (0 : DD) ∗ dutyTok ER (dcell (xr 1 c) (dsem 27)) 1 (0 : DD))
      ∗ (dutyTok ER (dcell c (dsem 32)) 1 (0 : DD) ∗ dutyTok ER (dcell (xr 3 c) (dsem 37)) 1 (0 : DD))
      ∗ toksCopies c 38 (copyTab.drop 38)) := rfl
theorem toks_end (c : Dev nD) : toksCopies (F := F) c 38 (copyTab.drop 38) = iprop(emp) := rfl

/-! ## What the partner's copies of each segment land on the own receive cells -/

theorem creds_seg_0 (c : Dev nD) : credsCopies (F := F) c 0 (copyTab.drop 0) =
    iprop(cred (tallyAt (dcell c (dsem 11)) 1 (amtDma 11 0))
      ∗ cred (tallyAt (dcell c (dsem 17)) 2 (amtDma 17 0))
      ∗ cred (tallyAt (dcell c (dsem 12)) 3 (amtDma 12 0))
      ∗ cred (tallyAt (dcell c (dsem 18)) 4 (amtDma 18 0))
      ∗ credsCopies c 4 (copyTab.drop 4)) := rfl
theorem creds_seg_4 (c : Dev nD) : credsCopies (F := F) c 4 (copyTab.drop 4) =
    iprop(cred (tallyAt (dcell c (dsem 13)) 5 (amtDma 13 0))
      ∗ cred (tallyAt (dcell c (dsem 19)) 6 (amtDma 19 0))
      ∗ credsCopies c 6 (copyTab.drop 6)) := rfl
theorem creds_seg_6 (c : Dev nD) : credsCopies (F := F) c 6 (copyTab.drop 6) =
    iprop(cred (tallyAt (dcell c (dsem 25)) 7 (amtDma 25 0))
      ∗ cred (tallyAt (dcell c (dsem 35)) 8 (amtDma 35 0))
      ∗ cred (tallyAt (dcell c (dsem 29)) 9 (amtDma 29 0))
      ∗ cred (tallyAt (dcell c (dsem 39)) 10 (amtDma 39 0))
      ∗ credsCopies c 10 (copyTab.drop 10)) := rfl
theorem creds_seg_10 (c : Dev nD) : credsCopies (F := F) c 10 (copyTab.drop 10) =
    iprop(cred (tallyAt (dcell c (dsem 26)) 11 (amtDma 26 0))
      ∗ cred (tallyAt (dcell c (dsem 36)) 12 (amtDma 36 0))
      ∗ credsCopies c 12 (copyTab.drop 12)) := rfl
theorem creds_seg_12 (c : Dev nD) : credsCopies (F := F) c 12 (copyTab.drop 12) =
    iprop(cred (tallyAt (dcell c (dsem 27)) 13 (amtDma 27 0))
      ∗ cred (tallyAt (dcell c (dsem 37)) 14 (amtDma 37 0))
      ∗ credsCopies c 14 (copyTab.drop 14)) := rfl
theorem creds_seg_14 (c : Dev nD) : credsCopies (F := F) c 14 (copyTab.drop 14) =
    iprop(cred (tallyAt (dcell c (dsem 12)) 15 (amtDma 12 1))
      ∗ cred (tallyAt (dcell c (dsem 18)) 16 (amtDma 18 1))
      ∗ cred (tallyAt (dcell c (dsem 13)) 17 (amtDma 13 1))
      ∗ cred (tallyAt (dcell c (dsem 19)) 18 (amtDma 19 1))
      ∗ credsCopies c 18 (copyTab.drop 18)) := rfl
theorem creds_seg_18 (c : Dev nD) : credsCopies (F := F) c 18 (copyTab.drop 18) =
    iprop(cred (tallyAt (dcell c (dsem 25)) 19 (amtDma 25 1))
      ∗ cred (tallyAt (dcell c (dsem 35)) 20 (amtDma 35 1))
      ∗ cred (tallyAt (dcell c (dsem 29)) 21 (amtDma 29 1))
      ∗ cred (tallyAt (dcell c (dsem 39)) 22 (amtDma 39 1))
      ∗ credsCopies c 22 (copyTab.drop 22)) := rfl
theorem creds_seg_22 (c : Dev nD) : credsCopies (F := F) c 22 (copyTab.drop 22) =
    iprop(cred (tallyAt (dcell c (dsem 26)) 23 (amtDma 26 1))
      ∗ cred (tallyAt (dcell c (dsem 36)) 24 (amtDma 36 1))
      ∗ credsCopies c 24 (copyTab.drop 24)) := rfl
theorem creds_seg_24 (c : Dev nD) : credsCopies (F := F) c 24 (copyTab.drop 24) =
    iprop(cred (tallyAt (dcell c (dsem 28)) 25 (amtDma 28 0))
      ∗ cred (tallyAt (dcell c (dsem 38)) 26 (amtDma 38 0))
      ∗ credsCopies c 26 (copyTab.drop 26)) := rfl
theorem creds_seg_26 (c : Dev nD) : credsCopies (F := F) c 26 (copyTab.drop 26) =
    iprop(cred (tallyAt (dcell c (dsem 12)) 27 (amtDma 12 2))
      ∗ cred (tallyAt (dcell c (dsem 18)) 28 (amtDma 18 2))
      ∗ credsCopies c 28 (copyTab.drop 28)) := rfl
theorem creds_seg_28 (c : Dev nD) : credsCopies (F := F) c 28 (copyTab.drop 28) =
    iprop(cred (tallyAt (dcell c (dsem 13)) 29 (amtDma 13 2))
      ∗ cred (tallyAt (dcell c (dsem 19)) 30 (amtDma 19 2))
      ∗ credsCopies c 30 (copyTab.drop 30)) := rfl
theorem creds_seg_30 (c : Dev nD) : credsCopies (F := F) c 30 (copyTab.drop 30) =
    iprop(cred (tallyAt (dcell c (dsem 25)) 31 (amtDma 25 2))
      ∗ cred (tallyAt (dcell c (dsem 35)) 32 (amtDma 35 2))
      ∗ cred (tallyAt (dcell c (dsem 29)) 33 (amtDma 29 2))
      ∗ cred (tallyAt (dcell c (dsem 39)) 34 (amtDma 39 2))
      ∗ credsCopies c 34 (copyTab.drop 34)) := rfl
theorem creds_seg_34 (c : Dev nD) : credsCopies (F := F) c 34 (copyTab.drop 34) =
    iprop(cred (tallyAt (dcell c (dsem 26)) 35 (amtDma 26 2))
      ∗ cred (tallyAt (dcell c (dsem 36)) 36 (amtDma 36 2))
      ∗ credsCopies c 36 (copyTab.drop 36)) := rfl
theorem creds_seg_36 (c : Dev nD) : credsCopies (F := F) c 36 (copyTab.drop 36) =
    iprop(cred (tallyAt (dcell c (dsem 27)) 37 (amtDma 27 1))
      ∗ cred (tallyAt (dcell c (dsem 37)) 38 (amtDma 37 1))
      ∗ credsCopies c 38 (copyTab.drop 38)) := rfl
theorem creds_end (c : Dev nD) : credsCopies (F := F) c 38 (copyTab.drop 38) = iprop(emp) := rfl

/-! ## How many rounds of each cell are over at each quiet point -/

theorem roundsDone_0 :
    roundsDone 0 8 = 0 ∧ roundsDone 0 9 = 0 ∧ roundsDone 0 10 = 0 ∧ roundsDone 0 11 = 0 ∧ roundsDone 0 12 = 0 ∧ roundsDone 0 13 = 0 ∧ roundsDone 0 14 = 0 ∧ roundsDone 0 15 = 0 ∧ roundsDone 0 16 = 0 ∧ roundsDone 0 17 = 0 ∧ roundsDone 0 18 = 0 ∧ roundsDone 0 19 = 0 ∧ roundsDone 0 20 = 0 ∧ roundsDone 0 21 = 0 ∧ roundsDone 0 22 = 0 ∧ roundsDone 0 23 = 0 ∧ roundsDone 0 24 = 0 ∧ roundsDone 0 25 = 0 ∧ roundsDone 0 26 = 0 ∧ roundsDone 0 27 = 0 ∧ roundsDone 0 28 = 0 ∧ roundsDone 0 29 = 0 ∧ roundsDone 0 30 = 0 ∧ roundsDone 0 31 = 0 ∧ roundsDone 0 32 = 0 ∧ roundsDone 0 33 = 0 ∧ roundsDone 0 34 = 0 ∧ roundsDone 0 35 = 0 ∧ roundsDone 0 36 = 0 ∧ roundsDone 0 37 = 0 ∧ roundsDone 0 38 = 0 ∧ roundsDone 0 39 = 0 := by decide
theorem roundsDone_4 :
    roundsDone 4 8 = 1 ∧ roundsDone 4 9 = 1 ∧ roundsDone 4 10 = 0 ∧ roundsDone 4 11 = 1 ∧ roundsDone 4 12 = 1 ∧ roundsDone 4 13 = 0 ∧ roundsDone 4 14 = 1 ∧ roundsDone 4 15 = 1 ∧ roundsDone 4 16 = 0 ∧ roundsDone 4 17 = 1 ∧ roundsDone 4 18 = 1 ∧ roundsDone 4 19 = 0 ∧ roundsDone 4 20 = 0 ∧ roundsDone 4 21 = 0 ∧ roundsDone 4 22 = 0 ∧ roundsDone 4 23 = 0 ∧ roundsDone 4 24 = 0 ∧ roundsDone 4 25 = 0 ∧ roundsDone 4 26 = 0 ∧ roundsDone 4 27 = 0 ∧ roundsDone 4 28 = 0 ∧ roundsDone 4 29 = 0 ∧ roundsDone 4 30 = 0 ∧ roundsDone 4 31 = 0 ∧ roundsDone 4 32 = 0 ∧ roundsDone 4 33 = 0 ∧ roundsDone 4 34 = 0 ∧ roundsDone 4 35 = 0 ∧ roundsDone 4 36 = 0 ∧ roundsDone 4 37 = 0 ∧ roundsDone 4 38 = 0 ∧ roundsDone 4 39 = 0 := by decide
theorem roundsDone_6 :
    roundsDone 6 8 = 1 ∧ roundsDone 6 9 = 1 ∧ roundsDone 6 10 = 1 ∧ roundsDone 6 11 = 1 ∧ roundsDone 6 12 = 1 ∧ roundsDone 6 13 = 1 ∧ roundsDone 6 14 = 1 ∧ roundsDone 6 15 = 1 ∧ roundsDone 6 16 = 1 ∧ roundsDone 6 17 = 1 ∧ roundsDone 6 18 = 1 ∧ roundsDone 6 19 = 1 ∧ roundsDone 6 20 = 0 ∧ roundsDone 6 21 = 0 ∧ roundsDone 6 22 = 0 ∧ roundsDone 6 23 = 0 ∧ roundsDone 6 24 = 0 ∧ roundsDone 6 25 = 0 ∧ roundsDone 6 26 = 0 ∧ roundsDone 6 27 = 0 ∧ roundsDone 6 28 = 0 ∧ roundsDone 6 29 = 0 ∧ roundsDone 6 30 = 0 ∧ roundsDone 6 31 = 0 ∧ roundsDone 6 32 = 0 ∧ roundsDone 6 33 = 0 ∧ roundsDone 6 34 = 0 ∧ roundsDone 6 35 = 0 ∧ roundsDone 6 36 = 0 ∧ roundsDone 6 37 = 0 ∧ roundsDone 6 38 = 0 ∧ roundsDone 6 39 = 0 := by decide
theorem roundsDone_10 :
    roundsDone 10 8 = 1 ∧ roundsDone 10 9 = 1 ∧ roundsDone 10 10 = 1 ∧ roundsDone 10 11 = 1 ∧ roundsDone 10 12 = 1 ∧ roundsDone 10 13 = 1 ∧ roundsDone 10 14 = 1 ∧ roundsDone 10 15 = 1 ∧ roundsDone 10 16 = 1 ∧ roundsDone 10 17 = 1 ∧ roundsDone 10 18 = 1 ∧ roundsDone 10 19 = 1 ∧ roundsDone 10 20 = 1 ∧ roundsDone 10 21 = 0 ∧ roundsDone 10 22 = 0 ∧ roundsDone 10 23 = 0 ∧ roundsDone 10 24 = 1 ∧ roundsDone 10 25 = 1 ∧ roundsDone 10 26 = 0 ∧ roundsDone 10 27 = 0 ∧ roundsDone 10 28 = 0 ∧ roundsDone 10 29 = 1 ∧ roundsDone 10 30 = 1 ∧ roundsDone 10 31 = 0 ∧ roundsDone 10 32 = 0 ∧ roundsDone 10 33 = 0 ∧ roundsDone 10 34 = 1 ∧ roundsDone 10 35 = 1 ∧ roundsDone 10 36 = 0 ∧ roundsDone 10 37 = 0 ∧ roundsDone 10 38 = 0 ∧ roundsDone 10 39 = 1 := by decide
theorem roundsDone_12 :
    roundsDone 12 8 = 1 ∧ roundsDone 12 9 = 1 ∧ roundsDone 12 10 = 1 ∧ roundsDone 12 11 = 1 ∧ roundsDone 12 12 = 1 ∧ roundsDone 12 13 = 1 ∧ roundsDone 12 14 = 1 ∧ roundsDone 12 15 = 1 ∧ roundsDone 12 16 = 1 ∧ roundsDone 12 17 = 1 ∧ roundsDone 12 18 = 1 ∧ roundsDone 12 19 = 1 ∧ roundsDone 12 20 = 1 ∧ roundsDone 12 21 = 1 ∧ roundsDone 12 22 = 0 ∧ roundsDone 12 23 = 0 ∧ roundsDone 12 24 = 1 ∧ roundsDone 12 25 = 1 ∧ roundsDone 12 26 = 1 ∧ roundsDone 12 27 = 0 ∧ roundsDone 12 28 = 0 ∧ roundsDone 12 29 = 1 ∧ roundsDone 12 30 = 1 ∧ roundsDone 12 31 = 1 ∧ roundsDone 12 32 = 0 ∧ roundsDone 12 33 = 0 ∧ roundsDone 12 34 = 1 ∧ roundsDone 12 35 = 1 ∧ roundsDone 12 36 = 1 ∧ roundsDone 12 37 = 0 ∧ roundsDone 12 38 = 0 ∧ roundsDone 12 39 = 1 := by decide
theorem roundsDone_14 :
    roundsDone 14 8 = 1 ∧ roundsDone 14 9 = 1 ∧ roundsDone 14 10 = 1 ∧ roundsDone 14 11 = 1 ∧ roundsDone 14 12 = 1 ∧ roundsDone 14 13 = 1 ∧ roundsDone 14 14 = 1 ∧ roundsDone 14 15 = 1 ∧ roundsDone 14 16 = 1 ∧ roundsDone 14 17 = 1 ∧ roundsDone 14 18 = 1 ∧ roundsDone 14 19 = 1 ∧ roundsDone 14 20 = 1 ∧ roundsDone 14 21 = 1 ∧ roundsDone 14 22 = 1 ∧ roundsDone 14 23 = 0 ∧ roundsDone 14 24 = 1 ∧ roundsDone 14 25 = 1 ∧ roundsDone 14 26 = 1 ∧ roundsDone 14 27 = 1 ∧ roundsDone 14 28 = 0 ∧ roundsDone 14 29 = 1 ∧ roundsDone 14 30 = 1 ∧ roundsDone 14 31 = 1 ∧ roundsDone 14 32 = 1 ∧ roundsDone 14 33 = 0 ∧ roundsDone 14 34 = 1 ∧ roundsDone 14 35 = 1 ∧ roundsDone 14 36 = 1 ∧ roundsDone 14 37 = 1 ∧ roundsDone 14 38 = 0 ∧ roundsDone 14 39 = 1 := by decide
theorem roundsDone_18 :
    roundsDone 18 8 = 1 ∧ roundsDone 18 9 = 2 ∧ roundsDone 18 10 = 2 ∧ roundsDone 18 11 = 1 ∧ roundsDone 18 12 = 2 ∧ roundsDone 18 13 = 2 ∧ roundsDone 18 14 = 1 ∧ roundsDone 18 15 = 2 ∧ roundsDone 18 16 = 2 ∧ roundsDone 18 17 = 1 ∧ roundsDone 18 18 = 2 ∧ roundsDone 18 19 = 2 ∧ roundsDone 18 20 = 1 ∧ roundsDone 18 21 = 1 ∧ roundsDone 18 22 = 1 ∧ roundsDone 18 23 = 0 ∧ roundsDone 18 24 = 1 ∧ roundsDone 18 25 = 1 ∧ roundsDone 18 26 = 1 ∧ roundsDone 18 27 = 1 ∧ roundsDone 18 28 = 0 ∧ roundsDone 18 29 = 1 ∧ roundsDone 18 30 = 1 ∧ roundsDone 18 31 = 1 ∧ roundsDone 18 32 = 1 ∧ roundsDone 18 33 = 0 ∧ roundsDone 18 34 = 1 ∧ roundsDone 18 35 = 1 ∧ roundsDone 18 36 = 1 ∧ roundsDone 18 37 = 1 ∧ roundsDone 18 38 = 0 ∧ roundsDone 18 39 = 1 := by decide
theorem roundsDone_22 :
    roundsDone 22 8 = 1 ∧ roundsDone 22 9 = 2 ∧ roundsDone 22 10 = 2 ∧ roundsDone 22 11 = 1 ∧ roundsDone 22 12 = 2 ∧ roundsDone 22 13 = 2 ∧ roundsDone 22 14 = 1 ∧ roundsDone 22 15 = 2 ∧ roundsDone 22 16 = 2 ∧ roundsDone 22 17 = 1 ∧ roundsDone 22 18 = 2 ∧ roundsDone 22 19 = 2 ∧ roundsDone 22 20 = 2 ∧ roundsDone 22 21 = 1 ∧ roundsDone 22 22 = 1 ∧ roundsDone 22 23 = 0 ∧ roundsDone 22 24 = 2 ∧ roundsDone 22 25 = 2 ∧ roundsDone 22 26 = 1 ∧ roundsDone 22 27 = 1 ∧ roundsDone 22 28 = 0 ∧ roundsDone 22 29 = 2 ∧ roundsDone 22 30 = 2 ∧ roundsDone 22 31 = 1 ∧ roundsDone 22 32 = 1 ∧ roundsDone 22 33 = 0 ∧ roundsDone 22 34 = 2 ∧ roundsDone 22 35 = 2 ∧ roundsDone 22 36 = 1 ∧ roundsDone 22 37 = 1 ∧ roundsDone 22 38 = 0 ∧ roundsDone 22 39 = 2 := by decide
theorem roundsDone_24 :
    roundsDone 24 8 = 1 ∧ roundsDone 24 9 = 2 ∧ roundsDone 24 10 = 2 ∧ roundsDone 24 11 = 1 ∧ roundsDone 24 12 = 2 ∧ roundsDone 24 13 = 2 ∧ roundsDone 24 14 = 1 ∧ roundsDone 24 15 = 2 ∧ roundsDone 24 16 = 2 ∧ roundsDone 24 17 = 1 ∧ roundsDone 24 18 = 2 ∧ roundsDone 24 19 = 2 ∧ roundsDone 24 20 = 2 ∧ roundsDone 24 21 = 2 ∧ roundsDone 24 22 = 1 ∧ roundsDone 24 23 = 0 ∧ roundsDone 24 24 = 2 ∧ roundsDone 24 25 = 2 ∧ roundsDone 24 26 = 2 ∧ roundsDone 24 27 = 1 ∧ roundsDone 24 28 = 0 ∧ roundsDone 24 29 = 2 ∧ roundsDone 24 30 = 2 ∧ roundsDone 24 31 = 2 ∧ roundsDone 24 32 = 1 ∧ roundsDone 24 33 = 0 ∧ roundsDone 24 34 = 2 ∧ roundsDone 24 35 = 2 ∧ roundsDone 24 36 = 2 ∧ roundsDone 24 37 = 1 ∧ roundsDone 24 38 = 0 ∧ roundsDone 24 39 = 2 := by decide
theorem roundsDone_26 :
    roundsDone 26 8 = 1 ∧ roundsDone 26 9 = 2 ∧ roundsDone 26 10 = 2 ∧ roundsDone 26 11 = 1 ∧ roundsDone 26 12 = 2 ∧ roundsDone 26 13 = 2 ∧ roundsDone 26 14 = 1 ∧ roundsDone 26 15 = 2 ∧ roundsDone 26 16 = 2 ∧ roundsDone 26 17 = 1 ∧ roundsDone 26 18 = 2 ∧ roundsDone 26 19 = 2 ∧ roundsDone 26 20 = 2 ∧ roundsDone 26 21 = 2 ∧ roundsDone 26 22 = 1 ∧ roundsDone 26 23 = 1 ∧ roundsDone 26 24 = 2 ∧ roundsDone 26 25 = 2 ∧ roundsDone 26 26 = 2 ∧ roundsDone 26 27 = 1 ∧ roundsDone 26 28 = 1 ∧ roundsDone 26 29 = 2 ∧ roundsDone 26 30 = 2 ∧ roundsDone 26 31 = 2 ∧ roundsDone 26 32 = 1 ∧ roundsDone 26 33 = 1 ∧ roundsDone 26 34 = 2 ∧ roundsDone 26 35 = 2 ∧ roundsDone 26 36 = 2 ∧ roundsDone 26 37 = 1 ∧ roundsDone 26 38 = 1 ∧ roundsDone 26 39 = 2 := by decide
theorem roundsDone_28 :
    roundsDone 28 8 = 1 ∧ roundsDone 28 9 = 3 ∧ roundsDone 28 10 = 2 ∧ roundsDone 28 11 = 1 ∧ roundsDone 28 12 = 3 ∧ roundsDone 28 13 = 2 ∧ roundsDone 28 14 = 1 ∧ roundsDone 28 15 = 3 ∧ roundsDone 28 16 = 2 ∧ roundsDone 28 17 = 1 ∧ roundsDone 28 18 = 3 ∧ roundsDone 28 19 = 2 ∧ roundsDone 28 20 = 2 ∧ roundsDone 28 21 = 2 ∧ roundsDone 28 22 = 1 ∧ roundsDone 28 23 = 1 ∧ roundsDone 28 24 = 2 ∧ roundsDone 28 25 = 2 ∧ roundsDone 28 26 = 2 ∧ roundsDone 28 27 = 1 ∧ roundsDone 28 28 = 1 ∧ roundsDone 28 29 = 2 ∧ roundsDone 28 30 = 2 ∧ roundsDone 28 31 = 2 ∧ roundsDone 28 32 = 1 ∧ roundsDone 28 33 = 1 ∧ roundsDone 28 34 = 2 ∧ roundsDone 28 35 = 2 ∧ roundsDone 28 36 = 2 ∧ roundsDone 28 37 = 1 ∧ roundsDone 28 38 = 1 ∧ roundsDone 28 39 = 2 := by decide
theorem roundsDone_30 :
    roundsDone 30 8 = 1 ∧ roundsDone 30 9 = 3 ∧ roundsDone 30 10 = 3 ∧ roundsDone 30 11 = 1 ∧ roundsDone 30 12 = 3 ∧ roundsDone 30 13 = 3 ∧ roundsDone 30 14 = 1 ∧ roundsDone 30 15 = 3 ∧ roundsDone 30 16 = 3 ∧ roundsDone 30 17 = 1 ∧ roundsDone 30 18 = 3 ∧ roundsDone 30 19 = 3 ∧ roundsDone 30 20 = 2 ∧ roundsDone 30 21 = 2 ∧ roundsDone 30 22 = 1 ∧ roundsDone 30 23 = 1 ∧ roundsDone 30 24 = 2 ∧ roundsDone 30 25 = 2 ∧ roundsDone 30 26 = 2 ∧ roundsDone 30 27 = 1 ∧ roundsDone 30 28 = 1 ∧ roundsDone 30 29 = 2 ∧ roundsDone 30 30 = 2 ∧ roundsDone 30 31 = 2 ∧ roundsDone 30 32 = 1 ∧ roundsDone 30 33 = 1 ∧ roundsDone 30 34 = 2 ∧ roundsDone 30 35 = 2 ∧ roundsDone 30 36 = 2 ∧ roundsDone 30 37 = 1 ∧ roundsDone 30 38 = 1 ∧ roundsDone 30 39 = 2 := by decide
theorem roundsDone_34 :
    roundsDone 34 8 = 1 ∧ roundsDone 34 9 = 3 ∧ roundsDone 34 10 = 3 ∧ roundsDone 34 11 = 1 ∧ roundsDone 34 12 = 3 ∧ roundsDone 34 13 = 3 ∧ roundsDone 34 14 = 1 ∧ roundsDone 34 15 = 3 ∧ roundsDone 34 16 = 3 ∧ roundsDone 34 17 = 1 ∧ roundsDone 34 18 = 3 ∧ roundsDone 34 19 = 3 ∧ roundsDone 34 20 = 3 ∧ roundsDone 34 21 = 2 ∧ roundsDone 34 22 = 1 ∧ roundsDone 34 23 = 1 ∧ roundsDone 34 24 = 3 ∧ roundsDone 34 25 = 3 ∧ roundsDone 34 26 = 2 ∧ roundsDone 34 27 = 1 ∧ roundsDone 34 28 = 1 ∧ roundsDone 34 29 = 3 ∧ roundsDone 34 30 = 3 ∧ roundsDone 34 31 = 2 ∧ roundsDone 34 32 = 1 ∧ roundsDone 34 33 = 1 ∧ roundsDone 34 34 = 3 ∧ roundsDone 34 35 = 3 ∧ roundsDone 34 36 = 2 ∧ roundsDone 34 37 = 1 ∧ roundsDone 34 38 = 1 ∧ roundsDone 34 39 = 3 := by decide
theorem roundsDone_36 :
    roundsDone 36 8 = 1 ∧ roundsDone 36 9 = 3 ∧ roundsDone 36 10 = 3 ∧ roundsDone 36 11 = 1 ∧ roundsDone 36 12 = 3 ∧ roundsDone 36 13 = 3 ∧ roundsDone 36 14 = 1 ∧ roundsDone 36 15 = 3 ∧ roundsDone 36 16 = 3 ∧ roundsDone 36 17 = 1 ∧ roundsDone 36 18 = 3 ∧ roundsDone 36 19 = 3 ∧ roundsDone 36 20 = 3 ∧ roundsDone 36 21 = 3 ∧ roundsDone 36 22 = 1 ∧ roundsDone 36 23 = 1 ∧ roundsDone 36 24 = 3 ∧ roundsDone 36 25 = 3 ∧ roundsDone 36 26 = 3 ∧ roundsDone 36 27 = 1 ∧ roundsDone 36 28 = 1 ∧ roundsDone 36 29 = 3 ∧ roundsDone 36 30 = 3 ∧ roundsDone 36 31 = 3 ∧ roundsDone 36 32 = 1 ∧ roundsDone 36 33 = 1 ∧ roundsDone 36 34 = 3 ∧ roundsDone 36 35 = 3 ∧ roundsDone 36 36 = 3 ∧ roundsDone 36 37 = 1 ∧ roundsDone 36 38 = 1 ∧ roundsDone 36 39 = 3 := by decide
theorem roundsDone_38 :
    roundsDone 38 8 = 1 ∧ roundsDone 38 9 = 3 ∧ roundsDone 38 10 = 3 ∧ roundsDone 38 11 = 1 ∧ roundsDone 38 12 = 3 ∧ roundsDone 38 13 = 3 ∧ roundsDone 38 14 = 1 ∧ roundsDone 38 15 = 3 ∧ roundsDone 38 16 = 3 ∧ roundsDone 38 17 = 1 ∧ roundsDone 38 18 = 3 ∧ roundsDone 38 19 = 3 ∧ roundsDone 38 20 = 3 ∧ roundsDone 38 21 = 3 ∧ roundsDone 38 22 = 2 ∧ roundsDone 38 23 = 1 ∧ roundsDone 38 24 = 3 ∧ roundsDone 38 25 = 3 ∧ roundsDone 38 26 = 3 ∧ roundsDone 38 27 = 2 ∧ roundsDone 38 28 = 1 ∧ roundsDone 38 29 = 3 ∧ roundsDone 38 30 = 3 ∧ roundsDone 38 31 = 3 ∧ roundsDone 38 32 = 2 ∧ roundsDone 38 33 = 1 ∧ roundsDone 38 34 = 3 ∧ roundsDone 38 35 = 3 ∧ roundsDone 38 36 = 3 ∧ roundsDone 38 37 = 2 ∧ roundsDone 38 38 = 1 ∧ roundsDone 38 39 = 3 := by decide

/-! ## The positions at each quiet point, at numerals -/

theorem posAt_0 (c : Dev nD) : posAt (F := F) c (roundsDone 0) =
    iprop(atPos ER (dcell c (dsem 8)) 0 ∅ 0 ∗ reached ER (dcell c (dsem 8)) 0
      ∗ atPos ER (dcell c (dsem 9)) 0 ∅ 0 ∗ reached ER (dcell c (dsem 9)) 0
      ∗ atPos ER (dcell c (dsem 10)) 0 ∅ 0 ∗ reached ER (dcell c (dsem 10)) 0
      ∗ atPos ER (dcell c (dsem 11)) 0 ∅ 0 ∗ reached ER (dcell c (dsem 11)) 0
      ∗ atPos ER (dcell c (dsem 12)) 0 ∅ 0 ∗ reached ER (dcell c (dsem 12)) 0
      ∗ atPos ER (dcell c (dsem 13)) 0 ∅ 0 ∗ reached ER (dcell c (dsem 13)) 0
      ∗ atPos ER (dcell c (dsem 14)) 0 ∅ 0 ∗ reached ER (dcell c (dsem 14)) 0
      ∗ atPos ER (dcell c (dsem 15)) 0 ∅ 0 ∗ reached ER (dcell c (dsem 15)) 0
      ∗ atPos ER (dcell c (dsem 16)) 0 ∅ 0 ∗ reached ER (dcell c (dsem 16)) 0
      ∗ atPos ER (dcell c (dsem 17)) 0 ∅ 0 ∗ reached ER (dcell c (dsem 17)) 0
      ∗ atPos ER (dcell c (dsem 18)) 0 ∅ 0 ∗ reached ER (dcell c (dsem 18)) 0
      ∗ atPos ER (dcell c (dsem 19)) 0 ∅ 0 ∗ reached ER (dcell c (dsem 19)) 0
      ∗ atPos ER (dcell c (dsem 20)) 0 ∅ 0 ∗ reached ER (dcell c (dsem 20)) 0
      ∗ atPos ER (dcell c (dsem 21)) 0 ∅ 0 ∗ reached ER (dcell c (dsem 21)) 0
      ∗ atPos ER (dcell c (dsem 22)) 0 ∅ 0 ∗ reached ER (dcell c (dsem 22)) 0
      ∗ atPos ER (dcell c (dsem 23)) 0 ∅ 0 ∗ reached ER (dcell c (dsem 23)) 0
      ∗ atPos ER (dcell c (dsem 24)) 0 ∅ 0 ∗ reached ER (dcell c (dsem 24)) 0
      ∗ atPos ER (dcell c (dsem 25)) 0 ∅ 0 ∗ reached ER (dcell c (dsem 25)) 0
      ∗ atPos ER (dcell c (dsem 26)) 0 ∅ 0 ∗ reached ER (dcell c (dsem 26)) 0
      ∗ atPos ER (dcell c (dsem 27)) 0 ∅ 0 ∗ reached ER (dcell c (dsem 27)) 0
      ∗ atPos ER (dcell c (dsem 28)) 0 ∅ 0 ∗ reached ER (dcell c (dsem 28)) 0
      ∗ atPos ER (dcell c (dsem 29)) 0 ∅ 0 ∗ reached ER (dcell c (dsem 29)) 0
      ∗ atPos ER (dcell c (dsem 30)) 0 ∅ 0 ∗ reached ER (dcell c (dsem 30)) 0
      ∗ atPos ER (dcell c (dsem 31)) 0 ∅ 0 ∗ reached ER (dcell c (dsem 31)) 0
      ∗ atPos ER (dcell c (dsem 32)) 0 ∅ 0 ∗ reached ER (dcell c (dsem 32)) 0
      ∗ atPos ER (dcell c (dsem 33)) 0 ∅ 0 ∗ reached ER (dcell c (dsem 33)) 0
      ∗ atPos ER (dcell c (dsem 34)) 0 ∅ 0 ∗ reached ER (dcell c (dsem 34)) 0
      ∗ atPos ER (dcell c (dsem 35)) 0 ∅ 0 ∗ reached ER (dcell c (dsem 35)) 0
      ∗ atPos ER (dcell c (dsem 36)) 0 ∅ 0 ∗ reached ER (dcell c (dsem 36)) 0
      ∗ atPos ER (dcell c (dsem 37)) 0 ∅ 0 ∗ reached ER (dcell c (dsem 37)) 0
      ∗ atPos ER (dcell c (dsem 38)) 0 ∅ 0 ∗ reached ER (dcell c (dsem 38)) 0
      ∗ atPos ER (dcell c (dsem 39)) 0 ∅ 0 ∗ reached ER (dcell c (dsem 39)) 0) := rfl
theorem posAt_4 (c : Dev nD) : posAt (F := F) c (roundsDone 4) =
    iprop(atPos ER (dcell c (dsem 8)) 1 ∅ 0 ∗ reached ER (dcell c (dsem 8)) 1
      ∗ atPos ER (dcell c (dsem 9)) 1 ∅ 0 ∗ reached ER (dcell c (dsem 9)) 1
      ∗ atPos ER (dcell c (dsem 10)) 0 ∅ 0 ∗ reached ER (dcell c (dsem 10)) 0
      ∗ atPos ER (dcell c (dsem 11)) 1 ∅ 0 ∗ reached ER (dcell c (dsem 11)) 1
      ∗ atPos ER (dcell c (dsem 12)) 1 ∅ 0 ∗ reached ER (dcell c (dsem 12)) 1
      ∗ atPos ER (dcell c (dsem 13)) 0 ∅ 0 ∗ reached ER (dcell c (dsem 13)) 0
      ∗ atPos ER (dcell c (dsem 14)) 1 ∅ 0 ∗ reached ER (dcell c (dsem 14)) 1
      ∗ atPos ER (dcell c (dsem 15)) 1 ∅ 0 ∗ reached ER (dcell c (dsem 15)) 1
      ∗ atPos ER (dcell c (dsem 16)) 0 ∅ 0 ∗ reached ER (dcell c (dsem 16)) 0
      ∗ atPos ER (dcell c (dsem 17)) 1 ∅ 0 ∗ reached ER (dcell c (dsem 17)) 1
      ∗ atPos ER (dcell c (dsem 18)) 1 ∅ 0 ∗ reached ER (dcell c (dsem 18)) 1
      ∗ atPos ER (dcell c (dsem 19)) 0 ∅ 0 ∗ reached ER (dcell c (dsem 19)) 0
      ∗ atPos ER (dcell c (dsem 20)) 0 ∅ 0 ∗ reached ER (dcell c (dsem 20)) 0
      ∗ atPos ER (dcell c (dsem 21)) 0 ∅ 0 ∗ reached ER (dcell c (dsem 21)) 0
      ∗ atPos ER (dcell c (dsem 22)) 0 ∅ 0 ∗ reached ER (dcell c (dsem 22)) 0
      ∗ atPos ER (dcell c (dsem 23)) 0 ∅ 0 ∗ reached ER (dcell c (dsem 23)) 0
      ∗ atPos ER (dcell c (dsem 24)) 0 ∅ 0 ∗ reached ER (dcell c (dsem 24)) 0
      ∗ atPos ER (dcell c (dsem 25)) 0 ∅ 0 ∗ reached ER (dcell c (dsem 25)) 0
      ∗ atPos ER (dcell c (dsem 26)) 0 ∅ 0 ∗ reached ER (dcell c (dsem 26)) 0
      ∗ atPos ER (dcell c (dsem 27)) 0 ∅ 0 ∗ reached ER (dcell c (dsem 27)) 0
      ∗ atPos ER (dcell c (dsem 28)) 0 ∅ 0 ∗ reached ER (dcell c (dsem 28)) 0
      ∗ atPos ER (dcell c (dsem 29)) 0 ∅ 0 ∗ reached ER (dcell c (dsem 29)) 0
      ∗ atPos ER (dcell c (dsem 30)) 0 ∅ 0 ∗ reached ER (dcell c (dsem 30)) 0
      ∗ atPos ER (dcell c (dsem 31)) 0 ∅ 0 ∗ reached ER (dcell c (dsem 31)) 0
      ∗ atPos ER (dcell c (dsem 32)) 0 ∅ 0 ∗ reached ER (dcell c (dsem 32)) 0
      ∗ atPos ER (dcell c (dsem 33)) 0 ∅ 0 ∗ reached ER (dcell c (dsem 33)) 0
      ∗ atPos ER (dcell c (dsem 34)) 0 ∅ 0 ∗ reached ER (dcell c (dsem 34)) 0
      ∗ atPos ER (dcell c (dsem 35)) 0 ∅ 0 ∗ reached ER (dcell c (dsem 35)) 0
      ∗ atPos ER (dcell c (dsem 36)) 0 ∅ 0 ∗ reached ER (dcell c (dsem 36)) 0
      ∗ atPos ER (dcell c (dsem 37)) 0 ∅ 0 ∗ reached ER (dcell c (dsem 37)) 0
      ∗ atPos ER (dcell c (dsem 38)) 0 ∅ 0 ∗ reached ER (dcell c (dsem 38)) 0
      ∗ atPos ER (dcell c (dsem 39)) 0 ∅ 0 ∗ reached ER (dcell c (dsem 39)) 0) := rfl
theorem posAt_6 (c : Dev nD) : posAt (F := F) c (roundsDone 6) =
    iprop(atPos ER (dcell c (dsem 8)) 1 ∅ 0 ∗ reached ER (dcell c (dsem 8)) 1
      ∗ atPos ER (dcell c (dsem 9)) 1 ∅ 0 ∗ reached ER (dcell c (dsem 9)) 1
      ∗ atPos ER (dcell c (dsem 10)) 1 ∅ 0 ∗ reached ER (dcell c (dsem 10)) 1
      ∗ atPos ER (dcell c (dsem 11)) 1 ∅ 0 ∗ reached ER (dcell c (dsem 11)) 1
      ∗ atPos ER (dcell c (dsem 12)) 1 ∅ 0 ∗ reached ER (dcell c (dsem 12)) 1
      ∗ atPos ER (dcell c (dsem 13)) 1 ∅ 0 ∗ reached ER (dcell c (dsem 13)) 1
      ∗ atPos ER (dcell c (dsem 14)) 1 ∅ 0 ∗ reached ER (dcell c (dsem 14)) 1
      ∗ atPos ER (dcell c (dsem 15)) 1 ∅ 0 ∗ reached ER (dcell c (dsem 15)) 1
      ∗ atPos ER (dcell c (dsem 16)) 1 ∅ 0 ∗ reached ER (dcell c (dsem 16)) 1
      ∗ atPos ER (dcell c (dsem 17)) 1 ∅ 0 ∗ reached ER (dcell c (dsem 17)) 1
      ∗ atPos ER (dcell c (dsem 18)) 1 ∅ 0 ∗ reached ER (dcell c (dsem 18)) 1
      ∗ atPos ER (dcell c (dsem 19)) 1 ∅ 0 ∗ reached ER (dcell c (dsem 19)) 1
      ∗ atPos ER (dcell c (dsem 20)) 0 ∅ 0 ∗ reached ER (dcell c (dsem 20)) 0
      ∗ atPos ER (dcell c (dsem 21)) 0 ∅ 0 ∗ reached ER (dcell c (dsem 21)) 0
      ∗ atPos ER (dcell c (dsem 22)) 0 ∅ 0 ∗ reached ER (dcell c (dsem 22)) 0
      ∗ atPos ER (dcell c (dsem 23)) 0 ∅ 0 ∗ reached ER (dcell c (dsem 23)) 0
      ∗ atPos ER (dcell c (dsem 24)) 0 ∅ 0 ∗ reached ER (dcell c (dsem 24)) 0
      ∗ atPos ER (dcell c (dsem 25)) 0 ∅ 0 ∗ reached ER (dcell c (dsem 25)) 0
      ∗ atPos ER (dcell c (dsem 26)) 0 ∅ 0 ∗ reached ER (dcell c (dsem 26)) 0
      ∗ atPos ER (dcell c (dsem 27)) 0 ∅ 0 ∗ reached ER (dcell c (dsem 27)) 0
      ∗ atPos ER (dcell c (dsem 28)) 0 ∅ 0 ∗ reached ER (dcell c (dsem 28)) 0
      ∗ atPos ER (dcell c (dsem 29)) 0 ∅ 0 ∗ reached ER (dcell c (dsem 29)) 0
      ∗ atPos ER (dcell c (dsem 30)) 0 ∅ 0 ∗ reached ER (dcell c (dsem 30)) 0
      ∗ atPos ER (dcell c (dsem 31)) 0 ∅ 0 ∗ reached ER (dcell c (dsem 31)) 0
      ∗ atPos ER (dcell c (dsem 32)) 0 ∅ 0 ∗ reached ER (dcell c (dsem 32)) 0
      ∗ atPos ER (dcell c (dsem 33)) 0 ∅ 0 ∗ reached ER (dcell c (dsem 33)) 0
      ∗ atPos ER (dcell c (dsem 34)) 0 ∅ 0 ∗ reached ER (dcell c (dsem 34)) 0
      ∗ atPos ER (dcell c (dsem 35)) 0 ∅ 0 ∗ reached ER (dcell c (dsem 35)) 0
      ∗ atPos ER (dcell c (dsem 36)) 0 ∅ 0 ∗ reached ER (dcell c (dsem 36)) 0
      ∗ atPos ER (dcell c (dsem 37)) 0 ∅ 0 ∗ reached ER (dcell c (dsem 37)) 0
      ∗ atPos ER (dcell c (dsem 38)) 0 ∅ 0 ∗ reached ER (dcell c (dsem 38)) 0
      ∗ atPos ER (dcell c (dsem 39)) 0 ∅ 0 ∗ reached ER (dcell c (dsem 39)) 0) := rfl
theorem posAt_10 (c : Dev nD) : posAt (F := F) c (roundsDone 10) =
    iprop(atPos ER (dcell c (dsem 8)) 1 ∅ 0 ∗ reached ER (dcell c (dsem 8)) 1
      ∗ atPos ER (dcell c (dsem 9)) 1 ∅ 0 ∗ reached ER (dcell c (dsem 9)) 1
      ∗ atPos ER (dcell c (dsem 10)) 1 ∅ 0 ∗ reached ER (dcell c (dsem 10)) 1
      ∗ atPos ER (dcell c (dsem 11)) 1 ∅ 0 ∗ reached ER (dcell c (dsem 11)) 1
      ∗ atPos ER (dcell c (dsem 12)) 1 ∅ 0 ∗ reached ER (dcell c (dsem 12)) 1
      ∗ atPos ER (dcell c (dsem 13)) 1 ∅ 0 ∗ reached ER (dcell c (dsem 13)) 1
      ∗ atPos ER (dcell c (dsem 14)) 1 ∅ 0 ∗ reached ER (dcell c (dsem 14)) 1
      ∗ atPos ER (dcell c (dsem 15)) 1 ∅ 0 ∗ reached ER (dcell c (dsem 15)) 1
      ∗ atPos ER (dcell c (dsem 16)) 1 ∅ 0 ∗ reached ER (dcell c (dsem 16)) 1
      ∗ atPos ER (dcell c (dsem 17)) 1 ∅ 0 ∗ reached ER (dcell c (dsem 17)) 1
      ∗ atPos ER (dcell c (dsem 18)) 1 ∅ 0 ∗ reached ER (dcell c (dsem 18)) 1
      ∗ atPos ER (dcell c (dsem 19)) 1 ∅ 0 ∗ reached ER (dcell c (dsem 19)) 1
      ∗ atPos ER (dcell c (dsem 20)) 1 ∅ 0 ∗ reached ER (dcell c (dsem 20)) 1
      ∗ atPos ER (dcell c (dsem 21)) 0 ∅ 0 ∗ reached ER (dcell c (dsem 21)) 0
      ∗ atPos ER (dcell c (dsem 22)) 0 ∅ 0 ∗ reached ER (dcell c (dsem 22)) 0
      ∗ atPos ER (dcell c (dsem 23)) 0 ∅ 0 ∗ reached ER (dcell c (dsem 23)) 0
      ∗ atPos ER (dcell c (dsem 24)) 1 ∅ 0 ∗ reached ER (dcell c (dsem 24)) 1
      ∗ atPos ER (dcell c (dsem 25)) 1 ∅ 0 ∗ reached ER (dcell c (dsem 25)) 1
      ∗ atPos ER (dcell c (dsem 26)) 0 ∅ 0 ∗ reached ER (dcell c (dsem 26)) 0
      ∗ atPos ER (dcell c (dsem 27)) 0 ∅ 0 ∗ reached ER (dcell c (dsem 27)) 0
      ∗ atPos ER (dcell c (dsem 28)) 0 ∅ 0 ∗ reached ER (dcell c (dsem 28)) 0
      ∗ atPos ER (dcell c (dsem 29)) 1 ∅ 0 ∗ reached ER (dcell c (dsem 29)) 1
      ∗ atPos ER (dcell c (dsem 30)) 1 ∅ 0 ∗ reached ER (dcell c (dsem 30)) 1
      ∗ atPos ER (dcell c (dsem 31)) 0 ∅ 0 ∗ reached ER (dcell c (dsem 31)) 0
      ∗ atPos ER (dcell c (dsem 32)) 0 ∅ 0 ∗ reached ER (dcell c (dsem 32)) 0
      ∗ atPos ER (dcell c (dsem 33)) 0 ∅ 0 ∗ reached ER (dcell c (dsem 33)) 0
      ∗ atPos ER (dcell c (dsem 34)) 1 ∅ 0 ∗ reached ER (dcell c (dsem 34)) 1
      ∗ atPos ER (dcell c (dsem 35)) 1 ∅ 0 ∗ reached ER (dcell c (dsem 35)) 1
      ∗ atPos ER (dcell c (dsem 36)) 0 ∅ 0 ∗ reached ER (dcell c (dsem 36)) 0
      ∗ atPos ER (dcell c (dsem 37)) 0 ∅ 0 ∗ reached ER (dcell c (dsem 37)) 0
      ∗ atPos ER (dcell c (dsem 38)) 0 ∅ 0 ∗ reached ER (dcell c (dsem 38)) 0
      ∗ atPos ER (dcell c (dsem 39)) 1 ∅ 0 ∗ reached ER (dcell c (dsem 39)) 1) := rfl
theorem posAt_12 (c : Dev nD) : posAt (F := F) c (roundsDone 12) =
    iprop(atPos ER (dcell c (dsem 8)) 1 ∅ 0 ∗ reached ER (dcell c (dsem 8)) 1
      ∗ atPos ER (dcell c (dsem 9)) 1 ∅ 0 ∗ reached ER (dcell c (dsem 9)) 1
      ∗ atPos ER (dcell c (dsem 10)) 1 ∅ 0 ∗ reached ER (dcell c (dsem 10)) 1
      ∗ atPos ER (dcell c (dsem 11)) 1 ∅ 0 ∗ reached ER (dcell c (dsem 11)) 1
      ∗ atPos ER (dcell c (dsem 12)) 1 ∅ 0 ∗ reached ER (dcell c (dsem 12)) 1
      ∗ atPos ER (dcell c (dsem 13)) 1 ∅ 0 ∗ reached ER (dcell c (dsem 13)) 1
      ∗ atPos ER (dcell c (dsem 14)) 1 ∅ 0 ∗ reached ER (dcell c (dsem 14)) 1
      ∗ atPos ER (dcell c (dsem 15)) 1 ∅ 0 ∗ reached ER (dcell c (dsem 15)) 1
      ∗ atPos ER (dcell c (dsem 16)) 1 ∅ 0 ∗ reached ER (dcell c (dsem 16)) 1
      ∗ atPos ER (dcell c (dsem 17)) 1 ∅ 0 ∗ reached ER (dcell c (dsem 17)) 1
      ∗ atPos ER (dcell c (dsem 18)) 1 ∅ 0 ∗ reached ER (dcell c (dsem 18)) 1
      ∗ atPos ER (dcell c (dsem 19)) 1 ∅ 0 ∗ reached ER (dcell c (dsem 19)) 1
      ∗ atPos ER (dcell c (dsem 20)) 1 ∅ 0 ∗ reached ER (dcell c (dsem 20)) 1
      ∗ atPos ER (dcell c (dsem 21)) 1 ∅ 0 ∗ reached ER (dcell c (dsem 21)) 1
      ∗ atPos ER (dcell c (dsem 22)) 0 ∅ 0 ∗ reached ER (dcell c (dsem 22)) 0
      ∗ atPos ER (dcell c (dsem 23)) 0 ∅ 0 ∗ reached ER (dcell c (dsem 23)) 0
      ∗ atPos ER (dcell c (dsem 24)) 1 ∅ 0 ∗ reached ER (dcell c (dsem 24)) 1
      ∗ atPos ER (dcell c (dsem 25)) 1 ∅ 0 ∗ reached ER (dcell c (dsem 25)) 1
      ∗ atPos ER (dcell c (dsem 26)) 1 ∅ 0 ∗ reached ER (dcell c (dsem 26)) 1
      ∗ atPos ER (dcell c (dsem 27)) 0 ∅ 0 ∗ reached ER (dcell c (dsem 27)) 0
      ∗ atPos ER (dcell c (dsem 28)) 0 ∅ 0 ∗ reached ER (dcell c (dsem 28)) 0
      ∗ atPos ER (dcell c (dsem 29)) 1 ∅ 0 ∗ reached ER (dcell c (dsem 29)) 1
      ∗ atPos ER (dcell c (dsem 30)) 1 ∅ 0 ∗ reached ER (dcell c (dsem 30)) 1
      ∗ atPos ER (dcell c (dsem 31)) 1 ∅ 0 ∗ reached ER (dcell c (dsem 31)) 1
      ∗ atPos ER (dcell c (dsem 32)) 0 ∅ 0 ∗ reached ER (dcell c (dsem 32)) 0
      ∗ atPos ER (dcell c (dsem 33)) 0 ∅ 0 ∗ reached ER (dcell c (dsem 33)) 0
      ∗ atPos ER (dcell c (dsem 34)) 1 ∅ 0 ∗ reached ER (dcell c (dsem 34)) 1
      ∗ atPos ER (dcell c (dsem 35)) 1 ∅ 0 ∗ reached ER (dcell c (dsem 35)) 1
      ∗ atPos ER (dcell c (dsem 36)) 1 ∅ 0 ∗ reached ER (dcell c (dsem 36)) 1
      ∗ atPos ER (dcell c (dsem 37)) 0 ∅ 0 ∗ reached ER (dcell c (dsem 37)) 0
      ∗ atPos ER (dcell c (dsem 38)) 0 ∅ 0 ∗ reached ER (dcell c (dsem 38)) 0
      ∗ atPos ER (dcell c (dsem 39)) 1 ∅ 0 ∗ reached ER (dcell c (dsem 39)) 1) := rfl
theorem posAt_14 (c : Dev nD) : posAt (F := F) c (roundsDone 14) =
    iprop(atPos ER (dcell c (dsem 8)) 1 ∅ 0 ∗ reached ER (dcell c (dsem 8)) 1
      ∗ atPos ER (dcell c (dsem 9)) 1 ∅ 0 ∗ reached ER (dcell c (dsem 9)) 1
      ∗ atPos ER (dcell c (dsem 10)) 1 ∅ 0 ∗ reached ER (dcell c (dsem 10)) 1
      ∗ atPos ER (dcell c (dsem 11)) 1 ∅ 0 ∗ reached ER (dcell c (dsem 11)) 1
      ∗ atPos ER (dcell c (dsem 12)) 1 ∅ 0 ∗ reached ER (dcell c (dsem 12)) 1
      ∗ atPos ER (dcell c (dsem 13)) 1 ∅ 0 ∗ reached ER (dcell c (dsem 13)) 1
      ∗ atPos ER (dcell c (dsem 14)) 1 ∅ 0 ∗ reached ER (dcell c (dsem 14)) 1
      ∗ atPos ER (dcell c (dsem 15)) 1 ∅ 0 ∗ reached ER (dcell c (dsem 15)) 1
      ∗ atPos ER (dcell c (dsem 16)) 1 ∅ 0 ∗ reached ER (dcell c (dsem 16)) 1
      ∗ atPos ER (dcell c (dsem 17)) 1 ∅ 0 ∗ reached ER (dcell c (dsem 17)) 1
      ∗ atPos ER (dcell c (dsem 18)) 1 ∅ 0 ∗ reached ER (dcell c (dsem 18)) 1
      ∗ atPos ER (dcell c (dsem 19)) 1 ∅ 0 ∗ reached ER (dcell c (dsem 19)) 1
      ∗ atPos ER (dcell c (dsem 20)) 1 ∅ 0 ∗ reached ER (dcell c (dsem 20)) 1
      ∗ atPos ER (dcell c (dsem 21)) 1 ∅ 0 ∗ reached ER (dcell c (dsem 21)) 1
      ∗ atPos ER (dcell c (dsem 22)) 1 ∅ 0 ∗ reached ER (dcell c (dsem 22)) 1
      ∗ atPos ER (dcell c (dsem 23)) 0 ∅ 0 ∗ reached ER (dcell c (dsem 23)) 0
      ∗ atPos ER (dcell c (dsem 24)) 1 ∅ 0 ∗ reached ER (dcell c (dsem 24)) 1
      ∗ atPos ER (dcell c (dsem 25)) 1 ∅ 0 ∗ reached ER (dcell c (dsem 25)) 1
      ∗ atPos ER (dcell c (dsem 26)) 1 ∅ 0 ∗ reached ER (dcell c (dsem 26)) 1
      ∗ atPos ER (dcell c (dsem 27)) 1 ∅ 0 ∗ reached ER (dcell c (dsem 27)) 1
      ∗ atPos ER (dcell c (dsem 28)) 0 ∅ 0 ∗ reached ER (dcell c (dsem 28)) 0
      ∗ atPos ER (dcell c (dsem 29)) 1 ∅ 0 ∗ reached ER (dcell c (dsem 29)) 1
      ∗ atPos ER (dcell c (dsem 30)) 1 ∅ 0 ∗ reached ER (dcell c (dsem 30)) 1
      ∗ atPos ER (dcell c (dsem 31)) 1 ∅ 0 ∗ reached ER (dcell c (dsem 31)) 1
      ∗ atPos ER (dcell c (dsem 32)) 1 ∅ 0 ∗ reached ER (dcell c (dsem 32)) 1
      ∗ atPos ER (dcell c (dsem 33)) 0 ∅ 0 ∗ reached ER (dcell c (dsem 33)) 0
      ∗ atPos ER (dcell c (dsem 34)) 1 ∅ 0 ∗ reached ER (dcell c (dsem 34)) 1
      ∗ atPos ER (dcell c (dsem 35)) 1 ∅ 0 ∗ reached ER (dcell c (dsem 35)) 1
      ∗ atPos ER (dcell c (dsem 36)) 1 ∅ 0 ∗ reached ER (dcell c (dsem 36)) 1
      ∗ atPos ER (dcell c (dsem 37)) 1 ∅ 0 ∗ reached ER (dcell c (dsem 37)) 1
      ∗ atPos ER (dcell c (dsem 38)) 0 ∅ 0 ∗ reached ER (dcell c (dsem 38)) 0
      ∗ atPos ER (dcell c (dsem 39)) 1 ∅ 0 ∗ reached ER (dcell c (dsem 39)) 1) := rfl
theorem posAt_18 (c : Dev nD) : posAt (F := F) c (roundsDone 18) =
    iprop(atPos ER (dcell c (dsem 8)) 1 ∅ 0 ∗ reached ER (dcell c (dsem 8)) 1
      ∗ atPos ER (dcell c (dsem 9)) 2 ∅ 0 ∗ reached ER (dcell c (dsem 9)) 2
      ∗ atPos ER (dcell c (dsem 10)) 2 ∅ 0 ∗ reached ER (dcell c (dsem 10)) 2
      ∗ atPos ER (dcell c (dsem 11)) 1 ∅ 0 ∗ reached ER (dcell c (dsem 11)) 1
      ∗ atPos ER (dcell c (dsem 12)) 2 ∅ 0 ∗ reached ER (dcell c (dsem 12)) 2
      ∗ atPos ER (dcell c (dsem 13)) 2 ∅ 0 ∗ reached ER (dcell c (dsem 13)) 2
      ∗ atPos ER (dcell c (dsem 14)) 1 ∅ 0 ∗ reached ER (dcell c (dsem 14)) 1
      ∗ atPos ER (dcell c (dsem 15)) 2 ∅ 0 ∗ reached ER (dcell c (dsem 15)) 2
      ∗ atPos ER (dcell c (dsem 16)) 2 ∅ 0 ∗ reached ER (dcell c (dsem 16)) 2
      ∗ atPos ER (dcell c (dsem 17)) 1 ∅ 0 ∗ reached ER (dcell c (dsem 17)) 1
      ∗ atPos ER (dcell c (dsem 18)) 2 ∅ 0 ∗ reached ER (dcell c (dsem 18)) 2
      ∗ atPos ER (dcell c (dsem 19)) 2 ∅ 0 ∗ reached ER (dcell c (dsem 19)) 2
      ∗ atPos ER (dcell c (dsem 20)) 1 ∅ 0 ∗ reached ER (dcell c (dsem 20)) 1
      ∗ atPos ER (dcell c (dsem 21)) 1 ∅ 0 ∗ reached ER (dcell c (dsem 21)) 1
      ∗ atPos ER (dcell c (dsem 22)) 1 ∅ 0 ∗ reached ER (dcell c (dsem 22)) 1
      ∗ atPos ER (dcell c (dsem 23)) 0 ∅ 0 ∗ reached ER (dcell c (dsem 23)) 0
      ∗ atPos ER (dcell c (dsem 24)) 1 ∅ 0 ∗ reached ER (dcell c (dsem 24)) 1
      ∗ atPos ER (dcell c (dsem 25)) 1 ∅ 0 ∗ reached ER (dcell c (dsem 25)) 1
      ∗ atPos ER (dcell c (dsem 26)) 1 ∅ 0 ∗ reached ER (dcell c (dsem 26)) 1
      ∗ atPos ER (dcell c (dsem 27)) 1 ∅ 0 ∗ reached ER (dcell c (dsem 27)) 1
      ∗ atPos ER (dcell c (dsem 28)) 0 ∅ 0 ∗ reached ER (dcell c (dsem 28)) 0
      ∗ atPos ER (dcell c (dsem 29)) 1 ∅ 0 ∗ reached ER (dcell c (dsem 29)) 1
      ∗ atPos ER (dcell c (dsem 30)) 1 ∅ 0 ∗ reached ER (dcell c (dsem 30)) 1
      ∗ atPos ER (dcell c (dsem 31)) 1 ∅ 0 ∗ reached ER (dcell c (dsem 31)) 1
      ∗ atPos ER (dcell c (dsem 32)) 1 ∅ 0 ∗ reached ER (dcell c (dsem 32)) 1
      ∗ atPos ER (dcell c (dsem 33)) 0 ∅ 0 ∗ reached ER (dcell c (dsem 33)) 0
      ∗ atPos ER (dcell c (dsem 34)) 1 ∅ 0 ∗ reached ER (dcell c (dsem 34)) 1
      ∗ atPos ER (dcell c (dsem 35)) 1 ∅ 0 ∗ reached ER (dcell c (dsem 35)) 1
      ∗ atPos ER (dcell c (dsem 36)) 1 ∅ 0 ∗ reached ER (dcell c (dsem 36)) 1
      ∗ atPos ER (dcell c (dsem 37)) 1 ∅ 0 ∗ reached ER (dcell c (dsem 37)) 1
      ∗ atPos ER (dcell c (dsem 38)) 0 ∅ 0 ∗ reached ER (dcell c (dsem 38)) 0
      ∗ atPos ER (dcell c (dsem 39)) 1 ∅ 0 ∗ reached ER (dcell c (dsem 39)) 1) := rfl
theorem posAt_22 (c : Dev nD) : posAt (F := F) c (roundsDone 22) =
    iprop(atPos ER (dcell c (dsem 8)) 1 ∅ 0 ∗ reached ER (dcell c (dsem 8)) 1
      ∗ atPos ER (dcell c (dsem 9)) 2 ∅ 0 ∗ reached ER (dcell c (dsem 9)) 2
      ∗ atPos ER (dcell c (dsem 10)) 2 ∅ 0 ∗ reached ER (dcell c (dsem 10)) 2
      ∗ atPos ER (dcell c (dsem 11)) 1 ∅ 0 ∗ reached ER (dcell c (dsem 11)) 1
      ∗ atPos ER (dcell c (dsem 12)) 2 ∅ 0 ∗ reached ER (dcell c (dsem 12)) 2
      ∗ atPos ER (dcell c (dsem 13)) 2 ∅ 0 ∗ reached ER (dcell c (dsem 13)) 2
      ∗ atPos ER (dcell c (dsem 14)) 1 ∅ 0 ∗ reached ER (dcell c (dsem 14)) 1
      ∗ atPos ER (dcell c (dsem 15)) 2 ∅ 0 ∗ reached ER (dcell c (dsem 15)) 2
      ∗ atPos ER (dcell c (dsem 16)) 2 ∅ 0 ∗ reached ER (dcell c (dsem 16)) 2
      ∗ atPos ER (dcell c (dsem 17)) 1 ∅ 0 ∗ reached ER (dcell c (dsem 17)) 1
      ∗ atPos ER (dcell c (dsem 18)) 2 ∅ 0 ∗ reached ER (dcell c (dsem 18)) 2
      ∗ atPos ER (dcell c (dsem 19)) 2 ∅ 0 ∗ reached ER (dcell c (dsem 19)) 2
      ∗ atPos ER (dcell c (dsem 20)) 2 ∅ 0 ∗ reached ER (dcell c (dsem 20)) 2
      ∗ atPos ER (dcell c (dsem 21)) 1 ∅ 0 ∗ reached ER (dcell c (dsem 21)) 1
      ∗ atPos ER (dcell c (dsem 22)) 1 ∅ 0 ∗ reached ER (dcell c (dsem 22)) 1
      ∗ atPos ER (dcell c (dsem 23)) 0 ∅ 0 ∗ reached ER (dcell c (dsem 23)) 0
      ∗ atPos ER (dcell c (dsem 24)) 2 ∅ 0 ∗ reached ER (dcell c (dsem 24)) 2
      ∗ atPos ER (dcell c (dsem 25)) 2 ∅ 0 ∗ reached ER (dcell c (dsem 25)) 2
      ∗ atPos ER (dcell c (dsem 26)) 1 ∅ 0 ∗ reached ER (dcell c (dsem 26)) 1
      ∗ atPos ER (dcell c (dsem 27)) 1 ∅ 0 ∗ reached ER (dcell c (dsem 27)) 1
      ∗ atPos ER (dcell c (dsem 28)) 0 ∅ 0 ∗ reached ER (dcell c (dsem 28)) 0
      ∗ atPos ER (dcell c (dsem 29)) 2 ∅ 0 ∗ reached ER (dcell c (dsem 29)) 2
      ∗ atPos ER (dcell c (dsem 30)) 2 ∅ 0 ∗ reached ER (dcell c (dsem 30)) 2
      ∗ atPos ER (dcell c (dsem 31)) 1 ∅ 0 ∗ reached ER (dcell c (dsem 31)) 1
      ∗ atPos ER (dcell c (dsem 32)) 1 ∅ 0 ∗ reached ER (dcell c (dsem 32)) 1
      ∗ atPos ER (dcell c (dsem 33)) 0 ∅ 0 ∗ reached ER (dcell c (dsem 33)) 0
      ∗ atPos ER (dcell c (dsem 34)) 2 ∅ 0 ∗ reached ER (dcell c (dsem 34)) 2
      ∗ atPos ER (dcell c (dsem 35)) 2 ∅ 0 ∗ reached ER (dcell c (dsem 35)) 2
      ∗ atPos ER (dcell c (dsem 36)) 1 ∅ 0 ∗ reached ER (dcell c (dsem 36)) 1
      ∗ atPos ER (dcell c (dsem 37)) 1 ∅ 0 ∗ reached ER (dcell c (dsem 37)) 1
      ∗ atPos ER (dcell c (dsem 38)) 0 ∅ 0 ∗ reached ER (dcell c (dsem 38)) 0
      ∗ atPos ER (dcell c (dsem 39)) 2 ∅ 0 ∗ reached ER (dcell c (dsem 39)) 2) := rfl
theorem posAt_24 (c : Dev nD) : posAt (F := F) c (roundsDone 24) =
    iprop(atPos ER (dcell c (dsem 8)) 1 ∅ 0 ∗ reached ER (dcell c (dsem 8)) 1
      ∗ atPos ER (dcell c (dsem 9)) 2 ∅ 0 ∗ reached ER (dcell c (dsem 9)) 2
      ∗ atPos ER (dcell c (dsem 10)) 2 ∅ 0 ∗ reached ER (dcell c (dsem 10)) 2
      ∗ atPos ER (dcell c (dsem 11)) 1 ∅ 0 ∗ reached ER (dcell c (dsem 11)) 1
      ∗ atPos ER (dcell c (dsem 12)) 2 ∅ 0 ∗ reached ER (dcell c (dsem 12)) 2
      ∗ atPos ER (dcell c (dsem 13)) 2 ∅ 0 ∗ reached ER (dcell c (dsem 13)) 2
      ∗ atPos ER (dcell c (dsem 14)) 1 ∅ 0 ∗ reached ER (dcell c (dsem 14)) 1
      ∗ atPos ER (dcell c (dsem 15)) 2 ∅ 0 ∗ reached ER (dcell c (dsem 15)) 2
      ∗ atPos ER (dcell c (dsem 16)) 2 ∅ 0 ∗ reached ER (dcell c (dsem 16)) 2
      ∗ atPos ER (dcell c (dsem 17)) 1 ∅ 0 ∗ reached ER (dcell c (dsem 17)) 1
      ∗ atPos ER (dcell c (dsem 18)) 2 ∅ 0 ∗ reached ER (dcell c (dsem 18)) 2
      ∗ atPos ER (dcell c (dsem 19)) 2 ∅ 0 ∗ reached ER (dcell c (dsem 19)) 2
      ∗ atPos ER (dcell c (dsem 20)) 2 ∅ 0 ∗ reached ER (dcell c (dsem 20)) 2
      ∗ atPos ER (dcell c (dsem 21)) 2 ∅ 0 ∗ reached ER (dcell c (dsem 21)) 2
      ∗ atPos ER (dcell c (dsem 22)) 1 ∅ 0 ∗ reached ER (dcell c (dsem 22)) 1
      ∗ atPos ER (dcell c (dsem 23)) 0 ∅ 0 ∗ reached ER (dcell c (dsem 23)) 0
      ∗ atPos ER (dcell c (dsem 24)) 2 ∅ 0 ∗ reached ER (dcell c (dsem 24)) 2
      ∗ atPos ER (dcell c (dsem 25)) 2 ∅ 0 ∗ reached ER (dcell c (dsem 25)) 2
      ∗ atPos ER (dcell c (dsem 26)) 2 ∅ 0 ∗ reached ER (dcell c (dsem 26)) 2
      ∗ atPos ER (dcell c (dsem 27)) 1 ∅ 0 ∗ reached ER (dcell c (dsem 27)) 1
      ∗ atPos ER (dcell c (dsem 28)) 0 ∅ 0 ∗ reached ER (dcell c (dsem 28)) 0
      ∗ atPos ER (dcell c (dsem 29)) 2 ∅ 0 ∗ reached ER (dcell c (dsem 29)) 2
      ∗ atPos ER (dcell c (dsem 30)) 2 ∅ 0 ∗ reached ER (dcell c (dsem 30)) 2
      ∗ atPos ER (dcell c (dsem 31)) 2 ∅ 0 ∗ reached ER (dcell c (dsem 31)) 2
      ∗ atPos ER (dcell c (dsem 32)) 1 ∅ 0 ∗ reached ER (dcell c (dsem 32)) 1
      ∗ atPos ER (dcell c (dsem 33)) 0 ∅ 0 ∗ reached ER (dcell c (dsem 33)) 0
      ∗ atPos ER (dcell c (dsem 34)) 2 ∅ 0 ∗ reached ER (dcell c (dsem 34)) 2
      ∗ atPos ER (dcell c (dsem 35)) 2 ∅ 0 ∗ reached ER (dcell c (dsem 35)) 2
      ∗ atPos ER (dcell c (dsem 36)) 2 ∅ 0 ∗ reached ER (dcell c (dsem 36)) 2
      ∗ atPos ER (dcell c (dsem 37)) 1 ∅ 0 ∗ reached ER (dcell c (dsem 37)) 1
      ∗ atPos ER (dcell c (dsem 38)) 0 ∅ 0 ∗ reached ER (dcell c (dsem 38)) 0
      ∗ atPos ER (dcell c (dsem 39)) 2 ∅ 0 ∗ reached ER (dcell c (dsem 39)) 2) := rfl
theorem posAt_26 (c : Dev nD) : posAt (F := F) c (roundsDone 26) =
    iprop(atPos ER (dcell c (dsem 8)) 1 ∅ 0 ∗ reached ER (dcell c (dsem 8)) 1
      ∗ atPos ER (dcell c (dsem 9)) 2 ∅ 0 ∗ reached ER (dcell c (dsem 9)) 2
      ∗ atPos ER (dcell c (dsem 10)) 2 ∅ 0 ∗ reached ER (dcell c (dsem 10)) 2
      ∗ atPos ER (dcell c (dsem 11)) 1 ∅ 0 ∗ reached ER (dcell c (dsem 11)) 1
      ∗ atPos ER (dcell c (dsem 12)) 2 ∅ 0 ∗ reached ER (dcell c (dsem 12)) 2
      ∗ atPos ER (dcell c (dsem 13)) 2 ∅ 0 ∗ reached ER (dcell c (dsem 13)) 2
      ∗ atPos ER (dcell c (dsem 14)) 1 ∅ 0 ∗ reached ER (dcell c (dsem 14)) 1
      ∗ atPos ER (dcell c (dsem 15)) 2 ∅ 0 ∗ reached ER (dcell c (dsem 15)) 2
      ∗ atPos ER (dcell c (dsem 16)) 2 ∅ 0 ∗ reached ER (dcell c (dsem 16)) 2
      ∗ atPos ER (dcell c (dsem 17)) 1 ∅ 0 ∗ reached ER (dcell c (dsem 17)) 1
      ∗ atPos ER (dcell c (dsem 18)) 2 ∅ 0 ∗ reached ER (dcell c (dsem 18)) 2
      ∗ atPos ER (dcell c (dsem 19)) 2 ∅ 0 ∗ reached ER (dcell c (dsem 19)) 2
      ∗ atPos ER (dcell c (dsem 20)) 2 ∅ 0 ∗ reached ER (dcell c (dsem 20)) 2
      ∗ atPos ER (dcell c (dsem 21)) 2 ∅ 0 ∗ reached ER (dcell c (dsem 21)) 2
      ∗ atPos ER (dcell c (dsem 22)) 1 ∅ 0 ∗ reached ER (dcell c (dsem 22)) 1
      ∗ atPos ER (dcell c (dsem 23)) 1 ∅ 0 ∗ reached ER (dcell c (dsem 23)) 1
      ∗ atPos ER (dcell c (dsem 24)) 2 ∅ 0 ∗ reached ER (dcell c (dsem 24)) 2
      ∗ atPos ER (dcell c (dsem 25)) 2 ∅ 0 ∗ reached ER (dcell c (dsem 25)) 2
      ∗ atPos ER (dcell c (dsem 26)) 2 ∅ 0 ∗ reached ER (dcell c (dsem 26)) 2
      ∗ atPos ER (dcell c (dsem 27)) 1 ∅ 0 ∗ reached ER (dcell c (dsem 27)) 1
      ∗ atPos ER (dcell c (dsem 28)) 1 ∅ 0 ∗ reached ER (dcell c (dsem 28)) 1
      ∗ atPos ER (dcell c (dsem 29)) 2 ∅ 0 ∗ reached ER (dcell c (dsem 29)) 2
      ∗ atPos ER (dcell c (dsem 30)) 2 ∅ 0 ∗ reached ER (dcell c (dsem 30)) 2
      ∗ atPos ER (dcell c (dsem 31)) 2 ∅ 0 ∗ reached ER (dcell c (dsem 31)) 2
      ∗ atPos ER (dcell c (dsem 32)) 1 ∅ 0 ∗ reached ER (dcell c (dsem 32)) 1
      ∗ atPos ER (dcell c (dsem 33)) 1 ∅ 0 ∗ reached ER (dcell c (dsem 33)) 1
      ∗ atPos ER (dcell c (dsem 34)) 2 ∅ 0 ∗ reached ER (dcell c (dsem 34)) 2
      ∗ atPos ER (dcell c (dsem 35)) 2 ∅ 0 ∗ reached ER (dcell c (dsem 35)) 2
      ∗ atPos ER (dcell c (dsem 36)) 2 ∅ 0 ∗ reached ER (dcell c (dsem 36)) 2
      ∗ atPos ER (dcell c (dsem 37)) 1 ∅ 0 ∗ reached ER (dcell c (dsem 37)) 1
      ∗ atPos ER (dcell c (dsem 38)) 1 ∅ 0 ∗ reached ER (dcell c (dsem 38)) 1
      ∗ atPos ER (dcell c (dsem 39)) 2 ∅ 0 ∗ reached ER (dcell c (dsem 39)) 2) := rfl
theorem posAt_28 (c : Dev nD) : posAt (F := F) c (roundsDone 28) =
    iprop(atPos ER (dcell c (dsem 8)) 1 ∅ 0 ∗ reached ER (dcell c (dsem 8)) 1
      ∗ atPos ER (dcell c (dsem 9)) 3 ∅ 0 ∗ reached ER (dcell c (dsem 9)) 3
      ∗ atPos ER (dcell c (dsem 10)) 2 ∅ 0 ∗ reached ER (dcell c (dsem 10)) 2
      ∗ atPos ER (dcell c (dsem 11)) 1 ∅ 0 ∗ reached ER (dcell c (dsem 11)) 1
      ∗ atPos ER (dcell c (dsem 12)) 3 ∅ 0 ∗ reached ER (dcell c (dsem 12)) 3
      ∗ atPos ER (dcell c (dsem 13)) 2 ∅ 0 ∗ reached ER (dcell c (dsem 13)) 2
      ∗ atPos ER (dcell c (dsem 14)) 1 ∅ 0 ∗ reached ER (dcell c (dsem 14)) 1
      ∗ atPos ER (dcell c (dsem 15)) 3 ∅ 0 ∗ reached ER (dcell c (dsem 15)) 3
      ∗ atPos ER (dcell c (dsem 16)) 2 ∅ 0 ∗ reached ER (dcell c (dsem 16)) 2
      ∗ atPos ER (dcell c (dsem 17)) 1 ∅ 0 ∗ reached ER (dcell c (dsem 17)) 1
      ∗ atPos ER (dcell c (dsem 18)) 3 ∅ 0 ∗ reached ER (dcell c (dsem 18)) 3
      ∗ atPos ER (dcell c (dsem 19)) 2 ∅ 0 ∗ reached ER (dcell c (dsem 19)) 2
      ∗ atPos ER (dcell c (dsem 20)) 2 ∅ 0 ∗ reached ER (dcell c (dsem 20)) 2
      ∗ atPos ER (dcell c (dsem 21)) 2 ∅ 0 ∗ reached ER (dcell c (dsem 21)) 2
      ∗ atPos ER (dcell c (dsem 22)) 1 ∅ 0 ∗ reached ER (dcell c (dsem 22)) 1
      ∗ atPos ER (dcell c (dsem 23)) 1 ∅ 0 ∗ reached ER (dcell c (dsem 23)) 1
      ∗ atPos ER (dcell c (dsem 24)) 2 ∅ 0 ∗ reached ER (dcell c (dsem 24)) 2
      ∗ atPos ER (dcell c (dsem 25)) 2 ∅ 0 ∗ reached ER (dcell c (dsem 25)) 2
      ∗ atPos ER (dcell c (dsem 26)) 2 ∅ 0 ∗ reached ER (dcell c (dsem 26)) 2
      ∗ atPos ER (dcell c (dsem 27)) 1 ∅ 0 ∗ reached ER (dcell c (dsem 27)) 1
      ∗ atPos ER (dcell c (dsem 28)) 1 ∅ 0 ∗ reached ER (dcell c (dsem 28)) 1
      ∗ atPos ER (dcell c (dsem 29)) 2 ∅ 0 ∗ reached ER (dcell c (dsem 29)) 2
      ∗ atPos ER (dcell c (dsem 30)) 2 ∅ 0 ∗ reached ER (dcell c (dsem 30)) 2
      ∗ atPos ER (dcell c (dsem 31)) 2 ∅ 0 ∗ reached ER (dcell c (dsem 31)) 2
      ∗ atPos ER (dcell c (dsem 32)) 1 ∅ 0 ∗ reached ER (dcell c (dsem 32)) 1
      ∗ atPos ER (dcell c (dsem 33)) 1 ∅ 0 ∗ reached ER (dcell c (dsem 33)) 1
      ∗ atPos ER (dcell c (dsem 34)) 2 ∅ 0 ∗ reached ER (dcell c (dsem 34)) 2
      ∗ atPos ER (dcell c (dsem 35)) 2 ∅ 0 ∗ reached ER (dcell c (dsem 35)) 2
      ∗ atPos ER (dcell c (dsem 36)) 2 ∅ 0 ∗ reached ER (dcell c (dsem 36)) 2
      ∗ atPos ER (dcell c (dsem 37)) 1 ∅ 0 ∗ reached ER (dcell c (dsem 37)) 1
      ∗ atPos ER (dcell c (dsem 38)) 1 ∅ 0 ∗ reached ER (dcell c (dsem 38)) 1
      ∗ atPos ER (dcell c (dsem 39)) 2 ∅ 0 ∗ reached ER (dcell c (dsem 39)) 2) := rfl
theorem posAt_30 (c : Dev nD) : posAt (F := F) c (roundsDone 30) =
    iprop(atPos ER (dcell c (dsem 8)) 1 ∅ 0 ∗ reached ER (dcell c (dsem 8)) 1
      ∗ atPos ER (dcell c (dsem 9)) 3 ∅ 0 ∗ reached ER (dcell c (dsem 9)) 3
      ∗ atPos ER (dcell c (dsem 10)) 3 ∅ 0 ∗ reached ER (dcell c (dsem 10)) 3
      ∗ atPos ER (dcell c (dsem 11)) 1 ∅ 0 ∗ reached ER (dcell c (dsem 11)) 1
      ∗ atPos ER (dcell c (dsem 12)) 3 ∅ 0 ∗ reached ER (dcell c (dsem 12)) 3
      ∗ atPos ER (dcell c (dsem 13)) 3 ∅ 0 ∗ reached ER (dcell c (dsem 13)) 3
      ∗ atPos ER (dcell c (dsem 14)) 1 ∅ 0 ∗ reached ER (dcell c (dsem 14)) 1
      ∗ atPos ER (dcell c (dsem 15)) 3 ∅ 0 ∗ reached ER (dcell c (dsem 15)) 3
      ∗ atPos ER (dcell c (dsem 16)) 3 ∅ 0 ∗ reached ER (dcell c (dsem 16)) 3
      ∗ atPos ER (dcell c (dsem 17)) 1 ∅ 0 ∗ reached ER (dcell c (dsem 17)) 1
      ∗ atPos ER (dcell c (dsem 18)) 3 ∅ 0 ∗ reached ER (dcell c (dsem 18)) 3
      ∗ atPos ER (dcell c (dsem 19)) 3 ∅ 0 ∗ reached ER (dcell c (dsem 19)) 3
      ∗ atPos ER (dcell c (dsem 20)) 2 ∅ 0 ∗ reached ER (dcell c (dsem 20)) 2
      ∗ atPos ER (dcell c (dsem 21)) 2 ∅ 0 ∗ reached ER (dcell c (dsem 21)) 2
      ∗ atPos ER (dcell c (dsem 22)) 1 ∅ 0 ∗ reached ER (dcell c (dsem 22)) 1
      ∗ atPos ER (dcell c (dsem 23)) 1 ∅ 0 ∗ reached ER (dcell c (dsem 23)) 1
      ∗ atPos ER (dcell c (dsem 24)) 2 ∅ 0 ∗ reached ER (dcell c (dsem 24)) 2
      ∗ atPos ER (dcell c (dsem 25)) 2 ∅ 0 ∗ reached ER (dcell c (dsem 25)) 2
      ∗ atPos ER (dcell c (dsem 26)) 2 ∅ 0 ∗ reached ER (dcell c (dsem 26)) 2
      ∗ atPos ER (dcell c (dsem 27)) 1 ∅ 0 ∗ reached ER (dcell c (dsem 27)) 1
      ∗ atPos ER (dcell c (dsem 28)) 1 ∅ 0 ∗ reached ER (dcell c (dsem 28)) 1
      ∗ atPos ER (dcell c (dsem 29)) 2 ∅ 0 ∗ reached ER (dcell c (dsem 29)) 2
      ∗ atPos ER (dcell c (dsem 30)) 2 ∅ 0 ∗ reached ER (dcell c (dsem 30)) 2
      ∗ atPos ER (dcell c (dsem 31)) 2 ∅ 0 ∗ reached ER (dcell c (dsem 31)) 2
      ∗ atPos ER (dcell c (dsem 32)) 1 ∅ 0 ∗ reached ER (dcell c (dsem 32)) 1
      ∗ atPos ER (dcell c (dsem 33)) 1 ∅ 0 ∗ reached ER (dcell c (dsem 33)) 1
      ∗ atPos ER (dcell c (dsem 34)) 2 ∅ 0 ∗ reached ER (dcell c (dsem 34)) 2
      ∗ atPos ER (dcell c (dsem 35)) 2 ∅ 0 ∗ reached ER (dcell c (dsem 35)) 2
      ∗ atPos ER (dcell c (dsem 36)) 2 ∅ 0 ∗ reached ER (dcell c (dsem 36)) 2
      ∗ atPos ER (dcell c (dsem 37)) 1 ∅ 0 ∗ reached ER (dcell c (dsem 37)) 1
      ∗ atPos ER (dcell c (dsem 38)) 1 ∅ 0 ∗ reached ER (dcell c (dsem 38)) 1
      ∗ atPos ER (dcell c (dsem 39)) 2 ∅ 0 ∗ reached ER (dcell c (dsem 39)) 2) := rfl
theorem posAt_34 (c : Dev nD) : posAt (F := F) c (roundsDone 34) =
    iprop(atPos ER (dcell c (dsem 8)) 1 ∅ 0 ∗ reached ER (dcell c (dsem 8)) 1
      ∗ atPos ER (dcell c (dsem 9)) 3 ∅ 0 ∗ reached ER (dcell c (dsem 9)) 3
      ∗ atPos ER (dcell c (dsem 10)) 3 ∅ 0 ∗ reached ER (dcell c (dsem 10)) 3
      ∗ atPos ER (dcell c (dsem 11)) 1 ∅ 0 ∗ reached ER (dcell c (dsem 11)) 1
      ∗ atPos ER (dcell c (dsem 12)) 3 ∅ 0 ∗ reached ER (dcell c (dsem 12)) 3
      ∗ atPos ER (dcell c (dsem 13)) 3 ∅ 0 ∗ reached ER (dcell c (dsem 13)) 3
      ∗ atPos ER (dcell c (dsem 14)) 1 ∅ 0 ∗ reached ER (dcell c (dsem 14)) 1
      ∗ atPos ER (dcell c (dsem 15)) 3 ∅ 0 ∗ reached ER (dcell c (dsem 15)) 3
      ∗ atPos ER (dcell c (dsem 16)) 3 ∅ 0 ∗ reached ER (dcell c (dsem 16)) 3
      ∗ atPos ER (dcell c (dsem 17)) 1 ∅ 0 ∗ reached ER (dcell c (dsem 17)) 1
      ∗ atPos ER (dcell c (dsem 18)) 3 ∅ 0 ∗ reached ER (dcell c (dsem 18)) 3
      ∗ atPos ER (dcell c (dsem 19)) 3 ∅ 0 ∗ reached ER (dcell c (dsem 19)) 3
      ∗ atPos ER (dcell c (dsem 20)) 3 ∅ 0 ∗ reached ER (dcell c (dsem 20)) 3
      ∗ atPos ER (dcell c (dsem 21)) 2 ∅ 0 ∗ reached ER (dcell c (dsem 21)) 2
      ∗ atPos ER (dcell c (dsem 22)) 1 ∅ 0 ∗ reached ER (dcell c (dsem 22)) 1
      ∗ atPos ER (dcell c (dsem 23)) 1 ∅ 0 ∗ reached ER (dcell c (dsem 23)) 1
      ∗ atPos ER (dcell c (dsem 24)) 3 ∅ 0 ∗ reached ER (dcell c (dsem 24)) 3
      ∗ atPos ER (dcell c (dsem 25)) 3 ∅ 0 ∗ reached ER (dcell c (dsem 25)) 3
      ∗ atPos ER (dcell c (dsem 26)) 2 ∅ 0 ∗ reached ER (dcell c (dsem 26)) 2
      ∗ atPos ER (dcell c (dsem 27)) 1 ∅ 0 ∗ reached ER (dcell c (dsem 27)) 1
      ∗ atPos ER (dcell c (dsem 28)) 1 ∅ 0 ∗ reached ER (dcell c (dsem 28)) 1
      ∗ atPos ER (dcell c (dsem 29)) 3 ∅ 0 ∗ reached ER (dcell c (dsem 29)) 3
      ∗ atPos ER (dcell c (dsem 30)) 3 ∅ 0 ∗ reached ER (dcell c (dsem 30)) 3
      ∗ atPos ER (dcell c (dsem 31)) 2 ∅ 0 ∗ reached ER (dcell c (dsem 31)) 2
      ∗ atPos ER (dcell c (dsem 32)) 1 ∅ 0 ∗ reached ER (dcell c (dsem 32)) 1
      ∗ atPos ER (dcell c (dsem 33)) 1 ∅ 0 ∗ reached ER (dcell c (dsem 33)) 1
      ∗ atPos ER (dcell c (dsem 34)) 3 ∅ 0 ∗ reached ER (dcell c (dsem 34)) 3
      ∗ atPos ER (dcell c (dsem 35)) 3 ∅ 0 ∗ reached ER (dcell c (dsem 35)) 3
      ∗ atPos ER (dcell c (dsem 36)) 2 ∅ 0 ∗ reached ER (dcell c (dsem 36)) 2
      ∗ atPos ER (dcell c (dsem 37)) 1 ∅ 0 ∗ reached ER (dcell c (dsem 37)) 1
      ∗ atPos ER (dcell c (dsem 38)) 1 ∅ 0 ∗ reached ER (dcell c (dsem 38)) 1
      ∗ atPos ER (dcell c (dsem 39)) 3 ∅ 0 ∗ reached ER (dcell c (dsem 39)) 3) := rfl
theorem posAt_36 (c : Dev nD) : posAt (F := F) c (roundsDone 36) =
    iprop(atPos ER (dcell c (dsem 8)) 1 ∅ 0 ∗ reached ER (dcell c (dsem 8)) 1
      ∗ atPos ER (dcell c (dsem 9)) 3 ∅ 0 ∗ reached ER (dcell c (dsem 9)) 3
      ∗ atPos ER (dcell c (dsem 10)) 3 ∅ 0 ∗ reached ER (dcell c (dsem 10)) 3
      ∗ atPos ER (dcell c (dsem 11)) 1 ∅ 0 ∗ reached ER (dcell c (dsem 11)) 1
      ∗ atPos ER (dcell c (dsem 12)) 3 ∅ 0 ∗ reached ER (dcell c (dsem 12)) 3
      ∗ atPos ER (dcell c (dsem 13)) 3 ∅ 0 ∗ reached ER (dcell c (dsem 13)) 3
      ∗ atPos ER (dcell c (dsem 14)) 1 ∅ 0 ∗ reached ER (dcell c (dsem 14)) 1
      ∗ atPos ER (dcell c (dsem 15)) 3 ∅ 0 ∗ reached ER (dcell c (dsem 15)) 3
      ∗ atPos ER (dcell c (dsem 16)) 3 ∅ 0 ∗ reached ER (dcell c (dsem 16)) 3
      ∗ atPos ER (dcell c (dsem 17)) 1 ∅ 0 ∗ reached ER (dcell c (dsem 17)) 1
      ∗ atPos ER (dcell c (dsem 18)) 3 ∅ 0 ∗ reached ER (dcell c (dsem 18)) 3
      ∗ atPos ER (dcell c (dsem 19)) 3 ∅ 0 ∗ reached ER (dcell c (dsem 19)) 3
      ∗ atPos ER (dcell c (dsem 20)) 3 ∅ 0 ∗ reached ER (dcell c (dsem 20)) 3
      ∗ atPos ER (dcell c (dsem 21)) 3 ∅ 0 ∗ reached ER (dcell c (dsem 21)) 3
      ∗ atPos ER (dcell c (dsem 22)) 1 ∅ 0 ∗ reached ER (dcell c (dsem 22)) 1
      ∗ atPos ER (dcell c (dsem 23)) 1 ∅ 0 ∗ reached ER (dcell c (dsem 23)) 1
      ∗ atPos ER (dcell c (dsem 24)) 3 ∅ 0 ∗ reached ER (dcell c (dsem 24)) 3
      ∗ atPos ER (dcell c (dsem 25)) 3 ∅ 0 ∗ reached ER (dcell c (dsem 25)) 3
      ∗ atPos ER (dcell c (dsem 26)) 3 ∅ 0 ∗ reached ER (dcell c (dsem 26)) 3
      ∗ atPos ER (dcell c (dsem 27)) 1 ∅ 0 ∗ reached ER (dcell c (dsem 27)) 1
      ∗ atPos ER (dcell c (dsem 28)) 1 ∅ 0 ∗ reached ER (dcell c (dsem 28)) 1
      ∗ atPos ER (dcell c (dsem 29)) 3 ∅ 0 ∗ reached ER (dcell c (dsem 29)) 3
      ∗ atPos ER (dcell c (dsem 30)) 3 ∅ 0 ∗ reached ER (dcell c (dsem 30)) 3
      ∗ atPos ER (dcell c (dsem 31)) 3 ∅ 0 ∗ reached ER (dcell c (dsem 31)) 3
      ∗ atPos ER (dcell c (dsem 32)) 1 ∅ 0 ∗ reached ER (dcell c (dsem 32)) 1
      ∗ atPos ER (dcell c (dsem 33)) 1 ∅ 0 ∗ reached ER (dcell c (dsem 33)) 1
      ∗ atPos ER (dcell c (dsem 34)) 3 ∅ 0 ∗ reached ER (dcell c (dsem 34)) 3
      ∗ atPos ER (dcell c (dsem 35)) 3 ∅ 0 ∗ reached ER (dcell c (dsem 35)) 3
      ∗ atPos ER (dcell c (dsem 36)) 3 ∅ 0 ∗ reached ER (dcell c (dsem 36)) 3
      ∗ atPos ER (dcell c (dsem 37)) 1 ∅ 0 ∗ reached ER (dcell c (dsem 37)) 1
      ∗ atPos ER (dcell c (dsem 38)) 1 ∅ 0 ∗ reached ER (dcell c (dsem 38)) 1
      ∗ atPos ER (dcell c (dsem 39)) 3 ∅ 0 ∗ reached ER (dcell c (dsem 39)) 3) := rfl
theorem posAt_38 (c : Dev nD) : posAt (F := F) c (roundsDone 38) =
    iprop(atPos ER (dcell c (dsem 8)) 1 ∅ 0 ∗ reached ER (dcell c (dsem 8)) 1
      ∗ atPos ER (dcell c (dsem 9)) 3 ∅ 0 ∗ reached ER (dcell c (dsem 9)) 3
      ∗ atPos ER (dcell c (dsem 10)) 3 ∅ 0 ∗ reached ER (dcell c (dsem 10)) 3
      ∗ atPos ER (dcell c (dsem 11)) 1 ∅ 0 ∗ reached ER (dcell c (dsem 11)) 1
      ∗ atPos ER (dcell c (dsem 12)) 3 ∅ 0 ∗ reached ER (dcell c (dsem 12)) 3
      ∗ atPos ER (dcell c (dsem 13)) 3 ∅ 0 ∗ reached ER (dcell c (dsem 13)) 3
      ∗ atPos ER (dcell c (dsem 14)) 1 ∅ 0 ∗ reached ER (dcell c (dsem 14)) 1
      ∗ atPos ER (dcell c (dsem 15)) 3 ∅ 0 ∗ reached ER (dcell c (dsem 15)) 3
      ∗ atPos ER (dcell c (dsem 16)) 3 ∅ 0 ∗ reached ER (dcell c (dsem 16)) 3
      ∗ atPos ER (dcell c (dsem 17)) 1 ∅ 0 ∗ reached ER (dcell c (dsem 17)) 1
      ∗ atPos ER (dcell c (dsem 18)) 3 ∅ 0 ∗ reached ER (dcell c (dsem 18)) 3
      ∗ atPos ER (dcell c (dsem 19)) 3 ∅ 0 ∗ reached ER (dcell c (dsem 19)) 3
      ∗ atPos ER (dcell c (dsem 20)) 3 ∅ 0 ∗ reached ER (dcell c (dsem 20)) 3
      ∗ atPos ER (dcell c (dsem 21)) 3 ∅ 0 ∗ reached ER (dcell c (dsem 21)) 3
      ∗ atPos ER (dcell c (dsem 22)) 2 ∅ 0 ∗ reached ER (dcell c (dsem 22)) 2
      ∗ atPos ER (dcell c (dsem 23)) 1 ∅ 0 ∗ reached ER (dcell c (dsem 23)) 1
      ∗ atPos ER (dcell c (dsem 24)) 3 ∅ 0 ∗ reached ER (dcell c (dsem 24)) 3
      ∗ atPos ER (dcell c (dsem 25)) 3 ∅ 0 ∗ reached ER (dcell c (dsem 25)) 3
      ∗ atPos ER (dcell c (dsem 26)) 3 ∅ 0 ∗ reached ER (dcell c (dsem 26)) 3
      ∗ atPos ER (dcell c (dsem 27)) 2 ∅ 0 ∗ reached ER (dcell c (dsem 27)) 2
      ∗ atPos ER (dcell c (dsem 28)) 1 ∅ 0 ∗ reached ER (dcell c (dsem 28)) 1
      ∗ atPos ER (dcell c (dsem 29)) 3 ∅ 0 ∗ reached ER (dcell c (dsem 29)) 3
      ∗ atPos ER (dcell c (dsem 30)) 3 ∅ 0 ∗ reached ER (dcell c (dsem 30)) 3
      ∗ atPos ER (dcell c (dsem 31)) 3 ∅ 0 ∗ reached ER (dcell c (dsem 31)) 3
      ∗ atPos ER (dcell c (dsem 32)) 2 ∅ 0 ∗ reached ER (dcell c (dsem 32)) 2
      ∗ atPos ER (dcell c (dsem 33)) 1 ∅ 0 ∗ reached ER (dcell c (dsem 33)) 1
      ∗ atPos ER (dcell c (dsem 34)) 3 ∅ 0 ∗ reached ER (dcell c (dsem 34)) 3
      ∗ atPos ER (dcell c (dsem 35)) 3 ∅ 0 ∗ reached ER (dcell c (dsem 35)) 3
      ∗ atPos ER (dcell c (dsem 36)) 3 ∅ 0 ∗ reached ER (dcell c (dsem 36)) 3
      ∗ atPos ER (dcell c (dsem 37)) 2 ∅ 0 ∗ reached ER (dcell c (dsem 37)) 2
      ∗ atPos ER (dcell c (dsem 38)) 1 ∅ 0 ∗ reached ER (dcell c (dsem 38)) 1
      ∗ atPos ER (dcell c (dsem 39)) 3 ∅ 0 ∗ reached ER (dcell c (dsem 39)) 3) := rfl

end Cert.Kernel.Hand

end
-- ==== Proof.Kernel.QuietLemmas.lean ====
import proofs.«900979_g7700000000000980_dist_mlpseq_tp1d_bs_bs_b256_d256_h512_v7x_i8_bf16_1_alg».proof.Proof.Kernel.Quiet
import proofs.«900979_g7700000000000980_dist_mlpseq_tp1d_bs_bs_b256_d256_h512_v7x_i8_bf16_1_alg».proof.Proof.Kernel.Slices
import proofs.«900979_g7700000000000980_dist_mlpseq_tp1d_bs_bs_b256_d256_h512_v7x_i8_bf16_1_alg».proof.Proof.Kernel.QuietTables

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # Opening and closing the state of a device at the quiet points

   Each state is a separating conjunction of named pieces; the equations below unfold one level at a time, with the
   case distinctions on the layer resolved at the layers that occur. A buffer held without some of its elements
   (`heldBut`) gives up a further slice disjoint from those already away and takes one back: that is the whole
   algebra of the slots handed between partners. -/

/-! ## The pieces -/

theorem ownAt_eq (p : Dev nD) {s : Shape} {e : EltTy} (M : Memref sig .tc .vmem s e) :
    ownAt (F := F) p M = iprop(∃ f : Buf (Elt F) (M.view.loc (p : Thread nD τ)),
      (M.view.loc (p : Thread nD τ)) ↦[M.view.set]{fullShare} f) := rfl

theorem grant_eq (p : Dev nD) {s : Shape} {e : EltTy} (M : Memref sig .tc .vmem s e) (i : DmaSem sig) (r : ℕ) :
    grant (F := F) p M i r = iprop(ownAt p M ∗ reached ER (dcell p i) r) := rfl

/-- The slot of the last reduce step, layer by layer. -/
theorem grantLast_0 (p : Dev nD) (s : Fin 2) : grantLast (F := F) p s 0 = grant p (R3 s) (rsR s 2) 0 := rfl
theorem grantLast_1 (p : Dev nD) (s : Fin 2) : grantLast (F := F) p s 1 = grant p (R4 s) (rsR s 3) 0 := rfl
theorem grantLast_2 (p : Dev nD) (s : Fin 2) : grantLast (F := F) p s 2 = grant p (R3h s) (rsR s 2) 1 := rfl

theorem localBufs_eq (c : Dev nD) :
    localBufs (F := F) c = iprop((∃ f, ptw (F := F) c cc0_stg0_0 f) ∗ (∃ f, ptw (F := F) c cc0_stg1_0 f) ∗ (∃ f, ptw (F := F) c cc0_stg2_0 f) ∗ (∃ f, ptw (F := F) c cc0_stg3_0 f) ∗ (∃ f, ptw (F := F) c cc0_stg4_0 f) ∗ (∃ f, ptw (F := F) c cc0_stg5_0 f) ∗ (∃ f, ptw (F := F) c cc0_stg6_0 f) ∗ (∃ f, ptw (F := F) c cc0_stg7_0 f) ∗ (∃ f, ptw (F := F) c cc0_scratch2 f) ∗ (∃ f, ptw (F := F) c cc0_scratch3 f) ∗ (∃ f, ptw (F := F) c cc0_scratch4 f) ∗ (∃ f, ptw (F := F) c cc0_scratch5 f) ∗ (∃ f, ptw (F := F) c cc0_scratch8 f) ∗ (∃ f, ptw (F := F) c cc0_scratch9 f)) := rfl

theorem posAt_eq (c : Dev nD) (R : ℕ → ℕ) :
    posAt (F := F) c R = iprop(atPos ER (dcell c (dsem 8)) (R 8) ∅ 0 ∗ reached ER (dcell c (dsem 8)) (R 8)
      ∗ atPos ER (dcell c (dsem 9)) (R 9) ∅ 0 ∗ reached ER (dcell c (dsem 9)) (R 9)
      ∗ atPos ER (dcell c (dsem 10)) (R 10) ∅ 0 ∗ reached ER (dcell c (dsem 10)) (R 10)
      ∗ atPos ER (dcell c (dsem 11)) (R 11) ∅ 0 ∗ reached ER (dcell c (dsem 11)) (R 11)
      ∗ atPos ER (dcell c (dsem 12)) (R 12) ∅ 0 ∗ reached ER (dcell c (dsem 12)) (R 12)
      ∗ atPos ER (dcell c (dsem 13)) (R 13) ∅ 0 ∗ reached ER (dcell c (dsem 13)) (R 13)
      ∗ atPos ER (dcell c (dsem 14)) (R 14) ∅ 0 ∗ reached ER (dcell c (dsem 14)) (R 14)
      ∗ atPos ER (dcell c (dsem 15)) (R 15) ∅ 0 ∗ reached ER (dcell c (dsem 15)) (R 15)
      ∗ atPos ER (dcell c (dsem 16)) (R 16) ∅ 0 ∗ reached ER (dcell c (dsem 16)) (R 16)
      ∗ atPos ER (dcell c (dsem 17)) (R 17) ∅ 0 ∗ reached ER (dcell c (dsem 17)) (R 17)
      ∗ atPos ER (dcell c (dsem 18)) (R 18) ∅ 0 ∗ reached ER (dcell c (dsem 18)) (R 18)
      ∗ atPos ER (dcell c (dsem 19)) (R 19) ∅ 0 ∗ reached ER (dcell c (dsem 19)) (R 19)
      ∗ atPos ER (dcell c (dsem 20)) (R 20) ∅ 0 ∗ reached ER (dcell c (dsem 20)) (R 20)
      ∗ atPos ER (dcell c (dsem 21)) (R 21) ∅ 0 ∗ reached ER (dcell c (dsem 21)) (R 21)
      ∗ atPos ER (dcell c (dsem 22)) (R 22) ∅ 0 ∗ reached ER (dcell c (dsem 22)) (R 22)
      ∗ atPos ER (dcell c (dsem 23)) (R 23) ∅ 0 ∗ reached ER (dcell c (dsem 23)) (R 23)
      ∗ atPos ER (dcell c (dsem 24)) (R 24) ∅ 0 ∗ reached ER (dcell c (dsem 24)) (R 24)
      ∗ atPos ER (dcell c (dsem 25)) (R 25) ∅ 0 ∗ reached ER (dcell c (dsem 25)) (R 25)
      ∗ atPos ER (dcell c (dsem 26)) (R 26) ∅ 0 ∗ reached ER (dcell c (dsem 26)) (R 26)
      ∗ atPos ER (dcell c (dsem 27)) (R 27) ∅ 0 ∗ reached ER (dcell c (dsem 27)) (R 27)
      ∗ atPos ER (dcell c (dsem 28)) (R 28) ∅ 0 ∗ reached ER (dcell c (dsem 28)) (R 28)
      ∗ atPos ER (dcell c (dsem 29)) (R 29) ∅ 0 ∗ reached ER (dcell c (dsem 29)) (R 29)
      ∗ atPos ER (dcell c (dsem 30)) (R 30) ∅ 0 ∗ reached ER (dcell c (dsem 30)) (R 30)
      ∗ atPos ER (dcell c (dsem 31)) (R 31) ∅ 0 ∗ reached ER (dcell c (dsem 31)) (R 31)
      ∗ atPos ER (dcell c (dsem 32)) (R 32) ∅ 0 ∗ reached ER (dcell c (dsem 32)) (R 32)
      ∗ atPos ER (dcell c (dsem 33)) (R 33) ∅ 0 ∗ reached ER (dcell c (dsem 33)) (R 33)
      ∗ atPos ER (dcell c (dsem 34)) (R 34) ∅ 0 ∗ reached ER (dcell c (dsem 34)) (R 34)
      ∗ atPos ER (dcell c (dsem 35)) (R 35) ∅ 0 ∗ reached ER (dcell c (dsem 35)) (R 35)
      ∗ atPos ER (dcell c (dsem 36)) (R 36) ∅ 0 ∗ reached ER (dcell c (dsem 36)) (R 36)
      ∗ atPos ER (dcell c (dsem 37)) (R 37) ∅ 0 ∗ reached ER (dcell c (dsem 37)) (R 37)
      ∗ atPos ER (dcell c (dsem 38)) (R 38) ∅ 0 ∗ reached ER (dcell c (dsem 38)) (R 38)
      ∗ atPos ER (dcell c (dsem 39)) (R 39) ∅ 0 ∗ reached ER (dcell c (dsem 39)) (R 39)) := rfl

/-! ## The copies' tokens and credits, one copy at a time -/

theorem toksCopies_nil (c : Dev nD) (k : ℕ) : toksCopies (F := F) c k [] = iprop(emp) := rfl
theorem toksCopies_cons (c : Dev nD) (k : ℕ) (e : Fin 8 × ℕ × ℕ) (es : List (Fin 8 × ℕ × ℕ)) :
    toksCopies (F := F) c k (e :: es) =
      iprop((dutyTok ER (dcell c (dsem (sendOf e.2.1))) e.2.2 (0 : DD) ∗ dutyTok ER (dcell (xr e.1 c) (dsem e.2.1)) e.2.2 (0 : DD))
        ∗ toksCopies c (k + 1) es) := rfl

theorem credsCopies_nil (c : Dev nD) (k : ℕ) : credsCopies (F := F) c k [] = iprop(emp) := rfl
theorem credsCopies_cons (c : Dev nD) (k : ℕ) (e : Fin 8 × ℕ × ℕ) (es : List (Fin 8 × ℕ × ℕ)) :
    credsCopies (F := F) c k (e :: es) =
      iprop(cred (tallyAt (dcell c (dsem e.2.1)) (k + 1) (amtDma e.2.1 e.2.2)) ∗ credsCopies c (k + 1) es) := rfl

/-- Copy `k` off the list of the copies to come, the rest as it stands after that copy. -/
theorem toksCopies_drop (c : Dev nD) (k : ℕ) (e : Fin 8 × ℕ × ℕ) (h : copyTab[k]? = some e) :
    toksCopies (F := F) c k (copyTab.drop k) =
      iprop((dutyTok ER (dcell c (dsem (sendOf e.2.1))) e.2.2 (0 : DD) ∗ dutyTok ER (dcell (xr e.1 c) (dsem e.2.1)) e.2.2 (0 : DD))
        ∗ toksCopies c (k + 1) (copyTab.drop (k + 1))) := by
  obtain ⟨hk, he⟩ := List.getElem?_eq_some_iff.mp h
  rw [List.drop_eq_getElem_cons hk, he]
  rfl

theorem credsCopies_drop (c : Dev nD) (k : ℕ) (e : Fin 8 × ℕ × ℕ) (h : copyTab[k]? = some e) :
    credsCopies (F := F) c k (copyTab.drop k) =
      iprop(cred (tallyAt (dcell c (dsem e.2.1)) (k + 1) (amtDma e.2.1 e.2.2)) ∗ credsCopies c (k + 1) (copyTab.drop (k + 1))) := by
  obtain ⟨hk, he⟩ := List.getElem?_eq_some_iff.mp h
  rw [List.drop_eq_getElem_cons hk, he]
  rfl

/-! ## The states -/

theorem core_eq (K : GSem nD τ sig → ℕ) (c : Dev nD) (k₀ : ℕ) :
    core (F := F) K c k₀ = iprop(invsAll (F := F) K ∗ reachedAll ∗ levAts L lv ∗ atPos ER (barCell c) 1 ∅ 0
      ∗ posAt c (roundsDone k₀) ∗ toksCopies c k₀ (copyTab.drop k₀) ∗ credsCopies c k₀ (copyTab.drop k₀)
      ∗ (∃ W, owes (c : Thread nD τ) (owedFrom c k₀) W) ∗ localBufs c) := rfl

theorem Q4_eq (K : GSem nD τ sig → ℕ) (c : Dev nD) :
    Q4 (F := F) K c = iprop(core (F := F) K c 4
      ∗ heldBut c cc0_scratch0 (VE2 0 (xr 4 c)).view.set ∗ heldBut c cc0_scratch1 (VE2 1 (xr 1 c)).view.set
      ∗ heldBut c cc0_scratch6 (R2 0).view.set ∗ heldBut c cc0_scratch7 ∅
      ∗ grant (xr 4 c) (VE2 0 c) (agR 0 2) 0 ∗ grant (xr 1 c) (VE2 1 c) (agR 1 2) 0 ∗ grant (xr 3 c) (R2 0) (rsR 0 1) 0) := rfl

/-- After the third exchange of layer `l`, at `(k₀, l)` = (6, 0), (18, 1), (30, 2). -/
theorem QE2_eq (K : GSem nD τ sig → ℕ) (c : Dev nD) (k₀ l : ℕ) :
    QE2 (F := F) K c k₀ l = iprop(core (F := F) K c k₀
      ∗ heldBut c cc0_scratch0 ∅ ∗ heldBut c cc0_scratch1 ∅
      ∗ heldBut c cc0_scratch6 ((R0 0).view.set ∪ (R1 0).view.set ∪ (R2 0).view.set) ∗ heldBut c cc0_scratch7 ((R0 1).view.set ∪ (R1 1).view.set)
      ∗ grant (xr 4 c) (R0 0) (rsR 0 0) l ∗ grant (xr 1 c) (R0 1) (rsR 1 0) l ∗ grant (xr 4 c) (R1 0) (rsR 0 4) l
      ∗ grant (xr 1 c) (R1 1) (rsR 1 4) l ∗ grant (xr 3 c) (R2 0) (rsR 0 1) l) := rfl

/-- After the two half-block reduce steps, layer 0: the last step's slot is rows 768.. of the receive buffer. -/
theorem QAB_10_eq (K : GSem nD τ sig → ℕ) (c : Dev nD) :
    QAB (F := F) K c 10 0 = iprop(core (F := F) K c 10
      ∗ heldBut c cc0_scratch0 ∅ ∗ heldBut c cc0_scratch1 ∅
      ∗ heldBut c cc0_scratch6 ((R2 0).view.set ∪ (R3 0).view.set)
      ∗ heldBut c cc0_scratch7 (R2 1).view.set
      ∗ grant (xr 3 c) (R2 0) (rsR 0 1) 0 ∗ grant (xr 4 c) (R2 1) (rsR 1 1) 0 ∗ grant (xr 1 c) (R3 0) (rsR 0 2) 0) := rfl

/-- Layer 1: rows 1024.. -/
theorem QAB_22_eq (K : GSem nD τ sig → ℕ) (c : Dev nD) :
    QAB (F := F) K c 22 1 = iprop(core (F := F) K c 22
      ∗ heldBut c cc0_scratch0 ∅ ∗ heldBut c cc0_scratch1 ∅
      ∗ heldBut c cc0_scratch6 ((R2 0).view.set ∪ (R4 0).view.set)
      ∗ heldBut c cc0_scratch7 (R2 1).view.set
      ∗ grant (xr 3 c) (R2 0) (rsR 0 1) 1 ∗ grant (xr 4 c) (R2 1) (rsR 1 1) 1 ∗ grant (xr 1 c) (R4 0) (rsR 0 3) 0) := rfl

/-- Layer 2: the 128 rows at 768. -/
theorem QAB_34_eq (K : GSem nD τ sig → ℕ) (c : Dev nD) :
    QAB (F := F) K c 34 2 = iprop(core (F := F) K c 34
      ∗ heldBut c cc0_scratch0 ∅ ∗ heldBut c cc0_scratch1 ∅
      ∗ heldBut c cc0_scratch6 ((R2 0).view.set ∪ (R3h 0).view.set)
      ∗ heldBut c cc0_scratch7 (R2 1).view.set
      ∗ grant (xr 3 c) (R2 0) (rsR 0 1) 2 ∗ grant (xr 4 c) (R2 1) (rsR 1 1) 2 ∗ grant (xr 1 c) (R3h 0) (rsR 0 2) 1) := rfl

/-- After the third reduce step, layer 0. -/
theorem QC_12_eq (K : GSem nD τ sig → ℕ) (c : Dev nD) :
    QC (F := F) K c 12 0 = iprop(core (F := F) K c 12
      ∗ heldBut c cc0_scratch0 ∅
      ∗ heldBut c cc0_scratch1 (VE1 1 (xr 4 c)).view.set
      ∗ heldBut c cc0_scratch6 (R3 0).view.set
      ∗ heldBut c cc0_scratch7 (R3 1).view.set
      ∗ grant (xr 1 c) (R3 0) (rsR 0 2) 0 ∗ grant (xr 3 c) (R3 1) (rsR 1 2) 0
      ∗ grant (xr 4 c) (VE1 1 c) (agR 1 1) 1) := rfl

/-- Layer 1. -/
theorem QC_24_eq (K : GSem nD τ sig → ℕ) (c : Dev nD) :
    QC (F := F) K c 24 1 = iprop(core (F := F) K c 24
      ∗ heldBut c cc0_scratch0 ∅
      ∗ heldBut c cc0_scratch1 (VE1 1 (xr 4 c)).view.set
      ∗ heldBut c cc0_scratch6 (R4 0).view.set
      ∗ heldBut c cc0_scratch7 (R4 1).view.set
      ∗ grant (xr 1 c) (R4 0) (rsR 0 3) 0 ∗ grant (xr 3 c) (R4 1) (rsR 1 3) 0
      ∗ grant (xr 4 c) (VE1 1 c) (agR 1 1) 2) := rfl

/-- Layer 2: no next layer, so nothing of the gather buffer is away and no slot of it is held. -/
theorem QC_36_eq (K : GSem nD τ sig → ℕ) (c : Dev nD) :
    QC (F := F) K c 36 2 = iprop(core (F := F) K c 36
      ∗ heldBut c cc0_scratch0 ∅
      ∗ heldBut c cc0_scratch1 ∅
      ∗ heldBut c cc0_scratch6 (R3h 0).view.set
      ∗ heldBut c cc0_scratch7 (R3h 1).view.set
      ∗ grant (xr 1 c) (R3h 0) (rsR 0 2) 1 ∗ grant (xr 3 c) (R3h 1) (rsR 1 2) 1
      ∗ emp) := rfl

/-- After the last step of layer 0. -/
theorem QD_14_eq (K : GSem nD τ sig → ℕ) (c : Dev nD) :
    QD (F := F) K c 14 0 = iprop(core (F := F) K c 14
      ∗ heldBut c cc0_scratch0 (VE1 0 (xr 3 c)).view.set
      ∗ heldBut c cc0_scratch1 ((VE1 1 (xr 4 c)).view.set ∪ (VE2 1 (xr 1 c)).view.set)
      ∗ heldBut c cc0_scratch6 ∅ ∗ heldBut c cc0_scratch7 ∅
      ∗ grant (xr 3 c) (VE1 0 c) (agR 0 1) 1 ∗ grant (xr 4 c) (VE1 1 c) (agR 1 1) 1 ∗ grant (xr 1 c) (VE2 1 c) (agR 1 2) 1) := rfl

/-- Of layer 1. -/
theorem QD_26_eq (K : GSem nD τ sig → ℕ) (c : Dev nD) :
    QD (F := F) K c 26 1 = iprop(core (F := F) K c 26
      ∗ heldBut c cc0_scratch0 (VE1 0 (xr 3 c)).view.set
      ∗ heldBut c cc0_scratch1 ((VE1 1 (xr 4 c)).view.set ∪ (VE2 1 (xr 1 c)).view.set)
      ∗ heldBut c cc0_scratch6 ∅ ∗ heldBut c cc0_scratch7 ∅
      ∗ grant (xr 3 c) (VE1 0 c) (agR 0 1) 2 ∗ grant (xr 4 c) (VE1 1 c) (agR 1 1) 2 ∗ grant (xr 1 c) (VE2 1 c) (agR 1 2) 2) := rfl

theorem Q28_eq (K : GSem nD τ sig → ℕ) (c : Dev nD) :
    Q28 (F := F) K c = iprop(core (F := F) K c 28
      ∗ heldBut c cc0_scratch0 (VE2 0 (xr 4 c)).view.set ∗ heldBut c cc0_scratch1 (VE2 1 (xr 1 c)).view.set
      ∗ heldBut c cc0_scratch6 (R2 0).view.set ∗ heldBut c cc0_scratch7 ∅
      ∗ grant (xr 4 c) (VE2 0 c) (agR 0 2) 2 ∗ grant (xr 1 c) (VE2 1 c) (agR 1 2) 2 ∗ grant (xr 3 c) (R2 0) (rsR 0 1) 2) := rfl

theorem Q38_eq (K : GSem nD τ sig → ℕ) (c : Dev nD) :
    Q38 (F := F) K c = iprop(core (F := F) K c 38
      ∗ heldBut c cc0_scratch0 ∅ ∗ heldBut c cc0_scratch1 ∅ ∗ heldBut c cc0_scratch6 ∅ ∗ heldBut c cc0_scratch7 ∅) := rfl

/-! ## A buffer held without some of its elements -/

/-- Leaving out two sets is leaving out one and then the other. -/
theorem univ_sdiff_union {α : Type} [Fintype α] [DecidableEq α] (A B : Finset α) :
    Finset.univ \ (A ∪ B) = (Finset.univ \ A) \ B := by
  ext i
  simp only [Finset.mem_sdiff, Finset.mem_union, Finset.mem_univ, true_and, not_or]

/-- Nothing away: the buffer whole. -/
theorem heldBut_empty (c : Dev nD) (b : Ref sig .tc) : heldBut (F := F) c b ∅ = iprop(∃ f, ptw (F := F) c b f) := by
  unfold heldBut
  rw [Finset.sdiff_empty]

theorem heldBut_intro (c : Dev nD) (b : Ref sig .tc) (A : Finset (Idx ((Memref.whole b).view.loc (c : Thread nD τ))))
    (f : Buf (Elt F) ((Memref.whole b).view.loc (c : Thread nD τ))) :
    ((Memref.whole b).view.loc (c : Thread nD τ) ↦[Finset.univ \ A]{fullShare} f : sProp 𝕄) ⊢ heldBut c b A := by
  unfold heldBut
  iintro H
  iexists f
  iexact H

/-- The whole buffer is the buffer with nothing away. -/
theorem heldBut_of_whole (c : Dev nD) (b : Ref sig .tc) (f : Buf (Elt F) ((Memref.whole b).view.loc (c : Thread nD τ))) :
    ptw (F := F) c b f ⊢ heldBut c b ∅ := by
  rw [heldBut_empty]
  iintro H
  iexists f
  iexact H

/-- Elements disjoint from those away come out of what is held, at the contents the rest keeps. -/
theorem heldBut_split (c : Dev nD) (b : Ref sig .tc) (A B : Finset (Idx ((Memref.whole b).view.loc (c : Thread nD τ))))
    (hd : Disjoint A B) :
    heldBut (F := F) c b A ⊢ iprop(∃ f : Buf (Elt F) ((Memref.whole b).view.loc (c : Thread nD τ)),
      ((Memref.whole b).view.loc (c : Thread nD τ) ↦[B]{fullShare} f)
        ∗ ((Memref.whole b).view.loc (c : Thread nD τ) ↦[(Finset.univ \ A) \ B]{fullShare} f)) := by
  unfold heldBut
  iintro ⟨%f, H⟩
  iexists f
  iapply (rest_split hd f).1
  iexact H

/-- And go back in, at whatever contents. -/
theorem heldBut_join (c : Dev nD) (b : Ref sig .tc) (A B : Finset (Idx ((Memref.whole b).view.loc (c : Thread nD τ))))
    (hd : Disjoint A B) (f g : Buf (Elt F) ((Memref.whole b).view.loc (c : Thread nD τ))) :
    iprop(((Memref.whole b).view.loc (c : Thread nD τ) ↦[B]{fullShare} g)
        ∗ ((Memref.whole b).view.loc (c : Thread nD τ) ↦[(Finset.univ \ A) \ B]{fullShare} f))
      ⊢ heldBut (F := F) c b A :=
  (rest_join_at hd f g).trans (heldBut_intro c b A _)

/-- Held without a union: without the one set and then without the other. -/
theorem heldBut_union (c : Dev nD) (b : Ref sig .tc) (A B : Finset (Idx ((Memref.whole b).view.loc (c : Thread nD τ)))) :
    heldBut (F := F) c b (A ∪ B) = iprop(∃ f : Buf (Elt F) ((Memref.whole b).view.loc (c : Thread nD τ)),
      (Memref.whole b).view.loc (c : Thread nD τ) ↦[(Finset.univ \ A) \ B]{fullShare} f) := by
  unfold heldBut
  rw [univ_sdiff_union]

theorem heldBut_congr (c : Dev nD) (b : Ref sig .tc) {A A' : Finset (Idx ((Memref.whole b).view.loc (c : Thread nD τ)))}
    (h : A = A') : heldBut (F := F) c b A = heldBut c b A' := by rw [h]

/-- Giving up the elements `B`, disjoint from those already away, and taking them back: both ways. -/
theorem heldBut_take (c : Dev nD) (b : Ref sig .tc) (A B : Finset (Idx ((Memref.whole b).view.loc (c : Thread nD τ))))
    (hd : Disjoint A B) :
    heldBut (F := F) c b A ⊣⊢ iprop((∃ g : Buf (Elt F) ((Memref.whole b).view.loc (c : Thread nD τ)),
        (Memref.whole b).view.loc (c : Thread nD τ) ↦[B]{fullShare} g) ∗ heldBut (F := F) c b (A ∪ B)) := by
  constructor
  · rw [heldBut_union]
    iintro H
    ihave H' := (heldBut_split c b A B hd) $$ H
    icases H' with ⟨%f, H1, H2⟩
    isplitl [H1]
    · iexists f
      iexact H1
    · iexists f
      iexact H2
  · rw [heldBut_union]
    iintro ⟨⟨%g, H1⟩, ⟨%f, H2⟩⟩
    iapply (heldBut_join c b A B hd f g)
    isplitl [H1]
    · iexact H1
    · iexact H2

/-- The same for a slice of the buffer: it comes out as the slice at some contents (what a copy's landing or a
    grant speaks of), and the buffer is held without it too. -/
theorem heldBut_take_view (c : Dev nD) {s : Shape} {e : EltTy} (M : Memref sig .tc .vmem s e)
    (A : Finset (Idx (M.view.loc (c : Thread nD τ)))) (hd : Disjoint A M.view.set) :
    heldBut (F := F) c M.view.ref A ⊣⊢ iprop(ownAt c M ∗ heldBut (F := F) c M.view.ref (A ∪ M.view.set)) :=
  heldBut_take c M.view.ref A M.view.set hd

/-- From the buffer whole. -/
theorem heldBut_take_view_empty (c : Dev nD) {s : Shape} {e : EltTy} (M : Memref sig .tc .vmem s e) :
    heldBut (F := F) c M.view.ref ∅ ⊣⊢ iprop(ownAt c M ∗ heldBut (F := F) c M.view.ref M.view.set) := by
  have h := heldBut_take_view (F := F) c M ∅ (Finset.disjoint_empty_left _)
  rw [Finset.empty_union] at h
  exact h

/-- A slice that is away comes back: written on the right of what else is away … -/
theorem heldBut_put_right (c : Dev nD) {s : Shape} {e : EltTy} (M : Memref sig .tc .vmem s e)
    (A : Finset (Idx (M.view.loc (c : Thread nD τ)))) (hd : Disjoint A M.view.set) :
    iprop(ownAt c M ∗ heldBut (F := F) c M.view.ref (A ∪ M.view.set)) ⊢ heldBut (F := F) c M.view.ref A :=
  (heldBut_take_view c M A hd).2

/-- … or on the left. -/
theorem heldBut_put_left (c : Dev nD) {s : Shape} {e : EltTy} (M : Memref sig .tc .vmem s e)
    (A : Finset (Idx (M.view.loc (c : Thread nD τ)))) (hd : Disjoint A M.view.set) :
    iprop(ownAt c M ∗ heldBut (F := F) c M.view.ref (M.view.set ∪ A)) ⊢ heldBut (F := F) c M.view.ref A := by
  rw [Finset.union_comm]
  exact heldBut_put_right c M A hd

/-- The only slice away comes back: the buffer is whole. -/
theorem heldBut_put_only (c : Dev nD) {s : Shape} {e : EltTy} (M : Memref sig .tc .vmem s e) :
    iprop(ownAt c M ∗ heldBut (F := F) c M.view.ref M.view.set) ⊢ heldBut (F := F) c M.view.ref ∅ :=
  (heldBut_take_view_empty c M).2

/-! ## At launch -/

theorem ghost_eq (K : GSem nD τ sig → ℕ) (c : Dev nD) :
    ghost (F := F) K c = iprop(invsAll (F := F) K ∗ reachedAll ∗ posAll c ∗ toks c) := rfl

theorem Φ₀_eq (c : Dev nD) :
    Φ₀ (F := F) c = iprop((∃ K, ghost (F := F) K c) ∗ creds c ∗ levAts L lv ∗ scratchAll c) := rfl

/-- The three entry signals' duties on the partners' barrier cells, then the copies'. -/
theorem toks_eq (c : Dev nD) :
    toks (F := F) c = iprop(dutyTok ER (barCell (xr 1 c)) 0 (0 : DD) ∗ dutyTok ER (barCell (xr 3 c)) 0 (1 : DD)
      ∗ dutyTok ER (barCell (xr 4 c)) 0 (2 : DD) ∗ toksCopies c 0 (copyTab.drop 0)) := rfl

/-- The barrier cell's three units, then what the partners' copies land. -/
theorem creds_eq (c : Dev nD) :
    creds (F := F) c = iprop(cred (tallyAt (barCell c) 0 3) ∗ credsCopies c 0 (copyTab.drop 0)) := rfl

/-- The ten scratch buffers, each held whole through its memref. -/
theorem scratchAll_eq (c : Dev nD) :
    scratchAll (F := F) c = iprop((∃ f, ptw (F := F) c cc0_scratch0 f) ∗ (∃ f, ptw (F := F) c cc0_scratch1 f) ∗ (∃ f, ptw (F := F) c cc0_scratch2 f) ∗ (∃ f, ptw (F := F) c cc0_scratch3 f) ∗ (∃ f, ptw (F := F) c cc0_scratch4 f) ∗ (∃ f, ptw (F := F) c cc0_scratch5 f) ∗ (∃ f, ptw (F := F) c cc0_scratch6 f) ∗ (∃ f, ptw (F := F) c cc0_scratch7 f) ∗ (∃ f, ptw (F := F) c cc0_scratch8 f) ∗ (∃ f, ptw (F := F) c cc0_scratch9 f)) := rfl

/-- The owner's position on its barrier cell and on each of its 32 DMA cells, before anything is consumed. -/
theorem posAll_eq (c : Dev nD) :
    posAll (F := F) c = iprop(atPos ER (barCell c) 0 ∅ 0
      ∗ atPos ER (dcell c (dsem 8)) 0 ∅ 0
      ∗ atPos ER (dcell c (dsem 9)) 0 ∅ 0
      ∗ atPos ER (dcell c (dsem 10)) 0 ∅ 0
      ∗ atPos ER (dcell c (dsem 11)) 0 ∅ 0
      ∗ atPos ER (dcell c (dsem 12)) 0 ∅ 0
      ∗ atPos ER (dcell c (dsem 13)) 0 ∅ 0
      ∗ atPos ER (dcell c (dsem 14)) 0 ∅ 0
      ∗ atPos ER (dcell c (dsem 15)) 0 ∅ 0
      ∗ atPos ER (dcell c (dsem 16)) 0 ∅ 0
      ∗ atPos ER (dcell c (dsem 17)) 0 ∅ 0
      ∗ atPos ER (dcell c (dsem 18)) 0 ∅ 0
      ∗ atPos ER (dcell c (dsem 19)) 0 ∅ 0
      ∗ atPos ER (dcell c (dsem 20)) 0 ∅ 0
      ∗ atPos ER (dcell c (dsem 21)) 0 ∅ 0
      ∗ atPos ER (dcell c (dsem 22)) 0 ∅ 0
      ∗ atPos ER (dcell c (dsem 23)) 0 ∅ 0
      ∗ atPos ER (dcell c (dsem 24)) 0 ∅ 0
      ∗ atPos ER (dcell c (dsem 25)) 0 ∅ 0
      ∗ atPos ER (dcell c (dsem 26)) 0 ∅ 0
      ∗ atPos ER (dcell c (dsem 27)) 0 ∅ 0
      ∗ atPos ER (dcell c (dsem 28)) 0 ∅ 0
      ∗ atPos ER (dcell c (dsem 29)) 0 ∅ 0
      ∗ atPos ER (dcell c (dsem 30)) 0 ∅ 0
      ∗ atPos ER (dcell c (dsem 31)) 0 ∅ 0
      ∗ atPos ER (dcell c (dsem 32)) 0 ∅ 0
      ∗ atPos ER (dcell c (dsem 33)) 0 ∅ 0
      ∗ atPos ER (dcell c (dsem 34)) 0 ∅ 0
      ∗ atPos ER (dcell c (dsem 35)) 0 ∅ 0
      ∗ atPos ER (dcell c (dsem 36)) 0 ∅ 0
      ∗ atPos ER (dcell c (dsem 37)) 0 ∅ 0
      ∗ atPos ER (dcell c (dsem 38)) 0 ∅ 0
      ∗ atPos ER (dcell c (dsem 39)) 0 ∅ 0) := by
  unfold posAll
  rw [bigSep_univ_eq_bigSepL [0, 1, 2, 3, 4, 5, 6, 7, 8, 9, 10, 11, 12, 13, 14, 15, 16, 17, 18, 19, 20, 21, 22, 23, 24, 25, 26, 27, 28, 29, 30, 31, 32] (by decide) (by decide)]
  rfl

/-! ## These rest on the standard axioms only -/

/-- info: 'Cert.Kernel.Hand.heldBut_take_view' depends on axioms: [propext, Classical.choice, Quot.sound] -/
#guard_msgs in #print axioms heldBut_take_view
/-- info: 'Cert.Kernel.Hand.posAll_eq' depends on axioms: [propext, Classical.choice, Quot.sound] -/
#guard_msgs in #print axioms posAll_eq

end Cert.Kernel.Hand

end
-- ==== Proof.Kernel.Seg1Close.lean ====
import proofs.«900979_g7700000000000980_dist_mlpseq_tp1d_bs_bs_b256_d256_h512_v7x_i8_bf16_1_alg».proof.Proof.Kernel.Steps
import proofs.«900979_g7700000000000980_dist_mlpseq_tp1d_bs_bs_b256_d256_h512_v7x_i8_bf16_1_alg».proof.Proof.Kernel.QuietLemmas

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # The first quiet state, from what a device holds after the first two exchanges

   After the entry handshake and the copies 0 to 3 the eight cells of those copies (send and receive, both streams,
   first and second exchange) stand at round 1 and all the others at round 0; that the latter have reached round 0 is
   part of what every device knows from the launch. Each gather buffer is held without the rows of the partner's third
   exchange, the first receive buffer without the slot of the partner's third reduce step, and the three partners'
   slots for the own copies of those numbers are held. -/

theorem Q4_intro (K : GSem nD τ sig → ℕ) (c : Dev nD) :
    iprop(invsAll (F := F) K ∗ reachedAll ∗ levAts L lv ∗ atPos ER (barCell c) 1 ∅ 0
      ∗ atPos ER (dcell c (dsem 8)) 1 ∅ 0
      ∗ atPos ER (dcell c (dsem 9)) 1 ∅ 0
      ∗ atPos ER (dcell c (dsem 10)) 0 ∅ 0
      ∗ atPos ER (dcell c (dsem 11)) 1 ∅ 0
      ∗ atPos ER (dcell c (dsem 12)) 1 ∅ 0
      ∗ atPos ER (dcell c (dsem 13)) 0 ∅ 0
      ∗ atPos ER (dcell c (dsem 14)) 1 ∅ 0
      ∗ atPos ER (dcell c (dsem 15)) 1 ∅ 0
      ∗ atPos ER (dcell c (dsem 16)) 0 ∅ 0
      ∗ atPos ER (dcell c (dsem 17)) 1 ∅ 0
      ∗ atPos ER (dcell c (dsem 18)) 1 ∅ 0
      ∗ atPos ER (dcell c (dsem 19)) 0 ∅ 0
      ∗ atPos ER (dcell c (dsem 20)) 0 ∅ 0
      ∗ atPos ER (dcell c (dsem 21)) 0 ∅ 0
      ∗ atPos ER (dcell c (dsem 22)) 0 ∅ 0
      ∗ atPos ER (dcell c (dsem 23)) 0 ∅ 0
      ∗ atPos ER (dcell c (dsem 24)) 0 ∅ 0
      ∗ atPos ER (dcell c (dsem 25)) 0 ∅ 0
      ∗ atPos ER (dcell c (dsem 26)) 0 ∅ 0
      ∗ atPos ER (dcell c (dsem 27)) 0 ∅ 0
      ∗ atPos ER (dcell c (dsem 28)) 0 ∅ 0
      ∗ atPos ER (dcell c (dsem 29)) 0 ∅ 0
      ∗ atPos ER (dcell c (dsem 30)) 0 ∅ 0
      ∗ atPos ER (dcell c (dsem 31)) 0 ∅ 0
      ∗ atPos ER (dcell c (dsem 32)) 0 ∅ 0
      ∗ atPos ER (dcell c (dsem 33)) 0 ∅ 0
      ∗ atPos ER (dcell c (dsem 34)) 0 ∅ 0
      ∗ atPos ER (dcell c (dsem 35)) 0 ∅ 0
      ∗ atPos ER (dcell c (dsem 36)) 0 ∅ 0
      ∗ atPos ER (dcell c (dsem 37)) 0 ∅ 0
      ∗ atPos ER (dcell c (dsem 38)) 0 ∅ 0
      ∗ atPos ER (dcell c (dsem 39)) 0 ∅ 0
      ∗ reached ER (dcell c (dsem 8)) 1 ∗ reached ER (dcell c (dsem 9)) 1 ∗ reached ER (dcell c (dsem 11)) 1 ∗ reached ER (dcell c (dsem 12)) 1 ∗ reached ER (dcell c (dsem 14)) 1 ∗ reached ER (dcell c (dsem 15)) 1 ∗ reached ER (dcell c (dsem 17)) 1 ∗ reached ER (dcell c (dsem 18)) 1
      ∗ toksCopies c 4 (copyTab.drop 4) ∗ credsCopies c 4 (copyTab.drop 4)
      ∗ (∃ W, owes (c : Thread nD τ) (owedFrom c 4) W) ∗ localBufs c
      ∗ heldBut c cc0_scratch0 (VE2 0 (xr 4 c)).view.set ∗ heldBut c cc0_scratch1 (VE2 1 (xr 1 c)).view.set
      ∗ heldBut c cc0_scratch6 (R2 0).view.set ∗ heldBut c cc0_scratch7 ∅
      ∗ grant (xr 4 c) (VE2 0 c) (agR 0 2) 0 ∗ grant (xr 1 c) (VE2 1 c) (agR 1 2) 0 ∗ grant (xr 3 c) (R2 0) (rsR 0 1) 0)
      ⊢ Q4 (F := F) K c := by
  rw [Q4_eq, core_eq, posAt_4]
  iintro ⟨#HI, #HR, #Hlev, Hbar, A8, A9, A10, A11, A12, A13, A14, A15, A16, A17, A18, A19, A20, A21, A22, A23, A24, A25, A26, A27, A28, A29, A30, A31, A32, A33, A34, A35, A36, A37, A38, A39, #P8, #P9, #P11, #P12, #P14, #P15, #P17, #P18, Htoks, Hcreds, HO, Hloc, H0, H1, H6, H7, G1, G2, G3⟩
  -- the cells no copy has used yet have reached their first round
  ihave #P10 := (reached_dma (F := F) c 10 (by omega) (by omega)) $$ HR
  ihave #P13 := (reached_dma (F := F) c 13 (by omega) (by omega)) $$ HR
  ihave #P16 := (reached_dma (F := F) c 16 (by omega) (by omega)) $$ HR
  ihave #P19 := (reached_dma (F := F) c 19 (by omega) (by omega)) $$ HR
  ihave #P20 := (reached_dma (F := F) c 20 (by omega) (by omega)) $$ HR
  ihave #P21 := (reached_dma (F := F) c 21 (by omega) (by omega)) $$ HR
  ihave #P22 := (reached_dma (F := F) c 22 (by omega) (by omega)) $$ HR
  ihave #P23 := (reached_dma (F := F) c 23 (by omega) (by omega)) $$ HR
  ihave #P24 := (reached_dma (F := F) c 24 (by omega) (by omega)) $$ HR
  ihave #P25 := (reached_dma (F := F) c 25 (by omega) (by omega)) $$ HR
  ihave #P26 := (reached_dma (F := F) c 26 (by omega) (by omega)) $$ HR
  ihave #P27 := (reached_dma (F := F) c 27 (by omega) (by omega)) $$ HR
  ihave #P28 := (reached_dma (F := F) c 28 (by omega) (by omega)) $$ HR
  ihave #P29 := (reached_dma (F := F) c 29 (by omega) (by omega)) $$ HR
  ihave #P30 := (reached_dma (F := F) c 30 (by omega) (by omega)) $$ HR
  ihave #P31 := (reached_dma (F := F) c 31 (by omega) (by omega)) $$ HR
  ihave #P32 := (reached_dma (F := F) c 32 (by omega) (by omega)) $$ HR
  ihave #P33 := (reached_dma (F := F) c 33 (by omega) (by omega)) $$ HR
  ihave #P34 := (reached_dma (F := F) c 34 (by omega) (by omega)) $$ HR
  ihave #P35 := (reached_dma (F := F) c 35 (by omega) (by omega)) $$ HR
  ihave #P36 := (reached_dma (F := F) c 36 (by omega) (by omega)) $$ HR
  ihave #P37 := (reached_dma (F := F) c 37 (by omega) (by omega)) $$ HR
  ihave #P38 := (reached_dma (F := F) c 38 (by omega) (by omega)) $$ HR
  ihave #P39 := (reached_dma (F := F) c 39 (by omega) (by omega)) $$ HR
  isplitr [H0 H1 H6 H7 G1 G2 G3]
  · isplitr; · iexact HI
    isplitr; · iexact HR
    isplitr; · iexact Hlev
    isplitl [Hbar]; · iexact Hbar
    isplitl [A8 A9 A10 A11 A12 A13 A14 A15 A16 A17 A18 A19 A20 A21 A22 A23 A24 A25 A26 A27 A28 A29 A30 A31 A32 A33 A34 A35 A36 A37 A38 A39]
    · iframe ∗ #
    isplitl [Htoks]; · iexact Htoks
    isplitl [Hcreds]; · iexact Hcreds
    isplitl [HO]; · iexact HO
    iexact Hloc
  · isplitl [H0]; · iexact H0
    isplitl [H1]; · iexact H1
    isplitl [H6]; · iexact H6
    isplitl [H7]; · iexact H7
    isplitl [G1]; · iexact G1
    isplitl [G2]; · iexact G2
    iexact G3

/-- info: 'Cert.Kernel.Hand.Q4_intro' depends on axioms: [propext, Classical.choice, Quot.sound] -/
#guard_msgs in #print axioms Q4_intro

end Cert.Kernel.Hand

end
-- ==== Proof.Kernel.Seg1.lean ====
/- Segment 1 of the body: the entry handshake (a signal to each of the three partners, the wait for theirs) and the
   first two exchanges of both streams (copies 0 to 3). Each signal and each copy hands the partner the slot of this
   device's buffer that the partner's next copy of that chain writes; each landing hands this device the partner's.
   The second exchange lends half a share of its source rows, which the first layer's matrix products read meanwhile. -/
import proofs.«900979_g7700000000000980_dist_mlpseq_tp1d_bs_bs_b256_d256_h512_v7x_i8_bf16_1_alg».proof.Proof.Kernel.State
import proofs.«900979_g7700000000000980_dist_mlpseq_tp1d_bs_bs_b256_d256_h512_v7x_i8_bf16_1_alg».proof.Proof.Kernel.Specs
import proofs.«900979_g7700000000000980_dist_mlpseq_tp1d_bs_bs_b256_d256_h512_v7x_i8_bf16_1_alg».proof.Proof.Kernel.Steps
import proofs.«900979_g7700000000000980_dist_mlpseq_tp1d_bs_bs_b256_d256_h512_v7x_i8_bf16_1_alg».proof.Proof.Kernel.QuietLemmas
import proofs.«900979_g7700000000000980_dist_mlpseq_tp1d_bs_bs_b256_d256_h512_v7x_i8_bf16_1_alg».proof.Proof.Kernel.Seg1Close

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.Tactic

/-! ## Rules at the program's own spelling

    The printed program names a partner by its device chain and a semaphore by a slice of its array; the rule for a
    remote copy is stated here at those terms, each with the equation to the protocol's name. -/

/-- On a whole buffer the elements under a set of indices are that set. -/
private theorem setOn_whole1 (b : Ref sig .tc) (M : Finset b.ty.shape.Idx) : (Memref.whole b).view.setOn M = M := by
  show M.map (View.whole b).emb = M
  rw [View.emb_whole]; exact Finset.map_refl

/-- A unit-stride rectangle inside another's span on every axis is contained in it. -/
private theorem unit_subset1 {s : Shape} {off size off' size' : Fin s.rank → ℕ} {inb inb'}
    (h : ∀ a, off' a ≤ off a ∧ off a + size a ≤ off' a + size' a) :
    (Rect.unit (s := s) off size inb).set ⊆ (Rect.unit (s := s) off' size' inb').set := by
  intro i hi
  rw [Rect.mem_set_unit] at hi ⊢
  intro a
  have h1 := hi a
  have h2 := h a
  omega

/-- The copy rule with the partner and the semaphores as the program spells them. -/
private theorem send_copy_printed (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-! ## The partners are routable -/

theorem routes1 : ∀ c : Dev nD, τ.routes (c : Thread nD τ) (xr 1 c : Thread nD τ) = true := by decide
theorem routes3 : ∀ c : Dev nD, τ.routes (c : Thread nD τ) (xr 3 c : Thread nD τ) = true := by decide
theorem routes4 : ∀ c : Dev nD, τ.routes (c : Thread nD τ) (xr 4 c : Thread nD τ) = true := by decide

/-! ## The row blocks of the two gather buffers that are away during the first two exchanges

    Stream 0 (index `c`): the other half of the buffer (the partner's four blocks of the third exchange), the other
    pair of the own half (the partner's of the second), the other block of the own pair (the partner's of the first),
    the own block. Stream 1 the same at the index `q(c)`. They are cut out in this order, so that they come back
    last out, first in. -/

theorem d0_1 (c : Dev nD) : Disjoint (VE2 0 (xr 4 c)).view.set (VE1 0 (xr 3 c)).view.set :=
  disj_slices cc0_scratch0 0 (by revert c; decide +kernel)
theorem d0_2 (c : Dev nD) :
    Disjoint ((VE2 0 (xr 4 c)).view.set ∪ (VE1 0 (xr 3 c)).view.set) (VE0 0 (xr 1 c)).view.set :=
  Finset.disjoint_union_left.mpr ⟨disj_slices cc0_scratch0 0 (by revert c; decide +kernel),
    disj_slices cc0_scratch0 0 (by revert c; decide +kernel)⟩
theorem d0_3 (c : Dev nD) :
    Disjoint (((VE2 0 (xr 4 c)).view.set ∪ (VE1 0 (xr 3 c)).view.set) ∪ (VE0 0 (xr 1 c)).view.set) (VE0 0 c).view.set :=
  Finset.disjoint_union_left.mpr ⟨Finset.disjoint_union_left.mpr ⟨disj_slices cc0_scratch0 0 (by revert c; decide +kernel),
    disj_slices cc0_scratch0 0 (by revert c; decide +kernel)⟩, (disj_VE0_0 c).symm⟩
theorem d0_4 (c : Dev nD) :
    Disjoint ((VE2 0 (xr 4 c)).view.set ∪ (VE1 0 (xr 3 c)).view.set) (VE1 0 c).view.set :=
  Finset.disjoint_union_left.mpr ⟨disj_slices cc0_scratch0 0 (by revert c; decide +kernel), (disj_VE1_0 c).symm⟩

theorem d1_1 (c : Dev nD) : Disjoint (VE2 1 (xr 1 c)).view.set (VE1 1 (xr 4 c)).view.set :=
  disj_slices cc0_scratch1 0 (by revert c; decide +kernel)
theorem d1_2 (c : Dev nD) :
    Disjoint ((VE2 1 (xr 1 c)).view.set ∪ (VE1 1 (xr 4 c)).view.set) (VE0 1 (xr 3 c)).view.set :=
  Finset.disjoint_union_left.mpr ⟨disj_slices cc0_scratch1 0 (by revert c; decide +kernel),
    disj_slices cc0_scratch1 0 (by revert c; decide +kernel)⟩
theorem d1_3 (c : Dev nD) :
    Disjoint (((VE2 1 (xr 1 c)).view.set ∪ (VE1 1 (xr 4 c)).view.set) ∪ (VE0 1 (xr 3 c)).view.set) (VE0 1 c).view.set :=
  Finset.disjoint_union_left.mpr ⟨Finset.disjoint_union_left.mpr ⟨disj_slices cc0_scratch1 0 (by revert c; decide +kernel),
    disj_slices cc0_scratch1 0 (by revert c; decide +kernel)⟩, (disj_VE0_1 c).symm⟩
theorem d1_4 (c : Dev nD) :
    Disjoint ((VE2 1 (xr 1 c)).view.set ∪ (VE1 1 (xr 4 c)).view.set) (VE1 1 c).view.set :=
  Finset.disjoint_union_left.mpr ⟨disj_slices cc0_scratch1 0 (by revert c; decide +kernel), (disj_VE1_1 c).symm⟩

/-! ## Slots handed over -/

/-- A slot of one's own buffer with the fact that the cell of the copy that will fill it stands at its first round. -/
theorem grant_intro (p : Dev nD) {s : Shape} {e : EltTy} (M : Memref sig .tc .vmem s e) (j : ℕ) (hj : 8 ≤ j) (hj' : j < 40)
    (i : DmaSem sig) (hi : i = dsem j) :
    iprop(reachedAll (F := F) ∗ ownAt p M) ⊢ grant p M i 0 := by
  subst hi
  unfold grant
  iintro ⟨#HR, H⟩
  isplitl [H]
  · iexact H
  · iapply (reached_dma (F := F) p j hj hj'); iexact HR

theorem grant_elim (p : Dev nD) {s : Shape} {e : EltTy} (M : Memref sig .tc .vmem s e) (i : DmaSem sig) (r : ℕ) :
    grant (F := F) p M i r ⊢ iprop(ownAt p M ∗ reached ER (dcell p i) r) := by unfold grant; exact .rfl

theorem ownAt_elim (p : Dev nD) {s : Shape} {e : EltTy} (M : Memref sig .tc .vmem s e) :
    ownAt (F := F) p M ⊢ iprop(∃ f : Buf (Elt F) (M.view.loc (p : Thread nD τ)), (M.view.loc (p : Thread nD τ)) ↦[M.view.set]{fullShare} f) := by
  unfold ownAt; exact .rfl

/-- What the entry signals to the three partners hand over, spelt at this device. -/
theorem payBar_to_1 (c : Dev nD) : payBar (F := F) (xr 1 c) 0 = grant c (VE0 0 (xr 1 c)) (agR 0 0) 0 := by
  show grant (xr 1 (xr 1 c)) (VE0 0 (xr 1 c)) (agR 0 0) 0 = _
  rw [xr_xr]
theorem payBar_to_3 (c : Dev nD) : payBar (F := F) (xr 3 c) 1 = grant c (VE0 1 (xr 3 c)) (agR 1 0) 0 := by
  show grant (xr 3 (xr 3 c)) (VE0 1 (xr 3 c)) (agR 1 0) 0 = _
  rw [xr_xr]
theorem payBar_to_4 (c : Dev nD) : payBar (F := F) (xr 4 c) 2 = grant c (VE1 1 (xr 4 c)) (agR 1 1) 0 := by
  show grant (xr 4 (xr 4 c)) (VE1 1 (xr 4 c)) (agR 1 1) 0 = _
  rw [xr_xr]

/-- What the first four copies land on the partners' receive cells, spelt at this device. -/
theorem payR_11 (c : Dev nD) :
    iprop(ownAt (F := F) (xr 1 c) (VE0 0 c) ∗ grant c (VE2 1 (xr 1 c)) (agR 1 2) 0) ⊢ payDma (xr 1 c) 11 0 := by
  show _ ⊢ iprop(ownAt (xr 1 c) (VE0 0 (xr 1 (xr 1 c))) ∗ grant (xr 1 (xr 1 c)) (VE2 1 (xr 1 c)) (agR 1 2) 0)
  rw [xr_xr]
theorem payR_17 (c : Dev nD) :
    iprop(ownAt (F := F) (xr 3 c) (VE0 1 c) ∗ grant c (VE1 0 (xr 3 c)) (agR 0 1) 0) ⊢ payDma (xr 3 c) 17 0 := by
  show _ ⊢ iprop(ownAt (xr 3 c) (VE0 1 (xr 3 (xr 3 c))) ∗ grant (xr 3 (xr 3 c)) (VE1 0 (xr 3 c)) (agR 0 1) 0)
  rw [xr_xr]
theorem payR_12 (c : Dev nD) :
    iprop(ownAt (F := F) (xr 3 c) (VE1 0 c) ∗ grant c (R2 0) (rsR 0 1) 0) ⊢ payDma (xr 3 c) 12 0 := by
  show _ ⊢ iprop(ownAt (xr 3 c) (VE1 0 (xr 3 (xr 3 c))) ∗ grant (xr 3 (xr 3 c)) (R2 0) (rsR 0 1) 0)
  rw [xr_xr]
theorem payR_18 (c : Dev nD) :
    iprop(ownAt (F := F) (xr 4 c) (VE1 1 c) ∗ grant c (VE2 0 (xr 4 c)) (agR 0 2) 0) ⊢ payDma (xr 4 c) 18 0 := by
  show _ ⊢ iprop(ownAt (xr 4 c) (VE1 1 (xr 4 (xr 4 c))) ∗ grant (xr 4 (xr 4 c)) (VE2 0 (xr 4 c)) (agR 0 2) 0)
  rw [xr_xr]

/-- What the three partners' entry signals hand over. -/
theorem grant_elim_at (p : Dev nD) {s : Shape} {e : EltTy} (M : Memref sig .tc .vmem s e) (i : DmaSem sig) (r j : ℕ) (hi : i = dsem j) :
    grant (F := F) p M i r ⊢ iprop(ownAt p M ∗ reached ER (dcell p (dsem j)) r) := by subst hi; exact grant_elim _ _ _ _
theorem payBar_0_elim (c : Dev nD) :
    payBar (F := F) c 0 ⊢ iprop(ownAt (xr 1 c) (VE0 0 c) ∗ reached ER (dcell (xr 1 c) (dsem 11)) 0) :=
  grant_elim_at (xr 1 c) (VE0 0 c) (agR 0 0) 0 11 (by decide)
theorem payBar_1_elim (c : Dev nD) :
    payBar (F := F) c 1 ⊢ iprop(ownAt (xr 3 c) (VE0 1 c) ∗ reached ER (dcell (xr 3 c) (dsem 17)) 0) :=
  grant_elim_at (xr 3 c) (VE0 1 c) (agR 1 0) 0 17 (by decide)
theorem payBar_2_elim (c : Dev nD) :
    payBar (F := F) c 2 ⊢ iprop(ownAt (xr 4 c) (VE1 1 c) ∗ reached ER (dcell (xr 4 c) (dsem 18)) 0) :=
  grant_elim_at (xr 4 c) (VE1 1 c) (agR 1 1) 0 18 (by decide)

/-- What the landings of the partners' first four copies hand over. -/
theorem pay_8_elim (c : Dev nD) : payDma (F := F) c 8 0 ⊢ ownAt c (VE0 0 c) := .rfl
theorem pay_14_elim (c : Dev nD) : payDma (F := F) c 14 0 ⊢ ownAt c (VE0 1 c) := .rfl
theorem pay_9_elim (c : Dev nD) : payDma (F := F) c 9 0 ⊢ ownHalf c (VE1 0 c) := .rfl
theorem pay_15_elim (c : Dev nD) : payDma (F := F) c 15 0 ⊢ ownHalf c (VE1 1 c) := .rfl
theorem pay_11_elim (c : Dev nD) :
    payDma (F := F) c 11 0 ⊢ iprop(ownAt c (VE0 0 (xr 1 c)) ∗ grant (xr 1 c) (VE2 1 c) (agR 1 2) 0) := .rfl
theorem pay_17_elim (c : Dev nD) :
    payDma (F := F) c 17 0 ⊢ iprop(ownAt c (VE0 1 (xr 3 c)) ∗ grant (xr 3 c) (VE1 0 c) (agR 0 1) 0) := .rfl
theorem pay_12_elim (c : Dev nD) :
    payDma (F := F) c 12 0 ⊢ iprop(ownAt c (VE1 0 (xr 3 c)) ∗ grant (xr 3 c) (R2 0) (rsR 0 1) 0) := .rfl
theorem pay_18_elim (c : Dev nD) :
    payDma (F := F) c 18 0 ⊢ iprop(ownAt c (VE1 1 (xr 4 c)) ∗ grant (xr 4 c) (VE2 0 c) (agR 0 2) 0) := .rfl

/-- The rows the first layer's matrix products read are the own pair of blocks of each stream. -/
theorem off7_in (c : Dev nD) : ∀ a, k0_off5 c a ≤ k0_off7 c a ∧ k0_off7 c a + S256x256.size a ≤ k0_off5 c a + S256x256.size a := by
  revert c; decide +kernel
theorem off8_in (c : Dev nD) : ∀ a, k0_off6 c a ≤ k0_off8 c a ∧ k0_off8 c a + S256x256.size a ≤ k0_off6 c a + S256x256.size a := by
  revert c; decide +kernel
theorem sub_off7 (c : Dev nD) :
    (Memref.whole cc0_scratch0).view.setOn (Rect.unit (s := S1024x256) (k0_off7 c) S256x256.size (k0_off7_inb c)).toLoadRect.set
      ⊆ (VE1 0 c).view.set := by
  rw [setOn_whole1]
  intro i hi
  have h := set_slice_of_whole cc0_scratch0 (Rect.unit (s := S1024x256) (k0_off5 c) S256x256.size (k0_off5_inb c)) (fun _ => rfl)
  exact (Finset.ext_iff.mp h i).mpr (unit_subset1 (off7_in c) hi)
theorem sub_off8 (c : Dev nD) :
    (Memref.whole cc0_scratch1).view.setOn (Rect.unit (s := S1024x256) (k0_off8 c) S256x256.size (k0_off8_inb c)).toLoadRect.set
      ⊆ (VE1 1 c).view.set := by
  rw [setOn_whole1]
  intro i hi
  have h := set_slice_of_whole cc0_scratch1 (Rect.unit (s := S1024x256) (k0_off6 c) S256x256.size (k0_off6_inb c)) (fun _ => rfl)
  exact (Finset.ext_iff.mp h i).mpr (unit_subset1 (off8_in c) hi)

omit [FloatOps F] in
/-- A window's staging buffer held through its memref is the buffer whole. -/
theorem ptw_of_set (c : Dev nD) (b : Ref sig .tc) (f : Buf (Elt F) ((Memref.whole b).view.loc (c : Thread nD τ))) :
    ((Memref.whole b).view.loc (c : Thread nD τ) ↦[(Memref.whole b).view.set]{fullShare} f : sProp 𝕄) ⊢ iprop(∃ f, ptw (F := F) c b f) := by
  rw [show (Memref.whole b).view.set = Finset.univ from by rw [Memref.view_whole]; exact View.set_whole _]
  iintro H
  iexists f
  iexact H

set_option maxHeartbeats 3200000 in
theorem seg1_ok (m : (ℓ : Loc nD τ sig) → Buf (Elt F) ℓ) (c : Dev nD) : Spec1 (F := F) m c := by
  intro Y
  unfold PreBody
  rw [Φ₀_eq, creds_eq, creds_seg_0, scratchAll_eq]
  unfold ghost Pipeline.RDat.owesAt Pipeline.owesWithin owns
  rw [posAll_eq, toks_eq, toks_seg_0, show (rdats (F := F) m 0 c).owed Gen.t0_0.castSucc = O₀ c from rfl]
  iintro ⟨⟨⟨%K, #HI, #HR, ⟨HaB, Ha8, Ha9, Ha10, Ha11, Ha12, Ha13, Ha14, Ha15, Ha16, Ha17, Ha18, Ha19, Ha20, Ha21, Ha22, Ha23, Ha24, Ha25, Ha26, Ha27, Ha28, Ha29, Ha30, Ha31, Ha32, Ha33, Ha34, Ha35, Ha36, Ha37, Ha38, Ha39⟩, ⟨TB1, TB3, TB4, ⟨T0a, T0b⟩, ⟨T1a, T1b⟩, ⟨T2a, T2b⟩, ⟨T3a, T3b⟩, Htoks⟩⟩, ⟨CB, C0, C1, C2, C3, Hcreds⟩, #Hlev, ⟨%f0, Hx0⟩, ⟨%f1, Hx1⟩, ⟨%f2, Hs2⟩, ⟨%f3, Hs3⟩, ⟨%f4, Hs4⟩, ⟨%f5, Hs5⟩, ⟨%f6, Hy0⟩, ⟨%f7, Hy1⟩, ⟨%f8, Hs8⟩, ⟨%f9, Hs9⟩⟩,
    ⟨%W, %hW, HO⟩, ⟨%g0, %hg0, Hw0⟩, ⟨%g1, %hg1, Hw1⟩, ⟨%g2, %hg2, Hw2⟩, ⟨%g3, %hg3, Hw3⟩, ⟨%g4, %hg4, Hw4⟩, ⟨%g5, %hg5, Hw5⟩, ⟨%g6, %hg6, Hw6⟩, ⟨%g7, %hg7, Hw7⟩⟩
  unfold seg1
  -- the own row blocks of the two streams are written from the input window
  sl_exec

  -- the two gather buffers, cut: what goes to the partners with the entry signals and the first copies
  ihave Hx0 := (heldBut_of_whole (F := F) c cc0_scratch0 _) $$ Hx0
  ihave Hx0 := (heldBut_take_view_empty (F := F) c (VE2 0 (xr 4 c))).1 $$ Hx0
  icases Hx0 with ⟨HC', Hx0⟩
  ihave Hx0 := (heldBut_take_view (F := F) c (VE1 0 (xr 3 c)) (VE2 0 (xr 4 c)).view.set (d0_1 c)).1 $$ Hx0
  icases Hx0 with ⟨HB', Hx0⟩
  ihave Hx0 := (heldBut_take_view (F := F) c (VE0 0 (xr 1 c)) ((VE2 0 (xr 4 c)).view.set ∪ (VE1 0 (xr 3 c)).view.set) (d0_2 c)).1 $$ Hx0
  icases Hx0 with ⟨HA', Hx0⟩
  ihave Hx0 := (heldBut_take_view (F := F) c (VE0 0 c) (((VE2 0 (xr 4 c)).view.set ∪ (VE1 0 (xr 3 c)).view.set) ∪ (VE0 0 (xr 1 c)).view.set) (d0_3 c)).1 $$ Hx0
  icases Hx0 with ⟨HA, Hx0⟩
  ihave Hx1 := (heldBut_of_whole (F := F) c cc0_scratch1 _) $$ Hx1
  ihave Hx1 := (heldBut_take_view_empty (F := F) c (VE2 1 (xr 1 c))).1 $$ Hx1
  icases Hx1 with ⟨HG', Hx1⟩
  ihave Hx1 := (heldBut_take_view (F := F) c (VE1 1 (xr 4 c)) (VE2 1 (xr 1 c)).view.set (d1_1 c)).1 $$ Hx1
  icases Hx1 with ⟨HE', Hx1⟩
  ihave Hx1 := (heldBut_take_view (F := F) c (VE0 1 (xr 3 c)) ((VE2 1 (xr 1 c)).view.set ∪ (VE1 1 (xr 4 c)).view.set) (d1_2 c)).1 $$ Hx1
  icases Hx1 with ⟨HD', Hx1⟩
  ihave Hx1 := (heldBut_take_view (F := F) c (VE0 1 c) (((VE2 1 (xr 1 c)).view.set ∪ (VE1 1 (xr 4 c)).view.set) ∪ (VE0 1 (xr 3 c)).view.set) (d1_3 c)).1 $$ Hx1
  icases Hx1 with ⟨HD, Hx1⟩
  -- entry signal to c xor 1: it is handed the slot of its first copy of stream 0
  conv => rhs; simp only [dev1_eq]
  iapply (wp_signal_bar (F := F) c 1 0 K (O₁ c) rfl W (routes1 c)) $$ [HO TB1 HA']
  · isplitr; · iexact HI
    isplitr; · iexact HR
    isplitl [HO]; · iexact HO
    isplitl [TB1]; · iexact TB1
    rw [payBar_to_1]
    iapply (grant_intro (F := F) c (VE0 0 (xr 1 c)) 11 (by omega) (by omega) (agR 0 0) (by decide))
    isplitr; · iexact HR
    iexact HA'
  iintro HO
  sl_exec

  -- entry signal to c xor 3: the slot of its first copy of stream 1
  conv => rhs; simp only [dev2_eq]
  iapply (wp_signal_bar (F := F) c 3 1 K (O₂ c) rfl W (routes3 c)) $$ [HO TB3 HD']
  · isplitr; · iexact HI
    isplitr; · iexact HR
    isplitl [HO]; · iexact HO
    isplitl [TB3]; · iexact TB3
    rw [payBar_to_3]
    iapply (grant_intro (F := F) c (VE0 1 (xr 3 c)) 17 (by omega) (by omega) (agR 1 0) (by decide))
    isplitr; · iexact HR
    iexact HD'
  iintro HO
  sl_exec
  -- entry signal to c xor 4: the slot of its second copy of stream 1
  conv => rhs; simp only [dev3_eq]
  iapply (wp_signal_bar (F := F) c 4 2 K (owedFrom c 0) rfl W (routes4 c)) $$ [HO TB4 HE']
  · isplitr; · iexact HI
    isplitr; · iexact HR
    isplitl [HO]; · iexact HO
    isplitl [TB4]; · iexact TB4
    rw [payBar_to_4]
    iapply (grant_intro (F := F) c (VE1 1 (xr 4 c)) 18 (by omega) (by omega) (agR 1 1) (by decide))
    isplitr; · iexact HR
    iexact HE'
  iintro HO
  sl_exec
  -- the wait for the partners' three signals: their slots for the first copies of this device
  iapply (wp_wait_bar (F := F) c K (owedFrom c 0) W) $$ [CB HO HaB]
  · isplitr; · iexact HI
    isplitl [CB]; · iexact CB
    isplitl [HO]; · iexact HO
    isplitr; · iapply (mayWait_bar (F := F) c); iexact Hlev
    iexact HaB
  iintro ⟨HO, HaB, #HrB, HP0, HP1, HP2⟩
  ihave HP0 := (payBar_0_elim (F := F) c) $$ HP0
  icases HP0 with ⟨HgA, #HrA⟩
  ihave HP1 := (payBar_1_elim (F := F) c) $$ HP1
  icases HP1 with ⟨HgD, #HrD⟩
  ihave HP2 := (payBar_2_elim (F := F) c) $$ HP2
  icases HP2 with ⟨HgE, #HrE⟩
  sl_exec

  -- copy 0: the own block of stream 0 to c xor 1, into the slot it handed over; with its landing it is handed the slot
  -- of its third copy of stream 1
  ihave HA := (ownAt_elim (F := F) c (VE0 0 c)) $$ HA
  icases HA with ⟨%fA, HA⟩
  iapply (send_copy_printed (F := F) c (xr 1 c) _ (dev4_eq c) (VE0 0 c) (VE0 0 c) 8 11 0 1 _ _ sem_ag0s_0 sem_ag0r_0
      (by omega) (by omega) (by decide) (by decide)
      (credit_VE0 0 c) (amtDma_sendOf 11 0 (Or.inl ⟨by omega, by omega⟩)) (grant c (VE2 1 (xr 1 c)) (agR 1 2) 0) fullShare fA
      (ownAt_of c (VE0 0 c) fA) (payR_11 c) K (owedFrom c 1) (owedFrom_succ c 0 _ rfl) _ (routes1 c)) $$ [HA HgA HG' HO T0a T0b]
  · isplitr; · iexact HI
    isplitl [HA]; · iexact HA
    isplitl [HgA]; · iexact HgA
    isplitl [HG']
    · iapply (grant_intro (F := F) c (VE2 1 (xr 1 c)) 19 (by omega) (by omega) (agR 1 2) (by decide))
      isplitr; · iexact HR
      iexact HG'
    isplitl [HO]; · iexact HO
    isplitl [T0a]; · iexact T0a
    isplitr; · iapply (reached_dma (F := F) c 8 (by omega) (by omega)); iexact HR
    isplitl [T0b]; · iexact T0b
    iexact HrA
  iintro ⟨Cs0, HO⟩
  sl_exec
  -- copy 1: the own block of stream 1 to c xor 3; with its landing it is handed the slot of its second copy of stream 0
  ihave HD := (ownAt_elim (F := F) c (VE0 1 c)) $$ HD
  icases HD with ⟨%fD, HD⟩
  iapply (send_copy_printed (F := F) c (xr 3 c) _ (dev5_eq c) (VE0 1 c) (VE0 1 c) 14 17 0 2 _ _ sem_ag1s_0 sem_ag1r_0
      (by omega) (by omega) (by decide) (by decide)
      (credit_VE0 1 c) (amtDma_sendOf 17 0 (Or.inl ⟨by omega, by omega⟩)) (grant c (VE1 0 (xr 3 c)) (agR 0 1) 0) fullShare fD
      (ownAt_of c (VE0 1 c) fD) (payR_17 c) K (owedFrom c 2) (owedFrom_succ c 1 _ rfl) _ (routes3 c)) $$ [HD HgD HB' HO T1a T1b]
  · isplitr; · iexact HI
    isplitl [HD]; · iexact HD
    isplitl [HgD]; · iexact HgD
    isplitl [HB']
    · iapply (grant_intro (F := F) c (VE1 0 (xr 3 c)) 12 (by omega) (by omega) (agR 0 1) (by decide))
      isplitr; · iexact HR
      iexact HB'
    isplitl [HO]; · iexact HO
    isplitl [T1a]; · iexact T1a
    isplitr; · iapply (reached_dma (F := F) c 14 (by omega) (by omega)); iexact HR
    isplitl [T1b]; · iexact T1b
    iexact HrD
  iintro ⟨Cs1, HO⟩
  -- the first layer's weights are cast
  sl_exec

  -- copy 0 is waited for: its source comes back …
  first | sl_exec | skip
  try (conv => rhs; simp only [Prog.lift, Prog.bind_op, Prog.bind_ret, Prog.pure_eq_ret, sem_ag0s_0])
  iapply (wp_wait_copy (F := F) c 8 0 1 (by omega) (by decide) K (owedFrom c 2) _
      (hw_waitDma2 (F := F) c 8 0 ((credit_VE0 0 c).trans (amtDma_sendOf 11 0 (Or.inl ⟨by omega, by omega⟩)).symm))) $$ [Cs0 HO Ha8]
  · isplitr; · iexact HI
    isplitl [Cs0]; · iexact Cs0
    isplitl [HO]; · iexact HO
    isplitr; · iapply (mayWait_copy (F := F) c (dsem 8) 0 2 (by omega) (by omega)); iexact Hlev
    iexact Ha8
  iintro ⟨HO, Ha8, #Hr8, HA⟩
  ihave HA := (pay_8_elim (F := F) c) $$ HA
  -- … and the partner's block has landed, with its slot for the third copy of stream 1
  first | sl_exec | skip
  try (conv => rhs; simp only [Prog.lift, Prog.bind_op, Prog.bind_ret, Prog.pure_eq_ret, sem_ag0r_0])
  iapply (wp_wait_copy (F := F) c 11 0 1 (by omega) (by decide) K (owedFrom c 2) _
      (hw_waitDma2 (F := F) c 11 0 (credit_VE0 0 c))) $$ [C0 HO Ha11]
  · isplitr; · iexact HI
    isplitl [C0]; · iexact C0
    isplitl [HO]; · iexact HO
    isplitr; · iapply (mayWait_copy (F := F) c (dsem 11) 0 2 (by omega) (by omega)); iexact Hlev
    iexact Ha11
  iintro ⟨HO, Ha11, #Hr11, HP11⟩
  ihave HP11 := (pay_11_elim (F := F) c) $$ HP11
  icases HP11 with ⟨HA', HG1⟩
  -- copy 1 is waited for: its source comes back …
  first | sl_exec | skip
  try (conv => rhs; simp only [Prog.lift, Prog.bind_op, Prog.bind_ret, Prog.pure_eq_ret, sem_ag1s_0])
  iapply (wp_wait_copy (F := F) c 14 0 2 (by omega) (by decide) K (owedFrom c 2) _
      (hw_waitDma2 (F := F) c 14 0 ((credit_VE0 1 c).trans (amtDma_sendOf 17 0 (Or.inl ⟨by omega, by omega⟩)).symm))) $$ [Cs1 HO Ha14]
  · isplitr; · iexact HI
    isplitl [Cs1]; · iexact Cs1
    isplitl [HO]; · iexact HO
    isplitr; · iapply (mayWait_copy (F := F) c (dsem 14) 1 2 (by omega) (by omega)); iexact Hlev
    iexact Ha14
  iintro ⟨HO, Ha14, #Hr14, HD⟩
  ihave HD := (pay_14_elim (F := F) c) $$ HD
  -- … and the partner's block has landed, with its slot for the second copy of stream 0
  first | sl_exec | skip
  try (conv => rhs; simp only [Prog.lift, Prog.bind_op, Prog.bind_ret, Prog.pure_eq_ret, sem_ag1r_0])
  iapply (wp_wait_copy (F := F) c 17 0 2 (by omega) (by decide) K (owedFrom c 2) _
      (hw_waitDma2 (F := F) c 17 0 (credit_VE0 1 c))) $$ [C1 HO Ha17]
  · isplitr; · iexact HI
    isplitl [C1]; · iexact C1
    isplitl [HO]; · iexact HO
    isplitr; · iapply (mayWait_copy (F := F) c (dsem 17) 1 2 (by omega) (by omega)); iexact Hlev
    iexact Ha17
  iintro ⟨HO, Ha17, #Hr17, HP17⟩
  ihave HP17 := (pay_17_elim (F := F) c) $$ HP17
  icases HP17 with ⟨HD', HG3⟩
  ihave HG3 := (grant_elim_at (F := F) (xr 3 c) (VE1 0 c) (agR 0 1) 0 12 (by decide)) $$ HG3
  icases HG3 with ⟨HgB, #HrgB⟩
  first | sl_exec | skip
  try (conv => rhs; simp only [Prog.lift, Prog.bind_op, Prog.bind_ret, Prog.pure_eq_ret])

  -- the own block and the partner's go back into the first gather buffer and come out as the own pair of blocks;
  -- half of it is lent to copy 2, the other half stays for the matrix products
  ihave Hx0 := (heldBut_put_right (F := F) c (VE0 0 c) (((VE2 0 (xr 4 c)).view.set ∪ (VE1 0 (xr 3 c)).view.set) ∪ (VE0 0 (xr 1 c)).view.set) (d0_3 c)) $$ [HA Hx0]
  · isplitl [HA]; · iexact HA
    iexact Hx0
  ihave Hx0 := (heldBut_put_right (F := F) c (VE0 0 (xr 1 c)) ((VE2 0 (xr 4 c)).view.set ∪ (VE1 0 (xr 3 c)).view.set) (d0_2 c)) $$ [HA' Hx0]
  · isplitl [HA']; · iexact HA'
    iexact Hx0
  ihave Hx0 := (heldBut_take_view (F := F) c (VE1 0 c) ((VE2 0 (xr 4 c)).view.set ∪ (VE1 0 (xr 3 c)).view.set) (d0_4 c)).1 $$ Hx0
  icases Hx0 with ⟨HB, Hx0⟩
  ihave HB := (ownAt_elim (F := F) c (VE1 0 c)) $$ HB
  icases HB with ⟨%fB, HB⟩
  ihave HB := (halves_split (F := F) fB).1 $$ HB
  icases HB with ⟨HBl, HBr⟩
  -- the slot of the first receive buffer for the partner's third reduce step
  ihave Hy0 := (heldBut_of_whole (F := F) c cc0_scratch6 _) $$ Hy0
  ihave Hy0 := (heldBut_take_view_empty (F := F) c (R2 0)).1 $$ Hy0
  icases Hy0 with ⟨HR2, Hy0⟩
  -- copy 2: the own pair of blocks of stream 0 to c xor 3
  iapply (send_copy_printed (F := F) c (xr 3 c) _ (dev6_eq c) (VE1 0 c) (VE1 0 c) 9 12 0 3 _ _ sem_ag0s_1 sem_ag0r_1
      (by omega) (by omega) (by decide) (by decide)
      (credit_VE1 0 c) (amtDma_sendOf 12 0 (Or.inl ⟨by omega, by omega⟩)) (grant c (R2 0) (rsR 0 1) 0) fullShare.left fB
      (ownHalf_of c (VE1 0 c) fB) (payR_12 c) K (owedFrom c 3) (owedFrom_succ c 2 _ rfl) _ (routes3 c)) $$ [HBl HgB HR2 HO T2a T2b]
  · isplitr; · iexact HI
    isplitl [HBl]; · iexact HBl
    isplitl [HgB]; · iexact HgB
    isplitl [HR2]
    · iapply (grant_intro (F := F) c (R2 0) 26 (by omega) (by omega) (rsR 0 1) (by decide))
      isplitr; · iexact HR
      iexact HR2
    isplitl [HO]; · iexact HO
    isplitl [T2a]; · iexact T2a
    isplitr; · iapply (reached_dma (F := F) c 9 (by omega) (by omega)); iexact HR
    isplitl [T2b]; · iexact T2b
    iexact HrgB
  iintro ⟨Cs2, HO⟩
  first | sl_exec | skip
  try (conv => rhs; simp only [Prog.lift, Prog.bind_op, Prog.bind_ret, Prog.pure_eq_ret])
  -- the same for stream 1
  ihave Hx1 := (heldBut_put_right (F := F) c (VE0 1 c) (((VE2 1 (xr 1 c)).view.set ∪ (VE1 1 (xr 4 c)).view.set) ∪ (VE0 1 (xr 3 c)).view.set) (d1_3 c)) $$ [HD Hx1]
  · isplitl [HD]; · iexact HD
    iexact Hx1
  ihave Hx1 := (heldBut_put_right (F := F) c (VE0 1 (xr 3 c)) ((VE2 1 (xr 1 c)).view.set ∪ (VE1 1 (xr 4 c)).view.set) (d1_2 c)) $$ [HD' Hx1]
  · isplitl [HD']; · iexact HD'
    iexact Hx1
  ihave Hx1 := (heldBut_take_view (F := F) c (VE1 1 c) ((VE2 1 (xr 1 c)).view.set ∪ (VE1 1 (xr 4 c)).view.set) (d1_4 c)).1 $$ Hx1
  icases Hx1 with ⟨HE, Hx1⟩
  ihave HE := (ownAt_elim (F := F) c (VE1 1 c)) $$ HE
  icases HE with ⟨%fE, HE⟩
  ihave HE := (halves_split (F := F) fE).1 $$ HE
  icases HE with ⟨HEl, HEr⟩
  -- copy 3: the own pair of blocks of stream 1 to c xor 4
  iapply (send_copy_printed (F := F) c (xr 4 c) _ (dev7_eq c) (VE1 1 c) (VE1 1 c) 15 18 0 4 _ _ sem_ag1s_1 sem_ag1r_1
      (by omega) (by omega) (by decide) (by decide)
      (credit_VE1 1 c) (amtDma_sendOf 18 0 (Or.inl ⟨by omega, by omega⟩)) (grant c (VE2 0 (xr 4 c)) (agR 0 2) 0) fullShare.left fE
      (ownHalf_of c (VE1 1 c) fE) (payR_18 c) K (owedFrom c 4) (owedFrom_succ c 3 _ rfl) _ (routes4 c)) $$ [HEl HgE HC' HO T3a T3b]
  · isplitr; · iexact HI
    isplitl [HEl]; · iexact HEl
    isplitl [HgE]; · iexact HgE
    isplitl [HC']
    · iapply (grant_intro (F := F) c (VE2 0 (xr 4 c)) 13 (by omega) (by omega) (agR 0 2) (by decide))
      isplitr; · iexact HR
      iexact HC'
    isplitl [HO]; · iexact HO
    isplitl [T3a]; · iexact T3a
    isplitr; · iapply (reached_dma (F := F) c 15 (by omega) (by omega)); iexact HR
    isplitl [T3b]; · iexact T3b
    iexact HrE
  iintro ⟨Cs3, HO⟩
  -- the matrix products of the first layer run on the own pair of blocks of each stream while copies 2 and 3 fly:
  -- the rows they read lie in the pair, of which half a share stayed
  first | sl_exec | skip
  try (conv => rhs; simp only [Prog.lift, Prog.bind_op, Prog.bind_ret, Prog.pure_eq_ret])
  iapply (wp_load Variants.none (c : Thread nD τ) none Set.univ (sub_off7 c)) $$ [HBr]
  · iexact HBr
  iintro HBr
  first | sl_exec | skip
  try (conv => rhs; simp only [Prog.lift, Prog.bind_op, Prog.bind_ret, Prog.pure_eq_ret])
  iapply (wp_load Variants.none (c : Thread nD τ) none Set.univ (sub_off8 c)) $$ [HEr]
  · iexact HEr
  iintro HEr

  -- copy 2 is waited for: the lent half comes back, and the own pair of blocks goes back into the buffer …
  first | sl_exec | skip
  try (conv => rhs; simp only [Prog.lift, Prog.bind_op, Prog.bind_ret, Prog.pure_eq_ret, sem_ag0s_1])
  iapply (wp_wait_copy (F := F) c 9 0 3 (by omega) (by decide) K (owedFrom c 4) _
      (hw_waitDma2 (F := F) c 9 0 ((credit_VE1 0 c).trans (amtDma_sendOf 12 0 (Or.inl ⟨by omega, by omega⟩)).symm))) $$ [Cs2 HO Ha9]
  · isplitr; · iexact HI
    isplitl [Cs2]; · iexact Cs2
    isplitl [HO]; · iexact HO
    isplitr; · iapply (mayWait_copy (F := F) c (dsem 9) 2 4 (by omega) (by omega)); iexact Hlev
    iexact Ha9
  iintro ⟨HO, Ha9, #Hr9, HP9⟩
  ihave HP9 := (pay_9_elim (F := F) c) $$ HP9
  ihave HB := (ownHalf_join (F := F) c (VE1 0 c) fB) $$ [HP9 HBr]
  · isplitl [HP9]; · iexact HP9
    iexact HBr
  ihave HB := (ownAt_of (F := F) c (VE1 0 c) fB) $$ HB
  ihave Hx0 := (heldBut_put_right (F := F) c (VE1 0 c) ((VE2 0 (xr 4 c)).view.set ∪ (VE1 0 (xr 3 c)).view.set) (d0_4 c)) $$ [HB Hx0]
  · isplitl [HB]; · iexact HB
    iexact Hx0

  -- … and the partner's pair has landed, with its slot for the third reduce step of stream 0
  first | sl_exec | skip
  try (conv => rhs; simp only [Prog.lift, Prog.bind_op, Prog.bind_ret, Prog.pure_eq_ret, sem_ag0r_1])
  iapply (wp_wait_copy (F := F) c 12 0 3 (by omega) (by decide) K (owedFrom c 4) _
      (hw_waitDma2 (F := F) c 12 0 (credit_VE1 0 c))) $$ [C2 HO Ha12]
  · isplitr; · iexact HI
    isplitl [C2]; · iexact C2
    isplitl [HO]; · iexact HO
    isplitr; · iapply (mayWait_copy (F := F) c (dsem 12) 2 4 (by omega) (by omega)); iexact Hlev
    iexact Ha12
  iintro ⟨HO, Ha12, #Hr12, HP12⟩
  ihave HP12 := (pay_12_elim (F := F) c) $$ HP12
  icases HP12 with ⟨HB', HG2⟩
  ihave Hx0 := (heldBut_put_right (F := F) c (VE1 0 (xr 3 c)) (VE2 0 (xr 4 c)).view.set (d0_1 c)) $$ [HB' Hx0]
  · isplitl [HB']; · iexact HB'
    iexact Hx0

  -- copy 3 is waited for: the same for stream 1 …
  first | sl_exec | skip
  try (conv => rhs; simp only [Prog.lift, Prog.bind_op, Prog.bind_ret, Prog.pure_eq_ret, sem_ag1s_1])
  iapply (wp_wait_copy (F := F) c 15 0 4 (by omega) (by decide) K (owedFrom c 4) _
      (hw_waitDma2 (F := F) c 15 0 ((credit_VE1 1 c).trans (amtDma_sendOf 18 0 (Or.inl ⟨by omega, by omega⟩)).symm))) $$ [Cs3 HO Ha15]
  · isplitr; · iexact HI
    isplitl [Cs3]; · iexact Cs3
    isplitl [HO]; · iexact HO
    isplitr; · iapply (mayWait_copy (F := F) c (dsem 15) 3 4 (by omega) (by omega)); iexact Hlev
    iexact Ha15
  iintro ⟨HO, Ha15, #Hr15, HP15⟩
  ihave HP15 := (pay_15_elim (F := F) c) $$ HP15
  ihave HE := (ownHalf_join (F := F) c (VE1 1 c) fE) $$ [HP15 HEr]
  · isplitl [HP15]; · iexact HP15
    iexact HEr
  ihave HE := (ownAt_of (F := F) c (VE1 1 c) fE) $$ HE
  ihave Hx1 := (heldBut_put_right (F := F) c (VE1 1 c) ((VE2 1 (xr 1 c)).view.set ∪ (VE1 1 (xr 4 c)).view.set) (d1_4 c)) $$ [HE Hx1]
  · isplitl [HE]; · iexact HE
    iexact Hx1

  -- … and the partner's pair has landed, with its slot for the third copy of stream 0
  first | sl_exec | skip
  try (conv => rhs; simp only [Prog.lift, Prog.bind_op, Prog.bind_ret, Prog.pure_eq_ret, sem_ag1r_1])
  iapply (wp_wait_copy (F := F) c 18 0 4 (by omega) (by decide) K (owedFrom c 4) _
      (hw_waitDma2 (F := F) c 18 0 (credit_VE1 1 c))) $$ [C3 HO Ha18]
  · isplitr; · iexact HI
    isplitl [C3]; · iexact C3
    isplitl [HO]; · iexact HO
    isplitr; · iapply (mayWait_copy (F := F) c (dsem 18) 3 4 (by omega) (by omega)); iexact Hlev
    iexact Ha18
  iintro ⟨HO, Ha18, #Hr18, HP18⟩
  ihave HP18 := (pay_18_elim (F := F) c) $$ HP18
  icases HP18 with ⟨HE', HG4⟩
  ihave Hx1 := (heldBut_put_right (F := F) c (VE1 1 (xr 4 c)) (VE2 1 (xr 1 c)).view.set (d1_1 c)) $$ [HE' Hx1]
  · isplitl [HE']; · iexact HE'
    iexact Hx1
  first | sl_exec | skip
  try (conv => rhs; simp only [Prog.lift, Prog.bind_op, Prog.bind_ret, Prog.pure_eq_ret])

  -- the first quiet state
  rw [wp_ret]; imodintro
  isplitr
  · ipureintro; rfl
  iexists K
  iapply (Q4_intro (F := F) K c)
  isplitr; · iexact HI
  isplitr; · iexact HR
  isplitr; · iexact Hlev
  isplitl [HaB]; · iexact HaB
  isplitl [Ha8]; · iexact Ha8
  isplitl [Ha9]; · iexact Ha9
  isplitl [Ha10]; · iexact Ha10
  isplitl [Ha11]; · iexact Ha11
  isplitl [Ha12]; · iexact Ha12
  isplitl [Ha13]; · iexact Ha13
  isplitl [Ha14]; · iexact Ha14
  isplitl [Ha15]; · iexact Ha15
  isplitl [Ha16]; · iexact Ha16
  isplitl [Ha17]; · iexact Ha17
  isplitl [Ha18]; · iexact Ha18
  isplitl [Ha19]; · iexact Ha19
  isplitl [Ha20]; · iexact Ha20
  isplitl [Ha21]; · iexact Ha21
  isplitl [Ha22]; · iexact Ha22
  isplitl [Ha23]; · iexact Ha23
  isplitl [Ha24]; · iexact Ha24
  isplitl [Ha25]; · iexact Ha25
  isplitl [Ha26]; · iexact Ha26
  isplitl [Ha27]; · iexact Ha27
  isplitl [Ha28]; · iexact Ha28
  isplitl [Ha29]; · iexact Ha29
  isplitl [Ha30]; · iexact Ha30
  isplitl [Ha31]; · iexact Ha31
  isplitl [Ha32]; · iexact Ha32
  isplitl [Ha33]; · iexact Ha33
  isplitl [Ha34]; · iexact Ha34
  isplitl [Ha35]; · iexact Ha35
  isplitl [Ha36]; · iexact Ha36
  isplitl [Ha37]; · iexact Ha37
  isplitl [Ha38]; · iexact Ha38
  isplitl [Ha39]; · iexact Ha39
  isplitr; · iexact Hr8
  isplitr; · iexact Hr9
  isplitr; · iexact Hr11
  isplitr; · iexact Hr12
  isplitr; · iexact Hr14
  isplitr; · iexact Hr15
  isplitr; · iexact Hr17
  isplitr; · iexact Hr18
  isplitl [Htoks]; · iexact Htoks
  isplitl [Hcreds]; · iexact Hcreds
  isplitl [HO]; · (iexists _; iexact HO)
  isplitl [Hw0 Hw1 Hw2 Hw3 Hw4 Hw5 Hw6 Hw7 Hs2 Hs3 Hs4 Hs5 Hs8 Hs9]
  · rw [localBufs_eq]
    isplitl [Hw0]; · (iapply (ptw_of_set (F := F) c cc0_stg0_0 _); iexact Hw0)
    isplitl [Hw1]; · (iapply (ptw_of_set (F := F) c cc0_stg1_0 _); iexact Hw1)
    isplitl [Hw2]; · (iapply (ptw_of_set (F := F) c cc0_stg2_0 _); iexact Hw2)
    isplitl [Hw3]; · (iapply (ptw_of_set (F := F) c cc0_stg3_0 _); iexact Hw3)
    isplitl [Hw4]; · (iapply (ptw_of_set (F := F) c cc0_stg4_0 _); iexact Hw4)
    isplitl [Hw5]; · (iapply (ptw_of_set (F := F) c cc0_stg5_0 _); iexact Hw5)
    isplitl [Hw6]; · (iapply (ptw_of_set (F := F) c cc0_stg6_0 _); iexact Hw6)
    isplitl [Hw7]; · (iapply (ptw_of_set (F := F) c cc0_stg7_0 _); iexact Hw7)
    isplitl [Hs2]; · (iexists _; iexact Hs2)
    isplitl [Hs3]; · (iexists _; iexact Hs3)
    isplitl [Hs4]; · (iexists _; iexact Hs4)
    isplitl [Hs5]; · (iexists _; iexact Hs5)
    isplitl [Hs8]; · (iexists _; iexact Hs8)
    iexists _; iexact Hs9
  isplitl [Hx0]; · iexact Hx0
  isplitl [Hx1]; · iexact Hx1
  isplitl [Hy0]; · iexact Hy0
  isplitl [Hy1]; · (iapply (heldBut_of_whole (F := F) c cc0_scratch7 _); iexact Hy1)
  isplitl [HG4]; · iexact HG4
  isplitl [HG1]; · iexact HG1
  iexact HG2

/-- info: 'Cert.Kernel.Hand.seg1_ok' depends on axioms: [propext, Classical.choice, Quot.sound] -/
#guard_msgs in #print axioms seg1_ok

end Cert.Kernel.Hand
end
-- ==== Proof.Kernel.Seg2.lean ====
/- The third exchange of the gather, in layer 0 (segment 2) and in the last layer (segment 11).

   Each stream sends its own aligned four row blocks to the partner of the exchange, into the same rows there, and
   receives the partner's four into the other half of its gather buffer. While the two copies fly the matrix
   products go on over the other pair of own blocks, so a copy borrows only half the share of its source rows;
   the send wait brings that half back, the receive wait brings the partner's rows, and the buffer is whole.
   With its copy a device hands the partner its own two receive slots of the half-block reduce steps to come (the
   partner writes them next); the landing of the partner's copy brings the partner's two slots in return. -/
import proofs.«900979_g7700000000000980_dist_mlpseq_tp1d_bs_bs_b256_d256_h512_v7x_i8_bf16_1_alg».proof.Proof.Kernel.Specs
import proofs.«900979_g7700000000000980_dist_mlpseq_tp1d_bs_bs_b256_d256_h512_v7x_i8_bf16_1_alg».proof.Proof.Kernel.Steps
import proofs.«900979_g7700000000000980_dist_mlpseq_tp1d_bs_bs_b256_d256_h512_v7x_i8_bf16_1_alg».proof.Proof.Kernel.QuietLemmas

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig ℕ (Elt F) ℕ UU ℕ

/-! ## The semaphores of the third exchange and of the slots handed over with it, by number -/

theorem s2_agR_02 : (agR 0 2 : DmaSem sig) = dsem 13 := by decide
theorem s2_agR_12 : (agR 1 2 : DmaSem sig) = dsem 19 := by decide
theorem s2_rsR_00 : (rsR 0 0 : DmaSem sig) = dsem 25 := by decide
theorem s2_rsR_04 : (rsR 0 4 : DmaSem sig) = dsem 29 := by decide
theorem s2_rsR_10 : (rsR 1 0 : DmaSem sig) = dsem 35 := by decide
theorem s2_rsR_14 : (rsR 1 4 : DmaSem sig) = dsem 39 := by decide

theorem s2_heldBut_eq (c : Dev nD) (b : Ref sig .tc) (A : Finset (Idx ((Memref.whole b).view.loc (c : Thread nD τ)))) :
    heldBut (F := F) c b A = iprop(∃ f : Buf (Elt F) ((Memref.whole b).view.loc (c : Thread nD τ)),
      (Memref.whole b).view.loc (c : Thread nD τ) ↦[Finset.univ \ A]{fullShare} f) := rfl

/-! ## What the landing of the third exchange hands the partner

    Device `c`'s copy lands on the partner's receive cell; read at the partner, the payload of that cell names the
    partner's partner, which is `c` again: the four row blocks as written, and `c`'s own two receive slots of the
    half-block reduce steps, each with the fact that `c`'s receive cell has reached the layer's round. -/

theorem s2_payR13 (c : Dev nD) (l : ℕ) :
    iprop(ownAt (F := F) (xr 4 c) (VE2 0 c)
        ∗ ((ownAt c (R0 0) ∗ reached ER (dcell c (dsem 25)) l) ∗ (ownAt c (R1 0) ∗ reached ER (dcell c (dsem 29)) l)))
      ⊢ payDma (xr 4 c) 13 l := by
  show _ ⊢ iprop(ownAt (xr 4 c) (VE2 0 (xr 4 (xr 4 c))) ∗ grant (xr 4 (xr 4 c)) (R0 0) (rsR 0 0) l ∗ grant (xr 4 (xr 4 c)) (R1 0) (rsR 0 4) l)
  rw [xr_xr, grant_eq, grant_eq, s2_rsR_00, s2_rsR_04]

theorem s2_payR19 (c : Dev nD) (l : ℕ) :
    iprop(ownAt (F := F) (xr 1 c) (VE2 1 c)
        ∗ ((ownAt c (R0 1) ∗ reached ER (dcell c (dsem 35)) l) ∗ (ownAt c (R1 1) ∗ reached ER (dcell c (dsem 39)) l)))
      ⊢ payDma (xr 1 c) 19 l := by
  show _ ⊢ iprop(ownAt (xr 1 c) (VE2 1 (xr 1 (xr 1 c))) ∗ grant (xr 1 (xr 1 c)) (R0 1) (rsR 1 0) l ∗ grant (xr 1 (xr 1 c)) (R1 1) (rsR 1 4) l)
  rw [xr_xr, grant_eq, grant_eq, s2_rsR_10, s2_rsR_14]

/-! ## The receive slots handed over, out of the receive buffers -/

theorem s2_take6 (c : Dev nD) :
    heldBut (F := F) c cc0_scratch6 (R2 0).view.set
      ⊢ iprop(ownAt c (R0 0) ∗ ownAt c (R1 0)
          ∗ heldBut c cc0_scratch6 ((R0 0).view.set ∪ (R1 0).view.set ∪ (R2 0).view.set)) := by
  refine (heldBut_take_view (F := F) c (R0 0) (R2 0).view.set (disj_R0_R2 0).symm).1.trans ?_
  refine sep_mono_right ?_
  refine (heldBut_take_view (F := F) c (R1 0) ((R2 0).view.set ∪ (R0 0).view.set)
    (Finset.disjoint_union_left.mpr ⟨(disj_R1_R2 0).symm, disj_R0_R1 0⟩)).1.trans ?_
  refine sep_mono_right ?_
  rw [heldBut_congr c cc0_scratch6 (show (R2 0).view.set ∪ (R0 0).view.set ∪ (R1 0).view.set
      = (R0 0).view.set ∪ (R1 0).view.set ∪ (R2 0).view.set from by rw [Finset.union_assoc, Finset.union_comm])]

theorem s2_take7 (c : Dev nD) :
    heldBut (F := F) c cc0_scratch7 ∅
      ⊢ iprop(ownAt c (R0 1) ∗ ownAt c (R1 1) ∗ heldBut c cc0_scratch7 ((R0 1).view.set ∪ (R1 1).view.set)) := by
  refine (heldBut_take_view_empty (F := F) c (R0 1)).1.trans ?_
  refine sep_mono_right ?_
  exact (heldBut_take_view (F := F) c (R1 1) (R0 1).view.set (disj_R0_R1 1)).1

/-! ## The gather buffers during the third exchange

    All that is held of a gather buffer is the device's own four row blocks (the partner's four are away). The copy
    borrows the left half of their share; the right half stays, and the matrix products read the other pair of
    blocks through it. When both waits are over the halves are one again and the partner's four blocks have landed:
    the buffer is whole. -/

/-- On a whole buffer the elements under a set of indices are that set. -/
theorem s2_setOn_whole (b : Ref sig .tc) (M : Finset b.ty.shape.Idx) : (Memref.whole b).view.setOn M = M := by
  show M.map (View.whole b).emb = M
  rw [View.emb_whole]; exact Finset.map_refl

/-- A read through a rectangle inside the elements held reads held elements. -/
theorem s2_load_ok (b : Ref sig .tc) (r : Rect b.ty.shape) (B : Finset b.ty.shape.Idx) (h : r.set ⊆ B) :
    (Memref.whole b).view.setOn r.toLoadRect.set ⊆ B := by
  rw [s2_setOn_whole]; exact h

theorem s2_sub0 (c : Dev nD) :
    (Rect.unit (s := S1024x256) (k0_off11 c) S256x256.size (k0_off11_inb c)).set ⊆ (VE2 0 c).view.set := by
  rw [← set_slice_of_whole cc0_scratch0 (Rect.unit (s := S1024x256) (k0_off11 c) S256x256.size (k0_off11_inb c)) (fun _ => rfl)]
  exact sub_slices cc0_scratch0 (by revert c; decide +kernel)

theorem s2_sub1 (c : Dev nD) :
    (Rect.unit (s := S1024x256) (k0_off12 c) S256x256.size (k0_off12_inb c)).set ⊆ (VE2 1 c).view.set := by
  rw [← set_slice_of_whole cc0_scratch1 (Rect.unit (s := S1024x256) (k0_off12 c) S256x256.size (k0_off12_inb c)) (fun _ => rfl)]
  exact sub_slices cc0_scratch1 (by revert c; decide +kernel)

theorem s2_open0 (c : Dev nD) :
    heldBut (F := F) c cc0_scratch0 (VE2 0 (xr 4 c)).view.set
      ⊢ iprop(∃ f : Buf (Elt F) ((Memref.whole cc0_scratch0).view.loc (c : Thread nD τ)),
          ((VE2 0 c).view.loc (c : Thread nD τ) ↦[(VE2 0 c).view.set]{fullShare.left} f)
          ∗ ((Memref.whole cc0_scratch0).view.loc (c : Thread nD τ) ↦[(VE2 0 c).view.set]{fullShare.right} f)
          ∗ ((Memref.whole cc0_scratch0).view.loc (c : Thread nD τ) ↦[(Finset.univ \ (VE2 0 (xr 4 c)).view.set) \ (VE2 0 c).view.set]{fullShare} f)) := by
  have key : ∀ f : Buf (Elt F) ((Memref.whole cc0_scratch0).view.loc (c : Thread nD τ)),
      ((Memref.whole cc0_scratch0).view.loc (c : Thread nD τ) ↦[(VE2 0 c).view.set]{fullShare.left} f : sProp 𝕄)
        ⊢ ((VE2 0 c).view.loc (c : Thread nD τ) ↦[(VE2 0 c).view.set]{fullShare.left} f) := fun f => Entails.refl _
  iintro H
  ihave H' := (heldBut_split (F := F) c cc0_scratch0 (VE2 0 (xr 4 c)).view.set (VE2 0 c).view.set (disj_VE2_0 c).symm) $$ H
  icases H' with ⟨%f, H1, H2⟩
  ihave H1' := (halves_split (F := F) f).1 $$ H1
  icases H1' with ⟨HL, HR⟩
  ihave HL' := (key f) $$ HL
  iexists f
  isplitl [HL']
  · iexact HL'
  isplitl [HR]
  · iexact HR
  iexact H2

theorem s2_open1 (c : Dev nD) :
    heldBut (F := F) c cc0_scratch1 (VE2 1 (xr 1 c)).view.set
      ⊢ iprop(∃ f : Buf (Elt F) ((Memref.whole cc0_scratch1).view.loc (c : Thread nD τ)),
          ((VE2 1 c).view.loc (c : Thread nD τ) ↦[(VE2 1 c).view.set]{fullShare.left} f)
          ∗ ((Memref.whole cc0_scratch1).view.loc (c : Thread nD τ) ↦[(VE2 1 c).view.set]{fullShare.right} f)
          ∗ ((Memref.whole cc0_scratch1).view.loc (c : Thread nD τ) ↦[(Finset.univ \ (VE2 1 (xr 1 c)).view.set) \ (VE2 1 c).view.set]{fullShare} f)) := by
  have key : ∀ f : Buf (Elt F) ((Memref.whole cc0_scratch1).view.loc (c : Thread nD τ)),
      ((Memref.whole cc0_scratch1).view.loc (c : Thread nD τ) ↦[(VE2 1 c).view.set]{fullShare.left} f : sProp 𝕄)
        ⊢ ((VE2 1 c).view.loc (c : Thread nD τ) ↦[(VE2 1 c).view.set]{fullShare.left} f) := fun f => Entails.refl _
  iintro H
  ihave H' := (heldBut_split (F := F) c cc0_scratch1 (VE2 1 (xr 1 c)).view.set (VE2 1 c).view.set (disj_VE2_1 c).symm) $$ H
  icases H' with ⟨%f, H1, H2⟩
  ihave H1' := (halves_split (F := F) f).1 $$ H1
  icases H1' with ⟨HL, HR⟩
  ihave HL' := (key f) $$ HL
  iexists f
  isplitl [HL']
  · iexact HL'
  isplitl [HR]
  · iexact HR
  iexact H2

theorem s2_close0 (c : Dev nD) (f : Buf (Elt F) ((Memref.whole cc0_scratch0).view.loc (c : Thread nD τ))) :
    iprop(ownHalf (F := F) c (VE2 0 c)
        ∗ ((Memref.whole cc0_scratch0).view.loc (c : Thread nD τ) ↦[(VE2 0 c).view.set]{fullShare.right} f)
        ∗ ((Memref.whole cc0_scratch0).view.loc (c : Thread nD τ) ↦[(Finset.univ \ (VE2 0 (xr 4 c)).view.set) \ (VE2 0 c).view.set]{fullShare} f)
        ∗ ownAt c (VE2 0 (xr 4 c)))
      ⊢ iprop(∃ h, ptw (F := F) c cc0_scratch0 h) := by
  have h1 : iprop(ownHalf (F := F) c (VE2 0 c)
        ∗ ((Memref.whole cc0_scratch0).view.loc (c : Thread nD τ) ↦[(VE2 0 c).view.set]{fullShare.right} f))
      ⊢ ((Memref.whole cc0_scratch0).view.loc (c : Thread nD τ) ↦[(VE2 0 c).view.set]{fullShare} f : sProp 𝕄) :=
    ownHalf_join c (VE2 0 c) f
  have h2 := heldBut_join (F := F) c cc0_scratch0 (VE2 0 (xr 4 c)).view.set (VE2 0 c).view.set (disj_VE2_0 c).symm f f
  have h3 : iprop(ownAt (F := F) c (VE2 0 (xr 4 c)) ∗ heldBut c cc0_scratch0 (VE2 0 (xr 4 c)).view.set)
      ⊢ iprop(∃ h, ptw (F := F) c cc0_scratch0 h) := by
    rw [← heldBut_empty]; exact heldBut_put_only c (VE2 0 (xr 4 c))
  iintro ⟨Hh, HR, Hrest, Hland⟩
  ihave H1 := h1 $$ [Hh HR]
  · isplitl [Hh]
    · iexact Hh
    · iexact HR
  ihave H2 := h2 $$ [H1 Hrest]
  · isplitl [H1]
    · iexact H1
    · iexact Hrest
  iapply h3
  isplitl [Hland]
  · iexact Hland
  · iexact H2

theorem s2_close1 (c : Dev nD) (f : Buf (Elt F) ((Memref.whole cc0_scratch1).view.loc (c : Thread nD τ))) :
    iprop(ownHalf (F := F) c (VE2 1 c)
        ∗ ((Memref.whole cc0_scratch1).view.loc (c : Thread nD τ) ↦[(VE2 1 c).view.set]{fullShare.right} f)
        ∗ ((Memref.whole cc0_scratch1).view.loc (c : Thread nD τ) ↦[(Finset.univ \ (VE2 1 (xr 1 c)).view.set) \ (VE2 1 c).view.set]{fullShare} f)
        ∗ ownAt c (VE2 1 (xr 1 c)))
      ⊢ iprop(∃ h, ptw (F := F) c cc0_scratch1 h) := by
  have h1 : iprop(ownHalf (F := F) c (VE2 1 c)
        ∗ ((Memref.whole cc0_scratch1).view.loc (c : Thread nD τ) ↦[(VE2 1 c).view.set]{fullShare.right} f))
      ⊢ ((Memref.whole cc0_scratch1).view.loc (c : Thread nD τ) ↦[(VE2 1 c).view.set]{fullShare} f : sProp 𝕄) :=
    ownHalf_join c (VE2 1 c) f
  have h2 := heldBut_join (F := F) c cc0_scratch1 (VE2 1 (xr 1 c)).view.set (VE2 1 c).view.set (disj_VE2_1 c).symm f f
  have h3 : iprop(ownAt (F := F) c (VE2 1 (xr 1 c)) ∗ heldBut c cc0_scratch1 (VE2 1 (xr 1 c)).view.set)
      ⊢ iprop(∃ h, ptw (F := F) c cc0_scratch1 h) := by
    rw [← heldBut_empty]; exact heldBut_put_only c (VE2 1 (xr 1 c))
  iintro ⟨Hh, HR, Hrest, Hland⟩
  ihave H1 := h1 $$ [Hh HR]
  · isplitl [Hh]
    · iexact Hh
    · iexact HR
  ihave H2 := h2 $$ [H1 Hrest]
  · isplitl [H1]
    · iexact H1
    · iexact Hrest
  iapply h3
  isplitl [Hland]
  · iexact Hland
  · iexact H2

/-- A whole buffer at some contents. -/
theorem s2_some (c : Dev nD) (b : Ref sig .tc) (f : Buf (Elt F) ((Memref.whole b).view.loc (c : Thread nD τ))) :
    ptw (F := F) c b f ⊢ iprop(∃ h, ptw (F := F) c b h) :=
  exists_intro (Φ := fun h => ptw (F := F) c b h) f

/-! ## The two protocol steps as the program spells them

    The program names the partner by its printed device chain and the semaphores by their printed slices; each is
    equal to the protocol's partner and numbered semaphore. -/

/-- The copy rule at the printed partner and semaphores. -/
theorem s2_send (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-- The wait for copy `k` (credit index `ι = k + 1`) on cell `j`, when `n > k` copies are issued: everything still
    owed sits above it. The owner comes back one round on with what the landing hands over. -/
theorem s2_wait (c : Dev nD) (j r r' ι k n a : ℕ) (sW : DmaSem sig) (hsW : sW = dsem j) (hj : j < 40) (hr : r < nRounds j)
    (hr' : r' = r + 1) (hι : ι = k + 1) (ha : a = amtDma j r) (hk : k < n) (hn : n ≤ 38)
    (P : sProp 𝕄) (hP : payDma (F := F) c j r = P) (K : GSem nD τ sig → ℕ) (W : Waits sig ℕ)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = amtDma j r)
    {α : Type} {Q : α → sProp 𝕄} {kk : PUnit → Prog (TpuEff nD τ sig (Elt F) Λ₀ .tc) α} :
    iprop(invsAll (F := F) K ∗ levAts L lv ∗ cred (tallyAt (dcell c (dsem j)) ι a) ∗ owes (c : Thread nD τ) (owedFrom c n) W
        ∗ atPos ER (dcell c (dsem j)) r ∅ 0)
      ⊢ iprop(((owes (c : Thread nD τ) (owedFrom c n) (insert (.dma (dsem j), ι) W) ∗ atPos ER (dcell c (dsem j)) r' ∅ 0
              ∗ reached ER (dcell c (dsem j)) r' ∗ P)
            -∗ wp frame (wpE (defs₀ (F := F)) Variants.none (c : Thread nD τ) none) Set.univ (kk ⟨⟩) Q)
          -∗ wp frame (wpE (defs₀ (F := F)) Variants.none (c : Thread nD τ) none) Set.univ
              (.op (.waitDma2 sW src dst hsrc hdst) kk) Q) := by
  subst hsW hr' hι ha hP
  iintro ⟨#HI, #Hlev, Hc, HO, Hat⟩
  iapply (wp_wait_copy (F := F) c j r (k + 1) hj hr K (owedFrom c n) W (hw_waitDma2 c j r hN)) $$ [Hc HO Hat]
  isplitr
  · iexact HI
  isplitl [Hc]
  · iexact Hc
  isplitl [HO]
  · iexact HO
  isplitr
  · iapply (mayWait_copy (F := F) c (dsem j) k n hk hn)
    iexact Hlev
  iexact Hat

theorem s2_someW (c : Dev nD) (n : ℕ) (W : Waits sig ℕ) :
    (owes (c : Thread nD τ) (owedFrom c n) W : sProp 𝕄) ⊢ iprop(∃ W, owes (c : Thread nD τ) (owedFrom c n) W) :=
  exists_intro (Φ := fun W => (owes (c : Thread nD τ) (owedFrom c n) W : sProp 𝕄)) W

set_option maxHeartbeats 4000000 in
theorem seg2_ok (c : Dev nD) : Spec2 (F := F) c := by
  intro v2 v11 v131 v134 v185 v187
  have hroute4 : τ.routes (c : Thread nD τ) (xr 4 c : Thread nD τ) = true := by revert c; decide +kernel
  have hroute1 : τ.routes (c : Thread nD τ) (xr 1 c : Thread nD τ) = true := by revert c; decide +kernel
  refine exists_elim fun K => ?_
  rw [Q4_eq, core_eq, posAt_4, toks_seg_4, creds_seg_4, localBufs_eq, grant_eq, grant_eq, s2_agR_02, s2_agR_12]
  unfold seg2
  rw [k0_part7_eq_skeleton, k0_part8_eq_skeleton, k0_part9_eq_skeleton]
  unfold k0_part7_skel k0_part8_skel k0_part9_skel
  simp only [Prog.lift, Prog.bind_op, Prog.bind_ret, Prog.pure_eq_ret, Prog.bind_assoc]
  iintro ⟨⟨#HI, #HR, #Hlev, HatB, ⟨Ha8, #Hr8, Ha9, #Hr9, Ha10, #Hr10, Ha11, #Hr11, Ha12, #Hr12, Ha13, #Hr13, Ha14, #Hr14, Ha15, #Hr15, Ha16, #Hr16, Ha17, #Hr17, Ha18, #Hr18, Ha19, #Hr19, Ha20, #Hr20, Ha21, #Hr21, Ha22, #Hr22, Ha23, #Hr23, Ha24, #Hr24, Ha25, #Hr25, Ha26, #Hr26, Ha27, #Hr27, Ha28, #Hr28, Ha29, #Hr29, Ha30, #Hr30, Ha31, #Hr31, Ha32, #Hr32, Ha33, #Hr33, Ha34, #Hr34, Ha35, #Hr35, Ha36, #Hr36, Ha37, #Hr37, Ha38, #Hr38, Ha39, #Hr39⟩, ⟨⟨Ht10, Ht13⟩, ⟨Ht16, Ht19⟩, Htoks⟩, ⟨Hc13, Hc19, Hcreds⟩, ⟨%W, HO⟩, ⟨Hl0, Hl1, Hl2, Hl3, Hl4, Hl5, Hl6, Hl7, ⟨%a2, HS2⟩, ⟨%a3, HS3⟩, HS4, HS5, ⟨%a8, HS8⟩, ⟨%a9, HS9⟩⟩⟩, Hs0, Hs1, Hs6, Hs7, ⟨Hd4, #Hrp4⟩, ⟨Hd5, #Hrp5⟩, Hg3⟩
  -- the own four row blocks of each gather buffer: the left half of their share goes with the copy
  ihave Hx := (s2_open0 (F := F) c) $$ Hs0
  icases Hx with ⟨%f0, HsL0, HsR0, Hs0⟩
  ihave Hx := (s2_open1 (F := F) c) $$ Hs1
  icases Hx with ⟨%f1, HsL1, HsR1, Hs1⟩
  -- the own receive slots of the half-block reduce steps, handed to the partners with the copies
  ihave Hx := (s2_take6 (F := F) c) $$ Hs6
  icases Hx with ⟨HR00, HR10, Hs6⟩
  ihave Hx := (s2_take7 (F := F) c) $$ Hs7
  icases Hx with ⟨HR01, HR11, Hs7⟩
  -- the third exchange of the first stream, to the partner across 4
  iapply (s2_send (F := F) c (xr 4 c) _ (dev8_eq c) (VE2 0 c) (VE2 0 c) 10 13 0 5 _ _ sem_ag0s_2 sem_ag0r_2
      (by decide) (by decide) (by decide) (by decide) ((credit_VE2 0 c).trans rfl) rfl
      (iprop((ownAt c (R0 0) ∗ reached ER (dcell c (dsem 25)) 0) ∗ (ownAt c (R1 0) ∗ reached ER (dcell c (dsem 29)) 0)))
      fullShare.left f0 (ownHalf_of c (VE2 0 c) f0) (s2_payR13 c 0) K (owedFrom c 5)
      (owedFrom_succ c 4 (4, 13, 0) rfl) W hroute4) $$ [HsL0 Hd4 HR00 HR10 HO Ht10 Ht13]
  · iframe ∗ #
  iintro ⟨Hcs4, HO⟩
  -- of the second stream, to the partner across 1
  iapply (s2_send (F := F) c (xr 1 c) _ (dev9_eq c) (VE2 1 c) (VE2 1 c) 16 19 0 6 _ _ sem_ag1s_2 sem_ag1r_2
      (by decide) (by decide) (by decide) (by decide) ((credit_VE2 1 c).trans rfl) rfl
      (iprop((ownAt c (R0 1) ∗ reached ER (dcell c (dsem 35)) 0) ∗ (ownAt c (R1 1) ∗ reached ER (dcell c (dsem 39)) 0)))
      fullShare.left f1 (ownHalf_of c (VE2 1 c) f1) (s2_payR19 c 0) K (owedFrom c 6)
      (owedFrom_succ c 5 (1, 19, 0) rfl) W hroute1) $$ [HsL1 Hd5 HR01 HR11 HO Ht16 Ht19]
  · iframe ∗ #
  iintro ⟨Hcs5, HO⟩
  -- the first stream's other pair of own blocks, read through the half that stayed
  iapply (wp_load Variants.none (c : Thread nD τ) none Set.univ (s2_load_ok cc0_scratch0 _ _ (s2_sub0 c))) $$ [HsR0]
  · iexact HsR0
  iintro HsR0
  sl_exec
  -- the second stream's
  iapply (wp_load Variants.none (c : Thread nD τ) none Set.univ (s2_load_ok cc0_scratch1 _ _ (s2_sub1 c))) $$ [HsR1]
  · iexact HsR1
  iintro HsR1
  sl_exec
  -- the first stream's copy: its source's borrowed half comes back, then the partner's four blocks have landed
  iapply (s2_wait (F := F) c 10 0 1 5 4 6 (amtDma 13 0) _ sem_ag0s_2 (by decide) (by decide) rfl rfl rfl
      (by decide) (by decide) (ownHalf c (VE2 0 c)) rfl K _ ((credit_VE2 0 c).trans rfl)) $$ [Hcs4 HO Ha10]
  · iframe ∗ #
  iintro ⟨HO, Ha10, #Hr10', Hh0⟩
  iapply (s2_wait (F := F) c 13 0 1 5 4 6 (amtDma 13 0) _ sem_ag0r_2 (by decide) (by decide) rfl rfl rfl
      (by decide) (by decide)
      (iprop(ownAt c (VE2 0 (xr 4 c)) ∗ grant (xr 4 c) (R0 0) (rsR 0 0) 0 ∗ grant (xr 4 c) (R1 0) (rsR 0 4) 0)) rfl K _
      ((credit_VE2 0 c).trans rfl)) $$ [Hc13 HO Ha13]
  · iframe ∗ #
  iintro ⟨HO, Ha13, #Hr13', Hland0, Hg00, Hg10⟩
  -- the second stream's
  iapply (s2_wait (F := F) c 16 0 1 6 5 6 (amtDma 19 0) _ sem_ag1s_2 (by decide) (by decide) rfl rfl rfl
      (by decide) (by decide) (ownHalf c (VE2 1 c)) rfl K _ ((credit_VE2 1 c).trans rfl)) $$ [Hcs5 HO Ha16]
  · iframe ∗ #
  iintro ⟨HO, Ha16, #Hr16', Hh1⟩
  iapply (s2_wait (F := F) c 19 0 1 6 5 6 (amtDma 19 0) _ sem_ag1r_2 (by decide) (by decide) rfl rfl rfl
      (by decide) (by decide)
      (iprop(ownAt c (VE2 1 (xr 1 c)) ∗ grant (xr 1 c) (R0 1) (rsR 1 0) 0 ∗ grant (xr 1 c) (R1 1) (rsR 1 4) 0)) rfl K _
      ((credit_VE2 1 c).trans rfl)) $$ [Hc19 HO Ha19]
  · iframe ∗ #
  iintro ⟨HO, Ha19, #Hr19', Hland1, Hg01, Hg11⟩
  -- both gather buffers are whole again
  ihave Hx := (s2_close0 (F := F) c f0) $$ [Hh0 HsR0 Hs0 Hland0]
  · iframe ∗ #
  icases Hx with ⟨%g0, Hs0⟩
  ihave Hx := (s2_close1 (F := F) c f1) $$ [Hh1 HsR1 Hs1 Hland1]
  · iframe ∗ #
  icases Hx with ⟨%g1, Hs1⟩
  sl_exec
  -- the quiet state after the exchange
  rw [wp_ret]; imodintro
  iexists K
  rw [QE2_eq, core_eq, posAt_6, localBufs_eq, heldBut_empty, heldBut_empty]
  ihave HS2 := (s2_some (F := F) c cc0_scratch2 _) $$ HS2
  ihave HS3 := (s2_some (F := F) c cc0_scratch3 _) $$ HS3
  ihave HS8 := (s2_some (F := F) c cc0_scratch8 _) $$ HS8
  ihave HS9 := (s2_some (F := F) c cc0_scratch9 _) $$ HS9
  ihave Hs0 := (s2_some (F := F) c cc0_scratch0 _) $$ Hs0
  ihave Hs1 := (s2_some (F := F) c cc0_scratch1 _) $$ Hs1
  ihave HO := (s2_someW (F := F) c 6 _) $$ HO
  iframe ∗ #

/-- info: 'Cert.Kernel.Hand.seg2_ok' depends on axioms: [propext, Classical.choice, Quot.sound] -/
#guard_msgs in #print axioms seg2_ok

set_option maxHeartbeats 4000000 in
theorem seg11_ok (c : Dev nD) : Spec11 (F := F) c := by
  intro v2 v11 v1225 v1228 v1279
  have hroute4 : τ.routes (c : Thread nD τ) (xr 4 c : Thread nD τ) = true := by revert c; decide +kernel
  have hroute1 : τ.routes (c : Thread nD τ) (xr 1 c : Thread nD τ) = true := by revert c; decide +kernel
  refine exists_elim fun K => ?_
  rw [Q28_eq, core_eq, posAt_28, toks_seg_28, creds_seg_28, localBufs_eq, grant_eq, grant_eq, s2_agR_02, s2_agR_12]
  unfold seg11
  rw [k0_part42_eq_skeleton, k0_part43_eq_skeleton, k0_part44_eq_skeleton]
  unfold k0_part42_skel k0_part43_skel k0_part44_skel
  simp only [Prog.lift, Prog.bind_op, Prog.bind_ret, Prog.pure_eq_ret, Prog.bind_assoc]
  iintro ⟨⟨#HI, #HR, #Hlev, HatB, ⟨Ha8, #Hr8, Ha9, #Hr9, Ha10, #Hr10, Ha11, #Hr11, Ha12, #Hr12, Ha13, #Hr13, Ha14, #Hr14, Ha15, #Hr15, Ha16, #Hr16, Ha17, #Hr17, Ha18, #Hr18, Ha19, #Hr19, Ha20, #Hr20, Ha21, #Hr21, Ha22, #Hr22, Ha23, #Hr23, Ha24, #Hr24, Ha25, #Hr25, Ha26, #Hr26, Ha27, #Hr27, Ha28, #Hr28, Ha29, #Hr29, Ha30, #Hr30, Ha31, #Hr31, Ha32, #Hr32, Ha33, #Hr33, Ha34, #Hr34, Ha35, #Hr35, Ha36, #Hr36, Ha37, #Hr37, Ha38, #Hr38, Ha39, #Hr39⟩, ⟨⟨Ht10, Ht13⟩, ⟨Ht16, Ht19⟩, Htoks⟩, ⟨Hc13, Hc19, Hcreds⟩, ⟨%W, HO⟩, ⟨Hl0, Hl1, Hl2, Hl3, Hl4, Hl5, Hl6, Hl7, ⟨%a2, HS2⟩, ⟨%a3, HS3⟩, HS4, HS5, ⟨%a8, HS8⟩, ⟨%a9, HS9⟩⟩⟩, Hs0, Hs1, Hs6, Hs7, ⟨Hd4, #Hrp4⟩, ⟨Hd5, #Hrp5⟩, Hg3⟩
  -- the own four row blocks of each gather buffer: the left half of their share goes with the copy
  ihave Hx := (s2_open0 (F := F) c) $$ Hs0
  icases Hx with ⟨%f0, HsL0, HsR0, Hs0⟩
  ihave Hx := (s2_open1 (F := F) c) $$ Hs1
  icases Hx with ⟨%f1, HsL1, HsR1, Hs1⟩
  -- the own receive slots of the half-block reduce steps, handed to the partners with the copies
  ihave Hx := (s2_take6 (F := F) c) $$ Hs6
  icases Hx with ⟨HR00, HR10, Hs6⟩
  ihave Hx := (s2_take7 (F := F) c) $$ Hs7
  icases Hx with ⟨HR01, HR11, Hs7⟩
  -- the third exchange of the first stream, to the partner across 4
  iapply (s2_send (F := F) c (xr 4 c) _ (dev32_eq c) (VE2 0 c) (VE2 0 c) 10 13 2 29 _ _ sem_ag0s_2 sem_ag0r_2
      (by decide) (by decide) (by decide) (by decide) ((credit_VE2 0 c).trans rfl) rfl
      (iprop((ownAt c (R0 0) ∗ reached ER (dcell c (dsem 25)) 2) ∗ (ownAt c (R1 0) ∗ reached ER (dcell c (dsem 29)) 2)))
      fullShare.left f0 (ownHalf_of c (VE2 0 c) f0) (s2_payR13 c 2) K (owedFrom c 29)
      (owedFrom_succ c 28 (4, 13, 2) rfl) W hroute4) $$ [HsL0 Hd4 HR00 HR10 HO Ht10 Ht13]
  · iframe ∗ #
  iintro ⟨Hcs4, HO⟩
  -- of the second stream, to the partner across 1
  iapply (s2_send (F := F) c (xr 1 c) _ (dev33_eq c) (VE2 1 c) (VE2 1 c) 16 19 2 30 _ _ sem_ag1s_2 sem_ag1r_2
      (by decide) (by decide) (by decide) (by decide) ((credit_VE2 1 c).trans rfl) rfl
      (iprop((ownAt c (R0 1) ∗ reached ER (dcell c (dsem 35)) 2) ∗ (ownAt c (R1 1) ∗ reached ER (dcell c (dsem 39)) 2)))
      fullShare.left f1 (ownHalf_of c (VE2 1 c) f1) (s2_payR19 c 2) K (owedFrom c 30)
      (owedFrom_succ c 29 (1, 19, 2) rfl) W hroute1) $$ [HsL1 Hd5 HR01 HR11 HO Ht16 Ht19]
  · iframe ∗ #
  iintro ⟨Hcs5, HO⟩
  -- the first stream's other pair of own blocks, read through the half that stayed
  iapply (wp_load Variants.none (c : Thread nD τ) none Set.univ (s2_load_ok cc0_scratch0 _ _ (s2_sub0 c))) $$ [HsR0]
  · iexact HsR0
  iintro HsR0
  sl_exec
  -- the second stream's
  iapply (wp_load Variants.none (c : Thread nD τ) none Set.univ (s2_load_ok cc0_scratch1 _ _ (s2_sub1 c))) $$ [HsR1]
  · iexact HsR1
  iintro HsR1
  sl_exec
  -- the first stream's copy: its source's borrowed half comes back, then the partner's four blocks have landed
  iapply (s2_wait (F := F) c 10 2 3 29 28 30 (amtDma 13 2) _ sem_ag0s_2 (by decide) (by decide) rfl rfl rfl
      (by decide) (by decide) (ownHalf c (VE2 0 c)) rfl K _ ((credit_VE2 0 c).trans rfl)) $$ [Hcs4 HO Ha10]
  · iframe ∗ #
  iintro ⟨HO, Ha10, #Hr10', Hh0⟩
  iapply (s2_wait (F := F) c 13 2 3 29 28 30 (amtDma 13 2) _ sem_ag0r_2 (by decide) (by decide) rfl rfl rfl
      (by decide) (by decide)
      (iprop(ownAt c (VE2 0 (xr 4 c)) ∗ grant (xr 4 c) (R0 0) (rsR 0 0) 2 ∗ grant (xr 4 c) (R1 0) (rsR 0 4) 2)) rfl K _
      ((credit_VE2 0 c).trans rfl)) $$ [Hc13 HO Ha13]
  · iframe ∗ #
  iintro ⟨HO, Ha13, #Hr13', Hland0, Hg00, Hg10⟩
  -- the second stream's
  iapply (s2_wait (F := F) c 16 2 3 30 29 30 (amtDma 19 2) _ sem_ag1s_2 (by decide) (by decide) rfl rfl rfl
      (by decide) (by decide) (ownHalf c (VE2 1 c)) rfl K _ ((credit_VE2 1 c).trans rfl)) $$ [Hcs5 HO Ha16]
  · iframe ∗ #
  iintro ⟨HO, Ha16, #Hr16', Hh1⟩
  iapply (s2_wait (F := F) c 19 2 3 30 29 30 (amtDma 19 2) _ sem_ag1r_2 (by decide) (by decide) rfl rfl rfl
      (by decide) (by decide)
      (iprop(ownAt c (VE2 1 (xr 1 c)) ∗ grant (xr 1 c) (R0 1) (rsR 1 0) 2 ∗ grant (xr 1 c) (R1 1) (rsR 1 4) 2)) rfl K _
      ((credit_VE2 1 c).trans rfl)) $$ [Hc19 HO Ha19]
  · iframe ∗ #
  iintro ⟨HO, Ha19, #Hr19', Hland1, Hg01, Hg11⟩
  -- both gather buffers are whole again
  ihave Hx := (s2_close0 (F := F) c f0) $$ [Hh0 HsR0 Hs0 Hland0]
  · iframe ∗ #
  icases Hx with ⟨%g0, Hs0⟩
  ihave Hx := (s2_close1 (F := F) c f1) $$ [Hh1 HsR1 Hs1 Hland1]
  · iframe ∗ #
  icases Hx with ⟨%g1, Hs1⟩
  sl_exec
  -- the quiet state after the exchange
  rw [wp_ret]; imodintro
  iexists K
  rw [QE2_eq, core_eq, posAt_30, localBufs_eq, heldBut_empty, heldBut_empty]
  ihave HS2 := (s2_some (F := F) c cc0_scratch2 _) $$ HS2
  ihave HS3 := (s2_some (F := F) c cc0_scratch3 _) $$ HS3
  ihave HS8 := (s2_some (F := F) c cc0_scratch8 _) $$ HS8
  ihave HS9 := (s2_some (F := F) c cc0_scratch9 _) $$ HS9
  ihave Hs0 := (s2_some (F := F) c cc0_scratch0 _) $$ Hs0
  ihave Hs1 := (s2_some (F := F) c cc0_scratch1 _) $$ Hs1
  ihave HO := (s2_someW (F := F) c 30 _) $$ HO
  iframe ∗ #

/-- info: 'Cert.Kernel.Hand.seg11_ok' depends on axioms: [propext, Classical.choice, Quot.sound] -/
#guard_msgs in #print axioms seg11_ok

end Cert.Kernel.Hand

end
-- ==== Proof.Kernel.SegAB.lean ====
/- The two half-block steps of the reduce, layer by layer.

   After the third exchange of a layer a device holds the layer's partial sums in its two accumulators. It sends, for
   each stream, two 256-row halves of the partial sums (cast to bf16 in the halves of the stream's send buffer) to the
   partner of the first reduce step, and adds what the partner's copies land in the first two slots of its receive
   buffers into the halves it keeps. Four copies, each waited for on its send and on its receive cell.

   What moves between the devices besides the rows: with the second half of each stream the device hands its partner
   the slot of its own receive buffer that the partner's next copy to it will fill (the third reduce step's slot of
   stream 1, the last step's slot of stream 0), together with the fact that its receive cell has reached that copy's
   round; and the landings of the partner's copies bring the same for the partner's slots. Between the copies the
   device reads and writes only rows it holds: the other half of a send buffer while one half is away, the landed
   slots of the receive buffers, the accumulators and the weights. -/
import proofs.«900979_g7700000000000980_dist_mlpseq_tp1d_bs_bs_b256_d256_h512_v7x_i8_bf16_1_alg».proof.Proof.Kernel.Specs
import proofs.«900979_g7700000000000980_dist_mlpseq_tp1d_bs_bs_b256_d256_h512_v7x_i8_bf16_1_alg».proof.Proof.Kernel.Steps
import proofs.«900979_g7700000000000980_dist_mlpseq_tp1d_bs_bs_b256_d256_h512_v7x_i8_bf16_1_alg».proof.Proof.Kernel.QuietLemmas

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig ℕ (Elt F) ℕ UU ℕ

namespace AB

/-! ## The quiet states, opened

    Equations that hold by unfolding, at the numerals the two-half reduce segments meet. -/

theorem rsR_00 : (rsR 0 0 : DmaSem sig) = dsem 25 := by decide
theorem rsR_04 : (rsR 0 4 : DmaSem sig) = dsem 29 := by decide
theorem rsR_10 : (rsR 1 0 : DmaSem sig) = dsem 35 := by decide
theorem rsR_14 : (rsR 1 4 : DmaSem sig) = dsem 39 := by decide
theorem rsR_11 : (rsR 1 1 : DmaSem sig) = dsem 36 := by decide
theorem rsR_01 : (rsR 0 1 : DmaSem sig) = dsem 26 := by decide
theorem rsR_02 : (rsR 0 2 : DmaSem sig) = dsem 27 := by decide
theorem rsR_03 : (rsR 0 3 : DmaSem sig) = dsem 28 := by decide

/-- The four copies of a two-half reduce segment, numbers `k₀ .. k₀ + 3` at round `l`: their duty tokens. -/
theorem toksAB (c : Dev nD) (k₀ l : ℕ) (es : List (Fin 8 × ℕ × ℕ)) :
    toksCopies (F := F) c k₀ ((4, 25, l) :: (1, 35, l) :: (4, 29, l) :: (1, 39, l) :: es) =
    iprop((dutyTok ER (dcell c (dsem 20)) l (0 : DD) ∗ dutyTok ER (dcell (xr 4 c) (dsem 25)) l (0 : DD))
      ∗ (dutyTok ER (dcell c (dsem 30)) l (0 : DD) ∗ dutyTok ER (dcell (xr 1 c) (dsem 35)) l (0 : DD))
      ∗ (dutyTok ER (dcell c (dsem 24)) l (0 : DD) ∗ dutyTok ER (dcell (xr 4 c) (dsem 29)) l (0 : DD))
      ∗ (dutyTok ER (dcell c (dsem 34)) l (0 : DD) ∗ dutyTok ER (dcell (xr 1 c) (dsem 39)) l (0 : DD))
      ∗ toksCopies c (k₀ + 1 + 1 + 1 + 1) es) := rfl

/-- And the credit the partners' copies of the same numbers land. -/
theorem credsAB (c : Dev nD) (k₀ l : ℕ) (es : List (Fin 8 × ℕ × ℕ)) :
    credsCopies (F := F) c k₀ ((4, 25, l) :: (1, 35, l) :: (4, 29, l) :: (1, 39, l) :: es) =
    iprop(cred (tallyAt (dcell c (dsem 25)) (k₀ + 1) (amtDma 25 l))
      ∗ cred (tallyAt (dcell c (dsem 35)) (k₀ + 1 + 1) (amtDma 35 l))
      ∗ cred (tallyAt (dcell c (dsem 29)) (k₀ + 1 + 1 + 1) (amtDma 29 l))
      ∗ cred (tallyAt (dcell c (dsem 39)) (k₀ + 1 + 1 + 1 + 1) (amtDma 39 l))
      ∗ credsCopies c (k₀ + 1 + 1 + 1 + 1) es) := rfl

/-- The rounds after the four copies: one more on each of their eight cells. -/
def step8 (R : ℕ → ℕ) : ℕ → ℕ
  | 20 => R 20 + 1 | 24 => R 24 + 1 | 25 => R 25 + 1 | 29 => R 29 + 1
  | 30 => R 30 + 1 | 34 => R 34 + 1 | 35 => R 35 + 1 | 39 => R 39 + 1
  | j => R j

theorem posAt_congr (c : Dev nD) {R R' : ℕ → ℕ} (h : ∀ j, 8 ≤ j → j < 40 → R j = R' j) :
    posAt (F := F) c R = posAt c R' := by
  have e : (fun j => if 8 ≤ j ∧ j < 40 then R j else 0) = (fun j => if 8 ≤ j ∧ j < 40 then R' j else 0) := by
    funext j
    by_cases hj : 8 ≤ j ∧ j < 40
    · rw [if_pos hj, if_pos hj, h j hj.1 hj.2]
    · rw [if_neg hj, if_neg hj]
  calc posAt (F := F) c R = posAt c (fun j => if 8 ≤ j ∧ j < 40 then R j else 0) := rfl
    _ = posAt c (fun j => if 8 ≤ j ∧ j < 40 then R' j else 0) := by rw [e]
    _ = posAt c R' := rfl

/-- The positions on the eight cells of the four copies taken out of the 32, with what puts them back one round on;
    and the rounds reached on the cells whose slots the copies hand over. -/
theorem posAt_focus8 (c : Dev nD) (R R' : ℕ → ℕ) (h : ∀ j, 8 ≤ j → j < 40 → R' j = step8 R j) :
    posAt (F := F) c R ⊢ iprop((atPos ER (dcell c (dsem 20)) (R 20) ∅ 0 ∗ reached ER (dcell c (dsem 20)) (R 20))
        ∗ (atPos ER (dcell c (dsem 24)) (R 24) ∅ 0 ∗ reached ER (dcell c (dsem 24)) (R 24))
        ∗ (atPos ER (dcell c (dsem 25)) (R 25) ∅ 0 ∗ reached ER (dcell c (dsem 25)) (R 25))
        ∗ (atPos ER (dcell c (dsem 29)) (R 29) ∅ 0 ∗ reached ER (dcell c (dsem 29)) (R 29))
        ∗ (atPos ER (dcell c (dsem 30)) (R 30) ∅ 0 ∗ reached ER (dcell c (dsem 30)) (R 30))
        ∗ (atPos ER (dcell c (dsem 34)) (R 34) ∅ 0 ∗ reached ER (dcell c (dsem 34)) (R 34))
        ∗ (atPos ER (dcell c (dsem 35)) (R 35) ∅ 0 ∗ reached ER (dcell c (dsem 35)) (R 35))
        ∗ (atPos ER (dcell c (dsem 39)) (R 39) ∅ 0 ∗ reached ER (dcell c (dsem 39)) (R 39))
        ∗ □ reached ER (dcell c (dsem 36)) (R 36) ∗ □ reached ER (dcell c (dsem 27)) (R 27) ∗ □ reached ER (dcell c (dsem 28)) (R 28)
        ∗ (((atPos ER (dcell c (dsem 20)) (R 20 + 1) ∅ 0 ∗ reached ER (dcell c (dsem 20)) (R 20 + 1))
        ∗ (atPos ER (dcell c (dsem 24)) (R 24 + 1) ∅ 0 ∗ reached ER (dcell c (dsem 24)) (R 24 + 1))
        ∗ (atPos ER (dcell c (dsem 25)) (R 25 + 1) ∅ 0 ∗ reached ER (dcell c (dsem 25)) (R 25 + 1))
        ∗ (atPos ER (dcell c (dsem 29)) (R 29 + 1) ∅ 0 ∗ reached ER (dcell c (dsem 29)) (R 29 + 1))
        ∗ (atPos ER (dcell c (dsem 30)) (R 30 + 1) ∅ 0 ∗ reached ER (dcell c (dsem 30)) (R 30 + 1))
        ∗ (atPos ER (dcell c (dsem 34)) (R 34 + 1) ∅ 0 ∗ reached ER (dcell c (dsem 34)) (R 34 + 1))
        ∗ (atPos ER (dcell c (dsem 35)) (R 35 + 1) ∅ 0 ∗ reached ER (dcell c (dsem 35)) (R 35 + 1))
        ∗ (atPos ER (dcell c (dsem 39)) (R 39 + 1) ∅ 0 ∗ reached ER (dcell c (dsem 39)) (R 39 + 1))) -∗ posAt c R')) := by
  rw [posAt_congr c h]
  unfold posAt
  simp only [show step8 R 8 = R 8 from rfl, show step8 R 9 = R 9 from rfl, show step8 R 10 = R 10 from rfl, show step8 R 11 = R 11 from rfl, show step8 R 12 = R 12 from rfl, show step8 R 13 = R 13 from rfl, show step8 R 14 = R 14 from rfl, show step8 R 15 = R 15 from rfl, show step8 R 16 = R 16 from rfl, show step8 R 17 = R 17 from rfl, show step8 R 18 = R 18 from rfl, show step8 R 19 = R 19 from rfl, show step8 R 20 = R 20 + 1 from rfl, show step8 R 21 = R 21 from rfl, show step8 R 22 = R 22 from rfl, show step8 R 23 = R 23 from rfl, show step8 R 24 = R 24 + 1 from rfl, show step8 R 25 = R 25 + 1 from rfl, show step8 R 26 = R 26 from rfl, show step8 R 27 = R 27 from rfl, show step8 R 28 = R 28 from rfl, show step8 R 29 = R 29 + 1 from rfl, show step8 R 30 = R 30 + 1 from rfl, show step8 R 31 = R 31 from rfl, show step8 R 32 = R 32 from rfl, show step8 R 33 = R 33 from rfl, show step8 R 34 = R 34 + 1 from rfl, show step8 R 35 = R 35 + 1 from rfl, show step8 R 36 = R 36 from rfl, show step8 R 37 = R 37 from rfl, show step8 R 38 = R 38 from rfl, show step8 R 39 = R 39 + 1 from rfl]
  iintro ⟨A8, #B8, A9, #B9, A10, #B10, A11, #B11, A12, #B12, A13, #B13, A14, #B14, A15, #B15, A16, #B16, A17, #B17, A18, #B18, A19, #B19, A20, #B20, A21, #B21, A22, #B22, A23, #B23, A24, #B24, A25, #B25, A26, #B26, A27, #B27, A28, #B28, A29, #B29, A30, #B30, A31, #B31, A32, #B32, A33, #B33, A34, #B34, A35, #B35, A36, #B36, A37, #B37, A38, #B38, A39, #B39⟩
  iframe A20 A24 A25 A29 A30 A34 A35 A39
  iframe B20 B24 B25 B29 B30 B34 B35 B39
  iframe B36 B27 B28
  iintro ⟨⟨A20, #C20⟩, ⟨A24, #C24⟩, ⟨A25, #C25⟩, ⟨A29, #C29⟩, ⟨A30, #C30⟩, ⟨A34, #C34⟩, ⟨A35, #C35⟩, ⟨A39, #C39⟩⟩
  iframe ∗ #

/-- The same with the rounds at numerals. -/
theorem posAt_focus8' (c : Dev nD) (R R' : ℕ → ℕ) (h : ∀ j, 8 ≤ j → j < 40 → R' j = step8 R j) (l l36 l27 l28 : ℕ)
    (e20 : R 20 = l) (e24 : R 24 = l) (e25 : R 25 = l) (e29 : R 29 = l) (e30 : R 30 = l) (e34 : R 34 = l) (e35 : R 35 = l) (e39 : R 39 = l) (e36 : R 36 = l36) (e27 : R 27 = l27) (e28 : R 28 = l28) :
    posAt (F := F) c R ⊢ iprop((atPos ER (dcell c (dsem 20)) (l) ∅ 0 ∗ reached ER (dcell c (dsem 20)) (l))
        ∗ (atPos ER (dcell c (dsem 24)) (l) ∅ 0 ∗ reached ER (dcell c (dsem 24)) (l))
        ∗ (atPos ER (dcell c (dsem 25)) (l) ∅ 0 ∗ reached ER (dcell c (dsem 25)) (l))
        ∗ (atPos ER (dcell c (dsem 29)) (l) ∅ 0 ∗ reached ER (dcell c (dsem 29)) (l))
        ∗ (atPos ER (dcell c (dsem 30)) (l) ∅ 0 ∗ reached ER (dcell c (dsem 30)) (l))
        ∗ (atPos ER (dcell c (dsem 34)) (l) ∅ 0 ∗ reached ER (dcell c (dsem 34)) (l))
        ∗ (atPos ER (dcell c (dsem 35)) (l) ∅ 0 ∗ reached ER (dcell c (dsem 35)) (l))
        ∗ (atPos ER (dcell c (dsem 39)) (l) ∅ 0 ∗ reached ER (dcell c (dsem 39)) (l))
        ∗ □ reached ER (dcell c (dsem 36)) l36 ∗ □ reached ER (dcell c (dsem 27)) l27 ∗ □ reached ER (dcell c (dsem 28)) l28
        ∗ (((atPos ER (dcell c (dsem 20)) (l + 1) ∅ 0 ∗ reached ER (dcell c (dsem 20)) (l + 1))
        ∗ (atPos ER (dcell c (dsem 24)) (l + 1) ∅ 0 ∗ reached ER (dcell c (dsem 24)) (l + 1))
        ∗ (atPos ER (dcell c (dsem 25)) (l + 1) ∅ 0 ∗ reached ER (dcell c (dsem 25)) (l + 1))
        ∗ (atPos ER (dcell c (dsem 29)) (l + 1) ∅ 0 ∗ reached ER (dcell c (dsem 29)) (l + 1))
        ∗ (atPos ER (dcell c (dsem 30)) (l + 1) ∅ 0 ∗ reached ER (dcell c (dsem 30)) (l + 1))
        ∗ (atPos ER (dcell c (dsem 34)) (l + 1) ∅ 0 ∗ reached ER (dcell c (dsem 34)) (l + 1))
        ∗ (atPos ER (dcell c (dsem 35)) (l + 1) ∅ 0 ∗ reached ER (dcell c (dsem 35)) (l + 1))
        ∗ (atPos ER (dcell c (dsem 39)) (l + 1) ∅ 0 ∗ reached ER (dcell c (dsem 39)) (l + 1))) -∗ posAt c R')) := by
  have h0 := posAt_focus8 (F := F) c R R' h
  rw [e20, e24, e25, e29, e30, e34, e35, e39, e36, e27, e28] at h0
  exact h0

/-- A slot handed over, with the round of the receive cell at its number. -/
theorem grant_open (p : Dev nD) {s : Shape} {e : EltTy} (M : Memref sig .tc .vmem s e) (i : DmaSem sig) (r j : ℕ) (hi : i = dsem j) :
    grant (F := F) p M i r ⊢ iprop(ownAt p M ∗ □ reached ER (dcell p (dsem j)) r) := by
  subst hi
  unfold grant
  iintro ⟨H, #Hr⟩
  iframe H Hr

theorem toksAB_open (c : Dev nD) (k₀ k₄ l : ℕ) (es : List (Fin 8 × ℕ × ℕ))
    (hd : copyTab.drop k₀ = (4, 25, l) :: (1, 35, l) :: (4, 29, l) :: (1, 39, l) :: es) (hk : k₄ = k₀ + 1 + 1 + 1 + 1) :
    toksCopies (F := F) c k₀ (copyTab.drop k₀) ⊢ iprop((dutyTok ER (dcell c (dsem 20)) l (0 : DD) ∗ dutyTok ER (dcell (xr 4 c) (dsem 25)) l (0 : DD))
      ∗ (dutyTok ER (dcell c (dsem 30)) l (0 : DD) ∗ dutyTok ER (dcell (xr 1 c) (dsem 35)) l (0 : DD))
      ∗ (dutyTok ER (dcell c (dsem 24)) l (0 : DD) ∗ dutyTok ER (dcell (xr 4 c) (dsem 29)) l (0 : DD))
      ∗ (dutyTok ER (dcell c (dsem 34)) l (0 : DD) ∗ dutyTok ER (dcell (xr 1 c) (dsem 39)) l (0 : DD))
      ∗ toksCopies c k₄ es) := by
  rw [hd, hk]
  exact Entails.of_eq (toksAB c k₀ l es)

theorem credsAB_open (c : Dev nD) (k₀ i₁ i₂ i₃ i₄ l : ℕ) (es : List (Fin 8 × ℕ × ℕ))
    (hd : copyTab.drop k₀ = (4, 25, l) :: (1, 35, l) :: (4, 29, l) :: (1, 39, l) :: es)
    (h1 : i₁ = k₀ + 1) (h2 : i₂ = k₀ + 1 + 1) (h3 : i₃ = k₀ + 1 + 1 + 1) (h4 : i₄ = k₀ + 1 + 1 + 1 + 1) :
    credsCopies (F := F) c k₀ (copyTab.drop k₀) ⊢ iprop(cred (tallyAt (dcell c (dsem 25)) i₁ (amtDma 25 l))
      ∗ cred (tallyAt (dcell c (dsem 35)) i₂ (amtDma 35 l))
      ∗ cred (tallyAt (dcell c (dsem 29)) i₃ (amtDma 29 l))
      ∗ cred (tallyAt (dcell c (dsem 39)) i₄ (amtDma 39 l))
      ∗ credsCopies c i₄ es) := by
  rw [hd, h1, h2, h3, h4]
  exact Entails.of_eq (credsAB c k₀ l es)

/-! ## The step wrappers at the printed spelling

    The body names a copy's partner by the word it computes and its semaphores by slices of the semaphore arrays;
    the evidence terms of the printed effect mention those spellings, so the effect is not rewritten: the rules are
    applied at the printed terms, given that they are the partner and the semaphores meant. -/

theorem hw_waitDma2' (c : Dev nD) (j r : ℕ) {sp sp' : Space} {s s' : Shape} {e e' : EltTy}
    {src : Memref sig .tc sp' s' e'} {κ' : Kind} {dst : Memref sig κ' sp s e} {hsrc : src.view.WordExact} {hdst : dst.view.WordExact}
    (sm : DmaSem sig) (hsm : sm = dsem j) (hN : dst.view.dmaCredit = amtDma j r) (Kt : PUnit → sProp 𝕄) :
    wpE (defs₀ (F := F)) Variants.none (c : Thread nD τ) none Set.univ (.waitDma2 sm src dst hsrc hdst) Kt
      = waitSpec (c : Thread nD τ) Set.univ (.dma (dsem j)) (amtDma j r) Kt := by
  subst hsm
  exact hw_waitDma2 c j r hN Kt

theorem wp_send_copy' (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-! ## Boxes of a whole buffer inside what is held of it -/

/-- Under the whole buffer's view the elements under a set of indices are that set. -/
theorem setOn_whole (b : Ref sig .tc) (M : Finset b.ty.shape.Idx) : (Memref.whole b).view.setOn M = M := by
  unfold View.setOn
  exact Finset.map_refl

/-- The rows of a unit-stride slice, addressed through the whole buffer, are the slice's elements. -/
theorem setOn_slice_eq (b : Ref sig .tc) (r : Rect b.ty.shape) (hr : ∀ a, r.stride a = 1) :
    (Memref.whole b).view.setOn r.set = ((Memref.whole b).slice r hr).view.set := by
  rw [setOn_whole, set_slice_of_whole]

/-- The second half of a send buffer, addressed through the whole buffer, lies off the first half. -/
theorem sndB_off_A (s : Fin 2) :
    (SND s).view.setOn (Rect.unit (s := S512x256) ![256, 0] S256x256.size inb_S512x256_S256x256_256_0).set
      ⊆ Finset.univ \ (SA s).view.set := by
  fin_cases s
  · exact Finset.subset_sdiff.mpr ⟨Finset.subset_univ _, by
      rw [setOn_slice_eq cc0_scratch4 _ (fun _ => rfl)]; exact (disj_SA_SB 0).symm⟩
  · exact Finset.subset_sdiff.mpr ⟨Finset.subset_univ _, by
      rw [setOn_slice_eq cc0_scratch5 _ (fun _ => rfl)]; exact (disj_SA_SB 1).symm⟩

/-- A store into the second half, through the whole buffer, writes off the first half. -/
theorem sndB_store_off_A (s : Fin 2) :
    ((SND s).access (Rect.unit (s := S512x256) ![256, 0] S256x256.size inb_S512x256_S256x256_256_0)).setOn Finset.univ
      ⊆ Finset.univ \ (SA s).view.set := by
  have key : ∀ (b : Ref sig .tc) (r : Rect b.ty.shape) (A : Finset b.ty.shape.Idx), Disjoint r.set A →
      ((Memref.whole b).access r).setOn Finset.univ ⊆ Finset.univ \ A := fun b r A hd i hi =>
    Finset.mem_sdiff.mpr ⟨Finset.mem_univ _, fun hA => Finset.disjoint_left.mp hd
      (by have h := View.setOn_subset_set _ Finset.univ hi; rwa [View.set_slice_whole] at h) hA⟩
  fin_cases s
  · exact key cc0_scratch4 _ _ (by
      have h := (disj_SA_SB 0).symm
      rwa [show (SB 0).view.set = _ from set_slice_of_whole cc0_scratch4 _ (fun _ => rfl)] at h)
  · exact key cc0_scratch5 _ _ (by
      have h := (disj_SA_SB 1).symm
      rwa [show (SB 1).view.set = _ from set_slice_of_whole cc0_scratch5 _ (fun _ => rfl)] at h)

/-! ## The accumulators' row blocks in closed form

    The rows of an accumulator a step reads or adds into, by the bits of the device's number (for the second stream
    of its index in that stream): 256 rows at a multiple of 256. -/

theorem off7_eq : ∀ c : Dev nD, k0_off7 c = ![256 * (c.val / 2), 0] := by decide +kernel
instance closedOff7 (c : Dev nD) : ClosedOff (k0_off7 c) := ⟨![256 * (c.val / 2), 0], off7_eq c⟩
theorem off8_eq : ∀ c : Dev nD, k0_off8 c = ![256 * (c.val / 4) + 512 * ((c.val % 2 + c.val / 2 % 2) % 2), 0] := by decide +kernel
instance closedOff8 (c : Dev nD) : ClosedOff (k0_off8 c) := ⟨![256 * (c.val / 4) + 512 * ((c.val % 2 + c.val / 2 % 2) % 2), 0], off8_eq c⟩
theorem off11_eq : ∀ c : Dev nD, k0_off11 c = ![256 * (1 - c.val / 2 % 2) + 512 * (c.val / 4), 0] := by decide +kernel
instance closedOff11 (c : Dev nD) : ClosedOff (k0_off11 c) := ⟨![256 * (1 - c.val / 2 % 2) + 512 * (c.val / 4), 0], off11_eq c⟩
theorem off12_eq : ∀ c : Dev nD, k0_off12 c = ![256 * (1 - c.val / 4) + 512 * ((c.val % 2 + c.val / 2 % 2) % 2), 0] := by decide +kernel
instance closedOff12 (c : Dev nD) : ClosedOff (k0_off12 c) := ⟨![256 * (1 - c.val / 4) + 512 * ((c.val % 2 + c.val / 2 % 2) % 2), 0], off12_eq c⟩
theorem off13_eq : ∀ c : Dev nD, k0_off13 c = ![256 * (c.val / 2 % 2) + 512 * (1 - c.val / 4), 0] := by decide +kernel
instance closedOff13 (c : Dev nD) : ClosedOff (k0_off13 c) := ⟨![256 * (c.val / 2 % 2) + 512 * (1 - c.val / 4), 0], off13_eq c⟩
theorem off14_eq : ∀ c : Dev nD, k0_off14 c = ![256 * (c.val / 4) + 512 * ((c.val % 2 + c.val / 2 % 2 + 1) % 2), 0] := by decide +kernel
instance closedOff14 (c : Dev nD) : ClosedOff (k0_off14 c) := ⟨![256 * (c.val / 4) + 512 * ((c.val % 2 + c.val / 2 % 2 + 1) % 2), 0], off14_eq c⟩
theorem off15_eq : ∀ c : Dev nD, k0_off15 c = ![256 * (1 - c.val / 2 % 2) + 512 * (1 - c.val / 4), 0] := by decide +kernel
instance closedOff15 (c : Dev nD) : ClosedOff (k0_off15 c) := ⟨![256 * (1 - c.val / 2 % 2) + 512 * (1 - c.val / 4), 0], off15_eq c⟩
theorem off16_eq : ∀ c : Dev nD, k0_off16 c = ![256 * (1 - c.val / 4) + 512 * ((c.val % 2 + c.val / 2 % 2 + 1) % 2), 0] := by decide +kernel
instance closedOff16 (c : Dev nD) : ClosedOff (k0_off16 c) := ⟨![256 * (1 - c.val / 4) + 512 * ((c.val % 2 + c.val / 2 % 2 + 1) % 2), 0], off16_eq c⟩

/-- Credit of the same units, spelt through another semaphore of the same copy. -/
theorem cred_amt (g : GSem nD τ sig) (ι : ℕ) {a b : ℕ} (h : a = b) :
    (cred (tallyAt g ι a) : sProp 𝕄) ⊢ cred (tallyAt g ι b) := by
  subst h
  exact .rfl

/-- Orders of the slots away from a receive buffer. -/
theorem heldBut_rot4 (c : Dev nD) (b : Ref sig .tc) (A B C D : Finset (Idx ((Memref.whole b).view.loc (c : Thread nD τ)))) :
    heldBut (F := F) c b (A ∪ B ∪ C ∪ D) ⊢ heldBut c b (C ∪ D ∪ B ∪ A) :=
  Entails.of_eq (heldBut_congr c b (by ac_rfl))
theorem heldBut_rot3 (c : Dev nD) (b : Ref sig .tc) (A B C : Finset (Idx ((Memref.whole b).view.loc (c : Thread nD τ)))) :
    heldBut (F := F) c b (A ∪ B ∪ C) ⊢ heldBut c b (C ∪ B ∪ A) :=
  Entails.of_eq (heldBut_congr c b (by ac_rfl))

theorem ex_ptw (c : Dev nD) (b : Ref sig .tc) (f : Buf (Elt F) ((Memref.whole b).view.loc (c : Thread nD τ))) :
    ptw (F := F) c b f ⊢ iprop(∃ f, ptw (F := F) c b f) :=
  exists_intro (Φ := fun f => ptw (F := F) c b f) f
theorem ex_owes (t : Thread nD τ) (O : CellTallies nD τ sig ℕ) (W : Waits sig ℕ) :
    (owes t O W : sProp 𝕄) ⊢ iprop(∃ W, owes t O W) :=
  exists_intro (Φ := fun W => (owes t O W : sProp 𝕄)) W

end AB

open AB

set_option maxHeartbeats 4000000 in
theorem seg3_ok (c : Dev nD) : Spec3 (F := F) c := by
  intro v2 v131 v134 v264 v268
  -- what the local loads and stores need of the buffers held by parts
  have hin4 : (Memref.whole cc0_scratch4).view.setOn (Rect.unit (s := S512x256) ![256, 0] S256x256.size inb_S512x256_S256x256_256_0).set
      ⊆ (Finset.univ \ (SA 0).view.set : Finset (Idx ((SA 0).view.loc (c : Thread nD τ)))) := sndB_off_A 0
  have hin5 : (Memref.whole cc0_scratch5).view.setOn (Rect.unit (s := S512x256) ![256, 0] S256x256.size inb_S512x256_S256x256_256_0).set
      ⊆ (Finset.univ \ (SA 1).view.set : Finset (Idx ((SA 1).view.loc (c : Thread nD τ)))) := sndB_off_A 1
  have hR00 : (Memref.whole cc0_scratch6).view.setOn (Rect.unit (s := S1280x256) ![0, 0] S256x256.size inb_S1280x256_S256x256_0_0).set
      ⊆ (R0 0).view.set := (setOn_slice_eq cc0_scratch6 _ (fun _ => rfl)).subset
  have hR01 : (Memref.whole cc0_scratch7).view.setOn (Rect.unit (s := S1280x256) ![0, 0] S256x256.size inb_S1280x256_S256x256_0_0).set
      ⊆ (R0 1).view.set := (setOn_slice_eq cc0_scratch7 _ (fun _ => rfl)).subset
  have hR10 : (Memref.whole cc0_scratch6).view.setOn (Rect.unit (s := S1280x256) ![256, 0] S256x256.size inb_S1280x256_S256x256_256_0).set
      ⊆ (R1 0).view.set := (setOn_slice_eq cc0_scratch6 _ (fun _ => rfl)).subset
  have hR11 : (Memref.whole cc0_scratch7).view.setOn (Rect.unit (s := S1280x256) ![256, 0] S256x256.size inb_S1280x256_S256x256_256_0).set
      ⊆ (R1 1).view.set := (setOn_slice_eq cc0_scratch7 _ (fun _ => rfl)).subset
  have hst4 : ((Memref.whole cc0_scratch4).access (Rect.unit (s := S512x256) ![256, 0] S256x256.size inb_S512x256_S256x256_256_0)).setOn Finset.univ
      ⊆ (Finset.univ \ (SA 0).view.set : Finset (Idx ((SA 0).view.loc (c : Thread nD τ)))) := sndB_store_off_A 0
  have hst5 : ((Memref.whole cc0_scratch5).access (Rect.unit (s := S512x256) ![256, 0] S256x256.size inb_S512x256_S256x256_256_0)).setOn Finset.univ
      ⊆ (Finset.univ \ (SA 1).view.set : Finset (Idx ((SA 1).view.loc (c : Thread nD τ)))) := sndB_store_off_A 1
  have hdX : Disjoint ((R0 0).view.set ∪ (R1 0).view.set ∪ (R2 0).view.set) (R3 0).view.set :=
    Finset.disjoint_union_left.mpr ⟨Finset.disjoint_union_left.mpr ⟨disj_R0_R3 0, disj_R1_R3 0⟩, disj_R2_R3 0⟩
  have hd60 : Disjoint ((R2 0).view.set ∪ (R3 0).view.set ∪ (R1 0).view.set) (R0 0).view.set :=
    Finset.disjoint_union_left.mpr ⟨Finset.disjoint_union_left.mpr ⟨(disj_R0_R2 0).symm, (disj_R0_R3 0).symm⟩, (disj_R0_R1 0).symm⟩
  have hd61 : Disjoint ((R2 0).view.set ∪ (R3 0).view.set) (R1 0).view.set :=
    Finset.disjoint_union_left.mpr ⟨(disj_R1_R2 0).symm, (disj_R1_R3 0).symm⟩
  have hd70 : Disjoint ((R2 1).view.set ∪ (R1 1).view.set) (R0 1).view.set :=
    Finset.disjoint_union_left.mpr ⟨(disj_R0_R2 1).symm, (disj_R0_R1 1).symm⟩
  have hd71 : Disjoint (R2 1).view.set (R1 1).view.set := (disj_R1_R2 1).symm
  iintro ⟨%K, H⟩
  unfold QE2 core localBufs
  rw [heldBut_empty, heldBut_empty]
  icases H with ⟨⟨#HI, #HRA, #Hlev, Hbar, Hpos, Htoks, Hcreds, ⟨%W, HO⟩, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%a2, Ha2⟩, ⟨%a3, Ha3⟩, ⟨%a4, Ha4⟩, ⟨%a5, Ha5⟩, ⟨%a8, Ha8⟩, ⟨%a9, Ha9⟩⟩, ⟨%x0, Hx0⟩, ⟨%x1, Hx1⟩, Hr0, Hr1, Hg1, Hg2, Hg3, Hg4, Hg5⟩
  ihave Htoks := (toksAB_open c 6 10 0 _ drop_seg_6 rfl) $$ Htoks
  icases Htoks with ⟨⟨Ht6s, Ht6r⟩, ⟨Ht7s, Ht7r⟩, ⟨Ht8s, Ht8r⟩, ⟨Ht9s, Ht9r⟩, Htoks⟩
  ihave Hcreds := (credsAB_open c 6 7 8 9 10 0 _ drop_seg_6 rfl rfl rfl rfl) $$ Hcreds
  icases Hcreds with ⟨Hc6, Hc7, Hc8, Hc9, Hcreds⟩
  -- the positions on the eight cells of the four copies, and the rounds reached on the cells of the slots handed over
  ihave Hpos := (posAt_focus8' c (roundsDone 6) (roundsDone 10) (by decide) 0 0 0 0 rfl rfl rfl rfl rfl rfl rfl rfl rfl rfl rfl) $$ Hpos
  icases Hpos with ⟨⟨Hp20, #Hq20⟩, ⟨Hp24, #Hq24⟩, ⟨Hp25, #Hq25⟩, ⟨Hp29, #Hq29⟩, ⟨Hp30, #Hq30⟩, ⟨Hp34, #Hq34⟩, ⟨Hp35, #Hq35⟩, ⟨Hp39, #Hq39⟩, #Hq36, #Hq27, #Hq28, Hposback⟩
  ihave Hg1 := (grant_open _ _ _ _ 25 rsR_00) $$ Hg1
  icases Hg1 with ⟨Hd6, #Hrr6⟩
  ihave Hg2 := (grant_open _ _ _ _ 35 rsR_10) $$ Hg2
  icases Hg2 with ⟨Hd7, #Hrr7⟩
  ihave Hg3 := (grant_open _ _ _ _ 29 rsR_04) $$ Hg3
  icases Hg3 with ⟨Hd8, #Hrr8⟩
  ihave Hg4 := (grant_open _ _ _ _ 39 rsR_14) $$ Hg4
  icases Hg4 with ⟨Hd9, #Hrr9⟩
  unfold seg3
  sl_exec
  -- copy 6: SA 0 to R0 0 of the partner across 4
  ihave Hsp := (slice_split c (SA 0) _).1 $$ Ha4
  icases Hsp with ⟨Hsa0, Ha4⟩
  iapply (wp_send_copy' c (xr 4 c) _ (dev10_eq c) (SA 0) (R0 0) 20 25 0 7 _ _ sem_rs0s_0 sem_rs0r_0
      (by decide) (by decide) (by decide) (by decide)
      ((credit_R0 0).trans rfl) rfl (iprop(emp)) fullShare _ (ownAt_of c (SA 0) _)
      ((sep_emp (PROP := sProp 𝕄)).1)
      K (owedFrom c 7) (owedFrom_succ c 6 (4, 25, 0) rfl) _ (by routes)) $$ [Hsa0 Hd6 HO Ht6s Ht6r]
  · iframe ∗ #
  iintro ⟨Hcs6, HO⟩
  sl_exec
  -- copy 7: SA 1 to R0 1 of the partner across 1
  ihave Hsp := (slice_split c (SA 1) _).1 $$ Ha5
  icases Hsp with ⟨Hsa1, Ha5⟩
  iapply (wp_send_copy' c (xr 1 c) _ (dev11_eq c) (SA 1) (R0 1) 30 35 0 8 _ _ sem_rs1s_0 sem_rs1r_0
      (by decide) (by decide) (by decide) (by decide)
      ((credit_R0 1).trans rfl) rfl (iprop(emp)) fullShare _ (ownAt_of c (SA 1) _)
      ((sep_emp (PROP := sProp 𝕄)).1)
      K (owedFrom c 8) (owedFrom_succ c 7 (1, 35, 0) rfl) _ (by routes)) $$ [Hsa1 Hd7 HO Ht7s Ht7r]
  · iframe ∗ #
  iintro ⟨Hcs7, HO⟩
  sl_exec
  -- copy 8: SB 0 to R1 0 of the partner across 4
  ihave Hsp := (rest_split (disj_SA_SB 0) _).1 $$ Ha4
  icases Hsp with ⟨Hsb0, Ha4⟩
  -- the own slot for the partner's next copy to this device goes with it
  ihave Hr1 := (heldBut_take_view c (R2 1) _ (Finset.disjoint_union_left.mpr ⟨disj_R0_R2 1, disj_R1_R2 1⟩)).1 $$ Hr1
  icases Hr1 with ⟨Hown21, Hr1⟩
  iapply (wp_send_copy' c (xr 4 c) _ (dev12_eq c) (SB 0) (R1 0) 24 29 0 9 _ _ sem_rs0s_4 sem_rs0r_4
      (by decide) (by decide) (by decide) (by decide)
      ((credit_R1 0).trans rfl) rfl (iprop(ownAt c (R2 1) ∗ reached ER (dcell c (dsem 36)) 0)) fullShare _ (ownAt_of c (SB 0) _)
      (by
        rw [show payDma (F := F) (xr 4 c) 29 0 = iprop(ownAt (xr 4 c) (R1 0) ∗ (ownAt (xr 4 (xr 4 c)) (R2 1) ∗ reached ER (dcell (xr 4 (xr 4 c)) (rsR 1 1)) 0)) from rfl, xr_xr, rsR_11])
      K (owedFrom c 9) (owedFrom_succ c 8 (4, 29, 0) rfl) _ (by routes)) $$ [Hsb0 Hd8 Hown21 HO Ht8s Ht8r]
  · iframe ∗ #
  iintro ⟨Hcs8, HO⟩
  sl_exec
  -- copy 9: SB 1 to R1 1 of the partner across 1
  ihave Hsp := (rest_split (disj_SA_SB 1) _).1 $$ Ha5
  icases Hsp with ⟨Hsb1, Ha5⟩
  ihave Hr0 := (heldBut_take_view c (R3 0) _ hdX).1 $$ Hr0
  icases Hr0 with ⟨HownX, Hr0⟩
  iapply (wp_send_copy' c (xr 1 c) _ (dev13_eq c) (SB 1) (R1 1) 34 39 0 10 _ _ sem_rs1s_4 sem_rs1r_4
      (by decide) (by decide) (by decide) (by decide)
      ((credit_R1 1).trans rfl) rfl (iprop(ownAt c (R3 0) ∗ reached ER (dcell c (dsem 27)) 0)) fullShare _ (ownAt_of c (SB 1) _)
      (by
        rw [show payDma (F := F) (xr 1 c) 39 0 = iprop(ownAt (xr 1 c) (R1 1) ∗ (ownAt (xr 1 (xr 1 c)) (R3 0) ∗ reached ER (dcell (xr 1 (xr 1 c)) (rsR 0 2)) 0)) from rfl, xr_xr, rsR_02])
      K (owedFrom c 10) (owedFrom_succ c 9 (1, 39, 0) rfl) _ (by routes)) $$ [Hsb1 Hd9 HownX HO Ht9s Ht9r]
  · iframe ∗ #
  iintro ⟨Hcs9, HO⟩
  sl_exec
  -- the wait on semaphore 20 (copy 6)
  ihave Hcs6 := (cred_amt _ _ (show amtDma 25 0 = amtDma 20 0 from rfl)) $$ Hcs6
  ihave Hmw := (mayWait_copy c (dsem 20) 6 10 (by decide) (by decide)) $$ Hlev
  iapply (wp_wait_copy c 20 0 7 (by decide) (by decide) K (owedFrom c 10) _ (hw_waitDma2' c 20 0 _ sem_rs0s_0 ((credit_SA 0).trans rfl))) $$ [Hcs6 HO Hmw Hp20]
  · iframe ∗ #
  iintro ⟨HO, Hp20, #Hn20, Hpay⟩
  ihave Hpay := (Entails.of_eq (show payDma (F := F) c 20 0 = ownAt c (SA 0) from rfl)) $$ Hpay
  icases Hpay with Hsa0
  sl_exec
  -- the wait on semaphore 25 (copy 6)
  ihave Hmw := (mayWait_copy c (dsem 25) 6 10 (by decide) (by decide)) $$ Hlev
  iapply (wp_wait_copy c 25 0 7 (by decide) (by decide) K (owedFrom c 10) _ (hw_waitDma2' c 25 0 _ sem_rs0r_0 ((credit_R0 0).trans rfl))) $$ [Hc6 HO Hmw Hp25]
  · iframe ∗ #
  iintro ⟨HO, Hp25, #Hn25, Hpay⟩
  ihave Hpay := (Entails.of_eq (show payDma (F := F) c 25 0 = iprop(∃ f, (R0 0).view.loc (c : Thread nD τ) ↦[(R0 0).view.set]{fullShare} f) from rfl)) $$ Hpay
  icases Hpay with ⟨%g00, HR00⟩
  sl_exec
  -- the wait on semaphore 30 (copy 7)
  ihave Hcs7 := (cred_amt _ _ (show amtDma 35 0 = amtDma 30 0 from rfl)) $$ Hcs7
  ihave Hmw := (mayWait_copy c (dsem 30) 7 10 (by decide) (by decide)) $$ Hlev
  iapply (wp_wait_copy c 30 0 8 (by decide) (by decide) K (owedFrom c 10) _ (hw_waitDma2' c 30 0 _ sem_rs1s_0 ((credit_SA 1).trans rfl))) $$ [Hcs7 HO Hmw Hp30]
  · iframe ∗ #
  iintro ⟨HO, Hp30, #Hn30, Hpay⟩
  ihave Hpay := (Entails.of_eq (show payDma (F := F) c 30 0 = ownAt c (SA 1) from rfl)) $$ Hpay
  icases Hpay with Hsa1
  sl_exec
  -- the wait on semaphore 35 (copy 7)
  ihave Hmw := (mayWait_copy c (dsem 35) 7 10 (by decide) (by decide)) $$ Hlev
  iapply (wp_wait_copy c 35 0 8 (by decide) (by decide) K (owedFrom c 10) _ (hw_waitDma2' c 35 0 _ sem_rs1r_0 ((credit_R0 1).trans rfl))) $$ [Hc7 HO Hmw Hp35]
  · iframe ∗ #
  iintro ⟨HO, Hp35, #Hn35, Hpay⟩
  ihave Hpay := (Entails.of_eq (show payDma (F := F) c 35 0 = iprop(∃ f, (R0 1).view.loc (c : Thread nD τ) ↦[(R0 1).view.set]{fullShare} f) from rfl)) $$ Hpay
  icases Hpay with ⟨%g01, HR01⟩
  sl_exec
  -- the wait on semaphore 24 (copy 8)
  ihave Hcs8 := (cred_amt _ _ (show amtDma 29 0 = amtDma 24 0 from rfl)) $$ Hcs8
  ihave Hmw := (mayWait_copy c (dsem 24) 8 10 (by decide) (by decide)) $$ Hlev
  iapply (wp_wait_copy c 24 0 9 (by decide) (by decide) K (owedFrom c 10) _ (hw_waitDma2' c 24 0 _ sem_rs0s_4 ((credit_SB 0).trans rfl))) $$ [Hcs8 HO Hmw Hp24]
  · iframe ∗ #
  iintro ⟨HO, Hp24, #Hn24, Hpay⟩
  ihave Hpay := (Entails.of_eq (show payDma (F := F) c 24 0 = ownAt c (SB 0) from rfl)) $$ Hpay
  icases Hpay with Hsb0
  sl_exec
  -- the wait on semaphore 29 (copy 8)
  ihave Hmw := (mayWait_copy c (dsem 29) 8 10 (by decide) (by decide)) $$ Hlev
  iapply (wp_wait_copy c 29 0 9 (by decide) (by decide) K (owedFrom c 10) _ (hw_waitDma2' c 29 0 _ sem_rs0r_4 ((credit_R1 0).trans rfl))) $$ [Hc8 HO Hmw Hp29]
  · iframe ∗ #
  iintro ⟨HO, Hp29, #Hn29, Hpay⟩
  ihave Hpay := (Entails.of_eq (show payDma (F := F) c 29 0 = iprop((∃ f, (R1 0).view.loc (c : Thread nD τ) ↦[(R1 0).view.set]{fullShare} f) ∗ grant (xr 4 c) (R2 1) (rsR 1 1) 0) from rfl)) $$ Hpay
  icases Hpay with ⟨⟨%g10, HR10⟩, Hgn1⟩
  sl_exec
  -- the wait on semaphore 34 (copy 9)
  ihave Hcs9 := (cred_amt _ _ (show amtDma 39 0 = amtDma 34 0 from rfl)) $$ Hcs9
  ihave Hmw := (mayWait_copy c (dsem 34) 9 10 (by decide) (by decide)) $$ Hlev
  iapply (wp_wait_copy c 34 0 10 (by decide) (by decide) K (owedFrom c 10) _ (hw_waitDma2' c 34 0 _ sem_rs1s_4 ((credit_SB 1).trans rfl))) $$ [Hcs9 HO Hmw Hp34]
  · iframe ∗ #
  iintro ⟨HO, Hp34, #Hn34, Hpay⟩
  ihave Hpay := (Entails.of_eq (show payDma (F := F) c 34 0 = ownAt c (SB 1) from rfl)) $$ Hpay
  icases Hpay with Hsb1
  sl_exec
  -- the wait on semaphore 39 (copy 9)
  ihave Hmw := (mayWait_copy c (dsem 39) 9 10 (by decide) (by decide)) $$ Hlev
  iapply (wp_wait_copy c 39 0 10 (by decide) (by decide) K (owedFrom c 10) _ (hw_waitDma2' c 39 0 _ sem_rs1r_4 ((credit_R1 1).trans rfl))) $$ [Hc9 HO Hmw Hp39]
  · iframe ∗ #
  iintro ⟨HO, Hp39, #Hn39, Hpay⟩
  ihave Hpay := (Entails.of_eq (show payDma (F := F) c 39 0 = iprop((∃ f, (R1 1).view.loc (c : Thread nD τ) ↦[(R1 1).view.set]{fullShare} f) ∗ grant (xr 1 c) (R3 0) (rsR 0 2) 0) from rfl)) $$ Hpay
  icases Hpay with ⟨⟨%g11, HR11⟩, Hgn2⟩
  -- both send buffers whole again
  ihave Hsb0 := (Entails.of_eq (ownAt_eq c (SB 0))) $$ Hsb0
  icases Hsb0 with ⟨%h40, Hsb0⟩
  ihave Ha4 := (rest_join_at (disj_SA_SB 0) _ h40) $$ [Hsb0 Ha4]
  · iframe Hsb0 Ha4
  ihave Ha4 := (slice_join_ownAt c (SA 0) _) $$ [Hsa0 Ha4]
  · iframe Hsa0 Ha4
  icases Ha4 with ⟨%a4', Ha4⟩
  ihave Ha4 := (Entails.of_eq (show ((SA 0).view.loc (c : Thread nD τ) ↦{fullShare} a4' : sProp 𝕄) = ptw (F := F) c cc0_scratch4 a4' from rfl)) $$ Ha4
  ihave Hsb1 := (Entails.of_eq (ownAt_eq c (SB 1))) $$ Hsb1
  icases Hsb1 with ⟨%h50, Hsb1⟩
  ihave Ha5 := (rest_join_at (disj_SA_SB 1) _ h50) $$ [Hsb1 Ha5]
  · iframe Hsb1 Ha5
  ihave Ha5 := (slice_join_ownAt c (SA 1) _) $$ [Hsa1 Ha5]
  · iframe Hsa1 Ha5
  icases Ha5 with ⟨%a5', Ha5⟩
  ihave Ha5 := (Entails.of_eq (show ((SA 1).view.loc (c : Thread nD τ) ↦{fullShare} a5' : sProp 𝕄) = ptw (F := F) c cc0_scratch5 a5' from rfl)) $$ Ha5
  sl_exec
  sl_step
  iexists K
  irw [QAB_10_eq, core_eq, localBufs_eq, heldBut_empty, heldBut_empty]
  -- the positions, one round on
  ihave Hpos := Hposback $$ [Hp20 Hp24 Hp25 Hp29 Hp30 Hp34 Hp35 Hp39]
  · iframe ∗ #
  -- the receive buffers take back the landed slots
  ihave HR00 := (ownAt_of c (R0 0) _) $$ HR00
  ihave HR01 := (ownAt_of c (R0 1) _) $$ HR01
  ihave HR10 := (ownAt_of c (R1 0) _) $$ HR10
  ihave HR11 := (ownAt_of c (R1 1) _) $$ HR11
  ihave Hr0 := (heldBut_rot4 c _ _ _ _ _) $$ Hr0
  ihave Hr0 := (heldBut_put_right c (R0 0) _ hd60) $$ [HR00 Hr0]
  · iframe HR00 Hr0
  ihave Hr0 := (heldBut_put_right c (R1 0) _ hd61) $$ [HR10 Hr0]
  · iframe HR10 Hr0
  ihave Hr1 := (heldBut_rot3 c _ _ _ _) $$ Hr1
  ihave Hr1 := (heldBut_put_right c (R0 1) _ hd70) $$ [HR01 Hr1]
  · iframe HR01 Hr1
  ihave Hr1 := (heldBut_put_right c (R1 1) _ hd71) $$ [HR11 Hr1]
  · iframe HR11 Hr1
  -- every buffer at some contents
  ihave HO := (ex_owes _ _ _) $$ HO
  ihave Hs0 := (ex_ptw c cc0_stg0_0 _) $$ Hs0
  ihave Hs1 := (ex_ptw c cc0_stg1_0 _) $$ Hs1
  ihave Hs2 := (ex_ptw c cc0_stg2_0 _) $$ Hs2
  ihave Hs3 := (ex_ptw c cc0_stg3_0 _) $$ Hs3
  ihave Hs4 := (ex_ptw c cc0_stg4_0 _) $$ Hs4
  ihave Hs5 := (ex_ptw c cc0_stg5_0 _) $$ Hs5
  ihave Hs6 := (ex_ptw c cc0_stg6_0 _) $$ Hs6
  ihave Hs7 := (ex_ptw c cc0_stg7_0 _) $$ Hs7
  ihave Ha2 := (ex_ptw c cc0_scratch2 _) $$ Ha2
  ihave Ha3 := (ex_ptw c cc0_scratch3 _) $$ Ha3
  ihave Ha4 := (ex_ptw c cc0_scratch4 _) $$ Ha4
  ihave Ha5 := (ex_ptw c cc0_scratch5 _) $$ Ha5
  ihave Ha8 := (ex_ptw c cc0_scratch8 _) $$ Ha8
  ihave Ha9 := (ex_ptw c cc0_scratch9 _) $$ Ha9
  ihave Hx0 := (ex_ptw c cc0_scratch0 _) $$ Hx0
  ihave Hx1 := (ex_ptw c cc0_scratch1 _) $$ Hx1
  iframe ∗ #

/-- info: 'Cert.Kernel.Hand.seg3_ok' depends on axioms: [propext, Classical.choice, Quot.sound] -/
#guard_msgs in #print axioms seg3_ok

end Cert.Kernel.Hand
end
-- ==== Proof.Kernel.SegCD.lean ====
import proofs.«900979_g7700000000000980_dist_mlpseq_tp1d_bs_bs_b256_d256_h512_v7x_i8_bf16_1_alg».proof.Proof.Kernel.Specs
import proofs.«900979_g7700000000000980_dist_mlpseq_tp1d_bs_bs_b256_d256_h512_v7x_i8_bf16_1_alg».proof.Proof.Kernel.Steps
import proofs.«900979_g7700000000000980_dist_mlpseq_tp1d_bs_bs_b256_d256_h512_v7x_i8_bf16_1_alg».proof.Proof.Kernel.QuietLemmas

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.Tactic

/-! # The third reduce step of each layer (segments 4, 8 and 13)

   In each layer the device sends the first half of each send buffer to rows 512.. of the receive buffer of a partner
   (`c xor 3` for the first stream, `c xor 4` for the second), waits for both copies on their send and receive cells
   and adds the landed rows to its accumulator. With the first copy it hands the partner its own slot for that
   partner's last reduce step of the second stream; with the second (before the last layer) the rows of its second
   gather buffer where the partner's pair block lands in the next layer. The partners' copies of the same numbers
   hand the device the symmetric slots. -/

/-! ## Pieces every segment can use -/

/-- The two partners of this step are reachable. -/
theorem routes3 : ∀ c : Dev nD, τ.routes (c : Thread nD τ) (xr 3 c : Thread nD τ) = true := by decide
theorem routes4 : ∀ c : Dev nD, τ.routes (c : Thread nD τ) (xr 4 c : Thread nD τ) = true := by decide

/-- A buffer held without some elements, opened: the rest at some contents (one buffer at a time, the others stay folded). -/
theorem heldBut_open (c : Dev nD) (b : Ref sig .tc) (A : Finset (Idx ((Memref.whole b).view.loc (c : Thread nD τ)))) :
    heldBut (F := F) c b A ⊢ iprop(∃ f : Buf (Elt F) ((Memref.whole b).view.loc (c : Thread nD τ)),
      (Memref.whole b).view.loc (c : Thread nD τ) ↦[Finset.univ \ A]{fullShare} f) := by
  unfold heldBut
  exact .rfl

/-! ## The segments -/

set_option maxHeartbeats 4000000 in
/-- The third reduce step of layer 0: copies 10 and 11 (the first halves of the two send buffers to rows 512.. of the
    receive buffers of `c xor 3` and `c xor 4`), their four waits, and the first stream's sum of the landed rows. -/
theorem seg4_ok (c : Dev nD) : Spec4 (F := F) c := by
  intro v2 v131 v134 v496 v500
  refine exists_elim fun K => ?_
  rw [QAB_10_eq, core_eq, posAt_10, toks_seg_10, creds_seg_10, localBufs_eq, heldBut_empty, heldBut_empty]
  unfold grant
  rw [← dev14_eq c, ← dev15_eq c]
  iintro ⟨⟨#HI, #Hr, #Hlev, Hbar, ⟨A8, #P8, A9, #P9, A10, #P10, A11, #P11, A12, #P12, A13, #P13, A14, #P14, A15, #P15, A16, #P16, A17, #P17, A18, #P18, A19, #P19, A20, #P20, A21, #P21, A22, #P22, A23, #P23, A24, #P24, A25, #P25, A26, #P26, A27, #P27, A28, #P28, A29, #P29, A30, #P30, A31, #P31, A32, #P32, A33, #P33, A34, #P34, A35, #P35, A36, #P36, A37, #P37, A38, #P38, A39, #P39⟩, ⟨⟨TAa, TAb⟩, ⟨TBa, TBb⟩, Htoks⟩, ⟨CA, CB, Hcreds⟩, ⟨%W, HO⟩, ⟨⟨%g0, Hg0⟩, ⟨%g1, Hg1⟩, ⟨%g2, Hg2⟩, ⟨%g3, Hg3⟩, ⟨%g4, Hg4⟩, ⟨%g5, Hg5⟩, ⟨%g6, Hg6⟩, ⟨%g7, Hg7⟩, ⟨%s2, Hs2⟩, ⟨%s3, Hs3⟩, ⟨%s4, Hs4⟩, ⟨%s5, Hs5⟩, ⟨%s8, Hs8⟩, ⟨%s9, Hs9⟩⟩⟩, ⟨%f0, H0⟩, ⟨%f1, H1⟩, H6, H7, ⟨Gd1, #Gr1⟩, ⟨Gd2, #Gr2⟩, ⟨Gd3, #Gr3⟩⟩
  unfold seg4
  simp only [k0_part17, k0_part18, Prog.lift, Prog.bind_op, Prog.bind_ret, Prog.pure_eq_ret]
  ihave Hs4e : iprop(∃ f, ptw (F := F) c cc0_scratch4 f) $$ [Hs4]
  · iexists _; iexact Hs4
  icases Hs4e with ⟨%t4, Hs4⟩
  -- copy 10: with it goes the own slot for that partner's last reduce step of the second stream
  ihave H7' := (heldBut_take_view c (R3 1) (R2 1).view.set (disj_R2_R3 1)).1 $$ H7
  icases H7' with ⟨HownL, H7⟩
  ihave Hs4' := (slice_split c (SA 0) t4).1 $$ Hs4
  icases Hs4' with ⟨Hsrc0, Hrest4⟩
  iapply (wp_send_copy (F := F) c ⟨k0_dev14 c, k0_dev14_lt c⟩ (SA 0) (R2 0) 21 26 0 11 (by omega) (by omega) (by decide) (by decide)
      ((credit_R2 0).trans rfl) (amtDma_sendOf 26 0 (Or.inr (by omega))) (grantLast c 1 0) fullShare t4
      (ownAt_of c (SA 0) t4)
      (by rw [dev14_eq c]
          show iprop(ownAt (F := F) (xr 3 c) (R2 0) ∗ grantLast c 1 0) ⊢ iprop(ownAt (xr 3 c) (R2 0) ∗ grantLast (xr 3 (xr 3 c)) 1 0)
          rw [xr_xr])
      K (owedFrom c 11) (by rw [dev14_eq c]) W
      (by rw [dev14_eq c]; exact routes3 c)) $$ [Hsrc0 Gd1 HownL HO TAa TAb]
  · isplitr; · iexact HI
    isplitl [Hsrc0]; · iexact Hsrc0
    isplitl [Gd1]; · iexact Gd1
    isplitl [HownL]
    · rw [grantLast_0, grant_eq]
      isplitl [HownL]; · iexact HownL
      iexact P37
    isplitl [HO]; · iexact HO
    isplitl [TAa]; · iexact TAa
    isplitr; · iexact P21
    isplitl [TAb]; · iexact TAb
    iexact Gr1
  iintro ⟨CsA, HO⟩
  -- the local steps between the two copies (they fill the first half of the second send buffer)
  sl_exec
  ihave Hs5e : iprop(∃ f, ptw (F := F) c cc0_scratch5 f) $$ [Hs5]
  · iexists _; iexact Hs5
  icases Hs5e with ⟨%t5, Hs5⟩
  ihave Hs5' := (slice_split c (SA 1) t5).1 $$ Hs5
  icases Hs5' with ⟨Hsrc1, Hrest5⟩
  -- copy 11: with it go the rows of the second gather buffer where that partner's pair block lands in the next layer
  ihave H1' := (slice_split c (VE1 1 (xr 4 c)) f1).1 $$ H1
  icases H1' with ⟨Hown1, Hrest1⟩
  iapply (wp_send_copy (F := F) c ⟨k0_dev15 c, k0_dev15_lt c⟩ (SA 1) (R2 1) 31 36 0 12 (by omega) (by omega) (by decide) (by decide)
      ((credit_R2 1).trans rfl) (amtDma_sendOf 36 0 (Or.inr (by omega))) (grant c (VE1 1 (xr 4 c)) (agR 1 1) 1) fullShare t5
      (ownAt_of c (SA 1) t5)
      (by rw [dev15_eq c]
          show iprop(ownAt (F := F) (xr 4 c) (R2 1) ∗ grant c (VE1 1 (xr 4 c)) (agR 1 1) 1)
            ⊢ iprop(ownAt (xr 4 c) (R2 1) ∗ grant (xr 4 (xr 4 c)) (VE1 1 (xr 4 c)) (agR 1 1) 1)
          rw [xr_xr])
      K (owedFrom c 12) (by rw [dev15_eq c]) W
      (by rw [dev15_eq c]; exact routes4 c)) $$ [Hsrc1 Gd2 Hown1 HO TBa TBb]
  · isplitr; · iexact HI
    isplitl [Hsrc1]; · iexact Hsrc1
    isplitl [Gd2]; · iexact Gd2
    isplitl [Hown1]
    · rw [grant_eq]
      isplitl [Hown1]; · iapply (ownAt_of c (VE1 1 (xr 4 c)) f1); iexact Hown1
      iexact P18
    isplitl [HO]; · iexact HO
    isplitl [TBa]; · iexact TBa
    isplitr; · iexact P31
    isplitl [TBb]; · iexact TBb
    iexact Gr2
  iintro ⟨CsB, HO⟩
  -- the wait for copy 10's send cell: the source half comes back and the first send buffer is whole again
  ihave Hmw := (mayWait_copy (F := F) c (dsem 21) 10 12 (by omega) (by omega)) $$ Hlev
  iapply (wp_wait_copy (F := F) c 21 0 11 (by omega) (by decide) K (owedFrom c 12) W
      (hw := fun Kt => hw_waitDma2 c 21 0 (src := R2 0) (dst := SA 0) ((credit_SA 0).trans rfl) Kt)) $$ [CsA HO Hmw A21]
  · isplitr; · iexact HI
    isplitl [CsA]; · iexact CsA
    isplitl [HO]; · iexact HO
    isplitl [Hmw]; · iexact Hmw
    iexact A21
  rw [show payDma (F := F) c 21 0 = ownAt c (SA 0) from rfl]
  rw [Nat.zero_add]
  iintro ⟨HO, A21, #P21', Hback0⟩
  ihave Hs4e := (slice_join_ownAt c (SA 0) t4) $$ [Hback0 Hrest4]
  · isplitl [Hback0]; · iexact Hback0
    iexact Hrest4
  icases Hs4e with ⟨%u4, Hs4⟩
  ihave Hs4 : ptw (F := F) c cc0_scratch4 u4 $$ [Hs4]
  · iexact Hs4
  -- the wait for the partner's copy 10 on the own receive cell: rows 512.. of the receive buffer are written, and
  -- the partner hands over its slot for the own last reduce step of the second stream
  ihave Hmw2 := (mayWait_copy (F := F) c (dsem 26) 10 12 (by omega) (by omega)) $$ Hlev
  iapply (wp_wait_copy (F := F) c 26 0 11 (by omega) (by decide) K (owedFrom c 12) (insert (SemLoc.dma (dsem 21), 11) W)
      (hw := fun Kt => hw_waitDma2 c 26 0 (src := SA 0) (dst := R2 0) ((credit_R2 0).trans rfl) Kt)) $$ [CA HO Hmw2 A26]
  · isplitr; · iexact HI
    isplitl [CA]; · iexact CA
    isplitl [HO]; · iexact HO
    isplitl [Hmw2]; · iexact Hmw2
    iexact A26
  rw [show payDma (F := F) c 26 0 = iprop(ownAt c (R2 0) ∗ grantLast (xr 3 c) 1 0) from rfl, grantLast_0, grant_eq]
  rw [Nat.zero_add]
  iintro ⟨HO, A26, #P26', Hback20, HgLd, #HgLr⟩
  -- the wait for copy 11's send cell
  ihave Hmw3 := (mayWait_copy (F := F) c (dsem 31) 11 12 (by omega) (by omega)) $$ Hlev
  iapply (wp_wait_copy (F := F) c 31 0 12 (by omega) (by decide) K (owedFrom c 12) (insert (SemLoc.dma (dsem 26), 11) (insert (SemLoc.dma (dsem 21), 11) W))
      (hw := fun Kt => hw_waitDma2 c 31 0 (src := R2 1) (dst := SA 1) ((credit_SA 1).trans rfl) Kt)) $$ [CsB HO Hmw3 A31]
  · isplitr; · iexact HI
    isplitl [CsB]; · iexact CsB
    isplitl [HO]; · iexact HO
    isplitl [Hmw3]; · iexact Hmw3
    iexact A31
  rw [show payDma (F := F) c 31 0 = ownAt c (SA 1) from rfl]
  rw [Nat.zero_add]
  iintro ⟨HO, A31, #P31', Hback1⟩
  ihave Hs5e := (slice_join_ownAt c (SA 1) t5) $$ [Hback1 Hrest5]
  · isplitl [Hback1]; · iexact Hback1
    iexact Hrest5
  icases Hs5e with ⟨%u5, Hs5⟩
  ihave Hs5 : ptw (F := F) c cc0_scratch5 u5 $$ [Hs5]
  · iexact Hs5
  -- the wait for the partner's copy 11: rows 512.. of the second receive buffer are written, and the partner hands
  -- over the rows of its second gather buffer where the own pair block lands in the next layer
  ihave Hmw4 := (mayWait_copy (F := F) c (dsem 36) 11 12 (by omega) (by omega)) $$ Hlev
  iapply (wp_wait_copy (F := F) c 36 0 12 (by omega) (by decide) K (owedFrom c 12) (insert (SemLoc.dma (dsem 31), 12) (insert (SemLoc.dma (dsem 26), 11) (insert (SemLoc.dma (dsem 21), 11) W)))
      (hw := fun Kt => hw_waitDma2 c 36 0 (src := SA 1) (dst := R2 1) ((credit_R2 1).trans rfl) Kt)) $$ [CB HO Hmw4 A36]
  · isplitr; · iexact HI
    isplitl [CB]; · iexact CB
    isplitl [HO]; · iexact HO
    isplitl [Hmw4]; · iexact Hmw4
    iexact A36
  rw [show payDma (F := F) c 36 0 = iprop(ownAt c (R2 1) ∗ grant (xr 4 c) (VE1 1 c) (agR 1 1) 1) from rfl, grant_eq]
  rw [Nat.zero_add]
  iintro ⟨HO, A36, #P36', Hback21, Hg1d, #Hg1r⟩
  -- the landed slots go back into the receive buffers, which are then held without the last step's slot only
  ihave H6 := (heldBut_put_left c (R2 0) (R3 0).view.set (disj_R2_R3 0).symm) $$ [Hback20 H6]
  · isplitl [Hback20]; · iexact Hback20
    iexact H6
  ihave H7 := (heldBut_put_left c (R2 1) (R3 1).view.set (disj_R2_R3 1).symm) $$ [Hback21 H7]
  · isplitl [Hback21]; · iexact Hback21
    iexact H7
  -- the last local steps read the landed rows through the receive buffers held so
  ihave H6' := (heldBut_open c cc0_scratch6 (R3 0).view.set) $$ H6
  icases H6' with ⟨%u6, H6⟩
  ihave H7' := (heldBut_open c cc0_scratch7 (R3 1).view.set) $$ H7
  icases H7' with ⟨%u7, H7⟩
  sl_exec
  -- the state after the third reduce step
  rw [wp_ret]
  imodintro
  iexists K
  rw [QC_12_eq, core_eq, posAt_12, localBufs_eq]
  unfold grant
  isplitr [H0 Hrest1 H6 H7 Gd3 HgLd Hg1d]
  · isplitr; · iexact HI
    isplitr; · iexact Hr
    isplitr; · iexact Hlev
    isplitl [Hbar]; · iexact Hbar
    isplitl [A8 A9 A10 A11 A12 A13 A14 A15 A16 A17 A18 A19 A20 A21 A22 A23 A24 A25 A26 A27 A28 A29 A30 A31 A32 A33 A34 A35 A36 A37 A38 A39]
    · iframe ∗ #
    isplitl [Htoks]; · iexact Htoks
    isplitl [Hcreds]; · iexact Hcreds
    isplitl [HO]; · iexists _; iexact HO
    isplitl [Hg0]; · iexists _; iexact Hg0
    isplitl [Hg1]; · iexists _; iexact Hg1
    isplitl [Hg2]; · iexists _; iexact Hg2
    isplitl [Hg3]; · iexists _; iexact Hg3
    isplitl [Hg4]; · iexists _; iexact Hg4
    isplitl [Hg5]; · iexists _; iexact Hg5
    isplitl [Hg6]; · iexists _; iexact Hg6
    isplitl [Hg7]; · iexists _; iexact Hg7
    isplitl [Hs2]; · iexists _; iexact Hs2
    isplitl [Hs3]; · iexists _; iexact Hs3
    isplitl [Hs4]; · iexists _; iexact Hs4
    isplitl [Hs5]; · iexists _; iexact Hs5
    isplitl [Hs8]; · iexists _; iexact Hs8
    iexists _; iexact Hs9
  · isplitl [H0]; · iapply (heldBut_of_whole c cc0_scratch0 f0); iexact H0
    isplitl [Hrest1]; · iapply (heldBut_intro c cc0_scratch1 (VE1 1 (xr 4 c)).view.set f1); iexact Hrest1
    isplitl [H6]; · iapply (heldBut_intro c cc0_scratch6 (R3 0).view.set _); iexact H6
    isplitl [H7]; · iapply (heldBut_intro c cc0_scratch7 (R3 1).view.set _); iexact H7
    isplitl [Gd3]
    · isplitl [Gd3]; · iexact Gd3
      iexact Gr3
    isplitl [HgLd]
    · isplitl [HgLd]; · iexact HgLd
      iexact HgLr
    isplitl [Hg1d]; · iexact Hg1d
    iexact Hg1r

set_option maxHeartbeats 4000000 in
/-- The third reduce step of layer 1: copies 22 and 23 (the first halves of the two send buffers to rows 512.. of the
    receive buffers of `c xor 3` and `c xor 4`), their four waits, and the first stream's sum of the landed rows. -/
theorem seg8_ok (c : Dev nD) : Spec8 (F := F) c := by
  intro v2 v678 v681 v1041
  refine exists_elim fun K => ?_
  rw [QAB_22_eq, core_eq, posAt_22, toks_seg_22, creds_seg_22, localBufs_eq, heldBut_empty, heldBut_empty]
  unfold grant
  rw [← dev26_eq c, ← dev27_eq c]
  iintro ⟨⟨#HI, #Hr, #Hlev, Hbar, ⟨A8, #P8, A9, #P9, A10, #P10, A11, #P11, A12, #P12, A13, #P13, A14, #P14, A15, #P15, A16, #P16, A17, #P17, A18, #P18, A19, #P19, A20, #P20, A21, #P21, A22, #P22, A23, #P23, A24, #P24, A25, #P25, A26, #P26, A27, #P27, A28, #P28, A29, #P29, A30, #P30, A31, #P31, A32, #P32, A33, #P33, A34, #P34, A35, #P35, A36, #P36, A37, #P37, A38, #P38, A39, #P39⟩, ⟨⟨TAa, TAb⟩, ⟨TBa, TBb⟩, Htoks⟩, ⟨CA, CB, Hcreds⟩, ⟨%W, HO⟩, ⟨⟨%g0, Hg0⟩, ⟨%g1, Hg1⟩, ⟨%g2, Hg2⟩, ⟨%g3, Hg3⟩, ⟨%g4, Hg4⟩, ⟨%g5, Hg5⟩, ⟨%g6, Hg6⟩, ⟨%g7, Hg7⟩, ⟨%s2, Hs2⟩, ⟨%s3, Hs3⟩, ⟨%s4, Hs4⟩, ⟨%s5, Hs5⟩, ⟨%s8, Hs8⟩, ⟨%s9, Hs9⟩⟩⟩, ⟨%f0, H0⟩, ⟨%f1, H1⟩, H6, H7, ⟨Gd1, #Gr1⟩, ⟨Gd2, #Gr2⟩, ⟨Gd3, #Gr3⟩⟩
  unfold seg8
  simp only [k0_part34, k0_part35, k0_part36, Prog.lift, Prog.bind_op, Prog.bind_ret, Prog.pure_eq_ret]
  -- the local steps before the first copy (they fill the first half of the first send buffer)
  sl_exec
  ihave Hs4e : iprop(∃ f, ptw (F := F) c cc0_scratch4 f) $$ [Hs4]
  · iexists _; iexact Hs4
  icases Hs4e with ⟨%t4, Hs4⟩
  -- copy 22: with it goes the own slot for that partner's last reduce step of the second stream
  ihave H7' := (heldBut_take_view c (R4 1) (R2 1).view.set (disj_R2_R4 1)).1 $$ H7
  icases H7' with ⟨HownL, H7⟩
  ihave Hs4' := (slice_split c (SA 0) t4).1 $$ Hs4
  icases Hs4' with ⟨Hsrc0, Hrest4⟩
  iapply (wp_send_copy (F := F) c ⟨k0_dev26 c, k0_dev26_lt c⟩ (SA 0) (R2 0) 21 26 1 23 (by omega) (by omega) (by decide) (by decide)
      ((credit_R2 0).trans rfl) (amtDma_sendOf 26 1 (Or.inr (by omega))) (grantLast c 1 1) fullShare t4
      (ownAt_of c (SA 0) t4)
      (by rw [dev26_eq c]
          show iprop(ownAt (F := F) (xr 3 c) (R2 0) ∗ grantLast c 1 1) ⊢ iprop(ownAt (xr 3 c) (R2 0) ∗ grantLast (xr 3 (xr 3 c)) 1 1)
          rw [xr_xr])
      K (owedFrom c 23) (by rw [dev26_eq c]) W
      (by rw [dev26_eq c]; exact routes3 c)) $$ [Hsrc0 Gd1 HownL HO TAa TAb]
  · isplitr; · iexact HI
    isplitl [Hsrc0]; · iexact Hsrc0
    isplitl [Gd1]; · iexact Gd1
    isplitl [HownL]
    · rw [grantLast_1, grant_eq]
      isplitl [HownL]; · iexact HownL
      iexact P38
    isplitl [HO]; · iexact HO
    isplitl [TAa]; · iexact TAa
    isplitr; · iexact P21
    isplitl [TAb]; · iexact TAb
    iexact Gr1
  iintro ⟨CsA, HO⟩
  -- the local steps between the two copies (they fill the first half of the second send buffer)
  sl_exec
  ihave Hs5e : iprop(∃ f, ptw (F := F) c cc0_scratch5 f) $$ [Hs5]
  · iexists _; iexact Hs5
  icases Hs5e with ⟨%t5, Hs5⟩
  ihave Hs5' := (slice_split c (SA 1) t5).1 $$ Hs5
  icases Hs5' with ⟨Hsrc1, Hrest5⟩
  -- copy 23: with it go the rows of the second gather buffer where that partner's pair block lands in the next layer
  ihave H1' := (slice_split c (VE1 1 (xr 4 c)) f1).1 $$ H1
  icases H1' with ⟨Hown1, Hrest1⟩
  iapply (wp_send_copy (F := F) c ⟨k0_dev27 c, k0_dev27_lt c⟩ (SA 1) (R2 1) 31 36 1 24 (by omega) (by omega) (by decide) (by decide)
      ((credit_R2 1).trans rfl) (amtDma_sendOf 36 1 (Or.inr (by omega))) (grant c (VE1 1 (xr 4 c)) (agR 1 1) 2) fullShare t5
      (ownAt_of c (SA 1) t5)
      (by rw [dev27_eq c]
          show iprop(ownAt (F := F) (xr 4 c) (R2 1) ∗ grant c (VE1 1 (xr 4 c)) (agR 1 1) 2)
            ⊢ iprop(ownAt (xr 4 c) (R2 1) ∗ grant (xr 4 (xr 4 c)) (VE1 1 (xr 4 c)) (agR 1 1) 2)
          rw [xr_xr])
      K (owedFrom c 24) (by rw [dev27_eq c]) W
      (by rw [dev27_eq c]; exact routes4 c)) $$ [Hsrc1 Gd2 Hown1 HO TBa TBb]
  · isplitr; · iexact HI
    isplitl [Hsrc1]; · iexact Hsrc1
    isplitl [Gd2]; · iexact Gd2
    isplitl [Hown1]
    · rw [grant_eq]
      isplitl [Hown1]; · iapply (ownAt_of c (VE1 1 (xr 4 c)) f1); iexact Hown1
      iexact P18
    isplitl [HO]; · iexact HO
    isplitl [TBa]; · iexact TBa
    isplitr; · iexact P31
    isplitl [TBb]; · iexact TBb
    iexact Gr2
  iintro ⟨CsB, HO⟩
  -- the wait for copy 22's send cell: the source half comes back and the first send buffer is whole again
  ihave Hmw := (mayWait_copy (F := F) c (dsem 21) 22 24 (by omega) (by omega)) $$ Hlev
  iapply (wp_wait_copy (F := F) c 21 1 23 (by omega) (by decide) K (owedFrom c 24) W
      (hw := fun Kt => hw_waitDma2 c 21 1 (src := R2 0) (dst := SA 0) ((credit_SA 0).trans rfl) Kt)) $$ [CsA HO Hmw A21]
  · isplitr; · iexact HI
    isplitl [CsA]; · iexact CsA
    isplitl [HO]; · iexact HO
    isplitl [Hmw]; · iexact Hmw
    iexact A21
  rw [show payDma (F := F) c 21 1 = ownAt c (SA 0) from rfl]
  rw [show (1 : ℕ) + 1 = 2 from rfl]
  iintro ⟨HO, A21, #P21', Hback0⟩
  ihave Hs4e := (slice_join_ownAt c (SA 0) t4) $$ [Hback0 Hrest4]
  · isplitl [Hback0]; · iexact Hback0
    iexact Hrest4
  icases Hs4e with ⟨%u4, Hs4⟩
  ihave Hs4 : ptw (F := F) c cc0_scratch4 u4 $$ [Hs4]
  · iexact Hs4
  -- the wait for the partner's copy 22 on the own receive cell: rows 512.. of the receive buffer are written, and
  -- the partner hands over its slot for the own last reduce step of the second stream
  ihave Hmw2 := (mayWait_copy (F := F) c (dsem 26) 22 24 (by omega) (by omega)) $$ Hlev
  iapply (wp_wait_copy (F := F) c 26 1 23 (by omega) (by decide) K (owedFrom c 24) (insert (SemLoc.dma (dsem 21), 23) W)
      (hw := fun Kt => hw_waitDma2 c 26 1 (src := SA 0) (dst := R2 0) ((credit_R2 0).trans rfl) Kt)) $$ [CA HO Hmw2 A26]
  · isplitr; · iexact HI
    isplitl [CA]; · iexact CA
    isplitl [HO]; · iexact HO
    isplitl [Hmw2]; · iexact Hmw2
    iexact A26
  rw [show payDma (F := F) c 26 1 = iprop(ownAt c (R2 0) ∗ grantLast (xr 3 c) 1 1) from rfl, grantLast_1, grant_eq]
  rw [show (1 : ℕ) + 1 = 2 from rfl]
  iintro ⟨HO, A26, #P26', Hback20, HgLd, #HgLr⟩
  -- the wait for copy 23's send cell
  ihave Hmw3 := (mayWait_copy (F := F) c (dsem 31) 23 24 (by omega) (by omega)) $$ Hlev
  iapply (wp_wait_copy (F := F) c 31 1 24 (by omega) (by decide) K (owedFrom c 24) (insert (SemLoc.dma (dsem 26), 23) (insert (SemLoc.dma (dsem 21), 23) W))
      (hw := fun Kt => hw_waitDma2 c 31 1 (src := R2 1) (dst := SA 1) ((credit_SA 1).trans rfl) Kt)) $$ [CsB HO Hmw3 A31]
  · isplitr; · iexact HI
    isplitl [CsB]; · iexact CsB
    isplitl [HO]; · iexact HO
    isplitl [Hmw3]; · iexact Hmw3
    iexact A31
  rw [show payDma (F := F) c 31 1 = ownAt c (SA 1) from rfl]
  rw [show (1 : ℕ) + 1 = 2 from rfl]
  iintro ⟨HO, A31, #P31', Hback1⟩
  ihave Hs5e := (slice_join_ownAt c (SA 1) t5) $$ [Hback1 Hrest5]
  · isplitl [Hback1]; · iexact Hback1
    iexact Hrest5
  icases Hs5e with ⟨%u5, Hs5⟩
  ihave Hs5 : ptw (F := F) c cc0_scratch5 u5 $$ [Hs5]
  · iexact Hs5
  -- the wait for the partner's copy 23: rows 512.. of the second receive buffer are written, and the partner hands
  -- over the rows of its second gather buffer where the own pair block lands in the next layer
  ihave Hmw4 := (mayWait_copy (F := F) c (dsem 36) 23 24 (by omega) (by omega)) $$ Hlev
  iapply (wp_wait_copy (F := F) c 36 1 24 (by omega) (by decide) K (owedFrom c 24) (insert (SemLoc.dma (dsem 31), 24) (insert (SemLoc.dma (dsem 26), 23) (insert (SemLoc.dma (dsem 21), 23) W)))
      (hw := fun Kt => hw_waitDma2 c 36 1 (src := SA 1) (dst := R2 1) ((credit_R2 1).trans rfl) Kt)) $$ [CB HO Hmw4 A36]
  · isplitr; · iexact HI
    isplitl [CB]; · iexact CB
    isplitl [HO]; · iexact HO
    isplitl [Hmw4]; · iexact Hmw4
    iexact A36
  rw [show payDma (F := F) c 36 1 = iprop(ownAt c (R2 1) ∗ grant (xr 4 c) (VE1 1 c) (agR 1 1) 2) from rfl, grant_eq]
  rw [show (1 : ℕ) + 1 = 2 from rfl]
  iintro ⟨HO, A36, #P36', Hback21, Hg1d, #Hg1r⟩
  -- the landed slots go back into the receive buffers, which are then held without the last step's slot only
  ihave H6 := (heldBut_put_left c (R2 0) (R4 0).view.set (disj_R2_R4 0).symm) $$ [Hback20 H6]
  · isplitl [Hback20]; · iexact Hback20
    iexact H6
  ihave H7 := (heldBut_put_left c (R2 1) (R4 1).view.set (disj_R2_R4 1).symm) $$ [Hback21 H7]
  · isplitl [Hback21]; · iexact Hback21
    iexact H7
  -- the last local steps read the landed rows through the receive buffers held so; what the accumulators held before
  -- is forgotten first
  ihave Hs3e : iprop(∃ f, ptw (F := F) c cc0_scratch3 f) $$ [Hs3]
  · iexists _; iexact Hs3
  icases Hs3e with ⟨%t3, Hs3⟩
  ihave Hs2e : iprop(∃ f, ptw (F := F) c cc0_scratch2 f) $$ [Hs2]
  · iexists _; iexact Hs2
  icases Hs2e with ⟨%t2, Hs2⟩
  ihave H6' := (heldBut_open c cc0_scratch6 (R4 0).view.set) $$ H6
  icases H6' with ⟨%u6, H6⟩
  ihave H7' := (heldBut_open c cc0_scratch7 (R4 1).view.set) $$ H7
  icases H7' with ⟨%u7, H7⟩
  sl_exec
  -- the state after the third reduce step
  rw [wp_ret]
  imodintro
  iexists K
  rw [QC_24_eq, core_eq, posAt_24, localBufs_eq]
  unfold grant
  isplitr [H0 Hrest1 H6 H7 Gd3 HgLd Hg1d]
  · isplitr; · iexact HI
    isplitr; · iexact Hr
    isplitr; · iexact Hlev
    isplitl [Hbar]; · iexact Hbar
    isplitl [A8 A9 A10 A11 A12 A13 A14 A15 A16 A17 A18 A19 A20 A21 A22 A23 A24 A25 A26 A27 A28 A29 A30 A31 A32 A33 A34 A35 A36 A37 A38 A39]
    · iframe ∗ #
    isplitl [Htoks]; · iexact Htoks
    isplitl [Hcreds]; · iexact Hcreds
    isplitl [HO]; · iexists _; iexact HO
    isplitl [Hg0]; · iexists _; iexact Hg0
    isplitl [Hg1]; · iexists _; iexact Hg1
    isplitl [Hg2]; · iexists _; iexact Hg2
    isplitl [Hg3]; · iexists _; iexact Hg3
    isplitl [Hg4]; · iexists _; iexact Hg4
    isplitl [Hg5]; · iexists _; iexact Hg5
    isplitl [Hg6]; · iexists _; iexact Hg6
    isplitl [Hg7]; · iexists _; iexact Hg7
    isplitl [Hs2]; · iexists _; iexact Hs2
    isplitl [Hs3]; · iexists _; iexact Hs3
    isplitl [Hs4]; · iexists _; iexact Hs4
    isplitl [Hs5]; · iexists _; iexact Hs5
    isplitl [Hs8]; · iexists _; iexact Hs8
    iexists _; iexact Hs9
  · isplitl [H0]; · iapply (heldBut_of_whole c cc0_scratch0 f0); iexact H0
    isplitl [Hrest1]; · iapply (heldBut_intro c cc0_scratch1 (VE1 1 (xr 4 c)).view.set f1); iexact Hrest1
    isplitl [H6]; · iapply (heldBut_intro c cc0_scratch6 (R4 0).view.set _); iexact H6
    isplitl [H7]; · iapply (heldBut_intro c cc0_scratch7 (R4 1).view.set _); iexact H7
    isplitl [Gd3]
    · isplitl [Gd3]; · iexact Gd3
      iexact Gr3
    isplitl [HgLd]
    · isplitl [HgLd]; · iexact HgLd
      iexact HgLr
    isplitl [Hg1d]; · iexact Hg1d
    iexact Hg1r

set_option maxHeartbeats 4000000 in
/-- The third reduce step of layer 2: copies 34 and 35 (the first halves of the two send buffers to rows 512.. of the
    receive buffers of `c xor 3` and `c xor 4`), their four waits, and the first stream's sum of the landed rows. -/
theorem seg13_ok (c : Dev nD) : Spec13 (F := F) c := by
  intro v2 v11 v1225 v1228 v1571
  refine exists_elim fun K => ?_
  rw [QAB_34_eq, core_eq, posAt_34, toks_seg_34, creds_seg_34, localBufs_eq, heldBut_empty, heldBut_empty]
  unfold grant
  rw [← dev38_eq c, ← dev39_eq c]
  iintro ⟨⟨#HI, #Hr, #Hlev, Hbar, ⟨A8, #P8, A9, #P9, A10, #P10, A11, #P11, A12, #P12, A13, #P13, A14, #P14, A15, #P15, A16, #P16, A17, #P17, A18, #P18, A19, #P19, A20, #P20, A21, #P21, A22, #P22, A23, #P23, A24, #P24, A25, #P25, A26, #P26, A27, #P27, A28, #P28, A29, #P29, A30, #P30, A31, #P31, A32, #P32, A33, #P33, A34, #P34, A35, #P35, A36, #P36, A37, #P37, A38, #P38, A39, #P39⟩, ⟨⟨TAa, TAb⟩, ⟨TBa, TBb⟩, Htoks⟩, ⟨CA, CB, Hcreds⟩, ⟨%W, HO⟩, ⟨⟨%g0, Hg0⟩, ⟨%g1, Hg1⟩, ⟨%g2, Hg2⟩, ⟨%g3, Hg3⟩, ⟨%g4, Hg4⟩, ⟨%g5, Hg5⟩, ⟨%g6, Hg6⟩, ⟨%g7, Hg7⟩, ⟨%s2, Hs2⟩, ⟨%s3, Hs3⟩, ⟨%s4, Hs4⟩, ⟨%s5, Hs5⟩, ⟨%s8, Hs8⟩, ⟨%s9, Hs9⟩⟩⟩, ⟨%f0, H0⟩, ⟨%f1, H1⟩, H6, H7, ⟨Gd1, #Gr1⟩, ⟨Gd2, #Gr2⟩, ⟨Gd3, #Gr3⟩⟩
  unfold seg13
  simp only [k0_part51, k0_part52, k0_part53, Prog.lift, Prog.bind_op, Prog.bind_ret, Prog.pure_eq_ret]
  -- the local steps before the first copy (they fill the first half of the first send buffer)
  sl_exec
  ihave Hs4e : iprop(∃ f, ptw (F := F) c cc0_scratch4 f) $$ [Hs4]
  · iexists _; iexact Hs4
  icases Hs4e with ⟨%t4, Hs4⟩
  -- copy 34: with it goes the own slot for that partner's last reduce step of the second stream
  ihave H7' := (heldBut_take_view c (R3h 1) (R2 1).view.set (disj_R2_R3h 1)).1 $$ H7
  icases H7' with ⟨HownL, H7⟩
  ihave Hs4' := (slice_split c (SA 0) t4).1 $$ Hs4
  icases Hs4' with ⟨Hsrc0, Hrest4⟩
  iapply (wp_send_copy (F := F) c ⟨k0_dev38 c, k0_dev38_lt c⟩ (SA 0) (R2 0) 21 26 2 35 (by omega) (by omega) (by decide) (by decide)
      ((credit_R2 0).trans rfl) (amtDma_sendOf 26 2 (Or.inr (by omega))) (grantLast c 1 2) fullShare t4
      (ownAt_of c (SA 0) t4)
      (by rw [dev38_eq c]
          show iprop(ownAt (F := F) (xr 3 c) (R2 0) ∗ grantLast c 1 2) ⊢ iprop(ownAt (xr 3 c) (R2 0) ∗ grantLast (xr 3 (xr 3 c)) 1 2)
          rw [xr_xr])
      K (owedFrom c 35) (by rw [dev38_eq c]) W
      (by rw [dev38_eq c]; exact routes3 c)) $$ [Hsrc0 Gd1 HownL HO TAa TAb]
  · isplitr; · iexact HI
    isplitl [Hsrc0]; · iexact Hsrc0
    isplitl [Gd1]; · iexact Gd1
    isplitl [HownL]
    · rw [grantLast_2, grant_eq]
      isplitl [HownL]; · iexact HownL
      iexact P37
    isplitl [HO]; · iexact HO
    isplitl [TAa]; · iexact TAa
    isplitr; · iexact P21
    isplitl [TAb]; · iexact TAb
    iexact Gr1
  iintro ⟨CsA, HO⟩
  -- the local steps between the two copies (they fill the first half of the second send buffer)
  sl_exec
  ihave Hs5e : iprop(∃ f, ptw (F := F) c cc0_scratch5 f) $$ [Hs5]
  · iexists _; iexact Hs5
  icases Hs5e with ⟨%t5, Hs5⟩
  ihave Hs5' := (slice_split c (SA 1) t5).1 $$ Hs5
  icases Hs5' with ⟨Hsrc1, Hrest5⟩
  -- copy 35: the last layer, nothing goes with it
  iapply (wp_send_copy (F := F) c ⟨k0_dev39 c, k0_dev39_lt c⟩ (SA 1) (R2 1) 31 36 2 36 (by omega) (by omega) (by decide) (by decide)
      ((credit_R2 1).trans rfl) (amtDma_sendOf 36 2 (Or.inr (by omega))) iprop(emp) fullShare t5
      (ownAt_of c (SA 1) t5)
      Idealize.SL.BI.Laws.sep_emp.mp
      K (owedFrom c 36) (by rw [dev39_eq c]) W
      (by rw [dev39_eq c]; exact routes4 c)) $$ [Hsrc1 Gd2 HO TBa TBb]
  · isplitr; · iexact HI
    isplitl [Hsrc1]; · iexact Hsrc1
    isplitl [Gd2]; · iexact Gd2
    isplitl []; · iempintro
    isplitl [HO]; · iexact HO
    isplitl [TBa]; · iexact TBa
    isplitr; · iexact P31
    isplitl [TBb]; · iexact TBb
    iexact Gr2
  iintro ⟨CsB, HO⟩
  -- the wait for copy 34's send cell: the source half comes back and the first send buffer is whole again
  ihave Hmw := (mayWait_copy (F := F) c (dsem 21) 34 36 (by omega) (by omega)) $$ Hlev
  iapply (wp_wait_copy (F := F) c 21 2 35 (by omega) (by decide) K (owedFrom c 36) W
      (hw := fun Kt => hw_waitDma2 c 21 2 (src := R2 0) (dst := SA 0) ((credit_SA 0).trans rfl) Kt)) $$ [CsA HO Hmw A21]
  · isplitr; · iexact HI
    isplitl [CsA]; · iexact CsA
    isplitl [HO]; · iexact HO
    isplitl [Hmw]; · iexact Hmw
    iexact A21
  rw [show payDma (F := F) c 21 2 = ownAt c (SA 0) from rfl]
  rw [show (2 : ℕ) + 1 = 3 from rfl]
  iintro ⟨HO, A21, #P21', Hback0⟩
  ihave Hs4e := (slice_join_ownAt c (SA 0) t4) $$ [Hback0 Hrest4]
  · isplitl [Hback0]; · iexact Hback0
    iexact Hrest4
  icases Hs4e with ⟨%u4, Hs4⟩
  ihave Hs4 : ptw (F := F) c cc0_scratch4 u4 $$ [Hs4]
  · iexact Hs4
  -- the wait for the partner's copy 34 on the own receive cell: rows 512.. of the receive buffer are written, and
  -- the partner hands over its slot for the own last reduce step of the second stream
  ihave Hmw2 := (mayWait_copy (F := F) c (dsem 26) 34 36 (by omega) (by omega)) $$ Hlev
  iapply (wp_wait_copy (F := F) c 26 2 35 (by omega) (by decide) K (owedFrom c 36) (insert (SemLoc.dma (dsem 21), 35) W)
      (hw := fun Kt => hw_waitDma2 c 26 2 (src := SA 0) (dst := R2 0) ((credit_R2 0).trans rfl) Kt)) $$ [CA HO Hmw2 A26]
  · isplitr; · iexact HI
    isplitl [CA]; · iexact CA
    isplitl [HO]; · iexact HO
    isplitl [Hmw2]; · iexact Hmw2
    iexact A26
  rw [show payDma (F := F) c 26 2 = iprop(ownAt c (R2 0) ∗ grantLast (xr 3 c) 1 2) from rfl, grantLast_2, grant_eq]
  rw [show (2 : ℕ) + 1 = 3 from rfl]
  iintro ⟨HO, A26, #P26', Hback20, HgLd, #HgLr⟩
  -- the wait for copy 35's send cell
  ihave Hmw3 := (mayWait_copy (F := F) c (dsem 31) 35 36 (by omega) (by omega)) $$ Hlev
  iapply (wp_wait_copy (F := F) c 31 2 36 (by omega) (by decide) K (owedFrom c 36) (insert (SemLoc.dma (dsem 26), 35) (insert (SemLoc.dma (dsem 21), 35) W))
      (hw := fun Kt => hw_waitDma2 c 31 2 (src := R2 1) (dst := SA 1) ((credit_SA 1).trans rfl) Kt)) $$ [CsB HO Hmw3 A31]
  · isplitr; · iexact HI
    isplitl [CsB]; · iexact CsB
    isplitl [HO]; · iexact HO
    isplitl [Hmw3]; · iexact Hmw3
    iexact A31
  rw [show payDma (F := F) c 31 2 = ownAt c (SA 1) from rfl]
  rw [show (2 : ℕ) + 1 = 3 from rfl]
  iintro ⟨HO, A31, #P31', Hback1⟩
  ihave Hs5e := (slice_join_ownAt c (SA 1) t5) $$ [Hback1 Hrest5]
  · isplitl [Hback1]; · iexact Hback1
    iexact Hrest5
  icases Hs5e with ⟨%u5, Hs5⟩
  ihave Hs5 : ptw (F := F) c cc0_scratch5 u5 $$ [Hs5]
  · iexact Hs5
  -- the wait for the partner's copy 35: rows 512.. of the second receive buffer are written
  ihave Hmw4 := (mayWait_copy (F := F) c (dsem 36) 35 36 (by omega) (by omega)) $$ Hlev
  iapply (wp_wait_copy (F := F) c 36 2 36 (by omega) (by decide) K (owedFrom c 36) (insert (SemLoc.dma (dsem 31), 36) (insert (SemLoc.dma (dsem 26), 35) (insert (SemLoc.dma (dsem 21), 35) W)))
      (hw := fun Kt => hw_waitDma2 c 36 2 (src := SA 1) (dst := R2 1) ((credit_R2 1).trans rfl) Kt)) $$ [CB HO Hmw4 A36]
  · isplitr; · iexact HI
    isplitl [CB]; · iexact CB
    isplitl [HO]; · iexact HO
    isplitl [Hmw4]; · iexact Hmw4
    iexact A36
  rw [show payDma (F := F) c 36 2 = ownAt c (R2 1) from rfl]
  rw [show (2 : ℕ) + 1 = 3 from rfl]
  iintro ⟨HO, A36, #P36', Hback21⟩
  -- the landed slots go back into the receive buffers, which are then held without the last step's slot only
  ihave H6 := (heldBut_put_left c (R2 0) (R3h 0).view.set (disj_R2_R3h 0).symm) $$ [Hback20 H6]
  · isplitl [Hback20]; · iexact Hback20
    iexact H6
  ihave H7 := (heldBut_put_left c (R2 1) (R3h 1).view.set (disj_R2_R3h 1).symm) $$ [Hback21 H7]
  · isplitl [Hback21]; · iexact Hback21
    iexact H7
  -- the last local steps read the landed rows through the receive buffers held so; what the accumulators held before
  -- is forgotten first
  ihave Hs3e : iprop(∃ f, ptw (F := F) c cc0_scratch3 f) $$ [Hs3]
  · iexists _; iexact Hs3
  icases Hs3e with ⟨%t3, Hs3⟩
  ihave Hs2e : iprop(∃ f, ptw (F := F) c cc0_scratch2 f) $$ [Hs2]
  · iexists _; iexact Hs2
  icases Hs2e with ⟨%t2, Hs2⟩
  ihave H6' := (heldBut_open c cc0_scratch6 (R3h 0).view.set) $$ H6
  icases H6' with ⟨%u6, H6⟩
  ihave H7' := (heldBut_open c cc0_scratch7 (R3h 1).view.set) $$ H7
  icases H7' with ⟨%u7, H7⟩
  -- the last three steps read other rows of the first accumulator: they are run apart, after what it held is forgotten
  generalize hR : (Prog.op (TpuEff.load (Memref.whole cc0_scratch2) (Rect.unit (s := S1024x256) (k0_off19 c) _ _).toLoadRect _) _
      : Prog (TpuEff nD τ sig (Elt F) Λ₀ .tc) _) = R
  sl_exec
  ihave Hs2e : iprop(∃ f, ptw (F := F) c cc0_scratch2 f) $$ [Hs2]
  · iexists _; iexact Hs2
  icases Hs2e with ⟨%t2', Hs2⟩
  subst hR
  sl_exec
  -- the state after the third reduce step
  rw [wp_ret]
  imodintro
  iexists K
  rw [QC_36_eq, core_eq, posAt_36, localBufs_eq]
  unfold grant
  isplitr [H0 H1 H6 H7 Gd3 HgLd]
  · isplitr; · iexact HI
    isplitr; · iexact Hr
    isplitr; · iexact Hlev
    isplitl [Hbar]; · iexact Hbar
    isplitl [A8 A9 A10 A11 A12 A13 A14 A15 A16 A17 A18 A19 A20 A21 A22 A23 A24 A25 A26 A27 A28 A29 A30 A31 A32 A33 A34 A35 A36 A37 A38 A39]
    · iframe ∗ #
    isplitl [Htoks]; · iexact Htoks
    isplitl [Hcreds]; · iexact Hcreds
    isplitl [HO]; · iexists _; iexact HO
    isplitl [Hg0]; · iexists _; iexact Hg0
    isplitl [Hg1]; · iexists _; iexact Hg1
    isplitl [Hg2]; · iexists _; iexact Hg2
    isplitl [Hg3]; · iexists _; iexact Hg3
    isplitl [Hg4]; · iexists _; iexact Hg4
    isplitl [Hg5]; · iexists _; iexact Hg5
    isplitl [Hg6]; · iexists _; iexact Hg6
    isplitl [Hg7]; · iexists _; iexact Hg7
    isplitl [Hs2]; · iexists _; iexact Hs2
    isplitl [Hs3]; · iexists _; iexact Hs3
    isplitl [Hs4]; · iexists _; iexact Hs4
    isplitl [Hs5]; · iexists _; iexact Hs5
    isplitl [Hs8]; · iexists _; iexact Hs8
    iexists _; iexact Hs9
  · isplitl [H0]; · iapply (heldBut_of_whole c cc0_scratch0 f0); iexact H0
    isplitl [H1]; · iapply (heldBut_of_whole c cc0_scratch1 f1); iexact H1
    isplitl [H6]; · iapply (heldBut_intro c cc0_scratch6 (R3h 0).view.set _); iexact H6
    isplitl [H7]; · iapply (heldBut_intro c cc0_scratch7 (R3h 1).view.set _); iexact H7
    isplitl [Gd3]
    · isplitl [Gd3]; · iexact Gd3
      iexact Gr3
    isplitl [HgLd]
    · isplitl [HgLd]; · iexact HgLd
      iexact HgLr
    iempintro

/-! ## These rest on the standard axioms only -/

/-- info: 'Cert.Kernel.Hand.seg4_ok' depends on axioms: [propext, Classical.choice, Quot.sound] -/
#guard_msgs in #print axioms seg4_ok
/-- info: 'Cert.Kernel.Hand.seg8_ok' depends on axioms: [propext, Classical.choice, Quot.sound] -/
#guard_msgs in #print axioms seg8_ok
/-- info: 'Cert.Kernel.Hand.seg13_ok' depends on axioms: [propext, Classical.choice, Quot.sound] -/
#guard_msgs in #print axioms seg13_ok

end Cert.Kernel.Hand

end
-- ==== Proof.Kernel.SegD.lean ====
/- The last step of the reduce of a layer that has a next layer (layers 0 and 1).

   Each stream sends the cast partial sums of the pair of row blocks that its last partner owns — the first half of
   its send buffer — into that partner's slot of this layer's last step (rows 768.. of the receive buffer in layer 0,
   rows 1024.. in layer 1), waits for its own send cell and for the partner's symmetric copy on its receive cell, adds
   what landed to its own partial sums and stores the sum, cast, into its own pair of row blocks of the gather
   buffer: the layer's output, from which the next layer's exchanges start.
   With each copy goes the hand-over the partner needs for the next layer: to c xor 1 the four row blocks of the
   second gather buffer where its third exchange will land, to c xor 3 the pair of row blocks of the first gather
   buffer where its second exchange will land. So from the first copy on the second gather buffer, and from the
   second copy on the first, are held without those blocks, and the reads and the store of the own pair go through
   the base rules with the disjointness of the row blocks as side condition. The landings hand back the own slots of
   the receive buffers, which are whole again, and the partners' blocks for the device's own next exchanges. -/
import proofs.«900979_g7700000000000980_dist_mlpseq_tp1d_bs_bs_b256_d256_h512_v7x_i8_bf16_1_alg».proof.Proof.Kernel.Specs
import proofs.«900979_g7700000000000980_dist_mlpseq_tp1d_bs_bs_b256_d256_h512_v7x_i8_bf16_1_alg».proof.Proof.Kernel.Steps
import proofs.«900979_g7700000000000980_dist_mlpseq_tp1d_bs_bs_b256_d256_h512_v7x_i8_bf16_1_alg».proof.Proof.Kernel.QuietLemmas

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.Tactic

/-! ## Local steps on a buffer held without some of its elements -/

/-- On a whole buffer the elements under a set of indices are that set. -/
theorem setOn_whole_D (b : Ref sig .tc) (M : Finset b.ty.shape.Idx) : (Memref.whole b).view.setOn M = M := by
  show M.map (View.whole b).emb = M
  rw [View.emb_whole]; exact Finset.map_refl

/-- A read through a rectangle that avoids the elements away reads held elements. -/
theorem load_ok_D (b : Ref sig .tc) (r : Rect b.ty.shape) (A : Finset b.ty.shape.Idx) (hd : Disjoint r.set A) :
    (Memref.whole b).view.setOn r.toLoadRect.set ⊆ Finset.univ \ A := by
  rw [setOn_whole_D]; exact Finset.subset_sdiff.mpr ⟨Finset.subset_univ _, hd⟩

/-- A store through such a rectangle writes held elements. -/
theorem store_ok_D (b : Ref sig .tc) (r : Rect b.ty.shape) (Mk : Finset r.shape.Idx) (A : Finset b.ty.shape.Idx)
    (hd : Disjoint r.set A) : ((Memref.whole b).access r).setOn Mk ⊆ Finset.univ \ A := fun i hi =>
  Finset.mem_sdiff.mpr ⟨Finset.mem_univ _, fun hA => Finset.disjoint_left.mp hd
    (by have h := View.setOn_subset_set _ Mk hi; rwa [View.set_slice_whole] at h) hA⟩

/-! ## A remote copy and its waits as printed: the partner and the semaphores by their printed terms -/

/-- The copy rule with the partner and the semaphores as the program spells them, each equal to the protocol's. -/
theorem wp_send_copy_D (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-- The wait rule with the semaphore as the program spells it. -/
theorem wp_wait_copy_D (c : Dev nD) (j r ι : ℕ) (sW : DmaSem sig) (hsW : sW = dsem j) (hj : j < 40) (hr : r < nRounds j)
    (K : GSem nD τ sig → ℕ) (O : CellTallies nD τ sig ℕ) (W : Waits sig ℕ)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = amtDma j r)
    {α : Type} {Q : α → sProp 𝕄} {k : PUnit → Prog (TpuEff nD τ sig (Elt F) Λ₀ .tc) α} :
    iprop(invsAll (F := F) K ∗ cred (tallyAt (dcell c (dsem j)) ι (amtDma j r)) ∗ owes (c : Thread nD τ) O W
        ∗ MayWait (c : Thread nD τ) (.dma (dsem j)) ι O ∗ atPos ER (dcell c (dsem j)) r ∅ 0)
      ⊢ iprop(((owes (c : Thread nD τ) O (insert (.dma (dsem j), ι) W) ∗ atPos ER (dcell c (dsem j)) (r + 1) ∅ 0
              ∗ reached ER (dcell c (dsem j)) (r + 1) ∗ payDma c j r)
            -∗ wp frame (wpE (defs₀ (F := F)) Variants.none (c : Thread nD τ) none) Set.univ (k ⟨⟩) Q)
          -∗ wp frame (wpE (defs₀ (F := F)) Variants.none (c : Thread nD τ) none) Set.univ
              (.op (.waitDma2 sW src dst hsrc hdst) k) Q) := by
  subst hsW
  exact wp_wait_copy c j r ι hj hr K O W (hw := fun Kt => hw_waitDma2 c j r hN Kt)

/-- A buffer held without some elements, opened at its contents. -/
theorem heldBut_open_D (c : Dev nD) (b : Ref sig .tc) (A : Finset (Idx ((Memref.whole b).view.loc (c : Thread nD τ)))) :
    heldBut (F := F) c b A ⊢ iprop(∃ f : Buf (Elt F) ((Memref.whole b).view.loc (c : Thread nD τ)),
      (Memref.whole b).view.loc (c : Thread nD τ) ↦[Finset.univ \ A]{fullShare} f) := by
  unfold heldBut
  exact .rfl

/-! ## Side facts of the last reduce step, layer 0 -/

/-- Rows 512.. of the second receive buffer do not meet the slot at rows 768... -/
theorem d5_hd7 : Disjoint (Rect.unit (s := S1280x256) ![512, 0] S256x256.size inb_S1280x256_S256x256_512_0).set (R3 1).view.set := by
  rw [← set_slice_of_whole cc0_scratch7 (Rect.unit (s := S1280x256) ![512, 0] S256x256.size inb_S1280x256_S256x256_512_0) (fun _ => rfl)]
  exact disj_R2_R3 1

theorem d5_off17 : ∀ c : Dev nD, k0_off17 c 0 + S256x256.size 0 ≤ k0_off5 (xr 3 c) 0 ∨ k0_off5 (xr 3 c) 0 + S256x256.size 0 ≤ k0_off17 c 0 := by
  decide +kernel
theorem d5_off18a : ∀ c : Dev nD, k0_off18 c 0 + S256x256.size 0 ≤ k0_off6 (xr 4 c) 0 ∨ k0_off6 (xr 4 c) 0 + S256x256.size 0 ≤ k0_off18 c 0 := by
  decide +kernel
theorem d5_off18b : ∀ c : Dev nD, k0_off18 c 0 + S256x256.size 0 ≤ k0_off10 (xr 1 c) 0 ∨ k0_off10 (xr 1 c) 0 + S512x256.size 0 ≤ k0_off18 c 0 := by
  decide +kernel
theorem d5_offAB : ∀ c : Dev nD, k0_off6 (xr 4 c) 0 + S256x256.size 0 ≤ k0_off10 (xr 1 c) 0 ∨ k0_off10 (xr 1 c) 0 + S512x256.size 0 ≤ k0_off6 (xr 4 c) 0 := by
  decide +kernel

/-- The own pair of blocks of the first gather buffer does not meet the pair of c xor 3. -/
theorem d5_hd0 (c : Dev nD) : Disjoint (Rect.unit (s := S1024x256) (k0_off17 c) S256x256.size (k0_off17_inb c)).set (VE1 0 (xr 3 c)).view.set := by
  rw [← set_slice_of_whole cc0_scratch0 (Rect.unit (s := S1024x256) (k0_off17 c) S256x256.size (k0_off17_inb c)) (fun _ => rfl)]
  exact disj_slices cc0_scratch0 0 (d5_off17 c)

/-- In the second gather buffer the pair of c xor 4 and the four blocks of c xor 1 do not meet. -/
theorem d5_hdAB (c : Dev nD) : Disjoint (VE1 1 (xr 4 c)).view.set (VE2 1 (xr 1 c)).view.set :=
  disj_slices cc0_scratch1 0 (d5_offAB c)

/-- Nor does the own pair of blocks meet either. -/
theorem d5_hd1 (c : Dev nD) : Disjoint (Rect.unit (s := S1024x256) (k0_off18 c) S256x256.size (k0_off18_inb c)).set
    ((VE1 1 (xr 4 c)).view.set ∪ (VE2 1 (xr 1 c)).view.set) := by
  rw [← set_slice_of_whole cc0_scratch1 (Rect.unit (s := S1024x256) (k0_off18 c) S256x256.size (k0_off18_inb c)) (fun _ => rfl)]
  exact Finset.disjoint_union_right.mpr ⟨disj_slices cc0_scratch1 0 (d5_off18a c), disj_slices cc0_scratch1 0 (d5_off18b c)⟩

theorem d5_hpayR12 (c : Dev nD) : iprop(ownAt (F := F) (xr 1 c) (R3 0) ∗ grant c (VE2 1 (xr 1 c)) (agR 1 2) 1) ⊢ payDma (xr 1 c) 27 0 := by
  show _ ⊢ iprop(ownAt (xr 1 c) (R3 0) ∗ grant (xr 1 (xr 1 c)) (VE2 1 (xr 1 c)) (agR 1 2) 1)
  rw [xr_xr]
  first | done | exact .rfl
theorem d5_hpayR13 (c : Dev nD) : iprop(ownAt (F := F) (xr 3 c) (R3 1) ∗ grant c (VE1 0 (xr 3 c)) (agR 0 1) 1) ⊢ payDma (xr 3 c) 37 0 := by
  show _ ⊢ iprop(ownAt (xr 3 c) (R3 1) ∗ grant (xr 3 (xr 3 c)) (VE1 0 (xr 3 c)) (agR 0 1) 1)
  rw [xr_xr]
  first | done | exact .rfl
theorem amtD_27_0 : amtDma 27 0 = amtDma 25 0 := by decide
theorem amtD_22_0 : amtDma 22 0 = amtDma 27 0 := by decide
theorem amtD_37_0 : amtDma 37 0 = amtDma 25 0 := by decide
theorem amtD_32_0 : amtDma 32 0 = amtDma 37 0 := by decide

set_option maxHeartbeats 1600000 in
theorem seg5_ok (c : Dev nD) : Spec5 (F := F) c := by
  intro v2 v131 v134
  refine exists_elim fun K => ?_
  rw [QC_12_eq, core_eq, posAt_12, toks_seg_12, creds_seg_12, localBufs_eq, heldBut_empty]
  unfold grant
  rw [show (rsR 0 2 : DmaSem sig) = dsem 27 from by decide, show (rsR 1 2 : DmaSem sig) = dsem 37 from by decide,
    show (agR 1 1 : DmaSem sig) = dsem 18 from by decide]
  iintro ⟨⟨#HI, #Hr, #Hlev, Hbar, ⟨A8, #P8, A9, #P9, A10, #P10, A11, #P11, A12, #P12, A13, #P13, A14, #P14, A15, #P15, A16, #P16, A17, #P17, A18, #P18, A19, #P19, A20, #P20, A21, #P21, A22, #P22, A23, #P23, A24, #P24, A25, #P25, A26, #P26, A27, #P27, A28, #P28, A29, #P29, A30, #P30, A31, #P31, A32, #P32, A33, #P33, A34, #P34, A35, #P35, A36, #P36, A37, #P37, A38, #P38, A39, #P39⟩, ⟨⟨TAa, TAb⟩, ⟨TBa, TBb⟩, Htoks⟩, ⟨CA, CB, Hcreds⟩, ⟨%W, HO⟩, ⟨⟨%w0, Hw0⟩, ⟨%w1, Hw1⟩, ⟨%w2, Hw2⟩, ⟨%w3, Hw3⟩, ⟨%w4, Hw4⟩, ⟨%w5, Hw5⟩, ⟨%w6, Hw6⟩, ⟨%w7, Hw7⟩, ⟨%a2, Ha2⟩, ⟨%a3, Ha3⟩, ⟨%s4, Hs4⟩, ⟨%s5, Hs5⟩, ⟨%b8, Hb8⟩, ⟨%b9, Hb9⟩⟩⟩, ⟨%x0, Hx0⟩, H1, H6, H7, ⟨Gd1, #Gr1⟩, ⟨Gd2, #Gr2⟩, ⟨Gd3, #Gr3⟩⟩
  unfold seg5
  rw [k0_part19_eq_skeleton, k0_part20_eq_skeleton, k0_part21_eq_skeleton]
  unfold k0_part19_skel k0_part20_skel k0_part21_skel
  simp only [Prog.lift, Prog.bind_op, Prog.bind_ret, Prog.pure_eq_ret, Prog.bind_assoc]
  sl_exec
  -- the read of rows 512.. of the second receive buffer, held without its slot at rows 768..
  ihave H7o := (heldBut_open_D (F := F) c cc0_scratch7 _) $$ H7
  icases H7o with ⟨%f7, H7⟩
  iapply (wp_load Variants.none (c : Thread nD τ) none Set.univ (load_ok_D cc0_scratch7 _ _ d5_hd7)) $$ [H7]
  · iexact H7
  iintro H7
  ihave H7 := (heldBut_intro (F := F) c cc0_scratch7 (R3 1).view.set f7) $$ H7
  sl_exec
  ihave Ha3e : iprop(∃ f, ptw (F := F) c cc0_scratch3 f) $$ [Ha3]
  · iexists _
    iexact Ha3
  icases Ha3e with ⟨%a3', Ha3⟩
  -- copy 12: the first half of the first send buffer to the slot of this layer's last step in the receive buffer of
  -- c xor 1; with it go the four blocks of the second gather buffer where that partner's third exchange lands next
  ihave Hs4e : iprop(∃ f, ptw (F := F) c cc0_scratch4 f) $$ [Hs4]
  · iexists _
    iexact Hs4
  icases Hs4e with ⟨%t4, Hs4⟩
  ihave Hs4' := (slice_split c (SA 0) t4).1 $$ Hs4
  icases Hs4' with ⟨Hsrc0, Hrest4⟩
  ihave Hrest4 := (heldBut_intro (F := F) c cc0_scratch4 (SA 0).view.set t4) $$ Hrest4
  ihave H1' := (heldBut_take_view (F := F) c (VE2 1 (xr 1 c)) (VE1 1 (xr 4 c)).view.set (d5_hdAB c)).1 $$ H1
  icases H1' with ⟨Hown1, H1⟩
  iapply (wp_send_copy_D (F := F) c (xr 1 c) _ (dev16_eq c) (SA 0) (R3 0) 22 27 0 13 _ _ sem_rs0s_2 sem_rs0r_2
      (by omega) (by omega) (by decide) (by decide) ((credit_R3 0).trans amtD_27_0.symm) amtD_22_0
      (grant c (VE2 1 (xr 1 c)) (agR 1 2) 1) fullShare t4
      (ownAt_of c (SA 0) t4) (d5_hpayR12 c) K (owedFrom c 13) (owedFrom_succ c 12 (1, 27, 0) rfl) W (Topo.routes_tc _ _)) $$ [Hsrc0 Gd1 Hown1 HO TAa TAb]
  · isplitr
    · iexact HI
    isplitl [Hsrc0]
    · iexact Hsrc0
    isplitl [Gd1]
    · iexact Gd1
    isplitl [Hown1]
    · rw [grant_eq]
      isplitl [Hown1]
      · iexact Hown1
      iexact P19
    isplitl [HO]
    · iexact HO
    isplitl [TAa]
    · iexact TAa
    isplitr
    · iexact P22
    isplitl [TAb]
    · iexact TAb
    iexact Gr1
  iintro ⟨CsA, HO⟩
  sl_exec
  -- copy 13: the first half of the second send buffer to the same slot of the second receive buffer of c xor 3; with
  -- it goes that partner's pair of blocks of the first gather buffer, where its second exchange lands next
  ihave Hs5e : iprop(∃ f, ptw (F := F) c cc0_scratch5 f) $$ [Hs5]
  · iexists _
    iexact Hs5
  icases Hs5e with ⟨%t5, Hs5⟩
  ihave Hs5' := (slice_split c (SA 1) t5).1 $$ Hs5
  icases Hs5' with ⟨Hsrc1, Hrest5⟩
  ihave Hrest5 := (heldBut_intro (F := F) c cc0_scratch5 (SA 1).view.set t5) $$ Hrest5
  ihave H0w : heldBut (F := F) c cc0_scratch0 ∅ $$ [Hx0]
  · iapply (heldBut_of_whole (F := F) c cc0_scratch0 _)
    iexact Hx0
  ihave H0' := (heldBut_take_view_empty (F := F) c (VE1 0 (xr 3 c))).1 $$ H0w
  icases H0' with ⟨Hown0, H0⟩
  iapply (wp_send_copy_D (F := F) c (xr 3 c) _ (dev17_eq c) (SA 1) (R3 1) 32 37 0 14 _ _ sem_rs1s_2 sem_rs1r_2
      (by omega) (by omega) (by decide) (by decide) ((credit_R3 1).trans amtD_37_0.symm) amtD_32_0
      (grant c (VE1 0 (xr 3 c)) (agR 0 1) 1) fullShare t5
      (ownAt_of c (SA 1) t5) (d5_hpayR13 c) K (owedFrom c 14) (owedFrom_succ c 13 (3, 37, 0) rfl) W (Topo.routes_tc _ _)) $$ [Hsrc1 Gd2 Hown0 HO TBa TBb]
  · isplitr
    · iexact HI
    isplitl [Hsrc1]
    · iexact Hsrc1
    isplitl [Gd2]
    · iexact Gd2
    isplitl [Hown0]
    · rw [grant_eq]
      isplitl [Hown0]
      · iexact Hown0
      iexact P12
    isplitl [HO]
    · iexact HO
    isplitl [TBa]
    · iexact TBa
    isplitr
    · iexact P32
    isplitl [TBb]
    · iexact TBb
    iexact Gr2
  iintro ⟨CsB, HO⟩
  -- the wait on the first copy's send cell: the source half comes back and the send buffer is whole again
  ihave Hmw := (mayWait_copy (F := F) c (dsem 22) 12 14 (by omega) (by omega)) $$ Hlev
  iapply (wp_wait_copy_D (F := F) c 22 0 13 _ sem_rs0s_2 (by omega) (by decide) K (owedFrom c 14) _ ((credit_SA 0).trans (amtD_22_0.trans amtD_27_0).symm)) $$ [CsA HO Hmw A22]
  · isplitr
    · iexact HI
    isplitl [CsA]
    · iexact CsA
    isplitl [HO]
    · iexact HO
    isplitl [Hmw]
    · iexact Hmw
    iexact A22
  rw [show payDma (F := F) c 22 0 = ownAt c (SA 0) from rfl]
  iintro ⟨HO, A22, #P22', Hback0⟩
  ihave Hs4e : iprop(∃ f, ptw (F := F) c cc0_scratch4 f) $$ [Hback0 Hrest4]
  · rw [← heldBut_empty (F := F) c cc0_scratch4]
    iapply (heldBut_put_only (F := F) c (SA 0))
    isplitl [Hback0]
    · iexact Hback0
    iexact Hrest4
  -- the landing of the partner's copy: the slot of the first receive buffer comes back, and with it that partner's
  -- four blocks of its second gather buffer for the next layer's third exchange
  ihave Hmw := (mayWait_copy (F := F) c (dsem 27) 12 14 (by omega) (by omega)) $$ Hlev
  iapply (wp_wait_copy_D (F := F) c 27 0 13 _ sem_rs0r_2 (by omega) (by decide) K (owedFrom c 14) _ ((credit_R3 0).trans amtD_27_0.symm)) $$ [CA HO Hmw A27]
  · isplitr
    · iexact HI
    isplitl [CA]
    · iexact CA
    isplitl [HO]
    · iexact HO
    isplitl [Hmw]
    · iexact Hmw
    iexact A27
  rw [show payDma (F := F) c 27 0 = iprop(ownAt c (R3 0) ∗ grant (xr 1 c) (VE2 1 c) (agR 1 2) 1) from rfl]
  iintro ⟨HO, A27, #P27', HR30, Gn1⟩
  ihave H6e : iprop(∃ f, ptw (F := F) c cc0_scratch6 f) $$ [HR30 H6]
  · rw [← heldBut_empty (F := F) c cc0_scratch6]
    iapply (heldBut_put_only (F := F) c (R3 0))
    isplitl [HR30]
    · iexact HR30
    iexact H6
  icases H6e with ⟨%y6, Hy6⟩
  -- the same for the second stream
  ihave Hmw := (mayWait_copy (F := F) c (dsem 32) 13 14 (by omega) (by omega)) $$ Hlev
  iapply (wp_wait_copy_D (F := F) c 32 0 14 _ sem_rs1s_2 (by omega) (by decide) K (owedFrom c 14) _ ((credit_SA 1).trans (amtD_32_0.trans amtD_37_0).symm)) $$ [CsB HO Hmw A32]
  · isplitr
    · iexact HI
    isplitl [CsB]
    · iexact CsB
    isplitl [HO]
    · iexact HO
    isplitl [Hmw]
    · iexact Hmw
    iexact A32
  rw [show payDma (F := F) c 32 0 = ownAt c (SA 1) from rfl]
  iintro ⟨HO, A32, #P32', Hback1⟩
  ihave Hs5e : iprop(∃ f, ptw (F := F) c cc0_scratch5 f) $$ [Hback1 Hrest5]
  · rw [← heldBut_empty (F := F) c cc0_scratch5]
    iapply (heldBut_put_only (F := F) c (SA 1))
    isplitl [Hback1]
    · iexact Hback1
    iexact Hrest5
  ihave Hmw := (mayWait_copy (F := F) c (dsem 37) 13 14 (by omega) (by omega)) $$ Hlev
  iapply (wp_wait_copy_D (F := F) c 37 0 14 _ sem_rs1r_2 (by omega) (by decide) K (owedFrom c 14) _ ((credit_R3 1).trans amtD_37_0.symm)) $$ [CB HO Hmw A37]
  · isplitr
    · iexact HI
    isplitl [CB]
    · iexact CB
    isplitl [HO]
    · iexact HO
    isplitl [Hmw]
    · iexact Hmw
    iexact A37
  rw [show payDma (F := F) c 37 0 = iprop(ownAt c (R3 1) ∗ grant (xr 3 c) (VE1 0 c) (agR 0 1) 1) from rfl]
  iintro ⟨HO, A37, #P37', HR31, Gn2⟩
  ihave H7e : iprop(∃ f, ptw (F := F) c cc0_scratch7 f) $$ [HR31 H7]
  · rw [← heldBut_empty (F := F) c cc0_scratch7]
    iapply (heldBut_put_only (F := F) c (R3 1))
    isplitl [HR31]
    · iexact HR31
    iexact H7
  icases H7e with ⟨%y7, Hy7⟩
  sl_exec
  -- the sum of the first stream is stored, cast, into the own pair of blocks of the first gather buffer, which is held
  -- without the pair of c xor 3
  ihave H0o := (heldBut_open_D (F := F) c cc0_scratch0 _) $$ H0
  icases H0o with ⟨%g0, H0⟩
  iapply (wp_load Variants.none (c : Thread nD τ) none Set.univ (load_ok_D cc0_scratch0 _ _ (d5_hd0 c))) $$ [H0]
  · iexact H0
  iintro H0
  iapply (wp_store Variants.none (c : Thread nD τ) none Set.univ (store_ok_D cc0_scratch0 _ _ _ (d5_hd0 c))) $$ [H0]
  · iexact H0
  iintro H0
  ihave H0 := (heldBut_intro (F := F) c cc0_scratch0 (VE1 0 (xr 3 c)).view.set _) $$ H0
  sl_exec
  -- and of the second stream into the own pair of the second gather buffer, held without the pair of c xor 4 and
  -- the four blocks of c xor 1
  ihave H1o := (heldBut_open_D (F := F) c cc0_scratch1 _) $$ H1
  icases H1o with ⟨%g1, H1⟩
  iapply (wp_load Variants.none (c : Thread nD τ) none Set.univ (load_ok_D cc0_scratch1 _ _ (d5_hd1 c))) $$ [H1]
  · iexact H1
  iintro H1
  iapply (wp_store Variants.none (c : Thread nD τ) none Set.univ (store_ok_D cc0_scratch1 _ _ _ (d5_hd1 c))) $$ [H1]
  · iexact H1
  iintro H1
  ihave H1 := (heldBut_intro (F := F) c cc0_scratch1 ((VE1 1 (xr 4 c)).view.set ∪ (VE2 1 (xr 1 c)).view.set) _) $$ H1
  rw [wp_ret]
  imodintro
  iexists K
  rw [QD_14_eq, core_eq, posAt_14, localBufs_eq]
  isplitl [Hbar A8 A9 A10 A11 A12 A13 A14 A15 A16 A17 A18 A19 A20 A21 A22 A23 A24 A25 A26 A27 A28 A29 A30 A31 A32 A33 A34 A35 A36 A37 A38 A39 Htoks Hcreds HO Hw0 Hw1 Hw2 Hw3 Hw4 Hw5 Hw6 Hw7 Ha2 Ha3 Hs4e Hs5e Hb8 Hb9]
  · isplitr
    · iexact HI
    isplitr
    · iexact Hr
    isplitr
    · iexact Hlev
    isplitl [Hbar]
    · iexact Hbar
    isplitl [A8 A9 A10 A11 A12 A13 A14 A15 A16 A17 A18 A19 A20 A21 A22 A23 A24 A25 A26 A27 A28 A29 A30 A31 A32 A33 A34 A35 A36 A37 A38 A39]
    · skip
      isplitl [A8]
      · iexact A8
      isplitr
      · iexact P8
      isplitl [A9]
      · iexact A9
      isplitr
      · iexact P9
      isplitl [A10]
      · iexact A10
      isplitr
      · iexact P10
      isplitl [A11]
      · iexact A11
      isplitr
      · iexact P11
      isplitl [A12]
      · iexact A12
      isplitr
      · iexact P12
      isplitl [A13]
      · iexact A13
      isplitr
      · iexact P13
      isplitl [A14]
      · iexact A14
      isplitr
      · iexact P14
      isplitl [A15]
      · iexact A15
      isplitr
      · iexact P15
      isplitl [A16]
      · iexact A16
      isplitr
      · iexact P16
      isplitl [A17]
      · iexact A17
      isplitr
      · iexact P17
      isplitl [A18]
      · iexact A18
      isplitr
      · iexact P18
      isplitl [A19]
      · iexact A19
      isplitr
      · iexact P19
      isplitl [A20]
      · iexact A20
      isplitr
      · iexact P20
      isplitl [A21]
      · iexact A21
      isplitr
      · iexact P21
      isplitl [A22]
      · iexact A22
      isplitr
      · iexact P22'
      isplitl [A23]
      · iexact A23
      isplitr
      · iexact P23
      isplitl [A24]
      · iexact A24
      isplitr
      · iexact P24
      isplitl [A25]
      · iexact A25
      isplitr
      · iexact P25
      isplitl [A26]
      · iexact A26
      isplitr
      · iexact P26
      isplitl [A27]
      · iexact A27
      isplitr
      · iexact P27'
      isplitl [A28]
      · iexact A28
      isplitr
      · iexact P28
      isplitl [A29]
      · iexact A29
      isplitr
      · iexact P29
      isplitl [A30]
      · iexact A30
      isplitr
      · iexact P30
      isplitl [A31]
      · iexact A31
      isplitr
      · iexact P31
      isplitl [A32]
      · iexact A32
      isplitr
      · iexact P32'
      isplitl [A33]
      · iexact A33
      isplitr
      · iexact P33
      isplitl [A34]
      · iexact A34
      isplitr
      · iexact P34
      isplitl [A35]
      · iexact A35
      isplitr
      · iexact P35
      isplitl [A36]
      · iexact A36
      isplitr
      · iexact P36
      isplitl [A37]
      · iexact A37
      isplitr
      · iexact P37'
      isplitl [A38]
      · iexact A38
      isplitr
      · iexact P38
      isplitl [A39]
      · iexact A39
      iexact P39
    isplitl [Htoks]
    · iexact Htoks
    isplitl [Hcreds]
    · iexact Hcreds
    isplitl [HO]
    · iexists _
      iexact HO
    isplitl [Hw0]
    · iexists _
      iexact Hw0
    isplitl [Hw1]
    · iexists _
      iexact Hw1
    isplitl [Hw2]
    · iexists _
      iexact Hw2
    isplitl [Hw3]
    · iexists _
      iexact Hw3
    isplitl [Hw4]
    · iexists _
      iexact Hw4
    isplitl [Hw5]
    · iexists _
      iexact Hw5
    isplitl [Hw6]
    · iexists _
      iexact Hw6
    isplitl [Hw7]
    · iexists _
      iexact Hw7
    isplitl [Ha2]
    · iexists _
      iexact Ha2
    isplitl [Ha3]
    · iexists _
      iexact Ha3
    isplitl [Hs4e]
    · iexact Hs4e
    isplitl [Hs5e]
    · iexact Hs5e
    isplitl [Hb8]
    · iexists _
      iexact Hb8
    iexists _
    iexact Hb9
  isplitl [H0]
  · iexact H0
  isplitl [H1]
  · iexact H1
  isplitl [Hy6]
  · rw [heldBut_empty]
    iexists _
    iexact Hy6
  isplitl [Hy7]
  · rw [heldBut_empty]
    iexists _
    iexact Hy7
  isplitl [Gn2]
  · iexact Gn2
  isplitl [Gd3]
  · rw [grant_eq]
    isplitl [Gd3]
    · iexact Gd3
    iexact Gr3
  iexact Gn1

/-! ## These rest on the standard axioms only -/

/-- info: 'Cert.Kernel.Hand.seg5_ok' depends on axioms: [propext, Classical.choice, Quot.sound] -/
#guard_msgs in #print axioms seg5_ok

end Cert.Kernel.Hand
end
-- ==== Proof.Kernel.Seg6.lean ====
/- Segment 6 of the body: the second and the third exchange of both streams in layer 1.

   Each exchange sends a device's own aligned rows of a gather buffer to the partner across one bit of the index and
   receives the partner's rows into the same buffer. The rows sent are read by the matrix products while the copy is
   in flight, so the copy borrows the left half of their share and the products read through the right half; the wait
   on the send cell brings the left half back. What travels with each copy is the ownership of the device's own slot
   that the partner's next copy to it writes: with the second exchange of stream 0 the receive slot of the third
   reduce step, with that of stream 1 the rows of the first gather buffer that the partner's third exchange fills,
   with the third exchanges the two receive slots of the half-block reduce steps. The waits on the receive cells
   return the rows the partners wrote and the partners' slots for this device's next copies to them. -/
import proofs.«900979_g7700000000000980_dist_mlpseq_tp1d_bs_bs_b256_d256_h512_v7x_i8_bf16_1_alg».proof.Proof.Kernel.Specs
import proofs.«900979_g7700000000000980_dist_mlpseq_tp1d_bs_bs_b256_d256_h512_v7x_i8_bf16_1_alg».proof.Proof.Kernel.Steps
import proofs.«900979_g7700000000000980_dist_mlpseq_tp1d_bs_bs_b256_d256_h512_v7x_i8_bf16_1_alg».proof.Proof.Kernel.QuietLemmas

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig ℕ (Elt F) ℕ UU ℕ

/-! ## Reads through part of a buffer -/

/-- On a whole buffer the elements under a set of indices are that set. -/
private theorem setOn_whole_s6 (b : Ref sig .tc) (M : Finset b.ty.shape.Idx) : (Memref.whole b).view.setOn M = M := by
  show M.map (View.whole b).emb = M
  rw [View.emb_whole]; exact Finset.map_refl

/-- A read through a rectangle lying inside a slice on every axis reads elements of the slice. -/
private theorem load_in_slice (b : Ref sig .tc) {off size off' size' : Fin b.ty.shape.rank → ℕ} {inb inb'}
    (h : ∀ a, off' a ≤ off a ∧ off a + size a ≤ off' a + size' a) :
    (Memref.whole b).view.setOn (Rect.unit off size inb).toLoadRect.set
      ⊆ ((Memref.whole b).slice (Rect.unit off' size' inb') (fun _ => rfl)).view.set := by
  rw [setOn_whole_s6, set_slice_of_whole]
  intro i hi
  rw [Rect.mem_set_unit] at hi ⊢
  intro a
  have h1 := hi a
  have h2 := h a
  omega

/-- The elements of a view at some contents, opened. -/
private theorem ownAt_elim (p : Dev nD) {s : Shape} {e : EltTy} (M : Memref sig .tc .vmem s e) :
    ownAt (F := F) p M ⊢ iprop(∃ f : Buf (Elt F) (M.view.loc (p : Thread nD τ)),
      (M.view.loc (p : Thread nD τ)) ↦[M.view.set]{fullShare} f) := by
  unfold ownAt; exact .rfl

/-- A buffer with nothing away is whole at some contents. -/
private theorem heldBut_open (c : Dev nD) (b : Ref sig .tc) : heldBut (F := F) c b ∅ ⊢ iprop(∃ f, ptw (F := F) c b f) := by
  rw [heldBut_empty]

/-! ## The protocol's steps as the program spells them -/

/-- The copy rule with the partner and the two semaphores as printed, each equal to the protocol's. -/
private theorem send_copy (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-- The wait rule with the semaphore as printed; the waits recorded so far are kept at some set. -/
private theorem wait_copy (c : Dev nD) (j r ι : ℕ) (sW : DmaSem sig) (hsW : sW = dsem j) (hj : j < 40) (hr : r < nRounds j)
    (K : GSem nD τ sig → ℕ) (O : CellTallies nD τ sig ℕ) (W : Waits sig ℕ)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amtDma j r)
    {α : Type} {Q : α → sProp 𝕄} {k : PUnit → Prog (TpuEff nD τ sig (Elt F) Λ₀ .tc) α} :
    iprop(invsAll (F := F) K ∗ cred (tallyAt (dcell c (dsem j)) ι (amtDma j r)) ∗ owes (c : Thread nD τ) O W
        ∗ MayWait (c : Thread nD τ) (.dma (dsem j)) ι O ∗ atPos ER (dcell c (dsem j)) r ∅ 0)
      ⊢ iprop((((∃ W', owes (c : Thread nD τ) O W') ∗ atPos ER (dcell c (dsem j)) (r + 1) ∅ 0
              ∗ reached ER (dcell c (dsem j)) (r + 1) ∗ payDma c j r)
            -∗ wp frame (wpE (defs₀ (F := F)) Variants.none (c : Thread nD τ) none) Set.univ (k ⟨⟩) Q)
          -∗ wp frame (wpE (defs₀ (F := F)) Variants.none (c : Thread nD τ) none) Set.univ
              (.op (.waitDma2 sW src dst hsrc hdst) k) Q) := by
  subst hsW
  iintro Hpre Hk
  iapply (wp_wait_copy c j r ι hj hr K O W (hw_waitDma2 c j r hN)) $$ [Hpre]
  · iexact Hpre
  iintro ⟨HO, Hrest⟩
  iapply Hk
  isplitl [HO]
  · iexists _
    iexact HO
  iexact Hrest

/-! ## Where the rows of this segment lie in the gather buffers

   Each fact is about the eight devices' offsets and is checked device by device. -/

/-- The partner's pair of the second exchange and the far half of the buffer do not meet. -/
private theorem geo_d0a (c : Dev nD) : Disjoint (VE1 0 (xr 3 c)).view.set (VE2 0 (xr 4 c)).view.set :=
  disj_slices cc0_scratch0 0 (by revert c; decide +kernel)
/-- The far half and the device's own pair do not meet. -/
private theorem geo_d0cb (c : Dev nD) : Disjoint (VE2 0 (xr 4 c)).view.set (VE1 0 c).view.set :=
  disj_slices cc0_scratch0 0 (by revert c; decide +kernel)
private theorem geo_d1cb (c : Dev nD) : Disjoint (VE2 1 (xr 1 c)).view.set (VE1 1 c).view.set :=
  disj_slices cc0_scratch1 0 (by revert c; decide +kernel)
private theorem geo_d1ca (c : Dev nD) : Disjoint (VE2 1 (xr 1 c)).view.set (VE1 1 (xr 4 c)).view.set :=
  disj_slices cc0_scratch1 0 (by revert c; decide +kernel)
/-- The first matrix products read the device's own pair of row blocks. -/
private theorem geo_sub7 (c : Dev nD) :
    (Memref.whole cc0_scratch0).view.setOn (Rect.unit (s := S1024x256) (k0_off7 c) S256x256.size (k0_off7_inb c)).toLoadRect.set
      ⊆ (VE1 0 c).view.set := load_in_slice cc0_scratch0 (by revert c; decide +kernel)
private theorem geo_sub8 (c : Dev nD) :
    (Memref.whole cc0_scratch1).view.setOn (Rect.unit (s := S1024x256) (k0_off8 c) S256x256.size (k0_off8_inb c)).toLoadRect.set
      ⊆ (VE1 1 c).view.set := load_in_slice cc0_scratch1 (by revert c; decide +kernel)
/-- The second ones read rows of the device's own half: the pair the second exchange brought. -/
private theorem geo_sub11 (c : Dev nD) :
    (Memref.whole cc0_scratch0).view.setOn (Rect.unit (s := S1024x256) (k0_off11 c) S256x256.size (k0_off11_inb c)).toLoadRect.set
      ⊆ (VE2 0 c).view.set := load_in_slice cc0_scratch0 (by revert c; decide +kernel)
private theorem geo_sub12 (c : Dev nD) :
    (Memref.whole cc0_scratch1).view.setOn (Rect.unit (s := S1024x256) (k0_off12 c) S256x256.size (k0_off12_inb c)).toLoadRect.set
      ⊆ (VE2 1 c).view.set := load_in_slice cc0_scratch1 (by revert c; decide +kernel)

/-! ## What the landings of this segment hand over (the schedule's entries at round 1) -/

private theorem pay9 (c : Dev nD) : payDma (F := F) c 9 1 = ownHalf c (VE1 0 c) := rfl
private theorem pay15 (c : Dev nD) : payDma (F := F) c 15 1 = ownHalf c (VE1 1 c) := rfl
private theorem pay10 (c : Dev nD) : payDma (F := F) c 10 1 = ownHalf c (VE2 0 c) := rfl
private theorem pay16 (c : Dev nD) : payDma (F := F) c 16 1 = ownHalf c (VE2 1 c) := rfl
private theorem pay12 (c : Dev nD) : payDma (F := F) c 12 1
    = iprop(ownAt c (VE1 0 (xr 3 c)) ∗ grant (xr 3 c) (R2 0) (rsR 0 1) 1) := rfl
private theorem pay18 (c : Dev nD) : payDma (F := F) c 18 1
    = iprop(ownAt c (VE1 1 (xr 4 c)) ∗ grant (xr 4 c) (VE2 0 c) (agR 0 2) 1) := rfl
private theorem pay13 (c : Dev nD) : payDma (F := F) c 13 1
    = iprop(ownAt c (VE2 0 (xr 4 c)) ∗ grant (xr 4 c) (R0 0) (rsR 0 0) 1 ∗ grant (xr 4 c) (R1 0) (rsR 0 4) 1) := rfl
private theorem pay19 (c : Dev nD) : payDma (F := F) c 19 1
    = iprop(ownAt c (VE2 1 (xr 1 c)) ∗ grant (xr 1 c) (R0 1) (rsR 1 0) 1 ∗ grant (xr 1 c) (R1 1) (rsR 1 4) 1) := rfl

set_option maxRecDepth 65536 in
set_option maxHeartbeats 4000000 in
theorem seg6_ok (c : Dev nD) : Spec6 (F := F) c := by
  intro v2 v11 v652
  -- which slices of the gather and receive buffers do not meet, and where the matrix products read
  have d0a := geo_d0a c
  have d0b : Disjoint ((VE1 0 (xr 3 c)).view.set ∪ (VE2 0 (xr 4 c)).view.set) (VE1 0 c).view.set :=
    Finset.disjoint_union_left.mpr ⟨(disj_VE1_0 c).symm, geo_d0cb c⟩
  have d1ca := geo_d1ca c
  have d1b : Disjoint ((VE1 1 (xr 4 c)).view.set ∪ (VE2 1 (xr 1 c)).view.set) (VE1 1 c).view.set :=
    Finset.disjoint_union_left.mpr ⟨(disj_VE1_1 c).symm, geo_d1cb c⟩
  have dR2 : Disjoint ((R0 0).view.set ∪ (R1 0).view.set) (R2 0).view.set :=
    Finset.disjoint_union_left.mpr ⟨disj_R0_R2 0, disj_R1_R2 0⟩
  have hS7 := geo_sub7 c
  have hS8 := geo_sub8 c
  have hS11 := geo_sub11 c
  have hS12 := geo_sub12 c
  have hLd : ∀ (b : Ref sig .tc) (r : LoadRect b.ty.shape), (Memref.whole b).view.setOn r.set ⊆ Finset.univ :=
    fun _ _ => Finset.subset_univ _
  have hSt : ∀ (b : Ref sig .tc) (r : Rect b.ty.shape) (Mk : Finset r.shape.Idx),
      ((Memref.whole b).access r).setOn Mk ⊆ Finset.univ := fun _ _ _ => Finset.subset_univ _
  have hroute1 : τ.routes (c : Thread nD τ) (xr 1 c : Thread nD τ) = true := Topo.routes_tc _ _
  have hroute3 : τ.routes (c : Thread nD τ) (xr 3 c : Thread nD τ) = true := Topo.routes_tc _ _
  have hroute4 : τ.routes (c : Thread nD τ) (xr 4 c : Thread nD τ) = true := Topo.routes_tc _ _
  -- what each copy's landing hands the partner, read at the partner
  have hpayR14 : iprop(ownAt (F := F) (xr 3 c) (VE1 0 c) ∗ (ownAt c (R2 0) ∗ reached ER (dcell c (rsR 0 1)) 1)) ⊢ payDma (xr 3 c) 12 1 := by
    show _ ⊢ iprop(ownAt (xr 3 c) (VE1 0 (xr 3 (xr 3 c))) ∗ grant (xr 3 (xr 3 c)) (R2 0) (rsR 0 1) 1)
    rw [xr_xr]; exact .rfl
  have hpayR15 : iprop(ownAt (F := F) (xr 4 c) (VE1 1 c) ∗ (ownAt c (VE2 0 (xr 4 c)) ∗ reached ER (dcell c (agR 0 2)) 1)) ⊢ payDma (xr 4 c) 18 1 := by
    show _ ⊢ iprop(ownAt (xr 4 c) (VE1 1 (xr 4 (xr 4 c))) ∗ grant (xr 4 (xr 4 c)) (VE2 0 (xr 4 c)) (agR 0 2) 1)
    rw [xr_xr]; exact .rfl
  have hpayR16 : iprop(ownAt (F := F) (xr 4 c) (VE2 0 c) ∗ ((ownAt c (R0 0) ∗ reached ER (dcell c (rsR 0 0)) 1)
      ∗ (ownAt c (R1 0) ∗ reached ER (dcell c (rsR 0 4)) 1))) ⊢ payDma (xr 4 c) 13 1 := by
    show _ ⊢ iprop(ownAt (xr 4 c) (VE2 0 (xr 4 (xr 4 c))) ∗ grant (xr 4 (xr 4 c)) (R0 0) (rsR 0 0) 1 ∗ grant (xr 4 (xr 4 c)) (R1 0) (rsR 0 4) 1)
    rw [xr_xr]; exact .rfl
  have hpayR17 : iprop(ownAt (F := F) (xr 1 c) (VE2 1 c) ∗ ((ownAt c (R0 1) ∗ reached ER (dcell c (rsR 1 0)) 1)
      ∗ (ownAt c (R1 1) ∗ reached ER (dcell c (rsR 1 4)) 1))) ⊢ payDma (xr 1 c) 19 1 := by
    show _ ⊢ iprop(ownAt (xr 1 c) (VE2 1 (xr 1 (xr 1 c))) ∗ grant (xr 1 (xr 1 c)) (R0 1) (rsR 1 0) 1 ∗ grant (xr 1 (xr 1 c)) (R1 1) (rsR 1 4) 1)
    rw [xr_xr]; exact .rfl
  -- the state at the quiet point
  refine exists_elim fun K => ?_
  rw [QD_14_eq, core_eq, posAt_14, toks_seg_14, creds_seg_14, localBufs_eq, grant_eq, grant_eq, grant_eq]
  iintro ⟨⟨#HI, #HR, #Hlev, HatB, ⟨Ha8, #Hr8, Ha9, #Hr9, Ha10, #Hr10, Ha11, #Hr11, Ha12, #Hr12, Ha13, #Hr13, Ha14, #Hr14, Ha15, #Hr15, Ha16, #Hr16, Ha17, #Hr17, Ha18, #Hr18, Ha19, #Hr19, Ha20, #Hr20, Ha21, #Hr21, Ha22, #Hr22, Ha23, #Hr23, Ha24, #Hr24, Ha25, #Hr25, Ha26, #Hr26, Ha27, #Hr27, Ha28, #Hr28, Ha29, #Hr29, Ha30, #Hr30, Ha31, #Hr31, Ha32, #Hr32, Ha33, #Hr33, Ha34, #Hr34, Ha35, #Hr35, Ha36, #Hr36, Ha37, #Hr37, Ha38, #Hr38, Ha39, #Hr39⟩, ⟨⟨Ht9, Ht12⟩, ⟨Ht15, Ht18⟩, ⟨Ht10, Ht13⟩, ⟨Ht16, Ht19⟩, Htoks⟩, ⟨Hc12, Hc18, Hc13, Hc19, Hcreds⟩, ⟨%W, HO⟩, ⟨⟨%fw0, Hw0⟩, ⟨%fw1, Hw1⟩, ⟨%fw2, Hw2⟩, ⟨%fw3, Hw3⟩, ⟨%fw4, Hw4⟩, ⟨%fw5, Hw5⟩, ⟨%fw6, Hw6⟩, ⟨%fw7, Hw7⟩, ⟨%fa0, Hacc0⟩, ⟨%fa1, Hacc1⟩, ⟨%fs0, Hsnd0⟩, ⟨%fs1, Hsnd1⟩, ⟨%fb0, Hwt0⟩, ⟨%fb1, Hwt1⟩⟩⟩, Hs0, Hs1, Hs6, Hs7, ⟨Hd3, #Hrp3⟩, ⟨Hd4, #Hrp4⟩, ⟨Hd1, #Hrp1⟩⟩
  -- the slots this device hands over in this segment leave the receive buffers and the first gather buffer;
  -- the rows it sends in the second exchange leave the gather buffers, half of their share staying here
  icases (heldBut_take_view_empty (F := F) c (R0 0)).1 $$ Hs6 with ⟨HR00, Hs6⟩
  icases (heldBut_take_view (F := F) c (R1 0) _ (disj_R0_R1 0)).1 $$ Hs6 with ⟨HR10, Hs6⟩
  icases (heldBut_take_view (F := F) c (R2 0) _ dR2).1 $$ Hs6 with ⟨HR20, Hs6⟩
  icases (heldBut_take_view_empty (F := F) c (R0 1)).1 $$ Hs7 with ⟨HR01, Hs7⟩
  icases (heldBut_take_view (F := F) c (R1 1) _ (disj_R0_R1 1)).1 $$ Hs7 with ⟨HR11, Hs7⟩
  icases (heldBut_take_view (F := F) c (VE2 0 (xr 4 c)) _ d0a).1 $$ Hs0 with ⟨HC0, Hs0⟩
  icases (heldBut_take_view (F := F) c (VE1 0 c) _ d0b).1 $$ Hs0 with ⟨HB0, Hs0⟩
  icases (ownAt_elim (F := F) c (VE1 0 c)) $$ HB0 with ⟨%f0, Hsrc0⟩
  icases (halves_split (F := F) f0).1 $$ Hsrc0 with ⟨HsrcL0, HsrcR0⟩
  icases (heldBut_take_view (F := F) c (VE1 1 c) _ d1b).1 $$ Hs1 with ⟨HB1, Hs1⟩
  icases (ownAt_elim (F := F) c (VE1 1 c)) $$ HB1 with ⟨%f1, Hsrc1⟩
  icases (halves_split (F := F) f1).1 $$ Hsrc1 with ⟨HsrcL1, HsrcR1⟩
  -- the program as a chain of operations
  unfold seg6
  rw [k0_part22_eq_skeleton, k0_part23_eq_skeleton, k0_part24_eq_skeleton, k0_part25_eq_skeleton, k0_part26_eq_skeleton]
  unfold k0_part22_skel k0_part23_skel k0_part24_skel k0_part25_skel k0_part26_skel
  simp only [Prog.lift, Prog.bind_op, Prog.bind_ret, Prog.pure_eq_ret, Prog.bind_assoc]
  -- the second exchange of stream 0, to the partner across bits 0 and 1; with it the receive slot of the third reduce step
  iapply (send_copy (F := F) c (xr 3 c) _ (dev18_eq c) (VE1 0 c) (VE1 0 c) 9 12 1 15 _ _ sem_ag0s_1 sem_ag0r_1
      (by decide) (by decide) (by decide) (by decide) ((credit_VE1 0 c).trans rfl) rfl
      (iprop(ownAt c (R2 0) ∗ reached ER (dcell c (rsR 0 1)) 1)) fullShare.left f0
      (ownHalf_of c (VE1 0 c) f0) hpayR14 K (owedFrom c 15) (owedFrom_succ c 14 (3, 12, 1) rfl) W hroute3) $$ [HsrcL0 Hd3 HR20 HO Ht9 Ht12]
  · isplitr
    · iexact HI
    isplitl [HsrcL0]
    · iexact HsrcL0
    isplitl [Hd3]
    · iexact Hd3
    isplitl [HR20]
    · isplitl [HR20]
      · iexact HR20
      iexact Hr26
    isplitl [HO]
    · iexact HO
    isplitl [Ht9]
    · iexact Ht9
    isplitr
    · iexact Hr9
    isplitl [Ht12]
    · iexact Ht12
    iexact Hrp3
  iintro ⟨Hcs9, HO⟩
  -- the second exchange of stream 1, to the partner across bit 2; with it the rows of the first gather buffer that
  -- partner's third exchange fills
  iapply (send_copy (F := F) c (xr 4 c) _ (dev19_eq c) (VE1 1 c) (VE1 1 c) 15 18 1 16 _ _ sem_ag1s_1 sem_ag1r_1
      (by decide) (by decide) (by decide) (by decide) ((credit_VE1 1 c).trans rfl) rfl
      (iprop(ownAt c (VE2 0 (xr 4 c)) ∗ reached ER (dcell c (agR 0 2)) 1)) fullShare.left f1
      (ownHalf_of c (VE1 1 c) f1) hpayR15 K (owedFrom c 16) (owedFrom_succ c 15 (4, 18, 1) rfl) W hroute4) $$ [HsrcL1 Hd4 HC0 HO Ht15 Ht18]
  · isplitr
    · iexact HI
    isplitl [HsrcL1]
    · iexact HsrcL1
    isplitl [Hd4]
    · iexact Hd4
    isplitl [HC0]
    · isplitl [HC0]
      · iexact HC0
      iexact Hr13
    isplitl [HO]
    · iexact HO
    isplitl [Ht15]
    · iexact Ht15
    isplitr
    · iexact Hr15
    isplitl [Ht18]
    · iexact Ht18
    iexact Hrp4
  iintro ⟨Hcs15, HO⟩
  -- the matrix products on the device's own rows, read through the half of the share that stayed
  iapply (wp_load Variants.none (c : Thread nD τ) none Set.univ hS7) $$ [HsrcR0]
  · iexact HsrcR0
  iintro HsrcR0
  iapply (wp_load Variants.none (c : Thread nD τ) none Set.univ (hLd cc0_scratch8 _)) $$ [Hwt0]
  · iexact Hwt0
  iintro Hwt0
  iapply (wp_load Variants.none (c : Thread nD τ) none Set.univ (hLd cc0_scratch9 _)) $$ [Hwt1]
  · iexact Hwt1
  iintro Hwt1
  iapply (wp_load Variants.none (c : Thread nD τ) none Set.univ (hLd cc0_scratch2 _)) $$ [Hacc0]
  · iexact Hacc0
  iintro Hacc0
  iapply (wp_store Variants.none (c : Thread nD τ) none Set.univ (hSt cc0_scratch2 _ _)) $$ [Hacc0]
  · iexact Hacc0
  iintro Hacc0
  iapply (wp_load Variants.none (c : Thread nD τ) none Set.univ hS8) $$ [HsrcR1]
  · iexact HsrcR1
  iintro HsrcR1
  iapply (wp_load Variants.none (c : Thread nD τ) none Set.univ (hLd cc0_scratch8 _)) $$ [Hwt0]
  · iexact Hwt0
  iintro Hwt0
  iapply (wp_load Variants.none (c : Thread nD τ) none Set.univ (hLd cc0_scratch9 _)) $$ [Hwt1]
  · iexact Hwt1
  iintro Hwt1
  iapply (wp_load Variants.none (c : Thread nD τ) none Set.univ (hLd cc0_scratch3 _)) $$ [Hacc1]
  · iexact Hacc1
  iintro Hacc1
  iapply (wp_store Variants.none (c : Thread nD τ) none Set.univ (hSt cc0_scratch3 _ _)) $$ [Hacc1]
  · iexact Hacc1
  iintro Hacc1
  -- the waits of the second exchange: the lent halves come back, the partners' rows arrive with the partners' slots
  ihave Hmw := (mayWait_copy (F := F) c (dsem 9) 14 16 (by omega) (by omega)) $$ Hlev
  iapply (wait_copy (F := F) c 9 1 15 _ sem_ag0s_1 (by decide) (by decide) K (owedFrom c 16) W ((credit_VE1 0 c).trans rfl)) $$ [Hcs9 HO Hmw Ha9]
  · isplitr
    · iexact HI
    isplitl [Hcs9]
    · iexact Hcs9
    isplitl [HO]
    · iexact HO
    isplitl [Hmw]
    · iexact Hmw
    iexact Ha9
  rw [pay9]
  iintro ⟨⟨%W9, HO⟩, Ha9, #Hr9b, Hp9⟩
  ihave Hfull := (ownHalf_join (F := F) c (VE1 0 c) f0) $$ [Hp9 HsrcR0]
  · isplitl [Hp9]
    · iexact Hp9
    iexact HsrcR0
  ihave Hown := (ownAt_of (F := F) c (VE1 0 c) f0) $$ Hfull
  ihave Hs0 := (heldBut_put_right (F := F) c (VE1 0 c) _ d0b) $$ [Hown Hs0]
  · isplitl [Hown]
    · iexact Hown
    iexact Hs0
  ihave Hmw := (mayWait_copy (F := F) c (dsem 12) 14 16 (by omega) (by omega)) $$ Hlev
  iapply (wait_copy (F := F) c 12 1 15 _ sem_ag0r_1 (by decide) (by decide) K (owedFrom c 16) W9 ((credit_VE1 0 c).trans rfl)) $$ [Hc12 HO Hmw Ha12]
  · isplitr
    · iexact HI
    isplitl [Hc12]
    · iexact Hc12
    isplitl [HO]
    · iexact HO
    isplitl [Hmw]
    · iexact Hmw
    iexact Ha12
  rw [pay12]
  iintro ⟨⟨%W12, HO⟩, Ha12, #Hr12b, ⟨Hb3, Hg3n⟩⟩
  ihave Hs0 := (heldBut_put_left (F := F) c (VE1 0 (xr 3 c)) _ d0a.symm) $$ [Hb3 Hs0]
  · isplitl [Hb3]
    · iexact Hb3
    iexact Hs0
  ihave Hmw := (mayWait_copy (F := F) c (dsem 15) 15 16 (by omega) (by omega)) $$ Hlev
  iapply (wait_copy (F := F) c 15 1 16 _ sem_ag1s_1 (by decide) (by decide) K (owedFrom c 16) W12 ((credit_VE1 1 c).trans rfl)) $$ [Hcs15 HO Hmw Ha15]
  · isplitr
    · iexact HI
    isplitl [Hcs15]
    · iexact Hcs15
    isplitl [HO]
    · iexact HO
    isplitl [Hmw]
    · iexact Hmw
    iexact Ha15
  rw [pay15]
  iintro ⟨⟨%W15, HO⟩, Ha15, #Hr15b, Hp15⟩
  ihave Hfull := (ownHalf_join (F := F) c (VE1 1 c) f1) $$ [Hp15 HsrcR1]
  · isplitl [Hp15]
    · iexact Hp15
    iexact HsrcR1
  ihave Hown := (ownAt_of (F := F) c (VE1 1 c) f1) $$ Hfull
  ihave Hs1 := (heldBut_put_right (F := F) c (VE1 1 c) _ d1b) $$ [Hown Hs1]
  · isplitl [Hown]
    · iexact Hown
    iexact Hs1
  ihave Hmw := (mayWait_copy (F := F) c (dsem 18) 15 16 (by omega) (by omega)) $$ Hlev
  iapply (wait_copy (F := F) c 18 1 16 _ sem_ag1r_1 (by decide) (by decide) K (owedFrom c 16) W15 ((credit_VE1 1 c).trans rfl)) $$ [Hc18 HO Hmw Ha18]
  · isplitr
    · iexact HI
    isplitl [Hc18]
    · iexact Hc18
    isplitl [HO]
    · iexact HO
    isplitl [Hmw]
    · iexact Hmw
    iexact Ha18
  rw [pay18, grant_eq (xr 4 c) (VE2 0 c) (agR 0 2) 1]
  iintro ⟨⟨%W18, HO⟩, Ha18, #Hr18b, ⟨Hb4, ⟨Hd4n, #Hrp4n⟩⟩⟩
  ihave Hs1 := (heldBut_put_left (F := F) c (VE1 1 (xr 4 c)) _ d1ca) $$ [Hb4 Hs1]
  · isplitl [Hb4]
    · iexact Hb4
    iexact Hs1
  -- the third exchange of stream 0, to the partner across bit 2: the aligned four blocks, half of their share lent;
  -- with it the two receive slots of the half-block reduce steps
  icases (heldBut_take_view (F := F) c (VE2 0 c) _ (disj_VE2_0 c).symm).1 $$ Hs0 with ⟨HB0, Hs0⟩
  icases (ownAt_elim (F := F) c (VE2 0 c)) $$ HB0 with ⟨%g0, Hsrc0⟩
  icases (halves_split (F := F) g0).1 $$ Hsrc0 with ⟨HsrcL0, HsrcR0⟩
  iapply (send_copy (F := F) c (xr 4 c) _ (dev20_eq c) (VE2 0 c) (VE2 0 c) 10 13 1 17 _ _ sem_ag0s_2 sem_ag0r_2
      (by decide) (by decide) (by decide) (by decide) ((credit_VE2 0 c).trans rfl) rfl
      (iprop((ownAt c (R0 0) ∗ reached ER (dcell c (rsR 0 0)) 1) ∗ (ownAt c (R1 0) ∗ reached ER (dcell c (rsR 0 4)) 1))) fullShare.left g0
      (ownHalf_of c (VE2 0 c) g0) hpayR16 K (owedFrom c 17) (owedFrom_succ c 16 (4, 13, 1) rfl) W18 hroute4) $$ [HsrcL0 Hd4n HR00 HR10 HO Ht10 Ht13]
  · isplitr
    · iexact HI
    isplitl [HsrcL0]
    · iexact HsrcL0
    isplitl [Hd4n]
    · iexact Hd4n
    isplitl [HR00 HR10]
    · isplitl [HR00]
      · isplitl [HR00]
        · iexact HR00
        iexact Hr25
      isplitl [HR10]
      · iexact HR10
      iexact Hr29
    isplitl [HO]
    · iexact HO
    isplitl [Ht10]
    · iexact Ht10
    isplitr
    · iexact Hr10
    isplitl [Ht13]
    · iexact Ht13
    iexact Hrp4n
  iintro ⟨Hcs10, HO⟩
  -- the third exchange of stream 1, to the partner across bit 0
  icases (heldBut_take_view (F := F) c (VE2 1 c) _ (disj_VE2_1 c).symm).1 $$ Hs1 with ⟨HB1, Hs1⟩
  icases (ownAt_elim (F := F) c (VE2 1 c)) $$ HB1 with ⟨%g1, Hsrc1⟩
  icases (halves_split (F := F) g1).1 $$ Hsrc1 with ⟨HsrcL1, HsrcR1⟩
  iapply (send_copy (F := F) c (xr 1 c) _ (dev21_eq c) (VE2 1 c) (VE2 1 c) 16 19 1 18 _ _ sem_ag1s_2 sem_ag1r_2
      (by decide) (by decide) (by decide) (by decide) ((credit_VE2 1 c).trans rfl) rfl
      (iprop((ownAt c (R0 1) ∗ reached ER (dcell c (rsR 1 0)) 1) ∗ (ownAt c (R1 1) ∗ reached ER (dcell c (rsR 1 4)) 1))) fullShare.left g1
      (ownHalf_of c (VE2 1 c) g1) hpayR17 K (owedFrom c 18) (owedFrom_succ c 17 (1, 19, 1) rfl) W18 hroute1) $$ [HsrcL1 Hd1 HR01 HR11 HO Ht16 Ht19]
  · isplitr
    · iexact HI
    isplitl [HsrcL1]
    · iexact HsrcL1
    isplitl [Hd1]
    · iexact Hd1
    isplitl [HR01 HR11]
    · isplitl [HR01]
      · isplitl [HR01]
        · iexact HR01
        iexact Hr35
      isplitl [HR11]
      · iexact HR11
      iexact Hr39
    isplitl [HO]
    · iexact HO
    isplitl [Ht16]
    · iexact Ht16
    isplitr
    · iexact Hr16
    isplitl [Ht19]
    · iexact Ht19
    iexact Hrp1
  iintro ⟨Hcs16, HO⟩
  -- the matrix products on the rows the second exchange brought, read through the half that stayed
  iapply (wp_load Variants.none (c : Thread nD τ) none Set.univ hS11) $$ [HsrcR0]
  · iexact HsrcR0
  iintro HsrcR0
  iapply (wp_load Variants.none (c : Thread nD τ) none Set.univ (hLd cc0_scratch8 _)) $$ [Hwt0]
  · iexact Hwt0
  iintro Hwt0
  iapply (wp_load Variants.none (c : Thread nD τ) none Set.univ (hLd cc0_scratch9 _)) $$ [Hwt1]
  · iexact Hwt1
  iintro Hwt1
  iapply (wp_load Variants.none (c : Thread nD τ) none Set.univ (hLd cc0_scratch2 _)) $$ [Hacc0]
  · iexact Hacc0
  iintro Hacc0
  iapply (wp_store Variants.none (c : Thread nD τ) none Set.univ (hSt cc0_scratch2 _ _)) $$ [Hacc0]
  · iexact Hacc0
  iintro Hacc0
  iapply (wp_load Variants.none (c : Thread nD τ) none Set.univ hS12) $$ [HsrcR1]
  · iexact HsrcR1
  iintro HsrcR1
  iapply (wp_load Variants.none (c : Thread nD τ) none Set.univ (hLd cc0_scratch8 _)) $$ [Hwt0]
  · iexact Hwt0
  iintro Hwt0
  iapply (wp_load Variants.none (c : Thread nD τ) none Set.univ (hLd cc0_scratch9 _)) $$ [Hwt1]
  · iexact Hwt1
  iintro Hwt1
  iapply (wp_load Variants.none (c : Thread nD τ) none Set.univ (hLd cc0_scratch3 _)) $$ [Hacc1]
  · iexact Hacc1
  iintro Hacc1
  iapply (wp_store Variants.none (c : Thread nD τ) none Set.univ (hSt cc0_scratch3 _ _)) $$ [Hacc1]
  · iexact Hacc1
  iintro Hacc1
  -- the waits of the third exchange
  ihave Hmw := (mayWait_copy (F := F) c (dsem 10) 16 18 (by omega) (by omega)) $$ Hlev
  iapply (wait_copy (F := F) c 10 1 17 _ sem_ag0s_2 (by decide) (by decide) K (owedFrom c 18) W18 ((credit_VE2 0 c).trans rfl)) $$ [Hcs10 HO Hmw Ha10]
  · isplitr
    · iexact HI
    isplitl [Hcs10]
    · iexact Hcs10
    isplitl [HO]
    · iexact HO
    isplitl [Hmw]
    · iexact Hmw
    iexact Ha10
  rw [pay10]
  iintro ⟨⟨%W10, HO⟩, Ha10, #Hr10b, Hp10⟩
  ihave Hfull := (ownHalf_join (F := F) c (VE2 0 c) g0) $$ [Hp10 HsrcR0]
  · isplitl [Hp10]
    · iexact Hp10
    iexact HsrcR0
  ihave Hown := (ownAt_of (F := F) c (VE2 0 c) g0) $$ Hfull
  ihave Hs0 := (heldBut_put_right (F := F) c (VE2 0 c) _ (disj_VE2_0 c).symm) $$ [Hown Hs0]
  · isplitl [Hown]
    · iexact Hown
    iexact Hs0
  ihave Hmw := (mayWait_copy (F := F) c (dsem 13) 16 18 (by omega) (by omega)) $$ Hlev
  iapply (wait_copy (F := F) c 13 1 17 _ sem_ag0r_2 (by decide) (by decide) K (owedFrom c 18) W10 ((credit_VE2 0 c).trans rfl)) $$ [Hc13 HO Hmw Ha13]
  · isplitr
    · iexact HI
    isplitl [Hc13]
    · iexact Hc13
    isplitl [HO]
    · iexact HO
    isplitl [Hmw]
    · iexact Hmw
    iexact Ha13
  rw [pay13]
  iintro ⟨⟨%W13, HO⟩, Ha13, #Hr13b, ⟨Hb13, Hgf0, Hgf1⟩⟩
  ihave Hs0 := (heldBut_put_only (F := F) c (VE2 0 (xr 4 c))) $$ [Hb13 Hs0]
  · isplitl [Hb13]
    · iexact Hb13
    iexact Hs0
  ihave Hmw := (mayWait_copy (F := F) c (dsem 16) 17 18 (by omega) (by omega)) $$ Hlev
  iapply (wait_copy (F := F) c 16 1 18 _ sem_ag1s_2 (by decide) (by decide) K (owedFrom c 18) W13 ((credit_VE2 1 c).trans rfl)) $$ [Hcs16 HO Hmw Ha16]
  · isplitr
    · iexact HI
    isplitl [Hcs16]
    · iexact Hcs16
    isplitl [HO]
    · iexact HO
    isplitl [Hmw]
    · iexact Hmw
    iexact Ha16
  rw [pay16]
  iintro ⟨⟨%W16, HO⟩, Ha16, #Hr16b, Hp16⟩
  ihave Hfull := (ownHalf_join (F := F) c (VE2 1 c) g1) $$ [Hp16 HsrcR1]
  · isplitl [Hp16]
    · iexact Hp16
    iexact HsrcR1
  ihave Hown := (ownAt_of (F := F) c (VE2 1 c) g1) $$ Hfull
  ihave Hs1 := (heldBut_put_right (F := F) c (VE2 1 c) _ (disj_VE2_1 c).symm) $$ [Hown Hs1]
  · isplitl [Hown]
    · iexact Hown
    iexact Hs1
  ihave Hmw := (mayWait_copy (F := F) c (dsem 19) 17 18 (by omega) (by omega)) $$ Hlev
  iapply (wait_copy (F := F) c 19 1 18 _ sem_ag1r_2 (by decide) (by decide) K (owedFrom c 18) W16 ((credit_VE2 1 c).trans rfl)) $$ [Hc19 HO Hmw Ha19]
  · isplitr
    · iexact HI
    isplitl [Hc19]
    · iexact Hc19
    isplitl [HO]
    · iexact HO
    isplitl [Hmw]
    · iexact Hmw
    iexact Ha19
  rw [pay19]
  iintro ⟨⟨%W19, HO⟩, Ha19, #Hr19b, ⟨Hb19, Hgh0, Hgh1⟩⟩
  ihave Hs1 := (heldBut_put_only (F := F) c (VE2 1 (xr 1 c))) $$ [Hb19 Hs1]
  · isplitl [Hb19]
    · iexact Hb19
    iexact Hs1
  -- the first gather buffer is whole again: the last read of the segment
  icases (heldBut_open (F := F) c cc0_scratch0) $$ Hs0 with ⟨%e0, Hs0⟩
  iapply (wp_load Variants.none (c : Thread nD τ) none Set.univ (hLd cc0_scratch0 _)) $$ [Hs0]
  · iexact Hs0
  iintro Hs0
  ihave Hs0 := (heldBut_of_whole (F := F) c cc0_scratch0 e0) $$ Hs0
  -- the state at the next quiet point
  rw [wp_ret]
  imodintro
  iexists K
  rw [QE2_eq, core_eq, posAt_18, localBufs_eq]
  isplitl [HatB Ha8 Ha9 Ha10 Ha11 Ha12 Ha13 Ha14 Ha15 Ha16 Ha17 Ha18 Ha19 Ha20 Ha21 Ha22 Ha23 Ha24 Ha25 Ha26 Ha27 Ha28 Ha29 Ha30 Ha31 Ha32 Ha33 Ha34 Ha35 Ha36 Ha37 Ha38 Ha39 Htoks Hcreds HO Hw0 Hw1 Hw2 Hw3 Hw4 Hw5 Hw6 Hw7 Hacc0 Hacc1 Hsnd0 Hsnd1 Hwt0 Hwt1]
  · isplitr
    · iexact HI
    isplitr
    · iexact HR
    isplitr
    · iexact Hlev
    isplitl [HatB]
    · iexact HatB
    isplitl [Ha8 Ha9 Ha10 Ha11 Ha12 Ha13 Ha14 Ha15 Ha16 Ha17 Ha18 Ha19 Ha20 Ha21 Ha22 Ha23 Ha24 Ha25 Ha26 Ha27 Ha28 Ha29 Ha30 Ha31 Ha32 Ha33 Ha34 Ha35 Ha36 Ha37 Ha38 Ha39]
    · skip
      isplitl [Ha8]
      · iexact Ha8
      isplitr
      · iexact Hr8
      isplitl [Ha9]
      · iexact Ha9
      isplitr
      · iexact Hr9b
      isplitl [Ha10]
      · iexact Ha10
      isplitr
      · iexact Hr10b
      isplitl [Ha11]
      · iexact Ha11
      isplitr
      · iexact Hr11
      isplitl [Ha12]
      · iexact Ha12
      isplitr
      · iexact Hr12b
      isplitl [Ha13]
      · iexact Ha13
      isplitr
      · iexact Hr13b
      isplitl [Ha14]
      · iexact Ha14
      isplitr
      · iexact Hr14
      isplitl [Ha15]
      · iexact Ha15
      isplitr
      · iexact Hr15b
      isplitl [Ha16]
      · iexact Ha16
      isplitr
      · iexact Hr16b
      isplitl [Ha17]
      · iexact Ha17
      isplitr
      · iexact Hr17
      isplitl [Ha18]
      · iexact Ha18
      isplitr
      · iexact Hr18b
      isplitl [Ha19]
      · iexact Ha19
      isplitr
      · iexact Hr19b
      isplitl [Ha20]
      · iexact Ha20
      isplitr
      · iexact Hr20
      isplitl [Ha21]
      · iexact Ha21
      isplitr
      · iexact Hr21
      isplitl [Ha22]
      · iexact Ha22
      isplitr
      · iexact Hr22
      isplitl [Ha23]
      · iexact Ha23
      isplitr
      · iexact Hr23
      isplitl [Ha24]
      · iexact Ha24
      isplitr
      · iexact Hr24
      isplitl [Ha25]
      · iexact Ha25
      isplitr
      · iexact Hr25
      isplitl [Ha26]
      · iexact Ha26
      isplitr
      · iexact Hr26
      isplitl [Ha27]
      · iexact Ha27
      isplitr
      · iexact Hr27
      isplitl [Ha28]
      · iexact Ha28
      isplitr
      · iexact Hr28
      isplitl [Ha29]
      · iexact Ha29
      isplitr
      · iexact Hr29
      isplitl [Ha30]
      · iexact Ha30
      isplitr
      · iexact Hr30
      isplitl [Ha31]
      · iexact Ha31
      isplitr
      · iexact Hr31
      isplitl [Ha32]
      · iexact Ha32
      isplitr
      · iexact Hr32
      isplitl [Ha33]
      · iexact Ha33
      isplitr
      · iexact Hr33
      isplitl [Ha34]
      · iexact Ha34
      isplitr
      · iexact Hr34
      isplitl [Ha35]
      · iexact Ha35
      isplitr
      · iexact Hr35
      isplitl [Ha36]
      · iexact Ha36
      isplitr
      · iexact Hr36
      isplitl [Ha37]
      · iexact Ha37
      isplitr
      · iexact Hr37
      isplitl [Ha38]
      · iexact Ha38
      isplitr
      · iexact Hr38
      isplitl [Ha39]
      · iexact Ha39
      iexact Hr39
    isplitl [Htoks]
    · iexact Htoks
    isplitl [Hcreds]
    · iexact Hcreds
    isplitl [HO]
    · iexists _
      iexact HO
    isplitl [Hw0]
    · iexists _
      iexact Hw0
    isplitl [Hw1]
    · iexists _
      iexact Hw1
    isplitl [Hw2]
    · iexists _
      iexact Hw2
    isplitl [Hw3]
    · iexists _
      iexact Hw3
    isplitl [Hw4]
    · iexists _
      iexact Hw4
    isplitl [Hw5]
    · iexists _
      iexact Hw5
    isplitl [Hw6]
    · iexists _
      iexact Hw6
    isplitl [Hw7]
    · iexists _
      iexact Hw7
    isplitl [Hacc0]
    · iexists _
      iexact Hacc0
    isplitl [Hacc1]
    · iexists _
      iexact Hacc1
    isplitl [Hsnd0]
    · iexists _
      iexact Hsnd0
    isplitl [Hsnd1]
    · iexists _
      iexact Hsnd1
    isplitl [Hwt0]
    · iexists _
      iexact Hwt0
    iexists _
    iexact Hwt1
  isplitl [Hs0]
  · iexact Hs0
  isplitl [Hs1]
  · iexact Hs1
  isplitl [Hs6]
  · iexact Hs6
  isplitl [Hs7]
  · iexact Hs7
  isplitl [Hgf0]
  · iexact Hgf0
  isplitl [Hgh0]
  · iexact Hgh0
  isplitl [Hgf1]
  · iexact Hgf1
  isplitl [Hgh1]
  · iexact Hgh1
  iexact Hg3n

/-- info: 'Cert.Kernel.Hand.seg6_ok' depends on axioms: [propext, Classical.choice, Quot.sound] -/
#guard_msgs in #print axioms seg6_ok

end Cert.Kernel.Hand

end
-- ==== Proof.Kernel.SegAB7.lean ====
/- The two half-block steps of the reduce in the second layer: the argument of segment 3 at this layer's round, the slot handed over with the
   last of the four copies being this layer's slot of the last reduce step. -/
import proofs.«900979_g7700000000000980_dist_mlpseq_tp1d_bs_bs_b256_d256_h512_v7x_i8_bf16_1_alg».proof.Proof.Kernel.SegAB

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open AB

variable {F : FTy → Type} [FloatOps F]

local notation "𝕄" => MT nD τ sig ℕ (Elt F) ℕ UU ℕ

set_option maxHeartbeats 4000000 in
theorem seg7_ok (c : Dev nD) : Spec7 (F := F) c := by
  intro v2 v678 v681 v811 v815 v818
  -- what the local loads and stores need of the buffers held by parts
  have hin4 : (Memref.whole cc0_scratch4).view.setOn (Rect.unit (s := S512x256) ![256, 0] S256x256.size inb_S512x256_S256x256_256_0).set
      ⊆ (Finset.univ \ (SA 0).view.set : Finset (Idx ((SA 0).view.loc (c : Thread nD τ)))) := sndB_off_A 0
  have hin5 : (Memref.whole cc0_scratch5).view.setOn (Rect.unit (s := S512x256) ![256, 0] S256x256.size inb_S512x256_S256x256_256_0).set
      ⊆ (Finset.univ \ (SA 1).view.set : Finset (Idx ((SA 1).view.loc (c : Thread nD τ)))) := sndB_off_A 1
  have hR00 : (Memref.whole cc0_scratch6).view.setOn (Rect.unit (s := S1280x256) ![0, 0] S256x256.size inb_S1280x256_S256x256_0_0).set
      ⊆ (R0 0).view.set := (setOn_slice_eq cc0_scratch6 _ (fun _ => rfl)).subset
  have hR01 : (Memref.whole cc0_scratch7).view.setOn (Rect.unit (s := S1280x256) ![0, 0] S256x256.size inb_S1280x256_S256x256_0_0).set
      ⊆ (R0 1).view.set := (setOn_slice_eq cc0_scratch7 _ (fun _ => rfl)).subset
  have hR10 : (Memref.whole cc0_scratch6).view.setOn (Rect.unit (s := S1280x256) ![256, 0] S256x256.size inb_S1280x256_S256x256_256_0).set
      ⊆ (R1 0).view.set := (setOn_slice_eq cc0_scratch6 _ (fun _ => rfl)).subset
  have hR11 : (Memref.whole cc0_scratch7).view.setOn (Rect.unit (s := S1280x256) ![256, 0] S256x256.size inb_S1280x256_S256x256_256_0).set
      ⊆ (R1 1).view.set := (setOn_slice_eq cc0_scratch7 _ (fun _ => rfl)).subset
  have hst4 : ((Memref.whole cc0_scratch4).access (Rect.unit (s := S512x256) ![256, 0] S256x256.size inb_S512x256_S256x256_256_0)).setOn Finset.univ
      ⊆ (Finset.univ \ (SA 0).view.set : Finset (Idx ((SA 0).view.loc (c : Thread nD τ)))) := sndB_store_off_A 0
  have hst5 : ((Memref.whole cc0_scratch5).access (Rect.unit (s := S512x256) ![256, 0] S256x256.size inb_S512x256_S256x256_256_0)).setOn Finset.univ
      ⊆ (Finset.univ \ (SA 1).view.set : Finset (Idx ((SA 1).view.loc (c : Thread nD τ)))) := sndB_store_off_A 1
  have hdX : Disjoint ((R0 0).view.set ∪ (R1 0).view.set ∪ (R2 0).view.set) (R4 0).view.set :=
    Finset.disjoint_union_left.mpr ⟨Finset.disjoint_union_left.mpr ⟨disj_R0_R4 0, disj_R1_R4 0⟩, disj_R2_R4 0⟩
  have hd60 : Disjoint ((R2 0).view.set ∪ (R4 0).view.set ∪ (R1 0).view.set) (R0 0).view.set :=
    Finset.disjoint_union_left.mpr ⟨Finset.disjoint_union_left.mpr ⟨(disj_R0_R2 0).symm, (disj_R0_R4 0).symm⟩, (disj_R0_R1 0).symm⟩
  have hd61 : Disjoint ((R2 0).view.set ∪ (R4 0).view.set) (R1 0).view.set :=
    Finset.disjoint_union_left.mpr ⟨(disj_R1_R2 0).symm, (disj_R1_R4 0).symm⟩
  have hd70 : Disjoint ((R2 1).view.set ∪ (R1 1).view.set) (R0 1).view.set :=
    Finset.disjoint_union_left.mpr ⟨(disj_R0_R2 1).symm, (disj_R0_R1 1).symm⟩
  have hd71 : Disjoint (R2 1).view.set (R1 1).view.set := (disj_R1_R2 1).symm
  iintro ⟨%K, H⟩
  unfold QE2 core localBufs
  rw [heldBut_empty, heldBut_empty]
  icases H with ⟨⟨#HI, #HRA, #Hlev, Hbar, Hpos, Htoks, Hcreds, ⟨%W, HO⟩, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%a2, Ha2⟩, ⟨%a3, Ha3⟩, ⟨%a4, Ha4⟩, ⟨%a5, Ha5⟩, ⟨%a8, Ha8⟩, ⟨%a9, Ha9⟩⟩, ⟨%x0, Hx0⟩, ⟨%x1, Hx1⟩, Hr0, Hr1, Hg1, Hg2, Hg3, Hg4, Hg5⟩
  ihave Htoks := (toksAB_open c 18 22 1 _ drop_seg_18 rfl) $$ Htoks
  icases Htoks with ⟨⟨Ht6s, Ht6r⟩, ⟨Ht7s, Ht7r⟩, ⟨Ht8s, Ht8r⟩, ⟨Ht9s, Ht9r⟩, Htoks⟩
  ihave Hcreds := (credsAB_open c 18 19 20 21 22 1 _ drop_seg_18 rfl rfl rfl rfl) $$ Hcreds
  icases Hcreds with ⟨Hc6, Hc7, Hc8, Hc9, Hcreds⟩
  -- the positions on the eight cells of the four copies, and the rounds reached on the cells of the slots handed over
  ihave Hpos := (posAt_focus8' c (roundsDone 18) (roundsDone 22) (by decide) 1 1 1 0 rfl rfl rfl rfl rfl rfl rfl rfl rfl rfl rfl) $$ Hpos
  icases Hpos with ⟨⟨Hp20, #Hq20⟩, ⟨Hp24, #Hq24⟩, ⟨Hp25, #Hq25⟩, ⟨Hp29, #Hq29⟩, ⟨Hp30, #Hq30⟩, ⟨Hp34, #Hq34⟩, ⟨Hp35, #Hq35⟩, ⟨Hp39, #Hq39⟩, #Hq36, #Hq27, #Hq28, Hposback⟩
  ihave Hg1 := (grant_open _ _ _ _ 25 rsR_00) $$ Hg1
  icases Hg1 with ⟨Hd6, #Hrr6⟩
  ihave Hg2 := (grant_open _ _ _ _ 35 rsR_10) $$ Hg2
  icases Hg2 with ⟨Hd7, #Hrr7⟩
  ihave Hg3 := (grant_open _ _ _ _ 29 rsR_04) $$ Hg3
  icases Hg3 with ⟨Hd8, #Hrr8⟩
  ihave Hg4 := (grant_open _ _ _ _ 39 rsR_14) $$ Hg4
  icases Hg4 with ⟨Hd9, #Hrr9⟩
  unfold seg7
  sl_exec
  -- copy 18: SA 0 to R0 0 of the partner across 4
  ihave Hsp := (slice_split c (SA 0) _).1 $$ Ha4
  icases Hsp with ⟨Hsa0, Ha4⟩
  iapply (wp_send_copy' c (xr 4 c) _ (dev22_eq c) (SA 0) (R0 0) 20 25 1 19 _ _ sem_rs0s_0 sem_rs0r_0
      (by decide) (by decide) (by decide) (by decide)
      ((credit_R0 0).trans rfl) rfl (iprop(emp)) fullShare _ (ownAt_of c (SA 0) _)
      ((sep_emp (PROP := sProp 𝕄)).1)
      K (owedFrom c 19) (owedFrom_succ c 18 (4, 25, 1) rfl) _ (by routes)) $$ [Hsa0 Hd6 HO Ht6s Ht6r]
  · iframe ∗ #
  iintro ⟨Hcs6, HO⟩
  sl_exec
  -- copy 19: SA 1 to R0 1 of the partner across 1
  ihave Hsp := (slice_split c (SA 1) _).1 $$ Ha5
  icases Hsp with ⟨Hsa1, Ha5⟩
  iapply (wp_send_copy' c (xr 1 c) _ (dev23_eq c) (SA 1) (R0 1) 30 35 1 20 _ _ sem_rs1s_0 sem_rs1r_0
      (by decide) (by decide) (by decide) (by decide)
      ((credit_R0 1).trans rfl) rfl (iprop(emp)) fullShare _ (ownAt_of c (SA 1) _)
      ((sep_emp (PROP := sProp 𝕄)).1)
      K (owedFrom c 20) (owedFrom_succ c 19 (1, 35, 1) rfl) _ (by routes)) $$ [Hsa1 Hd7 HO Ht7s Ht7r]
  · iframe ∗ #
  iintro ⟨Hcs7, HO⟩
  sl_exec
  -- copy 20: SB 0 to R1 0 of the partner across 4
  ihave Hsp := (rest_split (disj_SA_SB 0) _).1 $$ Ha4
  icases Hsp with ⟨Hsb0, Ha4⟩
  -- the own slot for the partner's next copy to this device goes with it
  ihave Hr1 := (heldBut_take_view c (R2 1) _ (Finset.disjoint_union_left.mpr ⟨disj_R0_R2 1, disj_R1_R2 1⟩)).1 $$ Hr1
  icases Hr1 with ⟨Hown21, Hr1⟩
  iapply (wp_send_copy' c (xr 4 c) _ (dev24_eq c) (SB 0) (R1 0) 24 29 1 21 _ _ sem_rs0s_4 sem_rs0r_4
      (by decide) (by decide) (by decide) (by decide)
      ((credit_R1 0).trans rfl) rfl (iprop(ownAt c (R2 1) ∗ reached ER (dcell c (dsem 36)) 1)) fullShare _ (ownAt_of c (SB 0) _)
      (by
        rw [show payDma (F := F) (xr 4 c) 29 1 = iprop(ownAt (xr 4 c) (R1 0) ∗ (ownAt (xr 4 (xr 4 c)) (R2 1) ∗ reached ER (dcell (xr 4 (xr 4 c)) (rsR 1 1)) 1)) from rfl, xr_xr, rsR_11])
      K (owedFrom c 21) (owedFrom_succ c 20 (4, 29, 1) rfl) _ (by routes)) $$ [Hsb0 Hd8 Hown21 HO Ht8s Ht8r]
  · iframe ∗ #
  iintro ⟨Hcs8, HO⟩
  sl_exec
  -- copy 21: SB 1 to R1 1 of the partner across 1
  ihave Hsp := (rest_split (disj_SA_SB 1) _).1 $$ Ha5
  icases Hsp with ⟨Hsb1, Ha5⟩
  ihave Hr0 := (heldBut_take_view c (R4 0) _ hdX).1 $$ Hr0
  icases Hr0 with ⟨HownX, Hr0⟩
  iapply (wp_send_copy' c (xr 1 c) _ (dev25_eq c) (SB 1) (R1 1) 34 39 1 22 _ _ sem_rs1s_4 sem_rs1r_4
      (by decide) (by decide) (by decide) (by decide)
      ((credit_R1 1).trans rfl) rfl (iprop(ownAt c (R4 0) ∗ reached ER (dcell c (dsem 28)) 0)) fullShare _ (ownAt_of c (SB 1) _)
      (by
        rw [show payDma (F := F) (xr 1 c) 39 1 = iprop(ownAt (xr 1 c) (R1 1) ∗ (ownAt (xr 1 (xr 1 c)) (R4 0) ∗ reached ER (dcell (xr 1 (xr 1 c)) (rsR 0 3)) 0)) from rfl, xr_xr, rsR_03])
      K (owedFrom c 22) (owedFrom_succ c 21 (1, 39, 1) rfl) _ (by routes)) $$ [Hsb1 Hd9 HownX HO Ht9s Ht9r]
  · iframe ∗ #
  iintro ⟨Hcs9, HO⟩
  sl_exec
  -- the wait on semaphore 20 (copy 18)
  ihave Hcs6 := (cred_amt _ _ (show amtDma 25 1 = amtDma 20 1 from rfl)) $$ Hcs6
  ihave Hmw := (mayWait_copy c (dsem 20) 18 22 (by decide) (by decide)) $$ Hlev
  iapply (wp_wait_copy c 20 1 19 (by decide) (by decide) K (owedFrom c 22) _ (hw_waitDma2' c 20 1 _ sem_rs0s_0 ((credit_SA 0).trans rfl))) $$ [Hcs6 HO Hmw Hp20]
  · iframe ∗ #
  iintro ⟨HO, Hp20, #Hn20, Hpay⟩
  ihave Hpay := (Entails.of_eq (show payDma (F := F) c 20 1 = ownAt c (SA 0) from rfl)) $$ Hpay
  icases Hpay with Hsa0
  sl_exec
  -- the wait on semaphore 25 (copy 18)
  ihave Hmw := (mayWait_copy c (dsem 25) 18 22 (by decide) (by decide)) $$ Hlev
  iapply (wp_wait_copy c 25 1 19 (by decide) (by decide) K (owedFrom c 22) _ (hw_waitDma2' c 25 1 _ sem_rs0r_0 ((credit_R0 0).trans rfl))) $$ [Hc6 HO Hmw Hp25]
  · iframe ∗ #
  iintro ⟨HO, Hp25, #Hn25, Hpay⟩
  ihave Hpay := (Entails.of_eq (show payDma (F := F) c 25 1 = iprop(∃ f, (R0 0).view.loc (c : Thread nD τ) ↦[(R0 0).view.set]{fullShare} f) from rfl)) $$ Hpay
  icases Hpay with ⟨%g00, HR00⟩
  sl_exec
  -- the wait on semaphore 30 (copy 19)
  ihave Hcs7 := (cred_amt _ _ (show amtDma 35 1 = amtDma 30 1 from rfl)) $$ Hcs7
  ihave Hmw := (mayWait_copy c (dsem 30) 19 22 (by decide) (by decide)) $$ Hlev
  iapply (wp_wait_copy c 30 1 20 (by decide) (by decide) K (owedFrom c 22) _ (hw_waitDma2' c 30 1 _ sem_rs1s_0 ((credit_SA 1).trans rfl))) $$ [Hcs7 HO Hmw Hp30]
  · iframe ∗ #
  iintro ⟨HO, Hp30, #Hn30, Hpay⟩
  ihave Hpay := (Entails.of_eq (show payDma (F := F) c 30 1 = ownAt c (SA 1) from rfl)) $$ Hpay
  icases Hpay with Hsa1
  sl_exec
  -- the wait on semaphore 35 (copy 19)
  ihave Hmw := (mayWait_copy c (dsem 35) 19 22 (by decide) (by decide)) $$ Hlev
  iapply (wp_wait_copy c 35 1 20 (by decide) (by decide) K (owedFrom c 22) _ (hw_waitDma2' c 35 1 _ sem_rs1r_0 ((credit_R0 1).trans rfl))) $$ [Hc7 HO Hmw Hp35]
  · iframe ∗ #
  iintro ⟨HO, Hp35, #Hn35, Hpay⟩
  ihave Hpay := (Entails.of_eq (show payDma (F := F) c 35 1 = iprop(∃ f, (R0 1).view.loc (c : Thread nD τ) ↦[(R0 1).view.set]{fullShare} f) from rfl)) $$ Hpay
  icases Hpay with ⟨%g01, HR01⟩
  sl_exec
  -- the wait on semaphore 24 (copy 20)
  ihave Hcs8 := (cred_amt _ _ (show amtDma 29 1 = amtDma 24 1 from rfl)) $$ Hcs8
  ihave Hmw := (mayWait_copy c (dsem 24) 20 22 (by decide) (by decide)) $$ Hlev
  iapply (wp_wait_copy c 24 1 21 (by decide) (by decide) K (owedFrom c 22) _ (hw_waitDma2' c 24 1 _ sem_rs0s_4 ((credit_SB 0).trans rfl))) $$ [Hcs8 HO Hmw Hp24]
  · iframe ∗ #
  iintro ⟨HO, Hp24, #Hn24, Hpay⟩
  ihave Hpay := (Entails.of_eq (show payDma (F := F) c 24 1 = ownAt c (SB 0) from rfl)) $$ Hpay
  icases Hpay with Hsb0
  sl_exec
  -- the wait on semaphore 29 (copy 20)
  ihave Hmw := (mayWait_copy c (dsem 29) 20 22 (by decide) (by decide)) $$ Hlev
  iapply (wp_wait_copy c 29 1 21 (by decide) (by decide) K (owedFrom c 22) _ (hw_waitDma2' c 29 1 _ sem_rs0r_4 ((credit_R1 0).trans rfl))) $$ [Hc8 HO Hmw Hp29]
  · iframe ∗ #
  iintro ⟨HO, Hp29, #Hn29, Hpay⟩
  ihave Hpay := (Entails.of_eq (show payDma (F := F) c 29 1 = iprop((∃ f, (R1 0).view.loc (c : Thread nD τ) ↦[(R1 0).view.set]{fullShare} f) ∗ grant (xr 4 c) (R2 1) (rsR 1 1) 1) from rfl)) $$ Hpay
  icases Hpay with ⟨⟨%g10, HR10⟩, Hgn1⟩
  sl_exec
  -- the wait on semaphore 34 (copy 21)
  ihave Hcs9 := (cred_amt _ _ (show amtDma 39 1 = amtDma 34 1 from rfl)) $$ Hcs9
  ihave Hmw := (mayWait_copy c (dsem 34) 21 22 (by decide) (by decide)) $$ Hlev
  iapply (wp_wait_copy c 34 1 22 (by decide) (by decide) K (owedFrom c 22) _ (hw_waitDma2' c 34 1 _ sem_rs1s_4 ((credit_SB 1).trans rfl))) $$ [Hcs9 HO Hmw Hp34]
  · iframe ∗ #
  iintro ⟨HO, Hp34, #Hn34, Hpay⟩
  ihave Hpay := (Entails.of_eq (show payDma (F := F) c 34 1 = ownAt c (SB 1) from rfl)) $$ Hpay
  icases Hpay with Hsb1
  sl_exec
  -- the wait on semaphore 39 (copy 21)
  ihave Hmw := (mayWait_copy c (dsem 39) 21 22 (by decide) (by decide)) $$ Hlev
  iapply (wp_wait_copy c 39 1 22 (by decide) (by decide) K (owedFrom c 22) _ (hw_waitDma2' c 39 1 _ sem_rs1r_4 ((credit_R1 1).trans rfl))) $$ [Hc9 HO Hmw Hp39]
  · iframe ∗ #
  iintro ⟨HO, Hp39, #Hn39, Hpay⟩
  ihave Hpay := (Entails.of_eq (show payDma (F := F) c 39 1 = iprop((∃ f, (R1 1).view.loc (c : Thread nD τ) ↦[(R1 1).view.set]{fullShare} f) ∗ grant (xr 1 c) (R4 0) (rsR 0 3) 0) from rfl)) $$ Hpay
  icases Hpay with ⟨⟨%g11, HR11⟩, Hgn2⟩
  -- both send buffers whole again
  ihave Hsb0 := (Entails.of_eq (ownAt_eq c (SB 0))) $$ Hsb0
  icases Hsb0 with ⟨%h40, Hsb0⟩
  ihave Ha4 := (rest_join_at (disj_SA_SB 0) _ h40) $$ [Hsb0 Ha4]
  · iframe Hsb0 Ha4
  ihave Ha4 := (slice_join_ownAt c (SA 0) _) $$ [Hsa0 Ha4]
  · iframe Hsa0 Ha4
  icases Ha4 with ⟨%a4', Ha4⟩
  ihave Ha4 := (Entails.of_eq (show ((SA 0).view.loc (c : Thread nD τ) ↦{fullShare} a4' : sProp 𝕄) = ptw (F := F) c cc0_scratch4 a4' from rfl)) $$ Ha4
  ihave Hsb1 := (Entails.of_eq (ownAt_eq c (SB 1))) $$ Hsb1
  icases Hsb1 with ⟨%h50, Hsb1⟩
  ihave Ha5 := (rest_join_at (disj_SA_SB 1) _ h50) $$ [Hsb1 Ha5]
  · iframe Hsb1 Ha5
  ihave Ha5 := (slice_join_ownAt c (SA 1) _) $$ [Hsa1 Ha5]
  · iframe Hsa1 Ha5
  icases Ha5 with ⟨%a5', Ha5⟩
  ihave Ha5 := (Entails.of_eq (show ((SA 1).view.loc (c : Thread nD τ) ↦{fullShare} a5' : sProp 𝕄) = ptw (F := F) c cc0_scratch5 a5' from rfl)) $$ Ha5
  sl_exec
  sl_step
  iexists K
  irw [QAB_22_eq, core_eq, localBufs_eq, heldBut_empty, heldBut_empty]
  -- the positions, one round on
  ihave Hpos := Hposback $$ [Hp20 Hp24 Hp25 Hp29 Hp30 Hp34 Hp35 Hp39]
  · iframe ∗ #
  -- the receive buffers take back the landed slots
  ihave HR00 := (ownAt_of c (R0 0) _) $$ HR00
  ihave HR01 := (ownAt_of c (R0 1) _) $$ HR01
  ihave HR10 := (ownAt_of c (R1 0) _) $$ HR10
  ihave HR11 := (ownAt_of c (R1 1) _) $$ HR11
  ihave Hr0 := (heldBut_rot4 c _ _ _ _ _) $$ Hr0
  ihave Hr0 := (heldBut_put_right c (R0 0) _ hd60) $$ [HR00 Hr0]
  · iframe HR00 Hr0
  ihave Hr0 := (heldBut_put_right c (R1 0) _ hd61) $$ [HR10 Hr0]
  · iframe HR10 Hr0
  ihave Hr1 := (heldBut_rot3 c _ _ _ _) $$ Hr1
  ihave Hr1 := (heldBut_put_right c (R0 1) _ hd70) $$ [HR01 Hr1]
  · iframe HR01 Hr1
  ihave Hr1 := (heldBut_put_right c (R1 1) _ hd71) $$ [HR11 Hr1]
  · iframe HR11 Hr1
  -- every buffer at some contents
  ihave HO := (ex_owes _ _ _) $$ HO
  ihave Hs0 := (ex_ptw c cc0_stg0_0 _) $$ Hs0
  ihave Hs1 := (ex_ptw c cc0_stg1_0 _) $$ Hs1
  ihave Hs2 := (ex_ptw c cc0_stg2_0 _) $$ Hs2
  ihave Hs3 := (ex_ptw c cc0_stg3_0 _) $$ Hs3
  ihave Hs4 := (ex_ptw c cc0_stg4_0 _) $$ Hs4
  ihave Hs5 := (ex_ptw c cc0_stg5_0 _) $$ Hs5
  ihave Hs6 := (ex_ptw c cc0_stg6_0 _) $$ Hs6
  ihave Hs7 := (ex_ptw c cc0_stg7_0 _) $$ Hs7
  ihave Ha2 := (ex_ptw c cc0_scratch2 _) $$ Ha2
  ihave Ha3 := (ex_ptw c cc0_scratch3 _) $$ Ha3
  ihave Ha4 := (ex_ptw c cc0_scratch4 _) $$ Ha4
  ihave Ha5 := (ex_ptw c cc0_scratch5 _) $$ Ha5
  ihave Ha8 := (ex_ptw c cc0_scratch8 _) $$ Ha8
  ihave Ha9 := (ex_ptw c cc0_scratch9 _) $$ Ha9
  ihave Hx0 := (ex_ptw c cc0_scratch0 _) $$ Hx0
  ihave Hx1 := (ex_ptw c cc0_scratch1 _) $$ Hx1
  iframe ∗ #

/-- info: 'Cert.Kernel.Hand.seg7_ok' depends on axioms: [propext, Classical.choice, Quot.sound] -/
#guard_msgs in #print axioms seg7_ok

end Cert.Kernel.Hand
end
-- ==== Proof.Kernel.SegE.lean ====
import proofs.«900979_g7700000000000980_dist_mlpseq_tp1d_bs_bs_b256_d256_h512_v7x_i8_bf16_1_alg».proof.Proof.Kernel.Specs
import proofs.«900979_g7700000000000980_dist_mlpseq_tp1d_bs_bs_b256_d256_h512_v7x_i8_bf16_1_alg».proof.Proof.Kernel.Steps
import proofs.«900979_g7700000000000980_dist_mlpseq_tp1d_bs_bs_b256_d256_h512_v7x_i8_bf16_1_alg».proof.Proof.Kernel.QuietLemmas

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig ℕ (Elt F) ℕ UU ℕ

/-! # Segment 10: the second exchange of the last layer

Between the quiet point after 26 copies and the one after 28, a device stores the layer's result into its own pair of
row blocks of the second gather buffer, sends its own pair of each gather buffer to the partner of the second exchange
(across mask 3 for stream 0, across mask 4 for stream 1), runs two partial products that read the rows it has just
sent, and waits for both copies on their send and receive cells.

Neither gather buffer is whole at any moment of this segment: a slot of each is with a partner from before the first
step to after the last. Every local read and write therefore goes through the elements that ARE held, and is allowed
because its rectangle avoids the elements away; a read of rows whose left half-share is lent to a copy in flight goes
through the right half that stayed. With each copy the device hands the partner, beside the landed rows, its own slot
for the partner's next copy to it, with the fact that its receive cell for that copy has reached the copy's round. -/

/-! ## Local steps on a buffer held without some of its elements -/

/-- On a whole buffer the elements under a set of indices are that set. -/
theorem setOn_whole (b : Ref sig .tc) (M : Finset b.ty.shape.Idx) : (Memref.whole b).view.setOn M = M := by
  show M.map (View.whole b).emb = M
  rw [View.emb_whole]; exact Finset.map_refl

/-- A read through a rectangle that avoids the elements away reads held elements. -/
theorem load_ok_but (b : Ref sig .tc) (r : Rect b.ty.shape) (A : Finset b.ty.shape.Idx) (hd : Disjoint r.set A) :
    (Memref.whole b).view.setOn r.toLoadRect.set ⊆ Finset.univ \ A := by
  rw [setOn_whole]; exact Finset.subset_sdiff.mpr ⟨Finset.subset_univ _, hd⟩

/-- A store through such a rectangle writes held elements. -/
theorem store_ok_but (b : Ref sig .tc) (r : Rect b.ty.shape) (Mk : Finset r.shape.Idx) (A : Finset b.ty.shape.Idx)
    (hd : Disjoint r.set A) : ((Memref.whole b).access r).setOn Mk ⊆ Finset.univ \ A := fun i hi =>
  Finset.mem_sdiff.mpr ⟨Finset.mem_univ _, fun hA => Finset.disjoint_left.mp hd
    (by have h := View.setOn_subset_set _ Mk hi; rwa [View.set_slice_whole] at h) hA⟩

/-! ## A remote copy as printed: the partner and the two semaphores by their printed terms -/

/-- The copy rule with the partner and the semaphores as the program spells them, each equal to the protocol's. -/
theorem wp_send_copy' (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-- A buffer held without some elements, as the elements held at some contents. -/
theorem heldBut_elim (c : Dev nD) (b : Ref sig .tc) (A : Finset (Idx ((Memref.whole b).view.loc (c : Thread nD τ)))) :
    heldBut (F := F) c b A ⊢ iprop(∃ f : Buf (Elt F) ((Memref.whole b).view.loc (c : Thread nD τ)),
      (Memref.whole b).view.loc (c : Thread nD τ) ↦[Finset.univ \ A]{fullShare} f) := by
  unfold heldBut; exact Entails.refl _

/-- A unit-stride rectangle inside another's span on every axis is contained in it. -/
theorem unit_subset {s : Shape} {off size off' size' : Fin s.rank → ℕ} {inb inb'}
    (h : ∀ a, off' a ≤ off a ∧ off a + size a ≤ off' a + size' a) :
    (Rect.unit (s := s) off size inb).set ⊆ (Rect.unit (s := s) off' size' inb').set := by
  intro i hi
  rw [Rect.mem_set_unit] at hi ⊢
  intro a
  have h1 := hi a
  have h2 := h a
  omega

/-! ## Where the rectangles of segment 10 lie -/

theorem geo10_rect18 (c : Dev nD) : Disjoint (Rect.unit (s := S1024x256) (k0_off18 c) S256x256.size (k0_off18_inb c)).set
    ((VE1 1 (xr 4 c)).view.set ∪ (VE2 1 (xr 1 c)).view.set) := by
  rw [← set_slice_of_whole cc0_scratch1 (Rect.unit (s := S1024x256) (k0_off18 c) S256x256.size (k0_off18_inb c)) (fun _ => rfl)]
  exact Finset.disjoint_union_right.mpr ⟨disj_slices cc0_scratch1 0 (by revert c; decide +kernel),
    disj_slices cc0_scratch1 0 (by revert c; decide +kernel)⟩
theorem geo10_A0B' (c : Dev nD) : Disjoint (VE1 0 (xr 3 c)).view.set (VE2 0 (xr 4 c)).view.set :=
  disj_slices cc0_scratch0 0 (by revert c; decide +kernel)
theorem geo10_B0B' (c : Dev nD) : Disjoint (VE1 0 c).view.set (VE2 0 (xr 4 c)).view.set :=
  disj_slices cc0_scratch0 0 (by revert c; decide +kernel)
theorem geo10_A2B1 (c : Dev nD) : Disjoint (VE2 1 (xr 1 c)).view.set (VE1 1 c).view.set :=
  disj_slices cc0_scratch1 0 (by revert c; decide +kernel)
theorem geo10_A2A1 (c : Dev nD) : Disjoint (VE2 1 (xr 1 c)).view.set (VE1 1 (xr 4 c)).view.set :=
  disj_slices cc0_scratch1 0 (by revert c; decide +kernel)
theorem geo10_off7 : ∀ (c : Dev nD) (a : Fin 2), k0_off5 c a ≤ k0_off7 c a ∧ k0_off7 c a + S256x256.size a ≤ k0_off5 c a + S256x256.size a := by
  decide +kernel
theorem geo10_off8 : ∀ (c : Dev nD) (a : Fin 2), k0_off6 c a ≤ k0_off8 c a ∧ k0_off8 c a + S256x256.size a ≤ k0_off6 c a + S256x256.size a := by
  decide +kernel
theorem geo10_sub7 (c : Dev nD) :
    (Memref.whole cc0_scratch0).view.setOn (Rect.unit (s := S1024x256) (k0_off7 c) S256x256.size (k0_off7_inb c)).toLoadRect.set
      ⊆ (VE1 0 c).view.set := by
  rw [setOn_whole]
  show _ ⊆ ((Memref.whole cc0_scratch0).slice (Rect.unit (s := S1024x256) (k0_off5 c) S256x256.size (k0_off5_inb c)) (fun _ => rfl)).view.set
  rw [set_slice_of_whole]
  exact unit_subset (geo10_off7 c)
theorem geo10_sub8 (c : Dev nD) :
    (Memref.whole cc0_scratch1).view.setOn (Rect.unit (s := S1024x256) (k0_off8 c) S256x256.size (k0_off8_inb c)).toLoadRect.set
      ⊆ (VE1 1 c).view.set := by
  rw [setOn_whole]
  show _ ⊆ ((Memref.whole cc0_scratch1).slice (Rect.unit (s := S1024x256) (k0_off6 c) S256x256.size (k0_off6_inb c)) (fun _ => rfl)).view.set
  rw [set_slice_of_whole]
  exact unit_subset (geo10_off8 c)

set_option maxHeartbeats 2000000 in
theorem seg10_ok (c : Dev nD) : Spec10 (F := F) c := by
  intro v2 v11 v1191
  have hdA := geo10_rect18 c
  have hA0B' := geo10_A0B' c
  have hB0sub : (VE1 0 c).view.set ⊆ (Finset.univ \ (VE1 0 (xr 3 c)).view.set) \ (VE2 0 (xr 4 c)).view.set :=
    Finset.subset_sdiff.mpr ⟨Finset.subset_sdiff.mpr ⟨Finset.subset_univ _, disj_VE1_0 c⟩, geo10_B0B' c⟩
  have hAB1 : Disjoint ((VE1 1 (xr 4 c)).view.set ∪ (VE2 1 (xr 1 c)).view.set) (VE1 1 c).view.set :=
    Finset.disjoint_union_left.mpr ⟨(disj_VE1_1 c).symm, geo10_A2B1 c⟩
  have hA2A1 := geo10_A2A1 c
  have hsub7 := geo10_sub7 c
  have hsub8 := geo10_sub8 c
  have hroute3 : τ.routes (c : Thread nD τ) (xr 3 c : Thread nD τ) = true := Topo.routes_tc _ _
  have hroute4 : τ.routes (c : Thread nD τ) (xr 4 c : Thread nD τ) = true := Topo.routes_tc _ _
  -- what each of the two copies hands the partner: the landed pair of blocks, and the own slot of the partner's next copy
  have hpayR26 : iprop(ownAt (F := F) (xr 3 c) (VE1 0 c) ∗ (ownAt c (R2 0) ∗ reached ER (dcell c (dsem 26)) 2)) ⊢ payDma (xr 3 c) 12 2 := by
    show _ ⊢ iprop(ownAt (xr 3 c) (VE1 0 (xr 3 (xr 3 c))) ∗ (ownAt (xr 3 (xr 3 c)) (R2 0) ∗ reached ER (dcell (xr 3 (xr 3 c)) (rsR 0 1)) 2))
    rw [xr_xr]; first | done | exact Entails.refl _
  have hpayR27 : iprop(ownAt (F := F) (xr 4 c) (VE1 1 c) ∗ (ownAt c (VE2 0 (xr 4 c)) ∗ reached ER (dcell c (dsem 13)) 2)) ⊢ payDma (xr 4 c) 18 2 := by
    show _ ⊢ iprop(ownAt (xr 4 c) (VE1 1 (xr 4 (xr 4 c))) ∗ (ownAt (xr 4 (xr 4 c)) (VE2 0 (xr 4 c)) ∗ reached ER (dcell (xr 4 (xr 4 c)) (agR 0 2)) 2))
    rw [xr_xr]; first | done | exact Entails.refl _
  refine exists_elim fun K => ?_
  rw [QD_26_eq, core_eq, posAt_26, toks_seg_26, creds_seg_26, localBufs_eq,
    show (agR 0 1 : DmaSem sig) = dsem 12 from by decide, show (agR 1 1 : DmaSem sig) = dsem 18 from by decide]
  iintro ⟨⟨#HI, #HR, #Hlev, HatB, ⟨Ha8, Hr8, Ha9, Hr9, Ha10, Hr10, Ha11, Hr11, Ha12, Hr12, Ha13, #Hr13, Ha14, Hr14, Ha15, Hr15, Ha16, Hr16, Ha17, Hr17, Ha18, Hr18, Ha19, Hr19, Ha20, Hr20, Ha21, Hr21, Ha22, Hr22, Ha23, Hr23, Ha24, Hr24, Ha25, Hr25, Ha26, #Hr26, Ha27, Hr27, Ha28, Hr28, Ha29, Hr29, Ha30, Hr30, Ha31, Hr31, Ha32, Hr32, Ha33, Hr33, Ha34, Hr34, Ha35, Hr35, Ha36, Hr36, Ha37, Hr37, Ha38, Hr38, Ha39, Hr39⟩, ⟨⟨Ht9, Ht12⟩, ⟨Ht15, Ht18⟩, Htoks⟩, ⟨Hc12, Hc18, Hcreds⟩, ⟨%W, HO⟩, ⟨Hl0, Hl1, Hl2, Hl3, Hl4, Hl5, Hl6, Hl7, HS2, HS3, HS4, HS5, HS8, HS9⟩⟩, Hs0, Hs1, Hs6, Hs7, Hg3, Hg4, Hg1⟩
  -- the program: nineteen operations
  unfold seg10
  rw [k0_part39_eq_skeleton, k0_part40_eq_skeleton, k0_part41_eq_skeleton]
  unfold k0_part39_skel k0_part40_skel k0_part41_skel
  simp only [Prog.lift, Prog.bind_op, Prog.bind_ret, Prog.pure_eq_ret, Prog.bind_assoc]
  ihave Hs1 := (heldBut_elim (F := F) c cc0_scratch1 _) $$ Hs1
  icases Hs1 with ⟨%f1, Hs1⟩
  ihave Hs0 := (heldBut_elim (F := F) c cc0_scratch0 _) $$ Hs0
  icases Hs0 with ⟨%f0, Hs0⟩
  -- the read and the store on the second gather buffer, held without two slots
  iapply (wp_load Variants.none (c : Thread nD τ) none Set.univ (load_ok_but cc0_scratch1 _ _ hdA)) $$ [Hs1]
  · iexact Hs1
  iintro Hs1
  iapply (wp_store Variants.none (c : Thread nD τ) none Set.univ (store_ok_but cc0_scratch1 _ _ _ hdA)) $$ [Hs1]
  · iexact Hs1
  iintro Hs1
  ihave Hs1 := (heldBut_intro (F := F) c cc0_scratch1 _ _) $$ Hs1
  ihave Hs1 := (heldBut_elim (F := F) c cc0_scratch1 _) $$ Hs1
  icases Hs1 with ⟨%g1, Hs1⟩
  -- out of the first gather buffer: the slot handed over with the second copy, then the first copy's source, half of it lent
  ihave Hsp := (rest_split (F := F) hA0B' f0).1 $$ Hs0
  icases Hsp with ⟨HB', Hs0⟩
  ihave Hsp := (pointsTo_split_subset hB0sub).1 $$ Hs0
  icases Hsp with ⟨Hsrc0, Hs0⟩
  ihave Hh := (halves_split (F := F) f0).1 $$ Hsrc0
  icases Hh with ⟨HsrcL0, HsrcR0⟩
  ihave Hr2 := (heldBut_take_view_empty (F := F) c (R2 0)).1 $$ Hs6
  icases Hr2 with ⟨HR2, Hs6⟩
  unfold grant
  icases Hg3 with ⟨Hd3, #Hrp3⟩
  icases Hg4 with ⟨Hd4, #Hrp4⟩
  -- copy 26: the own pair of blocks of stream 0 to the partner across mask 3
  iapply (wp_send_copy' (F := F) c (xr 3 c) _ (dev30_eq c) (VE1 0 c) (VE1 0 c) 9 12 2 27 _ _ sem_ag0s_1 sem_ag0r_1
      (by decide) (by decide) (by decide) (by decide) ((credit_VE1 0 c).trans rfl) rfl
      (iprop(ownAt c (R2 0) ∗ reached ER (dcell c (dsem 26)) 2)) fullShare.left f0
      (ownHalf_of c (VE1 0 c) f0) hpayR26 K (owedFrom c 27) (owedFrom_succ c 26 (3, 12, 2) rfl) W hroute3) $$ [HsrcL0 Hd3 HR2 HO Ht9 Hr9 Ht12]
  · isplitr; · iexact HI
    isplitl [HsrcL0]; · iexact HsrcL0
    isplitl [Hd3]; · iexact Hd3
    isplitl [HR2]
    · isplitl [HR2]; · iexact HR2
      iexact Hr26
    isplitl [HO]; · iexact HO
    isplitl [Ht9]; · iexact Ht9
    isplitl [Hr9]; · iexact Hr9
    isplitl [Ht12]; · iexact Ht12
    iexact Hrp3
  iintro ⟨Hc9, HO⟩
  -- copy 27: the own pair of blocks of stream 1 to the partner across mask 4
  ihave Hsp := (rest_split (F := F) hAB1 g1).1 $$ Hs1
  icases Hsp with ⟨Hsrc1, Hs1⟩
  ihave Hh := (halves_split (F := F) g1).1 $$ Hsrc1
  icases Hh with ⟨HsrcL1, HsrcR1⟩
  ihave HV2 := (ownAt_of (F := F) c (VE2 0 (xr 4 c)) f0) $$ HB'
  iapply (wp_send_copy' (F := F) c (xr 4 c) _ (dev31_eq c) (VE1 1 c) (VE1 1 c) 15 18 2 28 _ _ sem_ag1s_1 sem_ag1r_1
      (by decide) (by decide) (by decide) (by decide) ((credit_VE1 1 c).trans rfl) rfl
      (iprop(ownAt c (VE2 0 (xr 4 c)) ∗ reached ER (dcell c (dsem 13)) 2)) fullShare.left g1
      (ownHalf_of c (VE1 1 c) g1) hpayR27 K (owedFrom c 28) (owedFrom_succ c 27 (4, 18, 2) rfl) W hroute4) $$ [HsrcL1 Hd4 HV2 HO Ht15 Hr15 Ht18]
  · isplitr; · iexact HI
    isplitl [HsrcL1]; · iexact HsrcL1
    isplitl [Hd4]; · iexact Hd4
    isplitl [HV2]
    · isplitl [HV2]; · iexact HV2
      iexact Hr13
    isplitl [HO]; · iexact HO
    isplitl [Ht15]; · iexact Ht15
    isplitl [Hr15]; · iexact Hr15
    isplitl [Ht18]; · iexact Ht18
    iexact Hrp4
  iintro ⟨Hc15, HO⟩
  -- the two partial products: their reads of the lent rows go through the half that stayed
  icases HS2 with ⟨%a2, HS2⟩
  icases HS3 with ⟨%a3, HS3⟩
  icases HS8 with ⟨%w8, HS8⟩
  icases HS9 with ⟨%w9, HS9⟩
  iapply (wp_load Variants.none (c : Thread nD τ) none Set.univ hsub7) $$ [HsrcR0]
  · iexact HsrcR0
  iintro HsrcR0
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS2]
  · iexact HS2
  iintro HS2
  iapply (wp_store Variants.none (c : Thread nD τ) none Set.univ (Finset.subset_univ _)) $$ [HS2]
  · iexact HS2
  iintro HS2
  iapply (wp_load Variants.none (c : Thread nD τ) none Set.univ hsub8) $$ [HsrcR1]
  · iexact HsrcR1
  iintro HsrcR1
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS3]
  · iexact HS3
  iintro HS3
  iapply (wp_store Variants.none (c : Thread nD τ) none Set.univ (Finset.subset_univ _)) $$ [HS3]
  · iexact HS3
  iintro HS3
  -- the four waits
  simp only [sem_ag0s_1, sem_ag0r_1, sem_ag1s_1, sem_ag1r_1]
  ihave Hc9 := (Entails.of_eq (show (cred (tallyAt (dcell c (dsem 9)) 27 (amtDma 12 2)) : sProp 𝕄) = cred (tallyAt (dcell c (dsem 9)) 27 (amtDma 9 2)) from rfl)) $$ Hc9
  ihave Hc15 := (Entails.of_eq (show (cred (tallyAt (dcell c (dsem 15)) 28 (amtDma 18 2)) : sProp 𝕄) = cred (tallyAt (dcell c (dsem 15)) 28 (amtDma 15 2)) from rfl)) $$ Hc15
  ihave HM := (mayWait_copy (F := F) c (dsem 9) 26 28 (by omega) (by omega)) $$ Hlev
  iapply (wp_wait_copy (F := F) c 9 2 27 (by decide) (by decide) K (owedFrom c 28) _ (hw_waitDma2 c 9 2 ((credit_VE1 0 c).trans rfl))) $$ [Hc9 HO HM Ha9]
  · isplitr; · iexact HI
    isplitl [Hc9]; · iexact Hc9
    isplitl [HO]; · iexact HO
    isplitl [HM]; · iexact HM
    iexact Ha9
  iintro ⟨HO, Ha9, Hr9, Hp9⟩
  ihave HM := (mayWait_copy (F := F) c (dsem 12) 26 28 (by omega) (by omega)) $$ Hlev
  iapply (wp_wait_copy (F := F) c 12 2 27 (by decide) (by decide) K (owedFrom c 28) _ (hw_waitDma2 c 12 2 ((credit_VE1 0 c).trans rfl))) $$ [Hc12 HO HM Ha12]
  · isplitr; · iexact HI
    isplitl [Hc12]; · iexact Hc12
    isplitl [HO]; · iexact HO
    isplitl [HM]; · iexact HM
    iexact Ha12
  iintro ⟨HO, Ha12, Hr12, Hp12⟩
  ihave HM := (mayWait_copy (F := F) c (dsem 15) 27 28 (by omega) (by omega)) $$ Hlev
  iapply (wp_wait_copy (F := F) c 15 2 28 (by decide) (by decide) K (owedFrom c 28) _ (hw_waitDma2 c 15 2 ((credit_VE1 1 c).trans rfl))) $$ [Hc15 HO HM Ha15]
  · isplitr; · iexact HI
    isplitl [Hc15]; · iexact Hc15
    isplitl [HO]; · iexact HO
    isplitl [HM]; · iexact HM
    iexact Ha15
  iintro ⟨HO, Ha15, Hr15, Hp15⟩
  ihave HM := (mayWait_copy (F := F) c (dsem 18) 27 28 (by omega) (by omega)) $$ Hlev
  iapply (wp_wait_copy (F := F) c 18 2 28 (by decide) (by decide) K (owedFrom c 28) _ (hw_waitDma2 c 18 2 ((credit_VE1 1 c).trans rfl))) $$ [Hc18 HO HM Ha18]
  · isplitr; · iexact HI
    isplitl [Hc18]; · iexact Hc18
    isplitl [HO]; · iexact HO
    isplitl [HM]; · iexact HM
    iexact Ha18
  iintro ⟨HO, Ha18, Hr18, Hp18⟩
  -- the run is over: what the four landings handed back becomes buffers again
  rw [wp_ret]
  imodintro
  iexists K
  rw [Q28_eq, core_eq, posAt_28, localBufs_eq]
  unfold grant
  ihave Hp9 := (Entails.of_eq (show payDma (F := F) c 9 2 = ownHalf c (VE1 0 c) from rfl)) $$ Hp9
  ihave Hp15 := (Entails.of_eq (show payDma (F := F) c 15 2 = ownHalf c (VE1 1 c) from rfl)) $$ Hp15
  ihave Hp12 := (Entails.of_eq (show payDma (F := F) c 12 2
      = iprop(ownAt c (VE1 0 (xr 3 c)) ∗ (ownAt (xr 3 c) (R2 0) ∗ reached ER (dcell (xr 3 c) (rsR 0 1)) 2)) from rfl)) $$ Hp12
  icases Hp12 with ⟨HA0, Hg3'⟩
  ihave Hp18 := (Entails.of_eq (show payDma (F := F) c 18 2
      = iprop(ownAt c (VE1 1 (xr 4 c)) ∗ (ownAt (xr 4 c) (VE2 0 c) ∗ reached ER (dcell (xr 4 c) (agR 0 2)) 2)) from rfl)) $$ Hp18
  icases Hp18 with ⟨HA1, Hg4'⟩
  -- the first gather buffer: the lent half, the source, the landed pair; the slot handed over stays away
  ihave Hsrc0 := (ownHalf_join (F := F) c (VE1 0 c) f0) $$ [Hp9 HsrcR0]
  · isplitl [Hp9]; · iexact Hp9
    iexact HsrcR0
  ihave Hs0 := (pointsTo_join_subset (ℓ := (Memref.whole cc0_scratch0).view.loc (c : Thread nD τ)) (q := fullShare) (f := f0) (g := f0) hB0sub) $$ [Hsrc0 Hs0]
  · isplitl [Hsrc0]; · iexact Hsrc0
    iexact Hs0
  rw [← univ_sdiff_union (VE1 0 (xr 3 c)).view.set (VE2 0 (xr 4 c)).view.set]
  ihave Hs0 := (heldBut_intro (F := F) c cc0_scratch0 _ _) $$ Hs0
  ihave Hs0 := (heldBut_put_left (F := F) c (VE1 0 (xr 3 c)) (VE2 0 (xr 4 c)).view.set hA0B'.symm) $$ [HA0 Hs0]
  · isplitl [HA0]; · iexact HA0
    iexact Hs0
  -- the second gather buffer likewise
  ihave Hsrc1 := (ownHalf_join (F := F) c (VE1 1 c) g1) $$ [Hp15 HsrcR1]
  · isplitl [Hp15]; · iexact Hp15
    iexact HsrcR1
  ihave Hs1 := (rest_join_at (F := F) hAB1 g1 g1) $$ [Hsrc1 Hs1]
  · isplitl [Hsrc1]; · iexact Hsrc1
    iexact Hs1
  ihave Hs1 := (heldBut_intro (F := F) c cc0_scratch1 _ _) $$ Hs1
  ihave Hs1 := (heldBut_put_left (F := F) c (VE1 1 (xr 4 c)) (VE2 1 (xr 1 c)).view.set hA2A1) $$ [HA1 Hs1]
  · isplitl [HA1]; · iexact HA1
    iexact Hs1
  -- the quiet state after 28 copies
  isplitr [Hs0 Hs1 Hs6 Hs7 Hg4' Hg1 Hg3']
  · isplitr; · iexact HI
    isplitr; · iexact HR
    isplitr; · iexact Hlev
    isplitl [HatB]; · iexact HatB
    isplitl [Ha8 Hr8 Ha9 Hr9 Ha10 Hr10 Ha11 Hr11 Ha12 Hr12 Ha13 Ha14 Hr14 Ha15 Hr15 Ha16 Hr16 Ha17 Hr17 Ha18 Hr18 Ha19 Hr19 Ha20 Hr20 Ha21 Hr21 Ha22 Hr22 Ha23 Hr23 Ha24 Hr24 Ha25 Hr25 Ha26 Ha27 Hr27 Ha28 Hr28 Ha29 Hr29 Ha30 Hr30 Ha31 Hr31 Ha32 Hr32 Ha33 Hr33 Ha34 Hr34 Ha35 Hr35 Ha36 Hr36 Ha37 Hr37 Ha38 Hr38 Ha39 Hr39]
    · isplitl [Ha8]; · iexact Ha8
      isplitl [Hr8]; · iexact Hr8
      isplitl [Ha9]; · iexact Ha9
      isplitl [Hr9]; · iexact Hr9
      isplitl [Ha10]; · iexact Ha10
      isplitl [Hr10]; · iexact Hr10
      isplitl [Ha11]; · iexact Ha11
      isplitl [Hr11]; · iexact Hr11
      isplitl [Ha12]; · iexact Ha12
      isplitl [Hr12]; · iexact Hr12
      isplitl [Ha13]; · iexact Ha13
      isplitr; · iexact Hr13
      isplitl [Ha14]; · iexact Ha14
      isplitl [Hr14]; · iexact Hr14
      isplitl [Ha15]; · iexact Ha15
      isplitl [Hr15]; · iexact Hr15
      isplitl [Ha16]; · iexact Ha16
      isplitl [Hr16]; · iexact Hr16
      isplitl [Ha17]; · iexact Ha17
      isplitl [Hr17]; · iexact Hr17
      isplitl [Ha18]; · iexact Ha18
      isplitl [Hr18]; · iexact Hr18
      isplitl [Ha19]; · iexact Ha19
      isplitl [Hr19]; · iexact Hr19
      isplitl [Ha20]; · iexact Ha20
      isplitl [Hr20]; · iexact Hr20
      isplitl [Ha21]; · iexact Ha21
      isplitl [Hr21]; · iexact Hr21
      isplitl [Ha22]; · iexact Ha22
      isplitl [Hr22]; · iexact Hr22
      isplitl [Ha23]; · iexact Ha23
      isplitl [Hr23]; · iexact Hr23
      isplitl [Ha24]; · iexact Ha24
      isplitl [Hr24]; · iexact Hr24
      isplitl [Ha25]; · iexact Ha25
      isplitl [Hr25]; · iexact Hr25
      isplitl [Ha26]; · iexact Ha26
      isplitr; · iexact Hr26
      isplitl [Ha27]; · iexact Ha27
      isplitl [Hr27]; · iexact Hr27
      isplitl [Ha28]; · iexact Ha28
      isplitl [Hr28]; · iexact Hr28
      isplitl [Ha29]; · iexact Ha29
      isplitl [Hr29]; · iexact Hr29
      isplitl [Ha30]; · iexact Ha30
      isplitl [Hr30]; · iexact Hr30
      isplitl [Ha31]; · iexact Ha31
      isplitl [Hr31]; · iexact Hr31
      isplitl [Ha32]; · iexact Ha32
      isplitl [Hr32]; · iexact Hr32
      isplitl [Ha33]; · iexact Ha33
      isplitl [Hr33]; · iexact Hr33
      isplitl [Ha34]; · iexact Ha34
      isplitl [Hr34]; · iexact Hr34
      isplitl [Ha35]; · iexact Ha35
      isplitl [Hr35]; · iexact Hr35
      isplitl [Ha36]; · iexact Ha36
      isplitl [Hr36]; · iexact Hr36
      isplitl [Ha37]; · iexact Ha37
      isplitl [Hr37]; · iexact Hr37
      isplitl [Ha38]; · iexact Ha38
      isplitl [Hr38]; · iexact Hr38
      isplitl [Ha39]; · iexact Ha39
      iexact Hr39
    isplitl [Htoks]; · iexact Htoks
    isplitl [Hcreds]; · iexact Hcreds
    isplitl [HO]; · iexists _; iexact HO
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [HS2]; · iexists _; iexact HS2
    isplitl [HS3]; · iexists _; iexact HS3
    isplitl [HS4]; · iexact HS4
    isplitl [HS5]; · iexact HS5
    isplitl [HS8]; · iexists _; iexact HS8
    iexists _; iexact HS9
  isplitl [Hs0]; · iexact Hs0
  isplitl [Hs1]; · iexact Hs1
  isplitl [Hs6]; · iexact Hs6
  isplitl [Hs7]; · iexact Hs7
  isplitl [Hg4']; · iexact Hg4'
  isplitl [Hg1]; · iexact Hg1
  iexact Hg3'

/-- info: 'Cert.Kernel.Hand.seg10_ok' depends on axioms: [propext, Classical.choice, Quot.sound] -/
#guard_msgs in #print axioms seg10_ok

end Cert.Kernel.Hand

end
-- ==== Proof.Kernel.Seg9.lean ====
import proofs.«900979_g7700000000000980_dist_mlpseq_tp1d_bs_bs_b256_d256_h512_v7x_i8_bf16_1_alg».proof.Proof.Kernel.Specs
import proofs.«900979_g7700000000000980_dist_mlpseq_tp1d_bs_bs_b256_d256_h512_v7x_i8_bf16_1_alg».proof.Proof.Kernel.Steps
import proofs.«900979_g7700000000000980_dist_mlpseq_tp1d_bs_bs_b256_d256_h512_v7x_i8_bf16_1_alg».proof.Proof.Kernel.QuietLemmas
import proofs.«900979_g7700000000000980_dist_mlpseq_tp1d_bs_bs_b256_d256_h512_v7x_i8_bf16_1_alg».proof.Proof.Kernel.SegE

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig ℕ (Elt F) ℕ UU ℕ

/-! ## Segment 9: the last reduce step of layer 1 -/

/-- A whole buffer at given contents is that buffer at some contents. -/
theorem ptw_ex (c : Dev nD) (b : Ref sig .tc) (f : Buf (Elt F) ((Memref.whole b).view.loc (c : Thread nD τ))) :
    ptw (F := F) c b f ⊢ iprop(∃ g, ptw (F := F) c b g) :=
  exists_intro (Φ := fun g => ptw (F := F) c b g) f

/-- A read through a rectangle of a whole buffer reads elements of the slice at that rectangle. -/
theorem sub_whole_slice (b : Ref sig .tc) (r : Rect b.ty.shape) (hr : ∀ a, r.stride a = 1) :
    (Memref.whole b).view.setOn r.toLoadRect.set ⊆ ((Memref.whole b).slice r hr).view.set := by
  rw [setOn_whole, set_slice_of_whole]

/-- The own pair of blocks the layer's result is cast into lies off the pair handed over for the next layer's copy. -/
theorem geo9_rect17 (c : Dev nD) : Disjoint (Rect.unit (s := S1024x256) (k0_off17 c) S256x256.size (k0_off17_inb c)).set (VE1 0 (xr 3 c)).view.set := by
  rw [← set_slice_of_whole cc0_scratch0 (Rect.unit (s := S1024x256) (k0_off17 c) S256x256.size (k0_off17_inb c)) (fun _ => rfl)]
  exact disj_slices cc0_scratch0 0 (by revert c; decide +kernel)

set_option maxHeartbeats 2000000 in
theorem seg9_ok (c : Dev nD) : Spec9 (F := F) c := by
  intro v2 v678 v681 v1121
  have hd17 := geo9_rect17 c
  have hA1A2 : Disjoint (VE1 1 (xr 4 c)).view.set (VE2 1 (xr 1 c)).view.set := (geo10_A2A1 c).symm
  -- what the two copies hand the partners: the landed slot, and the own slot of the partner's copy of the next layer
  have hpayR24 : iprop(ownAt (F := F) (xr 1 c) (R4 0) ∗ (ownAt c (VE2 1 (xr 1 c)) ∗ reached ER (dcell c (dsem 19)) 2)) ⊢ payDma (xr 1 c) 28 0 := by
    show _ ⊢ iprop(ownAt (xr 1 c) (R4 0) ∗ (ownAt (xr 1 (xr 1 c)) (VE2 1 (xr 1 c)) ∗ reached ER (dcell (xr 1 (xr 1 c)) (agR 1 2)) 2))
    rw [xr_xr]; first | done | exact Entails.refl _
  have hpayR25 : iprop(ownAt (F := F) (xr 3 c) (R4 1) ∗ (ownAt c (VE1 0 (xr 3 c)) ∗ reached ER (dcell c (dsem 12)) 2)) ⊢ payDma (xr 3 c) 38 0 := by
    show _ ⊢ iprop(ownAt (xr 3 c) (R4 1) ∗ (ownAt (xr 3 (xr 3 c)) (VE1 0 (xr 3 c)) ∗ reached ER (dcell (xr 3 (xr 3 c)) (agR 0 1)) 2))
    rw [xr_xr]; first | done | exact Entails.refl _
  refine exists_elim fun K => ?_
  rw [QC_24_eq, core_eq, posAt_24, toks_seg_24, creds_seg_24, localBufs_eq,
    show (rsR 0 3 : DmaSem sig) = dsem 28 from by decide, show (rsR 1 3 : DmaSem sig) = dsem 38 from by decide]
  iintro ⟨⟨#HI, #HR, #Hlev, HatB, ⟨Ha8, Hr8, Ha9, Hr9, Ha10, Hr10, Ha11, Hr11, Ha12, #Hr12, Ha13, Hr13, Ha14, Hr14, Ha15, Hr15, Ha16, Hr16, Ha17, Hr17, Ha18, Hr18, Ha19, #Hr19, Ha20, Hr20, Ha21, Hr21, Ha22, Hr22, Ha23, Hr23, Ha24, Hr24, Ha25, Hr25, Ha26, Hr26, Ha27, Hr27, Ha28, Hr28, Ha29, Hr29, Ha30, Hr30, Ha31, Hr31, Ha32, Hr32, Ha33, Hr33, Ha34, Hr34, Ha35, Hr35, Ha36, Hr36, Ha37, Hr37, Ha38, Hr38, Ha39, Hr39⟩, ⟨⟨Ht23, Ht28⟩, ⟨Ht33, Ht38⟩, Htoks⟩, ⟨Hc28, Hc38, Hcreds⟩, ⟨%W, HO⟩, ⟨Hl0, Hl1, Hl2, Hl3, Hl4, Hl5, Hl6, Hl7, ⟨%a2, HS2⟩, ⟨%a3, HS3⟩, ⟨%b4, HS4⟩, ⟨%b5, HS5⟩, HS8, HS9⟩⟩, Hs0, Hs1, Hs6, Hs7, Hg1, Hg2, Hg3⟩
  unfold seg9
  rw [k0_part37_eq_skeleton, k0_part38_eq_skeleton]
  unfold k0_part37_skel k0_part38_skel
  simp only [Prog.lift, Prog.bind_op, Prog.bind_ret, Prog.pure_eq_ret, Prog.bind_assoc]
  unfold grant
  icases Hg1 with ⟨Hd1, #Hrp1⟩
  icases Hg2 with ⟨Hd2, #Hrp2⟩
  -- the slots of the gather buffers handed over for the next layer's second and third exchange
  ihave Hx := (heldBut_take_view (F := F) c (VE2 1 (xr 1 c)) _ hA1A2).1 $$ Hs1
  icases Hx with ⟨HV21, Hs1⟩
  ihave Hx := (heldBut_take_view_empty (F := F) c (VE1 0 (xr 3 c))).1 $$ Hs0
  icases Hx with ⟨HV10, Hs0⟩
  -- copy 24: the sums of stream 0 to the partner across mask 1
  ihave Hsp := (slice_split (F := F) c (SA 0) b4).1 $$ HS4
  icases Hsp with ⟨HSA0, HS4⟩
  iapply (wp_send_copy' (F := F) c (xr 1 c) _ (dev28_eq c) (SA 0) (R4 0) 23 28 0 25 _ _ sem_rs0s_3 sem_rs0r_3
      (by decide) (by decide) (by decide) (by decide) ((credit_R4 0).trans rfl) rfl
      (iprop(ownAt c (VE2 1 (xr 1 c)) ∗ reached ER (dcell c (dsem 19)) 2)) fullShare b4
      (ownAt_of c (SA 0) b4) hpayR24 K (owedFrom c 25) (owedFrom_succ c 24 (1, 28, 0) rfl) _ (Topo.routes_tc _ _)) $$ [HSA0 Hd1 HV21 HO Ht23 Hr23 Ht28]
  · isplitr; · iexact HI
    isplitl [HSA0]; · iexact HSA0
    isplitl [Hd1]; · iexact Hd1
    isplitl [HV21]
    · isplitl [HV21]; · iexact HV21
      iexact Hr19
    isplitl [HO]; · iexact HO
    isplitl [Ht23]; · iexact Ht23
    isplitl [Hr23]; · iexact Hr23
    isplitl [Ht28]; · iexact Ht28
    iexact Hrp1
  iintro ⟨Hc23, HO⟩
  -- the sums of stream 1 cast into its send buffer, and copy 25: to the partner across mask 3
  iapply (wp_load Variants.none (c : Thread nD τ) none Set.univ (Finset.subset_univ _)) $$ [HS3]
  · iexact HS3
  iintro HS3
  iapply (wp_load Variants.none (c : Thread nD τ) none Set.univ (Finset.subset_univ _)) $$ [HS5]
  · iexact HS5
  iintro HS5
  iapply (wp_store Variants.none (c : Thread nD τ) none Set.univ (Finset.subset_univ _)) $$ [HS5]
  · iexact HS5
  iintro HS5
  ihave HS5 := (ptw_ex (F := F) c cc0_scratch5 _) $$ HS5
  icases HS5 with ⟨%g5, HS5⟩
  ihave Hsp := (slice_split (F := F) c (SA 1) g5).1 $$ HS5
  icases Hsp with ⟨HSA1, HS5⟩
  iapply (wp_send_copy' (F := F) c (xr 3 c) _ (dev29_eq c) (SA 1) (R4 1) 33 38 0 26 _ _ sem_rs1s_3 sem_rs1r_3
      (by decide) (by decide) (by decide) (by decide) ((credit_R4 1).trans rfl) rfl
      (iprop(ownAt c (VE1 0 (xr 3 c)) ∗ reached ER (dcell c (dsem 12)) 2)) fullShare g5
      (ownAt_of c (SA 1) g5) hpayR25 K (owedFrom c 26) (owedFrom_succ c 25 (3, 38, 0) rfl) _ (Topo.routes_tc _ _)) $$ [HSA1 Hd2 HV10 HO Ht33 Hr33 Ht38]
  · isplitr; · iexact HI
    isplitl [HSA1]; · iexact HSA1
    isplitl [Hd2]; · iexact Hd2
    isplitl [HV10]
    · isplitl [HV10]; · iexact HV10
      iexact Hr12
    isplitl [HO]; · iexact HO
    isplitl [Ht33]; · iexact Ht33
    isplitl [Hr33]; · iexact Hr33
    isplitl [Ht38]; · iexact Ht38
    iexact Hrp2
  iintro ⟨Hc33, HO⟩
  -- the four waits
  simp only [sem_rs0s_3, sem_rs0r_3, sem_rs1s_3, sem_rs1r_3]
  ihave Hc23 := (Entails.of_eq (show (cred (tallyAt (dcell c (dsem 23)) 25 (amtDma 28 0)) : sProp 𝕄) = cred (tallyAt (dcell c (dsem 23)) 25 (amtDma 23 0)) from rfl)) $$ Hc23
  ihave Hc33 := (Entails.of_eq (show (cred (tallyAt (dcell c (dsem 33)) 26 (amtDma 38 0)) : sProp 𝕄) = cred (tallyAt (dcell c (dsem 33)) 26 (amtDma 33 0)) from rfl)) $$ Hc33
  ihave HM := (mayWait_copy (F := F) c (dsem 23) 24 26 (by omega) (by omega)) $$ Hlev
  iapply (wp_wait_copy (F := F) c 23 0 25 (by decide) (by decide) K (owedFrom c 26) _ (hw_waitDma2 c 23 0 ((credit_SA 0).trans rfl))) $$ [Hc23 HO HM Ha23]
  · isplitr; · iexact HI
    isplitl [Hc23]; · iexact Hc23
    isplitl [HO]; · iexact HO
    isplitl [HM]; · iexact HM
    iexact Ha23
  iintro ⟨HO, Ha23, Hr23, Hp23⟩
  ihave HM := (mayWait_copy (F := F) c (dsem 28) 24 26 (by omega) (by omega)) $$ Hlev
  iapply (wp_wait_copy (F := F) c 28 0 25 (by decide) (by decide) K (owedFrom c 26) _ (hw_waitDma2 c 28 0 ((credit_R4 0).trans rfl))) $$ [Hc28 HO HM Ha28]
  · isplitr; · iexact HI
    isplitl [Hc28]; · iexact Hc28
    isplitl [HO]; · iexact HO
    isplitl [HM]; · iexact HM
    iexact Ha28
  iintro ⟨HO, Ha28, Hr28, Hp28⟩
  ihave HM := (mayWait_copy (F := F) c (dsem 33) 25 26 (by omega) (by omega)) $$ Hlev
  iapply (wp_wait_copy (F := F) c 33 0 26 (by decide) (by decide) K (owedFrom c 26) _ (hw_waitDma2 c 33 0 ((credit_SA 1).trans rfl))) $$ [Hc33 HO HM Ha33]
  · isplitr; · iexact HI
    isplitl [Hc33]; · iexact Hc33
    isplitl [HO]; · iexact HO
    isplitl [HM]; · iexact HM
    iexact Ha33
  iintro ⟨HO, Ha33, Hr33, Hp33⟩
  ihave HM := (mayWait_copy (F := F) c (dsem 38) 25 26 (by omega) (by omega)) $$ Hlev
  iapply (wp_wait_copy (F := F) c 38 0 26 (by decide) (by decide) K (owedFrom c 26) _ (hw_waitDma2 c 38 0 ((credit_R4 1).trans rfl))) $$ [Hc38 HO HM Ha38]
  · isplitr; · iexact HI
    isplitl [Hc38]; · iexact Hc38
    isplitl [HO]; · iexact HO
    isplitl [HM]; · iexact HM
    iexact Ha38
  iintro ⟨HO, Ha38, Hr38, Hp38⟩
  ihave Hp28 := (Entails.of_eq (show payDma (F := F) c 28 0
      = iprop(ownAt c (R4 0) ∗ (ownAt (xr 1 c) (VE2 1 c) ∗ reached ER (dcell (xr 1 c) (agR 1 2)) 2)) from rfl)) $$ Hp28
  icases Hp28 with ⟨Hp28, Hg4⟩
  ihave Hp28 := (Entails.of_eq (ownAt_eq (F := F) c (R4 0))) $$ Hp28
  icases Hp28 with ⟨%r40, HR40⟩
  ihave Hp38 := (Entails.of_eq (show payDma (F := F) c 38 0
      = iprop(ownAt c (R4 1) ∗ (ownAt (xr 3 c) (VE1 0 c) ∗ reached ER (dcell (xr 3 c) (agR 0 1)) 2)) from rfl)) $$ Hp38
  icases Hp38 with ⟨Hp38, Hg5⟩
  ihave Hp38 := (Entails.of_eq (ownAt_eq (F := F) c (R4 1))) $$ Hp38
  icases Hp38 with ⟨%r41, HR41⟩
  -- the landed sums added to the own, the result cast into the own pair of blocks of the first gather buffer
  ihave Hs0 := (heldBut_elim (F := F) c cc0_scratch0 _) $$ Hs0
  icases Hs0 with ⟨%f0, Hs0⟩
  iapply (wp_load Variants.none (c : Thread nD τ) none Set.univ (Finset.subset_univ _)) $$ [HS2]
  · iexact HS2
  iintro HS2
  iapply (wp_load Variants.none (c : Thread nD τ) none Set.univ (sub_whole_slice cc0_scratch6 (Rect.unit (s := S1280x256) ![1024, 0] S256x256.size inb_S1280x256_S256x256_1024_0) (fun _ => rfl))) $$ [HR40]
  · iexact HR40
  iintro HR40
  iapply (wp_load Variants.none (c : Thread nD τ) none Set.univ (load_ok_but cc0_scratch0 _ _ hd17)) $$ [Hs0]
  · iexact Hs0
  iintro Hs0
  iapply (wp_store Variants.none (c : Thread nD τ) none Set.univ (store_ok_but cc0_scratch0 _ _ _ hd17)) $$ [Hs0]
  · iexact Hs0
  iintro Hs0
  iapply (wp_load Variants.none (c : Thread nD τ) none Set.univ (Finset.subset_univ _)) $$ [HS3]
  · iexact HS3
  iintro HS3
  iapply (wp_load Variants.none (c : Thread nD τ) none Set.univ (sub_whole_slice cc0_scratch7 (Rect.unit (s := S1280x256) ![1024, 0] S256x256.size inb_S1280x256_S256x256_1024_0) (fun _ => rfl))) $$ [HR41]
  · iexact HR41
  iintro HR41
  -- the quiet state after 26 copies
  rw [wp_ret]
  imodintro
  iexists K
  rw [QD_26_eq, core_eq, posAt_26, localBufs_eq]
  unfold grant
  ihave Hp23 := (Entails.of_eq (show payDma (F := F) c 23 0 = ownAt c (SA 0) from rfl)) $$ Hp23
  ihave HS4 := (slice_join_ownAt (F := F) c (SA 0) b4) $$ [Hp23 HS4]
  · isplitl [Hp23]; · iexact Hp23
    iexact HS4
  ihave Hp33 := (Entails.of_eq (show payDma (F := F) c 33 0 = ownAt c (SA 1) from rfl)) $$ Hp33
  ihave HS5 := (slice_join_ownAt (F := F) c (SA 1) g5) $$ [Hp33 HS5]
  · isplitl [Hp33]; · iexact Hp33
    iexact HS5
  ihave HR40 := (ownAt_of (F := F) c (R4 0) r40) $$ HR40
  ihave Hs6 := (heldBut_put_only (F := F) c (R4 0)) $$ [HR40 Hs6]
  · isplitl [HR40]; · iexact HR40
    iexact Hs6
  ihave HR41 := (ownAt_of (F := F) c (R4 1) r41) $$ HR41
  ihave Hs7 := (heldBut_put_only (F := F) c (R4 1)) $$ [HR41 Hs7]
  · isplitl [HR41]; · iexact HR41
    iexact Hs7
  ihave Hs0 := (heldBut_intro (F := F) c cc0_scratch0 (VE1 0 (xr 3 c)).view.set _) $$ Hs0
  isplitr [Hs0 Hs1 Hs6 Hs7 Hg5 Hg3 Hg4]
  · isplitr; · iexact HI
    isplitr; · iexact HR
    isplitr; · iexact Hlev
    isplitl [HatB]; · iexact HatB
    isplitl [Ha8 Hr8 Ha9 Hr9 Ha10 Hr10 Ha11 Hr11 Ha12 Ha13 Hr13 Ha14 Hr14 Ha15 Hr15 Ha16 Hr16 Ha17 Hr17 Ha18 Hr18 Ha19 Ha20 Hr20 Ha21 Hr21 Ha22 Hr22 Ha23 Hr23 Ha24 Hr24 Ha25 Hr25 Ha26 Hr26 Ha27 Hr27 Ha28 Hr28 Ha29 Hr29 Ha30 Hr30 Ha31 Hr31 Ha32 Hr32 Ha33 Hr33 Ha34 Hr34 Ha35 Hr35 Ha36 Hr36 Ha37 Hr37 Ha38 Hr38 Ha39 Hr39]
    · isplitl [Ha8]; · iexact Ha8
      isplitl [Hr8]; · iexact Hr8
      isplitl [Ha9]; · iexact Ha9
      isplitl [Hr9]; · iexact Hr9
      isplitl [Ha10]; · iexact Ha10
      isplitl [Hr10]; · iexact Hr10
      isplitl [Ha11]; · iexact Ha11
      isplitl [Hr11]; · iexact Hr11
      isplitl [Ha12]; · iexact Ha12
      isplitr; · iexact Hr12
      isplitl [Ha13]; · iexact Ha13
      isplitl [Hr13]; · iexact Hr13
      isplitl [Ha14]; · iexact Ha14
      isplitl [Hr14]; · iexact Hr14
      isplitl [Ha15]; · iexact Ha15
      isplitl [Hr15]; · iexact Hr15
      isplitl [Ha16]; · iexact Ha16
      isplitl [Hr16]; · iexact Hr16
      isplitl [Ha17]; · iexact Ha17
      isplitl [Hr17]; · iexact Hr17
      isplitl [Ha18]; · iexact Ha18
      isplitl [Hr18]; · iexact Hr18
      isplitl [Ha19]; · iexact Ha19
      isplitr; · iexact Hr19
      isplitl [Ha20]; · iexact Ha20
      isplitl [Hr20]; · iexact Hr20
      isplitl [Ha21]; · iexact Ha21
      isplitl [Hr21]; · iexact Hr21
      isplitl [Ha22]; · iexact Ha22
      isplitl [Hr22]; · iexact Hr22
      isplitl [Ha23]; · iexact Ha23
      isplitl [Hr23]; · iexact Hr23
      isplitl [Ha24]; · iexact Ha24
      isplitl [Hr24]; · iexact Hr24
      isplitl [Ha25]; · iexact Ha25
      isplitl [Hr25]; · iexact Hr25
      isplitl [Ha26]; · iexact Ha26
      isplitl [Hr26]; · iexact Hr26
      isplitl [Ha27]; · iexact Ha27
      isplitl [Hr27]; · iexact Hr27
      isplitl [Ha28]; · iexact Ha28
      isplitl [Hr28]; · iexact Hr28
      isplitl [Ha29]; · iexact Ha29
      isplitl [Hr29]; · iexact Hr29
      isplitl [Ha30]; · iexact Ha30
      isplitl [Hr30]; · iexact Hr30
      isplitl [Ha31]; · iexact Ha31
      isplitl [Hr31]; · iexact Hr31
      isplitl [Ha32]; · iexact Ha32
      isplitl [Hr32]; · iexact Hr32
      isplitl [Ha33]; · iexact Ha33
      isplitl [Hr33]; · iexact Hr33
      isplitl [Ha34]; · iexact Ha34
      isplitl [Hr34]; · iexact Hr34
      isplitl [Ha35]; · iexact Ha35
      isplitl [Hr35]; · iexact Hr35
      isplitl [Ha36]; · iexact Ha36
      isplitl [Hr36]; · iexact Hr36
      isplitl [Ha37]; · iexact Ha37
      isplitl [Hr37]; · iexact Hr37
      isplitl [Ha38]; · iexact Ha38
      isplitl [Hr38]; · iexact Hr38
      isplitl [Ha39]; · iexact Ha39
      iexact Hr39
    isplitl [Htoks]; · iexact Htoks
    isplitl [Hcreds]; · iexact Hcreds
    isplitl [HO]; · iexists _; iexact HO
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [HS2]; · iexists _; iexact HS2
    isplitl [HS3]; · iexists _; iexact HS3
    isplitl [HS4]; · iexact HS4
    isplitl [HS5]; · iexact HS5
    isplitl [HS8]; · iexact HS8
    iexact HS9
  isplitl [Hs0]; · iexact Hs0
  isplitl [Hs1]; · iexact Hs1
  isplitl [Hs6]; · iexact Hs6
  isplitl [Hs7]; · iexact Hs7
  isplitl [Hg5]; · iexact Hg5
  isplitl [Hg3]; · iexact Hg3
  iexact Hg4

/-- info: 'Cert.Kernel.Hand.seg9_ok' depends on axioms: [propext, Classical.choice, Quot.sound] -/
#guard_msgs in #print axioms seg9_ok

end Cert.Kernel.Hand

end
-- ==== Proof.Kernel.SegAB12.lean ====
/- The two half-block steps of the reduce in the last layer: the argument of segment 3 at this layer's round, the slot handed over with the
   last of the four copies being this layer's slot of the last reduce step. -/
import proofs.«900979_g7700000000000980_dist_mlpseq_tp1d_bs_bs_b256_d256_h512_v7x_i8_bf16_1_alg».proof.Proof.Kernel.SegAB

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open AB

variable {F : FTy → Type} [FloatOps F]

local notation "𝕄" => MT nD τ sig ℕ (Elt F) ℕ UU ℕ

set_option maxHeartbeats 4000000 in
theorem seg12_ok (c : Dev nD) : Spec12 (F := F) c := by
  intro v2 v1225 v1228 v1358 v1362 v1385 v1386 cst_1075
  -- what the local loads and stores need of the buffers held by parts
  have hin4 : (Memref.whole cc0_scratch4).view.setOn (Rect.unit (s := S512x256) ![256, 0] S256x256.size inb_S512x256_S256x256_256_0).set
      ⊆ (Finset.univ \ (SA 0).view.set : Finset (Idx ((SA 0).view.loc (c : Thread nD τ)))) := sndB_off_A 0
  have hin5 : (Memref.whole cc0_scratch5).view.setOn (Rect.unit (s := S512x256) ![256, 0] S256x256.size inb_S512x256_S256x256_256_0).set
      ⊆ (Finset.univ \ (SA 1).view.set : Finset (Idx ((SA 1).view.loc (c : Thread nD τ)))) := sndB_off_A 1
  have hR00 : (Memref.whole cc0_scratch6).view.setOn (Rect.unit (s := S1280x256) ![0, 0] S256x256.size inb_S1280x256_S256x256_0_0).set
      ⊆ (R0 0).view.set := (setOn_slice_eq cc0_scratch6 _ (fun _ => rfl)).subset
  have hR01 : (Memref.whole cc0_scratch7).view.setOn (Rect.unit (s := S1280x256) ![0, 0] S256x256.size inb_S1280x256_S256x256_0_0).set
      ⊆ (R0 1).view.set := (setOn_slice_eq cc0_scratch7 _ (fun _ => rfl)).subset
  have hR10 : (Memref.whole cc0_scratch6).view.setOn (Rect.unit (s := S1280x256) ![256, 0] S256x256.size inb_S1280x256_S256x256_256_0).set
      ⊆ (R1 0).view.set := (setOn_slice_eq cc0_scratch6 _ (fun _ => rfl)).subset
  have hR11 : (Memref.whole cc0_scratch7).view.setOn (Rect.unit (s := S1280x256) ![256, 0] S256x256.size inb_S1280x256_S256x256_256_0).set
      ⊆ (R1 1).view.set := (setOn_slice_eq cc0_scratch7 _ (fun _ => rfl)).subset
  have hst4 : ((Memref.whole cc0_scratch4).access (Rect.unit (s := S512x256) ![256, 0] S256x256.size inb_S512x256_S256x256_256_0)).setOn Finset.univ
      ⊆ (Finset.univ \ (SA 0).view.set : Finset (Idx ((SA 0).view.loc (c : Thread nD τ)))) := sndB_store_off_A 0
  have hst5 : ((Memref.whole cc0_scratch5).access (Rect.unit (s := S512x256) ![256, 0] S256x256.size inb_S512x256_S256x256_256_0)).setOn Finset.univ
      ⊆ (Finset.univ \ (SA 1).view.set : Finset (Idx ((SA 1).view.loc (c : Thread nD τ)))) := sndB_store_off_A 1
  have hdX : Disjoint ((R0 0).view.set ∪ (R1 0).view.set ∪ (R2 0).view.set) (R3h 0).view.set :=
    Finset.disjoint_union_left.mpr ⟨Finset.disjoint_union_left.mpr ⟨disj_R0_R3h 0, disj_R1_R3h 0⟩, disj_R2_R3h 0⟩
  have hd60 : Disjoint ((R2 0).view.set ∪ (R3h 0).view.set ∪ (R1 0).view.set) (R0 0).view.set :=
    Finset.disjoint_union_left.mpr ⟨Finset.disjoint_union_left.mpr ⟨(disj_R0_R2 0).symm, (disj_R0_R3h 0).symm⟩, (disj_R0_R1 0).symm⟩
  have hd61 : Disjoint ((R2 0).view.set ∪ (R3h 0).view.set) (R1 0).view.set :=
    Finset.disjoint_union_left.mpr ⟨(disj_R1_R2 0).symm, (disj_R1_R3h 0).symm⟩
  have hd70 : Disjoint ((R2 1).view.set ∪ (R1 1).view.set) (R0 1).view.set :=
    Finset.disjoint_union_left.mpr ⟨(disj_R0_R2 1).symm, (disj_R0_R1 1).symm⟩
  have hd71 : Disjoint (R2 1).view.set (R1 1).view.set := (disj_R1_R2 1).symm
  iintro ⟨%K, H⟩
  unfold QE2 core localBufs
  rw [heldBut_empty, heldBut_empty]
  icases H with ⟨⟨#HI, #HRA, #Hlev, Hbar, Hpos, Htoks, Hcreds, ⟨%W, HO⟩, ⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%a2, Ha2⟩, ⟨%a3, Ha3⟩, ⟨%a4, Ha4⟩, ⟨%a5, Ha5⟩, ⟨%a8, Ha8⟩, ⟨%a9, Ha9⟩⟩, ⟨%x0, Hx0⟩, ⟨%x1, Hx1⟩, Hr0, Hr1, Hg1, Hg2, Hg3, Hg4, Hg5⟩
  ihave Htoks := (toksAB_open c 30 34 2 _ drop_seg_30 rfl) $$ Htoks
  icases Htoks with ⟨⟨Ht6s, Ht6r⟩, ⟨Ht7s, Ht7r⟩, ⟨Ht8s, Ht8r⟩, ⟨Ht9s, Ht9r⟩, Htoks⟩
  ihave Hcreds := (credsAB_open c 30 31 32 33 34 2 _ drop_seg_30 rfl rfl rfl rfl) $$ Hcreds
  icases Hcreds with ⟨Hc6, Hc7, Hc8, Hc9, Hcreds⟩
  -- the positions on the eight cells of the four copies, and the rounds reached on the cells of the slots handed over
  ihave Hpos := (posAt_focus8' c (roundsDone 30) (roundsDone 34) (by decide) 2 2 1 1 rfl rfl rfl rfl rfl rfl rfl rfl rfl rfl rfl) $$ Hpos
  icases Hpos with ⟨⟨Hp20, #Hq20⟩, ⟨Hp24, #Hq24⟩, ⟨Hp25, #Hq25⟩, ⟨Hp29, #Hq29⟩, ⟨Hp30, #Hq30⟩, ⟨Hp34, #Hq34⟩, ⟨Hp35, #Hq35⟩, ⟨Hp39, #Hq39⟩, #Hq36, #Hq27, #Hq28, Hposback⟩
  ihave Hg1 := (grant_open _ _ _ _ 25 rsR_00) $$ Hg1
  icases Hg1 with ⟨Hd6, #Hrr6⟩
  ihave Hg2 := (grant_open _ _ _ _ 35 rsR_10) $$ Hg2
  icases Hg2 with ⟨Hd7, #Hrr7⟩
  ihave Hg3 := (grant_open _ _ _ _ 29 rsR_04) $$ Hg3
  icases Hg3 with ⟨Hd8, #Hrr8⟩
  ihave Hg4 := (grant_open _ _ _ _ 39 rsR_14) $$ Hg4
  icases Hg4 with ⟨Hd9, #Hrr9⟩
  unfold seg12
  sl_exec
  -- copy 30: SA 0 to R0 0 of the partner across 4
  ihave Hsp := (slice_split c (SA 0) _).1 $$ Ha4
  icases Hsp with ⟨Hsa0, Ha4⟩
  iapply (wp_send_copy' c (xr 4 c) _ (dev34_eq c) (SA 0) (R0 0) 20 25 2 31 _ _ sem_rs0s_0 sem_rs0r_0
      (by decide) (by decide) (by decide) (by decide)
      ((credit_R0 0).trans rfl) rfl (iprop(emp)) fullShare _ (ownAt_of c (SA 0) _)
      ((sep_emp (PROP := sProp 𝕄)).1)
      K (owedFrom c 31) (owedFrom_succ c 30 (4, 25, 2) rfl) _ (by routes)) $$ [Hsa0 Hd6 HO Ht6s Ht6r]
  · iframe ∗ #
  iintro ⟨Hcs6, HO⟩
  sl_exec
  -- copy 31: SA 1 to R0 1 of the partner across 1
  ihave Hsp := (slice_split c (SA 1) _).1 $$ Ha5
  icases Hsp with ⟨Hsa1, Ha5⟩
  iapply (wp_send_copy' c (xr 1 c) _ (dev35_eq c) (SA 1) (R0 1) 30 35 2 32 _ _ sem_rs1s_0 sem_rs1r_0
      (by decide) (by decide) (by decide) (by decide)
      ((credit_R0 1).trans rfl) rfl (iprop(emp)) fullShare _ (ownAt_of c (SA 1) _)
      ((sep_emp (PROP := sProp 𝕄)).1)
      K (owedFrom c 32) (owedFrom_succ c 31 (1, 35, 2) rfl) _ (by routes)) $$ [Hsa1 Hd7 HO Ht7s Ht7r]
  · iframe ∗ #
  iintro ⟨Hcs7, HO⟩
  sl_exec
  -- copy 32: SB 0 to R1 0 of the partner across 4
  ihave Hsp := (rest_split (disj_SA_SB 0) _).1 $$ Ha4
  icases Hsp with ⟨Hsb0, Ha4⟩
  -- the own slot for the partner's next copy to this device goes with it
  ihave Hr1 := (heldBut_take_view c (R2 1) _ (Finset.disjoint_union_left.mpr ⟨disj_R0_R2 1, disj_R1_R2 1⟩)).1 $$ Hr1
  icases Hr1 with ⟨Hown21, Hr1⟩
  iapply (wp_send_copy' c (xr 4 c) _ (dev36_eq c) (SB 0) (R1 0) 24 29 2 33 _ _ sem_rs0s_4 sem_rs0r_4
      (by decide) (by decide) (by decide) (by decide)
      ((credit_R1 0).trans rfl) rfl (iprop(ownAt c (R2 1) ∗ reached ER (dcell c (dsem 36)) 2)) fullShare _ (ownAt_of c (SB 0) _)
      (by
        rw [show payDma (F := F) (xr 4 c) 29 2 = iprop(ownAt (xr 4 c) (R1 0) ∗ (ownAt (xr 4 (xr 4 c)) (R2 1) ∗ reached ER (dcell (xr 4 (xr 4 c)) (rsR 1 1)) 2)) from rfl, xr_xr, rsR_11])
      K (owedFrom c 33) (owedFrom_succ c 32 (4, 29, 2) rfl) _ (by routes)) $$ [Hsb0 Hd8 Hown21 HO Ht8s Ht8r]
  · iframe ∗ #
  iintro ⟨Hcs8, HO⟩
  sl_exec
  -- copy 33: SB 1 to R1 1 of the partner across 1
  ihave Hsp := (rest_split (disj_SA_SB 1) _).1 $$ Ha5
  icases Hsp with ⟨Hsb1, Ha5⟩
  ihave Hr0 := (heldBut_take_view c (R3h 0) _ hdX).1 $$ Hr0
  icases Hr0 with ⟨HownX, Hr0⟩
  iapply (wp_send_copy' c (xr 1 c) _ (dev37_eq c) (SB 1) (R1 1) 34 39 2 34 _ _ sem_rs1s_4 sem_rs1r_4
      (by decide) (by decide) (by decide) (by decide)
      ((credit_R1 1).trans rfl) rfl (iprop(ownAt c (R3h 0) ∗ reached ER (dcell c (dsem 27)) 1)) fullShare _ (ownAt_of c (SB 1) _)
      (by
        rw [show payDma (F := F) (xr 1 c) 39 2 = iprop(ownAt (xr 1 c) (R1 1) ∗ (ownAt (xr 1 (xr 1 c)) (R3h 0) ∗ reached ER (dcell (xr 1 (xr 1 c)) (rsR 0 2)) 1)) from rfl, xr_xr, rsR_02])
      K (owedFrom c 34) (owedFrom_succ c 33 (1, 39, 2) rfl) _ (by routes)) $$ [Hsb1 Hd9 HownX HO Ht9s Ht9r]
  · iframe ∗ #
  iintro ⟨Hcs9, HO⟩
  sl_exec
  -- the wait on semaphore 20 (copy 30)
  ihave Hcs6 := (cred_amt _ _ (show amtDma 25 2 = amtDma 20 2 from rfl)) $$ Hcs6
  ihave Hmw := (mayWait_copy c (dsem 20) 30 34 (by decide) (by decide)) $$ Hlev
  iapply (wp_wait_copy c 20 2 31 (by decide) (by decide) K (owedFrom c 34) _ (hw_waitDma2' c 20 2 _ sem_rs0s_0 ((credit_SA 0).trans rfl))) $$ [Hcs6 HO Hmw Hp20]
  · iframe ∗ #
  iintro ⟨HO, Hp20, #Hn20, Hpay⟩
  ihave Hpay := (Entails.of_eq (show payDma (F := F) c 20 2 = ownAt c (SA 0) from rfl)) $$ Hpay
  icases Hpay with Hsa0
  sl_exec
  -- the wait on semaphore 25 (copy 30)
  ihave Hmw := (mayWait_copy c (dsem 25) 30 34 (by decide) (by decide)) $$ Hlev
  iapply (wp_wait_copy c 25 2 31 (by decide) (by decide) K (owedFrom c 34) _ (hw_waitDma2' c 25 2 _ sem_rs0r_0 ((credit_R0 0).trans rfl))) $$ [Hc6 HO Hmw Hp25]
  · iframe ∗ #
  iintro ⟨HO, Hp25, #Hn25, Hpay⟩
  ihave Hpay := (Entails.of_eq (show payDma (F := F) c 25 2 = iprop(∃ f, (R0 0).view.loc (c : Thread nD τ) ↦[(R0 0).view.set]{fullShare} f) from rfl)) $$ Hpay
  icases Hpay with ⟨%g00, HR00⟩
  sl_exec
  -- the wait on semaphore 30 (copy 31)
  ihave Hcs7 := (cred_amt _ _ (show amtDma 35 2 = amtDma 30 2 from rfl)) $$ Hcs7
  ihave Hmw := (mayWait_copy c (dsem 30) 31 34 (by decide) (by decide)) $$ Hlev
  iapply (wp_wait_copy c 30 2 32 (by decide) (by decide) K (owedFrom c 34) _ (hw_waitDma2' c 30 2 _ sem_rs1s_0 ((credit_SA 1).trans rfl))) $$ [Hcs7 HO Hmw Hp30]
  · iframe ∗ #
  iintro ⟨HO, Hp30, #Hn30, Hpay⟩
  ihave Hpay := (Entails.of_eq (show payDma (F := F) c 30 2 = ownAt c (SA 1) from rfl)) $$ Hpay
  icases Hpay with Hsa1
  sl_exec
  -- the wait on semaphore 35 (copy 31)
  ihave Hmw := (mayWait_copy c (dsem 35) 31 34 (by decide) (by decide)) $$ Hlev
  iapply (wp_wait_copy c 35 2 32 (by decide) (by decide) K (owedFrom c 34) _ (hw_waitDma2' c 35 2 _ sem_rs1r_0 ((credit_R0 1).trans rfl))) $$ [Hc7 HO Hmw Hp35]
  · iframe ∗ #
  iintro ⟨HO, Hp35, #Hn35, Hpay⟩
  ihave Hpay := (Entails.of_eq (show payDma (F := F) c 35 2 = iprop(∃ f, (R0 1).view.loc (c : Thread nD τ) ↦[(R0 1).view.set]{fullShare} f) from rfl)) $$ Hpay
  icases Hpay with ⟨%g01, HR01⟩
  sl_exec
  -- the wait on semaphore 24 (copy 32)
  ihave Hcs8 := (cred_amt _ _ (show amtDma 29 2 = amtDma 24 2 from rfl)) $$ Hcs8
  ihave Hmw := (mayWait_copy c (dsem 24) 32 34 (by decide) (by decide)) $$ Hlev
  iapply (wp_wait_copy c 24 2 33 (by decide) (by decide) K (owedFrom c 34) _ (hw_waitDma2' c 24 2 _ sem_rs0s_4 ((credit_SB 0).trans rfl))) $$ [Hcs8 HO Hmw Hp24]
  · iframe ∗ #
  iintro ⟨HO, Hp24, #Hn24, Hpay⟩
  ihave Hpay := (Entails.of_eq (show payDma (F := F) c 24 2 = ownAt c (SB 0) from rfl)) $$ Hpay
  icases Hpay with Hsb0
  sl_exec
  -- the wait on semaphore 29 (copy 32)
  ihave Hmw := (mayWait_copy c (dsem 29) 32 34 (by decide) (by decide)) $$ Hlev
  iapply (wp_wait_copy c 29 2 33 (by decide) (by decide) K (owedFrom c 34) _ (hw_waitDma2' c 29 2 _ sem_rs0r_4 ((credit_R1 0).trans rfl))) $$ [Hc8 HO Hmw Hp29]
  · iframe ∗ #
  iintro ⟨HO, Hp29, #Hn29, Hpay⟩
  ihave Hpay := (Entails.of_eq (show payDma (F := F) c 29 2 = iprop((∃ f, (R1 0).view.loc (c : Thread nD τ) ↦[(R1 0).view.set]{fullShare} f) ∗ grant (xr 4 c) (R2 1) (rsR 1 1) 2) from rfl)) $$ Hpay
  icases Hpay with ⟨⟨%g10, HR10⟩, Hgn1⟩
  sl_exec
  -- the wait on semaphore 34 (copy 33)
  ihave Hcs9 := (cred_amt _ _ (show amtDma 39 2 = amtDma 34 2 from rfl)) $$ Hcs9
  ihave Hmw := (mayWait_copy c (dsem 34) 33 34 (by decide) (by decide)) $$ Hlev
  iapply (wp_wait_copy c 34 2 34 (by decide) (by decide) K (owedFrom c 34) _ (hw_waitDma2' c 34 2 _ sem_rs1s_4 ((credit_SB 1).trans rfl))) $$ [Hcs9 HO Hmw Hp34]
  · iframe ∗ #
  iintro ⟨HO, Hp34, #Hn34, Hpay⟩
  ihave Hpay := (Entails.of_eq (show payDma (F := F) c 34 2 = ownAt c (SB 1) from rfl)) $$ Hpay
  icases Hpay with Hsb1
  sl_exec
  -- the wait on semaphore 39 (copy 33)
  ihave Hmw := (mayWait_copy c (dsem 39) 33 34 (by decide) (by decide)) $$ Hlev
  iapply (wp_wait_copy c 39 2 34 (by decide) (by decide) K (owedFrom c 34) _ (hw_waitDma2' c 39 2 _ sem_rs1r_4 ((credit_R1 1).trans rfl))) $$ [Hc9 HO Hmw Hp39]
  · iframe ∗ #
  iintro ⟨HO, Hp39, #Hn39, Hpay⟩
  ihave Hpay := (Entails.of_eq (show payDma (F := F) c 39 2 = iprop((∃ f, (R1 1).view.loc (c : Thread nD τ) ↦[(R1 1).view.set]{fullShare} f) ∗ grant (xr 1 c) (R3h 0) (rsR 0 2) 1) from rfl)) $$ Hpay
  icases Hpay with ⟨⟨%g11, HR11⟩, Hgn2⟩
  -- both send buffers whole again
  ihave Hsb0 := (Entails.of_eq (ownAt_eq c (SB 0))) $$ Hsb0
  icases Hsb0 with ⟨%h40, Hsb0⟩
  ihave Ha4 := (rest_join_at (disj_SA_SB 0) _ h40) $$ [Hsb0 Ha4]
  · iframe Hsb0 Ha4
  ihave Ha4 := (slice_join_ownAt c (SA 0) _) $$ [Hsa0 Ha4]
  · iframe Hsa0 Ha4
  icases Ha4 with ⟨%a4', Ha4⟩
  ihave Ha4 := (Entails.of_eq (show ((SA 0).view.loc (c : Thread nD τ) ↦{fullShare} a4' : sProp 𝕄) = ptw (F := F) c cc0_scratch4 a4' from rfl)) $$ Ha4
  ihave Hsb1 := (Entails.of_eq (ownAt_eq c (SB 1))) $$ Hsb1
  icases Hsb1 with ⟨%h50, Hsb1⟩
  ihave Ha5 := (rest_join_at (disj_SA_SB 1) _ h50) $$ [Hsb1 Ha5]
  · iframe Hsb1 Ha5
  ihave Ha5 := (slice_join_ownAt c (SA 1) _) $$ [Hsa1 Ha5]
  · iframe Hsa1 Ha5
  icases Ha5 with ⟨%a5', Ha5⟩
  ihave Ha5 := (Entails.of_eq (show ((SA 1).view.loc (c : Thread nD τ) ↦{fullShare} a5' : sProp 𝕄) = ptw (F := F) c cc0_scratch5 a5' from rfl)) $$ Ha5
  sl_exec
  sl_step
  iexists K
  irw [QAB_34_eq, core_eq, localBufs_eq, heldBut_empty, heldBut_empty]
  -- the positions, one round on
  ihave Hpos := Hposback $$ [Hp20 Hp24 Hp25 Hp29 Hp30 Hp34 Hp35 Hp39]
  · iframe ∗ #
  -- the receive buffers take back the landed slots
  ihave HR00 := (ownAt_of c (R0 0) _) $$ HR00
  ihave HR01 := (ownAt_of c (R0 1) _) $$ HR01
  ihave HR10 := (ownAt_of c (R1 0) _) $$ HR10
  ihave HR11 := (ownAt_of c (R1 1) _) $$ HR11
  ihave Hr0 := (heldBut_rot4 c _ _ _ _ _) $$ Hr0
  ihave Hr0 := (heldBut_put_right c (R0 0) _ hd60) $$ [HR00 Hr0]
  · iframe HR00 Hr0
  ihave Hr0 := (heldBut_put_right c (R1 0) _ hd61) $$ [HR10 Hr0]
  · iframe HR10 Hr0
  ihave Hr1 := (heldBut_rot3 c _ _ _ _) $$ Hr1
  ihave Hr1 := (heldBut_put_right c (R0 1) _ hd70) $$ [HR01 Hr1]
  · iframe HR01 Hr1
  ihave Hr1 := (heldBut_put_right c (R1 1) _ hd71) $$ [HR11 Hr1]
  · iframe HR11 Hr1
  -- every buffer at some contents
  ihave HO := (ex_owes _ _ _) $$ HO
  ihave Hs0 := (ex_ptw c cc0_stg0_0 _) $$ Hs0
  ihave Hs1 := (ex_ptw c cc0_stg1_0 _) $$ Hs1
  ihave Hs2 := (ex_ptw c cc0_stg2_0 _) $$ Hs2
  ihave Hs3 := (ex_ptw c cc0_stg3_0 _) $$ Hs3
  ihave Hs4 := (ex_ptw c cc0_stg4_0 _) $$ Hs4
  ihave Hs5 := (ex_ptw c cc0_stg5_0 _) $$ Hs5
  ihave Hs6 := (ex_ptw c cc0_stg6_0 _) $$ Hs6
  ihave Hs7 := (ex_ptw c cc0_stg7_0 _) $$ Hs7
  ihave Ha2 := (ex_ptw c cc0_scratch2 _) $$ Ha2
  ihave Ha3 := (ex_ptw c cc0_scratch3 _) $$ Ha3
  ihave Ha4 := (ex_ptw c cc0_scratch4 _) $$ Ha4
  ihave Ha5 := (ex_ptw c cc0_scratch5 _) $$ Ha5
  ihave Ha8 := (ex_ptw c cc0_scratch8 _) $$ Ha8
  ihave Ha9 := (ex_ptw c cc0_scratch9 _) $$ Ha9
  ihave Hx0 := (ex_ptw c cc0_scratch0 _) $$ Hx0
  ihave Hx1 := (ex_ptw c cc0_scratch1 _) $$ Hx1
  iframe ∗ #

/-- info: 'Cert.Kernel.Hand.seg12_ok' depends on axioms: [propext, Classical.choice, Quot.sound] -/
#guard_msgs in #print axioms seg12_ok

end Cert.Kernel.Hand
end
-- ==== Proof.Kernel.Seg14.lean ====
/- The last reduce step of the last layer (segment 14).

   Each stream sends the first 128 rows of its send buffer to the partner of the step, into the partner's 128-row
   receive slot, which the partner handed over before; nothing is handed over with these copies, the last of the
   body. The source rows are away from the enqueue to the send wait; the partner's rows land in the device's own
   128-row slot, which goes back into the receive buffer: after the four waits every buffer is whole and nothing
   is pending. -/
import proofs.«900979_g7700000000000980_dist_mlpseq_tp1d_bs_bs_b256_d256_h512_v7x_i8_bf16_1_alg».proof.Proof.Kernel.Specs
import proofs.«900979_g7700000000000980_dist_mlpseq_tp1d_bs_bs_b256_d256_h512_v7x_i8_bf16_1_alg».proof.Proof.Kernel.Steps
import proofs.«900979_g7700000000000980_dist_mlpseq_tp1d_bs_bs_b256_d256_h512_v7x_i8_bf16_1_alg».proof.Proof.Kernel.QuietLemmas

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig ℕ (Elt F) ℕ UU ℕ

/-! ## The receive semaphores of the last step by number -/

theorem s14_rsR_02 : (rsR 0 2 : DmaSem sig) = dsem 27 := by decide
theorem s14_rsR_12 : (rsR 1 2 : DmaSem sig) = dsem 37 := by decide

/-! ## What the landing hands the partner: the slot as written, nothing else -/

theorem s14_payR27 (c : Dev nD) : iprop(ownAt (F := F) (xr 1 c) (R3h 0) ∗ emp) ⊢ payDma (xr 1 c) 27 1 :=
  (sep_emp (PROP := sProp 𝕄)).1
theorem s14_payR37 (c : Dev nD) : iprop(ownAt (F := F) (xr 3 c) (R3h 1) ∗ emp) ⊢ payDma (xr 3 c) 37 1 :=
  (sep_emp (PROP := sProp 𝕄)).1

/-! ## Stream 0: the first 128 rows of the send buffer, the 128-row slot of the receive buffer -/

/-- The rows the copy sends, out of the whole send buffer. -/
theorem s14_cutH0 (c : Dev nD) (f : Buf (Elt F) ((Memref.whole cc0_scratch4).view.loc (c : Thread nD τ))) :
    ptw (F := F) c cc0_scratch4 f
      ⊢ iprop(((SH 0).view.loc (c : Thread nD τ) ↦[(SH 0).view.set]{fullShare} f)
          ∗ ((Memref.whole cc0_scratch4).view.loc (c : Thread nD τ) ↦[Finset.univ \ (SH 0).view.set]{fullShare} f)) :=
  (slice_split c (SH 0) f).1

/-- Back at the send wait, at whatever contents: the send buffer is whole. -/
theorem s14_joinH0 (c : Dev nD) (f : Buf (Elt F) ((Memref.whole cc0_scratch4).view.loc (c : Thread nD τ))) :
    iprop(ownAt (F := F) c (SH 0)
        ∗ ((Memref.whole cc0_scratch4).view.loc (c : Thread nD τ) ↦[Finset.univ \ (SH 0).view.set]{fullShare} f))
      ⊢ iprop(∃ h, ptw (F := F) c cc0_scratch4 h) :=
  slice_join_ownAt c (SH 0) f

/-- The landed slot goes back into the receive buffer: nothing of it is away. -/
theorem s14_put0 (c : Dev nD) :
    iprop(ownAt (F := F) c (R3h 0) ∗ heldBut c cc0_scratch6 (R3h 0).view.set) ⊢ iprop(∃ h, ptw (F := F) c cc0_scratch6 h) := by
  rw [← heldBut_empty]; exact heldBut_put_only c (R3h 0)
/-! ## Stream 1: the first 128 rows of the send buffer, the 128-row slot of the receive buffer -/

/-- The rows the copy sends, out of the whole send buffer. -/
theorem s14_cutH1 (c : Dev nD) (f : Buf (Elt F) ((Memref.whole cc0_scratch5).view.loc (c : Thread nD τ))) :
    ptw (F := F) c cc0_scratch5 f
      ⊢ iprop(((SH 1).view.loc (c : Thread nD τ) ↦[(SH 1).view.set]{fullShare} f)
          ∗ ((Memref.whole cc0_scratch5).view.loc (c : Thread nD τ) ↦[Finset.univ \ (SH 1).view.set]{fullShare} f)) :=
  (slice_split c (SH 1) f).1

/-- Back at the send wait, at whatever contents: the send buffer is whole. -/
theorem s14_joinH1 (c : Dev nD) (f : Buf (Elt F) ((Memref.whole cc0_scratch5).view.loc (c : Thread nD τ))) :
    iprop(ownAt (F := F) c (SH 1)
        ∗ ((Memref.whole cc0_scratch5).view.loc (c : Thread nD τ) ↦[Finset.univ \ (SH 1).view.set]{fullShare} f))
      ⊢ iprop(∃ h, ptw (F := F) c cc0_scratch5 h) :=
  slice_join_ownAt c (SH 1) f

/-- The landed slot goes back into the receive buffer: nothing of it is away. -/
theorem s14_put1 (c : Dev nD) :
    iprop(ownAt (F := F) c (R3h 1) ∗ heldBut c cc0_scratch7 (R3h 1).view.set) ⊢ iprop(∃ h, ptw (F := F) c cc0_scratch7 h) := by
  rw [← heldBut_empty]; exact heldBut_put_only c (R3h 1)

/-- A whole buffer at some contents; what is owed under some set of waits. -/
theorem s14_some (c : Dev nD) (b : Ref sig .tc) (f : Buf (Elt F) ((Memref.whole b).view.loc (c : Thread nD τ))) :
    ptw (F := F) c b f ⊢ iprop(∃ h, ptw (F := F) c b h) :=
  exists_intro (Φ := fun h => ptw (F := F) c b h) f
theorem s14_someW (c : Dev nD) (n : ℕ) (W : Waits sig ℕ) :
    (owes (c : Thread nD τ) (owedFrom c n) W : sProp 𝕄) ⊢ iprop(∃ W, owes (c : Thread nD τ) (owedFrom c n) W) :=
  exists_intro (Φ := fun W => (owes (c : Thread nD τ) (owedFrom c n) W : sProp 𝕄)) W

/-! ## The two protocol steps as the program spells them

    The program names the partner by its printed device chain and the semaphores by their printed slices; each is
    equal to the protocol's partner and numbered semaphore. -/

/-- The copy rule at the printed partner and semaphores. -/
theorem s14_send (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt F) (src.view.loc (c : Thread nD τ)))
    (hpayS : (src.view.loc (c : Thread nD τ) ↦[src.view.set]{q} fs : sProp 𝕄) ⊢ payDma c js r)
    (hpayR : iprop(ownAt (F := F) p dst ∗ G) ⊢ payDma p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt F) Λ₀ .tc) α}
    (hroute : τ.routes (c : Thread nD τ) (p : Thread nD τ) = true) :
    iprop(invsAll (F := F) K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (p' : Thread nD τ) dst (.dma sS) hsc) (.dma sR) hsrc hdst hsem) k) Q) := by
  subst hp hsS hsR
  exact wp_send_copy c p' src dst js jr r ι hjs hjr hrs hrr hN hNs G q fs hpayS hpayR K O hO W hroute

/-- The wait for copy `k` (credit index `ι = k + 1`) on cell `j`, when `n > k` copies are issued: everything still
    owed sits above it. The owner comes back one round on with what the landing hands over. -/
theorem s14_wait (c : Dev nD) (j r r' ι k n a : ℕ) (sW : DmaSem sig) (hsW : sW = dsem j) (hj : j < 40) (hr : r < nRounds j)
    (hr' : r' = r + 1) (hι : ι = k + 1) (ha : a = amtDma j r) (hk : k < n) (hn : n ≤ 38)
    (P : sProp 𝕄) (hP : payDma (F := F) c j r = P) (K : GSem nD τ sig → ℕ) (W : Waits sig ℕ)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = amtDma j r)
    {α : Type} {Q : α → sProp 𝕄} {kk : PUnit → Prog (TpuEff nD τ sig (Elt F) Λ₀ .tc) α} :
    iprop(invsAll (F := F) K ∗ levAts L lv ∗ cred (tallyAt (dcell c (dsem j)) ι a) ∗ owes (c : Thread nD τ) (owedFrom c n) W
        ∗ atPos ER (dcell c (dsem j)) r ∅ 0)
      ⊢ iprop(((owes (c : Thread nD τ) (owedFrom c n) (insert (.dma (dsem j), ι) W) ∗ atPos ER (dcell c (dsem j)) r' ∅ 0
              ∗ reached ER (dcell c (dsem j)) r' ∗ P)
            -∗ wp frame (wpE (defs₀ (F := F)) Variants.none (c : Thread nD τ) none) Set.univ (kk ⟨⟩) Q)
          -∗ wp frame (wpE (defs₀ (F := F)) Variants.none (c : Thread nD τ) none) Set.univ
              (.op (.waitDma2 sW src dst hsrc hdst) kk) Q) := by
  subst hsW hr' hι ha hP
  iintro ⟨#HI, #Hlev, Hc, HO, Hat⟩
  iapply (wp_wait_copy (F := F) c j r (k + 1) hj hr K (owedFrom c n) W (hw_waitDma2 c j r hN)) $$ [Hc HO Hat]
  isplitr
  · iexact HI
  isplitl [Hc]
  · iexact Hc
  isplitl [HO]
  · iexact HO
  isplitr
  · iapply (mayWait_copy (F := F) c (dsem j) k n hk hn)
    iexact Hlev
  iexact Hat

set_option maxHeartbeats 4000000 in
theorem seg14_ok (c : Dev nD) : Spec14 (F := F) c := by
  intro v2 v1657 v1659 v1661
  have hroute1 : τ.routes (c : Thread nD τ) (xr 1 c : Thread nD τ) = true := by revert c; decide +kernel
  have hroute3 : τ.routes (c : Thread nD τ) (xr 3 c : Thread nD τ) = true := by revert c; decide +kernel
  refine exists_elim fun K => ?_
  rw [QC_36_eq, core_eq, posAt_36, toks_seg_36, creds_seg_36, localBufs_eq, heldBut_empty, heldBut_empty, grant_eq, grant_eq,
    s14_rsR_02, s14_rsR_12]
  unfold seg14
  rw [k0_part54_eq_skeleton, k0_part55_eq_skeleton]
  unfold k0_part54_skel k0_part55_skel
  simp only [Prog.lift, Prog.bind_op, Prog.bind_ret, Prog.pure_eq_ret, Prog.bind_assoc]
  iintro ⟨⟨#HI, #HR, #Hlev, HatB, ⟨Ha8, #Hr8, Ha9, #Hr9, Ha10, #Hr10, Ha11, #Hr11, Ha12, #Hr12, Ha13, #Hr13, Ha14, #Hr14, Ha15, #Hr15, Ha16, #Hr16, Ha17, #Hr17, Ha18, #Hr18, Ha19, #Hr19, Ha20, #Hr20, Ha21, #Hr21, Ha22, #Hr22, Ha23, #Hr23, Ha24, #Hr24, Ha25, #Hr25, Ha26, #Hr26, Ha27, #Hr27, Ha28, #Hr28, Ha29, #Hr29, Ha30, #Hr30, Ha31, #Hr31, Ha32, #Hr32, Ha33, #Hr33, Ha34, #Hr34, Ha35, #Hr35, Ha36, #Hr36, Ha37, #Hr37, Ha38, #Hr38, Ha39, #Hr39⟩, ⟨⟨Ht22, Ht27⟩, ⟨Ht32, Ht37⟩, Htoks⟩, ⟨Hc27, Hc37, Hcreds⟩, ⟨%W, HO⟩, ⟨Hl0, Hl1, Hl2, Hl3, Hl4, Hl5, Hl6, ⟨%w7, Hl7⟩, ⟨%a2, HS2⟩, ⟨%a3, HS3⟩, ⟨%a4, HS4⟩, ⟨%a5, HS5⟩, HS8, HS9⟩⟩, Hs0, Hs1, Hs6, Hs7, ⟨Hd36, #Hrp36⟩, ⟨Hd37, #Hrp37⟩, He⟩
  -- the first stream's 128 rows, to the partner across 1
  ihave Hx := (s14_cutH0 (F := F) c a4) $$ HS4
  icases Hx with ⟨HsH0, HS4⟩
  iapply (s14_send (F := F) c (xr 1 c) _ (dev40_eq c) (SH 0) (R3h 0) 22 27 1 37 _ _ sem_rs0s_2 sem_rs0r_2
      (by decide) (by decide) (by decide) (by decide) (credit_R3h 0) rfl (iprop(emp)) fullShare a4 (ownAt_of c (SH 0) a4)
      (s14_payR27 c) K (owedFrom c 37) (owedFrom_succ c 36 (1, 27, 1) rfl) W hroute1) $$ [HsH0 Hd36 HO Ht22 Ht27]
  · iframe ∗ #
  iintro ⟨Hcs36, HO⟩
  -- the second stream's rows are cast and stored, then sent to the partner across 3
  sl_exec
  ihave Hx := (s14_cutH1 (F := F) c _) $$ HS5
  icases Hx with ⟨HsH1, HS5⟩
  iapply (s14_send (F := F) c (xr 3 c) _ (dev41_eq c) (SH 1) (R3h 1) 32 37 1 38 _ _ sem_rs1s_2 sem_rs1r_2
      (by decide) (by decide) (by decide) (by decide) ((credit_R3h 1).trans rfl) rfl (iprop(emp)) fullShare _ (ownAt_of c (SH 1) _)
      (s14_payR37 c) K (owedFrom c 38) (owedFrom_succ c 37 (3, 37, 1) rfl) W hroute3) $$ [HsH1 Hd37 HO Ht32 Ht37]
  · iframe ∗ #
  iintro ⟨Hcs37, HO⟩
  -- the first stream's copy: its source rows come back, then the partner's rows have landed
  iapply (s14_wait (F := F) c 22 1 2 37 36 38 (amtDma 27 1) _ sem_rs0s_2 (by decide) (by decide) rfl rfl rfl
      (by decide) (by decide) (ownAt c (SH 0)) rfl K _ ((credit_SH 0).trans rfl)) $$ [Hcs36 HO Ha22]
  · iframe ∗ #
  iintro ⟨HO, Ha22, #Hr22', HbH0⟩
  iapply (s14_wait (F := F) c 27 1 2 37 36 38 (amtDma 27 1) _ sem_rs0r_2 (by decide) (by decide) rfl rfl rfl
      (by decide) (by decide) (ownAt c (R3h 0)) rfl K _ (credit_R3h 0)) $$ [Hc27 HO Ha27]
  · iframe ∗ #
  iintro ⟨HO, Ha27, #Hr27', Hland0⟩
  -- the second stream's
  iapply (s14_wait (F := F) c 32 1 2 38 37 38 (amtDma 37 1) _ sem_rs1s_2 (by decide) (by decide) rfl rfl rfl
      (by decide) (by decide) (ownAt c (SH 1)) rfl K _ ((credit_SH 1).trans rfl)) $$ [Hcs37 HO Ha32]
  · iframe ∗ #
  iintro ⟨HO, Ha32, #Hr32', HbH1⟩
  iapply (s14_wait (F := F) c 37 1 2 38 37 38 (amtDma 37 1) _ sem_rs1r_2 (by decide) (by decide) rfl rfl rfl
      (by decide) (by decide) (ownAt c (R3h 1)) rfl K _ ((credit_R3h 1).trans rfl)) $$ [Hc37 HO Ha37]
  · iframe ∗ #
  iintro ⟨HO, Ha37, #Hr37', Hland1⟩
  -- every buffer is whole again
  ihave HS4 := (s14_joinH0 (F := F) c _) $$ [HbH0 HS4]
  · iframe ∗ #
  ihave HS5 := (s14_joinH1 (F := F) c _) $$ [HbH1 HS5]
  · iframe ∗ #
  ihave Hs6 := (s14_put0 (F := F) c) $$ [Hland0 Hs6]
  · iframe ∗ #
  ihave Hs7 := (s14_put1 (F := F) c) $$ [Hland1 Hs7]
  · iframe ∗ #
  icases Hs6 with ⟨%g6, Hs6⟩
  -- the landed rows are added and stored into the result's window
  sl_exec
  -- nothing is pending
  rw [wp_ret]; imodintro
  iexists K
  rw [Q38_eq, core_eq, posAt_38, localBufs_eq, heldBut_empty, heldBut_empty, heldBut_empty, heldBut_empty]
  ihave Hl7 := (s14_some (F := F) c cc0_stg7_0 _) $$ Hl7
  ihave HS2 := (s14_some (F := F) c cc0_scratch2 _) $$ HS2
  ihave HS3 := (s14_some (F := F) c cc0_scratch3 _) $$ HS3
  ihave Hs6 := (s14_some (F := F) c cc0_scratch6 _) $$ Hs6
  ihave HO := (s14_someW (F := F) c 38 _) $$ HO
  iframe ∗ #

/-- info: 'Cert.Kernel.Hand.seg14_ok' depends on axioms: [propext, Classical.choice, Quot.sound] -/
#guard_msgs in #print axioms seg14_ok

end Cert.Kernel.Hand

end
-- ==== Proof.Kernel.Seg15.lean ====
/- The last segment of the body: the final loads and the store of the result, the 32 cells closed and their counters
   handed back, the buffers re-packed as the launch takes them. -/
import proofs.«900979_g7700000000000980_dist_mlpseq_tp1d_bs_bs_b256_d256_h512_v7x_i8_bf16_1_alg».proof.Proof.Kernel.State
import proofs.«900979_g7700000000000980_dist_mlpseq_tp1d_bs_bs_b256_d256_h512_v7x_i8_bf16_1_alg».proof.Proof.Kernel.Specs
import proofs.«900979_g7700000000000980_dist_mlpseq_tp1d_bs_bs_b256_d256_h512_v7x_i8_bf16_1_alg».proof.Proof.Kernel.Steps

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.Tactic

omit [FloatOps F] in
/-- Nothing lent: the buffer is whole. -/
theorem heldBut_empty_eq (c : Dev nD) (b : Ref sig .tc) : heldBut (F := F) c b ∅ = iprop(∃ f, ptw (F := F) c b f) := by
  unfold heldBut
  simp only [Finset.sdiff_empty]

/-- A DMA cell all of whose rounds are consumed closes: its counter, at zero, is the device's again. -/
theorem close_dma (K : GSem nD τ sig → ℕ) (c : Dev nD) (j R : ℕ) (hj8 : 8 ≤ j) (hj : j < 40) (hR : nRounds j ≤ R) :
    iprop(invsAll (F := F) K ∗ atPos ER (dcell c (dsem j)) R ∅ 0) ⊢ iprop(|={Set.univ}=> semVal (dcell c (dsem j)) 0) := by
  iintro ⟨#HI, Hat⟩
  iapply (Rounds.cell_close ER (sched (F := F)) (Set.mem_univ (K (dcell c (dsem j)))) (fun h => h) (R := R)
    (fun r hr => duties_dma_later c j r hj (le_trans hR hr)))
  isplitr
  · iapply (invs_dma K c j hj8 hj); iexact HI
  · iexact Hat

omit [FloatOps F] in
/-- The 32 counters, one by one. -/
theorem sems_eq (c : Dev nD) :
    (bigSep (Finset.univ : Finset (Fin 32)) fun k => (semVal (dcell c (dsem (k.val + 8))) 0 : sProp 𝕄))
      = iprop(semVal (dcell c (dsem 8)) 0 ∗ semVal (dcell c (dsem 9)) 0 ∗ semVal (dcell c (dsem 10)) 0 ∗ semVal (dcell c (dsem 11)) 0 ∗ semVal (dcell c (dsem 12)) 0 ∗ semVal (dcell c (dsem 13)) 0 ∗ semVal (dcell c (dsem 14)) 0 ∗ semVal (dcell c (dsem 15)) 0 ∗ semVal (dcell c (dsem 16)) 0 ∗ semVal (dcell c (dsem 17)) 0 ∗ semVal (dcell c (dsem 18)) 0 ∗ semVal (dcell c (dsem 19)) 0 ∗ semVal (dcell c (dsem 20)) 0 ∗ semVal (dcell c (dsem 21)) 0 ∗ semVal (dcell c (dsem 22)) 0 ∗ semVal (dcell c (dsem 23)) 0 ∗ semVal (dcell c (dsem 24)) 0 ∗ semVal (dcell c (dsem 25)) 0 ∗ semVal (dcell c (dsem 26)) 0 ∗ semVal (dcell c (dsem 27)) 0 ∗ semVal (dcell c (dsem 28)) 0 ∗ semVal (dcell c (dsem 29)) 0 ∗ semVal (dcell c (dsem 30)) 0 ∗ semVal (dcell c (dsem 31)) 0 ∗ semVal (dcell c (dsem 32)) 0 ∗ semVal (dcell c (dsem 33)) 0 ∗ semVal (dcell c (dsem 34)) 0 ∗ semVal (dcell c (dsem 35)) 0 ∗ semVal (dcell c (dsem 36)) 0 ∗ semVal (dcell c (dsem 37)) 0 ∗ semVal (dcell c (dsem 38)) 0 ∗ semVal (dcell c (dsem 39)) 0) :=
  bigSep_univ_eq_bigSepL [(0 : Fin 32), (1 : Fin 32), (2 : Fin 32), (3 : Fin 32), (4 : Fin 32), (5 : Fin 32), (6 : Fin 32), (7 : Fin 32), (8 : Fin 32), (9 : Fin 32), (10 : Fin 32), (11 : Fin 32), (12 : Fin 32), (13 : Fin 32), (14 : Fin 32), (15 : Fin 32), (16 : Fin 32), (17 : Fin 32), (18 : Fin 32), (19 : Fin 32), (20 : Fin 32), (21 : Fin 32), (22 : Fin 32), (23 : Fin 32), (24 : Fin 32), (25 : Fin 32), (26 : Fin 32), (27 : Fin 32), (28 : Fin 32), (29 : Fin 32), (30 : Fin 32), (31 : Fin 32)] (by decide) (by decide) _

omit [FloatOps F] in
/-- A window's staging buffer held whole, as the pipeline takes it back: at some contents, nothing claimed of them. -/
theorem win_close (c : Dev nD) (b : Ref sig .tc) (f : Buf (Elt F) ((Memref.whole b).view.loc (c : Thread nD τ))) :
    ptw (F := F) c b f ⊢ iprop(∃ X, ⌜True⌝ ∗ owns (Ix := ℕ) (Name := ℕ) (U := UU) (Lvl := ℕ) (c : Thread nD τ) (Memref.whole b) fullShare X) := by
  iintro H
  iexists ((Memref.whole b).view.read (Elt F) f)
  isplitr
  · ipureintro <;> trivial
  unfold owns
  iexists f
  isplitr
  · ipureintro; rfl
  rw [show (Memref.whole b).view.set = Finset.univ from by rw [Memref.view_whole]; exact View.set_whole _]
  iexact H

set_option maxHeartbeats 1600000 in
theorem seg15_ok (m : (ℓ : Loc nD τ sig) → Buf (Elt F) ℓ) (c : Dev nD) : Spec15 (F := F) m c := by
  unfold Spec15 Q38 core localBufs posAt
  rw [heldBut_empty_eq, heldBut_empty_eq, heldBut_empty_eq, heldBut_empty_eq]
  iintro ⟨%K, ⟨#HI, #Hr, #Hlev, HatB, ⟨Hp8, #Hq8, Hp9, #Hq9, Hp10, #Hq10, Hp11, #Hq11, Hp12, #Hq12, Hp13, #Hq13, Hp14, #Hq14, Hp15, #Hq15, Hp16, #Hq16, Hp17, #Hq17, Hp18, #Hq18, Hp19, #Hq19, Hp20, #Hq20, Hp21, #Hq21, Hp22, #Hq22, Hp23, #Hq23, Hp24, #Hq24, Hp25, #Hq25, Hp26, #Hq26, Hp27, #Hq27, Hp28, #Hq28, Hp29, #Hq29, Hp30, #Hq30, Hp31, #Hq31, Hp32, #Hq32, Hp33, #Hq33, Hp34, #Hq34, Hp35, #Hq35, Hp36, #Hq36, Hp37, #Hq37, Hp38, #Hq38, Hp39, #Hq39⟩, Htoks, Hcreds, ⟨%W, HO⟩, ⟨%fw0, Hw0⟩, ⟨%fw1, Hw1⟩, ⟨%fw2, Hw2⟩, ⟨%fw3, Hw3⟩, ⟨%fw4, Hw4⟩, ⟨%fw5, Hw5⟩, ⟨%fw6, Hw6⟩, ⟨%fw7, Hw7⟩, ⟨%fa0, Ha0⟩, ⟨%fa1, Ha1⟩, ⟨%fs0, Hs0⟩, ⟨%fs1, Hs1⟩, ⟨%fb0, Hb0⟩, ⟨%fb1, Hb1⟩⟩, ⟨%x0, Hx0⟩, ⟨%x1, Hx1⟩, ⟨%y0, Hy0⟩, ⟨%y1, Hy1⟩⟩
  unfold seg15
  sl_exec
  imod (close_dma (F := F) K c 8 (roundsDone 38 8) (by decide) (by decide) (by decide)) $$ [Hp8] with Hz8
  · isplitr; · iexact HI
    iexact Hp8
  imod (close_dma (F := F) K c 9 (roundsDone 38 9) (by decide) (by decide) (by decide)) $$ [Hp9] with Hz9
  · isplitr; · iexact HI
    iexact Hp9
  imod (close_dma (F := F) K c 10 (roundsDone 38 10) (by decide) (by decide) (by decide)) $$ [Hp10] with Hz10
  · isplitr; · iexact HI
    iexact Hp10
  imod (close_dma (F := F) K c 11 (roundsDone 38 11) (by decide) (by decide) (by decide)) $$ [Hp11] with Hz11
  · isplitr; · iexact HI
    iexact Hp11
  imod (close_dma (F := F) K c 12 (roundsDone 38 12) (by decide) (by decide) (by decide)) $$ [Hp12] with Hz12
  · isplitr; · iexact HI
    iexact Hp12
  imod (close_dma (F := F) K c 13 (roundsDone 38 13) (by decide) (by decide) (by decide)) $$ [Hp13] with Hz13
  · isplitr; · iexact HI
    iexact Hp13
  imod (close_dma (F := F) K c 14 (roundsDone 38 14) (by decide) (by decide) (by decide)) $$ [Hp14] with Hz14
  · isplitr; · iexact HI
    iexact Hp14
  imod (close_dma (F := F) K c 15 (roundsDone 38 15) (by decide) (by decide) (by decide)) $$ [Hp15] with Hz15
  · isplitr; · iexact HI
    iexact Hp15
  imod (close_dma (F := F) K c 16 (roundsDone 38 16) (by decide) (by decide) (by decide)) $$ [Hp16] with Hz16
  · isplitr; · iexact HI
    iexact Hp16
  imod (close_dma (F := F) K c 17 (roundsDone 38 17) (by decide) (by decide) (by decide)) $$ [Hp17] with Hz17
  · isplitr; · iexact HI
    iexact Hp17
  imod (close_dma (F := F) K c 18 (roundsDone 38 18) (by decide) (by decide) (by decide)) $$ [Hp18] with Hz18
  · isplitr; · iexact HI
    iexact Hp18
  imod (close_dma (F := F) K c 19 (roundsDone 38 19) (by decide) (by decide) (by decide)) $$ [Hp19] with Hz19
  · isplitr; · iexact HI
    iexact Hp19
  imod (close_dma (F := F) K c 20 (roundsDone 38 20) (by decide) (by decide) (by decide)) $$ [Hp20] with Hz20
  · isplitr; · iexact HI
    iexact Hp20
  imod (close_dma (F := F) K c 21 (roundsDone 38 21) (by decide) (by decide) (by decide)) $$ [Hp21] with Hz21
  · isplitr; · iexact HI
    iexact Hp21
  imod (close_dma (F := F) K c 22 (roundsDone 38 22) (by decide) (by decide) (by decide)) $$ [Hp22] with Hz22
  · isplitr; · iexact HI
    iexact Hp22
  imod (close_dma (F := F) K c 23 (roundsDone 38 23) (by decide) (by decide) (by decide)) $$ [Hp23] with Hz23
  · isplitr; · iexact HI
    iexact Hp23
  imod (close_dma (F := F) K c 24 (roundsDone 38 24) (by decide) (by decide) (by decide)) $$ [Hp24] with Hz24
  · isplitr; · iexact HI
    iexact Hp24
  imod (close_dma (F := F) K c 25 (roundsDone 38 25) (by decide) (by decide) (by decide)) $$ [Hp25] with Hz25
  · isplitr; · iexact HI
    iexact Hp25
  imod (close_dma (F := F) K c 26 (roundsDone 38 26) (by decide) (by decide) (by decide)) $$ [Hp26] with Hz26
  · isplitr; · iexact HI
    iexact Hp26
  imod (close_dma (F := F) K c 27 (roundsDone 38 27) (by decide) (by decide) (by decide)) $$ [Hp27] with Hz27
  · isplitr; · iexact HI
    iexact Hp27
  imod (close_dma (F := F) K c 28 (roundsDone 38 28) (by decide) (by decide) (by decide)) $$ [Hp28] with Hz28
  · isplitr; · iexact HI
    iexact Hp28
  imod (close_dma (F := F) K c 29 (roundsDone 38 29) (by decide) (by decide) (by decide)) $$ [Hp29] with Hz29
  · isplitr; · iexact HI
    iexact Hp29
  imod (close_dma (F := F) K c 30 (roundsDone 38 30) (by decide) (by decide) (by decide)) $$ [Hp30] with Hz30
  · isplitr; · iexact HI
    iexact Hp30
  imod (close_dma (F := F) K c 31 (roundsDone 38 31) (by decide) (by decide) (by decide)) $$ [Hp31] with Hz31
  · isplitr; · iexact HI
    iexact Hp31
  imod (close_dma (F := F) K c 32 (roundsDone 38 32) (by decide) (by decide) (by decide)) $$ [Hp32] with Hz32
  · isplitr; · iexact HI
    iexact Hp32
  imod (close_dma (F := F) K c 33 (roundsDone 38 33) (by decide) (by decide) (by decide)) $$ [Hp33] with Hz33
  · isplitr; · iexact HI
    iexact Hp33
  imod (close_dma (F := F) K c 34 (roundsDone 38 34) (by decide) (by decide) (by decide)) $$ [Hp34] with Hz34
  · isplitr; · iexact HI
    iexact Hp34
  imod (close_dma (F := F) K c 35 (roundsDone 38 35) (by decide) (by decide) (by decide)) $$ [Hp35] with Hz35
  · isplitr; · iexact HI
    iexact Hp35
  imod (close_dma (F := F) K c 36 (roundsDone 38 36) (by decide) (by decide) (by decide)) $$ [Hp36] with Hz36
  · isplitr; · iexact HI
    iexact Hp36
  imod (close_dma (F := F) K c 37 (roundsDone 38 37) (by decide) (by decide) (by decide)) $$ [Hp37] with Hz37
  · isplitr; · iexact HI
    iexact Hp37
  imod (close_dma (F := F) K c 38 (roundsDone 38 38) (by decide) (by decide) (by decide)) $$ [Hp38] with Hz38
  · isplitr; · iexact HI
    iexact Hp38
  imod (close_dma (F := F) K c 39 (roundsDone 38 39) (by decide) (by decide) (by decide)) $$ [Hp39] with Hz39
  · isplitr; · iexact HI
    iexact Hp39
  rw [wp_ret]; imodintro
  unfold PostBody Φ₁ scratchAll Pipeline.RDat.owesAt Pipeline.owesWithin
  rw [sems_eq]
  isplitl [Hx0 Hx1 Ha0 Ha1 Hs0 Hs1 Hy0 Hy1 Hb0 Hb1 Hz8 Hz9 Hz10 Hz11 Hz12 Hz13 Hz14 Hz15 Hz16 Hz17 Hz18 Hz19 Hz20 Hz21 Hz22 Hz23 Hz24 Hz25 Hz26 Hz27 Hz28 Hz29 Hz30 Hz31 Hz32 Hz33 Hz34 Hz35 Hz36 Hz37 Hz38 Hz39]
  · isplitl [Hx0 Hx1 Ha0 Ha1 Hs0 Hs1 Hy0 Hy1 Hb0 Hb1]
    · skip
      isplitl [Hx0]; · (iexists _; iexact Hx0)
      isplitl [Hx1]; · (iexists _; iexact Hx1)
      isplitl [Ha0]; · (iexists _; iexact Ha0)
      isplitl [Ha1]; · (iexists _; iexact Ha1)
      isplitl [Hs0]; · (iexists _; iexact Hs0)
      isplitl [Hs1]; · (iexists _; iexact Hs1)
      isplitl [Hy0]; · (iexists _; iexact Hy0)
      isplitl [Hy1]; · (iexists _; iexact Hy1)
      isplitl [Hb0]; · (iexists _; iexact Hb0)
      iexists _; iexact Hb1
    · skip
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      isplitl [Hz19]; · iexact Hz19
      isplitl [Hz20]; · iexact Hz20
      isplitl [Hz21]; · iexact Hz21
      isplitl [Hz22]; · iexact Hz22
      isplitl [Hz23]; · iexact Hz23
      isplitl [Hz24]; · iexact Hz24
      isplitl [Hz25]; · iexact Hz25
      isplitl [Hz26]; · iexact Hz26
      isplitl [Hz27]; · iexact Hz27
      isplitl [Hz28]; · iexact Hz28
      isplitl [Hz29]; · iexact Hz29
      isplitl [Hz30]; · iexact Hz30
      isplitl [Hz31]; · iexact Hz31
      isplitl [Hz32]; · iexact Hz32
      isplitl [Hz33]; · iexact Hz33
      isplitl [Hz34]; · iexact Hz34
      isplitl [Hz35]; · iexact Hz35
      isplitl [Hz36]; · iexact Hz36
      isplitl [Hz37]; · iexact Hz37
      isplitl [Hz38]; · iexact Hz38
      iexact Hz39
  isplitl [HO]
  · iexists W
    isplitr; · (ipureintro; exact fun _ _ => Or.inl trivial)
    rw [show (rdats (F := F) m 0 c).owed Gen.t0_0.succ = 0 from rfl, ← owedFrom_end c]
    iexact HO
  isplitl [Hw0]
  · iapply (win_close (F := F) c cc0_stg0_0 _); iexact Hw0
  isplitl [Hw1]
  · iapply (win_close (F := F) c cc0_stg1_0 _); iexact Hw1
  isplitl [Hw2]
  · iapply (win_close (F := F) c cc0_stg2_0 _); iexact Hw2
  isplitl [Hw3]
  · iapply (win_close (F := F) c cc0_stg3_0 _); iexact Hw3
  isplitl [Hw4]
  · iapply (win_close (F := F) c cc0_stg4_0 _); iexact Hw4
  isplitl [Hw5]
  · iapply (win_close (F := F) c cc0_stg5_0 _); iexact Hw5
  isplitl [Hw6]
  · iapply (win_close (F := F) c cc0_stg6_0 _); iexact Hw6
  iapply (win_close (F := F) c cc0_stg7_0 _); iexact Hw7

end Cert.Kernel.Hand
end
-- ==== Proof.Kernel.Body.lean ====
import proofs.«900979_g7700000000000980_dist_mlpseq_tp1d_bs_bs_b256_d256_h512_v7x_i8_bf16_1_alg».proof.Proof.Kernel.State
import proofs.«900979_g7700000000000980_dist_mlpseq_tp1d_bs_bs_b256_d256_h512_v7x_i8_bf16_1_alg».proof.Proof.Kernel.Tables
import proofs.«900979_g7700000000000980_dist_mlpseq_tp1d_bs_bs_b256_d256_h512_v7x_i8_bf16_1_alg».proof.Proof.Kernel.Levels
import proofs.«900979_g7700000000000980_dist_mlpseq_tp1d_bs_bs_b256_d256_h512_v7x_i8_bf16_1_alg».proof.Proof.Kernel.Launch
import proofs.«900979_g7700000000000980_dist_mlpseq_tp1d_bs_bs_b256_d256_h512_v7x_i8_bf16_1_alg».proof.Proof.Kernel.Specs
import proofs.«900979_g7700000000000980_dist_mlpseq_tp1d_bs_bs_b256_d256_h512_v7x_i8_bf16_1_alg».proof.Proof.Kernel.Compose
import proofs.«900979_g7700000000000980_dist_mlpseq_tp1d_bs_bs_b256_d256_h512_v7x_i8_bf16_1_alg».proof.Proof.Kernel.Seg1
import proofs.«900979_g7700000000000980_dist_mlpseq_tp1d_bs_bs_b256_d256_h512_v7x_i8_bf16_1_alg».proof.Proof.Kernel.Seg2
import proofs.«900979_g7700000000000980_dist_mlpseq_tp1d_bs_bs_b256_d256_h512_v7x_i8_bf16_1_alg».proof.Proof.Kernel.SegAB
import proofs.«900979_g7700000000000980_dist_mlpseq_tp1d_bs_bs_b256_d256_h512_v7x_i8_bf16_1_alg».proof.Proof.Kernel.SegCD
import proofs.«900979_g7700000000000980_dist_mlpseq_tp1d_bs_bs_b256_d256_h512_v7x_i8_bf16_1_alg».proof.Proof.Kernel.SegD
import proofs.«900979_g7700000000000980_dist_mlpseq_tp1d_bs_bs_b256_d256_h512_v7x_i8_bf16_1_alg».proof.Proof.Kernel.Seg6
import proofs.«900979_g7700000000000980_dist_mlpseq_tp1d_bs_bs_b256_d256_h512_v7x_i8_bf16_1_alg».proof.Proof.Kernel.SegAB7
import proofs.«900979_g7700000000000980_dist_mlpseq_tp1d_bs_bs_b256_d256_h512_v7x_i8_bf16_1_alg».proof.Proof.Kernel.Seg9
import proofs.«900979_g7700000000000980_dist_mlpseq_tp1d_bs_bs_b256_d256_h512_v7x_i8_bf16_1_alg».proof.Proof.Kernel.SegE
import proofs.«900979_g7700000000000980_dist_mlpseq_tp1d_bs_bs_b256_d256_h512_v7x_i8_bf16_1_alg».proof.Proof.Kernel.SegAB12
import proofs.«900979_g7700000000000980_dist_mlpseq_tp1d_bs_bs_b256_d256_h512_v7x_i8_bf16_1_alg».proof.Proof.Kernel.Seg14
import proofs.«900979_g7700000000000980_dist_mlpseq_tp1d_bs_bs_b256_d256_h512_v7x_i8_bf16_1_alg».proof.Proof.Kernel.Seg15

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # One device's body, from the state the launch hands it to the state it hands back

   The body is the straight-line sequence of 38 remote copies with their waits, the entry handshake before them and the
   matrix products between them. It is proved segment by segment between the points where no copy is in flight and
   joined by the sequencing rule. -/

/-- The assertions between the segments: the launch's state, the fourteen quiet points, the closing state. -/
def Pst (m : (ℓ : Loc nD τ sig) → Buf (Elt F) ℓ) (c : Dev nD)
    (Y : (w : Fin cfg0.W) → (cfg0.win w).block.Idx → Elt F (cfg0.win w).elt) : Fin 16 → sProp 𝕄
  | ⟨0, _⟩ => PreBody (F := F) m c Y
  | ⟨1, _⟩ => iprop(∃ K, Q4 (F := F) K c)
  | ⟨2, _⟩ => iprop(∃ K, QE2 (F := F) K c 6 0)
  | ⟨3, _⟩ => iprop(∃ K, QAB (F := F) K c 10 0)
  | ⟨4, _⟩ => iprop(∃ K, QC (F := F) K c 12 0)
  | ⟨5, _⟩ => iprop(∃ K, QD (F := F) K c 14 0)
  | ⟨6, _⟩ => iprop(∃ K, QE2 (F := F) K c 18 1)
  | ⟨7, _⟩ => iprop(∃ K, QAB (F := F) K c 22 1)
  | ⟨8, _⟩ => iprop(∃ K, QC (F := F) K c 24 1)
  | ⟨9, _⟩ => iprop(∃ K, QD (F := F) K c 26 1)
  | ⟨10, _⟩ => iprop(∃ K, Q28 (F := F) K c)
  | ⟨11, _⟩ => iprop(∃ K, QE2 (F := F) K c 30 2)
  | ⟨12, _⟩ => iprop(∃ K, QAB (F := F) K c 34 2)
  | ⟨13, _⟩ => iprop(∃ K, QC (F := F) K c 36 2)
  | ⟨14, _⟩ => iprop(∃ K, Q38 (F := F) K c)
  | ⟨15, _⟩ => PostBody (F := F) m c
  | ⟨_ + 16, h⟩ => absurd h (by omega)

/-- The pipeline's body obligation on device `c`. -/
theorem body_obligation (m : (ℓ : Loc nD τ sig) → Buf (Elt F) ℓ) (c : Dev nD) :
    (rdats (F := F) m 0 c).BodyObligation (defs₀ (F := F)) Variants.none 0 Set.univ := fun t Y hY => by
  have h1 : Spec1 (F := F) m c := seg1_ok m c
  have h2 : Spec2 (F := F) c := seg2_ok c
  have h3 : Spec3 (F := F) c := seg3_ok c
  have h4 : Spec4 (F := F) c := seg4_ok c
  have h5 : Spec5 (F := F) c := seg5_ok c
  have h6 : Spec6 (F := F) c := seg6_ok c
  have h7 : Spec7 (F := F) c := seg7_ok c
  have h8 : Spec8 (F := F) c := seg8_ok c
  have h9 : Spec9 (F := F) c := seg9_ok c
  have h10 : Spec10 (F := F) c := seg10_ok c
  have h11 : Spec11 (F := F) c := seg11_ok c
  have h12 : Spec12 (F := F) c := seg12_ok c
  have h13 : Spec13 (F := F) c := seg13_ok c
  have h14 : Spec14 (F := F) c := seg14_ok c
  have h15 : Spec15 (F := F) m c := seg15_ok m c
  rw [Gen.fin_N0 t]
  rw [Gen.bigSep_W0, Gen.bigSep_W0]
  show PreBody (F := F) m c Y ⊢ wp frame (wpE (defs₀ (F := F)) Variants.none (c : Thread nD τ) none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) (fun _ => PostBody (F := F) m c)
  exact wp_segments (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (Pst m c Y) (h1 Y) h2 h3 h4 h5 h6 h7 h8 h9 h10 h11 h12 h13 h14 h15

/-- Every fair interleaving of the eight devices' threads terminates, faults nowhere and leaves the argument arrays as
    they were. -/
theorem frame_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of_body L_of_ne mayWait_stage m ρ (body_obligation m)

end Cert.Kernel.Hand
end
-- ==== Proof.Spec.lean ====
/- The mathematics behind the equality of results, apart from any program.

   One layer is `relu (X · Win) · Wout`. The hidden axis (4096 units) is cut into the eight devices' slices of 512,
   so the layer is the sum over the devices of each device's partial product; relu acts entry by entry and so
   commutes with the cut. A device adds the eight partials in the order its reduce-scatter tree dictates (two trees, one
   per stream); addition on the extended reals is commutative and associative, so every tree gives the plain sum. -/
import Mathlib.Data.EReal.Operations
import Mathlib.Algebra.BigOperators.Fin
import Mathlib.Algebra.BigOperators.Group.Finset.Basic
import Mathlib.Logic.Equiv.Fin.Basic
import Mathlib.Tactic.Abel
import Mathlib.Tactic.FinCases

noncomputable section

namespace Cert.Spec

open scoped BigOperators

/-- One layer at row `i`, column `j`: `∑ k, relu (∑ d, X i d · Win d k) · Wout k j`. -/
def layer {R : ℕ} (X : Fin R → Fin 256 → EReal) (Win : Fin 256 → Fin 4096 → EReal) (Wout : Fin 4096 → Fin 256 → EReal)
    (i : Fin R) (j : Fin 256) : EReal :=
  ∑ k : Fin 4096, max (∑ d : Fin 256, X i d * Win d k) 0 * Wout k j

/-- Hidden unit `k` of device `c`'s slice of the hidden axis. -/
def hid (c : Fin 8) (k : Fin 512) : Fin 4096 := ⟨512 * c.val + k.val, by omega⟩

/-- Device `c`'s partial product: the layer over its 512 hidden units only. -/
def part {R : ℕ} (c : Fin 8) (X : Fin R → Fin 256 → EReal) (Win : Fin 256 → Fin 4096 → EReal) (Wout : Fin 4096 → Fin 256 → EReal)
    (i : Fin R) (j : Fin 256) : EReal :=
  ∑ k : Fin 512, max (∑ d : Fin 256, X i d * Win d (hid c k)) 0 * Wout (hid c k) j

/-- The layer is the sum of the eight devices' partial products. -/
theorem layer_eq_sum_part {R : ℕ} (X : Fin R → Fin 256 → EReal) (Win : Fin 256 → Fin 4096 → EReal) (Wout : Fin 4096 → Fin 256 → EReal)
    (i : Fin R) (j : Fin 256) : layer X Win Wout i j = ∑ c : Fin 8, part c X Win Wout i j := by
  unfold layer part
  rw [← Fintype.sum_prod_type' (fun (c : Fin 8) (k : Fin 512) => max (∑ d : Fin 256, X i d * Win d (hid c k)) 0 * Wout (hid c k) j)]
  rw [← Equiv.sum_comp (finProdFinEquiv (m := 8) (n := 512))]
  refine Finset.sum_congr rfl fun p _ => ?_
  have h : (finProdFinEquiv (m := 8) (n := 512) p : Fin 4096) = hid p.1 p.2 := by
    apply Fin.ext
    simp only [finProdFinEquiv_apply_val, hid]
    omega
  rw [h]

/-- The device across the mask `m`. -/
def x8 (c m : Fin 8) : Fin 8 := ⟨c.val ^^^ m.val, by revert c m; decide⟩

/-- The order in which device `c` adds the partials in the first stream: its own and `c xor 4`'s, then those of
    `c xor 3` (with `c xor 7`), then what `c xor 1` gathered the same way. -/
def tree1 (c : Fin 8) (P : Fin 8 → EReal) : EReal :=
  ((P c + P (x8 c 4)) + (P (x8 c 3) + P (x8 c 7))) + ((P (x8 c 1) + P (x8 c 5)) + (P (x8 c 2) + P (x8 c 6)))

/-- In the second stream: `c xor 1` first, then `c xor 4` (with `c xor 5`), then what `c xor 3` gathered. -/
def tree2 (c : Fin 8) (P : Fin 8 → EReal) : EReal :=
  ((P c + P (x8 c 1)) + (P (x8 c 4) + P (x8 c 5))) + ((P (x8 c 3) + P (x8 c 2)) + (P (x8 c 7) + P (x8 c 6)))

theorem x8_zero (c : Fin 8) : x8 c 0 = c := by revert c; decide
theorem x8_x8 (c d : Fin 8) : x8 c (x8 c d) = d := by revert c d; decide

/-- Xor with `c` permutes the eight devices. -/
def x8Equiv (c : Fin 8) : Fin 8 ≃ Fin 8 := ⟨x8 c, x8 c, x8_x8 c, x8_x8 c⟩

theorem sum_x8 (c : Fin 8) (P : Fin 8 → EReal) : ∑ d : Fin 8, P d = ∑ d : Fin 8, P (x8 c d) :=
  (Equiv.sum_comp (x8Equiv c) P).symm

theorem tree1_eq (c : Fin 8) (P : Fin 8 → EReal) : tree1 c P = ∑ d : Fin 8, P d := by
  rw [sum_x8 c P, Fin.sum_univ_eight, x8_zero]
  unfold tree1
  abel

theorem tree2_eq (c : Fin 8) (P : Fin 8 → EReal) : tree2 c P = ∑ d : Fin 8, P d := by
  rw [sum_x8 c P, Fin.sum_univ_eight, x8_zero]
  unfold tree2
  abel

end Cert.Spec

end
-- ==== Proof.KernelIdeal.Values.lean ====
/- The values the kernel computes, at the ideal instance, as functions of the launch memory.

   Stream `s` (0: a device's first 128 rows, 1: its last 128) gathers the activations of all eight devices into a
   buffer of 1024 rows; the 128-row block number `j` of it holds the rows of the device whose index in that stream is
   `j` (stream 0: the device number; stream 1: the permuted index `q`). At the ideal instance every device holds the
   same values in the same rows, so the gathered buffer is one function `A l s` of the layer, whatever device it is read
   on. Device `d`'s partial product over the whole buffer is `Pt l s d`; the next layer's buffer is the sum of the eight. -/
import proofs.«900979_g7700000000000980_dist_mlpseq_tp1d_bs_bs_b256_d256_h512_v7x_i8_bf16_1_alg».proof.Proof.KernelIdeal.State
import proofs.«900979_g7700000000000980_dist_mlpseq_tp1d_bs_bs_b256_d256_h512_v7x_i8_bf16_1_alg».proof.Proof.Spec
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe
open scoped BigOperators

/-- The launch memory at the ideal instance. -/
abbrev Mem := (ℓ : Loc nD τ sig) → Buf (Elt Ideal) ℓ

/-- A device's index in stream 1: bits (bit 1, bit 2, bit 0 xor bit 1) of its number. -/
def q8 (c : Fin 8) : Fin 8 := ⟨(c.val / 2 % 2) + 2 * (c.val / 4) + 4 * ((c.val % 2 + c.val / 2 % 2) % 2), by omega⟩
/-- The device whose index in stream `s` is `j`. -/
def devOf (s : Fin 2) (j : Fin 8) : Fin 8 := if s = 0 then j else ⟨(((j.val / 4) + (j.val % 2)) % 2) + 2 * (j.val % 2) + 4 * (j.val / 2 % 2), by omega⟩
/-- A device's index in stream `s`. -/
def idxOf (s : Fin 2) (c : Fin 8) : Fin 8 := if s = 0 then c else q8 c

theorem devOf_idxOf (s : Fin 2) (c : Fin 8) : devOf s (idxOf s c) = c := by revert s c; decide
theorem idxOf_devOf (s : Fin 2) (j : Fin 8) : idxOf s (devOf s j) = j := by revert s j; decide

variable (m : Mem)

/-- Device `d`'s block of the input, row `r`, column `col`. -/
def xOf (d : Dev nD) (r : Fin 256) (col : Fin 256) : EReal :=
  m ((d : Thread nD τ).loc main_arg0) (ValueIdx.ix2 r col)
/-- Device `d`'s slice of layer `l`'s first weight matrix (256 × 512) and second (512 × 256). -/
def winOf (l : Fin 3) (d : Dev nD) (e : Fin 256) (k : Fin 512) : EReal :=
  match l with
  | 0 => m ((d : Thread nD τ).loc main_arg1) (ValueIdx.ix2 e k)
  | 1 => m ((d : Thread nD τ).loc main_arg3) (ValueIdx.ix2 e k)
  | 2 => m ((d : Thread nD τ).loc main_arg5) (ValueIdx.ix2 e k)
def woutOf (l : Fin 3) (d : Dev nD) (k : Fin 512) (col : Fin 256) : EReal :=
  match l with
  | 0 => m ((d : Thread nD τ).loc main_arg2) (ValueIdx.ix2 k col)
  | 1 => m ((d : Thread nD τ).loc main_arg4) (ValueIdx.ix2 k col)
  | 2 => m ((d : Thread nD τ).loc main_arg6) (ValueIdx.ix2 k col)

/-- One device's partial product of a 1024-row buffer `X` with its slices of layer `l`'s weights. -/
def partOf (l : Fin 3) (d : Dev nD) (X : Fin 1024 → Fin 256 → EReal) (row : Fin 1024) (col : Fin 256) : EReal :=
  ∑ k : Fin 512, max (∑ e : Fin 256, X row e * winOf m l d e k) 0 * woutOf m l d k col

/-- The gathered activations entering layer `l` (`l` = 3: the result), stream `s`. -/
def A : ℕ → Fin 2 → Fin 1024 → Fin 256 → EReal
  | 0, s => fun row col => xOf m (devOf s ⟨row.val / 128, by omega⟩) ⟨128 * s.val + row.val % 128, by omega⟩ col
  | l + 1, s => fun row col => ∑ d : Dev nD, partOf m ⟨l % 3, by omega⟩ d (A l s) row col

/-- Device `d`'s partial product in layer `l`, stream `s`. -/
def Pt (l : ℕ) (s : Fin 2) (d : Dev nD) : Fin 1024 → Fin 256 → EReal := partOf m ⟨l % 3, by omega⟩ d (A m l s)

theorem A_succ (l : ℕ) (s : Fin 2) (row : Fin 1024) (col : Fin 256) :
    A m (l + 1) s row col = ∑ d : Dev nD, Pt m l s d row col := rfl

/-- What device `c` leaves in its result block: its own 128 rows of each stream after the third layer. -/
def OUT (c : Dev nD) (r : Fin 256) (col : Fin 256) : EReal :=
  if h : r.val < 128 then A m 3 0 ⟨128 * (idxOf 0 c).val + r.val, by omega⟩ col
  else A m 3 1 ⟨128 * (idxOf 1 c).val + (r.val - 128), by omega⟩ col

end Cert.KernelIdeal.Val

end
-- ==== Proof.RefValue.lean ====
import proofs.«900979_g7700000000000980_dist_mlpseq_tp1d_bs_bs_b256_d256_h512_v7x_i8_bf16_1_alg».proof.Proof.Gen.ReferenceIdeal.Read
import proofs.«900979_g7700000000000980_dist_mlpseq_tp1d_bs_bs_b256_d256_h512_v7x_i8_bf16_1_alg».proof.Proof.Spec

noncomputable section

namespace Cert.ReferenceIdeal.RefValue

open Cert.ReferenceIdeal Idealize.ShloMosaic
open scoped BigOperators

/-! # The reference's result is three layers of `relu (X · Win) · Wout`

   The reference is six matrix products with a `max` against a zero array after every other one. Read at an element,
   a product is the sum over the contracted axis of the left operand along its row times the right operand down its
   column; the zero array is the real number 0 everywhere and `max` is the extended reals' own. So each pair of
   products with the `max` between them is one layer of the specification, applied to what the previous pair
   computed. -/

/-- A two-axis array as a function of its row and its column. -/
def arr2 {A B : ℕ} (x : (⟨2, ![A, B]⟩ : Shape).Idx → EReal) (i : Fin A) (j : Fin B) : EReal :=
  x (ValueIdx.ix2 i j)

theorem arr2_apply {A B : ℕ} (x : (⟨2, ![A, B]⟩ : Shape).Idx → EReal) (i : Fin A) (j : Fin B) :
    arr2 x i j = x (ValueIdx.ix2 i j) := rfl

/-! ## A product's operands are read along the row and down the column -/

theorem lidx_v0 (j : S2048x4096.Idx) (d : Fin 256) :
    Read.lidx_main_v0 j d = ValueIdx.ix2 (n0 := 2048) (n1 := 256) (j 0) d := by
  funext a; match a with | ⟨0, _⟩ => rfl | ⟨1, _⟩ => rfl
theorem ridx_v0 (j : S2048x4096.Idx) (d : Fin 256) :
    Read.ridx_main_v0 j d = ValueIdx.ix2 (n0 := 256) (n1 := 4096) d (j 1) := by
  funext a; match a with | ⟨0, _⟩ => rfl | ⟨1, _⟩ => rfl
theorem lidx_v3 (i : S2048x256.Idx) (k : Fin 4096) :
    Read.lidx_main_v3 i k = ValueIdx.ix2 (n0 := 2048) (n1 := 4096) (i 0) k := by
  funext a; match a with | ⟨0, _⟩ => rfl | ⟨1, _⟩ => rfl
theorem ridx_v3 (i : S2048x256.Idx) (k : Fin 4096) :
    Read.ridx_main_v3 i k = ValueIdx.ix2 (n0 := 4096) (n1 := 256) k (i 1) := by
  funext a; match a with | ⟨0, _⟩ => rfl | ⟨1, _⟩ => rfl

theorem lidx_v4 (j : S2048x4096.Idx) (d : Fin 256) :
    Read.lidx_main_v4 j d = ValueIdx.ix2 (n0 := 2048) (n1 := 256) (j 0) d := by
  funext a; match a with | ⟨0, _⟩ => rfl | ⟨1, _⟩ => rfl
theorem ridx_v4 (j : S2048x4096.Idx) (d : Fin 256) :
    Read.ridx_main_v4 j d = ValueIdx.ix2 (n0 := 256) (n1 := 4096) d (j 1) := by
  funext a; match a with | ⟨0, _⟩ => rfl | ⟨1, _⟩ => rfl
theorem lidx_v7 (i : S2048x256.Idx) (k : Fin 4096) :
    Read.lidx_main_v7 i k = ValueIdx.ix2 (n0 := 2048) (n1 := 4096) (i 0) k := by
  funext a; match a with | ⟨0, _⟩ => rfl | ⟨1, _⟩ => rfl
theorem ridx_v7 (i : S2048x256.Idx) (k : Fin 4096) :
    Read.ridx_main_v7 i k = ValueIdx.ix2 (n0 := 4096) (n1 := 256) k (i 1) := by
  funext a; match a with | ⟨0, _⟩ => rfl | ⟨1, _⟩ => rfl

theorem lidx_v8 (j : S2048x4096.Idx) (d : Fin 256) :
    Read.lidx_main_v8 j d = ValueIdx.ix2 (n0 := 2048) (n1 := 256) (j 0) d := by
  funext a; match a with | ⟨0, _⟩ => rfl | ⟨1, _⟩ => rfl
theorem ridx_v8 (j : S2048x4096.Idx) (d : Fin 256) :
    Read.ridx_main_v8 j d = ValueIdx.ix2 (n0 := 256) (n1 := 4096) d (j 1) := by
  funext a; match a with | ⟨0, _⟩ => rfl | ⟨1, _⟩ => rfl
theorem lidx_v11 (i : S2048x256.Idx) (k : Fin 4096) :
    Read.lidx_main_v11 i k = ValueIdx.ix2 (n0 := 2048) (n1 := 4096) (i 0) k := by
  funext a; match a with | ⟨0, _⟩ => rfl | ⟨1, _⟩ => rfl
theorem ridx_v11 (i : S2048x256.Idx) (k : Fin 4096) :
    Read.ridx_main_v11 i k = ValueIdx.ix2 (n0 := 4096) (n1 := 256) k (i 1) := by
  funext a; match a with | ⟨0, _⟩ => rfl | ⟨1, _⟩ => rfl

/-! ## One layer at a time -/

/-- The first pair of products: a layer of the arguments. -/
theorem layer_a (x0 : (⟨S2048x256, .f32⟩ : BufTy).Contents (Elt Ideal)) (w0 : (⟨S256x4096, .f32⟩ : BufTy).Contents (Elt Ideal)) (u0 : (⟨S4096x256, .f32⟩ : BufTy).Contents (Elt Ideal)) (i : S2048x256.Idx) :
    Read.val_main_v3 (F := Ideal) x0 w0 u0 i
      = Cert.Spec.layer (arr2 (A := 2048) (B := 256) x0) (arr2 (A := 256) (B := 4096) w0) (arr2 (A := 4096) (B := 256) u0) (i 0) (i 1) := by
  rw [Read.val_main_v3_apply]
  unfold Cert.Spec.layer
  refine Finset.sum_congr rfl fun k _ => ?_
  rw [Read.val_main_v2_apply, Read.val_main_v1_apply, Read.val_main_cst_apply, Read.val_main_v0_apply,
    Ideal.ofBits_def, Ideal.ofBits_zero_f32, Ideal.maximumf_def]
  simp only [lidx_v0, ridx_v0, lidx_v3, ridx_v3]
  rfl

/-- The second pair: a layer of what the first computed. -/
theorem layer_b (x0 : (⟨S2048x256, .f32⟩ : BufTy).Contents (Elt Ideal)) (w0 : (⟨S256x4096, .f32⟩ : BufTy).Contents (Elt Ideal)) (u0 : (⟨S4096x256, .f32⟩ : BufTy).Contents (Elt Ideal)) (w1 : (⟨S256x4096, .f32⟩ : BufTy).Contents (Elt Ideal)) (u1 : (⟨S4096x256, .f32⟩ : BufTy).Contents (Elt Ideal)) (i : S2048x256.Idx) :
    Read.val_main_v7 (F := Ideal) x0 w0 u0 w1 u1 i
      = Cert.Spec.layer (arr2 (A := 2048) (B := 256) (Read.val_main_v3 (F := Ideal) x0 w0 u0))
          (arr2 (A := 256) (B := 4096) w1) (arr2 (A := 4096) (B := 256) u1) (i 0) (i 1) := by
  rw [Read.val_main_v7_apply]
  unfold Cert.Spec.layer
  refine Finset.sum_congr rfl fun k _ => ?_
  rw [Read.val_main_v6_apply, Read.val_main_v5_apply, Read.val_main_cst_0_apply, Read.val_main_v4_apply,
    Ideal.ofBits_def, Ideal.ofBits_zero_f32, Ideal.maximumf_def]
  simp only [lidx_v4, ridx_v4, lidx_v7, ridx_v7]
  rfl

/-- The third pair: a layer of what the second computed. -/
theorem layer_c (x0 : (⟨S2048x256, .f32⟩ : BufTy).Contents (Elt Ideal)) (w0 : (⟨S256x4096, .f32⟩ : BufTy).Contents (Elt Ideal)) (u0 : (⟨S4096x256, .f32⟩ : BufTy).Contents (Elt Ideal)) (w1 : (⟨S256x4096, .f32⟩ : BufTy).Contents (Elt Ideal)) (u1 : (⟨S4096x256, .f32⟩ : BufTy).Contents (Elt Ideal)) (w2 : (⟨S256x4096, .f32⟩ : BufTy).Contents (Elt Ideal)) (u2 : (⟨S4096x256, .f32⟩ : BufTy).Contents (Elt Ideal)) (i : S2048x256.Idx) :
    Read.val_main_v11 (F := Ideal) x0 w0 u0 w1 u1 w2 u2 i
      = Cert.Spec.layer (arr2 (A := 2048) (B := 256) (Read.val_main_v7 (F := Ideal) x0 w0 u0 w1 u1))
          (arr2 (A := 256) (B := 4096) w2) (arr2 (A := 4096) (B := 256) u2) (i 0) (i 1) := by
  rw [Read.val_main_v11_apply]
  unfold Cert.Spec.layer
  refine Finset.sum_congr rfl fun k _ => ?_
  rw [Read.val_main_v10_apply, Read.val_main_v9_apply, Read.val_main_cst_1_apply, Read.val_main_v8_apply,
    Ideal.ofBits_def, Ideal.ofBits_zero_f32, Ideal.maximumf_def]
  simp only [lidx_v8, ridx_v8, lidx_v11, ridx_v11]
  rfl

/-- As arrays: the first stage is the first layer … -/
theorem arr2_layer_a (x0 : (⟨S2048x256, .f32⟩ : BufTy).Contents (Elt Ideal)) (w0 : (⟨S256x4096, .f32⟩ : BufTy).Contents (Elt Ideal)) (u0 : (⟨S4096x256, .f32⟩ : BufTy).Contents (Elt Ideal)) :
    arr2 (A := 2048) (B := 256) (Read.val_main_v3 (F := Ideal) x0 w0 u0)
      = Cert.Spec.layer (arr2 (A := 2048) (B := 256) x0) (arr2 (A := 256) (B := 4096) w0) (arr2 (A := 4096) (B := 256) u0) := by
  funext a b
  exact layer_a x0 w0 u0 (ValueIdx.ix2 a b)

/-- … and the second stage the second layer of it. -/
theorem arr2_layer_b (x0 : (⟨S2048x256, .f32⟩ : BufTy).Contents (Elt Ideal)) (w0 : (⟨S256x4096, .f32⟩ : BufTy).Contents (Elt Ideal)) (u0 : (⟨S4096x256, .f32⟩ : BufTy).Contents (Elt Ideal)) (w1 : (⟨S256x4096, .f32⟩ : BufTy).Contents (Elt Ideal)) (u1 : (⟨S4096x256, .f32⟩ : BufTy).Contents (Elt Ideal)) :
    arr2 (A := 2048) (B := 256) (Read.val_main_v7 (F := Ideal) x0 w0 u0 w1 u1)
      = Cert.Spec.layer (arr2 (A := 2048) (B := 256) (Read.val_main_v3 (F := Ideal) x0 w0 u0))
          (arr2 (A := 256) (B := 4096) w1) (arr2 (A := 4096) (B := 256) u1) := by
  funext a b
  exact layer_b x0 w0 u0 w1 u1 (ValueIdx.ix2 a b)

/-! ## The reference's result -/

/-- The reference's result at row `i 0` and column `i 1`: the three layers of the specification, one after the other,
    of the seven argument arrays read by row and column. -/
theorem ref_eq (x0 : (⟨S2048x256, .f32⟩ : BufTy).Contents (Elt Ideal)) (w0 : (⟨S256x4096, .f32⟩ : BufTy).Contents (Elt Ideal)) (u0 : (⟨S4096x256, .f32⟩ : BufTy).Contents (Elt Ideal)) (w1 : (⟨S256x4096, .f32⟩ : BufTy).Contents (Elt Ideal)) (u1 : (⟨S4096x256, .f32⟩ : BufTy).Contents (Elt Ideal)) (w2 : (⟨S256x4096, .f32⟩ : BufTy).Contents (Elt Ideal)) (u2 : (⟨S4096x256, .f32⟩ : BufTy).Contents (Elt Ideal)) (i : S2048x256.Idx) :
    Read.val_main_v11 (F := Ideal) x0 w0 u0 w1 u1 w2 u2 i
      = Cert.Spec.layer (R := 2048)
          (Cert.Spec.layer (R := 2048)
            (Cert.Spec.layer (R := 2048) (arr2 (A := 2048) (B := 256) x0) (arr2 (A := 256) (B := 4096) w0) (arr2 (A := 4096) (B := 256) u0))
            (arr2 (A := 256) (B := 4096) w1) (arr2 (A := 4096) (B := 256) u1))
          (arr2 (A := 256) (B := 4096) w2) (arr2 (A := 4096) (B := 256) u2) (i 0) (i 1) := by
  rw [layer_c, arr2_layer_b, arr2_layer_a]

/-- info: 'Cert.ReferenceIdeal.RefValue.ref_eq' depends on axioms: [propext, Classical.choice, Quot.sound] -/
#guard_msgs in #print axioms ref_eq

end Cert.ReferenceIdeal.RefValue

end
-- ==== Proof.KernelIdeal.FinalMath.lean ====
import proofs.«900979_g7700000000000980_dist_mlpseq_tp1d_bs_bs_b256_d256_h512_v7x_i8_bf16_1_alg».proof.Proof.KernelIdeal.Values
import proofs.«900979_g7700000000000980_dist_mlpseq_tp1d_bs_bs_b256_d256_h512_v7x_i8_bf16_1_alg».proof.Proof.RefValue
import proofs.«900979_g7700000000000980_dist_mlpseq_tp1d_bs_bs_b256_d256_h512_v7x_i8_bf16_1_alg».proof.Proof.Spec
import proofs.«900979_g7700000000000980_dist_mlpseq_tp1d_bs_bs_b256_d256_h512_v7x_i8_bf16_1_alg».proof.Defs
import proofs.«900979_g7700000000000980_dist_mlpseq_tp1d_bs_bs_b256_d256_h512_v7x_i8_bf16_1_alg».proof.Proof.Gen.Pre_finite_inputs_Kernel

noncomputable section

namespace Cert.KernelIdeal.Val

open Cert.KernelIdeal Cert.KernelIdeal.Gen Cert.KernelIdeal.Hand
open Idealize.ShloMosaic Idealize.ShloMosaic.TcCoe Idealize.SL.Sem
open scoped BigOperators

/-! # The kernel's result is the reference's

   Side by side, the devices' blocks are the whole arrays: the input's 256-row blocks one under the other, each first
   weight matrix's 512-column slices side by side, each second weight matrix's 512-row slices one under the other. A
   layer over the whole hidden axis is the sum of the eight devices' partial products, so the buffer a stream has
   gathered before layer `l` holds, in its block number `j`, the rows of the first `l` layers of the whole input that
   belong to the device of index `j` in that stream; after the third layer every device keeps its own 128 rows of
   each stream, which are its 256 rows of the three layers of the whole input — what the reference computes. -/

section Math

variable (m : Mem)

/-- The whole input: the devices' blocks of 256 rows one under the other. -/
def Xg (R : Fin 2048) (col : Fin 256) : EReal :=
  xOf m (⟨R.val / 256, by omega⟩ : Fin 8) ⟨R.val % 256, by omega⟩ col
/-- Layer `l`'s whole first weight matrix: the devices' slices of 512 columns side by side. -/
def Wing (l : Fin 3) (e : Fin 256) (K : Fin 4096) : EReal :=
  winOf m l (⟨K.val / 512, by omega⟩ : Fin 8) e ⟨K.val % 512, by omega⟩
/-- Its whole second weight matrix: the devices' slices of 512 rows one under the other. -/
def Woutg (l : Fin 3) (K : Fin 4096) (col : Fin 256) : EReal :=
  woutOf m l (⟨K.val / 512, by omega⟩ : Fin 8) ⟨K.val % 512, by omega⟩ col

/-- The first `l` layers of the whole input. -/
def Lyr : ℕ → Fin 2048 → Fin 256 → EReal
  | 0 => Xg m
  | l + 1 => Cert.Spec.layer (Lyr l) (Wing m ⟨l % 3, Nat.mod_lt _ (by decide)⟩) (Woutg m ⟨l % 3, Nat.mod_lt _ (by decide)⟩)

theorem Lyr3_eq : Lyr m 3 = Cert.Spec.layer (Cert.Spec.layer (Cert.Spec.layer (Xg m) (Wing m 0) (Woutg m 0)) (Wing m 1) (Woutg m 1))
    (Wing m 2) (Woutg m 2) := rfl

theorem xOf_congr {d d' : Fin 8} {r r' : Fin 256} (hd : d = d') (hr : r = r') (col : Fin 256) :
    xOf m d r col = xOf m d' r' col := by subst hd hr; rfl
theorem winOf_congr (l : Fin 3) {d d' : Fin 8} {k k' : Fin 512} (hd : d = d') (hk : k = k') (e : Fin 256) :
    winOf m l d e k = winOf m l d' e k' := by subst hd hk; rfl
theorem woutOf_congr (l : Fin 3) {d d' : Fin 8} {k k' : Fin 512} (hd : d = d') (hk : k = k') (col : Fin 256) :
    woutOf m l d k col = woutOf m l d' k' col := by subst hd hk; rfl
theorem Lyr_congr (l : ℕ) {R R' : Fin 2048} (h : R.val = R'.val) (col : Fin 256) : Lyr m l R col = Lyr m l R' col := by
  rw [Fin.ext h]

/-- Hidden unit `k` of device `d`'s slice, in the whole matrices, is that device's own. -/
theorem Wing_hid (l : Fin 3) (d : Fin 8) (e : Fin 256) (k : Fin 512) :
    Wing m l e (Cert.Spec.hid d k) = winOf m l d e k :=
  winOf_congr m l (Fin.ext (by show (512 * d.val + k.val) / 512 = d.val; omega))
    (Fin.ext (by show (512 * d.val + k.val) % 512 = k.val; omega)) e
theorem Woutg_hid (l : Fin 3) (d : Fin 8) (k : Fin 512) (col : Fin 256) :
    Woutg m l (Cert.Spec.hid d k) col = woutOf m l d k col :=
  woutOf_congr m l (Fin.ext (by show (512 * d.val + k.val) / 512 = d.val; omega))
    (Fin.ext (by show (512 * d.val + k.val) % 512 = k.val; omega)) col

/-- A device's partial product over a gathered buffer that holds rows of `Y` is its part of the layer of `Y`. -/
theorem partOf_eq_part (l : Fin 3) (d : Fin 8) (X : Fin 1024 → Fin 256 → EReal) (Y : Fin 2048 → Fin 256 → EReal)
    (row : Fin 1024) (R : Fin 2048) (h : ∀ e, X row e = Y R e) (col : Fin 256) :
    partOf m l d X row col = Cert.Spec.part d Y (Wing m l) (Woutg m l) R col := by
  unfold partOf Cert.Spec.part
  refine Finset.sum_congr rfl fun k _ => ?_
  rw [Woutg_hid]
  congr 2
  refine Finset.sum_congr rfl fun e _ => ?_
  rw [Wing_hid, h e]

/-- Block `j` of the buffer a stream has gathered before layer `l` holds the rows of the first `l` layers of the whole
    input of the device whose index in that stream is `j`. -/
theorem A_eq_layers : ∀ (l : ℕ) (s : Fin 2) (j : Fin 8) (r : Fin 128) (col : Fin 256),
    A m l s ⟨128 * j.val + r.val, by omega⟩ col
      = Lyr m l ⟨256 * (devOf s j).val + 128 * s.val + r.val, by omega⟩ col
  | 0, s, j, r, col => by
    have hj : (⟨(128 * j.val + r.val) / 128, by omega⟩ : Fin 8) = j :=
      Fin.ext (by show (128 * j.val + r.val) / 128 = j.val; omega)
    show xOf m (devOf s ⟨(128 * j.val + r.val) / 128, _⟩) ⟨128 * s.val + (128 * j.val + r.val) % 128, _⟩ col = Xg m _ col
    rw [hj]
    exact xOf_congr m
      (Fin.ext (by show (devOf s j).val = (256 * (devOf s j).val + 128 * s.val + r.val) / 256; omega))
      (Fin.ext (by show 128 * s.val + (128 * j.val + r.val) % 128 = (256 * (devOf s j).val + 128 * s.val + r.val) % 256; omega)) col
  | l + 1, s, j, r, col => by
    show ∑ d : Dev nD, partOf m ⟨l % 3, _⟩ d (A m l s) ⟨128 * j.val + r.val, _⟩ col
      = Cert.Spec.layer (Lyr m l) (Wing m ⟨l % 3, _⟩) (Woutg m ⟨l % 3, _⟩) ⟨256 * (devOf s j).val + 128 * s.val + r.val, _⟩ col
    rw [Cert.Spec.layer_eq_sum_part]
    exact Finset.sum_congr rfl fun d _ => partOf_eq_part m _ d _ _ _ _ (fun e => A_eq_layers l s j r e) col

/-- What a device leaves in its result block: its 256 rows of the three layers of the whole input. -/
theorem OUT_eq (c : Fin 8) (r : Fin 256) (col : Fin 256) :
    OUT m c r col = Lyr m 3 (⟨256 * c.val + r.val, by omega⟩ : Fin 2048) col := by
  unfold OUT
  split
  · rename_i h
    refine (A_eq_layers m 3 0 (idxOf 0 c) ⟨r.val, h⟩ col).trans (Lyr_congr m 3 ?_ col)
    show 256 * (devOf 0 (idxOf 0 c)).val + 128 * 0 + r.val = 256 * c.val + r.val
    rw [devOf_idxOf]
    omega
  · rename_i h
    refine (A_eq_layers m 3 1 (idxOf 1 c) ⟨r.val - 128, by omega⟩ col).trans (Lyr_congr m 3 ?_ col)
    show 256 * (devOf 1 (idxOf 1 c)).val + 128 * 1 + (r.val - 128) = 256 * c.val + r.val
    rw [devOf_idxOf]
    omega

end Math

/-! ## The devices' blocks of the reference's whole arrays -/

open Cert.ReferenceIdeal.RefValue (arr2)

/-- An element of a block of 256 rows is the element of the whole array that many blocks further down. -/
theorem block_x (c : Fin 8) (X : (⟨2, ![2048, 256]⟩ : Shape).Idx → EReal) (r col : Fin 256) :
    (Layout.block ⟨2, ![256, 256]⟩ ⟨2, ![2048, 256]⟩ 0 8 c X) (ValueIdx.ix2 r col)
      = X (ValueIdx.ix2 (⟨256 * c.val + r.val, by omega⟩ : Fin 2048) col) := by
  rw [Layout.block_apply]
  congr 1
  funext b
  match b with
  | ⟨0, _⟩ => exact Fin.ext (by show c.val * 256 + r.val = 256 * c.val + r.val; omega)
  | ⟨1, _⟩ => exact Fin.ext rfl

/-- Of a slice of 512 columns: that many slices further right. -/
theorem block_w (c : Fin 8) (W : (⟨2, ![256, 4096]⟩ : Shape).Idx → EReal) (e : Fin 256) (k : Fin 512) :
    (Layout.block ⟨2, ![256, 512]⟩ ⟨2, ![256, 4096]⟩ 1 8 c W) (ValueIdx.ix2 e k)
      = W (ValueIdx.ix2 e (⟨512 * c.val + k.val, by omega⟩ : Fin 4096)) := by
  rw [Layout.block_apply]
  congr 1
  funext b
  match b with
  | ⟨0, _⟩ => exact Fin.ext rfl
  | ⟨1, _⟩ => exact Fin.ext (by show c.val * 512 + k.val = 512 * c.val + k.val; omega)

/-- Of a slice of 512 rows: that many slices further down. -/
theorem block_u (c : Fin 8) (U : (⟨2, ![4096, 256]⟩ : Shape).Idx → EReal) (k : Fin 512) (col : Fin 256) :
    (Layout.block ⟨2, ![512, 256]⟩ ⟨2, ![4096, 256]⟩ 0 8 c U) (ValueIdx.ix2 k col)
      = U (ValueIdx.ix2 (⟨512 * c.val + k.val, by omega⟩ : Fin 4096) col) := by
  rw [Layout.block_apply]
  congr 1
  funext b
  match b with
  | ⟨0, _⟩ => exact Fin.ext (by show c.val * 512 + k.val = 512 * c.val + k.val; omega)
  | ⟨1, _⟩ => exact Fin.ext rfl

/-- If every device's input block is its block of `X`, the blocks side by side are `X`. -/
theorem Xg_eq (m : Mem) (X : (⟨2, ![2048, 256]⟩ : Shape).Idx → EReal)
    (h : ∀ (d : Fin 8) (r col : Fin 256), xOf m d r col = (Layout.block ⟨2, ![256, 256]⟩ ⟨2, ![2048, 256]⟩ 0 8 d X) (ValueIdx.ix2 r col)) :
    Xg m = arr2 (A := 2048) (B := 256) X := by
  funext R col
  unfold Xg
  rw [h, block_x]
  exact congrArg (fun t => X (ValueIdx.ix2 t col)) (Fin.ext (by show 256 * (R.val / 256) + R.val % 256 = R.val; omega))

theorem Wing_eq (m : Mem) (l : Fin 3) (W : (⟨2, ![256, 4096]⟩ : Shape).Idx → EReal)
    (h : ∀ (d : Fin 8) (e : Fin 256) (k : Fin 512), winOf m l d e k = (Layout.block ⟨2, ![256, 512]⟩ ⟨2, ![256, 4096]⟩ 1 8 d W) (ValueIdx.ix2 e k)) :
    Wing m l = arr2 (A := 256) (B := 4096) W := by
  funext e K
  unfold Wing
  rw [h, block_w]
  exact congrArg (fun t => W (ValueIdx.ix2 e t)) (Fin.ext (by show 512 * (K.val / 512) + K.val % 512 = K.val; omega))

theorem Woutg_eq (m : Mem) (l : Fin 3) (U : (⟨2, ![4096, 256]⟩ : Shape).Idx → EReal)
    (h : ∀ (d : Fin 8) (k : Fin 512) (col : Fin 256), woutOf m l d k col = (Layout.block ⟨2, ![512, 256]⟩ ⟨2, ![4096, 256]⟩ 0 8 d U) (ValueIdx.ix2 k col)) :
    Woutg m l = arr2 (A := 4096) (B := 256) U := by
  funext K col
  unfold Woutg
  rw [h, block_u]
  exact congrArg (fun t => U (ValueIdx.ix2 t col)) (Fin.ext (by show 512 * (K.val / 512) + K.val % 512 = K.val; omega))

/-! ## The claim, from a run that leaves `OUT` in every device's result block -/

theorem algebraic_of_run
    (hrun : ∀ (m : Mem) (ρ : Dev nD → PrngReg),
      Cert.Pre_KernelIdeal (hPre_finite_inputs_Kernel := Cert.Pre_finite_inputs_Kernel.Gen.facts) m →
      θ_run (Cert.KernelIdeal.defs (F := Ideal)) (onTc (τ := τ) (Cert.KernelIdeal.main (F := Ideal))) ⟨m, fun _ => 0, ρ⟩
        (fun r => ∀ c : Dev nD,
          (∀ idx, r.2.mem ((c.tc : Thread nD τ).loc main_v1) idx = OUT m c (idx 0) (idx 1))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6))) :
    Cert.algebraic_KernelIdeal_ReferenceIdeal (hKernelIdeal := Cert.KernelIdeal.Gen.facts)
      (hReferenceIdeal := Cert.ReferenceIdeal.Gen.facts) (hPre_finite_inputs_Kernel := Cert.Pre_finite_inputs_Kernel.Gen.facts) := by
  intro m g m' g' hpre hblk
  refine ⟨Cert.ReferenceIdeal.Read.val_main_v11 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)), ?_, ?_⟩
  · refine (θ_run _ _ _).mono (fun r h c => ⟨?_, (h c).2⟩) (hrun m g hpre)
    funext idx
    obtain ⟨i0, i1, rfl⟩ : ∃ (a : Fin 256) (b : Fin 256), idx = ValueIdx.ix2 a b := ⟨idx 0, idx 1, ValueIdx.eq_ix2 idx⟩
    refine ((h c).1 (ValueIdx.ix2 i0 i1)).trans ?_
    show OUT m c i0 i1 = _
    rw [OUT_eq, Lyr3_eq, block_x, Cert.ReferenceIdeal.RefValue.ref_eq,
      Xg_eq m _ (fun d r col => congrFun (hblk d).1 (ValueIdx.ix2 r col)),
      Wing_eq m 0 _ (fun d e k => congrFun (hblk d).2.1 (ValueIdx.ix2 e k)),
      Woutg_eq m 0 _ (fun d k col => congrFun (hblk d).2.2.1 (ValueIdx.ix2 k col)),
      Wing_eq m 1 _ (fun d e k => congrFun (hblk d).2.2.2.1 (ValueIdx.ix2 e k)),
      Woutg_eq m 1 _ (fun d k col => congrFun (hblk d).2.2.2.2.1 (ValueIdx.ix2 k col)),
      Wing_eq m 2 _ (fun d e k => congrFun (hblk d).2.2.2.2.2.1 (ValueIdx.ix2 e k)),
      Woutg_eq m 2 _ (fun d k col => congrFun (hblk d).2.2.2.2.2.2 (ValueIdx.ix2 k col))]
  · exact (θ_run _ _ _).mono (fun r h => h 0) (Cert.ReferenceIdeal.Value.run (F := Ideal) m' g')

/-- info: 'Cert.KernelIdeal.Val.algebraic_of_run' depends on axioms: [propext, Classical.choice, Quot.sound] -/
#guard_msgs in #print axioms algebraic_of_run

end Cert.KernelIdeal.Val

end
-- ==== Proof.KernelIdeal.SchedV.lean ====
/- The schedule with contents: as Sched.lean, every landing now also saying what it holds (ideal instance).

   A gather landing holds the gathered buffer `A l s` on the rows of the sender's slice; a reduce landing holds the
   sender's partial sums on the rows of the receiver's pair of blocks (or own block, in the last layer's last step):
   one device's partial after the two-half step, two devices' after the third step, four devices' after the last.
   The first exchange's source comes back at its contents (the later sources are either lent by half, the other
   half keeping the contents, or not read again). -/
import proofs.«900979_g7700000000000980_dist_mlpseq_tp1d_bs_bs_b256_d256_h512_v7x_i8_bf16_1_alg».proof.Proof.KernelIdeal.Values
import proofs.«900979_g7700000000000980_dist_mlpseq_tp1d_bs_bs_b256_d256_h512_v7x_i8_bf16_1_alg».proof.Proof.KernelIdeal.Tables

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig ℕ (Elt Ideal) ℕ UU ℕ

/-- A function of (row, column) of a 1024-row buffer, read at natural numbers (zero outside). -/
def nat2 (G : Fin 1024 → Fin 256 → EReal) (i j : ℕ) : EReal :=
  if h : i < 1024 ∧ j < 256 then G ⟨i, h.1⟩ ⟨j, h.2⟩ else 0

/-- The rows `b ..` of `G`, as the contents of a slice of 128, 256 or 512 rows. -/
def rows128 (G : Fin 1024 → Fin 256 → EReal) (b : ℕ) : S128x256.Idx → EReal := fun y => nat2 G (b + (y 0).val) (y 1).val
def rows256 (G : Fin 1024 → Fin 256 → EReal) (b : ℕ) : S256x256.Idx → EReal := fun y => nat2 G (b + (y 0).val) (y 1).val
def rows512 (G : Fin 1024 → Fin 256 → EReal) (b : ℕ) : S512x256.Idx → EReal := fun y => nat2 G (b + (y 0).val) (y 1).val

variable (m : Mem)

/-- The partner masks of the reduce steps of stream `s`: (4, 3, 1) and (1, 4, 3). -/
def rm (s : Fin 2) (i : Fin 3) : Fin 8 := match s, i with
  | 0, 0 => 4 | 0, 1 => 3 | 0, 2 => 1 | 1, 0 => 1 | 1, 1 => 4 | 1, 2 => 3
/-- Two devices' partials: `d`'s and its first reduce partner's; four devices': those of `d` and of its second partner. -/
def S1 (l : ℕ) (s : Fin 2) (d : Dev nD) : Fin 1024 → Fin 256 → EReal :=
  fun row col => Pt m l s d row col + Pt m l s (xr (rm s 0) d) row col
def S2 (l : ℕ) (s : Fin 2) (d : Dev nD) : Fin 1024 → Fin 256 → EReal :=
  fun row col => S1 m l s d row col + S1 m l s (xr (rm s 1) d) row col

/-- The first row of device `c`'s pair of blocks, of the other pair of its four blocks, and of its own block, in
    stream `s`: read off the printed offset chains. -/
def pairRow (s : Fin 2) (c : Dev nD) : ℕ := match s with | 0 => k0_off7 c 0 | 1 => k0_off8 c 0
def pair2Row (s : Fin 2) (c : Dev nD) : ℕ := match s with | 0 => k0_off11 c 0 | 1 => k0_off12 c 0
def ownRow (s : Fin 2) (c : Dev nD) : ℕ := match s with | 0 => k0_off1 c 0 | 1 => k0_off2 c 0

/-- The layer of a round of the last reduce step's two cells (slot 2: layers 0 and 2; slot 3: layer 1). -/
def lastLayer (slot r : ℕ) : ℕ := if slot = 3 then 1 else if r = 0 then 0 else 2

/-- What a landing on DMA semaphore `j` of device `c` hands over in round `l`, with its contents. -/
def payDmaV (c : Dev nD) : ℕ → ℕ → sProp 𝕄
  | 8, _ => owns (c : Thread nD τ) (VE0 0 c) fullShare (rows128 (A m 0 0) (k0_off3 c 0))
  | 14, _ => owns (c : Thread nD τ) (VE0 1 c) fullShare (rows128 (A m 0 1) (k0_off4 c 0))
  | 11, _ => iprop(owns (c : Thread nD τ) (VE0 0 (xr 1 c)) fullShare (rows128 (A m 0 0) (k0_off3 (xr 1 c) 0)) ∗ grant (xr 1 c) (VE2 1 c) (agR 1 2) 0)
  | 12, l => iprop(owns (c : Thread nD τ) (VE1 0 (xr 3 c)) fullShare (rows256 (A m l 0) (k0_off5 (xr 3 c) 0)) ∗ grant (xr 3 c) (R2 0) (rsR 0 1) l)
  | 13, l => iprop(owns (c : Thread nD τ) (VE2 0 (xr 4 c)) fullShare (rows512 (A m l 0) (k0_off9 (xr 4 c) 0)) ∗ grant (xr 4 c) (R0 0) (rsR 0 0) l ∗ grant (xr 4 c) (R1 0) (rsR 0 4) l)
  | 17, _ => iprop(owns (c : Thread nD τ) (VE0 1 (xr 3 c)) fullShare (rows128 (A m 0 1) (k0_off4 (xr 3 c) 0)) ∗ grant (xr 3 c) (VE1 0 c) (agR 0 1) 0)
  | 18, l => iprop(owns (c : Thread nD τ) (VE1 1 (xr 4 c)) fullShare (rows256 (A m l 1) (k0_off6 (xr 4 c) 0)) ∗ grant (xr 4 c) (VE2 0 c) (agR 0 2) l)
  | 19, l => iprop(owns (c : Thread nD τ) (VE2 1 (xr 1 c)) fullShare (rows512 (A m l 1) (k0_off10 (xr 1 c) 0)) ∗ grant (xr 1 c) (R0 1) (rsR 1 0) l ∗ grant (xr 1 c) (R1 1) (rsR 1 4) l)
  | 25, l => owns (c : Thread nD τ) (R0 0) fullShare (rows256 (Pt m l 0 (xr 4 c)) (pairRow 0 c))
  | 29, l => iprop(owns (c : Thread nD τ) (R1 0) fullShare (rows256 (Pt m l 0 (xr 4 c)) (pair2Row 0 c)) ∗ grant (xr 4 c) (R2 1) (rsR 1 1) l)
  | 26, l => iprop(owns (c : Thread nD τ) (R2 0) fullShare (rows256 (S1 m l 0 (xr 3 c)) (pairRow 0 c)) ∗ grantLast (xr 3 c) 1 l)
  | 27, 0 => iprop(owns (c : Thread nD τ) (R3 0) fullShare (rows256 (S2 m 0 0 (xr 1 c)) (pairRow 0 c)) ∗ grant (xr 1 c) (VE2 1 c) (agR 1 2) 1)
  | 27, _ => owns (c : Thread nD τ) (R3h 0) fullShare (rows128 (S2 m 2 0 (xr 1 c)) (ownRow 0 c))
  | 28, _ => iprop(owns (c : Thread nD τ) (R4 0) fullShare (rows256 (S2 m 1 0 (xr 1 c)) (pairRow 0 c)) ∗ grant (xr 1 c) (VE2 1 c) (agR 1 2) 2)
  | 35, l => owns (c : Thread nD τ) (R0 1) fullShare (rows256 (Pt m l 1 (xr 1 c)) (pairRow 1 c))
  | 39, l => iprop(owns (c : Thread nD τ) (R1 1) fullShare (rows256 (Pt m l 1 (xr 1 c)) (pair2Row 1 c)) ∗ grantLast (xr 1 c) 0 l)
  | 36, 0 => iprop(owns (c : Thread nD τ) (R2 1) fullShare (rows256 (S1 m 0 1 (xr 4 c)) (pairRow 1 c)) ∗ grant (xr 4 c) (VE1 1 c) (agR 1 1) 1)
  | 36, 1 => iprop(owns (c : Thread nD τ) (R2 1) fullShare (rows256 (S1 m 1 1 (xr 4 c)) (pairRow 1 c)) ∗ grant (xr 4 c) (VE1 1 c) (agR 1 1) 2)
  | 36, _ => owns (c : Thread nD τ) (R2 1) fullShare (rows256 (S1 m 2 1 (xr 4 c)) (pairRow 1 c))
  | 37, 0 => iprop(owns (c : Thread nD τ) (R3 1) fullShare (rows256 (S2 m 0 1 (xr 3 c)) (pairRow 1 c)) ∗ grant (xr 3 c) (VE1 0 c) (agR 0 1) 1)
  | 37, _ => owns (c : Thread nD τ) (R3h 1) fullShare (rows128 (S2 m 2 1 (xr 3 c)) (ownRow 1 c))
  | 38, _ => iprop(owns (c : Thread nD τ) (R4 1) fullShare (rows256 (S2 m 1 1 (xr 3 c)) (pairRow 1 c)) ∗ grant (xr 3 c) (VE1 0 c) (agR 0 1) 2)
  | j, r => payDma (F := Ideal) c j r

/-- The schedule with contents: Sched.lean's duties and amounts, the landings' payloads as above. -/
def schedV : Rounds.Schedule (GSem nD τ sig) DD 𝕄 where
  duties := (sched (F := Ideal)).duties
  amount := (sched (F := Ideal)).amount
  payload g r d := match g.2 with
    | .reg _ => payBar (F := Ideal) g.1.1 d
    | .dma i => payDmaV m g.1.1 i.val r
  amount_pos := (sched (F := Ideal)).amount_pos

end Cert.KernelIdeal.Val

end
-- ==== Proof.KernelIdeal.StateV.lean ====
import proofs.«900979_g7700000000000980_dist_mlpseq_tp1d_bs_bs_b256_d256_h512_v7x_i8_bf16_1_alg».proof.Proof.KernelIdeal.SchedV

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

/-! # The states of a device under the schedule with contents

The protocol's ghost state is as before, the cells' invariants now those of the schedule whose landings state their
contents. The proof data claims the body's result: what it leaves in the result window's staging buffer is the device's
block of the result, as a function of the launch memory. -/

variable (m : Mem)

/-- Every cell's invariant under the schedule with contents. -/
def invsAllV (K : GSem nD τ sig → ℕ) : sProp 𝕄 :=
  bigSep (Finset.univ : Finset (Dev nD × Fin 33)) fun ck => cellInv ER (schedV m) (K (kcell ck)) (kcell ck)

/-- The ghost state a device starts from. -/
def ghostV (K : GSem nD τ sig → ℕ) (c : Dev nD) : sProp 𝕄 :=
  iprop(invsAllV m K ∗ reachedAll (F := Ideal) ∗ posAll (F := Ideal) c ∗ toks (F := Ideal) c)

/-- Before the body. -/
def Φ₀V (c : Dev nD) : sProp 𝕄 :=
  iprop((∃ K, ghostV m K c) ∗ creds (F := Ideal) c ∗ levAts L lv ∗ scratchAll (F := Ideal) c)

/-- What the body leaves in a window's staging buffer: in the result's, the device's block of the result. -/
def afterV (c : Dev nD) : (w : Fin cfg0.W) → ((cfg0.win w).block.Idx → Elt Ideal (cfg0.win w).elt) → Prop
  | 7, X => X = fun y => OUT m c (y 0) (y 1)
  | _, _ => True

/-- The relational proof data with the result claimed. -/
def rdatsV (_ : Fin 1) (c : Dev nD) : Pipeline.RDat τ (Elt Ideal) ℕ ℕ UU ℕ cfg0 c where
  A w := m ((cfg0.win w).arr.view.loc (c : Thread nD τ))
  after w _ _ X := afterV m c w X
  Φ t := match t with
    | ⟨0, _⟩ => Φ₀V m c
    | ⟨_ + 1, _⟩ => Φ₁ (F := Ideal) c
  q _ := fullShare
  owed t := match t with
    | ⟨0, _⟩ => O₀ c
    | ⟨_ + 1, _⟩ => 0

theorem afterV_result (c : Dev nD) (X : (cfg0.win 7).block.Idx → Elt Ideal (cfg0.win 7).elt) :
    afterV m c 7 X ↔ X = fun y => OUT m c (y 0) (y 1) := Iff.rfl

end Cert.KernelIdeal.Val

end
-- ==== Proof.KernelIdeal.TablesV.lean ====
import proofs.«900979_g7700000000000980_dist_mlpseq_tp1d_bs_bs_b256_d256_h512_v7x_i8_bf16_1_alg».proof.Proof.KernelIdeal.StateV

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

/-! # The schedule with contents, entry by entry

Duties and amounts are the ownership-only schedule's; only what a landing hands over differs. -/

variable (m : Mem)

/-! ## The payloads can be stored -/

instance payDmaV_storable (c : Dev nD) (j r : ℕ) : BI.Storable (upEmb : UEmb _ 𝕄) (payDmaV m c j r) := by
  unfold payDmaV; split <;> infer_instance

instance schedV_payload_storable (g : GSem nD τ sig) (r : ℕ) (d : DD) :
    BI.Storable (upEmb : UEmb _ 𝕄) ((schedV m).payload g r d) := by
  show BI.Storable upEmb (match g.2 with
    | .reg _ => payBar (F := Ideal) g.1.1 d
    | .dma i => payDmaV m g.1.1 i.val r)
  split <;> infer_instance

/-! ## The barrier cell -/

theorem duties_barV (c : Dev nD) : (schedV m).duties (barCell c) 0 = Finset.univ := duties_bar (F := Ideal) c

theorem duties_bar_laterV (c : Dev nD) (r : ℕ) (hr : 1 ≤ r) : (schedV m).duties (barCell c) r = ∅ :=
  duties_bar_later (F := Ideal) c r hr

theorem amount_barV (c : Dev nD) (d : DD) : (schedV m).amount (barCell c) 0 d = 1 := rfl

theorem payload_barV (c : Dev nD) (d : DD) : (schedV m).payload (barCell c) 0 d = payBar (F := Ideal) c d := rfl

theorem expect_barV (c : Dev nD) : (schedV m).expect (barCell c) 0 = 3 := expect_bar (F := Ideal) c

theorem rest_barV (c : Dev nD) :
    bigSep ((schedV m).duties (barCell c) 0 \ ∅) (fun d => (schedV m).payload (barCell c) 0 d)
      = iprop(payBar (F := Ideal) c 0 ∗ payBar c 1 ∗ payBar c 2) := rest_bar (F := Ideal) c

/-! ## A gather or reduce cell -/

theorem duties_dmaV (c : Dev nD) (j r : ℕ) (hj : j < 40) (hr : r < nRounds j) :
    (schedV m).duties (dcell c (dsem j)) r = {0} := duties_dma (F := Ideal) c j r hj hr

theorem duties_dma_laterV (c : Dev nD) (j r : ℕ) (hj : j < 40) (hr : nRounds j ≤ r) :
    (schedV m).duties (dcell c (dsem j)) r = ∅ := duties_dma_later (F := Ideal) c j r hj hr

theorem amount_dmaV (c : Dev nD) (j r : ℕ) (d : DD) (hj : j < 40) :
    (schedV m).amount (dcell c (dsem j)) r d = amtDma j r := amount_dma (F := Ideal) c j r d hj

theorem payload_dmaV (c : Dev nD) (j r : ℕ) (d : DD) (hj : j < 40) :
    (schedV m).payload (dcell c (dsem j)) r d = payDmaV m c j r := by
  show payDmaV m c (dsem j).val r = _
  rw [dsem_val j hj]

theorem expect_dmaV (c : Dev nD) (j r : ℕ) (hj : j < 40) (hr : r < nRounds j) :
    (schedV m).expect (dcell c (dsem j)) r = amtDma j r := expect_dma (F := Ideal) c j r hj hr

theorem rest_dmaV (c : Dev nD) (j r : ℕ) (hj : j < 40) (hr : r < nRounds j) :
    bigSep ((schedV m).duties (dcell c (dsem j)) r \ ∅) (fun d => (schedV m).payload (dcell c (dsem j)) r d)
      = payDmaV m c j r := by
  rw [duties_dmaV m c j r hj hr, Finset.sdiff_empty, bigSep_singleton, payload_dmaV m c j r 0 hj]

end Cert.KernelIdeal.Val

end
-- ==== Proof.KernelIdeal.LaunchV.lean ====
import proofs.«900979_g7700000000000980_dist_mlpseq_tp1d_bs_bs_b256_d256_h512_v7x_i8_bf16_1_alg».proof.Proof.KernelIdeal.StateV
import proofs.«900979_g7700000000000980_dist_mlpseq_tp1d_bs_bs_b256_d256_h512_v7x_i8_bf16_1_alg».proof.Proof.KernelIdeal.TablesV
import proofs.«900979_g7700000000000980_dist_mlpseq_tp1d_bs_bs_b256_d256_h512_v7x_i8_bf16_1_alg».proof.Proof.KernelIdeal.Launch
import proofs.«900979_g7700000000000980_dist_mlpseq_tp1d_bs_bs_b256_d256_h512_v7x_i8_bf16_1_alg».proof.Proof.Gen.KernelIdeal.Frame
import proofs.«900979_g7700000000000980_dist_mlpseq_tp1d_bs_bs_b256_d256_h512_v7x_i8_bf16_1_alg».proof.Proof.Gen.KernelIdeal.Points

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

/-! # The launch under the schedule with contents

As the launch of the ownership-only protocol, the cells' invariants now those of the schedule whose landings state
their contents, and the proof data claiming the body's result; the run's post also says each device's result block. -/

variable (m : Mem)

theorem share_eqV (c : Dev nD) (w : Fin cfg0.W) : (rdatsV m 0 c).share w = fullShare :=
  Pipeline.RDat.share_full _ (fun _ => rfl) w

/-- What the launch element deals device `c`: its cells' round states, positions and reached facts, and its cells' tokens. -/
def GV (c : Dev nD) : sProp 𝕄 :=
  iprop((bigSep Finset.univ fun k : Fin 33 => roundState ER (schedV m) (kcell (c, k)) 0)
    ∗ (bigSep Finset.univ fun k : Fin 33 => iprop(atPos ER (kcell (c, k)) 0 ∅ 0 ∗ reached ER (kcell (c, k)) 0)) ∗ otoks c)

/-- What the global step makes of it. -/
def GV' (c : Dev nD) : sProp 𝕄 := iprop(∃ K, ghostV m K c)

theorem fund_protoV : BI.own (ER (initOf protoCells protoToks)) ⊢ (|==> bigSep Finset.univ (GV m) : sProp 𝕄) := by
  have hX (Φ : GSem nD τ sig → sProp 𝕄) : bigSep protoCells Φ = bigSep Finset.univ fun c : Dev nD => bigSep Finset.univ fun k : Fin 33 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => otoks (F := Ideal) c := by
    unfold protoToks otoks; rw [bigSep_map, bigSep_univ_prod]; rfl
  iintro HX
  imod (Rounds.fund ER (schedV m) protoCells protoToks) $$ HX with ⟨Hst, Hr, Hat, Htok⟩
  imodintro
  ihave Hst' := (Entails.of_eq (hX fun g => roundState ER (schedV m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold GV; simp only [bigSep_sep']
  isplitl [Hst']; · iexact Hst'
  isplitl [Hat' Hr']
  · isplitl [Hat'] <;> iassumption
  iexact Htok'

/-! ### The global step: every cell's invariant allocated, the tokens dealt to their payers -/

theorem core_allocV (c : Dev nD) :
    iprop(Pipeline.ownSems0 (Ix := ℕ) (Name := ℕ) (U := UU) (Lvl := ℕ) (Val := Elt Ideal) (τ := τ) osem c ∗ unscopedSems0 c ∗ GV m c)
      ⊢ |={Set.univ}=> iprop((bigSep Finset.univ fun k : Fin 33 => iprop(∃ κ : ℕ, cellInv ER (schedV m) κ (kcell (c, k))))
          ∗ (bigSep Finset.univ fun k : Fin 33 => iprop(atPos ER (kcell (c, k)) 0 ∅ 0 ∗ reached ER (kcell (c, k)) 0)) ∗ otoks c) := by
  unfold GV
  iintro ⟨Hos, Hus, Hst, Hat, Htok⟩
  ihave Hv := (sems0_eq (F := Ideal) c) $$ [Hos Hus]
  · isplitl [Hos] <;> iassumption
  imod (show iprop((bigSep Finset.univ fun k : Fin 33 => semVal (kcell (c, k)) 0) ∗ bigSep Finset.univ fun k : Fin 33 => roundState ER (schedV m) (kcell (c, k)) 0)
      ⊢ (|={Set.univ}=> bigSep Finset.univ fun k : Fin 33 => iprop(∃ κ : ℕ, cellInv ER (schedV m) κ (kcell (c, k))) : sProp 𝕄) from by
        rw [← bigSep_sep']
        exact (bigSep_mono fun k _ => (Rounds.body_intro ER (schedV m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent part of a device's ghost state. -/
def recordsV (K : GSem nD τ sig → ℕ) : sProp 𝕄 := iprop(invsAllV m K ∗ reachedAll)

instance records_persistentV (K : GSem nD τ sig → ℕ) : BI.Persistent (recordsV m K) := by
  unfold recordsV invsAllV reachedAll; infer_instance

theorem ghost_introV (K : GSem nD τ sig → ℕ) (c : Dev nD) : iprop(recordsV m K ∗ (posAll c ∗ toks c)) ⊢ GV' m c := by
  unfold recordsV GV' ghostV
  iintro ⟨⟨HI, HR⟩, HP, HT⟩
  iexists K
  isplitl [HI]; · iexact HI
  isplitl [HR]; · iexact HR
  isplitl [HP]; · iexact HP
  iexact HT

theorem regroupV :
    (bigSep Finset.univ fun c : Dev nD => iprop((bigSep Finset.univ fun k : Fin 33 => iprop(∃ κ : ℕ, cellInv ER (schedV m) κ (kcell (c, k))))
          ∗ (bigSep Finset.univ fun k : Fin 33 => iprop(atPos ER (kcell (c, k)) 0 ∅ 0 ∗ reached ER (kcell (c, k)) 0)) ∗ otoks c) : sProp 𝕄)
      ⊢ bigSep Finset.univ (GV' m) := by
  rw [bigSep_sep', bigSep_sep', ← bigSep_univ_prod (fun ck : Dev nD × Fin 33 => iprop(∃ κ : ℕ, cellInv ER (schedV m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (schedV m) κ (kcell ck) : sProp 𝕄))) $$ HI
  icases HK with ⟨%K', #HI⟩
  ihave Htk := (toks_around (F := Ideal)) $$ Htok
  iapply (bigSep_with_persistent (R := recordsV m (Function.extend kcell K' 0)) fun c _ => ghost_introV m (Function.extend kcell K' 0) c)
  isplitr
  · unfold recordsV invsAllV reachedAll
    isplitl
    · iapply (Entails.of_eq (bigSep_congr (s := Finset.univ) fun (ck : Dev nD × Fin 33) _ =>
        show (cellInv ER (schedV m) (K' ck) (kcell ck) : sProp 𝕄) = cellInv ER (schedV m) (Function.extend kcell K' 0 (kcell ck)) (kcell ck) by
          rw [kcell_injective.extend_apply]))
      iexact HI
    · iexact HR
  · iapply (Entails.of_eq (bigSep_sep' Finset.univ (fun c : Dev nD => (posAll c : sProp 𝕄)) (fun c => toks c)).symm)
    isplitl [Hat]; · iexact Hat
    iexact Htk

/-- The global step: own and unscoped semaphores of every device at once. -/
theorem globV :
    (bigSep Finset.univ fun c => iprop(Pipeline.ownSems0 (Ix := ℕ) (Name := ℕ) (U := UU) (Lvl := ℕ) (Val := Elt Ideal) (τ := τ) osem c ∗ unscopedSems0 c ∗ GV m c) : sProp 𝕄)
      ⊢ |={Set.univ}=> bigSep Finset.univ (GV' m) :=
  ((bigSep_mono fun c _ => core_allocV m c).trans (bigSep_fupd _ _)).trans (BI.fupd_mono (regroupV m))

/-! ### The theorem's side conditions -/

/-- What a device enters the pipeline with. -/
def startV (c : Dev nD) : sProp 𝕄 := iprop((∃ K, ghostV m K c) ∗ creds c ∗ levAts L lv)

theorem start_introV (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ GV' m c)
      ⊢ |={Set.univ}=> iprop(startV m c ∗ emp) := by
  iintro ⟨-, Hlev, Hcr, -, HG⟩
  ihave Hc := (creds_of_launch (F := Ideal) c) $$ Hcr
  imodintro
  unfold startV GV'
  isplitl
  · isplitl [HG]; · iexact HG
    isplitl [Hc]; · iexact Hc
    iexact Hlev
  · iempintro

theorem phi0_introV (c : Dev nD) :
    iprop(startV m c ∗ Pipeline.prefHeld Pipeline.Prefetch.none c (fun _ => fullShare.right) (fun k => k.elim0) ∗ Pipeline.scopedRest cfg0.spec c)
      ⊢ (rdatsV m 0 c).Φ 0 := by
  rw [show (rdatsV m 0 c).Φ 0 = Φ₀V m c from rfl, scopedRest0_eq]
  unfold Φ₀V startV scratchAll
  iintro ⟨⟨HG, Hc, Hl⟩, -, Hs⟩
  isplitl [HG]; · iexact HG
  isplitl [Hc]; · iexact Hc
  isplitl [Hl]; · iexact Hl
  iexact Hs

theorem phi1_exitV (c : Dev nD) :
    (rdatsV m 0 c).Φ (Fin.last cfg0.N) ⊢ iprop(emp ∗ Pipeline.ownSems0 osem c ∗ Pipeline.scopedRest cfg0.spec c) := by
  rw [show (rdatsV m 0 c).Φ (Fin.last cfg0.N) = Φ₁ (F := Ideal) c from rfl, scopedRest0_eq, ownSems0_eq]
  unfold Φ₁ scratchAll
  iintro ⟨Hs, Hz⟩
  isplitr; · iempintro
  isplitl [Hz]; · iexact Hz
  iexact Hs

theorem waitsV (mayWait_stage : ∀ (c : Dev nD) (q : DmaSem sig) (O : CellTallies nD τ sig ℕ), (O = O₀ c ∨ O = 0) →
      (levAts L lv : sProp 𝕄) ⊢ MayWait (c : Thread nD τ) (.dma q) 0 O)
    (c : Dev nD) :
    (levAts L lv : sProp 𝕄) ⊢ Pipeline.RDat.cellsWaits cfgs (rdatsV m) 0 0 c :=
  Pipeline.RDat.cellsWaits_intro cfgs (rdatsV m) 0 0 c fun w s t =>
    mayWait_stage c _ _ (by
      rcases t with ⟨_ | _, ht⟩
      · exact Or.inl rfl
      · exact Or.inr rfl)

/-! ### The run -/

/-! ### The result, read off the write-back of the one grid point -/

/-- What the result array may hold after the write-back is the body's result: the window is the whole array, written
    back once, from a staging buffer the body left at the device's block of the result. -/
theorem result_of_arrAt (c : Dev nD) (Fm : Buf (Elt Ideal) ((cfg0.spec 7).arr.view.loc (c.tc : Thread nD τ)))
    (h7 : (rdatsV m 0 c).ArrAt 7 cfg0.N Fm) :
    ∀ idx, Fm idx = OUT m c (idx 0) (idx 1) := by
  have h7' : (rdatsV m 0 c).ArrAt 7 (Gen.t0_0.val + 1) Fm := h7
  rw [Pipeline.RDat.ArrAt_succ, Gen.flush0_7, if_pos rfl] at h7'
  obtain ⟨G₀, X, -, ⟨Y, -, hX⟩, hF⟩ := h7'
  have hX' := (afterV_result m c X).mp hX
  subst hX'
  have hr : ((cfg0.win 7).blk Gen.t0_0).view.read (Elt Ideal) Fm = Fm :=
    Memref.read_access_unit_zero (Elt Ideal) main_v1 (funext fun a => Nat.zero_mul _) _ Fm
  intro idx
  have e1 := congrFun hr idx
  rw [hF, View.read_write_univ] at e1
  rw [hF, ← e1]

/-- From every device's body obligation to the run of the mesh: every weakly fair execution of @main terminates, and
    every final state has each device's result block at the value computed from the launch memory and its argument arrays
    as launched. -/
theorem run_of_body_V (L_of_ne : ∀ g : GSem nD τ sig, g.1.2 ≠ .tc → L g = ∅)
    (mayWait_stage : ∀ (c : Dev nD) (q : DmaSem sig) (O : CellTallies nD τ sig ℕ), (O = O₀ c ∨ O = 0) →
      (levAts L lv : sProp 𝕄) ⊢ MayWait (c : Thread nD τ) (.dma q) 0 O)
    (ρ : Dev nD → PrngReg)
    (hbody : ∀ c, (rdatsV m 0 c).BodyObligation (defs₀ (F := Ideal)) Variants.none 0 Set.univ) :
    θ_run (defs (F := Ideal)) (onTc (τ := τ) (main (F := Ideal))) ⟨m, fun _ => 0, ρ⟩ (fun r => ∀ c : Dev nD,
      (∀ idx, r.2.mem ((c.tc : Thread nD τ).loc main_v1) idx = OUT m c (idx 0) (idx 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.RDat.θ_run_region_owing_glob_pf (pcfgs (F := Ideal)) (fun p => (cfgs p).toPCfg_adm) (rdatsV m) (0 : ℕ) cellOf_inj (0 : Fin 1)
    winFacts0.to₀ ownSemFacts (Pipeline.PreFacts.none _) EP defs₀ Variants.none m ρ main
    (hmain := fun c => (main_chain c).trans rfl)
    (hbody := hbody) (hne := block_pos0) (harr := arr_whole0) (hstage := stage_whole0) (hshare := share_eqV m)
    (hdistinct := winFacts0.arr_inj)
    (O₀ := O₀) (howed₀ := fun _ => rfl) (howedN := fun _ => rfl)
    (L := L) (lv := lv) (hL := L_of_ne) (hwaits := waitsV m mayWait_stage)
    (G := GV m) (G' := GV' m) (u₀ := u₀)
    (hu₀ := by
      unfold u₀
      iintro Hu
      ihave H := (ownU_pair _ _) $$ Hu
      icases H with ⟨HP, HX⟩
      imod (fund_protoV m) $$ HX with HG
      imodintro
      isplitl [HP] <;> iassumption)
    (hglob := globV m)
    (hA := fun _ _ => rfl) (hpf := fun _ k => k.elim0)
    (X := startV m) (Y := fun _ => iprop(emp)) (Z := fun _ => iprop(emp))
    (hX := start_introV m ρ) (hin := phi0_introV m) (hout := phi1_exitV m)
    (QY := fun _ _ => True)
    (hY := fun c s' => by
      iintro ⟨-, -, HSI⟩
      imodintro
      isplitr; · ipureintro; trivial
      iexact HSI)
    (hQ := fun s h c => by
      have h0 := (h c).1 0; have h1 := (h c).1 1; have h2 := (h c).1 2; have h3 := (h c).1 3
      have h4 := (h c).1 4; have h5 := (h c).1 5; have h6 := (h c).1 6
      rw [Pipeline.RDat.ArrAt_in _ 0 rfl] at h0
      rw [Pipeline.RDat.ArrAt_in _ 1 rfl] at h1
      rw [Pipeline.RDat.ArrAt_in _ 2 rfl] at h2
      rw [Pipeline.RDat.ArrAt_in _ 3 rfl] at h3
      rw [Pipeline.RDat.ArrAt_in _ 4 rfl] at h4
      rw [Pipeline.RDat.ArrAt_in _ 5 rfl] at h5
      rw [Pipeline.RDat.ArrAt_in _ 6 rfl] at h6
      exact ⟨result_of_arrAt m c _ ((h c).1 7), h0, h1, h2, h3, h4, h5, h6⟩)

/-- info: 'Cert.KernelIdeal.Val.run_of_body_V' depends on axioms: [propext, Classical.choice, Quot.sound] -/
#guard_msgs in #print axioms run_of_body_V

end Cert.KernelIdeal.Val

end
-- ==== Proof.KernelIdeal.QuietV.lean ====
/- The quiet points with contents (ideal instance): Quiet.lean's states, each buffer that matters now also saying
   on which rows its contents agree with which of the global functions of Values.lean / SchedV.lean. -/
import proofs.«900979_g7700000000000980_dist_mlpseq_tp1d_bs_bs_b256_d256_h512_v7x_i8_bf16_1_alg».proof.Proof.KernelIdeal.StateV
import proofs.«900979_g7700000000000980_dist_mlpseq_tp1d_bs_bs_b256_d256_h512_v7x_i8_bf16_1_alg».proof.Proof.KernelIdeal.Quiet

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig ℕ (Elt Ideal) ℕ UU ℕ

variable (m : Mem)

/-- A whole buffer, or a buffer held except the elements `A`, at contents of which `P` holds. -/
def bufV (c : Dev nD) (b : Ref sig .tc) (P : Buf (Elt Ideal) ((Memref.whole b).view.loc (c : Thread nD τ)) → Prop) : sProp 𝕄 :=
  iprop(∃ f, ptw (F := Ideal) c b f ∗ ⌜P f⌝)
def heldButV (c : Dev nD) (b : Ref sig .tc) (A : Finset (Idx ((Memref.whole b).view.loc (c : Thread nD τ))))
    (P : Buf (Elt Ideal) ((Memref.whole b).view.loc (c : Thread nD τ)) → Prop) : sProp 𝕄 :=
  iprop(∃ f : Buf (Elt Ideal) ((Memref.whole b).view.loc (c : Thread nD τ)),
    ((Memref.whole b).view.loc (c : Thread nD τ) ↦[Finset.univ \ A]{fullShare} f) ∗ ⌜P f⌝)

/-- Rows `b .. b + n - 1` of a buffer of 1024 rows and 256 columns (the gather buffers cc0_scratch0 / 1, the
    accumulators cc0_scratch2 / 3) hold `G` (`n` = 0: nothing is said). -/
def rowsAre0 (c : Dev nD) (G : Fin 1024 → Fin 256 → EReal) (b n : ℕ)
    (f : Buf (Elt Ideal) ((Memref.whole cc0_scratch0).view.loc (c : Thread nD τ))) : Prop :=
  ∀ (row : Fin 1024) (col : Fin 256), b ≤ row.val → row.val < b + n → f (ValueIdx.ix2 row col) = G row col
def rowsAre1 (c : Dev nD) (G : Fin 1024 → Fin 256 → EReal) (b n : ℕ)
    (f : Buf (Elt Ideal) ((Memref.whole cc0_scratch1).view.loc (c : Thread nD τ))) : Prop :=
  ∀ (row : Fin 1024) (col : Fin 256), b ≤ row.val → row.val < b + n → f (ValueIdx.ix2 row col) = G row col
def rowsAre2 (c : Dev nD) (G : Fin 1024 → Fin 256 → EReal) (b n : ℕ)
    (f : Buf (Elt Ideal) ((Memref.whole cc0_scratch2).view.loc (c : Thread nD τ))) : Prop :=
  ∀ (row : Fin 1024) (col : Fin 256), b ≤ row.val → row.val < b + n → f (ValueIdx.ix2 row col) = G row col
def rowsAre3 (c : Dev nD) (G : Fin 1024 → Fin 256 → EReal) (b n : ℕ)
    (f : Buf (Elt Ideal) ((Memref.whole cc0_scratch3).view.loc (c : Thread nD τ))) : Prop :=
  ∀ (row : Fin 1024) (col : Fin 256), b ≤ row.val → row.val < b + n → f (ValueIdx.ix2 row col) = G row col

/-- The weight buffers hold device `c`'s slices of layer `l`'s matrices. -/
def winIs (c : Dev nD) (l : Fin 3) (f : Buf (Elt Ideal) ((Memref.whole cc0_scratch8).view.loc (c : Thread nD τ))) : Prop :=
  ∀ (e : Fin 256) (k : Fin 512), f (ValueIdx.ix2 e k) = winOf m l c e k
def woutIs (c : Dev nD) (l : Fin 3) (f : Buf (Elt Ideal) ((Memref.whole cc0_scratch9).view.loc (c : Thread nD τ))) : Prop :=
  ∀ (k : Fin 512) (col : Fin 256), f (ValueIdx.ix2 k col) = woutOf m l c k col

/-- The buffers no copy touches, with what matters of their contents: the seven input windows hold the device's
    blocks as launched; the output window, the two accumulators (cc0_scratch2 / 3) and the two send buffers (4 / 5)
    satisfy the given predicates; the weight buffers hold layer `lw`'s slices. -/
def localBufsV (c : Dev nD) (lw : Fin 3)
    (out : Buf (Elt Ideal) ((Memref.whole cc0_stg7_0).view.loc (c : Thread nD τ)) → Prop)
    (P2 : Buf (Elt Ideal) ((Memref.whole cc0_scratch2).view.loc (c : Thread nD τ)) → Prop) (P3 : Buf (Elt Ideal) ((Memref.whole cc0_scratch3).view.loc (c : Thread nD τ)) → Prop) (P4 : Buf (Elt Ideal) ((Memref.whole cc0_scratch4).view.loc (c : Thread nD τ)) → Prop) (P5 : Buf (Elt Ideal) ((Memref.whole cc0_scratch5).view.loc (c : Thread nD τ)) → Prop) : sProp 𝕄 :=
  iprop(bufV c cc0_stg0_0 (fun f => ∀ i, f i = m ((c : Thread nD τ).loc main_arg0) i)
    ∗ bufV c cc0_stg1_0 (fun f => ∀ i, f i = m ((c : Thread nD τ).loc main_arg1) i)
    ∗ bufV c cc0_stg2_0 (fun f => ∀ i, f i = m ((c : Thread nD τ).loc main_arg2) i)
    ∗ bufV c cc0_stg3_0 (fun f => ∀ i, f i = m ((c : Thread nD τ).loc main_arg3) i)
    ∗ bufV c cc0_stg4_0 (fun f => ∀ i, f i = m ((c : Thread nD τ).loc main_arg4) i)
    ∗ bufV c cc0_stg5_0 (fun f => ∀ i, f i = m ((c : Thread nD τ).loc main_arg5) i)
    ∗ bufV c cc0_stg6_0 (fun f => ∀ i, f i = m ((c : Thread nD τ).loc main_arg6) i)
    ∗ bufV c cc0_stg7_0 out
    ∗ bufV c cc0_scratch2 P2 ∗ bufV c cc0_scratch3 P3 ∗ bufV c cc0_scratch4 P4 ∗ bufV c cc0_scratch5 P5
    ∗ bufV c cc0_scratch8 (winIs m c lw) ∗ bufV c cc0_scratch9 (woutIs m c lw))

/-- A quiet point with contents: Quiet.lean's core over the schedule with contents; the local buffers as above; the
    gather buffers (cc0_scratch0 / 1) held except `A0` / `A1` with `P0` / `P1` of their contents; the receive buffers
    (6 / 7) held except `A6` / `A7` with `P6` / `P7`; the slots held of the partners (`Gr`). -/
def QV (K : GSem nD τ sig → ℕ) (c : Dev nD) (k₀ : ℕ) (lw : Fin 3)
    (out : Buf (Elt Ideal) ((Memref.whole cc0_stg7_0).view.loc (c : Thread nD τ)) → Prop)
    (P0 : Buf (Elt Ideal) ((Memref.whole cc0_scratch0).view.loc (c : Thread nD τ)) → Prop) (P1 : Buf (Elt Ideal) ((Memref.whole cc0_scratch1).view.loc (c : Thread nD τ)) → Prop) (P2 : Buf (Elt Ideal) ((Memref.whole cc0_scratch2).view.loc (c : Thread nD τ)) → Prop) (P3 : Buf (Elt Ideal) ((Memref.whole cc0_scratch3).view.loc (c : Thread nD τ)) → Prop) (P4 : Buf (Elt Ideal) ((Memref.whole cc0_scratch4).view.loc (c : Thread nD τ)) → Prop) (P5 : Buf (Elt Ideal) ((Memref.whole cc0_scratch5).view.loc (c : Thread nD τ)) → Prop) (P6 : Buf (Elt Ideal) ((Memref.whole cc0_scratch6).view.loc (c : Thread nD τ)) → Prop) (P7 : Buf (Elt Ideal) ((Memref.whole cc0_scratch7).view.loc (c : Thread nD τ)) → Prop)
    (A0 : Finset (Idx ((Memref.whole cc0_scratch0).view.loc (c : Thread nD τ)))) (A1 : Finset (Idx ((Memref.whole cc0_scratch1).view.loc (c : Thread nD τ))))
    (A6 : Finset (Idx ((Memref.whole cc0_scratch6).view.loc (c : Thread nD τ)))) (A7 : Finset (Idx ((Memref.whole cc0_scratch7).view.loc (c : Thread nD τ))))
    (Gr : sProp 𝕄) : sProp 𝕄 :=
  iprop(invsAllV m K ∗ reachedAll ∗ levAts L lv ∗ atPos ER (barCell c) 1 ∅ 0
    ∗ posAt c (roundsDone k₀) ∗ toksCopies c k₀ (copyTab.drop k₀) ∗ credsCopies c k₀ (copyTab.drop k₀)
    ∗ (∃ W, owes (c : Thread nD τ) (owedFrom c k₀) W)
    ∗ localBufsV m c lw out P2 P3 P4 P5
    ∗ heldButV c cc0_scratch0 A0 P0 ∗ heldButV c cc0_scratch1 A1 P1
    ∗ heldButV c cc0_scratch6 A6 P6 ∗ heldButV c cc0_scratch7 A7 P7 ∗ Gr)

/-- The first row of device `c`'s four blocks in stream `s`. -/
def quadRow (s : Fin 2) (c : Dev nD) : ℕ := match s with | 0 => k0_off9 c 0 | 1 => k0_off10 c 0

/-- The first `n` rows of the first stream's send buffer hold `G` on rows `b ..`: it is filled at the end of the
    segment before the one that sends it. -/
def sndIs (c : Dev nD) (G : Fin 1024 → Fin 256 → EReal) (b n : ℕ)
    (f : Buf (Elt Ideal) ((Memref.whole cc0_scratch4).view.loc (c : Thread nD τ))) : Prop :=
  ∀ (t : Fin 512) (col : Fin 256), t.val < n → f (ValueIdx.ix2 t col) = nat2 G (b + t.val) col.val

/-- Rows `r0 .. r0 + n - 1` of a receive buffer (cc0_scratch6: first stream, 7: second) hold `G` on rows `b ..`. -/
def slot6Is (c : Dev nD) (G : Fin 1024 → Fin 256 → EReal) (r0 b n : ℕ)
    (f : Buf (Elt Ideal) ((Memref.whole cc0_scratch6).view.loc (c : Thread nD τ))) : Prop :=
  ∀ (t : Fin 1280) (col : Fin 256), r0 ≤ t.val → t.val < r0 + n → f (ValueIdx.ix2 t col) = nat2 G (b + (t.val - r0)) col.val
def slot7Is (c : Dev nD) (G : Fin 1024 → Fin 256 → EReal) (r0 b n : ℕ)
    (f : Buf (Elt Ideal) ((Memref.whole cc0_scratch7).view.loc (c : Thread nD τ))) : Prop :=
  ∀ (t : Fin 1280) (col : Fin 256), r0 ≤ t.val → t.val < r0 + n → f (ValueIdx.ix2 t col) = nat2 G (b + (t.val - r0)) col.val

/-- Rows 768 .. 895 of the second stream's receive buffer hold `G` on the device's own 128 rows of that stream. -/
def lastSlotIs (c : Dev nD) (G : Fin 1024 → Fin 256 → EReal) (b : ℕ)
    (f : Buf (Elt Ideal) ((Memref.whole cc0_scratch7).view.loc (c : Thread nD τ))) : Prop :=
  ∀ (t : Fin 128) (col : Fin 256), f (ValueIdx.ix2 (⟨768 + t.val, by omega⟩ : Fin 1280) col) = nat2 G (b + t.val) col.val

/-- The first 128 rows of the output window hold the result. -/
def outHalf (c : Dev nD) (f : Buf (Elt Ideal) ((Memref.whole cc0_stg7_0).view.loc (c : Thread nD τ))) : Prop :=
  ∀ (r : Fin 256) (col : Fin 256), r.val < 128 → f (ValueIdx.ix2 r col) = OUT m c r col
/-- All of it does. -/
def outAll (c : Dev nD) (f : Buf (Elt Ideal) ((Memref.whole cc0_stg7_0).view.loc (c : Thread nD τ))) : Prop :=
  ∀ (r : Fin 256) (col : Fin 256), f (ValueIdx.ix2 r col) = OUT m c r col

end Cert.KernelIdeal.Val

end
-- ==== Proof.KernelIdeal.SpecsV.lean ====
/- What each segment has to establish, with contents (ideal instance): Specs.lean's statements over the states of QuietV.lean. -/
import proofs.«900979_g7700000000000980_dist_mlpseq_tp1d_bs_bs_b256_d256_h512_v7x_i8_bf16_1_alg».proof.Proof.KernelIdeal.QuietV
import proofs.«900979_g7700000000000980_dist_mlpseq_tp1d_bs_bs_b256_d256_h512_v7x_i8_bf16_1_alg».proof.Proof.KernelIdeal.Segments

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

variable (m : Mem)

/-- The quiet point after segment 1 (4 copies), with contents (a first statement: the segment's owner states the exact one). -/
def QV1 (K : GSem nD τ sig → ℕ) (c : Dev nD) : sProp 𝕄 :=
  QV m K c 4 0 (fun _ => True) (rowsAre0 c (A m 0 0) ((fun s => quadRow s c) 0) 512) (rowsAre1 c (A m 0 1) ((fun s => quadRow s c) 1) 512) (rowsAre2 c ((fun s => Pt m 0 s c) 0) ((fun s => pairRow s c) 0) 256) (rowsAre3 c ((fun s => Pt m 0 s c) 1) ((fun s => pairRow s c) 1) 256) (fun _ => True) (fun _ => True) (fun _ => True) (fun _ => True) (VE2 0 (xr 4 c)).view.set (VE2 1 (xr 1 c)).view.set (R2 0).view.set ∅ iprop(grant (xr 4 c) (VE2 0 c) (agR 0 2) 0 ∗ grant (xr 1 c) (VE2 1 c) (agR 1 2) 0 ∗ grant (xr 3 c) (R2 0) (rsR 0 1) 0)

/-- The quiet point after segment 2 (6 copies), with contents (a first statement: the segment's owner states the exact one). -/
def QV2 (K : GSem nD τ sig → ℕ) (c : Dev nD) : sProp 𝕄 :=
  QV m K c 6 0 (fun _ => True) (rowsAre0 c (A m 0 0) ((fun _ => 0) 0) 1024) (rowsAre1 c (A m 0 1) ((fun _ => 0) 1) 1024) (rowsAre2 c ((fun s => Pt m 0 s c) 0) ((fun s => quadRow s c) 0) 512) (rowsAre3 c ((fun s => Pt m 0 s c) 1) ((fun s => quadRow s c) 1) 512) (fun _ => True) (fun _ => True) (fun _ => True) (fun _ => True) ∅ ∅ ((R0 0).view.set ∪ (R1 0).view.set ∪ (R2 0).view.set) ((R0 1).view.set ∪ (R1 1).view.set) iprop(grant (xr 4 c) (R0 0) (rsR 0 0) 0 ∗ grant (xr 1 c) (R0 1) (rsR 1 0) 0 ∗ grant (xr 4 c) (R1 0) (rsR 0 4) 0 ∗ grant (xr 1 c) (R1 1) (rsR 1 4) 0 ∗ grant (xr 3 c) (R2 0) (rsR 0 1) 0)

/-- The quiet point after segment 3 (10 copies), with contents (a first statement: the segment's owner states the exact one). -/
def QV3 (K : GSem nD τ sig → ℕ) (c : Dev nD) : sProp 𝕄 :=
  QV m K c 10 1 (fun _ => True) (rowsAre0 c (A m 0 0) ((fun _ => 0) 0) 0) (rowsAre1 c (A m 0 1) ((fun _ => 0) 1) 0) (rowsAre2 c ((fun s => S1 m 0 s c) 0) ((fun s => quadRow s c) 0) 512) (rowsAre3 c ((fun s => S1 m 0 s c) 1) ((fun s => quadRow s c) 1) 512) (sndIs c (S1 m 0 0 c) (pair2Row 0 c) 256) (fun _ => True) (fun _ => True) (fun _ => True) ∅ ∅ ((R2 0).view.set ∪ (R3 0).view.set) (R2 1).view.set iprop(grant (xr 3 c) (R2 0) (rsR 0 1) 0 ∗ grant (xr 4 c) (R2 1) (rsR 1 1) 0 ∗ grantLast (xr 1 c) 0 0)

/-- The quiet point after segment 4 (12 copies), with contents (a first statement: the segment's owner states the exact one). -/
def QV4 (K : GSem nD τ sig → ℕ) (c : Dev nD) : sProp 𝕄 :=
  QV m K c 12 1 (fun _ => True) (rowsAre0 c (A m 0 0) ((fun _ => 0) 0) 0) (rowsAre1 c (A m 0 1) ((fun _ => 0) 1) 0) (rowsAre2 c ((fun s => S2 m 0 s c) 0) ((fun s => pairRow s c) 0) 256) (rowsAre3 c ((fun s => S2 m 0 s c) 1) ((fun s => pairRow s c) 1) 256) (sndIs c (S2 m 0 0 c) (pairRow 0 c) 256) (fun _ => True) (fun _ => True) (fun _ => True) ∅ (VE1 1 (xr 4 c)).view.set (R3 0).view.set (R3 1).view.set iprop(grantLast (xr 1 c) 0 0 ∗ grantLast (xr 3 c) 1 0 ∗ grant (xr 4 c) (VE1 1 c) (agR 1 1) 1)

/-- The quiet point after segment 5 (14 copies), with contents (a first statement: the segment's owner states the exact one). -/
def QV5 (K : GSem nD τ sig → ℕ) (c : Dev nD) : sProp 𝕄 :=
  QV m K c 14 1 (fun _ => True) (rowsAre0 c (A m 1 0) ((fun s => pairRow s c) 0) 256) (rowsAre1 c (A m 1 1) ((fun s => pairRow s c) 1) 256) (rowsAre2 c ((fun s => S2 m 0 s c) 0) ((fun s => pairRow s c) 0) 0) (rowsAre3 c ((fun s => S2 m 0 s c) 1) ((fun s => pairRow s c) 1) 0) (fun _ => True) (fun _ => True) (fun _ => True) (fun _ => True) (VE1 0 (xr 3 c)).view.set ((VE1 1 (xr 4 c)).view.set ∪ (VE2 1 (xr 1 c)).view.set) ∅ ∅ iprop(grant (xr 3 c) (VE1 0 c) (agR 0 1) 1 ∗ grant (xr 4 c) (VE1 1 c) (agR 1 1) 1 ∗ grant (xr 1 c) (VE2 1 c) (agR 1 2) 1)

/-- The quiet point after segment 6 (18 copies), with contents (a first statement: the segment's owner states the exact one). -/
def QV6 (K : GSem nD τ sig → ℕ) (c : Dev nD) : sProp 𝕄 :=
  QV m K c 18 1 (fun _ => True) (rowsAre0 c (A m 1 0) ((fun _ => 0) 0) 1024) (rowsAre1 c (A m 1 1) ((fun _ => 0) 1) 1024) (rowsAre2 c ((fun s => Pt m 1 s c) 0) ((fun s => quadRow s c) 0) 512) (rowsAre3 c ((fun s => Pt m 1 s c) 1) ((fun s => quadRow s c) 1) 512) (fun _ => True) (fun _ => True) (fun _ => True) (fun _ => True) ∅ ∅ ((R0 0).view.set ∪ (R1 0).view.set ∪ (R2 0).view.set) ((R0 1).view.set ∪ (R1 1).view.set) iprop(grant (xr 4 c) (R0 0) (rsR 0 0) 1 ∗ grant (xr 1 c) (R0 1) (rsR 1 0) 1 ∗ grant (xr 4 c) (R1 0) (rsR 0 4) 1 ∗ grant (xr 1 c) (R1 1) (rsR 1 4) 1 ∗ grant (xr 3 c) (R2 0) (rsR 0 1) 1)

/-- The quiet point after segment 7 (22 copies), with contents (a first statement: the segment's owner states the exact one). -/
def QV7 (K : GSem nD τ sig → ℕ) (c : Dev nD) : sProp 𝕄 :=
  QV m K c 22 2 (fun _ => True) (rowsAre0 c (A m 1 0) ((fun _ => 0) 0) 0) (rowsAre1 c (A m 1 1) ((fun _ => 0) 1) 0) (rowsAre2 c ((fun s => S1 m 1 s c) 0) ((fun s => quadRow s c) 0) 512) (rowsAre3 c ((fun s => S1 m 1 s c) 1) ((fun s => quadRow s c) 1) 512) (fun _ => True) (fun _ => True) (fun _ => True) (fun _ => True) ∅ ∅ ((R2 0).view.set ∪ (R4 0).view.set) (R2 1).view.set iprop(grant (xr 3 c) (R2 0) (rsR 0 1) 1 ∗ grant (xr 4 c) (R2 1) (rsR 1 1) 1 ∗ grantLast (xr 1 c) 0 1)

/-- The quiet point after segment 8 (24 copies), with contents (a first statement: the segment's owner states the exact one). -/
def QV8 (K : GSem nD τ sig → ℕ) (c : Dev nD) : sProp 𝕄 :=
  QV m K c 24 2 (fun _ => True) (rowsAre0 c (A m 1 0) ((fun _ => 0) 0) 0) (rowsAre1 c (A m 1 1) ((fun _ => 0) 1) 0) (rowsAre2 c ((fun s => S2 m 1 s c) 0) ((fun s => pairRow s c) 0) 256) (rowsAre3 c ((fun s => S2 m 1 s c) 1) ((fun s => pairRow s c) 1) 256) (sndIs c (S2 m 1 0 c) (pairRow 0 c) 256) (fun _ => True) (fun _ => True) (fun _ => True) ∅ (VE1 1 (xr 4 c)).view.set (R4 0).view.set (R4 1).view.set iprop(grantLast (xr 1 c) 0 1 ∗ grantLast (xr 3 c) 1 1 ∗ grant (xr 4 c) (VE1 1 c) (agR 1 1) 2)

/-- The quiet point after segment 9 (26 copies), with contents (a first statement: the segment's owner states the exact one). -/
def QV9 (K : GSem nD τ sig → ℕ) (c : Dev nD) : sProp 𝕄 :=
  QV m K c 26 2 (fun _ => True) (rowsAre0 c (A m 2 0) ((fun s => pairRow s c) 0) 256) (rowsAre1 c (A m 2 1) ((fun s => pairRow s c) 1) 256) (rowsAre2 c ((fun s => S2 m 1 s c) 0) ((fun s => pairRow s c) 0) 0) (rowsAre3 c ((fun s => S2 m 1 s c) 1) ((fun s => pairRow s c) 1) 0) (fun _ => True) (fun _ => True) (fun _ => True) (fun _ => True) (VE1 0 (xr 3 c)).view.set ((VE1 1 (xr 4 c)).view.set ∪ (VE2 1 (xr 1 c)).view.set) ∅ ∅ iprop(grant (xr 3 c) (VE1 0 c) (agR 0 1) 2 ∗ grant (xr 4 c) (VE1 1 c) (agR 1 1) 2 ∗ grant (xr 1 c) (VE2 1 c) (agR 1 2) 2)

/-- The quiet point after segment 10 (28 copies), with contents (a first statement: the segment's owner states the exact one). -/
def QV10 (K : GSem nD τ sig → ℕ) (c : Dev nD) : sProp 𝕄 :=
  QV m K c 28 2 (fun _ => True) (rowsAre0 c (A m 2 0) ((fun s => quadRow s c) 0) 512) (rowsAre1 c (A m 2 1) ((fun s => quadRow s c) 1) 512) (rowsAre2 c ((fun s => Pt m 2 s c) 0) ((fun s => pairRow s c) 0) 256) (rowsAre3 c ((fun s => Pt m 2 s c) 1) ((fun s => pairRow s c) 1) 256) (fun _ => True) (fun _ => True) (fun _ => True) (fun _ => True) (VE2 0 (xr 4 c)).view.set (VE2 1 (xr 1 c)).view.set (R2 0).view.set ∅ iprop(grant (xr 4 c) (VE2 0 c) (agR 0 2) 2 ∗ grant (xr 1 c) (VE2 1 c) (agR 1 2) 2 ∗ grant (xr 3 c) (R2 0) (rsR 0 1) 2)

/-- The quiet point after segment 11 (30 copies), with contents (a first statement: the segment's owner states the exact one). -/
def QV11 (K : GSem nD τ sig → ℕ) (c : Dev nD) : sProp 𝕄 :=
  QV m K c 30 2 (fun _ => True) (rowsAre0 c (A m 2 0) ((fun _ => 0) 0) 1024) (rowsAre1 c (A m 2 1) ((fun _ => 0) 1) 1024) (rowsAre2 c ((fun s => Pt m 2 s c) 0) ((fun s => quadRow s c) 0) 512) (rowsAre3 c ((fun s => Pt m 2 s c) 1) ((fun s => quadRow s c) 1) 512) (fun _ => True) (fun _ => True) (fun _ => True) (fun _ => True) ∅ ∅ ((R0 0).view.set ∪ (R1 0).view.set ∪ (R2 0).view.set) ((R0 1).view.set ∪ (R1 1).view.set) iprop(grant (xr 4 c) (R0 0) (rsR 0 0) 2 ∗ grant (xr 1 c) (R0 1) (rsR 1 0) 2 ∗ grant (xr 4 c) (R1 0) (rsR 0 4) 2 ∗ grant (xr 1 c) (R1 1) (rsR 1 4) 2 ∗ grant (xr 3 c) (R2 0) (rsR 0 1) 2)

/-- The quiet point after segment 12 (34 copies), with contents (a first statement: the segment's owner states the exact one). -/
def QV12 (K : GSem nD τ sig → ℕ) (c : Dev nD) : sProp 𝕄 :=
  QV m K c 34 2 (fun _ => True) (rowsAre0 c (A m 2 0) ((fun _ => 0) 0) 0) (rowsAre1 c (A m 2 1) ((fun _ => 0) 1) 0) (rowsAre2 c ((fun s => S1 m 2 s c) 0) ((fun s => quadRow s c) 0) 512) (rowsAre3 c ((fun s => S1 m 2 s c) 1) ((fun s => quadRow s c) 1) 512) (fun _ => True) (fun _ => True) (fun _ => True) (fun _ => True) ∅ ∅ ((R2 0).view.set ∪ (R3h 0).view.set) (R2 1).view.set iprop(grant (xr 3 c) (R2 0) (rsR 0 1) 2 ∗ grant (xr 4 c) (R2 1) (rsR 1 1) 2 ∗ grantLast (xr 1 c) 0 2)

/-- The quiet point after segment 13 (36 copies), with contents (a first statement: the segment's owner states the exact one). -/
def QV13 (K : GSem nD τ sig → ℕ) (c : Dev nD) : sProp 𝕄 :=
  QV m K c 36 2 (fun _ => True) (rowsAre0 c (A m 2 0) ((fun _ => 0) 0) 0) (rowsAre1 c (A m 2 1) ((fun _ => 0) 1) 0) (rowsAre2 c ((fun s => S2 m 2 s c) 0) ((fun s => pairRow s c) 0) 256) (rowsAre3 c ((fun s => S2 m 2 s c) 1) ((fun s => pairRow s c) 1) 256) (sndIs c (S2 m 2 0 c) (k0_off19 c 0) 128) (fun _ => True) (fun _ => True) (fun _ => True) ∅ ∅ (R3h 0).view.set (R3h 1).view.set iprop(grantLast (xr 1 c) 0 2 ∗ grantLast (xr 3 c) 1 2 ∗ emp)

/-- The quiet point after segment 14 (38 copies), with contents (a first statement: the segment's owner states the exact one). -/
def QV14 (K : GSem nD τ sig → ℕ) (c : Dev nD) : sProp 𝕄 :=
  QV m K c 38 2 (outHalf m c) (rowsAre0 c (A m 2 0) ((fun _ => 0) 0) 0) (rowsAre1 c (A m 2 1) ((fun _ => 0) 1) 0) (rowsAre2 c ((fun s => S2 m 2 s c) 0) ((fun s => pairRow s c) 0) 256) (rowsAre3 c ((fun s => S2 m 2 s c) 1) ((fun s => pairRow s c) 1) 256) (fun _ => True) (fun _ => True) (fun _ => True) (lastSlotIs c (S2 m 2 1 (xr 3 c)) (ownRow 1 c)) ∅ ∅ ∅ ∅ iprop(emp)

/-- Segment 2, with contents. -/
def SpecV2 (c : Dev nD) : Prop :=
  ∀ (v2 : BitVec 32) (v11 : BitVec 32) (v131 : BitVec 32) (v134 : BitVec 32) (v185 : BitVec 32) (v187 : BitVec 32),
    (iprop(∃ K, QV1 m K c) : sProp 𝕄)
      ⊢ wp frame (wpE (defs₀ (F := Ideal)) Variants.none (c : Thread nD τ) none) Set.univ
          (seg2 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v131 v134 v185 v187)
          (fun _ => iprop(∃ K, QV2 m K c))

/-- Segment 3, with contents. -/
def SpecV3 (c : Dev nD) : Prop :=
  ∀ (v2 : BitVec 32) (v131 : BitVec 32) (v134 : BitVec 32) (v264 : BitVec 32) (v268 : BitVec 32),
    (iprop(∃ K, QV2 m K c) : sProp 𝕄)
      ⊢ wp frame (wpE (defs₀ (F := Ideal)) Variants.none (c : Thread nD τ) none) Set.univ
          (seg3 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134 v264 v268)
          (fun _ => iprop(∃ K, QV3 m K c))

/-- Segment 4, with contents. -/
def SpecV4 (c : Dev nD) : Prop :=
  ∀ (v2 : BitVec 32) (v131 : BitVec 32) (v134 : BitVec 32) (v496 : BitVec 32) (v500 : BitVec 32),
    (iprop(∃ K, QV3 m K c) : sProp 𝕄)
      ⊢ wp frame (wpE (defs₀ (F := Ideal)) Variants.none (c : Thread nD τ) none) Set.univ
          (seg4 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134 v496 v500)
          (fun _ => iprop(∃ K, QV4 m K c))

/-- Segment 5, with contents. -/
def SpecV5 (c : Dev nD) : Prop :=
  ∀ (v2 : BitVec 32) (v131 : BitVec 32) (v134 : BitVec 32),
    (iprop(∃ K, QV4 m K c) : sProp 𝕄)
      ⊢ wp frame (wpE (defs₀ (F := Ideal)) Variants.none (c : Thread nD τ) none) Set.univ
          (seg5 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134)
          (fun _ => iprop(∃ K, QV5 m K c))

/-- Segment 6, with contents. -/
def SpecV6 (c : Dev nD) : Prop :=
  ∀ (v2 : BitVec 32) (v11 : BitVec 32) (v652 : BitVec 32),
    (iprop(∃ K, QV5 m K c) : sProp 𝕄)
      ⊢ wp frame (wpE (defs₀ (F := Ideal)) Variants.none (c : Thread nD τ) none) Set.univ
          (seg6 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v652)
          (fun _ => iprop(∃ K, QV6 m K c))

/-- Segment 7, with contents. -/
def SpecV7 (c : Dev nD) : Prop :=
  ∀ (v2 : BitVec 32) (v678 : BitVec 32) (v681 : BitVec 32) (v811 : BitVec 32) (v815 : BitVec 32) (v818 : Vec Ideal S256x256 .bf16),
    (iprop(∃ K, QV6 m K c) : sProp 𝕄)
      ⊢ wp frame (wpE (defs₀ (F := Ideal)) Variants.none (c : Thread nD τ) none) Set.univ
          (seg7 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v811 v815 v818)
          (fun _ => iprop(∃ K, QV7 m K c))

/-- Segment 8, with contents. -/
def SpecV8 (c : Dev nD) : Prop :=
  ∀ (v2 : BitVec 32) (v678 : BitVec 32) (v681 : BitVec 32) (v1041 : FVec Ideal S256x256 .f32),
    (iprop(∃ K, QV7 m K c) : sProp 𝕄)
      ⊢ wp frame (wpE (defs₀ (F := Ideal)) Variants.none (c : Thread nD τ) none) Set.univ
          (seg8 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v1041)
          (fun _ => iprop(∃ K, QV8 m K c))

/-- Segment 9, with contents. -/
def SpecV9 (c : Dev nD) : Prop :=
  ∀ (v2 : BitVec 32) (v678 : BitVec 32) (v681 : BitVec 32) (v1121 : BitVec 32),
    (iprop(∃ K, QV8 m K c) : sProp 𝕄)
      ⊢ wp frame (wpE (defs₀ (F := Ideal)) Variants.none (c : Thread nD τ) none) Set.univ
          (seg9 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v1121)
          (fun _ => iprop(∃ K, QV9 m K c))

/-- Segment 10, with contents. -/
def SpecV10 (c : Dev nD) : Prop :=
  ∀ (v2 : BitVec 32) (v11 : BitVec 32) (v1191 : FVec Ideal S256x256 .bf16),
    (iprop(∃ K, QV9 m K c) : sProp 𝕄)
      ⊢ wp frame (wpE (defs₀ (F := Ideal)) Variants.none (c : Thread nD τ) none) Set.univ
          (seg10 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v1191)
          (fun _ => iprop(∃ K, QV10 m K c))

/-- Segment 11, with contents. -/
def SpecV11 (c : Dev nD) : Prop :=
  ∀ (v2 : BitVec 32) (v11 : BitVec 32) (v1225 : BitVec 32) (v1228 : BitVec 32) (v1279 : BitVec 32),
    (iprop(∃ K, QV10 m K c) : sProp 𝕄)
      ⊢ wp frame (wpE (defs₀ (F := Ideal)) Variants.none (c : Thread nD τ) none) Set.univ
          (seg11 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v1225 v1228 v1279)
          (fun _ => iprop(∃ K, QV11 m K c))

/-- Segment 12, with contents. -/
def SpecV12 (c : Dev nD) : Prop :=
  ∀ (v2 : BitVec 32) (v1225 : BitVec 32) (v1228 : BitVec 32) (v1358 : BitVec 32) (v1362 : BitVec 32) (v1385 : FVec Ideal S256x512 .bf16) (v1386 : Vec Ideal S512x256 .bf16) (cst_1075 : FVec Ideal S256x256 .f32),
    (iprop(∃ K, QV11 m K c) : sProp 𝕄)
      ⊢ wp frame (wpE (defs₀ (F := Ideal)) Variants.none (c : Thread nD τ) none) Set.univ
          (seg12 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v1225 v1228 v1358 v1362 v1385 v1386 cst_1075)
          (fun _ => iprop(∃ K, QV12 m K c))

/-- Segment 13, with contents. -/
def SpecV13 (c : Dev nD) : Prop :=
  ∀ (v2 : BitVec 32) (v11 : BitVec 32) (v1225 : BitVec 32) (v1228 : BitVec 32) (v1571 : FVec Ideal S256x256 .f32),
    (iprop(∃ K, QV12 m K c) : sProp 𝕄)
      ⊢ wp frame (wpE (defs₀ (F := Ideal)) Variants.none (c : Thread nD τ) none) Set.univ
          (seg13 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v1225 v1228 v1571)
          (fun _ => iprop(∃ K, QV13 m K c))

/-- Segment 14, with contents. -/
def SpecV14 (c : Dev nD) : Prop :=
  ∀ (v2 : BitVec 32) (v1657 : BitVec 32) (v1659 : BitVec 32) (v1661 : BitVec 32),
    (iprop(∃ K, QV13 m K c) : sProp 𝕄)
      ⊢ wp frame (wpE (defs₀ (F := Ideal)) Variants.none (c : Thread nD τ) none) Set.univ
          (seg14 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v1657 v1659 v1661)
          (fun _ => iprop(∃ K, QV14 m K c))

end Cert.KernelIdeal.Val

end
-- ==== Proof.KernelIdeal.BodyV.lean ====
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StateV
import proofs.«900979_g7700000000000980_dist_mlpseq_tp1d_bs_bs_b256_d256_h512_v7x_i8_bf16_1_alg».proof.Proof.KernelIdeal.Compose

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

/-! # One device's body with contents: the two ends, and the body from its segments

   As without contents, the body goes from the state the launch hands a device to the state it hands back through the
   fourteen points where no copy is in flight. What the launch learns at the end is now the contents of the result
   window's staging buffer: the device's block of the result, as a function of the launch memory. -/

variable (m : Mem)

/-- Before the body: the launch's state with contents, what is owed, and the eight windows' staging buffers at `Y`. -/
def PreBodyV (c : Dev nD) (Y : (w : Fin cfg0.W) → (cfg0.win w).block.Idx → Elt Ideal (cfg0.win w).elt) : sProp 𝕄 :=
  iprop(Φ₀V m c ∗ (rdatsV m 0 c).owesAt 0 Gen.t0_0.castSucc
      ∗ owns (c : Thread nD τ) (Memref.whole cc0_stg0_0) fullShare (Y 0)
      ∗ owns (c : Thread nD τ) (Memref.whole cc0_stg1_0) fullShare (Y 1)
      ∗ owns (c : Thread nD τ) (Memref.whole cc0_stg2_0) fullShare (Y 2)
      ∗ owns (c : Thread nD τ) (Memref.whole cc0_stg3_0) fullShare (Y 3)
      ∗ owns (c : Thread nD τ) (Memref.whole cc0_stg4_0) fullShare (Y 4)
      ∗ owns (c : Thread nD τ) (Memref.whole cc0_stg5_0) fullShare (Y 5)
      ∗ owns (c : Thread nD τ) (Memref.whole cc0_stg6_0) fullShare (Y 6)
      ∗ owns (c : Thread nD τ) (Memref.whole cc0_stg7_0) fullShare (Y 7))

/-- After it: the launch's closing state, nothing owed, and each window's staging buffer at contents the proof data
    allows after the body — for the result window, the device's block of the result. -/
def PostBodyV (c : Dev nD) : sProp 𝕄 :=
  iprop(Φ₁ (F := Ideal) c ∗ (rdatsV m 0 c).owesAt 0 Gen.t0_0.succ
      ∗ (∃ X, ⌜afterV m c 0 X⌝ ∗ owns (c : Thread nD τ) (Memref.whole cc0_stg0_0) fullShare X)
      ∗ (∃ X, ⌜afterV m c 1 X⌝ ∗ owns (c : Thread nD τ) (Memref.whole cc0_stg1_0) fullShare X)
      ∗ (∃ X, ⌜afterV m c 2 X⌝ ∗ owns (c : Thread nD τ) (Memref.whole cc0_stg2_0) fullShare X)
      ∗ (∃ X, ⌜afterV m c 3 X⌝ ∗ owns (c : Thread nD τ) (Memref.whole cc0_stg3_0) fullShare X)
      ∗ (∃ X, ⌜afterV m c 4 X⌝ ∗ owns (c : Thread nD τ) (Memref.whole cc0_stg4_0) fullShare X)
      ∗ (∃ X, ⌜afterV m c 5 X⌝ ∗ owns (c : Thread nD τ) (Memref.whole cc0_stg5_0) fullShare X)
      ∗ (∃ X, ⌜afterV m c 6 X⌝ ∗ owns (c : Thread nD τ) (Memref.whole cc0_stg6_0) fullShare X)
      ∗ (∃ X, ⌜afterV m c 7 X⌝ ∗ owns (c : Thread nD τ) (Memref.whole cc0_stg7_0) fullShare X))

/-- Segment 1 with contents: the staging buffers are what the pipeline may have left in them (for an input window,
    the array's block it fetched). -/
def SpecV1 (c : Dev nD) : Prop :=
  ∀ Y, (∀ w, (rdatsV m 0 c).Finds w Gen.t0_0 (Y w)) → (PreBodyV m c Y)
      ⊢ wp frame (wpE (defs₀ (F := Ideal)) Variants.none (c : Thread nD τ) none) Set.univ
          (seg1 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17)
          (fun r => iprop(⌜r.1 = c⌝ ∗ ∃ K, QV1 m K c))

/-- Segment 15 with contents: the last loads and the store of the result's second half; the result window's staging
    buffer ends at the device's block of the result. -/
def SpecV15 (c : Dev nD) : Prop :=
  (iprop(∃ K, QV14 m K c) : sProp 𝕄)
    ⊢ wp frame (wpE (defs₀ (F := Ideal)) Variants.none (c : Thread nD τ) none) Set.univ
        (seg15 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c)
        (fun _ => PostBodyV m c)

/-- The assertions between the segments. -/
def PstV (c : Dev nD) (Y : (w : Fin cfg0.W) → (cfg0.win w).block.Idx → Elt Ideal (cfg0.win w).elt) : Fin 16 → sProp 𝕄
  | ⟨0, _⟩ => PreBodyV m c Y
  | ⟨1, _⟩ => iprop(∃ K, QV1 m K c)
  | ⟨2, _⟩ => iprop(∃ K, QV2 m K c)
  | ⟨3, _⟩ => iprop(∃ K, QV3 m K c)
  | ⟨4, _⟩ => iprop(∃ K, QV4 m K c)
  | ⟨5, _⟩ => iprop(∃ K, QV5 m K c)
  | ⟨6, _⟩ => iprop(∃ K, QV6 m K c)
  | ⟨7, _⟩ => iprop(∃ K, QV7 m K c)
  | ⟨8, _⟩ => iprop(∃ K, QV8 m K c)
  | ⟨9, _⟩ => iprop(∃ K, QV9 m K c)
  | ⟨10, _⟩ => iprop(∃ K, QV10 m K c)
  | ⟨11, _⟩ => iprop(∃ K, QV11 m K c)
  | ⟨12, _⟩ => iprop(∃ K, QV12 m K c)
  | ⟨13, _⟩ => iprop(∃ K, QV13 m K c)
  | ⟨14, _⟩ => iprop(∃ K, QV14 m K c)
  | ⟨15, _⟩ => PostBodyV m c
  | ⟨_ + 16, h⟩ => absurd h (by omega)

/-- The pipeline's body obligation on device `c`, from the fifteen segments. -/
theorem body_obligationV (c : Dev nD) (h1 : SpecV1 m c)
    (h2 : SpecV2 m c) (h3 : SpecV3 m c) (h4 : SpecV4 m c) (h5 : SpecV5 m c) (h6 : SpecV6 m c) (h7 : SpecV7 m c) (h8 : SpecV8 m c) (h9 : SpecV9 m c) (h10 : SpecV10 m c) (h11 : SpecV11 m c) (h12 : SpecV12 m c) (h13 : SpecV13 m c) (h14 : SpecV14 m c) (h15 : SpecV15 m c) :
    (rdatsV m 0 c).BodyObligation (defs₀ (F := Ideal)) Variants.none 0 Set.univ := fun t Y hY => by
  have ht := Gen.fin_N0 t
  subst ht
  rw [Gen.bigSep_W0, Gen.bigSep_W0]
  show PreBodyV m c Y ⊢ wp frame (wpE (defs₀ (F := Ideal)) Variants.none (c : Thread nD τ) none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) (fun _ => PostBodyV m c)
  exact wp_segments (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (PstV m c Y) (h1 Y hY) h2 h3 h4 h5 h6 h7 h8 h9 h10 h11 h12 h13 h14 h15

/-! ## What segment 1 finds in the input windows

   Every input window is fetched at the one point of the grid and covers its whole array, so what the pipeline may
   have left in its staging buffer is the array as launched. -/

theorem win0_of_finds (c : Dev nD) (X : (cfg0.win 0).block.Idx → Elt Ideal (cfg0.win 0).elt)
    (h : (rdatsV m 0 c).Finds 0 Gen.t0_0 X) : ∀ i, X i = m ((c : Thread nD τ).loc main_arg0) i := by
  obtain ⟨d, rfl⟩ := ((rdatsV m 0 c).finds_of_fetch (Gen.fetch0_0 Gen.t0_0) X).mp h
  intro i
  unfold Pipeline.RDat.fetched Pipeline.RDat.blockOf
  show View.read (Elt Ideal) ((cfg0.win 0).blk Gen.t0_0).view (m ((c : Thread nD τ).loc main_arg0)) i = _
  have e := Memref.read_access_unit_zero (sig := sig) (κ := .tc) (Elt Ideal) main_arg0
    (off := fun a => (cfg0.win 0).index Gen.t0_0 a * (cfg0.win 0).size a) (by funext a; fin_cases a <;> rfl)
    (fun a => by fin_cases a <;> decide) (m ((c : Thread nD τ).loc main_arg0))
  exact congrFun e i

theorem win1_of_finds (c : Dev nD) (X : (cfg0.win 1).block.Idx → Elt Ideal (cfg0.win 1).elt)
    (h : (rdatsV m 0 c).Finds 1 Gen.t0_0 X) : ∀ i, X i = m ((c : Thread nD τ).loc main_arg1) i := by
  obtain ⟨d, rfl⟩ := ((rdatsV m 0 c).finds_of_fetch (Gen.fetch0_1 Gen.t0_0) X).mp h
  intro i
  unfold Pipeline.RDat.fetched Pipeline.RDat.blockOf
  show View.read (Elt Ideal) ((cfg0.win 1).blk Gen.t0_0).view (m ((c : Thread nD τ).loc main_arg1)) i = _
  have e := Memref.read_access_unit_zero (sig := sig) (κ := .tc) (Elt Ideal) main_arg1
    (off := fun a => (cfg0.win 1).index Gen.t0_0 a * (cfg0.win 1).size a) (by funext a; fin_cases a <;> rfl)
    (fun a => by fin_cases a <;> decide) (m ((c : Thread nD τ).loc main_arg1))
  exact congrFun e i

theorem win2_of_finds (c : Dev nD) (X : (cfg0.win 2).block.Idx → Elt Ideal (cfg0.win 2).elt)
    (h : (rdatsV m 0 c).Finds 2 Gen.t0_0 X) : ∀ i, X i = m ((c : Thread nD τ).loc main_arg2) i := by
  obtain ⟨d, rfl⟩ := ((rdatsV m 0 c).finds_of_fetch (Gen.fetch0_2 Gen.t0_0) X).mp h
  intro i
  unfold Pipeline.RDat.fetched Pipeline.RDat.blockOf
  show View.read (Elt Ideal) ((cfg0.win 2).blk Gen.t0_0).view (m ((c : Thread nD τ).loc main_arg2)) i = _
  have e := Memref.read_access_unit_zero (sig := sig) (κ := .tc) (Elt Ideal) main_arg2
    (off := fun a => (cfg0.win 2).index Gen.t0_0 a * (cfg0.win 2).size a) (by funext a; fin_cases a <;> rfl)
    (fun a => by fin_cases a <;> decide) (m ((c : Thread nD τ).loc main_arg2))
  exact congrFun e i

theorem win3_of_finds (c : Dev nD) (X : (cfg0.win 3).block.Idx → Elt Ideal (cfg0.win 3).elt)
    (h : (rdatsV m 0 c).Finds 3 Gen.t0_0 X) : ∀ i, X i = m ((c : Thread nD τ).loc main_arg3) i := by
  obtain ⟨d, rfl⟩ := ((rdatsV m 0 c).finds_of_fetch (Gen.fetch0_3 Gen.t0_0) X).mp h
  intro i
  unfold Pipeline.RDat.fetched Pipeline.RDat.blockOf
  show View.read (Elt Ideal) ((cfg0.win 3).blk Gen.t0_0).view (m ((c : Thread nD τ).loc main_arg3)) i = _
  have e := Memref.read_access_unit_zero (sig := sig) (κ := .tc) (Elt Ideal) main_arg3
    (off := fun a => (cfg0.win 3).index Gen.t0_0 a * (cfg0.win 3).size a) (by funext a; fin_cases a <;> rfl)
    (fun a => by fin_cases a <;> decide) (m ((c : Thread nD τ).loc main_arg3))
  exact congrFun e i

theorem win4_of_finds (c : Dev nD) (X : (cfg0.win 4).block.Idx → Elt Ideal (cfg0.win 4).elt)
    (h : (rdatsV m 0 c).Finds 4 Gen.t0_0 X) : ∀ i, X i = m ((c : Thread nD τ).loc main_arg4) i := by
  obtain ⟨d, rfl⟩ := ((rdatsV m 0 c).finds_of_fetch (Gen.fetch0_4 Gen.t0_0) X).mp h
  intro i
  unfold Pipeline.RDat.fetched Pipeline.RDat.blockOf
  show View.read (Elt Ideal) ((cfg0.win 4).blk Gen.t0_0).view (m ((c : Thread nD τ).loc main_arg4)) i = _
  have e := Memref.read_access_unit_zero (sig := sig) (κ := .tc) (Elt Ideal) main_arg4
    (off := fun a => (cfg0.win 4).index Gen.t0_0 a * (cfg0.win 4).size a) (by funext a; fin_cases a <;> rfl)
    (fun a => by fin_cases a <;> decide) (m ((c : Thread nD τ).loc main_arg4))
  exact congrFun e i

theorem win5_of_finds (c : Dev nD) (X : (cfg0.win 5).block.Idx → Elt Ideal (cfg0.win 5).elt)
    (h : (rdatsV m 0 c).Finds 5 Gen.t0_0 X) : ∀ i, X i = m ((c : Thread nD τ).loc main_arg5) i := by
  obtain ⟨d, rfl⟩ := ((rdatsV m 0 c).finds_of_fetch (Gen.fetch0_5 Gen.t0_0) X).mp h
  intro i
  unfold Pipeline.RDat.fetched Pipeline.RDat.blockOf
  show View.read (Elt Ideal) ((cfg0.win 5).blk Gen.t0_0).view (m ((c : Thread nD τ).loc main_arg5)) i = _
  have e := Memref.read_access_unit_zero (sig := sig) (κ := .tc) (Elt Ideal) main_arg5
    (off := fun a => (cfg0.win 5).index Gen.t0_0 a * (cfg0.win 5).size a) (by funext a; fin_cases a <;> rfl)
    (fun a => by fin_cases a <;> decide) (m ((c : Thread nD τ).loc main_arg5))
  exact congrFun e i

theorem win6_of_finds (c : Dev nD) (X : (cfg0.win 6).block.Idx → Elt Ideal (cfg0.win 6).elt)
    (h : (rdatsV m 0 c).Finds 6 Gen.t0_0 X) : ∀ i, X i = m ((c : Thread nD τ).loc main_arg6) i := by
  obtain ⟨d, rfl⟩ := ((rdatsV m 0 c).finds_of_fetch (Gen.fetch0_6 Gen.t0_0) X).mp h
  intro i
  unfold Pipeline.RDat.fetched Pipeline.RDat.blockOf
  show View.read (Elt Ideal) ((cfg0.win 6).blk Gen.t0_0).view (m ((c : Thread nD τ).loc main_arg6)) i = _
  have e := Memref.read_access_unit_zero (sig := sig) (κ := .tc) (Elt Ideal) main_arg6
    (off := fun a => (cfg0.win 6).index Gen.t0_0 a * (cfg0.win 6).size a) (by funext a; fin_cases a <;> rfl)
    (fun a => by fin_cases a <;> decide) (m ((c : Thread nD τ).loc main_arg6))
  exact congrFun e i

/-- The seven input windows hold the launch memory's arrays. -/
theorem win_of_finds (c : Dev nD) (Y : (w : Fin cfg0.W) → (cfg0.win w).block.Idx → Elt Ideal (cfg0.win w).elt)
    (hY : ∀ w, (rdatsV m 0 c).Finds w Gen.t0_0 (Y w)) :
    (∀ i, Y 0 i = m ((c : Thread nD τ).loc main_arg0) i)
    ∧ (∀ i, Y 1 i = m ((c : Thread nD τ).loc main_arg1) i)
    ∧ (∀ i, Y 2 i = m ((c : Thread nD τ).loc main_arg2) i)
    ∧ (∀ i, Y 3 i = m ((c : Thread nD τ).loc main_arg3) i)
    ∧ (∀ i, Y 4 i = m ((c : Thread nD τ).loc main_arg4) i)
    ∧ (∀ i, Y 5 i = m ((c : Thread nD τ).loc main_arg5) i)
    ∧ (∀ i, Y 6 i = m ((c : Thread nD τ).loc main_arg6) i) :=
  ⟨win0_of_finds m c (Y 0) (hY 0), win1_of_finds m c (Y 1) (hY 1), win2_of_finds m c (Y 2) (hY 2), win3_of_finds m c (Y 3) (hY 3), win4_of_finds m c (Y 4) (hY 4), win5_of_finds m c (Y 5) (hY 5), win6_of_finds m c (Y 6) (hY 6)⟩

/-! ## The obligation from any proof of the whole body -/

/-- The pipeline's body obligation on device `c` from a proof of the body between the two ends, given what the
    input windows are found to hold: what the composition of the fifteen segments concludes. -/
theorem body_obligationV_of (c : Dev nD)
    (hbody : ∀ Y, (∀ w, (rdatsV m 0 c).Finds w Gen.t0_0 (Y w)) →
      PreBodyV m c Y ⊢ wp frame (wpE (defs₀ (F := Ideal)) Variants.none (c : Thread nD τ) none) Set.univ
        (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) (fun _ => PostBodyV m c)) :
    (rdatsV m 0 c).BodyObligation (defs₀ (F := Ideal)) Variants.none 0 Set.univ := fun t Y hY => by
  have ht := Gen.fin_N0 t
  subst ht
  rw [Gen.bigSep_W0, Gen.bigSep_W0]
  exact hbody Y hY

/-- info: 'Cert.KernelIdeal.Val.body_obligationV_of' depends on axioms: [propext, Classical.choice, Quot.sound] -/
#guard_msgs in #print axioms body_obligationV_of
/-- info: 'Cert.KernelIdeal.Val.win_of_finds' depends on axioms: [propext, Classical.choice, Quot.sound] -/
#guard_msgs in #print axioms win_of_finds

end Cert.KernelIdeal.Val

end
-- ==== Proof.KernelIdeal.ComposeV.lean ====
import proofs.«900979_g7700000000000980_dist_mlpseq_tp1d_bs_bs_b256_d256_h512_v7x_i8_bf16_1_alg».proof.Proof.KernelIdeal.Segments

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig ℕ (Elt F) ℕ U ℕ

/-! # The body from its segments, with facts about the values they return

A proof of the body is a proof of each of its fifteen segments between consecutive intermediate assertions: the first
segment reads the device id and says so in its post, every later one is taken at that device and for all values of the
words and vectors it is handed, and the sequencing rule of the weakest-precondition logic joins them in order.
Each segment may state a fact about the tuple of values it returns; the next segment is taken under that fact. -/

set_option maxHeartbeats 8000000 in
theorem wp_segmentsV (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5)
    (c : Dev nD) (P : Fin 16 → sProp 𝕄)
    (F1 : (Σ' (d0 : Dev nD) (v2 : BitVec 32) (v11 : BitVec 32) (v131 : BitVec 32) (v134 : BitVec 32) (v185 : BitVec 32), BitVec 32) → Prop) (F2 : (Σ' (v264 : BitVec 32), BitVec 32) → Prop) (F3 : (Σ' (v496 : BitVec 32), BitVec 32) → Prop) (F4 : PUnit → Prop) (F5 : (BitVec 32) → Prop) (F6 : (Σ' (v678 : BitVec 32) (v681 : BitVec 32) (v811 : BitVec 32) (v815 : BitVec 32), Vec F S256x256 .bf16) → Prop) (F7 : (FVec F S256x256 .f32) → Prop) (F8 : (BitVec 32) → Prop) (F9 : (FVec F S256x256 .bf16) → Prop) (F10 : (Σ' (v1225 : BitVec 32) (v1228 : BitVec 32), BitVec 32) → Prop) (F11 : (Σ' (v1358 : BitVec 32) (v1362 : BitVec 32) (v1385 : FVec F S256x512 .bf16) (v1386 : Vec F S512x256 .bf16), FVec F S256x256 .f32) → Prop) (F12 : (FVec F S256x256 .f32) → Prop) (F13 : (Σ' (v1657 : BitVec 32) (v1659 : BitVec 32), BitVec 32) → Prop) (F14 : PUnit → Prop)
    (h1 : P 0 ⊢ wp frame (wpE (defs₀ (F := F)) Variants.none (c : Thread nD τ) none) Set.univ (seg1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25) (fun r => iprop(⌜r.1 = c ∧ F1 r⌝ ∗ P 1)))
    (h2 : ∀ (v2 : BitVec 32) (v11 : BitVec 32) (v131 : BitVec 32) (v134 : BitVec 32) (v185 : BitVec 32) (v187 : BitVec 32), F1 (⟨c, v2, v11, v131, v134, v185, v187⟩ : Σ' (d0 : Dev nD) (v2 : BitVec 32) (v11 : BitVec 32) (v131 : BitVec 32) (v134 : BitVec 32) (v185 : BitVec 32), BitVec 32) →
      P 1 ⊢ wp frame (wpE (defs₀ (F := F)) Variants.none (c : Thread nD τ) none) Set.univ (seg2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v131 v134 v185 v187) (fun r => iprop(⌜F2 r⌝ ∗ P 2)))
    (h3 : ∀ (v264 : BitVec 32) (v268 : BitVec 32) (v2 : BitVec 32) (v131 : BitVec 32) (v134 : BitVec 32), F2 (⟨v264, v268⟩ : Σ' (v264 : BitVec 32), BitVec 32) →
      P 2 ⊢ wp frame (wpE (defs₀ (F := F)) Variants.none (c : Thread nD τ) none) Set.univ (seg3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v131 v134 v264 v268) (fun r => iprop(⌜F3 r⌝ ∗ P 3)))
    (h4 : ∀ (v496 : BitVec 32) (v500 : BitVec 32) (v2 : BitVec 32) (v131 : BitVec 32) (v134 : BitVec 32), F3 (⟨v496, v500⟩ : Σ' (v496 : BitVec 32), BitVec 32) →
      P 3 ⊢ wp frame (wpE (defs₀ (F := F)) Variants.none (c : Thread nD τ) none) Set.univ (seg4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v131 v134 v496 v500) (fun r => iprop(⌜F4 r⌝ ∗ P 4)))
    (h5 : ∀ (v2 : BitVec 32) (v131 : BitVec 32) (v134 : BitVec 32), F4 PUnit.unit →
      P 4 ⊢ wp frame (wpE (defs₀ (F := F)) Variants.none (c : Thread nD τ) none) Set.univ (seg5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v131 v134) (fun r => iprop(⌜F5 r⌝ ∗ P 5)))
    (h6 : ∀ (v652 : BitVec 32) (v2 : BitVec 32) (v11 : BitVec 32), F5 v652 →
      P 5 ⊢ wp frame (wpE (defs₀ (F := F)) Variants.none (c : Thread nD τ) none) Set.univ (seg6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v652) (fun r => iprop(⌜F6 r⌝ ∗ P 6)))
    (h7 : ∀ (v678 : BitVec 32) (v681 : BitVec 32) (v811 : BitVec 32) (v815 : BitVec 32) (v818 : Vec F S256x256 .bf16) (v2 : BitVec 32), F6 (⟨v678, v681, v811, v815, v818⟩ : Σ' (v678 : BitVec 32) (v681 : BitVec 32) (v811 : BitVec 32) (v815 : BitVec 32), Vec F S256x256 .bf16) →
      P 6 ⊢ wp frame (wpE (defs₀ (F := F)) Variants.none (c : Thread nD τ) none) Set.univ (seg7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v678 v681 v811 v815 v818) (fun r => iprop(⌜F7 r⌝ ∗ P 7)))
    (h8 : ∀ (v1041 : FVec F S256x256 .f32) (v2 : BitVec 32) (v678 : BitVec 32) (v681 : BitVec 32), F7 v1041 →
      P 7 ⊢ wp frame (wpE (defs₀ (F := F)) Variants.none (c : Thread nD τ) none) Set.univ (seg8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v678 v681 v1041) (fun r => iprop(⌜F8 r⌝ ∗ P 8)))
    (h9 : ∀ (v1121 : BitVec 32) (v2 : BitVec 32) (v678 : BitVec 32) (v681 : BitVec 32), F8 v1121 →
      P 8 ⊢ wp frame (wpE (defs₀ (F := F)) Variants.none (c : Thread nD τ) none) Set.univ (seg9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v678 v681 v1121) (fun r => iprop(⌜F9 r⌝ ∗ P 9)))
    (h10 : ∀ (v1191 : FVec F S256x256 .bf16) (v2 : BitVec 32) (v11 : BitVec 32), F9 v1191 →
      P 9 ⊢ wp frame (wpE (defs₀ (F := F)) Variants.none (c : Thread nD τ) none) Set.univ (seg10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v1191) (fun r => iprop(⌜F10 r⌝ ∗ P 10)))
    (h11 : ∀ (v1225 : BitVec 32) (v1228 : BitVec 32) (v1279 : BitVec 32) (v2 : BitVec 32) (v11 : BitVec 32), F10 (⟨v1225, v1228, v1279⟩ : Σ' (v1225 : BitVec 32) (v1228 : BitVec 32), BitVec 32) →
      P 10 ⊢ wp frame (wpE (defs₀ (F := F)) Variants.none (c : Thread nD τ) none) Set.univ (seg11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v1225 v1228 v1279) (fun r => iprop(⌜F11 r⌝ ∗ P 11)))
    (h12 : ∀ (v1358 : BitVec 32) (v1362 : BitVec 32) (v1385 : FVec F S256x512 .bf16) (v1386 : Vec F S512x256 .bf16) (cst_1075 : FVec F S256x256 .f32) (v2 : BitVec 32) (v1225 : BitVec 32) (v1228 : BitVec 32), F11 (⟨v1358, v1362, v1385, v1386, cst_1075⟩ : Σ' (v1358 : BitVec 32) (v1362 : BitVec 32) (v1385 : FVec F S256x512 .bf16) (v1386 : Vec F S512x256 .bf16), FVec F S256x256 .f32) →
      P 11 ⊢ wp frame (wpE (defs₀ (F := F)) Variants.none (c : Thread nD τ) none) Set.univ (seg12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v1225 v1228 v1358 v1362 v1385 v1386 cst_1075) (fun r => iprop(⌜F12 r⌝ ∗ P 12)))
    (h13 : ∀ (v1571 : FVec F S256x256 .f32) (v2 : BitVec 32) (v11 : BitVec 32) (v1225 : BitVec 32) (v1228 : BitVec 32), F12 v1571 →
      P 12 ⊢ wp frame (wpE (defs₀ (F := F)) Variants.none (c : Thread nD τ) none) Set.univ (seg13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v1225 v1228 v1571) (fun r => iprop(⌜F13 r⌝ ∗ P 13)))
    (h14 : ∀ (v1657 : BitVec 32) (v1659 : BitVec 32) (v1661 : BitVec 32) (v2 : BitVec 32), F13 (⟨v1657, v1659, v1661⟩ : Σ' (v1657 : BitVec 32) (v1659 : BitVec 32), BitVec 32) →
      P 13 ⊢ wp frame (wpE (defs₀ (F := F)) Variants.none (c : Thread nD τ) none) Set.univ (seg14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v1657 v1659 v1661) (fun r => iprop(⌜F14 r⌝ ∗ P 14)))
    (h15 : F14 PUnit.unit → P 14 ⊢ wp frame (wpE (defs₀ (F := F)) Variants.none (c : Thread nD τ) none) Set.univ (seg15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c) (fun _ => P 15)) :
    P 0 ⊢ wp frame (wpE (defs₀ (F := F)) Variants.none (c : Thread nD τ) none) Set.univ (cc0_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25) (fun _ => P 15) := by
  rw [body_eq_segments]; unfold segments
  refine wp_seq c _ _ h1 (fun o1 => ?_)
  obtain ⟨d0, v2, v11, v131, v134, v185, v187⟩ := o1
  refine pure_sep_elim (fun hp => ?_)
  obtain ⟨hd, hF1⟩ := hp
  dsimp only at hd
  subst hd
  try dsimp only
  refine wp_seq _ _ _ (h2 v2 v11 v131 v134 v185 v187 hF1) (fun o2 => ?_)
  obtain ⟨v264, v268⟩ := o2
  refine pure_sep_elim (fun hF2 => ?_)
  try dsimp only
  refine wp_seq _ _ _ (h3 v264 v268 v2 v131 v134 hF2) (fun o3 => ?_)
  obtain ⟨v496, v500⟩ := o3
  refine pure_sep_elim (fun hF3 => ?_)
  try dsimp only
  refine wp_seq _ _ _ (h4 v496 v500 v2 v131 v134 hF3) (fun u4 => ?_)
  refine pure_sep_elim (fun hF4 => ?_)
  try dsimp only
  refine wp_seq _ _ _ (h5 v2 v131 v134 hF4) (fun v652 => ?_)
  refine pure_sep_elim (fun hF5 => ?_)
  try dsimp only
  refine wp_seq _ _ _ (h6 v652 v2 v11 hF5) (fun o6 => ?_)
  obtain ⟨v678, v681, v811, v815, v818⟩ := o6
  refine pure_sep_elim (fun hF6 => ?_)
  try dsimp only
  refine wp_seq _ _ _ (h7 v678 v681 v811 v815 v818 v2 hF6) (fun v1041 => ?_)
  refine pure_sep_elim (fun hF7 => ?_)
  try dsimp only
  refine wp_seq _ _ _ (h8 v1041 v2 v678 v681 hF7) (fun v1121 => ?_)
  refine pure_sep_elim (fun hF8 => ?_)
  try dsimp only
  refine wp_seq _ _ _ (h9 v1121 v2 v678 v681 hF8) (fun v1191 => ?_)
  refine pure_sep_elim (fun hF9 => ?_)
  try dsimp only
  refine wp_seq _ _ _ (h10 v1191 v2 v11 hF9) (fun o10 => ?_)
  obtain ⟨v1225, v1228, v1279⟩ := o10
  refine pure_sep_elim (fun hF10 => ?_)
  try dsimp only
  refine wp_seq _ _ _ (h11 v1225 v1228 v1279 v2 v11 hF10) (fun o11 => ?_)
  obtain ⟨v1358, v1362, v1385, v1386, cst_1075⟩ := o11
  refine pure_sep_elim (fun hF11 => ?_)
  try dsimp only
  refine wp_seq _ _ _ (h12 v1358 v1362 v1385 v1386 cst_1075 v2 v1225 v1228 hF11) (fun v1571 => ?_)
  refine pure_sep_elim (fun hF12 => ?_)
  try dsimp only
  refine wp_seq _ _ _ (h13 v1571 v2 v11 v1225 v1228 hF12) (fun o13 => ?_)
  obtain ⟨v1657, v1659, v1661⟩ := o13
  refine pure_sep_elim (fun hF13 => ?_)
  try dsimp only
  refine wp_seq _ _ _ (h14 v1657 v1659 v1661 v2 hF13) (fun u14 => ?_)
  refine pure_sep_elim (fun hF14 => ?_)
  try dsimp only
  exact h15 hF14

/-- info: 'Cert.KernelIdeal.Hand.wp_segmentsV' depends on axioms: [propext, Classical.choice, Quot.sound] -/
#guard_msgs in #print axioms wp_segmentsV

end Cert.KernelIdeal.Hand

end
-- ==== Proof.KernelIdeal.AssembleV.lean ====
import proofs.«900979_g7700000000000980_dist_mlpseq_tp1d_bs_bs_b256_d256_h512_v7x_i8_bf16_1_alg».proof.Proof.KernelIdeal.FinalMath
import proofs.«900979_g7700000000000980_dist_mlpseq_tp1d_bs_bs_b256_d256_h512_v7x_i8_bf16_1_alg».proof.Proof.KernelIdeal.LaunchV
import proofs.«900979_g7700000000000980_dist_mlpseq_tp1d_bs_bs_b256_d256_h512_v7x_i8_bf16_1_alg».proof.Proof.KernelIdeal.BodyV
import proofs.«900979_g7700000000000980_dist_mlpseq_tp1d_bs_bs_b256_d256_h512_v7x_i8_bf16_1_alg».proof.Proof.KernelIdeal.ComposeV
import proofs.«900979_g7700000000000980_dist_mlpseq_tp1d_bs_bs_b256_d256_h512_v7x_i8_bf16_1_alg».proof.Proof.KernelIdeal.Levels

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

/-! # From the fifteen segments to the equality of results

   A proof of one device's body between the two ends gives the pipeline's body obligation; the launch turns the eight
   devices' obligations into a run of the mesh that leaves each device's block of the result in its result array; and
   side by side those blocks are what the reference computes. -/

/-- What is asked of one device's body: from the launch's state with the input windows as found, to the closing state
    with the result window at the device's block of the result. -/
def BodyOK (m : Mem) (c : Dev nD) : Prop :=
  ∀ Y, (∀ w, (rdatsV m 0 c).Finds w Gen.t0_0 (Y w)) →
    PreBodyV m c Y ⊢ wp frame (wpE (defs₀ (F := Ideal)) Variants.none (c : Thread nD τ) none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17) (fun _ => PostBodyV m c)

/-- The run of the mesh from the eight devices' bodies. -/
theorem run_V (m : Mem) (ρ : Dev nD → PrngReg) (H : ∀ c, BodyOK m c) :
    θ_run (defs (F := Ideal)) (onTc (τ := τ) (main (F := Ideal))) ⟨m, fun _ => 0, ρ⟩ (fun r => ∀ c : Dev nD,
      (∀ idx, r.2.mem ((c.tc : Thread nD τ).loc main_v1) idx = OUT m c (idx 0) (idx 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of_body_V m L_of_ne (mayWait_stage (F := Ideal)) ρ (fun c => body_obligationV_of m c (H c))

/-- The equality of results with the reference, from the eight devices' bodies at every launch memory. -/
theorem algebraic_of_bodies (H : ∀ (m : Mem) (c : Dev nD), BodyOK m c) :
    Cert.algebraic_KernelIdeal_ReferenceIdeal (hKernelIdeal := Cert.KernelIdeal.Gen.facts)
      (hReferenceIdeal := Cert.ReferenceIdeal.Gen.facts) (hPre_finite_inputs_Kernel := Cert.Pre_finite_inputs_Kernel.Gen.facts) :=
  algebraic_of_run (fun m ρ _ => run_V m ρ (H m))

/-- info: 'Cert.KernelIdeal.Val.algebraic_of_bodies' depends on axioms: [propext, Classical.choice, Quot.sound] -/
#guard_msgs in #print axioms algebraic_of_bodies

end Cert.KernelIdeal.Val

end
-- ==== Proof.KernelIdeal.ComposeVCuts.lean ====
import proofs.«900979_g7700000000000980_dist_mlpseq_tp1d_bs_bs_b256_d256_h512_v7x_i8_bf16_1_alg».proof.Proof.KernelIdeal.ComposeV
import proofs.«900979_g7700000000000980_dist_mlpseq_tp1d_bs_bs_b256_d256_h512_v7x_i8_bf16_1_alg».proof.Proof.KernelIdeal.Values

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

local notation "𝕄" => MT nD τ sig ℕ (Elt Ideal) ℕ UU ℕ

/-! # The body from its segments, with an entailment at every cut

   Each segment is proved between assertions its own proof chose; between two neighbours the earlier one's closing
   assertion entails the later one's opening assertion. -/

/-- The assertions at the cuts: each later segment's opening assertion; at the end the last segment's closing one. -/
def cutP (Pre Post : Fin 16 → sProp 𝕄) : Fin 16 → sProp 𝕄
  | ⟨0, _⟩ => Pre 0
  | ⟨1, _⟩ => Pre 1
  | ⟨2, _⟩ => Pre 2
  | ⟨3, _⟩ => Pre 3
  | ⟨4, _⟩ => Pre 4
  | ⟨5, _⟩ => Pre 5
  | ⟨6, _⟩ => Pre 6
  | ⟨7, _⟩ => Pre 7
  | ⟨8, _⟩ => Pre 8
  | ⟨9, _⟩ => Pre 9
  | ⟨10, _⟩ => Pre 10
  | ⟨11, _⟩ => Pre 11
  | ⟨12, _⟩ => Pre 12
  | ⟨13, _⟩ => Pre 13
  | ⟨14, _⟩ => Pre 14
  | ⟨15, _⟩ => Post 15
  | ⟨_ + 16, h⟩ => absurd h (by omega)

set_option maxHeartbeats 4000000 in
theorem wp_segmentsV_cuts (arg0 : Memref sig .tc .vmem S256x256 .f32) (harg0 : arg0.IsWhole) (arg1 : Memref sig .tc .vmem S256x512 .f32) (harg1 : arg1.IsWhole) (arg2 : Memref sig .tc .vmem S512x256 .f32) (harg2 : arg2.IsWhole) (arg3 : Memref sig .tc .vmem S256x512 .f32) (harg3 : arg3.IsWhole) (arg4 : Memref sig .tc .vmem S512x256 .f32) (harg4 : arg4.IsWhole) (arg5 : Memref sig .tc .vmem S256x512 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1280x256 .bf16) (harg14 : arg14.IsWhole) (arg15 : Memref sig .tc .vmem S1280x256 .bf16) (harg15 : arg15.IsWhole) (arg16 : Memref sig .tc .vmem S256x512 .bf16) (harg16 : arg16.IsWhole) (arg17 : Memref sig .tc .vmem S512x256 .bf16) (harg17 : arg17.IsWhole) (arg18 : DmaSems sig S3) (arg19 : DmaSems sig S3) (arg20 : DmaSems sig S3) (arg21 : DmaSems sig S3) (arg22 : DmaSems sig S5) (arg23 : DmaSems sig S5) (arg24 : DmaSems sig S5) (arg25 : DmaSems sig S5)
    (c : Dev nD) (Pre Post : Fin 16 → sProp 𝕄)
    (cut1 : Post 1 ⊢ Pre 1) (cut2 : Post 2 ⊢ Pre 2) (cut3 : Post 3 ⊢ Pre 3) (cut4 : Post 4 ⊢ Pre 4) (cut5 : Post 5 ⊢ Pre 5) (cut6 : Post 6 ⊢ Pre 6) (cut7 : Post 7 ⊢ Pre 7) (cut8 : Post 8 ⊢ Pre 8) (cut9 : Post 9 ⊢ Pre 9) (cut10 : Post 10 ⊢ Pre 10) (cut11 : Post 11 ⊢ Pre 11) (cut12 : Post 12 ⊢ Pre 12) (cut13 : Post 13 ⊢ Pre 13) (cut14 : Post 14 ⊢ Pre 14)
    (F1 : (Σ' (d0 : Dev nD) (v2 : BitVec 32) (v11 : BitVec 32) (v131 : BitVec 32) (v134 : BitVec 32) (v185 : BitVec 32), BitVec 32) → Prop) (F2 : (Σ' (v264 : BitVec 32), BitVec 32) → Prop) (F3 : (Σ' (v496 : BitVec 32), BitVec 32) → Prop) (F4 : PUnit → Prop) (F5 : (BitVec 32) → Prop) (F6 : (Σ' (v678 : BitVec 32) (v681 : BitVec 32) (v811 : BitVec 32) (v815 : BitVec 32), Vec Ideal S256x256 .bf16) → Prop) (F7 : (FVec Ideal S256x256 .f32) → Prop) (F8 : (BitVec 32) → Prop) (F9 : (FVec Ideal S256x256 .bf16) → Prop) (F10 : (Σ' (v1225 : BitVec 32) (v1228 : BitVec 32), BitVec 32) → Prop) (F11 : (Σ' (v1358 : BitVec 32) (v1362 : BitVec 32) (v1385 : FVec Ideal S256x512 .bf16) (v1386 : Vec Ideal S512x256 .bf16), FVec Ideal S256x256 .f32) → Prop) (F12 : (FVec Ideal S256x256 .f32) → Prop) (F13 : (Σ' (v1657 : BitVec 32) (v1659 : BitVec 32), BitVec 32) → Prop) (F14 : PUnit → Prop)
    (h1 : Pre 0 ⊢ wp frame (wpE (defs₀ (F := Ideal)) Variants.none (c : Thread nD τ) none) Set.univ (seg1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25) (fun r => iprop(⌜r.1 = c ∧ F1 r⌝ ∗ Post 1)))
    (h2 : ∀ (v2 : BitVec 32) (v11 : BitVec 32) (v131 : BitVec 32) (v134 : BitVec 32) (v185 : BitVec 32) (v187 : BitVec 32), F1 (⟨c, v2, v11, v131, v134, v185, v187⟩ : Σ' (d0 : Dev nD) (v2 : BitVec 32) (v11 : BitVec 32) (v131 : BitVec 32) (v134 : BitVec 32) (v185 : BitVec 32), BitVec 32) →
      Pre 1 ⊢ wp frame (wpE (defs₀ (F := Ideal)) Variants.none (c : Thread nD τ) none) Set.univ (seg2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v131 v134 v185 v187) (fun r => iprop(⌜F2 r⌝ ∗ Post 2)))
    (h3 : ∀ (v264 : BitVec 32) (v268 : BitVec 32) (v2 : BitVec 32) (v131 : BitVec 32) (v134 : BitVec 32), F2 (⟨v264, v268⟩ : Σ' (v264 : BitVec 32), BitVec 32) →
      Pre 2 ⊢ wp frame (wpE (defs₀ (F := Ideal)) Variants.none (c : Thread nD τ) none) Set.univ (seg3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v131 v134 v264 v268) (fun r => iprop(⌜F3 r⌝ ∗ Post 3)))
    (h4 : ∀ (v496 : BitVec 32) (v500 : BitVec 32) (v2 : BitVec 32) (v131 : BitVec 32) (v134 : BitVec 32), F3 (⟨v496, v500⟩ : Σ' (v496 : BitVec 32), BitVec 32) →
      Pre 3 ⊢ wp frame (wpE (defs₀ (F := Ideal)) Variants.none (c : Thread nD τ) none) Set.univ (seg4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v131 v134 v496 v500) (fun r => iprop(⌜F4 r⌝ ∗ Post 4)))
    (h5 : ∀ (v2 : BitVec 32) (v131 : BitVec 32) (v134 : BitVec 32), F4 PUnit.unit →
      Pre 4 ⊢ wp frame (wpE (defs₀ (F := Ideal)) Variants.none (c : Thread nD τ) none) Set.univ (seg5 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v131 v134) (fun r => iprop(⌜F5 r⌝ ∗ Post 5)))
    (h6 : ∀ (v652 : BitVec 32) (v2 : BitVec 32) (v11 : BitVec 32), F5 v652 →
      Pre 5 ⊢ wp frame (wpE (defs₀ (F := Ideal)) Variants.none (c : Thread nD τ) none) Set.univ (seg6 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v652) (fun r => iprop(⌜F6 r⌝ ∗ Post 6)))
    (h7 : ∀ (v678 : BitVec 32) (v681 : BitVec 32) (v811 : BitVec 32) (v815 : BitVec 32) (v818 : Vec Ideal S256x256 .bf16) (v2 : BitVec 32), F6 (⟨v678, v681, v811, v815, v818⟩ : Σ' (v678 : BitVec 32) (v681 : BitVec 32) (v811 : BitVec 32) (v815 : BitVec 32), Vec Ideal S256x256 .bf16) →
      Pre 6 ⊢ wp frame (wpE (defs₀ (F := Ideal)) Variants.none (c : Thread nD τ) none) Set.univ (seg7 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v678 v681 v811 v815 v818) (fun r => iprop(⌜F7 r⌝ ∗ Post 7)))
    (h8 : ∀ (v1041 : FVec Ideal S256x256 .f32) (v2 : BitVec 32) (v678 : BitVec 32) (v681 : BitVec 32), F7 v1041 →
      Pre 7 ⊢ wp frame (wpE (defs₀ (F := Ideal)) Variants.none (c : Thread nD τ) none) Set.univ (seg8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v678 v681 v1041) (fun r => iprop(⌜F8 r⌝ ∗ Post 8)))
    (h9 : ∀ (v1121 : BitVec 32) (v2 : BitVec 32) (v678 : BitVec 32) (v681 : BitVec 32), F8 v1121 →
      Pre 8 ⊢ wp frame (wpE (defs₀ (F := Ideal)) Variants.none (c : Thread nD τ) none) Set.univ (seg9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v678 v681 v1121) (fun r => iprop(⌜F9 r⌝ ∗ Post 9)))
    (h10 : ∀ (v1191 : FVec Ideal S256x256 .bf16) (v2 : BitVec 32) (v11 : BitVec 32), F9 v1191 →
      Pre 9 ⊢ wp frame (wpE (defs₀ (F := Ideal)) Variants.none (c : Thread nD τ) none) Set.univ (seg10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v1191) (fun r => iprop(⌜F10 r⌝ ∗ Post 10)))
    (h11 : ∀ (v1225 : BitVec 32) (v1228 : BitVec 32) (v1279 : BitVec 32) (v2 : BitVec 32) (v11 : BitVec 32), F10 (⟨v1225, v1228, v1279⟩ : Σ' (v1225 : BitVec 32) (v1228 : BitVec 32), BitVec 32) →
      Pre 10 ⊢ wp frame (wpE (defs₀ (F := Ideal)) Variants.none (c : Thread nD τ) none) Set.univ (seg11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v1225 v1228 v1279) (fun r => iprop(⌜F11 r⌝ ∗ Post 11)))
    (h12 : ∀ (v1358 : BitVec 32) (v1362 : BitVec 32) (v1385 : FVec Ideal S256x512 .bf16) (v1386 : Vec Ideal S512x256 .bf16) (cst_1075 : FVec Ideal S256x256 .f32) (v2 : BitVec 32) (v1225 : BitVec 32) (v1228 : BitVec 32), F11 (⟨v1358, v1362, v1385, v1386, cst_1075⟩ : Σ' (v1358 : BitVec 32) (v1362 : BitVec 32) (v1385 : FVec Ideal S256x512 .bf16) (v1386 : Vec Ideal S512x256 .bf16), FVec Ideal S256x256 .f32) →
      Pre 11 ⊢ wp frame (wpE (defs₀ (F := Ideal)) Variants.none (c : Thread nD τ) none) Set.univ (seg12 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v1225 v1228 v1358 v1362 v1385 v1386 cst_1075) (fun r => iprop(⌜F12 r⌝ ∗ Post 12)))
    (h13 : ∀ (v1571 : FVec Ideal S256x256 .f32) (v2 : BitVec 32) (v11 : BitVec 32) (v1225 : BitVec 32) (v1228 : BitVec 32), F12 v1571 →
      Pre 12 ⊢ wp frame (wpE (defs₀ (F := Ideal)) Variants.none (c : Thread nD τ) none) Set.univ (seg13 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v11 v1225 v1228 v1571) (fun r => iprop(⌜F13 r⌝ ∗ Post 13)))
    (h14 : ∀ (v1657 : BitVec 32) (v1659 : BitVec 32) (v1661 : BitVec 32) (v2 : BitVec 32), F13 (⟨v1657, v1659, v1661⟩ : Σ' (v1657 : BitVec 32) (v1659 : BitVec 32), BitVec 32) →
      Pre 13 ⊢ wp frame (wpE (defs₀ (F := Ideal)) Variants.none (c : Thread nD τ) none) Set.univ (seg14 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c v2 v1657 v1659 v1661) (fun r => iprop(⌜F14 r⌝ ∗ Post 14)))
    (h15 : F14 PUnit.unit → Pre 14 ⊢ wp frame (wpE (defs₀ (F := Ideal)) Variants.none (c : Thread nD τ) none) Set.univ (seg15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c) (fun _ => Post 15)) :
    Pre 0 ⊢ wp frame (wpE (defs₀ (F := Ideal)) Variants.none (c : Thread nD τ) none) Set.univ (cc0_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25) (fun _ => Post 15) :=
  wp_segmentsV (F := Ideal) (U := UU) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 arg23 arg24 arg25 c (cutP Pre Post) F1 F2 F3 F4 F5 F6 F7 F8 F9 F10 F11 F12 F13 F14
    (h1.trans (wp_mono _ _ _ (fun r => sep_mono_right cut1)))
    (fun v2 v11 v131 v134 v185 v187 hF => (h2 v2 v11 v131 v134 v185 v187 hF).trans (wp_mono _ _ _ (fun r => sep_mono_right cut2)))
    (fun v264 v268 v2 v131 v134 hF => (h3 v264 v268 v2 v131 v134 hF).trans (wp_mono _ _ _ (fun r => sep_mono_right cut3)))
    (fun v496 v500 v2 v131 v134 hF => (h4 v496 v500 v2 v131 v134 hF).trans (wp_mono _ _ _ (fun r => sep_mono_right cut4)))
    (fun v2 v131 v134 hF => (h5 v2 v131 v134 hF).trans (wp_mono _ _ _ (fun r => sep_mono_right cut5)))
    (fun v652 v2 v11 hF => (h6 v652 v2 v11 hF).trans (wp_mono _ _ _ (fun r => sep_mono_right cut6)))
    (fun v678 v681 v811 v815 v818 v2 hF => (h7 v678 v681 v811 v815 v818 v2 hF).trans (wp_mono _ _ _ (fun r => sep_mono_right cut7)))
    (fun v1041 v2 v678 v681 hF => (h8 v1041 v2 v678 v681 hF).trans (wp_mono _ _ _ (fun r => sep_mono_right cut8)))
    (fun v1121 v2 v678 v681 hF => (h9 v1121 v2 v678 v681 hF).trans (wp_mono _ _ _ (fun r => sep_mono_right cut9)))
    (fun v1191 v2 v11 hF => (h10 v1191 v2 v11 hF).trans (wp_mono _ _ _ (fun r => sep_mono_right cut10)))
    (fun v1225 v1228 v1279 v2 v11 hF => (h11 v1225 v1228 v1279 v2 v11 hF).trans (wp_mono _ _ _ (fun r => sep_mono_right cut11)))
    (fun v1358 v1362 v1385 v1386 cst_1075 v2 v1225 v1228 hF => (h12 v1358 v1362 v1385 v1386 cst_1075 v2 v1225 v1228 hF).trans (wp_mono _ _ _ (fun r => sep_mono_right cut12)))
    (fun v1571 v2 v11 v1225 v1228 hF => (h13 v1571 v2 v11 v1225 v1228 hF).trans (wp_mono _ _ _ (fun r => sep_mono_right cut13)))
    (fun v1657 v1659 v1661 v2 hF => (h14 v1657 v1659 v1661 v2 hF).trans (wp_mono _ _ _ (fun r => sep_mono_right cut14)))
    (fun hF => h15 hF)

/-- info: 'Cert.KernelIdeal.Val.wp_segmentsV_cuts' depends on axioms: [propext, Classical.choice, Quot.sound] -/
#guard_msgs in #print axioms wp_segmentsV_cuts

end Cert.KernelIdeal.Val

end
-- ==== Proof.KernelIdeal.QuietVMono.lean ====
/- Weakening what a quiet state says of the buffers' contents.

   Every fact about contents sits under an existential with the buffer; a weaker fact follows pointwise. Two states
   that differ only in these facts are related whenever the facts are. -/
import proofs.«900979_g7700000000000980_dist_mlpseq_tp1d_bs_bs_b256_d256_h512_v7x_i8_bf16_1_alg».proof.Proof.KernelIdeal.QuietV

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig ℕ (Elt Ideal) ℕ UU ℕ

variable (m : Mem)

theorem bufV_mono (c : Dev nD) (b : Ref sig .tc) {P Q : Buf (Elt Ideal) ((Memref.whole b).view.loc (c : Thread nD τ)) → Prop}
    (h : ∀ f, P f → Q f) : bufV c b P ⊢ bufV c b Q := by
  unfold bufV
  iintro ⟨%f, H, %hP⟩
  iexists f
  isplitl [H]
  · iexact H
  · ipureintro; exact h f hP

theorem heldButV_mono (c : Dev nD) (b : Ref sig .tc) (A : Finset (Idx ((Memref.whole b).view.loc (c : Thread nD τ))))
    {P Q : Buf (Elt Ideal) ((Memref.whole b).view.loc (c : Thread nD τ)) → Prop} (h : ∀ f, P f → Q f) : heldButV c b A P ⊢ heldButV c b A Q := by
  unfold heldButV
  iintro ⟨%f, H, %hP⟩
  iexists f
  isplitl [H]
  · iexact H
  · ipureintro; exact h f hP

theorem localBufsV_mono (c : Dev nD) (lw : Fin 3) {out out' : Buf (Elt Ideal) ((Memref.whole cc0_stg7_0).view.loc (c : Thread nD τ)) → Prop}
    {P2 P2' : Buf (Elt Ideal) ((Memref.whole cc0_scratch2).view.loc (c : Thread nD τ)) → Prop} {P3 P3' : Buf (Elt Ideal) ((Memref.whole cc0_scratch3).view.loc (c : Thread nD τ)) → Prop} {P4 P4' : Buf (Elt Ideal) ((Memref.whole cc0_scratch4).view.loc (c : Thread nD τ)) → Prop} {P5 P5' : Buf (Elt Ideal) ((Memref.whole cc0_scratch5).view.loc (c : Thread nD τ)) → Prop}
    (hout : ∀ f, out f → out' f) (h2 : ∀ f, P2 f → P2' f) (h3 : ∀ f, P3 f → P3' f) (h4 : ∀ f, P4 f → P4' f) (h5 : ∀ f, P5 f → P5' f) :
    localBufsV m c lw out P2 P3 P4 P5 ⊢ localBufsV m c lw out' P2' P3' P4' P5' := by
  unfold localBufsV
  iintro ⟨H0, H1, H2, H3, H4, H5, H6, H7, Ha, Hb, Hc, Hd, He, Hf⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · (iapply (bufV_mono c cc0_stg7_0 hout); iexact H7)
  isplitl [Ha]; · (iapply (bufV_mono c cc0_scratch2 h2); iexact Ha)
  isplitl [Hb]; · (iapply (bufV_mono c cc0_scratch3 h3); iexact Hb)
  isplitl [Hc]; · (iapply (bufV_mono c cc0_scratch4 h4); iexact Hc)
  isplitl [Hd]; · (iapply (bufV_mono c cc0_scratch5 h5); iexact Hd)
  isplitl [He]; · iexact He
  iexact Hf

theorem QV_mono (K : GSem nD τ sig → ℕ) (c : Dev nD) (k₀ : ℕ) (lw : Fin 3) {out out' : Buf (Elt Ideal) ((Memref.whole cc0_stg7_0).view.loc (c : Thread nD τ)) → Prop}
    {P0 P0' : Buf (Elt Ideal) ((Memref.whole cc0_scratch0).view.loc (c : Thread nD τ)) → Prop} {P1 P1' : Buf (Elt Ideal) ((Memref.whole cc0_scratch1).view.loc (c : Thread nD τ)) → Prop} {P2 P2' : Buf (Elt Ideal) ((Memref.whole cc0_scratch2).view.loc (c : Thread nD τ)) → Prop} {P3 P3' : Buf (Elt Ideal) ((Memref.whole cc0_scratch3).view.loc (c : Thread nD τ)) → Prop} {P4 P4' : Buf (Elt Ideal) ((Memref.whole cc0_scratch4).view.loc (c : Thread nD τ)) → Prop} {P5 P5' : Buf (Elt Ideal) ((Memref.whole cc0_scratch5).view.loc (c : Thread nD τ)) → Prop} {P6 P6' : Buf (Elt Ideal) ((Memref.whole cc0_scratch6).view.loc (c : Thread nD τ)) → Prop} {P7 P7' : Buf (Elt Ideal) ((Memref.whole cc0_scratch7).view.loc (c : Thread nD τ)) → Prop}
    (A0 : Finset (Idx ((Memref.whole cc0_scratch0).view.loc (c : Thread nD τ)))) (A1 : Finset (Idx ((Memref.whole cc0_scratch1).view.loc (c : Thread nD τ))))
    (A6 : Finset (Idx ((Memref.whole cc0_scratch6).view.loc (c : Thread nD τ)))) (A7 : Finset (Idx ((Memref.whole cc0_scratch7).view.loc (c : Thread nD τ))))
    (Gr : sProp 𝕄)
    (hout : ∀ f, out f → out' f) (h0 : ∀ f, P0 f → P0' f) (h1 : ∀ f, P1 f → P1' f) (h2 : ∀ f, P2 f → P2' f) (h3 : ∀ f, P3 f → P3' f) (h4 : ∀ f, P4 f → P4' f) (h5 : ∀ f, P5 f → P5' f) (h6 : ∀ f, P6 f → P6' f) (h7 : ∀ f, P7 f → P7' f) :
    QV m K c k₀ lw out P0 P1 P2 P3 P4 P5 P6 P7 A0 A1 A6 A7 Gr ⊢ QV m K c k₀ lw out' P0' P1' P2' P3' P4' P5' P6' P7' A0 A1 A6 A7 Gr := by
  unfold QV
  iintro ⟨HI, HR, Hl, Hb, Hp, Ht, Hc, HO, HL, H0, H1, H6, H7, HG⟩
  isplitl [HI]; · iexact HI
  isplitl [HR]; · iexact HR
  isplitl [Hl]; · iexact Hl
  isplitl [Hb]; · iexact Hb
  isplitl [Hp]; · iexact Hp
  isplitl [Ht]; · iexact Ht
  isplitl [Hc]; · iexact Hc
  isplitl [HO]; · iexact HO
  isplitl [HL]; · (iapply (localBufsV_mono m c lw hout h2 h3 h4 h5); iexact HL)
  isplitl [H0]; · (iapply (heldButV_mono c cc0_scratch0 A0 h0); iexact H0)
  isplitl [H1]; · (iapply (heldButV_mono c cc0_scratch1 A1 h1); iexact H1)
  isplitl [H6]; · (iapply (heldButV_mono c cc0_scratch6 A6 h6); iexact H6)
  isplitl [H7]; · (iapply (heldButV_mono c cc0_scratch7 A7 h7); iexact H7)
  iexact HG

/-- The same under the names of the cells' invariants. -/
theorem QV_mono_ex (c : Dev nD) (k₀ : ℕ) (lw : Fin 3) {out out' : Buf (Elt Ideal) ((Memref.whole cc0_stg7_0).view.loc (c : Thread nD τ)) → Prop}
    {P0 P0' : Buf (Elt Ideal) ((Memref.whole cc0_scratch0).view.loc (c : Thread nD τ)) → Prop} {P1 P1' : Buf (Elt Ideal) ((Memref.whole cc0_scratch1).view.loc (c : Thread nD τ)) → Prop} {P2 P2' : Buf (Elt Ideal) ((Memref.whole cc0_scratch2).view.loc (c : Thread nD τ)) → Prop} {P3 P3' : Buf (Elt Ideal) ((Memref.whole cc0_scratch3).view.loc (c : Thread nD τ)) → Prop} {P4 P4' : Buf (Elt Ideal) ((Memref.whole cc0_scratch4).view.loc (c : Thread nD τ)) → Prop} {P5 P5' : Buf (Elt Ideal) ((Memref.whole cc0_scratch5).view.loc (c : Thread nD τ)) → Prop} {P6 P6' : Buf (Elt Ideal) ((Memref.whole cc0_scratch6).view.loc (c : Thread nD τ)) → Prop} {P7 P7' : Buf (Elt Ideal) ((Memref.whole cc0_scratch7).view.loc (c : Thread nD τ)) → Prop}
    (A0 : Finset (Idx ((Memref.whole cc0_scratch0).view.loc (c : Thread nD τ)))) (A1 : Finset (Idx ((Memref.whole cc0_scratch1).view.loc (c : Thread nD τ))))
    (A6 : Finset (Idx ((Memref.whole cc0_scratch6).view.loc (c : Thread nD τ)))) (A7 : Finset (Idx ((Memref.whole cc0_scratch7).view.loc (c : Thread nD τ))))
    (Gr : sProp 𝕄)
    (hout : ∀ f, out f → out' f) (h0 : ∀ f, P0 f → P0' f) (h1 : ∀ f, P1 f → P1' f) (h2 : ∀ f, P2 f → P2' f) (h3 : ∀ f, P3 f → P3' f) (h4 : ∀ f, P4 f → P4' f) (h5 : ∀ f, P5 f → P5' f) (h6 : ∀ f, P6 f → P6' f) (h7 : ∀ f, P7 f → P7' f) :
    (iprop(∃ K, QV m K c k₀ lw out P0 P1 P2 P3 P4 P5 P6 P7 A0 A1 A6 A7 Gr) : sProp 𝕄)
      ⊢ iprop(∃ K, QV m K c k₀ lw out' P0' P1' P2' P3' P4' P5' P6' P7' A0 A1 A6 A7 Gr) := by
  iintro ⟨%K, H⟩
  iexists K
  iapply (QV_mono m K c k₀ lw A0 A1 A6 A7 Gr hout h0 h1 h2 h3 h4 h5 h6 h7)
  iexact H

/-! ## Weaker facts about rows -/

theorem rowsAre0_sub (c : Dev nD) (G : Fin 1024 → Fin 256 → EReal) (b n b' n' : ℕ)
    (f : Buf (Elt Ideal) ((Memref.whole cc0_scratch0).view.loc (c : Thread nD τ))) (h : rowsAre0 c G b n f)
    (h1 : b ≤ b') (h2 : b' + n' ≤ b + n) : rowsAre0 c G b' n' f :=
  fun row col hr1 hr2 => h row col (by omega) (by omega)
theorem rowsAre0_zero (c : Dev nD) (G : Fin 1024 → Fin 256 → EReal) (b : ℕ)
    (f : Buf (Elt Ideal) ((Memref.whole cc0_scratch0).view.loc (c : Thread nD τ))) : rowsAre0 c G b 0 f :=
  fun row col hr1 hr2 => absurd hr2 (by omega)

theorem rowsAre1_sub (c : Dev nD) (G : Fin 1024 → Fin 256 → EReal) (b n b' n' : ℕ)
    (f : Buf (Elt Ideal) ((Memref.whole cc0_scratch1).view.loc (c : Thread nD τ))) (h : rowsAre1 c G b n f)
    (h1 : b ≤ b') (h2 : b' + n' ≤ b + n) : rowsAre1 c G b' n' f :=
  fun row col hr1 hr2 => h row col (by omega) (by omega)
theorem rowsAre1_zero (c : Dev nD) (G : Fin 1024 → Fin 256 → EReal) (b : ℕ)
    (f : Buf (Elt Ideal) ((Memref.whole cc0_scratch1).view.loc (c : Thread nD τ))) : rowsAre1 c G b 0 f :=
  fun row col hr1 hr2 => absurd hr2 (by omega)

theorem rowsAre2_sub (c : Dev nD) (G : Fin 1024 → Fin 256 → EReal) (b n b' n' : ℕ)
    (f : Buf (Elt Ideal) ((Memref.whole cc0_scratch2).view.loc (c : Thread nD τ))) (h : rowsAre2 c G b n f)
    (h1 : b ≤ b') (h2 : b' + n' ≤ b + n) : rowsAre2 c G b' n' f :=
  fun row col hr1 hr2 => h row col (by omega) (by omega)
theorem rowsAre2_zero (c : Dev nD) (G : Fin 1024 → Fin 256 → EReal) (b : ℕ)
    (f : Buf (Elt Ideal) ((Memref.whole cc0_scratch2).view.loc (c : Thread nD τ))) : rowsAre2 c G b 0 f :=
  fun row col hr1 hr2 => absurd hr2 (by omega)

theorem rowsAre3_sub (c : Dev nD) (G : Fin 1024 → Fin 256 → EReal) (b n b' n' : ℕ)
    (f : Buf (Elt Ideal) ((Memref.whole cc0_scratch3).view.loc (c : Thread nD τ))) (h : rowsAre3 c G b n f)
    (h1 : b ≤ b') (h2 : b' + n' ≤ b + n) : rowsAre3 c G b' n' f :=
  fun row col hr1 hr2 => h row col (by omega) (by omega)
theorem rowsAre3_zero (c : Dev nD) (G : Fin 1024 → Fin 256 → EReal) (b : ℕ)
    (f : Buf (Elt Ideal) ((Memref.whole cc0_scratch3).view.loc (c : Thread nD τ))) : rowsAre3 c G b 0 f :=
  fun row col hr1 hr2 => absurd hr2 (by omega)

/-- info: 'Cert.KernelIdeal.Val.QV_mono_ex' depends on axioms: [propext, Classical.choice, Quot.sound] -/
#guard_msgs in #print axioms QV_mono_ex

end Cert.KernelIdeal.Val

end
-- ==== Proof.KernelIdeal.StepsV.lean ====
import proofs.«900979_g7700000000000980_dist_mlpseq_tp1d_bs_bs_b256_d256_h512_v7x_i8_bf16_1_alg».proof.Proof.KernelIdeal.StateV
import proofs.«900979_g7700000000000980_dist_mlpseq_tp1d_bs_bs_b256_d256_h512_v7x_i8_bf16_1_alg».proof.Proof.KernelIdeal.TablesV
import proofs.«900979_g7700000000000980_dist_mlpseq_tp1d_bs_bs_b256_d256_h512_v7x_i8_bf16_1_alg».proof.Proof.KernelIdeal.Steps

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

open Idealize.ShloMosaic.Tactic

/-! # The protocol's steps under the schedule with contents

The rules for the entry signals, the remote copies and the waits, over the schedule whose landings state their
contents. A copy's sender proves what the landing hands over from the destination slice AS WRITTEN: the source's
contents at the enqueue, whatever the slice held before. -/

variable (m : Mem)

instance invsAllV_persistent (K : GSem nD τ sig → ℕ) : BI.Persistent (invsAllV m K) := by unfold invsAllV; infer_instance

attribute [local sl_canon] dev1_eq dev2_eq dev3_eq

/-- One cell's invariant out of the family. -/
theorem invsAllV_elim (K : GSem nD τ sig → ℕ) (ck : Dev nD × Fin 33) :
    (invsAllV m K) ⊢ cellInv ER (schedV m) (K (kcell ck)) (kcell ck) := by
  unfold invsAllV
  exact bigSep_elim (Finset.mem_univ ck)

/-- The entry signal to partner number `d` (mask `μ`): it pays duty `d` of the partner's barrier cell, handing over
    the slot of the first copy of that chain. -/
theorem wp_signal_barV (c : Dev nD) (μ : Fin 8) (d : DD) (K : GSem nD τ sig → ℕ)
    {α : Type} {Q : α → sProp 𝕄} {k : PUnit → Prog (TpuEff nD τ sig (Elt Ideal) Λ₀ .tc) α}
    {O₀' : CellTallies nD τ sig ℕ} (O : CellTallies nD τ sig ℕ) (hO : O₀' = O + tallyAt (barCell (xr μ c)) 0 1) (W : Waits sig ℕ)
    (hr : τ.routes (c : Thread nD τ) (xr μ c : Thread nD τ) = true) :
    iprop(invsAllV m K ∗ reachedAll ∗ owes (c : Thread nD τ) O₀' W ∗ dutyTok ER (barCell (xr μ c)) 0 d ∗ payBar (xr μ c) d)
      ⊢ iprop((owes (c : Thread nD τ) O W -∗ wp frame (wpE (defs₀ (F := Ideal)) Variants.none (c : Thread nD τ) none) Set.univ (k ⟨⟩) Q)
          -∗ wp frame (wpE (defs₀ (F := Ideal)) Variants.none (c : Thread nD τ) none) Set.univ
              (.op (.semSignal (xr μ c : Thread nD τ) barS 1) k) Q) := by
  iintro ⟨#HI, #Hr, HO, Htok, Hpay⟩
  iapply (Rounds.wp_signal Variants.none ER (schedV m) (c : Thread nD τ) none (dst := (xr μ c : Thread nD τ)) (κ := K (barCell (xr μ c)))
      (d := d) (by rw [duties_barV m]; exact Finset.mem_univ _) (amount_barV m (xr μ c) d) 0 O hO hr) $$ [HO Htok Hpay]
  · isplitr
    · ihave H := (invsAllV_elim m K (xr μ c, 0)) $$ HI
      rw [kcell_bar]; iexact H
    isplitl [HO]; · iexact HO
    isplitl [Htok]; · iexact Htok
    isplitl [Hpay]; · rw [payload_barV m]; iexact Hpay
    ihave H := (reachedAll_elim (F := Ideal) (xr μ c, 0)) $$ Hr
    rw [kcell_bar]; iexact H

theorem invs_dmaV (K : GSem nD τ sig → ℕ) (c : Dev nD) (j : ℕ) (hj : 8 ≤ j) (hj' : j < 40) :
    (invsAllV m K) ⊢ cellInv ER (schedV m) (K (dcell c (dsem j))) (dcell c (dsem j)) := by
  have h := invsAllV_elim m K (c, ⟨j - 7, by omega⟩)
  rw [kcell_dma c j hj hj'] at h
  exact h

/-- The wait for the three entry signals: the owner of the barrier cell comes back in round 1 with what each
    partner handed over. -/
theorem wp_wait_barV (c : Dev nD) (K : GSem nD τ sig → ℕ) (O : CellTallies nD τ sig ℕ) (W : Waits sig ℕ)
    {α : Type} {Q : α → sProp 𝕄} {k : PUnit → Prog (TpuEff nD τ sig (Elt Ideal) Λ₀ .tc) α} :
    iprop(invsAllV m K ∗ cred (tallyAt (barCell c) 0 3) ∗ owes (c : Thread nD τ) O W
        ∗ MayWait (c : Thread nD τ) (.reg barS) 0 O ∗ atPos ER (barCell c) 0 ∅ 0)
      ⊢ iprop(((owes (c : Thread nD τ) O (insert (.reg barS, 0) W) ∗ atPos ER (barCell c) 1 ∅ 0 ∗ reached ER (barCell c) 1
              ∗ payBar c 0 ∗ payBar c 1 ∗ payBar c 2)
            -∗ wp frame (wpE (defs₀ (F := Ideal)) Variants.none (c : Thread nD τ) none) Set.univ (k ⟨⟩) Q)
          -∗ wp frame (wpE (defs₀ (F := Ideal)) Variants.none (c : Thread nD τ) none) Set.univ
              (.op (.semWait barS 3) k) Q) := by
  rw [← rest_barV m c]
  iintro ⟨#HI, Hc, HO, Hlev, Hat⟩
  iapply (Rounds.wp_wait_rest_token Variants.none ER (schedV m) (c : Thread nD τ) none (sm := .reg barS) (k' := 3)
      (κ := K (barCell c)) (fun Kt => wpE_semWait_eq Variants.none (c : Thread nD τ) none Set.univ Kt) (Set.mem_univ _) 0
      (by rw [expect_barV m])) $$ [Hc HO Hlev Hat]
  · isplitr
    · ihave H := (invsAllV_elim m K (c, 0)) $$ HI
      rw [kcell_bar]; iexact H
    isplitl [Hc]; · iexact Hc
    isplitl [HO]; · iexact HO
    isplitl [Hlev]; · iexact Hlev
    iexact Hat

/-- The wait for round `r` of a gather or reduce cell at the credit index `ι`: the owner comes back in round
    `r + 1` with what the landing hands over. The wait is any effect whose clause is the wait clause at the
    cell and the round's amount. -/
theorem wp_wait_copyV (c : Dev nD) (j r ι : ℕ) (hj : j < 40) (hr : r < nRounds j) (K : GSem nD τ sig → ℕ)
    (O : CellTallies nD τ sig ℕ) (W : Waits sig ℕ) {w : TpuEff nD τ sig (Elt Ideal) Λ₀ .tc PUnit}
    (hw : ∀ Kt : PUnit → sProp 𝕄, wpE (defs₀ (F := Ideal)) Variants.none (c : Thread nD τ) none Set.univ w Kt
        = waitSpec (c : Thread nD τ) Set.univ (.dma (dsem j)) (amtDma j r) Kt)
    {α : Type} {Q : α → sProp 𝕄} {k : PUnit → Prog (TpuEff nD τ sig (Elt Ideal) Λ₀ .tc) α} :
    iprop(invsAllV m K ∗ cred (tallyAt (dcell c (dsem j)) ι (amtDma j r)) ∗ owes (c : Thread nD τ) O W
        ∗ MayWait (c : Thread nD τ) (.dma (dsem j)) ι O ∗ atPos ER (dcell c (dsem j)) r ∅ 0)
      ⊢ iprop(((owes (c : Thread nD τ) O (insert (.dma (dsem j), ι) W) ∗ atPos ER (dcell c (dsem j)) (r + 1) ∅ 0
              ∗ reached ER (dcell c (dsem j)) (r + 1) ∗ payDmaV m c j r)
            -∗ wp frame (wpE (defs₀ (F := Ideal)) Variants.none (c : Thread nD τ) none) Set.univ (k ⟨⟩) Q)
          -∗ wp frame (wpE (defs₀ (F := Ideal)) Variants.none (c : Thread nD τ) none) Set.univ (.op w k) Q) := by
  rw [← rest_dmaV m c j r hj hr]
  iintro ⟨#HI, Hc, HO, Hlev, Hat⟩
  iapply (Rounds.wp_wait_rest_token Variants.none ER (schedV m) (c : Thread nD τ) none (sm := .dma (dsem j))
      (k' := amtDma j r) (κ := K (dcell c (dsem j))) hw (Set.mem_univ _) ι
      (by rw [expect_dmaV m c j r hj hr, Nat.zero_add])) $$ [Hc HO Hlev Hat]
  · isplitr
    · ihave H := (invs_dmaV m K c j (eight_le_of_lt_nRounds hr) hj) $$ HI
      iexact H
    isplitl [Hc]; · iexact Hc
    isplitl [HO]; · iexact HO
    isplitl [Hlev]; · iexact Hlev
    iexact Hat

/-- Device `c` starts a copy of its slice `src`, held at the share `q`, into the slice `dst` of device `p`,
    which `p` handed over before. It pays the duty of round `r` of its own send cell `js` with the source slice,
    and that of `p`'s receive cell `jr` with the destination slice as written and whatever else (`G`) the landing is
    to hand `p`; the units it owed `p`'s cell at the index `ι` are paid, and it receives its send cell's units in
    credit at `ι`. -/
theorem wp_send_copyV (c p : Dev nD) {s : Shape} (src dst : Memref sig .tc .vmem s .bf16) (js jr r ι : ℕ)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt Ideal) (src.view.loc (c : Thread nD τ)))
    (hpayS : (src.view.loc (c : Thread nD τ) ↦[src.view.set]{q} fs : sProp 𝕄) ⊢ payDmaV m c js r)
    (hpayR : ∀ fd : Buf (Elt Ideal) (dst.view.loc (p : Thread nD τ)),
      iprop((dst.view.loc (p : Thread nD τ) ↦[dst.view.set]{fullShare} (dst.view.write (Elt Ideal) fd (src.view.read (Elt Ideal) fs) Finset.univ)) ∗ G)
        ⊢ payDmaV m p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma (dsem jr)) (.remote (p : Thread nD τ) dst (.dma (dsem js)) hsc)}
    {α : Type} {Q : α → sProp 𝕄} {k : PUnit → Prog (TpuEff nD τ sig (Elt Ideal) Λ₀ .tc) α}
    (hroute : τ.routes (c : Thread nD τ) (p : Thread nD τ) = true) :
    iprop(invsAllV m K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := Ideal)) Variants.none (c : Thread nD τ) none) Set.univ (k ⟨⟩) Q)
          -∗ wp frame (wpE (defs₀ (F := Ideal)) Variants.none (c : Thread nD τ) none) Set.univ
              (.op (.enqueueDma src (.remote (p : Thread nD τ) dst (.dma (dsem js)) hsc) (.dma (dsem jr)) hsrc hdst hsem) k) Q) := by
  iintro ⟨#HI, Hs, Hd, HG, HO, Ht1, Hr1, Ht2, Hr2⟩
  unfold ownAt
  icases Hd with ⟨%fd, Hd⟩
  iapply (Rounds.wp_send_pointsTo_with Variants.none ER (schedV m) (c : Thread nD τ) none (c' := (p : Thread nD τ))
      (src := src) (dst := dst) (sS := .dma (dsem js)) (sem := .dma (dsem jr)) (q := q) (fs := fs) (fd := fd) (F := G)
      (r₁ := r) (r₂ := r) (d₁ := (0 : DD)) (d₂ := (0 : DD)) (κ₁ := K (dcell c (dsem js))) (κ₂ := K (dcell p (dsem jr)))
      (by rw [duties_dmaV m c js r hjs hrs]; exact Finset.mem_singleton_self _)
      (by rw [duties_dmaV m p jr r hjr hrr]; exact Finset.mem_singleton_self _)
      ι ι (amtDma jr r) hN ((amount_dmaV m c js r 0 hjs).trans hNs) (amount_dmaV m p jr r 0 hjr) O hO
      (by rw [payload_dmaV m c js r 0 hjs]; exact hpayS)
      (by rw [payload_dmaV m p jr r 0 hjr]; exact hpayR fd)
      hroute) $$ [Hs Hd HG HO Ht1 Hr1 Ht2 Hr2]
  · isplitr
    · ihave H := (invs_dmaV m K c js (eight_le_of_lt_nRounds hrs) hjs) $$ HI
      iexact H
    isplitr
    · ihave H := (invs_dmaV m K p jr (eight_le_of_lt_nRounds hrr) hjr) $$ HI
      iexact H
    isplitl [Hs]; · iexact Hs
    isplitl [Hd HG]
    · isplitl [Hd]; · iexact Hd
      iexact HG
    isplitl [HO]; · iexact HO
    isplitl [Ht1]; · iexact Ht1
    isplitl [Hr1]; · iexact Hr1
    isplitl [Ht2]; · iexact Ht2
    iexact Hr2

/-- info: 'Cert.KernelIdeal.Val.wp_send_copyV' depends on axioms: [propext, Classical.choice, Quot.sound] -/
#guard_msgs in #print axioms wp_send_copyV

end Cert.KernelIdeal.Val

end
-- ==== Proof.KernelIdeal.ValLemmas.lean ====
/- How the steps of a valued segment turn into facts about rows.

   A gather buffer or an accumulator has 1024 rows of 256 columns; its contents are known on a range of rows to be
   those of one of the global functions. A slice of full width whose rows lie in that range reads those rows (what a
   copy sends); a slice landed at known rows, put back into the buffer, extends the range; a load of rows in the range
   reads them; a store of rows known to hold a function makes the range of that function. All of it is the placement
   of a unit-stride rectangle: element (i, j) of the rectangle at rows `o ..` is element (o + i, j) of the buffer. -/
import proofs.«900979_g7700000000000980_dist_mlpseq_tp1d_bs_bs_b256_d256_h512_v7x_i8_bf16_1_alg».proof.Proof.KernelIdeal.QuietV
import proofs.«900979_g7700000000000980_dist_mlpseq_tp1d_bs_bs_b256_d256_h512_v7x_i8_bf16_1_alg».proof.Proof.KernelIdeal.Slices

noncomputable section

namespace Cert.KernelIdeal.Val

open Cert.KernelIdeal Cert.KernelIdeal.Gen Cert.KernelIdeal.Hand
open Idealize.ShloMosaic Idealize.ShloMosaic.TcCoe
open scoped BigOperators

/-! ## The placement of a full-width block of rows, for plain functions on the buffer's indices -/

/-- Rows `b .. b + n - 1` of a function on the indices of a 1024 × 256 buffer are those of `G`. -/
def RowsAre (G : Fin 1024 → Fin 256 → EReal) (b n : ℕ) (f : S1024x256.Idx → EReal) : Prop :=
  ∀ (row : Fin 1024) (col : Fin 256), b ≤ row.val → row.val < b + n → f (ValueIdx.ix2 row col) = G row col

/-- Element `y` of a unit-stride rectangle of full width at rows `off 0 ..` is element (off 0 + y 0, y 1) of the buffer. -/
theorem unit_emb_eq (off size : Fin 2 → ℕ) (inb : ∀ a, off a + size a ≤ S1024x256.size a) (hcol : off 1 = 0)
    (y : (⟨2, size⟩ : Shape).Idx) (h0 : off 0 + (y 0).val < 1024) (h1 : (y 1).val < 256) :
    (Rect.unit (s := S1024x256) off size inb).emb y = ValueIdx.ix2 (⟨off 0 + (y 0).val, h0⟩ : Fin 1024) (⟨(y 1).val, h1⟩ : Fin 256) := by
  funext a
  apply Fin.ext
  match a with
  | ⟨0, _⟩ => show off 0 + 1 * (y 0).val = off 0 + (y 0).val; rw [Nat.one_mul]
  | ⟨1, _⟩ => show off 1 + 1 * (y 1).val = (y 1).val; rw [Nat.one_mul, hcol, Nat.zero_add]

theorem unit_row_lt (off size : Fin 2 → ℕ) (inb : ∀ a, off a + size a ≤ S1024x256.size a) (y : (⟨2, size⟩ : Shape).Idx) :
    off 0 + (y 0).val < 1024 := by
  have i0 : off 0 + size 0 ≤ 1024 := inb 0
  have y0 : (y 0).val < size 0 := (y 0).isLt
  omega
theorem unit_col_lt (off size : Fin 2 → ℕ) (inb : ∀ a, off a + size a ≤ S1024x256.size a) (y : (⟨2, size⟩ : Shape).Idx) :
    (y 1).val < 256 := by
  have i1 : off 1 + size 1 ≤ 256 := inb 1
  have y1 : (y 1).val < size 1 := (y 1).isLt
  omega

/-- A buffer index lies under the rectangle exactly when its row is one of the rectangle's. -/
theorem mem_unit_iff (off size : Fin 2 → ℕ) (inb : ∀ a, off a + size a ≤ S1024x256.size a) (hcol : off 1 = 0) (hw : size 1 = 256)
    (row : Fin 1024) (col : Fin 256) :
    ValueIdx.ix2 row col ∈ (Rect.unit (s := S1024x256) off size inb).set ↔ off 0 ≤ row.val ∧ row.val < off 0 + size 0 := by
  rw [Rect.mem_set_unit]
  constructor
  · intro h; exact h 0
  · intro h a
    match a with
    | ⟨0, _⟩ => exact h
    | ⟨1, _⟩ => exact ⟨by show off 1 ≤ col.val; rw [hcol]; exact Nat.zero_le _, by show col.val < off 1 + size 1; rw [hcol, hw, Nat.zero_add]; exact col.isLt⟩

/-- Rows in the known range, read through the rectangle. -/
theorem read_rows (G : Fin 1024 → Fin 256 → EReal) (b n : ℕ) (f : S1024x256.Idx → EReal) (hf : RowsAre G b n f)
    (off size : Fin 2 → ℕ) (inb : ∀ a, off a + size a ≤ S1024x256.size a) (hcol : off 1 = 0)
    (hlo : b ≤ off 0) (hhi : off 0 + size 0 ≤ b + n) (y : (⟨2, size⟩ : Shape).Idx) :
    f ((Rect.unit (s := S1024x256) off size inb).emb y) = nat2 G (off 0 + (y 0).val) (y 1).val := by
  have h0 := unit_row_lt off size inb y
  have h1 := unit_col_lt off size inb y
  have y0 : (y 0).val < size 0 := (y 0).isLt
  rw [unit_emb_eq off size inb hcol y h0 h1, hf ⟨_, h0⟩ ⟨_, h1⟩ (by show b ≤ off 0 + (y 0).val; omega) (by show off 0 + (y 0).val < b + n; omega)]
  unfold nat2
  rw [dif_pos ⟨h0, h1⟩]

/-- A function that holds `G`'s rows under the rectangle, put over one that holds them on a range of rows: `G`'s rows
    on both. -/
theorem join_rows (G : Fin 1024 → Fin 256 → EReal) (b n : ℕ) (f g : S1024x256.Idx → EReal) (hf : RowsAre G b n f)
    (off size : Fin 2 → ℕ) (inb : ∀ a, off a + size a ≤ S1024x256.size a) (hcol : off 1 = 0) (hw : size 1 = 256)
    (S : Finset S1024x256.Idx) [∀ j, Decidable (j ∈ S)] (hS : ∀ i, i ∈ S ↔ i ∈ (Rect.unit (s := S1024x256) off size inb).set)
    (hg : ∀ y : (⟨2, size⟩ : Shape).Idx, g ((Rect.unit (s := S1024x256) off size inb).emb y) = nat2 G (off 0 + (y 0).val) (y 1).val)
    (row : Fin 1024) (col : Fin 256)
    (h : (off 0 ≤ row.val ∧ row.val < off 0 + size 0) ∨ (b ≤ row.val ∧ row.val < b + n)) :
    (S.piecewise g f) (ValueIdx.ix2 row col) = G row col := by
  by_cases hm : ValueIdx.ix2 row col ∈ S
  · rw [Finset.piecewise_eq_of_mem _ _ _ hm]
    have hr := (mem_unit_iff off size inb hcol hw row col).mp ((hS _).mp hm)
    let y : (⟨2, size⟩ : Shape).Idx := fun a => match a with
      | ⟨0, _⟩ => ⟨row.val - off 0, by show row.val - off 0 < size 0; omega⟩
      | ⟨1, _⟩ => ⟨col.val, by show col.val < size 1; rw [hw]; exact col.isLt⟩
    have hy := hg y
    have e : (Rect.unit (s := S1024x256) off size inb).emb y = ValueIdx.ix2 row col := by
      rw [unit_emb_eq off size inb hcol y (by show off 0 + (row.val - off 0) < 1024; have := row.isLt; omega) col.isLt]
      funext a
      apply Fin.ext
      match a with
      | ⟨0, _⟩ => show off 0 + (row.val - off 0) = row.val; omega
      | ⟨1, _⟩ => rfl
    rw [e] at hy
    rw [hy]
    show nat2 G (off 0 + (row.val - off 0)) col.val = G row col
    unfold nat2
    rw [dif_pos ⟨by have := row.isLt; omega, col.isLt⟩]
    congr 1
    apply Fin.ext
    show off 0 + (row.val - off 0) = row.val
    omega
  · rw [Finset.piecewise_eq_of_notMem _ _ _ hm]
    rcases h with h | h
    · exact absurd ((hS _).mpr ((mem_unit_iff off size inb hcol hw row col).mpr h)) hm
    · exact hf row col h.1 h.2

/-! ## The same through a slice of one of the four buffers (gather buffers 0 and 1, accumulators 2 and 3)

    The slice of rows `off 0 ..` of buffer `K` reads the buffer's contents at the rectangle's placement, and its
    elements are the rectangle's. -/

/-- (send) A slice of full width whose rows lie in the known range reads `G`'s rows. -/
theorem src_rows0 (c : Dev nD) (G : Fin 1024 → Fin 256 → EReal) (b n : ℕ) (f : Buf (Elt Ideal) ((Memref.whole cc0_scratch0).view.loc (c : Thread nD τ))) (hf : rowsAre0 c G b n f)
    (off size : Fin 2 → ℕ) (inb : ∀ a, off a + size a ≤ S1024x256.size a) (hr : ∀ a, (Rect.unit (s := S1024x256) off size inb).stride a = 1)
    (hcol : off 1 = 0) (hlo : b ≤ off 0) (hhi : off 0 + size 0 ≤ b + n) :
    (((Memref.whole cc0_scratch0).slice (Rect.unit (s := S1024x256) off size inb) hr).view.read (Elt Ideal) f : (⟨2, size⟩ : Shape).Idx → EReal)
      = fun y => nat2 G (off 0 + (y 0).val) (y 1).val :=
  funext fun y => read_rows G b n f hf off size inb hcol hlo hhi y

/-- (wait) A slice landed at `G`'s rows, put over contents that hold `G` on a range of rows: `G` on every range of rows
    covered by the two. -/
theorem join_rows0 (c : Dev nD) (G : Fin 1024 → Fin 256 → EReal) (b n : ℕ) (f g : Buf (Elt Ideal) ((Memref.whole cc0_scratch0).view.loc (c : Thread nD τ))) (hf : rowsAre0 c G b n f)
    (off size : Fin 2 → ℕ) (inb : ∀ a, off a + size a ≤ S1024x256.size a) (hr : ∀ a, (Rect.unit (s := S1024x256) off size inb).stride a = 1)
    (hcol : off 1 = 0) (hw : size 1 = 256)
    (hg : (((Memref.whole cc0_scratch0).slice (Rect.unit (s := S1024x256) off size inb) hr).view.read (Elt Ideal) g : (⟨2, size⟩ : Shape).Idx → EReal) = fun y => nat2 G (off 0 + (y 0).val) (y 1).val)
    (b' n' : ℕ) (hcover : ∀ row : ℕ, b' ≤ row → row < b' + n' → (off 0 ≤ row ∧ row < off 0 + size 0) ∨ (b ≤ row ∧ row < b + n)) :
    rowsAre0 c G b' n' (((Memref.whole cc0_scratch0).slice (Rect.unit (s := S1024x256) off size inb) hr).view.set.piecewise g f) :=
  fun row col h1 h2 => join_rows G b n f g hf off size inb hcol hw ((Memref.whole cc0_scratch0).slice (Rect.unit (s := S1024x256) off size inb) hr).view.set
    (fun i => Finset.ext_iff.mp (set_slice_of_whole cc0_scratch0 (Rect.unit (s := S1024x256) off size inb) hr) i)
    (fun y => congrFun hg y) row col (hcover row.val h1 h2)

/-- (send) A slice of full width whose rows lie in the known range reads `G`'s rows. -/
theorem src_rows1 (c : Dev nD) (G : Fin 1024 → Fin 256 → EReal) (b n : ℕ) (f : Buf (Elt Ideal) ((Memref.whole cc0_scratch1).view.loc (c : Thread nD τ))) (hf : rowsAre1 c G b n f)
    (off size : Fin 2 → ℕ) (inb : ∀ a, off a + size a ≤ S1024x256.size a) (hr : ∀ a, (Rect.unit (s := S1024x256) off size inb).stride a = 1)
    (hcol : off 1 = 0) (hlo : b ≤ off 0) (hhi : off 0 + size 0 ≤ b + n) :
    (((Memref.whole cc0_scratch1).slice (Rect.unit (s := S1024x256) off size inb) hr).view.read (Elt Ideal) f : (⟨2, size⟩ : Shape).Idx → EReal)
      = fun y => nat2 G (off 0 + (y 0).val) (y 1).val :=
  funext fun y => read_rows G b n f hf off size inb hcol hlo hhi y

/-- (wait) A slice landed at `G`'s rows, put over contents that hold `G` on a range of rows: `G` on every range of rows
    covered by the two. -/
theorem join_rows1 (c : Dev nD) (G : Fin 1024 → Fin 256 → EReal) (b n : ℕ) (f g : Buf (Elt Ideal) ((Memref.whole cc0_scratch1).view.loc (c : Thread nD τ))) (hf : rowsAre1 c G b n f)
    (off size : Fin 2 → ℕ) (inb : ∀ a, off a + size a ≤ S1024x256.size a) (hr : ∀ a, (Rect.unit (s := S1024x256) off size inb).stride a = 1)
    (hcol : off 1 = 0) (hw : size 1 = 256)
    (hg : (((Memref.whole cc0_scratch1).slice (Rect.unit (s := S1024x256) off size inb) hr).view.read (Elt Ideal) g : (⟨2, size⟩ : Shape).Idx → EReal) = fun y => nat2 G (off 0 + (y 0).val) (y 1).val)
    (b' n' : ℕ) (hcover : ∀ row : ℕ, b' ≤ row → row < b' + n' → (off 0 ≤ row ∧ row < off 0 + size 0) ∨ (b ≤ row ∧ row < b + n)) :
    rowsAre1 c G b' n' (((Memref.whole cc0_scratch1).slice (Rect.unit (s := S1024x256) off size inb) hr).view.set.piecewise g f) :=
  fun row col h1 h2 => join_rows G b n f g hf off size inb hcol hw ((Memref.whole cc0_scratch1).slice (Rect.unit (s := S1024x256) off size inb) hr).view.set
    (fun i => Finset.ext_iff.mp (set_slice_of_whole cc0_scratch1 (Rect.unit (s := S1024x256) off size inb) hr) i)
    (fun y => congrFun hg y) row col (hcover row.val h1 h2)

/-- (send) A slice of full width whose rows lie in the known range reads `G`'s rows. -/
theorem src_rows2 (c : Dev nD) (G : Fin 1024 → Fin 256 → EReal) (b n : ℕ) (f : Buf (Elt Ideal) ((Memref.whole cc0_scratch2).view.loc (c : Thread nD τ))) (hf : rowsAre2 c G b n f)
    (off size : Fin 2 → ℕ) (inb : ∀ a, off a + size a ≤ S1024x256.size a) (hr : ∀ a, (Rect.unit (s := S1024x256) off size inb).stride a = 1)
    (hcol : off 1 = 0) (hlo : b ≤ off 0) (hhi : off 0 + size 0 ≤ b + n) :
    (((Memref.whole cc0_scratch2).slice (Rect.unit (s := S1024x256) off size inb) hr).view.read (Elt Ideal) f : (⟨2, size⟩ : Shape).Idx → EReal)
      = fun y => nat2 G (off 0 + (y 0).val) (y 1).val :=
  funext fun y => read_rows G b n f hf off size inb hcol hlo hhi y

/-- (wait) A slice landed at `G`'s rows, put over contents that hold `G` on a range of rows: `G` on every range of rows
    covered by the two. -/
theorem join_rows2 (c : Dev nD) (G : Fin 1024 → Fin 256 → EReal) (b n : ℕ) (f g : Buf (Elt Ideal) ((Memref.whole cc0_scratch2).view.loc (c : Thread nD τ))) (hf : rowsAre2 c G b n f)
    (off size : Fin 2 → ℕ) (inb : ∀ a, off a + size a ≤ S1024x256.size a) (hr : ∀ a, (Rect.unit (s := S1024x256) off size inb).stride a = 1)
    (hcol : off 1 = 0) (hw : size 1 = 256)
    (hg : (((Memref.whole cc0_scratch2).slice (Rect.unit (s := S1024x256) off size inb) hr).view.read (Elt Ideal) g : (⟨2, size⟩ : Shape).Idx → EReal) = fun y => nat2 G (off 0 + (y 0).val) (y 1).val)
    (b' n' : ℕ) (hcover : ∀ row : ℕ, b' ≤ row → row < b' + n' → (off 0 ≤ row ∧ row < off 0 + size 0) ∨ (b ≤ row ∧ row < b + n)) :
    rowsAre2 c G b' n' (((Memref.whole cc0_scratch2).slice (Rect.unit (s := S1024x256) off size inb) hr).view.set.piecewise g f) :=
  fun row col h1 h2 => join_rows G b n f g hf off size inb hcol hw ((Memref.whole cc0_scratch2).slice (Rect.unit (s := S1024x256) off size inb) hr).view.set
    (fun i => Finset.ext_iff.mp (set_slice_of_whole cc0_scratch2 (Rect.unit (s := S1024x256) off size inb) hr) i)
    (fun y => congrFun hg y) row col (hcover row.val h1 h2)

/-- (send) A slice of full width whose rows lie in the known range reads `G`'s rows. -/
theorem src_rows3 (c : Dev nD) (G : Fin 1024 → Fin 256 → EReal) (b n : ℕ) (f : Buf (Elt Ideal) ((Memref.whole cc0_scratch3).view.loc (c : Thread nD τ))) (hf : rowsAre3 c G b n f)
    (off size : Fin 2 → ℕ) (inb : ∀ a, off a + size a ≤ S1024x256.size a) (hr : ∀ a, (Rect.unit (s := S1024x256) off size inb).stride a = 1)
    (hcol : off 1 = 0) (hlo : b ≤ off 0) (hhi : off 0 + size 0 ≤ b + n) :
    (((Memref.whole cc0_scratch3).slice (Rect.unit (s := S1024x256) off size inb) hr).view.read (Elt Ideal) f : (⟨2, size⟩ : Shape).Idx → EReal)
      = fun y => nat2 G (off 0 + (y 0).val) (y 1).val :=
  funext fun y => read_rows G b n f hf off size inb hcol hlo hhi y

/-- (wait) A slice landed at `G`'s rows, put over contents that hold `G` on a range of rows: `G` on every range of rows
    covered by the two. -/
theorem join_rows3 (c : Dev nD) (G : Fin 1024 → Fin 256 → EReal) (b n : ℕ) (f g : Buf (Elt Ideal) ((Memref.whole cc0_scratch3).view.loc (c : Thread nD τ))) (hf : rowsAre3 c G b n f)
    (off size : Fin 2 → ℕ) (inb : ∀ a, off a + size a ≤ S1024x256.size a) (hr : ∀ a, (Rect.unit (s := S1024x256) off size inb).stride a = 1)
    (hcol : off 1 = 0) (hw : size 1 = 256)
    (hg : (((Memref.whole cc0_scratch3).slice (Rect.unit (s := S1024x256) off size inb) hr).view.read (Elt Ideal) g : (⟨2, size⟩ : Shape).Idx → EReal) = fun y => nat2 G (off 0 + (y 0).val) (y 1).val)
    (b' n' : ℕ) (hcover : ∀ row : ℕ, b' ≤ row → row < b' + n' → (off 0 ≤ row ∧ row < off 0 + size 0) ∨ (b ≤ row ∧ row < b + n)) :
    rowsAre3 c G b' n' (((Memref.whole cc0_scratch3).slice (Rect.unit (s := S1024x256) off size inb) hr).view.set.piecewise g f) :=
  fun row col h1 h2 => join_rows G b n f g hf off size inb hcol hw ((Memref.whole cc0_scratch3).slice (Rect.unit (s := S1024x256) off size inb) hr).view.set
    (fun i => Finset.ext_iff.mp (set_slice_of_whole cc0_scratch3 (Rect.unit (s := S1024x256) off size inb) hr) i)
    (fun y => congrFun hg y) row col (hcover row.val h1 h2)

/-! ## Loads and stores of rows -/

/-- A natural-number read inside the buffer is the function's value. -/
theorem nat2_eq (G : Fin 1024 → Fin 256 → EReal) (i j : ℕ) (hi : i < 1024) (hj : j < 256) : nat2 G i j = G ⟨i, hi⟩ ⟨j, hj⟩ := by
  unfold nat2; rw [dif_pos ⟨hi, hj⟩]

/-- Contents that hold `G'`'s rows under the rectangle hold them on the rectangle's rows. -/
theorem rows_in (G' : Fin 1024 → Fin 256 → EReal) (off size : Fin 2 → ℕ) (inb : ∀ a, off a + size a ≤ S1024x256.size a)
    (hcol : off 1 = 0) (hw : size 1 = 256) (h : S1024x256.Idx → EReal)
    (hin : ∀ y : (⟨2, size⟩ : Shape).Idx, h ((Rect.unit (s := S1024x256) off size inb).emb y) = nat2 G' (off 0 + (y 0).val) (y 1).val) :
    RowsAre G' (off 0) (size 0) h := by
  intro row col h1 h2
  let y : (⟨2, size⟩ : Shape).Idx := fun a => match a with
    | ⟨0, _⟩ => ⟨row.val - off 0, by show row.val - off 0 < size 0; omega⟩
    | ⟨1, _⟩ => ⟨col.val, by show col.val < size 1; rw [hw]; exact col.isLt⟩
  have hy := hin y
  have e : (Rect.unit (s := S1024x256) off size inb).emb y = ValueIdx.ix2 row col := by
    rw [unit_emb_eq off size inb hcol y (by show off 0 + (row.val - off 0) < 1024; have := row.isLt; omega) col.isLt]
    funext a
    apply Fin.ext
    match a with
    | ⟨0, _⟩ => show off 0 + (row.val - off 0) = row.val; omega
    | ⟨1, _⟩ => rfl
  rw [e] at hy
  rw [hy]
  show nat2 G' (off 0 + (row.val - off 0)) col.val = G' row col
  rw [nat2_eq G' _ _ (by have := row.isLt; omega) col.isLt]
  congr 1
  apply Fin.ext
  show off 0 + (row.val - off 0) = row.val
  omega

/-- Contents that agree with `f` off the rectangle keep what `f` holds on rows the rectangle does not meet. -/
theorem rows_out (G : Fin 1024 → Fin 256 → EReal) (b n : ℕ) (f h : S1024x256.Idx → EReal) (hf : RowsAre G b n f)
    (off size : Fin 2 → ℕ) (inb : ∀ a, off a + size a ≤ S1024x256.size a) (hcol : off 1 = 0) (hw : size 1 = 256)
    (hout : ∀ i, i ∉ (Rect.unit (s := S1024x256) off size inb).set → h i = f i)
    (hd : b + n ≤ off 0 ∨ off 0 + size 0 ≤ b) : RowsAre G b n h := by
  intro row col h1 h2
  rw [hout _ (fun hm => by have := (mem_unit_iff off size inb hcol hw row col).mp hm; omega)]
  exact hf row col h1 h2

/-- (load) A load of rows in the known range reads `G`'s rows. -/
theorem load_rows0 (c : Dev nD) (G : Fin 1024 → Fin 256 → EReal) (b n : ℕ) (f : Buf (Elt Ideal) ((Memref.whole cc0_scratch0).view.loc (c : Thread nD τ))) (hf : rowsAre0 c G b n f)
    (off size : Fin 2 → ℕ) (inb : ∀ a, off a + size a ≤ S1024x256.size a) (hcol : off 1 = 0) (hlo : b ≤ off 0) (hhi : off 0 + size 0 ≤ b + n) :
    ((Memref.whole cc0_scratch0).view.readAt (Elt Ideal) (Rect.unit (s := S1024x256) off size inb).toLoadRect f : (⟨2, size⟩ : Shape).Idx → EReal)
      = fun y => nat2 G (off 0 + (y 0).val) (y 1).val :=
  funext fun y => read_rows G b n f hf off size inb hcol hlo hhi y

/-- (store) After a store of a vector that is `G'`'s rows, the stored rows hold `G'` … -/
theorem store_new0 (c : Dev nD) (G' : Fin 1024 → Fin 256 → EReal) (f : Buf (Elt Ideal) ((Memref.whole cc0_scratch0).view.loc (c : Thread nD τ)))
    (off size : Fin 2 → ℕ) (inb : ∀ a, off a + size a ≤ S1024x256.size a) (hcol : off 1 = 0) (hw : size 1 = 256)
    (w : (⟨2, size⟩ : Shape).Idx → EReal) (hw' : ∀ y, w y = nat2 G' (off 0 + (y 0).val) (y 1).val) :
    rowsAre0 c G' (off 0) (size 0) (((Memref.whole cc0_scratch0).view.slice (Rect.unit (s := S1024x256) off size inb)).write (Elt Ideal) f w Finset.univ) :=
  rows_in G' off size inb hcol hw _ fun y =>
    (View.write_emb_of_mem (v := (Memref.whole cc0_scratch0).view.slice (Rect.unit (s := S1024x256) off size inb)) (Val := Elt Ideal) f w (Finset.mem_univ y)).trans (hw' y)

/-- … and what the buffer held on rows the store does not touch stays. -/
theorem store_keep0 (c : Dev nD) (G : Fin 1024 → Fin 256 → EReal) (b n : ℕ) (f : Buf (Elt Ideal) ((Memref.whole cc0_scratch0).view.loc (c : Thread nD τ))) (hf : rowsAre0 c G b n f)
    (off size : Fin 2 → ℕ) (inb : ∀ a, off a + size a ≤ S1024x256.size a) (hcol : off 1 = 0) (hw : size 1 = 256)
    (w : (⟨2, size⟩ : Shape).Idx → EReal) (hd : b + n ≤ off 0 ∨ off 0 + size 0 ≤ b) :
    rowsAre0 c G b n (((Memref.whole cc0_scratch0).view.slice (Rect.unit (s := S1024x256) off size inb)).write (Elt Ideal) f w Finset.univ) :=
  rows_out G b n f _ hf off size inb hcol hw
    (fun i hi => View.write_of_not_mem (v := (Memref.whole cc0_scratch0).view.slice (Rect.unit (s := S1024x256) off size inb)) (Val := Elt Ideal) f w Finset.univ
      (fun hm => hi ((Finset.ext_iff.mp (View.set_slice_whole cc0_scratch0 (Rect.unit (s := S1024x256) off size inb)) i).mp (View.setOn_subset_set _ _ hm)))) hd

/-- (load) A load of rows in the known range reads `G`'s rows. -/
theorem load_rows1 (c : Dev nD) (G : Fin 1024 → Fin 256 → EReal) (b n : ℕ) (f : Buf (Elt Ideal) ((Memref.whole cc0_scratch1).view.loc (c : Thread nD τ))) (hf : rowsAre1 c G b n f)
    (off size : Fin 2 → ℕ) (inb : ∀ a, off a + size a ≤ S1024x256.size a) (hcol : off 1 = 0) (hlo : b ≤ off 0) (hhi : off 0 + size 0 ≤ b + n) :
    ((Memref.whole cc0_scratch1).view.readAt (Elt Ideal) (Rect.unit (s := S1024x256) off size inb).toLoadRect f : (⟨2, size⟩ : Shape).Idx → EReal)
      = fun y => nat2 G (off 0 + (y 0).val) (y 1).val :=
  funext fun y => read_rows G b n f hf off size inb hcol hlo hhi y

/-- (store) After a store of a vector that is `G'`'s rows, the stored rows hold `G'` … -/
theorem store_new1 (c : Dev nD) (G' : Fin 1024 → Fin 256 → EReal) (f : Buf (Elt Ideal) ((Memref.whole cc0_scratch1).view.loc (c : Thread nD τ)))
    (off size : Fin 2 → ℕ) (inb : ∀ a, off a + size a ≤ S1024x256.size a) (hcol : off 1 = 0) (hw : size 1 = 256)
    (w : (⟨2, size⟩ : Shape).Idx → EReal) (hw' : ∀ y, w y = nat2 G' (off 0 + (y 0).val) (y 1).val) :
    rowsAre1 c G' (off 0) (size 0) (((Memref.whole cc0_scratch1).view.slice (Rect.unit (s := S1024x256) off size inb)).write (Elt Ideal) f w Finset.univ) :=
  rows_in G' off size inb hcol hw _ fun y =>
    (View.write_emb_of_mem (v := (Memref.whole cc0_scratch1).view.slice (Rect.unit (s := S1024x256) off size inb)) (Val := Elt Ideal) f w (Finset.mem_univ y)).trans (hw' y)

/-- … and what the buffer held on rows the store does not touch stays. -/
theorem store_keep1 (c : Dev nD) (G : Fin 1024 → Fin 256 → EReal) (b n : ℕ) (f : Buf (Elt Ideal) ((Memref.whole cc0_scratch1).view.loc (c : Thread nD τ))) (hf : rowsAre1 c G b n f)
    (off size : Fin 2 → ℕ) (inb : ∀ a, off a + size a ≤ S1024x256.size a) (hcol : off 1 = 0) (hw : size 1 = 256)
    (w : (⟨2, size⟩ : Shape).Idx → EReal) (hd : b + n ≤ off 0 ∨ off 0 + size 0 ≤ b) :
    rowsAre1 c G b n (((Memref.whole cc0_scratch1).view.slice (Rect.unit (s := S1024x256) off size inb)).write (Elt Ideal) f w Finset.univ) :=
  rows_out G b n f _ hf off size inb hcol hw
    (fun i hi => View.write_of_not_mem (v := (Memref.whole cc0_scratch1).view.slice (Rect.unit (s := S1024x256) off size inb)) (Val := Elt Ideal) f w Finset.univ
      (fun hm => hi ((Finset.ext_iff.mp (View.set_slice_whole cc0_scratch1 (Rect.unit (s := S1024x256) off size inb)) i).mp (View.setOn_subset_set _ _ hm)))) hd

/-- (load) A load of rows in the known range reads `G`'s rows. -/
theorem load_rows2 (c : Dev nD) (G : Fin 1024 → Fin 256 → EReal) (b n : ℕ) (f : Buf (Elt Ideal) ((Memref.whole cc0_scratch2).view.loc (c : Thread nD τ))) (hf : rowsAre2 c G b n f)
    (off size : Fin 2 → ℕ) (inb : ∀ a, off a + size a ≤ S1024x256.size a) (hcol : off 1 = 0) (hlo : b ≤ off 0) (hhi : off 0 + size 0 ≤ b + n) :
    ((Memref.whole cc0_scratch2).view.readAt (Elt Ideal) (Rect.unit (s := S1024x256) off size inb).toLoadRect f : (⟨2, size⟩ : Shape).Idx → EReal)
      = fun y => nat2 G (off 0 + (y 0).val) (y 1).val :=
  funext fun y => read_rows G b n f hf off size inb hcol hlo hhi y

/-- (store) After a store of a vector that is `G'`'s rows, the stored rows hold `G'` … -/
theorem store_new2 (c : Dev nD) (G' : Fin 1024 → Fin 256 → EReal) (f : Buf (Elt Ideal) ((Memref.whole cc0_scratch2).view.loc (c : Thread nD τ)))
    (off size : Fin 2 → ℕ) (inb : ∀ a, off a + size a ≤ S1024x256.size a) (hcol : off 1 = 0) (hw : size 1 = 256)
    (w : (⟨2, size⟩ : Shape).Idx → EReal) (hw' : ∀ y, w y = nat2 G' (off 0 + (y 0).val) (y 1).val) :
    rowsAre2 c G' (off 0) (size 0) (((Memref.whole cc0_scratch2).view.slice (Rect.unit (s := S1024x256) off size inb)).write (Elt Ideal) f w Finset.univ) :=
  rows_in G' off size inb hcol hw _ fun y =>
    (View.write_emb_of_mem (v := (Memref.whole cc0_scratch2).view.slice (Rect.unit (s := S1024x256) off size inb)) (Val := Elt Ideal) f w (Finset.mem_univ y)).trans (hw' y)

/-- … and what the buffer held on rows the store does not touch stays. -/
theorem store_keep2 (c : Dev nD) (G : Fin 1024 → Fin 256 → EReal) (b n : ℕ) (f : Buf (Elt Ideal) ((Memref.whole cc0_scratch2).view.loc (c : Thread nD τ))) (hf : rowsAre2 c G b n f)
    (off size : Fin 2 → ℕ) (inb : ∀ a, off a + size a ≤ S1024x256.size a) (hcol : off 1 = 0) (hw : size 1 = 256)
    (w : (⟨2, size⟩ : Shape).Idx → EReal) (hd : b + n ≤ off 0 ∨ off 0 + size 0 ≤ b) :
    rowsAre2 c G b n (((Memref.whole cc0_scratch2).view.slice (Rect.unit (s := S1024x256) off size inb)).write (Elt Ideal) f w Finset.univ) :=
  rows_out G b n f _ hf off size inb hcol hw
    (fun i hi => View.write_of_not_mem (v := (Memref.whole cc0_scratch2).view.slice (Rect.unit (s := S1024x256) off size inb)) (Val := Elt Ideal) f w Finset.univ
      (fun hm => hi ((Finset.ext_iff.mp (View.set_slice_whole cc0_scratch2 (Rect.unit (s := S1024x256) off size inb)) i).mp (View.setOn_subset_set _ _ hm)))) hd

/-- (load) A load of rows in the known range reads `G`'s rows. -/
theorem load_rows3 (c : Dev nD) (G : Fin 1024 → Fin 256 → EReal) (b n : ℕ) (f : Buf (Elt Ideal) ((Memref.whole cc0_scratch3).view.loc (c : Thread nD τ))) (hf : rowsAre3 c G b n f)
    (off size : Fin 2 → ℕ) (inb : ∀ a, off a + size a ≤ S1024x256.size a) (hcol : off 1 = 0) (hlo : b ≤ off 0) (hhi : off 0 + size 0 ≤ b + n) :
    ((Memref.whole cc0_scratch3).view.readAt (Elt Ideal) (Rect.unit (s := S1024x256) off size inb).toLoadRect f : (⟨2, size⟩ : Shape).Idx → EReal)
      = fun y => nat2 G (off 0 + (y 0).val) (y 1).val :=
  funext fun y => read_rows G b n f hf off size inb hcol hlo hhi y

/-- (store) After a store of a vector that is `G'`'s rows, the stored rows hold `G'` … -/
theorem store_new3 (c : Dev nD) (G' : Fin 1024 → Fin 256 → EReal) (f : Buf (Elt Ideal) ((Memref.whole cc0_scratch3).view.loc (c : Thread nD τ)))
    (off size : Fin 2 → ℕ) (inb : ∀ a, off a + size a ≤ S1024x256.size a) (hcol : off 1 = 0) (hw : size 1 = 256)
    (w : (⟨2, size⟩ : Shape).Idx → EReal) (hw' : ∀ y, w y = nat2 G' (off 0 + (y 0).val) (y 1).val) :
    rowsAre3 c G' (off 0) (size 0) (((Memref.whole cc0_scratch3).view.slice (Rect.unit (s := S1024x256) off size inb)).write (Elt Ideal) f w Finset.univ) :=
  rows_in G' off size inb hcol hw _ fun y =>
    (View.write_emb_of_mem (v := (Memref.whole cc0_scratch3).view.slice (Rect.unit (s := S1024x256) off size inb)) (Val := Elt Ideal) f w (Finset.mem_univ y)).trans (hw' y)

/-- … and what the buffer held on rows the store does not touch stays. -/
theorem store_keep3 (c : Dev nD) (G : Fin 1024 → Fin 256 → EReal) (b n : ℕ) (f : Buf (Elt Ideal) ((Memref.whole cc0_scratch3).view.loc (c : Thread nD τ))) (hf : rowsAre3 c G b n f)
    (off size : Fin 2 → ℕ) (inb : ∀ a, off a + size a ≤ S1024x256.size a) (hcol : off 1 = 0) (hw : size 1 = 256)
    (w : (⟨2, size⟩ : Shape).Idx → EReal) (hd : b + n ≤ off 0 ∨ off 0 + size 0 ≤ b) :
    rowsAre3 c G b n (((Memref.whole cc0_scratch3).view.slice (Rect.unit (s := S1024x256) off size inb)).write (Elt Ideal) f w Finset.univ) :=
  rows_out G b n f _ hf off size inb hcol hw
    (fun i hi => View.write_of_not_mem (v := (Memref.whole cc0_scratch3).view.slice (Rect.unit (s := S1024x256) off size inb)) (Val := Elt Ideal) f w Finset.univ
      (fun hm => hi ((Finset.ext_iff.mp (View.set_slice_whole cc0_scratch3 (Rect.unit (s := S1024x256) off size inb)) i).mp (View.setOn_subset_set _ _ hm)))) hd

/-! ## A landed slice read back (any buffer: the receive buffers' slots) -/

/-- A load through exactly a slice's rectangle reads what the slice reads. -/
theorem load_slot (b : Ref sig .tc) (r : Rect b.ty.shape) (hr : ∀ a, r.stride a = 1) (c : Dev nD)
    (f : Buf (Elt Ideal) ((Memref.whole b).view.loc (c : Thread nD τ))) :
    (Memref.whole b).view.readAt (Elt Ideal) r.toLoadRect f = ((Memref.whole b).slice r hr).view.read (Elt Ideal) f := rfl

/-- Contents put over others on a slice's elements: the slice reads the new contents. -/
theorem read_piecewise_self {sp : Space} {s : Shape} {e : EltTy} (M : Memref sig .tc sp s e) (c : Dev nD)
    (f g : Buf (Elt Ideal) (M.view.loc (c : Thread nD τ))) :
    M.view.read (Elt Ideal) (M.view.set.piecewise g f) = M.view.read (Elt Ideal) g := by
  funext x
  rw [View.read_apply, View.read_apply, Finset.piecewise_eq_of_mem _ _ _ (View.emb_mem_set _ x)]

/-! ## The printed offsets are at column 0 -/
theorem off1_col : ∀ c : Dev nD, k0_off1 c 1 = 0 := by decide +kernel
theorem off2_col : ∀ c : Dev nD, k0_off2 c 1 = 0 := by decide +kernel
theorem off3_col : ∀ c : Dev nD, k0_off3 c 1 = 0 := by decide +kernel
theorem off4_col : ∀ c : Dev nD, k0_off4 c 1 = 0 := by decide +kernel
theorem off5_col : ∀ c : Dev nD, k0_off5 c 1 = 0 := by decide +kernel
theorem off6_col : ∀ c : Dev nD, k0_off6 c 1 = 0 := by decide +kernel
theorem off7_col : ∀ c : Dev nD, k0_off7 c 1 = 0 := by decide +kernel
theorem off8_col : ∀ c : Dev nD, k0_off8 c 1 = 0 := by decide +kernel
theorem off9_col : ∀ c : Dev nD, k0_off9 c 1 = 0 := by decide +kernel
theorem off10_col : ∀ c : Dev nD, k0_off10 c 1 = 0 := by decide +kernel
theorem off11_col : ∀ c : Dev nD, k0_off11 c 1 = 0 := by decide +kernel
theorem off12_col : ∀ c : Dev nD, k0_off12 c 1 = 0 := by decide +kernel
theorem off13_col : ∀ c : Dev nD, k0_off13 c 1 = 0 := by decide +kernel
theorem off14_col : ∀ c : Dev nD, k0_off14 c 1 = 0 := by decide +kernel
theorem off15_col : ∀ c : Dev nD, k0_off15 c 1 = 0 := by decide +kernel
theorem off16_col : ∀ c : Dev nD, k0_off16 c 1 = 0 := by decide +kernel
theorem off17_col : ∀ c : Dev nD, k0_off17 c 1 = 0 := by decide +kernel
theorem off18_col : ∀ c : Dev nD, k0_off18 c 1 = 0 := by decide +kernel
theorem off19_col : ∀ c : Dev nD, k0_off19 c 1 = 0 := by decide +kernel
theorem off20_col : ∀ c : Dev nD, k0_off20 c 1 = 0 := by decide +kernel

/-! ## The gather's slices: a device's block, pair of blocks and four blocks of each stream

    `d` is the device whose slice it is (this device or a partner), `c` the device whose buffer is read. -/

theorem src_VE0_0 (c d : Dev nD) (G : Fin 1024 → Fin 256 → EReal) (b n : ℕ) (f : Buf (Elt Ideal) ((Memref.whole cc0_scratch0).view.loc (c : Thread nD τ))) (hf : rowsAre0 c G b n f)
    (hlo : b ≤ k0_off3 d 0) (hhi : k0_off3 d 0 + 128 ≤ b + n) :
    (VE0 0 d).view.read (Elt Ideal) f = rows128 G (k0_off3 d 0) :=
  src_rows0 c G b n f hf (k0_off3 d) S128x256.size (k0_off3_inb d) (fun _ => rfl) (off3_col d) hlo hhi
theorem join_VE0_0 (c d : Dev nD) (G : Fin 1024 → Fin 256 → EReal) (b n : ℕ) (f g : Buf (Elt Ideal) ((Memref.whole cc0_scratch0).view.loc (c : Thread nD τ))) (hf : rowsAre0 c G b n f)
    (hg : (VE0 0 d).view.read (Elt Ideal) g = rows128 G (k0_off3 d 0)) (b' n' : ℕ)
    (hcover : ∀ row : ℕ, b' ≤ row → row < b' + n' → (k0_off3 d 0 ≤ row ∧ row < k0_off3 d 0 + 128) ∨ (b ≤ row ∧ row < b + n)) :
    rowsAre0 c G b' n' ((VE0 0 d).view.set.piecewise g f) :=
  join_rows0 c G b n f g hf (k0_off3 d) S128x256.size (k0_off3_inb d) (fun _ => rfl) (off3_col d) rfl hg b' n' hcover

theorem src_VE0_1 (c d : Dev nD) (G : Fin 1024 → Fin 256 → EReal) (b n : ℕ) (f : Buf (Elt Ideal) ((Memref.whole cc0_scratch1).view.loc (c : Thread nD τ))) (hf : rowsAre1 c G b n f)
    (hlo : b ≤ k0_off4 d 0) (hhi : k0_off4 d 0 + 128 ≤ b + n) :
    (VE0 1 d).view.read (Elt Ideal) f = rows128 G (k0_off4 d 0) :=
  src_rows1 c G b n f hf (k0_off4 d) S128x256.size (k0_off4_inb d) (fun _ => rfl) (off4_col d) hlo hhi
theorem join_VE0_1 (c d : Dev nD) (G : Fin 1024 → Fin 256 → EReal) (b n : ℕ) (f g : Buf (Elt Ideal) ((Memref.whole cc0_scratch1).view.loc (c : Thread nD τ))) (hf : rowsAre1 c G b n f)
    (hg : (VE0 1 d).view.read (Elt Ideal) g = rows128 G (k0_off4 d 0)) (b' n' : ℕ)
    (hcover : ∀ row : ℕ, b' ≤ row → row < b' + n' → (k0_off4 d 0 ≤ row ∧ row < k0_off4 d 0 + 128) ∨ (b ≤ row ∧ row < b + n)) :
    rowsAre1 c G b' n' ((VE0 1 d).view.set.piecewise g f) :=
  join_rows1 c G b n f g hf (k0_off4 d) S128x256.size (k0_off4_inb d) (fun _ => rfl) (off4_col d) rfl hg b' n' hcover

theorem src_VE1_0 (c d : Dev nD) (G : Fin 1024 → Fin 256 → EReal) (b n : ℕ) (f : Buf (Elt Ideal) ((Memref.whole cc0_scratch0).view.loc (c : Thread nD τ))) (hf : rowsAre0 c G b n f)
    (hlo : b ≤ k0_off5 d 0) (hhi : k0_off5 d 0 + 256 ≤ b + n) :
    (VE1 0 d).view.read (Elt Ideal) f = rows256 G (k0_off5 d 0) :=
  src_rows0 c G b n f hf (k0_off5 d) S256x256.size (k0_off5_inb d) (fun _ => rfl) (off5_col d) hlo hhi
theorem join_VE1_0 (c d : Dev nD) (G : Fin 1024 → Fin 256 → EReal) (b n : ℕ) (f g : Buf (Elt Ideal) ((Memref.whole cc0_scratch0).view.loc (c : Thread nD τ))) (hf : rowsAre0 c G b n f)
    (hg : (VE1 0 d).view.read (Elt Ideal) g = rows256 G (k0_off5 d 0)) (b' n' : ℕ)
    (hcover : ∀ row : ℕ, b' ≤ row → row < b' + n' → (k0_off5 d 0 ≤ row ∧ row < k0_off5 d 0 + 256) ∨ (b ≤ row ∧ row < b + n)) :
    rowsAre0 c G b' n' ((VE1 0 d).view.set.piecewise g f) :=
  join_rows0 c G b n f g hf (k0_off5 d) S256x256.size (k0_off5_inb d) (fun _ => rfl) (off5_col d) rfl hg b' n' hcover

theorem src_VE1_1 (c d : Dev nD) (G : Fin 1024 → Fin 256 → EReal) (b n : ℕ) (f : Buf (Elt Ideal) ((Memref.whole cc0_scratch1).view.loc (c : Thread nD τ))) (hf : rowsAre1 c G b n f)
    (hlo : b ≤ k0_off6 d 0) (hhi : k0_off6 d 0 + 256 ≤ b + n) :
    (VE1 1 d).view.read (Elt Ideal) f = rows256 G (k0_off6 d 0) :=
  src_rows1 c G b n f hf (k0_off6 d) S256x256.size (k0_off6_inb d) (fun _ => rfl) (off6_col d) hlo hhi
theorem join_VE1_1 (c d : Dev nD) (G : Fin 1024 → Fin 256 → EReal) (b n : ℕ) (f g : Buf (Elt Ideal) ((Memref.whole cc0_scratch1).view.loc (c : Thread nD τ))) (hf : rowsAre1 c G b n f)
    (hg : (VE1 1 d).view.read (Elt Ideal) g = rows256 G (k0_off6 d 0)) (b' n' : ℕ)
    (hcover : ∀ row : ℕ, b' ≤ row → row < b' + n' → (k0_off6 d 0 ≤ row ∧ row < k0_off6 d 0 + 256) ∨ (b ≤ row ∧ row < b + n)) :
    rowsAre1 c G b' n' ((VE1 1 d).view.set.piecewise g f) :=
  join_rows1 c G b n f g hf (k0_off6 d) S256x256.size (k0_off6_inb d) (fun _ => rfl) (off6_col d) rfl hg b' n' hcover

theorem src_VE2_0 (c d : Dev nD) (G : Fin 1024 → Fin 256 → EReal) (b n : ℕ) (f : Buf (Elt Ideal) ((Memref.whole cc0_scratch0).view.loc (c : Thread nD τ))) (hf : rowsAre0 c G b n f)
    (hlo : b ≤ k0_off9 d 0) (hhi : k0_off9 d 0 + 512 ≤ b + n) :
    (VE2 0 d).view.read (Elt Ideal) f = rows512 G (k0_off9 d 0) :=
  src_rows0 c G b n f hf (k0_off9 d) S512x256.size (k0_off9_inb d) (fun _ => rfl) (off9_col d) hlo hhi
theorem join_VE2_0 (c d : Dev nD) (G : Fin 1024 → Fin 256 → EReal) (b n : ℕ) (f g : Buf (Elt Ideal) ((Memref.whole cc0_scratch0).view.loc (c : Thread nD τ))) (hf : rowsAre0 c G b n f)
    (hg : (VE2 0 d).view.read (Elt Ideal) g = rows512 G (k0_off9 d 0)) (b' n' : ℕ)
    (hcover : ∀ row : ℕ, b' ≤ row → row < b' + n' → (k0_off9 d 0 ≤ row ∧ row < k0_off9 d 0 + 512) ∨ (b ≤ row ∧ row < b + n)) :
    rowsAre0 c G b' n' ((VE2 0 d).view.set.piecewise g f) :=
  join_rows0 c G b n f g hf (k0_off9 d) S512x256.size (k0_off9_inb d) (fun _ => rfl) (off9_col d) rfl hg b' n' hcover

theorem src_VE2_1 (c d : Dev nD) (G : Fin 1024 → Fin 256 → EReal) (b n : ℕ) (f : Buf (Elt Ideal) ((Memref.whole cc0_scratch1).view.loc (c : Thread nD τ))) (hf : rowsAre1 c G b n f)
    (hlo : b ≤ k0_off10 d 0) (hhi : k0_off10 d 0 + 512 ≤ b + n) :
    (VE2 1 d).view.read (Elt Ideal) f = rows512 G (k0_off10 d 0) :=
  src_rows1 c G b n f hf (k0_off10 d) S512x256.size (k0_off10_inb d) (fun _ => rfl) (off10_col d) hlo hhi
theorem join_VE2_1 (c d : Dev nD) (G : Fin 1024 → Fin 256 → EReal) (b n : ℕ) (f g : Buf (Elt Ideal) ((Memref.whole cc0_scratch1).view.loc (c : Thread nD τ))) (hf : rowsAre1 c G b n f)
    (hg : (VE2 1 d).view.read (Elt Ideal) g = rows512 G (k0_off10 d 0)) (b' n' : ℕ)
    (hcover : ∀ row : ℕ, b' ≤ row → row < b' + n' → (k0_off10 d 0 ≤ row ∧ row < k0_off10 d 0 + 512) ∨ (b ≤ row ∧ row < b + n)) :
    rowsAre1 c G b' n' ((VE2 1 d).view.set.piecewise g f) :=
  join_rows1 c G b n f g hf (k0_off10 d) S512x256.size (k0_off10_inb d) (fun _ => rfl) (off10_col d) rfl hg b' n' hcover

/-! ## These rest on the standard axioms only -/

/-- info: 'Cert.KernelIdeal.Val.join_rows0' depends on axioms: [propext, Classical.choice, Quot.sound] -/
#guard_msgs in #print axioms join_rows0
/-- info: 'Cert.KernelIdeal.Val.store_new2' depends on axioms: [propext, Classical.choice, Quot.sound] -/
#guard_msgs in #print axioms store_new2

end Cert.KernelIdeal.Val

end
-- ==== Proof.KernelIdeal.PayVals.lean ====
/- What the kernel's payload functions compute at the ideal instance, index by index.

   At the ideal instance a cast between f32 and bf16 and a shape cast to the same shape are the identity, a splat of
   the zero pattern is the extended real 0, `maximumf` is `max`, and a matrix product into a zero accumulator is the
   sum of the operands' products over the contraction index. So the payload of the first layer's rows,
   `acc[rows] = (cast (max (xh · wi) 0)) · wo`, is at entry (r, col) the sum over the 512 hidden units k of
   `max (∑ e, xh r e * wi e k) 0 * wo k col`. -/
import proofs.«900979_g7700000000000980_dist_mlpseq_tp1d_bs_bs_b256_d256_h512_v7x_i8_bf16_1_alg».proof.Proof.KernelIdeal.Values
import proofs.«900979_g7700000000000980_dist_mlpseq_tp1d_bs_bs_b256_d256_h512_v7x_i8_bf16_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.TcCoe
open scoped BigOperators

/-! ## The two matrix products of a layer, read at an entry -/

theorem lhs1_0 (i : S256x512.Idx) (q : dot_S256x256_S256x512_S256x512_1_0_0_1_n_n.contr.Idx) :
    (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
theorem lhs1_1 (i : S256x512.Idx) (q : dot_S256x256_S256x512_S256x512_1_0_0_1_n_n.contr.Idx) :
    (dot_S256x256_S256x512_S256x512_1_0_0_1_n_n.lhsIdx i q 1).val = (q ⟨0, by decide⟩).val :=
  dot_S256x256_S256x512_S256x512_1_0_0_1_n_n.lhsIdx_val_of_single rfl i q
theorem rhs1_0 (i : S256x512.Idx) (q : dot_S256x256_S256x512_S256x512_1_0_0_1_n_n.contr.Idx) :
    (dot_S256x256_S256x512_S256x512_1_0_0_1_n_n.rhsIdx i q 0).val = (q ⟨0, by decide⟩).val :=
  dot_S256x256_S256x512_S256x512_1_0_0_1_n_n.rhsIdx_val_of_single rfl i q
theorem rhs1_1 (i : S256x512.Idx) (q : dot_S256x256_S256x512_S256x512_1_0_0_1_n_n.contr.Idx) :
    (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl

/-- The first product (256 × 256 by 256 × 512) at entry (r, k): the accumulator there plus the sum over the 256 inputs. -/
theorem mm1_apply (lhs : FVec Ideal S256x256 .bf16) (rhs : FVec Ideal S256x512 .bf16) (acc : FVec Ideal S256x512 .f32)
    (r : Fin 256) (k : Fin 512) :
    FloatOps.matmul dot_S256x256_S256x512_S256x512_1_0_0_1_n_n none lhs rhs acc (ValueIdx.ix2 r k)
      = acc (ValueIdx.ix2 r k) + ∑ e : Fin 256, lhs (ValueIdx.ix2 r e) * rhs (ValueIdx.ix2 e k) := by
  rw [Ideal.matmul_apply, ← Equiv.sum_comp (ValueIdx.contrEquiv1 dot_S256x256_S256x512_S256x512_1_0_0_1_n_n 256 rfl rfl).symm]
  refine congrArg (acc (ValueIdx.ix2 r k) + ·) (Finset.sum_congr rfl fun e _ => ?_)
  have hk := ValueIdx.contrEquiv1_symm_val dot_S256x256_S256x512_S256x512_1_0_0_1_n_n 256 rfl rfl e
  have el : dot_S256x256_S256x512_S256x512_1_0_0_1_n_n.lhsIdx (ValueIdx.ix2 r k) ((ValueIdx.contrEquiv1 dot_S256x256_S256x512_S256x512_1_0_0_1_n_n 256 rfl rfl).symm e) = ValueIdx.ix2 r e := funext fun a => Fin.ext (by
    match a with
    | ⟨0, _⟩ => exact lhs1_0 _ _
    | ⟨1, _⟩ => exact (lhs1_1 _ _).trans hk)
  have er : dot_S256x256_S256x512_S256x512_1_0_0_1_n_n.rhsIdx (ValueIdx.ix2 r k) ((ValueIdx.contrEquiv1 dot_S256x256_S256x512_S256x512_1_0_0_1_n_n 256 rfl rfl).symm e) = ValueIdx.ix2 e k := funext fun a => Fin.ext (by
    match a with
    | ⟨0, _⟩ => exact (rhs1_0 _ _).trans hk
    | ⟨1, _⟩ => exact rhs1_1 _ _)
  rw [el, er]

theorem lhs2_0 (i : S256x256.Idx) (q : dot_S256x512_S512x256_S256x256_1_0_0_1_n_n.contr.Idx) :
    (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem lhs2_1 (i : S256x256.Idx) (q : dot_S256x512_S512x256_S256x256_1_0_0_1_n_n.contr.Idx) :
    (dot_S256x512_S512x256_S256x256_1_0_0_1_n_n.lhsIdx i q 1).val = (q ⟨0, by decide⟩).val :=
  dot_S256x512_S512x256_S256x256_1_0_0_1_n_n.lhsIdx_val_of_single rfl i q
theorem rhs2_0 (i : S256x256.Idx) (q : dot_S256x512_S512x256_S256x256_1_0_0_1_n_n.contr.Idx) :
    (dot_S256x512_S512x256_S256x256_1_0_0_1_n_n.rhsIdx i q 0).val = (q ⟨0, by decide⟩).val :=
  dot_S256x512_S512x256_S256x256_1_0_0_1_n_n.rhsIdx_val_of_single rfl i q
theorem rhs2_1 (i : S256x256.Idx) (q : dot_S256x512_S512x256_S256x256_1_0_0_1_n_n.contr.Idx) :
    (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-- The second product (256 × 512 by 512 × 256) at entry (r, col): the accumulator there plus the sum over the 512 hidden units. -/
theorem mm2_apply (lhs : FVec Ideal S256x512 .bf16) (rhs : FVec Ideal S512x256 .bf16) (acc : FVec Ideal S256x256 .f32)
    (r : Fin 256) (col : Fin 256) :
    FloatOps.matmul dot_S256x512_S512x256_S256x256_1_0_0_1_n_n none lhs rhs acc (ValueIdx.ix2 r col)
      = acc (ValueIdx.ix2 r col) + ∑ k : Fin 512, lhs (ValueIdx.ix2 r k) * rhs (ValueIdx.ix2 k col) := by
  rw [Ideal.matmul_apply, ← Equiv.sum_comp (ValueIdx.contrEquiv1 dot_S256x512_S512x256_S256x256_1_0_0_1_n_n 512 rfl rfl).symm]
  refine congrArg (acc (ValueIdx.ix2 r col) + ·) (Finset.sum_congr rfl fun k _ => ?_)
  have hk := ValueIdx.contrEquiv1_symm_val dot_S256x512_S512x256_S256x256_1_0_0_1_n_n 512 rfl rfl k
  have el : dot_S256x512_S512x256_S256x256_1_0_0_1_n_n.lhsIdx (ValueIdx.ix2 r col) ((ValueIdx.contrEquiv1 dot_S256x512_S512x256_S256x256_1_0_0_1_n_n 512 rfl rfl).symm k) = ValueIdx.ix2 r k := funext fun a => Fin.ext (by
    match a with
    | ⟨0, _⟩ => exact lhs2_0 _ _
    | ⟨1, _⟩ => exact (lhs2_1 _ _).trans hk)
  have er : dot_S256x512_S512x256_S256x256_1_0_0_1_n_n.rhsIdx (ValueIdx.ix2 r col) ((ValueIdx.contrEquiv1 dot_S256x512_S512x256_S256x256_1_0_0_1_n_n 512 rfl rfl).symm k) = ValueIdx.ix2 k col := funext fun a => Fin.ext (by
    match a with
    | ⟨0, _⟩ => exact (rhs2_0 _ _).trans hk
    | ⟨1, _⟩ => exact rhs2_1 _ _)
  rw [el, er]

/-! ## Kind (b): the rows' payload, `(cast (max (xh · wi) 0)) · wo` -/

/-- The hidden activations of 256 rows: relu of the first product, cast to bf16. -/
def hid (xh : FVec Ideal S256x256 .bf16) (wi : FVec Ideal S256x512 .bf16) : FVec Ideal S256x512 .bf16 :=
  truncf .bf16 (maximumf (matmul dot_S256x256_S256x512_S256x512_1_0_0_1_n_n none xh wi (constant S256x512 .f32 0x00000000#32))
    (broadcast S256x512 (Scalar.ofBits .f32 0x00000000#32))) bitsLt_bf16_f32

theorem hid_apply (xh : FVec Ideal S256x256 .bf16) (wi : FVec Ideal S256x512 .bf16) (r : Fin 256) (k : Fin 512) :
    hid xh wi (ValueIdx.ix2 r k) = max (∑ e : Fin 256, xh (ValueIdx.ix2 r e) * wi (ValueIdx.ix2 e k)) 0 := by
  show max (FloatOps.matmul dot_S256x256_S256x512_S256x512_1_0_0_1_n_n none xh wi (constant S256x512 .f32 0x00000000#32) (ValueIdx.ix2 r k)) (Ideal.ofBits .f32 0x00000000#32) = _
  rw [mm1_apply, Ideal.ofBits_zero_f32]
  show max (Ideal.ofBits .f32 0x00000000#32 + _) 0 = _
  rw [Ideal.ofBits_zero_f32, zero_add]

/-- The rows' partial product: the hidden activations times the second weight matrix, into a zero accumulator. -/
def mmRows (xh : FVec Ideal S256x256 .bf16) (wi : FVec Ideal S256x512 .bf16) (wo : FVec Ideal S512x256 .bf16) : FVec Ideal S256x256 .f32 :=
  matmul dot_S256x512_S512x256_S256x256_1_0_0_1_n_n none (hid xh wi) wo (constant S256x256 .f32 0x00000000#32)

theorem mmRows_apply (xh : FVec Ideal S256x256 .bf16) (wi : FVec Ideal S256x512 .bf16) (wo : FVec Ideal S512x256 .bf16)
    (r : Fin 256) (col : Fin 256) :
    mmRows xh wi wo (ValueIdx.ix2 r col)
      = ∑ k : Fin 512, max (∑ e : Fin 256, xh (ValueIdx.ix2 r e) * wi (ValueIdx.ix2 e k)) 0 * wo (ValueIdx.ix2 k col) := by
  show FloatOps.matmul dot_S256x512_S512x256_S256x256_1_0_0_1_n_n none (hid xh wi) wo (constant S256x256 .f32 0x00000000#32) (ValueIdx.ix2 r col) = _
  rw [mm2_apply]
  show Ideal.ofBits .f32 0x00000000#32 + _ = _
  rw [Ideal.ofBits_zero_f32, zero_add]
  exact Finset.sum_congr rfl fun k _ => by rw [hid_apply]

/-- Into the zero accumulator: just the sums. -/
theorem mm1z_apply (lhs : FVec Ideal S256x256 .bf16) (rhs : FVec Ideal S256x512 .bf16) (r : Fin 256) (k : Fin 512) :
    FloatOps.matmul dot_S256x256_S256x512_S256x512_1_0_0_1_n_n none lhs rhs (constant S256x512 .f32 0x00000000#32) (ValueIdx.ix2 r k)
      = ∑ e : Fin 256, lhs (ValueIdx.ix2 r e) * rhs (ValueIdx.ix2 e k) := by
  rw [mm1_apply]
  show Ideal.ofBits .f32 0x00000000#32 + _ = _
  rw [Ideal.ofBits_zero_f32, zero_add]
theorem mm2z_apply (lhs : FVec Ideal S256x512 .bf16) (rhs : FVec Ideal S512x256 .bf16) (r col : Fin 256) :
    FloatOps.matmul dot_S256x512_S512x256_S256x256_1_0_0_1_n_n none lhs rhs (constant S256x256 .f32 0x00000000#32) (ValueIdx.ix2 r col)
      = ∑ k : Fin 512, lhs (ValueIdx.ix2 r k) * rhs (ValueIdx.ix2 k col) := by
  rw [mm2_apply]
  show Ideal.ofBits .f32 0x00000000#32 + _ = _
  rw [Ideal.ofBits_zero_f32, zero_add]
/-- Relu and cast of a given pre-activation, times the second weight matrix, into the zero accumulator. -/
theorem reluMm2_apply (p : FVec Ideal S256x512 .f32) (wo : FVec Ideal S512x256 .bf16) (r col : Fin 256) :
    FloatOps.matmul dot_S256x512_S512x256_S256x256_1_0_0_1_n_n none
        (truncf .bf16 (maximumf p (broadcast S256x512 (Scalar.ofBits .f32 0x00000000#32))) bitsLt_bf16_f32 : FVec Ideal S256x512 .bf16)
        wo (constant S256x256 .f32 0x00000000#32) (ValueIdx.ix2 r col)
      = ∑ k : Fin 512, max (p (ValueIdx.ix2 r k)) 0 * wo (ValueIdx.ix2 k col) := by
  rw [mm2z_apply]
  refine Finset.sum_congr rfl fun k _ => ?_
  show max (p (ValueIdx.ix2 r k)) (Ideal.ofBits .f32 0x00000000#32) * _ = _
  rw [Ideal.ofBits_zero_f32]

/-- The rows' product is a device's partial product (Values.lean's `partOf`) at the row of the gathered buffer the
    block's row `r` holds, once the three operands are known to hold that row and the device's two weight slices. -/
theorem mmRows_partOf (m : Mem) (l : Fin 3) (d : Dev nD) (X : Fin 1024 → Fin 256 → EReal) (row : Fin 1024)
    (xh : FVec Ideal S256x256 .bf16) (wi : FVec Ideal S256x512 .bf16) (wo : FVec Ideal S512x256 .bf16) (r col : Fin 256)
    (hx : ∀ e, xh (ValueIdx.ix2 r e) = X row e) (hwi : ∀ e k, wi (ValueIdx.ix2 e k) = winOf m l d e k)
    (hwo : ∀ k, wo (ValueIdx.ix2 k col) = woutOf m l d k col) :
    mmRows xh wi wo (ValueIdx.ix2 r col) = partOf m l d X row col := by
  rw [mmRows_apply]
  unfold partOf
  refine Finset.sum_congr rfl fun k _ => ?_
  have h : (∑ e : Fin 256, xh (ValueIdx.ix2 r e) * wi (ValueIdx.ix2 e k)) = ∑ e : Fin 256, X row e * winOf m l d e k :=
    Finset.sum_congr rfl fun e _ => by rw [hx e, hwi e k]
  rw [h, hwo k]

/-! ## Every printed payload, by its kind

    Identity casts (f32 to bf16, bf16 to f32, a shape cast to the same shape, alone or composed): the value at every
    index is the argument's. Sums (the accumulator plus a received block widened to f32, with or without a final cast):
    the sum of the two values. The rows' product whole (`mmRows`), its first half (`hid`), and its second half into a
    given or a zero accumulator. -/
theorem k0_pay1_apply (x0 : Vec Ideal S128x256 .f32) (x1 : FVec Ideal S128x256 .f32) (i : S128x256.Idx) : k0_pay1 (F := Ideal) x0 x1 i = x0 i + x1 i := by
  unfold k0_pay1; rfl
theorem k0_pay2_apply (x0 : Vec Ideal S128x256 .f32) (i : S128x256.Idx) : k0_pay2 (F := Ideal) x0 i = x0 i := by
  unfold k0_pay2; simp only [shapeCast_self] <;> rfl
theorem k0_pay3_apply (x0 : Vec Ideal S128x256 .f32) (i : S128x256.Idx) : k0_pay3 (F := Ideal) x0 i = x0 i := by
  unfold k0_pay3; simp only [shapeCast_self] <;> rfl
theorem k0_pay4_apply (x0 : Vec Ideal S256x512 .f32) (i : S256x512.Idx) : k0_pay4 (F := Ideal) x0 i = x0 i := by
  unfold k0_pay4; simp only [shapeCast_self] <;> rfl
theorem k0_pay5_apply (x0 : Vec Ideal S512x256 .f32) (i : S512x256.Idx) : k0_pay5 (F := Ideal) x0 i = x0 i := by
  unfold k0_pay5; simp only [shapeCast_self] <;> rfl
theorem k0_pay6_eq (x0 : Vec Ideal S256x256 .bf16) (x1 : Vec Ideal S256x512 .bf16) (x2 : Vec Ideal S512x256 .bf16) : k0_pay6 (F := Ideal) x0 x1 x2 = mmRows x0 x1 x2 := by
  unfold k0_pay6 mmRows hid; exact shapeCast_self _ _
theorem k0_pay7_eq (x0 : Vec Ideal S256x256 .bf16) (x1 : Vec Ideal S256x512 .bf16) : k0_pay7 (F := Ideal) x0 x1 = hid x0 x1 := rfl
theorem k0_pay8_apply (x0 : FVec Ideal S256x512 .bf16) (x1 : Vec Ideal S512x256 .bf16) (x2 : FVec Ideal S256x256 .f32) (r col : Fin 256) :
    k0_pay8 (F := Ideal) x0 x1 x2 (ValueIdx.ix2 r col) = x2 (ValueIdx.ix2 r col) + ∑ k : Fin 512, x0 (ValueIdx.ix2 r k) * x1 (ValueIdx.ix2 k col) := by
  unfold k0_pay8; simp only [shapeCast_self]; exact mm2_apply _ _ _ _ _
theorem k0_pay9_eq (x0 : Vec Ideal S256x256 .bf16) (x1 : Vec Ideal S256x512 .bf16) (x2 : Vec Ideal S512x256 .bf16) : k0_pay9 (F := Ideal) x0 x1 x2 = mmRows x0 x1 x2 := by
  unfold k0_pay9 mmRows hid; rfl
theorem k0_pay10_apply (x0 : FVec Ideal S256x256 .f32) (i : S256x256.Idx) : k0_pay10 (F := Ideal) x0 i = x0 i := by
  unfold k0_pay10; simp only [shapeCast_self] <;> rfl
theorem k0_pay11_eq (x0 : Vec Ideal S256x256 .bf16) (x1 : Vec Ideal S256x512 .bf16) (x2 : Vec Ideal S512x256 .bf16) : k0_pay11 (F := Ideal) x0 x1 x2 = mmRows x0 x1 x2 := by
  unfold k0_pay11 mmRows hid; exact shapeCast_self _ _
theorem k0_pay12_eq (x0 : Vec Ideal S256x256 .bf16) (x1 : Vec Ideal S256x512 .bf16) (x2 : Vec Ideal S512x256 .bf16) : k0_pay12 (F := Ideal) x0 x1 x2 = mmRows x0 x1 x2 := by
  unfold k0_pay12 mmRows hid; exact shapeCast_self _ _
theorem k0_pay13_eq (x0 : Vec Ideal S256x256 .bf16) (x1 : Vec Ideal S256x512 .bf16) (x2 : Vec Ideal S512x256 .bf16) : k0_pay13 (F := Ideal) x0 x1 x2 = mmRows x0 x1 x2 := by
  unfold k0_pay13 mmRows hid; exact shapeCast_self _ _
theorem k0_pay14_apply (x0 : Vec Ideal S256x256 .f32) (i : S256x256.Idx) : k0_pay14 (F := Ideal) x0 i = x0 i := by
  unfold k0_pay14; simp only [shapeCast_self] <;> rfl
theorem k0_pay15_apply (x0 : Vec Ideal S256x256 .f32) (i : S256x256.Idx) : k0_pay15 (F := Ideal) x0 i = x0 i := by
  unfold k0_pay15; rfl
theorem k0_pay16_apply (x0 : FVec Ideal S256x256 .bf16) (i : S256x256.Idx) : k0_pay16 (F := Ideal) x0 i = x0 i := by
  unfold k0_pay16; simp only [shapeCast_self] <;> rfl
theorem k0_pay17_eq (x0 : Vec Ideal S256x256 .bf16) (x1 : Vec Ideal S256x512 .bf16) (x2 : Vec Ideal S512x256 .bf16) : k0_pay17 (F := Ideal) x0 x1 x2 = mmRows x0 x1 x2 := by
  unfold k0_pay17 mmRows hid; exact shapeCast_self _ _
theorem k0_pay18_apply (x0 : Vec Ideal S256x256 .bf16) (x1 : Vec Ideal S256x512 .bf16) (r : Fin 256) (k : Fin 512) :
    k0_pay18 (F := Ideal) x0 x1 (ValueIdx.ix2 r k) = ∑ e : Fin 256, x0 (ValueIdx.ix2 r e) * x1 (ValueIdx.ix2 e k) := by
  unfold k0_pay18; exact mm1z_apply _ _ _ _
theorem k0_pay19_apply (x0 : FVec Ideal S256x512 .f32) (x1 : Vec Ideal S512x256 .bf16) (r col : Fin 256) :
    k0_pay19 (F := Ideal) x0 x1 (ValueIdx.ix2 r col) = ∑ k : Fin 512, max (x0 (ValueIdx.ix2 r k)) 0 * x1 (ValueIdx.ix2 k col) := by
  unfold k0_pay19; simp only [shapeCast_self]; exact reluMm2_apply _ _ _ _
theorem k0_pay20_apply (x0 : Vec Ideal S256x256 .f32) (i : S256x256.Idx) : k0_pay20 (F := Ideal) x0 i = x0 i := by
  unfold k0_pay20; simp only [shapeCast_self] <;> rfl
theorem k0_pay21_apply (x0 : Vec Ideal S256x256 .f32) (i : S256x256.Idx) : k0_pay21 (F := Ideal) x0 i = x0 i := by
  unfold k0_pay21; rfl
theorem k0_pay22_apply (x0 : FVec Ideal S256x256 .bf16) (i : S256x256.Idx) : k0_pay22 (F := Ideal) x0 i = x0 i := by
  unfold k0_pay22; simp only [shapeCast_self] <;> rfl
theorem k0_pay23_apply (x0 : Vec Ideal S256x512 .f32) (i : S256x512.Idx) : k0_pay23 (F := Ideal) x0 i = x0 i := by
  unfold k0_pay23; simp only [shapeCast_self] <;> rfl
theorem k0_pay24_apply (x0 : Vec Ideal S512x256 .f32) (i : S512x256.Idx) : k0_pay24 (F := Ideal) x0 i = x0 i := by
  unfold k0_pay24; simp only [shapeCast_self] <;> rfl
theorem k0_pay25_apply (x0 : Vec Ideal S256x256 .f32) (x1 : Vec Ideal S256x256 .bf16) (i : S256x256.Idx) : k0_pay25 (F := Ideal) x0 x1 i = x0 i + x1 i := by
  unfold k0_pay25; simp only [shapeCast_self] <;> rfl
theorem k0_pay26_apply (x0 : Vec Ideal S256x256 .bf16) (i : S256x256.Idx) : k0_pay26 (F := Ideal) x0 i = x0 i := by
  unfold k0_pay26; rfl
theorem k0_pay27_apply (x0 : Vec Ideal S256x256 .f32) (x1 : FVec Ideal S256x256 .f32) (i : S256x256.Idx) : k0_pay27 (F := Ideal) x0 x1 i = x0 i + x1 i := by
  unfold k0_pay27; simp only [shapeCast_self] <;> rfl
theorem k0_pay28_apply (x0 : Vec Ideal S256x256 .f32) (x1 : Vec Ideal S256x256 .bf16) (i : S256x256.Idx) : k0_pay28 (F := Ideal) x0 x1 i = x0 i + x1 i := by
  unfold k0_pay28; simp only [shapeCast_self] <;> rfl
theorem k0_pay29_apply (x0 : Vec Ideal S256x256 .f32) (x1 : Vec Ideal S256x256 .bf16) (i : S256x256.Idx) : k0_pay29 (F := Ideal) x0 x1 i = x0 i + x1 i := by
  unfold k0_pay29; simp only [shapeCast_self] <;> rfl
theorem k0_pay30_apply (x0 : Vec Ideal S256x256 .f32) (i : S256x256.Idx) : k0_pay30 (F := Ideal) x0 i = x0 i := by
  unfold k0_pay30; simp only [shapeCast_self] <;> rfl
theorem k0_pay31_apply (x0 : Vec Ideal S256x256 .f32) (i : S256x256.Idx) : k0_pay31 (F := Ideal) x0 i = x0 i := by
  unfold k0_pay31; simp only [shapeCast_self] <;> rfl
theorem k0_pay32_apply (x0 : Vec Ideal S256x256 .f32) (x1 : Vec Ideal S256x256 .bf16) (i : S256x256.Idx) : k0_pay32 (F := Ideal) x0 x1 i = x0 i + x1 i := by
  unfold k0_pay32; simp only [shapeCast_self] <;> rfl
theorem k0_pay33_apply (x0 : Vec Ideal S256x256 .f32) (x1 : Vec Ideal S256x256 .bf16) (i : S256x256.Idx) : k0_pay33 (F := Ideal) x0 x1 i = x0 i + x1 i := by
  unfold k0_pay33; simp only [shapeCast_self] <;> rfl
theorem k0_pay34_apply (x0 : Vec Ideal S256x256 .f32) (i : S256x256.Idx) : k0_pay34 (F := Ideal) x0 i = x0 i := by
  unfold k0_pay34; simp only [shapeCast_self] <;> rfl
theorem k0_pay35_apply (x0 : Vec Ideal S256x256 .f32) (i : S256x256.Idx) : k0_pay35 (F := Ideal) x0 i = x0 i := by
  unfold k0_pay35; simp only [shapeCast_self] <;> rfl
theorem k0_pay36_apply (x0 : Vec Ideal S256x256 .f32) (x1 : Vec Ideal S256x256 .bf16) (i : S256x256.Idx) : k0_pay36 (F := Ideal) x0 x1 i = x0 i + x1 i := by
  unfold k0_pay36; simp only [shapeCast_self] <;> rfl
theorem k0_pay37_apply (x0 : Vec Ideal S256x256 .f32) (x1 : Vec Ideal S256x256 .bf16) (i : S256x256.Idx) : k0_pay37 (F := Ideal) x0 x1 i = x0 i + x1 i := by
  unfold k0_pay37; simp only [shapeCast_self] <;> rfl
theorem k0_pay38_eq (x0 : Vec Ideal S256x256 .bf16) (x1 : Vec Ideal S256x512 .bf16) (x2 : Vec Ideal S512x256 .bf16) : k0_pay38 (F := Ideal) x0 x1 x2 = mmRows x0 x1 x2 := by
  unfold k0_pay38 mmRows hid; rfl
theorem k0_pay39_apply (x0 : FVec Ideal S256x256 .f32) (i : S256x256.Idx) : k0_pay39 (F := Ideal) x0 i = x0 i := by
  unfold k0_pay39; simp only [shapeCast_self] <;> rfl
theorem k0_pay40_eq (x0 : Vec Ideal S256x256 .bf16) (x1 : Vec Ideal S256x512 .bf16) (x2 : Vec Ideal S512x256 .bf16) : k0_pay40 (F := Ideal) x0 x1 x2 = mmRows x0 x1 x2 := by
  unfold k0_pay40 mmRows hid; exact shapeCast_self _ _
theorem k0_pay41_eq (x0 : Vec Ideal S256x256 .bf16) (x1 : Vec Ideal S256x512 .bf16) (x2 : Vec Ideal S512x256 .bf16) : k0_pay41 (F := Ideal) x0 x1 x2 = mmRows x0 x1 x2 := by
  unfold k0_pay41 mmRows hid; exact shapeCast_self _ _
theorem k0_pay42_eq (x0 : Vec Ideal S256x256 .bf16) (x1 : Vec Ideal S256x512 .bf16) (x2 : Vec Ideal S512x256 .bf16) : k0_pay42 (F := Ideal) x0 x1 x2 = mmRows x0 x1 x2 := by
  unfold k0_pay42 mmRows hid; exact shapeCast_self _ _
theorem k0_pay43_eq (x0 : Vec Ideal S256x256 .bf16) (x1 : Vec Ideal S256x512 .bf16) (x2 : Vec Ideal S512x256 .bf16) : k0_pay43 (F := Ideal) x0 x1 x2 = mmRows x0 x1 x2 := by
  unfold k0_pay43 mmRows hid; exact shapeCast_self _ _
theorem k0_pay44_eq (x0 : Vec Ideal S256x256 .bf16) (x1 : Vec Ideal S256x512 .bf16) (x2 : Vec Ideal S512x256 .bf16) : k0_pay44 (F := Ideal) x0 x1 x2 = mmRows x0 x1 x2 := by
  unfold k0_pay44 mmRows hid; exact shapeCast_self _ _
theorem k0_pay45_apply (x0 : Vec Ideal S256x256 .f32) (i : S256x256.Idx) : k0_pay45 (F := Ideal) x0 i = x0 i := by
  unfold k0_pay45; simp only [shapeCast_self] <;> rfl
theorem k0_pay46_apply (x0 : Vec Ideal S256x256 .f32) (i : S256x256.Idx) : k0_pay46 (F := Ideal) x0 i = x0 i := by
  unfold k0_pay46; simp only [shapeCast_self] <;> rfl
theorem k0_pay47_eq (x0 : Vec Ideal S256x256 .bf16) (x1 : Vec Ideal S256x512 .bf16) : k0_pay47 (F := Ideal) x0 x1 = hid x0 x1 := rfl
theorem k0_pay48_apply (x0 : FVec Ideal S256x512 .bf16) (x1 : Vec Ideal S512x256 .bf16) (r col : Fin 256) :
    k0_pay48 (F := Ideal) x0 x1 (ValueIdx.ix2 r col) = ∑ k : Fin 512, x0 (ValueIdx.ix2 r k) * x1 (ValueIdx.ix2 k col) := by
  unfold k0_pay48; simp only [shapeCast_self]; exact mm2z_apply _ _ _ _
theorem k0_pay49_eq (x0 : Vec Ideal S256x256 .bf16) (x1 : Vec Ideal S256x512 .bf16) (x2 : Vec Ideal S512x256 .bf16) : k0_pay49 (F := Ideal) x0 x1 x2 = mmRows x0 x1 x2 := by
  unfold k0_pay49 mmRows hid; exact shapeCast_self _ _
theorem k0_pay50_apply (x0 : Vec Ideal S256x256 .f32) (i : S256x256.Idx) : k0_pay50 (F := Ideal) x0 i = x0 i := by
  unfold k0_pay50; simp only [shapeCast_self] <;> rfl
theorem k0_pay51_apply (x0 : Vec Ideal S256x256 .f32) (i : S256x256.Idx) : k0_pay51 (F := Ideal) x0 i = x0 i := by
  unfold k0_pay51; simp only [shapeCast_self] <;> rfl
theorem k0_pay52_apply (x0 : Vec Ideal S256x512 .f32) (i : S256x512.Idx) : k0_pay52 (F := Ideal) x0 i = x0 i := by
  unfold k0_pay52; simp only [shapeCast_self] <;> rfl
theorem k0_pay53_apply (x0 : Vec Ideal S512x256 .f32) (i : S512x256.Idx) : k0_pay53 (F := Ideal) x0 i = x0 i := by
  unfold k0_pay53; simp only [shapeCast_self] <;> rfl
theorem k0_pay54_apply (x0 : FVec Ideal S512x256 .bf16) (i : S512x256.Idx) : k0_pay54 (F := Ideal) x0 i = x0 i := by
  unfold k0_pay54; simp only [shapeCast_self] <;> rfl
theorem k0_pay55_apply (x0 : Vec Ideal S256x256 .f32) (x1 : Vec Ideal S256x256 .bf16) (i : S256x256.Idx) : k0_pay55 (F := Ideal) x0 x1 i = x0 i + x1 i := by
  unfold k0_pay55; simp only [shapeCast_self] <;> rfl
theorem k0_pay56_apply (x0 : Vec Ideal S256x256 .f32) (x1 : Vec Ideal S256x256 .bf16) (i : S256x256.Idx) : k0_pay56 (F := Ideal) x0 x1 i = x0 i + x1 i := by
  unfold k0_pay56; simp only [shapeCast_self] <;> rfl
theorem k0_pay57_apply (x0 : Vec Ideal S256x256 .f32) (x1 : Vec Ideal S256x256 .bf16) (i : S256x256.Idx) : k0_pay57 (F := Ideal) x0 x1 i = x0 i + x1 i := by
  unfold k0_pay57; simp only [shapeCast_self] <;> rfl
theorem k0_pay58_apply (x0 : Vec Ideal S256x256 .f32) (x1 : Vec Ideal S256x256 .bf16) (i : S256x256.Idx) : k0_pay58 (F := Ideal) x0 x1 i = x0 i + x1 i := by
  unfold k0_pay58; simp only [shapeCast_self] <;> rfl
theorem k0_pay59_apply (x0 : Vec Ideal S256x256 .f32) (i : S256x256.Idx) : k0_pay59 (F := Ideal) x0 i = x0 i := by
  unfold k0_pay59; simp only [shapeCast_self] <;> rfl
theorem k0_pay60_apply (x0 : Vec Ideal S256x256 .f32) (i : S256x256.Idx) : k0_pay60 (F := Ideal) x0 i = x0 i := by
  unfold k0_pay60; simp only [shapeCast_self] <;> rfl
theorem k0_pay61_apply (x0 : Vec Ideal S256x256 .f32) (x1 : Vec Ideal S256x256 .bf16) (i : S256x256.Idx) : k0_pay61 (F := Ideal) x0 x1 i = x0 i + x1 i := by
  unfold k0_pay61; simp only [shapeCast_self] <;> rfl
theorem k0_pay62_apply (x0 : Vec Ideal S256x256 .f32) (x1 : Vec Ideal S256x256 .bf16) (i : S256x256.Idx) : k0_pay62 (F := Ideal) x0 x1 i = x0 i + x1 i := by
  unfold k0_pay62; simp only [shapeCast_self] <;> rfl
theorem k0_pay63_apply (x0 : Vec Ideal S256x256 .f32) (i : S256x256.Idx) : k0_pay63 (F := Ideal) x0 i = x0 i := by
  unfold k0_pay63; simp only [shapeCast_self] <;> rfl
theorem k0_pay64_apply (x0 : Vec Ideal S256x256 .f32) (i : S256x256.Idx) : k0_pay64 (F := Ideal) x0 i = x0 i := by
  unfold k0_pay64; simp only [shapeCast_self] <;> rfl
theorem k0_pay65_apply (x0 : Vec Ideal S256x256 .f32) (x1 : Vec Ideal S256x256 .bf16) (i : S256x256.Idx) : k0_pay65 (F := Ideal) x0 x1 i = x0 i + x1 i := by
  unfold k0_pay65; simp only [shapeCast_self] <;> rfl
theorem k0_pay66_apply (x0 : Vec Ideal S256x256 .f32) (x1 : Vec Ideal S256x256 .bf16) (i : S256x256.Idx) : k0_pay66 (F := Ideal) x0 x1 i = x0 i + x1 i := by
  unfold k0_pay66; rfl
theorem k0_pay67_apply (x0 : FVec Ideal S256x256 .bf16) (i : S256x256.Idx) : k0_pay67 (F := Ideal) x0 i = x0 i := by
  unfold k0_pay67; simp only [shapeCast_self] <;> rfl
theorem k0_pay68_eq (x0 : Vec Ideal S256x256 .bf16) (x1 : Vec Ideal S256x512 .bf16) (x2 : Vec Ideal S512x256 .bf16) : k0_pay68 (F := Ideal) x0 x1 x2 = mmRows x0 x1 x2 := by
  unfold k0_pay68 mmRows hid; exact shapeCast_self _ _
theorem k0_pay69_eq (x0 : Vec Ideal S256x256 .bf16) (x1 : Vec Ideal S256x512 .bf16) (x2 : Vec Ideal S512x256 .bf16) : k0_pay69 (F := Ideal) x0 x1 x2 = mmRows x0 x1 x2 := by
  unfold k0_pay69 mmRows hid; exact shapeCast_self _ _
theorem k0_pay70_eq (x0 : Vec Ideal S256x256 .bf16) (x1 : Vec Ideal S256x512 .bf16) (x2 : Vec Ideal S512x256 .bf16) : k0_pay70 (F := Ideal) x0 x1 x2 = mmRows x0 x1 x2 := by
  unfold k0_pay70 mmRows hid; exact shapeCast_self _ _
theorem k0_pay71_eq (x0 : Vec Ideal S256x256 .bf16) (x1 : Vec Ideal S256x512 .bf16) (x2 : Vec Ideal S512x256 .bf16) : k0_pay71 (F := Ideal) x0 x1 x2 = mmRows x0 x1 x2 := by
  unfold k0_pay71 mmRows hid; exact shapeCast_self _ _
theorem k0_pay72_eq (x0 : Vec Ideal S256x256 .bf16) (x1 : Vec Ideal S256x512 .bf16) (x2 : Vec Ideal S512x256 .bf16) : k0_pay72 (F := Ideal) x0 x1 x2 = mmRows x0 x1 x2 := by
  unfold k0_pay72 mmRows hid; exact shapeCast_self _ _
theorem k0_pay73_eq (x0 : Vec Ideal S256x256 .bf16) (x1 : Vec Ideal S256x512 .bf16) : k0_pay73 (F := Ideal) x0 x1 = hid x0 x1 := rfl
theorem k0_pay74_apply (x0 : FVec Ideal S256x512 .bf16) (x1 : Vec Ideal S512x256 .bf16) (x2 : FVec Ideal S256x256 .f32) (r col : Fin 256) :
    k0_pay74 (F := Ideal) x0 x1 x2 (ValueIdx.ix2 r col) = x2 (ValueIdx.ix2 r col) + ∑ k : Fin 512, x0 (ValueIdx.ix2 r k) * x1 (ValueIdx.ix2 k col) := by
  unfold k0_pay74; simp only [shapeCast_self]; exact mm2_apply _ _ _ _ _
theorem k0_pay75_apply (x0 : Vec Ideal S256x256 .f32) (i : S256x256.Idx) : k0_pay75 (F := Ideal) x0 i = x0 i := by
  unfold k0_pay75; simp only [shapeCast_self] <;> rfl
theorem k0_pay76_apply (x0 : Vec Ideal S256x256 .f32) (i : S256x256.Idx) : k0_pay76 (F := Ideal) x0 i = x0 i := by
  unfold k0_pay76; simp only [shapeCast_self] <;> rfl
theorem k0_pay77_eq (x0 : Vec Ideal S256x256 .bf16) (x1 : Vec Ideal S256x512 .bf16) (x2 : Vec Ideal S512x256 .bf16) : k0_pay77 (F := Ideal) x0 x1 x2 = mmRows x0 x1 x2 := by
  unfold k0_pay77 mmRows hid; exact shapeCast_self _ _
theorem k0_pay78_eq (x0 : Vec Ideal S256x256 .bf16) (x1 : Vec Ideal S256x512 .bf16) (x2 : Vec Ideal S512x256 .bf16) : k0_pay78 (F := Ideal) x0 x1 x2 = mmRows x0 x1 x2 := by
  unfold k0_pay78 mmRows hid; rfl
theorem k0_pay79_apply (x0 : FVec Ideal S256x256 .f32) (i : S256x256.Idx) : k0_pay79 (F := Ideal) x0 i = x0 i := by
  unfold k0_pay79; simp only [shapeCast_self] <;> rfl
theorem k0_pay80_apply (x0 : Vec Ideal S256x256 .f32) (i : S256x256.Idx) : k0_pay80 (F := Ideal) x0 i = x0 i := by
  unfold k0_pay80; simp only [shapeCast_self] <;> rfl
theorem k0_pay81_apply (x0 : Vec Ideal S256x256 .f32) (i : S256x256.Idx) : k0_pay81 (F := Ideal) x0 i = x0 i := by
  unfold k0_pay81; simp only [shapeCast_self] <;> rfl
theorem k0_pay82_apply (x0 : Vec Ideal S256x256 .f32) (x1 : Vec Ideal S256x256 .bf16) (i : S256x256.Idx) : k0_pay82 (F := Ideal) x0 x1 i = x0 i + x1 i := by
  unfold k0_pay82; simp only [shapeCast_self] <;> rfl
theorem k0_pay83_apply (x0 : Vec Ideal S256x256 .f32) (x1 : Vec Ideal S256x256 .bf16) (i : S256x256.Idx) : k0_pay83 (F := Ideal) x0 x1 i = x0 i + x1 i := by
  unfold k0_pay83; simp only [shapeCast_self] <;> rfl
theorem k0_pay84_apply (x0 : Vec Ideal S256x256 .f32) (x1 : Vec Ideal S256x256 .bf16) (i : S256x256.Idx) : k0_pay84 (F := Ideal) x0 x1 i = x0 i + x1 i := by
  unfold k0_pay84; simp only [shapeCast_self] <;> rfl
theorem k0_pay85_apply (x0 : Vec Ideal S256x256 .f32) (x1 : Vec Ideal S256x256 .bf16) (i : S256x256.Idx) : k0_pay85 (F := Ideal) x0 x1 i = x0 i + x1 i := by
  unfold k0_pay85; rfl
theorem k0_pay86_apply (x0 : FVec Ideal S256x256 .f32) (i : S256x256.Idx) : k0_pay86 (F := Ideal) x0 i = x0 i := by
  unfold k0_pay86; simp only [shapeCast_self] <;> rfl
theorem k0_pay87_apply (x0 : Vec Ideal S256x256 .f32) (i : S256x256.Idx) : k0_pay87 (F := Ideal) x0 i = x0 i := by
  unfold k0_pay87; simp only [shapeCast_self] <;> rfl
theorem k0_pay88_apply (x0 : Vec Ideal S256x256 .f32) (i : S256x256.Idx) : k0_pay88 (F := Ideal) x0 i = x0 i := by
  unfold k0_pay88; simp only [shapeCast_self] <;> rfl
theorem k0_pay89_apply (x0 : Vec Ideal S256x256 .f32) (x1 : Vec Ideal S256x256 .bf16) (i : S256x256.Idx) : k0_pay89 (F := Ideal) x0 x1 i = x0 i + x1 i := by
  unfold k0_pay89; simp only [shapeCast_self] <;> rfl
theorem k0_pay90_apply (x0 : Vec Ideal S256x256 .f32) (x1 : Vec Ideal S256x256 .bf16) (i : S256x256.Idx) : k0_pay90 (F := Ideal) x0 x1 i = x0 i + x1 i := by
  unfold k0_pay90; simp only [shapeCast_self] <;> rfl
theorem k0_pay91_apply (x0 : Vec Ideal S128x256 .f32) (i : S128x256.Idx) : k0_pay91 (F := Ideal) x0 i = x0 i := by
  unfold k0_pay91; simp only [shapeCast_self] <;> rfl
theorem k0_pay92_apply (x0 : Vec Ideal S128x256 .f32) (i : S128x256.Idx) : k0_pay92 (F := Ideal) x0 i = x0 i := by
  unfold k0_pay92; simp only [shapeCast_self] <;> rfl
theorem k0_pay93_apply (x0 : Vec Ideal S128x256 .f32) (x1 : Vec Ideal S128x256 .bf16) (i : S128x256.Idx) : k0_pay93 (F := Ideal) x0 x1 i = x0 i + x1 i := by
  unfold k0_pay93; rfl
theorem k0_pay94_apply (x0 : Vec Ideal S128x256 .bf16) (i : S128x256.Idx) : k0_pay94 (F := Ideal) x0 i = x0 i := by
  unfold k0_pay94; rfl

/-! ## These rest on the standard axioms only -/

/-- info: 'Cert.KernelIdeal.Val.mmRows_apply' depends on axioms: [propext, Classical.choice, Quot.sound] -/
#guard_msgs in #print axioms mmRows_apply
/-- info: 'Cert.KernelIdeal.Val.k0_pay6_eq' depends on axioms: [propext, Classical.choice, Quot.sound] -/
#guard_msgs in #print axioms k0_pay6_eq

end Cert.KernelIdeal.Val

end
-- ==== Proof.KernelIdeal.SegV4.lean ====
/- The third reduce step of layer 0 with contents (segment 4): the protocol steps of the ownership proof of the same
   segment, each buffer now carried at named contents. -/
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StepsV
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.QuietLemmas

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

local notation "𝕄" => MT nD τ sig ℕ (Elt Ideal) ℕ UU ℕ

variable (m : Mem)

/-! # The third reduce step of layer 0, with contents

   The device sends the partner `c xor 3` its two-device sum `S1` of the first stream on the rows of that partner's
   pair of blocks (they were put into the first half of the first send buffer at the end of the step before), and the
   partner `c xor 4` the same of the second stream (put into the second send buffer here). What lands from `c xor 3` is
   that partner's `S1` on the device's own pair: added to the accumulator it is `S2`, the sum over four devices.
   What lands from `c xor 4` stays in the receive buffer; it is added at the start of the next step. -/

/-! ## Index facts -/

/-- The two partners of this step are reachable. -/
theorem routes3V : ∀ c : Dev nD, τ.routes (c : Thread nD τ) (xr 3 c : Thread nD τ) = true := by decide
theorem routes4V : ∀ c : Dev nD, τ.routes (c : Thread nD τ) (xr 4 c : Thread nD τ) = true := by decide

/-- The partner's pair of blocks is the other pair of the device's four. -/
theorem pairRow0_xr3 : ∀ c : Dev nD, pairRow 0 (xr 3 c) = pair2Row 0 c := by decide +kernel
theorem pairRow1_xr4 : ∀ c : Dev nD, pairRow 1 (xr 4 c) = pair2Row 1 c := by decide +kernel

/-- Both pairs lie in the four blocks. -/
theorem off7_in_quad : ∀ c : Dev nD, k0_off9 c 0 ≤ k0_off7 c 0 ∧ k0_off7 c 0 + 256 ≤ k0_off9 c 0 + 512 := by decide +kernel
theorem off12_in_quad : ∀ c : Dev nD, k0_off10 c 0 ≤ k0_off12 c 0 ∧ k0_off12 c 0 + 256 ≤ k0_off10 c 0 + 512 := by decide +kernel

/-- The first half of the first send buffer, read as a slice: element (i, j) of the slice is element (i, j) of the buffer. -/
theorem sa0_read (c : Dev nD) (G : Fin 1024 → Fin 256 → EReal) (b : ℕ)
    (f : Buf (Elt Ideal) ((Memref.whole cc0_scratch4).view.loc (c : Thread nD τ))) (hf : sndIs c G b 256 f) :
    (SA 0).view.read (Elt Ideal) f = rows256 G b := by
  funext y
  have h0 : (y 0).val < 256 := ValueIdx.idx2_lt0 (n0 := 256) (n1 := 256) y
  have h1 : (y 1).val < 256 := ValueIdx.idx2_lt1 (n0 := 256) (n1 := 256) y
  have e : (SA 0).view.emb y = ValueIdx.ix2 (⟨(y 0).val, by omega⟩ : Fin 512) (⟨(y 1).val, h1⟩ : Fin 256) := by
    funext a
    apply Fin.ext
    match a with
    | ⟨0, _⟩ => show 0 + 1 * (y 0).val = (y 0).val; omega
    | ⟨1, _⟩ => show 0 + 1 * (y 1).val = (y 1).val; omega
  show f ((SA 0).view.emb y) = nat2 G (b + (y 0).val) (y 1).val
  rw [e]
  exact hf ⟨(y 0).val, by omega⟩ ⟨(y 1).val, h1⟩ h0

/-- A slice landed on rows 512 .. 767 of the second receive buffer, put over other contents: those rows hold it. -/
theorem slot7_of_landed (c : Dev nD) (G : Fin 1024 → Fin 256 → EReal) (b : ℕ)
    (f g : Buf (Elt Ideal) ((Memref.whole cc0_scratch7).view.loc (c : Thread nD τ)))
    (hg : (R2 1).view.read (Elt Ideal) g = rows256 G b) :
    slot7Is c G 512 b 256 ((R2 1).view.set.piecewise g f) := by
  intro t col h1 h2
  let y : S256x256.Idx := ValueIdx.ix2 (⟨t.val - 512, by omega⟩ : Fin 256) col
  have e : (R2 1).view.emb y = ValueIdx.ix2 t col := by
    funext a
    apply Fin.ext
    match a with
    | ⟨0, _⟩ => show 512 + 1 * (t.val - 512) = t.val; omega
    | ⟨1, _⟩ => show 0 + 1 * col.val = col.val; omega
  have hm : ValueIdx.ix2 t col ∈ (R2 1).view.set := by rw [← e]; exact View.emb_mem_set _ y
  rw [Finset.piecewise_eq_of_mem _ _ _ hm, ← e]
  exact congrFun hg y

/-- The four-device sum is the device's two-device sum plus that of its second reduce partner. -/
theorem sum_S2_0 (c : Dev nD) (i j : ℕ) (hi : i < 1024) (hj : j < 256) :
    nat2 (S1 m 0 0 c) i j + nat2 (S1 m 0 0 (xr 3 c)) i j = nat2 (S2 m 0 0 c) i j := by
  rw [nat2_eq _ _ _ hi hj, nat2_eq _ _ _ hi hj, nat2_eq _ _ _ hi hj]
  rfl

/-! ## What the two copies land -/

/-- Copy 10 lands the device's `S1` of the first stream on the partner's pair of blocks. -/
theorem land26 (c : Dev nD) (s4 : Buf (Elt Ideal) ((Memref.whole cc0_scratch4).view.loc (c : Thread nD τ)))
    (hs4 : sndIs c (S1 m 0 0 c) (pair2Row 0 c) 256 s4)
    (fd : Buf (Elt Ideal) ((R2 0).view.loc ((xr 3 c : Dev nD) : Thread nD τ))) :
    iprop(((R2 0).view.loc ((xr 3 c : Dev nD) : Thread nD τ) ↦[(R2 0).view.set]{fullShare}
          ((R2 0).view.write (Elt Ideal) fd ((SA 0).view.read (Elt Ideal) s4) Finset.univ)) ∗ grantLast (F := Ideal) c 1 0)
      ⊢ payDmaV m (xr 3 c) 26 0 := by
  rw [show payDmaV m (xr 3 c) 26 0 = iprop(owns ((xr 3 c : Dev nD) : Thread nD τ) (R2 0) fullShare (rows256 (S1 m 0 0 (xr 3 (xr 3 c))) (pairRow 0 (xr 3 c))) ∗ grantLast (F := Ideal) (xr 3 (xr 3 c)) 1 0) from rfl,
    xr_xr, pairRow0_xr3]
  refine sep_mono_left ?_
  unfold owns
  iintro H
  iexists ((R2 0).view.write (Elt Ideal) fd ((SA 0).view.read (Elt Ideal) s4) Finset.univ)
  isplitr
  · ipureintro
    exact (View.read_write_univ _ _).trans (sa0_read c _ _ s4 hs4)
  · iexact H

/-- Copy 11 lands the device's `S1` of the second stream on the partner's pair of blocks. -/
theorem land36 (c : Dev nD) (t5 : Buf (Elt Ideal) ((Memref.whole cc0_scratch5).view.loc (c : Thread nD τ)))
    (ht5 : (SA 1).view.read (Elt Ideal) t5 = rows256 (S1 m 0 1 c) (pair2Row 1 c))
    (fd : Buf (Elt Ideal) ((R2 1).view.loc ((xr 4 c : Dev nD) : Thread nD τ))) :
    iprop(((R2 1).view.loc ((xr 4 c : Dev nD) : Thread nD τ) ↦[(R2 1).view.set]{fullShare}
          ((R2 1).view.write (Elt Ideal) fd ((SA 1).view.read (Elt Ideal) t5) Finset.univ)) ∗ grant (F := Ideal) c (VE1 1 (xr 4 c)) (agR 1 1) 1)
      ⊢ payDmaV m (xr 4 c) 36 0 := by
  rw [show payDmaV m (xr 4 c) 36 0 = iprop(owns ((xr 4 c : Dev nD) : Thread nD τ) (R2 1) fullShare (rows256 (S1 m 0 1 (xr 4 (xr 4 c))) (pairRow 1 (xr 4 c))) ∗ grant (F := Ideal) (xr 4 (xr 4 c)) (VE1 1 (xr 4 c)) (agR 1 1) 1) from rfl,
    xr_xr, pairRow1_xr4]
  refine sep_mono_left ?_
  unfold owns
  iintro H
  iexists ((R2 1).view.write (Elt Ideal) fd ((SA 1).view.read (Elt Ideal) t5) Finset.univ)
  isplitr
  · ipureintro
    exact (View.read_write_univ _ _).trans ht5
  · iexact H

/-! ## Rearranging what is held of a receive buffer -/

theorem held_swap {ℓ : Loc nD τ sig} (A B : Finset (Idx ℓ)) (f : Buf (Elt Ideal) ℓ) :
    (ℓ ↦[Finset.univ \ (B ∪ A)]{fullShare} f : sProp 𝕄) ⊢ (ℓ ↦[(Finset.univ \ A) \ B]{fullShare} f) := by
  rw [Finset.union_comm, univ_sdiff_union]
theorem rest_swap {ℓ : Loc nD τ sig} (A B : Finset (Idx ℓ)) (f : Buf (Elt Ideal) ℓ) :
    (ℓ ↦[(Finset.univ \ A) \ B]{fullShare} f : sProp 𝕄) ⊢ (ℓ ↦[(Finset.univ \ B) \ A]{fullShare} f) := by
  rw [sdiff_right_comm]

/-! ## The states before and after -/

/-- Before: both accumulators hold the two-device sums on the device's four blocks; the first half of the first send
    buffer holds the first stream's on the other pair. -/
def Q4pre (K : GSem nD τ sig → ℕ) (c : Dev nD) : sProp 𝕄 :=
  QV m K c 10 1 (fun _ => True) (fun _ => True) (fun _ => True)
    (rowsAre2 c (S1 m 0 0 c) (quadRow 0 c) 512) (rowsAre3 c (S1 m 0 1 c) (quadRow 1 c) 512)
    (sndIs c (S1 m 0 0 c) (pair2Row 0 c) 256) (fun _ => True) (fun _ => True) (fun _ => True)
    ∅ ∅ ((R2 0).view.set ∪ (R3 0).view.set) (R2 1).view.set
    iprop(grant (xr 3 c) (R2 0) (rsR 0 1) 0 ∗ grant (xr 4 c) (R2 1) (rsR 1 1) 0 ∗ grantLast (xr 1 c) 0 0)

/-- After: the first accumulator holds the four-device sum on the device's pair; the second still the two-device sums,
    and rows 512 .. 767 of the second receive buffer hold the partner's, to be added next. -/
def Q4post (K : GSem nD τ sig → ℕ) (c : Dev nD) : sProp 𝕄 :=
  QV m K c 12 1 (fun _ => True) (fun _ => True) (fun _ => True)
    (rowsAre2 c (S2 m 0 0 c) (pairRow 0 c) 256) (rowsAre3 c (S1 m 0 1 c) (quadRow 1 c) 512)
    (fun _ => True) (fun _ => True) (fun _ => True) (slot7Is c (S1 m 0 1 (xr 4 c)) 512 (pairRow 1 c) 256)
    ∅ (VE1 1 (xr 4 c)).view.set (R3 0).view.set (R3 1).view.set
    iprop(grantLast (xr 1 c) 0 0 ∗ grantLast (xr 3 c) 1 0 ∗ grant (xr 4 c) (VE1 1 c) (agR 1 1) 1)

/-! ## The segment -/

set_option maxHeartbeats 4000000 in
/-- The third reduce step of layer 0, with contents. -/
theorem seg4_okV (c : Dev nD) (v2 v131 v134 v496 v500 : BitVec 32) :
    (iprop(∃ K, Q4pre m K c) : sProp 𝕄)
      ⊢ wp frame (wpE (defs₀ (F := Ideal)) Variants.none (c : Thread nD τ) none) Set.univ
          (seg4 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134 v496 v500)
          (fun _ => iprop(∃ K, Q4post m K c)) := by
  refine exists_elim fun K => ?_
  unfold Q4pre QV localBufsV bufV heldButV
  rw [posAt_10, toks_seg_10, creds_seg_10, Finset.sdiff_empty, grantLast_0]
  unfold grant
  rw [← dev14_eq c, ← dev15_eq c]
  iintro ⟨#HI, #Hr, #Hlev, Hbar, ⟨A8, #P8, A9, #P9, A10, #P10, A11, #P11, A12, #P12, A13, #P13, A14, #P14, A15, #P15, A16, #P16, A17, #P17, A18, #P18, A19, #P19, A20, #P20, A21, #P21, A22, #P22, A23, #P23, A24, #P24, A25, #P25, A26, #P26, A27, #P27, A28, #P28, A29, #P29, A30, #P30, A31, #P31, A32, #P32, A33, #P33, A34, #P34, A35, #P35, A36, #P36, A37, #P37, A38, #P38, A39, #P39⟩, ⟨⟨TAa, TAb⟩, ⟨TBa, TBb⟩, Htoks⟩, ⟨CA, CB, Hcreds⟩, ⟨%W, HO⟩, ⟨⟨%g0, Hg0, %hg0⟩, ⟨%g1, Hg1, %hg1⟩, ⟨%g2, Hg2, %hg2⟩, ⟨%g3, Hg3, %hg3⟩, ⟨%g4, Hg4, %hg4⟩, ⟨%g5, Hg5, %hg5⟩, ⟨%g6, Hg6, %hg6⟩, ⟨%g7, Hg7, %hg7⟩, ⟨%s2, Hs2, %hs2⟩, ⟨%s3, Hs3, %hs3⟩, ⟨%s4, Hs4, %hs4⟩, ⟨%s5, Hs5, %hs5⟩, ⟨%s8, Hs8, %hs8⟩, ⟨%s9, Hs9, %hs9⟩⟩, ⟨%f0, H0, %hf0⟩, ⟨%f1, H1, %hf1⟩, ⟨%f6, H6, %hf6⟩, ⟨%f7, H7, %hf7⟩, ⟨Gd1, #Gr1⟩, ⟨Gd2, #Gr2⟩, ⟨Gd3, #Gr3⟩⟩
  unfold seg4
  simp only [k0_part17, k0_part18, Prog.lift, Prog.bind_op, Prog.bind_ret, Prog.pure_eq_ret]
  -- copy 10: the source is the first half of the first send buffer; with it goes the own slot for that partner's
  -- last reduce step of the second stream
  ihave H7' := (rest_split (F := Ideal) (ℓ := (Memref.whole cc0_scratch7).view.loc (c : Thread nD τ)) (disj_R2_R3 1) f7).1 $$ H7
  icases H7' with ⟨HownL, H7⟩
  ihave Hs4' := (slice_split c (SA 0) s4).1 $$ Hs4
  icases Hs4' with ⟨Hsrc0, Hrest4⟩
  iapply (wp_send_copyV m c ⟨k0_dev14 c, k0_dev14_lt c⟩ (SA 0) (R2 0) 21 26 0 11 (by omega) (by omega) (by decide) (by decide)
      ((credit_R2 0).trans rfl) (amtDma_sendOf 26 0 (Or.inr (by omega))) (grantLast (F := Ideal) c 1 0) fullShare s4
      (ownAt_of c (SA 0) s4)
      (by rw [dev14_eq c]; exact fun fd => land26 m c s4 hs4 fd)
      K (owedFrom c 11) (by rw [dev14_eq c]) W
      (by rw [dev14_eq c]; exact routes3V c)) $$ [Hsrc0 Gd1 HownL HO TAa TAb]
  · isplitr; · iexact HI
    isplitl [Hsrc0]; · iexact Hsrc0
    isplitl [Gd1]; · iexact Gd1
    isplitl [HownL]
    · rw [grantLast_0, grant_eq]
      isplitl [HownL]; · iapply (ownAt_of c (R3 1) f7); iexact HownL
      iexact P37
    isplitl [HO]; · iexact HO
    isplitl [TAa]; · iexact TAa
    isplitr; · iexact P21
    isplitl [TAb]; · iexact TAb
    iexact Gr1
  iintro ⟨CsA, HO⟩
  -- the local steps between the two copies: the second stream's sum on the other pair goes into the second send buffer
  sl_exec
  ihave Hs5e : iprop(∃ f, ptw (F := Ideal) c cc0_scratch5 f ∗ ⌜(SA 1).view.read (Elt Ideal) f = rows256 (S1 m 0 1 c) (pair2Row 1 c)⌝) $$ [Hs5]
  · iexists _
    isplitl [Hs5]; · iexact Hs5
    ipureintro
    rw [View.writes_singleton]
    refine (View.read_write_univ _ _).trans ?_
    rw [shapeCast_self]
    exact load_rows3 c (S1 m 0 1 c) (quadRow 1 c) 512 s3 hs3 (k0_off12 c) S256x256.size (k0_off12_inb c) (off12_col c) (off12_in_quad c).1 (off12_in_quad c).2
  icases Hs5e with ⟨%t5, Hs5, %ht5⟩
  ihave Hs5' := (slice_split c (SA 1) t5).1 $$ Hs5
  icases Hs5' with ⟨Hsrc1, Hrest5⟩
  -- copy 11: with it go the rows of the second gather buffer where that partner's pair block lands in the next layer
  ihave H1' := (slice_split c (VE1 1 (xr 4 c)) f1).1 $$ H1
  icases H1' with ⟨Hown1, Hrest1⟩
  iapply (wp_send_copyV m c ⟨k0_dev15 c, k0_dev15_lt c⟩ (SA 1) (R2 1) 31 36 0 12 (by omega) (by omega) (by decide) (by decide)
      ((credit_R2 1).trans rfl) (amtDma_sendOf 36 0 (Or.inr (by omega))) (grant (F := Ideal) c (VE1 1 (xr 4 c)) (agR 1 1) 1) fullShare t5
      (ownAt_of c (SA 1) t5)
      (by rw [dev15_eq c]; exact fun fd => land36 m c t5 ht5 fd)
      K (owedFrom c 12) (by rw [dev15_eq c]) W
      (by rw [dev15_eq c]; exact routes4V c)) $$ [Hsrc1 Gd2 Hown1 HO TBa TBb]
  · isplitr; · iexact HI
    isplitl [Hsrc1]; · iexact Hsrc1
    isplitl [Gd2]; · iexact Gd2
    isplitl [Hown1]
    · rw [grant_eq]
      isplitl [Hown1]; · iapply (ownAt_of c (VE1 1 (xr 4 c)) f1); iexact Hown1
      iexact P18
    isplitl [HO]; · iexact HO
    isplitl [TBa]; · iexact TBa
    isplitr; · iexact P31
    isplitl [TBb]; · iexact TBb
    iexact Gr2
  iintro ⟨CsB, HO⟩
  -- the wait for copy 10's send cell: the source half comes back and the first send buffer is whole again
  ihave Hmw := (mayWait_copy (F := Ideal) c (dsem 21) 10 12 (by omega) (by omega)) $$ Hlev
  iapply (wp_wait_copyV m c 21 0 11 (by omega) (by decide) K (owedFrom c 12) W
      (hw := fun Kt => hw_waitDma2 c 21 0 (src := R2 0) (dst := SA 0) ((credit_SA 0).trans rfl) Kt)) $$ [CsA HO Hmw A21]
  · isplitr; · iexact HI
    isplitl [CsA]; · iexact CsA
    isplitl [HO]; · iexact HO
    isplitl [Hmw]; · iexact Hmw
    iexact A21
  rw [show payDmaV m c 21 0 = ownAt (F := Ideal) c (SA 0) from rfl]
  rw [Nat.zero_add]
  iintro ⟨HO, A21, #P21', Hback0⟩
  ihave Hs4e := (slice_join_ownAt c (SA 0) s4) $$ [Hback0 Hrest4]
  · isplitl [Hback0]; · iexact Hback0
    iexact Hrest4
  icases Hs4e with ⟨%u4, Hs4⟩
  ihave Hs4 : ptw (F := Ideal) c cc0_scratch4 u4 $$ [Hs4]
  · iexact Hs4
  -- the wait for the partner's copy 10 on the own receive cell: rows 512.. of the receive buffer hold that partner's
  -- two-device sum on the own pair, and the partner hands over its slot for the own last reduce step of the second stream
  ihave Hmw2 := (mayWait_copy (F := Ideal) c (dsem 26) 10 12 (by omega) (by omega)) $$ Hlev
  iapply (wp_wait_copyV m c 26 0 11 (by omega) (by decide) K (owedFrom c 12) (insert (SemLoc.dma (dsem 21), 11) W)
      (hw := fun Kt => hw_waitDma2 c 26 0 (src := SA 0) (dst := R2 0) ((credit_R2 0).trans rfl) Kt)) $$ [CA HO Hmw2 A26]
  · isplitr; · iexact HI
    isplitl [CA]; · iexact CA
    isplitl [HO]; · iexact HO
    isplitl [Hmw2]; · iexact Hmw2
    iexact A26
  rw [show payDmaV m c 26 0 = iprop(owns (c : Thread nD τ) (R2 0) fullShare (rows256 (S1 m 0 0 (xr 3 c)) (pairRow 0 c)) ∗ grantLast (F := Ideal) (xr 3 c) 1 0) from rfl, grantLast_0, grant_eq]
  rw [Nat.zero_add]
  unfold owns
  iintro ⟨HO, A26, #P26', ⟨%l6, %hl6, Hback20⟩, HgLd, #HgLr⟩
  -- the wait for copy 11's send cell
  ihave Hmw3 := (mayWait_copy (F := Ideal) c (dsem 31) 11 12 (by omega) (by omega)) $$ Hlev
  iapply (wp_wait_copyV m c 31 0 12 (by omega) (by decide) K (owedFrom c 12) (insert (SemLoc.dma (dsem 26), 11) (insert (SemLoc.dma (dsem 21), 11) W))
      (hw := fun Kt => hw_waitDma2 c 31 0 (src := R2 1) (dst := SA 1) ((credit_SA 1).trans rfl) Kt)) $$ [CsB HO Hmw3 A31]
  · isplitr; · iexact HI
    isplitl [CsB]; · iexact CsB
    isplitl [HO]; · iexact HO
    isplitl [Hmw3]; · iexact Hmw3
    iexact A31
  rw [show payDmaV m c 31 0 = ownAt (F := Ideal) c (SA 1) from rfl]
  rw [Nat.zero_add]
  iintro ⟨HO, A31, #P31', Hback1⟩
  ihave Hs5e := (slice_join_ownAt c (SA 1) t5) $$ [Hback1 Hrest5]
  · isplitl [Hback1]; · iexact Hback1
    iexact Hrest5
  icases Hs5e with ⟨%u5, Hs5⟩
  ihave Hs5 : ptw (F := Ideal) c cc0_scratch5 u5 $$ [Hs5]
  · iexact Hs5
  -- the wait for the partner's copy 11: rows 512.. of the second receive buffer hold that partner's two-device sum on
  -- the own pair, and the partner hands over the rows of its second gather buffer where the own pair block lands next
  ihave Hmw4 := (mayWait_copy (F := Ideal) c (dsem 36) 11 12 (by omega) (by omega)) $$ Hlev
  iapply (wp_wait_copyV m c 36 0 12 (by omega) (by decide) K (owedFrom c 12) (insert (SemLoc.dma (dsem 31), 12) (insert (SemLoc.dma (dsem 26), 11) (insert (SemLoc.dma (dsem 21), 11) W)))
      (hw := fun Kt => hw_waitDma2 c 36 0 (src := SA 1) (dst := R2 1) ((credit_R2 1).trans rfl) Kt)) $$ [CB HO Hmw4 A36]
  · isplitr; · iexact HI
    isplitl [CB]; · iexact CB
    isplitl [HO]; · iexact HO
    isplitl [Hmw4]; · iexact Hmw4
    iexact A36
  rw [show payDmaV m c 36 0 = iprop(owns (c : Thread nD τ) (R2 1) fullShare (rows256 (S1 m 0 1 (xr 4 c)) (pairRow 1 c)) ∗ grant (F := Ideal) (xr 4 c) (VE1 1 c) (agR 1 1) 1) from rfl, grant_eq]
  rw [Nat.zero_add]
  unfold owns
  iintro ⟨HO, A36, #P36', ⟨%l7, %hl7, Hback21⟩, Hg1d, #Hg1r⟩
  -- the landed slots go back into the receive buffers at their contents
  ihave H6a := (held_swap (ℓ := (Memref.whole cc0_scratch6).view.loc (c : Thread nD τ)) (R3 0).view.set (R2 0).view.set f6) $$ H6
  ihave H6 := (rest_join_at (F := Ideal) (ℓ := (Memref.whole cc0_scratch6).view.loc (c : Thread nD τ)) (disj_R2_R3 0).symm f6 l6) $$ [Hback20 H6a]
  · isplitl [Hback20]; · iexact Hback20
    iexact H6a
  ihave H7a := (rest_swap (ℓ := (Memref.whole cc0_scratch7).view.loc (c : Thread nD τ)) (R2 1).view.set (R3 1).view.set f7) $$ H7
  ihave H7 := (rest_join_at (F := Ideal) (ℓ := (Memref.whole cc0_scratch7).view.loc (c : Thread nD τ)) (disj_R2_R3 1).symm f7 l7) $$ [Hback21 H7a]
  · isplitl [Hback21]; · iexact Hback21
    iexact H7a
  -- the last local steps: the landed rows of the first stream are added to the accumulator
  sl_exec
  -- the state after the third reduce step
  rw [wp_ret]
  imodintro
  iexists K
  unfold Q4post QV localBufsV bufV heldButV
  rw [posAt_12, Finset.sdiff_empty, grantLast_0, grantLast_0]
  unfold grant
  isplitr; · iexact HI
  isplitr; · iexact Hr
  isplitr; · iexact Hlev
  isplitl [Hbar]; · iexact Hbar
  isplitl [A8 A9 A10 A11 A12 A13 A14 A15 A16 A17 A18 A19 A20 A21 A22 A23 A24 A25 A26 A27 A28 A29 A30 A31 A32 A33 A34 A35 A36 A37 A38 A39]
  · iframe ∗ #
  isplitl [Htoks]; · iexact Htoks
  isplitl [Hcreds]; · iexact Hcreds
  isplitl [HO]; · iexists _; iexact HO
  isplitl [Hg0 Hg1 Hg2 Hg3 Hg4 Hg5 Hg6 Hg7 Hs2 Hs3 Hs4 Hs5 Hs8 Hs9]
  · isplitl [Hg0]
    · iexists _
      isplitl [Hg0]
      · iexact Hg0
      ipureintro
      exact hg0
    isplitl [Hg1]
    · iexists _
      isplitl [Hg1]
      · iexact Hg1
      ipureintro
      exact hg1
    isplitl [Hg2]
    · iexists _
      isplitl [Hg2]
      · iexact Hg2
      ipureintro
      exact hg2
    isplitl [Hg3]
    · iexists _
      isplitl [Hg3]
      · iexact Hg3
      ipureintro
      exact hg3
    isplitl [Hg4]
    · iexists _
      isplitl [Hg4]
      · iexact Hg4
      ipureintro
      exact hg4
    isplitl [Hg5]
    · iexists _
      isplitl [Hg5]
      · iexact Hg5
      ipureintro
      exact hg5
    isplitl [Hg6]
    · iexists _
      isplitl [Hg6]
      · iexact Hg6
      ipureintro
      exact hg6
    isplitl [Hg7]
    · iexists _
      isplitl [Hg7]
      · iexact Hg7
      ipureintro
      trivial
    isplitl [Hs2]
    · iexists _
      isplitl [Hs2]
      · iexact Hs2
      ipureintro
      -- the stored rows are the own two-device sum plus the landed one: the four-device sum
      rw [View.writes_singleton]
      refine store_new2 c (S2 m 0 0 c) s2 (k0_off7 c) S256x256.size (k0_off7_inb c) (off7_col c) rfl _ (fun y => ?_)
      rw [shapeCast_self]
      exact (congrArg₂ (fun a b : EReal => a + b)
          (congrFun (load_rows2 c (S1 m 0 0 c) (quadRow 0 c) 512 s2 hs2 (k0_off7 c) S256x256.size (k0_off7_inb c) (off7_col c) (off7_in_quad c).1 (off7_in_quad c).2) y)
          (congrFun ((read_piecewise_self (R2 0) c f6 l6).trans hl6) y)).trans
        (sum_S2_0 m c _ _ (unit_row_lt (k0_off7 c) S256x256.size (k0_off7_inb c) y) (unit_col_lt (k0_off7 c) S256x256.size (k0_off7_inb c) y))
    isplitl [Hs3]
    · iexists _
      isplitl [Hs3]
      · iexact Hs3
      ipureintro
      exact hs3
    isplitl [Hs4]
    · iexists _
      isplitl [Hs4]
      · iexact Hs4
      ipureintro
      trivial
    isplitl [Hs5]
    · iexists _
      isplitl [Hs5]
      · iexact Hs5
      ipureintro
      trivial
    isplitl [Hs8]
    · iexists _
      isplitl [Hs8]
      · iexact Hs8
      ipureintro
      exact hs8
    iexists _
    isplitl [Hs9]
    · iexact Hs9
    ipureintro
    exact hs9
  isplitl [H0]
  · iexists _
    isplitl [H0]
    · iexact H0
    ipureintro
    trivial
  isplitl [Hrest1]
  · iexists _
    isplitl [Hrest1]
    · iexact Hrest1
    ipureintro
    trivial
  isplitl [H6]
  · iexists _
    isplitl [H6]
    · iexact H6
    ipureintro
    trivial
  isplitl [H7]
  · iexists _
    isplitl [H7]
    · iexact H7
    ipureintro
    exact slot7_of_landed c _ _ f7 l7 hl7
  isplitl [Gd3]
  · isplitl [Gd3]; · iexact Gd3
    iexact Gr3
  isplitl [HgLd]
  · isplitl [HgLd]; · iexact HgLd
    iexact HgLr
  isplitl [Hg1d]; · iexact Hg1d
  iexact Hg1r

/-! ## This rests on the standard axioms only -/

/-- info: 'Cert.KernelIdeal.Val.seg4_okV' depends on axioms: [propext, Classical.choice, Quot.sound] -/
#guard_msgs in #print axioms seg4_okV

end Cert.KernelIdeal.Val

end
-- ==== Proof.KernelIdeal.StepsVP.lean ====
import proofs.«900979_g7700000000000980_dist_mlpseq_tp1d_bs_bs_b256_d256_h512_v7x_i8_bf16_1_alg».proof.Proof.KernelIdeal.StepsV

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

/-! # The valued rules as the program spells a copy and a wait

The partner of a printed copy and the semaphores of a printed copy or wait are terms of the program, equal to the
protocol's names; the rules are stated at the printed terms, with the equations as hypotheses. -/

variable (m : Mem)

/-- The copy rule with the partner and the two semaphores as printed. -/
theorem wp_send_copyV' (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt Ideal) (src.view.loc (c : Thread nD τ)))
    (hpayS : (src.view.loc (c : Thread nD τ) ↦[src.view.set]{q} fs : sProp 𝕄) ⊢ payDmaV m c js r)
    (hpayR : ∀ fd : Buf (Elt Ideal) (dst.view.loc (p : Thread nD τ)),
      iprop((dst.view.loc (p : Thread nD τ) ↦[dst.view.set]{fullShare} (dst.view.write (Elt Ideal) fd (src.view.read (Elt Ideal) fs) Finset.univ)) ∗ G)
        ⊢ payDmaV m p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt Ideal) Λ₀ .tc) α}
    (hroute : τ.routes (c : Thread nD τ) (p : Thread nD τ) = true) :
    iprop(invsAllV m K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := Ideal)) Variants.none (c : Thread nD τ) none) Set.univ (k ⟨⟩) Q)
          -∗ wp frame (wpE (defs₀ (F := Ideal)) Variants.none (c : Thread nD τ) none) Set.univ
              (.op (.enqueueDma src (.remote (p' : Thread nD τ) dst (.dma sS) hsc) (.dma sR) hsrc hdst hsem) k) Q) := by
  subst hp hsS hsR
  exact wp_send_copyV m c p' src dst js jr r ι hjs hjr hrs hrr hN hNs G q fs hpayS hpayR K O hO W hroute

/-- The wait rule with the semaphore as printed. -/
theorem wp_wait_copyV' (c : Dev nD) (j r ι : ℕ) (sW : DmaSem sig) (hsW : sW = dsem j) (hj : j < 40) (hr : r < nRounds j)
    (K : GSem nD τ sig → ℕ) (O : CellTallies nD τ sig ℕ) (W : Waits sig ℕ)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = amtDma j r)
    {α : Type} {Q : α → sProp 𝕄} {k : PUnit → Prog (TpuEff nD τ sig (Elt Ideal) Λ₀ .tc) α} :
    iprop(invsAllV m K ∗ cred (tallyAt (dcell c (dsem j)) ι (amtDma j r)) ∗ owes (c : Thread nD τ) O W
        ∗ MayWait (c : Thread nD τ) (.dma (dsem j)) ι O ∗ atPos ER (dcell c (dsem j)) r ∅ 0)
      ⊢ iprop(((owes (c : Thread nD τ) O (insert (.dma (dsem j), ι) W) ∗ atPos ER (dcell c (dsem j)) (r + 1) ∅ 0
              ∗ reached ER (dcell c (dsem j)) (r + 1) ∗ payDmaV m c j r)
            -∗ wp frame (wpE (defs₀ (F := Ideal)) Variants.none (c : Thread nD τ) none) Set.univ (k ⟨⟩) Q)
          -∗ wp frame (wpE (defs₀ (F := Ideal)) Variants.none (c : Thread nD τ) none) Set.univ
              (.op (.waitDma2 sW src dst hsrc hdst) k) Q) := by
  subst hsW
  exact wp_wait_copyV m c j r ι hj hr K O W (hw_waitDma2 (F := Ideal) c j r hN)

end Cert.KernelIdeal.Val

end
-- ==== Proof.KernelIdeal.SegV5.lean ====
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StepsV
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.QuietLemmas

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open scoped BigOperators

local notation "𝕄" => MT nD τ sig ℕ (Elt Ideal) ℕ UU ℕ

variable (m : Mem)

/-! # The last reduce step, with contents

After the third reduce step a device holds, on its pair of blocks, the sum of four devices' partial products; its
last partner holds the sum of the other four on the same rows. The two added are the sum over all eight devices:
the next layer's activations on those rows. -/

/-! ## The two halves of the eight -/

open Cert.Spec in
/-- First stream: partners across 4, then 3, then 1. -/
theorem sum8_tree0 (c : Fin 8) (P : Fin 8 → EReal) :
    ((P c + P (x8 c 4)) + (P (x8 c 3) + P (x8 (x8 c 3) 4)))
        + ((P (x8 c 1) + P (x8 (x8 c 1) 4)) + (P (x8 (x8 c 1) 3) + P (x8 (x8 (x8 c 1) 3) 4)))
      = ∑ d : Fin 8, P d := by
  have e1 : x8 (x8 c 3) 4 = x8 c 7 := by revert c; decide
  have e2 : x8 (x8 c 1) 4 = x8 c 5 := by revert c; decide
  have e3 : x8 (x8 c 1) 3 = x8 c 2 := by revert c; decide
  have e4 : x8 (x8 (x8 c 1) 3) 4 = x8 c 6 := by revert c; decide
  rw [e4, e3, e2, e1]
  exact tree1_eq c P

open Cert.Spec in
/-- Second stream: partners across 1, then 4, then 3. -/
theorem sum8_tree1 (c : Fin 8) (P : Fin 8 → EReal) :
    ((P c + P (x8 c 1)) + (P (x8 c 4) + P (x8 (x8 c 4) 1)))
        + ((P (x8 c 3) + P (x8 (x8 c 3) 1)) + (P (x8 (x8 c 3) 4) + P (x8 (x8 (x8 c 3) 4) 1)))
      = ∑ d : Fin 8, P d := by
  have e1 : x8 (x8 c 4) 1 = x8 c 5 := by revert c; decide
  have e2 : x8 (x8 c 3) 1 = x8 c 2 := by revert c; decide
  have e3 : x8 (x8 c 3) 4 = x8 c 7 := by revert c; decide
  have e4 : x8 (x8 (x8 c 3) 4) 1 = x8 c 6 := by revert c; decide
  rw [e4, e3, e2, e1]
  exact tree2_eq c P

/-- The four-device sums of a device and of its last partner make the next layer's activations (first stream). -/
theorem S2_last0 (l : ℕ) (c : Dev nD) (row : Fin 1024) (col : Fin 256) :
    S2 m l 0 c row col + S2 m l 0 (xr 1 c) row col = A m (l + 1) 0 row col :=
  (sum8_tree0 c (fun d => Pt m l 0 d row col)).trans (A_succ m l 0 row col).symm

/-- The same in the second stream, whose last partner is across 3. -/
theorem S2_last1 (l : ℕ) (c : Dev nD) (row : Fin 1024) (col : Fin 256) :
    S2 m l 1 c row col + S2 m l 1 (xr 3 c) row col = A m (l + 1) 1 row col :=
  (sum8_tree1 c (fun d => Pt m l 1 d row col)).trans (A_succ m l 1 row col).symm

theorem nat2_S2_last0 (l : ℕ) (c : Dev nD) (i j : ℕ) :
    nat2 (S2 m l 0 c) i j + nat2 (S2 m l 0 (xr 1 c)) i j = nat2 (A m (l + 1) 0) i j := by
  unfold nat2
  by_cases h : i < 1024 ∧ j < 256
  · rw [dif_pos h, dif_pos h, dif_pos h]; exact S2_last0 m l c _ _
  · rw [dif_neg h, dif_neg h, dif_neg h]; exact add_zero 0

theorem nat2_S2_last1 (l : ℕ) (c : Dev nD) (i j : ℕ) :
    nat2 (S2 m l 1 c) i j + nat2 (S2 m l 1 (xr 3 c)) i j = nat2 (A m (l + 1) 1) i j := by
  unfold nat2
  by_cases h : i < 1024 ∧ j < 256
  · rw [dif_pos h, dif_pos h, dif_pos h]; exact S2_last1 m l c _ _
  · rw [dif_neg h, dif_neg h, dif_neg h]; exact add_zero 0

/-- The vector a device adds (its own four-device sum on rows `b ..`) to the landed one (its last partner's, on the
    same rows) is the next layer's activations on those rows. -/
theorem last_add0 (l : ℕ) (c : Dev nD) (b : ℕ) {s : Shape} (v a : s.Idx → EReal) (r cl : s.Idx → ℕ)
    (hv : ∀ y, v y = nat2 (S2 m l 0 c) (b + r y) (cl y)) (ha : ∀ y, a y = nat2 (S2 m l 0 (xr 1 c)) (b + r y) (cl y)) (y : s.Idx) :
    v y + a y = nat2 (A m (l + 1) 0) (b + r y) (cl y) := by
  rw [hv, ha]; exact nat2_S2_last0 m l c _ _
theorem last_add1 (l : ℕ) (c : Dev nD) (b : ℕ) {s : Shape} (v a : s.Idx → EReal) (r cl : s.Idx → ℕ)
    (hv : ∀ y, v y = nat2 (S2 m l 1 c) (b + r y) (cl y)) (ha : ∀ y, a y = nat2 (S2 m l 1 (xr 3 c)) (b + r y) (cl y)) (y : s.Idx) :
    v y + a y = nat2 (A m (l + 1) 1) (b + r y) (cl y) := by
  rw [hv, ha]; exact nat2_S2_last1 m l c _ _

/-! ## The printed offsets of the last step

    The pair of blocks a device sums last is the pair it owns after the third step; its last partner has the same
    pair; in the last layer only the own block (and the partner's) of the pair is exchanged. -/

theorem off17_row : ∀ c : Dev nD, k0_off17 c 0 = k0_off7 c 0 := by decide +kernel
theorem off18_row : ∀ c : Dev nD, k0_off18 c 0 = k0_off8 c 0 := by decide +kernel
theorem off7_x1 : ∀ c : Dev nD, k0_off7 (xr 1 c) 0 = k0_off7 c 0 := by decide +kernel
theorem off8_x3 : ∀ c : Dev nD, k0_off8 (xr 3 c) 0 = k0_off8 c 0 := by decide +kernel
theorem off19_row : ∀ c : Dev nD, k0_off19 c 0 = k0_off1 (xr 1 c) 0 := by decide +kernel
theorem off20_row : ∀ c : Dev nD, k0_off20 c 0 = k0_off2 (xr 3 c) 0 := by decide +kernel
theorem off19_in : ∀ c : Dev nD, k0_off7 c 0 ≤ k0_off19 c 0 ∧ k0_off19 c 0 + 128 ≤ k0_off7 c 0 + 256 := by decide +kernel
theorem off20_in : ∀ c : Dev nD, k0_off8 c 0 ≤ k0_off20 c 0 ∧ k0_off20 c 0 + 128 ≤ k0_off8 c 0 + 256 := by decide +kernel
theorem off1_in : ∀ c : Dev nD, k0_off7 c 0 ≤ k0_off1 c 0 ∧ k0_off1 c 0 + 128 ≤ k0_off7 c 0 + 256 := by decide +kernel
theorem off2_in : ∀ c : Dev nD, k0_off8 c 0 ≤ k0_off2 c 0 ∧ k0_off2 c 0 + 128 ≤ k0_off8 c 0 + 256 := by decide +kernel
theorem off1_row : ∀ c : Dev nD, k0_off1 c 0 = 128 * (idxOf 0 c).val := by decide +kernel
theorem off2_row : ∀ c : Dev nD, k0_off2 c 0 = 128 * (idxOf 1 c).val := by decide +kernel
theorem pairRow0_x1 (c : Dev nD) : pairRow 0 (xr 1 c) = pairRow 0 c := off7_x1 c
theorem pairRow1_x3 (c : Dev nD) : pairRow 1 (xr 3 c) = pairRow 1 c := off8_x3 c

end Cert.KernelIdeal.Val

end
-- ==== Proof.KernelIdeal.SegV9.lean ====
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StepsVP
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.QuietLemmas
import proofs.«900979_g7700000000000980_dist_mlpseq_tp1d_bs_bs_b256_d256_h512_v7x_i8_bf16_1_alg».proof.Proof.KernelIdeal.Seg9
import proofs.«900979_g7700000000000980_dist_mlpseq_tp1d_bs_bs_b256_d256_h512_v7x_i8_bf16_1_alg».proof.Proof.KernelIdeal.SegV5

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

local notation "𝕄" => MT nD τ sig ℕ (Elt Ideal) ℕ UU ℕ

variable (m : Mem)

/-! # The last reduce step of layer 1, with contents -/

/-! ## Buffers with a fact, from buffers at given contents -/

theorem bufV_intro (c : Dev nD) (b : Ref sig .tc) (P : Buf (Elt Ideal) ((Memref.whole b).view.loc (c : Thread nD τ)) → Prop)
    (f : Buf (Elt Ideal) ((Memref.whole b).view.loc (c : Thread nD τ))) (h : P f) :
    ptw (F := Ideal) c b f ⊢ bufV c b P := by
  unfold bufV
  iintro H
  iexists f
  isplitl [H]
  · iexact H
  ipureintro; exact h

theorem bufV_some (c : Dev nD) (b : Ref sig .tc) :
    iprop(∃ f, ptw (F := Ideal) c b f) ⊢ bufV c b (fun _ => True) := by
  unfold bufV
  iintro ⟨%f, H⟩
  iexists f
  isplitl [H]
  · iexact H
  ipureintro; trivial

theorem heldButV_intro (c : Dev nD) (b : Ref sig .tc) (A : Finset (Idx ((Memref.whole b).view.loc (c : Thread nD τ))))
    (P : Buf (Elt Ideal) ((Memref.whole b).view.loc (c : Thread nD τ)) → Prop)
    (f : Buf (Elt Ideal) ((Memref.whole b).view.loc (c : Thread nD τ))) (h : P f) :
    ((Memref.whole b).view.loc (c : Thread nD τ) ↦[Finset.univ \ A]{fullShare} f : sProp 𝕄) ⊢ heldButV c b A P := by
  unfold heldButV
  iintro H
  iexists f
  isplitl [H]
  · iexact H
  ipureintro; exact h

theorem heldButV_some (c : Dev nD) (b : Ref sig .tc) (A : Finset (Idx ((Memref.whole b).view.loc (c : Thread nD τ)))) :
    heldBut (F := Ideal) c b A ⊢ heldButV c b A (fun _ => True) := by
  unfold heldBut heldButV
  iintro ⟨%f, H⟩
  iexists f
  isplitl [H]
  · iexact H
  ipureintro; trivial

/-! ## What the slices of the send and receive buffers read -/

/-- The first 256 rows of the first stream's send buffer, read through the slice the copy sends. -/
theorem snd_read256 (c : Dev nD) (G : Fin 1024 → Fin 256 → EReal) (b : ℕ)
    (f : Buf (Elt Ideal) ((Memref.whole cc0_scratch4).view.loc (c : Thread nD τ))) (h : sndIs c G b 256 f) :
    (SA 0).view.read (Elt Ideal) f = rows256 G b := by
  funext y
  have h0 : (y 0).val < 256 := (y 0).isLt
  have h1 : (y 1).val < 256 := (y 1).isLt
  have e : (Rect.unit (s := S512x256) ![0, 0] S256x256.size inb_S512x256_S256x256_0_0).emb y
      = ValueIdx.ix2 (⟨(y 0).val, by omega⟩ : Fin 512) (⟨(y 1).val, h1⟩ : Fin 256) := by
    funext a
    apply Fin.ext
    match a with
    | ⟨0, _⟩ => show 0 + 1 * (y 0).val = (y 0).val; omega
    | ⟨1, _⟩ => show 0 + 1 * (y 1).val = (y 1).val; omega
  show f ((Rect.unit (s := S512x256) ![0, 0] S256x256.size inb_S512x256_S256x256_0_0).emb y) = _
  rw [e, h _ _ h0]
  rfl

/-- A destination slice as a copy wrote it holds what the copy carried. -/
theorem owns_of_write (p : Dev nD) {s : Shape} (dst : Memref sig .tc .vmem s .bf16)
    (fd : Buf (Elt Ideal) (dst.view.loc (p : Thread nD τ))) (w X : s.Idx → Elt Ideal .bf16) (h : w = X) :
    (dst.view.loc (p : Thread nD τ) ↦[dst.view.set]{fullShare} (dst.view.write (Elt Ideal) fd w Finset.univ) : sProp 𝕄)
      ⊢ owns (p : Thread nD τ) dst fullShare X := by
  unfold owns
  iintro H
  iexists (dst.view.write (Elt Ideal) fd w Finset.univ)
  isplitr
  · ipureintro; rw [View.read_write_univ]; exact h
  iexact H

/-- What the first stream's copy hands the partner across 1: the slot holding this device's four-device sum on the
    pair's rows, and the partner's own slot of the next layer's third exchange. -/
theorem v9_payR28 (c : Dev nD) (b4 : Buf (Elt Ideal) ((SA 0).view.loc (c : Thread nD τ)))
    (h4 : (SA 0).view.read (Elt Ideal) b4 = rows256 (S2 m 1 0 c) (pairRow 0 c))
    (fd : Buf (Elt Ideal) ((R4 0).view.loc (xr 1 c : Thread nD τ))) :
    iprop(((R4 0).view.loc (xr 1 c : Thread nD τ) ↦[(R4 0).view.set]{fullShare} ((R4 0).view.write (Elt Ideal) fd ((SA 0).view.read (Elt Ideal) b4) Finset.univ))
        ∗ (ownAt (F := Ideal) c (VE2 1 (xr 1 c)) ∗ reached ER (dcell c (dsem 19)) 2))
      ⊢ payDmaV m (xr 1 c) 28 0 := by
  show _ ⊢ (iprop(owns (xr 1 c : Thread nD τ) (R4 0) fullShare (rows256 (S2 m 1 0 (xr 1 (xr 1 c))) (pairRow 0 (xr 1 c)))
      ∗ (ownAt (xr 1 (xr 1 c)) (VE2 1 (xr 1 c)) ∗ reached ER (dcell (xr 1 (xr 1 c)) (agR 1 2)) 2)) : sProp 𝕄)
  rw [xr_xr, pairRow0_x1]
  exact BI.sep_mono (owns_of_write (xr 1 c) (R4 0) fd _ _ h4) (Entails.refl _)

/-- The second stream's, to the partner across 3. -/
theorem v9_payR38 (c : Dev nD) (b5 : Buf (Elt Ideal) ((SA 1).view.loc (c : Thread nD τ)))
    (h5 : (SA 1).view.read (Elt Ideal) b5 = rows256 (S2 m 1 1 c) (pairRow 1 c))
    (fd : Buf (Elt Ideal) ((R4 1).view.loc (xr 3 c : Thread nD τ))) :
    iprop(((R4 1).view.loc (xr 3 c : Thread nD τ) ↦[(R4 1).view.set]{fullShare} ((R4 1).view.write (Elt Ideal) fd ((SA 1).view.read (Elt Ideal) b5) Finset.univ))
        ∗ (ownAt (F := Ideal) c (VE1 0 (xr 3 c)) ∗ reached ER (dcell c (dsem 12)) 2))
      ⊢ payDmaV m (xr 3 c) 38 0 := by
  show _ ⊢ (iprop(owns (xr 3 c : Thread nD τ) (R4 1) fullShare (rows256 (S2 m 1 1 (xr 3 (xr 3 c))) (pairRow 1 (xr 3 c)))
      ∗ (ownAt (xr 3 (xr 3 c)) (VE1 0 (xr 3 c)) ∗ reached ER (dcell (xr 3 (xr 3 c)) (agR 0 1)) 2)) : sProp 𝕄)
  rw [xr_xr, pairRow1_x3]
  exact BI.sep_mono (owns_of_write (xr 3 c) (R4 1) fd _ _ h5) (Entails.refl _)

/-! ## The values of the step -/

/-- The accumulator's pair of rows, loaded at the printed offset of the last step. -/
theorem v9_load2 (c : Dev nD) (l : ℕ) (a2 : Buf (Elt Ideal) ((Memref.whole cc0_scratch2).view.loc (c : Thread nD τ)))
    (h2 : rowsAre2 c (S2 m l 0 c) (pairRow 0 c) 256 a2) (y : S256x256.Idx) :
    (Memref.whole cc0_scratch2).view.readAt (Elt Ideal) (Rect.unit (s := S1024x256) (k0_off17 c) S256x256.size (k0_off17_inb c)).toLoadRect a2 y
      = nat2 (S2 m l 0 c) (pairRow 0 c + (y 0).val) (y 1).val := by
  have e := load_rows2 c (S2 m l 0 c) (pairRow 0 c) 256 a2 h2 (k0_off17 c) S256x256.size (k0_off17_inb c) (off17_col c)
    (by have := off17_row c; show k0_off7 c 0 ≤ k0_off17 c 0; omega) (by have := off17_row c; show k0_off17 c 0 + 256 ≤ k0_off7 c 0 + 256; omega)
  rw [e]
  show nat2 _ (k0_off17 c 0 + (y 0).val) _ = nat2 _ (k0_off7 c 0 + (y 0).val) _
  rw [off17_row]

theorem v9_load3 (c : Dev nD) (l : ℕ) (a3 : Buf (Elt Ideal) ((Memref.whole cc0_scratch3).view.loc (c : Thread nD τ)))
    (h3 : rowsAre3 c (S2 m l 1 c) (pairRow 1 c) 256 a3) (y : S256x256.Idx) :
    (Memref.whole cc0_scratch3).view.readAt (Elt Ideal) (Rect.unit (s := S1024x256) (k0_off18 c) S256x256.size (k0_off18_inb c)).toLoadRect a3 y
      = nat2 (S2 m l 1 c) (pairRow 1 c + (y 0).val) (y 1).val := by
  have e := load_rows3 c (S2 m l 1 c) (pairRow 1 c) 256 a3 h3 (k0_off18 c) S256x256.size (k0_off18_inb c) (off18_col c)
    (by have := off18_row c; show k0_off8 c 0 ≤ k0_off18 c 0; omega) (by have := off18_row c; show k0_off18 c 0 + 256 ≤ k0_off8 c 0 + 256; omega)
  rw [e]
  show nat2 _ (k0_off18 c 0 + (y 0).val) _ = nat2 _ (k0_off8 c 0 + (y 0).val) _
  rw [off18_row]

/-- The same rows at the offset the third step printed (the cast into the send buffer reads them there). -/
theorem v9_load3' (c : Dev nD) (l : ℕ) (a3 : Buf (Elt Ideal) ((Memref.whole cc0_scratch3).view.loc (c : Thread nD τ)))
    (h3 : rowsAre3 c (S2 m l 1 c) (pairRow 1 c) 256 a3) :
    (Memref.whole cc0_scratch3).view.readAt (Elt Ideal) (Rect.unit (s := S1024x256) (k0_off8 c) S256x256.size (k0_off8_inb c)).toLoadRect a3
      = rows256 (S2 m l 1 c) (pairRow 1 c) :=
  load_rows3 c (S2 m l 1 c) (pairRow 1 c) 256 a3 h3 (k0_off8 c) S256x256.size (k0_off8_inb c) (off8_col c) (Nat.le_refl _) (Nat.le_refl _)

/-! ## The segment -/

/-- The quiet state after the 26th copy as this segment leaves it: the first gather buffer holds the next layer's
    activations on the own pair of blocks; the second stream's sum is still in the returned vector. -/
def QV9k (K : GSem nD τ sig → ℕ) (c : Dev nD) : sProp 𝕄 :=
  QV m K c 26 2 (fun _ => True) (rowsAre0 c (A m 2 0) (pairRow 0 c) 256) (fun _ => True) (fun _ => True) (fun _ => True)
    (fun _ => True) (fun _ => True) (fun _ => True) (fun _ => True)
    (VE1 0 (xr 3 c)).view.set ((VE1 1 (xr 4 c)).view.set ∪ (VE2 1 (xr 1 c)).view.set) ∅ ∅
    iprop(grant (xr 3 c) (VE1 0 c) (agR 0 1) 2 ∗ grant (xr 4 c) (VE1 1 c) (agR 1 1) 2 ∗ grant (xr 1 c) (VE2 1 c) (agR 1 2) 2)

set_option maxHeartbeats 4000000 in
theorem seg9_okV (c : Dev nD) (v2 v678 v681 v1121 : BitVec 32) :
    (iprop(∃ K, QV8 m K c) : sProp 𝕄)
      ⊢ wp frame (wpE (defs₀ (F := Ideal)) Variants.none (c : Thread nD τ) none) Set.univ
          (seg9 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v1121)
          (fun v => iprop(⌜∀ i : S256x256.Idx, v i = rows256 (A m 2 1) (pairRow 1 c) i⌝ ∗ ∃ K, QV9k m K c)) := by
  have hd17 := geo9_rect17 c
  have hA1A2 : Disjoint (VE1 1 (xr 4 c)).view.set (VE2 1 (xr 1 c)).view.set := (geo10_A2A1 c).symm
  refine exists_elim fun K => ?_
  unfold QV8 QV localBufsV bufV heldButV
  rw [posAt_24, toks_seg_24, creds_seg_24]
  iintro ⟨#HI, #HR, #Hlev, HatB, ⟨Ha8, Hr8, Ha9, Hr9, Ha10, Hr10, Ha11, Hr11, Ha12, #Hr12, Ha13, Hr13, Ha14, Hr14, Ha15, Hr15, Ha16, Hr16, Ha17, Hr17, Ha18, Hr18, Ha19, #Hr19, Ha20, Hr20, Ha21, Hr21, Ha22, Hr22, Ha23, Hr23, Ha24, Hr24, Ha25, Hr25, Ha26, Hr26, Ha27, Hr27, Ha28, Hr28, Ha29, Hr29, Ha30, Hr30, Ha31, Hr31, Ha32, Hr32, Ha33, Hr33, Ha34, Hr34, Ha35, Hr35, Ha36, Hr36, Ha37, Hr37, Ha38, Hr38, Ha39, Hr39⟩, ⟨⟨Ht23, Ht28⟩, ⟨Ht33, Ht38⟩, Htoks⟩, ⟨Hc28, Hc38, Hcreds⟩, ⟨%W, HO⟩, ⟨Hl0, Hl1, Hl2, Hl3, Hl4, Hl5, Hl6, Hl7, ⟨%a2, HS2, %h2⟩, ⟨%a3, HS3, %h3⟩, ⟨%b4, HS4, %h4⟩, ⟨%b5, HS5, %h5⟩, HS8, HS9⟩, ⟨%f0, Hs0, %hf0⟩, ⟨%f1, Hs1, %hf1⟩, ⟨%f6, Hs6, %hf6⟩, ⟨%f7, Hs7, %hf7⟩, Hg1, Hg2, Hg3⟩
  have h4r := snd_read256 c (S2 m 1 0 c) (pairRow 0 c) b4 h4
  unfold seg9
  rw [k0_part37_eq_skeleton, k0_part38_eq_skeleton]
  unfold k0_part37_skel k0_part38_skel
  simp only [Prog.lift, Prog.bind_op, Prog.bind_ret, Prog.pure_eq_ret, Prog.bind_assoc]
  ihave Hg1 := (Entails.of_eq (show grantLast (F := Ideal) (xr 1 c) 0 1
      = iprop(ownAt (xr 1 c) (R4 0) ∗ reached ER (dcell (xr 1 c) (dsem 28)) 0) from rfl)) $$ Hg1
  icases Hg1 with ⟨Hd1, #Hrp1⟩
  ihave Hg2 := (Entails.of_eq (show grantLast (F := Ideal) (xr 3 c) 1 1
      = iprop(ownAt (xr 3 c) (R4 1) ∗ reached ER (dcell (xr 3 c) (dsem 38)) 0) from rfl)) $$ Hg2
  icases Hg2 with ⟨Hd2, #Hrp2⟩
  -- the gather and receive buffers' contents are dead here: held at some contents
  ihave Hs0 := (heldBut_intro (F := Ideal) c cc0_scratch0 ∅ f0) $$ Hs0
  ihave Hs1 := (heldBut_intro (F := Ideal) c cc0_scratch1 (VE1 1 (xr 4 c)).view.set f1) $$ Hs1
  ihave Hs6 := (heldBut_intro (F := Ideal) c cc0_scratch6 (R4 0).view.set f6) $$ Hs6
  ihave Hs7 := (heldBut_intro (F := Ideal) c cc0_scratch7 (R4 1).view.set f7) $$ Hs7
  -- the slots of the gather buffers handed over for the next layer's second and third exchange
  ihave Hx := (heldBut_take_view (F := Ideal) c (VE2 1 (xr 1 c)) _ hA1A2).1 $$ Hs1
  icases Hx with ⟨HV21, Hs1⟩
  ihave Hx := (heldBut_take_view_empty (F := Ideal) c (VE1 0 (xr 3 c))).1 $$ Hs0
  icases Hx with ⟨HV10, Hs0⟩
  -- copy 24: the four-device sums of stream 0, as the third step left them in the send buffer, to the partner across 1
  ihave Hsp := (slice_split (F := Ideal) c (SA 0) b4).1 $$ HS4
  icases Hsp with ⟨HSA0, HS4⟩
  iapply (wp_send_copyV' m c (xr 1 c) _ (dev28_eq c) (SA 0) (R4 0) 23 28 0 25 _ _ sem_rs0s_3 sem_rs0r_3
      (by decide) (by decide) (by decide) (by decide) ((credit_R4 0).trans rfl) rfl
      (iprop(ownAt c (VE2 1 (xr 1 c)) ∗ reached ER (dcell c (dsem 19)) 2)) fullShare b4
      (ownAt_of c (SA 0) b4) (v9_payR28 m c b4 h4r) K (owedFrom c 25) (owedFrom_succ c 24 (1, 28, 0) rfl) _ (Topo.routes_tc _ _)) $$ [HSA0 Hd1 HV21 HO Ht23 Hr23 Ht28]
  · isplitr; · iexact HI
    isplitl [HSA0]; · iexact HSA0
    isplitl [Hd1]; · iexact Hd1
    isplitl [HV21]
    · isplitl [HV21]; · iexact HV21
      iexact Hr19
    isplitl [HO]; · iexact HO
    isplitl [Ht23]; · iexact Ht23
    isplitl [Hr23]; · iexact Hr23
    isplitl [Ht28]; · iexact Ht28
    iexact Hrp1
  iintro ⟨Hc23, HO⟩
  -- the sums of stream 1 cast into its send buffer, and copy 25: to the partner across 3
  iapply (wp_load Variants.none (c : Thread nD τ) none Set.univ (Finset.subset_univ _)) $$ [HS3]
  · iexact HS3
  iintro HS3
  iapply (wp_load Variants.none (c : Thread nD τ) none Set.univ (Finset.subset_univ _)) $$ [HS5]
  · iexact HS5
  iintro HS5
  iapply (wp_store Variants.none (c : Thread nD τ) none Set.univ (Finset.subset_univ _)) $$ [HS5]
  · iexact HS5
  iintro HS5
  ihave Hsp := (slice_split (F := Ideal) c (SA 1) _).1 $$ HS5
  icases Hsp with ⟨HSA1, HS5⟩
  have h5r : (SA 1).view.read (Elt Ideal)
      (((Memref.whole cc0_scratch5).access (Rect.unit (s := S512x256) ![0, 0] S256x256.size inb_S512x256_S256x256_0_0)).write (Elt Ideal) b5
        (k0_pay64 (F := Ideal) ((Memref.whole cc0_scratch3).view.readAt (Elt Ideal) (Rect.unit (s := S1024x256) (k0_off8 c) S256x256.size (k0_off8_inb c)).toLoadRect a3)) Finset.univ)
      = rows256 (S2 m 1 1 c) (pairRow 1 c) := by
    refine (View.read_write_univ _ _).trans ?_
    funext y
    rw [k0_pay64_apply, v9_load3' m c 1 a3 h3]
  iapply (wp_send_copyV' m c (xr 3 c) _ (dev29_eq c) (SA 1) (R4 1) 33 38 0 26 _ _ sem_rs1s_3 sem_rs1r_3
      (by decide) (by decide) (by decide) (by decide) ((credit_R4 1).trans rfl) rfl
      (iprop(ownAt c (VE1 0 (xr 3 c)) ∗ reached ER (dcell c (dsem 12)) 2)) fullShare _
      (ownAt_of c (SA 1) _) (v9_payR38 m c _ h5r) K (owedFrom c 26) (owedFrom_succ c 25 (3, 38, 0) rfl) _ (Topo.routes_tc _ _)) $$ [HSA1 Hd2 HV10 HO Ht33 Hr33 Ht38]
  · isplitr; · iexact HI
    isplitl [HSA1]; · iexact HSA1
    isplitl [Hd2]; · iexact Hd2
    isplitl [HV10]
    · isplitl [HV10]; · iexact HV10
      iexact Hr12
    isplitl [HO]; · iexact HO
    isplitl [Ht33]; · iexact Ht33
    isplitl [Hr33]; · iexact Hr33
    isplitl [Ht38]; · iexact Ht38
    iexact Hrp2
  iintro ⟨Hc33, HO⟩
  -- the four waits
  simp only [sem_rs0s_3, sem_rs0r_3, sem_rs1s_3, sem_rs1r_3]
  ihave Hc23 := (Entails.of_eq (show (cred (tallyAt (dcell c (dsem 23)) 25 (amtDma 28 0)) : sProp 𝕄) = cred (tallyAt (dcell c (dsem 23)) 25 (amtDma 23 0)) from rfl)) $$ Hc23
  ihave Hc33 := (Entails.of_eq (show (cred (tallyAt (dcell c (dsem 33)) 26 (amtDma 38 0)) : sProp 𝕄) = cred (tallyAt (dcell c (dsem 33)) 26 (amtDma 33 0)) from rfl)) $$ Hc33
  ihave HM := (mayWait_copy (F := Ideal) c (dsem 23) 24 26 (by omega) (by omega)) $$ Hlev
  iapply (wp_wait_copyV m c 23 0 25 (by decide) (by decide) K (owedFrom c 26) _ (hw_waitDma2 (F := Ideal) c 23 0 ((credit_SA 0).trans rfl))) $$ [Hc23 HO HM Ha23]
  · isplitr; · iexact HI
    isplitl [Hc23]; · iexact Hc23
    isplitl [HO]; · iexact HO
    isplitl [HM]; · iexact HM
    iexact Ha23
  iintro ⟨HO, Ha23, Hr23, Hp23⟩
  ihave HM := (mayWait_copy (F := Ideal) c (dsem 28) 24 26 (by omega) (by omega)) $$ Hlev
  iapply (wp_wait_copyV m c 28 0 25 (by decide) (by decide) K (owedFrom c 26) _ (hw_waitDma2 (F := Ideal) c 28 0 ((credit_R4 0).trans rfl))) $$ [Hc28 HO HM Ha28]
  · isplitr; · iexact HI
    isplitl [Hc28]; · iexact Hc28
    isplitl [HO]; · iexact HO
    isplitl [HM]; · iexact HM
    iexact Ha28
  iintro ⟨HO, Ha28, Hr28, Hp28⟩
  ihave HM := (mayWait_copy (F := Ideal) c (dsem 33) 25 26 (by omega) (by omega)) $$ Hlev
  iapply (wp_wait_copyV m c 33 0 26 (by decide) (by decide) K (owedFrom c 26) _ (hw_waitDma2 (F := Ideal) c 33 0 ((credit_SA 1).trans rfl))) $$ [Hc33 HO HM Ha33]
  · isplitr; · iexact HI
    isplitl [Hc33]; · iexact Hc33
    isplitl [HO]; · iexact HO
    isplitl [HM]; · iexact HM
    iexact Ha33
  iintro ⟨HO, Ha33, Hr33, Hp33⟩
  ihave HM := (mayWait_copy (F := Ideal) c (dsem 38) 25 26 (by omega) (by omega)) $$ Hlev
  iapply (wp_wait_copyV m c 38 0 26 (by decide) (by decide) K (owedFrom c 26) _ (hw_waitDma2 (F := Ideal) c 38 0 ((credit_R4 1).trans rfl))) $$ [Hc38 HO HM Ha38]
  · isplitr; · iexact HI
    isplitl [Hc38]; · iexact Hc38
    isplitl [HO]; · iexact HO
    isplitl [HM]; · iexact HM
    iexact Ha38
  iintro ⟨HO, Ha38, Hr38, Hp38⟩
  -- the landed slots: the last partners' four-device sums on this device's pair of rows
  ihave Hp28 := (Entails.of_eq (show payDmaV m c 28 0
      = iprop((∃ f, ⌜(R4 0).view.read (Elt Ideal) f = rows256 (S2 m 1 0 (xr 1 c)) (pairRow 0 c)⌝ ∗ ((R4 0).view.loc (c : Thread nD τ) ↦[(R4 0).view.set]{fullShare} f))
          ∗ (ownAt (xr 1 c) (VE2 1 c) ∗ reached ER (dcell (xr 1 c) (agR 1 2)) 2)) from rfl)) $$ Hp28
  icases Hp28 with ⟨⟨%r40, %hr40, HR40⟩, Hg4⟩
  ihave Hp38 := (Entails.of_eq (show payDmaV m c 38 0
      = iprop((∃ f, ⌜(R4 1).view.read (Elt Ideal) f = rows256 (S2 m 1 1 (xr 3 c)) (pairRow 1 c)⌝ ∗ ((R4 1).view.loc (c : Thread nD τ) ↦[(R4 1).view.set]{fullShare} f))
          ∗ (ownAt (xr 3 c) (VE1 0 c) ∗ reached ER (dcell (xr 3 c) (agR 0 1)) 2)) from rfl)) $$ Hp38
  icases Hp38 with ⟨⟨%r41, %hr41, HR41⟩, Hg5⟩
  -- the landed sums added to the own, the result cast into the own pair of blocks of the first gather buffer
  ihave Hs0 := (heldBut_elim (F := Ideal) c cc0_scratch0 _) $$ Hs0
  icases Hs0 with ⟨%g0, Hs0⟩
  iapply (wp_load Variants.none (c : Thread nD τ) none Set.univ (Finset.subset_univ _)) $$ [HS2]
  · iexact HS2
  iintro HS2
  iapply (wp_load Variants.none (c : Thread nD τ) none Set.univ (sub_whole_slice cc0_scratch6 (Rect.unit (s := S1280x256) ![1024, 0] S256x256.size inb_S1280x256_S256x256_1024_0) (fun _ => rfl))) $$ [HR40]
  · iexact HR40
  iintro HR40
  iapply (wp_load Variants.none (c : Thread nD τ) none Set.univ (load_ok_but cc0_scratch0 _ _ hd17)) $$ [Hs0]
  · iexact Hs0
  iintro Hs0
  iapply (wp_store Variants.none (c : Thread nD τ) none Set.univ (store_ok_but cc0_scratch0 _ _ _ hd17)) $$ [Hs0]
  · iexact Hs0
  iintro Hs0
  iapply (wp_load Variants.none (c : Thread nD τ) none Set.univ (Finset.subset_univ _)) $$ [HS3]
  · iexact HS3
  iintro HS3
  iapply (wp_load Variants.none (c : Thread nD τ) none Set.univ (sub_whole_slice cc0_scratch7 (Rect.unit (s := S1280x256) ![1024, 0] S256x256.size inb_S1280x256_S256x256_1024_0) (fun _ => rfl))) $$ [HR41]
  · iexact HR41
  iintro HR41
  -- the values: the first stream's cast sum is the next layer's activations on the pair's rows, and so is the
  -- second stream's, which the segment returns
  have hw0 : ∀ y : S256x256.Idx, k0_pay65 (F := Ideal)
        ((Memref.whole cc0_scratch2).view.readAt (Elt Ideal) (Rect.unit (s := S1024x256) (k0_off17 c) S256x256.size (k0_off17_inb c)).toLoadRect a2)
        ((Memref.whole cc0_scratch6).view.readAt (Elt Ideal) (Rect.unit (s := S1280x256) ![1024, 0] S256x256.size inb_S1280x256_S256x256_1024_0).toLoadRect r40) y
      = nat2 (A m 2 0) (k0_off17 c 0 + (y 0).val) (y 1).val := by
    intro y
    rw [k0_pay65_apply, v9_load2 m c 1 a2 h2 y, off17_row]
    have e : (Memref.whole cc0_scratch6).view.readAt (Elt Ideal) (Rect.unit (s := S1280x256) ![1024, 0] S256x256.size inb_S1280x256_S256x256_1024_0).toLoadRect r40 y
        = nat2 (S2 m 1 0 (xr 1 c)) (pairRow 0 c + (y 0).val) (y 1).val := congrFun hr40 y
    rw [e]
    exact nat2_S2_last0 m 1 c _ _
  have hw1 : ∀ y : S256x256.Idx, k0_pay66 (F := Ideal)
        ((Memref.whole cc0_scratch3).view.readAt (Elt Ideal) (Rect.unit (s := S1024x256) (k0_off18 c) S256x256.size (k0_off18_inb c)).toLoadRect a3)
        ((Memref.whole cc0_scratch7).view.readAt (Elt Ideal) (Rect.unit (s := S1280x256) ![1024, 0] S256x256.size inb_S1280x256_S256x256_1024_0).toLoadRect r41) y
      = rows256 (A m 2 1) (pairRow 1 c) y := by
    intro y
    rw [k0_pay66_apply, v9_load3 m c 1 a3 h3 y]
    have e : (Memref.whole cc0_scratch7).view.readAt (Elt Ideal) (Rect.unit (s := S1280x256) ![1024, 0] S256x256.size inb_S1280x256_S256x256_1024_0).toLoadRect r41 y
        = nat2 (S2 m 1 1 (xr 3 c)) (pairRow 1 c + (y 0).val) (y 1).val := congrFun hr41 y
    rw [e]
    exact nat2_S2_last1 m 1 c _ _
  have hP0 := store_new0 c (A m 2 0) g0 (k0_off17 c) S256x256.size (k0_off17_inb c) (off17_col c) rfl _ hw0
  rw [off17_row] at hP0
  -- the quiet state after 26 copies
  rw [wp_ret]
  imodintro
  isplitr
  · ipureintro; exact hw1
  iexists K
  unfold QV9k QV localBufsV bufV heldButV
  rw [posAt_26]
  unfold grant
  ihave Hp23 := (Entails.of_eq (show payDmaV m c 23 0 = ownAt (F := Ideal) c (SA 0) from rfl)) $$ Hp23
  ihave HS4 := (slice_join_ownAt (F := Ideal) c (SA 0) b4) $$ [Hp23 HS4]
  · isplitl [Hp23]; · iexact Hp23
    iexact HS4
  ihave Hp33 := (Entails.of_eq (show payDmaV m c 33 0 = ownAt (F := Ideal) c (SA 1) from rfl)) $$ Hp33
  ihave HS5 := (slice_join_ownAt (F := Ideal) c (SA 1) _) $$ [Hp33 HS5]
  · isplitl [Hp33]; · iexact Hp33
    iexact HS5
  ihave HR40 := (ownAt_of (F := Ideal) c (R4 0) r40) $$ HR40
  ihave Hs6 := (heldBut_put_only (F := Ideal) c (R4 0)) $$ [HR40 Hs6]
  · isplitl [HR40]; · iexact HR40
    iexact Hs6
  ihave HR41 := (ownAt_of (F := Ideal) c (R4 1) r41) $$ HR41
  ihave Hs7 := (heldBut_put_only (F := Ideal) c (R4 1)) $$ [HR41 Hs7]
  · isplitl [HR41]; · iexact HR41
    iexact Hs7
  ihave Hs0 := (heldButV_intro c cc0_scratch0 (VE1 0 (xr 3 c)).view.set (rowsAre0 c (A m 2 0) (pairRow 0 c) 256) _ hP0) $$ Hs0
  ihave Hs1 := (heldButV_some c cc0_scratch1 _) $$ Hs1
  ihave Hs6 := (heldButV_some c cc0_scratch6 _) $$ Hs6
  ihave Hs7 := (heldButV_some c cc0_scratch7 _) $$ Hs7
  ihave HS2 := (bufV_intro c cc0_scratch2 (fun _ => True) _ trivial) $$ HS2
  ihave HS3 := (bufV_intro c cc0_scratch3 (fun _ => True) _ trivial) $$ HS3
  ihave HS4 := (bufV_some c cc0_scratch4) $$ HS4
  ihave HS5 := (bufV_some c cc0_scratch5) $$ HS5
  unfold bufV heldButV
  isplitr; · iexact HI
  isplitr; · iexact HR
  isplitr; · iexact Hlev
  isplitl [HatB]; · iexact HatB
  isplitl [Ha8 Hr8 Ha9 Hr9 Ha10 Hr10 Ha11 Hr11 Ha12 Ha13 Hr13 Ha14 Hr14 Ha15 Hr15 Ha16 Hr16 Ha17 Hr17 Ha18 Hr18 Ha19 Ha20 Hr20 Ha21 Hr21 Ha22 Hr22 Ha23 Hr23 Ha24 Hr24 Ha25 Hr25 Ha26 Hr26 Ha27 Hr27 Ha28 Hr28 Ha29 Hr29 Ha30 Hr30 Ha31 Hr31 Ha32 Hr32 Ha33 Hr33 Ha34 Hr34 Ha35 Hr35 Ha36 Hr36 Ha37 Hr37 Ha38 Hr38 Ha39 Hr39]
  · skip
    isplitl [Ha8]; · iexact Ha8
    isplitl [Hr8]; · iexact Hr8
    isplitl [Ha9]; · iexact Ha9
    isplitl [Hr9]; · iexact Hr9
    isplitl [Ha10]; · iexact Ha10
    isplitl [Hr10]; · iexact Hr10
    isplitl [Ha11]; · iexact Ha11
    isplitl [Hr11]; · iexact Hr11
    isplitl [Ha12]; · iexact Ha12
    isplitr; · iexact Hr12
    isplitl [Ha13]; · iexact Ha13
    isplitl [Hr13]; · iexact Hr13
    isplitl [Ha14]; · iexact Ha14
    isplitl [Hr14]; · iexact Hr14
    isplitl [Ha15]; · iexact Ha15
    isplitl [Hr15]; · iexact Hr15
    isplitl [Ha16]; · iexact Ha16
    isplitl [Hr16]; · iexact Hr16
    isplitl [Ha17]; · iexact Ha17
    isplitl [Hr17]; · iexact Hr17
    isplitl [Ha18]; · iexact Ha18
    isplitl [Hr18]; · iexact Hr18
    isplitl [Ha19]; · iexact Ha19
    isplitr; · iexact Hr19
    isplitl [Ha20]; · iexact Ha20
    isplitl [Hr20]; · iexact Hr20
    isplitl [Ha21]; · iexact Ha21
    isplitl [Hr21]; · iexact Hr21
    isplitl [Ha22]; · iexact Ha22
    isplitl [Hr22]; · iexact Hr22
    isplitl [Ha23]; · iexact Ha23
    isplitl [Hr23]; · iexact Hr23
    isplitl [Ha24]; · iexact Ha24
    isplitl [Hr24]; · iexact Hr24
    isplitl [Ha25]; · iexact Ha25
    isplitl [Hr25]; · iexact Hr25
    isplitl [Ha26]; · iexact Ha26
    isplitl [Hr26]; · iexact Hr26
    isplitl [Ha27]; · iexact Ha27
    isplitl [Hr27]; · iexact Hr27
    isplitl [Ha28]; · iexact Ha28
    isplitl [Hr28]; · iexact Hr28
    isplitl [Ha29]; · iexact Ha29
    isplitl [Hr29]; · iexact Hr29
    isplitl [Ha30]; · iexact Ha30
    isplitl [Hr30]; · iexact Hr30
    isplitl [Ha31]; · iexact Ha31
    isplitl [Hr31]; · iexact Hr31
    isplitl [Ha32]; · iexact Ha32
    isplitl [Hr32]; · iexact Hr32
    isplitl [Ha33]; · iexact Ha33
    isplitl [Hr33]; · iexact Hr33
    isplitl [Ha34]; · iexact Ha34
    isplitl [Hr34]; · iexact Hr34
    isplitl [Ha35]; · iexact Ha35
    isplitl [Hr35]; · iexact Hr35
    isplitl [Ha36]; · iexact Ha36
    isplitl [Hr36]; · iexact Hr36
    isplitl [Ha37]; · iexact Ha37
    isplitl [Hr37]; · iexact Hr37
    isplitl [Ha38]; · iexact Ha38
    isplitl [Hr38]; · iexact Hr38
    isplitl [Ha39]; · iexact Ha39
    iexact Hr39
  isplitl [Htoks]; · iexact Htoks
  isplitl [Hcreds]; · iexact Hcreds
  isplitl [HO]; · iexists _; iexact HO
  isplitl [Hl0 Hl1 Hl2 Hl3 Hl4 Hl5 Hl6 Hl7 HS2 HS3 HS4 HS5 HS8 HS9]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [HS2]; · iexact HS2
    isplitl [HS3]; · iexact HS3
    isplitl [HS4]; · iexact HS4
    isplitl [HS5]; · iexact HS5
    isplitl [HS8]; · iexact HS8
    iexact HS9
  isplitl [Hs0]; · iexact Hs0
  isplitl [Hs1]; · iexact Hs1
  isplitl [Hs6]; · iexact Hs6
  isplitl [Hs7]; · iexact Hs7
  isplitl [Hg5]; · iexact Hg5
  isplitl [Hg3]; · iexact Hg3
  iexact Hg4

/-- info: 'Cert.KernelIdeal.Val.seg9_okV' depends on axioms: [propext, Classical.choice, Quot.sound] -/
#guard_msgs in #print axioms seg9_okV

end Cert.KernelIdeal.Val

end
-- ==== Proof.KernelIdeal.SegV2.lean ====
/- The third exchange of the gather with contents, in layer 0 (segment 2) and in the last layer (segment 11).

   Each stream sends its own four row blocks, which hold the layer's gathered activations on those rows, to the
   partner of the exchange, and receives the partner's four: afterwards the gather buffer holds the activations on
   all 1024 rows. While the copies fly the matrix product runs on the other pair of the own four blocks, so the
   accumulator holds the device's partial product on its four blocks; after the landing the first stream goes on
   with a pair of the partner's blocks. -/
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StepsV
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.QuietLemmas
import proofs.«900979_g7700000000000980_dist_mlpseq_tp1d_bs_bs_b256_d256_h512_v7x_i8_bf16_1_alg».proof.Proof.KernelIdeal.Seg2

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open scoped BigOperators

local notation "𝕄" => MT nD τ sig ℕ (Elt Ideal) ℕ UU ℕ

variable (m : Mem)

/-! ## The states before and after the exchange of layer `l` -/

/-- Before: each gather buffer holds the activations on the own four blocks (the partner's four are away), each
    accumulator the partial product on the own pair. -/
def QE1V (K : GSem nD τ sig → ℕ) (c : Dev nD) (k₀ l : ℕ) (lw : Fin 3) : sProp 𝕄 :=
  QV m K c k₀ lw (fun _ => True) (rowsAre0 c (A m l 0) (quadRow 0 c) 512) (rowsAre1 c (A m l 1) (quadRow 1 c) 512)
    (rowsAre2 c (Pt m l 0 c) (pairRow 0 c) 256) (rowsAre3 c (Pt m l 1 c) (pairRow 1 c) 256)
    (fun _ => True) (fun _ => True) (fun _ => True) (fun _ => True)
    (VE2 0 (xr 4 c)).view.set (VE2 1 (xr 1 c)).view.set (R2 0).view.set ∅
    iprop(grant (xr 4 c) (VE2 0 c) (agR 0 2) l ∗ grant (xr 1 c) (VE2 1 c) (agR 1 2) l ∗ grant (xr 3 c) (R2 0) (rsR 0 1) l)

/-- After: the gather buffers hold the activations on all rows; the accumulators hold the partial product on the own
    four blocks, the first stream's also on the pair of the partner's blocks it goes on with. -/
def QE2V (K : GSem nD τ sig → ℕ) (c : Dev nD) (k₀ l : ℕ) (lw : Fin 3) : sProp 𝕄 :=
  QV m K c k₀ lw (fun _ => True) (rowsAre0 c (A m l 0) 0 1024) (rowsAre1 c (A m l 1) 0 1024)
    (fun f => rowsAre2 c (Pt m l 0 c) (quadRow 0 c) 512 f ∧ rowsAre2 c (Pt m l 0 c) (k0_off13 c 0) 256 f)
    (rowsAre3 c (Pt m l 1 c) (quadRow 1 c) 512)
    (fun _ => True) (fun _ => True) (fun _ => True) (fun _ => True)
    ∅ ∅ ((R0 0).view.set ∪ (R1 0).view.set ∪ (R2 0).view.set) ((R0 1).view.set ∪ (R1 1).view.set)
    iprop(grant (xr 4 c) (R0 0) (rsR 0 0) l ∗ grant (xr 1 c) (R0 1) (rsR 1 0) l ∗ grant (xr 4 c) (R1 0) (rsR 0 4) l
      ∗ grant (xr 1 c) (R1 1) (rsR 1 4) l ∗ grant (xr 3 c) (R2 0) (rsR 0 1) l)

theorem QV1_eq (K : GSem nD τ sig → ℕ) (c : Dev nD) : QV1 m K c = QE1V m K c 4 0 0 := rfl
theorem QV10_eq (K : GSem nD τ sig → ℕ) (c : Dev nD) : QV10 m K c = QE1V m K c 28 2 2 := rfl

/-- The hidden activations (first product, relu) of the 256 rows `b ..` of `X` under device `c`'s slice of layer `l`. -/
def hidIs (c : Dev nD) (X : Fin 1024 → Fin 256 → EReal) (b : ℕ) (l : Fin 3) (v : FVec Ideal S256x512 .bf16) : Prop :=
  ∀ (r : Fin 256) (k : Fin 512), v (ValueIdx.ix2 r k) = max (∑ e : Fin 256, nat2 X (b + r.val) e.val * winOf m l c e k) 0

/-! ## Where the blocks lie -/

theorem s2v_quadRow0 (c : Dev nD) : quadRow 0 c = k0_off9 c 0 := rfl
theorem s2v_quadRow1 (c : Dev nD) : quadRow 1 c = k0_off10 c 0 := rfl
theorem s2v_pairRow0 (c : Dev nD) : pairRow 0 c = k0_off7 c 0 := rfl
theorem s2v_pairRow1 (c : Dev nD) : pairRow 1 c = k0_off8 c 0 := rfl

/-- First stream: the own four blocks and the partner's are the two halves of the buffer; the own pair and the other
    pair are the two halves of the own four; the pair the stream goes on with lies in the partner's four. -/
theorem s2v_arith0 : ∀ c : Dev nD,
    ((k0_off9 c 0 = 0 ∧ k0_off9 (xr 4 c) 0 = 512) ∨ (k0_off9 c 0 = 512 ∧ k0_off9 (xr 4 c) 0 = 0))
    ∧ ((k0_off7 c 0 = k0_off9 c 0 ∧ k0_off11 c 0 = k0_off9 c 0 + 256) ∨ (k0_off11 c 0 = k0_off9 c 0 ∧ k0_off7 c 0 = k0_off9 c 0 + 256))
    ∧ (k0_off13 c 0 = k0_off9 (xr 4 c) 0 ∨ k0_off13 c 0 = k0_off9 (xr 4 c) 0 + 256) := by decide +kernel
theorem s2v_arith1 : ∀ c : Dev nD,
    ((k0_off10 c 0 = 0 ∧ k0_off10 (xr 1 c) 0 = 512) ∨ (k0_off10 c 0 = 512 ∧ k0_off10 (xr 1 c) 0 = 0))
    ∧ ((k0_off8 c 0 = k0_off10 c 0 ∧ k0_off12 c 0 = k0_off10 c 0 + 256) ∨ (k0_off12 c 0 = k0_off10 c 0 ∧ k0_off8 c 0 = k0_off10 c 0 + 256)) := by decide +kernel

/-! ## The weight buffers read whole -/

theorem s2v_full8 (c : Dev nD) (a : Buf (Elt Ideal) ((Memref.whole cc0_scratch8).view.loc (c : Thread nD τ))) (e : Fin 256) (k : Fin 512) :
    (Memref.whole cc0_scratch8).view.readAt (Elt Ideal) (Rect.unit (s := S256x512) ![0, 0] S256x512.size inb_S256x512_S256x512_0_0).toLoadRect a (ValueIdx.ix2 e k)
      = a (ValueIdx.ix2 e k) := by
  have h : (Rect.unit (s := S256x512) ![0, 0] S256x512.size inb_S256x512_S256x512_0_0).emb (ValueIdx.ix2 e k) = ValueIdx.ix2 e k := by
    funext i
    apply Fin.ext
    match i with
    | ⟨0, _⟩ => show 0 + 1 * e.val = e.val; omega
    | ⟨1, _⟩ => show 0 + 1 * k.val = k.val; omega
  show a ((Rect.unit (s := S256x512) ![0, 0] S256x512.size inb_S256x512_S256x512_0_0).emb (ValueIdx.ix2 e k)) = a (ValueIdx.ix2 e k)
  rw [h]

theorem s2v_full9 (c : Dev nD) (a : Buf (Elt Ideal) ((Memref.whole cc0_scratch9).view.loc (c : Thread nD τ))) (k : Fin 512) (col : Fin 256) :
    (Memref.whole cc0_scratch9).view.readAt (Elt Ideal) (Rect.unit (s := S512x256) ![0, 0] S512x256.size inb_S512x256_S512x256_0_0).toLoadRect a (ValueIdx.ix2 k col)
      = a (ValueIdx.ix2 k col) := by
  have h : (Rect.unit (s := S512x256) ![0, 0] S512x256.size inb_S512x256_S512x256_0_0).emb (ValueIdx.ix2 k col) = ValueIdx.ix2 k col := by
    funext i
    apply Fin.ext
    match i with
    | ⟨0, _⟩ => show 0 + 1 * k.val = k.val; omega
    | ⟨1, _⟩ => show 0 + 1 * col.val = col.val; omega
  show a ((Rect.unit (s := S512x256) ![0, 0] S512x256.size inb_S512x256_S512x256_0_0).emb (ValueIdx.ix2 k col)) = a (ValueIdx.ix2 k col)
  rw [h]

/-! ## The matrix product of 256 rows of the gathered buffer is the device's partial product on those rows -/

theorem s2v_mm (l : Fin 3) (c : Dev nD) (X : Fin 1024 → Fin 256 → EReal) (off : Fin 2 → ℕ)
    (inb : ∀ a, off a + S256x256.size a ≤ S1024x256.size a)
    (xh : FVec Ideal S256x256 .bf16) (wi : FVec Ideal S256x512 .bf16) (wo : FVec Ideal S512x256 .bf16)
    (hx : xh = fun y => nat2 X (off 0 + (y 0).val) (y 1).val)
    (hwi : ∀ e k, wi (ValueIdx.ix2 e k) = winOf m l c e k) (hwo : ∀ k col, wo (ValueIdx.ix2 k col) = woutOf m l c k col)
    (y : S256x256.Idx) : mmRows xh wi wo y = nat2 (partOf m l c X) (off 0 + (y 0).val) (y 1).val := by
  obtain ⟨r, col, rfl⟩ : ∃ (r : Fin 256) (col : Fin 256), y = ValueIdx.ix2 r col := ⟨y 0, y 1, ValueIdx.eq_ix2 y⟩
  have hrow : off 0 + r.val < 1024 := by
    have h0 : off 0 + 256 ≤ 1024 := inb 0
    have := r.isLt
    omega
  show mmRows xh wi wo (ValueIdx.ix2 r col) = nat2 (partOf m l c X) (off 0 + r.val) col.val
  rw [nat2_eq _ _ _ hrow col.isLt]
  refine mmRows_partOf m l c X ⟨off 0 + r.val, hrow⟩ xh wi wo r col (fun e => ?_) hwi (fun k => hwo k col)
  subst hx
  exact nat2_eq X _ _ hrow e.isLt

/-- The accumulator after the product on the other pair of the own four blocks: the partial product on the four. -/
theorem s2v_acc2 (c : Dev nD) (G : Fin 1024 → Fin 256 → EReal) (a : Buf (Elt Ideal) ((Memref.whole cc0_scratch2).view.loc (c : Thread nD τ)))
    (bp : ℕ) (ha : rowsAre2 c G bp 256 a) (off : Fin 2 → ℕ) (inb : ∀ a, off a + S256x256.size a ≤ S1024x256.size a) (hcol : off 1 = 0)
    (w : S256x256.Idx → EReal) (hw : ∀ y, w y = nat2 G (off 0 + (y 0).val) (y 1).val)
    (bq : ℕ) (hcase : (bp = bq ∧ off 0 = bq + 256) ∨ (off 0 = bq ∧ bp = bq + 256)) :
    rowsAre2 c G bq 512 (((Memref.whole cc0_scratch2).view.slice (Rect.unit (s := S1024x256) off S256x256.size inb)).write (Elt Ideal) a w Finset.univ) := by
  intro row col h1 h2
  have e256 : S256x256.size 0 = 256 := rfl
  by_cases hin : off 0 ≤ row.val ∧ row.val < off 0 + 256
  · exact store_new2 c G a off S256x256.size inb hcol rfl w hw row col hin.1 hin.2
  · exact store_keep2 c G bp 256 a ha off S256x256.size inb hcol rfl w (by omega) row col (by omega) (by omega)

theorem s2v_acc3 (c : Dev nD) (G : Fin 1024 → Fin 256 → EReal) (a : Buf (Elt Ideal) ((Memref.whole cc0_scratch3).view.loc (c : Thread nD τ)))
    (bp : ℕ) (ha : rowsAre3 c G bp 256 a) (off : Fin 2 → ℕ) (inb : ∀ a, off a + S256x256.size a ≤ S1024x256.size a) (hcol : off 1 = 0)
    (w : S256x256.Idx → EReal) (hw : ∀ y, w y = nat2 G (off 0 + (y 0).val) (y 1).val)
    (bq : ℕ) (hcase : (bp = bq ∧ off 0 = bq + 256) ∨ (off 0 = bq ∧ bp = bq + 256)) :
    rowsAre3 c G bq 512 (((Memref.whole cc0_scratch3).view.slice (Rect.unit (s := S1024x256) off S256x256.size inb)).write (Elt Ideal) a w Finset.univ) := by
  intro row col h1 h2
  have e256 : S256x256.size 0 = 256 := rfl
  by_cases hin : off 0 ≤ row.val ∧ row.val < off 0 + 256
  · exact store_new3 c G a off S256x256.size inb hcol rfl w hw row col hin.1 hin.2
  · exact store_keep3 c G bp 256 a ha off S256x256.size inb hcol rfl w (by omega) row col (by omega) (by omega)

/-! ## Buffers with a fact, opened and closed -/

theorem s2v_bufV_open (c : Dev nD) (b : Ref sig .tc) (P : Buf (Elt Ideal) ((Memref.whole b).view.loc (c : Thread nD τ)) → Prop) :
    bufV c b P ⊢ iprop(∃ f, ptw (F := Ideal) c b f ∗ ⌜P f⌝) := by
  unfold bufV; exact Entails.refl _

theorem s2v_bufV_intro (c : Dev nD) (b : Ref sig .tc) (P : Buf (Elt Ideal) ((Memref.whole b).view.loc (c : Thread nD τ)) → Prop)
    (f : Buf (Elt Ideal) ((Memref.whole b).view.loc (c : Thread nD τ))) (h : P f) : ptw (F := Ideal) c b f ⊢ bufV c b P := by
  unfold bufV
  iintro H
  iexists f
  isplitl [H]
  · iexact H
  · ipureintro; exact h

/-- A buffer's contents, given a name. -/
theorem s2v_name (c : Dev nD) (b : Ref sig .tc) (f : Buf (Elt Ideal) ((Memref.whole b).view.loc (c : Thread nD τ))) :
    ptw (F := Ideal) c b f ⊢ iprop(∃ g, ptw (F := Ideal) c b g ∗ ⌜g = f⌝) := by
  iintro H
  iexists f
  isplitl [H]
  · iexact H
  · ipureintro; rfl

theorem s2v_held_open (c : Dev nD) (b : Ref sig .tc) (A : Finset (Idx ((Memref.whole b).view.loc (c : Thread nD τ))))
    (P : Buf (Elt Ideal) ((Memref.whole b).view.loc (c : Thread nD τ)) → Prop) :
    heldButV c b A P ⊢ iprop(∃ f : Buf (Elt Ideal) ((Memref.whole b).view.loc (c : Thread nD τ)),
      ((Memref.whole b).view.loc (c : Thread nD τ) ↦[Finset.univ \ A]{fullShare} f) ∗ ⌜P f⌝) := by
  unfold heldButV; exact Entails.refl _

theorem s2v_held_forget (c : Dev nD) (b : Ref sig .tc) (A : Finset (Idx ((Memref.whole b).view.loc (c : Thread nD τ))))
    (P : Buf (Elt Ideal) ((Memref.whole b).view.loc (c : Thread nD τ)) → Prop) :
    heldButV c b A P ⊢ heldBut (F := Ideal) c b A := by
  unfold heldButV heldBut
  iintro ⟨%f, H, -⟩
  iexists f
  iexact H

theorem s2v_held_true (c : Dev nD) (b : Ref sig .tc) (A : Finset (Idx ((Memref.whole b).view.loc (c : Thread nD τ)))) :
    heldBut (F := Ideal) c b A ⊢ heldButV c b A (fun _ => True) := by
  unfold heldButV heldBut
  iintro ⟨%f, H⟩
  iexists f
  isplitl [H]
  · iexact H
  · ipureintro; trivial

/-! ## The own four blocks of a gather buffer: half their share goes with the copy, at the contents they have -/

theorem s2v_open0 (c : Dev nD) (f : Buf (Elt Ideal) ((Memref.whole cc0_scratch0).view.loc (c : Thread nD τ))) :
    ((Memref.whole cc0_scratch0).view.loc (c : Thread nD τ) ↦[Finset.univ \ (VE2 0 (xr 4 c)).view.set]{fullShare} f : sProp 𝕄)
      ⊢ iprop(((VE2 0 c).view.loc (c : Thread nD τ) ↦[(VE2 0 c).view.set]{fullShare.left} f)
          ∗ ((Memref.whole cc0_scratch0).view.loc (c : Thread nD τ) ↦[(VE2 0 c).view.set]{fullShare.right} f)
          ∗ ((Memref.whole cc0_scratch0).view.loc (c : Thread nD τ) ↦[(Finset.univ \ (VE2 0 (xr 4 c)).view.set) \ (VE2 0 c).view.set]{fullShare} f)) := by
  have key : ((Memref.whole cc0_scratch0).view.loc (c : Thread nD τ) ↦[(VE2 0 c).view.set]{fullShare.left} f : sProp 𝕄)
      ⊢ ((VE2 0 c).view.loc (c : Thread nD τ) ↦[(VE2 0 c).view.set]{fullShare.left} f) := Entails.refl _
  iintro H
  ihave H' := (rest_split (F := Ideal) (disj_VE2_0 c).symm f).1 $$ H
  icases H' with ⟨H1, H2⟩
  ihave H1' := (halves_split (F := Ideal) f).1 $$ H1
  icases H1' with ⟨HL, HR⟩
  ihave HL' := key $$ HL
  isplitl [HL']
  · iexact HL'
  isplitl [HR]
  · iexact HR
  iexact H2

theorem s2v_open1 (c : Dev nD) (f : Buf (Elt Ideal) ((Memref.whole cc0_scratch1).view.loc (c : Thread nD τ))) :
    ((Memref.whole cc0_scratch1).view.loc (c : Thread nD τ) ↦[Finset.univ \ (VE2 1 (xr 1 c)).view.set]{fullShare} f : sProp 𝕄)
      ⊢ iprop(((VE2 1 c).view.loc (c : Thread nD τ) ↦[(VE2 1 c).view.set]{fullShare.left} f)
          ∗ ((Memref.whole cc0_scratch1).view.loc (c : Thread nD τ) ↦[(VE2 1 c).view.set]{fullShare.right} f)
          ∗ ((Memref.whole cc0_scratch1).view.loc (c : Thread nD τ) ↦[(Finset.univ \ (VE2 1 (xr 1 c)).view.set) \ (VE2 1 c).view.set]{fullShare} f)) := by
  have key : ((Memref.whole cc0_scratch1).view.loc (c : Thread nD τ) ↦[(VE2 1 c).view.set]{fullShare.left} f : sProp 𝕄)
      ⊢ ((VE2 1 c).view.loc (c : Thread nD τ) ↦[(VE2 1 c).view.set]{fullShare.left} f) := Entails.refl _
  iintro H
  ihave H' := (rest_split (F := Ideal) (disj_VE2_1 c).symm f).1 $$ H
  icases H' with ⟨H1, H2⟩
  ihave H1' := (halves_split (F := Ideal) f).1 $$ H1
  icases H1' with ⟨HL, HR⟩
  ihave HL' := key $$ HL
  isplitl [HL']
  · iexact HL'
  isplitl [HR]
  · iexact HR
  iexact H2

/-- Both waits over: the borrowed half is back and the partner's four blocks have landed at the activations' rows;
    the buffer is whole and holds the activations on every row. -/
theorem s2v_close0 (c : Dev nD) (G : Fin 1024 → Fin 256 → EReal) (f : Buf (Elt Ideal) ((Memref.whole cc0_scratch0).view.loc (c : Thread nD τ)))
    (hf : rowsAre0 c G (quadRow 0 c) 512 f) :
    iprop(ownHalf (F := Ideal) c (VE2 0 c)
        ∗ ((Memref.whole cc0_scratch0).view.loc (c : Thread nD τ) ↦[(VE2 0 c).view.set]{fullShare.right} f)
        ∗ ((Memref.whole cc0_scratch0).view.loc (c : Thread nD τ) ↦[(Finset.univ \ (VE2 0 (xr 4 c)).view.set) \ (VE2 0 c).view.set]{fullShare} f)
        ∗ owns (c : Thread nD τ) (VE2 0 (xr 4 c)) fullShare (rows512 G (k0_off9 (xr 4 c) 0)))
      ⊢ iprop(∃ h, ptw (F := Ideal) c cc0_scratch0 h ∗ ⌜rowsAre0 c G 0 1024 h⌝) := by
  have h1 : iprop(ownHalf (F := Ideal) c (VE2 0 c)
        ∗ ((Memref.whole cc0_scratch0).view.loc (c : Thread nD τ) ↦[(VE2 0 c).view.set]{fullShare.right} f))
      ⊢ ((Memref.whole cc0_scratch0).view.loc (c : Thread nD τ) ↦[(VE2 0 c).view.set]{fullShare} f : sProp 𝕄) :=
    ownHalf_join c (VE2 0 c) f
  have h2 := (rest_split (F := Ideal) (disj_VE2_0 c).symm f).2
  have h3 : ∀ g : Buf (Elt Ideal) ((Memref.whole cc0_scratch0).view.loc (c : Thread nD τ)),
      iprop(((VE2 0 (xr 4 c)).view.loc (c : Thread nD τ) ↦[(VE2 0 (xr 4 c)).view.set]{fullShare} g)
        ∗ ((Memref.whole cc0_scratch0).view.loc (c : Thread nD τ) ↦[Finset.univ \ (VE2 0 (xr 4 c)).view.set]{fullShare} f))
      ⊢ (ptw (F := Ideal) c cc0_scratch0 ((VE2 0 (xr 4 c)).view.set.piecewise g f) : sProp 𝕄) :=
    fun g => slice_join_at c (VE2 0 (xr 4 c)) f g
  unfold owns
  iintro ⟨Hh, HR, Hrest, ⟨%g, %hg, Hland⟩⟩
  ihave H1 := h1 $$ [Hh HR]
  · isplitl [Hh]
    · iexact Hh
    · iexact HR
  ihave H2 := h2 $$ [H1 Hrest]
  · isplitl [H1]
    · iexact H1
    · iexact Hrest
  ihave H3 := (h3 g) $$ [Hland H2]
  · isplitl [Hland]
    · iexact Hland
    · iexact H2
  iexists ((VE2 0 (xr 4 c)).view.set.piecewise g f)
  isplitl [H3]
  · iexact H3
  · ipureintro
    refine join_VE2_0 c (xr 4 c) G (quadRow 0 c) 512 f g hf hg 0 1024 (fun row h1 h2 => ?_)
    have := (s2v_arith0 c).1
    rw [s2v_quadRow0]
    omega

theorem s2v_close1 (c : Dev nD) (G : Fin 1024 → Fin 256 → EReal) (f : Buf (Elt Ideal) ((Memref.whole cc0_scratch1).view.loc (c : Thread nD τ)))
    (hf : rowsAre1 c G (quadRow 1 c) 512 f) :
    iprop(ownHalf (F := Ideal) c (VE2 1 c)
        ∗ ((Memref.whole cc0_scratch1).view.loc (c : Thread nD τ) ↦[(VE2 1 c).view.set]{fullShare.right} f)
        ∗ ((Memref.whole cc0_scratch1).view.loc (c : Thread nD τ) ↦[(Finset.univ \ (VE2 1 (xr 1 c)).view.set) \ (VE2 1 c).view.set]{fullShare} f)
        ∗ owns (c : Thread nD τ) (VE2 1 (xr 1 c)) fullShare (rows512 G (k0_off10 (xr 1 c) 0)))
      ⊢ iprop(∃ h, ptw (F := Ideal) c cc0_scratch1 h ∗ ⌜rowsAre1 c G 0 1024 h⌝) := by
  have h1 : iprop(ownHalf (F := Ideal) c (VE2 1 c)
        ∗ ((Memref.whole cc0_scratch1).view.loc (c : Thread nD τ) ↦[(VE2 1 c).view.set]{fullShare.right} f))
      ⊢ ((Memref.whole cc0_scratch1).view.loc (c : Thread nD τ) ↦[(VE2 1 c).view.set]{fullShare} f : sProp 𝕄) :=
    ownHalf_join c (VE2 1 c) f
  have h2 := (rest_split (F := Ideal) (disj_VE2_1 c).symm f).2
  have h3 : ∀ g : Buf (Elt Ideal) ((Memref.whole cc0_scratch1).view.loc (c : Thread nD τ)),
      iprop(((VE2 1 (xr 1 c)).view.loc (c : Thread nD τ) ↦[(VE2 1 (xr 1 c)).view.set]{fullShare} g)
        ∗ ((Memref.whole cc0_scratch1).view.loc (c : Thread nD τ) ↦[Finset.univ \ (VE2 1 (xr 1 c)).view.set]{fullShare} f))
      ⊢ (ptw (F := Ideal) c cc0_scratch1 ((VE2 1 (xr 1 c)).view.set.piecewise g f) : sProp 𝕄) :=
    fun g => slice_join_at c (VE2 1 (xr 1 c)) f g
  unfold owns
  iintro ⟨Hh, HR, Hrest, ⟨%g, %hg, Hland⟩⟩
  ihave H1 := h1 $$ [Hh HR]
  · isplitl [Hh]
    · iexact Hh
    · iexact HR
  ihave H2 := h2 $$ [H1 Hrest]
  · isplitl [H1]
    · iexact H1
    · iexact Hrest
  ihave H3 := (h3 g) $$ [Hland H2]
  · isplitl [Hland]
    · iexact Hland
    · iexact H2
  iexists ((VE2 1 (xr 1 c)).view.set.piecewise g f)
  isplitl [H3]
  · iexact H3
  · ipureintro
    refine join_VE2_1 c (xr 1 c) G (quadRow 1 c) 512 f g hf hg 0 1024 (fun row h1 h2 => ?_)
    have := (s2v_arith1 c).1
    rw [s2v_quadRow1]
    omega

/-! ## What the landing of the exchange hands the partner, with contents -/

theorem s2v_pay10 (c : Dev nD) (r : ℕ) : payDmaV m c 10 r = ownHalf (F := Ideal) c (VE2 0 c) := rfl
theorem s2v_pay16 (c : Dev nD) (r : ℕ) : payDmaV m c 16 r = ownHalf (F := Ideal) c (VE2 1 c) := rfl
theorem s2v_pay13 (c : Dev nD) (l : ℕ) : payDmaV m c 13 l = iprop(owns (Val := Elt Ideal) (c : Thread nD τ) (VE2 0 (xr 4 c)) fullShare (rows512 (A m l 0) (k0_off9 (xr 4 c) 0))
    ∗ grant (xr 4 c) (R0 0) (rsR 0 0) l ∗ grant (xr 4 c) (R1 0) (rsR 0 4) l) := rfl
theorem s2v_pay19 (c : Dev nD) (l : ℕ) : payDmaV m c 19 l = iprop(owns (Val := Elt Ideal) (c : Thread nD τ) (VE2 1 (xr 1 c)) fullShare (rows512 (A m l 1) (k0_off10 (xr 1 c) 0))
    ∗ grant (xr 1 c) (R0 1) (rsR 1 0) l ∗ grant (xr 1 c) (R1 1) (rsR 1 4) l) := rfl

set_option maxHeartbeats 1000000 in
theorem s2v_payR13 (c : Dev nD) (l : ℕ) (f0 : Buf (Elt Ideal) ((Memref.whole cc0_scratch0).view.loc (c : Thread nD τ)))
    (hf0 : rowsAre0 c (A m l 0) (quadRow 0 c) 512 f0)
    (fd : Buf (Elt Ideal) ((VE2 0 c).view.loc (xr 4 c : Thread nD τ))) :
    iprop(((VE2 0 c).view.loc (xr 4 c : Thread nD τ) ↦[(VE2 0 c).view.set]{fullShare}
          ((VE2 0 c).view.write (Elt Ideal) fd ((VE2 0 c).view.read (Elt Ideal) f0) Finset.univ))
        ∗ ((ownAt c (R0 0) ∗ reached ER (dcell c (dsem 25)) l) ∗ (ownAt c (R1 0) ∗ reached ER (dcell c (dsem 29)) l)))
      ⊢ payDmaV m (xr 4 c) 13 l := by
  rewrite [s2v_pay13 m (xr 4 c) l, xr_xr, grant_eq, grant_eq, s2_rsR_00, s2_rsR_04]
  refine sep_mono_left ?_
  have h : ((VE2 0 c).view.loc (xr 4 c : Thread nD τ) ↦[(VE2 0 c).view.set]{fullShare}
        ((VE2 0 c).view.write (Elt Ideal) fd ((VE2 0 c).view.read (Elt Ideal) f0) Finset.univ) : sProp 𝕄)
      ⊢ owns (Val := Elt Ideal) (xr 4 c : Thread nD τ) (VE2 0 c) fullShare
          ((VE2 0 c).view.read (Elt Ideal) ((VE2 0 c).view.write (Elt Ideal) fd ((VE2 0 c).view.read (Elt Ideal) f0) Finset.univ)) :=
    owns_intro _ _ _ _
  have hr : (VE2 0 c).view.read (Elt Ideal) ((VE2 0 c).view.write (Elt Ideal) fd ((VE2 0 c).view.read (Elt Ideal) f0) Finset.univ)
      = rows512 (A m l 0) (k0_off9 c 0) :=
    (View.read_write_univ _ _).trans (src_VE2_0 c c (A m l 0) (quadRow 0 c) 512 f0 hf0 (s2v_quadRow0 c).le (by rw [s2v_quadRow0]))
  rewrite [hr] at h
  exact h

set_option maxHeartbeats 1000000 in
theorem s2v_payR19 (c : Dev nD) (l : ℕ) (f1 : Buf (Elt Ideal) ((Memref.whole cc0_scratch1).view.loc (c : Thread nD τ)))
    (hf1 : rowsAre1 c (A m l 1) (quadRow 1 c) 512 f1)
    (fd : Buf (Elt Ideal) ((VE2 1 c).view.loc (xr 1 c : Thread nD τ))) :
    iprop(((VE2 1 c).view.loc (xr 1 c : Thread nD τ) ↦[(VE2 1 c).view.set]{fullShare}
          ((VE2 1 c).view.write (Elt Ideal) fd ((VE2 1 c).view.read (Elt Ideal) f1) Finset.univ))
        ∗ ((ownAt c (R0 1) ∗ reached ER (dcell c (dsem 35)) l) ∗ (ownAt c (R1 1) ∗ reached ER (dcell c (dsem 39)) l)))
      ⊢ payDmaV m (xr 1 c) 19 l := by
  rewrite [s2v_pay19 m (xr 1 c) l, xr_xr, grant_eq, grant_eq, s2_rsR_10, s2_rsR_14]
  refine sep_mono_left ?_
  have h : ((VE2 1 c).view.loc (xr 1 c : Thread nD τ) ↦[(VE2 1 c).view.set]{fullShare}
        ((VE2 1 c).view.write (Elt Ideal) fd ((VE2 1 c).view.read (Elt Ideal) f1) Finset.univ) : sProp 𝕄)
      ⊢ owns (Val := Elt Ideal) (xr 1 c : Thread nD τ) (VE2 1 c) fullShare
          ((VE2 1 c).view.read (Elt Ideal) ((VE2 1 c).view.write (Elt Ideal) fd ((VE2 1 c).view.read (Elt Ideal) f1) Finset.univ)) :=
    owns_intro _ _ _ _
  have hr : (VE2 1 c).view.read (Elt Ideal) ((VE2 1 c).view.write (Elt Ideal) fd ((VE2 1 c).view.read (Elt Ideal) f1) Finset.univ)
      = rows512 (A m l 1) (k0_off10 c 0) :=
    (View.read_write_univ _ _).trans (src_VE2_1 c c (A m l 1) (quadRow 1 c) 512 f1 hf1 (s2v_quadRow1 c).le (by rw [s2v_quadRow1]))
  rewrite [hr] at h
  exact h

/-! ## The two protocol steps as the program spells them, over the schedule with contents -/

theorem s2v_send (c p p' : Dev nD) (hp : p' = p) {s : Shape} (src dst : Memref sig .tc .vmem s .bf16) (js jr r ι : ℕ)
    (sS sR : DmaSem sig) (hsS : sS = dsem js) (hsR : sR = dsem jr)
    (hjs : js < 40) (hjr : jr < 40) (hrs : r < nRounds js) (hrr : r < nRounds jr)
    (hN : dst.view.dmaCredit = amtDma jr r) (hNs : amtDma js r = amtDma jr r) (G : sProp 𝕄)
    (q : PosShare TreeShare) (fs : Buf (Elt Ideal) (src.view.loc (c : Thread nD τ)))
    (hpayS : (src.view.loc (c : Thread nD τ) ↦[src.view.set]{q} fs : sProp 𝕄) ⊢ payDmaV m c js r)
    (hpayR : ∀ fd : Buf (Elt Ideal) (dst.view.loc (p : Thread nD τ)),
      iprop((dst.view.loc (p : Thread nD τ) ↦[dst.view.set]{fullShare} (dst.view.write (Elt Ideal) fd (src.view.read (Elt Ideal) fs) Finset.univ)) ∗ G)
        ⊢ payDmaV m p jr r)
    (K : GSem nD τ sig → ℕ) {O₀' : CellTallies nD τ sig ℕ} (O : CellTallies nD τ sig ℕ)
    (hO : O₀' = O + tallyAt (dcell p (dsem jr)) ι (amtDma jr r)) (W : Waits sig ℕ)
    {hsc : dst.view.ref.isScScratch = false} {hsrc : src.view.WordExact} {hdst : dst.view.WordExact}
    {hsem : DmaTarget.Typed (p := Proc.tc) .vmem (.dma sR) (.remote (p' : Thread nD τ) dst (.dma sS) hsc)}
    {α : Type} {Q : α → sProp 𝕄} {k : PUnit → Prog (TpuEff nD τ sig (Elt Ideal) Λ₀ .tc) α}
    (hroute : τ.routes (c : Thread nD τ) (p : Thread nD τ) = true) :
    iprop(invsAllV m K ∗ (src.view.loc (c : Thread nD τ) ↦[src.view.set]{q} fs) ∗ ownAt p dst ∗ G
        ∗ owes (c : Thread nD τ) O₀' W
        ∗ dutyTok ER (dcell c (dsem js)) r (0 : DD) ∗ reached ER (dcell c (dsem js)) r
        ∗ dutyTok ER (dcell p (dsem jr)) r (0 : DD) ∗ reached ER (dcell p (dsem jr)) r)
      ⊢ iprop(((cred (tallyAt (dcell c (dsem js)) ι (amtDma jr r)) ∗ owes (c : Thread nD τ) O W)
            -∗ wp frame (wpE (defs₀ (F := Ideal)) Variants.none (c : Thread nD τ) none) Set.univ (k ⟨⟩) Q)
          -∗ wp frame (wpE (defs₀ (F := Ideal)) Variants.none (c : Thread nD τ) none) Set.univ
              (.op (.enqueueDma src (.remote (p' : Thread nD τ) dst (.dma sS) hsc) (.dma sR) hsrc hdst hsem) k) Q) := by
  subst hp hsS hsR
  exact wp_send_copyV m c p' src dst js jr r ι hjs hjr hrs hrr hN hNs G q fs hpayS hpayR K O hO W hroute

theorem s2v_wait (c : Dev nD) (j r r' ι k n a : ℕ) (sW : DmaSem sig) (hsW : sW = dsem j) (hj : j < 40) (hr : r < nRounds j)
    (hr' : r' = r + 1) (hι : ι = k + 1) (ha : a = amtDma j r) (hk : k < n) (hn : n ≤ 38)
    (P : sProp 𝕄) (hP : payDmaV m c j r = P) (K : GSem nD τ sig → ℕ) (W : Waits sig ℕ)
    {sp sp' : Space} {s s' : Shape} {e e' : EltTy}
    {src : Memref sig .tc sp' s' e'} {κ' : Kind} {dst : Memref sig κ' sp s e} {hsrc : src.view.WordExact} {hdst : dst.view.WordExact}
    (hN : dst.view.dmaCredit = amtDma j r)
    {α : Type} {Q : α → sProp 𝕄} {kk : PUnit → Prog (TpuEff nD τ sig (Elt Ideal) Λ₀ .tc) α} :
    iprop(invsAllV m K ∗ levAts L lv ∗ cred (tallyAt (dcell c (dsem j)) ι a) ∗ owes (c : Thread nD τ) (owedFrom c n) W
        ∗ atPos ER (dcell c (dsem j)) r ∅ 0)
      ⊢ iprop(((owes (c : Thread nD τ) (owedFrom c n) (insert (.dma (dsem j), ι) W) ∗ atPos ER (dcell c (dsem j)) r' ∅ 0
              ∗ reached ER (dcell c (dsem j)) r' ∗ P)
            -∗ wp frame (wpE (defs₀ (F := Ideal)) Variants.none (c : Thread nD τ) none) Set.univ (kk ⟨⟩) Q)
          -∗ wp frame (wpE (defs₀ (F := Ideal)) Variants.none (c : Thread nD τ) none) Set.univ
              (.op (.waitDma2 sW src dst hsrc hdst) kk) Q) := by
  subst hsW hr' hι ha hP
  iintro ⟨#HI, #Hlev, Hc, HO, Hat⟩
  iapply (wp_wait_copyV m c j r (k + 1) hj hr K (owedFrom c n) W (hw_waitDma2 (F := Ideal) c j r hN)) $$ [Hc HO Hat]
  isplitr
  · iexact HI
  isplitl [Hc]
  · iexact Hc
  isplitl [HO]
  · iexact HO
  isplitr
  · iapply (mayWait_copy (F := Ideal) c (dsem j) k n hk hn)
    iexact Hlev
  iexact Hat

theorem s2v_held0 (c : Dev nD) (b : Ref sig .tc) (P : Buf (Elt Ideal) ((Memref.whole b).view.loc (c : Thread nD τ)) → Prop)
    (f : Buf (Elt Ideal) ((Memref.whole b).view.loc (c : Thread nD τ))) (h : P f) : ptw (F := Ideal) c b f ⊢ heldButV c b ∅ P := by
  unfold heldButV
  rw [Finset.sdiff_empty]
  iintro H
  iexists f
  isplitl [H]
  · iexact H
  · ipureintro; exact h

set_option maxHeartbeats 4000000 in
theorem seg2_okV (c : Dev nD) (v2 v11 v131 v134 v185 v187 : BitVec 32) :
    (iprop(∃ K, QE1V m K c 4 0 0) : sProp 𝕄)
      ⊢ wp frame (wpE (defs₀ (F := Ideal)) Variants.none (c : Thread nD τ) none) Set.univ
          (seg2 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v131 v134 v185 v187)
          (fun _ => iprop(∃ K, QE2V m K c 6 0 0)) := by
  have hroute4 : τ.routes (c : Thread nD τ) (xr 4 c : Thread nD τ) = true := by revert c; decide +kernel
  have hroute1 : τ.routes (c : Thread nD τ) (xr 1 c : Thread nD τ) = true := by revert c; decide +kernel
  have ar0 := s2v_arith0 c
  have ar1 := s2v_arith1 c
  have i13 : k0_off13 c 0 + 256 ≤ 1024 := k0_off13_inb c 0
  refine exists_elim fun K => ?_
  unfold QE1V QV localBufsV
  rw [posAt_4, toks_seg_4, creds_seg_4, grant_eq, grant_eq, s2_agR_02, s2_agR_12]
  unfold seg2
  rw [k0_part7_eq_skeleton, k0_part8_eq_skeleton, k0_part9_eq_skeleton]
  unfold k0_part7_skel k0_part8_skel k0_part9_skel
  simp only [Prog.lift, Prog.bind_op, Prog.bind_ret, Prog.pure_eq_ret, Prog.bind_assoc]
  iintro ⟨#HI, #HR, #Hlev, HatB, ⟨Ha8, #Hr8, Ha9, #Hr9, Ha10, #Hr10, Ha11, #Hr11, Ha12, #Hr12, Ha13, #Hr13, Ha14, #Hr14, Ha15, #Hr15, Ha16, #Hr16, Ha17, #Hr17, Ha18, #Hr18, Ha19, #Hr19, Ha20, #Hr20, Ha21, #Hr21, Ha22, #Hr22, Ha23, #Hr23, Ha24, #Hr24, Ha25, #Hr25, Ha26, #Hr26, Ha27, #Hr27, Ha28, #Hr28, Ha29, #Hr29, Ha30, #Hr30, Ha31, #Hr31, Ha32, #Hr32, Ha33, #Hr33, Ha34, #Hr34, Ha35, #Hr35, Ha36, #Hr36, Ha37, #Hr37, Ha38, #Hr38, Ha39, #Hr39⟩, ⟨⟨Ht10, Ht13⟩, ⟨Ht16, Ht19⟩, Htoks⟩, ⟨Hc13, Hc19, Hcreds⟩, ⟨%W, HO⟩, ⟨Hl0, Hl1, Hl2, Hl3, Hl4, Hl5, Hl6, Hl7, HS2, HS3, HS4, HS5, HS8, HS9⟩, Hs0, Hs1, Hs6, Hs7, ⟨Hd4, #Hrp4⟩, ⟨Hd5, #Hrp5⟩, Hg3⟩
  -- the buffers the segment reads or writes, with what is known of their contents
  ihave Hx := (s2v_bufV_open c cc0_scratch2 _) $$ HS2
  icases Hx with ⟨%a2, HS2, %ha2⟩
  ihave Hx := (s2v_bufV_open c cc0_scratch3 _) $$ HS3
  icases Hx with ⟨%a3, HS3, %ha3⟩
  ihave Hx := (s2v_bufV_open c cc0_scratch8 _) $$ HS8
  icases Hx with ⟨%a8, HS8, %ha8⟩
  ihave Hx := (s2v_bufV_open c cc0_scratch9 _) $$ HS9
  icases Hx with ⟨%a9, HS9, %ha9⟩
  ihave Hx := (s2v_held_open c cc0_scratch0 _ _) $$ Hs0
  icases Hx with ⟨%f0, Hs0, %hf0⟩
  ihave Hx := (s2v_held_open c cc0_scratch1 _ _) $$ Hs1
  icases Hx with ⟨%f1, Hs1, %hf1⟩
  ihave Hs6 := (s2v_held_forget c cc0_scratch6 _ _) $$ Hs6
  ihave Hs7 := (s2v_held_forget c cc0_scratch7 _ _) $$ Hs7
  -- the own four row blocks of each gather buffer: the left half of their share goes with the copy
  ihave Hx := (s2v_open0 c f0) $$ Hs0
  icases Hx with ⟨HsL0, HsR0, Hs0⟩
  ihave Hx := (s2v_open1 c f1) $$ Hs1
  icases Hx with ⟨HsL1, HsR1, Hs1⟩
  -- the own receive slots of the half-block reduce steps, handed to the partners with the copies
  ihave Hx := (s2_take6 (F := Ideal) c) $$ Hs6
  icases Hx with ⟨HR00, HR10, Hs6⟩
  ihave Hx := (s2_take7 (F := Ideal) c) $$ Hs7
  icases Hx with ⟨HR01, HR11, Hs7⟩
  -- the third exchange of the first stream, to the partner across 4: the landing holds the activations' rows
  iapply (s2v_send m c (xr 4 c) _ (dev8_eq c) (VE2 0 c) (VE2 0 c) 10 13 0 5 _ _ sem_ag0s_2 sem_ag0r_2
      (by decide) (by decide) (by decide) (by decide) ((credit_VE2 0 c).trans rfl) rfl
      (iprop((ownAt c (R0 0) ∗ reached ER (dcell c (dsem 25)) 0) ∗ (ownAt c (R1 0) ∗ reached ER (dcell c (dsem 29)) 0)))
      fullShare.left f0 (by rw [s2v_pay10]; exact ownHalf_of c (VE2 0 c) f0) (s2v_payR13 m c 0 f0 hf0) K (owedFrom c 5)
      (owedFrom_succ c 4 (4, 13, 0) rfl) W hroute4) $$ [HsL0 Hd4 HR00 HR10 HO Ht10 Ht13]
  · iframe ∗ #
  iintro ⟨Hcs4, HO⟩
  -- of the second stream, to the partner across 1
  iapply (s2v_send m c (xr 1 c) _ (dev9_eq c) (VE2 1 c) (VE2 1 c) 16 19 0 6 _ _ sem_ag1s_2 sem_ag1r_2
      (by decide) (by decide) (by decide) (by decide) ((credit_VE2 1 c).trans rfl) rfl
      (iprop((ownAt c (R0 1) ∗ reached ER (dcell c (dsem 35)) 0) ∗ (ownAt c (R1 1) ∗ reached ER (dcell c (dsem 39)) 0)))
      fullShare.left f1 (by rw [s2v_pay16]; exact ownHalf_of c (VE2 1 c) f1) (s2v_payR19 m c 0 f1 hf1) K (owedFrom c 6)
      (owedFrom_succ c 5 (1, 19, 0) rfl) W hroute1) $$ [HsL1 Hd5 HR01 HR11 HO Ht16 Ht19]
  · iframe ∗ #
  iintro ⟨Hcs5, HO⟩
  -- the first stream's other pair of own blocks, read through the half that stayed
  iapply (wp_load Variants.none (c : Thread nD τ) none Set.univ (s2_load_ok cc0_scratch0 _ _ (s2_sub0 c))) $$ [HsR0]
  · iexact HsR0
  iintro HsR0
  sl_exec
  -- the accumulator now holds the partial product on the own four blocks
  ihave Hx := (s2v_name c cc0_scratch2 _) $$ HS2
  icases Hx with ⟨%g2, HS2, %hg2⟩
  have hq2 : rowsAre2 c (Pt m 0 0 c) (quadRow 0 c) 512 g2 := by
    rw [hg2]
    refine s2v_acc2 c (Pt m 0 0 c) a2 (pairRow 0 c) ha2 (k0_off11 c) (k0_off11_inb c) (off11_col c) _ (fun y => ?_) (quadRow 0 c) ?_
    · dsimp only
      rw [k0_pay10_apply, k0_pay9_eq]
      exact s2v_mm m 0 c (A m 0 0) (k0_off11 c) (k0_off11_inb c) _ _ _
        (load_rows0 c (A m 0 0) (quadRow 0 c) 512 f0 hf0 (k0_off11 c) S256x256.size (k0_off11_inb c) (off11_col c)
          (by show k0_off9 c 0 ≤ k0_off11 c 0; omega) (by show k0_off11 c 0 + 256 ≤ k0_off9 c 0 + 512; omega))
        (fun e k => (s2v_full8 c a8 e k).trans (ha8 e k)) (fun k col => (s2v_full9 c a9 k col).trans (ha9 k col)) y
    · rw [s2v_pairRow0, s2v_quadRow0]; omega
  -- the second stream's
  iapply (wp_load Variants.none (c : Thread nD τ) none Set.univ (s2_load_ok cc0_scratch1 _ _ (s2_sub1 c))) $$ [HsR1]
  · iexact HsR1
  iintro HsR1
  sl_exec
  ihave Hx := (s2v_name c cc0_scratch3 _) $$ HS3
  icases Hx with ⟨%g3, HS3, %hg3⟩
  have hq3 : rowsAre3 c (Pt m 0 1 c) (quadRow 1 c) 512 g3 := by
    rw [hg3]
    refine s2v_acc3 c (Pt m 0 1 c) a3 (pairRow 1 c) ha3 (k0_off12 c) (k0_off12_inb c) (off12_col c) _ (fun y => ?_) (quadRow 1 c) ?_
    · rw [k0_pay11_eq]
      exact s2v_mm m 0 c (A m 0 1) (k0_off12 c) (k0_off12_inb c) _ _ _
        (load_rows1 c (A m 0 1) (quadRow 1 c) 512 f1 hf1 (k0_off12 c) S256x256.size (k0_off12_inb c) (off12_col c)
          (by show k0_off10 c 0 ≤ k0_off12 c 0; omega) (by show k0_off12 c 0 + 256 ≤ k0_off10 c 0 + 512; omega))
        (fun e k => (s2v_full8 c a8 e k).trans (ha8 e k)) (fun k col => (s2v_full9 c a9 k col).trans (ha9 k col)) y
    · rw [s2v_pairRow1, s2v_quadRow1]; omega
  -- the first stream's copy: its source's borrowed half comes back, then the partner's four blocks have landed
  iapply (s2v_wait m c 10 0 1 5 4 6 (amtDma 13 0) _ sem_ag0s_2 (by decide) (by decide) rfl rfl rfl
      (by decide) (by decide) (ownHalf c (VE2 0 c)) (s2v_pay10 m c 0) K _ ((credit_VE2 0 c).trans rfl)) $$ [Hcs4 HO Ha10]
  · iframe ∗ #
  iintro ⟨HO, Ha10, #Hr10', Hh0⟩
  iapply (s2v_wait m c 13 0 1 5 4 6 (amtDma 13 0) _ sem_ag0r_2 (by decide) (by decide) rfl rfl rfl
      (by decide) (by decide) _ (s2v_pay13 m c 0) K _ ((credit_VE2 0 c).trans rfl)) $$ [Hc13 HO Ha13]
  · iframe ∗ #
  iintro ⟨HO, Ha13, #Hr13', Hland0, Hg00, Hg10⟩
  -- the second stream's
  iapply (s2v_wait m c 16 0 1 6 5 6 (amtDma 19 0) _ sem_ag1s_2 (by decide) (by decide) rfl rfl rfl
      (by decide) (by decide) (ownHalf c (VE2 1 c)) (s2v_pay16 m c 0) K _ ((credit_VE2 1 c).trans rfl)) $$ [Hcs5 HO Ha16]
  · iframe ∗ #
  iintro ⟨HO, Ha16, #Hr16', Hh1⟩
  iapply (s2v_wait m c 19 0 1 6 5 6 (amtDma 19 0) _ sem_ag1r_2 (by decide) (by decide) rfl rfl rfl
      (by decide) (by decide) _ (s2v_pay19 m c 0) K _ ((credit_VE2 1 c).trans rfl)) $$ [Hc19 HO Ha19]
  · iframe ∗ #
  iintro ⟨HO, Ha19, #Hr19', Hland1, Hg01, Hg11⟩
  -- both gather buffers are whole again and hold the activations on every row
  ihave Hx := (s2v_close0 c (A m 0 0) f0 hf0) $$ [Hh0 HsR0 Hs0 Hland0]
  · iframe ∗ #
  icases Hx with ⟨%h0, Hs0, %hh0⟩
  ihave Hx := (s2v_close1 c (A m 0 1) f1 hf1) $$ [Hh1 HsR1 Hs1 Hland1]
  · iframe ∗ #
  icases Hx with ⟨%h1, Hs1, %hh1⟩
  sl_exec
  -- the first stream went on with a pair of the partner's blocks: the partial product there too
  ihave Hx := (s2v_name c cc0_scratch2 _) $$ HS2
  icases Hx with ⟨%g2', HS2, %hg2'⟩
  have hP2 : rowsAre2 c (Pt m 0 0 c) (quadRow 0 c) 512 g2' ∧ rowsAre2 c (Pt m 0 0 c) (k0_off13 c 0) 256 g2' := by
    rw [hg2']
    constructor
    · exact store_keep2 c (Pt m 0 0 c) (quadRow 0 c) 512 g2 hq2 (k0_off13 c) S256x256.size (k0_off13_inb c) (off13_col c) rfl _
        (by show k0_off9 c 0 + 512 ≤ k0_off13 c 0 ∨ k0_off13 c 0 + 256 ≤ k0_off9 c 0; omega)
    · refine store_new2 c (Pt m 0 0 c) g2 (k0_off13 c) S256x256.size (k0_off13_inb c) (off13_col c) rfl _ (fun y => ?_)
      rw [k0_pay12_eq]
      exact s2v_mm m 0 c (A m 0 0) (k0_off13 c) (k0_off13_inb c) _ _ _
        (load_rows0 c (A m 0 0) 0 1024 h0 hh0 (k0_off13 c) S256x256.size (k0_off13_inb c) (off13_col c)
          (Nat.zero_le _) (by show k0_off13 c 0 + 256 ≤ 0 + 1024; omega))
        (fun e k => (s2v_full8 c a8 e k).trans (ha8 e k)) (fun k col => (s2v_full9 c a9 k col).trans (ha9 k col)) y
  -- the quiet state after the exchange
  rw [wp_ret]; imodintro
  iexists K
  unfold QE2V QV localBufsV
  rw [posAt_6]
  ihave HS2 := (s2v_bufV_intro c cc0_scratch2 (fun f => rowsAre2 c (Pt m 0 0 c) (quadRow 0 c) 512 f ∧ rowsAre2 c (Pt m 0 0 c) (k0_off13 c 0) 256 f) _ hP2) $$ HS2
  ihave HS3 := (s2v_bufV_intro c cc0_scratch3 (rowsAre3 c (Pt m 0 1 c) (quadRow 1 c) 512) _ hq3) $$ HS3
  ihave HS8 := (s2v_bufV_intro c cc0_scratch8 (winIs m c 0) _ ha8) $$ HS8
  ihave HS9 := (s2v_bufV_intro c cc0_scratch9 (woutIs m c 0) _ ha9) $$ HS9
  ihave Hs0 := (s2v_held0 c cc0_scratch0 (rowsAre0 c (A m 0 0) 0 1024) _ hh0) $$ Hs0
  ihave Hs1 := (s2v_held0 c cc0_scratch1 (rowsAre1 c (A m 0 1) 0 1024) _ hh1) $$ Hs1
  ihave Hs6 := (s2v_held_true c cc0_scratch6 _) $$ Hs6
  ihave Hs7 := (s2v_held_true c cc0_scratch7 _) $$ Hs7
  ihave HO := (s2_someW (F := Ideal) c 6 _) $$ HO
  iframe ∗ #

/-- info: 'Cert.KernelIdeal.Val.seg2_okV' depends on axioms: [propext, Classical.choice, Quot.sound] -/
#guard_msgs in #print axioms seg2_okV

set_option maxHeartbeats 4000000 in
theorem seg11_okV (c : Dev nD) (v2 v11 v1225 v1228 v1279 : BitVec 32) :
    (iprop(∃ K, QE1V m K c 28 2 2) : sProp 𝕄)
      ⊢ wp frame (wpE (defs₀ (F := Ideal)) Variants.none (c : Thread nD τ) none) Set.univ
          (seg11 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v1225 v1228 v1279)
          (fun r => iprop(⌜hidIs m c (A m 2 1) (k0_off14 c 0) 2 r.2.2.1 ∧ (∀ (k : Fin 512) (col : Fin 256), r.2.2.2.1 (ValueIdx.ix2 k col) = woutOf m 2 c k col) ∧ (∀ i, r.2.2.2.2 i = 0)⌝ ∗ ∃ K, QE2V m K c 30 2 2)) := by
  have hroute4 : τ.routes (c : Thread nD τ) (xr 4 c : Thread nD τ) = true := by revert c; decide +kernel
  have hroute1 : τ.routes (c : Thread nD τ) (xr 1 c : Thread nD τ) = true := by revert c; decide +kernel
  have ar0 := s2v_arith0 c
  have ar1 := s2v_arith1 c
  have i13 : k0_off13 c 0 + 256 ≤ 1024 := k0_off13_inb c 0
  refine exists_elim fun K => ?_
  unfold QE1V QV localBufsV
  rw [posAt_28, toks_seg_28, creds_seg_28, grant_eq, grant_eq, s2_agR_02, s2_agR_12]
  unfold seg11
  rw [k0_part42_eq_skeleton, k0_part43_eq_skeleton, k0_part44_eq_skeleton]
  unfold k0_part42_skel k0_part43_skel k0_part44_skel
  simp only [Prog.lift, Prog.bind_op, Prog.bind_ret, Prog.pure_eq_ret, Prog.bind_assoc]
  iintro ⟨#HI, #HR, #Hlev, HatB, ⟨Ha8, #Hr8, Ha9, #Hr9, Ha10, #Hr10, Ha11, #Hr11, Ha12, #Hr12, Ha13, #Hr13, Ha14, #Hr14, Ha15, #Hr15, Ha16, #Hr16, Ha17, #Hr17, Ha18, #Hr18, Ha19, #Hr19, Ha20, #Hr20, Ha21, #Hr21, Ha22, #Hr22, Ha23, #Hr23, Ha24, #Hr24, Ha25, #Hr25, Ha26, #Hr26, Ha27, #Hr27, Ha28, #Hr28, Ha29, #Hr29, Ha30, #Hr30, Ha31, #Hr31, Ha32, #Hr32, Ha33, #Hr33, Ha34, #Hr34, Ha35, #Hr35, Ha36, #Hr36, Ha37, #Hr37, Ha38, #Hr38, Ha39, #Hr39⟩, ⟨⟨Ht10, Ht13⟩, ⟨Ht16, Ht19⟩, Htoks⟩, ⟨Hc13, Hc19, Hcreds⟩, ⟨%W, HO⟩, ⟨Hl0, Hl1, Hl2, Hl3, Hl4, Hl5, Hl6, Hl7, HS2, HS3, HS4, HS5, HS8, HS9⟩, Hs0, Hs1, Hs6, Hs7, ⟨Hd4, #Hrp4⟩, ⟨Hd5, #Hrp5⟩, Hg3⟩
  -- the buffers the segment reads or writes, with what is known of their contents
  ihave Hx := (s2v_bufV_open c cc0_scratch2 _) $$ HS2
  icases Hx with ⟨%a2, HS2, %ha2⟩
  ihave Hx := (s2v_bufV_open c cc0_scratch3 _) $$ HS3
  icases Hx with ⟨%a3, HS3, %ha3⟩
  ihave Hx := (s2v_bufV_open c cc0_scratch8 _) $$ HS8
  icases Hx with ⟨%a8, HS8, %ha8⟩
  ihave Hx := (s2v_bufV_open c cc0_scratch9 _) $$ HS9
  icases Hx with ⟨%a9, HS9, %ha9⟩
  ihave Hx := (s2v_held_open c cc0_scratch0 _ _) $$ Hs0
  icases Hx with ⟨%f0, Hs0, %hf0⟩
  ihave Hx := (s2v_held_open c cc0_scratch1 _ _) $$ Hs1
  icases Hx with ⟨%f1, Hs1, %hf1⟩
  ihave Hs6 := (s2v_held_forget c cc0_scratch6 _ _) $$ Hs6
  ihave Hs7 := (s2v_held_forget c cc0_scratch7 _ _) $$ Hs7
  -- the own four row blocks of each gather buffer: the left half of their share goes with the copy
  ihave Hx := (s2v_open0 c f0) $$ Hs0
  icases Hx with ⟨HsL0, HsR0, Hs0⟩
  ihave Hx := (s2v_open1 c f1) $$ Hs1
  icases Hx with ⟨HsL1, HsR1, Hs1⟩
  -- the own receive slots of the half-block reduce steps, handed to the partners with the copies
  ihave Hx := (s2_take6 (F := Ideal) c) $$ Hs6
  icases Hx with ⟨HR00, HR10, Hs6⟩
  ihave Hx := (s2_take7 (F := Ideal) c) $$ Hs7
  icases Hx with ⟨HR01, HR11, Hs7⟩
  -- the third exchange of the first stream, to the partner across 4: the landing holds the activations' rows
  iapply (s2v_send m c (xr 4 c) _ (dev32_eq c) (VE2 0 c) (VE2 0 c) 10 13 2 29 _ _ sem_ag0s_2 sem_ag0r_2
      (by decide) (by decide) (by decide) (by decide) ((credit_VE2 0 c).trans rfl) rfl
      (iprop((ownAt c (R0 0) ∗ reached ER (dcell c (dsem 25)) 2) ∗ (ownAt c (R1 0) ∗ reached ER (dcell c (dsem 29)) 2)))
      fullShare.left f0 (by rw [s2v_pay10]; exact ownHalf_of c (VE2 0 c) f0) (s2v_payR13 m c 2 f0 hf0) K (owedFrom c 29)
      (owedFrom_succ c 28 (4, 13, 2) rfl) W hroute4) $$ [HsL0 Hd4 HR00 HR10 HO Ht10 Ht13]
  · iframe ∗ #
  iintro ⟨Hcs4, HO⟩
  -- of the second stream, to the partner across 1
  iapply (s2v_send m c (xr 1 c) _ (dev33_eq c) (VE2 1 c) (VE2 1 c) 16 19 2 30 _ _ sem_ag1s_2 sem_ag1r_2
      (by decide) (by decide) (by decide) (by decide) ((credit_VE2 1 c).trans rfl) rfl
      (iprop((ownAt c (R0 1) ∗ reached ER (dcell c (dsem 35)) 2) ∗ (ownAt c (R1 1) ∗ reached ER (dcell c (dsem 39)) 2)))
      fullShare.left f1 (by rw [s2v_pay16]; exact ownHalf_of c (VE2 1 c) f1) (s2v_payR19 m c 2 f1 hf1) K (owedFrom c 30)
      (owedFrom_succ c 29 (1, 19, 2) rfl) W hroute1) $$ [HsL1 Hd5 HR01 HR11 HO Ht16 Ht19]
  · iframe ∗ #
  iintro ⟨Hcs5, HO⟩
  -- the first stream's other pair of own blocks, read through the half that stayed
  iapply (wp_load Variants.none (c : Thread nD τ) none Set.univ (s2_load_ok cc0_scratch0 _ _ (s2_sub0 c))) $$ [HsR0]
  · iexact HsR0
  iintro HsR0
  sl_exec
  -- the accumulator now holds the partial product on the own four blocks
  ihave Hx := (s2v_name c cc0_scratch2 _) $$ HS2
  icases Hx with ⟨%g2, HS2, %hg2⟩
  have hq2 : rowsAre2 c (Pt m 2 0 c) (quadRow 0 c) 512 g2 := by
    rw [hg2]
    refine s2v_acc2 c (Pt m 2 0 c) a2 (pairRow 0 c) ha2 (k0_off11 c) (k0_off11_inb c) (off11_col c) _ (fun y => ?_) (quadRow 0 c) ?_
    · rw [k0_pay70_eq]
      exact s2v_mm m 2 c (A m 2 0) (k0_off11 c) (k0_off11_inb c) _ _ _
        (load_rows0 c (A m 2 0) (quadRow 0 c) 512 f0 hf0 (k0_off11 c) S256x256.size (k0_off11_inb c) (off11_col c)
          (by show k0_off9 c 0 ≤ k0_off11 c 0; omega) (by show k0_off11 c 0 + 256 ≤ k0_off9 c 0 + 512; omega))
        (fun e k => (s2v_full8 c a8 e k).trans (ha8 e k)) (fun k col => (s2v_full9 c a9 k col).trans (ha9 k col)) y
    · rw [s2v_pairRow0, s2v_quadRow0]; omega
  -- the second stream's
  iapply (wp_load Variants.none (c : Thread nD τ) none Set.univ (s2_load_ok cc0_scratch1 _ _ (s2_sub1 c))) $$ [HsR1]
  · iexact HsR1
  iintro HsR1
  sl_exec
  ihave Hx := (s2v_name c cc0_scratch3 _) $$ HS3
  icases Hx with ⟨%g3, HS3, %hg3⟩
  have hq3 : rowsAre3 c (Pt m 2 1 c) (quadRow 1 c) 512 g3 := by
    rw [hg3]
    refine s2v_acc3 c (Pt m 2 1 c) a3 (pairRow 1 c) ha3 (k0_off12 c) (k0_off12_inb c) (off12_col c) _ (fun y => ?_) (quadRow 1 c) ?_
    · rw [k0_pay71_eq]
      exact s2v_mm m 2 c (A m 2 1) (k0_off12 c) (k0_off12_inb c) _ _ _
        (load_rows1 c (A m 2 1) (quadRow 1 c) 512 f1 hf1 (k0_off12 c) S256x256.size (k0_off12_inb c) (off12_col c)
          (by show k0_off10 c 0 ≤ k0_off12 c 0; omega) (by show k0_off12 c 0 + 256 ≤ k0_off10 c 0 + 512; omega))
        (fun e k => (s2v_full8 c a8 e k).trans (ha8 e k)) (fun k col => (s2v_full9 c a9 k col).trans (ha9 k col)) y
    · rw [s2v_pairRow1, s2v_quadRow1]; omega
  -- the first stream's copy: its source's borrowed half comes back, then the partner's four blocks have landed
  iapply (s2v_wait m c 10 2 3 29 28 30 (amtDma 13 2) _ sem_ag0s_2 (by decide) (by decide) rfl rfl rfl
      (by decide) (by decide) (ownHalf c (VE2 0 c)) (s2v_pay10 m c 2) K _ ((credit_VE2 0 c).trans rfl)) $$ [Hcs4 HO Ha10]
  · iframe ∗ #
  iintro ⟨HO, Ha10, #Hr10', Hh0⟩
  iapply (s2v_wait m c 13 2 3 29 28 30 (amtDma 13 2) _ sem_ag0r_2 (by decide) (by decide) rfl rfl rfl
      (by decide) (by decide) _ (s2v_pay13 m c 2) K _ ((credit_VE2 0 c).trans rfl)) $$ [Hc13 HO Ha13]
  · iframe ∗ #
  iintro ⟨HO, Ha13, #Hr13', Hland0, Hg00, Hg10⟩
  -- the second stream's
  iapply (s2v_wait m c 16 2 3 30 29 30 (amtDma 19 2) _ sem_ag1s_2 (by decide) (by decide) rfl rfl rfl
      (by decide) (by decide) (ownHalf c (VE2 1 c)) (s2v_pay16 m c 2) K _ ((credit_VE2 1 c).trans rfl)) $$ [Hcs5 HO Ha16]
  · iframe ∗ #
  iintro ⟨HO, Ha16, #Hr16', Hh1⟩
  iapply (s2v_wait m c 19 2 3 30 29 30 (amtDma 19 2) _ sem_ag1r_2 (by decide) (by decide) rfl rfl rfl
      (by decide) (by decide) _ (s2v_pay19 m c 2) K _ ((credit_VE2 1 c).trans rfl)) $$ [Hc19 HO Ha19]
  · iframe ∗ #
  iintro ⟨HO, Ha19, #Hr19', Hland1, Hg01, Hg11⟩
  -- both gather buffers are whole again and hold the activations on every row
  ihave Hx := (s2v_close0 c (A m 2 0) f0 hf0) $$ [Hh0 HsR0 Hs0 Hland0]
  · iframe ∗ #
  icases Hx with ⟨%h0, Hs0, %hh0⟩
  ihave Hx := (s2v_close1 c (A m 2 1) f1 hf1) $$ [Hh1 HsR1 Hs1 Hland1]
  · iframe ∗ #
  icases Hx with ⟨%h1, Hs1, %hh1⟩
  sl_exec
  -- the first stream went on with a pair of the partner's blocks: the partial product there too
  ihave Hx := (s2v_name c cc0_scratch2 _) $$ HS2
  icases Hx with ⟨%g2', HS2, %hg2'⟩
  have hP2 : rowsAre2 c (Pt m 2 0 c) (quadRow 0 c) 512 g2' ∧ rowsAre2 c (Pt m 2 0 c) (k0_off13 c 0) 256 g2' := by
    rw [hg2']
    constructor
    · exact store_keep2 c (Pt m 2 0 c) (quadRow 0 c) 512 g2 hq2 (k0_off13 c) S256x256.size (k0_off13_inb c) (off13_col c) rfl _
        (by show k0_off9 c 0 + 512 ≤ k0_off13 c 0 ∨ k0_off13 c 0 + 256 ≤ k0_off9 c 0; omega)
    · refine store_new2 c (Pt m 2 0 c) g2 (k0_off13 c) S256x256.size (k0_off13_inb c) (off13_col c) rfl _ (fun y => ?_)
      rw [k0_pay72_eq]
      exact s2v_mm m 2 c (A m 2 0) (k0_off13 c) (k0_off13_inb c) _ _ _
        (load_rows0 c (A m 2 0) 0 1024 h0 hh0 (k0_off13 c) S256x256.size (k0_off13_inb c) (off13_col c)
          (Nat.zero_le _) (by show k0_off13 c 0 + 256 ≤ 0 + 1024; omega))
        (fun e k => (s2v_full8 c a8 e k).trans (ha8 e k)) (fun k col => (s2v_full9 c a9 k col).trans (ha9 k col)) y
  -- the quiet state after the exchange
  rw [wp_ret]; imodintro
  isplitr
  · ipureintro
    have i14 : k0_off14 c 0 + 256 ≤ 1024 := k0_off14_inb c 0
    refine ⟨fun r' k => ?_, fun k col => (s2v_full9 c a9 k col).trans (ha9 k col), fun i => ?_⟩
    · show k0_pay73 _ _ (ValueIdx.ix2 r' k) = _
      rw [k0_pay73_eq, hid_apply]
      refine congrArg (fun t => max t 0) (Finset.sum_congr rfl fun e _ => ?_)
      exact congrArg₂ (fun a b => a * b)
        (congrFun (load_rows1 c (A m 2 1) 0 1024 h1 hh1 (k0_off14 c) S256x256.size (k0_off14_inb c) (off14_col c)
          (Nat.zero_le _) (by show k0_off14 c 0 + 256 ≤ 0 + 1024; omega)) (ValueIdx.ix2 r' e))
        ((s2v_full8 c a8 e k).trans (ha8 e k))
    · show Ideal.ofBits .f32 0x00000000#32 = 0
      exact Ideal.ofBits_zero_f32
  iexists K
  unfold QE2V QV localBufsV
  rw [posAt_30]
  ihave HS2 := (s2v_bufV_intro c cc0_scratch2 (fun f => rowsAre2 c (Pt m 2 0 c) (quadRow 0 c) 512 f ∧ rowsAre2 c (Pt m 2 0 c) (k0_off13 c 0) 256 f) _ hP2) $$ HS2
  ihave HS3 := (s2v_bufV_intro c cc0_scratch3 (rowsAre3 c (Pt m 2 1 c) (quadRow 1 c) 512) _ hq3) $$ HS3
  ihave HS8 := (s2v_bufV_intro c cc0_scratch8 (winIs m c 2) _ ha8) $$ HS8
  ihave HS9 := (s2v_bufV_intro c cc0_scratch9 (woutIs m c 2) _ ha9) $$ HS9
  ihave Hs0 := (s2v_held0 c cc0_scratch0 (rowsAre0 c (A m 2 0) 0 1024) _ hh0) $$ Hs0
  ihave Hs1 := (s2v_held0 c cc0_scratch1 (rowsAre1 c (A m 2 1) 0 1024) _ hh1) $$ Hs1
  ihave Hs6 := (s2v_held_true c cc0_scratch6 _) $$ Hs6
  ihave Hs7 := (s2v_held_true c cc0_scratch7 _) $$ Hs7
  ihave HO := (s2_someW (F := Ideal) c 30 _) $$ HO
  iframe ∗ #

/-- info: 'Cert.KernelIdeal.Val.seg11_okV' depends on axioms: [propext, Classical.choice, Quot.sound] -/
#guard_msgs in #print axioms seg11_okV

end Cert.KernelIdeal.Val

end
-- ==== Proof.KernelIdeal.SegV8.lean ====
/- The third reduce step of layer 1 with contents (segment 8): the protocol steps of the ownership proof of the same
   segment, each buffer now carried at named contents. -/
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StepsV
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.QuietLemmas

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

local notation "𝕄" => MT nD τ sig ℕ (Elt Ideal) ℕ UU ℕ

variable (m : Mem)

/-! # The third reduce step of layer 1, with contents

   The second stream's two-device sum on the other pair of blocks arrives as a vector (the step before computed it and
   did not store it): it is stored first. Then the device sends the partner `c xor 3` its two-device sum `S1` of the
   first stream on the rows of that partner's pair of blocks, and the partner `c xor 4` the same of the second stream.
   What lands from each partner is that partner's `S1` on the device's own pair: added to the accumulators it is `S2`,
   the sum over four devices. The first stream's `S2` is then put into the first half of the first send buffer, the
   source of the next step. -/

/-! ## Index facts -/

theorem routes3V8 : ∀ c : Dev nD, τ.routes (c : Thread nD τ) (xr 3 c : Thread nD τ) = true := by decide
theorem routes4V8 : ∀ c : Dev nD, τ.routes (c : Thread nD τ) (xr 4 c : Thread nD τ) = true := by decide

/-- The partner's pair of blocks is the other pair of the device's four. -/
theorem pairRow0_xr3_8 : ∀ c : Dev nD, pairRow 0 (xr 3 c) = pair2Row 0 c := by decide +kernel
theorem pairRow1_xr4_8 : ∀ c : Dev nD, pairRow 1 (xr 4 c) = pair2Row 1 c := by decide +kernel

/-- Both pairs lie in the four blocks, and they do not meet. -/
theorem off7_in_quad8 : ∀ c : Dev nD, k0_off9 c 0 ≤ k0_off7 c 0 ∧ k0_off7 c 0 + 256 ≤ k0_off9 c 0 + 512 := by decide +kernel
theorem off11_in_quad8 : ∀ c : Dev nD, k0_off9 c 0 ≤ k0_off11 c 0 ∧ k0_off11 c 0 + 256 ≤ k0_off9 c 0 + 512 := by decide +kernel
theorem off8_off12_disj : ∀ c : Dev nD, k0_off8 c 0 + 256 ≤ k0_off12 c 0 ∨ k0_off12 c 0 + 256 ≤ k0_off8 c 0 := by decide +kernel

/-- The four-device sum is the device's two-device sum plus that of its second reduce partner, in each stream. -/
theorem sum_S2_s0 (c : Dev nD) (i j : ℕ) (hi : i < 1024) (hj : j < 256) :
    nat2 (S1 m 1 0 c) i j + nat2 (S1 m 1 0 (xr 3 c)) i j = nat2 (S2 m 1 0 c) i j := by
  rw [nat2_eq _ _ _ hi hj, nat2_eq _ _ _ hi hj, nat2_eq _ _ _ hi hj]
  rfl
theorem sum_S2_s1 (c : Dev nD) (i j : ℕ) (hi : i < 1024) (hj : j < 256) :
    nat2 (S1 m 1 1 c) i j + nat2 (S1 m 1 1 (xr 4 c)) i j = nat2 (S2 m 1 1 c) i j := by
  rw [nat2_eq _ _ _ hi hj, nat2_eq _ _ _ hi hj, nat2_eq _ _ _ hi hj]
  rfl

/-- A vector that is `G`'s rows `b ..`, stored into the first half of the first send buffer: that half holds them. -/
theorem snd_store (c : Dev nD) (G : Fin 1024 → Fin 256 → EReal) (b : ℕ)
    (f : Buf (Elt Ideal) ((Memref.whole cc0_scratch4).view.loc (c : Thread nD τ))) (w : S256x256.Idx → EReal)
    (hw : ∀ y, w y = nat2 G (b + (y 0).val) (y 1).val) :
    sndIs c G b 256 (((Memref.whole cc0_scratch4).view.slice (Rect.unit (s := S512x256) ![0, 0] S256x256.size inb_S512x256_S256x256_0_0)).write (Elt Ideal) f w Finset.univ) := by
  intro t col ht
  let y : S256x256.Idx := ValueIdx.ix2 (⟨t.val, ht⟩ : Fin 256) col
  have e : ((Memref.whole cc0_scratch4).view.slice (Rect.unit (s := S512x256) ![0, 0] S256x256.size inb_S512x256_S256x256_0_0)).emb y = ValueIdx.ix2 t col := by
    funext a
    apply Fin.ext
    match a with
    | ⟨0, _⟩ => show 0 + 1 * t.val = t.val; omega
    | ⟨1, _⟩ => show 0 + 1 * col.val = col.val; omega
  rw [← e]
  exact (View.write_emb_of_mem (v := (Memref.whole cc0_scratch4).view.slice (Rect.unit (s := S512x256) ![0, 0] S256x256.size inb_S512x256_S256x256_0_0)) (Val := Elt Ideal) f w (Finset.mem_univ y)).trans (hw y)

/-! ## What the two copies land -/

/-- Copy 22 lands the device's `S1` of the first stream on the partner's pair of blocks. -/
theorem land26_1 (c : Dev nD) (t4 : Buf (Elt Ideal) ((Memref.whole cc0_scratch4).view.loc (c : Thread nD τ)))
    (ht4 : (SA 0).view.read (Elt Ideal) t4 = rows256 (S1 m 1 0 c) (pair2Row 0 c))
    (fd : Buf (Elt Ideal) ((R2 0).view.loc ((xr 3 c : Dev nD) : Thread nD τ))) :
    iprop(((R2 0).view.loc ((xr 3 c : Dev nD) : Thread nD τ) ↦[(R2 0).view.set]{fullShare}
          ((R2 0).view.write (Elt Ideal) fd ((SA 0).view.read (Elt Ideal) t4) Finset.univ)) ∗ grantLast (F := Ideal) c 1 1)
      ⊢ payDmaV m (xr 3 c) 26 1 := by
  rw [show payDmaV m (xr 3 c) 26 1 = iprop(owns ((xr 3 c : Dev nD) : Thread nD τ) (R2 0) fullShare (rows256 (S1 m 1 0 (xr 3 (xr 3 c))) (pairRow 0 (xr 3 c))) ∗ grantLast (F := Ideal) (xr 3 (xr 3 c)) 1 1) from rfl,
    xr_xr, pairRow0_xr3_8]
  refine sep_mono_left ?_
  unfold owns
  iintro H
  iexists ((R2 0).view.write (Elt Ideal) fd ((SA 0).view.read (Elt Ideal) t4) Finset.univ)
  isplitr
  · ipureintro
    exact (View.read_write_univ _ _).trans ht4
  · iexact H

/-- Copy 23 lands the device's `S1` of the second stream on the partner's pair of blocks. -/
theorem land36_1 (c : Dev nD) (t5 : Buf (Elt Ideal) ((Memref.whole cc0_scratch5).view.loc (c : Thread nD τ)))
    (ht5 : (SA 1).view.read (Elt Ideal) t5 = rows256 (S1 m 1 1 c) (pair2Row 1 c))
    (fd : Buf (Elt Ideal) ((R2 1).view.loc ((xr 4 c : Dev nD) : Thread nD τ))) :
    iprop(((R2 1).view.loc ((xr 4 c : Dev nD) : Thread nD τ) ↦[(R2 1).view.set]{fullShare}
          ((R2 1).view.write (Elt Ideal) fd ((SA 1).view.read (Elt Ideal) t5) Finset.univ)) ∗ grant (F := Ideal) c (VE1 1 (xr 4 c)) (agR 1 1) 2)
      ⊢ payDmaV m (xr 4 c) 36 1 := by
  rw [show payDmaV m (xr 4 c) 36 1 = iprop(owns ((xr 4 c : Dev nD) : Thread nD τ) (R2 1) fullShare (rows256 (S1 m 1 1 (xr 4 (xr 4 c))) (pairRow 1 (xr 4 c))) ∗ grant (F := Ideal) (xr 4 (xr 4 c)) (VE1 1 (xr 4 c)) (agR 1 1) 2) from rfl,
    xr_xr, pairRow1_xr4_8]
  refine sep_mono_left ?_
  unfold owns
  iintro H
  iexists ((R2 1).view.write (Elt Ideal) fd ((SA 1).view.read (Elt Ideal) t5) Finset.univ)
  isplitr
  · ipureintro
    exact (View.read_write_univ _ _).trans ht5
  · iexact H

/-! ## Rearranging what is held of a receive buffer -/

theorem held_swap8 {ℓ : Loc nD τ sig} (A B : Finset (Idx ℓ)) (f : Buf (Elt Ideal) ℓ) :
    (ℓ ↦[Finset.univ \ (B ∪ A)]{fullShare} f : sProp 𝕄) ⊢ (ℓ ↦[(Finset.univ \ A) \ B]{fullShare} f) := by
  rw [Finset.union_comm, univ_sdiff_union]
theorem rest_swap8 {ℓ : Loc nD τ sig} (A B : Finset (Idx ℓ)) (f : Buf (Elt Ideal) ℓ) :
    (ℓ ↦[(Finset.univ \ A) \ B]{fullShare} f : sProp 𝕄) ⊢ (ℓ ↦[(Finset.univ \ B) \ A]{fullShare} f) := by
  rw [sdiff_right_comm]

/-! ## The states before and after -/

/-- Before: the first accumulator holds the two-device sums on the device's four blocks, the second on its own pair
    (the other pair's arrive as a vector). -/
def Q8pre (K : GSem nD τ sig → ℕ) (c : Dev nD) : sProp 𝕄 :=
  QV m K c 22 2 (fun _ => True) (fun _ => True) (fun _ => True)
    (rowsAre2 c (S1 m 1 0 c) (quadRow 0 c) 512) (rowsAre3 c (S1 m 1 1 c) (pairRow 1 c) 256)
    (fun _ => True) (fun _ => True) (fun _ => True) (fun _ => True)
    ∅ ∅ ((R2 0).view.set ∪ (R4 0).view.set) (R2 1).view.set
    iprop(grant (xr 3 c) (R2 0) (rsR 0 1) 1 ∗ grant (xr 4 c) (R2 1) (rsR 1 1) 1 ∗ grantLast (xr 1 c) 0 1)

/-- After: both accumulators hold the four-device sums on the device's pair; the first half of the first send buffer
    holds the first stream's. -/
def Q8post (K : GSem nD τ sig → ℕ) (c : Dev nD) : sProp 𝕄 :=
  QV m K c 24 2 (fun _ => True) (fun _ => True) (fun _ => True)
    (rowsAre2 c (S2 m 1 0 c) (pairRow 0 c) 256) (rowsAre3 c (S2 m 1 1 c) (pairRow 1 c) 256)
    (sndIs c (S2 m 1 0 c) (pairRow 0 c) 256) (fun _ => True) (fun _ => True) (fun _ => True)
    ∅ (VE1 1 (xr 4 c)).view.set (R4 0).view.set (R4 1).view.set
    iprop(grantLast (xr 1 c) 0 1 ∗ grantLast (xr 3 c) 1 1 ∗ grant (xr 4 c) (VE1 1 c) (agR 1 1) 2)

/-! ## The segment -/

set_option maxHeartbeats 4000000 in
/-- The third reduce step of layer 1, with contents. -/
theorem seg8_okV (c : Dev nD) (v2 v678 v681 : BitVec 32) (v1041 : FVec Ideal S256x256 .f32)
    (hv : ∀ y : S256x256.Idx, v1041 y = nat2 (S1 m 1 1 c) (pair2Row 1 c + (y 0).val) (y 1).val) :
    (iprop(∃ K, Q8pre m K c) : sProp 𝕄)
      ⊢ wp frame (wpE (defs₀ (F := Ideal)) Variants.none (c : Thread nD τ) none) Set.univ
          (seg8 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v1041)
          (fun _ => iprop(∃ K, Q8post m K c)) := by
  refine exists_elim fun K => ?_
  unfold Q8pre QV localBufsV bufV heldButV
  rw [posAt_22, toks_seg_22, creds_seg_22, Finset.sdiff_empty, grantLast_1]
  unfold grant
  rw [← dev26_eq c, ← dev27_eq c]
  iintro ⟨#HI, #Hr, #Hlev, Hbar, ⟨A8, #P8, A9, #P9, A10, #P10, A11, #P11, A12, #P12, A13, #P13, A14, #P14, A15, #P15, A16, #P16, A17, #P17, A18, #P18, A19, #P19, A20, #P20, A21, #P21, A22, #P22, A23, #P23, A24, #P24, A25, #P25, A26, #P26, A27, #P27, A28, #P28, A29, #P29, A30, #P30, A31, #P31, A32, #P32, A33, #P33, A34, #P34, A35, #P35, A36, #P36, A37, #P37, A38, #P38, A39, #P39⟩, ⟨⟨TAa, TAb⟩, ⟨TBa, TBb⟩, Htoks⟩, ⟨CA, CB, Hcreds⟩, ⟨%W, HO⟩, ⟨⟨%g0, Hg0, %hg0⟩, ⟨%g1, Hg1, %hg1⟩, ⟨%g2, Hg2, %hg2⟩, ⟨%g3, Hg3, %hg3⟩, ⟨%g4, Hg4, %hg4⟩, ⟨%g5, Hg5, %hg5⟩, ⟨%g6, Hg6, %hg6⟩, ⟨%g7, Hg7, %hg7⟩, ⟨%s2, Hs2, %hs2⟩, ⟨%s3, Hs3, %hs3⟩, ⟨%s4, Hs4, %hs4⟩, ⟨%s5, Hs5, %hs5⟩, ⟨%s8, Hs8, %hs8⟩, ⟨%s9, Hs9, %hs9⟩⟩, ⟨%f0, H0, %hf0⟩, ⟨%f1, H1, %hf1⟩, ⟨%f6, H6, %hf6⟩, ⟨%f7, H7, %hf7⟩, ⟨Gd1, #Gr1⟩, ⟨Gd2, #Gr2⟩, ⟨Gd3, #Gr3⟩⟩
  unfold seg8
  simp only [k0_part34, k0_part35, k0_part36, Prog.lift, Prog.bind_op, Prog.bind_ret, Prog.pure_eq_ret]
  -- the local steps before the first copy: the vector handed in is stored, and the first stream's sum on the other
  -- pair goes into the first send buffer
  sl_exec
  ihave Hs3e : iprop(∃ f, ptw (F := Ideal) c cc0_scratch3 f ∗ ⌜rowsAre3 c (S1 m 1 1 c) (pairRow 1 c) 256 f ∧ rowsAre3 c (S1 m 1 1 c) (k0_off12 c 0) 256 f⌝) $$ [Hs3]
  · iexists _
    isplitl [Hs3]; · iexact Hs3
    ipureintro
    rw [View.writes_singleton]
    exact ⟨store_keep3 c (S1 m 1 1 c) (pairRow 1 c) 256 s3 hs3 (k0_off12 c) S256x256.size (k0_off12_inb c) (off12_col c) rfl _ (off8_off12_disj c),
      store_new3 c (S1 m 1 1 c) s3 (k0_off12 c) S256x256.size (k0_off12_inb c) (off12_col c) rfl _ hv⟩
  icases Hs3e with ⟨%t3, Hs3, %ht3⟩
  ihave Hs4e : iprop(∃ f, ptw (F := Ideal) c cc0_scratch4 f ∗ ⌜(SA 0).view.read (Elt Ideal) f = rows256 (S1 m 1 0 c) (pair2Row 0 c)⌝) $$ [Hs4]
  · iexists _
    isplitl [Hs4]; · iexact Hs4
    ipureintro
    rw [View.writes_singleton]
    refine (View.read_write_univ _ _).trans ?_
    rw [shapeCast_self]
    exact load_rows2 c (S1 m 1 0 c) (quadRow 0 c) 512 s2 hs2 (k0_off11 c) S256x256.size (k0_off11_inb c) (off11_col c) (off11_in_quad8 c).1 (off11_in_quad8 c).2
  icases Hs4e with ⟨%t4, Hs4, %ht4⟩
  -- copy 22: with it goes the own slot for that partner's last reduce step of the second stream
  ihave H7' := (rest_split (F := Ideal) (ℓ := (Memref.whole cc0_scratch7).view.loc (c : Thread nD τ)) (disj_R2_R4 1) f7).1 $$ H7
  icases H7' with ⟨HownL, H7⟩
  ihave Hs4' := (slice_split c (SA 0) t4).1 $$ Hs4
  icases Hs4' with ⟨Hsrc0, Hrest4⟩
  iapply (wp_send_copyV m c ⟨k0_dev26 c, k0_dev26_lt c⟩ (SA 0) (R2 0) 21 26 1 23 (by omega) (by omega) (by decide) (by decide)
      ((credit_R2 0).trans rfl) (amtDma_sendOf 26 1 (Or.inr (by omega))) (grantLast (F := Ideal) c 1 1) fullShare t4
      (ownAt_of c (SA 0) t4)
      (by rw [dev26_eq c]; exact fun fd => land26_1 m c t4 ht4 fd)
      K (owedFrom c 23) (by rw [dev26_eq c]) W
      (by rw [dev26_eq c]; exact routes3V8 c)) $$ [Hsrc0 Gd1 HownL HO TAa TAb]
  · isplitr; · iexact HI
    isplitl [Hsrc0]; · iexact Hsrc0
    isplitl [Gd1]; · iexact Gd1
    isplitl [HownL]
    · rw [grantLast_1, grant_eq]
      isplitl [HownL]; · iapply (ownAt_of c (R4 1) f7); iexact HownL
      iexact P38
    isplitl [HO]; · iexact HO
    isplitl [TAa]; · iexact TAa
    isplitr; · iexact P21
    isplitl [TAb]; · iexact TAb
    iexact Gr1
  iintro ⟨CsA, HO⟩
  -- the local steps between the two copies: the second stream's sum on the other pair goes into the second send buffer
  sl_exec
  ihave Hs5e : iprop(∃ f, ptw (F := Ideal) c cc0_scratch5 f ∗ ⌜(SA 1).view.read (Elt Ideal) f = rows256 (S1 m 1 1 c) (pair2Row 1 c)⌝) $$ [Hs5]
  · iexists _
    isplitl [Hs5]; · iexact Hs5
    ipureintro
    rw [View.writes_singleton]
    refine (View.read_write_univ _ _).trans ?_
    rw [shapeCast_self]
    exact load_rows3 c (S1 m 1 1 c) (k0_off12 c 0) 256 t3 ht3.2 (k0_off12 c) S256x256.size (k0_off12_inb c) (off12_col c) (Nat.le_refl _) (Nat.le_refl _)
  icases Hs5e with ⟨%t5, Hs5, %ht5⟩
  ihave Hs5' := (slice_split c (SA 1) t5).1 $$ Hs5
  icases Hs5' with ⟨Hsrc1, Hrest5⟩
  -- copy 23: with it go the rows of the second gather buffer where that partner's pair block lands in the next layer
  ihave H1' := (slice_split c (VE1 1 (xr 4 c)) f1).1 $$ H1
  icases H1' with ⟨Hown1, Hrest1⟩
  iapply (wp_send_copyV m c ⟨k0_dev27 c, k0_dev27_lt c⟩ (SA 1) (R2 1) 31 36 1 24 (by omega) (by omega) (by decide) (by decide)
      ((credit_R2 1).trans rfl) (amtDma_sendOf 36 1 (Or.inr (by omega))) (grant (F := Ideal) c (VE1 1 (xr 4 c)) (agR 1 1) 2) fullShare t5
      (ownAt_of c (SA 1) t5)
      (by rw [dev27_eq c]; exact fun fd => land36_1 m c t5 ht5 fd)
      K (owedFrom c 24) (by rw [dev27_eq c]) W
      (by rw [dev27_eq c]; exact routes4V8 c)) $$ [Hsrc1 Gd2 Hown1 HO TBa TBb]
  · isplitr; · iexact HI
    isplitl [Hsrc1]; · iexact Hsrc1
    isplitl [Gd2]; · iexact Gd2
    isplitl [Hown1]
    · rw [grant_eq]
      isplitl [Hown1]; · iapply (ownAt_of c (VE1 1 (xr 4 c)) f1); iexact Hown1
      iexact P18
    isplitl [HO]; · iexact HO
    isplitl [TBa]; · iexact TBa
    isplitr; · iexact P31
    isplitl [TBb]; · iexact TBb
    iexact Gr2
  iintro ⟨CsB, HO⟩
  -- the wait for copy 22's send cell: the source half comes back and the first send buffer is whole again
  ihave Hmw := (mayWait_copy (F := Ideal) c (dsem 21) 22 24 (by omega) (by omega)) $$ Hlev
  iapply (wp_wait_copyV m c 21 1 23 (by omega) (by decide) K (owedFrom c 24) W
      (hw := fun Kt => hw_waitDma2 c 21 1 (src := R2 0) (dst := SA 0) ((credit_SA 0).trans rfl) Kt)) $$ [CsA HO Hmw A21]
  · isplitr; · iexact HI
    isplitl [CsA]; · iexact CsA
    isplitl [HO]; · iexact HO
    isplitl [Hmw]; · iexact Hmw
    iexact A21
  rw [show payDmaV m c 21 1 = ownAt (F := Ideal) c (SA 0) from rfl]
  rw [show (1 : ℕ) + 1 = 2 from rfl]
  iintro ⟨HO, A21, #P21', Hback0⟩
  ihave Hs4e := (slice_join_ownAt c (SA 0) t4) $$ [Hback0 Hrest4]
  · isplitl [Hback0]; · iexact Hback0
    iexact Hrest4
  icases Hs4e with ⟨%u4, Hs4⟩
  ihave Hs4 : ptw (F := Ideal) c cc0_scratch4 u4 $$ [Hs4]
  · iexact Hs4
  -- the wait for the partner's copy 22 on the own receive cell: rows 512.. of the receive buffer hold that partner's
  -- two-device sum on the own pair, and the partner hands over its slot for the own last reduce step of the second stream
  ihave Hmw2 := (mayWait_copy (F := Ideal) c (dsem 26) 22 24 (by omega) (by omega)) $$ Hlev
  iapply (wp_wait_copyV m c 26 1 23 (by omega) (by decide) K (owedFrom c 24) (insert (SemLoc.dma (dsem 21), 23) W)
      (hw := fun Kt => hw_waitDma2 c 26 1 (src := SA 0) (dst := R2 0) ((credit_R2 0).trans rfl) Kt)) $$ [CA HO Hmw2 A26]
  · isplitr; · iexact HI
    isplitl [CA]; · iexact CA
    isplitl [HO]; · iexact HO
    isplitl [Hmw2]; · iexact Hmw2
    iexact A26
  rw [show payDmaV m c 26 1 = iprop(owns (c : Thread nD τ) (R2 0) fullShare (rows256 (S1 m 1 0 (xr 3 c)) (pairRow 0 c)) ∗ grantLast (F := Ideal) (xr 3 c) 1 1) from rfl, grantLast_1, grant_eq]
  rw [show (1 : ℕ) + 1 = 2 from rfl]
  unfold owns
  iintro ⟨HO, A26, #P26', ⟨%l6, %hl6, Hback20⟩, HgLd, #HgLr⟩
  -- the wait for copy 23's send cell
  ihave Hmw3 := (mayWait_copy (F := Ideal) c (dsem 31) 23 24 (by omega) (by omega)) $$ Hlev
  iapply (wp_wait_copyV m c 31 1 24 (by omega) (by decide) K (owedFrom c 24) (insert (SemLoc.dma (dsem 26), 23) (insert (SemLoc.dma (dsem 21), 23) W))
      (hw := fun Kt => hw_waitDma2 c 31 1 (src := R2 1) (dst := SA 1) ((credit_SA 1).trans rfl) Kt)) $$ [CsB HO Hmw3 A31]
  · isplitr; · iexact HI
    isplitl [CsB]; · iexact CsB
    isplitl [HO]; · iexact HO
    isplitl [Hmw3]; · iexact Hmw3
    iexact A31
  rw [show payDmaV m c 31 1 = ownAt (F := Ideal) c (SA 1) from rfl]
  rw [show (1 : ℕ) + 1 = 2 from rfl]
  iintro ⟨HO, A31, #P31', Hback1⟩
  ihave Hs5e := (slice_join_ownAt c (SA 1) t5) $$ [Hback1 Hrest5]
  · isplitl [Hback1]; · iexact Hback1
    iexact Hrest5
  icases Hs5e with ⟨%u5, Hs5⟩
  ihave Hs5 : ptw (F := Ideal) c cc0_scratch5 u5 $$ [Hs5]
  · iexact Hs5
  -- the wait for the partner's copy 23: rows 512.. of the second receive buffer hold that partner's two-device sum on
  -- the own pair, and the partner hands over the rows of its second gather buffer where the own pair block lands next
  ihave Hmw4 := (mayWait_copy (F := Ideal) c (dsem 36) 23 24 (by omega) (by omega)) $$ Hlev
  iapply (wp_wait_copyV m c 36 1 24 (by omega) (by decide) K (owedFrom c 24) (insert (SemLoc.dma (dsem 31), 24) (insert (SemLoc.dma (dsem 26), 23) (insert (SemLoc.dma (dsem 21), 23) W)))
      (hw := fun Kt => hw_waitDma2 c 36 1 (src := SA 1) (dst := R2 1) ((credit_R2 1).trans rfl) Kt)) $$ [CB HO Hmw4 A36]
  · isplitr; · iexact HI
    isplitl [CB]; · iexact CB
    isplitl [HO]; · iexact HO
    isplitl [Hmw4]; · iexact Hmw4
    iexact A36
  rw [show payDmaV m c 36 1 = iprop(owns (c : Thread nD τ) (R2 1) fullShare (rows256 (S1 m 1 1 (xr 4 c)) (pairRow 1 c)) ∗ grant (F := Ideal) (xr 4 c) (VE1 1 c) (agR 1 1) 2) from rfl, grant_eq]
  rw [show (1 : ℕ) + 1 = 2 from rfl]
  unfold owns
  iintro ⟨HO, A36, #P36', ⟨%l7, %hl7, Hback21⟩, Hg1d, #Hg1r⟩
  -- the landed slots go back into the receive buffers at their contents
  ihave H6a := (held_swap8 (ℓ := (Memref.whole cc0_scratch6).view.loc (c : Thread nD τ)) (R4 0).view.set (R2 0).view.set f6) $$ H6
  ihave H6 := (rest_join_at (F := Ideal) (ℓ := (Memref.whole cc0_scratch6).view.loc (c : Thread nD τ)) (disj_R2_R4 0).symm f6 l6) $$ [Hback20 H6a]
  · isplitl [Hback20]; · iexact Hback20
    iexact H6a
  ihave H7a := (rest_swap8 (ℓ := (Memref.whole cc0_scratch7).view.loc (c : Thread nD τ)) (R2 1).view.set (R4 1).view.set f7) $$ H7
  ihave H7 := (rest_join_at (F := Ideal) (ℓ := (Memref.whole cc0_scratch7).view.loc (c : Thread nD τ)) (disj_R2_R4 1).symm f7 l7) $$ [Hback21 H7a]
  · isplitl [Hback21]; · iexact Hback21
    iexact H7a
  -- the last local steps: the landed rows are added to the accumulators, and the first stream's sum goes into the
  -- first send buffer
  sl_exec
  -- the state after the third reduce step
  rw [wp_ret]
  imodintro
  iexists K
  unfold Q8post QV localBufsV bufV heldButV
  rw [posAt_24, Finset.sdiff_empty, grantLast_1, grantLast_1]
  unfold grant
  isplitr; · iexact HI
  isplitr; · iexact Hr
  isplitr; · iexact Hlev
  isplitl [Hbar]; · iexact Hbar
  isplitl [A8 A9 A10 A11 A12 A13 A14 A15 A16 A17 A18 A19 A20 A21 A22 A23 A24 A25 A26 A27 A28 A29 A30 A31 A32 A33 A34 A35 A36 A37 A38 A39]
  · iframe ∗ #
  isplitl [Htoks]; · iexact Htoks
  isplitl [Hcreds]; · iexact Hcreds
  isplitl [HO]; · iexists _; iexact HO
  isplitl [Hg0 Hg1 Hg2 Hg3 Hg4 Hg5 Hg6 Hg7 Hs2 Hs3 Hs4 Hs5 Hs8 Hs9]
  · isplitl [Hg0]
    · iexists _
      isplitl [Hg0]
      · iexact Hg0
      ipureintro
      exact hg0
    isplitl [Hg1]
    · iexists _
      isplitl [Hg1]
      · iexact Hg1
      ipureintro
      exact hg1
    isplitl [Hg2]
    · iexists _
      isplitl [Hg2]
      · iexact Hg2
      ipureintro
      exact hg2
    isplitl [Hg3]
    · iexists _
      isplitl [Hg3]
      · iexact Hg3
      ipureintro
      exact hg3
    isplitl [Hg4]
    · iexists _
      isplitl [Hg4]
      · iexact Hg4
      ipureintro
      exact hg4
    isplitl [Hg5]
    · iexists _
      isplitl [Hg5]
      · iexact Hg5
      ipureintro
      exact hg5
    isplitl [Hg6]
    · iexists _
      isplitl [Hg6]
      · iexact Hg6
      ipureintro
      exact hg6
    isplitl [Hg7]
    · iexists _
      isplitl [Hg7]
      · iexact Hg7
      ipureintro
      trivial
    isplitl [Hs2]
    · iexists _
      isplitl [Hs2]
      · iexact Hs2
      ipureintro
      unfold seg8_okV.sl.Hs2_1
      rw [View.writes_singleton]
      refine store_new2 c (S2 m 1 0 c) s2 (k0_off7 c) S256x256.size (k0_off7_inb c) (off7_col c) rfl _ (fun y => ?_)
      rw [shapeCast_self]
      exact (congrArg₂ (fun a b : EReal => a + b)
          (congrFun (load_rows2 c (S1 m 1 0 c) (quadRow 0 c) 512 s2 hs2 (k0_off7 c) S256x256.size (k0_off7_inb c) (off7_col c) (off7_in_quad8 c).1 (off7_in_quad8 c).2) y)
          (congrFun ((read_piecewise_self (R2 0) c f6 l6).trans hl6) y)).trans
        (sum_S2_s0 m c _ _ (unit_row_lt (k0_off7 c) S256x256.size (k0_off7_inb c) y) (unit_col_lt (k0_off7 c) S256x256.size (k0_off7_inb c) y))
    isplitl [Hs3]
    · iexists _
      isplitl [Hs3]
      · iexact Hs3
      ipureintro
      rw [View.writes_singleton]
      refine store_new3 c (S2 m 1 1 c) t3 (k0_off8 c) S256x256.size (k0_off8_inb c) (off8_col c) rfl _ (fun y => ?_)
      rw [shapeCast_self]
      exact (congrArg₂ (fun a b : EReal => a + b)
          (congrFun (load_rows3 c (S1 m 1 1 c) (pairRow 1 c) 256 t3 ht3.1 (k0_off8 c) S256x256.size (k0_off8_inb c) (off8_col c) (Nat.le_refl _) (Nat.le_refl _)) y)
          (congrFun ((read_piecewise_self (R2 1) c f7 l7).trans hl7) y)).trans
        (sum_S2_s1 m c _ _ (unit_row_lt (k0_off8 c) S256x256.size (k0_off8_inb c) y) (unit_col_lt (k0_off8 c) S256x256.size (k0_off8_inb c) y))
    isplitl [Hs4]
    · iexists _
      isplitl [Hs4]
      · iexact Hs4
      ipureintro
      rw [View.writes_singleton]
      refine snd_store c (S2 m 1 0 c) (pairRow 0 c) u4 _ (fun y => ?_)
      rw [shapeCast_self]
      unfold seg8_okV.sl.v1124 seg8_okV.sl.Hs2_1
      -- the rows just stored are read back: the stored vector itself
      rw [View.readCov_cons_toLoadRect, shapeCast_self]
      exact (congrArg₂ (fun a b : EReal => a + b)
          (congrFun (load_rows2 c (S1 m 1 0 c) (quadRow 0 c) 512 s2 hs2 (k0_off7 c) S256x256.size (k0_off7_inb c) (off7_col c) (off7_in_quad8 c).1 (off7_in_quad8 c).2) y)
          (congrFun ((read_piecewise_self (R2 0) c f6 l6).trans hl6) y)).trans
        (sum_S2_s0 m c _ _ (unit_row_lt (k0_off7 c) S256x256.size (k0_off7_inb c) y) (unit_col_lt (k0_off7 c) S256x256.size (k0_off7_inb c) y))
    isplitl [Hs5]
    · iexists _
      isplitl [Hs5]
      · iexact Hs5
      ipureintro
      trivial
    isplitl [Hs8]
    · iexists _
      isplitl [Hs8]
      · iexact Hs8
      ipureintro
      exact hs8
    iexists _
    isplitl [Hs9]
    · iexact Hs9
    ipureintro
    exact hs9
  isplitl [H0]
  · iexists _
    isplitl [H0]
    · iexact H0
    ipureintro
    trivial
  isplitl [Hrest1]
  · iexists _
    isplitl [Hrest1]
    · iexact Hrest1
    ipureintro
    trivial
  isplitl [H6]
  · iexists _
    isplitl [H6]
    · iexact H6
    ipureintro
    trivial
  isplitl [H7]
  · iexists _
    isplitl [H7]
    · iexact H7
    ipureintro
    trivial
  isplitl [Gd3]
  · isplitl [Gd3]; · iexact Gd3
    iexact Gr3
  isplitl [HgLd]
  · isplitl [HgLd]; · iexact HgLd
    iexact HgLr
  isplitl [Hg1d]; · iexact Hg1d
  iexact Hg1r

/-! ## This rests on the standard axioms only -/

/-- info: 'Cert.KernelIdeal.Val.seg8_okV' depends on axioms: [propext, Classical.choice, Quot.sound] -/
#guard_msgs in #print axioms seg8_okV

end Cert.KernelIdeal.Val

end
-- ==== Proof.KernelIdeal.ValSteps.lean ====
/- Steps of a valued segment that every layer repeats: the rows' matrix product stored into an accumulator, and a
   gather copy's landing.

   The product of 256 gathered rows with the device's two weight slices is, row by row, the device's partial product
   of the gathered buffer (Values.lean's `Pt`); stored at the same rows of the accumulator, it makes those rows of the
   accumulator the partial product's. A copy writes what its source slice reads over the destination slice, so the
   destination then reads exactly that. -/
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open scoped BigOperators

local notation "𝕄" => MT nD τ sig ℕ (Elt Ideal) ℕ UU ℕ

/-! ## The weight buffers are loaded whole -/

theorem load_win (c : Dev nD) (f : Buf (Elt Ideal) ((Memref.whole cc0_scratch8).view.loc (c : Thread nD τ)))
    (inb : ∀ a, (![0, 0] : Fin 2 → ℕ) a + S256x512.size a ≤ S256x512.size a) (y : S256x512.Idx) :
    (Memref.whole cc0_scratch8).view.readAt (Elt Ideal) (Rect.unit (s := S256x512) ![0, 0] S256x512.size inb).toLoadRect f y = f y := by
  show f ((Rect.unit (s := S256x512) ![0, 0] S256x512.size inb).emb y) = f y
  congr 1
  funext a
  apply Fin.ext
  match a with
  | ⟨0, _⟩ => show 0 + 1 * (y 0).val = (y 0).val; omega
  | ⟨1, _⟩ => show 0 + 1 * (y 1).val = (y 1).val; omega

theorem load_wout (c : Dev nD) (f : Buf (Elt Ideal) ((Memref.whole cc0_scratch9).view.loc (c : Thread nD τ)))
    (inb : ∀ a, (![0, 0] : Fin 2 → ℕ) a + S512x256.size a ≤ S512x256.size a) (y : S512x256.Idx) :
    (Memref.whole cc0_scratch9).view.readAt (Elt Ideal) (Rect.unit (s := S512x256) ![0, 0] S512x256.size inb).toLoadRect f y = f y := by
  show f ((Rect.unit (s := S512x256) ![0, 0] S512x256.size inb).emb y) = f y
  congr 1
  funext a
  apply Fin.ext
  match a with
  | ⟨0, _⟩ => show 0 + 1 * (y 0).val = (y 0).val; omega
  | ⟨1, _⟩ => show 0 + 1 * (y 1).val = (y 1).val; omega

/-! ## The rows' product of loaded vectors is the device's partial product at those rows -/

theorem mm_loaded0 (m : Mem) (c : Dev nD) (l : ℕ) (bx nx : ℕ)
    (fx : Buf (Elt Ideal) ((Memref.whole cc0_scratch0).view.loc (c : Thread nD τ))) (hfx : rowsAre0 c (A m l 0) bx nx fx)
    (fwi : Buf (Elt Ideal) ((Memref.whole cc0_scratch8).view.loc (c : Thread nD τ))) (hwi : winIs m c ⟨l % 3, Nat.mod_lt _ (by omega)⟩ fwi)
    (fwo : Buf (Elt Ideal) ((Memref.whole cc0_scratch9).view.loc (c : Thread nD τ))) (hwo : woutIs m c ⟨l % 3, Nat.mod_lt _ (by omega)⟩ fwo)
    (off : Fin 2 → ℕ) (inb : ∀ a, off a + S256x256.size a ≤ S1024x256.size a) (hcol : off 1 = 0)
    (hlo : bx ≤ off 0) (hhi : off 0 + 256 ≤ bx + nx)
    (inb8 : ∀ a, (![0, 0] : Fin 2 → ℕ) a + S256x512.size a ≤ S256x512.size a)
    (inb9 : ∀ a, (![0, 0] : Fin 2 → ℕ) a + S512x256.size a ≤ S512x256.size a) (y : S256x256.Idx) :
    mmRows ((Memref.whole cc0_scratch0).view.readAt (Elt Ideal) (Rect.unit (s := S1024x256) off S256x256.size inb).toLoadRect fx)
        ((Memref.whole cc0_scratch8).view.readAt (Elt Ideal) (Rect.unit (s := S256x512) ![0, 0] S256x512.size inb8).toLoadRect fwi)
        ((Memref.whole cc0_scratch9).view.readAt (Elt Ideal) (Rect.unit (s := S512x256) ![0, 0] S512x256.size inb9).toLoadRect fwo) y
      = nat2 (Pt m l 0 c) (off 0 + (y 0).val) (y 1).val := by
  obtain ⟨r, col, rfl⟩ : ∃ (r : Fin 256) (col : Fin 256), y = ValueIdx.ix2 r col := ⟨y 0, y 1, ValueIdx.eq_ix2 y⟩
  have i0 : off 0 + 256 ≤ 1024 := inb 0
  have h0 : off 0 + r.val < 1024 := by have := r.isLt; omega
  have hx : ∀ e : Fin 256, ((Memref.whole cc0_scratch0).view.readAt (Elt Ideal) (Rect.unit (s := S1024x256) off S256x256.size inb).toLoadRect fx) (ValueIdx.ix2 r e)
      = A m l 0 ⟨off 0 + r.val, h0⟩ e := fun e =>
    (congrFun (load_rows0 c (A m l 0) bx nx fx hfx off S256x256.size inb hcol hlo hhi) (ValueIdx.ix2 r e)).trans
      (nat2_eq (A m l 0) _ _ h0 e.isLt)
  rw [mmRows_partOf m ⟨l % 3, Nat.mod_lt _ (by omega)⟩ c (A m l 0) ⟨off 0 + r.val, h0⟩ _ _ _ r col hx
    (fun e k => (load_win c fwi inb8 _).trans (hwi e k)) (fun k => (load_wout c fwo inb9 _).trans (hwo k col))]
  exact (nat2_eq (Pt m l 0 c) _ _ h0 col.isLt).symm

/-- Stored at the same rows of the accumulator of stream 0. -/
theorem mm_store0 (m : Mem) (c : Dev nD) (l : ℕ) (bx nx : ℕ)
    (fx : Buf (Elt Ideal) ((Memref.whole cc0_scratch0).view.loc (c : Thread nD τ))) (hfx : rowsAre0 c (A m l 0) bx nx fx)
    (fwi : Buf (Elt Ideal) ((Memref.whole cc0_scratch8).view.loc (c : Thread nD τ))) (hwi : winIs m c ⟨l % 3, Nat.mod_lt _ (by omega)⟩ fwi)
    (fwo : Buf (Elt Ideal) ((Memref.whole cc0_scratch9).view.loc (c : Thread nD τ))) (hwo : woutIs m c ⟨l % 3, Nat.mod_lt _ (by omega)⟩ fwo)
    (off : Fin 2 → ℕ) (inb : ∀ a, off a + S256x256.size a ≤ S1024x256.size a) (hcol : off 1 = 0)
    (hlo : bx ≤ off 0) (hhi : off 0 + 256 ≤ bx + nx)
    (inb8 : ∀ a, (![0, 0] : Fin 2 → ℕ) a + S256x512.size a ≤ S256x512.size a)
    (inb9 : ∀ a, (![0, 0] : Fin 2 → ℕ) a + S512x256.size a ≤ S512x256.size a)
    (fa : Buf (Elt Ideal) ((Memref.whole cc0_scratch2).view.loc (c : Thread nD τ))) :
    rowsAre2 c (Pt m l 0 c) (off 0) 256
      (((Memref.whole cc0_scratch2).view.slice (Rect.unit (s := S1024x256) off S256x256.size inb)).write (Elt Ideal) fa
        (mmRows ((Memref.whole cc0_scratch0).view.readAt (Elt Ideal) (Rect.unit (s := S1024x256) off S256x256.size inb).toLoadRect fx)
          ((Memref.whole cc0_scratch8).view.readAt (Elt Ideal) (Rect.unit (s := S256x512) ![0, 0] S256x512.size inb8).toLoadRect fwi)
          ((Memref.whole cc0_scratch9).view.readAt (Elt Ideal) (Rect.unit (s := S512x256) ![0, 0] S512x256.size inb9).toLoadRect fwo))
        Finset.univ) :=
  store_new2 c (Pt m l 0 c) fa off S256x256.size inb hcol rfl _
    (fun y => mm_loaded0 m c l bx nx fx hfx fwi hwi fwo hwo off inb hcol hlo hhi inb8 inb9 y)

theorem mm_loaded1 (m : Mem) (c : Dev nD) (l : ℕ) (bx nx : ℕ)
    (fx : Buf (Elt Ideal) ((Memref.whole cc0_scratch1).view.loc (c : Thread nD τ))) (hfx : rowsAre1 c (A m l 1) bx nx fx)
    (fwi : Buf (Elt Ideal) ((Memref.whole cc0_scratch8).view.loc (c : Thread nD τ))) (hwi : winIs m c ⟨l % 3, Nat.mod_lt _ (by omega)⟩ fwi)
    (fwo : Buf (Elt Ideal) ((Memref.whole cc0_scratch9).view.loc (c : Thread nD τ))) (hwo : woutIs m c ⟨l % 3, Nat.mod_lt _ (by omega)⟩ fwo)
    (off : Fin 2 → ℕ) (inb : ∀ a, off a + S256x256.size a ≤ S1024x256.size a) (hcol : off 1 = 0)
    (hlo : bx ≤ off 0) (hhi : off 0 + 256 ≤ bx + nx)
    (inb8 : ∀ a, (![0, 0] : Fin 2 → ℕ) a + S256x512.size a ≤ S256x512.size a)
    (inb9 : ∀ a, (![0, 0] : Fin 2 → ℕ) a + S512x256.size a ≤ S512x256.size a) (y : S256x256.Idx) :
    mmRows ((Memref.whole cc0_scratch1).view.readAt (Elt Ideal) (Rect.unit (s := S1024x256) off S256x256.size inb).toLoadRect fx)
        ((Memref.whole cc0_scratch8).view.readAt (Elt Ideal) (Rect.unit (s := S256x512) ![0, 0] S256x512.size inb8).toLoadRect fwi)
        ((Memref.whole cc0_scratch9).view.readAt (Elt Ideal) (Rect.unit (s := S512x256) ![0, 0] S512x256.size inb9).toLoadRect fwo) y
      = nat2 (Pt m l 1 c) (off 0 + (y 0).val) (y 1).val := by
  obtain ⟨r, col, rfl⟩ : ∃ (r : Fin 256) (col : Fin 256), y = ValueIdx.ix2 r col := ⟨y 0, y 1, ValueIdx.eq_ix2 y⟩
  have i0 : off 0 + 256 ≤ 1024 := inb 0
  have h0 : off 0 + r.val < 1024 := by have := r.isLt; omega
  have hx : ∀ e : Fin 256, ((Memref.whole cc0_scratch1).view.readAt (Elt Ideal) (Rect.unit (s := S1024x256) off S256x256.size inb).toLoadRect fx) (ValueIdx.ix2 r e)
      = A m l 1 ⟨off 0 + r.val, h0⟩ e := fun e =>
    (congrFun (load_rows1 c (A m l 1) bx nx fx hfx off S256x256.size inb hcol hlo hhi) (ValueIdx.ix2 r e)).trans
      (nat2_eq (A m l 1) _ _ h0 e.isLt)
  rw [mmRows_partOf m ⟨l % 3, Nat.mod_lt _ (by omega)⟩ c (A m l 1) ⟨off 0 + r.val, h0⟩ _ _ _ r col hx
    (fun e k => (load_win c fwi inb8 _).trans (hwi e k)) (fun k => (load_wout c fwo inb9 _).trans (hwo k col))]
  exact (nat2_eq (Pt m l 1 c) _ _ h0 col.isLt).symm

/-- Stored at the same rows of the accumulator of stream 1. -/
theorem mm_store1 (m : Mem) (c : Dev nD) (l : ℕ) (bx nx : ℕ)
    (fx : Buf (Elt Ideal) ((Memref.whole cc0_scratch1).view.loc (c : Thread nD τ))) (hfx : rowsAre1 c (A m l 1) bx nx fx)
    (fwi : Buf (Elt Ideal) ((Memref.whole cc0_scratch8).view.loc (c : Thread nD τ))) (hwi : winIs m c ⟨l % 3, Nat.mod_lt _ (by omega)⟩ fwi)
    (fwo : Buf (Elt Ideal) ((Memref.whole cc0_scratch9).view.loc (c : Thread nD τ))) (hwo : woutIs m c ⟨l % 3, Nat.mod_lt _ (by omega)⟩ fwo)
    (off : Fin 2 → ℕ) (inb : ∀ a, off a + S256x256.size a ≤ S1024x256.size a) (hcol : off 1 = 0)
    (hlo : bx ≤ off 0) (hhi : off 0 + 256 ≤ bx + nx)
    (inb8 : ∀ a, (![0, 0] : Fin 2 → ℕ) a + S256x512.size a ≤ S256x512.size a)
    (inb9 : ∀ a, (![0, 0] : Fin 2 → ℕ) a + S512x256.size a ≤ S512x256.size a)
    (fa : Buf (Elt Ideal) ((Memref.whole cc0_scratch3).view.loc (c : Thread nD τ))) :
    rowsAre3 c (Pt m l 1 c) (off 0) 256
      (((Memref.whole cc0_scratch3).view.slice (Rect.unit (s := S1024x256) off S256x256.size inb)).write (Elt Ideal) fa
        (mmRows ((Memref.whole cc0_scratch1).view.readAt (Elt Ideal) (Rect.unit (s := S1024x256) off S256x256.size inb).toLoadRect fx)
          ((Memref.whole cc0_scratch8).view.readAt (Elt Ideal) (Rect.unit (s := S256x512) ![0, 0] S256x512.size inb8).toLoadRect fwi)
          ((Memref.whole cc0_scratch9).view.readAt (Elt Ideal) (Rect.unit (s := S512x256) ![0, 0] S512x256.size inb9).toLoadRect fwo))
        Finset.univ) :=
  store_new3 c (Pt m l 1 c) fa off S256x256.size inb hcol rfl _
    (fun y => mm_loaded1 m c l bx nx fx hfx fwi hwi fwo hwo off inb hcol hlo hhi inb8 inb9 y)

/-! ## A gather copy's landing, and what the landings hand over -/

/-- A destination slice written with what the source slice reads, read back: the source's contents. -/
theorem land_owns (p : Dev nD) {s : Shape} (dst : Memref sig .tc .vmem s .bf16) (fd : Buf (Elt Ideal) (dst.view.loc (p : Thread nD τ)))
    (w X : s.Idx → Elt Ideal .bf16) (hX : w = X) :
    (dst.view.loc (p : Thread nD τ) ↦[dst.view.set]{fullShare} (dst.view.write (Elt Ideal) fd w Finset.univ) : sProp 𝕄)
      ⊢ owns (Ix := ℕ) (Name := ℕ) (U := UU) (Lvl := ℕ) (p : Thread nD τ) dst fullShare X := by
  subst hX
  unfold owns
  iintro H
  iexists (dst.view.write (Elt Ideal) fd w Finset.univ)
  isplitr
  · ipureintro; exact View.read_write_univ (v := dst.view) (Val := Elt Ideal) fd w
  · iexact H

/-- The landing on receive semaphore 11, spelt out. -/
theorem pay11V_eq (m : Mem) (p : Dev nD) :
    payDmaV m p 11 0 = iprop(owns (Ix := ℕ) (Name := ℕ) (U := UU) (Lvl := ℕ) (p : Thread nD τ) (VE0 0 (xr 1 p)) fullShare (rows128 (A m 0 0) (k0_off3 (xr 1 p) 0))
      ∗ (grant (xr 1 p) (VE2 1 p) (agR 1 2) 0)) := rfl
/-- What this device's copy lands on the partner across mask 1, from what its source reads. -/
theorem payR11V (m : Mem) (c : Dev nD) (fs : Buf (Elt Ideal) ((VE0 0 c).view.loc (c : Thread nD τ)))
    (hfs : (VE0 0 c).view.read (Elt Ideal) fs = rows128 (A m 0 0) (k0_off3 c 0))
    (fd : Buf (Elt Ideal) ((VE0 0 c).view.loc ((xr 1 c : Dev nD) : Thread nD τ))) :
    iprop(((VE0 0 c).view.loc ((xr 1 c : Dev nD) : Thread nD τ) ↦[(VE0 0 c).view.set]{fullShare}
          ((VE0 0 c).view.write (Elt Ideal) fd ((VE0 0 c).view.read (Elt Ideal) fs) Finset.univ))
        ∗ (grant c (VE2 1 (xr 1 c)) (agR 1 2) 0))
      ⊢ payDmaV m (xr 1 c) 11 0 := by
  rw [pay11V_eq, xr_xr]
  exact sep_mono_left (land_owns (xr 1 c) (VE0 0 c) fd _ _ hfs)
/-- What the partner's copy of the same number lands here. -/
theorem pay11V_elim (m : Mem) (c : Dev nD) :
    payDmaV m c 11 0 ⊢ iprop(owns (Ix := ℕ) (Name := ℕ) (U := UU) (Lvl := ℕ) (c : Thread nD τ) (VE0 0 (xr 1 c)) fullShare (rows128 (A m 0 0) (k0_off3 (xr 1 c) 0))
      ∗ (grant (xr 1 c) (VE2 1 c) (agR 1 2) 0)) := .rfl

/-- The landing on receive semaphore 17, spelt out. -/
theorem pay17V_eq (m : Mem) (p : Dev nD) :
    payDmaV m p 17 0 = iprop(owns (Ix := ℕ) (Name := ℕ) (U := UU) (Lvl := ℕ) (p : Thread nD τ) (VE0 1 (xr 3 p)) fullShare (rows128 (A m 0 1) (k0_off4 (xr 3 p) 0))
      ∗ (grant (xr 3 p) (VE1 0 p) (agR 0 1) 0)) := rfl
/-- What this device's copy lands on the partner across mask 3, from what its source reads. -/
theorem payR17V (m : Mem) (c : Dev nD) (fs : Buf (Elt Ideal) ((VE0 1 c).view.loc (c : Thread nD τ)))
    (hfs : (VE0 1 c).view.read (Elt Ideal) fs = rows128 (A m 0 1) (k0_off4 c 0))
    (fd : Buf (Elt Ideal) ((VE0 1 c).view.loc ((xr 3 c : Dev nD) : Thread nD τ))) :
    iprop(((VE0 1 c).view.loc ((xr 3 c : Dev nD) : Thread nD τ) ↦[(VE0 1 c).view.set]{fullShare}
          ((VE0 1 c).view.write (Elt Ideal) fd ((VE0 1 c).view.read (Elt Ideal) fs) Finset.univ))
        ∗ (grant c (VE1 0 (xr 3 c)) (agR 0 1) 0))
      ⊢ payDmaV m (xr 3 c) 17 0 := by
  rw [pay17V_eq, xr_xr]
  exact sep_mono_left (land_owns (xr 3 c) (VE0 1 c) fd _ _ hfs)
/-- What the partner's copy of the same number lands here. -/
theorem pay17V_elim (m : Mem) (c : Dev nD) :
    payDmaV m c 17 0 ⊢ iprop(owns (Ix := ℕ) (Name := ℕ) (U := UU) (Lvl := ℕ) (c : Thread nD τ) (VE0 1 (xr 3 c)) fullShare (rows128 (A m 0 1) (k0_off4 (xr 3 c) 0))
      ∗ (grant (xr 3 c) (VE1 0 c) (agR 0 1) 0)) := .rfl

/-- The landing on receive semaphore 12, spelt out. -/
theorem pay12V_eq (m : Mem) (p : Dev nD) (l : ℕ) :
    payDmaV m p 12 l = iprop(owns (Ix := ℕ) (Name := ℕ) (U := UU) (Lvl := ℕ) (p : Thread nD τ) (VE1 0 (xr 3 p)) fullShare (rows256 (A m l 0) (k0_off5 (xr 3 p) 0))
      ∗ (grant (xr 3 p) (R2 0) (rsR 0 1) l)) := rfl
/-- What this device's copy lands on the partner across mask 3, from what its source reads. -/
theorem payR12V (m : Mem) (c : Dev nD) (l : ℕ) (fs : Buf (Elt Ideal) ((VE1 0 c).view.loc (c : Thread nD τ)))
    (hfs : (VE1 0 c).view.read (Elt Ideal) fs = rows256 (A m l 0) (k0_off5 c 0))
    (fd : Buf (Elt Ideal) ((VE1 0 c).view.loc ((xr 3 c : Dev nD) : Thread nD τ))) :
    iprop(((VE1 0 c).view.loc ((xr 3 c : Dev nD) : Thread nD τ) ↦[(VE1 0 c).view.set]{fullShare}
          ((VE1 0 c).view.write (Elt Ideal) fd ((VE1 0 c).view.read (Elt Ideal) fs) Finset.univ))
        ∗ (grant c (R2 0) (rsR 0 1) l))
      ⊢ payDmaV m (xr 3 c) 12 l := by
  rw [pay12V_eq, xr_xr]
  exact sep_mono_left (land_owns (xr 3 c) (VE1 0 c) fd _ _ hfs)
/-- What the partner's copy of the same number lands here. -/
theorem pay12V_elim (m : Mem) (c : Dev nD) (l : ℕ) :
    payDmaV m c 12 l ⊢ iprop(owns (Ix := ℕ) (Name := ℕ) (U := UU) (Lvl := ℕ) (c : Thread nD τ) (VE1 0 (xr 3 c)) fullShare (rows256 (A m l 0) (k0_off5 (xr 3 c) 0))
      ∗ (grant (xr 3 c) (R2 0) (rsR 0 1) l)) := .rfl

/-- The landing on receive semaphore 18, spelt out. -/
theorem pay18V_eq (m : Mem) (p : Dev nD) (l : ℕ) :
    payDmaV m p 18 l = iprop(owns (Ix := ℕ) (Name := ℕ) (U := UU) (Lvl := ℕ) (p : Thread nD τ) (VE1 1 (xr 4 p)) fullShare (rows256 (A m l 1) (k0_off6 (xr 4 p) 0))
      ∗ (grant (xr 4 p) (VE2 0 p) (agR 0 2) l)) := rfl
/-- What this device's copy lands on the partner across mask 4, from what its source reads. -/
theorem payR18V (m : Mem) (c : Dev nD) (l : ℕ) (fs : Buf (Elt Ideal) ((VE1 1 c).view.loc (c : Thread nD τ)))
    (hfs : (VE1 1 c).view.read (Elt Ideal) fs = rows256 (A m l 1) (k0_off6 c 0))
    (fd : Buf (Elt Ideal) ((VE1 1 c).view.loc ((xr 4 c : Dev nD) : Thread nD τ))) :
    iprop(((VE1 1 c).view.loc ((xr 4 c : Dev nD) : Thread nD τ) ↦[(VE1 1 c).view.set]{fullShare}
          ((VE1 1 c).view.write (Elt Ideal) fd ((VE1 1 c).view.read (Elt Ideal) fs) Finset.univ))
        ∗ (grant c (VE2 0 (xr 4 c)) (agR 0 2) l))
      ⊢ payDmaV m (xr 4 c) 18 l := by
  rw [pay18V_eq, xr_xr]
  exact sep_mono_left (land_owns (xr 4 c) (VE1 1 c) fd _ _ hfs)
/-- What the partner's copy of the same number lands here. -/
theorem pay18V_elim (m : Mem) (c : Dev nD) (l : ℕ) :
    payDmaV m c 18 l ⊢ iprop(owns (Ix := ℕ) (Name := ℕ) (U := UU) (Lvl := ℕ) (c : Thread nD τ) (VE1 1 (xr 4 c)) fullShare (rows256 (A m l 1) (k0_off6 (xr 4 c) 0))
      ∗ (grant (xr 4 c) (VE2 0 c) (agR 0 2) l)) := .rfl

/-- The landing on receive semaphore 13, spelt out. -/
theorem pay13V_eq (m : Mem) (p : Dev nD) (l : ℕ) :
    payDmaV m p 13 l = iprop(owns (Ix := ℕ) (Name := ℕ) (U := UU) (Lvl := ℕ) (p : Thread nD τ) (VE2 0 (xr 4 p)) fullShare (rows512 (A m l 0) (k0_off9 (xr 4 p) 0))
      ∗ (grant (xr 4 p) (R0 0) (rsR 0 0) l ∗ grant (xr 4 p) (R1 0) (rsR 0 4) l)) := rfl
/-- What this device's copy lands on the partner across mask 4, from what its source reads. -/
theorem payR13V (m : Mem) (c : Dev nD) (l : ℕ) (fs : Buf (Elt Ideal) ((VE2 0 c).view.loc (c : Thread nD τ)))
    (hfs : (VE2 0 c).view.read (Elt Ideal) fs = rows512 (A m l 0) (k0_off9 c 0))
    (fd : Buf (Elt Ideal) ((VE2 0 c).view.loc ((xr 4 c : Dev nD) : Thread nD τ))) :
    iprop(((VE2 0 c).view.loc ((xr 4 c : Dev nD) : Thread nD τ) ↦[(VE2 0 c).view.set]{fullShare}
          ((VE2 0 c).view.write (Elt Ideal) fd ((VE2 0 c).view.read (Elt Ideal) fs) Finset.univ))
        ∗ (grant c (R0 0) (rsR 0 0) l ∗ grant c (R1 0) (rsR 0 4) l))
      ⊢ payDmaV m (xr 4 c) 13 l := by
  rw [pay13V_eq, xr_xr]
  exact sep_mono_left (land_owns (xr 4 c) (VE2 0 c) fd _ _ hfs)
/-- What the partner's copy of the same number lands here. -/
theorem pay13V_elim (m : Mem) (c : Dev nD) (l : ℕ) :
    payDmaV m c 13 l ⊢ iprop(owns (Ix := ℕ) (Name := ℕ) (U := UU) (Lvl := ℕ) (c : Thread nD τ) (VE2 0 (xr 4 c)) fullShare (rows512 (A m l 0) (k0_off9 (xr 4 c) 0))
      ∗ (grant (xr 4 c) (R0 0) (rsR 0 0) l ∗ grant (xr 4 c) (R1 0) (rsR 0 4) l)) := .rfl

/-- The landing on receive semaphore 19, spelt out. -/
theorem pay19V_eq (m : Mem) (p : Dev nD) (l : ℕ) :
    payDmaV m p 19 l = iprop(owns (Ix := ℕ) (Name := ℕ) (U := UU) (Lvl := ℕ) (p : Thread nD τ) (VE2 1 (xr 1 p)) fullShare (rows512 (A m l 1) (k0_off10 (xr 1 p) 0))
      ∗ (grant (xr 1 p) (R0 1) (rsR 1 0) l ∗ grant (xr 1 p) (R1 1) (rsR 1 4) l)) := rfl
/-- What this device's copy lands on the partner across mask 1, from what its source reads. -/
theorem payR19V (m : Mem) (c : Dev nD) (l : ℕ) (fs : Buf (Elt Ideal) ((VE2 1 c).view.loc (c : Thread nD τ)))
    (hfs : (VE2 1 c).view.read (Elt Ideal) fs = rows512 (A m l 1) (k0_off10 c 0))
    (fd : Buf (Elt Ideal) ((VE2 1 c).view.loc ((xr 1 c : Dev nD) : Thread nD τ))) :
    iprop(((VE2 1 c).view.loc ((xr 1 c : Dev nD) : Thread nD τ) ↦[(VE2 1 c).view.set]{fullShare}
          ((VE2 1 c).view.write (Elt Ideal) fd ((VE2 1 c).view.read (Elt Ideal) fs) Finset.univ))
        ∗ (grant c (R0 1) (rsR 1 0) l ∗ grant c (R1 1) (rsR 1 4) l))
      ⊢ payDmaV m (xr 1 c) 19 l := by
  rw [pay19V_eq, xr_xr]
  exact sep_mono_left (land_owns (xr 1 c) (VE2 1 c) fd _ _ hfs)
/-- What the partner's copy of the same number lands here. -/
theorem pay19V_elim (m : Mem) (c : Dev nD) (l : ℕ) :
    payDmaV m c 19 l ⊢ iprop(owns (Ix := ℕ) (Name := ℕ) (U := UU) (Lvl := ℕ) (c : Thread nD τ) (VE2 1 (xr 1 c)) fullShare (rows512 (A m l 1) (k0_off10 (xr 1 c) 0))
      ∗ (grant (xr 1 c) (R0 1) (rsR 1 0) l ∗ grant (xr 1 c) (R1 1) (rsR 1 4) l)) := .rfl

/-! ## A held buffer with contents: a slice out, a slice back

    Cutting a slice out of a buffer held at contents `f` leaves the slice and the rest both at `f`, with what is known of
    `f`; a slice at contents `g` put back makes the buffer's contents `g` on the slice and `f` elsewhere. -/

theorem owns_open (c : Dev nD) {s : Shape} {e : EltTy} (M : Memref sig .tc .vmem s e) (q : PosShare TreeShare) (X : s.Idx → Elt Ideal e) :
    (owns (Ix := ℕ) (Name := ℕ) (U := UU) (Lvl := ℕ) (c : Thread nD τ) M q X : sProp 𝕄)
      ⊢ iprop(∃ g : Buf (Elt Ideal) (M.view.loc (c : Thread nD τ)), ⌜M.view.read (Elt Ideal) g = X⌝ ∗ (M.view.loc (c : Thread nD τ) ↦[M.view.set]{q} g)) := by
  unfold owns; exact .rfl

theorem heldButV_take (c : Dev nD) {s : Shape} {e : EltTy} (M : Memref sig .tc .vmem s e)
    (A : Finset (Idx (M.view.loc (c : Thread nD τ)))) (hd : Disjoint A M.view.set)
    (P : Buf (Elt Ideal) (M.view.loc (c : Thread nD τ)) → Prop) :
    heldButV c M.view.ref A P ⊢ iprop(∃ f : Buf (Elt Ideal) (M.view.loc (c : Thread nD τ)), ⌜P f⌝
      ∗ (M.view.loc (c : Thread nD τ) ↦[M.view.set]{fullShare} f)
      ∗ (M.view.loc (c : Thread nD τ) ↦[(Finset.univ \ A) \ M.view.set]{fullShare} f)) := by
  unfold heldButV
  iintro ⟨%f, H, %hP⟩
  iexists f
  isplitr
  · ipureintro; exact hP
  iapply (rest_split (F := Ideal) hd f).1
  iexact H

theorem heldButV_put (c : Dev nD) {s : Shape} {e : EltTy} (M : Memref sig .tc .vmem s e)
    (A : Finset (Idx (M.view.loc (c : Thread nD τ)))) (hd : Disjoint A M.view.set)
    (P' : Buf (Elt Ideal) (M.view.loc (c : Thread nD τ)) → Prop) (f g : Buf (Elt Ideal) (M.view.loc (c : Thread nD τ)))
    (hP' : P' (M.view.set.piecewise g f)) :
    iprop((M.view.loc (c : Thread nD τ) ↦[M.view.set]{fullShare} g)
        ∗ (M.view.loc (c : Thread nD τ) ↦[(Finset.univ \ A) \ M.view.set]{fullShare} f))
      ⊢ heldButV c M.view.ref A P' := by
  unfold heldButV
  iintro H
  iexists (M.view.set.piecewise g f)
  isplitl [H]
  · iapply (rest_join_at (F := Ideal) hd f g); iexact H
  · ipureintro; exact hP'

/-! ## These rest on the standard axioms only -/

/-- info: 'Cert.KernelIdeal.Val.mm_store0' depends on axioms: [propext, Classical.choice, Quot.sound] -/
#guard_msgs in #print axioms mm_store0
/-- info: 'Cert.KernelIdeal.Val.payR12V' depends on axioms: [propext, Classical.choice, Quot.sound] -/
#guard_msgs in #print axioms payR12V

end Cert.KernelIdeal.Val

end
-- ==== Proof.KernelIdeal.ValReduce.lean ====
/- The reduce's buffers with contents: the send buffers' halves and the receive buffers' slots.

   A slice written and read back through the same rectangle reads what was written; a write through a rectangle that
   does not meet the slice leaves what the slice reads. A landed slot put over a receive buffer's contents reads what
   landed, and the other slots read what they read before. That rows `r0 ..` of a receive buffer hold `G` on rows
   `b ..` is the same as the slot's slice reading `G`'s rows. Two devices' partial products added are the pair's sum. -/
import proofs.«900979_g7700000000000980_dist_mlpseq_tp1d_bs_bs_b256_d256_h512_v7x_i8_bf16_1_alg».proof.Proof.KernelIdeal.ValSteps

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open scoped BigOperators

local notation "𝕄" => MT nD τ sig ℕ (Elt Ideal) ℕ UU ℕ

/-! ## Writes and reads through rectangles of one buffer -/

/-- Read back through the rectangle it was written through: the vector written. -/
theorem read_write_self (b : Ref sig .tc) (r : Rect b.ty.shape) (hr : ∀ a, r.stride a = 1) (c : Dev nD)
    (f : Buf (Elt Ideal) ((Memref.whole b).view.loc (c : Thread nD τ))) (w : r.shape.Idx → Elt Ideal b.ty.elt) :
    ((Memref.whole b).slice r hr).view.read (Elt Ideal) (((Memref.whole b).view.slice r).write (Elt Ideal) f w Finset.univ) = w :=
  View.read_write_univ (v := (Memref.whole b).view.slice r) (Val := Elt Ideal) f w

/-- A write through a rectangle that does not meet the slice's leaves what the slice reads. -/
theorem read_write_other (b : Ref sig .tc) (r r' : Rect b.ty.shape) (hr : ∀ a, r.stride a = 1) (hd : Disjoint r.set r'.set) (c : Dev nD)
    (f : Buf (Elt Ideal) ((Memref.whole b).view.loc (c : Thread nD τ))) (w : r'.shape.Idx → Elt Ideal b.ty.elt) :
    ((Memref.whole b).slice r hr).view.read (Elt Ideal) (((Memref.whole b).view.slice r').write (Elt Ideal) f w Finset.univ)
      = ((Memref.whole b).slice r hr).view.read (Elt Ideal) f := by
  funext x
  rw [View.read_apply, View.read_apply]
  congr 1
  refine View.write_of_not_mem (v := (Memref.whole b).view.slice r') (Val := Elt Ideal) f w Finset.univ (fun hm => ?_)
  have h1 : ((Memref.whole b).slice r hr).view.emb x ∈ r'.set :=
    (Finset.ext_iff.mp (View.set_slice_whole b r') _).mp (View.setOn_subset_set _ _ hm)
  have h2 : ((Memref.whole b).slice r hr).view.emb x ∈ r.set :=
    (Finset.ext_iff.mp (View.set_slice_whole b r) _).mp (View.emb_mem_set _ x)
  exact Finset.disjoint_left.mp hd h2 h1

/-- A landed slice put over a buffer's contents: another slice that does not meet it reads what it read. -/
theorem read_piecewise_other (b : Ref sig .tc) (r r' : Rect b.ty.shape) (hr : ∀ a, r.stride a = 1) (hr' : ∀ a, r'.stride a = 1)
    (hd : Disjoint r.set r'.set) (c : Dev nD) (f g : Buf (Elt Ideal) ((Memref.whole b).view.loc (c : Thread nD τ))) :
    ((Memref.whole b).slice r hr).view.read (Elt Ideal) (((Memref.whole b).slice r' hr').view.set.piecewise g f)
      = ((Memref.whole b).slice r hr).view.read (Elt Ideal) f := by
  funext x
  rw [View.read_apply, View.read_apply]
  congr 1
  refine Finset.piecewise_eq_of_notMem _ _ _ (fun hm => ?_)
  have h1 : ((Memref.whole b).slice r hr).view.emb x ∈ r'.set := (Finset.ext_iff.mp (View.set_slice_whole b r') _).mp hm
  have h2 : ((Memref.whole b).slice r hr).view.emb x ∈ r.set :=
    (Finset.ext_iff.mp (View.set_slice_whole b r) _).mp (View.emb_mem_set _ x)
  exact Finset.disjoint_left.mp hd h2 h1

/-! ## A receive buffer's slot -/

/-- Element `y` of a full-width rectangle at rows `off 0 ..` of a buffer of `n0` rows. -/
theorem unit_emb_eqN (n0 : ℕ) (off size : Fin 2 → ℕ) (inb : ∀ a, off a + size a ≤ (⟨2, ![n0, 256]⟩ : Shape).size a) (hcol : off 1 = 0)
    (y : (⟨2, size⟩ : Shape).Idx) (h0 : off 0 + (y 0).val < n0) (h1 : (y 1).val < 256) :
    (Rect.unit (s := (⟨2, ![n0, 256]⟩ : Shape)) off size inb).emb y = ValueIdx.ix2 (⟨off 0 + (y 0).val, h0⟩ : Fin n0) (⟨(y 1).val, h1⟩ : Fin 256) := by
  funext a
  apply Fin.ext
  match a with
  | ⟨0, _⟩ => show off 0 + 1 * (y 0).val = off 0 + (y 0).val; rw [Nat.one_mul]
  | ⟨1, _⟩ => show off 1 + 1 * (y 1).val = (y 1).val; rw [Nat.one_mul, hcol, Nat.zero_add]

/-- Rows `off 0 ..` of the receive buffer of stream 0 hold `G` on rows `b ..` exactly when the slot's slice reads `G`'s rows. -/
theorem slot6Is_of_read (c : Dev nD) (G : Fin 1024 → Fin 256 → EReal) (b : ℕ)
    (f : Buf (Elt Ideal) ((Memref.whole cc0_scratch6).view.loc (c : Thread nD τ)))
    (off size : Fin 2 → ℕ) (inb : ∀ a, off a + size a ≤ S1280x256.size a) (hr : ∀ a, (Rect.unit (s := S1280x256) off size inb).stride a = 1)
    (hcol : off 1 = 0) (hw : size 1 = 256)
    (hread : (((Memref.whole cc0_scratch6).slice (Rect.unit (s := S1280x256) off size inb) hr).view.read (Elt Ideal) f : (⟨2, size⟩ : Shape).Idx → EReal)
      = fun y => nat2 G (b + (y 0).val) (y 1).val) :
    slot6Is c G (off 0) b (size 0) f := by
  intro t col h1 h2
  let y : (⟨2, size⟩ : Shape).Idx := fun a => match a with
    | ⟨0, _⟩ => ⟨t.val - off 0, by show t.val - off 0 < size 0; omega⟩
    | ⟨1, _⟩ => ⟨col.val, by show col.val < size 1; rw [hw]; exact col.isLt⟩
  have hy : f ((Rect.unit (s := S1280x256) off size inb).emb y) = nat2 G (b + (t.val - off 0)) col.val := congrFun hread y
  have e : (Rect.unit (s := S1280x256) off size inb).emb y = ValueIdx.ix2 t col := by
    rw [unit_emb_eqN 1280 off size inb hcol y (by show off 0 + (t.val - off 0) < 1280; have := t.isLt; omega) col.isLt]
    funext a
    apply Fin.ext
    match a with
    | ⟨0, _⟩ => show off 0 + (t.val - off 0) = t.val; omega
    | ⟨1, _⟩ => rfl
  rw [e] at hy
  exact hy

theorem read_of_slot6Is (c : Dev nD) (G : Fin 1024 → Fin 256 → EReal) (b : ℕ)
    (f : Buf (Elt Ideal) ((Memref.whole cc0_scratch6).view.loc (c : Thread nD τ)))
    (off size : Fin 2 → ℕ) (inb : ∀ a, off a + size a ≤ S1280x256.size a) (hr : ∀ a, (Rect.unit (s := S1280x256) off size inb).stride a = 1)
    (hcol : off 1 = 0) (n : ℕ) (hn : size 0 ≤ n) (h : slot6Is c G (off 0) b n f) :
    (((Memref.whole cc0_scratch6).slice (Rect.unit (s := S1280x256) off size inb) hr).view.read (Elt Ideal) f : (⟨2, size⟩ : Shape).Idx → EReal)
      = fun y => nat2 G (b + (y 0).val) (y 1).val := by
  funext y
  have i0 : off 0 + size 0 ≤ 1280 := inb 0
  have i1 : off 1 + size 1 ≤ 256 := inb 1
  have y0 : (y 0).val < size 0 := (y 0).isLt
  have y1 : (y 1).val < size 1 := (y 1).isLt
  have h0 : off 0 + (y 0).val < 1280 := by omega
  have h1 : (y 1).val < 256 := by omega
  show f ((Rect.unit (s := S1280x256) off size inb).emb y) = _
  rw [unit_emb_eqN 1280 off size inb hcol y h0 h1, h ⟨_, h0⟩ ⟨_, h1⟩ (by show off 0 ≤ off 0 + (y 0).val; omega) (by show off 0 + (y 0).val < off 0 + n; omega)]
  show nat2 G (b + (off 0 + (y 0).val - off 0)) (y 1).val = _
  rw [Nat.add_sub_cancel_left]

/-- Rows `off 0 ..` of the receive buffer of stream 1 hold `G` on rows `b ..` exactly when the slot's slice reads `G`'s rows. -/
theorem slot7Is_of_read (c : Dev nD) (G : Fin 1024 → Fin 256 → EReal) (b : ℕ)
    (f : Buf (Elt Ideal) ((Memref.whole cc0_scratch7).view.loc (c : Thread nD τ)))
    (off size : Fin 2 → ℕ) (inb : ∀ a, off a + size a ≤ S1280x256.size a) (hr : ∀ a, (Rect.unit (s := S1280x256) off size inb).stride a = 1)
    (hcol : off 1 = 0) (hw : size 1 = 256)
    (hread : (((Memref.whole cc0_scratch7).slice (Rect.unit (s := S1280x256) off size inb) hr).view.read (Elt Ideal) f : (⟨2, size⟩ : Shape).Idx → EReal)
      = fun y => nat2 G (b + (y 0).val) (y 1).val) :
    slot7Is c G (off 0) b (size 0) f := by
  intro t col h1 h2
  let y : (⟨2, size⟩ : Shape).Idx := fun a => match a with
    | ⟨0, _⟩ => ⟨t.val - off 0, by show t.val - off 0 < size 0; omega⟩
    | ⟨1, _⟩ => ⟨col.val, by show col.val < size 1; rw [hw]; exact col.isLt⟩
  have hy : f ((Rect.unit (s := S1280x256) off size inb).emb y) = nat2 G (b + (t.val - off 0)) col.val := congrFun hread y
  have e : (Rect.unit (s := S1280x256) off size inb).emb y = ValueIdx.ix2 t col := by
    rw [unit_emb_eqN 1280 off size inb hcol y (by show off 0 + (t.val - off 0) < 1280; have := t.isLt; omega) col.isLt]
    funext a
    apply Fin.ext
    match a with
    | ⟨0, _⟩ => show off 0 + (t.val - off 0) = t.val; omega
    | ⟨1, _⟩ => rfl
  rw [e] at hy
  exact hy

theorem read_of_slot7Is (c : Dev nD) (G : Fin 1024 → Fin 256 → EReal) (b : ℕ)
    (f : Buf (Elt Ideal) ((Memref.whole cc0_scratch7).view.loc (c : Thread nD τ)))
    (off size : Fin 2 → ℕ) (inb : ∀ a, off a + size a ≤ S1280x256.size a) (hr : ∀ a, (Rect.unit (s := S1280x256) off size inb).stride a = 1)
    (hcol : off 1 = 0) (n : ℕ) (hn : size 0 ≤ n) (h : slot7Is c G (off 0) b n f) :
    (((Memref.whole cc0_scratch7).slice (Rect.unit (s := S1280x256) off size inb) hr).view.read (Elt Ideal) f : (⟨2, size⟩ : Shape).Idx → EReal)
      = fun y => nat2 G (b + (y 0).val) (y 1).val := by
  funext y
  have i0 : off 0 + size 0 ≤ 1280 := inb 0
  have i1 : off 1 + size 1 ≤ 256 := inb 1
  have y0 : (y 0).val < size 0 := (y 0).isLt
  have y1 : (y 1).val < size 1 := (y 1).isLt
  have h0 : off 0 + (y 0).val < 1280 := by omega
  have h1 : (y 1).val < 256 := by omega
  show f ((Rect.unit (s := S1280x256) off size inb).emb y) = _
  rw [unit_emb_eqN 1280 off size inb hcol y h0 h1, h ⟨_, h0⟩ ⟨_, h1⟩ (by show off 0 ≤ off 0 + (y 0).val; omega) (by show off 0 + (y 0).val < off 0 + n; omega)]
  show nat2 G (b + (off 0 + (y 0).val - off 0)) (y 1).val = _
  rw [Nat.add_sub_cancel_left]

/-! ## Two devices' partial products, and two pairs' sums -/

theorem nat2_add (G H : Fin 1024 → Fin 256 → EReal) (i j : ℕ) :
    nat2 G i j + nat2 H i j = nat2 (fun row col => G row col + H row col) i j := by
  unfold nat2
  by_cases h : i < 1024 ∧ j < 256
  · rw [dif_pos h, dif_pos h, dif_pos h]
  · rw [dif_neg h, dif_neg h, dif_neg h]; exact add_zero 0

/-- A device's partial product and its first reduce partner's, added: the pair's sum. -/
theorem nat2_Pt_S1 (m : Mem) (l : ℕ) (s : Fin 2) (c : Dev nD) (i j : ℕ) :
    nat2 (Pt m l s c) i j + nat2 (Pt m l s (xr (rm s 0) c)) i j = nat2 (S1 m l s c) i j :=
  nat2_add _ _ i j
/-- A pair's sum and the second reduce partner's pair's, added: the four devices' sum. -/
theorem nat2_S1_S2 (m : Mem) (l : ℕ) (s : Fin 2) (c : Dev nD) (i j : ℕ) :
    nat2 (S1 m l s c) i j + nat2 (S1 m l s (xr (rm s 1) c)) i j = nat2 (S2 m l s c) i j :=
  nat2_add _ _ i j

/-! ## What the two-half steps of the reduce store and add -/

/-- The first half of the send buffer of stream 0, stored with `G`'s rows `b ..`, holds them. -/
theorem snd_store4 (c : Dev nD) (G : Fin 1024 → Fin 256 → EReal) (b : ℕ)
    (f : Buf (Elt Ideal) ((Memref.whole cc0_scratch4).view.loc (c : Thread nD τ)))
    (inb : ∀ a, (![0, 0] : Fin 2 → ℕ) a + S256x256.size a ≤ S512x256.size a) (w : S256x256.Idx → EReal)
    (hw : ∀ y, w y = nat2 G (b + (y 0).val) (y 1).val) (t : Fin 512) (col : Fin 256) (ht : t.val < 256) :
    (((Memref.whole cc0_scratch4).view.slice (Rect.unit (s := S512x256) ![0, 0] S256x256.size inb)).write (Elt Ideal) f w Finset.univ) (ValueIdx.ix2 t col)
      = nat2 G (b + t.val) col.val := by
  have e : (Rect.unit (s := S512x256) ![0, 0] S256x256.size inb).emb (ValueIdx.ix2 (⟨t.val, ht⟩ : Fin 256) col) = ValueIdx.ix2 t col := by
    funext a
    apply Fin.ext
    match a with
    | ⟨0, _⟩ => show 0 + 1 * t.val = t.val; omega
    | ⟨1, _⟩ => show 0 + 1 * col.val = col.val; omega
  rw [← e]
  exact (View.write_emb_of_mem (v := (Memref.whole cc0_scratch4).view.slice (Rect.unit (s := S512x256) ![0, 0] S256x256.size inb)) (Val := Elt Ideal)
    f w (Finset.mem_univ (ValueIdx.ix2 (⟨t.val, ht⟩ : Fin 256) col))).trans (hw _)

/-- The first half of the send buffer of stream 1, stored with `G`'s rows `b ..`, holds them. -/
theorem snd_store5 (c : Dev nD) (G : Fin 1024 → Fin 256 → EReal) (b : ℕ)
    (f : Buf (Elt Ideal) ((Memref.whole cc0_scratch5).view.loc (c : Thread nD τ)))
    (inb : ∀ a, (![0, 0] : Fin 2 → ℕ) a + S256x256.size a ≤ S512x256.size a) (w : S256x256.Idx → EReal)
    (hw : ∀ y, w y = nat2 G (b + (y 0).val) (y 1).val) (t : Fin 512) (col : Fin 256) (ht : t.val < 256) :
    (((Memref.whole cc0_scratch5).view.slice (Rect.unit (s := S512x256) ![0, 0] S256x256.size inb)).write (Elt Ideal) f w Finset.univ) (ValueIdx.ix2 t col)
      = nat2 G (b + t.val) col.val := by
  have e : (Rect.unit (s := S512x256) ![0, 0] S256x256.size inb).emb (ValueIdx.ix2 (⟨t.val, ht⟩ : Fin 256) col) = ValueIdx.ix2 t col := by
    funext a
    apply Fin.ext
    match a with
    | ⟨0, _⟩ => show 0 + 1 * t.val = t.val; omega
    | ⟨1, _⟩ => show 0 + 1 * col.val = col.val; omega
  rw [← e]
  exact (View.write_emb_of_mem (v := (Memref.whole cc0_scratch5).view.slice (Rect.unit (s := S512x256) ![0, 0] S256x256.size inb)) (Val := Elt Ideal)
    f w (Finset.mem_univ (ValueIdx.ix2 (⟨t.val, ht⟩ : Fin 256) col))).trans (hw _)

theorem snd_store_is (c : Dev nD) (G : Fin 1024 → Fin 256 → EReal) (b : ℕ)
    (f : Buf (Elt Ideal) ((Memref.whole cc0_scratch4).view.loc (c : Thread nD τ)))
    (inb : ∀ a, (![0, 0] : Fin 2 → ℕ) a + S256x256.size a ≤ S512x256.size a) (w : S256x256.Idx → EReal)
    (hw : ∀ y, w y = nat2 G (b + (y 0).val) (y 1).val) :
    sndIs c G b 256 (((Memref.whole cc0_scratch4).view.slice (Rect.unit (s := S512x256) ![0, 0] S256x256.size inb)).write (Elt Ideal) f w Finset.univ) :=
  fun t col ht => snd_store4 c G b f inb w hw t col ht

/-- The accumulator's rows plus a vector that is another function's rows: the sum's rows. -/
theorem addin2 (c : Dev nD) (G1 G2 : Fin 1024 → Fin 256 → EReal)
    (fa : Buf (Elt Ideal) ((Memref.whole cc0_scratch2).view.loc (c : Thread nD τ)))
    (off : Fin 2 → ℕ) (inb : ∀ a, off a + S256x256.size a ≤ S1024x256.size a) (hcol : off 1 = 0)
    (hacc : rowsAre2 c G1 (off 0) 256 fa) (L : S256x256.Idx → EReal) (hL : ∀ y, L y = nat2 G2 (off 0 + (y 0).val) (y 1).val)
    (y : S256x256.Idx) :
    (show S256x256.Idx → EReal from (Memref.whole cc0_scratch2).view.readAt (Elt Ideal) (Rect.unit (s := S1024x256) off S256x256.size inb).toLoadRect fa) y + L y
      = nat2 (fun r c => G1 r c + G2 r c) (off 0 + (y 0).val) (y 1).val := by
  have h := congrFun (load_rows2 c G1 (off 0) 256 fa hacc off S256x256.size inb hcol (le_refl _) (le_refl _)) y
  exact (congrArg₂ (fun a b : EReal => a + b) h (hL y)).trans (nat2_add G1 G2 _ _)

/-- The accumulator's rows plus a vector that is another function's rows: the sum's rows. -/
theorem addin3 (c : Dev nD) (G1 G2 : Fin 1024 → Fin 256 → EReal)
    (fa : Buf (Elt Ideal) ((Memref.whole cc0_scratch3).view.loc (c : Thread nD τ)))
    (off : Fin 2 → ℕ) (inb : ∀ a, off a + S256x256.size a ≤ S1024x256.size a) (hcol : off 1 = 0)
    (hacc : rowsAre3 c G1 (off 0) 256 fa) (L : S256x256.Idx → EReal) (hL : ∀ y, L y = nat2 G2 (off 0 + (y 0).val) (y 1).val)
    (y : S256x256.Idx) :
    (show S256x256.Idx → EReal from (Memref.whole cc0_scratch3).view.readAt (Elt Ideal) (Rect.unit (s := S1024x256) off S256x256.size inb).toLoadRect fa) y + L y
      = nat2 (fun r c => G1 r c + G2 r c) (off 0 + (y 0).val) (y 1).val := by
  have h := congrFun (load_rows3 c G1 (off 0) 256 fa hacc off S256x256.size inb hcol (le_refl _) (le_refl _)) y
  exact (congrArg₂ (fun a b : EReal => a + b) h (hL y)).trans (nat2_add G1 G2 _ _)

theorem S1_nat2 (m : Mem) (l : ℕ) (s : Fin 2) (c : Dev nD) (i j : ℕ) :
    nat2 (S1 m l s c) i j = nat2 (Pt m l s c) i j + nat2 (Pt m l s (xr (rm s 0) c)) i j := (nat2_Pt_S1 m l s c i j).symm

/-! ## The weight windows loaded whole -/

theorem load_stg1 (c : Dev nD) (f : Buf (Elt Ideal) ((Memref.whole cc0_stg1_0).view.loc (c : Thread nD τ)))
    (inb : ∀ a, (![0, 0] : Fin 2 → ℕ) a + S256x512.size a ≤ S256x512.size a) (y : S256x512.Idx) :
    (Memref.whole cc0_stg1_0).view.readAt (Elt Ideal) (Rect.unit (s := S256x512) ![0, 0] S256x512.size inb).toLoadRect f y = f y := by
  show f ((Rect.unit (s := S256x512) ![0, 0] S256x512.size inb).emb y) = f y
  congr 1
  funext a
  apply Fin.ext
  match a with
  | ⟨0, _⟩ => show 0 + 1 * (y 0).val = (y 0).val; omega
  | ⟨1, _⟩ => show 0 + 1 * (y 1).val = (y 1).val; omega

theorem load_stg2 (c : Dev nD) (f : Buf (Elt Ideal) ((Memref.whole cc0_stg2_0).view.loc (c : Thread nD τ)))
    (inb : ∀ a, (![0, 0] : Fin 2 → ℕ) a + S512x256.size a ≤ S512x256.size a) (y : S512x256.Idx) :
    (Memref.whole cc0_stg2_0).view.readAt (Elt Ideal) (Rect.unit (s := S512x256) ![0, 0] S512x256.size inb).toLoadRect f y = f y := by
  show f ((Rect.unit (s := S512x256) ![0, 0] S512x256.size inb).emb y) = f y
  congr 1
  funext a
  apply Fin.ext
  match a with
  | ⟨0, _⟩ => show 0 + 1 * (y 0).val = (y 0).val; omega
  | ⟨1, _⟩ => show 0 + 1 * (y 1).val = (y 1).val; omega

theorem load_stg3 (c : Dev nD) (f : Buf (Elt Ideal) ((Memref.whole cc0_stg3_0).view.loc (c : Thread nD τ)))
    (inb : ∀ a, (![0, 0] : Fin 2 → ℕ) a + S256x512.size a ≤ S256x512.size a) (y : S256x512.Idx) :
    (Memref.whole cc0_stg3_0).view.readAt (Elt Ideal) (Rect.unit (s := S256x512) ![0, 0] S256x512.size inb).toLoadRect f y = f y := by
  show f ((Rect.unit (s := S256x512) ![0, 0] S256x512.size inb).emb y) = f y
  congr 1
  funext a
  apply Fin.ext
  match a with
  | ⟨0, _⟩ => show 0 + 1 * (y 0).val = (y 0).val; omega
  | ⟨1, _⟩ => show 0 + 1 * (y 1).val = (y 1).val; omega

theorem load_stg4 (c : Dev nD) (f : Buf (Elt Ideal) ((Memref.whole cc0_stg4_0).view.loc (c : Thread nD τ)))
    (inb : ∀ a, (![0, 0] : Fin 2 → ℕ) a + S512x256.size a ≤ S512x256.size a) (y : S512x256.Idx) :
    (Memref.whole cc0_stg4_0).view.readAt (Elt Ideal) (Rect.unit (s := S512x256) ![0, 0] S512x256.size inb).toLoadRect f y = f y := by
  show f ((Rect.unit (s := S512x256) ![0, 0] S512x256.size inb).emb y) = f y
  congr 1
  funext a
  apply Fin.ext
  match a with
  | ⟨0, _⟩ => show 0 + 1 * (y 0).val = (y 0).val; omega
  | ⟨1, _⟩ => show 0 + 1 * (y 1).val = (y 1).val; omega

theorem load_stg5 (c : Dev nD) (f : Buf (Elt Ideal) ((Memref.whole cc0_stg5_0).view.loc (c : Thread nD τ)))
    (inb : ∀ a, (![0, 0] : Fin 2 → ℕ) a + S256x512.size a ≤ S256x512.size a) (y : S256x512.Idx) :
    (Memref.whole cc0_stg5_0).view.readAt (Elt Ideal) (Rect.unit (s := S256x512) ![0, 0] S256x512.size inb).toLoadRect f y = f y := by
  show f ((Rect.unit (s := S256x512) ![0, 0] S256x512.size inb).emb y) = f y
  congr 1
  funext a
  apply Fin.ext
  match a with
  | ⟨0, _⟩ => show 0 + 1 * (y 0).val = (y 0).val; omega
  | ⟨1, _⟩ => show 0 + 1 * (y 1).val = (y 1).val; omega

theorem load_stg6 (c : Dev nD) (f : Buf (Elt Ideal) ((Memref.whole cc0_stg6_0).view.loc (c : Thread nD τ)))
    (inb : ∀ a, (![0, 0] : Fin 2 → ℕ) a + S512x256.size a ≤ S512x256.size a) (y : S512x256.Idx) :
    (Memref.whole cc0_stg6_0).view.readAt (Elt Ideal) (Rect.unit (s := S512x256) ![0, 0] S512x256.size inb).toLoadRect f y = f y := by
  show f ((Rect.unit (s := S512x256) ![0, 0] S512x256.size inb).emb y) = f y
  congr 1
  funext a
  apply Fin.ext
  match a with
  | ⟨0, _⟩ => show 0 + 1 * (y 0).val = (y 0).val; omega
  | ⟨1, _⟩ => show 0 + 1 * (y 1).val = (y 1).val; omega

/-! ## The weight buffers stored whole -/

theorem win_store (m : Mem) (c : Dev nD) (l : Fin 3) (f : Buf (Elt Ideal) ((Memref.whole cc0_scratch8).view.loc (c : Thread nD τ)))
    (inb : ∀ a, (![0, 0] : Fin 2 → ℕ) a + S256x512.size a ≤ S256x512.size a) (w : S256x512.Idx → EReal)
    (hw : ∀ (e : Fin 256) (k : Fin 512), w (ValueIdx.ix2 e k) = winOf m l c e k) :
    winIs m c l (((Memref.whole cc0_scratch8).view.slice (Rect.unit (s := S256x512) ![0, 0] S256x512.size inb)).write (Elt Ideal) f w Finset.univ) := by
  intro e k
  have he : (Rect.unit (s := S256x512) ![0, 0] S256x512.size inb).emb (ValueIdx.ix2 e k) = ValueIdx.ix2 e k := by
    funext a
    apply Fin.ext
    match a with
    | ⟨0, _⟩ => show 0 + 1 * e.val = e.val; omega
    | ⟨1, _⟩ => show 0 + 1 * k.val = k.val; omega
  rw [← he]
  exact (View.write_emb_of_mem (v := (Memref.whole cc0_scratch8).view.slice (Rect.unit (s := S256x512) ![0, 0] S256x512.size inb)) (Val := Elt Ideal)
    f w (Finset.mem_univ (ValueIdx.ix2 e k))).trans (hw e k)

theorem wout_store (m : Mem) (c : Dev nD) (l : Fin 3) (f : Buf (Elt Ideal) ((Memref.whole cc0_scratch9).view.loc (c : Thread nD τ)))
    (inb : ∀ a, (![0, 0] : Fin 2 → ℕ) a + S512x256.size a ≤ S512x256.size a) (w : S512x256.Idx → EReal)
    (hw : ∀ (k : Fin 512) (col : Fin 256), w (ValueIdx.ix2 k col) = woutOf m l c k col) :
    woutIs m c l (((Memref.whole cc0_scratch9).view.slice (Rect.unit (s := S512x256) ![0, 0] S512x256.size inb)).write (Elt Ideal) f w Finset.univ) := by
  intro k col
  have he : (Rect.unit (s := S512x256) ![0, 0] S512x256.size inb).emb (ValueIdx.ix2 k col) = ValueIdx.ix2 k col := by
    funext a
    apply Fin.ext
    match a with
    | ⟨0, _⟩ => show 0 + 1 * k.val = k.val; omega
    | ⟨1, _⟩ => show 0 + 1 * col.val = col.val; omega
  rw [← he]
  exact (View.write_emb_of_mem (v := (Memref.whole cc0_scratch9).view.slice (Rect.unit (s := S512x256) ![0, 0] S512x256.size inb)) (Val := Elt Ideal)
    f w (Finset.mem_univ (ValueIdx.ix2 k col))).trans (hw k col)

/-- info: 'Cert.KernelIdeal.Val.read_write_other' depends on axioms: [propext, Classical.choice, Quot.sound] -/
#guard_msgs in #print axioms read_write_other
/-- info: 'Cert.KernelIdeal.Val.slot6Is_of_read' depends on axioms: [propext, Classical.choice, Quot.sound] -/
#guard_msgs in #print axioms slot6Is_of_read

end Cert.KernelIdeal.Val

end
-- ==== Proof.KernelIdeal.SegV7.lean ====
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StepsVP
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.ValReduce
import proofs.«900979_g7700000000000980_dist_mlpseq_tp1d_bs_bs_b256_d256_h512_v7x_i8_bf16_1_alg».proof.Proof.KernelIdeal.QuietLemmas
import proofs.«900979_g7700000000000980_dist_mlpseq_tp1d_bs_bs_b256_d256_h512_v7x_i8_bf16_1_alg».proof.Proof.KernelIdeal.SegAB7
import proofs.«900979_g7700000000000980_dist_mlpseq_tp1d_bs_bs_b256_d256_h512_v7x_i8_bf16_1_alg».proof.Proof.KernelIdeal.SegV9

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open AB

local notation "𝕄" => MT nD τ sig ℕ (Elt Ideal) ℕ UU ℕ

variable (m : Mem)

/-! # The two-half reduce step of layer 1, with contents

    The device multiplies the partner's two pairs of blocks of the gathered activations by its slices of the layer's
    weights, sends the products, receives the partner's products on its own two pairs and adds them in: two devices'
    sums on the own four blocks (first stream), on the own pair and in the returned vector (second stream). The
    matrix products' and the weight casts' values are hypotheses `HV…` / `HW…` of the theorem; everything else about
    contents is proved here. -/

theorem v7_rows0 : ∀ c : Dev nD,
    ((k0_off7 c 0 = k0_off9 c 0 ∧ k0_off11 c 0 = k0_off9 c 0 + 256) ∨ (k0_off7 c 0 = k0_off9 c 0 + 256 ∧ k0_off11 c 0 = k0_off9 c 0))
    ∧ (k0_off13 c 0 + 256 ≤ k0_off9 c 0 ∨ k0_off9 c 0 + 512 ≤ k0_off13 c 0)
    ∧ (k0_off15 c 0 + 256 ≤ k0_off9 c 0 ∨ k0_off9 c 0 + 512 ≤ k0_off15 c 0)
    ∧ k0_off7 (xr 4 c) 0 = k0_off13 c 0 ∧ k0_off11 (xr 4 c) 0 = k0_off15 c 0 := by decide +kernel

theorem v7_rows1 : ∀ c : Dev nD,
    ((k0_off8 c 0 = k0_off10 c 0 ∧ k0_off12 c 0 = k0_off10 c 0 + 256) ∨ (k0_off8 c 0 = k0_off10 c 0 + 256 ∧ k0_off12 c 0 = k0_off10 c 0))
    ∧ (k0_off14 c 0 + 256 ≤ k0_off10 c 0 ∨ k0_off10 c 0 + 512 ≤ k0_off14 c 0)
    ∧ (k0_off16 c 0 + 256 ≤ k0_off10 c 0 ∨ k0_off10 c 0 + 512 ≤ k0_off16 c 0)
    ∧ k0_off8 (xr 1 c) 0 = k0_off14 c 0 ∧ k0_off12 (xr 1 c) 0 = k0_off16 c 0 := by decide +kernel

/-- What a landing of one of the four copies holds, from what its source slice read. -/
theorem v7_pay25 (c : Dev nD) (fs : Buf (Elt Ideal) ((SA 0).view.loc (c : Thread nD τ)))
    (h : (SA 0).view.read (Elt Ideal) fs = rows256 (Pt m 1 0 c) (k0_off13 c 0))
    (fd : Buf (Elt Ideal) ((R0 0).view.loc (xr 4 c : Thread nD τ))) :
    iprop(((R0 0).view.loc (xr 4 c : Thread nD τ) ↦[(R0 0).view.set]{fullShare} ((R0 0).view.write (Elt Ideal) fd ((SA 0).view.read (Elt Ideal) fs) Finset.univ)) ∗ emp)
      ⊢ payDmaV m (xr 4 c) 25 1 := by
  show _ ⊢ (owns (xr 4 c : Thread nD τ) (R0 0) fullShare (rows256 (Pt m 1 0 (xr 4 (xr 4 c))) (pairRow 0 (xr 4 c))) : sProp 𝕄)
  rw [xr_xr, show pairRow 0 (xr 4 c) = k0_off13 c 0 from (v7_rows0 c).2.2.2.1]
  exact (sep_emp (PROP := sProp 𝕄)).1.trans (owns_of_write (xr 4 c) (R0 0) fd _ _ h)

theorem v7_pay35 (c : Dev nD) (fs : Buf (Elt Ideal) ((SA 1).view.loc (c : Thread nD τ)))
    (h : (SA 1).view.read (Elt Ideal) fs = rows256 (Pt m 1 1 c) (k0_off14 c 0))
    (fd : Buf (Elt Ideal) ((R0 1).view.loc (xr 1 c : Thread nD τ))) :
    iprop(((R0 1).view.loc (xr 1 c : Thread nD τ) ↦[(R0 1).view.set]{fullShare} ((R0 1).view.write (Elt Ideal) fd ((SA 1).view.read (Elt Ideal) fs) Finset.univ)) ∗ emp)
      ⊢ payDmaV m (xr 1 c) 35 1 := by
  show _ ⊢ (owns (xr 1 c : Thread nD τ) (R0 1) fullShare (rows256 (Pt m 1 1 (xr 1 (xr 1 c))) (pairRow 1 (xr 1 c))) : sProp 𝕄)
  rw [xr_xr, show pairRow 1 (xr 1 c) = k0_off14 c 0 from (v7_rows1 c).2.2.2.1]
  exact (sep_emp (PROP := sProp 𝕄)).1.trans (owns_of_write (xr 1 c) (R0 1) fd _ _ h)

theorem v7_pay29 (c : Dev nD) (fs : Buf (Elt Ideal) ((SB 0).view.loc (c : Thread nD τ)))
    (h : (SB 0).view.read (Elt Ideal) fs = rows256 (Pt m 1 0 c) (k0_off15 c 0))
    (fd : Buf (Elt Ideal) ((R1 0).view.loc (xr 4 c : Thread nD τ))) :
    iprop(((R1 0).view.loc (xr 4 c : Thread nD τ) ↦[(R1 0).view.set]{fullShare} ((R1 0).view.write (Elt Ideal) fd ((SB 0).view.read (Elt Ideal) fs) Finset.univ))
        ∗ (ownAt (F := Ideal) c (R2 1) ∗ reached ER (dcell c (dsem 36)) 1))
      ⊢ payDmaV m (xr 4 c) 29 1 := by
  show _ ⊢ (iprop(owns (xr 4 c : Thread nD τ) (R1 0) fullShare (rows256 (Pt m 1 0 (xr 4 (xr 4 c))) (pair2Row 0 (xr 4 c)))
      ∗ (ownAt (xr 4 (xr 4 c)) (R2 1) ∗ reached ER (dcell (xr 4 (xr 4 c)) (rsR 1 1)) 1)) : sProp 𝕄)
  rw [xr_xr, show pair2Row 0 (xr 4 c) = k0_off15 c 0 from (v7_rows0 c).2.2.2.2]
  exact BI.sep_mono (owns_of_write (xr 4 c) (R1 0) fd _ _ h) (Entails.refl _)

theorem v7_pay39 (c : Dev nD) (fs : Buf (Elt Ideal) ((SB 1).view.loc (c : Thread nD τ)))
    (h : (SB 1).view.read (Elt Ideal) fs = rows256 (Pt m 1 1 c) (k0_off16 c 0))
    (fd : Buf (Elt Ideal) ((R1 1).view.loc (xr 1 c : Thread nD τ))) :
    iprop(((R1 1).view.loc (xr 1 c : Thread nD τ) ↦[(R1 1).view.set]{fullShare} ((R1 1).view.write (Elt Ideal) fd ((SB 1).view.read (Elt Ideal) fs) Finset.univ))
        ∗ (ownAt (F := Ideal) c (R4 0) ∗ reached ER (dcell c (dsem 28)) 0))
      ⊢ payDmaV m (xr 1 c) 39 1 := by
  show _ ⊢ (iprop(owns (xr 1 c : Thread nD τ) (R1 1) fullShare (rows256 (Pt m 1 1 (xr 1 (xr 1 c))) (pair2Row 1 (xr 1 c)))
      ∗ (ownAt (xr 1 (xr 1 c)) (R4 0) ∗ reached ER (dcell (xr 1 (xr 1 c)) (rsR 0 3)) 0)) : sProp 𝕄)
  rw [xr_xr, show pair2Row 1 (xr 1 c) = k0_off16 c 0 from (v7_rows1 c).2.2.2.2]
  exact BI.sep_mono (owns_of_write (xr 1 c) (R1 1) fd _ _ h) (Entails.refl _)

/-- The state the segment leaves (what the third reduce step of the layer starts from). -/
def Q7post (K : GSem nD τ sig → ℕ) (c : Dev nD) : sProp 𝕄 :=
  QV m K c 22 2 (fun _ => True) (fun _ => True) (fun _ => True)
    (rowsAre2 c (S1 m 1 0 c) (quadRow 0 c) 512) (rowsAre3 c (S1 m 1 1 c) (pairRow 1 c) 256)
    (fun _ => True) (fun _ => True) (fun _ => True) (fun _ => True)
    ∅ ∅ ((R2 0).view.set ∪ (R4 0).view.set) (R2 1).view.set
    iprop(grant (xr 3 c) (R2 0) (rsR 0 1) 1 ∗ grant (xr 4 c) (R2 1) (rsR 1 1) 1 ∗ grantLast (xr 1 c) 0 1)

set_option maxHeartbeats 16000000 in
theorem seg7_okV (c : Dev nD) (v2 v678 v681 v811 v815 : BitVec 32) (v818 : Vec Ideal S256x256 .bf16)
    (HV43 : ∀ (w8 : Buf (Elt Ideal) ((Memref.whole cc0_scratch8).view.loc (c : Thread nD τ))) (w9 : Buf (Elt Ideal) ((Memref.whole cc0_scratch9).view.loc (c : Thread nD τ))),
      winIs m c 1 w8 → woutIs m c 1 w9 → ∀ y : S256x256.Idx, (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) y = nat2 (Pt m 1 0 c) (k0_off13 c 0 + (y 0).val) (y 1).val)
    (HV44 : ∀ (x1 : Buf (Elt Ideal) ((Memref.whole cc0_scratch1).view.loc (c : Thread nD τ))) (w8 : Buf (Elt Ideal) ((Memref.whole cc0_scratch8).view.loc (c : Thread nD τ))) (w9 : Buf (Elt Ideal) ((Memref.whole cc0_scratch9).view.loc (c : Thread nD τ))),
      rowsAre1 c (A m 1 1) 0 1024 x1 → winIs m c 1 w8 → woutIs m c 1 w9 → ∀ y : S256x256.Idx, (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) y = nat2 (Pt m 1 1 c) (k0_off14 c 0 + (y 0).val) (y 1).val)
    (HV48 : ∀ (x0 : Buf (Elt Ideal) ((Memref.whole cc0_scratch0).view.loc (c : Thread nD τ))) (w8 : Buf (Elt Ideal) ((Memref.whole cc0_scratch8).view.loc (c : Thread nD τ))) (w9 : Buf (Elt Ideal) ((Memref.whole cc0_scratch9).view.loc (c : Thread nD τ))),
      rowsAre0 c (A m 1 0) 0 1024 x0 → winIs m c 1 w8 → woutIs m c 1 w9 → ∀ y : S256x256.Idx, (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) y = nat2 (Pt m 1 0 c) (k0_off15 c 0 + (y 0).val) (y 1).val)
    (HV49 : ∀ (x1 : Buf (Elt Ideal) ((Memref.whole cc0_scratch1).view.loc (c : Thread nD τ))) (w8 : Buf (Elt Ideal) ((Memref.whole cc0_scratch8).view.loc (c : Thread nD τ))) (w9 : Buf (Elt Ideal) ((Memref.whole cc0_scratch9).view.loc (c : Thread nD τ))),
      rowsAre1 c (A m 1 1) 0 1024 x1 → winIs m c 1 w8 → woutIs m c 1 w9 → ∀ y : S256x256.Idx, (k0_pay49 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) y = nat2 (Pt m 1 1 c) (k0_off16 c 0 + (y 0).val) (y 1).val)
    (HW8 : ∀ (l5 : Buf (Elt Ideal) ((Memref.whole cc0_stg5_0).view.loc (c : Thread nD τ))) (w8 : Buf (Elt Ideal) ((Memref.whole cc0_scratch8).view.loc (c : Thread nD τ))),
      (∀ i, l5 i = m ((c : Thread nD τ).loc main_arg5) i) → winIs m c 2 (((Memref.whole cc0_scratch8).access (Rect.unit (s := S256x512) ![0, 0] S256x512.size inb_S256x512_S256x512_0_0)).write (Elt Ideal) w8 (k0_pay52 (F := Ideal) ((Memref.whole cc0_stg5_0).view.readAt (Elt Ideal) (Rect.unit (s := S256x512) ![0, 0] S256x512.size inb_S256x512_S256x512_0_0).toLoadRect l5)) Finset.univ))
    (HW9 : ∀ (l6 : Buf (Elt Ideal) ((Memref.whole cc0_stg6_0).view.loc (c : Thread nD τ))) (w9 : Buf (Elt Ideal) ((Memref.whole cc0_scratch9).view.loc (c : Thread nD τ))),
      (∀ i, l6 i = m ((c : Thread nD τ).loc main_arg6) i) → woutIs m c 2 (((Memref.whole cc0_scratch9).access (Rect.unit (s := S512x256) ![0, 0] S512x256.size inb_S512x256_S512x256_0_0)).write (Elt Ideal) w9 (k0_pay54 (F := Ideal) (k0_pay53 (F := Ideal) ((Memref.whole cc0_stg6_0).view.readAt (Elt Ideal) (Rect.unit (s := S512x256) ![0, 0] S512x256.size inb_S512x256_S512x256_0_0).toLoadRect l6))) Finset.univ)) :
    (iprop(∃ K, QV6 m K c) : sProp 𝕄)
      ⊢ wp frame (wpE (defs₀ (F := Ideal)) Variants.none (c : Thread nD τ) none) Set.univ
          (seg7 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v811 v815 v818)
          (fun v => iprop(⌜∀ y : S256x256.Idx, v y = nat2 (S1 m 1 1 c) (pair2Row 1 c + (y 0).val) (y 1).val⌝ ∗ ∃ K, Q7post m K c)) := by
  -- what the local loads and stores need of the buffers held by parts
  have hin4 : (Memref.whole cc0_scratch4).view.setOn (Rect.unit (s := S512x256) ![256, 0] S256x256.size inb_S512x256_S256x256_256_0).set
      ⊆ (Finset.univ \ (SA 0).view.set : Finset (Idx ((SA 0).view.loc (c : Thread nD τ)))) := sndB_off_A 0
  have hin5 : (Memref.whole cc0_scratch5).view.setOn (Rect.unit (s := S512x256) ![256, 0] S256x256.size inb_S512x256_S256x256_256_0).set
      ⊆ (Finset.univ \ (SA 1).view.set : Finset (Idx ((SA 1).view.loc (c : Thread nD τ)))) := sndB_off_A 1
  have hR00 : (Memref.whole cc0_scratch6).view.setOn (Rect.unit (s := S1280x256) ![0, 0] S256x256.size inb_S1280x256_S256x256_0_0).set ⊆ (R0 0).view.set := (setOn_slice_eq cc0_scratch6 _ (fun _ => rfl)).subset
  have hR01 : (Memref.whole cc0_scratch7).view.setOn (Rect.unit (s := S1280x256) ![0, 0] S256x256.size inb_S1280x256_S256x256_0_0).set ⊆ (R0 1).view.set := (setOn_slice_eq cc0_scratch7 _ (fun _ => rfl)).subset
  have hR10 : (Memref.whole cc0_scratch6).view.setOn (Rect.unit (s := S1280x256) ![256, 0] S256x256.size inb_S1280x256_S256x256_256_0).set ⊆ (R1 0).view.set := (setOn_slice_eq cc0_scratch6 _ (fun _ => rfl)).subset
  have hR11 : (Memref.whole cc0_scratch7).view.setOn (Rect.unit (s := S1280x256) ![256, 0] S256x256.size inb_S1280x256_S256x256_256_0).set ⊆ (R1 1).view.set := (setOn_slice_eq cc0_scratch7 _ (fun _ => rfl)).subset
  have hst4 : ((Memref.whole cc0_scratch4).access (Rect.unit (s := S512x256) ![256, 0] S256x256.size inb_S512x256_S256x256_256_0)).setOn Finset.univ
      ⊆ (Finset.univ \ (SA 0).view.set : Finset (Idx ((SA 0).view.loc (c : Thread nD τ)))) := sndB_store_off_A 0
  have hst5 : ((Memref.whole cc0_scratch5).access (Rect.unit (s := S512x256) ![256, 0] S256x256.size inb_S512x256_S256x256_256_0)).setOn Finset.univ
      ⊆ (Finset.univ \ (SA 1).view.set : Finset (Idx ((SA 1).view.loc (c : Thread nD τ)))) := sndB_store_off_A 1
  have hdX : Disjoint ((R0 0).view.set ∪ (R1 0).view.set ∪ (R2 0).view.set) (R4 0).view.set :=
    Finset.disjoint_union_left.mpr ⟨Finset.disjoint_union_left.mpr ⟨disj_R0_R4 0, disj_R1_R4 0⟩, disj_R2_R4 0⟩
  have hd60 : Disjoint ((R2 0).view.set ∪ (R4 0).view.set ∪ (R1 0).view.set) (R0 0).view.set :=
    Finset.disjoint_union_left.mpr ⟨Finset.disjoint_union_left.mpr ⟨(disj_R0_R2 0).symm, (disj_R0_R4 0).symm⟩, (disj_R0_R1 0).symm⟩
  have hd61 : Disjoint ((R2 0).view.set ∪ (R4 0).view.set) (R1 0).view.set :=
    Finset.disjoint_union_left.mpr ⟨(disj_R1_R2 0).symm, (disj_R1_R4 0).symm⟩
  have hd70 : Disjoint ((R2 1).view.set ∪ (R1 1).view.set) (R0 1).view.set :=
    Finset.disjoint_union_left.mpr ⟨(disj_R0_R2 1).symm, (disj_R0_R1 1).symm⟩
  have hd71 : Disjoint (R2 1).view.set (R1 1).view.set := (disj_R1_R2 1).symm
  have hsz : S256x256.size 0 = 256 := rfl
  obtain ⟨hq0, hd13, hd15, hp13, hp15⟩ := v7_rows0 c
  obtain ⟨hq1, hd14, hd16, hp14, hp16⟩ := v7_rows1 c
  refine exists_elim fun K => ?_
  unfold QV6 QV localBufsV bufV heldButV
  iintro ⟨#HI, #HRA, #Hlev, Hbar, Hpos, Htoks, Hcreds, ⟨%W, HO⟩, ⟨Hl0, Hl1, Hl2, Hl3, Hl4, ⟨%l5, Hl5, %hl5⟩, ⟨%l6, Hl6, %hl6⟩, Hl7, ⟨%a2, HS2, %h2⟩, ⟨%a3, HS3, %h3⟩, ⟨%b4, HS4, %h4⟩, ⟨%b5, HS5, %h5⟩, ⟨%w8, HS8, %h8⟩, ⟨%w9, HS9, %h9⟩⟩, ⟨%x0, Hs0, %hx0⟩, ⟨%x1, Hs1, %hx1⟩, ⟨%f6, Hr0, %hf6⟩, ⟨%f7, Hr1, %hf7⟩, Hg1, Hg2, Hg3, Hg4, Hg5⟩
  have h2q : rowsAre2 c (Pt m 1 0 c) (k0_off9 c 0) 512 a2 := h2
  have h3q : rowsAre3 c (Pt m 1 1 c) (k0_off10 c 0) 512 a3 := h3
  have hx0' : rowsAre0 c (A m 1 0) 0 1024 x0 := hx0
  have hx1' : rowsAre1 c (A m 1 1) 0 1024 x1 := hx1
  -- the contents' facts along the segment
  have f21n := store_new2 c (Pt m 1 0 c) a2 (k0_off13 c) S256x256.size (k0_off13_inb c) (off13_col c) rfl _ (HV43 w8 w9 h8 h9)
  have f21q := store_keep2 c (Pt m 1 0 c) (k0_off9 c 0) (512) a2 h2q (k0_off13 c) S256x256.size (k0_off13_inb c) (off13_col c) rfl (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) (by omega)
  have f31n := store_new3 c (Pt m 1 1 c) a3 (k0_off14 c) S256x256.size (k0_off14_inb c) (off14_col c) rfl _ (HV44 x1 w8 w9 hx1' h8 h9)
  have f31q := store_keep3 c (Pt m 1 1 c) (k0_off10 c 0) (512) a3 h3q (k0_off14 c) S256x256.size (k0_off14_inb c) (off14_col c) rfl (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) (by omega)
  have hr18 : (SA 0).view.read (Elt Ideal) (((Memref.whole cc0_scratch4).access (Rect.unit (s := S512x256) ![0, 0] S256x256.size inb_S512x256_S256x256_0_0)).write (Elt Ideal) b4 (k0_pay45 (F := Ideal) ((Memref.whole cc0_scratch2).view.readAt (Elt Ideal) (Rect.unit (s := S1024x256) (k0_off13 c) S256x256.size (k0_off13_inb c)).toLoadRect (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ))) Finset.univ) = rows256 (Pt m 1 0 c) (k0_off13 c 0) := by
    refine (View.read_write_univ _ _).trans ?_
    funext y
    rw [k0_pay45_apply, load_rows2 c (Pt m 1 0 c) (k0_off13 c 0) (S256x256.size 0) _ f21n (k0_off13 c) S256x256.size (k0_off13_inb c) (off13_col c) (Nat.le_refl _) (Nat.le_refl _)]
    rfl
  have hr19 : (SA 1).view.read (Elt Ideal) (((Memref.whole cc0_scratch5).access (Rect.unit (s := S512x256) ![0, 0] S256x256.size inb_S512x256_S256x256_0_0)).write (Elt Ideal) b5 (k0_pay46 (F := Ideal) ((Memref.whole cc0_scratch3).view.readAt (Elt Ideal) (Rect.unit (s := S1024x256) (k0_off14 c) S256x256.size (k0_off14_inb c)).toLoadRect (((Memref.whole cc0_scratch3).access (Rect.unit (s := S1024x256) (k0_off14 c) S256x256.size (k0_off14_inb c))).write (Elt Ideal) a3 (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ))) Finset.univ) = rows256 (Pt m 1 1 c) (k0_off14 c 0) := by
    refine (View.read_write_univ _ _).trans ?_
    funext y
    rw [k0_pay46_apply, load_rows3 c (Pt m 1 1 c) (k0_off14 c 0) (S256x256.size 0) _ f31n (k0_off14 c) S256x256.size (k0_off14_inb c) (off14_col c) (Nat.le_refl _) (Nat.le_refl _)]
    rfl
  have f22n := store_new2 c (Pt m 1 0 c) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_off15 c) S256x256.size (k0_off15_inb c) (off15_col c) rfl _ (HV48 x0 w8 w9 hx0' h8 h9)
  have f22q := store_keep2 c (Pt m 1 0 c) (k0_off9 c 0) (512) _ f21q (k0_off15 c) S256x256.size (k0_off15_inb c) (off15_col c) rfl (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) (by omega)
  have f32n := store_new3 c (Pt m 1 1 c) (((Memref.whole cc0_scratch3).access (Rect.unit (s := S1024x256) (k0_off14 c) S256x256.size (k0_off14_inb c))).write (Elt Ideal) a3 (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_off16 c) S256x256.size (k0_off16_inb c) (off16_col c) rfl _ (HV49 x1 w8 w9 hx1' h8 h9)
  have f32q := store_keep3 c (Pt m 1 1 c) (k0_off10 c 0) (512) _ f31q (k0_off16 c) S256x256.size (k0_off16_inb c) (off16_col c) rfl (k0_pay49 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) (by omega)
  have hr20 : (SB 0).view.read (Elt Ideal) (((Memref.whole cc0_scratch4).access (Rect.unit (s := S512x256) ![256, 0] S256x256.size inb_S512x256_S256x256_256_0)).write (Elt Ideal) (((Memref.whole cc0_scratch4).access (Rect.unit (s := S512x256) ![0, 0] S256x256.size inb_S512x256_S256x256_0_0)).write (Elt Ideal) b4 (k0_pay45 (F := Ideal) ((Memref.whole cc0_scratch2).view.readAt (Elt Ideal) (Rect.unit (s := S1024x256) (k0_off13 c) S256x256.size (k0_off13_inb c)).toLoadRect (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ))) Finset.univ) (k0_pay50 (F := Ideal) ((Memref.whole cc0_scratch2).view.readAt (Elt Ideal) (Rect.unit (s := S1024x256) (k0_off15 c) S256x256.size (k0_off15_inb c)).toLoadRect (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ))) Finset.univ) = rows256 (Pt m 1 0 c) (k0_off15 c 0) := by
    refine (View.read_write_univ _ _).trans ?_
    funext y
    rw [k0_pay50_apply, load_rows2 c (Pt m 1 0 c) (k0_off15 c 0) (S256x256.size 0) _ f22n (k0_off15 c) S256x256.size (k0_off15_inb c) (off15_col c) (Nat.le_refl _) (Nat.le_refl _)]
    rfl
  have hr21 : (SB 1).view.read (Elt Ideal) (((Memref.whole cc0_scratch5).access (Rect.unit (s := S512x256) ![256, 0] S256x256.size inb_S512x256_S256x256_256_0)).write (Elt Ideal) (((Memref.whole cc0_scratch5).access (Rect.unit (s := S512x256) ![0, 0] S256x256.size inb_S512x256_S256x256_0_0)).write (Elt Ideal) b5 (k0_pay46 (F := Ideal) ((Memref.whole cc0_scratch3).view.readAt (Elt Ideal) (Rect.unit (s := S1024x256) (k0_off14 c) S256x256.size (k0_off14_inb c)).toLoadRect (((Memref.whole cc0_scratch3).access (Rect.unit (s := S1024x256) (k0_off14 c) S256x256.size (k0_off14_inb c))).write (Elt Ideal) a3 (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ))) Finset.univ) (k0_pay51 (F := Ideal) ((Memref.whole cc0_scratch3).view.readAt (Elt Ideal) (Rect.unit (s := S1024x256) (k0_off16 c) S256x256.size (k0_off16_inb c)).toLoadRect (((Memref.whole cc0_scratch3).access (Rect.unit (s := S1024x256) (k0_off16 c) S256x256.size (k0_off16_inb c))).write (Elt Ideal) (((Memref.whole cc0_scratch3).access (Rect.unit (s := S1024x256) (k0_off14 c) S256x256.size (k0_off14_inb c))).write (Elt Ideal) a3 (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay49 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ))) Finset.univ) = rows256 (Pt m 1 1 c) (k0_off16 c 0) := by
    refine (View.read_write_univ _ _).trans ?_
    funext y
    rw [k0_pay51_apply, load_rows3 c (Pt m 1 1 c) (k0_off16 c 0) (S256x256.size 0) _ f32n (k0_off16 c) S256x256.size (k0_off16_inb c) (off16_col c) (Nat.le_refl _) (Nat.le_refl _)]
    rfl
  ihave Hr0 := (heldBut_intro (F := Ideal) c cc0_scratch6 _ f6) $$ Hr0
  ihave Hr1 := (heldBut_intro (F := Ideal) c cc0_scratch7 _ f7) $$ Hr1
  ihave Htoks := (toksAB_open c 18 22 1 _ drop_seg_18 rfl) $$ Htoks
  icases Htoks with ⟨⟨Ht6s, Ht6r⟩, ⟨Ht7s, Ht7r⟩, ⟨Ht8s, Ht8r⟩, ⟨Ht9s, Ht9r⟩, Htoks⟩
  ihave Hcreds := (credsAB_open c 18 19 20 21 22 1 _ drop_seg_18 rfl rfl rfl rfl) $$ Hcreds
  icases Hcreds with ⟨Hc6, Hc7, Hc8, Hc9, Hcreds⟩
  ihave Hpos := (posAt_focus8' c (roundsDone 18) (roundsDone 22) (by decide) 1 1 1 0 rfl rfl rfl rfl rfl rfl rfl rfl rfl rfl rfl) $$ Hpos
  icases Hpos with ⟨⟨Hp20, #Hq20⟩, ⟨Hp24, #Hq24⟩, ⟨Hp25, #Hq25⟩, ⟨Hp29, #Hq29⟩, ⟨Hp30, #Hq30⟩, ⟨Hp34, #Hq34⟩, ⟨Hp35, #Hq35⟩, ⟨Hp39, #Hq39⟩, #Hq36, #Hq27, #Hq28, Hposback⟩
  ihave Hg1 := (grant_open _ _ _ _ 25 rsR_00) $$ Hg1
  icases Hg1 with ⟨Hd6, #Hrr6⟩
  ihave Hg2 := (grant_open _ _ _ _ 35 rsR_10) $$ Hg2
  icases Hg2 with ⟨Hd7, #Hrr7⟩
  ihave Hg3 := (grant_open _ _ _ _ 29 rsR_04) $$ Hg3
  icases Hg3 with ⟨Hd8, #Hrr8⟩
  ihave Hg4 := (grant_open _ _ _ _ 39 rsR_14) $$ Hg4
  icases Hg4 with ⟨Hd9, #Hrr9⟩
  unfold seg7
  rw [k0_part27_eq_skeleton, k0_part28_eq_skeleton, k0_part29_eq_skeleton, k0_part30_eq_skeleton, k0_part31_eq_skeleton, k0_part32_eq_skeleton, k0_part33_eq_skeleton]
  unfold k0_part27_skel k0_part28_skel k0_part29_skel k0_part30_skel k0_part31_skel k0_part32_skel k0_part33_skel
  simp only [Prog.lift, Prog.bind_op, Prog.bind_ret, Prog.pure_eq_ret, Prog.bind_assoc]
  -- the products on the partner's first pair (first stream: from the rows handed in), cast into the send buffers' first halves
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS2]
  · iexact HS2
  iintro HS2
  iapply (wp_store Variants.none (c : Thread nD τ) none Set.univ (Finset.subset_univ _)) $$ [HS2]
  · iexact HS2
  iintro HS2
  iapply (wp_load Variants.none (c : Thread nD τ) none Set.univ (load_ok_but cc0_scratch1 _ ∅ (Finset.disjoint_empty_right _))) $$ [Hs1]
  · iexact Hs1
  iintro Hs1
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS3]
  · iexact HS3
  iintro HS3
  iapply (wp_store Variants.none (c : Thread nD τ) none Set.univ (Finset.subset_univ _)) $$ [HS3]
  · iexact HS3
  iintro HS3
  iapply (wp_load Variants.none (c : Thread nD τ) none Set.univ (Finset.subset_univ _)) $$ [HS2]
  · iexact HS2
  iintro HS2
  iapply (wp_load Variants.none (c : Thread nD τ) none Set.univ (Finset.subset_univ _)) $$ [HS4]
  · iexact HS4
  iintro HS4
  iapply (wp_store Variants.none (c : Thread nD τ) none Set.univ (Finset.subset_univ _)) $$ [HS4]
  · iexact HS4
  iintro HS4
  -- copy 18: SA 0 to R0 0 of the partner across 4
  ihave Hsp := (slice_split (F := Ideal) c (SA 0) _).1 $$ HS4
  icases Hsp with ⟨Hsa0, HS4⟩
  iapply (wp_send_copyV' m c (xr 4 c) _ (dev22_eq c) (SA 0) (R0 0) 20 25 1 19 _ _ sem_rs0s_0 sem_rs0r_0
      (by decide) (by decide) (by decide) (by decide) ((credit_R0 0).trans rfl) rfl
      (iprop(emp)) fullShare _ (ownAt_of c (SA 0) _) (v7_pay25 m c _ hr18) K (owedFrom c 19) (owedFrom_succ c 18 (4, 25, 1) rfl) _ (Topo.routes_tc _ _)) $$ [Hsa0 Hd6 HO Ht6s Ht6r]
  · iframe ∗ #
  iintro ⟨Hcs6, HO⟩
  iapply (wp_load Variants.none (c : Thread nD τ) none Set.univ (Finset.subset_univ _)) $$ [HS3]
  · iexact HS3
  iintro HS3
  iapply (wp_load Variants.none (c : Thread nD τ) none Set.univ (Finset.subset_univ _)) $$ [HS5]
  · iexact HS5
  iintro HS5
  iapply (wp_store Variants.none (c : Thread nD τ) none Set.univ (Finset.subset_univ _)) $$ [HS5]
  · iexact HS5
  iintro HS5
  -- copy 19: SA 1 to R0 1 of the partner across 1
  ihave Hsp := (slice_split (F := Ideal) c (SA 1) _).1 $$ HS5
  icases Hsp with ⟨Hsa1, HS5⟩
  iapply (wp_send_copyV' m c (xr 1 c) _ (dev23_eq c) (SA 1) (R0 1) 30 35 1 20 _ _ sem_rs1s_0 sem_rs1r_0
      (by decide) (by decide) (by decide) (by decide) ((credit_R0 1).trans rfl) rfl
      (iprop(emp)) fullShare _ (ownAt_of c (SA 1) _) (v7_pay35 m c _ hr19) K (owedFrom c 20) (owedFrom_succ c 19 (1, 35, 1) rfl) _ (Topo.routes_tc _ _)) $$ [Hsa1 Hd7 HO Ht7s Ht7r]
  · iframe ∗ #
  iintro ⟨Hcs7, HO⟩
  -- the products on the partner's second pair, cast into the send buffers' second halves
  iapply (wp_load Variants.none (c : Thread nD τ) none Set.univ (load_ok_but cc0_scratch0 _ ∅ (Finset.disjoint_empty_right _))) $$ [Hs0]
  · iexact Hs0
  iintro Hs0
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS2]
  · iexact HS2
  iintro HS2
  iapply (wp_store Variants.none (c : Thread nD τ) none Set.univ (Finset.subset_univ _)) $$ [HS2]
  · iexact HS2
  iintro HS2
  iapply (wp_load Variants.none (c : Thread nD τ) none Set.univ (load_ok_but cc0_scratch1 _ ∅ (Finset.disjoint_empty_right _))) $$ [Hs1]
  · iexact Hs1
  iintro Hs1
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS3]
  · iexact HS3
  iintro HS3
  iapply (wp_store Variants.none (c : Thread nD τ) none Set.univ (Finset.subset_univ _)) $$ [HS3]
  · iexact HS3
  iintro HS3
  iapply (wp_load Variants.none (c : Thread nD τ) none Set.univ (Finset.subset_univ _)) $$ [HS2]
  · iexact HS2
  iintro HS2
  iapply (wp_load Variants.none (c : Thread nD τ) none Set.univ hin4) $$ [HS4]
  · iexact HS4
  iintro HS4
  iapply (wp_store Variants.none (c : Thread nD τ) none Set.univ hst4) $$ [HS4]
  · iexact HS4
  iintro HS4
  -- copy 20: SB 0 to R1 0 of the partner across 4; the own slot for the partner's next copy to this device goes with it
  ihave Hsp := (rest_split (F := Ideal) (disj_SA_SB 0) _).1 $$ HS4
  icases Hsp with ⟨Hsb0, HS4⟩
  ihave Hr1 := (heldBut_take_view (F := Ideal) c (R2 1) _ (Finset.disjoint_union_left.mpr ⟨disj_R0_R2 1, disj_R1_R2 1⟩)).1 $$ Hr1
  icases Hr1 with ⟨Hown21, Hr1⟩
  iapply (wp_send_copyV' m c (xr 4 c) _ (dev24_eq c) (SB 0) (R1 0) 24 29 1 21 _ _ sem_rs0s_4 sem_rs0r_4
      (by decide) (by decide) (by decide) (by decide) ((credit_R1 0).trans rfl) rfl
      (iprop(ownAt c (R2 1) ∗ reached ER (dcell c (dsem 36)) 1)) fullShare _ (ownAt_of c (SB 0) _) (v7_pay29 m c _ hr20) K (owedFrom c 21) (owedFrom_succ c 20 (4, 29, 1) rfl) _ (Topo.routes_tc _ _)) $$ [Hsb0 Hd8 Hown21 HO Ht8s Ht8r]
  · iframe ∗ #
  iintro ⟨Hcs8, HO⟩
  iapply (wp_load Variants.none (c : Thread nD τ) none Set.univ (Finset.subset_univ _)) $$ [HS3]
  · iexact HS3
  iintro HS3
  iapply (wp_load Variants.none (c : Thread nD τ) none Set.univ hin5) $$ [HS5]
  · iexact HS5
  iintro HS5
  iapply (wp_store Variants.none (c : Thread nD τ) none Set.univ hst5) $$ [HS5]
  · iexact HS5
  iintro HS5
  -- copy 21: SB 1 to R1 1 of the partner across 1
  ihave Hsp := (rest_split (F := Ideal) (disj_SA_SB 1) _).1 $$ HS5
  icases Hsp with ⟨Hsb1, HS5⟩
  ihave Hr0 := (heldBut_take_view (F := Ideal) c (R4 0) _ hdX).1 $$ Hr0
  icases Hr0 with ⟨HownX, Hr0⟩
  iapply (wp_send_copyV' m c (xr 1 c) _ (dev25_eq c) (SB 1) (R1 1) 34 39 1 22 _ _ sem_rs1s_4 sem_rs1r_4
      (by decide) (by decide) (by decide) (by decide) ((credit_R1 1).trans rfl) rfl
      (iprop(ownAt c (R4 0) ∗ reached ER (dcell c (dsem 28)) 0)) fullShare _ (ownAt_of c (SB 1) _) (v7_pay39 m c _ hr21) K (owedFrom c 22) (owedFrom_succ c 21 (1, 39, 1) rfl) _ (Topo.routes_tc _ _)) $$ [Hsb1 Hd9 HownX HO Ht9s Ht9r]
  · iframe ∗ #
  iintro ⟨Hcs9, HO⟩
  -- the next layer's weights, cast
  iapply (wp_load Variants.none (c : Thread nD τ) none Set.univ (Finset.subset_univ _)) $$ [Hl5]
  · iexact Hl5
  iintro Hl5
  iapply (wp_load Variants.none (c : Thread nD τ) none Set.univ (Finset.subset_univ _)) $$ [HS8]
  · iexact HS8
  iintro HS8
  iapply (wp_store Variants.none (c : Thread nD τ) none Set.univ (Finset.subset_univ _)) $$ [HS8]
  · iexact HS8
  iintro HS8
  iapply (wp_load Variants.none (c : Thread nD τ) none Set.univ (Finset.subset_univ _)) $$ [Hl6]
  · iexact Hl6
  iintro Hl6
  iapply (wp_load Variants.none (c : Thread nD τ) none Set.univ (Finset.subset_univ _)) $$ [HS9]
  · iexact HS9
  iintro HS9
  iapply (wp_store Variants.none (c : Thread nD τ) none Set.univ (Finset.subset_univ _)) $$ [HS9]
  · iexact HS9
  iintro HS9
  -- the waits of the first halves
  ihave Hcs6 := (cred_amt _ _ (show amtDma 25 1 = amtDma 20 1 from rfl)) $$ Hcs6
  ihave Hmw := (mayWait_copy (F := Ideal) c (dsem 20) 18 22 (by decide) (by decide)) $$ Hlev
  iapply (wp_wait_copyV' m c 20 1 19 _ sem_rs0s_0 (by decide) (by decide) K (owedFrom c 22) _ ((credit_SA 0).trans rfl)) $$ [Hcs6 HO Hmw Hp20]
  · iframe ∗ #
  iintro ⟨HO, Hp20, #Hn20, Hpay20⟩
  ihave Hsa0 := (Entails.of_eq (show payDmaV m c 20 1 = ownAt (F := Ideal) c (SA 0) from rfl)) $$ Hpay20
  ihave Hmw := (mayWait_copy (F := Ideal) c (dsem 25) 18 22 (by decide) (by decide)) $$ Hlev
  iapply (wp_wait_copyV' m c 25 1 19 _ sem_rs0r_0 (by decide) (by decide) K (owedFrom c 22) _ ((credit_R0 0).trans rfl)) $$ [Hc6 HO Hmw Hp25]
  · iframe ∗ #
  iintro ⟨HO, Hp25, #Hn25, Hpay25⟩
  ihave Hpay25 := (Entails.of_eq (show payDmaV m c 25 1
      = iprop(∃ f, ⌜(R0 0).view.read (Elt Ideal) f = rows256 (Pt m 1 0 (xr 4 c)) (pairRow 0 c)⌝ ∗ ((R0 0).view.loc (c : Thread nD τ) ↦[(R0 0).view.set]{fullShare} f)) from rfl)) $$ Hpay25
  icases Hpay25 with ⟨%g00, %hg00, HR00⟩
  ihave Hcs7 := (cred_amt _ _ (show amtDma 35 1 = amtDma 30 1 from rfl)) $$ Hcs7
  ihave Hmw := (mayWait_copy (F := Ideal) c (dsem 30) 19 22 (by decide) (by decide)) $$ Hlev
  iapply (wp_wait_copyV' m c 30 1 20 _ sem_rs1s_0 (by decide) (by decide) K (owedFrom c 22) _ ((credit_SA 1).trans rfl)) $$ [Hcs7 HO Hmw Hp30]
  · iframe ∗ #
  iintro ⟨HO, Hp30, #Hn30, Hpay30⟩
  ihave Hsa1 := (Entails.of_eq (show payDmaV m c 30 1 = ownAt (F := Ideal) c (SA 1) from rfl)) $$ Hpay30
  ihave Hmw := (mayWait_copy (F := Ideal) c (dsem 35) 19 22 (by decide) (by decide)) $$ Hlev
  iapply (wp_wait_copyV' m c 35 1 20 _ sem_rs1r_0 (by decide) (by decide) K (owedFrom c 22) _ ((credit_R0 1).trans rfl)) $$ [Hc7 HO Hmw Hp35]
  · iframe ∗ #
  iintro ⟨HO, Hp35, #Hn35, Hpay35⟩
  ihave Hpay35 := (Entails.of_eq (show payDmaV m c 35 1
      = iprop(∃ f, ⌜(R0 1).view.read (Elt Ideal) f = rows256 (Pt m 1 1 (xr 1 c)) (pairRow 1 c)⌝ ∗ ((R0 1).view.loc (c : Thread nD τ) ↦[(R0 1).view.set]{fullShare} f)) from rfl)) $$ Hpay35
  icases Hpay35 with ⟨%g01, %hg01, HR01⟩
  -- the first landed halves added in
  iapply (wp_load Variants.none (c : Thread nD τ) none Set.univ (Finset.subset_univ _)) $$ [HS2]
  · iexact HS2
  iintro HS2
  iapply (wp_load Variants.none (c : Thread nD τ) none Set.univ hR00) $$ [HR00]
  · iexact HR00
  iintro HR00
  iapply (wp_load Variants.none (c : Thread nD τ) none Set.univ (Finset.subset_univ _)) $$ [HS2]
  · iexact HS2
  iintro HS2
  iapply (wp_store Variants.none (c : Thread nD τ) none Set.univ (Finset.subset_univ _)) $$ [HS2]
  · iexact HS2
  iintro HS2
  iapply (wp_load Variants.none (c : Thread nD τ) none Set.univ (Finset.subset_univ _)) $$ [HS3]
  · iexact HS3
  iintro HS3
  iapply (wp_load Variants.none (c : Thread nD τ) none Set.univ hR01) $$ [HR01]
  · iexact HR01
  iintro HR01
  iapply (wp_load Variants.none (c : Thread nD τ) none Set.univ (Finset.subset_univ _)) $$ [HS3]
  · iexact HS3
  iintro HS3
  iapply (wp_store Variants.none (c : Thread nD τ) none Set.univ (Finset.subset_univ _)) $$ [HS3]
  · iexact HS3
  iintro HS3
  -- the waits of the second halves
  ihave Hcs8 := (cred_amt _ _ (show amtDma 29 1 = amtDma 24 1 from rfl)) $$ Hcs8
  ihave Hmw := (mayWait_copy (F := Ideal) c (dsem 24) 20 22 (by decide) (by decide)) $$ Hlev
  iapply (wp_wait_copyV' m c 24 1 21 _ sem_rs0s_4 (by decide) (by decide) K (owedFrom c 22) _ ((credit_SB 0).trans rfl)) $$ [Hcs8 HO Hmw Hp24]
  · iframe ∗ #
  iintro ⟨HO, Hp24, #Hn24, Hpay24⟩
  ihave Hsb0 := (Entails.of_eq (show payDmaV m c 24 1 = ownAt (F := Ideal) c (SB 0) from rfl)) $$ Hpay24
  ihave Hmw := (mayWait_copy (F := Ideal) c (dsem 29) 20 22 (by decide) (by decide)) $$ Hlev
  iapply (wp_wait_copyV' m c 29 1 21 _ sem_rs0r_4 (by decide) (by decide) K (owedFrom c 22) _ ((credit_R1 0).trans rfl)) $$ [Hc8 HO Hmw Hp29]
  · iframe ∗ #
  iintro ⟨HO, Hp29, #Hn29, Hpay29⟩
  ihave Hpay29 := (Entails.of_eq (show payDmaV m c 29 1
      = iprop((∃ f, ⌜(R1 0).view.read (Elt Ideal) f = rows256 (Pt m 1 0 (xr 4 c)) (pair2Row 0 c)⌝ ∗ ((R1 0).view.loc (c : Thread nD τ) ↦[(R1 0).view.set]{fullShare} f))
          ∗ grant (xr 4 c) (R2 1) (rsR 1 1) 1) from rfl)) $$ Hpay29
  icases Hpay29 with ⟨⟨%g10, %hg10, HR10⟩, Hgn1⟩
  ihave Hcs9 := (cred_amt _ _ (show amtDma 39 1 = amtDma 34 1 from rfl)) $$ Hcs9
  ihave Hmw := (mayWait_copy (F := Ideal) c (dsem 34) 21 22 (by decide) (by decide)) $$ Hlev
  iapply (wp_wait_copyV' m c 34 1 22 _ sem_rs1s_4 (by decide) (by decide) K (owedFrom c 22) _ ((credit_SB 1).trans rfl)) $$ [Hcs9 HO Hmw Hp34]
  · iframe ∗ #
  iintro ⟨HO, Hp34, #Hn34, Hpay34⟩
  ihave Hsb1 := (Entails.of_eq (show payDmaV m c 34 1 = ownAt (F := Ideal) c (SB 1) from rfl)) $$ Hpay34
  ihave Hmw := (mayWait_copy (F := Ideal) c (dsem 39) 21 22 (by decide) (by decide)) $$ Hlev
  iapply (wp_wait_copyV' m c 39 1 22 _ sem_rs1r_4 (by decide) (by decide) K (owedFrom c 22) _ ((credit_R1 1).trans rfl)) $$ [Hc9 HO Hmw Hp39]
  · iframe ∗ #
  iintro ⟨HO, Hp39, #Hn39, Hpay39⟩
  ihave Hpay39 := (Entails.of_eq (show payDmaV m c 39 1
      = iprop((∃ f, ⌜(R1 1).view.read (Elt Ideal) f = rows256 (Pt m 1 1 (xr 1 c)) (pair2Row 1 c)⌝ ∗ ((R1 1).view.loc (c : Thread nD τ) ↦[(R1 1).view.set]{fullShare} f))
          ∗ grantLast (xr 1 c) 0 1) from rfl)) $$ Hpay39
  icases Hpay39 with ⟨⟨%g11, %hg11, HR11⟩, Hgn2⟩
  -- the second landed halves added in (the second stream's sum is returned)
  iapply (wp_load Variants.none (c : Thread nD τ) none Set.univ (Finset.subset_univ _)) $$ [HS2]
  · iexact HS2
  iintro HS2
  iapply (wp_load Variants.none (c : Thread nD τ) none Set.univ hR10) $$ [HR10]
  · iexact HR10
  iintro HR10
  iapply (wp_load Variants.none (c : Thread nD τ) none Set.univ (Finset.subset_univ _)) $$ [HS2]
  · iexact HS2
  iintro HS2
  iapply (wp_store Variants.none (c : Thread nD τ) none Set.univ (Finset.subset_univ _)) $$ [HS2]
  · iexact HS2
  iintro HS2
  iapply (wp_load Variants.none (c : Thread nD τ) none Set.univ (Finset.subset_univ _)) $$ [HS3]
  · iexact HS3
  iintro HS3
  iapply (wp_load Variants.none (c : Thread nD τ) none Set.univ hR11) $$ [HR11]
  · iexact HR11
  iintro HR11
  iapply (wp_load Variants.none (c : Thread nD τ) none Set.univ (Finset.subset_univ _)) $$ [HS3]
  · iexact HS3
  iintro HS3
  -- the values of the adds
  have f22p7 : rowsAre2 c (Pt m 1 0 c) (k0_off7 c 0) 256 (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ) := fun row col h1 h2 => f22q row col (by omega) (by omega)
  have f22p11 : rowsAre2 c (Pt m 1 0 c) (k0_off11 c 0) 256 (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ) := fun row col h1 h2 => f22q row col (by omega) (by omega)
  have f32p8 : rowsAre3 c (Pt m 1 1 c) (k0_off8 c 0) 256 (((Memref.whole cc0_scratch3).access (Rect.unit (s := S1024x256) (k0_off16 c) S256x256.size (k0_off16_inb c))).write (Elt Ideal) (((Memref.whole cc0_scratch3).access (Rect.unit (s := S1024x256) (k0_off14 c) S256x256.size (k0_off14_inb c))).write (Elt Ideal) a3 (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay49 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) := fun row col h1 h2 => f32q row col (by omega) (by omega)
  have f32p12 : rowsAre3 c (Pt m 1 1 c) (k0_off12 c 0) 256 (((Memref.whole cc0_scratch3).access (Rect.unit (s := S1024x256) (k0_off16 c) S256x256.size (k0_off16_inb c))).write (Elt Ideal) (((Memref.whole cc0_scratch3).access (Rect.unit (s := S1024x256) (k0_off14 c) S256x256.size (k0_off14_inb c))).write (Elt Ideal) a3 (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay49 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) := fun row col h1 h2 => f32q row col (by omega) (by omega)
  have hw55 : ∀ y : S256x256.Idx, (k0_pay55 (F := Ideal) ((Memref.whole cc0_scratch2).view.readAt (Elt Ideal) (Rect.unit (s := S1024x256) (k0_off7 c) S256x256.size (k0_off7_inb c)).toLoadRect (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ)) ((Memref.whole cc0_scratch6).view.readAt (Elt Ideal) (Rect.unit (s := S1280x256) ![0, 0] S256x256.size inb_S1280x256_S256x256_0_0).toLoadRect g00)) y = nat2 (S1 m 1 0 c) (k0_off7 c 0 + (y 0).val) (y 1).val := by
    intro y
    rw [k0_pay55_apply, load_rows2 c (Pt m 1 0 c) (k0_off7 c 0) (256) _ f22p7 (k0_off7 c) S256x256.size (k0_off7_inb c) (off7_col c) (Nat.le_refl _) (Nat.le_refl _)]
    have e : ((Memref.whole cc0_scratch6).view.readAt (Elt Ideal) (Rect.unit (s := S1280x256) ![0, 0] S256x256.size inb_S1280x256_S256x256_0_0).toLoadRect g00) y = nat2 (Pt m 1 0 (xr 4 c)) (k0_off7 c 0 + (y 0).val) (y 1).val := congrFun hg00 y
    rw [e]
    exact nat2_Pt_S1 m 1 0 c _ _
  have f23s7 := store_new2 c (S1 m 1 0 c) (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ) (k0_off7 c) S256x256.size (k0_off7_inb c) (off7_col c) rfl _ hw55
  have f23p11 := store_keep2 c (Pt m 1 0 c) (k0_off11 c 0) (256) _ f22p11 (k0_off7 c) S256x256.size (k0_off7_inb c) (off7_col c) rfl (k0_pay55 (F := Ideal) ((Memref.whole cc0_scratch2).view.readAt (Elt Ideal) (Rect.unit (s := S1024x256) (k0_off7 c) S256x256.size (k0_off7_inb c)).toLoadRect (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ)) ((Memref.whole cc0_scratch6).view.readAt (Elt Ideal) (Rect.unit (s := S1280x256) ![0, 0] S256x256.size inb_S1280x256_S256x256_0_0).toLoadRect g00)) (by omega)
  have hw57 : ∀ y : S256x256.Idx, (k0_pay57 (F := Ideal) ((Memref.whole cc0_scratch2).view.readAt (Elt Ideal) (Rect.unit (s := S1024x256) (k0_off11 c) S256x256.size (k0_off11_inb c)).toLoadRect (((Memref.whole cc0_scratch2).access (Rect.unit (s := S1024x256) (k0_off7 c) S256x256.size (k0_off7_inb c))).write (Elt Ideal) (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ) (k0_pay55 (F := Ideal) ((Memref.whole cc0_scratch2).view.readAt (Elt Ideal) (Rect.unit (s := S1024x256) (k0_off7 c) S256x256.size (k0_off7_inb c)).toLoadRect (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ)) ((Memref.whole cc0_scratch6).view.readAt (Elt Ideal) (Rect.unit (s := S1280x256) ![0, 0] S256x256.size inb_S1280x256_S256x256_0_0).toLoadRect g00)) Finset.univ)) ((Memref.whole cc0_scratch6).view.readAt (Elt Ideal) (Rect.unit (s := S1280x256) ![256, 0] S256x256.size inb_S1280x256_S256x256_256_0).toLoadRect g10)) y = nat2 (S1 m 1 0 c) (k0_off11 c 0 + (y 0).val) (y 1).val := by
    intro y
    rw [k0_pay57_apply, load_rows2 c (Pt m 1 0 c) (k0_off11 c 0) (256) _ f23p11 (k0_off11 c) S256x256.size (k0_off11_inb c) (off11_col c) (Nat.le_refl _) (Nat.le_refl _)]
    have e : ((Memref.whole cc0_scratch6).view.readAt (Elt Ideal) (Rect.unit (s := S1280x256) ![256, 0] S256x256.size inb_S1280x256_S256x256_256_0).toLoadRect g10) y = nat2 (Pt m 1 0 (xr 4 c)) (k0_off11 c 0 + (y 0).val) (y 1).val := congrFun hg10 y
    rw [e]
    exact nat2_Pt_S1 m 1 0 c _ _
  have f24s11 := store_new2 c (S1 m 1 0 c) (((Memref.whole cc0_scratch2).access (Rect.unit (s := S1024x256) (k0_off7 c) S256x256.size (k0_off7_inb c))).write (Elt Ideal) (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ) (k0_pay55 (F := Ideal) ((Memref.whole cc0_scratch2).view.readAt (Elt Ideal) (Rect.unit (s := S1024x256) (k0_off7 c) S256x256.size (k0_off7_inb c)).toLoadRect (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ)) ((Memref.whole cc0_scratch6).view.readAt (Elt Ideal) (Rect.unit (s := S1280x256) ![0, 0] S256x256.size inb_S1280x256_S256x256_0_0).toLoadRect g00)) Finset.univ) (k0_off11 c) S256x256.size (k0_off11_inb c) (off11_col c) rfl _ hw57
  have f24s7 := store_keep2 c (S1 m 1 0 c) (k0_off7 c 0) (S256x256.size 0) _ f23s7 (k0_off11 c) S256x256.size (k0_off11_inb c) (off11_col c) rfl (k0_pay57 (F := Ideal) ((Memref.whole cc0_scratch2).view.readAt (Elt Ideal) (Rect.unit (s := S1024x256) (k0_off11 c) S256x256.size (k0_off11_inb c)).toLoadRect (((Memref.whole cc0_scratch2).access (Rect.unit (s := S1024x256) (k0_off7 c) S256x256.size (k0_off7_inb c))).write (Elt Ideal) (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ) (k0_pay55 (F := Ideal) ((Memref.whole cc0_scratch2).view.readAt (Elt Ideal) (Rect.unit (s := S1024x256) (k0_off7 c) S256x256.size (k0_off7_inb c)).toLoadRect (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ)) ((Memref.whole cc0_scratch6).view.readAt (Elt Ideal) (Rect.unit (s := S1280x256) ![0, 0] S256x256.size inb_S1280x256_S256x256_0_0).toLoadRect g00)) Finset.univ)) ((Memref.whole cc0_scratch6).view.readAt (Elt Ideal) (Rect.unit (s := S1280x256) ![256, 0] S256x256.size inb_S1280x256_S256x256_256_0).toLoadRect g10)) (by omega)
  have hP2 : rowsAre2 c (S1 m 1 0 c) (quadRow 0 c) 512 (((Memref.whole cc0_scratch2).access (Rect.unit (s := S1024x256) (k0_off11 c) S256x256.size (k0_off11_inb c))).write (Elt Ideal) (((Memref.whole cc0_scratch2).access (Rect.unit (s := S1024x256) (k0_off7 c) S256x256.size (k0_off7_inb c))).write (Elt Ideal) (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ) (k0_pay55 (F := Ideal) ((Memref.whole cc0_scratch2).view.readAt (Elt Ideal) (Rect.unit (s := S1024x256) (k0_off7 c) S256x256.size (k0_off7_inb c)).toLoadRect (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ)) ((Memref.whole cc0_scratch6).view.readAt (Elt Ideal) (Rect.unit (s := S1280x256) ![0, 0] S256x256.size inb_S1280x256_S256x256_0_0).toLoadRect g00)) Finset.univ) (k0_pay57 (F := Ideal) ((Memref.whole cc0_scratch2).view.readAt (Elt Ideal) (Rect.unit (s := S1024x256) (k0_off11 c) S256x256.size (k0_off11_inb c)).toLoadRect (((Memref.whole cc0_scratch2).access (Rect.unit (s := S1024x256) (k0_off7 c) S256x256.size (k0_off7_inb c))).write (Elt Ideal) (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ) (k0_pay55 (F := Ideal) ((Memref.whole cc0_scratch2).view.readAt (Elt Ideal) (Rect.unit (s := S1024x256) (k0_off7 c) S256x256.size (k0_off7_inb c)).toLoadRect (((Memref.whole cc0_scratch2).access (Rect.unit (s := S1024x256) (k0_off15 c) S256x256.size (k0_off15_inb c))).write (Elt Ideal) (((Memref.whole cc0_scratch2).access (Rect.unit (s := S1024x256) (k0_off13 c) S256x256.size (k0_off13_inb c))).write (Elt Ideal) a2 (k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9)) Finset.univ)) ((Memref.whole cc0_scratch6).view.readAt (Elt Ideal) (Rect.unit (s := S1280x256) ![0, 0] S256x256.size inb_S1280x256_S256x256_0_0).toLoadRect g00)) Finset.univ)) ((Memref.whole cc0_scratch6).view.readAt (Elt Ideal) (Rect.unit (s := S1280x256) ![256, 0] S256x256.size inb_S1280x256_S256x256_256_0).toLoadRect g10)) Finset.univ) := by
    intro row col h1 h2
    have h1' : k0_off9 c 0 ≤ row.val := h1
    have h2' : row.val < k0_off9 c 0 + 512 := h2
    by_cases hr : k0_off7 c 0 ≤ row.val ∧ row.val < k0_off7 c 0 + 256
    · exact f24s7 row col hr.1 hr.2
    · exact f24s11 row col (by omega) (by show row.val < k0_off11 c 0 + 256; omega)
  have hw56 : ∀ y : S256x256.Idx, (k0_pay56 (F := Ideal) ((Memref.whole cc0_scratch3).view.readAt (Elt Ideal) (Rect.unit (s := S1024x256) (k0_off8 c) S256x256.size (k0_off8_inb c)).toLoadRect (((Memref.whole cc0_scratch3).access (Rect.unit (s := S1024x256) (k0_off16 c) S256x256.size (k0_off16_inb c))).write (Elt Ideal) (((Memref.whole cc0_scratch3).access (Rect.unit (s := S1024x256) (k0_off14 c) S256x256.size (k0_off14_inb c))).write (Elt Ideal) a3 (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay49 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ)) ((Memref.whole cc0_scratch7).view.readAt (Elt Ideal) (Rect.unit (s := S1280x256) ![0, 0] S256x256.size inb_S1280x256_S256x256_0_0).toLoadRect g01)) y = nat2 (S1 m 1 1 c) (k0_off8 c 0 + (y 0).val) (y 1).val := by
    intro y
    rw [k0_pay56_apply, load_rows3 c (Pt m 1 1 c) (k0_off8 c 0) (256) _ f32p8 (k0_off8 c) S256x256.size (k0_off8_inb c) (off8_col c) (Nat.le_refl _) (Nat.le_refl _)]
    have e : ((Memref.whole cc0_scratch7).view.readAt (Elt Ideal) (Rect.unit (s := S1280x256) ![0, 0] S256x256.size inb_S1280x256_S256x256_0_0).toLoadRect g01) y = nat2 (Pt m 1 1 (xr 1 c)) (k0_off8 c 0 + (y 0).val) (y 1).val := congrFun hg01 y
    rw [e]
    exact nat2_Pt_S1 m 1 1 c _ _
  have hP3 := store_new3 c (S1 m 1 1 c) (((Memref.whole cc0_scratch3).access (Rect.unit (s := S1024x256) (k0_off16 c) S256x256.size (k0_off16_inb c))).write (Elt Ideal) (((Memref.whole cc0_scratch3).access (Rect.unit (s := S1024x256) (k0_off14 c) S256x256.size (k0_off14_inb c))).write (Elt Ideal) a3 (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay49 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_off8 c) S256x256.size (k0_off8_inb c) (off8_col c) rfl _ hw56
  have f33p12 := store_keep3 c (Pt m 1 1 c) (k0_off12 c 0) (256) _ f32p12 (k0_off8 c) S256x256.size (k0_off8_inb c) (off8_col c) rfl (k0_pay56 (F := Ideal) ((Memref.whole cc0_scratch3).view.readAt (Elt Ideal) (Rect.unit (s := S1024x256) (k0_off8 c) S256x256.size (k0_off8_inb c)).toLoadRect (((Memref.whole cc0_scratch3).access (Rect.unit (s := S1024x256) (k0_off16 c) S256x256.size (k0_off16_inb c))).write (Elt Ideal) (((Memref.whole cc0_scratch3).access (Rect.unit (s := S1024x256) (k0_off14 c) S256x256.size (k0_off14_inb c))).write (Elt Ideal) a3 (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay49 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ)) ((Memref.whole cc0_scratch7).view.readAt (Elt Ideal) (Rect.unit (s := S1280x256) ![0, 0] S256x256.size inb_S1280x256_S256x256_0_0).toLoadRect g01)) (by omega)
  have hret : ∀ y : S256x256.Idx, (k0_pay58 (F := Ideal) ((Memref.whole cc0_scratch3).view.readAt (Elt Ideal) (Rect.unit (s := S1024x256) (k0_off12 c) S256x256.size (k0_off12_inb c)).toLoadRect (((Memref.whole cc0_scratch3).access (Rect.unit (s := S1024x256) (k0_off8 c) S256x256.size (k0_off8_inb c))).write (Elt Ideal) (((Memref.whole cc0_scratch3).access (Rect.unit (s := S1024x256) (k0_off16 c) S256x256.size (k0_off16_inb c))).write (Elt Ideal) (((Memref.whole cc0_scratch3).access (Rect.unit (s := S1024x256) (k0_off14 c) S256x256.size (k0_off14_inb c))).write (Elt Ideal) a3 (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay49 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay56 (F := Ideal) ((Memref.whole cc0_scratch3).view.readAt (Elt Ideal) (Rect.unit (s := S1024x256) (k0_off8 c) S256x256.size (k0_off8_inb c)).toLoadRect (((Memref.whole cc0_scratch3).access (Rect.unit (s := S1024x256) (k0_off16 c) S256x256.size (k0_off16_inb c))).write (Elt Ideal) (((Memref.whole cc0_scratch3).access (Rect.unit (s := S1024x256) (k0_off14 c) S256x256.size (k0_off14_inb c))).write (Elt Ideal) a3 (k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) (k0_pay49 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ)) ((Memref.whole cc0_scratch7).view.readAt (Elt Ideal) (Rect.unit (s := S1280x256) ![0, 0] S256x256.size inb_S1280x256_S256x256_0_0).toLoadRect g01)) Finset.univ)) ((Memref.whole cc0_scratch7).view.readAt (Elt Ideal) (Rect.unit (s := S1280x256) ![256, 0] S256x256.size inb_S1280x256_S256x256_256_0).toLoadRect g11)) y = nat2 (S1 m 1 1 c) (pair2Row 1 c + (y 0).val) (y 1).val := by
    intro y
    rw [k0_pay58_apply, load_rows3 c (Pt m 1 1 c) (k0_off12 c 0) (256) _ f33p12 (k0_off12 c) S256x256.size (k0_off12_inb c) (off12_col c) (Nat.le_refl _) (Nat.le_refl _)]
    have e : ((Memref.whole cc0_scratch7).view.readAt (Elt Ideal) (Rect.unit (s := S1280x256) ![256, 0] S256x256.size inb_S1280x256_S256x256_256_0).toLoadRect g11) y = nat2 (Pt m 1 1 (xr 1 c)) (k0_off12 c 0 + (y 0).val) (y 1).val := congrFun hg11 y
    rw [e]
    exact nat2_Pt_S1 m 1 1 c _ _
  -- the state after 22 copies
  rw [wp_ret]
  imodintro
  isplitr
  · ipureintro; exact hret
  iexists K
  unfold Q7post QV localBufsV
  -- both send buffers whole again
  ihave Hsb0 := (Entails.of_eq (ownAt_eq (F := Ideal) c (SB 0))) $$ Hsb0
  icases Hsb0 with ⟨%h40, Hsb0⟩
  ihave HS4 := (rest_join_at (F := Ideal) (disj_SA_SB 0) _ h40) $$ [Hsb0 HS4]
  · iframe Hsb0 HS4
  ihave HS4 := (slice_join_ownAt (F := Ideal) c (SA 0) _) $$ [Hsa0 HS4]
  · iframe Hsa0 HS4
  ihave Hsb1 := (Entails.of_eq (ownAt_eq (F := Ideal) c (SB 1))) $$ Hsb1
  icases Hsb1 with ⟨%h50, Hsb1⟩
  ihave HS5 := (rest_join_at (F := Ideal) (disj_SA_SB 1) _ h50) $$ [Hsb1 HS5]
  · iframe Hsb1 HS5
  ihave HS5 := (slice_join_ownAt (F := Ideal) c (SA 1) _) $$ [Hsa1 HS5]
  · iframe Hsa1 HS5
  -- the positions, one round on
  ihave Hpos := Hposback $$ [Hp20 Hp24 Hp25 Hp29 Hp30 Hp34 Hp35 Hp39]
  · iframe ∗ #
  -- the receive buffers take back the landed slots
  ihave HR00 := (ownAt_of (F := Ideal) c (R0 0) _) $$ HR00
  ihave HR01 := (ownAt_of (F := Ideal) c (R0 1) _) $$ HR01
  ihave HR10 := (ownAt_of (F := Ideal) c (R1 0) _) $$ HR10
  ihave HR11 := (ownAt_of (F := Ideal) c (R1 1) _) $$ HR11
  ihave Hr0 := (heldBut_rot4 (F := Ideal) c _ _ _ _ _) $$ Hr0
  ihave Hr0 := (heldBut_put_right (F := Ideal) c (R0 0) _ hd60) $$ [HR00 Hr0]
  · iframe HR00 Hr0
  ihave Hr0 := (heldBut_put_right (F := Ideal) c (R1 0) _ hd61) $$ [HR10 Hr0]
  · iframe HR10 Hr0
  ihave Hr1 := (heldBut_rot3 (F := Ideal) c _ _ _ _) $$ Hr1
  ihave Hr1 := (heldBut_put_right (F := Ideal) c (R0 1) _ hd70) $$ [HR01 Hr1]
  · iframe HR01 Hr1
  ihave Hr1 := (heldBut_put_right (F := Ideal) c (R1 1) _ hd71) $$ [HR11 Hr1]
  · iframe HR11 Hr1
  -- every buffer with its fact
  ihave HO := (ex_owes (F := Ideal) _ _ _) $$ HO
  ihave Hl5 := (bufV_intro c cc0_stg5_0 (fun f => ∀ i, f i = m ((c : Thread nD τ).loc main_arg5) i) l5 hl5) $$ Hl5
  ihave Hl6 := (bufV_intro c cc0_stg6_0 (fun f => ∀ i, f i = m ((c : Thread nD τ).loc main_arg6) i) l6 hl6) $$ Hl6
  ihave HS2 := (bufV_intro c cc0_scratch2 (rowsAre2 c (S1 m 1 0 c) (quadRow 0 c) 512) _ hP2) $$ HS2
  ihave HS3 := (bufV_intro c cc0_scratch3 (rowsAre3 c (S1 m 1 1 c) (pairRow 1 c) 256) _ hP3) $$ HS3
  ihave HS4 := (bufV_some c cc0_scratch4) $$ HS4
  ihave HS5 := (bufV_some c cc0_scratch5) $$ HS5
  ihave HS8 := (bufV_intro c cc0_scratch8 (winIs m c 2) _ (HW8 l5 w8 hl5)) $$ HS8
  ihave HS9 := (bufV_intro c cc0_scratch9 (woutIs m c 2) _ (HW9 l6 w9 hl6)) $$ HS9
  ihave Hs0 := (heldButV_intro c cc0_scratch0 ∅ (fun _ => True) x0 trivial) $$ Hs0
  ihave Hs1 := (heldButV_intro c cc0_scratch1 ∅ (fun _ => True) x1 trivial) $$ Hs1
  ihave Hr0 := (heldButV_some c cc0_scratch6 _) $$ Hr0
  ihave Hr1 := (heldButV_some c cc0_scratch7 _) $$ Hr1
  unfold bufV heldButV
  iframe ∗ #

/-- info: 'Cert.KernelIdeal.Val.seg7_okV' depends on axioms: [propext, Classical.choice, Quot.sound] -/
#guard_msgs in #print axioms seg7_okV

end Cert.KernelIdeal.Val

end
-- ==== Proof.KernelIdeal.SegV7Facts.lean ====
/- The content facts of segment 7: the four matrix products of layer 1 that it stores, and the cast of layer 2's
   weights.

   A product of 256 rows of the gathered activations with the device's weight slices is the device's partial product at
   those rows, whether the rows were loaded from the gather buffer or handed over as a vector; a weight window cast
   and stored whole makes the weight buffer the next layer's slice. -/
import proofs.«900979_g7700000000000980_dist_mlpseq_tp1d_bs_bs_b256_d256_h512_v7x_i8_bf16_1_alg».proof.Proof.KernelIdeal.ValSteps
import proofs.«900979_g7700000000000980_dist_mlpseq_tp1d_bs_bs_b256_d256_h512_v7x_i8_bf16_1_alg».proof.Proof.KernelIdeal.ValReduce
import proofs.«900979_g7700000000000980_dist_mlpseq_tp1d_bs_bs_b256_d256_h512_v7x_i8_bf16_1_alg».proof.Proof.KernelIdeal.PayVals

noncomputable section

namespace Cert.KernelIdeal.Val

open Cert.KernelIdeal Cert.KernelIdeal.Gen Cert.KernelIdeal.Hand
open Idealize.ShloMosaic Idealize.ShloMosaic.TcCoe
open scoped BigOperators

variable (m : Mem)

/-- The rows' product of a vector that IS rows `o ..` of the gathered buffer (handed over, not loaded). -/
theorem mm_given (c : Dev nD) (l : ℕ) (s : Fin 2) (xh : FVec Ideal S256x256 .bf16) (o : ℕ) (ho : o + 256 ≤ 1024)
    (hin : ∀ i : S256x256.Idx, xh i = nat2 (A m l s) (o + (i 0).val) (i 1).val)
    (fwi : Buf (Elt Ideal) ((Memref.whole cc0_scratch8).view.loc (c : Thread nD τ))) (hwi : winIs m c ⟨l % 3, Nat.mod_lt _ (by omega)⟩ fwi)
    (fwo : Buf (Elt Ideal) ((Memref.whole cc0_scratch9).view.loc (c : Thread nD τ))) (hwo : woutIs m c ⟨l % 3, Nat.mod_lt _ (by omega)⟩ fwo)
    (inb8 : ∀ a, (![0, 0] : Fin 2 → ℕ) a + S256x512.size a ≤ S256x512.size a)
    (inb9 : ∀ a, (![0, 0] : Fin 2 → ℕ) a + S512x256.size a ≤ S512x256.size a) (y : S256x256.Idx) :
    mmRows xh
        ((Memref.whole cc0_scratch8).view.readAt (Elt Ideal) (Rect.unit (s := S256x512) ![0, 0] S256x512.size inb8).toLoadRect fwi)
        ((Memref.whole cc0_scratch9).view.readAt (Elt Ideal) (Rect.unit (s := S512x256) ![0, 0] S512x256.size inb9).toLoadRect fwo) y
      = nat2 (Pt m l s c) (o + (y 0).val) (y 1).val := by
  obtain ⟨r, col, rfl⟩ : ∃ (r : Fin 256) (col : Fin 256), y = ValueIdx.ix2 r col := ⟨y 0, y 1, ValueIdx.eq_ix2 y⟩
  have h0 : o + r.val < 1024 := by have := r.isLt; omega
  have hx : ∀ e : Fin 256, xh (ValueIdx.ix2 r e) = A m l s ⟨o + r.val, h0⟩ e := fun e =>
    (hin (ValueIdx.ix2 r e)).trans (nat2_eq (A m l s) _ _ h0 e.isLt)
  rw [mmRows_partOf m ⟨l % 3, Nat.mod_lt _ (by omega)⟩ c (A m l s) ⟨o + r.val, h0⟩ _ _ _ r col hx
    (fun e k => (load_win c fwi inb8 _).trans (hwi e k)) (fun k => (load_wout c fwo inb9 _).trans (hwo k col))]
  exact (nat2_eq (Pt m l s c) _ _ h0 col.isLt).symm

/-- The second half of a product split over a part boundary, applied to the first half: the whole product. -/
theorem pay48_hid (xh : FVec Ideal S256x256 .bf16) (wi : FVec Ideal S256x512 .bf16) (wo : FVec Ideal S512x256 .bf16) :
    k0_pay48 (F := Ideal) (hid xh wi) wo = mmRows xh wi wo := by
  unfold k0_pay48 mmRows
  exact shapeCast_self _ _

theorem v7_HV43 (c : Dev nD) (v818 : Vec Ideal S256x256 .bf16)
    (hin : ∀ i : S256x256.Idx, v818 i = nat2 (A m 1 0) (k0_off13 c 0 + (i 0).val) (i 1).val)
    (w8 : Buf (Elt Ideal) ((Memref.whole cc0_scratch8).view.loc (c : Thread nD τ))) (w9 : Buf (Elt Ideal) ((Memref.whole cc0_scratch9).view.loc (c : Thread nD τ))) (hw8 : winIs m c 1 w8) (hw9 : woutIs m c 1 w9) (y : S256x256.Idx) :
    k0_pay43 (F := Ideal) v818 ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9) y = nat2 (Pt m 1 0 c) (k0_off13 c 0 + (y 0).val) (y 1).val := by
  have i0 : k0_off13 c 0 + 256 ≤ 1024 := k0_off13_inb c 0
  exact (congrFun (k0_pay43_eq _ _ _) y).trans (mm_given m c 1 0 v818 (k0_off13 c 0) i0 hin w8 hw8 w9 hw9 _ _ y)

theorem v7_HV44 (c : Dev nD) (x1 : Buf (Elt Ideal) ((Memref.whole cc0_scratch1).view.loc (c : Thread nD τ))) (w8 : Buf (Elt Ideal) ((Memref.whole cc0_scratch8).view.loc (c : Thread nD τ))) (w9 : Buf (Elt Ideal) ((Memref.whole cc0_scratch9).view.loc (c : Thread nD τ)))
    (hx1 : rowsAre1 c (A m 1 1) 0 1024 x1) (hw8 : winIs m c 1 w8) (hw9 : woutIs m c 1 w9) (y : S256x256.Idx) :
    k0_pay44 (F := Ideal) ((Memref.whole cc0_scratch1).view.readAt (Elt Ideal) (Rect.unit (s := S1024x256) (k0_off14 c) S256x256.size (k0_off14_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9) y = nat2 (Pt m 1 1 c) (k0_off14 c 0 + (y 0).val) (y 1).val := by
  have i0 : k0_off14 c 0 + 256 ≤ 1024 := k0_off14_inb c 0
  exact (congrFun (k0_pay44_eq _ _ _) y).trans
    (mm_loaded1 m c 1 0 1024 x1 hx1 w8 hw8 w9 hw9 (k0_off14 c) (k0_off14_inb c) (off14_col c) (Nat.zero_le _) (by show k0_off14 c 0 + 256 ≤ 0 + 1024; omega) _ _ y)

theorem v7_HV48 (c : Dev nD) (x0 : Buf (Elt Ideal) ((Memref.whole cc0_scratch0).view.loc (c : Thread nD τ))) (w8 : Buf (Elt Ideal) ((Memref.whole cc0_scratch8).view.loc (c : Thread nD τ))) (w9 : Buf (Elt Ideal) ((Memref.whole cc0_scratch9).view.loc (c : Thread nD τ)))
    (hx0 : rowsAre0 c (A m 1 0) 0 1024 x0) (hw8 : winIs m c 1 w8) (hw9 : woutIs m c 1 w9) (y : S256x256.Idx) :
    k0_pay48 (F := Ideal) (k0_pay47 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect w8)) ((Memref.whole cc0_scratch9).view.readAt (Elt Ideal) (Rect.unit (s := S512x256) ![0, 0] S512x256.size inb_S512x256_S512x256_0_0).toLoadRect w9) y = nat2 (Pt m 1 0 c) (k0_off15 c 0 + (y 0).val) (y 1).val := by
  have i0 : k0_off15 c 0 + 256 ≤ 1024 := k0_off15_inb c 0
  rw [k0_pay47_eq, pay48_hid]
  exact mm_loaded0 m c 1 0 1024 x0 hx0 w8 hw8 w9 hw9 (k0_off15 c) (k0_off15_inb c) (off15_col c) (Nat.zero_le _) (by show k0_off15 c 0 + 256 ≤ 0 + 1024; omega) _ _ y

theorem v7_HV49 (c : Dev nD) (x1 : Buf (Elt Ideal) ((Memref.whole cc0_scratch1).view.loc (c : Thread nD τ))) (w8 : Buf (Elt Ideal) ((Memref.whole cc0_scratch8).view.loc (c : Thread nD τ))) (w9 : Buf (Elt Ideal) ((Memref.whole cc0_scratch9).view.loc (c : Thread nD τ)))
    (hx1 : rowsAre1 c (A m 1 1) 0 1024 x1) (hw8 : winIs m c 1 w8) (hw9 : woutIs m c 1 w9) (y : S256x256.Idx) :
    k0_pay49 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9) y = nat2 (Pt m 1 1 c) (k0_off16 c 0 + (y 0).val) (y 1).val := by
  have i0 : k0_off16 c 0 + 256 ≤ 1024 := k0_off16_inb c 0
  exact (congrFun (k0_pay49_eq _ _ _) y).trans
    (mm_loaded1 m c 1 0 1024 x1 hx1 w8 hw8 w9 hw9 (k0_off16 c) (k0_off16_inb c) (off16_col c) (Nat.zero_le _) (by show k0_off16 c 0 + 256 ≤ 0 + 1024; omega) _ _ y)

theorem v7_HW8 (c : Dev nD) (l5 : Buf (Elt Ideal) ((Memref.whole cc0_stg5_0).view.loc (c : Thread nD τ))) (w8 : Buf (Elt Ideal) ((Memref.whole cc0_scratch8).view.loc (c : Thread nD τ)))
    (hl5 : ∀ i, l5 i = m ((c : Thread nD τ).loc main_arg5) i) :
    winIs m c 2 (((Memref.whole cc0_scratch8).access (Rect.unit (s := S256x512) ![0, 0] S256x512.size inb_S256x512_S256x512_0_0)).write (Elt Ideal) w8
      (k0_pay52 (F := Ideal) ((Memref.whole cc0_stg5_0).view.readAt (Elt Ideal) (Rect.unit (s := S256x512) ![0, 0] S256x512.size inb_S256x512_S256x512_0_0).toLoadRect l5)) Finset.univ) :=
  win_store m c 2 w8 inb_S256x512_S256x512_0_0 _ (fun e k =>
    (k0_pay52_apply _ _).trans ((load_stg5 c l5 inb_S256x512_S256x512_0_0 _).trans (hl5 _)))

theorem v7_HW9 (c : Dev nD) (l6 : Buf (Elt Ideal) ((Memref.whole cc0_stg6_0).view.loc (c : Thread nD τ))) (w9 : Buf (Elt Ideal) ((Memref.whole cc0_scratch9).view.loc (c : Thread nD τ)))
    (hl6 : ∀ i, l6 i = m ((c : Thread nD τ).loc main_arg6) i) :
    woutIs m c 2 (((Memref.whole cc0_scratch9).access (Rect.unit (s := S512x256) ![0, 0] S512x256.size inb_S512x256_S512x256_0_0)).write (Elt Ideal) w9
      (k0_pay54 (F := Ideal) (k0_pay53 (F := Ideal) ((Memref.whole cc0_stg6_0).view.readAt (Elt Ideal) (Rect.unit (s := S512x256) ![0, 0] S512x256.size inb_S512x256_S512x256_0_0).toLoadRect l6))) Finset.univ) :=
  wout_store m c 2 w9 inb_S512x256_S512x256_0_0 _ (fun k col =>
    (k0_pay54_apply _ _).trans ((k0_pay53_apply _ _).trans ((load_stg6 c l6 inb_S512x256_S512x256_0_0 _).trans (hl6 _))))

/-- info: 'Cert.KernelIdeal.Val.v7_HV48' depends on axioms: [propext, Classical.choice, Quot.sound] -/
#guard_msgs in #print axioms v7_HV48
/-- info: 'Cert.KernelIdeal.Val.v7_HW9' depends on axioms: [propext, Classical.choice, Quot.sound] -/
#guard_msgs in #print axioms v7_HW9

end Cert.KernelIdeal.Val

end
-- ==== Proof.KernelIdeal.SegV7Done.lean ====
import proofs.«900979_g7700000000000980_dist_mlpseq_tp1d_bs_bs_b256_d256_h512_v7x_i8_bf16_1_alg».proof.Proof.KernelIdeal.SegV7
import proofs.«900979_g7700000000000980_dist_mlpseq_tp1d_bs_bs_b256_d256_h512_v7x_i8_bf16_1_alg».proof.Proof.KernelIdeal.SegV7Facts
import proofs.«900979_g7700000000000980_dist_mlpseq_tp1d_bs_bs_b256_d256_h512_v7x_i8_bf16_1_alg».proof.Proof.KernelIdeal.SegV8

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

local notation "𝕄" => MT nD τ sig ℕ (Elt Ideal) ℕ UU ℕ

variable (m : Mem)

/-! # Segment 7 with contents: the segment's proof with the matrix products' and the weight casts' values supplied -/

theorem Q7post_eq (K : GSem nD τ sig → ℕ) (c : Dev nD) : Q7post m K c = Q8pre m K c := rfl

theorem seg7_closed (c : Dev nD) (v2 v678 v681 v811 v815 : BitVec 32) (v818 : Vec Ideal S256x256 .bf16)
    (hin : ∀ i : S256x256.Idx, v818 i = nat2 (A m 1 0) (k0_off13 c 0 + (i 0).val) (i 1).val) :
    (iprop(∃ K, QV6 m K c) : sProp 𝕄)
      ⊢ wp frame (wpE (defs₀ (F := Ideal)) Variants.none (c : Thread nD τ) none) Set.univ
          (seg7 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v678 v681 v811 v815 v818)
          (fun v => iprop(⌜∀ y : S256x256.Idx, v y = nat2 (S1 m 1 1 c) (pair2Row 1 c + (y 0).val) (y 1).val⌝ ∗ ∃ K, Q8pre m K c)) :=
  seg7_okV m c v2 v678 v681 v811 v815 v818
    (fun w8 w9 h8 h9 y => v7_HV43 m c v818 hin w8 w9 h8 h9 y)
    (fun x1 w8 w9 hx1 h8 h9 y => v7_HV44 m c x1 w8 w9 hx1 h8 h9 y)
    (fun x0 w8 w9 hx0 h8 h9 y => v7_HV48 m c x0 w8 w9 hx0 h8 h9 y)
    (fun x1 w8 w9 hx1 h8 h9 y => v7_HV49 m c x1 w8 w9 hx1 h8 h9 y)
    (fun l5 w8 h => v7_HW8 m c l5 w8 h)
    (fun l6 w9 h => v7_HW9 m c l6 w9 h)

/-- info: 'Cert.KernelIdeal.Val.seg7_closed' depends on axioms: [propext, Classical.choice, Quot.sound] -/
#guard_msgs in #print axioms seg7_closed

end Cert.KernelIdeal.Val

end
-- ==== Proof.KernelIdeal.SegV12.lean ====
/- The two half-block steps of the reduce in the last layer, with contents (segment 12): the protocol and ownership
   steps of the ownership proof of the same segment, the buffers carried at named contents; what each local stretch
   leaves in a buffer (a product's rows, a cast, a sum with a landed block) is taken as a hypothesis, stated over the
   stored vectors themselves. -/
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StepsVP
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.QuietLemmas
import proofs.«900979_g7700000000000980_dist_mlpseq_tp1d_bs_bs_b256_d256_h512_v7x_i8_bf16_1_alg».proof.Proof.KernelIdeal.SegAB
import proofs.«900979_g7700000000000980_dist_mlpseq_tp1d_bs_bs_b256_d256_h512_v7x_i8_bf16_1_alg».proof.Proof.KernelIdeal.ValSteps

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Cert.KernelIdeal.Hand.AB
open scoped BigOperators

local notation "𝕄" => MT nD τ sig ℕ (Elt Ideal) ℕ UU ℕ

namespace V12

/-! ## Buffers with a fact about their contents -/

theorem heldButV_empty (c : Dev nD) (b : Ref sig .tc) (P : Buf (Elt Ideal) ((Memref.whole b).view.loc (c : Thread nD τ)) → Prop) :
    heldButV c b ∅ P = bufV c b P := by
  unfold heldButV bufV
  rw [Finset.sdiff_empty]

theorem heldButV_true (c : Dev nD) (b : Ref sig .tc) (A : Finset (Idx ((Memref.whole b).view.loc (c : Thread nD τ)))) :
    heldButV c b A (fun _ => True) ⊣⊢ heldBut (F := Ideal) c b A := by
  unfold heldButV heldBut
  constructor
  · iintro ⟨%f, H, %_h⟩
    iexists f
    iexact H
  · iintro ⟨%f, H⟩
    iexists f
    isplitl [H]
    · iexact H
    · ipureintro; trivial

theorem bufV_of (c : Dev nD) (b : Ref sig .tc) (P : Buf (Elt Ideal) ((Memref.whole b).view.loc (c : Thread nD τ)) → Prop)
    (f : Buf (Elt Ideal) ((Memref.whole b).view.loc (c : Thread nD τ))) (h : P f) : ptw (F := Ideal) c b f ⊢ bufV c b P := by
  unfold bufV
  iintro H
  iexists f
  isplitl [H]
  · iexact H
  · ipureintro; exact h

end V12

/-! ## The segment -/

/-- What segment 12 leaves: the returned vector is the second stream's two-device sum on the other pair of blocks; the
    first accumulator holds the two-device sums on the device's four blocks, the second on its own pair. -/
def Post12 (m : Mem) (c : Dev nD) (r : FVec Ideal S256x256 .f32) : sProp 𝕄 :=
  iprop(⌜∀ y : S256x256.Idx, r y = nat2 (S1 m 2 1 c) (pair2Row 1 c + (y 0).val) (y 1).val⌝ ∗
    ∃ K, QV m K c 34 2 (fun _ => True) (rowsAre0 c (A m 2 0) 0 1024) (rowsAre1 c (A m 2 1) 0 1024)
      (rowsAre2 c (S1 m 2 0 c) (quadRow 0 c) 512) (rowsAre3 c (S1 m 2 1 c) (pairRow 1 c) 256)
      (fun _ => True) (fun _ => True) (fun _ => True) (fun _ => True) ∅ ∅
      ((R2 0).view.set ∪ (R3h 0).view.set) (R2 1).view.set
      iprop(grant (xr 3 c) (R2 0) (rsR 0 1) 2 ∗ grant (xr 4 c) (R2 1) (rsR 1 1) 2 ∗ grantLast (xr 1 c) 0 2))

set_option maxHeartbeats 4000000 in
/-- The two half-block reduce steps of the last layer, with contents: from the state after the third exchange (the
    accumulators hold the device's partial products on its four blocks) to the state before the third reduce step
    (the two-device sums on the four blocks of the first stream and on the own pair of the second; the second
    stream's sum on the other pair is the returned vector). -/
theorem seg12_okV (m : Mem) (c : Dev nD) (v2 v1225 v1228 v1358 v1362 : BitVec 32)
    (v1385 : FVec Ideal S256x512 .bf16) (v1386 : Vec Ideal S512x256 .bf16) (cst_1075 : FVec Ideal S256x256 .f32)
    (H1 : ∀ (a3 : Buf (Elt Ideal) ((Memref.whole cc0_scratch3).view.loc (c : Thread nD τ))), rowsAre3 c (Pt m 2 1 c) (quadRow 1 c) 512 a3 →
      (rowsAre3 c (Pt m 2 1 c) (k0_off10 c 0) 512 (((Memref.whole cc0_scratch3).view.slice (Rect.unit (s := S1024x256) (k0_off14 c) S256x256.size (k0_off14_inb c))).write (Elt Ideal) a3 (k0_pay74 (F := Ideal) v1385 v1386 cst_1075) Finset.univ) ∧ rowsAre3 c (Pt m 2 1 c) (k0_off14 c 0) 256 (((Memref.whole cc0_scratch3).view.slice (Rect.unit (s := S1024x256) (k0_off14 c) S256x256.size (k0_off14_inb c))).write (Elt Ideal) a3 (k0_pay74 (F := Ideal) v1385 v1386 cst_1075) Finset.univ)))
    (H2 : ∀ (a2 : Buf (Elt Ideal) ((Memref.whole cc0_scratch2).view.loc (c : Thread nD τ))) (a4 : Buf (Elt Ideal) ((Memref.whole cc0_scratch4).view.loc (c : Thread nD τ))), (rowsAre2 c (Pt m 2 0 c) (quadRow 0 c) 512 a2 ∧ rowsAre2 c (Pt m 2 0 c) (k0_off13 c 0) 256 a2) →
      (SA 0).view.read (Elt Ideal) (((Memref.whole cc0_scratch4).view.slice (Rect.unit (s := S512x256) ![0, 0] S256x256.size inb_S512x256_S256x256_0_0)).write (Elt Ideal) a4 (k0_pay75 (F := Ideal) ((Memref.whole cc0_scratch2).view.readAt (Elt Ideal) (Rect.unit (s := S1024x256) (k0_off13 c) S256x256.size (k0_off13_inb c)).toLoadRect a2)) Finset.univ) = rows256 (Pt m 2 0 c) (pairRow 0 (xr 4 c)))
    (H3 : ∀ (a3 : Buf (Elt Ideal) ((Memref.whole cc0_scratch3).view.loc (c : Thread nD τ))) (a5 : Buf (Elt Ideal) ((Memref.whole cc0_scratch5).view.loc (c : Thread nD τ))), (rowsAre3 c (Pt m 2 1 c) (k0_off10 c 0) 512 a3 ∧ rowsAre3 c (Pt m 2 1 c) (k0_off14 c 0) 256 a3) →
      (SA 1).view.read (Elt Ideal) (((Memref.whole cc0_scratch5).view.slice (Rect.unit (s := S512x256) ![0, 0] S256x256.size inb_S512x256_S256x256_0_0)).write (Elt Ideal) a5 (k0_pay76 (F := Ideal) ((Memref.whole cc0_scratch3).view.readAt (Elt Ideal) (Rect.unit (s := S1024x256) (k0_off14 c) S256x256.size (k0_off14_inb c)).toLoadRect a3)) Finset.univ) = rows256 (Pt m 2 1 c) (pairRow 1 (xr 1 c)))
    (H4 : ∀ (x0 : Buf (Elt Ideal) ((Memref.whole cc0_scratch0).view.loc (c : Thread nD τ))) (a8 : Buf (Elt Ideal) ((Memref.whole cc0_scratch8).view.loc (c : Thread nD τ))) (a9 : Buf (Elt Ideal) ((Memref.whole cc0_scratch9).view.loc (c : Thread nD τ))) (a4 : Buf (Elt Ideal) ((Memref.whole cc0_scratch4).view.loc (c : Thread nD τ))),
      rowsAre0 c (A m 2 0) 0 1024 x0 → winIs m c 2 a8 → woutIs m c 2 a9 →
      (SB 0).view.read (Elt Ideal) (((Memref.whole cc0_scratch4).view.slice (Rect.unit (s := S512x256) ![256, 0] S256x256.size inb_S512x256_S256x256_256_0)).write (Elt Ideal) a4 (k0_pay80 (F := Ideal) ((Memref.whole cc0_scratch2).view.readCov [⟨(Rect.unit (s := S1024x256) (k0_off15 c) S256x256.size (k0_off15_inb c)), (k0_pay77 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9))⟩] (Rect.unit (s := S1024x256) (k0_off15 c) S256x256.size (k0_off15_inb c)).toLoadRect)) Finset.univ) = rows256 (Pt m 2 0 c) (pair2Row 0 (xr 4 c)))
    (H5 : ∀ (x0 : Buf (Elt Ideal) ((Memref.whole cc0_scratch0).view.loc (c : Thread nD τ))) (a8 : Buf (Elt Ideal) ((Memref.whole cc0_scratch8).view.loc (c : Thread nD τ))) (a9 : Buf (Elt Ideal) ((Memref.whole cc0_scratch9).view.loc (c : Thread nD τ))) (a2 : Buf (Elt Ideal) ((Memref.whole cc0_scratch2).view.loc (c : Thread nD τ))),
      rowsAre0 c (A m 2 0) 0 1024 x0 → winIs m c 2 a8 → woutIs m c 2 a9 → (rowsAre2 c (Pt m 2 0 c) (quadRow 0 c) 512 a2 ∧ rowsAre2 c (Pt m 2 0 c) (k0_off13 c 0) 256 a2) →
      (rowsAre2 c (Pt m 2 0 c) (k0_off7 c 0) 256 (((Memref.whole cc0_scratch2).view.slice (Rect.unit (s := S1024x256) (k0_off15 c) S256x256.size (k0_off15_inb c))).write (Elt Ideal) a2 (k0_pay77 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9)) Finset.univ) ∧ rowsAre2 c (Pt m 2 0 c) (k0_off11 c 0) 256 (((Memref.whole cc0_scratch2).view.slice (Rect.unit (s := S1024x256) (k0_off15 c) S256x256.size (k0_off15_inb c))).write (Elt Ideal) a2 (k0_pay77 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9)) Finset.univ)))
    (H6 : ∀ (x1 : Buf (Elt Ideal) ((Memref.whole cc0_scratch1).view.loc (c : Thread nD τ))) (a8 : Buf (Elt Ideal) ((Memref.whole cc0_scratch8).view.loc (c : Thread nD τ))) (a9 : Buf (Elt Ideal) ((Memref.whole cc0_scratch9).view.loc (c : Thread nD τ))) (a3 : Buf (Elt Ideal) ((Memref.whole cc0_scratch3).view.loc (c : Thread nD τ))),
      rowsAre1 c (A m 2 1) 0 1024 x1 → winIs m c 2 a8 → woutIs m c 2 a9 → (rowsAre3 c (Pt m 2 1 c) (k0_off10 c 0) 512 a3 ∧ rowsAre3 c (Pt m 2 1 c) (k0_off14 c 0) 256 a3) →
      (rowsAre3 c (Pt m 2 1 c) (k0_off8 c 0) 256 (((Memref.whole cc0_scratch3).view.slice (Rect.unit (s := S1024x256) (k0_off16 c) S256x256.size (k0_off16_inb c))).write (Elt Ideal) a3 (k0_pay79 (F := Ideal) (k0_pay78 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9))) Finset.univ) ∧ rowsAre3 c (Pt m 2 1 c) (k0_off12 c 0) 256 (((Memref.whole cc0_scratch3).view.slice (Rect.unit (s := S1024x256) (k0_off16 c) S256x256.size (k0_off16_inb c))).write (Elt Ideal) a3 (k0_pay79 (F := Ideal) (k0_pay78 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9))) Finset.univ) ∧ rowsAre3 c (Pt m 2 1 c) (k0_off16 c 0) 256 (((Memref.whole cc0_scratch3).view.slice (Rect.unit (s := S1024x256) (k0_off16 c) S256x256.size (k0_off16_inb c))).write (Elt Ideal) a3 (k0_pay79 (F := Ideal) (k0_pay78 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9))) Finset.univ)))
    (H7 : ∀ (a3 : Buf (Elt Ideal) ((Memref.whole cc0_scratch3).view.loc (c : Thread nD τ))) (a5 : Buf (Elt Ideal) ((Memref.whole cc0_scratch5).view.loc (c : Thread nD τ))), (rowsAre3 c (Pt m 2 1 c) (k0_off8 c 0) 256 a3 ∧ rowsAre3 c (Pt m 2 1 c) (k0_off12 c 0) 256 a3 ∧ rowsAre3 c (Pt m 2 1 c) (k0_off16 c 0) 256 a3) →
      (SB 1).view.read (Elt Ideal) (((Memref.whole cc0_scratch5).view.slice (Rect.unit (s := S512x256) ![256, 0] S256x256.size inb_S512x256_S256x256_256_0)).write (Elt Ideal) a5 (k0_pay81 (F := Ideal) ((Memref.whole cc0_scratch3).view.readAt (Elt Ideal) (Rect.unit (s := S1024x256) (k0_off16 c) S256x256.size (k0_off16_inb c)).toLoadRect a3)) Finset.univ) = rows256 (Pt m 2 1 c) (pair2Row 1 (xr 1 c)))
    (H8 : ∀ (a2 : Buf (Elt Ideal) ((Memref.whole cc0_scratch2).view.loc (c : Thread nD τ))) (g : Buf (Elt Ideal) ((Memref.whole cc0_scratch6).view.loc (c : Thread nD τ))), (rowsAre2 c (Pt m 2 0 c) (k0_off7 c 0) 256 a2 ∧ rowsAre2 c (Pt m 2 0 c) (k0_off11 c 0) 256 a2) →
      (R0 0).view.read (Elt Ideal) g = rows256 (Pt m 2 0 (xr 4 c)) (pairRow 0 c) →
      (rowsAre2 c (S1 m 2 0 c) (k0_off7 c 0) 256 (((Memref.whole cc0_scratch2).view.slice (Rect.unit (s := S1024x256) (k0_off7 c) S256x256.size (k0_off7_inb c))).write (Elt Ideal) a2 (k0_pay82 (F := Ideal) ((Memref.whole cc0_scratch2).view.readAt (Elt Ideal) (Rect.unit (s := S1024x256) (k0_off7 c) S256x256.size (k0_off7_inb c)).toLoadRect a2) ((Memref.whole cc0_scratch6).view.readAt (Elt Ideal) (Rect.unit (s := S1280x256) ![0, 0] S256x256.size inb_S1280x256_S256x256_0_0).toLoadRect g)) Finset.univ) ∧ rowsAre2 c (Pt m 2 0 c) (k0_off11 c 0) 256 (((Memref.whole cc0_scratch2).view.slice (Rect.unit (s := S1024x256) (k0_off7 c) S256x256.size (k0_off7_inb c))).write (Elt Ideal) a2 (k0_pay82 (F := Ideal) ((Memref.whole cc0_scratch2).view.readAt (Elt Ideal) (Rect.unit (s := S1024x256) (k0_off7 c) S256x256.size (k0_off7_inb c)).toLoadRect a2) ((Memref.whole cc0_scratch6).view.readAt (Elt Ideal) (Rect.unit (s := S1280x256) ![0, 0] S256x256.size inb_S1280x256_S256x256_0_0).toLoadRect g)) Finset.univ)))
    (H9 : ∀ (a3 : Buf (Elt Ideal) ((Memref.whole cc0_scratch3).view.loc (c : Thread nD τ))) (g : Buf (Elt Ideal) ((Memref.whole cc0_scratch7).view.loc (c : Thread nD τ))), (rowsAre3 c (Pt m 2 1 c) (k0_off8 c 0) 256 a3 ∧ rowsAre3 c (Pt m 2 1 c) (k0_off12 c 0) 256 a3 ∧ rowsAre3 c (Pt m 2 1 c) (k0_off16 c 0) 256 a3) →
      (R0 1).view.read (Elt Ideal) g = rows256 (Pt m 2 1 (xr 1 c)) (pairRow 1 c) →
      (rowsAre3 c (S1 m 2 1 c) (k0_off8 c 0) 256 (((Memref.whole cc0_scratch3).view.slice (Rect.unit (s := S1024x256) (k0_off8 c) S256x256.size (k0_off8_inb c))).write (Elt Ideal) a3 (k0_pay83 (F := Ideal) ((Memref.whole cc0_scratch3).view.readAt (Elt Ideal) (Rect.unit (s := S1024x256) (k0_off8 c) S256x256.size (k0_off8_inb c)).toLoadRect a3) ((Memref.whole cc0_scratch7).view.readAt (Elt Ideal) (Rect.unit (s := S1280x256) ![0, 0] S256x256.size inb_S1280x256_S256x256_0_0).toLoadRect g)) Finset.univ) ∧ rowsAre3 c (Pt m 2 1 c) (k0_off12 c 0) 256 (((Memref.whole cc0_scratch3).view.slice (Rect.unit (s := S1024x256) (k0_off8 c) S256x256.size (k0_off8_inb c))).write (Elt Ideal) a3 (k0_pay83 (F := Ideal) ((Memref.whole cc0_scratch3).view.readAt (Elt Ideal) (Rect.unit (s := S1024x256) (k0_off8 c) S256x256.size (k0_off8_inb c)).toLoadRect a3) ((Memref.whole cc0_scratch7).view.readAt (Elt Ideal) (Rect.unit (s := S1280x256) ![0, 0] S256x256.size inb_S1280x256_S256x256_0_0).toLoadRect g)) Finset.univ)))
    (H10 : ∀ (a2 : Buf (Elt Ideal) ((Memref.whole cc0_scratch2).view.loc (c : Thread nD τ))) (g : Buf (Elt Ideal) ((Memref.whole cc0_scratch6).view.loc (c : Thread nD τ))), (rowsAre2 c (S1 m 2 0 c) (k0_off7 c 0) 256 a2 ∧ rowsAre2 c (Pt m 2 0 c) (k0_off11 c 0) 256 a2) →
      (R1 0).view.read (Elt Ideal) g = rows256 (Pt m 2 0 (xr 4 c)) (pair2Row 0 c) →
      rowsAre2 c (S1 m 2 0 c) (quadRow 0 c) 512 (((Memref.whole cc0_scratch2).view.slice (Rect.unit (s := S1024x256) (k0_off11 c) S256x256.size (k0_off11_inb c))).write (Elt Ideal) a2 (k0_pay84 (F := Ideal) ((Memref.whole cc0_scratch2).view.readAt (Elt Ideal) (Rect.unit (s := S1024x256) (k0_off11 c) S256x256.size (k0_off11_inb c)).toLoadRect a2) ((Memref.whole cc0_scratch6).view.readAt (Elt Ideal) (Rect.unit (s := S1280x256) ![256, 0] S256x256.size inb_S1280x256_S256x256_256_0).toLoadRect g)) Finset.univ))
    (H11 : ∀ (a3 : Buf (Elt Ideal) ((Memref.whole cc0_scratch3).view.loc (c : Thread nD τ))) (g : Buf (Elt Ideal) ((Memref.whole cc0_scratch7).view.loc (c : Thread nD τ))), (rowsAre3 c (S1 m 2 1 c) (k0_off8 c 0) 256 a3 ∧ rowsAre3 c (Pt m 2 1 c) (k0_off12 c 0) 256 a3) →
      (R1 1).view.read (Elt Ideal) g = rows256 (Pt m 2 1 (xr 1 c)) (pair2Row 1 c) →
      ∀ y : S256x256.Idx, k0_pay85 (F := Ideal) ((Memref.whole cc0_scratch3).view.readAt (Elt Ideal) (Rect.unit (s := S1024x256) (k0_off12 c) S256x256.size (k0_off12_inb c)).toLoadRect a3) ((Memref.whole cc0_scratch7).view.readAt (Elt Ideal) (Rect.unit (s := S1280x256) ![256, 0] S256x256.size inb_S1280x256_S256x256_256_0).toLoadRect g) y = nat2 (S1 m 2 1 c) (pair2Row 1 c + (y 0).val) (y 1).val) :
    (iprop(∃ K, QV m K c 30 2 (fun _ => True) (rowsAre0 c (A m 2 0) 0 1024) (rowsAre1 c (A m 2 1) 0 1024)
        (fun f => rowsAre2 c (Pt m 2 0 c) (quadRow 0 c) 512 f ∧ rowsAre2 c (Pt m 2 0 c) (k0_off13 c 0) 256 f)
        (rowsAre3 c (Pt m 2 1 c) (quadRow 1 c) 512)
        (fun _ => True) (fun _ => True) (fun _ => True) (fun _ => True) ∅ ∅
        ((R0 0).view.set ∪ (R1 0).view.set ∪ (R2 0).view.set) ((R0 1).view.set ∪ (R1 1).view.set)
        iprop(grant (xr 4 c) (R0 0) (rsR 0 0) 2 ∗ grant (xr 1 c) (R0 1) (rsR 1 0) 2 ∗ grant (xr 4 c) (R1 0) (rsR 0 4) 2 ∗ grant (xr 1 c) (R1 1) (rsR 1 4) 2 ∗ grant (xr 3 c) (R2 0) (rsR 0 1) 2)) : sProp 𝕄)
      ⊢ wp frame (wpE (defs₀ (F := Ideal)) Variants.none (c : Thread nD τ) none) Set.univ
          (seg12 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v1225 v1228 v1358 v1362 v1385 v1386 cst_1075)
          (fun r => Post12 m c r) := by
  -- what the local loads and stores need of the buffers held by parts
  have hin4 : (Memref.whole cc0_scratch4).view.setOn (Rect.unit (s := S512x256) ![256, 0] S256x256.size inb_S512x256_S256x256_256_0).set
      ⊆ (Finset.univ \ (SA 0).view.set : Finset (Idx ((SA 0).view.loc (c : Thread nD τ)))) := sndB_off_A 0
  have hin5 : (Memref.whole cc0_scratch5).view.setOn (Rect.unit (s := S512x256) ![256, 0] S256x256.size inb_S512x256_S256x256_256_0).set
      ⊆ (Finset.univ \ (SA 1).view.set : Finset (Idx ((SA 1).view.loc (c : Thread nD τ)))) := sndB_off_A 1
  have hR00 : (Memref.whole cc0_scratch6).view.setOn (Rect.unit (s := S1280x256) ![0, 0] S256x256.size inb_S1280x256_S256x256_0_0).set
      ⊆ (R0 0).view.set := (setOn_slice_eq cc0_scratch6 _ (fun _ => rfl)).subset
  have hR01 : (Memref.whole cc0_scratch7).view.setOn (Rect.unit (s := S1280x256) ![0, 0] S256x256.size inb_S1280x256_S256x256_0_0).set
      ⊆ (R0 1).view.set := (setOn_slice_eq cc0_scratch7 _ (fun _ => rfl)).subset
  have hR10 : (Memref.whole cc0_scratch6).view.setOn (Rect.unit (s := S1280x256) ![256, 0] S256x256.size inb_S1280x256_S256x256_256_0).set
      ⊆ (R1 0).view.set := (setOn_slice_eq cc0_scratch6 _ (fun _ => rfl)).subset
  have hR11 : (Memref.whole cc0_scratch7).view.setOn (Rect.unit (s := S1280x256) ![256, 0] S256x256.size inb_S1280x256_S256x256_256_0).set
      ⊆ (R1 1).view.set := (setOn_slice_eq cc0_scratch7 _ (fun _ => rfl)).subset
  have hst4 : ((Memref.whole cc0_scratch4).access (Rect.unit (s := S512x256) ![256, 0] S256x256.size inb_S512x256_S256x256_256_0)).setOn Finset.univ
      ⊆ (Finset.univ \ (SA 0).view.set : Finset (Idx ((SA 0).view.loc (c : Thread nD τ)))) := sndB_store_off_A 0
  have hst5 : ((Memref.whole cc0_scratch5).access (Rect.unit (s := S512x256) ![256, 0] S256x256.size inb_S512x256_S256x256_256_0)).setOn Finset.univ
      ⊆ (Finset.univ \ (SA 1).view.set : Finset (Idx ((SA 1).view.loc (c : Thread nD τ)))) := sndB_store_off_A 1
  have hdX : Disjoint ((R0 0).view.set ∪ (R1 0).view.set ∪ (R2 0).view.set) (R3h 0).view.set :=
    Finset.disjoint_union_left.mpr ⟨Finset.disjoint_union_left.mpr ⟨disj_R0_R3h 0, disj_R1_R3h 0⟩, disj_R2_R3h 0⟩
  have hd60 : Disjoint ((R2 0).view.set ∪ (R3h 0).view.set ∪ (R1 0).view.set) (R0 0).view.set :=
    Finset.disjoint_union_left.mpr ⟨Finset.disjoint_union_left.mpr ⟨(disj_R0_R2 0).symm, (disj_R0_R3h 0).symm⟩, (disj_R0_R1 0).symm⟩
  have hd61 : Disjoint ((R2 0).view.set ∪ (R3h 0).view.set) (R1 0).view.set :=
    Finset.disjoint_union_left.mpr ⟨(disj_R1_R2 0).symm, (disj_R1_R3h 0).symm⟩
  have hd70 : Disjoint ((R2 1).view.set ∪ (R1 1).view.set) (R0 1).view.set :=
    Finset.disjoint_union_left.mpr ⟨(disj_R0_R2 1).symm, (disj_R0_R1 1).symm⟩
  have hd71 : Disjoint (R2 1).view.set (R1 1).view.set := (disj_R1_R2 1).symm
  iintro ⟨%K, H⟩
  unfold QV localBufsV
  rw [V12.heldButV_empty c cc0_scratch0, V12.heldButV_empty c cc0_scratch1]
  unfold bufV
  icases H with ⟨#HI, #HRA, #Hlev, Hbar, Hpos, Htoks, Hcreds, ⟨%W, HO⟩, ⟨⟨%f0, Hs0, %hf0⟩, ⟨%f1, Hs1, %hf1⟩, ⟨%f2, Hs2, %hf2⟩, ⟨%f3, Hs3, %hf3⟩, ⟨%f4, Hs4, %hf4⟩, ⟨%f5, Hs5, %hf5⟩, ⟨%f6, Hs6, %hf6⟩, ⟨%f7, Hs7, %hf7⟩, ⟨%a2, Ha2, %h2⟩, ⟨%a3, Ha3, %h3⟩, ⟨%a4, Ha4, %h4⟩, ⟨%a5, Ha5, %h5⟩, ⟨%a8, Ha8, %h8⟩, ⟨%a9, Ha9, %h9⟩⟩, ⟨%x0, Hx0, %hx0⟩, ⟨%x1, Hx1, %hx1⟩, Hr0, Hr1, Hg1, Hg2, Hg3, Hg4, Hg5⟩
  ihave Hr0 := (V12.heldButV_true c cc0_scratch6 _).1 $$ Hr0
  ihave Hr1 := (V12.heldButV_true c cc0_scratch7 _).1 $$ Hr1
  have h2q : rowsAre2 c (Pt m 2 0 c) (k0_off9 c 0) 512 a2 := h2.1
  have h3q : rowsAre3 c (Pt m 2 1 c) (k0_off10 c 0) 512 a3 := h3
  ihave Htoks := (toksAB_open c 30 34 2 _ drop_seg_30 rfl) $$ Htoks
  icases Htoks with ⟨⟨Ht6s, Ht6r⟩, ⟨Ht7s, Ht7r⟩, ⟨Ht8s, Ht8r⟩, ⟨Ht9s, Ht9r⟩, Htoks⟩
  ihave Hcreds := (credsAB_open c 30 31 32 33 34 2 _ drop_seg_30 rfl rfl rfl rfl) $$ Hcreds
  icases Hcreds with ⟨Hc6, Hc7, Hc8, Hc9, Hcreds⟩
  ihave Hpos := (posAt_focus8' c (roundsDone 30) (roundsDone 34) (by decide) 2 2 1 1 rfl rfl rfl rfl rfl rfl rfl rfl rfl rfl rfl) $$ Hpos
  icases Hpos with ⟨⟨Hp20, #Hq20⟩, ⟨Hp24, #Hq24⟩, ⟨Hp25, #Hq25⟩, ⟨Hp29, #Hq29⟩, ⟨Hp30, #Hq30⟩, ⟨Hp34, #Hq34⟩, ⟨Hp35, #Hq35⟩, ⟨Hp39, #Hq39⟩, #Hq36, #Hq27, #Hq28, Hposback⟩
  ihave Hg1 := (grant_open _ _ _ _ 25 rsR_00) $$ Hg1
  icases Hg1 with ⟨Hd6, #Hrr6⟩
  ihave Hg2 := (grant_open _ _ _ _ 35 rsR_10) $$ Hg2
  icases Hg2 with ⟨Hd7, #Hrr7⟩
  ihave Hg3 := (grant_open _ _ _ _ 29 rsR_04) $$ Hg3
  icases Hg3 with ⟨Hd8, #Hrr8⟩
  ihave Hg4 := (grant_open _ _ _ _ 39 rsR_14) $$ Hg4
  icases Hg4 with ⟨Hd9, #Hrr9⟩
  unfold seg12
  sl_exec
  -- stream 1's product on the partner's first pair; the first half of stream 0's send buffer holds the partial on the partner's first pair
  ihave ⟨%a3₁, Ha3, %h3₁⟩ : (∃ f, ptw (F := Ideal) c cc0_scratch3 f ∗ ⌜rowsAre3 c (Pt m 2 1 c) (k0_off10 c 0) 512 f ∧ rowsAre3 c (Pt m 2 1 c) (k0_off14 c 0) 256 f⌝) $$ [Ha3]
  · iexists _
    isplitl [Ha3]
    · iexact Ha3
    ipureintro
    exact H1 a3 h3

  ihave ⟨%a4₁, Ha4, %h4₁⟩ : (∃ f, ptw (F := Ideal) c cc0_scratch4 f ∗ ⌜(SA 0).view.read (Elt Ideal) f = rows256 (Pt m 2 0 c) (pairRow 0 (xr 4 c))⌝) $$ [Ha4]
  · iexists _
    isplitl [Ha4]
    · iexact Ha4
    ipureintro
    exact H2 a2 a4 h2

  -- copy 30
  ihave Hsp := (slice_split c (SA 0) _).1 $$ Ha4
  icases Hsp with ⟨Hsa0, Ha4⟩
  iapply (wp_send_copyV' m c (xr 4 c) _ (dev34_eq c) (SA 0) (R0 0) 20 25 2 31 _ _ sem_rs0s_0 sem_rs0r_0
      (by decide) (by decide) (by decide) (by decide)
      ((credit_R0 0).trans rfl) rfl (iprop(emp)) fullShare a4₁ (ownAt_of c (SA 0) _)
      (fun fd => (sep_emp (PROP := sProp 𝕄)).1.trans (by
        rw [show payDmaV m (xr 4 c) 25 2 = owns ((xr 4 c : Dev nD) : Thread nD τ) (R0 0) fullShare (rows256 (Pt m 2 0 (xr 4 (xr 4 c))) (pairRow 0 (xr 4 c))) from rfl, xr_xr]
        exact land_owns (xr 4 c) (R0 0) fd _ _ h4₁))
      K (owedFrom c 31) (owedFrom_succ c 30 (4, 25, 2) rfl) _ (by routes)) $$ [Hsa0 Hd6 HO Ht6s Ht6r]
  · iframe ∗ #
  iintro ⟨Hcs6, HO⟩
  sl_exec
  ihave ⟨%a5₁, Ha5, %h5₁⟩ : (∃ f, ptw (F := Ideal) c cc0_scratch5 f ∗ ⌜(SA 1).view.read (Elt Ideal) f = rows256 (Pt m 2 1 c) (pairRow 1 (xr 1 c))⌝) $$ [Ha5]
  · iexists _
    isplitl [Ha5]
    · iexact Ha5
    ipureintro
    exact H3 a3₁ a5 h3₁

  -- copy 31
  ihave Hsp := (slice_split c (SA 1) _).1 $$ Ha5
  icases Hsp with ⟨Hsa1, Ha5⟩
  iapply (wp_send_copyV' m c (xr 1 c) _ (dev35_eq c) (SA 1) (R0 1) 30 35 2 32 _ _ sem_rs1s_0 sem_rs1r_0
      (by decide) (by decide) (by decide) (by decide)
      ((credit_R0 1).trans rfl) rfl (iprop(emp)) fullShare a5₁ (ownAt_of c (SA 1) _)
      (fun fd => (sep_emp (PROP := sProp 𝕄)).1.trans (by
        rw [show payDmaV m (xr 1 c) 35 2 = owns ((xr 1 c : Dev nD) : Thread nD τ) (R0 1) fullShare (rows256 (Pt m 2 1 (xr 1 (xr 1 c))) (pairRow 1 (xr 1 c))) from rfl, xr_xr]
        exact land_owns (xr 1 c) (R0 1) fd _ _ h5₁))
      K (owedFrom c 32) (owedFrom_succ c 31 (1, 35, 2) rfl) _ (by routes)) $$ [Hsa1 Hd7 HO Ht7s Ht7r]
  · iframe ∗ #
  iintro ⟨Hcs7, HO⟩
  sl_exec

  -- stream 0's product on the partner's second pair, stream 1's likewise; the second half of stream 0's send buffer
  ihave ⟨%a4₂, Ha4, %h4₂⟩ : (∃ f, ((Memref.whole cc0_scratch4).view.loc (c : Thread nD τ) ↦[Finset.univ \ (SA 0).view.set]{fullShare} f) ∗ ⌜(SB 0).view.read (Elt Ideal) f = rows256 (Pt m 2 0 c) (pair2Row 0 (xr 4 c))⌝) $$ [Ha4]
  · iexists _
    isplitl [Ha4]
    · iexact Ha4
    ipureintro
    exact H4 x0 a8 a9 a4₁ hx0 h8 h9

  ihave ⟨%a2₂, Ha2, %h2₂⟩ : (∃ f, ptw (F := Ideal) c cc0_scratch2 f ∗ ⌜rowsAre2 c (Pt m 2 0 c) (k0_off7 c 0) 256 f ∧ rowsAre2 c (Pt m 2 0 c) (k0_off11 c 0) 256 f⌝) $$ [Ha2]
  · iexists _
    isplitl [Ha2]
    · iexact Ha2
    ipureintro
    exact H5 x0 a8 a9 a2 hx0 h8 h9 h2

  ihave ⟨%a3₂, Ha3, %h3₂⟩ : (∃ f, ptw (F := Ideal) c cc0_scratch3 f ∗ ⌜rowsAre3 c (Pt m 2 1 c) (k0_off8 c 0) 256 f ∧ rowsAre3 c (Pt m 2 1 c) (k0_off12 c 0) 256 f ∧ rowsAre3 c (Pt m 2 1 c) (k0_off16 c 0) 256 f⌝) $$ [Ha3]
  · iexists _
    isplitl [Ha3]
    · iexact Ha3
    ipureintro
    exact H6 x1 a8 a9 a3₁ hx1 h8 h9 h3₁

  -- copy 32
  ihave Hsp := (rest_split (disj_SA_SB 0) _).1 $$ Ha4
  icases Hsp with ⟨Hsb0, Ha4⟩
  ihave Hr1 := (heldBut_take_view c (R2 1) _ (Finset.disjoint_union_left.mpr ⟨disj_R0_R2 1, disj_R1_R2 1⟩)).1 $$ Hr1
  icases Hr1 with ⟨Hown21, Hr1⟩
  iapply (wp_send_copyV' m c (xr 4 c) _ (dev36_eq c) (SB 0) (R1 0) 24 29 2 33 _ _ sem_rs0s_4 sem_rs0r_4
      (by decide) (by decide) (by decide) (by decide)
      ((credit_R1 0).trans rfl) rfl (iprop(ownAt c (R2 1) ∗ reached ER (dcell c (dsem 36)) 2)) fullShare a4₂ (ownAt_of c (SB 0) _)
      (fun fd => by
        rw [show payDmaV m (xr 4 c) 29 2 = iprop(owns ((xr 4 c : Dev nD) : Thread nD τ) (R1 0) fullShare (rows256 (Pt m 2 0 (xr 4 (xr 4 c))) (pair2Row 0 (xr 4 c))) ∗ (ownAt (xr 4 (xr 4 c)) (R2 1) ∗ reached ER (dcell (xr 4 (xr 4 c)) (rsR 1 1)) 2)) from rfl, xr_xr, rsR_11]
        exact sep_mono_left (land_owns (xr 4 c) (R1 0) fd _ _ h4₂))
      K (owedFrom c 33) (owedFrom_succ c 32 (4, 29, 2) rfl) _ (by routes)) $$ [Hsb0 Hd8 Hown21 HO Ht8s Ht8r]
  · iframe ∗ #
  iintro ⟨Hcs8, HO⟩
  sl_exec
  ihave ⟨%a5₂, Ha5, %h5₂⟩ : (∃ f, ((Memref.whole cc0_scratch5).view.loc (c : Thread nD τ) ↦[Finset.univ \ (SA 1).view.set]{fullShare} f) ∗ ⌜(SB 1).view.read (Elt Ideal) f = rows256 (Pt m 2 1 c) (pair2Row 1 (xr 1 c))⌝) $$ [Ha5]
  · iexists _
    isplitl [Ha5]
    · iexact Ha5
    ipureintro
    exact H7 a3₂ a5₁ h3₂

  -- copy 33
  ihave Hsp := (rest_split (disj_SA_SB 1) _).1 $$ Ha5
  icases Hsp with ⟨Hsb1, Ha5⟩
  ihave Hr0 := (heldBut_take_view c (R3h 0) _ hdX).1 $$ Hr0
  icases Hr0 with ⟨HownX, Hr0⟩
  iapply (wp_send_copyV' m c (xr 1 c) _ (dev37_eq c) (SB 1) (R1 1) 34 39 2 34 _ _ sem_rs1s_4 sem_rs1r_4
      (by decide) (by decide) (by decide) (by decide)
      ((credit_R1 1).trans rfl) rfl (iprop(ownAt c (R3h 0) ∗ reached ER (dcell c (dsem 27)) 1)) fullShare a5₂ (ownAt_of c (SB 1) _)
      (fun fd => by
        rw [show payDmaV m (xr 1 c) 39 2 = iprop(owns ((xr 1 c : Dev nD) : Thread nD τ) (R1 1) fullShare (rows256 (Pt m 2 1 (xr 1 (xr 1 c))) (pair2Row 1 (xr 1 c))) ∗ (ownAt (xr 1 (xr 1 c)) (R3h 0) ∗ reached ER (dcell (xr 1 (xr 1 c)) (rsR 0 2)) 1)) from rfl, xr_xr, rsR_02]
        exact sep_mono_left (land_owns (xr 1 c) (R1 1) fd _ _ h5₂))
      K (owedFrom c 34) (owedFrom_succ c 33 (1, 39, 2) rfl) _ (by routes)) $$ [Hsb1 Hd9 HownX HO Ht9s Ht9r]
  · iframe ∗ #
  iintro ⟨Hcs9, HO⟩
  sl_exec

  -- the waits of the first halves
  ihave Hcs6 := (cred_amt _ _ (show amtDma 25 2 = amtDma 20 2 from rfl)) $$ Hcs6
  ihave Hmw := (mayWait_copy c (dsem 20) 30 34 (by decide) (by decide)) $$ Hlev
  iapply (wp_wait_copyV' m c 20 2 31 _ sem_rs0s_0 (by decide) (by decide) K (owedFrom c 34) _ ((credit_SA 0).trans rfl)) $$ [Hcs6 HO Hmw Hp20]
  · iframe ∗ #
  iintro ⟨HO, Hp20, #Hn20, Hpay⟩
  ihave Hpay := (Entails.of_eq (show payDmaV m c 20 2 = ownAt c (SA 0) from rfl)) $$ Hpay
  icases Hpay with Hsa0
  sl_exec
  ihave Hmw := (mayWait_copy c (dsem 25) 30 34 (by decide) (by decide)) $$ Hlev
  iapply (wp_wait_copyV' m c 25 2 31 _ sem_rs0r_0 (by decide) (by decide) K (owedFrom c 34) _ ((credit_R0 0).trans rfl)) $$ [Hc6 HO Hmw Hp25]
  · iframe ∗ #
  iintro ⟨HO, Hp25, #Hn25, Hpay⟩
  ihave Hpay := (Entails.of_eq (show payDmaV m c 25 2 = iprop(∃ f, ⌜(R0 0).view.read (Elt Ideal) f = rows256 (Pt m 2 0 (xr 4 c)) (pairRow 0 c)⌝ ∗ ((R0 0).view.loc (c : Thread nD τ) ↦[(R0 0).view.set]{fullShare} f)) from rfl)) $$ Hpay
  icases Hpay with ⟨%g00, %hg00, HR00⟩
  sl_exec
  ihave Hcs7 := (cred_amt _ _ (show amtDma 35 2 = amtDma 30 2 from rfl)) $$ Hcs7
  ihave Hmw := (mayWait_copy c (dsem 30) 31 34 (by decide) (by decide)) $$ Hlev
  iapply (wp_wait_copyV' m c 30 2 32 _ sem_rs1s_0 (by decide) (by decide) K (owedFrom c 34) _ ((credit_SA 1).trans rfl)) $$ [Hcs7 HO Hmw Hp30]
  · iframe ∗ #
  iintro ⟨HO, Hp30, #Hn30, Hpay⟩
  ihave Hpay := (Entails.of_eq (show payDmaV m c 30 2 = ownAt c (SA 1) from rfl)) $$ Hpay
  icases Hpay with Hsa1
  sl_exec
  ihave Hmw := (mayWait_copy c (dsem 35) 31 34 (by decide) (by decide)) $$ Hlev
  iapply (wp_wait_copyV' m c 35 2 32 _ sem_rs1r_0 (by decide) (by decide) K (owedFrom c 34) _ ((credit_R0 1).trans rfl)) $$ [Hc7 HO Hmw Hp35]
  · iframe ∗ #
  iintro ⟨HO, Hp35, #Hn35, Hpay⟩
  ihave Hpay := (Entails.of_eq (show payDmaV m c 35 2 = iprop(∃ f, ⌜(R0 1).view.read (Elt Ideal) f = rows256 (Pt m 2 1 (xr 1 c)) (pairRow 1 c)⌝ ∗ ((R0 1).view.loc (c : Thread nD τ) ↦[(R0 1).view.set]{fullShare} f)) from rfl)) $$ Hpay
  icases Hpay with ⟨%g01, %hg01, HR01⟩
  sl_exec
  -- the first landed halves added in
  ihave ⟨%a2₃, Ha2, %h2₃⟩ : (∃ f, ptw (F := Ideal) c cc0_scratch2 f ∗ ⌜rowsAre2 c (S1 m 2 0 c) (k0_off7 c 0) 256 f ∧ rowsAre2 c (Pt m 2 0 c) (k0_off11 c 0) 256 f⌝) $$ [Ha2]
  · iexists _
    isplitl [Ha2]
    · iexact Ha2
    ipureintro
    exact H8 a2₂ g00 h2₂ hg00

  ihave ⟨%a3₃, Ha3, %h3₃⟩ : (∃ f, ptw (F := Ideal) c cc0_scratch3 f ∗ ⌜rowsAre3 c (S1 m 2 1 c) (k0_off8 c 0) 256 f ∧ rowsAre3 c (Pt m 2 1 c) (k0_off12 c 0) 256 f⌝) $$ [Ha3]
  · iexists _
    isplitl [Ha3]
    · iexact Ha3
    ipureintro
    exact H9 a3₂ g01 h3₂ hg01

  -- the waits of the second halves
  ihave Hcs8 := (cred_amt _ _ (show amtDma 29 2 = amtDma 24 2 from rfl)) $$ Hcs8
  ihave Hmw := (mayWait_copy c (dsem 24) 32 34 (by decide) (by decide)) $$ Hlev
  iapply (wp_wait_copyV' m c 24 2 33 _ sem_rs0s_4 (by decide) (by decide) K (owedFrom c 34) _ ((credit_SB 0).trans rfl)) $$ [Hcs8 HO Hmw Hp24]
  · iframe ∗ #
  iintro ⟨HO, Hp24, #Hn24, Hpay⟩
  ihave Hpay := (Entails.of_eq (show payDmaV m c 24 2 = ownAt c (SB 0) from rfl)) $$ Hpay
  icases Hpay with Hsb0
  sl_exec
  ihave Hmw := (mayWait_copy c (dsem 29) 32 34 (by decide) (by decide)) $$ Hlev
  iapply (wp_wait_copyV' m c 29 2 33 _ sem_rs0r_4 (by decide) (by decide) K (owedFrom c 34) _ ((credit_R1 0).trans rfl)) $$ [Hc8 HO Hmw Hp29]
  · iframe ∗ #
  iintro ⟨HO, Hp29, #Hn29, Hpay⟩
  ihave Hpay := (Entails.of_eq (show payDmaV m c 29 2 = iprop((∃ f, ⌜(R1 0).view.read (Elt Ideal) f = rows256 (Pt m 2 0 (xr 4 c)) (pair2Row 0 c)⌝ ∗ ((R1 0).view.loc (c : Thread nD τ) ↦[(R1 0).view.set]{fullShare} f)) ∗ grant (xr 4 c) (R2 1) (rsR 1 1) 2) from rfl)) $$ Hpay
  icases Hpay with ⟨⟨%g10, %hg10, HR10⟩, Hgn1⟩
  sl_exec
  ihave Hcs9 := (cred_amt _ _ (show amtDma 39 2 = amtDma 34 2 from rfl)) $$ Hcs9
  ihave Hmw := (mayWait_copy c (dsem 34) 33 34 (by decide) (by decide)) $$ Hlev
  iapply (wp_wait_copyV' m c 34 2 34 _ sem_rs1s_4 (by decide) (by decide) K (owedFrom c 34) _ ((credit_SB 1).trans rfl)) $$ [Hcs9 HO Hmw Hp34]
  · iframe ∗ #
  iintro ⟨HO, Hp34, #Hn34, Hpay⟩
  ihave Hpay := (Entails.of_eq (show payDmaV m c 34 2 = ownAt c (SB 1) from rfl)) $$ Hpay
  icases Hpay with Hsb1
  sl_exec
  ihave Hmw := (mayWait_copy c (dsem 39) 33 34 (by decide) (by decide)) $$ Hlev
  iapply (wp_wait_copyV' m c 39 2 34 _ sem_rs1r_4 (by decide) (by decide) K (owedFrom c 34) _ ((credit_R1 1).trans rfl)) $$ [Hc9 HO Hmw Hp39]
  · iframe ∗ #
  iintro ⟨HO, Hp39, #Hn39, Hpay⟩
  ihave Hpay := (Entails.of_eq (show payDmaV m c 39 2 = iprop((∃ f, ⌜(R1 1).view.read (Elt Ideal) f = rows256 (Pt m 2 1 (xr 1 c)) (pair2Row 1 c)⌝ ∗ ((R1 1).view.loc (c : Thread nD τ) ↦[(R1 1).view.set]{fullShare} f)) ∗ grantLast (xr 1 c) 0 2) from rfl)) $$ Hpay
  icases Hpay with ⟨⟨%g11, %hg11, HR11⟩, Hgn2⟩
  -- both send buffers whole again
  ihave Hsb0 := (Entails.of_eq (ownAt_eq c (SB 0))) $$ Hsb0
  icases Hsb0 with ⟨%h40, Hsb0⟩
  ihave Ha4 := (rest_join_at (disj_SA_SB 0) _ h40) $$ [Hsb0 Ha4]
  · iframe Hsb0 Ha4
  ihave Ha4 := (slice_join_ownAt c (SA 0) _) $$ [Hsa0 Ha4]
  · iframe Hsa0 Ha4
  icases Ha4 with ⟨%a4', Ha4⟩
  ihave Ha4 := (Entails.of_eq (show ((SA 0).view.loc (c : Thread nD τ) ↦{fullShare} a4' : sProp 𝕄) = ptw (F := Ideal) c cc0_scratch4 a4' from rfl)) $$ Ha4
  ihave Hsb1 := (Entails.of_eq (ownAt_eq c (SB 1))) $$ Hsb1
  icases Hsb1 with ⟨%h50, Hsb1⟩
  ihave Ha5 := (rest_join_at (disj_SA_SB 1) _ h50) $$ [Hsb1 Ha5]
  · iframe Hsb1 Ha5
  ihave Ha5 := (slice_join_ownAt c (SA 1) _) $$ [Hsa1 Ha5]
  · iframe Hsa1 Ha5
  icases Ha5 with ⟨%a5', Ha5⟩
  ihave Ha5 := (Entails.of_eq (show ((SA 1).view.loc (c : Thread nD τ) ↦{fullShare} a5' : sProp 𝕄) = ptw (F := Ideal) c cc0_scratch5 a5' from rfl)) $$ Ha5
  sl_exec
  sl_step
  unfold Post12
  -- the returned vector is the second stream's two-device sum on the other pair
  isplitr
  · ipureintro
    exact H11 a3₃ g11 h3₃ hg11
  iexists K
  unfold QV localBufsV
  rw [V12.heldButV_empty c cc0_scratch0, V12.heldButV_empty c cc0_scratch1]
  -- the second landed half of the first stream added in: the own four blocks hold the sum of the two devices' partials
  ihave Ha4 := (V12.bufV_of c cc0_scratch4 (fun _ => True) _ trivial) $$ Ha4
  ihave Ha2 : bufV c cc0_scratch2 (rowsAre2 c (S1 m 2 0 c) (quadRow 0 c) 512) $$ [Ha2]
  · unfold bufV
    iexists _
    isplitl [Ha2]
    · iexact Ha2
    ipureintro
    exact H10 a2₃ g10 h2₃ hg10
  ihave Ha3 := (V12.bufV_of c cc0_scratch3 (rowsAre3 c (S1 m 2 1 c) (pairRow 1 c) 256) a3₃ h3₃.1) $$ Ha3
  -- the positions, one round on
  ihave Hpos := Hposback $$ [Hp20 Hp24 Hp25 Hp29 Hp30 Hp34 Hp35 Hp39]
  · iframe ∗ #
  -- the receive buffers take back the landed slots
  ihave HR00 := (ownAt_of c (R0 0) _) $$ HR00
  ihave HR01 := (ownAt_of c (R0 1) _) $$ HR01
  ihave HR10 := (ownAt_of c (R1 0) _) $$ HR10
  ihave HR11 := (ownAt_of c (R1 1) _) $$ HR11
  ihave Hr0 := (heldBut_rot4 c _ _ _ _ _) $$ Hr0
  ihave Hr0 := (heldBut_put_right c (R0 0) _ hd60) $$ [HR00 Hr0]
  · iframe HR00 Hr0
  ihave Hr0 := (heldBut_put_right c (R1 0) _ hd61) $$ [HR10 Hr0]
  · iframe HR10 Hr0
  ihave Hr1 := (heldBut_rot3 c _ _ _ _) $$ Hr1
  ihave Hr1 := (heldBut_put_right c (R0 1) _ hd70) $$ [HR01 Hr1]
  · iframe HR01 Hr1
  ihave Hr1 := (heldBut_put_right c (R1 1) _ hd71) $$ [HR11 Hr1]
  · iframe HR11 Hr1
  ihave Hr0 := (V12.heldButV_true c cc0_scratch6 _).2 $$ Hr0
  ihave Hr1 := (V12.heldButV_true c cc0_scratch7 _).2 $$ Hr1
  -- every buffer with its fact
  ihave HO := (ex_owes _ _ _) $$ HO
  ihave Hs0 := (V12.bufV_of c cc0_stg0_0 (fun f => ∀ i, f i = m ((c : Thread nD τ).loc main_arg0) i) f0 hf0) $$ Hs0
  ihave Hs1 := (V12.bufV_of c cc0_stg1_0 (fun f => ∀ i, f i = m ((c : Thread nD τ).loc main_arg1) i) f1 hf1) $$ Hs1
  ihave Hs2 := (V12.bufV_of c cc0_stg2_0 (fun f => ∀ i, f i = m ((c : Thread nD τ).loc main_arg2) i) f2 hf2) $$ Hs2
  ihave Hs3 := (V12.bufV_of c cc0_stg3_0 (fun f => ∀ i, f i = m ((c : Thread nD τ).loc main_arg3) i) f3 hf3) $$ Hs3
  ihave Hs4 := (V12.bufV_of c cc0_stg4_0 (fun f => ∀ i, f i = m ((c : Thread nD τ).loc main_arg4) i) f4 hf4) $$ Hs4
  ihave Hs5 := (V12.bufV_of c cc0_stg5_0 (fun f => ∀ i, f i = m ((c : Thread nD τ).loc main_arg5) i) f5 hf5) $$ Hs5
  ihave Hs6 := (V12.bufV_of c cc0_stg6_0 (fun f => ∀ i, f i = m ((c : Thread nD τ).loc main_arg6) i) f6 hf6) $$ Hs6
  ihave Hs7 := (V12.bufV_of c cc0_stg7_0 (fun _ => True) f7 trivial) $$ Hs7
  ihave Ha5 := (V12.bufV_of c cc0_scratch5 (fun _ => True) _ trivial) $$ Ha5
  ihave Ha8 := (V12.bufV_of c cc0_scratch8 (winIs m c 2) a8 h8) $$ Ha8
  ihave Ha9 := (V12.bufV_of c cc0_scratch9 (woutIs m c 2) a9 h9) $$ Ha9
  ihave Hx0 := (V12.bufV_of c cc0_scratch0 (rowsAre0 c (A m 2 0) 0 1024) x0 hx0) $$ Hx0
  ihave Hx1 := (V12.bufV_of c cc0_scratch1 (rowsAre1 c (A m 2 1) 0 1024) x1 hx1) $$ Hx1
  iframe ∗ #

/-! ## This rests on the standard axioms only -/

/-- info: 'Cert.KernelIdeal.Val.seg12_okV' depends on axioms: [propext, Classical.choice, Quot.sound] -/
#guard_msgs in #print axioms seg12_okV

end Cert.KernelIdeal.Val

end
-- ==== Proof.KernelIdeal.SegV12Facts.lean ====
/- Two steps of the last layer's two-half reduce segment that the same segment of layer 0 does not have in this form.

   The segment is handed the hidden activations of 256 rows of stream 1's gathered buffer, the second weight slice as
   loaded and a zero accumulator: their product is the device's partial product on those rows. It returns the sum of
   256 accumulator rows and a landed block: where the accumulator holds the device's partial and the block the first
   reduce partner's, that is the two devices' sum. -/
import proofs.«900979_g7700000000000980_dist_mlpseq_tp1d_bs_bs_b256_d256_h512_v7x_i8_bf16_1_alg».proof.Proof.KernelIdeal.ValReduce
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals

noncomputable section

namespace Cert.KernelIdeal.Val

open Cert.KernelIdeal Cert.KernelIdeal.Gen Cert.KernelIdeal.Hand
open Idealize.ShloMosaic Idealize.ShloMosaic.TcCoe
open scoped BigOperators

/-- Hidden activations of rows `b ..` of `X` times the second weight slice, into a zero accumulator: the partial
    product of `X` on those rows. -/
theorem pay74_rows (m : Mem) (c : Dev nD) (l : Fin 3) (X : Fin 1024 → Fin 256 → EReal) (b : ℕ) (hb : b + 256 ≤ 1024)
    (v1 : FVec Ideal S256x512 .bf16) (v2 : Vec Ideal S512x256 .bf16) (z : FVec Ideal S256x256 .f32)
    (h1 : ∀ (r : Fin 256) (k : Fin 512), v1 (ValueIdx.ix2 r k) = max (∑ e : Fin 256, nat2 X (b + r.val) e.val * winOf m l c e k) 0)
    (h2 : ∀ (k : Fin 512) (col : Fin 256), v2 (ValueIdx.ix2 k col) = woutOf m l c k col)
    (h3 : ∀ i, z i = 0) (y : S256x256.Idx) :
    k0_pay74 (F := Ideal) v1 v2 z y = nat2 (partOf m l c X) (b + (y 0).val) (y 1).val := by
  obtain ⟨r, col, rfl⟩ : ∃ (r : Fin 256) (col : Fin 256), y = ValueIdx.ix2 r col := ⟨y 0, y 1, ValueIdx.eq_ix2 y⟩
  have hrow : b + r.val < 1024 := by have := r.isLt; omega
  show k0_pay74 (F := Ideal) v1 v2 z (ValueIdx.ix2 r col) = nat2 (partOf m l c X) (b + r.val) col.val
  rw [k0_pay74_apply, h3, zero_add, nat2_eq _ _ _ hrow col.isLt]
  unfold partOf
  refine Finset.sum_congr rfl fun k _ => ?_
  rw [h1 r k, h2 k col]
  have hX : ∀ e : Fin 256, nat2 X (b + r.val) e.val = X ⟨b + r.val, hrow⟩ e := fun e => nat2_eq X _ _ hrow e.isLt
  simp only [hX]

/-- The same for the last layer's second stream: the device's partial product of that layer and stream. -/
theorem pay74_rows_Pt (m : Mem) (c : Dev nD) (b : ℕ) (hb : b + 256 ≤ 1024)
    (v1 : FVec Ideal S256x512 .bf16) (v2 : Vec Ideal S512x256 .bf16) (z : FVec Ideal S256x256 .f32)
    (h1 : ∀ (r : Fin 256) (k : Fin 512), v1 (ValueIdx.ix2 r k) = max (∑ e : Fin 256, nat2 (A m 2 1) (b + r.val) e.val * winOf m 2 c e k) 0)
    (h2 : ∀ (k : Fin 512) (col : Fin 256), v2 (ValueIdx.ix2 k col) = woutOf m 2 c k col)
    (h3 : ∀ i, z i = 0) (y : S256x256.Idx) :
    k0_pay74 (F := Ideal) v1 v2 z y = nat2 (Pt m 2 1 c) (b + (y 0).val) (y 1).val :=
  pay74_rows m c 2 (A m 2 1) b hb v1 v2 z h1 h2 h3 y

/-- Accumulator rows holding the device's partial plus a landed block holding the first reduce partner's: the two
    devices' sum on those rows (second stream: the partner across 1). -/
theorem pay85_rows (m : Mem) (l : ℕ) (c : Dev nD) (b : ℕ) (acc : Vec Ideal S256x256 .f32) (land : Vec Ideal S256x256 .bf16)
    (ha : ∀ y, acc y = nat2 (Pt m l 1 c) (b + (y 0).val) (y 1).val)
    (hl : ∀ y, land y = nat2 (Pt m l 1 (xr 1 c)) (b + (y 0).val) (y 1).val) (y : S256x256.Idx) :
    k0_pay85 (F := Ideal) acc land y = nat2 (S1 m l 1 c) (b + (y 0).val) (y 1).val := by
  rw [k0_pay85_apply, ha, hl]
  exact nat2_Pt_S1 m l 1 c _ _

/-- info: 'Cert.KernelIdeal.Val.pay74_rows_Pt' depends on axioms: [propext, Classical.choice, Quot.sound] -/
#guard_msgs in #print axioms pay74_rows_Pt

end Cert.KernelIdeal.Val

end
-- ==== Proof.KernelIdeal.SegV12FactsH.lean ====
/- Four content steps of the last layer's two-half reduce segment.

   The second stream's accumulator after the product handed in as vectors is stored on the partner's first pair of
   blocks; what the two streams' first halves of the send buffers read after the cast of those rows is stored (the
   rows the first reduce partner expects: its own pair); the returned vector, the accumulator's second own pair plus
   the landed block, is the two devices' sum there. -/
import proofs.«900979_g7700000000000980_dist_mlpseq_tp1d_bs_bs_b256_d256_h512_v7x_i8_bf16_1_alg».proof.Proof.KernelIdeal.SegV12Facts
import proofs.«900979_g7700000000000980_dist_mlpseq_tp1d_bs_bs_b256_d256_h512_v7x_i8_bf16_1_alg».proof.Proof.KernelIdeal.ValReduce
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals

noncomputable section

namespace Cert.KernelIdeal.Val

open Cert.KernelIdeal Cert.KernelIdeal.Gen Cert.KernelIdeal.Hand
open Idealize.ShloMosaic Idealize.ShloMosaic.TcCoe
open scoped BigOperators

/-- Where the rows of the step lie: the partner's first pair is outside the own four blocks, and it is the pair the
    partner expects from this device. -/
theorem v12_A0 : ∀ c : Dev nD, k0_off7 (xr 4 c) 0 = k0_off13 c 0 ∧ k0_off11 (xr 4 c) 0 = k0_off15 c 0 := by decide +kernel
theorem v12_A1 : ∀ c : Dev nD, (k0_off14 c 0 + 256 ≤ k0_off10 c 0 ∨ k0_off10 c 0 + 512 ≤ k0_off14 c 0)
    ∧ k0_off8 (xr 1 c) 0 = k0_off14 c 0 ∧ k0_off12 (xr 1 c) 0 = k0_off16 c 0 := by decide +kernel

theorem v12_H1 (m : Mem) (c : Dev nD) (v1385 : FVec Ideal S256x512 .bf16) (v1386 : Vec Ideal S512x256 .bf16) (cst_1075 : FVec Ideal S256x256 .f32)
    (hv1 : ∀ (r : Fin 256) (k : Fin 512), v1385 (ValueIdx.ix2 r k) = max (∑ e : Fin 256, nat2 (A m 2 1) (k0_off14 c 0 + r.val) e.val * winOf m 2 c e k) 0)
    (hv2 : ∀ (k : Fin 512) (col : Fin 256), v1386 (ValueIdx.ix2 k col) = woutOf m 2 c k col)
    (hv3 : ∀ i, cst_1075 i = 0)
    (a3 : Buf (Elt Ideal) ((Memref.whole cc0_scratch3).view.loc (c : Thread nD τ))) (h : rowsAre3 c (Pt m 2 1 c) (quadRow 1 c) 512 a3) :
    rowsAre3 c (Pt m 2 1 c) (k0_off10 c 0) 512 (((Memref.whole cc0_scratch3).view.slice (Rect.unit (s := S1024x256) (k0_off14 c) S256x256.size (k0_off14_inb c))).write (Elt Ideal) a3 (k0_pay74 (F := Ideal) v1385 v1386 cst_1075) Finset.univ)
    ∧ rowsAre3 c (Pt m 2 1 c) (k0_off14 c 0) 256 (((Memref.whole cc0_scratch3).view.slice (Rect.unit (s := S1024x256) (k0_off14 c) S256x256.size (k0_off14_inb c))).write (Elt Ideal) a3 (k0_pay74 (F := Ideal) v1385 v1386 cst_1075) Finset.univ) := by
  have ar := (v12_A1 c).1
  constructor
  · exact store_keep3 c (Pt m 2 1 c) (k0_off10 c 0) 512 a3 h (k0_off14 c) S256x256.size (k0_off14_inb c) (off14_col c) rfl _
      (by show k0_off10 c 0 + 512 ≤ k0_off14 c 0 ∨ k0_off14 c 0 + 256 ≤ k0_off10 c 0; omega)
  · exact store_new3 c (Pt m 2 1 c) a3 (k0_off14 c) S256x256.size (k0_off14_inb c) (off14_col c) rfl _
      (fun y => pay74_rows_Pt m c (k0_off14 c 0) (k0_off14_inb c 0) v1385 v1386 cst_1075 hv1 hv2 hv3 y)

theorem v12_H2 (m : Mem) (c : Dev nD) (a2 : Buf (Elt Ideal) ((Memref.whole cc0_scratch2).view.loc (c : Thread nD τ)))
    (a4 : Buf (Elt Ideal) ((Memref.whole cc0_scratch4).view.loc (c : Thread nD τ)))
    (h : rowsAre2 c (Pt m 2 0 c) (quadRow 0 c) 512 a2 ∧ rowsAre2 c (Pt m 2 0 c) (k0_off13 c 0) 256 a2) :
    (SA 0).view.read (Elt Ideal) (((Memref.whole cc0_scratch4).view.slice (Rect.unit (s := S512x256) ![0, 0] S256x256.size inb_S512x256_S256x256_0_0)).write (Elt Ideal) a4 (k0_pay75 (F := Ideal) ((Memref.whole cc0_scratch2).view.readAt (Elt Ideal) (Rect.unit (s := S1024x256) (k0_off13 c) S256x256.size (k0_off13_inb c)).toLoadRect a2)) Finset.univ)
      = rows256 (Pt m 2 0 c) (pairRow 0 (xr 4 c)) := by
  refine (read_write_self cc0_scratch4 (Rect.unit (s := S512x256) ![0, 0] S256x256.size inb_S512x256_S256x256_0_0) (fun _ => rfl) c a4 _).trans ?_
  funext y
  rw [k0_pay75_apply]
  refine (congrFun (load_rows2 c (Pt m 2 0 c) (k0_off13 c 0) 256 a2 h.2 (k0_off13 c) S256x256.size (k0_off13_inb c) (off13_col c) (le_refl _) (le_refl _)) y).trans ?_
  show nat2 (Pt m 2 0 c) (k0_off13 c 0 + (y 0).val) (y 1).val = nat2 (Pt m 2 0 c) (k0_off7 (xr 4 c) 0 + (y 0).val) (y 1).val
  rw [(v12_A0 c).1]

theorem v12_H3 (m : Mem) (c : Dev nD) (a3 : Buf (Elt Ideal) ((Memref.whole cc0_scratch3).view.loc (c : Thread nD τ)))
    (a5 : Buf (Elt Ideal) ((Memref.whole cc0_scratch5).view.loc (c : Thread nD τ)))
    (h : rowsAre3 c (Pt m 2 1 c) (k0_off10 c 0) 512 a3 ∧ rowsAre3 c (Pt m 2 1 c) (k0_off14 c 0) 256 a3) :
    (SA 1).view.read (Elt Ideal) (((Memref.whole cc0_scratch5).view.slice (Rect.unit (s := S512x256) ![0, 0] S256x256.size inb_S512x256_S256x256_0_0)).write (Elt Ideal) a5 (k0_pay76 (F := Ideal) ((Memref.whole cc0_scratch3).view.readAt (Elt Ideal) (Rect.unit (s := S1024x256) (k0_off14 c) S256x256.size (k0_off14_inb c)).toLoadRect a3)) Finset.univ)
      = rows256 (Pt m 2 1 c) (pairRow 1 (xr 1 c)) := by
  refine (read_write_self cc0_scratch5 (Rect.unit (s := S512x256) ![0, 0] S256x256.size inb_S512x256_S256x256_0_0) (fun _ => rfl) c a5 _).trans ?_
  funext y
  rw [k0_pay76_apply]
  refine (congrFun (load_rows3 c (Pt m 2 1 c) (k0_off14 c 0) 256 a3 h.2 (k0_off14 c) S256x256.size (k0_off14_inb c) (off14_col c) (le_refl _) (le_refl _)) y).trans ?_
  show nat2 (Pt m 2 1 c) (k0_off14 c 0 + (y 0).val) (y 1).val = nat2 (Pt m 2 1 c) (k0_off8 (xr 1 c) 0 + (y 0).val) (y 1).val
  rw [(v12_A1 c).2.1]

theorem v12_H11 (m : Mem) (c : Dev nD) (a3 : Buf (Elt Ideal) ((Memref.whole cc0_scratch3).view.loc (c : Thread nD τ)))
    (g : Buf (Elt Ideal) ((Memref.whole cc0_scratch7).view.loc (c : Thread nD τ)))
    (h : rowsAre3 c (S1 m 2 1 c) (k0_off8 c 0) 256 a3 ∧ rowsAre3 c (Pt m 2 1 c) (k0_off12 c 0) 256 a3)
    (hg : (R1 1).view.read (Elt Ideal) g = rows256 (Pt m 2 1 (xr 1 c)) (pair2Row 1 c)) (y : S256x256.Idx) :
    k0_pay85 (F := Ideal) ((Memref.whole cc0_scratch3).view.readAt (Elt Ideal) (Rect.unit (s := S1024x256) (k0_off12 c) S256x256.size (k0_off12_inb c)).toLoadRect a3)
        ((Memref.whole cc0_scratch7).view.readAt (Elt Ideal) (Rect.unit (s := S1280x256) ![256, 0] S256x256.size inb_S1280x256_S256x256_256_0).toLoadRect g) y
      = nat2 (S1 m 2 1 c) (pair2Row 1 c + (y 0).val) (y 1).val :=
  pay85_rows m 2 c (pair2Row 1 c) _ _
    (fun y' => congrFun (load_rows3 c (Pt m 2 1 c) (k0_off12 c 0) 256 a3 h.2 (k0_off12 c) S256x256.size (k0_off12_inb c) (off12_col c) (le_refl _) (le_refl _)) y')
    (fun y' => congrFun hg y') y

/-- info: 'Cert.KernelIdeal.Val.v12_H1' depends on axioms: [propext, Classical.choice, Quot.sound] -/
#guard_msgs in #print axioms v12_H1

end Cert.KernelIdeal.Val

end
-- ==== Proof.KernelIdeal.SegV12FactsD.lean ====
/- Two content facts of segment 12 (the two half-block steps of the reduce in the last layer).

   The second half of stream 0's send buffer, stored with the cast of the partial product just computed on the
   partner's second pair of blocks, reads those rows of the partial product; and the accumulator's second pair of
   the own four blocks, with the partner's partial product landed in the second receive slot added in, makes the own
   four blocks the pair's sum. -/
import proofs.«900979_g7700000000000980_dist_mlpseq_tp1d_bs_bs_b256_d256_h512_v7x_i8_bf16_1_alg».proof.Proof.KernelIdeal.ValSteps
import proofs.«900979_g7700000000000980_dist_mlpseq_tp1d_bs_bs_b256_d256_h512_v7x_i8_bf16_1_alg».proof.Proof.KernelIdeal.ValReduce
import proofs.«900979_g7700000000000980_dist_mlpseq_tp1d_bs_bs_b256_d256_h512_v7x_i8_bf16_1_alg».proof.Proof.KernelIdeal.PayVals
import Idealize.ShloMosaic.Lib.Pipeline.FrameBody

noncomputable section

namespace Cert.KernelIdeal.Val

open Cert.KernelIdeal Cert.KernelIdeal.Gen Cert.KernelIdeal.Hand
open Idealize.ShloMosaic Idealize.ShloMosaic.TcCoe
open scoped BigOperators

variable (m : Mem)

theorem v12_off15 : ∀ c : Dev nD, k0_off11 (xr 4 c) 0 = k0_off15 c 0 := by decide +kernel
/-- The own pair and the other pair of the own four blocks of stream 0 are its two halves. -/
theorem v12_quad0 : ∀ c : Dev nD, (k0_off7 c 0 = k0_off9 c 0 ∧ k0_off11 c 0 = k0_off9 c 0 + 256)
    ∨ (k0_off11 c 0 = k0_off9 c 0 ∧ k0_off7 c 0 = k0_off9 c 0 + 256) := by decide +kernel

theorem v12_H4 (c : Dev nD) (x0 : Buf (Elt Ideal) ((Memref.whole cc0_scratch0).view.loc (c : Thread nD τ))) (a8 : Buf (Elt Ideal) ((Memref.whole cc0_scratch8).view.loc (c : Thread nD τ))) (a9 : Buf (Elt Ideal) ((Memref.whole cc0_scratch9).view.loc (c : Thread nD τ))) (a4 : Buf (Elt Ideal) ((Memref.whole cc0_scratch4).view.loc (c : Thread nD τ)))
    (hx0 : rowsAre0 c (A m 2 0) 0 1024 x0) (hw8 : winIs m c 2 a8) (hw9 : woutIs m c 2 a9) :
    (SB 0).view.read (Elt Ideal) (((Memref.whole cc0_scratch4).view.slice (Rect.unit (s := S512x256) ![256, 0] S256x256.size inb_S512x256_S256x256_256_0)).write (Elt Ideal) a4 (k0_pay80 (F := Ideal) ((Memref.whole cc0_scratch2).view.readCov [⟨(Rect.unit (s := S1024x256) (k0_off15 c) S256x256.size (k0_off15_inb c)), (k0_pay77 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9))⟩] (Rect.unit (s := S1024x256) (k0_off15 c) S256x256.size (k0_off15_inb c)).toLoadRect)) Finset.univ) = rows256 (Pt m 2 0 c) (pair2Row 0 (xr 4 c)) := by
  funext y
  have i0 : k0_off15 c 0 + 256 ≤ 1024 := k0_off15_inb c 0
  refine (congrFun (read_write_self cc0_scratch4 (Rect.unit (s := S512x256) ![256, 0] S256x256.size inb_S512x256_S256x256_256_0) (fun _ => rfl) c a4 _) y).trans ?_
  rw [k0_pay80_apply, View.readCov_cons_toLoadRect, k0_pay77_eq]
  refine (mm_loaded0 m c 2 0 1024 x0 hx0 a8 hw8 a9 hw9 (k0_off15 c) (k0_off15_inb c) (off15_col c) (Nat.zero_le _) (by show k0_off15 c 0 + 256 ≤ 0 + 1024; omega) _ _ y).trans ?_
  show nat2 (Pt m 2 0 c) (k0_off15 c 0 + (y 0).val) (y 1).val = nat2 (Pt m 2 0 c) (k0_off11 (xr 4 c) 0 + (y 0).val) (y 1).val
  rw [v12_off15]

theorem v12_H10 (c : Dev nD) (a2 : Buf (Elt Ideal) ((Memref.whole cc0_scratch2).view.loc (c : Thread nD τ))) (g : Buf (Elt Ideal) ((Memref.whole cc0_scratch6).view.loc (c : Thread nD τ)))
    (ha : rowsAre2 c (S1 m 2 0 c) (k0_off7 c 0) 256 a2 ∧ rowsAre2 c (Pt m 2 0 c) (k0_off11 c 0) 256 a2)
    (hg : (R1 0).view.read (Elt Ideal) g = rows256 (Pt m 2 0 (xr 4 c)) (pair2Row 0 c)) :
    rowsAre2 c (S1 m 2 0 c) (quadRow 0 c) 512 (((Memref.whole cc0_scratch2).view.slice (Rect.unit (s := S1024x256) (k0_off11 c) S256x256.size (k0_off11_inb c))).write (Elt Ideal) a2 (k0_pay84 (F := Ideal) ((Memref.whole cc0_scratch2).view.readAt (Elt Ideal) (Rect.unit (s := S1024x256) (k0_off11 c) S256x256.size (k0_off11_inb c)).toLoadRect a2) ((Memref.whole cc0_scratch6).view.readAt (Elt Ideal) (Rect.unit (s := S1280x256) ![256, 0] S256x256.size inb_S1280x256_S256x256_256_0).toLoadRect g)) Finset.univ) := by
  have hq := v12_quad0 c
  have hL : ∀ y : S256x256.Idx, ((Memref.whole cc0_scratch6).view.readAt (Elt Ideal) (Rect.unit (s := S1280x256) ![256, 0] S256x256.size inb_S1280x256_S256x256_256_0).toLoadRect g) y
      = nat2 (Pt m 2 0 (xr 4 c)) (k0_off11 c 0 + (y 0).val) (y 1).val := fun y => congrFun hg y
  have hnew : rowsAre2 c (S1 m 2 0 c) (k0_off11 c 0) 256 (((Memref.whole cc0_scratch2).view.slice (Rect.unit (s := S1024x256) (k0_off11 c) S256x256.size (k0_off11_inb c))).write (Elt Ideal) a2 (k0_pay84 (F := Ideal) ((Memref.whole cc0_scratch2).view.readAt (Elt Ideal) (Rect.unit (s := S1024x256) (k0_off11 c) S256x256.size (k0_off11_inb c)).toLoadRect a2) ((Memref.whole cc0_scratch6).view.readAt (Elt Ideal) (Rect.unit (s := S1280x256) ![256, 0] S256x256.size inb_S1280x256_S256x256_256_0).toLoadRect g)) Finset.univ) :=
    store_new2 c (S1 m 2 0 c) a2 (k0_off11 c) S256x256.size (k0_off11_inb c) (off11_col c) rfl _
      (fun y => (k0_pay84_apply _ _ y).trans (addin2 c (Pt m 2 0 c) (Pt m 2 0 (xr 4 c)) a2 (k0_off11 c) (k0_off11_inb c) (off11_col c) ha.2 _ hL y))
  have hkeep : rowsAre2 c (S1 m 2 0 c) (k0_off7 c 0) 256 (((Memref.whole cc0_scratch2).view.slice (Rect.unit (s := S1024x256) (k0_off11 c) S256x256.size (k0_off11_inb c))).write (Elt Ideal) a2 (k0_pay84 (F := Ideal) ((Memref.whole cc0_scratch2).view.readAt (Elt Ideal) (Rect.unit (s := S1024x256) (k0_off11 c) S256x256.size (k0_off11_inb c)).toLoadRect a2) ((Memref.whole cc0_scratch6).view.readAt (Elt Ideal) (Rect.unit (s := S1280x256) ![256, 0] S256x256.size inb_S1280x256_S256x256_256_0).toLoadRect g)) Finset.univ) :=
    store_keep2 c (S1 m 2 0 c) (k0_off7 c 0) 256 a2 ha.1 (k0_off11 c) S256x256.size (k0_off11_inb c) (off11_col c) rfl _
      (by show k0_off7 c 0 + 256 ≤ k0_off11 c 0 ∨ k0_off11 c 0 + 256 ≤ k0_off7 c 0; omega)
  intro row col h1 h2
  have h1' : k0_off9 c 0 ≤ row.val := h1
  have h2' : row.val < k0_off9 c 0 + 512 := h2
  by_cases hr : k0_off7 c 0 ≤ row.val ∧ row.val < k0_off7 c 0 + 256
  · exact hkeep row col hr.1 hr.2
  · exact hnew row col (by omega) (by omega)

/-- info: 'Cert.KernelIdeal.Val.v12_H4' depends on axioms: [propext, Classical.choice, Quot.sound] -/
#guard_msgs in #print axioms v12_H4
/-- info: 'Cert.KernelIdeal.Val.v12_H10' depends on axioms: [propext, Classical.choice, Quot.sound] -/
#guard_msgs in #print axioms v12_H10

end Cert.KernelIdeal.Val

end
-- ==== Proof.KernelIdeal.SegV12FactsD2.lean ====
/- Three more content facts of segment 12: the partial products computed on the partner's second pair of blocks,
   stored in the half of the accumulator the own four blocks do not meet, leave the own four blocks' rows as they were;
   the stored rows of stream 1 are the partial product; and the second half of stream 1's send buffer reads them. -/
import proofs.«900979_g7700000000000980_dist_mlpseq_tp1d_bs_bs_b256_d256_h512_v7x_i8_bf16_1_alg».proof.Proof.KernelIdeal.ValSteps
import proofs.«900979_g7700000000000980_dist_mlpseq_tp1d_bs_bs_b256_d256_h512_v7x_i8_bf16_1_alg».proof.Proof.KernelIdeal.ValReduce
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.QuietVMono

noncomputable section

namespace Cert.KernelIdeal.Val

open Cert.KernelIdeal Cert.KernelIdeal.Gen Cert.KernelIdeal.Hand
open Idealize.ShloMosaic Idealize.ShloMosaic.TcCoe
open scoped BigOperators

variable (m : Mem)

theorem v12_off16 : ∀ c : Dev nD, k0_off12 (xr 1 c) 0 = k0_off16 c 0 := by decide +kernel
theorem v12_quad0' : ∀ c : Dev nD, (k0_off7 c 0 = k0_off9 c 0 ∧ k0_off11 c 0 = k0_off9 c 0 + 256)
    ∨ (k0_off11 c 0 = k0_off9 c 0 ∧ k0_off7 c 0 = k0_off9 c 0 + 256) := by decide +kernel
theorem v12_quad1 : ∀ c : Dev nD, (k0_off8 c 0 = k0_off10 c 0 ∧ k0_off12 c 0 = k0_off10 c 0 + 256)
    ∨ (k0_off12 c 0 = k0_off10 c 0 ∧ k0_off8 c 0 = k0_off10 c 0 + 256) := by decide +kernel
/-- The partner's second pair of blocks lies in the half of the buffer the own four blocks do not meet. -/
theorem v12_out15 : ∀ c : Dev nD, k0_off9 c 0 + 512 ≤ k0_off15 c 0 ∨ k0_off15 c 0 + 256 ≤ k0_off9 c 0 := by decide +kernel
theorem v12_out16 : ∀ c : Dev nD, k0_off10 c 0 + 512 ≤ k0_off16 c 0 ∨ k0_off16 c 0 + 256 ≤ k0_off10 c 0 := by decide +kernel

theorem v12_H5 (c : Dev nD) (x0 : Buf (Elt Ideal) ((Memref.whole cc0_scratch0).view.loc (c : Thread nD τ))) (a8 : Buf (Elt Ideal) ((Memref.whole cc0_scratch8).view.loc (c : Thread nD τ))) (a9 : Buf (Elt Ideal) ((Memref.whole cc0_scratch9).view.loc (c : Thread nD τ))) (a2 : Buf (Elt Ideal) ((Memref.whole cc0_scratch2).view.loc (c : Thread nD τ)))
    (hx0 : rowsAre0 c (A m 2 0) 0 1024 x0) (hw8 : winIs m c 2 a8) (hw9 : woutIs m c 2 a9)
    (ha : rowsAre2 c (Pt m 2 0 c) (quadRow 0 c) 512 a2 ∧ rowsAre2 c (Pt m 2 0 c) (k0_off13 c 0) 256 a2) :
    rowsAre2 c (Pt m 2 0 c) (k0_off7 c 0) 256 (((Memref.whole cc0_scratch2).view.slice (Rect.unit (s := S1024x256) (k0_off15 c) S256x256.size (k0_off15_inb c))).write (Elt Ideal) a2 (k0_pay77 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9)) Finset.univ) ∧ rowsAre2 c (Pt m 2 0 c) (k0_off11 c 0) 256 (((Memref.whole cc0_scratch2).view.slice (Rect.unit (s := S1024x256) (k0_off15 c) S256x256.size (k0_off15_inb c))).write (Elt Ideal) a2 (k0_pay77 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9)) Finset.univ) := by
  have hq := v12_quad0' c
  have hk : rowsAre2 c (Pt m 2 0 c) (k0_off9 c 0) 512 (((Memref.whole cc0_scratch2).view.slice (Rect.unit (s := S1024x256) (k0_off15 c) S256x256.size (k0_off15_inb c))).write (Elt Ideal) a2 (k0_pay77 (F := Ideal) ((Memref.whole cc0_scratch0).view.readAt (Elt Ideal) (Rect.unit (s := S1024x256) (k0_off15 c) S256x256.size (k0_off15_inb c)).toLoadRect x0) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9)) Finset.univ) :=
    store_keep2 c (Pt m 2 0 c) (k0_off9 c 0) 512 a2 ha.1 (k0_off15 c) S256x256.size (k0_off15_inb c) (off15_col c) rfl _ (v12_out15 c)
  exact ⟨rowsAre2_sub c _ _ _ _ _ _ hk (by omega) (by omega), rowsAre2_sub c _ _ _ _ _ _ hk (by omega) (by omega)⟩

theorem v12_H6 (c : Dev nD) (x1 : Buf (Elt Ideal) ((Memref.whole cc0_scratch1).view.loc (c : Thread nD τ))) (a8 : Buf (Elt Ideal) ((Memref.whole cc0_scratch8).view.loc (c : Thread nD τ))) (a9 : Buf (Elt Ideal) ((Memref.whole cc0_scratch9).view.loc (c : Thread nD τ))) (a3 : Buf (Elt Ideal) ((Memref.whole cc0_scratch3).view.loc (c : Thread nD τ)))
    (hx1 : rowsAre1 c (A m 2 1) 0 1024 x1) (hw8 : winIs m c 2 a8) (hw9 : woutIs m c 2 a9)
    (ha : rowsAre3 c (Pt m 2 1 c) (k0_off10 c 0) 512 a3 ∧ rowsAre3 c (Pt m 2 1 c) (k0_off14 c 0) 256 a3) :
    rowsAre3 c (Pt m 2 1 c) (k0_off8 c 0) 256 (((Memref.whole cc0_scratch3).view.slice (Rect.unit (s := S1024x256) (k0_off16 c) S256x256.size (k0_off16_inb c))).write (Elt Ideal) a3 (k0_pay79 (F := Ideal) (k0_pay78 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9))) Finset.univ) ∧ rowsAre3 c (Pt m 2 1 c) (k0_off12 c 0) 256 (((Memref.whole cc0_scratch3).view.slice (Rect.unit (s := S1024x256) (k0_off16 c) S256x256.size (k0_off16_inb c))).write (Elt Ideal) a3 (k0_pay79 (F := Ideal) (k0_pay78 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9))) Finset.univ) ∧ rowsAre3 c (Pt m 2 1 c) (k0_off16 c 0) 256 (((Memref.whole cc0_scratch3).view.slice (Rect.unit (s := S1024x256) (k0_off16 c) S256x256.size (k0_off16_inb c))).write (Elt Ideal) a3 (k0_pay79 (F := Ideal) (k0_pay78 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9))) Finset.univ) := by
  have hq := v12_quad1 c
  have i0 : k0_off16 c 0 + 256 ≤ 1024 := k0_off16_inb c 0
  have hk : rowsAre3 c (Pt m 2 1 c) (k0_off10 c 0) 512 (((Memref.whole cc0_scratch3).view.slice (Rect.unit (s := S1024x256) (k0_off16 c) S256x256.size (k0_off16_inb c))).write (Elt Ideal) a3 (k0_pay79 (F := Ideal) (k0_pay78 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9))) Finset.univ) :=
    store_keep3 c (Pt m 2 1 c) (k0_off10 c 0) 512 a3 ha.1 (k0_off16 c) S256x256.size (k0_off16_inb c) (off16_col c) rfl _ (v12_out16 c)
  have hn : rowsAre3 c (Pt m 2 1 c) (k0_off16 c 0) 256 (((Memref.whole cc0_scratch3).view.slice (Rect.unit (s := S1024x256) (k0_off16 c) S256x256.size (k0_off16_inb c))).write (Elt Ideal) a3 (k0_pay79 (F := Ideal) (k0_pay78 (F := Ideal) ((Memref.whole cc0_scratch1).view.readAt (Elt Ideal) (Rect.unit (s := S1024x256) (k0_off16 c) S256x256.size (k0_off16_inb c)).toLoadRect x1) ((Memref.whole cc0_scratch8).view.readAt (Elt Ideal) (Rect.unit (s := S256x512) ![0, 0] S256x512.size inb_S256x512_S256x512_0_0).toLoadRect a8) ((Memref.whole cc0_scratch9).view.readAt (Elt Ideal) (Rect.unit (s := S512x256) ![0, 0] S512x256.size inb_S512x256_S512x256_0_0).toLoadRect a9))) Finset.univ) :=
    store_new3 c (Pt m 2 1 c) a3 (k0_off16 c) S256x256.size (k0_off16_inb c) (off16_col c) rfl _
      (fun y => ((k0_pay79_apply _ y).trans (congrFun (k0_pay78_eq _ _ _) y)).trans
        (mm_loaded1 m c 2 0 1024 x1 hx1 a8 hw8 a9 hw9 (k0_off16 c) (k0_off16_inb c) (off16_col c) (Nat.zero_le _) (by show k0_off16 c 0 + 256 ≤ 0 + 1024; omega) _ _ y))
  exact ⟨rowsAre3_sub c _ _ _ _ _ _ hk (by omega) (by omega), rowsAre3_sub c _ _ _ _ _ _ hk (by omega) (by omega), hn⟩

theorem v12_H7 (c : Dev nD) (a3 : Buf (Elt Ideal) ((Memref.whole cc0_scratch3).view.loc (c : Thread nD τ))) (a5 : Buf (Elt Ideal) ((Memref.whole cc0_scratch5).view.loc (c : Thread nD τ)))
    (ha : rowsAre3 c (Pt m 2 1 c) (k0_off8 c 0) 256 a3 ∧ rowsAre3 c (Pt m 2 1 c) (k0_off12 c 0) 256 a3 ∧ rowsAre3 c (Pt m 2 1 c) (k0_off16 c 0) 256 a3) :
    (SB 1).view.read (Elt Ideal) (((Memref.whole cc0_scratch5).view.slice (Rect.unit (s := S512x256) ![256, 0] S256x256.size inb_S512x256_S256x256_256_0)).write (Elt Ideal) a5 (k0_pay81 (F := Ideal) ((Memref.whole cc0_scratch3).view.readAt (Elt Ideal) (Rect.unit (s := S1024x256) (k0_off16 c) S256x256.size (k0_off16_inb c)).toLoadRect a3)) Finset.univ) = rows256 (Pt m 2 1 c) (pair2Row 1 (xr 1 c)) := by
  funext y
  refine (congrFun (read_write_self cc0_scratch5 (Rect.unit (s := S512x256) ![256, 0] S256x256.size inb_S512x256_S256x256_256_0) (fun _ => rfl) c a5 _) y).trans ?_
  rw [k0_pay81_apply]
  refine (congrFun (load_rows3 c (Pt m 2 1 c) (k0_off16 c 0) 256 a3 ha.2.2 (k0_off16 c) S256x256.size (k0_off16_inb c) (off16_col c) (le_refl _) (le_refl _)) y).trans ?_
  show nat2 (Pt m 2 1 c) (k0_off16 c 0 + (y 0).val) (y 1).val = nat2 (Pt m 2 1 c) (k0_off12 (xr 1 c) 0 + (y 0).val) (y 1).val
  rw [v12_off16]

/-- info: 'Cert.KernelIdeal.Val.v12_H6' depends on axioms: [propext, Classical.choice, Quot.sound] -/
#guard_msgs in #print axioms v12_H6
/-- info: 'Cert.KernelIdeal.Val.v12_H7' depends on axioms: [propext, Classical.choice, Quot.sound] -/
#guard_msgs in #print axioms v12_H7

end Cert.KernelIdeal.Val

end
-- ==== Proof.KernelIdeal.SegV12FactsN.lean ====
/- Two content facts of segment 12 (the two-half reduce step of the last layer): the first landed half added into the
   accumulator. On the own pair of rows the accumulator held the device's partial product and the landed slot holds the
   first reduce partner's partial product on the same rows, so their sum stored there is the pair's sum `S1`; the other
   pair of rows of the accumulator is not touched by the store and keeps the device's partial product. -/
import proofs.«900979_g7700000000000980_dist_mlpseq_tp1d_bs_bs_b256_d256_h512_v7x_i8_bf16_1_alg».proof.Proof.KernelIdeal.ValReduce
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals

noncomputable section

namespace Cert.KernelIdeal.Val

open Cert.KernelIdeal Cert.KernelIdeal.Gen Cert.KernelIdeal.Hand
open Idealize.ShloMosaic Idealize.ShloMosaic.TcCoe
open scoped BigOperators

variable (m : Mem)

/-- The own pair of rows and the other pair of the own four blocks do not meet, in either stream. -/
theorem seg12_off7_off11 : ∀ c : Dev nD, k0_off11 c 0 + 256 ≤ k0_off7 c 0 ∨ k0_off7 c 0 + 256 ≤ k0_off11 c 0 := by decide +kernel
theorem seg12_off8_off12 : ∀ c : Dev nD, k0_off12 c 0 + 256 ≤ k0_off8 c 0 ∨ k0_off8 c 0 + 256 ≤ k0_off12 c 0 := by decide +kernel

theorem seg12_H8 (c : Dev nD) : ∀ (a2 : Buf (Elt Ideal) ((Memref.whole cc0_scratch2).view.loc (c : Thread nD τ))) (g : Buf (Elt Ideal) ((Memref.whole cc0_scratch6).view.loc (c : Thread nD τ))), (rowsAre2 c (Pt m 2 0 c) (k0_off7 c 0) 256 a2 ∧ rowsAre2 c (Pt m 2 0 c) (k0_off11 c 0) 256 a2) →
      (R0 0).view.read (Elt Ideal) g = rows256 (Pt m 2 0 (xr 4 c)) (pairRow 0 c) →
      (rowsAre2 c (S1 m 2 0 c) (k0_off7 c 0) 256 (((Memref.whole cc0_scratch2).view.slice (Rect.unit (s := S1024x256) (k0_off7 c) S256x256.size (k0_off7_inb c))).write (Elt Ideal) a2 (k0_pay82 (F := Ideal) ((Memref.whole cc0_scratch2).view.readAt (Elt Ideal) (Rect.unit (s := S1024x256) (k0_off7 c) S256x256.size (k0_off7_inb c)).toLoadRect a2) ((Memref.whole cc0_scratch6).view.readAt (Elt Ideal) (Rect.unit (s := S1280x256) ![0, 0] S256x256.size inb_S1280x256_S256x256_0_0).toLoadRect g)) Finset.univ) ∧ rowsAre2 c (Pt m 2 0 c) (k0_off11 c 0) 256 (((Memref.whole cc0_scratch2).view.slice (Rect.unit (s := S1024x256) (k0_off7 c) S256x256.size (k0_off7_inb c))).write (Elt Ideal) a2 (k0_pay82 (F := Ideal) ((Memref.whole cc0_scratch2).view.readAt (Elt Ideal) (Rect.unit (s := S1024x256) (k0_off7 c) S256x256.size (k0_off7_inb c)).toLoadRect a2) ((Memref.whole cc0_scratch6).view.readAt (Elt Ideal) (Rect.unit (s := S1280x256) ![0, 0] S256x256.size inb_S1280x256_S256x256_0_0).toLoadRect g)) Finset.univ)) := by
  intro a2 g hA hg
  have hL : ∀ y : S256x256.Idx, ((Memref.whole cc0_scratch6).view.readAt (Elt Ideal) (Rect.unit (s := S1280x256) ![0, 0] S256x256.size inb_S1280x256_S256x256_0_0).toLoadRect g : S256x256.Idx → EReal) y
      = nat2 (Pt m 2 0 (xr 4 c)) (k0_off7 c 0 + (y 0).val) (y 1).val := fun y => congrFun hg y
  refine ⟨?_, ?_⟩
  · exact store_new2 c (S1 m 2 0 c) a2 (k0_off7 c) S256x256.size (k0_off7_inb c) (off7_col c) rfl _ (fun y => by
      rw [k0_pay82_apply]
      exact addin2 c (Pt m 2 0 c) (Pt m 2 0 (xr 4 c)) a2 (k0_off7 c) (k0_off7_inb c) (off7_col c) hA.1 _ hL y)
  · exact store_keep2 c (Pt m 2 0 c) (k0_off11 c 0) 256 a2 hA.2 (k0_off7 c) S256x256.size (k0_off7_inb c) (off7_col c) rfl _ (seg12_off7_off11 c)

theorem seg12_H9 (c : Dev nD) : ∀ (a3 : Buf (Elt Ideal) ((Memref.whole cc0_scratch3).view.loc (c : Thread nD τ))) (g : Buf (Elt Ideal) ((Memref.whole cc0_scratch7).view.loc (c : Thread nD τ))), (rowsAre3 c (Pt m 2 1 c) (k0_off8 c 0) 256 a3 ∧ rowsAre3 c (Pt m 2 1 c) (k0_off12 c 0) 256 a3 ∧ rowsAre3 c (Pt m 2 1 c) (k0_off16 c 0) 256 a3) →
      (R0 1).view.read (Elt Ideal) g = rows256 (Pt m 2 1 (xr 1 c)) (pairRow 1 c) →
      (rowsAre3 c (S1 m 2 1 c) (k0_off8 c 0) 256 (((Memref.whole cc0_scratch3).view.slice (Rect.unit (s := S1024x256) (k0_off8 c) S256x256.size (k0_off8_inb c))).write (Elt Ideal) a3 (k0_pay83 (F := Ideal) ((Memref.whole cc0_scratch3).view.readAt (Elt Ideal) (Rect.unit (s := S1024x256) (k0_off8 c) S256x256.size (k0_off8_inb c)).toLoadRect a3) ((Memref.whole cc0_scratch7).view.readAt (Elt Ideal) (Rect.unit (s := S1280x256) ![0, 0] S256x256.size inb_S1280x256_S256x256_0_0).toLoadRect g)) Finset.univ) ∧ rowsAre3 c (Pt m 2 1 c) (k0_off12 c 0) 256 (((Memref.whole cc0_scratch3).view.slice (Rect.unit (s := S1024x256) (k0_off8 c) S256x256.size (k0_off8_inb c))).write (Elt Ideal) a3 (k0_pay83 (F := Ideal) ((Memref.whole cc0_scratch3).view.readAt (Elt Ideal) (Rect.unit (s := S1024x256) (k0_off8 c) S256x256.size (k0_off8_inb c)).toLoadRect a3) ((Memref.whole cc0_scratch7).view.readAt (Elt Ideal) (Rect.unit (s := S1280x256) ![0, 0] S256x256.size inb_S1280x256_S256x256_0_0).toLoadRect g)) Finset.univ)) := by
  intro a3 g hA hg
  have hL : ∀ y : S256x256.Idx, ((Memref.whole cc0_scratch7).view.readAt (Elt Ideal) (Rect.unit (s := S1280x256) ![0, 0] S256x256.size inb_S1280x256_S256x256_0_0).toLoadRect g : S256x256.Idx → EReal) y
      = nat2 (Pt m 2 1 (xr 1 c)) (k0_off8 c 0 + (y 0).val) (y 1).val := fun y => congrFun hg y
  refine ⟨?_, ?_⟩
  · exact store_new3 c (S1 m 2 1 c) a3 (k0_off8 c) S256x256.size (k0_off8_inb c) (off8_col c) rfl _ (fun y => by
      rw [k0_pay83_apply]
      exact addin3 c (Pt m 2 1 c) (Pt m 2 1 (xr 1 c)) a3 (k0_off8 c) (k0_off8_inb c) (off8_col c) hA.1 _ hL y)
  · exact store_keep3 c (Pt m 2 1 c) (k0_off12 c 0) 256 a3 hA.2.1 (k0_off8 c) S256x256.size (k0_off8_inb c) (off8_col c) rfl _ (seg12_off8_off12 c)

/-- info: 'Cert.KernelIdeal.Val.seg12_H8' depends on axioms: [propext, Classical.choice, Quot.sound] -/
#guard_msgs in #print axioms seg12_H8
/-- info: 'Cert.KernelIdeal.Val.seg12_H9' depends on axioms: [propext, Classical.choice, Quot.sound] -/
#guard_msgs in #print axioms seg12_H9

end Cert.KernelIdeal.Val
end
-- ==== Proof.KernelIdeal.SegV13.lean ====
/- The third reduce step of layer 2 with contents (segment 13): the protocol steps of the ownership proof of the same
   segment, each buffer now carried at named contents. -/
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StepsV
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.QuietLemmas

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

local notation "𝕄" => MT nD τ sig ℕ (Elt Ideal) ℕ UU ℕ

variable (m : Mem)

/-! # The third reduce step of the last layer, with contents

   The second stream's two-device sum on the other pair of blocks arrives as a vector (the step before computed it and
   did not store it): it is stored first. Then the device sends the partner `c xor 3` its two-device sum `S1` of the
   first stream on the rows of that partner's pair of blocks, and the partner `c xor 4` the same of the second stream.
   What lands from each partner is that partner's `S1` on the device's own pair: added to the accumulators it is `S2`,
   the sum over four devices. The first stream's `S2` on the block of the partner `c xor 1` is then put into the first
   128 rows of the first send buffer, the source of the last step. -/

/-! ## Index facts -/

theorem routes3V13 : ∀ c : Dev nD, τ.routes (c : Thread nD τ) (xr 3 c : Thread nD τ) = true := by decide
theorem routes4V13 : ∀ c : Dev nD, τ.routes (c : Thread nD τ) (xr 4 c : Thread nD τ) = true := by decide

/-- The partner's pair of blocks is the other pair of the device's four. -/
theorem pairRow0_xr3_13 : ∀ c : Dev nD, pairRow 0 (xr 3 c) = pair2Row 0 c := by decide +kernel
theorem pairRow1_xr4_13 : ∀ c : Dev nD, pairRow 1 (xr 4 c) = pair2Row 1 c := by decide +kernel

/-- Both pairs lie in the four blocks, and they do not meet. -/
theorem off7_in_quad13 : ∀ c : Dev nD, k0_off9 c 0 ≤ k0_off7 c 0 ∧ k0_off7 c 0 + 256 ≤ k0_off9 c 0 + 512 := by decide +kernel
theorem off11_in_quad13 : ∀ c : Dev nD, k0_off9 c 0 ≤ k0_off11 c 0 ∧ k0_off11 c 0 + 256 ≤ k0_off9 c 0 + 512 := by decide +kernel
theorem off8_off12_disj13 : ∀ c : Dev nD, k0_off8 c 0 + 256 ≤ k0_off12 c 0 ∨ k0_off12 c 0 + 256 ≤ k0_off8 c 0 := by decide +kernel

/-- The four-device sum is the device's two-device sum plus that of its second reduce partner, in each stream. -/
theorem sum_S2_t0 (c : Dev nD) (i j : ℕ) (hi : i < 1024) (hj : j < 256) :
    nat2 (S1 m 2 0 c) i j + nat2 (S1 m 2 0 (xr 3 c)) i j = nat2 (S2 m 2 0 c) i j := by
  rw [nat2_eq _ _ _ hi hj, nat2_eq _ _ _ hi hj, nat2_eq _ _ _ hi hj]
  rfl
theorem sum_S2_t1 (c : Dev nD) (i j : ℕ) (hi : i < 1024) (hj : j < 256) :
    nat2 (S1 m 2 1 c) i j + nat2 (S1 m 2 1 (xr 4 c)) i j = nat2 (S2 m 2 1 c) i j := by
  rw [nat2_eq _ _ _ hi hj, nat2_eq _ _ _ hi hj, nat2_eq _ _ _ hi hj]
  rfl

/-- The partner's own block (the last step's source) lies in the device's pair, at the printed offset. -/
theorem ownRow0_xr1 : ∀ c : Dev nD, ownRow 0 (xr 1 c) = k0_off19 c 0 := by decide +kernel
theorem off19_in_pair : ∀ c : Dev nD, k0_off7 c 0 ≤ k0_off19 c 0 ∧ k0_off19 c 0 + 128 ≤ k0_off7 c 0 + 256 := by decide +kernel

/-- A vector that is `G`'s rows `b ..`, stored into the first 128 rows of the first send buffer: those rows hold them. -/
theorem snd_store128 (c : Dev nD) (G : Fin 1024 → Fin 256 → EReal) (b : ℕ)
    (f : Buf (Elt Ideal) ((Memref.whole cc0_scratch4).view.loc (c : Thread nD τ))) (w : S128x256.Idx → EReal)
    (hw : ∀ y, w y = nat2 G (b + (y 0).val) (y 1).val) :
    sndIs c G b 128 (((Memref.whole cc0_scratch4).view.slice (Rect.unit (s := S512x256) ![0, 0] S128x256.size inb_S512x256_S128x256_0_0)).write (Elt Ideal) f w Finset.univ) := by
  intro t col ht
  let y : S128x256.Idx := ValueIdx.ix2 (⟨t.val, ht⟩ : Fin 128) col
  have e : ((Memref.whole cc0_scratch4).view.slice (Rect.unit (s := S512x256) ![0, 0] S128x256.size inb_S512x256_S128x256_0_0)).emb y = ValueIdx.ix2 t col := by
    funext a
    apply Fin.ext
    match a with
    | ⟨0, _⟩ => show 0 + 1 * t.val = t.val; omega
    | ⟨1, _⟩ => show 0 + 1 * col.val = col.val; omega
  rw [← e]
  exact (View.write_emb_of_mem (v := (Memref.whole cc0_scratch4).view.slice (Rect.unit (s := S512x256) ![0, 0] S128x256.size inb_S512x256_S128x256_0_0)) (Val := Elt Ideal) f w (Finset.mem_univ y)).trans (hw y)

/-! ## What the two copies land -/

/-- Copy 34 lands the device's `S1` of the first stream on the partner's pair of blocks. -/
theorem land26_2 (c : Dev nD) (t4 : Buf (Elt Ideal) ((Memref.whole cc0_scratch4).view.loc (c : Thread nD τ)))
    (ht4 : (SA 0).view.read (Elt Ideal) t4 = rows256 (S1 m 2 0 c) (pair2Row 0 c))
    (fd : Buf (Elt Ideal) ((R2 0).view.loc ((xr 3 c : Dev nD) : Thread nD τ))) :
    iprop(((R2 0).view.loc ((xr 3 c : Dev nD) : Thread nD τ) ↦[(R2 0).view.set]{fullShare}
          ((R2 0).view.write (Elt Ideal) fd ((SA 0).view.read (Elt Ideal) t4) Finset.univ)) ∗ grantLast (F := Ideal) c 1 2)
      ⊢ payDmaV m (xr 3 c) 26 2 := by
  rw [show payDmaV m (xr 3 c) 26 2 = iprop(owns ((xr 3 c : Dev nD) : Thread nD τ) (R2 0) fullShare (rows256 (S1 m 2 0 (xr 3 (xr 3 c))) (pairRow 0 (xr 3 c))) ∗ grantLast (F := Ideal) (xr 3 (xr 3 c)) 1 2) from rfl,
    xr_xr, pairRow0_xr3_13]
  refine sep_mono_left ?_
  unfold owns
  iintro H
  iexists ((R2 0).view.write (Elt Ideal) fd ((SA 0).view.read (Elt Ideal) t4) Finset.univ)
  isplitr
  · ipureintro
    exact (View.read_write_univ _ _).trans ht4
  · iexact H

/-- Copy 35 lands the device's `S1` of the second stream on the partner's pair of blocks. -/
theorem land36_2 (c : Dev nD) (t5 : Buf (Elt Ideal) ((Memref.whole cc0_scratch5).view.loc (c : Thread nD τ)))
    (ht5 : (SA 1).view.read (Elt Ideal) t5 = rows256 (S1 m 2 1 c) (pair2Row 1 c))
    (fd : Buf (Elt Ideal) ((R2 1).view.loc ((xr 4 c : Dev nD) : Thread nD τ))) :
    iprop(((R2 1).view.loc ((xr 4 c : Dev nD) : Thread nD τ) ↦[(R2 1).view.set]{fullShare}
          ((R2 1).view.write (Elt Ideal) fd ((SA 1).view.read (Elt Ideal) t5) Finset.univ)) ∗ emp)
      ⊢ payDmaV m (xr 4 c) 36 2 := by
  rw [show payDmaV m (xr 4 c) 36 2 = owns ((xr 4 c : Dev nD) : Thread nD τ) (R2 1) fullShare (rows256 (S1 m 2 1 (xr 4 (xr 4 c))) (pairRow 1 (xr 4 c))) from rfl,
    xr_xr, pairRow1_xr4_13]
  refine Idealize.SL.BI.Laws.sep_emp.mp.trans ?_
  unfold owns
  iintro H
  iexists ((R2 1).view.write (Elt Ideal) fd ((SA 1).view.read (Elt Ideal) t5) Finset.univ)
  isplitr
  · ipureintro
    exact (View.read_write_univ _ _).trans ht5
  · iexact H

/-! ## Rearranging what is held of a receive buffer -/

theorem held_swap13 {ℓ : Loc nD τ sig} (A B : Finset (Idx ℓ)) (f : Buf (Elt Ideal) ℓ) :
    (ℓ ↦[Finset.univ \ (B ∪ A)]{fullShare} f : sProp 𝕄) ⊢ (ℓ ↦[(Finset.univ \ A) \ B]{fullShare} f) := by
  rw [Finset.union_comm, univ_sdiff_union]
theorem rest_swap13 {ℓ : Loc nD τ sig} (A B : Finset (Idx ℓ)) (f : Buf (Elt Ideal) ℓ) :
    (ℓ ↦[(Finset.univ \ A) \ B]{fullShare} f : sProp 𝕄) ⊢ (ℓ ↦[(Finset.univ \ B) \ A]{fullShare} f) := by
  rw [sdiff_right_comm]

/-! ## The states before and after -/

/-- Before: the first accumulator holds the two-device sums on the device's four blocks, the second on its own pair
    (the other pair's arrive as a vector). -/
def Q13pre (K : GSem nD τ sig → ℕ) (c : Dev nD) : sProp 𝕄 :=
  QV m K c 34 2 (fun _ => True) (fun _ => True) (fun _ => True)
    (rowsAre2 c (S1 m 2 0 c) (quadRow 0 c) 512) (rowsAre3 c (S1 m 2 1 c) (pairRow 1 c) 256)
    (fun _ => True) (fun _ => True) (fun _ => True) (fun _ => True)
    ∅ ∅ ((R2 0).view.set ∪ (R3h 0).view.set) (R2 1).view.set
    iprop(grant (xr 3 c) (R2 0) (rsR 0 1) 2 ∗ grant (xr 4 c) (R2 1) (rsR 1 1) 2 ∗ grantLast (xr 1 c) 0 2)

/-- After: both accumulators hold the four-device sums on the device's pair; the first 128 rows of the first send
    buffer hold the first stream's on the block of the partner `c xor 1`. -/
def Q13post (K : GSem nD τ sig → ℕ) (c : Dev nD) : sProp 𝕄 :=
  QV m K c 36 2 (fun _ => True) (fun _ => True) (fun _ => True)
    (rowsAre2 c (S2 m 2 0 c) (pairRow 0 c) 256) (rowsAre3 c (S2 m 2 1 c) (pairRow 1 c) 256)
    (sndIs c (S2 m 2 0 c) (ownRow 0 (xr 1 c)) 128) (fun _ => True) (fun _ => True) (fun _ => True)
    ∅ ∅ (R3h 0).view.set (R3h 1).view.set
    iprop(grantLast (xr 1 c) 0 2 ∗ grantLast (xr 3 c) 1 2 ∗ emp)

/-! ## The segment -/

set_option maxHeartbeats 4000000 in
/-- The third reduce step of the last layer, with contents. -/
theorem seg13_okV (c : Dev nD) (v2 v11 v1225 v1228 : BitVec 32) (v1571 : FVec Ideal S256x256 .f32)
    (hv : ∀ y : S256x256.Idx, v1571 y = nat2 (S1 m 2 1 c) (pair2Row 1 c + (y 0).val) (y 1).val) :
    (iprop(∃ K, Q13pre m K c) : sProp 𝕄)
      ⊢ wp frame (wpE (defs₀ (F := Ideal)) Variants.none (c : Thread nD τ) none) Set.univ
          (seg13 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v1225 v1228 v1571)
          (fun _ => iprop(∃ K, Q13post m K c)) := by
  refine exists_elim fun K => ?_
  unfold Q13pre QV localBufsV bufV heldButV
  rw [posAt_34, toks_seg_34, creds_seg_34, Finset.sdiff_empty, grantLast_2]
  unfold grant
  rw [← dev38_eq c, ← dev39_eq c]
  iintro ⟨#HI, #Hr, #Hlev, Hbar, ⟨A8, #P8, A9, #P9, A10, #P10, A11, #P11, A12, #P12, A13, #P13, A14, #P14, A15, #P15, A16, #P16, A17, #P17, A18, #P18, A19, #P19, A20, #P20, A21, #P21, A22, #P22, A23, #P23, A24, #P24, A25, #P25, A26, #P26, A27, #P27, A28, #P28, A29, #P29, A30, #P30, A31, #P31, A32, #P32, A33, #P33, A34, #P34, A35, #P35, A36, #P36, A37, #P37, A38, #P38, A39, #P39⟩, ⟨⟨TAa, TAb⟩, ⟨TBa, TBb⟩, Htoks⟩, ⟨CA, CB, Hcreds⟩, ⟨%W, HO⟩, ⟨⟨%g0, Hg0, %hg0⟩, ⟨%g1, Hg1, %hg1⟩, ⟨%g2, Hg2, %hg2⟩, ⟨%g3, Hg3, %hg3⟩, ⟨%g4, Hg4, %hg4⟩, ⟨%g5, Hg5, %hg5⟩, ⟨%g6, Hg6, %hg6⟩, ⟨%g7, Hg7, %hg7⟩, ⟨%s2, Hs2, %hs2⟩, ⟨%s3, Hs3, %hs3⟩, ⟨%s4, Hs4, %hs4⟩, ⟨%s5, Hs5, %hs5⟩, ⟨%s8, Hs8, %hs8⟩, ⟨%s9, Hs9, %hs9⟩⟩, ⟨%f0, H0, %hf0⟩, ⟨%f1, H1, %hf1⟩, ⟨%f6, H6, %hf6⟩, ⟨%f7, H7, %hf7⟩, ⟨Gd1, #Gr1⟩, ⟨Gd2, #Gr2⟩, ⟨Gd3, #Gr3⟩⟩
  unfold seg13
  simp only [k0_part51, k0_part52, k0_part53, Prog.lift, Prog.bind_op, Prog.bind_ret, Prog.pure_eq_ret]
  -- the local steps before the first copy: the vector handed in is stored, and the first stream's sum on the other
  -- pair goes into the first send buffer
  sl_exec
  ihave Hs3e : iprop(∃ f, ptw (F := Ideal) c cc0_scratch3 f ∗ ⌜rowsAre3 c (S1 m 2 1 c) (pairRow 1 c) 256 f ∧ rowsAre3 c (S1 m 2 1 c) (k0_off12 c 0) 256 f⌝) $$ [Hs3]
  · iexists _
    isplitl [Hs3]; · iexact Hs3
    ipureintro
    rw [View.writes_singleton]
    exact ⟨store_keep3 c (S1 m 2 1 c) (pairRow 1 c) 256 s3 hs3 (k0_off12 c) S256x256.size (k0_off12_inb c) (off12_col c) rfl _ (off8_off12_disj13 c),
      store_new3 c (S1 m 2 1 c) s3 (k0_off12 c) S256x256.size (k0_off12_inb c) (off12_col c) rfl _ (fun y => by rw [shapeCast_self]; exact hv y)⟩
  icases Hs3e with ⟨%t3, Hs3, %ht3⟩
  ihave Hs4e : iprop(∃ f, ptw (F := Ideal) c cc0_scratch4 f ∗ ⌜(SA 0).view.read (Elt Ideal) f = rows256 (S1 m 2 0 c) (pair2Row 0 c)⌝) $$ [Hs4]
  · iexists _
    isplitl [Hs4]; · iexact Hs4
    ipureintro
    rw [View.writes_singleton]
    refine (View.read_write_univ _ _).trans ?_
    rw [shapeCast_self]
    exact load_rows2 c (S1 m 2 0 c) (quadRow 0 c) 512 s2 hs2 (k0_off11 c) S256x256.size (k0_off11_inb c) (off11_col c) (off11_in_quad13 c).1 (off11_in_quad13 c).2
  icases Hs4e with ⟨%t4, Hs4, %ht4⟩
  -- copy 34: with it goes the own slot for that partner's last reduce step of the second stream
  ihave H7' := (rest_split (F := Ideal) (ℓ := (Memref.whole cc0_scratch7).view.loc (c : Thread nD τ)) (disj_R2_R3h 1) f7).1 $$ H7
  icases H7' with ⟨HownL, H7⟩
  ihave Hs4' := (slice_split c (SA 0) t4).1 $$ Hs4
  icases Hs4' with ⟨Hsrc0, Hrest4⟩
  iapply (wp_send_copyV m c ⟨k0_dev38 c, k0_dev38_lt c⟩ (SA 0) (R2 0) 21 26 2 35 (by omega) (by omega) (by decide) (by decide)
      ((credit_R2 0).trans rfl) (amtDma_sendOf 26 2 (Or.inr (by omega))) (grantLast (F := Ideal) c 1 2) fullShare t4
      (ownAt_of c (SA 0) t4)
      (by rw [dev38_eq c]; exact fun fd => land26_2 m c t4 ht4 fd)
      K (owedFrom c 35) (by rw [dev38_eq c]) W
      (by rw [dev38_eq c]; exact routes3V13 c)) $$ [Hsrc0 Gd1 HownL HO TAa TAb]
  · isplitr; · iexact HI
    isplitl [Hsrc0]; · iexact Hsrc0
    isplitl [Gd1]; · iexact Gd1
    isplitl [HownL]
    · rw [grantLast_2, grant_eq]
      isplitl [HownL]; · iapply (ownAt_of c (R3h 1) f7); iexact HownL
      iexact P37
    isplitl [HO]; · iexact HO
    isplitl [TAa]; · iexact TAa
    isplitr; · iexact P21
    isplitl [TAb]; · iexact TAb
    iexact Gr1
  iintro ⟨CsA, HO⟩
  -- the local steps between the two copies: the second stream's sum on the other pair goes into the second send buffer
  sl_exec
  ihave Hs5e : iprop(∃ f, ptw (F := Ideal) c cc0_scratch5 f ∗ ⌜(SA 1).view.read (Elt Ideal) f = rows256 (S1 m 2 1 c) (pair2Row 1 c)⌝) $$ [Hs5]
  · iexists _
    isplitl [Hs5]; · iexact Hs5
    ipureintro
    rw [View.writes_singleton]
    refine (View.read_write_univ _ _).trans ?_
    rw [shapeCast_self]
    exact load_rows3 c (S1 m 2 1 c) (k0_off12 c 0) 256 t3 ht3.2 (k0_off12 c) S256x256.size (k0_off12_inb c) (off12_col c) (Nat.le_refl _) (Nat.le_refl _)
  icases Hs5e with ⟨%t5, Hs5, %ht5⟩
  ihave Hs5' := (slice_split c (SA 1) t5).1 $$ Hs5
  icases Hs5' with ⟨Hsrc1, Hrest5⟩
  -- copy 35: the last layer, nothing goes with it
  iapply (wp_send_copyV m c ⟨k0_dev39 c, k0_dev39_lt c⟩ (SA 1) (R2 1) 31 36 2 36 (by omega) (by omega) (by decide) (by decide)
      ((credit_R2 1).trans rfl) (amtDma_sendOf 36 2 (Or.inr (by omega))) iprop(emp) fullShare t5
      (ownAt_of c (SA 1) t5)
      (by rw [dev39_eq c]; exact fun fd => land36_2 m c t5 ht5 fd)
      K (owedFrom c 36) (by rw [dev39_eq c]) W
      (by rw [dev39_eq c]; exact routes4V13 c)) $$ [Hsrc1 Gd2 HO TBa TBb]
  · isplitr; · iexact HI
    isplitl [Hsrc1]; · iexact Hsrc1
    isplitl [Gd2]; · iexact Gd2
    isplitl []; · iempintro
    isplitl [HO]; · iexact HO
    isplitl [TBa]; · iexact TBa
    isplitr; · iexact P31
    isplitl [TBb]; · iexact TBb
    iexact Gr2
  iintro ⟨CsB, HO⟩
  -- the wait for copy 34's send cell: the source half comes back and the first send buffer is whole again
  ihave Hmw := (mayWait_copy (F := Ideal) c (dsem 21) 34 36 (by omega) (by omega)) $$ Hlev
  iapply (wp_wait_copyV m c 21 2 35 (by omega) (by decide) K (owedFrom c 36) W
      (hw := fun Kt => hw_waitDma2 c 21 2 (src := R2 0) (dst := SA 0) ((credit_SA 0).trans rfl) Kt)) $$ [CsA HO Hmw A21]
  · isplitr; · iexact HI
    isplitl [CsA]; · iexact CsA
    isplitl [HO]; · iexact HO
    isplitl [Hmw]; · iexact Hmw
    iexact A21
  rw [show payDmaV m c 21 2 = ownAt (F := Ideal) c (SA 0) from rfl]
  rw [show (2 : ℕ) + 1 = 3 from rfl]
  iintro ⟨HO, A21, #P21', Hback0⟩
  ihave Hs4e := (slice_join_ownAt c (SA 0) t4) $$ [Hback0 Hrest4]
  · isplitl [Hback0]; · iexact Hback0
    iexact Hrest4
  icases Hs4e with ⟨%u4, Hs4⟩
  ihave Hs4 : ptw (F := Ideal) c cc0_scratch4 u4 $$ [Hs4]
  · iexact Hs4
  -- the wait for the partner's copy 34 on the own receive cell: rows 512.. of the receive buffer hold that partner's
  -- two-device sum on the own pair, and the partner hands over its slot for the own last reduce step of the second stream
  ihave Hmw2 := (mayWait_copy (F := Ideal) c (dsem 26) 34 36 (by omega) (by omega)) $$ Hlev
  iapply (wp_wait_copyV m c 26 2 35 (by omega) (by decide) K (owedFrom c 36) (insert (SemLoc.dma (dsem 21), 35) W)
      (hw := fun Kt => hw_waitDma2 c 26 2 (src := SA 0) (dst := R2 0) ((credit_R2 0).trans rfl) Kt)) $$ [CA HO Hmw2 A26]
  · isplitr; · iexact HI
    isplitl [CA]; · iexact CA
    isplitl [HO]; · iexact HO
    isplitl [Hmw2]; · iexact Hmw2
    iexact A26
  rw [show payDmaV m c 26 2 = iprop(owns (c : Thread nD τ) (R2 0) fullShare (rows256 (S1 m 2 0 (xr 3 c)) (pairRow 0 c)) ∗ grantLast (F := Ideal) (xr 3 c) 1 2) from rfl, grantLast_2, grant_eq]
  rw [show (2 : ℕ) + 1 = 3 from rfl]
  unfold owns
  iintro ⟨HO, A26, #P26', ⟨%l6, %hl6, Hback20⟩, HgLd, #HgLr⟩
  -- the wait for copy 35's send cell
  ihave Hmw3 := (mayWait_copy (F := Ideal) c (dsem 31) 35 36 (by omega) (by omega)) $$ Hlev
  iapply (wp_wait_copyV m c 31 2 36 (by omega) (by decide) K (owedFrom c 36) (insert (SemLoc.dma (dsem 26), 35) (insert (SemLoc.dma (dsem 21), 35) W))
      (hw := fun Kt => hw_waitDma2 c 31 2 (src := R2 1) (dst := SA 1) ((credit_SA 1).trans rfl) Kt)) $$ [CsB HO Hmw3 A31]
  · isplitr; · iexact HI
    isplitl [CsB]; · iexact CsB
    isplitl [HO]; · iexact HO
    isplitl [Hmw3]; · iexact Hmw3
    iexact A31
  rw [show payDmaV m c 31 2 = ownAt (F := Ideal) c (SA 1) from rfl]
  rw [show (2 : ℕ) + 1 = 3 from rfl]
  iintro ⟨HO, A31, #P31', Hback1⟩
  ihave Hs5e := (slice_join_ownAt c (SA 1) t5) $$ [Hback1 Hrest5]
  · isplitl [Hback1]; · iexact Hback1
    iexact Hrest5
  icases Hs5e with ⟨%u5, Hs5⟩
  ihave Hs5 : ptw (F := Ideal) c cc0_scratch5 u5 $$ [Hs5]
  · iexact Hs5
  -- the wait for the partner's copy 35: rows 512.. of the second receive buffer hold that partner's two-device sum on
  -- the own pair, and the partner hands over the rows of its second gather buffer where the own pair block lands next
  ihave Hmw4 := (mayWait_copy (F := Ideal) c (dsem 36) 35 36 (by omega) (by omega)) $$ Hlev
  iapply (wp_wait_copyV m c 36 2 36 (by omega) (by decide) K (owedFrom c 36) (insert (SemLoc.dma (dsem 31), 36) (insert (SemLoc.dma (dsem 26), 35) (insert (SemLoc.dma (dsem 21), 35) W)))
      (hw := fun Kt => hw_waitDma2 c 36 2 (src := SA 1) (dst := R2 1) ((credit_R2 1).trans rfl) Kt)) $$ [CB HO Hmw4 A36]
  · isplitr; · iexact HI
    isplitl [CB]; · iexact CB
    isplitl [HO]; · iexact HO
    isplitl [Hmw4]; · iexact Hmw4
    iexact A36
  rw [show payDmaV m c 36 2 = owns (c : Thread nD τ) (R2 1) fullShare (rows256 (S1 m 2 1 (xr 4 c)) (pairRow 1 c)) from rfl]
  rw [show (2 : ℕ) + 1 = 3 from rfl]
  unfold owns
  iintro ⟨HO, A36, #P36', ⟨%l7, %hl7, Hback21⟩⟩
  -- the landed slots go back into the receive buffers at their contents
  ihave H6a := (held_swap13 (ℓ := (Memref.whole cc0_scratch6).view.loc (c : Thread nD τ)) (R3h 0).view.set (R2 0).view.set f6) $$ H6
  ihave H6 := (rest_join_at (F := Ideal) (ℓ := (Memref.whole cc0_scratch6).view.loc (c : Thread nD τ)) (disj_R2_R3h 0).symm f6 l6) $$ [Hback20 H6a]
  · isplitl [Hback20]; · iexact Hback20
    iexact H6a
  ihave H7a := (rest_swap13 (ℓ := (Memref.whole cc0_scratch7).view.loc (c : Thread nD τ)) (R2 1).view.set (R3h 1).view.set f7) $$ H7
  ihave H7 := (rest_join_at (F := Ideal) (ℓ := (Memref.whole cc0_scratch7).view.loc (c : Thread nD τ)) (disj_R2_R3h 1).symm f7 l7) $$ [Hback21 H7a]
  · isplitl [Hback21]; · iexact Hback21
    iexact H7a
  -- the last local steps: the landed rows are added to the accumulators; the steps after them read other rows of the
  -- first accumulator (the partner's block of the last step) and are run apart, once what it holds is named
  generalize hR : (Prog.op (TpuEff.load (Memref.whole cc0_scratch2) (Rect.unit (s := S1024x256) (k0_off19 c) _ _).toLoadRect _) _
      : Prog (TpuEff nD τ sig (Elt Ideal) Λ₀ .tc) _) = R
  sl_exec
  ihave Hs2e : iprop(∃ f, ptw (F := Ideal) c cc0_scratch2 f ∗ ⌜rowsAre2 c (S2 m 2 0 c) (pairRow 0 c) 256 f⌝) $$ [Hs2]
  · iexists _
    isplitl [Hs2]; · iexact Hs2
    ipureintro
    rw [View.writes_singleton]
    refine store_new2 c (S2 m 2 0 c) s2 (k0_off7 c) S256x256.size (k0_off7_inb c) (off7_col c) rfl _ (fun y => ?_)
    rw [shapeCast_self]
    exact (congrArg₂ (fun a b : EReal => a + b)
        (congrFun (load_rows2 c (S1 m 2 0 c) (quadRow 0 c) 512 s2 hs2 (k0_off7 c) S256x256.size (k0_off7_inb c) (off7_col c) (off7_in_quad13 c).1 (off7_in_quad13 c).2) y)
        (congrFun ((read_piecewise_self (R2 0) c f6 l6).trans hl6) y)).trans
      (sum_S2_t0 m c _ _ (unit_row_lt (k0_off7 c) S256x256.size (k0_off7_inb c) y) (unit_col_lt (k0_off7 c) S256x256.size (k0_off7_inb c) y))
  icases Hs2e with ⟨%t2, Hs2, %ht2⟩
  subst hR
  sl_exec
  -- the state after the third reduce step
  rw [wp_ret]
  imodintro
  iexists K
  unfold Q13post QV localBufsV bufV heldButV
  rw [posAt_36, Finset.sdiff_empty, grantLast_2, grantLast_2]
  unfold grant
  isplitr; · iexact HI
  isplitr; · iexact Hr
  isplitr; · iexact Hlev
  isplitl [Hbar]; · iexact Hbar
  isplitl [A8 A9 A10 A11 A12 A13 A14 A15 A16 A17 A18 A19 A20 A21 A22 A23 A24 A25 A26 A27 A28 A29 A30 A31 A32 A33 A34 A35 A36 A37 A38 A39]
  · iframe ∗ #
  isplitl [Htoks]; · iexact Htoks
  isplitl [Hcreds]; · iexact Hcreds
  isplitl [HO]; · iexists _; iexact HO
  isplitl [Hg0 Hg1 Hg2 Hg3 Hg4 Hg5 Hg6 Hg7 Hs2 Hs3 Hs4 Hs5 Hs8 Hs9]
  · isplitl [Hg0]
    · iexists _
      isplitl [Hg0]
      · iexact Hg0
      ipureintro
      exact hg0
    isplitl [Hg1]
    · iexists _
      isplitl [Hg1]
      · iexact Hg1
      ipureintro
      exact hg1
    isplitl [Hg2]
    · iexists _
      isplitl [Hg2]
      · iexact Hg2
      ipureintro
      exact hg2
    isplitl [Hg3]
    · iexists _
      isplitl [Hg3]
      · iexact Hg3
      ipureintro
      exact hg3
    isplitl [Hg4]
    · iexists _
      isplitl [Hg4]
      · iexact Hg4
      ipureintro
      exact hg4
    isplitl [Hg5]
    · iexists _
      isplitl [Hg5]
      · iexact Hg5
      ipureintro
      exact hg5
    isplitl [Hg6]
    · iexists _
      isplitl [Hg6]
      · iexact Hg6
      ipureintro
      exact hg6
    isplitl [Hg7]
    · iexists _
      isplitl [Hg7]
      · iexact Hg7
      ipureintro
      trivial
    isplitl [Hs2]
    · iexists _
      isplitl [Hs2]
      · iexact Hs2
      ipureintro
      exact ht2
    isplitl [Hs3]
    · iexists _
      isplitl [Hs3]
      · iexact Hs3
      ipureintro
      rw [View.writes_singleton]
      refine store_new3 c (S2 m 2 1 c) t3 (k0_off8 c) S256x256.size (k0_off8_inb c) (off8_col c) rfl _ (fun y => ?_)
      rw [shapeCast_self]
      exact (congrArg₂ (fun a b : EReal => a + b)
          (congrFun (load_rows3 c (S1 m 2 1 c) (pairRow 1 c) 256 t3 ht3.1 (k0_off8 c) S256x256.size (k0_off8_inb c) (off8_col c) (Nat.le_refl _) (Nat.le_refl _)) y)
          (congrFun ((read_piecewise_self (R2 1) c f7 l7).trans hl7) y)).trans
        (sum_S2_t1 m c _ _ (unit_row_lt (k0_off8 c) S256x256.size (k0_off8_inb c) y) (unit_col_lt (k0_off8 c) S256x256.size (k0_off8_inb c) y))
    isplitl [Hs4]
    · iexists _
      isplitl [Hs4]
      · iexact Hs4
      ipureintro
      rw [View.writes_singleton, ownRow0_xr1]
      refine snd_store128 c (S2 m 2 0 c) (k0_off19 c 0) u4 _ (fun y => ?_)
      rw [shapeCast_self]
      exact congrFun (load_rows2 c (S2 m 2 0 c) (pairRow 0 c) 256 t2 ht2 (k0_off19 c) S128x256.size (k0_off19_inb c) (off19_col c) (off19_in_pair c).1 (off19_in_pair c).2) y
    isplitl [Hs5]
    · iexists _
      isplitl [Hs5]
      · iexact Hs5
      ipureintro
      trivial
    isplitl [Hs8]
    · iexists _
      isplitl [Hs8]
      · iexact Hs8
      ipureintro
      exact hs8
    iexists _
    isplitl [Hs9]
    · iexact Hs9
    ipureintro
    exact hs9
  isplitl [H0]
  · iexists _
    isplitl [H0]
    · iexact H0
    ipureintro
    trivial
  isplitl [H1]
  · iexists _
    isplitl [H1]
    · iexact H1
    ipureintro
    trivial
  isplitl [H6]
  · iexists _
    isplitl [H6]
    · iexact H6
    ipureintro
    trivial
  isplitl [H7]
  · iexists _
    isplitl [H7]
    · iexact H7
    ipureintro
    trivial
  isplitl [Gd3]
  · isplitl [Gd3]; · iexact Gd3
    iexact Gr3
  isplitl [HgLd]
  · isplitl [HgLd]; · iexact HgLd
    iexact HgLr
  iempintro

/-! ## This rests on the standard axioms only -/

/-- info: 'Cert.KernelIdeal.Val.seg13_okV' depends on axioms: [propext, Classical.choice, Quot.sound] -/
#guard_msgs in #print axioms seg13_okV

end Cert.KernelIdeal.Val

end
-- ==== Proof.KernelIdeal.SegV12Done.lean ====
/- Segment 12 with contents: the protocol's proof with its eleven facts about contents supplied, and its closing state
   weakened to the state the third reduce step starts from. -/
import proofs.«900979_g7700000000000980_dist_mlpseq_tp1d_bs_bs_b256_d256_h512_v7x_i8_bf16_1_alg».proof.Proof.KernelIdeal.SegV12
import proofs.«900979_g7700000000000980_dist_mlpseq_tp1d_bs_bs_b256_d256_h512_v7x_i8_bf16_1_alg».proof.Proof.KernelIdeal.SegV12FactsH
import proofs.«900979_g7700000000000980_dist_mlpseq_tp1d_bs_bs_b256_d256_h512_v7x_i8_bf16_1_alg».proof.Proof.KernelIdeal.SegV12FactsD
import proofs.«900979_g7700000000000980_dist_mlpseq_tp1d_bs_bs_b256_d256_h512_v7x_i8_bf16_1_alg».proof.Proof.KernelIdeal.SegV12FactsD2
import proofs.«900979_g7700000000000980_dist_mlpseq_tp1d_bs_bs_b256_d256_h512_v7x_i8_bf16_1_alg».proof.Proof.KernelIdeal.SegV12FactsN
import proofs.«900979_g7700000000000980_dist_mlpseq_tp1d_bs_bs_b256_d256_h512_v7x_i8_bf16_1_alg».proof.Proof.KernelIdeal.SegV13
import proofs.«900979_g7700000000000980_dist_mlpseq_tp1d_bs_bs_b256_d256_h512_v7x_i8_bf16_1_alg».proof.Proof.KernelIdeal.SegV2
import proofs.«900979_g7700000000000980_dist_mlpseq_tp1d_bs_bs_b256_d256_h512_v7x_i8_bf16_1_alg».proof.Proof.KernelIdeal.QuietVMono

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

/-- What segment 12 leaves gives the state the third reduce step of the last layer starts from (what is known of the
    gather buffers is dropped). -/
theorem post12_cut (m : Mem) (c : Dev nD) (r : FVec Ideal S256x256 .f32) :
    Post12 m c r ⊢ iprop(⌜∀ y : S256x256.Idx, r y = nat2 (S1 m 2 1 c) (pair2Row 1 c + (y 0).val) (y 1).val⌝ ∗ ∃ K, Q13pre m K c) := by
  unfold Post12 Q13pre
  iintro ⟨%h, H⟩
  isplitr
  · ipureintro; exact h
  iapply (QV_mono_ex m c 34 2 ∅ ∅ ((R2 0).view.set ∪ (R3h 0).view.set) (R2 1).view.set _
      (fun _ h => h) (fun _ _ => trivial) (fun _ _ => trivial) (fun _ h => h) (fun _ h => h) (fun _ h => h) (fun _ h => h) (fun _ h => h) (fun _ h => h))
  iexact H

/-- Segment 12 with contents, from the three facts about the vectors the step before hands over. -/
theorem seg12_doneV (m : Mem) (c : Dev nD) (v2 v1225 v1228 v1358 v1362 : BitVec 32)
    (v1385 : FVec Ideal S256x512 .bf16) (v1386 : Vec Ideal S512x256 .bf16) (cst_1075 : FVec Ideal S256x256 .f32)
    (hin : hidIs m c (A m 2 1) (k0_off14 c 0) 2 v1385 ∧ (∀ (k : Fin 512) (col : Fin 256), v1386 (ValueIdx.ix2 k col) = woutOf m 2 c k col) ∧ (∀ i, cst_1075 i = 0)) :
    (iprop(∃ K, QE2V m K c 30 2 2) : sProp 𝕄)
      ⊢ wp frame (wpE (defs₀ (F := Ideal)) Variants.none (c : Thread nD τ) none) Set.univ
          (seg12 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v1225 v1228 v1358 v1362 v1385 v1386 cst_1075)
          (fun r => iprop(⌜∀ y : S256x256.Idx, r y = nat2 (S1 m 2 1 c) (pair2Row 1 c + (y 0).val) (y 1).val⌝ ∗ ∃ K, Q13pre m K c)) :=
  (seg12_okV m c v2 v1225 v1228 v1358 v1362 v1385 v1386 cst_1075
    (fun a3 h => v12_H1 m c v1385 v1386 cst_1075 hin.1 hin.2.1 hin.2.2 a3 h)
    (fun a2 a4 h => v12_H2 m c a2 a4 h)
    (fun a3 a5 h => v12_H3 m c a3 a5 h)
    (fun x0 a8 a9 a4 h0 h8 h9 => v12_H4 m c x0 a8 a9 a4 h0 h8 h9)
    (fun x0 a8 a9 a2 h0 h8 h9 ha => v12_H5 m c x0 a8 a9 a2 h0 h8 h9 ha)
    (fun x1 a8 a9 a3 h1 h8 h9 ha => v12_H6 m c x1 a8 a9 a3 h1 h8 h9 ha)
    (fun a3 a5 ha => v12_H7 m c a3 a5 ha)
    (seg12_H8 m c) (seg12_H9 m c)
    (fun a2 g h hg => v12_H10 m c a2 g h hg)
    (fun a3 g h hg y => v12_H11 m c a3 g h hg y)).trans
  (Idealize.SL.Sem.wp_mono _ _ _ (fun r => post12_cut m c r))

/-- info: 'Cert.KernelIdeal.Val.seg12_doneV' depends on axioms: [propext, Classical.choice, Quot.sound] -/
#guard_msgs in #print axioms seg12_doneV

end Cert.KernelIdeal.Val

end
-- ==== Proof.KernelIdeal.SegV3.lean ====
/- The two-half reduce step of layer 0 with contents (ideal instance).

   Before the step each accumulator holds the device's partial product `Pt 0 s c` on its own four blocks (stream 0's
   also on the first pair of the partner's four, computed just before). The step computes the partials on the partner's
   remaining blocks, sends the partner its four blocks of partials in two halves (cast to bf16, the identity over the
   reals), casts layer 1's weight slices, and adds the two halves the partner sends into the own four blocks: these then
   hold `S1 0 s c = Pt 0 s c + Pt 0 s (partner)`. The last statement stages the next step's first source: the first half
   of stream 0's send buffer holds `S1 0 0 c` on the second pair of the own blocks.

   Protocol and ownership are those of the step without contents; what is added is, after each stretch of local
   statements, the fact about the rows written, and for each copy that the landing holds the sender's rows. -/
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StepsVP
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.QuietLemmas
import proofs.«900979_g7700000000000980_dist_mlpseq_tp1d_bs_bs_b256_d256_h512_v7x_i8_bf16_1_alg».proof.Proof.KernelIdeal.SegAB
import proofs.«900979_g7700000000000980_dist_mlpseq_tp1d_bs_bs_b256_d256_h512_v7x_i8_bf16_1_alg».proof.Proof.KernelIdeal.ValSteps

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Cert.KernelIdeal.Hand.AB
open scoped BigOperators

local notation "𝕄" => MT nD τ sig ℕ (Elt Ideal) ℕ UU ℕ

namespace V3

/-! ## The rows of the step, device by device

    In each stream a device keeps four 128-row blocks (512 rows) and gives the other four to the partner of the
    step. The kept rows are two pairs of blocks (256 rows each), the given rows two pairs; the first pair given is
    the partner's first kept pair, the second the partner's second. -/

theorem rows0 : ∀ c : Dev nD,
    ((k0_off7 c 0 = k0_off9 c 0 ∧ k0_off11 c 0 = k0_off9 c 0 + 256) ∨ (k0_off7 c 0 = k0_off9 c 0 + 256 ∧ k0_off11 c 0 = k0_off9 c 0))
    ∧ (k0_off13 c 0 + 256 ≤ k0_off9 c 0 ∨ k0_off9 c 0 + 512 ≤ k0_off13 c 0)
    ∧ (k0_off15 c 0 + 256 ≤ k0_off9 c 0 ∨ k0_off9 c 0 + 512 ≤ k0_off15 c 0)
    ∧ k0_off9 c 0 + 512 ≤ 1024 ∧ k0_off13 c 0 + 256 ≤ 1024 ∧ k0_off15 c 0 + 256 ≤ 1024
    ∧ k0_off7 (xr 4 c) 0 = k0_off13 c 0 ∧ k0_off11 (xr 4 c) 0 = k0_off15 c 0 := by decide +kernel

theorem rows1 : ∀ c : Dev nD,
    ((k0_off8 c 0 = k0_off10 c 0 ∧ k0_off12 c 0 = k0_off10 c 0 + 256) ∨ (k0_off8 c 0 = k0_off10 c 0 + 256 ∧ k0_off12 c 0 = k0_off10 c 0))
    ∧ (k0_off14 c 0 + 256 ≤ k0_off10 c 0 ∨ k0_off10 c 0 + 512 ≤ k0_off14 c 0)
    ∧ (k0_off16 c 0 + 256 ≤ k0_off10 c 0 ∨ k0_off10 c 0 + 512 ≤ k0_off16 c 0)
    ∧ k0_off10 c 0 + 512 ≤ 1024 ∧ k0_off14 c 0 + 256 ≤ 1024 ∧ k0_off16 c 0 + 256 ≤ 1024
    ∧ k0_off8 (xr 1 c) 0 = k0_off14 c 0 ∧ k0_off12 (xr 1 c) 0 = k0_off16 c 0 := by decide +kernel

/-! ## Sums and products read at natural numbers -/

theorem nat2_add (G H : Fin 1024 → Fin 256 → EReal) (i j : ℕ) :
    nat2 (fun r c => G r c + H r c) i j = nat2 G i j + nat2 H i j := by
  unfold nat2
  by_cases h : i < 1024 ∧ j < 256
  · rw [dif_pos h, dif_pos h, dif_pos h]
  · rw [dif_neg h, dif_neg h, dif_neg h, add_zero]

end V3

namespace V3

/-! ## Buffers with a fact about their contents -/

theorem heldButV_empty (c : Dev nD) (b : Ref sig .tc) (P : Buf (Elt Ideal) ((Memref.whole b).view.loc (c : Thread nD τ)) → Prop) :
    heldButV c b ∅ P = bufV c b P := by
  unfold heldButV bufV
  rw [Finset.sdiff_empty]

theorem heldButV_true (c : Dev nD) (b : Ref sig .tc) (A : Finset (Idx ((Memref.whole b).view.loc (c : Thread nD τ)))) :
    heldButV c b A (fun _ => True) ⊣⊢ heldBut (F := Ideal) c b A := by
  unfold heldButV heldBut
  constructor
  · iintro ⟨%f, H, %_h⟩
    iexists f
    iexact H
  · iintro ⟨%f, H⟩
    iexists f
    isplitl [H]
    · iexact H
    · ipureintro; trivial

theorem bufV_of (c : Dev nD) (b : Ref sig .tc) (P : Buf (Elt Ideal) ((Memref.whole b).view.loc (c : Thread nD τ)) → Prop)
    (f : Buf (Elt Ideal) ((Memref.whole b).view.loc (c : Thread nD τ))) (h : P f) : ptw (F := Ideal) c b f ⊢ bufV c b P := by
  unfold bufV
  iintro H
  iexists f
  isplitl [H]
  · iexact H
  · ipureintro; exact h

theorem bufV_open (c : Dev nD) (b : Ref sig .tc) (P : Buf (Elt Ideal) ((Memref.whole b).view.loc (c : Thread nD τ)) → Prop) :
    bufV c b P ⊢ iprop(∃ f, ptw (F := Ideal) c b f ∗ ⌜P f⌝) := by
  unfold bufV
  exact .rfl

/-- A fact about a range of rows holds of every range inside it. -/
theorem rows2_sub (c : Dev nD) (G : Fin 1024 → Fin 256 → EReal) (b n b' n' : ℕ) (f : Buf (Elt Ideal) ((Memref.whole cc0_scratch2).view.loc (c : Thread nD τ)))
    (h : rowsAre2 c G b n f) (hb : b ≤ b') (hn : b' + n' ≤ b + n) : rowsAre2 c G b' n' f :=
  fun row col h1 h2 => h row col (by omega) (by omega)
theorem rows3_sub (c : Dev nD) (G : Fin 1024 → Fin 256 → EReal) (b n b' n' : ℕ) (f : Buf (Elt Ideal) ((Memref.whole cc0_scratch3).view.loc (c : Thread nD τ)))
    (h : rowsAre3 c G b n f) (hb : b ≤ b') (hn : b' + n' ≤ b + n) : rowsAre3 c G b' n' f :=
  fun row col h1 h2 => h row col (by omega) (by omega)
/-- Two ranges of rows that cover a third. -/
theorem rows2_cover (c : Dev nD) (G : Fin 1024 → Fin 256 → EReal) (b1 n1 b2 n2 b n : ℕ) (f : Buf (Elt Ideal) ((Memref.whole cc0_scratch2).view.loc (c : Thread nD τ)))
    (h1 : rowsAre2 c G b1 n1 f) (h2 : rowsAre2 c G b2 n2 f)
    (hc : ∀ row : ℕ, b ≤ row → row < b + n → (b1 ≤ row ∧ row < b1 + n1) ∨ (b2 ≤ row ∧ row < b2 + n2)) : rowsAre2 c G b n f :=
  fun row col ha hb => (hc row.val ha hb).elim (fun h => h1 row col h.1 h.2) (fun h => h2 row col h.1 h.2)
theorem rows3_cover (c : Dev nD) (G : Fin 1024 → Fin 256 → EReal) (b1 n1 b2 n2 b n : ℕ) (f : Buf (Elt Ideal) ((Memref.whole cc0_scratch3).view.loc (c : Thread nD τ)))
    (h1 : rowsAre3 c G b1 n1 f) (h2 : rowsAre3 c G b2 n2 f)
    (hc : ∀ row : ℕ, b ≤ row → row < b + n → (b1 ≤ row ∧ row < b1 + n1) ∨ (b2 ≤ row ∧ row < b2 + n2)) : rowsAre3 c G b n f :=
  fun row col ha hb => (hc row.val ha hb).elim (fun h => h1 row col h.1 h.2) (fun h => h2 row col h.1 h.2)

/-- The product split in two (the first product, then relu, cast and second product) is the rows' product. -/
theorem pay19_18 (xh : Vec Ideal S256x256 .bf16) (wi : Vec Ideal S256x512 .bf16) (wo : Vec Ideal S512x256 .bf16) (y : S256x256.Idx) :
    k0_pay19 (F := Ideal) (k0_pay18 (F := Ideal) xh wi) wo y = mmRows xh wi wo y := by
  obtain ⟨r, col, rfl⟩ : ∃ (r : Fin 256) (col : Fin 256), y = ValueIdx.ix2 r col := ⟨y 0, y 1, ValueIdx.eq_ix2 y⟩
  rw [k0_pay19_apply, mmRows_apply]
  exact Finset.sum_congr rfl fun k _ => by rw [k0_pay18_apply]

end V3

namespace V3

/-! ## Whole loads of the weight windows, the sum of two partials, the send buffer's rows -/

theorem load_stg3 (c : Dev nD) (f : Buf (Elt Ideal) ((Memref.whole cc0_stg3_0).view.loc (c : Thread nD τ)))
    (inb : ∀ a, (![0, 0] : Fin 2 → ℕ) a + S256x512.size a ≤ S256x512.size a) (y : S256x512.Idx) :
    (Memref.whole cc0_stg3_0).view.readAt (Elt Ideal) (Rect.unit (s := S256x512) ![0, 0] S256x512.size inb).toLoadRect f y = f y := by
  show f ((Rect.unit (s := S256x512) ![0, 0] S256x512.size inb).emb y) = f y
  congr 1
  funext a
  apply Fin.ext
  match a with
  | ⟨0, _⟩ => show 0 + 1 * (y 0).val = (y 0).val; omega
  | ⟨1, _⟩ => show 0 + 1 * (y 1).val = (y 1).val; omega

theorem load_stg4 (c : Dev nD) (f : Buf (Elt Ideal) ((Memref.whole cc0_stg4_0).view.loc (c : Thread nD τ)))
    (inb : ∀ a, (![0, 0] : Fin 2 → ℕ) a + S512x256.size a ≤ S512x256.size a) (y : S512x256.Idx) :
    (Memref.whole cc0_stg4_0).view.readAt (Elt Ideal) (Rect.unit (s := S512x256) ![0, 0] S512x256.size inb).toLoadRect f y = f y := by
  show f ((Rect.unit (s := S512x256) ![0, 0] S512x256.size inb).emb y) = f y
  congr 1
  funext a
  apply Fin.ext
  match a with
  | ⟨0, _⟩ => show 0 + 1 * (y 0).val = (y 0).val; omega
  | ⟨1, _⟩ => show 0 + 1 * (y 1).val = (y 1).val; omega

theorem S1_nat2 (m : Mem) (l : ℕ) (s : Fin 2) (c : Dev nD) (i j : ℕ) :
    nat2 (S1 m l s c) i j = nat2 (Pt m l s c) i j + nat2 (Pt m l s (xr (rm s 0) c)) i j :=
  nat2_add _ _ i j

/-- Element (t, col) of the first 256 rows of a 512-row buffer, through the rectangle of those rows. -/
theorem sa_emb (inb : ∀ a, (![0, 0] : Fin 2 → ℕ) a + S256x256.size a ≤ S512x256.size a) (y : S256x256.Idx) :
    (Rect.unit (s := S512x256) ![0, 0] S256x256.size inb).emb y = ValueIdx.ix2 (⟨(y 0).val, by have h : (y 0).val < 256 := (y 0).isLt; omega⟩ : Fin 512) (y 1) := by
  funext a
  apply Fin.ext
  match a with
  | ⟨0, _⟩ => show 0 + 1 * (y 0).val = (y 0).val; omega
  | ⟨1, _⟩ => show 0 + 1 * (y 1).val = (y 1).val; omega

/-- The first 256 rows of the first stream's send buffer after a store of `G`'s rows there. -/
theorem snd_store (c : Dev nD) (G : Fin 1024 → Fin 256 → EReal) (b : ℕ)
    (f : Buf (Elt Ideal) ((Memref.whole cc0_scratch4).view.loc (c : Thread nD τ)))
    (inb : ∀ a, (![0, 0] : Fin 2 → ℕ) a + S256x256.size a ≤ S512x256.size a)
    (w : S256x256.Idx → EReal) (hw : ∀ y : S256x256.Idx, w y = nat2 G (b + (y 0).val) (y 1).val) :
    sndIs c G b 256 (((Memref.whole cc0_scratch4).view.slice (Rect.unit (s := S512x256) ![0, 0] S256x256.size inb)).write (Elt Ideal) f w Finset.univ) := by
  intro t col ht
  let y : S256x256.Idx := ValueIdx.ix2 (⟨t.val, ht⟩ : Fin 256) col
  have e : ValueIdx.ix2 t col = (Rect.unit (s := S512x256) ![0, 0] S256x256.size inb).emb y := by
    rw [sa_emb inb y]
    rfl
  rw [e]
  exact (View.write_emb_of_mem (v := (Memref.whole cc0_scratch4).view.slice (Rect.unit (s := S512x256) ![0, 0] S256x256.size inb)) (Val := Elt Ideal) f w (Finset.mem_univ y)).trans (hw y)

end V3

namespace V3

/-! ## Adding a landed block into an accumulator's rows -/

theorem addin2 (c : Dev nD) (G1 G2 : Fin 1024 → Fin 256 → EReal) (off : Fin 2 → ℕ) (inb : ∀ a, off a + S256x256.size a ≤ S1024x256.size a) (hcol : off 1 = 0)
    (fa : Buf (Elt Ideal) ((Memref.whole cc0_scratch2).view.loc (c : Thread nD τ))) (hacc : rowsAre2 c G1 (off 0) 256 fa)
    (L : S256x256.Idx → EReal) (hL : ∀ y : S256x256.Idx, L y = nat2 G2 (off 0 + (y 0).val) (y 1).val)
    (w : S256x256.Idx → EReal)
    (hw : ∀ y, w y = (show S256x256.Idx → EReal from (Memref.whole cc0_scratch2).view.readAt (Elt Ideal) (Rect.unit (s := S1024x256) off S256x256.size inb).toLoadRect fa) y + L y) :
    rowsAre2 c (fun r col => G1 r col + G2 r col) (off 0) 256
      (((Memref.whole cc0_scratch2).view.slice (Rect.unit (s := S1024x256) off S256x256.size inb)).write (Elt Ideal) fa w Finset.univ) :=
  store_new2 c (fun r col => G1 r col + G2 r col) fa off S256x256.size inb hcol rfl w fun y => by
    rw [hw y, nat2_add, hL y]
    exact congrArg (· + _) (congrFun (load_rows2 c G1 (off 0) 256 fa hacc off S256x256.size inb hcol (le_refl _) (le_refl _)) y)

theorem addin3 (c : Dev nD) (G1 G2 : Fin 1024 → Fin 256 → EReal) (off : Fin 2 → ℕ) (inb : ∀ a, off a + S256x256.size a ≤ S1024x256.size a) (hcol : off 1 = 0)
    (fa : Buf (Elt Ideal) ((Memref.whole cc0_scratch3).view.loc (c : Thread nD τ))) (hacc : rowsAre3 c G1 (off 0) 256 fa)
    (L : S256x256.Idx → EReal) (hL : ∀ y : S256x256.Idx, L y = nat2 G2 (off 0 + (y 0).val) (y 1).val)
    (w : S256x256.Idx → EReal)
    (hw : ∀ y, w y = (show S256x256.Idx → EReal from (Memref.whole cc0_scratch3).view.readAt (Elt Ideal) (Rect.unit (s := S1024x256) off S256x256.size inb).toLoadRect fa) y + L y) :
    rowsAre3 c (fun r col => G1 r col + G2 r col) (off 0) 256
      (((Memref.whole cc0_scratch3).view.slice (Rect.unit (s := S1024x256) off S256x256.size inb)).write (Elt Ideal) fa w Finset.univ) :=
  store_new3 c (fun r col => G1 r col + G2 r col) fa off S256x256.size inb hcol rfl w fun y => by
    rw [hw y, nat2_add, hL y]
    exact congrArg (· + _) (congrFun (load_rows3 c G1 (off 0) 256 fa hacc off S256x256.size inb hcol (le_refl _) (le_refl _)) y)

end V3

open V3

/-- What segment 3 leaves. -/
def Post3 (m : Mem) (c : Dev nD) : sProp 𝕄 := iprop(∃ K, QV m K c 10 1 (fun _ => True) (rowsAre0 c (A m 0 0) 0 1024) (rowsAre1 c (A m 0 1) 0 1024)
        (rowsAre2 c (S1 m 0 0 c) (quadRow 0 c) 512) (rowsAre3 c (S1 m 0 1 c) (quadRow 1 c) 512)
        (sndIs c (S1 m 0 0 c) (pair2Row 0 c) 256) (fun _ => True) (fun _ => True) (fun _ => True) ∅ ∅
        ((R2 0).view.set ∪ (R3 0).view.set) (R2 1).view.set
        iprop(grant (xr 3 c) (R2 0) (rsR 0 1) 0 ∗ grant (xr 4 c) (R2 1) (rsR 1 1) 0 ∗ grantLast (xr 1 c) 0 0))

set_option maxHeartbeats 4000000 in
theorem seg3_okV_aux (m : Mem) (c : Dev nD) (v2 v131 v134 v264 v268 : BitVec 32) :
    (iprop(∃ K, QV m K c 6 0 (fun _ => True) (rowsAre0 c (A m 0 0) 0 1024) (rowsAre1 c (A m 0 1) 0 1024)
        (fun f => rowsAre2 c (Pt m 0 0 c) (quadRow 0 c) 512 f ∧ rowsAre2 c (Pt m 0 0 c) (k0_off13 c 0) 256 f)
        (rowsAre3 c (Pt m 0 1 c) (quadRow 1 c) 512)
        (fun _ => True) (fun _ => True) (fun _ => True) (fun _ => True) ∅ ∅
        ((R0 0).view.set ∪ (R1 0).view.set ∪ (R2 0).view.set) ((R0 1).view.set ∪ (R1 1).view.set)
        iprop(grant (xr 4 c) (R0 0) (rsR 0 0) 0 ∗ grant (xr 1 c) (R0 1) (rsR 1 0) 0 ∗ grant (xr 4 c) (R1 0) (rsR 0 4) 0 ∗ grant (xr 1 c) (R1 1) (rsR 1 4) 0 ∗ grant (xr 3 c) (R2 0) (rsR 0 1) 0)) : sProp 𝕄)
      ⊢ wp frame (wpE (defs₀ (F := Ideal)) Variants.none (c : Thread nD τ) none) Set.univ
          (seg3 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134 v264 v268)
          (fun _ => Post3 m c) := by
  -- what the local loads and stores need of the buffers held by parts
  have hin4 : (Memref.whole cc0_scratch4).view.setOn (Rect.unit (s := S512x256) ![256, 0] S256x256.size inb_S512x256_S256x256_256_0).set
      ⊆ (Finset.univ \ (SA 0).view.set : Finset (Idx ((SA 0).view.loc (c : Thread nD τ)))) := sndB_off_A 0
  have hin5 : (Memref.whole cc0_scratch5).view.setOn (Rect.unit (s := S512x256) ![256, 0] S256x256.size inb_S512x256_S256x256_256_0).set
      ⊆ (Finset.univ \ (SA 1).view.set : Finset (Idx ((SA 1).view.loc (c : Thread nD τ)))) := sndB_off_A 1
  have hR00 : (Memref.whole cc0_scratch6).view.setOn (Rect.unit (s := S1280x256) ![0, 0] S256x256.size inb_S1280x256_S256x256_0_0).set
      ⊆ (R0 0).view.set := (setOn_slice_eq cc0_scratch6 _ (fun _ => rfl)).subset
  have hR01 : (Memref.whole cc0_scratch7).view.setOn (Rect.unit (s := S1280x256) ![0, 0] S256x256.size inb_S1280x256_S256x256_0_0).set
      ⊆ (R0 1).view.set := (setOn_slice_eq cc0_scratch7 _ (fun _ => rfl)).subset
  have hR10 : (Memref.whole cc0_scratch6).view.setOn (Rect.unit (s := S1280x256) ![256, 0] S256x256.size inb_S1280x256_S256x256_256_0).set
      ⊆ (R1 0).view.set := (setOn_slice_eq cc0_scratch6 _ (fun _ => rfl)).subset
  have hR11 : (Memref.whole cc0_scratch7).view.setOn (Rect.unit (s := S1280x256) ![256, 0] S256x256.size inb_S1280x256_S256x256_256_0).set
      ⊆ (R1 1).view.set := (setOn_slice_eq cc0_scratch7 _ (fun _ => rfl)).subset
  have hst4 : ((Memref.whole cc0_scratch4).access (Rect.unit (s := S512x256) ![256, 0] S256x256.size inb_S512x256_S256x256_256_0)).setOn Finset.univ
      ⊆ (Finset.univ \ (SA 0).view.set : Finset (Idx ((SA 0).view.loc (c : Thread nD τ)))) := sndB_store_off_A 0
  have hst5 : ((Memref.whole cc0_scratch5).access (Rect.unit (s := S512x256) ![256, 0] S256x256.size inb_S512x256_S256x256_256_0)).setOn Finset.univ
      ⊆ (Finset.univ \ (SA 1).view.set : Finset (Idx ((SA 1).view.loc (c : Thread nD τ)))) := sndB_store_off_A 1
  have hdX : Disjoint ((R0 0).view.set ∪ (R1 0).view.set ∪ (R2 0).view.set) (R3 0).view.set :=
    Finset.disjoint_union_left.mpr ⟨Finset.disjoint_union_left.mpr ⟨disj_R0_R3 0, disj_R1_R3 0⟩, disj_R2_R3 0⟩
  have hd60 : Disjoint ((R2 0).view.set ∪ (R3 0).view.set ∪ (R1 0).view.set) (R0 0).view.set :=
    Finset.disjoint_union_left.mpr ⟨Finset.disjoint_union_left.mpr ⟨(disj_R0_R2 0).symm, (disj_R0_R3 0).symm⟩, (disj_R0_R1 0).symm⟩
  have hd61 : Disjoint ((R2 0).view.set ∪ (R3 0).view.set) (R1 0).view.set :=
    Finset.disjoint_union_left.mpr ⟨(disj_R1_R2 0).symm, (disj_R1_R3 0).symm⟩
  have hd70 : Disjoint ((R2 1).view.set ∪ (R1 1).view.set) (R0 1).view.set :=
    Finset.disjoint_union_left.mpr ⟨(disj_R0_R2 1).symm, (disj_R0_R1 1).symm⟩
  have hd71 : Disjoint (R2 1).view.set (R1 1).view.set := (disj_R1_R2 1).symm
  obtain ⟨hq0, hd13, hd15, hb0, hb13, hb15, hp13, hp15⟩ := rows0 c
  obtain ⟨hq1, hd14, hd16, hb1, hb14, hb16, hp14, hp16⟩ := rows1 c
  iintro ⟨%K, H⟩
  unfold QV localBufsV
  rw [heldButV_empty c cc0_scratch0, heldButV_empty c cc0_scratch1]
  unfold bufV
  icases H with ⟨#HI, #HRA, #Hlev, Hbar, Hpos, Htoks, Hcreds, ⟨%W, HO⟩, ⟨⟨%f0, Hs0, %hf0⟩, ⟨%f1, Hs1, %hf1⟩, ⟨%f2, Hs2, %hf2⟩, ⟨%f3, Hs3, %hf3⟩, ⟨%f4, Hs4, %hf4⟩, ⟨%f5, Hs5, %hf5⟩, ⟨%f6, Hs6, %hf6⟩, ⟨%f7, Hs7, %hf7⟩, ⟨%a2, Ha2, %h2⟩, ⟨%a3, Ha3, %h3⟩, ⟨%a4, Ha4, %h4⟩, ⟨%a5, Ha5, %h5⟩, ⟨%a8, Ha8, %h8⟩, ⟨%a9, Ha9, %h9⟩⟩, ⟨%x0, Hx0, %hx0⟩, ⟨%x1, Hx1, %hx1⟩, Hr0, Hr1, Hg1, Hg2, Hg3, Hg4, Hg5⟩
  ihave Hr0 := (heldButV_true c cc0_scratch6 _).1 $$ Hr0
  ihave Hr1 := (heldButV_true c cc0_scratch7 _).1 $$ Hr1
  have h2q : rowsAre2 c (Pt m 0 0 c) (k0_off9 c 0) 512 a2 := h2.1
  have h3q : rowsAre3 c (Pt m 0 1 c) (k0_off10 c 0) 512 a3 := h3
  ihave Htoks := (toksAB_open c 6 10 0 _ drop_seg_6 rfl) $$ Htoks
  icases Htoks with ⟨⟨Ht6s, Ht6r⟩, ⟨Ht7s, Ht7r⟩, ⟨Ht8s, Ht8r⟩, ⟨Ht9s, Ht9r⟩, Htoks⟩
  ihave Hcreds := (credsAB_open c 6 7 8 9 10 0 _ drop_seg_6 rfl rfl rfl rfl) $$ Hcreds
  icases Hcreds with ⟨Hc6, Hc7, Hc8, Hc9, Hcreds⟩
  ihave Hpos := (posAt_focus8' c (roundsDone 6) (roundsDone 10) (by decide) 0 0 0 0 rfl rfl rfl rfl rfl rfl rfl rfl rfl rfl rfl) $$ Hpos
  icases Hpos with ⟨⟨Hp20, #Hq20⟩, ⟨Hp24, #Hq24⟩, ⟨Hp25, #Hq25⟩, ⟨Hp29, #Hq29⟩, ⟨Hp30, #Hq30⟩, ⟨Hp34, #Hq34⟩, ⟨Hp35, #Hq35⟩, ⟨Hp39, #Hq39⟩, #Hq36, #Hq27, #Hq28, Hposback⟩
  ihave Hg1 := (grant_open _ _ _ _ 25 rsR_00) $$ Hg1
  icases Hg1 with ⟨Hd6, #Hrr6⟩
  ihave Hg2 := (grant_open _ _ _ _ 35 rsR_10) $$ Hg2
  icases Hg2 with ⟨Hd7, #Hrr7⟩
  ihave Hg3 := (grant_open _ _ _ _ 29 rsR_04) $$ Hg3
  icases Hg3 with ⟨Hd8, #Hrr8⟩
  ihave Hg4 := (grant_open _ _ _ _ 39 rsR_14) $$ Hg4
  icases Hg4 with ⟨Hd9, #Hrr9⟩
  unfold seg3
  sl_exec
  -- stream 1's product on the partner's first pair; the first half of stream 0's send buffer holds the partial on the partner's first pair
  ihave ⟨%a3₁, Ha3, %h3₁⟩ : (∃ f, ptw (F := Ideal) c cc0_scratch3 f ∗ ⌜rowsAre3 c (Pt m 0 1 c) (k0_off10 c 0) 512 f ∧ rowsAre3 c (Pt m 0 1 c) (k0_off14 c 0) 256 f⌝) $$ [Ha3]
  · iexists _
    isplitl [Ha3]
    · iexact Ha3
    ipureintro
    simp only [View.writes_cons, View.writes_nil, k0_pay6_eq, k0_pay9_eq, k0_pay11_eq, k0_pay12_eq, k0_pay13_eq, k0_pay17_eq]
    exact ⟨store_keep3 c _ _ _ a3 h3q (k0_off14 c) S256x256.size (k0_off14_inb c) (off14_col c) rfl _ hd14.symm,
      mm_store1 m c 0 0 1024 x1 hx1 a8 h8 a9 h9 (k0_off14 c) (k0_off14_inb c) (off14_col c) (Nat.zero_le _) (by omega) _ _ a3⟩

  ihave ⟨%a4₁, Ha4, %h4₁⟩ : (∃ f, ptw (F := Ideal) c cc0_scratch4 f ∗ ⌜(SA 0).view.read (Elt Ideal) f = rows256 (Pt m 0 0 c) (pairRow 0 (xr 4 c))⌝) $$ [Ha4]
  · iexists _
    isplitl [Ha4]
    · iexact Ha4
    ipureintro
    simp only [View.writes_cons, View.writes_nil]
    refine (View.read_write_univ (v := (SA 0).view) a4 _).trans ?_
    funext y
    show _ = nat2 (Pt m 0 0 c) (k0_off7 (xr 4 c) 0 + (y 0).val) (y 1).val
    rw [hp13]
    simp only [k0_pay10_apply, k0_pay14_apply, k0_pay15_apply, k0_pay16_apply, k0_pay20_apply, k0_pay21_apply, k0_pay22_apply, k0_pay23_apply, k0_pay24_apply, k0_pay26_apply, k0_pay30_apply, k0_pay31_apply]
    exact congrFun (load_rows2 c (Pt m 0 0 c) (k0_off13 c 0) 256 a2 h2.2 (k0_off13 c) S256x256.size (k0_off13_inb c) (off13_col c) (le_refl _) (le_refl _)) y

  -- copy 6
  ihave Hsp := (slice_split c (SA 0) _).1 $$ Ha4
  icases Hsp with ⟨Hsa0, Ha4⟩
  iapply (wp_send_copyV' m c (xr 4 c) _ (dev10_eq c) (SA 0) (R0 0) 20 25 0 7 _ _ sem_rs0s_0 sem_rs0r_0
      (by decide) (by decide) (by decide) (by decide)
      ((credit_R0 0).trans rfl) rfl (iprop(emp)) fullShare a4₁ (ownAt_of c (SA 0) _)
      (fun fd => (sep_emp (PROP := sProp 𝕄)).1.trans (by
        rw [show payDmaV m (xr 4 c) 25 0 = owns ((xr 4 c : Dev nD) : Thread nD τ) (R0 0) fullShare (rows256 (Pt m 0 0 (xr 4 (xr 4 c))) (pairRow 0 (xr 4 c))) from rfl, xr_xr]
        exact land_owns (xr 4 c) (R0 0) fd _ _ h4₁))
      K (owedFrom c 7) (owedFrom_succ c 6 (4, 25, 0) rfl) _ (by routes)) $$ [Hsa0 Hd6 HO Ht6s Ht6r]
  · iframe ∗ #
  iintro ⟨Hcs6, HO⟩
  sl_exec
  ihave ⟨%a5₁, Ha5, %h5₁⟩ : (∃ f, ptw (F := Ideal) c cc0_scratch5 f ∗ ⌜(SA 1).view.read (Elt Ideal) f = rows256 (Pt m 0 1 c) (pairRow 1 (xr 1 c))⌝) $$ [Ha5]
  · iexists _
    isplitl [Ha5]
    · iexact Ha5
    ipureintro
    simp only [View.writes_cons, View.writes_nil]
    refine (View.read_write_univ (v := (SA 1).view) a5 _).trans ?_
    funext y
    show _ = nat2 (Pt m 0 1 c) (k0_off8 (xr 1 c) 0 + (y 0).val) (y 1).val
    rw [hp14]
    simp only [k0_pay10_apply, k0_pay14_apply, k0_pay15_apply, k0_pay16_apply, k0_pay20_apply, k0_pay21_apply, k0_pay22_apply, k0_pay23_apply, k0_pay24_apply, k0_pay26_apply, k0_pay30_apply, k0_pay31_apply]
    exact congrFun (load_rows3 c (Pt m 0 1 c) (k0_off14 c 0) 256 a3₁ h3₁.2 (k0_off14 c) S256x256.size (k0_off14_inb c) (off14_col c) (le_refl _) (le_refl _)) y

  -- copy 7
  ihave Hsp := (slice_split c (SA 1) _).1 $$ Ha5
  icases Hsp with ⟨Hsa1, Ha5⟩
  iapply (wp_send_copyV' m c (xr 1 c) _ (dev11_eq c) (SA 1) (R0 1) 30 35 0 8 _ _ sem_rs1s_0 sem_rs1r_0
      (by decide) (by decide) (by decide) (by decide)
      ((credit_R0 1).trans rfl) rfl (iprop(emp)) fullShare a5₁ (ownAt_of c (SA 1) _)
      (fun fd => (sep_emp (PROP := sProp 𝕄)).1.trans (by
        rw [show payDmaV m (xr 1 c) 35 0 = owns ((xr 1 c : Dev nD) : Thread nD τ) (R0 1) fullShare (rows256 (Pt m 0 1 (xr 1 (xr 1 c))) (pairRow 1 (xr 1 c))) from rfl, xr_xr]
        exact land_owns (xr 1 c) (R0 1) fd _ _ h5₁))
      K (owedFrom c 8) (owedFrom_succ c 7 (1, 35, 0) rfl) _ (by routes)) $$ [Hsa1 Hd7 HO Ht7s Ht7r]
  · iframe ∗ #
  iintro ⟨Hcs7, HO⟩
  sl_exec

  -- stream 0's product on the partner's second pair, stream 1's likewise; the second half of stream 0's send buffer
  ihave ⟨%a4₂, Ha4, %h4₂⟩ : (∃ f, ((Memref.whole cc0_scratch4).view.loc (c : Thread nD τ) ↦[Finset.univ \ (SA 0).view.set]{fullShare} f) ∗ ⌜(SB 0).view.read (Elt Ideal) f = rows256 (Pt m 0 0 c) (pair2Row 0 (xr 4 c))⌝) $$ [Ha4]
  · iexists _
    isplitl [Ha4]
    · iexact Ha4
    ipureintro
    simp only [View.writes_cons, View.writes_nil]
    refine (View.read_write_univ (v := (SB 0).view) a4₁ _).trans ?_
    funext y
    show _ = nat2 (Pt m 0 0 c) (k0_off11 (xr 4 c) 0 + (y 0).val) (y 1).val
    rw [hp15]
    simp only [k0_pay10_apply, k0_pay14_apply, k0_pay15_apply, k0_pay16_apply, k0_pay20_apply, k0_pay21_apply, k0_pay22_apply, k0_pay23_apply, k0_pay24_apply, k0_pay26_apply, k0_pay30_apply, k0_pay31_apply]
    refine (congrFun (View.readCov_cons_toLoadRect (Memref.whole cc0_scratch2).view (Rect.unit (s := S1024x256) (k0_off15 c) S256x256.size (k0_off15_inb c)) _ []) y).trans ?_
    simp only [k0_pay6_eq, k0_pay9_eq, k0_pay11_eq, k0_pay12_eq, k0_pay13_eq, k0_pay17_eq]
    exact mm_loaded0 m c 0 0 1024 x0 hx0 a8 h8 a9 h9 (k0_off15 c) (k0_off15_inb c) (off15_col c) (Nat.zero_le _) (by omega) _ _ y

  ihave ⟨%a2₂, Ha2, %h2₂⟩ : (∃ f, ptw (F := Ideal) c cc0_scratch2 f ∗ ⌜rowsAre2 c (Pt m 0 0 c) (k0_off7 c 0) 256 f ∧ rowsAre2 c (Pt m 0 0 c) (k0_off11 c 0) 256 f⌝) $$ [Ha2]
  · iexists _
    isplitl [Ha2]
    · iexact Ha2
    ipureintro
    delta seg3_okV_aux.sl.Ha2_1
    simp only [View.writes_cons, View.writes_nil]
    have h7 := rows2_sub c _ _ _ (k0_off7 c 0) 256 a2 h2q (by omega) (by omega)
    have h11 := rows2_sub c _ _ _ (k0_off11 c 0) 256 a2 h2q (by omega) (by omega)
    exact ⟨store_keep2 c _ _ _ a2 h7 (k0_off15 c) S256x256.size (k0_off15_inb c) (off15_col c) rfl _ (show k0_off7 c 0 + 256 ≤ k0_off15 c 0 ∨ k0_off15 c 0 + 256 ≤ k0_off7 c 0 by omega),
      store_keep2 c _ _ _ a2 h11 (k0_off15 c) S256x256.size (k0_off15_inb c) (off15_col c) rfl _ (show k0_off11 c 0 + 256 ≤ k0_off15 c 0 ∨ k0_off15 c 0 + 256 ≤ k0_off11 c 0 by omega)⟩

  ihave ⟨%a3₂, Ha3, %h3₂⟩ : (∃ f, ptw (F := Ideal) c cc0_scratch3 f ∗ ⌜rowsAre3 c (Pt m 0 1 c) (k0_off8 c 0) 256 f ∧ rowsAre3 c (Pt m 0 1 c) (k0_off12 c 0) 256 f ∧ rowsAre3 c (Pt m 0 1 c) (k0_off16 c 0) 256 f⌝) $$ [Ha3]
  · iexists _
    isplitl [Ha3]
    · iexact Ha3
    ipureintro
    simp only [View.writes_cons, View.writes_nil]
    have h8r := rows3_sub c _ _ _ (k0_off8 c 0) 256 a3₁ h3₁.1 (by omega) (by omega)
    have h12 := rows3_sub c _ _ _ (k0_off12 c 0) 256 a3₁ h3₁.1 (by omega) (by omega)
    exact ⟨store_keep3 c _ _ _ a3₁ h8r (k0_off16 c) S256x256.size (k0_off16_inb c) (off16_col c) rfl _ (show k0_off8 c 0 + 256 ≤ k0_off16 c 0 ∨ k0_off16 c 0 + 256 ≤ k0_off8 c 0 by omega),
      store_keep3 c _ _ _ a3₁ h12 (k0_off16 c) S256x256.size (k0_off16_inb c) (off16_col c) rfl _ (show k0_off12 c 0 + 256 ≤ k0_off16 c 0 ∨ k0_off16 c 0 + 256 ≤ k0_off12 c 0 by omega),
      store_new3 c (Pt m 0 1 c) a3₁ (k0_off16 c) S256x256.size (k0_off16_inb c) (off16_col c) rfl _ (fun y => (pay19_18 _ _ _ y).trans
        (mm_loaded1 m c 0 0 1024 x1 hx1 a8 h8 a9 h9 (k0_off16 c) (k0_off16_inb c) (off16_col c) (Nat.zero_le _) (by omega) _ _ y))⟩

  -- copy 8
  ihave Hsp := (rest_split (disj_SA_SB 0) _).1 $$ Ha4
  icases Hsp with ⟨Hsb0, Ha4⟩
  ihave Hr1 := (heldBut_take_view c (R2 1) _ (Finset.disjoint_union_left.mpr ⟨disj_R0_R2 1, disj_R1_R2 1⟩)).1 $$ Hr1
  icases Hr1 with ⟨Hown21, Hr1⟩
  iapply (wp_send_copyV' m c (xr 4 c) _ (dev12_eq c) (SB 0) (R1 0) 24 29 0 9 _ _ sem_rs0s_4 sem_rs0r_4
      (by decide) (by decide) (by decide) (by decide)
      ((credit_R1 0).trans rfl) rfl (iprop(ownAt c (R2 1) ∗ reached ER (dcell c (dsem 36)) 0)) fullShare a4₂ (ownAt_of c (SB 0) _)
      (fun fd => by
        rw [show payDmaV m (xr 4 c) 29 0 = iprop(owns ((xr 4 c : Dev nD) : Thread nD τ) (R1 0) fullShare (rows256 (Pt m 0 0 (xr 4 (xr 4 c))) (pair2Row 0 (xr 4 c))) ∗ (ownAt (xr 4 (xr 4 c)) (R2 1) ∗ reached ER (dcell (xr 4 (xr 4 c)) (rsR 1 1)) 0)) from rfl, xr_xr, rsR_11]
        exact sep_mono_left (land_owns (xr 4 c) (R1 0) fd _ _ h4₂))
      K (owedFrom c 9) (owedFrom_succ c 8 (4, 29, 0) rfl) _ (by routes)) $$ [Hsb0 Hd8 Hown21 HO Ht8s Ht8r]
  · iframe ∗ #
  iintro ⟨Hcs8, HO⟩
  sl_exec
  ihave ⟨%a5₂, Ha5, %h5₂⟩ : (∃ f, ((Memref.whole cc0_scratch5).view.loc (c : Thread nD τ) ↦[Finset.univ \ (SA 1).view.set]{fullShare} f) ∗ ⌜(SB 1).view.read (Elt Ideal) f = rows256 (Pt m 0 1 c) (pair2Row 1 (xr 1 c))⌝) $$ [Ha5]
  · iexists _
    isplitl [Ha5]
    · iexact Ha5
    ipureintro
    simp only [View.writes_cons, View.writes_nil]
    refine (View.read_write_univ (v := (SB 1).view) a5₁ _).trans ?_
    funext y
    show _ = nat2 (Pt m 0 1 c) (k0_off12 (xr 1 c) 0 + (y 0).val) (y 1).val
    rw [hp16]
    simp only [k0_pay10_apply, k0_pay14_apply, k0_pay15_apply, k0_pay16_apply, k0_pay20_apply, k0_pay21_apply, k0_pay22_apply, k0_pay23_apply, k0_pay24_apply, k0_pay26_apply, k0_pay30_apply, k0_pay31_apply]
    exact congrFun (load_rows3 c (Pt m 0 1 c) (k0_off16 c 0) 256 a3₂ h3₂.2.2 (k0_off16 c) S256x256.size (k0_off16_inb c) (off16_col c) (le_refl _) (le_refl _)) y

  -- copy 9
  ihave Hsp := (rest_split (disj_SA_SB 1) _).1 $$ Ha5
  icases Hsp with ⟨Hsb1, Ha5⟩
  ihave Hr0 := (heldBut_take_view c (R3 0) _ hdX).1 $$ Hr0
  icases Hr0 with ⟨HownX, Hr0⟩
  iapply (wp_send_copyV' m c (xr 1 c) _ (dev13_eq c) (SB 1) (R1 1) 34 39 0 10 _ _ sem_rs1s_4 sem_rs1r_4
      (by decide) (by decide) (by decide) (by decide)
      ((credit_R1 1).trans rfl) rfl (iprop(ownAt c (R3 0) ∗ reached ER (dcell c (dsem 27)) 0)) fullShare a5₂ (ownAt_of c (SB 1) _)
      (fun fd => by
        rw [show payDmaV m (xr 1 c) 39 0 = iprop(owns ((xr 1 c : Dev nD) : Thread nD τ) (R1 1) fullShare (rows256 (Pt m 0 1 (xr 1 (xr 1 c))) (pair2Row 1 (xr 1 c))) ∗ (ownAt (xr 1 (xr 1 c)) (R3 0) ∗ reached ER (dcell (xr 1 (xr 1 c)) (rsR 0 2)) 0)) from rfl, xr_xr, rsR_02]
        exact sep_mono_left (land_owns (xr 1 c) (R1 1) fd _ _ h5₂))
      K (owedFrom c 10) (owedFrom_succ c 9 (1, 39, 0) rfl) _ (by routes)) $$ [Hsb1 Hd9 HownX HO Ht9s Ht9r]
  · iframe ∗ #
  iintro ⟨Hcs9, HO⟩
  sl_exec

  -- the next layer's weights, cast
  ihave ⟨%a8₁, Ha8, %h8₁⟩ : (∃ f, ptw (F := Ideal) c cc0_scratch8 f ∗ ⌜winIs m c 1 f⌝) $$ [Ha8]
  · iexists _
    isplitl [Ha8]
    · iexact Ha8
    ipureintro
    intro e k
    simp only [View.writes_cons, View.writes_nil]
    refine (load_win c _ inb_S256x512_S256x512_0_0 (ValueIdx.ix2 e k)).symm.trans ?_
    refine (congrFun (View.read_write_univ (v := (Memref.whole cc0_scratch8).view.slice (Rect.unit (s := S256x512) ![0, 0] S256x512.size inb_S256x512_S256x512_0_0)) a8 _) (ValueIdx.ix2 e k)).trans ?_
    simp only [k0_pay10_apply, k0_pay14_apply, k0_pay15_apply, k0_pay16_apply, k0_pay20_apply, k0_pay21_apply, k0_pay22_apply, k0_pay23_apply, k0_pay24_apply, k0_pay26_apply, k0_pay30_apply, k0_pay31_apply]
    exact (load_stg3 c f3 _ _).trans (hf3 _)

  ihave ⟨%a9₁, Ha9, %h9₁⟩ : (∃ f, ptw (F := Ideal) c cc0_scratch9 f ∗ ⌜woutIs m c 1 f⌝) $$ [Ha9]
  · iexists _
    isplitl [Ha9]
    · iexact Ha9
    ipureintro
    intro k col
    simp only [View.writes_cons, View.writes_nil]
    refine (load_wout c _ inb_S512x256_S512x256_0_0 (ValueIdx.ix2 k col)).symm.trans ?_
    refine (congrFun (View.read_write_univ (v := (Memref.whole cc0_scratch9).view.slice (Rect.unit (s := S512x256) ![0, 0] S512x256.size inb_S512x256_S512x256_0_0)) a9 _) (ValueIdx.ix2 k col)).trans ?_
    simp only [k0_pay10_apply, k0_pay14_apply, k0_pay15_apply, k0_pay16_apply, k0_pay20_apply, k0_pay21_apply, k0_pay22_apply, k0_pay23_apply, k0_pay24_apply, k0_pay26_apply, k0_pay30_apply, k0_pay31_apply]
    exact (load_stg4 c f4 _ _).trans (hf4 _)

  -- the waits of the first halves
  ihave Hcs6 := (cred_amt _ _ (show amtDma 25 0 = amtDma 20 0 from rfl)) $$ Hcs6
  ihave Hmw := (mayWait_copy c (dsem 20) 6 10 (by decide) (by decide)) $$ Hlev
  iapply (wp_wait_copyV' m c 20 0 7 _ sem_rs0s_0 (by decide) (by decide) K (owedFrom c 10) _ ((credit_SA 0).trans rfl)) $$ [Hcs6 HO Hmw Hp20]
  · iframe ∗ #
  iintro ⟨HO, Hp20, #Hn20, Hpay⟩
  ihave Hpay := (Entails.of_eq (show payDmaV m c 20 0 = ownAt c (SA 0) from rfl)) $$ Hpay
  icases Hpay with Hsa0
  sl_exec
  ihave Hmw := (mayWait_copy c (dsem 25) 6 10 (by decide) (by decide)) $$ Hlev
  iapply (wp_wait_copyV' m c 25 0 7 _ sem_rs0r_0 (by decide) (by decide) K (owedFrom c 10) _ ((credit_R0 0).trans rfl)) $$ [Hc6 HO Hmw Hp25]
  · iframe ∗ #
  iintro ⟨HO, Hp25, #Hn25, Hpay⟩
  ihave Hpay := (Entails.of_eq (show payDmaV m c 25 0 = iprop(∃ f, ⌜(R0 0).view.read (Elt Ideal) f = rows256 (Pt m 0 0 (xr 4 c)) (pairRow 0 c)⌝ ∗ ((R0 0).view.loc (c : Thread nD τ) ↦[(R0 0).view.set]{fullShare} f)) from rfl)) $$ Hpay
  icases Hpay with ⟨%g00, %hg00, HR00⟩
  sl_exec
  ihave Hcs7 := (cred_amt _ _ (show amtDma 35 0 = amtDma 30 0 from rfl)) $$ Hcs7
  ihave Hmw := (mayWait_copy c (dsem 30) 7 10 (by decide) (by decide)) $$ Hlev
  iapply (wp_wait_copyV' m c 30 0 8 _ sem_rs1s_0 (by decide) (by decide) K (owedFrom c 10) _ ((credit_SA 1).trans rfl)) $$ [Hcs7 HO Hmw Hp30]
  · iframe ∗ #
  iintro ⟨HO, Hp30, #Hn30, Hpay⟩
  ihave Hpay := (Entails.of_eq (show payDmaV m c 30 0 = ownAt c (SA 1) from rfl)) $$ Hpay
  icases Hpay with Hsa1
  sl_exec
  ihave Hmw := (mayWait_copy c (dsem 35) 7 10 (by decide) (by decide)) $$ Hlev
  iapply (wp_wait_copyV' m c 35 0 8 _ sem_rs1r_0 (by decide) (by decide) K (owedFrom c 10) _ ((credit_R0 1).trans rfl)) $$ [Hc7 HO Hmw Hp35]
  · iframe ∗ #
  iintro ⟨HO, Hp35, #Hn35, Hpay⟩
  ihave Hpay := (Entails.of_eq (show payDmaV m c 35 0 = iprop(∃ f, ⌜(R0 1).view.read (Elt Ideal) f = rows256 (Pt m 0 1 (xr 1 c)) (pairRow 1 c)⌝ ∗ ((R0 1).view.loc (c : Thread nD τ) ↦[(R0 1).view.set]{fullShare} f)) from rfl)) $$ Hpay
  icases Hpay with ⟨%g01, %hg01, HR01⟩
  sl_exec
  -- the first landed halves added in
  ihave ⟨%a2₃, Ha2, %h2₃⟩ : (∃ f, ptw (F := Ideal) c cc0_scratch2 f ∗ ⌜rowsAre2 c (S1 m 0 0 c) (k0_off7 c 0) 256 f ∧ rowsAre2 c (Pt m 0 0 c) (k0_off11 c 0) 256 f⌝) $$ [Ha2]
  · iexists _
    isplitl [Ha2]
    · iexact Ha2
    ipureintro
    exact ⟨addin2 c (Pt m 0 0 c) (Pt m 0 0 (xr 4 c)) (k0_off7 c) (k0_off7_inb c) (off7_col c) a2₂ h2₂.1 _ (fun y => congrFun hg00 y) _ (fun y => by first | (simp only [k0_pay25_apply, k0_pay27_apply, k0_pay28_apply, k0_pay29_apply, k0_pay32_apply, k0_pay33_apply]; rfl) | simp only [k0_pay25_apply, k0_pay27_apply, k0_pay28_apply, k0_pay29_apply, k0_pay32_apply, k0_pay33_apply]),
      store_keep2 c _ _ _ a2₂ h2₂.2 (k0_off7 c) S256x256.size (k0_off7_inb c) (off7_col c) rfl _ (show k0_off11 c 0 + 256 ≤ k0_off7 c 0 ∨ k0_off7 c 0 + 256 ≤ k0_off11 c 0 by omega)⟩

  ihave ⟨%a3₃, Ha3, %h3₃⟩ : (∃ f, ptw (F := Ideal) c cc0_scratch3 f ∗ ⌜rowsAre3 c (S1 m 0 1 c) (k0_off8 c 0) 256 f ∧ rowsAre3 c (Pt m 0 1 c) (k0_off12 c 0) 256 f⌝) $$ [Ha3]
  · iexists _
    isplitl [Ha3]
    · iexact Ha3
    ipureintro
    exact ⟨addin3 c (Pt m 0 1 c) (Pt m 0 1 (xr 1 c)) (k0_off8 c) (k0_off8_inb c) (off8_col c) a3₂ h3₂.1 _ (fun y => congrFun hg01 y) _ (fun y => by first | (simp only [k0_pay25_apply, k0_pay27_apply, k0_pay28_apply, k0_pay29_apply, k0_pay32_apply, k0_pay33_apply]; rfl) | simp only [k0_pay25_apply, k0_pay27_apply, k0_pay28_apply, k0_pay29_apply, k0_pay32_apply, k0_pay33_apply]),
      store_keep3 c _ _ _ a3₂ h3₂.2.1 (k0_off8 c) S256x256.size (k0_off8_inb c) (off8_col c) rfl _ (show k0_off12 c 0 + 256 ≤ k0_off8 c 0 ∨ k0_off8 c 0 + 256 ≤ k0_off12 c 0 by omega)⟩

  -- the waits of the second halves
  ihave Hcs8 := (cred_amt _ _ (show amtDma 29 0 = amtDma 24 0 from rfl)) $$ Hcs8
  ihave Hmw := (mayWait_copy c (dsem 24) 8 10 (by decide) (by decide)) $$ Hlev
  iapply (wp_wait_copyV' m c 24 0 9 _ sem_rs0s_4 (by decide) (by decide) K (owedFrom c 10) _ ((credit_SB 0).trans rfl)) $$ [Hcs8 HO Hmw Hp24]
  · iframe ∗ #
  iintro ⟨HO, Hp24, #Hn24, Hpay⟩
  ihave Hpay := (Entails.of_eq (show payDmaV m c 24 0 = ownAt c (SB 0) from rfl)) $$ Hpay
  icases Hpay with Hsb0
  sl_exec
  ihave Hmw := (mayWait_copy c (dsem 29) 8 10 (by decide) (by decide)) $$ Hlev
  iapply (wp_wait_copyV' m c 29 0 9 _ sem_rs0r_4 (by decide) (by decide) K (owedFrom c 10) _ ((credit_R1 0).trans rfl)) $$ [Hc8 HO Hmw Hp29]
  · iframe ∗ #
  iintro ⟨HO, Hp29, #Hn29, Hpay⟩
  ihave Hpay := (Entails.of_eq (show payDmaV m c 29 0 = iprop((∃ f, ⌜(R1 0).view.read (Elt Ideal) f = rows256 (Pt m 0 0 (xr 4 c)) (pair2Row 0 c)⌝ ∗ ((R1 0).view.loc (c : Thread nD τ) ↦[(R1 0).view.set]{fullShare} f)) ∗ grant (xr 4 c) (R2 1) (rsR 1 1) 0) from rfl)) $$ Hpay
  icases Hpay with ⟨⟨%g10, %hg10, HR10⟩, Hgn1⟩
  sl_exec
  ihave Hcs9 := (cred_amt _ _ (show amtDma 39 0 = amtDma 34 0 from rfl)) $$ Hcs9
  ihave Hmw := (mayWait_copy c (dsem 34) 9 10 (by decide) (by decide)) $$ Hlev
  iapply (wp_wait_copyV' m c 34 0 10 _ sem_rs1s_4 (by decide) (by decide) K (owedFrom c 10) _ ((credit_SB 1).trans rfl)) $$ [Hcs9 HO Hmw Hp34]
  · iframe ∗ #
  iintro ⟨HO, Hp34, #Hn34, Hpay⟩
  ihave Hpay := (Entails.of_eq (show payDmaV m c 34 0 = ownAt c (SB 1) from rfl)) $$ Hpay
  icases Hpay with Hsb1
  sl_exec
  ihave Hmw := (mayWait_copy c (dsem 39) 9 10 (by decide) (by decide)) $$ Hlev
  iapply (wp_wait_copyV' m c 39 0 10 _ sem_rs1r_4 (by decide) (by decide) K (owedFrom c 10) _ ((credit_R1 1).trans rfl)) $$ [Hc9 HO Hmw Hp39]
  · iframe ∗ #
  iintro ⟨HO, Hp39, #Hn39, Hpay⟩
  ihave Hpay := (Entails.of_eq (show payDmaV m c 39 0 = iprop((∃ f, ⌜(R1 1).view.read (Elt Ideal) f = rows256 (Pt m 0 1 (xr 1 c)) (pair2Row 1 c)⌝ ∗ ((R1 1).view.loc (c : Thread nD τ) ↦[(R1 1).view.set]{fullShare} f)) ∗ grantLast (xr 1 c) 0 0) from rfl)) $$ Hpay
  icases Hpay with ⟨⟨%g11, %hg11, HR11⟩, Hgn2⟩
  -- both send buffers whole again
  ihave Hsb0 := (Entails.of_eq (ownAt_eq c (SB 0))) $$ Hsb0
  icases Hsb0 with ⟨%h40, Hsb0⟩
  ihave Ha4 := (rest_join_at (disj_SA_SB 0) _ h40) $$ [Hsb0 Ha4]
  · iframe Hsb0 Ha4
  ihave Ha4 := (slice_join_ownAt c (SA 0) _) $$ [Hsa0 Ha4]
  · iframe Hsa0 Ha4
  icases Ha4 with ⟨%a4', Ha4⟩
  ihave Ha4 := (Entails.of_eq (show ((SA 0).view.loc (c : Thread nD τ) ↦{fullShare} a4' : sProp 𝕄) = ptw (F := Ideal) c cc0_scratch4 a4' from rfl)) $$ Ha4
  ihave Hsb1 := (Entails.of_eq (ownAt_eq c (SB 1))) $$ Hsb1
  icases Hsb1 with ⟨%h50, Hsb1⟩
  ihave Ha5 := (rest_join_at (disj_SA_SB 1) _ h50) $$ [Hsb1 Ha5]
  · iframe Hsb1 Ha5
  ihave Ha5 := (slice_join_ownAt c (SA 1) _) $$ [Hsa1 Ha5]
  · iframe Hsa1 Ha5
  icases Ha5 with ⟨%a5', Ha5⟩
  ihave Ha5 := (Entails.of_eq (show ((SA 1).view.loc (c : Thread nD τ) ↦{fullShare} a5' : sProp 𝕄) = ptw (F := Ideal) c cc0_scratch5 a5' from rfl)) $$ Ha5
  sl_exec
  sl_step
  unfold Post3 QV localBufsV
  iexists K
  rw [heldButV_empty c cc0_scratch0, heldButV_empty c cc0_scratch1]
  -- the second landed halves added in: the own four blocks hold the sum of the two devices' partials
  ihave Ha4 : bufV c cc0_scratch4 (sndIs c (S1 m 0 0 c) (pair2Row 0 c) 256) $$ [Ha4]
  · unfold bufV
    iexists _
    isplitl [Ha4]
    · iexact Ha4
    ipureintro
    refine snd_store c (S1 m 0 0 c) (pair2Row 0 c) a4' inb_S512x256_S256x256_0_0 _ (fun y => ?_)
    simp only [k0_pay10_apply, k0_pay14_apply, k0_pay15_apply, k0_pay16_apply, k0_pay20_apply, k0_pay21_apply, k0_pay22_apply, k0_pay23_apply, k0_pay24_apply, k0_pay26_apply, k0_pay30_apply, k0_pay31_apply]
    refine (congrFun (View.readCov_cons_toLoadRect (Memref.whole cc0_scratch2).view (Rect.unit (s := S1024x256) (k0_off11 c) S256x256.size (k0_off11_inb c)) _ []) y).trans ?_
    simp only [k0_pay25_apply, k0_pay27_apply, k0_pay28_apply, k0_pay29_apply, k0_pay32_apply, k0_pay33_apply]
    rw [S1_nat2]
    first
      | exact congrArg₂ (fun (a b : EReal) => a + b)
          (congrFun (load_rows2 c (Pt m 0 0 c) (k0_off11 c 0) 256 a2₃ h2₃.2 (k0_off11 c) S256x256.size (k0_off11_inb c) (off11_col c) (le_refl _) (le_refl _)) y)
          (congrFun hg10 y)
      | (rw [congrFun (load_rows2 c (Pt m 0 0 c) (k0_off11 c 0) 256 a2₃ h2₃.2 (k0_off11 c) S256x256.size (k0_off11_inb c) (off11_col c) (le_refl _) (le_refl _)) y]
         exact congrArg (fun (b : EReal) => nat2 (Pt m 0 0 c) (k0_off11 c 0 + (y 0).val) (y 1).val + b) (congrFun hg10 y))
  ihave Ha2 : bufV c cc0_scratch2 (rowsAre2 c (S1 m 0 0 c) (quadRow 0 c) 512) $$ [Ha2]
  · unfold bufV
    iexists _
    isplitl [Ha2]
    · iexact Ha2
    ipureintro
    refine rows2_cover c _ (k0_off7 c 0) 256 (k0_off11 c 0) 256 _ _ _
      (store_keep2 c _ _ _ a2₃ h2₃.1 (k0_off11 c) S256x256.size (k0_off11_inb c) (off11_col c) rfl _ (show k0_off7 c 0 + 256 ≤ k0_off11 c 0 ∨ k0_off11 c 0 + 256 ≤ k0_off7 c 0 by omega))
      (addin2 c (Pt m 0 0 c) (Pt m 0 0 (xr 4 c)) (k0_off11 c) (k0_off11_inb c) (off11_col c) a2₃ h2₃.2 _ (fun y => congrFun hg10 y) _ (fun y => by first | (simp only [k0_pay25_apply, k0_pay27_apply, k0_pay28_apply, k0_pay29_apply, k0_pay32_apply, k0_pay33_apply]; rfl) | simp only [k0_pay25_apply, k0_pay27_apply, k0_pay28_apply, k0_pay29_apply, k0_pay32_apply, k0_pay33_apply])) (fun row h1 h2 => ?_)
    have h1' : k0_off9 c 0 ≤ row := h1
    have h2' : row < k0_off9 c 0 + 512 := h2
    omega
  ihave Ha3 : bufV c cc0_scratch3 (rowsAre3 c (S1 m 0 1 c) (quadRow 1 c) 512) $$ [Ha3]
  · unfold bufV
    iexists _
    isplitl [Ha3]
    · iexact Ha3
    ipureintro
    refine rows3_cover c _ (k0_off8 c 0) 256 (k0_off12 c 0) 256 _ _ _
      (store_keep3 c _ _ _ a3₃ h3₃.1 (k0_off12 c) S256x256.size (k0_off12_inb c) (off12_col c) rfl _ (show k0_off8 c 0 + 256 ≤ k0_off12 c 0 ∨ k0_off12 c 0 + 256 ≤ k0_off8 c 0 by omega))
      (addin3 c (Pt m 0 1 c) (Pt m 0 1 (xr 1 c)) (k0_off12 c) (k0_off12_inb c) (off12_col c) a3₃ h3₃.2 _ (fun y => congrFun hg11 y) _ (fun y => by first | (simp only [k0_pay25_apply, k0_pay27_apply, k0_pay28_apply, k0_pay29_apply, k0_pay32_apply, k0_pay33_apply]; rfl) | simp only [k0_pay25_apply, k0_pay27_apply, k0_pay28_apply, k0_pay29_apply, k0_pay32_apply, k0_pay33_apply])) (fun row h1 h2 => ?_)
    have h1' : k0_off10 c 0 ≤ row := h1
    have h2' : row < k0_off10 c 0 + 512 := h2
    omega
  -- the positions, one round on
  ihave Hpos := Hposback $$ [Hp20 Hp24 Hp25 Hp29 Hp30 Hp34 Hp35 Hp39]
  · iframe ∗ #
  -- the receive buffers take back the landed slots
  ihave HR00 := (ownAt_of c (R0 0) _) $$ HR00
  ihave HR01 := (ownAt_of c (R0 1) _) $$ HR01
  ihave HR10 := (ownAt_of c (R1 0) _) $$ HR10
  ihave HR11 := (ownAt_of c (R1 1) _) $$ HR11
  ihave Hr0 := (heldBut_rot4 c _ _ _ _ _) $$ Hr0
  ihave Hr0 := (heldBut_put_right c (R0 0) _ hd60) $$ [HR00 Hr0]
  · iframe HR00 Hr0
  ihave Hr0 := (heldBut_put_right c (R1 0) _ hd61) $$ [HR10 Hr0]
  · iframe HR10 Hr0
  ihave Hr1 := (heldBut_rot3 c _ _ _ _) $$ Hr1
  ihave Hr1 := (heldBut_put_right c (R0 1) _ hd70) $$ [HR01 Hr1]
  · iframe HR01 Hr1
  ihave Hr1 := (heldBut_put_right c (R1 1) _ hd71) $$ [HR11 Hr1]
  · iframe HR11 Hr1
  ihave Hr0 := (heldButV_true c cc0_scratch6 _).2 $$ Hr0
  ihave Hr1 := (heldButV_true c cc0_scratch7 _).2 $$ Hr1
  -- every buffer with its fact
  ihave HO := (ex_owes _ _ _) $$ HO
  ihave Hs0 := (bufV_of c cc0_stg0_0 (fun f => ∀ i, f i = m ((c : Thread nD τ).loc main_arg0) i) f0 hf0) $$ Hs0
  ihave Hs1 := (bufV_of c cc0_stg1_0 (fun f => ∀ i, f i = m ((c : Thread nD τ).loc main_arg1) i) f1 hf1) $$ Hs1
  ihave Hs2 := (bufV_of c cc0_stg2_0 (fun f => ∀ i, f i = m ((c : Thread nD τ).loc main_arg2) i) f2 hf2) $$ Hs2
  ihave Hs3 := (bufV_of c cc0_stg3_0 (fun f => ∀ i, f i = m ((c : Thread nD τ).loc main_arg3) i) f3 hf3) $$ Hs3
  ihave Hs4 := (bufV_of c cc0_stg4_0 (fun f => ∀ i, f i = m ((c : Thread nD τ).loc main_arg4) i) f4 hf4) $$ Hs4
  ihave Hs5 := (bufV_of c cc0_stg5_0 (fun f => ∀ i, f i = m ((c : Thread nD τ).loc main_arg5) i) f5 hf5) $$ Hs5
  ihave Hs6 := (bufV_of c cc0_stg6_0 (fun f => ∀ i, f i = m ((c : Thread nD τ).loc main_arg6) i) f6 hf6) $$ Hs6
  ihave Hs7 := (bufV_of c cc0_stg7_0 (fun _ => True) f7 trivial) $$ Hs7
  ihave Ha5 := (bufV_of c cc0_scratch5 (fun _ => True) _ trivial) $$ Ha5
  ihave Ha8 := (bufV_of c cc0_scratch8 (winIs m c 1) a8₁ h8₁) $$ Ha8
  ihave Ha9 := (bufV_of c cc0_scratch9 (woutIs m c 1) a9₁ h9₁) $$ Ha9
  ihave Hx0 := (bufV_of c cc0_scratch0 (rowsAre0 c (A m 0 0) 0 1024) x0 hx0) $$ Hx0
  ihave Hx1 := (bufV_of c cc0_scratch1 (rowsAre1 c (A m 0 1) 0 1024) x1 hx1) $$ Hx1
  iframe ∗ #

/-- Segment 3 with contents: from the accumulators' partials on the own four blocks (stream 0's also on the partner's
    first pair) to the sums of the two devices' partials there, layer 1's weights cast, and the next step's first
    source staged. -/
theorem seg3_okV (m : Mem) (c : Dev nD) (v2 v131 v134 v264 v268 : BitVec 32) :
    (iprop(∃ K, QV m K c 6 0 (fun _ => True) (rowsAre0 c (A m 0 0) 0 1024) (rowsAre1 c (A m 0 1) 0 1024)
        (fun f => rowsAre2 c (Pt m 0 0 c) (quadRow 0 c) 512 f ∧ rowsAre2 c (Pt m 0 0 c) (k0_off13 c 0) 256 f)
        (rowsAre3 c (Pt m 0 1 c) (quadRow 1 c) 512)
        (fun _ => True) (fun _ => True) (fun _ => True) (fun _ => True) ∅ ∅
        ((R0 0).view.set ∪ (R1 0).view.set ∪ (R2 0).view.set) ((R0 1).view.set ∪ (R1 1).view.set)
        iprop(grant (xr 4 c) (R0 0) (rsR 0 0) 0 ∗ grant (xr 1 c) (R0 1) (rsR 1 0) 0 ∗ grant (xr 4 c) (R1 0) (rsR 0 4) 0 ∗ grant (xr 1 c) (R1 1) (rsR 1 4) 0 ∗ grant (xr 3 c) (R2 0) (rsR 0 1) 0)) : sProp 𝕄)
      ⊢ wp frame (wpE (defs₀ (F := Ideal)) Variants.none (c : Thread nD τ) none) Set.univ
          (seg3 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134 v264 v268)
          (fun _ => iprop(∃ K, QV m K c 10 1 (fun _ => True) (rowsAre0 c (A m 0 0) 0 1024) (rowsAre1 c (A m 0 1) 0 1024)
        (rowsAre2 c (S1 m 0 0 c) (quadRow 0 c) 512) (rowsAre3 c (S1 m 0 1 c) (quadRow 1 c) 512)
        (sndIs c (S1 m 0 0 c) (pair2Row 0 c) 256) (fun _ => True) (fun _ => True) (fun _ => True) ∅ ∅
        ((R2 0).view.set ∪ (R3 0).view.set) (R2 1).view.set
        iprop(grant (xr 3 c) (R2 0) (rsR 0 1) 0 ∗ grant (xr 4 c) (R2 1) (rsR 1 1) 0 ∗ grantLast (xr 1 c) 0 0))) :=
  seg3_okV_aux m c v2 v131 v134 v264 v268

/-- info: 'Cert.KernelIdeal.Val.seg3_okV' depends on axioms: [propext, Classical.choice, Quot.sound] -/
#guard_msgs in #print axioms seg3_okV

end Cert.KernelIdeal.Val
end
-- ==== Proof.KernelIdeal.SegV6.lean ====
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StepsVP
import proofs.«900979_g7700000000000980_dist_mlpseq_tp1d_bs_bs_b256_d256_h512_v7x_i8_bf16_1_alg».proof.Proof.KernelIdeal.ValSteps
import proofs.«900979_g7700000000000980_dist_mlpseq_tp1d_bs_bs_b256_d256_h512_v7x_i8_bf16_1_alg».proof.Proof.KernelIdeal.QuietLemmas
import proofs.«900979_g7700000000000980_dist_mlpseq_tp1d_bs_bs_b256_d256_h512_v7x_i8_bf16_1_alg».proof.Proof.KernelIdeal.SegE

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

open Idealize.ShloMosaic.Tactic

/-! # Segment 6 with contents: the second and the third exchange of layer 1

The protocol and the ownership of this segment over the schedule with contents, the contents of every buffer kept
named. What the four copies land on the partners, what the gather buffers and the accumulators hold at the end and
what the first read of the next product returns are facts about contents; they are the hypotheses `H14` … `H17`,
`V0` … `V3`, each stated for all contents satisfying the state's predicates. -/

variable (m : Mem)

theorem geo6_off11 : ∀ (c : Dev nD) (a : Fin 2), k0_off9 c a ≤ k0_off11 c a ∧ k0_off11 c a + S256x256.size a ≤ k0_off9 c a + S512x256.size a := by
  decide +kernel
theorem geo6_off12 : ∀ (c : Dev nD) (a : Fin 2), k0_off10 c a ≤ k0_off12 c a ∧ k0_off12 c a + S256x256.size a ≤ k0_off10 c a + S512x256.size a := by
  decide +kernel
theorem geo6_sub11 (c : Dev nD) :
    (Memref.whole cc0_scratch0).view.setOn (Rect.unit (s := S1024x256) (k0_off11 c) S256x256.size (k0_off11_inb c)).toLoadRect.set
      ⊆ (VE2 0 c).view.set := by
  rw [setOn_whole]
  show _ ⊆ ((Memref.whole cc0_scratch0).slice (Rect.unit (s := S1024x256) (k0_off9 c) S512x256.size (k0_off9_inb c)) (fun _ => rfl)).view.set
  rw [set_slice_of_whole]
  exact unit_subset (geo6_off11 c)
theorem geo6_sub12 (c : Dev nD) :
    (Memref.whole cc0_scratch1).view.setOn (Rect.unit (s := S1024x256) (k0_off12 c) S256x256.size (k0_off12_inb c)).toLoadRect.set
      ⊆ (VE2 1 c).view.set := by
  rw [setOn_whole]
  show _ ⊆ ((Memref.whole cc0_scratch1).slice (Rect.unit (s := S1024x256) (k0_off10 c) S512x256.size (k0_off10_inb c)) (fun _ => rfl)).view.set
  rw [set_slice_of_whole]
  exact unit_subset (geo6_off12 c)

/-- A buffer held whole is held with nothing away. -/
theorem whole_as_but6 {ℓ : Loc nD τ sig} (f : Buf (Elt Ideal) ℓ) :
    (ℓ ↦{fullShare} f : sProp 𝕄) ⊢ (ℓ ↦[Finset.univ \ ∅]{fullShare} f) := by
  rw [Finset.sdiff_empty]

set_option maxHeartbeats 8000000 in
theorem seg6_okV (c : Dev nD) (v2 v11 v652 : BitVec 32)
    (H14 : ∀ (f0 : Buf (Elt Ideal) ((Memref.whole cc0_scratch0).view.loc (c : Thread nD τ))), rowsAre0 c (A m 1 0) (pairRow 0 c) 256 f0 → ∀ fd : Buf (Elt Ideal) ((VE1 0 c).view.loc ((xr 3 c : Dev nD) : Thread nD τ)),
      iprop((((VE1 0 c).view.loc ((xr 3 c : Dev nD) : Thread nD τ)) ↦[(VE1 0 c).view.set]{fullShare}
          ((VE1 0 c).view.write (Elt Ideal) fd ((VE1 0 c).view.read (Elt Ideal) f0) Finset.univ)) ∗ iprop(ownAt (F := Ideal) c (R2 0) ∗ reached ER (dcell c (dsem 26)) 1)) ⊢ payDmaV m (xr 3 c) 12 1)
    (H15 : ∀ (f1 : Buf (Elt Ideal) ((Memref.whole cc0_scratch1).view.loc (c : Thread nD τ))), rowsAre1 c (A m 1 1) (pairRow 1 c) 256 f1 → ∀ fd : Buf (Elt Ideal) ((VE1 1 c).view.loc ((xr 4 c : Dev nD) : Thread nD τ)),
      iprop((((VE1 1 c).view.loc ((xr 4 c : Dev nD) : Thread nD τ)) ↦[(VE1 1 c).view.set]{fullShare}
          ((VE1 1 c).view.write (Elt Ideal) fd ((VE1 1 c).view.read (Elt Ideal) f1) Finset.univ)) ∗ iprop(ownAt (F := Ideal) c (VE2 0 (xr 4 c)) ∗ reached ER (dcell c (dsem 13)) 1)) ⊢ payDmaV m (xr 4 c) 18 1)
    (H16 : ∀ (f0 ga k0 : Buf (Elt Ideal) ((Memref.whole cc0_scratch0).view.loc (c : Thread nD τ))), rowsAre0 c (A m 1 0) (pairRow 0 c) 256 f0 → (VE1 0 (xr 3 c)).view.read (Elt Ideal) ga = rows256 (A m 1 0) (k0_off5 (xr 3 c) 0) → k0 = ((VE1 0 (xr 3 c)).view.set.piecewise ga ((VE1 0 c).view.set.piecewise f0 f0)) → ∀ fd : Buf (Elt Ideal) ((VE2 0 c).view.loc ((xr 4 c : Dev nD) : Thread nD τ)),
      iprop((((VE2 0 c).view.loc ((xr 4 c : Dev nD) : Thread nD τ)) ↦[(VE2 0 c).view.set]{fullShare}
          ((VE2 0 c).view.write (Elt Ideal) fd ((VE2 0 c).view.read (Elt Ideal) k0) Finset.univ)) ∗ iprop((ownAt (F := Ideal) c (R0 0) ∗ reached ER (dcell c (dsem 25)) 1) ∗ (ownAt (F := Ideal) c (R1 0) ∗ reached ER (dcell c (dsem 29)) 1))) ⊢ payDmaV m (xr 4 c) 13 1)
    (H17 : ∀ (f1 ga1 k1 : Buf (Elt Ideal) ((Memref.whole cc0_scratch1).view.loc (c : Thread nD τ))), rowsAre1 c (A m 1 1) (pairRow 1 c) 256 f1 → (VE1 1 (xr 4 c)).view.read (Elt Ideal) ga1 = rows256 (A m 1 1) (k0_off6 (xr 4 c) 0) → k1 = ((VE1 1 (xr 4 c)).view.set.piecewise ga1 ((VE1 1 c).view.set.piecewise f1 f1)) → ∀ fd : Buf (Elt Ideal) ((VE2 1 c).view.loc ((xr 1 c : Dev nD) : Thread nD τ)),
      iprop((((VE2 1 c).view.loc ((xr 1 c : Dev nD) : Thread nD τ)) ↦[(VE2 1 c).view.set]{fullShare}
          ((VE2 1 c).view.write (Elt Ideal) fd ((VE2 1 c).view.read (Elt Ideal) k1) Finset.univ)) ∗ iprop((ownAt (F := Ideal) c (R0 1) ∗ reached ER (dcell c (dsem 35)) 1) ∗ (ownAt (F := Ideal) c (R1 1) ∗ reached ER (dcell c (dsem 39)) 1))) ⊢ payDmaV m (xr 1 c) 19 1)
    (V0 : ∀ (f0 ga gb k0 m0 : Buf (Elt Ideal) ((Memref.whole cc0_scratch0).view.loc (c : Thread nD τ))), rowsAre0 c (A m 1 0) (pairRow 0 c) 256 f0 → (VE1 0 (xr 3 c)).view.read (Elt Ideal) ga = rows256 (A m 1 0) (k0_off5 (xr 3 c) 0) → (VE2 0 (xr 4 c)).view.read (Elt Ideal) gb = rows512 (A m 1 0) (k0_off9 (xr 4 c) 0) → k0 = ((VE1 0 (xr 3 c)).view.set.piecewise ga ((VE1 0 c).view.set.piecewise f0 f0)) → m0 = ((VE2 0 (xr 4 c)).view.set.piecewise gb ((VE2 0 c).view.set.piecewise k0 k0)) →
      rowsAre0 c (A m 1 0) 0 1024 m0 ∧ ∀ i, ((Memref.whole cc0_scratch0).view.readAt (Elt Ideal) (Rect.unit (s := S1024x256) (k0_off13 c) S256x256.size (k0_off13_inb c)).toLoadRect m0) i = nat2 (A m 1 0) (k0_off13 c 0 + (i 0).val) (i 1).val)
    (V1 : ∀ (f1 ga1 gb1 k1 m1 : Buf (Elt Ideal) ((Memref.whole cc0_scratch1).view.loc (c : Thread nD τ))), rowsAre1 c (A m 1 1) (pairRow 1 c) 256 f1 → (VE1 1 (xr 4 c)).view.read (Elt Ideal) ga1 = rows256 (A m 1 1) (k0_off6 (xr 4 c) 0) → (VE2 1 (xr 1 c)).view.read (Elt Ideal) gb1 = rows512 (A m 1 1) (k0_off10 (xr 1 c) 0) → k1 = ((VE1 1 (xr 4 c)).view.set.piecewise ga1 ((VE1 1 c).view.set.piecewise f1 f1)) → m1 = ((VE2 1 (xr 1 c)).view.set.piecewise gb1 ((VE2 1 c).view.set.piecewise k1 k1)) →
      rowsAre1 c (A m 1 1) 0 1024 m1)
    (V2 : ∀ (f0 ga k0 : Buf (Elt Ideal) ((Memref.whole cc0_scratch0).view.loc (c : Thread nD τ))) (a2 E2a E2b : Buf (Elt Ideal) ((Memref.whole cc0_scratch2).view.loc (c : Thread nD τ))) (w8 : Buf (Elt Ideal) ((Memref.whole cc0_scratch8).view.loc (c : Thread nD τ))) (w9 : Buf (Elt Ideal) ((Memref.whole cc0_scratch9).view.loc (c : Thread nD τ))),
      rowsAre0 c (A m 1 0) (pairRow 0 c) 256 f0 → (VE1 0 (xr 3 c)).view.read (Elt Ideal) ga = rows256 (A m 1 0) (k0_off5 (xr 3 c) 0) → winIs m c 1 w8 → woutIs m c 1 w9 → k0 = ((VE1 0 (xr 3 c)).view.set.piecewise ga ((VE1 0 c).view.set.piecewise f0 f0)) →
      E2a = (((Memref.whole cc0_scratch2).access (Rect.unit (s := S1024x256) (k0_off7 c) S256x256.size (k0_off7_inb c))).write (Elt Ideal) a2 (k0_pay39 (F := Ideal) (k0_pay38 (F := Ideal) ((Memref.whole cc0_scratch0).view.readAt (Elt Ideal) (Rect.unit (s := S1024x256) (k0_off7 c) S256x256.size (k0_off7_inb c)).toLoadRect f0) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9))) Finset.univ) →
      E2b = (((Memref.whole cc0_scratch2).access (Rect.unit (s := S1024x256) (k0_off11 c) S256x256.size (k0_off11_inb c))).write (Elt Ideal) E2a (k0_pay41 (F := Ideal) ((Memref.whole cc0_scratch0).view.readAt (Elt Ideal) (Rect.unit (s := S1024x256) (k0_off11 c) S256x256.size (k0_off11_inb c)).toLoadRect k0) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) →
      rowsAre2 c (Pt m 1 0 c) (quadRow 0 c) 512 E2b)
    (V3 : ∀ (f1 ga1 k1 : Buf (Elt Ideal) ((Memref.whole cc0_scratch1).view.loc (c : Thread nD τ))) (a3 E3a E3b : Buf (Elt Ideal) ((Memref.whole cc0_scratch3).view.loc (c : Thread nD τ))) (w8 : Buf (Elt Ideal) ((Memref.whole cc0_scratch8).view.loc (c : Thread nD τ))) (w9 : Buf (Elt Ideal) ((Memref.whole cc0_scratch9).view.loc (c : Thread nD τ))),
      rowsAre1 c (A m 1 1) (pairRow 1 c) 256 f1 → (VE1 1 (xr 4 c)).view.read (Elt Ideal) ga1 = rows256 (A m 1 1) (k0_off6 (xr 4 c) 0) → winIs m c 1 w8 → woutIs m c 1 w9 → k1 = ((VE1 1 (xr 4 c)).view.set.piecewise ga1 ((VE1 1 c).view.set.piecewise f1 f1)) →
      E3a = (((Memref.whole cc0_scratch3).access (Rect.unit (s := S1024x256) (k0_off8 c) S256x256.size (k0_off8_inb c))).write (Elt Ideal) a3 (k0_pay40 (F := Ideal) ((Memref.whole cc0_scratch1).view.readAt (Elt Ideal) (Rect.unit (s := S1024x256) (k0_off8 c) S256x256.size (k0_off8_inb c)).toLoadRect f1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) →
      E3b = (((Memref.whole cc0_scratch3).access (Rect.unit (s := S1024x256) (k0_off12 c) S256x256.size (k0_off12_inb c))).write (Elt Ideal) E3a (k0_pay42 (F := Ideal) ((Memref.whole cc0_scratch1).view.readAt (Elt Ideal) (Rect.unit (s := S1024x256) (k0_off12 c) S256x256.size (k0_off12_inb c)).toLoadRect k1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ) →
      rowsAre3 c (Pt m 1 1 c) (quadRow 1 c) 512 E3b) :
    (iprop(∃ K, QV5 m K c) : sProp 𝕄)
      ⊢ wp frame (wpE (defs₀ (F := Ideal)) Variants.none (c : Thread nD τ) none) Set.univ
          (seg6 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v652)
          (fun r => iprop(⌜∀ i, r.2.2.2.2 i = nat2 (A m 1 0) (k0_off13 c 0 + (i 0).val) (i 1).val⌝ ∗ ∃ K, QV6 m K c)) := by
  have hA0B' := geo10_A0B' c
  have hB0sub : (VE1 0 c).view.set ⊆ (Finset.univ \ (VE1 0 (xr 3 c)).view.set) \ (VE2 0 (xr 4 c)).view.set :=
    Finset.subset_sdiff.mpr ⟨Finset.subset_sdiff.mpr ⟨Finset.subset_univ _, disj_VE1_0 c⟩, geo10_B0B' c⟩
  have hAB1 : Disjoint ((VE1 1 (xr 4 c)).view.set ∪ (VE2 1 (xr 1 c)).view.set) (VE1 1 c).view.set :=
    Finset.disjoint_union_left.mpr ⟨(disj_VE1_1 c).symm, geo10_A2B1 c⟩
  have hA2A1 := geo10_A2A1 c
  have hsub7 := geo10_sub7 c
  have hsub8 := geo10_sub8 c
  have hsub11 := geo6_sub11 c
  have hsub12 := geo6_sub12 c
  have dR2 : Disjoint ((R0 0).view.set ∪ (R1 0).view.set) (R2 0).view.set :=
    Finset.disjoint_union_left.mpr ⟨disj_R0_R2 0, disj_R1_R2 0⟩
  have eS0 : (Finset.univ \ (VE1 0 (xr 3 c)).view.set) \ (VE2 0 (xr 4 c)).view.set = (Finset.univ \ (VE2 0 (xr 4 c)).view.set) \ (VE1 0 (xr 3 c)).view.set := sdiff_right_comm _ _ _
  have eS1 : Finset.univ \ ((VE1 1 (xr 4 c)).view.set ∪ (VE2 1 (xr 1 c)).view.set) = (Finset.univ \ (VE2 1 (xr 1 c)).view.set) \ (VE1 1 (xr 4 c)).view.set := by
    rw [univ_sdiff_union]; exact sdiff_right_comm _ _ _
  refine exists_elim fun K => ?_
  unfold QV5 QV localBufsV bufV heldButV
  rw [posAt_14, toks_seg_14, creds_seg_14, grant_eq, grant_eq, grant_eq,
    show (agR 0 1 : DmaSem sig) = dsem 12 from by decide, show (agR 1 1 : DmaSem sig) = dsem 18 from by decide,
    show (agR 1 2 : DmaSem sig) = dsem 19 from by decide]
  iintro ⟨#HI, #HR, #Hlev, HatB, ⟨Ha8, Hr8, Ha9, Hr9, Ha10, Hr10, Ha11, Hr11, Ha12, Hr12, Ha13, #Hq13, Ha14, Hr14, Ha15, Hr15, Ha16, Hr16, Ha17, Hr17, Ha18, Hr18, Ha19, Hr19, Ha20, Hr20, Ha21, Hr21, Ha22, Hr22, Ha23, Hr23, Ha24, Hr24, Ha25, #Hr25, Ha26, #Hr26, Ha27, Hr27, Ha28, Hr28, Ha29, #Hr29, Ha30, Hr30, Ha31, Hr31, Ha32, Hr32, Ha33, Hr33, Ha34, Hr34, Ha35, #Hr35, Ha36, Hr36, Ha37, Hr37, Ha38, Hr38, Ha39, #Hr39⟩, ⟨⟨Ht9, Ht12⟩, ⟨Ht15, Ht18⟩, ⟨Ht10, Ht13⟩, ⟨Ht16, Ht19⟩, Htoks⟩, ⟨Hc12, Hc18, Hc13, Hc19, Hcreds⟩, ⟨%W, HO⟩, ⟨Hl0, Hl1, Hl2, Hl3, Hl4, Hl5, Hl6, Hl7, ⟨%a2, HS2, %ha2⟩, ⟨%a3, HS3, %ha3⟩, HS4, HS5, ⟨%w8, HS8, %hw8⟩, ⟨%w9, HS9, %hw9⟩⟩, ⟨%f0, Hs0, %hf0⟩, ⟨%f1, Hs1, %hf1⟩, ⟨%g6, Hs6, %hg6⟩, ⟨%g7, Hs7, %hg7⟩, ⟨Hd3, #Hrp3⟩, ⟨Hd4, #Hrp4⟩, ⟨Hd1, #Hrp1⟩⟩
  unfold seg6
  rw [k0_part22_eq_skeleton, k0_part23_eq_skeleton, k0_part24_eq_skeleton, k0_part25_eq_skeleton, k0_part26_eq_skeleton]
  unfold k0_part22_skel k0_part23_skel k0_part24_skel k0_part25_skel k0_part26_skel
  simp only [Prog.lift, Prog.bind_op, Prog.bind_ret, Prog.pure_eq_ret, Prog.bind_assoc]
  -- the own receive slots handed over in this segment leave the receive buffers
  ihave Hs6 := (heldBut_intro (F := Ideal) c cc0_scratch6 ∅ g6) $$ Hs6
  ihave Hs7 := (heldBut_intro (F := Ideal) c cc0_scratch7 ∅ g7) $$ Hs7
  ihave Hx := (heldBut_take_view_empty (F := Ideal) c (R0 0)).1 $$ Hs6
  icases Hx with ⟨HR00, Hs6⟩
  ihave Hx := (heldBut_take_view (F := Ideal) c (R1 0) _ (disj_R0_R1 0)).1 $$ Hs6
  icases Hx with ⟨HR10, Hs6⟩
  ihave Hx := (heldBut_take_view (F := Ideal) c (R2 0) _ dR2).1 $$ Hs6
  icases Hx with ⟨HR20, Hs6⟩
  ihave Hx := (heldBut_take_view_empty (F := Ideal) c (R0 1)).1 $$ Hs7
  icases Hx with ⟨HR01, Hs7⟩
  ihave Hx := (heldBut_take_view (F := Ideal) c (R1 1) _ (disj_R0_R1 1)).1 $$ Hs7
  icases Hx with ⟨HR11, Hs7⟩
  -- out of the first gather buffer: the slot handed over with the second copy, then the first copy's source, half of it lent
  ihave Hsp := (rest_split (F := Ideal) hA0B' f0).1 $$ Hs0
  icases Hsp with ⟨HB', Hs0⟩
  ihave Hsp := (pointsTo_split_subset hB0sub).1 $$ Hs0
  icases Hsp with ⟨Hsrc0, Hs0⟩
  ihave Hh := (halves_split (F := Ideal) f0).1 $$ Hsrc0
  icases Hh with ⟨HsrcL0, HsrcR0⟩
  iapply (wp_send_copyV' m c (xr 3 c) _ (dev18_eq c) (VE1 0 c) (VE1 0 c) 9 12 1 15 _ _ sem_ag0s_1 sem_ag0r_1
      (by decide) (by decide) (by decide) (by decide) ((credit_VE1 0 c).trans rfl) rfl
      (iprop(ownAt (F := Ideal) c (R2 0) ∗ reached ER (dcell c (dsem 26)) 1)) fullShare.left f0
      (ownHalf_of (F := Ideal) c (VE1 0 c) f0) (H14 f0 hf0) K (owedFrom c 15) (owedFrom_succ c 14 (3, 12, 1) rfl) _ (Topo.routes_tc _ _)) $$ [HsrcL0 Hd3 HR20 HO Ht9 Hr9 Ht12]
  · isplitr; · iexact HI
    isplitl [HsrcL0]; · iexact HsrcL0
    isplitl [Hd3]; · iexact Hd3
    isplitl [HR20]
    · isplitl [HR20]; · iexact HR20
      iexact Hr26
    isplitl [HO]; · iexact HO
    isplitl [Ht9]; · iexact Ht9
    isplitl [Hr9]; · iexact Hr9
    isplitl [Ht12]; · iexact Ht12
    iexact Hrp3
  iintro ⟨Hc9, HO⟩
  ihave Hsp := (rest_split (F := Ideal) hAB1 f1).1 $$ Hs1
  icases Hsp with ⟨Hsrc1, Hs1⟩
  ihave Hh := (halves_split (F := Ideal) f1).1 $$ Hsrc1
  icases Hh with ⟨HsrcL1, HsrcR1⟩
  ihave HV2 := (ownAt_of (F := Ideal) c (VE2 0 (xr 4 c)) f0) $$ HB'
  iapply (wp_send_copyV' m c (xr 4 c) _ (dev19_eq c) (VE1 1 c) (VE1 1 c) 15 18 1 16 _ _ sem_ag1s_1 sem_ag1r_1
      (by decide) (by decide) (by decide) (by decide) ((credit_VE1 1 c).trans rfl) rfl
      (iprop(ownAt (F := Ideal) c (VE2 0 (xr 4 c)) ∗ reached ER (dcell c (dsem 13)) 1)) fullShare.left f1
      (ownHalf_of (F := Ideal) c (VE1 1 c) f1) (H15 f1 hf1) K (owedFrom c 16) (owedFrom_succ c 15 (4, 18, 1) rfl) _ (Topo.routes_tc _ _)) $$ [HsrcL1 Hd4 HV2 HO Ht15 Hr15 Ht18]
  · isplitr; · iexact HI
    isplitl [HsrcL1]; · iexact HsrcL1
    isplitl [Hd4]; · iexact Hd4
    isplitl [HV2]
    · isplitl [HV2]; · iexact HV2
      iexact Hq13
    isplitl [HO]; · iexact HO
    isplitl [Ht15]; · iexact Ht15
    isplitl [Hr15]; · iexact Hr15
    isplitl [Ht18]; · iexact Ht18
    iexact Hrp4
  iintro ⟨Hc15, HO⟩
  iapply (wp_load Variants.none (c : Thread nD τ) none Set.univ hsub7) $$ [HsrcR0]
  · iexact HsrcR0
  iintro HsrcR0
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS2]
  · iexact HS2
  iintro HS2
  iapply (wp_store Variants.none (c : Thread nD τ) none Set.univ (Finset.subset_univ _)) $$ [HS2]
  · iexact HS2
  iintro HS2
  iapply (wp_load Variants.none (c : Thread nD τ) none Set.univ hsub8) $$ [HsrcR1]
  · iexact HsrcR1
  iintro HsrcR1
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS3]
  · iexact HS3
  iintro HS3
  iapply (wp_store Variants.none (c : Thread nD τ) none Set.univ (Finset.subset_univ _)) $$ [HS3]
  · iexact HS3
  iintro HS3
  ihave Hc9 := (Entails.of_eq (show (cred (tallyAt (dcell c (dsem 9)) 15 (amtDma 12 1)) : sProp 𝕄) = cred (tallyAt (dcell c (dsem 9)) 15 (amtDma 9 1)) from rfl)) $$ Hc9
  ihave Hc15 := (Entails.of_eq (show (cred (tallyAt (dcell c (dsem 15)) 16 (amtDma 18 1)) : sProp 𝕄) = cred (tallyAt (dcell c (dsem 15)) 16 (amtDma 15 1)) from rfl)) $$ Hc15
  ihave HM := (mayWait_copy (F := Ideal) c (dsem 9) 14 16 (by omega) (by omega)) $$ Hlev
  iapply (wp_wait_copyV' m c 9 1 15 _ sem_ag0s_1 (by decide) (by decide) K (owedFrom c 16) _ ((credit_VE1 0 c).trans rfl)) $$ [Hc9 HO HM Ha9]
  · isplitr; · iexact HI
    isplitl [Hc9]; · iexact Hc9
    isplitl [HO]; · iexact HO
    isplitl [HM]; · iexact HM
    iexact Ha9
  iintro ⟨HO, Ha9, Hr9, Hp9⟩
  ihave HM := (mayWait_copy (F := Ideal) c (dsem 12) 14 16 (by omega) (by omega)) $$ Hlev
  iapply (wp_wait_copyV' m c 12 1 15 _ sem_ag0r_1 (by decide) (by decide) K (owedFrom c 16) _ ((credit_VE1 0 c).trans rfl)) $$ [Hc12 HO HM Ha12]
  · isplitr; · iexact HI
    isplitl [Hc12]; · iexact Hc12
    isplitl [HO]; · iexact HO
    isplitl [HM]; · iexact HM
    iexact Ha12
  iintro ⟨HO, Ha12, Hr12, Hp12⟩
  ihave HM := (mayWait_copy (F := Ideal) c (dsem 15) 15 16 (by omega) (by omega)) $$ Hlev
  iapply (wp_wait_copyV' m c 15 1 16 _ sem_ag1s_1 (by decide) (by decide) K (owedFrom c 16) _ ((credit_VE1 1 c).trans rfl)) $$ [Hc15 HO HM Ha15]
  · isplitr; · iexact HI
    isplitl [Hc15]; · iexact Hc15
    isplitl [HO]; · iexact HO
    isplitl [HM]; · iexact HM
    iexact Ha15
  iintro ⟨HO, Ha15, Hr15, Hp15⟩
  ihave HM := (mayWait_copy (F := Ideal) c (dsem 18) 15 16 (by omega) (by omega)) $$ Hlev
  iapply (wp_wait_copyV' m c 18 1 16 _ sem_ag1r_1 (by decide) (by decide) K (owedFrom c 16) _ ((credit_VE1 1 c).trans rfl)) $$ [Hc18 HO HM Ha18]
  · isplitr; · iexact HI
    isplitl [Hc18]; · iexact Hc18
    isplitl [HO]; · iexact HO
    isplitl [HM]; · iexact HM
    iexact Ha18
  iintro ⟨HO, Ha18, Hr18, Hp18⟩
  ihave Hp9 := (Entails.of_eq (show payDmaV m c 9 1 = ownHalf (F := Ideal) c (VE1 0 c) from rfl)) $$ Hp9
  ihave Hp15 := (Entails.of_eq (show payDmaV m c 15 1 = ownHalf (F := Ideal) c (VE1 1 c) from rfl)) $$ Hp15
  ihave Hp12 := (Entails.of_eq (show payDmaV m c 12 1
      = iprop(owns (c : Thread nD τ) (VE1 0 (xr 3 c)) fullShare (rows256 (A m 1 0) (k0_off5 (xr 3 c) 0))
          ∗ (ownAt (F := Ideal) (xr 3 c) (R2 0) ∗ reached ER (dcell (xr 3 c) (rsR 0 1)) 1)) from rfl)) $$ Hp12
  icases Hp12 with ⟨HA0, Hg3'⟩
  ihave HA0 := (owns_open c (VE1 0 (xr 3 c)) fullShare _) $$ HA0
  icases HA0 with ⟨%ga, %hga, HA0⟩
  ihave Hp18 := (Entails.of_eq (show payDmaV m c 18 1
      = iprop(owns (c : Thread nD τ) (VE1 1 (xr 4 c)) fullShare (rows256 (A m 1 1) (k0_off6 (xr 4 c) 0))
          ∗ (ownAt (F := Ideal) (xr 4 c) (VE2 0 c) ∗ reached ER (dcell (xr 4 c) (dsem 13)) 1)) from rfl)) $$ Hp18
  icases Hp18 with ⟨HA1, ⟨Hd5, #Hrp5⟩⟩
  ihave HA1 := (owns_open c (VE1 1 (xr 4 c)) fullShare _) $$ HA1
  icases HA1 with ⟨%ga1, %hga1, HA1⟩
  -- the gather buffers after the second exchange, at named contents
  ihave Hsrc0 := (ownHalf_join (F := Ideal) c (VE1 0 c) f0) $$ [Hp9 HsrcR0]
  · isplitl [Hp9]; · iexact Hp9
    iexact HsrcR0
  ihave Hs0 := (pointsTo_join_subset (ℓ := (Memref.whole cc0_scratch0).view.loc (c : Thread nD τ)) (q := fullShare) (f := f0) (g := f0) hB0sub) $$ [Hsrc0 Hs0]
  · isplitl [Hsrc0]; · iexact Hsrc0
    iexact Hs0
  rw [eS0]
  ihave Hs0 := (rest_join_at (F := Ideal) (ℓ := (Memref.whole cc0_scratch0).view.loc (c : Thread nD τ)) hA0B'.symm ((VE1 0 c).view.set.piecewise f0 f0) ga) $$ [HA0 Hs0]
  · isplitl [HA0]; · iexact HA0
    iexact Hs0
  ihave Hsrc1 := (ownHalf_join (F := Ideal) c (VE1 1 c) f1) $$ [Hp15 HsrcR1]
  · isplitl [Hp15]; · iexact Hp15
    iexact HsrcR1
  ihave Hs1 := (rest_join_at (F := Ideal) hAB1 f1 f1) $$ [Hsrc1 Hs1]
  · isplitl [Hsrc1]; · iexact Hsrc1
    iexact Hs1
  rw [eS1]
  ihave Hs1 := (rest_join_at (F := Ideal) (ℓ := (Memref.whole cc0_scratch1).view.loc (c : Thread nD τ)) hA2A1 ((VE1 1 c).view.set.piecewise f1 f1) ga1) $$ [HA1 Hs1]
  · isplitl [HA1]; · iexact HA1
    iexact Hs1
  -- copy 16
  ihave Hsp := (rest_split (F := Ideal) (ℓ := (Memref.whole cc0_scratch0).view.loc (c : Thread nD τ)) (disj_VE2_0 c).symm ((VE1 0 (xr 3 c)).view.set.piecewise ga ((VE1 0 c).view.set.piecewise f0 f0))).1 $$ Hs0
  icases Hsp with ⟨Hsrc2, Hs0⟩
  ihave Hh := (halves_split (F := Ideal) (ℓ := (Memref.whole cc0_scratch0).view.loc (c : Thread nD τ)) ((VE1 0 (xr 3 c)).view.set.piecewise ga ((VE1 0 c).view.set.piecewise f0 f0))).1 $$ Hsrc2
  icases Hh with ⟨HsrcL2, HsrcR2⟩
  iapply (wp_send_copyV' m c (xr 4 c) _ (dev20_eq c) (VE2 0 c) (VE2 0 c) 10 13 1 17 _ _ sem_ag0s_2 sem_ag0r_2
      (by decide) (by decide) (by decide) (by decide) ((credit_VE2 0 c).trans rfl) rfl
      (iprop((ownAt (F := Ideal) c (R0 0) ∗ reached ER (dcell c (dsem 25)) 1) ∗ (ownAt (F := Ideal) c (R1 0) ∗ reached ER (dcell c (dsem 29)) 1))) fullShare.left ((VE1 0 (xr 3 c)).view.set.piecewise ga ((VE1 0 c).view.set.piecewise f0 f0))
      (ownHalf_of (F := Ideal) c (VE2 0 c) ((VE1 0 (xr 3 c)).view.set.piecewise ga ((VE1 0 c).view.set.piecewise f0 f0))) (H16 f0 ga _ hf0 hga rfl) K (owedFrom c 17) (owedFrom_succ c 16 (4, 13, 1) rfl) _ (Topo.routes_tc _ _)) $$ [HsrcL2 Hd5 HR00 HR10 HO Ht10 Hr10 Ht13]
  · isplitr; · iexact HI
    isplitl [HsrcL2]; · iexact HsrcL2
    isplitl [Hd5]; · iexact Hd5
    isplitl [HR00 HR10]
    · isplitl [HR00]
      · isplitl [HR00]; · iexact HR00
        iexact Hr25
      · isplitl [HR10]; · iexact HR10
        iexact Hr29
    isplitl [HO]; · iexact HO
    isplitl [Ht10]; · iexact Ht10
    isplitl [Hr10]; · iexact Hr10
    isplitl [Ht13]; · iexact Ht13
    iexact Hrp5
  iintro ⟨Hc10, HO⟩
  -- copy 17
  ihave Hsp := (rest_split (F := Ideal) (ℓ := (Memref.whole cc0_scratch1).view.loc (c : Thread nD τ)) (disj_VE2_1 c).symm ((VE1 1 (xr 4 c)).view.set.piecewise ga1 ((VE1 1 c).view.set.piecewise f1 f1))).1 $$ Hs1
  icases Hsp with ⟨Hsrc3, Hs1⟩
  ihave Hh := (halves_split (F := Ideal) (ℓ := (Memref.whole cc0_scratch1).view.loc (c : Thread nD τ)) ((VE1 1 (xr 4 c)).view.set.piecewise ga1 ((VE1 1 c).view.set.piecewise f1 f1))).1 $$ Hsrc3
  icases Hh with ⟨HsrcL3, HsrcR3⟩
  iapply (wp_send_copyV' m c (xr 1 c) _ (dev21_eq c) (VE2 1 c) (VE2 1 c) 16 19 1 18 _ _ sem_ag1s_2 sem_ag1r_2
      (by decide) (by decide) (by decide) (by decide) ((credit_VE2 1 c).trans rfl) rfl
      (iprop((ownAt (F := Ideal) c (R0 1) ∗ reached ER (dcell c (dsem 35)) 1) ∗ (ownAt (F := Ideal) c (R1 1) ∗ reached ER (dcell c (dsem 39)) 1))) fullShare.left ((VE1 1 (xr 4 c)).view.set.piecewise ga1 ((VE1 1 c).view.set.piecewise f1 f1))
      (ownHalf_of (F := Ideal) c (VE2 1 c) ((VE1 1 (xr 4 c)).view.set.piecewise ga1 ((VE1 1 c).view.set.piecewise f1 f1))) (H17 f1 ga1 _ hf1 hga1 rfl) K (owedFrom c 18) (owedFrom_succ c 17 (1, 19, 1) rfl) _ (Topo.routes_tc _ _)) $$ [HsrcL3 Hd1 HR01 HR11 HO Ht16 Hr16 Ht19]
  · isplitr; · iexact HI
    isplitl [HsrcL3]; · iexact HsrcL3
    isplitl [Hd1]; · iexact Hd1
    isplitl [HR01 HR11]
    · isplitl [HR01]
      · isplitl [HR01]; · iexact HR01
        iexact Hr35
      · isplitl [HR11]; · iexact HR11
        iexact Hr39
    isplitl [HO]; · iexact HO
    isplitl [Ht16]; · iexact Ht16
    isplitl [Hr16]; · iexact Hr16
    isplitl [Ht19]; · iexact Ht19
    iexact Hrp1
  iintro ⟨Hc16, HO⟩
  iapply (wp_load Variants.none (c : Thread nD τ) none Set.univ hsub11) $$ [HsrcR2]
  · iexact HsrcR2
  iintro HsrcR2
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS2]
  · iexact HS2
  iintro HS2
  iapply (wp_store Variants.none (c : Thread nD τ) none Set.univ (Finset.subset_univ _)) $$ [HS2]
  · iexact HS2
  iintro HS2
  iapply (wp_load Variants.none (c : Thread nD τ) none Set.univ hsub12) $$ [HsrcR3]
  · iexact HsrcR3
  iintro HsrcR3
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS3]
  · iexact HS3
  iintro HS3
  iapply (wp_store Variants.none (c : Thread nD τ) none Set.univ (Finset.subset_univ _)) $$ [HS3]
  · iexact HS3
  iintro HS3
  ihave Hc10 := (Entails.of_eq (show (cred (tallyAt (dcell c (dsem 10)) 17 (amtDma 13 1)) : sProp 𝕄) = cred (tallyAt (dcell c (dsem 10)) 17 (amtDma 10 1)) from rfl)) $$ Hc10
  ihave Hc16 := (Entails.of_eq (show (cred (tallyAt (dcell c (dsem 16)) 18 (amtDma 19 1)) : sProp 𝕄) = cred (tallyAt (dcell c (dsem 16)) 18 (amtDma 16 1)) from rfl)) $$ Hc16
  ihave HM := (mayWait_copy (F := Ideal) c (dsem 10) 16 18 (by omega) (by omega)) $$ Hlev
  iapply (wp_wait_copyV' m c 10 1 17 _ sem_ag0s_2 (by decide) (by decide) K (owedFrom c 18) _ ((credit_VE2 0 c).trans rfl)) $$ [Hc10 HO HM Ha10]
  · isplitr; · iexact HI
    isplitl [Hc10]; · iexact Hc10
    isplitl [HO]; · iexact HO
    isplitl [HM]; · iexact HM
    iexact Ha10
  iintro ⟨HO, Ha10, Hr10, Hp10⟩
  ihave HM := (mayWait_copy (F := Ideal) c (dsem 13) 16 18 (by omega) (by omega)) $$ Hlev
  iapply (wp_wait_copyV' m c 13 1 17 _ sem_ag0r_2 (by decide) (by decide) K (owedFrom c 18) _ ((credit_VE2 0 c).trans rfl)) $$ [Hc13 HO HM Ha13]
  · isplitr; · iexact HI
    isplitl [Hc13]; · iexact Hc13
    isplitl [HO]; · iexact HO
    isplitl [HM]; · iexact HM
    iexact Ha13
  iintro ⟨HO, Ha13, Hr13, Hp13⟩
  ihave HM := (mayWait_copy (F := Ideal) c (dsem 16) 17 18 (by omega) (by omega)) $$ Hlev
  iapply (wp_wait_copyV' m c 16 1 18 _ sem_ag1s_2 (by decide) (by decide) K (owedFrom c 18) _ ((credit_VE2 1 c).trans rfl)) $$ [Hc16 HO HM Ha16]
  · isplitr; · iexact HI
    isplitl [Hc16]; · iexact Hc16
    isplitl [HO]; · iexact HO
    isplitl [HM]; · iexact HM
    iexact Ha16
  iintro ⟨HO, Ha16, Hr16, Hp16⟩
  ihave HM := (mayWait_copy (F := Ideal) c (dsem 19) 17 18 (by omega) (by omega)) $$ Hlev
  iapply (wp_wait_copyV' m c 19 1 18 _ sem_ag1r_2 (by decide) (by decide) K (owedFrom c 18) _ ((credit_VE2 1 c).trans rfl)) $$ [Hc19 HO HM Ha19]
  · isplitr; · iexact HI
    isplitl [Hc19]; · iexact Hc19
    isplitl [HO]; · iexact HO
    isplitl [HM]; · iexact HM
    iexact Ha19
  iintro ⟨HO, Ha19, Hr19, Hp19⟩
  ihave Hp10 := (Entails.of_eq (show payDmaV m c 10 1 = ownHalf (F := Ideal) c (VE2 0 c) from rfl)) $$ Hp10
  ihave Hp16 := (Entails.of_eq (show payDmaV m c 16 1 = ownHalf (F := Ideal) c (VE2 1 c) from rfl)) $$ Hp16
  ihave Hp13 := (Entails.of_eq (show payDmaV m c 13 1
      = iprop(owns (c : Thread nD τ) (VE2 0 (xr 4 c)) fullShare (rows512 (A m 1 0) (k0_off9 (xr 4 c) 0))
          ∗ ((ownAt (F := Ideal) (xr 4 c) (R0 0) ∗ reached ER (dcell (xr 4 c) (rsR 0 0)) 1)
          ∗ (ownAt (F := Ideal) (xr 4 c) (R1 0) ∗ reached ER (dcell (xr 4 c) (rsR 0 4)) 1))) from rfl)) $$ Hp13
  icases Hp13 with ⟨HB'', G13a, G13b⟩
  ihave HB'' := (owns_open c (VE2 0 (xr 4 c)) fullShare _) $$ HB''
  icases HB'' with ⟨%gb, %hgb, HB''⟩
  ihave Hp19 := (Entails.of_eq (show payDmaV m c 19 1
      = iprop(owns (c : Thread nD τ) (VE2 1 (xr 1 c)) fullShare (rows512 (A m 1 1) (k0_off10 (xr 1 c) 0))
          ∗ ((ownAt (F := Ideal) (xr 1 c) (R0 1) ∗ reached ER (dcell (xr 1 c) (rsR 1 0)) 1)
          ∗ (ownAt (F := Ideal) (xr 1 c) (R1 1) ∗ reached ER (dcell (xr 1 c) (rsR 1 4)) 1))) from rfl)) $$ Hp19
  icases Hp19 with ⟨HA2, G19a, G19b⟩
  ihave HA2 := (owns_open c (VE2 1 (xr 1 c)) fullShare _) $$ HA2
  icases HA2 with ⟨%gb1, %hgb1, HA2⟩
  -- both gather buffers whole again, at named contents
  ihave Hsrc2 := (ownHalf_join (F := Ideal) c (VE2 0 c) ((VE1 0 (xr 3 c)).view.set.piecewise ga ((VE1 0 c).view.set.piecewise f0 f0))) $$ [Hp10 HsrcR2]
  · isplitl [Hp10]; · iexact Hp10
    iexact HsrcR2
  ihave Hs0 := (rest_join_at (F := Ideal) (ℓ := (Memref.whole cc0_scratch0).view.loc (c : Thread nD τ)) (disj_VE2_0 c).symm ((VE1 0 (xr 3 c)).view.set.piecewise ga ((VE1 0 c).view.set.piecewise f0 f0)) ((VE1 0 (xr 3 c)).view.set.piecewise ga ((VE1 0 c).view.set.piecewise f0 f0))) $$ [Hsrc2 Hs0]
  · isplitl [Hsrc2]; · iexact Hsrc2
    iexact Hs0
  ihave Hs0 := (slice_join_at (F := Ideal) c (VE2 0 (xr 4 c)) ((VE2 0 c).view.set.piecewise ((VE1 0 (xr 3 c)).view.set.piecewise ga ((VE1 0 c).view.set.piecewise f0 f0)) ((VE1 0 (xr 3 c)).view.set.piecewise ga ((VE1 0 c).view.set.piecewise f0 f0))) gb) $$ [HB'' Hs0]
  · isplitl [HB'']; · iexact HB''
    iexact Hs0
  ihave Hsrc3 := (ownHalf_join (F := Ideal) c (VE2 1 c) ((VE1 1 (xr 4 c)).view.set.piecewise ga1 ((VE1 1 c).view.set.piecewise f1 f1))) $$ [Hp16 HsrcR3]
  · isplitl [Hp16]; · iexact Hp16
    iexact HsrcR3
  ihave Hs1 := (rest_join_at (F := Ideal) (ℓ := (Memref.whole cc0_scratch1).view.loc (c : Thread nD τ)) (disj_VE2_1 c).symm ((VE1 1 (xr 4 c)).view.set.piecewise ga1 ((VE1 1 c).view.set.piecewise f1 f1)) ((VE1 1 (xr 4 c)).view.set.piecewise ga1 ((VE1 1 c).view.set.piecewise f1 f1))) $$ [Hsrc3 Hs1]
  · isplitl [Hsrc3]; · iexact Hsrc3
    iexact Hs1
  ihave Hs1 := (slice_join_at (F := Ideal) c (VE2 1 (xr 1 c)) ((VE2 1 c).view.set.piecewise ((VE1 1 (xr 4 c)).view.set.piecewise ga1 ((VE1 1 c).view.set.piecewise f1 f1)) ((VE1 1 (xr 4 c)).view.set.piecewise ga1 ((VE1 1 c).view.set.piecewise f1 f1))) gb1) $$ [HA2 Hs1]
  · isplitl [HA2]; · iexact HA2
    iexact Hs1
  iapply (wp_load Variants.none (c : Thread nD τ) none Set.univ (Finset.subset_univ _)) $$ [Hs0]
  · iexact Hs0
  iintro Hs0
  have hV0 := V0 f0 ga gb _ _ hf0 hga hgb rfl rfl
  have hV1 := V1 f1 ga1 gb1 _ _ hf1 hga1 hgb1 rfl rfl
  have hV2 := V2 f0 ga _ a2 _ _ w8 w9 hf0 hga hw8 hw9 rfl rfl rfl
  have hV3 := V3 f1 ga1 _ a3 _ _ w8 w9 hf1 hga1 hw8 hw9 rfl rfl rfl
  ihave Hs0 := (whole_as_but6 _) $$ Hs0
  ihave Hs1 := (whole_as_but6 _) $$ Hs1
  rw [wp_ret]
  imodintro
  isplitr
  · ipureintro; exact hV0.2
  iexists K
  unfold QV6 QV localBufsV bufV heldButV
  rw [posAt_18, grant_eq, grant_eq, grant_eq, grant_eq, grant_eq]
  ihave Hs6 := (heldBut_elim (F := Ideal) c cc0_scratch6 _) $$ Hs6
  icases Hs6 with ⟨%z6, Hs6⟩
  ihave Hs7 := (heldBut_elim (F := Ideal) c cc0_scratch7 _) $$ Hs7
  icases Hs7 with ⟨%z7, Hs7⟩
  isplitr; · iexact HI
  isplitr; · iexact HR
  isplitr; · iexact Hlev
  isplitl [HatB]; · iexact HatB
  isplitl [Ha8 Hr8 Ha9 Hr9 Ha10 Hr10 Ha11 Hr11 Ha12 Hr12 Ha13 Hr13 Ha14 Hr14 Ha15 Hr15 Ha16 Hr16 Ha17 Hr17 Ha18 Hr18 Ha19 Hr19 Ha20 Hr20 Ha21 Hr21 Ha22 Hr22 Ha23 Hr23 Ha24 Hr24 Ha25 Ha26 Ha27 Hr27 Ha28 Hr28 Ha29 Ha30 Hr30 Ha31 Hr31 Ha32 Hr32 Ha33 Hr33 Ha34 Hr34 Ha35 Ha36 Hr36 Ha37 Hr37 Ha38 Hr38 Ha39]
  · isplitl [Ha8]; · iexact Ha8
    isplitl [Hr8]; · iexact Hr8
    isplitl [Ha9]; · iexact Ha9
    isplitl [Hr9]; · iexact Hr9
    isplitl [Ha10]; · iexact Ha10
    isplitl [Hr10]; · iexact Hr10
    isplitl [Ha11]; · iexact Ha11
    isplitl [Hr11]; · iexact Hr11
    isplitl [Ha12]; · iexact Ha12
    isplitl [Hr12]; · iexact Hr12
    isplitl [Ha13]; · iexact Ha13
    isplitl [Hr13]; · iexact Hr13
    isplitl [Ha14]; · iexact Ha14
    isplitl [Hr14]; · iexact Hr14
    isplitl [Ha15]; · iexact Ha15
    isplitl [Hr15]; · iexact Hr15
    isplitl [Ha16]; · iexact Ha16
    isplitl [Hr16]; · iexact Hr16
    isplitl [Ha17]; · iexact Ha17
    isplitl [Hr17]; · iexact Hr17
    isplitl [Ha18]; · iexact Ha18
    isplitl [Hr18]; · iexact Hr18
    isplitl [Ha19]; · iexact Ha19
    isplitl [Hr19]; · iexact Hr19
    isplitl [Ha20]; · iexact Ha20
    isplitl [Hr20]; · iexact Hr20
    isplitl [Ha21]; · iexact Ha21
    isplitl [Hr21]; · iexact Hr21
    isplitl [Ha22]; · iexact Ha22
    isplitl [Hr22]; · iexact Hr22
    isplitl [Ha23]; · iexact Ha23
    isplitl [Hr23]; · iexact Hr23
    isplitl [Ha24]; · iexact Ha24
    isplitl [Hr24]; · iexact Hr24
    isplitl [Ha25]; · iexact Ha25
    isplitr; · iexact Hr25
    isplitl [Ha26]; · iexact Ha26
    isplitr; · iexact Hr26
    isplitl [Ha27]; · iexact Ha27
    isplitl [Hr27]; · iexact Hr27
    isplitl [Ha28]; · iexact Ha28
    isplitl [Hr28]; · iexact Hr28
    isplitl [Ha29]; · iexact Ha29
    isplitr; · iexact Hr29
    isplitl [Ha30]; · iexact Ha30
    isplitl [Hr30]; · iexact Hr30
    isplitl [Ha31]; · iexact Ha31
    isplitl [Hr31]; · iexact Hr31
    isplitl [Ha32]; · iexact Ha32
    isplitl [Hr32]; · iexact Hr32
    isplitl [Ha33]; · iexact Ha33
    isplitl [Hr33]; · iexact Hr33
    isplitl [Ha34]; · iexact Ha34
    isplitl [Hr34]; · iexact Hr34
    isplitl [Ha35]; · iexact Ha35
    isplitr; · iexact Hr35
    isplitl [Ha36]; · iexact Ha36
    isplitl [Hr36]; · iexact Hr36
    isplitl [Ha37]; · iexact Ha37
    isplitl [Hr37]; · iexact Hr37
    isplitl [Ha38]; · iexact Ha38
    isplitl [Hr38]; · iexact Hr38
    isplitl [Ha39]; · iexact Ha39
    iexact Hr39
  isplitl [Htoks]; · iexact Htoks
  isplitl [Hcreds]; · iexact Hcreds
  isplitl [HO]; · iexists _; iexact HO
  isplitl [Hl0 Hl1 Hl2 Hl3 Hl4 Hl5 Hl6 Hl7 HS2 HS3 HS4 HS5 HS8 HS9]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [HS2]
    · iexists _; isplitl [HS2]; · iexact HS2
      ipureintro; exact hV2
    isplitl [HS3]
    · iexists _; isplitl [HS3]; · iexact HS3
      ipureintro; exact hV3
    isplitl [HS4]; · iexact HS4
    isplitl [HS5]; · iexact HS5
    isplitl [HS8]
    · iexists w8; isplitl [HS8]; · iexact HS8
      ipureintro; exact hw8
    iexists w9; isplitl [HS9]; · iexact HS9
    ipureintro; exact hw9
  isplitl [Hs0]
  · iexists _; isplitl [Hs0]; · iexact Hs0
    ipureintro; exact hV0.1
  isplitl [Hs1]
  · iexists _; isplitl [Hs1]; · iexact Hs1
    ipureintro; exact hV1
  isplitl [Hs6]
  · iexists z6; isplitl [Hs6]; · iexact Hs6
    ipureintro; trivial
  isplitl [Hs7]
  · iexists z7; isplitl [Hs7]; · iexact Hs7
    ipureintro; trivial
  isplitl [G13a]; · iexact G13a
  isplitl [G19a]; · iexact G19a
  isplitl [G13b]; · iexact G13b
  isplitl [G19b]; · iexact G19b
  iexact Hg3'

/-- info: 'Cert.KernelIdeal.Val.seg6_okV' depends on axioms: [propext, Classical.choice, Quot.sound] -/
#guard_msgs in #print axioms seg6_okV

end Cert.KernelIdeal.Val

end
-- ==== Proof.KernelIdeal.SegV6Facts.lean ====
/- The content facts of segment 6 (the second and third exchange of layer 1 and the products they overlap).

   What each of the four copies lands on the partner is the gathered buffer's rows under its source slice; after the
   two exchanges of a stream the gather buffer holds the layer's activations on all its rows; the two products of a
   stream, stored at the own pair and at the other pair of the own four blocks, make those 512 rows of the
   accumulator the device's partial product. -/
import proofs.«900979_g7700000000000980_dist_mlpseq_tp1d_bs_bs_b256_d256_h512_v7x_i8_bf16_1_alg».proof.Proof.KernelIdeal.ValSteps
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.QuietVMono

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators

local notation "𝕄" => MT nD τ sig ℕ (Elt Ideal) ℕ UU ℕ

variable (m : Mem)

/-! ## Where the blocks lie -/

theorem s6_off5_7 : ∀ c : Dev nD, k0_off5 c 0 = k0_off7 c 0 := by decide +kernel
theorem s6_off6_8 : ∀ c : Dev nD, k0_off6 c 0 = k0_off8 c 0 := by decide +kernel
theorem s6_off11 : ∀ c : Dev nD, k0_off11 c 0 = k0_off5 (xr 3 c) 0 := by decide +kernel
theorem s6_off12 : ∀ c : Dev nD, k0_off12 c 0 = k0_off6 (xr 4 c) 0 := by decide +kernel
/-- The own pair and the partner's pair of the second exchange are the two halves of the own four blocks. -/
theorem s6_quad0 : ∀ c : Dev nD, (k0_off7 c 0 = k0_off9 c 0 ∧ k0_off5 (xr 3 c) 0 = k0_off9 c 0 + 256)
    ∨ (k0_off5 (xr 3 c) 0 = k0_off9 c 0 ∧ k0_off7 c 0 = k0_off9 c 0 + 256) := by decide +kernel
theorem s6_quad1 : ∀ c : Dev nD, (k0_off8 c 0 = k0_off10 c 0 ∧ k0_off6 (xr 4 c) 0 = k0_off10 c 0 + 256)
    ∨ (k0_off6 (xr 4 c) 0 = k0_off10 c 0 ∧ k0_off8 c 0 = k0_off10 c 0 + 256) := by decide +kernel
/-- The own four blocks and the partner's of the third exchange are the two halves of the buffer. -/
theorem s6_half0 : ∀ c : Dev nD, (k0_off9 c 0 = 0 ∧ k0_off9 (xr 4 c) 0 = 512) ∨ (k0_off9 c 0 = 512 ∧ k0_off9 (xr 4 c) 0 = 0) := by decide +kernel
theorem s6_half1 : ∀ c : Dev nD, (k0_off10 c 0 = 0 ∧ k0_off10 (xr 1 c) 0 = 512) ∨ (k0_off10 c 0 = 512 ∧ k0_off10 (xr 1 c) 0 = 0) := by decide +kernel

/-! ## Small tools -/

theorem pw_same {α : Type} {β : α → Type} [DecidableEq α] (S : Finset α) [∀ j, Decidable (j ∈ S)] (f : (a : α) → β a) : S.piecewise f f = f := by
  funext i
  by_cases h : i ∈ S
  · exact Finset.piecewise_eq_of_mem _ _ _ h
  · exact Finset.piecewise_eq_of_notMem _ _ _ h

/-- A slot and the fact that its cell stands at round `r`, as the hand-over of the schedule. -/
theorem grant_of_dsem (p : Dev nD) {s : Shape} {e : EltTy} (M : Memref sig .tc .vmem s e) (i : DmaSem sig) (r j : ℕ) (hi : i = dsem j) :
    iprop(ownAt (F := Ideal) p M ∗ reached ER (dcell p (dsem j)) r) ⊢ grant p M i r := by
  subst hi; unfold grant; exact .rfl

/-! ## What the four copies land -/

theorem s6_H14 (c : Dev nD) (f0 : Buf (Elt Ideal) ((Memref.whole cc0_scratch0).view.loc (c : Thread nD τ))) (hf0 : rowsAre0 c (A m 1 0) (pairRow 0 c) 256 f0)
    (fd : Buf (Elt Ideal) ((VE1 0 c).view.loc ((xr 3 c : Dev nD) : Thread nD τ))) :
    iprop((((VE1 0 c).view.loc ((xr 3 c : Dev nD) : Thread nD τ)) ↦[(VE1 0 c).view.set]{fullShare}
        ((VE1 0 c).view.write (Elt Ideal) fd ((VE1 0 c).view.read (Elt Ideal) f0) Finset.univ)) ∗ iprop(ownAt (F := Ideal) c (R2 0) ∗ reached ER (dcell c (dsem 26)) 1))
      ⊢ payDmaV m (xr 3 c) 12 1 :=
  (sep_mono_right (grant_of_dsem c (R2 0) (rsR 0 1) 1 26 (by decide))).trans
    (payR12V m c 1 f0 (src_VE1_0 c c (A m 1 0) (pairRow 0 c) 256 f0 hf0 (by show k0_off7 c 0 ≤ k0_off5 c 0; rw [s6_off5_7]) (by show k0_off5 c 0 + 256 ≤ k0_off7 c 0 + 256; rw [s6_off5_7])) fd)

theorem s6_H15 (c : Dev nD) (f1 : Buf (Elt Ideal) ((Memref.whole cc0_scratch1).view.loc (c : Thread nD τ))) (hf1 : rowsAre1 c (A m 1 1) (pairRow 1 c) 256 f1)
    (fd : Buf (Elt Ideal) ((VE1 1 c).view.loc ((xr 4 c : Dev nD) : Thread nD τ))) :
    iprop((((VE1 1 c).view.loc ((xr 4 c : Dev nD) : Thread nD τ)) ↦[(VE1 1 c).view.set]{fullShare}
        ((VE1 1 c).view.write (Elt Ideal) fd ((VE1 1 c).view.read (Elt Ideal) f1) Finset.univ)) ∗ iprop(ownAt (F := Ideal) c (VE2 0 (xr 4 c)) ∗ reached ER (dcell c (dsem 13)) 1))
      ⊢ payDmaV m (xr 4 c) 18 1 :=
  (sep_mono_right (grant_of_dsem c (VE2 0 (xr 4 c)) (agR 0 2) 1 13 (by decide))).trans
    (payR18V m c 1 f1 (src_VE1_1 c c (A m 1 1) (pairRow 1 c) 256 f1 hf1 (by show k0_off8 c 0 ≤ k0_off6 c 0; rw [s6_off6_8]) (by show k0_off6 c 0 + 256 ≤ k0_off8 c 0 + 256; rw [s6_off6_8])) fd)

/-- After the second exchange the own four blocks of stream 0 hold the layer's activations. -/
theorem s6_quadRows0 (c : Dev nD) (f0 ga : Buf (Elt Ideal) ((Memref.whole cc0_scratch0).view.loc (c : Thread nD τ))) (hf0 : rowsAre0 c (A m 1 0) (pairRow 0 c) 256 f0)
    (hga : (VE1 0 (xr 3 c)).view.read (Elt Ideal) ga = rows256 (A m 1 0) (k0_off5 (xr 3 c) 0)) :
    rowsAre0 c (A m 1 0) (quadRow 0 c) 512 ((VE1 0 (xr 3 c)).view.set.piecewise ga ((VE1 0 c).view.set.piecewise f0 f0)) := by
  rw [pw_same]
  refine join_VE1_0 c (xr 3 c) (A m 1 0) (pairRow 0 c) 256 f0 ga hf0 hga (quadRow 0 c) 512 (fun row h1 h2 => ?_)
  have hq := s6_quad0 c
  show (k0_off5 (xr 3 c) 0 ≤ row ∧ row < k0_off5 (xr 3 c) 0 + 256) ∨ (k0_off7 c 0 ≤ row ∧ row < k0_off7 c 0 + 256)
  have h1' : k0_off9 c 0 ≤ row := h1
  have h2' : row < k0_off9 c 0 + 512 := h2
  omega
theorem s6_quadRows1 (c : Dev nD) (f1 ga1 : Buf (Elt Ideal) ((Memref.whole cc0_scratch1).view.loc (c : Thread nD τ))) (hf1 : rowsAre1 c (A m 1 1) (pairRow 1 c) 256 f1)
    (hga : (VE1 1 (xr 4 c)).view.read (Elt Ideal) ga1 = rows256 (A m 1 1) (k0_off6 (xr 4 c) 0)) :
    rowsAre1 c (A m 1 1) (quadRow 1 c) 512 ((VE1 1 (xr 4 c)).view.set.piecewise ga1 ((VE1 1 c).view.set.piecewise f1 f1)) := by
  rw [pw_same]
  refine join_VE1_1 c (xr 4 c) (A m 1 1) (pairRow 1 c) 256 f1 ga1 hf1 hga (quadRow 1 c) 512 (fun row h1 h2 => ?_)
  have hq := s6_quad1 c
  show (k0_off6 (xr 4 c) 0 ≤ row ∧ row < k0_off6 (xr 4 c) 0 + 256) ∨ (k0_off8 c 0 ≤ row ∧ row < k0_off8 c 0 + 256)
  have h1' : k0_off10 c 0 ≤ row := h1
  have h2' : row < k0_off10 c 0 + 512 := h2
  omega

theorem s6_H16 (c : Dev nD) (f0 ga k0 : Buf (Elt Ideal) ((Memref.whole cc0_scratch0).view.loc (c : Thread nD τ))) (hf0 : rowsAre0 c (A m 1 0) (pairRow 0 c) 256 f0)
    (hga : (VE1 0 (xr 3 c)).view.read (Elt Ideal) ga = rows256 (A m 1 0) (k0_off5 (xr 3 c) 0))
    (hk0 : k0 = ((VE1 0 (xr 3 c)).view.set.piecewise ga ((VE1 0 c).view.set.piecewise f0 f0)))
    (fd : Buf (Elt Ideal) ((VE2 0 c).view.loc ((xr 4 c : Dev nD) : Thread nD τ))) :
    iprop((((VE2 0 c).view.loc ((xr 4 c : Dev nD) : Thread nD τ)) ↦[(VE2 0 c).view.set]{fullShare}
        ((VE2 0 c).view.write (Elt Ideal) fd ((VE2 0 c).view.read (Elt Ideal) k0) Finset.univ)) ∗ iprop((ownAt (F := Ideal) c (R0 0) ∗ reached ER (dcell c (dsem 25)) 1) ∗ (ownAt (F := Ideal) c (R1 0) ∗ reached ER (dcell c (dsem 29)) 1)))
      ⊢ payDmaV m (xr 4 c) 13 1 := by
  subst hk0
  exact (sep_mono_right (sep_mono (grant_of_dsem c (R0 0) (rsR 0 0) 1 25 (by decide)) (grant_of_dsem c (R1 0) (rsR 0 4) 1 29 (by decide)))).trans
    (payR13V m c 1 _ (src_VE2_0 c c (A m 1 0) (quadRow 0 c) 512 _ (s6_quadRows0 m c f0 ga hf0 hga) (le_refl _) (le_refl _)) fd)

theorem s6_H17 (c : Dev nD) (f1 ga1 k1 : Buf (Elt Ideal) ((Memref.whole cc0_scratch1).view.loc (c : Thread nD τ))) (hf1 : rowsAre1 c (A m 1 1) (pairRow 1 c) 256 f1)
    (hga : (VE1 1 (xr 4 c)).view.read (Elt Ideal) ga1 = rows256 (A m 1 1) (k0_off6 (xr 4 c) 0))
    (hk1 : k1 = ((VE1 1 (xr 4 c)).view.set.piecewise ga1 ((VE1 1 c).view.set.piecewise f1 f1)))
    (fd : Buf (Elt Ideal) ((VE2 1 c).view.loc ((xr 1 c : Dev nD) : Thread nD τ))) :
    iprop((((VE2 1 c).view.loc ((xr 1 c : Dev nD) : Thread nD τ)) ↦[(VE2 1 c).view.set]{fullShare}
        ((VE2 1 c).view.write (Elt Ideal) fd ((VE2 1 c).view.read (Elt Ideal) k1) Finset.univ)) ∗ iprop((ownAt (F := Ideal) c (R0 1) ∗ reached ER (dcell c (dsem 35)) 1) ∗ (ownAt (F := Ideal) c (R1 1) ∗ reached ER (dcell c (dsem 39)) 1)))
      ⊢ payDmaV m (xr 1 c) 19 1 := by
  subst hk1
  exact (sep_mono_right (sep_mono (grant_of_dsem c (R0 1) (rsR 1 0) 1 35 (by decide)) (grant_of_dsem c (R1 1) (rsR 1 4) 1 39 (by decide)))).trans
    (payR19V m c 1 _ (src_VE2_1 c c (A m 1 1) (quadRow 1 c) 512 _ (s6_quadRows1 m c f1 ga1 hf1 hga) (le_refl _) (le_refl _)) fd)

/-- After the third exchange the whole gather buffer of stream 0 holds the layer's activations, and so do the rows loaded last. -/
theorem s6_V0 (c : Dev nD) (f0 ga gb k0 m0 : Buf (Elt Ideal) ((Memref.whole cc0_scratch0).view.loc (c : Thread nD τ))) (hf : rowsAre0 c (A m 1 0) (pairRow 0 c) 256 f0)
    (hga : (VE1 0 (xr 3 c)).view.read (Elt Ideal) ga = rows256 (A m 1 0) (k0_off5 (xr 3 c) 0))
    (hgb : (VE2 0 (xr 4 c)).view.read (Elt Ideal) gb = rows512 (A m 1 0) (k0_off9 (xr 4 c) 0))
    (hk : k0 = ((VE1 0 (xr 3 c)).view.set.piecewise ga ((VE1 0 c).view.set.piecewise f0 f0)))
    (hm : m0 = ((VE2 0 (xr 4 c)).view.set.piecewise gb ((VE2 0 c).view.set.piecewise k0 k0))) :
    rowsAre0 c (A m 1 0) 0 1024 m0
      ∧ ∀ i, ((Memref.whole cc0_scratch0).view.readAt (Elt Ideal) (Rect.unit (s := S1024x256) (k0_off13 c) S256x256.size (k0_off13_inb c)).toLoadRect m0) i = nat2 (A m 1 0) (k0_off13 c 0 + (i 0).val) (i 1).val := by
  subst hk
  subst hm
  have hall : rowsAre0 c (A m 1 0) 0 1024 ((VE2 0 (xr 4 c)).view.set.piecewise gb ((VE2 0 c).view.set.piecewise ((VE1 0 (xr 3 c)).view.set.piecewise ga ((VE1 0 c).view.set.piecewise f0 f0)) ((VE1 0 (xr 3 c)).view.set.piecewise ga ((VE1 0 c).view.set.piecewise f0 f0)))) := by
    rw [pw_same ((VE2 0 c).view.set)]
    refine join_VE2_0 c (xr 4 c) (A m 1 0) (quadRow 0 c) 512 _ gb (s6_quadRows0 m c f0 ga hf hga) hgb 0 1024 (fun row h1 h2 => ?_)
    have hh := s6_half0 c
    show (k0_off9 (xr 4 c) 0 ≤ row ∧ row < k0_off9 (xr 4 c) 0 + 512) ∨ (k0_off9 c 0 ≤ row ∧ row < k0_off9 c 0 + 512)
    omega
  refine ⟨hall, fun i => ?_⟩
  have i0 : k0_off13 c 0 + 256 ≤ 1024 := k0_off13_inb c 0
  exact congrFun (load_rows0 c (A m 1 0) 0 1024 _ hall (k0_off13 c) S256x256.size (k0_off13_inb c) (off13_col c) (Nat.zero_le _) (by show k0_off13 c 0 + 256 ≤ 0 + 1024; omega)) i

/-- The two products of stream 0 make the own four blocks of its accumulator the device's partial product. -/
theorem s6_V2 (c : Dev nD) (f0 ga k0 : Buf (Elt Ideal) ((Memref.whole cc0_scratch0).view.loc (c : Thread nD τ))) (a2 E2a E2b : Buf (Elt Ideal) ((Memref.whole cc0_scratch2).view.loc (c : Thread nD τ))) (w8 : Buf (Elt Ideal) ((Memref.whole cc0_scratch8).view.loc (c : Thread nD τ))) (w9 : Buf (Elt Ideal) ((Memref.whole cc0_scratch9).view.loc (c : Thread nD τ)))
    (hf : rowsAre0 c (A m 1 0) (pairRow 0 c) 256 f0)
    (hga : (VE1 0 (xr 3 c)).view.read (Elt Ideal) ga = rows256 (A m 1 0) (k0_off5 (xr 3 c) 0))
    (hw8 : winIs m c 1 w8) (hw9 : woutIs m c 1 w9)
    (hk : k0 = ((VE1 0 (xr 3 c)).view.set.piecewise ga ((VE1 0 c).view.set.piecewise f0 f0)))
    (hEa : E2a = (((Memref.whole cc0_scratch2).access (Rect.unit (s := S1024x256) (k0_off7 c) S256x256.size (k0_off7_inb c))).write (Elt Ideal) a2 (k0_pay39 (F := Ideal) (k0_pay38 (F := Ideal) ((Memref.whole cc0_scratch0).view.readAt (Elt Ideal) (Rect.unit (s := S1024x256) (k0_off7 c) S256x256.size (k0_off7_inb c)).toLoadRect f0) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9))) Finset.univ))
    (hEb : E2b = (((Memref.whole cc0_scratch2).access (Rect.unit (s := S1024x256) (k0_off11 c) S256x256.size (k0_off11_inb c))).write (Elt Ideal) E2a (k0_pay41 (F := Ideal) ((Memref.whole cc0_scratch0).view.readAt (Elt Ideal) (Rect.unit (s := S1024x256) (k0_off11 c) S256x256.size (k0_off11_inb c)).toLoadRect k0) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ)) :
    rowsAre2 c (Pt m 1 0 c) (quadRow 0 c) 512 E2b := by
  subst hk
  have hq := s6_quad0 c
  have h11 := s6_off11 c
  -- the first product, stored at the own pair
  have hA : rowsAre2 c (Pt m 1 0 c) (k0_off7 c 0) 256 E2a := by
    rw [hEa]
    exact store_new2 c (Pt m 1 0 c) a2 (k0_off7 c) S256x256.size (k0_off7_inb c) (off7_col c) rfl _
      (fun y => ((fun y => (k0_pay39_apply _ y).trans (congrFun (k0_pay38_eq _ _ _) y)) y).trans
        (mm_loaded0 m c 1 (pairRow 0 c) 256 f0 hf w8 hw8 w9 hw9 (k0_off7 c) (k0_off7_inb c) (off7_col c) (le_refl _) (le_refl _) _ _ y))
  -- the second, at the other pair of the own four blocks, read from the rows the second exchange brought
  have hB : rowsAre2 c (Pt m 1 0 c) (k0_off11 c 0) 256 E2b := by
    rw [hEb]
    exact store_new2 c (Pt m 1 0 c) E2a (k0_off11 c) S256x256.size (k0_off11_inb c) (off11_col c) rfl _
      (fun y => (congrFun (k0_pay41_eq _ _ _) y).trans
        (mm_loaded0 m c 1 (quadRow 0 c) 512 _ (s6_quadRows0 m c f0 ga hf hga) w8 hw8 w9 hw9 (k0_off11 c) (k0_off11_inb c) (off11_col c)
          (by show k0_off9 c 0 ≤ k0_off11 c 0; omega) (by show k0_off11 c 0 + 256 ≤ k0_off9 c 0 + 512; omega) _ _ y))
  have hA' : rowsAre2 c (Pt m 1 0 c) (k0_off7 c 0) 256 E2b := by
    rw [hEb]
    exact store_keep2 c (Pt m 1 0 c) (k0_off7 c 0) 256 E2a hA (k0_off11 c) S256x256.size (k0_off11_inb c) (off11_col c) rfl _
      (by show k0_off7 c 0 + 256 ≤ k0_off11 c 0 ∨ k0_off11 c 0 + 256 ≤ k0_off7 c 0; omega)
  intro row col h1 h2
  have h1' : k0_off9 c 0 ≤ row.val := h1
  have h2' : row.val < k0_off9 c 0 + 512 := h2
  by_cases hr : k0_off7 c 0 ≤ row.val ∧ row.val < k0_off7 c 0 + 256
  · exact hA' row col hr.1 hr.2
  · exact hB row col (by omega) (by omega)

/-- After the third exchange the whole gather buffer of stream 1 holds the layer's activations. -/
theorem s6_V1 (c : Dev nD) (f1 ga1 gb1 k1 m1 : Buf (Elt Ideal) ((Memref.whole cc0_scratch1).view.loc (c : Thread nD τ))) (hf : rowsAre1 c (A m 1 1) (pairRow 1 c) 256 f1)
    (hga : (VE1 1 (xr 4 c)).view.read (Elt Ideal) ga1 = rows256 (A m 1 1) (k0_off6 (xr 4 c) 0))
    (hgb : (VE2 1 (xr 1 c)).view.read (Elt Ideal) gb1 = rows512 (A m 1 1) (k0_off10 (xr 1 c) 0))
    (hk : k1 = ((VE1 1 (xr 4 c)).view.set.piecewise ga1 ((VE1 1 c).view.set.piecewise f1 f1)))
    (hm : m1 = ((VE2 1 (xr 1 c)).view.set.piecewise gb1 ((VE2 1 c).view.set.piecewise k1 k1))) :
    rowsAre1 c (A m 1 1) 0 1024 m1 := by
  subst hk
  subst hm
  have hall : rowsAre1 c (A m 1 1) 0 1024 ((VE2 1 (xr 1 c)).view.set.piecewise gb1 ((VE2 1 c).view.set.piecewise ((VE1 1 (xr 4 c)).view.set.piecewise ga1 ((VE1 1 c).view.set.piecewise f1 f1)) ((VE1 1 (xr 4 c)).view.set.piecewise ga1 ((VE1 1 c).view.set.piecewise f1 f1)))) := by
    rw [pw_same ((VE2 1 c).view.set)]
    refine join_VE2_1 c (xr 1 c) (A m 1 1) (quadRow 1 c) 512 _ gb1 (s6_quadRows1 m c f1 ga1 hf hga) hgb 0 1024 (fun row h1 h2 => ?_)
    have hh := s6_half1 c
    show (k0_off10 (xr 1 c) 0 ≤ row ∧ row < k0_off10 (xr 1 c) 0 + 512) ∨ (k0_off10 c 0 ≤ row ∧ row < k0_off10 c 0 + 512)
    omega
  exact hall

/-- The two products of stream 1 make the own four blocks of its accumulator the device's partial product. -/
theorem s6_V3 (c : Dev nD) (f1 ga1 k1 : Buf (Elt Ideal) ((Memref.whole cc0_scratch1).view.loc (c : Thread nD τ))) (a3 E3a E3b : Buf (Elt Ideal) ((Memref.whole cc0_scratch3).view.loc (c : Thread nD τ))) (w8 : Buf (Elt Ideal) ((Memref.whole cc0_scratch8).view.loc (c : Thread nD τ))) (w9 : Buf (Elt Ideal) ((Memref.whole cc0_scratch9).view.loc (c : Thread nD τ)))
    (hf : rowsAre1 c (A m 1 1) (pairRow 1 c) 256 f1)
    (hga : (VE1 1 (xr 4 c)).view.read (Elt Ideal) ga1 = rows256 (A m 1 1) (k0_off6 (xr 4 c) 0))
    (hw8 : winIs m c 1 w8) (hw9 : woutIs m c 1 w9)
    (hk : k1 = ((VE1 1 (xr 4 c)).view.set.piecewise ga1 ((VE1 1 c).view.set.piecewise f1 f1)))
    (hEa : E3a = (((Memref.whole cc0_scratch3).access (Rect.unit (s := S1024x256) (k0_off8 c) S256x256.size (k0_off8_inb c))).write (Elt Ideal) a3 (k0_pay40 (F := Ideal) ((Memref.whole cc0_scratch1).view.readAt (Elt Ideal) (Rect.unit (s := S1024x256) (k0_off8 c) S256x256.size (k0_off8_inb c)).toLoadRect f1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ))
    (hEb : E3b = (((Memref.whole cc0_scratch3).access (Rect.unit (s := S1024x256) (k0_off12 c) S256x256.size (k0_off12_inb c))).write (Elt Ideal) E3a (k0_pay42 (F := Ideal) ((Memref.whole cc0_scratch1).view.readAt (Elt Ideal) (Rect.unit (s := S1024x256) (k0_off12 c) S256x256.size (k0_off12_inb c)).toLoadRect k1) ((Memref.whole cc0_scratch8).view.readAt (Elt Ideal) (Rect.unit (s := S256x512) ![0, 0] S256x512.size inb_S256x512_S256x512_0_0).toLoadRect w8) ((Memref.whole cc0_scratch9).view.readAt (Elt Ideal) (Rect.unit (s := S512x256) ![0, 0] S512x256.size inb_S512x256_S512x256_0_0).toLoadRect w9)) Finset.univ)) :
    rowsAre3 c (Pt m 1 1 c) (quadRow 1 c) 512 E3b := by
  subst hk
  have hq := s6_quad1 c
  have h11 := s6_off12 c
  -- the first product, stored at the own pair
  have hA : rowsAre3 c (Pt m 1 1 c) (k0_off8 c 0) 256 E3a := by
    rw [hEa]
    exact store_new3 c (Pt m 1 1 c) a3 (k0_off8 c) S256x256.size (k0_off8_inb c) (off8_col c) rfl _
      (fun y => ((fun y => congrFun (k0_pay40_eq _ _ _) y) y).trans
        (mm_loaded1 m c 1 (pairRow 1 c) 256 f1 hf w8 hw8 w9 hw9 (k0_off8 c) (k0_off8_inb c) (off8_col c) (le_refl _) (le_refl _) _ _ y))
  -- the second, at the other pair of the own four blocks, read from the rows the second exchange brought
  have hB : rowsAre3 c (Pt m 1 1 c) (k0_off12 c 0) 256 E3b := by
    rw [hEb]
    exact store_new3 c (Pt m 1 1 c) E3a (k0_off12 c) S256x256.size (k0_off12_inb c) (off12_col c) rfl _
      (fun y => (congrFun (k0_pay42_eq _ _ _) y).trans
        (mm_loaded1 m c 1 (quadRow 1 c) 512 _ (s6_quadRows1 m c f1 ga1 hf hga) w8 hw8 w9 hw9 (k0_off12 c) (k0_off12_inb c) (off12_col c)
          (by show k0_off10 c 0 ≤ k0_off12 c 0; omega) (by show k0_off12 c 0 + 256 ≤ k0_off10 c 0 + 512; omega) _ _ y))
  have hA' : rowsAre3 c (Pt m 1 1 c) (k0_off8 c 0) 256 E3b := by
    rw [hEb]
    exact store_keep3 c (Pt m 1 1 c) (k0_off8 c 0) 256 E3a hA (k0_off12 c) S256x256.size (k0_off12_inb c) (off12_col c) rfl _
      (by show k0_off8 c 0 + 256 ≤ k0_off12 c 0 ∨ k0_off12 c 0 + 256 ≤ k0_off8 c 0; omega)
  intro row col h1 h2
  have h1' : k0_off10 c 0 ≤ row.val := h1
  have h2' : row.val < k0_off10 c 0 + 512 := h2
  by_cases hr : k0_off8 c 0 ≤ row.val ∧ row.val < k0_off8 c 0 + 256
  · exact hA' row col hr.1 hr.2
  · exact hB row col (by omega) (by omega)

/-- info: 'Cert.KernelIdeal.Val.s6_V2' depends on axioms: [propext, Classical.choice, Quot.sound] -/
#guard_msgs in #print axioms s6_V2
/-- info: 'Cert.KernelIdeal.Val.s6_H16' depends on axioms: [propext, Classical.choice, Quot.sound] -/
#guard_msgs in #print axioms s6_H16

end Cert.KernelIdeal.Val

end
-- ==== Proof.KernelIdeal.SegV6All.lean ====
import proofs.«900979_g7700000000000980_dist_mlpseq_tp1d_bs_bs_b256_d256_h512_v7x_i8_bf16_1_alg».proof.Proof.KernelIdeal.SegV6
import proofs.«900979_g7700000000000980_dist_mlpseq_tp1d_bs_bs_b256_d256_h512_v7x_i8_bf16_1_alg».proof.Proof.KernelIdeal.SegV6Facts

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

/-! # Segment 6 with contents, its content facts discharged -/

variable (m : Mem)

/-- Segment 6 from the quiet point after 14 copies to the one after 18, with contents; the vector it returns is the
    first 256 rows at `k0_off13` of the gathered activations of layer 1, stream 0. -/
theorem seg6_V (c : Dev nD) : ∀ (v2 v11 v652 : BitVec 32),
    (iprop(∃ K, QV5 m K c) : sProp 𝕄)
      ⊢ wp frame (wpE (defs₀ (F := Ideal)) Variants.none (c : Thread nD τ) none) Set.univ
          (seg6 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v652)
          (fun r => iprop(⌜∀ i, r.2.2.2.2 i = nat2 (A m 1 0) (k0_off13 c 0 + (i 0).val) (i 1).val⌝ ∗ ∃ K, QV6 m K c)) :=
  fun v2 v11 v652 => seg6_okV m c v2 v11 v652 (s6_H14 m c) (s6_H15 m c) (s6_H16 m c) (s6_H17 m c)
    (s6_V0 m c) (s6_V1 m c) (s6_V2 m c) (s6_V3 m c)

/-- info: 'Cert.KernelIdeal.Val.seg6_V' depends on axioms: [propext, Classical.choice, Quot.sound] -/
#guard_msgs in #print axioms seg6_V

end Cert.KernelIdeal.Val

end
-- ==== Proof.KernelIdeal.SegV1.lean ====
/- Segment 1 of the body with contents (ideal instance): the entry handshake and the first two exchanges of layer 0.

   Each device casts its own 128 rows of the input into its block of the two gather buffers; on a device's own block
   the gathered activations `A m 0 s` are by definition those rows, so after the store the buffer holds `A m 0 s` there.
   The first exchange sends that block and receives the partner's, the second sends the pair and receives the partner
   pair: each landing states that it holds `A m 0 s` on the sender's rows, and the received slices are put back at
   exactly those contents, so the buffer holds `A m 0 s` on the pair, then on the four blocks. Meanwhile the first
   layer's weights are cast into the weight buffers (the device's slices of the launch memory's matrices) and the
   product `relu(X · Win) · Wout` on the own pair of rows is stored into the accumulator: device `c`'s partial `Pt m 0 s c`
   on those rows. The protocol steps, their order, the cuts and the joins are those of the segment without contents. -/
import proofs.«900979_g7700000000000980_dist_mlpseq_tp1d_bs_bs_b256_d256_h512_v7x_i8_bf16_1_alg».proof.Proof.KernelIdeal.BodyV
import proofs.«900979_g7700000000000980_dist_mlpseq_tp1d_bs_bs_b256_d256_h512_v7x_i8_bf16_1_alg».proof.Proof.KernelIdeal.StepsV
import proofs.«900979_g7700000000000980_dist_mlpseq_tp1d_bs_bs_b256_d256_h512_v7x_i8_bf16_1_alg».proof.Proof.KernelIdeal.StepsVP
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.ValSteps
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.QuietLemmas
import proofs.«900979_g7700000000000980_dist_mlpseq_tp1d_bs_bs_b256_d256_h512_v7x_i8_bf16_1_alg».proof.Proof.KernelIdeal.Seg1

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

open Idealize.ShloMosaic.Tactic

variable (m : Mem)

/-- Elements held at some contents, the contents given a name. -/
theorem s1_name_part {ℓ : Loc nD τ sig} {I : Finset (Idx ℓ)} (q : PosShare TreeShare) (f : Buf (Elt Ideal) ℓ) :
    (ℓ ↦[I]{q} f : sProp 𝕄) ⊢ iprop(∃ f', (ℓ ↦[I]{q} f') ∗ ⌜f' = f⌝) := by
  iintro H
  iexists f
  isplitl [H]
  · iexact H
  · ipureintro; rfl

/-- A whole buffer held at some contents, the contents given a name. -/
theorem s1_name_whole (c : Dev nD) (b : Ref sig .tc) (f : Buf (Elt Ideal) ((Memref.whole b).view.loc (c : Thread nD τ))) :
    ptw (F := Ideal) c b f ⊢ iprop(∃ f', ptw (F := Ideal) c b f' ∗ ⌜f' = f⌝) := by
  iintro H
  iexists f
  isplitl [H]
  · iexact H
  · ipureintro; rfl

/-- The seven input windows hold the device's blocks of the launch memory's arrays. -/
def s1_WinsAre (c : Dev nD) (Y : (w : Fin cfg0.W) → (cfg0.win w).block.Idx → Elt Ideal (cfg0.win w).elt) : Prop :=
  (∀ i, Y 0 i = m ((c : Thread nD τ).loc main_arg0) i) ∧ (∀ i, Y 1 i = m ((c : Thread nD τ).loc main_arg1) i)
  ∧ (∀ i, Y 2 i = m ((c : Thread nD τ).loc main_arg2) i) ∧ (∀ i, Y 3 i = m ((c : Thread nD τ).loc main_arg3) i)
  ∧ (∀ i, Y 4 i = m ((c : Thread nD τ).loc main_arg4) i) ∧ (∀ i, Y 5 i = m ((c : Thread nD τ).loc main_arg5) i)
  ∧ (∀ i, Y 6 i = m ((c : Thread nD τ).loc main_arg6) i)

/-! ## Contents kept by name across a cut

    A buffer held at contents `f` is cut into a slice's elements and the others at the same `f`; a slice that comes
    back at contents `g` is put over `f` on its elements. -/

theorem s1_cut_first (c : Dev nD) {s : Shape} {e : EltTy} (M : Memref sig .tc .vmem s e)
    (f : Buf (Elt Ideal) (M.view.loc (c : Thread nD τ))) :
    (M.view.loc (c : Thread nD τ) ↦{fullShare} f : sProp 𝕄)
      ⊢ iprop((M.view.loc (c : Thread nD τ) ↦[M.view.set]{fullShare} f)
          ∗ (M.view.loc (c : Thread nD τ) ↦[Finset.univ \ M.view.set]{fullShare} f)) :=
  (slice_split (F := Ideal) c M f).1

theorem s1_cut_next (c : Dev nD) {s : Shape} {e : EltTy} (M : Memref sig .tc .vmem s e)
    (A : Finset (Idx (M.view.loc (c : Thread nD τ)))) (hd : Disjoint A M.view.set)
    (f : Buf (Elt Ideal) (M.view.loc (c : Thread nD τ))) :
    (M.view.loc (c : Thread nD τ) ↦[Finset.univ \ A]{fullShare} f : sProp 𝕄)
      ⊢ iprop((M.view.loc (c : Thread nD τ) ↦[M.view.set]{fullShare} f)
          ∗ (M.view.loc (c : Thread nD τ) ↦[Finset.univ \ (A ∪ M.view.set)]{fullShare} f)) := by
  rw [univ_sdiff_union]
  exact (rest_split (F := Ideal) hd f).1

theorem s1_put_back (c : Dev nD) {s : Shape} {e : EltTy} (M : Memref sig .tc .vmem s e)
    (A : Finset (Idx (M.view.loc (c : Thread nD τ)))) (hd : Disjoint A M.view.set)
    (f g : Buf (Elt Ideal) (M.view.loc (c : Thread nD τ))) :
    iprop((M.view.loc (c : Thread nD τ) ↦[M.view.set]{fullShare} g)
        ∗ (M.view.loc (c : Thread nD τ) ↦[Finset.univ \ (A ∪ M.view.set)]{fullShare} f))
      ⊢ (M.view.loc (c : Thread nD τ) ↦[Finset.univ \ A]{fullShare} (M.view.set.piecewise g f) : sProp 𝕄) := by
  rw [univ_sdiff_union]
  exact rest_join_at (F := Ideal) hd f g

/-- A buffer held except some elements, at contents of which a fact is known. -/
theorem s1_heldButV_intro (c : Dev nD) (b : Ref sig .tc) (A : Finset (Idx ((Memref.whole b).view.loc (c : Thread nD τ))))
    (P : Buf (Elt Ideal) ((Memref.whole b).view.loc (c : Thread nD τ)) → Prop)
    (f : Buf (Elt Ideal) ((Memref.whole b).view.loc (c : Thread nD τ))) (h : P f) :
    ((Memref.whole b).view.loc (c : Thread nD τ) ↦[Finset.univ \ A]{fullShare} f : sProp 𝕄) ⊢ heldButV c b A P := by
  unfold heldButV
  iintro H
  iexists f
  isplitl [H]
  · iexact H
  · ipureintro; exact h

theorem s1_heldButV_of_heldBut (c : Dev nD) (b : Ref sig .tc) (A : Finset (Idx ((Memref.whole b).view.loc (c : Thread nD τ)))) :
    heldBut (F := Ideal) c b A ⊢ heldButV c b A (fun _ => True) := by
  unfold heldBut heldButV
  iintro ⟨%f, H⟩
  iexists f
  isplitl [H]
  · iexact H
  · ipureintro; trivial

/-- A whole buffer at contents of which a fact is known. -/
theorem s1_bufV_intro (c : Dev nD) (b : Ref sig .tc) (P : Buf (Elt Ideal) ((Memref.whole b).view.loc (c : Thread nD τ)) → Prop)
    (f : Buf (Elt Ideal) ((Memref.whole b).view.loc (c : Thread nD τ))) (h : P f) :
    ptw (F := Ideal) c b f ⊢ bufV c b P := by
  unfold bufV
  iintro H
  iexists f
  isplitl [H]
  · iexact H
  · ipureintro; exact h

/-- A window's staging buffer held through its memref is the buffer whole. -/
theorem s1_ptw_of_setV (c : Dev nD) (b : Ref sig .tc) (f : Buf (Elt Ideal) ((Memref.whole b).view.loc (c : Thread nD τ))) :
    ((Memref.whole b).view.loc (c : Thread nD τ) ↦[(Memref.whole b).view.set]{fullShare} f : sProp 𝕄) ⊢ ptw (F := Ideal) c b f := by
  rw [show (Memref.whole b).view.set = Finset.univ from by rw [Memref.view_whole]; exact View.set_whole _]

/-- What a landing hands over, opened: the slice at some contents that read the stated rows. -/
theorem s1_owns_open (c : Dev nD) {s : Shape} (M : Memref sig .tc .vmem s .bf16) (q : PosShare TreeShare) (X : s.Idx → Elt Ideal .bf16) :
    owns (Val := Elt Ideal) (Ix := ℕ) (Name := ℕ) (U := UU) (Lvl := ℕ) (c : Thread nD τ) M q X
      ⊢ iprop(∃ g : Buf (Elt Ideal) (M.view.loc (c : Thread nD τ)), ⌜M.view.read (Elt Ideal) g = X⌝ ∗ (M.view.loc (c : Thread nD τ) ↦[M.view.set]{q} g)) := by
  unfold owns; exact .rfl

theorem s1_owns_close (c : Dev nD) {s : Shape} (M : Memref sig .tc .vmem s .bf16) (q : PosShare TreeShare) (X : s.Idx → Elt Ideal .bf16)
    (g : Buf (Elt Ideal) (M.view.loc (c : Thread nD τ))) (h : M.view.read (Elt Ideal) g = X) :
    (M.view.loc (c : Thread nD τ) ↦[M.view.set]{q} g : sProp 𝕄) ⊢ owns (Val := Elt Ideal) (Ix := ℕ) (Name := ℕ) (U := UU) (Lvl := ℕ) (c : Thread nD τ) M q X := by
  unfold owns
  iintro H
  iexists g
  isplitr
  · ipureintro; exact h
  · iexact H

/-! ## What the first four copies pay their own send cells, and what their landings hand back -/

theorem s1_payS8V (c : Dev nD) (fs : Buf (Elt Ideal) ((VE0 0 c).view.loc (c : Thread nD τ)))
    (hfs : (VE0 0 c).view.read (Elt Ideal) fs = rows128 (A m 0 0) (k0_off3 c 0)) :
    ((VE0 0 c).view.loc (c : Thread nD τ) ↦[(VE0 0 c).view.set]{fullShare} fs : sProp 𝕄) ⊢ payDmaV m c 8 0 :=
  s1_owns_close c (VE0 0 c) fullShare _ fs hfs
theorem s1_payS14V (c : Dev nD) (fs : Buf (Elt Ideal) ((VE0 1 c).view.loc (c : Thread nD τ)))
    (hfs : (VE0 1 c).view.read (Elt Ideal) fs = rows128 (A m 0 1) (k0_off4 c 0)) :
    ((VE0 1 c).view.loc (c : Thread nD τ) ↦[(VE0 1 c).view.set]{fullShare} fs : sProp 𝕄) ⊢ payDmaV m c 14 0 :=
  s1_owns_close c (VE0 1 c) fullShare _ fs hfs
theorem s1_payS9V (c : Dev nD) (fs : Buf (Elt Ideal) ((VE1 0 c).view.loc (c : Thread nD τ))) :
    ((VE1 0 c).view.loc (c : Thread nD τ) ↦[(VE1 0 c).view.set]{fullShare.left} fs : sProp 𝕄) ⊢ payDmaV m c 9 0 :=
  ownHalf_of (F := Ideal) c (VE1 0 c) fs
theorem s1_payS15V (c : Dev nD) (fs : Buf (Elt Ideal) ((VE1 1 c).view.loc (c : Thread nD τ))) :
    ((VE1 1 c).view.loc (c : Thread nD τ) ↦[(VE1 1 c).view.set]{fullShare.left} fs : sProp 𝕄) ⊢ payDmaV m c 15 0 :=
  ownHalf_of (F := Ideal) c (VE1 1 c) fs
theorem s1_pay8V_open (c : Dev nD) :
    payDmaV m c 8 0 ⊢ iprop(∃ g : Buf (Elt Ideal) ((VE0 0 c).view.loc (c : Thread nD τ)),
      ⌜(VE0 0 c).view.read (Elt Ideal) g = rows128 (A m 0 0) (k0_off3 c 0)⌝ ∗ ((VE0 0 c).view.loc (c : Thread nD τ) ↦[(VE0 0 c).view.set]{fullShare} g)) :=
  s1_owns_open c (VE0 0 c) fullShare _
theorem s1_pay14V_open (c : Dev nD) :
    payDmaV m c 14 0 ⊢ iprop(∃ g : Buf (Elt Ideal) ((VE0 1 c).view.loc (c : Thread nD τ)),
      ⌜(VE0 1 c).view.read (Elt Ideal) g = rows128 (A m 0 1) (k0_off4 c 0)⌝ ∗ ((VE0 1 c).view.loc (c : Thread nD τ) ↦[(VE0 1 c).view.set]{fullShare} g)) :=
  s1_owns_open c (VE0 1 c) fullShare _
theorem s1_pay9V_elim (c : Dev nD) : payDmaV m c 9 0 ⊢ ownHalf (F := Ideal) c (VE1 0 c) := .rfl
theorem s1_pay15V_elim (c : Dev nD) : payDmaV m c 15 0 ⊢ ownHalf (F := Ideal) c (VE1 1 c) := .rfl

/-! ## The rows of the own block, pair and four blocks of each stream, off the printed offset chains -/

theorem s1_offs0 : ∀ c : Dev nD,
    k0_off1 c 0 = k0_off3 c 0 ∧ k0_off7 c 0 = k0_off5 c 0
    ∧ ((k0_off3 c 0 = k0_off5 c 0 ∧ k0_off3 (xr 1 c) 0 = k0_off5 c 0 + 128) ∨ (k0_off3 (xr 1 c) 0 = k0_off5 c 0 ∧ k0_off3 c 0 = k0_off5 c 0 + 128))
    ∧ ((k0_off5 c 0 = k0_off9 c 0 ∧ k0_off5 (xr 3 c) 0 = k0_off9 c 0 + 256) ∨ (k0_off5 (xr 3 c) 0 = k0_off9 c 0 ∧ k0_off5 c 0 = k0_off9 c 0 + 256))
    ∧ k0_off9 c 0 + 512 ≤ 1024 := by decide +kernel
theorem s1_offs1 : ∀ c : Dev nD,
    k0_off2 c 0 = k0_off4 c 0 ∧ k0_off8 c 0 = k0_off6 c 0
    ∧ ((k0_off4 c 0 = k0_off6 c 0 ∧ k0_off4 (xr 3 c) 0 = k0_off6 c 0 + 128) ∨ (k0_off4 (xr 3 c) 0 = k0_off6 c 0 ∧ k0_off4 c 0 = k0_off6 c 0 + 128))
    ∧ ((k0_off6 c 0 = k0_off10 c 0 ∧ k0_off6 (xr 4 c) 0 = k0_off10 c 0 + 256) ∨ (k0_off6 (xr 4 c) 0 = k0_off10 c 0 ∧ k0_off6 c 0 = k0_off10 c 0 + 256))
    ∧ k0_off10 c 0 + 512 ≤ 1024 := by decide +kernel
/-- The own block's first row is 128 times the device's index in the stream. -/
theorem s1_own_rows : ∀ c : Dev nD, k0_off1 c 0 = 128 * (idxOf 0 c).val ∧ k0_off2 c 0 = 128 * (idxOf 1 c).val := by decide +kernel

/-- On a device's own block the gathered activations of the first layer are its input rows. -/
theorem s1_A0_own (s : Fin 2) (c : Dev nD) (b : ℕ) (hb : b = 128 * (idxOf s c).val) (t : ℕ) (ht : t < 128) (col : ℕ) (hc : col < 256) :
    nat2 (A m 0 s) (b + t) col = xOf m c ⟨128 * s.val + t, by have := s.isLt; omega⟩ ⟨col, hc⟩ := by
  subst hb
  have hs := s.isLt
  have hj := (idxOf s c).isLt
  have hi : 128 * (idxOf s c).val + t < 1024 := by omega
  rw [nat2_eq _ _ _ hi hc]
  have h1 : (⟨(128 * (idxOf s c).val + t) / 128, by omega⟩ : Fin 8) = idxOf s c := Fin.ext (by show (128 * (idxOf s c).val + t) / 128 = (idxOf s c).val; omega)
  have h2 : (⟨128 * s.val + (128 * (idxOf s c).val + t) % 128, by omega⟩ : Fin 256) = ⟨128 * s.val + t, by omega⟩ :=
    Fin.ext (by show 128 * s.val + (128 * (idxOf s c).val + t) % 128 = 128 * s.val + t; omega)
  show xOf m (devOf s ⟨(128 * (idxOf s c).val + t) / 128, _⟩) ⟨128 * s.val + (128 * (idxOf s c).val + t) % 128, _⟩ ⟨col, hc⟩ = _
  rw [h1, h2, devOf_idxOf]

/-! ## The positions after the first four copies -/

theorem s1_posAt4_intro (c : Dev nD) :
    iprop(reachedAll (F := Ideal)
      ∗ atPos ER (dcell c (dsem 8)) 1 ∅ 0
      ∗ atPos ER (dcell c (dsem 9)) 1 ∅ 0
      ∗ atPos ER (dcell c (dsem 10)) 0 ∅ 0
      ∗ atPos ER (dcell c (dsem 11)) 1 ∅ 0
      ∗ atPos ER (dcell c (dsem 12)) 1 ∅ 0
      ∗ atPos ER (dcell c (dsem 13)) 0 ∅ 0
      ∗ atPos ER (dcell c (dsem 14)) 1 ∅ 0
      ∗ atPos ER (dcell c (dsem 15)) 1 ∅ 0
      ∗ atPos ER (dcell c (dsem 16)) 0 ∅ 0
      ∗ atPos ER (dcell c (dsem 17)) 1 ∅ 0
      ∗ atPos ER (dcell c (dsem 18)) 1 ∅ 0
      ∗ atPos ER (dcell c (dsem 19)) 0 ∅ 0
      ∗ atPos ER (dcell c (dsem 20)) 0 ∅ 0
      ∗ atPos ER (dcell c (dsem 21)) 0 ∅ 0
      ∗ atPos ER (dcell c (dsem 22)) 0 ∅ 0
      ∗ atPos ER (dcell c (dsem 23)) 0 ∅ 0
      ∗ atPos ER (dcell c (dsem 24)) 0 ∅ 0
      ∗ atPos ER (dcell c (dsem 25)) 0 ∅ 0
      ∗ atPos ER (dcell c (dsem 26)) 0 ∅ 0
      ∗ atPos ER (dcell c (dsem 27)) 0 ∅ 0
      ∗ atPos ER (dcell c (dsem 28)) 0 ∅ 0
      ∗ atPos ER (dcell c (dsem 29)) 0 ∅ 0
      ∗ atPos ER (dcell c (dsem 30)) 0 ∅ 0
      ∗ atPos ER (dcell c (dsem 31)) 0 ∅ 0
      ∗ atPos ER (dcell c (dsem 32)) 0 ∅ 0
      ∗ atPos ER (dcell c (dsem 33)) 0 ∅ 0
      ∗ atPos ER (dcell c (dsem 34)) 0 ∅ 0
      ∗ atPos ER (dcell c (dsem 35)) 0 ∅ 0
      ∗ atPos ER (dcell c (dsem 36)) 0 ∅ 0
      ∗ atPos ER (dcell c (dsem 37)) 0 ∅ 0
      ∗ atPos ER (dcell c (dsem 38)) 0 ∅ 0
      ∗ atPos ER (dcell c (dsem 39)) 0 ∅ 0
      ∗ reached ER (dcell c (dsem 8)) 1 ∗ reached ER (dcell c (dsem 9)) 1 ∗ reached ER (dcell c (dsem 11)) 1 ∗ reached ER (dcell c (dsem 12)) 1 ∗ reached ER (dcell c (dsem 14)) 1 ∗ reached ER (dcell c (dsem 15)) 1 ∗ reached ER (dcell c (dsem 17)) 1 ∗ reached ER (dcell c (dsem 18)) 1)
      ⊢ posAt (F := Ideal) c (roundsDone 4) := by
  rw [posAt_4]
  iintro ⟨#HR, A8, A9, A10, A11, A12, A13, A14, A15, A16, A17, A18, A19, A20, A21, A22, A23, A24, A25, A26, A27, A28, A29, A30, A31, A32, A33, A34, A35, A36, A37, A38, A39, #P8, #P9, #P11, #P12, #P14, #P15, #P17, #P18⟩
  ihave #P10 := (reached_dma (F := Ideal) c 10 (by omega) (by omega)) $$ HR
  ihave #P13 := (reached_dma (F := Ideal) c 13 (by omega) (by omega)) $$ HR
  ihave #P16 := (reached_dma (F := Ideal) c 16 (by omega) (by omega)) $$ HR
  ihave #P19 := (reached_dma (F := Ideal) c 19 (by omega) (by omega)) $$ HR
  ihave #P20 := (reached_dma (F := Ideal) c 20 (by omega) (by omega)) $$ HR
  ihave #P21 := (reached_dma (F := Ideal) c 21 (by omega) (by omega)) $$ HR
  ihave #P22 := (reached_dma (F := Ideal) c 22 (by omega) (by omega)) $$ HR
  ihave #P23 := (reached_dma (F := Ideal) c 23 (by omega) (by omega)) $$ HR
  ihave #P24 := (reached_dma (F := Ideal) c 24 (by omega) (by omega)) $$ HR
  ihave #P25 := (reached_dma (F := Ideal) c 25 (by omega) (by omega)) $$ HR
  ihave #P26 := (reached_dma (F := Ideal) c 26 (by omega) (by omega)) $$ HR
  ihave #P27 := (reached_dma (F := Ideal) c 27 (by omega) (by omega)) $$ HR
  ihave #P28 := (reached_dma (F := Ideal) c 28 (by omega) (by omega)) $$ HR
  ihave #P29 := (reached_dma (F := Ideal) c 29 (by omega) (by omega)) $$ HR
  ihave #P30 := (reached_dma (F := Ideal) c 30 (by omega) (by omega)) $$ HR
  ihave #P31 := (reached_dma (F := Ideal) c 31 (by omega) (by omega)) $$ HR
  ihave #P32 := (reached_dma (F := Ideal) c 32 (by omega) (by omega)) $$ HR
  ihave #P33 := (reached_dma (F := Ideal) c 33 (by omega) (by omega)) $$ HR
  ihave #P34 := (reached_dma (F := Ideal) c 34 (by omega) (by omega)) $$ HR
  ihave #P35 := (reached_dma (F := Ideal) c 35 (by omega) (by omega)) $$ HR
  ihave #P36 := (reached_dma (F := Ideal) c 36 (by omega) (by omega)) $$ HR
  ihave #P37 := (reached_dma (F := Ideal) c 37 (by omega) (by omega)) $$ HR
  ihave #P38 := (reached_dma (F := Ideal) c 38 (by omega) (by omega)) $$ HR
  ihave #P39 := (reached_dma (F := Ideal) c 39 (by omega) (by omega)) $$ HR
  iframe ∗ #

/-! ## The own rows of the input, cast and stored, are the first layer's gathered activations there -/

theorem s1_in_rows0 (c : Dev nD) (g0 : Buf (Elt Ideal) ((Memref.whole cc0_stg0_0).view.loc (c : Thread nD τ)))
    (hg : ∀ i, g0 i = m ((c : Thread nD τ).loc main_arg0) i)
    (inb : ∀ a, (![0, 0] : Fin 2 → ℕ) a + S128x256.size a ≤ S256x256.size a) (b : ℕ) (hb : b = 128 * (idxOf 0 c).val) (y : S128x256.Idx) :
    k0_pay2 (F := Ideal) ((Memref.whole cc0_stg0_0).view.readAt (Elt Ideal) (Rect.unit (s := S256x256) ![0, 0] S128x256.size inb).toLoadRect g0) y
      = nat2 (A m 0 0) (b + (y 0).val) (y 1).val := by
  rw [k0_pay2_apply, s1_A0_own m 0 c b hb (y 0).val (y 0).isLt (y 1).val (y 1).isLt]
  show g0 ((Rect.unit (s := S256x256) ![0, 0] S128x256.size inb).emb y) = xOf m c _ _
  rw [hg]
  unfold xOf
  congr 1
  funext a
  apply Fin.ext
  match a with
  | ⟨0, _⟩ => show 0 + 1 * (y 0).val = 128 * 0 + (y 0).val; omega
  | ⟨1, _⟩ => show 0 + 1 * (y 1).val = (y 1).val; omega

theorem s1_in_rows1 (c : Dev nD) (g0 : Buf (Elt Ideal) ((Memref.whole cc0_stg0_0).view.loc (c : Thread nD τ)))
    (hg : ∀ i, g0 i = m ((c : Thread nD τ).loc main_arg0) i)
    (inb : ∀ a, (![128, 0] : Fin 2 → ℕ) a + S128x256.size a ≤ S256x256.size a) (b : ℕ) (hb : b = 128 * (idxOf 1 c).val) (y : S128x256.Idx) :
    k0_pay3 (F := Ideal) ((Memref.whole cc0_stg0_0).view.readAt (Elt Ideal) (Rect.unit (s := S256x256) ![128, 0] S128x256.size inb).toLoadRect g0) y
      = nat2 (A m 0 1) (b + (y 0).val) (y 1).val := by
  rw [k0_pay3_apply, s1_A0_own m 1 c b hb (y 0).val (y 0).isLt (y 1).val (y 1).isLt]
  show g0 ((Rect.unit (s := S256x256) ![128, 0] S128x256.size inb).emb y) = xOf m c _ _
  rw [hg]
  unfold xOf
  congr 1
  funext a
  apply Fin.ext
  match a with
  | ⟨0, _⟩ => show 128 + 1 * (y 0).val = 128 * 1 + (y 0).val; omega
  | ⟨1, _⟩ => show 0 + 1 * (y 1).val = (y 1).val; omega

/-! ## What a copy lands on the partner, from what its source reads -/

theorem s1_landed (p : Dev nD) {s : Shape} (dst : Memref sig .tc .vmem s .bf16) (fd : Buf (Elt Ideal) (dst.view.loc (p : Thread nD τ)))
    (w X : s.Idx → Elt Ideal .bf16) (hX : w = X) :
    (dst.view.loc (p : Thread nD τ) ↦[dst.view.set]{fullShare} (dst.view.write (Elt Ideal) fd w Finset.univ) : sProp 𝕄)
      ⊢ owns (Val := Elt Ideal) (Ix := ℕ) (Name := ℕ) (U := UU) (Lvl := ℕ) (p : Thread nD τ) dst fullShare X := by
  subst hX
  exact s1_owns_close p dst fullShare _ _ (View.read_write_univ _ _)

theorem s1_landR11 (c : Dev nD) (fs : Buf (Elt Ideal) ((VE0 0 c).view.loc (c : Thread nD τ)))
    (hfs : (VE0 0 c).view.read (Elt Ideal) fs = rows128 (A m 0 0) (k0_off3 c 0))
    (fd : Buf (Elt Ideal) ((VE0 0 c).view.loc ((xr 1 c : Dev nD) : Thread nD τ))) :
    iprop(((VE0 0 c).view.loc ((xr 1 c : Dev nD) : Thread nD τ) ↦[(VE0 0 c).view.set]{fullShare}
          ((VE0 0 c).view.write (Elt Ideal) fd ((VE0 0 c).view.read (Elt Ideal) fs) Finset.univ))
        ∗ (grant c (VE2 1 (xr 1 c)) (agR 1 2) 0))
      ⊢ payDmaV m (xr 1 c) 11 0 := by
  show _ ⊢ iprop(owns (Val := Elt Ideal) (Ix := ℕ) (Name := ℕ) (U := UU) (Lvl := ℕ) ((xr 1 c : Dev nD) : Thread nD τ) (VE0 0 (xr 1 (xr 1 c))) fullShare (rows128 (A m 0 0) (k0_off3 (xr 1 (xr 1 c)) 0))
      ∗ (grant (xr 1 (xr 1 c)) (VE2 1 (xr 1 c)) (agR 1 2) 0))
  rw [xr_xr]
  exact sep_mono_left (s1_landed (xr 1 c) (VE0 0 c) fd _ _ hfs)
theorem s1_land11_elim (c : Dev nD) :
    payDmaV m c 11 0 ⊢ iprop(owns (Val := Elt Ideal) (Ix := ℕ) (Name := ℕ) (U := UU) (Lvl := ℕ) (c : Thread nD τ) (VE0 0 (xr 1 c)) fullShare (rows128 (A m 0 0) (k0_off3 (xr 1 c) 0))
      ∗ (grant (xr 1 c) (VE2 1 c) (agR 1 2) 0)) := .rfl
theorem s1_landR17 (c : Dev nD) (fs : Buf (Elt Ideal) ((VE0 1 c).view.loc (c : Thread nD τ)))
    (hfs : (VE0 1 c).view.read (Elt Ideal) fs = rows128 (A m 0 1) (k0_off4 c 0))
    (fd : Buf (Elt Ideal) ((VE0 1 c).view.loc ((xr 3 c : Dev nD) : Thread nD τ))) :
    iprop(((VE0 1 c).view.loc ((xr 3 c : Dev nD) : Thread nD τ) ↦[(VE0 1 c).view.set]{fullShare}
          ((VE0 1 c).view.write (Elt Ideal) fd ((VE0 1 c).view.read (Elt Ideal) fs) Finset.univ))
        ∗ (grant c (VE1 0 (xr 3 c)) (agR 0 1) 0))
      ⊢ payDmaV m (xr 3 c) 17 0 := by
  show _ ⊢ iprop(owns (Val := Elt Ideal) (Ix := ℕ) (Name := ℕ) (U := UU) (Lvl := ℕ) ((xr 3 c : Dev nD) : Thread nD τ) (VE0 1 (xr 3 (xr 3 c))) fullShare (rows128 (A m 0 1) (k0_off4 (xr 3 (xr 3 c)) 0))
      ∗ (grant (xr 3 (xr 3 c)) (VE1 0 (xr 3 c)) (agR 0 1) 0))
  rw [xr_xr]
  exact sep_mono_left (s1_landed (xr 3 c) (VE0 1 c) fd _ _ hfs)
theorem s1_land17_elim (c : Dev nD) :
    payDmaV m c 17 0 ⊢ iprop(owns (Val := Elt Ideal) (Ix := ℕ) (Name := ℕ) (U := UU) (Lvl := ℕ) (c : Thread nD τ) (VE0 1 (xr 3 c)) fullShare (rows128 (A m 0 1) (k0_off4 (xr 3 c) 0))
      ∗ (grant (xr 3 c) (VE1 0 c) (agR 0 1) 0)) := .rfl
theorem s1_landR12 (c : Dev nD) (fs : Buf (Elt Ideal) ((VE1 0 c).view.loc (c : Thread nD τ)))
    (hfs : (VE1 0 c).view.read (Elt Ideal) fs = rows256 (A m 0 0) (k0_off5 c 0))
    (fd : Buf (Elt Ideal) ((VE1 0 c).view.loc ((xr 3 c : Dev nD) : Thread nD τ))) :
    iprop(((VE1 0 c).view.loc ((xr 3 c : Dev nD) : Thread nD τ) ↦[(VE1 0 c).view.set]{fullShare}
          ((VE1 0 c).view.write (Elt Ideal) fd ((VE1 0 c).view.read (Elt Ideal) fs) Finset.univ))
        ∗ (grant c (R2 0) (rsR 0 1) 0))
      ⊢ payDmaV m (xr 3 c) 12 0 := by
  show _ ⊢ iprop(owns (Val := Elt Ideal) (Ix := ℕ) (Name := ℕ) (U := UU) (Lvl := ℕ) ((xr 3 c : Dev nD) : Thread nD τ) (VE1 0 (xr 3 (xr 3 c))) fullShare (rows256 (A m 0 0) (k0_off5 (xr 3 (xr 3 c)) 0))
      ∗ (grant (xr 3 (xr 3 c)) (R2 0) (rsR 0 1) 0))
  rw [xr_xr]
  exact sep_mono_left (s1_landed (xr 3 c) (VE1 0 c) fd _ _ hfs)
theorem s1_land12_elim (c : Dev nD) :
    payDmaV m c 12 0 ⊢ iprop(owns (Val := Elt Ideal) (Ix := ℕ) (Name := ℕ) (U := UU) (Lvl := ℕ) (c : Thread nD τ) (VE1 0 (xr 3 c)) fullShare (rows256 (A m 0 0) (k0_off5 (xr 3 c) 0))
      ∗ (grant (xr 3 c) (R2 0) (rsR 0 1) 0)) := .rfl
theorem s1_landR18 (c : Dev nD) (fs : Buf (Elt Ideal) ((VE1 1 c).view.loc (c : Thread nD τ)))
    (hfs : (VE1 1 c).view.read (Elt Ideal) fs = rows256 (A m 0 1) (k0_off6 c 0))
    (fd : Buf (Elt Ideal) ((VE1 1 c).view.loc ((xr 4 c : Dev nD) : Thread nD τ))) :
    iprop(((VE1 1 c).view.loc ((xr 4 c : Dev nD) : Thread nD τ) ↦[(VE1 1 c).view.set]{fullShare}
          ((VE1 1 c).view.write (Elt Ideal) fd ((VE1 1 c).view.read (Elt Ideal) fs) Finset.univ))
        ∗ (grant c (VE2 0 (xr 4 c)) (agR 0 2) 0))
      ⊢ payDmaV m (xr 4 c) 18 0 := by
  show _ ⊢ iprop(owns (Val := Elt Ideal) (Ix := ℕ) (Name := ℕ) (U := UU) (Lvl := ℕ) ((xr 4 c : Dev nD) : Thread nD τ) (VE1 1 (xr 4 (xr 4 c))) fullShare (rows256 (A m 0 1) (k0_off6 (xr 4 (xr 4 c)) 0))
      ∗ (grant (xr 4 (xr 4 c)) (VE2 0 (xr 4 c)) (agR 0 2) 0))
  rw [xr_xr]
  exact sep_mono_left (s1_landed (xr 4 c) (VE1 1 c) fd _ _ hfs)
theorem s1_land18_elim (c : Dev nD) :
    payDmaV m c 18 0 ⊢ iprop(owns (Val := Elt Ideal) (Ix := ℕ) (Name := ℕ) (U := UU) (Lvl := ℕ) (c : Thread nD τ) (VE1 1 (xr 4 c)) fullShare (rows256 (A m 0 1) (k0_off6 (xr 4 c) 0))
      ∗ (grant (xr 4 c) (VE2 0 c) (agR 0 2) 0)) := .rfl

/-! ## The first layer's weights, cast and stored, are the device's slices -/

theorem s1_win_stored (c : Dev nD) (f8 : Buf (Elt Ideal) ((Memref.whole cc0_scratch8).view.loc (c : Thread nD τ)))
    (g1 : Buf (Elt Ideal) ((Memref.whole cc0_stg1_0).view.loc (c : Thread nD τ)))
    (hg : ∀ i, g1 i = m ((c : Thread nD τ).loc main_arg1) i)
    (inb inb' : ∀ a, (![0, 0] : Fin 2 → ℕ) a + S256x512.size a ≤ S256x512.size a) :
    winIs m c 0 (((Memref.whole cc0_scratch8).view.slice (Rect.unit (s := S256x512) ![0, 0] S256x512.size inb)).write (Elt Ideal) f8
      (k0_pay4 (F := Ideal) ((Memref.whole cc0_stg1_0).view.readAt (Elt Ideal) (Rect.unit (s := S256x512) ![0, 0] S256x512.size inb').toLoadRect g1)) Finset.univ) := by
  intro e k
  have he : ∀ (i : ∀ a, (![0, 0] : Fin 2 → ℕ) a + S256x512.size a ≤ S256x512.size a),
      (Rect.unit (s := S256x512) ![0, 0] S256x512.size i).emb (ValueIdx.ix2 e k) = ValueIdx.ix2 e k := fun i => by
    funext a
    apply Fin.ext
    match a with
    | ⟨0, _⟩ => show 0 + 1 * e.val = e.val; omega
    | ⟨1, _⟩ => show 0 + 1 * k.val = k.val; omega
  have h := View.write_emb_of_mem (v := (Memref.whole cc0_scratch8).view.slice (Rect.unit (s := S256x512) ![0, 0] S256x512.size inb)) (Val := Elt Ideal) f8
    (k0_pay4 (F := Ideal) ((Memref.whole cc0_stg1_0).view.readAt (Elt Ideal) (Rect.unit (s := S256x512) ![0, 0] S256x512.size inb').toLoadRect g1))
    (Finset.mem_univ (ValueIdx.ix2 e k))
  have h' : ((Memref.whole cc0_scratch8).view.slice (Rect.unit (s := S256x512) ![0, 0] S256x512.size inb)).emb (ValueIdx.ix2 e k) = ValueIdx.ix2 e k := he inb
  rw [h'] at h
  refine h.trans ?_
  show k0_pay4 (F := Ideal) _ (ValueIdx.ix2 e k) = winOf m 0 c e k
  rw [k0_pay4_apply]
  show g1 ((Rect.unit (s := S256x512) ![0, 0] S256x512.size inb').emb (ValueIdx.ix2 e k)) = _
  rw [he inb', hg]
  rfl

theorem s1_wout_stored (c : Dev nD) (f9 : Buf (Elt Ideal) ((Memref.whole cc0_scratch9).view.loc (c : Thread nD τ)))
    (g2 : Buf (Elt Ideal) ((Memref.whole cc0_stg2_0).view.loc (c : Thread nD τ)))
    (hg : ∀ i, g2 i = m ((c : Thread nD τ).loc main_arg2) i)
    (inb inb' : ∀ a, (![0, 0] : Fin 2 → ℕ) a + S512x256.size a ≤ S512x256.size a) :
    woutIs m c 0 (((Memref.whole cc0_scratch9).view.slice (Rect.unit (s := S512x256) ![0, 0] S512x256.size inb)).write (Elt Ideal) f9
      (k0_pay5 (F := Ideal) ((Memref.whole cc0_stg2_0).view.readAt (Elt Ideal) (Rect.unit (s := S512x256) ![0, 0] S512x256.size inb').toLoadRect g2)) Finset.univ) := by
  intro k col
  have he : ∀ (i : ∀ a, (![0, 0] : Fin 2 → ℕ) a + S512x256.size a ≤ S512x256.size a),
      (Rect.unit (s := S512x256) ![0, 0] S512x256.size i).emb (ValueIdx.ix2 k col) = ValueIdx.ix2 k col := fun i => by
    funext a
    apply Fin.ext
    match a with
    | ⟨0, _⟩ => show 0 + 1 * k.val = k.val; omega
    | ⟨1, _⟩ => show 0 + 1 * col.val = col.val; omega
  have h := View.write_emb_of_mem (v := (Memref.whole cc0_scratch9).view.slice (Rect.unit (s := S512x256) ![0, 0] S512x256.size inb)) (Val := Elt Ideal) f9
    (k0_pay5 (F := Ideal) ((Memref.whole cc0_stg2_0).view.readAt (Elt Ideal) (Rect.unit (s := S512x256) ![0, 0] S512x256.size inb').toLoadRect g2))
    (Finset.mem_univ (ValueIdx.ix2 k col))
  have h' : ((Memref.whole cc0_scratch9).view.slice (Rect.unit (s := S512x256) ![0, 0] S512x256.size inb)).emb (ValueIdx.ix2 k col) = ValueIdx.ix2 k col := he inb
  rw [h'] at h
  refine h.trans ?_
  show k0_pay5 (F := Ideal) _ (ValueIdx.ix2 k col) = woutOf m 0 c k col
  rw [k0_pay5_apply]
  show g2 ((Rect.unit (s := S512x256) ![0, 0] S512x256.size inb').emb (ValueIdx.ix2 k col)) = _
  rw [he inb', hg]
  rfl

/-- The second stream's product is computed in two steps (the hidden activations, then their product with the second
    weight matrix into a zero accumulator): together they are the rows' product. -/
theorem s1_pay8_pay7_eq (x0 : Vec Ideal S256x256 .bf16) (x1 : Vec Ideal S256x512 .bf16) (x2 : Vec Ideal S512x256 .bf16) :
    k0_pay8 (F := Ideal) (k0_pay7 (F := Ideal) x0 x1) x2 (constant S256x256 .f32 0x00000000#32) = mmRows x0 x1 x2 := by
  rw [k0_pay7_eq]
  unfold k0_pay8 mmRows
  exact shapeCast_self _ _

/-- The second stream's stored rows, spelt with the two-step product. -/
theorem s1_mm_store1' (c : Dev nD) (bx nx : ℕ)
    (fx : Buf (Elt Ideal) ((Memref.whole cc0_scratch1).view.loc (c : Thread nD τ))) (hfx : rowsAre1 c (A m 0 1) bx nx fx)
    (fwi : Buf (Elt Ideal) ((Memref.whole cc0_scratch8).view.loc (c : Thread nD τ))) (hwi : winIs m c 0 fwi)
    (fwo : Buf (Elt Ideal) ((Memref.whole cc0_scratch9).view.loc (c : Thread nD τ))) (hwo : woutIs m c 0 fwo)
    (off : Fin 2 → ℕ) (inb : ∀ a, off a + S256x256.size a ≤ S1024x256.size a) (hcol : off 1 = 0)
    (hlo : bx ≤ off 0) (hhi : off 0 + 256 ≤ bx + nx)
    (inb8 : ∀ a, (![0, 0] : Fin 2 → ℕ) a + S256x512.size a ≤ S256x512.size a)
    (inb9 : ∀ a, (![0, 0] : Fin 2 → ℕ) a + S512x256.size a ≤ S512x256.size a)
    (fa : Buf (Elt Ideal) ((Memref.whole cc0_scratch3).view.loc (c : Thread nD τ))) :
    rowsAre3 c (Pt m 0 1 c) (off 0) 256
      (((Memref.whole cc0_scratch3).view.slice (Rect.unit (s := S1024x256) off S256x256.size inb)).write (Elt Ideal) fa
        (k0_pay8 (F := Ideal)
          (k0_pay7 (F := Ideal) ((Memref.whole cc0_scratch1).view.readAt (Elt Ideal) (Rect.unit (s := S1024x256) off S256x256.size inb).toLoadRect fx)
            ((Memref.whole cc0_scratch8).view.readAt (Elt Ideal) (Rect.unit (s := S256x512) ![0, 0] S256x512.size inb8).toLoadRect fwi))
          ((Memref.whole cc0_scratch9).view.readAt (Elt Ideal) (Rect.unit (s := S512x256) ![0, 0] S512x256.size inb9).toLoadRect fwo)
          (constant S256x256 .f32 0x00000000#32)) Finset.univ) := by
  rw [s1_pay8_pay7_eq]
  exact mm_store1 m c 0 bx nx fx hfx fwi hwi fwo hwo off inb hcol hlo hhi inb8 inb9 fa

set_option maxHeartbeats 6400000 in
theorem seg1_okV' (c : Dev nD) (Y : (w : Fin cfg0.W) → (cfg0.win w).block.Idx → Elt Ideal (cfg0.win w).elt) :
    s1_WinsAre m c Y → (PreBodyV m c Y)
      ⊢ wp frame (wpE (defs₀ (F := Ideal)) Variants.none (c : Thread nD τ) none) Set.univ
          (seg1 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17)
          (fun r => iprop(⌜r.1 = c⌝ ∗ ∃ K, QV1 m K c)) := by
  intro hwin
  obtain ⟨hw0, hw1, hw2, hw3, hw4, hw5, hw6⟩ := hwin
  obtain ⟨e13, e75, hpair0, hquad0, hb0⟩ := s1_offs0 c
  obtain ⟨e24, e86, hpair1, hquad1, hb1⟩ := s1_offs1 c
  obtain ⟨own0, own1⟩ := s1_own_rows c
  unfold PreBodyV Φ₀V ghostV
  rw [creds_eq, creds_seg_0, scratchAll_eq]
  unfold Pipeline.RDat.owesAt Pipeline.owesWithin owns
  rw [posAll_eq, toks_eq, toks_seg_0, show (rdatsV m 0 c).owed Gen.t0_0.castSucc = O₀ c from rfl]
  iintro ⟨⟨⟨%K, #HI, #HR, ⟨HaB, Ha8, Ha9, Ha10, Ha11, Ha12, Ha13, Ha14, Ha15, Ha16, Ha17, Ha18, Ha19, Ha20, Ha21, Ha22, Ha23, Ha24, Ha25, Ha26, Ha27, Ha28, Ha29, Ha30, Ha31, Ha32, Ha33, Ha34, Ha35, Ha36, Ha37, Ha38, Ha39⟩, ⟨TB1, TB3, TB4, ⟨T0a, T0b⟩, ⟨T1a, T1b⟩, ⟨T2a, T2b⟩, ⟨T3a, T3b⟩, Htoks⟩⟩, ⟨CB, C0, C1, C2, C3, Hcreds⟩, #Hlev, ⟨%f0, Hx0⟩, ⟨%f1, Hx1⟩, ⟨%f2, Hs2⟩, ⟨%f3, Hs3⟩, ⟨%f4, Hs4⟩, ⟨%f5, Hs5⟩, ⟨%f6, Hy0⟩, ⟨%f7, Hy1⟩, ⟨%f8, Hs8⟩, ⟨%f9, Hs9⟩⟩,
    ⟨%W, %hW, HO⟩, ⟨%g0, %hg0, Hw0⟩, ⟨%g1, %hg1, Hw1⟩, ⟨%g2, %hg2, Hw2⟩, ⟨%g3, %hg3, Hw3⟩, ⟨%g4, %hg4, Hw4⟩, ⟨%g5, %hg5, Hw5⟩, ⟨%g6, %hg6, Hw6⟩, ⟨%g7, %hg7, Hw7⟩⟩
  -- the input windows hold the launch memory's arrays
  have hG0 : ∀ i, g0 i = m ((c : Thread nD τ).loc main_arg0) i := fun i => (congrFun hg0 i).trans (hw0 i)
  have hG1 : ∀ i, g1 i = m ((c : Thread nD τ).loc main_arg1) i := fun i => (congrFun hg1 i).trans (hw1 i)
  have hG2 : ∀ i, g2 i = m ((c : Thread nD τ).loc main_arg2) i := fun i => (congrFun hg2 i).trans (hw2 i)
  have hG3 : ∀ i, g3 i = m ((c : Thread nD τ).loc main_arg3) i := fun i => (congrFun hg3 i).trans (hw3 i)
  have hG4 : ∀ i, g4 i = m ((c : Thread nD τ).loc main_arg4) i := fun i => (congrFun hg4 i).trans (hw4 i)
  have hG5 : ∀ i, g5 i = m ((c : Thread nD τ).loc main_arg5) i := fun i => (congrFun hg5 i).trans (hw5 i)
  have hG6 : ∀ i, g6 i = m ((c : Thread nD τ).loc main_arg6) i := fun i => (congrFun hg6 i).trans (hw6 i)
  unfold seg1
  -- the own row blocks of the two streams are written from the input window
  sl_exec
  ihave Hx0 := (s1_name_whole c cc0_scratch0 _) $$ Hx0
  icases Hx0 with ⟨%X0, Hx0, %hX0⟩
  ihave Hx1 := (s1_name_whole c cc0_scratch1 _) $$ Hx1
  icases Hx1 with ⟨%X1, Hx1, %hX1⟩
  have F0 : rowsAre0 c (A m 0 0) (k0_off1 c 0) 128 X0 := by
    rw [hX0]
    exact store_new0 c (A m 0 0) f0 (k0_off1 c) S128x256.size (k0_off1_inb c) (off1_col c) rfl _
      (fun y => s1_in_rows0 m c g0 hG0 _ (k0_off1 c 0) own0 y)
  have F1 : rowsAre1 c (A m 0 1) (k0_off2 c 0) 128 X1 := by
    rw [hX1]
    exact store_new1 c (A m 0 1) f1 (k0_off2 c) S128x256.size (k0_off2_inb c) (off2_col c) rfl _
      (fun y => s1_in_rows1 m c g0 hG0 _ (k0_off2 c 0) own1 y)
  have hS0 : (VE0 0 c).view.read (Elt Ideal) X0 = rows128 (A m 0 0) (k0_off3 c 0) :=
    src_VE0_0 c c (A m 0 0) (k0_off1 c 0) 128 X0 F0 (by omega) (by omega)
  have hS1 : (VE0 1 c).view.read (Elt Ideal) X1 = rows128 (A m 0 1) (k0_off4 c 0) :=
    src_VE0_1 c c (A m 0 1) (k0_off2 c 0) 128 X1 F1 (by omega) (by omega)

  -- the two gather buffers, cut: what goes to the partners with the entry signals and the first copies
  ihave Hx0 := (s1_cut_first c (VE2 0 (xr 4 c)) X0) $$ Hx0
  icases Hx0 with ⟨HC', Hx0⟩
  ihave HC' := (ownAt_of (F := Ideal) c (VE2 0 (xr 4 c)) X0) $$ HC'
  ihave Hx0 := (s1_cut_next c (VE1 0 (xr 3 c)) (VE2 0 (xr 4 c)).view.set (d0_1 c) X0) $$ Hx0
  icases Hx0 with ⟨HB', Hx0⟩
  ihave HB' := (ownAt_of (F := Ideal) c (VE1 0 (xr 3 c)) X0) $$ HB'
  ihave Hx0 := (s1_cut_next c (VE0 0 (xr 1 c)) ((VE2 0 (xr 4 c)).view.set ∪ (VE1 0 (xr 3 c)).view.set) (d0_2 c) X0) $$ Hx0
  icases Hx0 with ⟨HA', Hx0⟩
  ihave HA' := (ownAt_of (F := Ideal) c (VE0 0 (xr 1 c)) X0) $$ HA'
  ihave Hx0 := (s1_cut_next c (VE0 0 c) (((VE2 0 (xr 4 c)).view.set ∪ (VE1 0 (xr 3 c)).view.set) ∪ (VE0 0 (xr 1 c)).view.set) (d0_3 c) X0) $$ Hx0
  icases Hx0 with ⟨HA, Hx0⟩
  ihave Hx1 := (s1_cut_first c (VE2 1 (xr 1 c)) X1) $$ Hx1
  icases Hx1 with ⟨HG', Hx1⟩
  ihave HG' := (ownAt_of (F := Ideal) c (VE2 1 (xr 1 c)) X1) $$ HG'
  ihave Hx1 := (s1_cut_next c (VE1 1 (xr 4 c)) (VE2 1 (xr 1 c)).view.set (d1_1 c) X1) $$ Hx1
  icases Hx1 with ⟨HE', Hx1⟩
  ihave HE' := (ownAt_of (F := Ideal) c (VE1 1 (xr 4 c)) X1) $$ HE'
  ihave Hx1 := (s1_cut_next c (VE0 1 (xr 3 c)) ((VE2 1 (xr 1 c)).view.set ∪ (VE1 1 (xr 4 c)).view.set) (d1_2 c) X1) $$ Hx1
  icases Hx1 with ⟨HD', Hx1⟩
  ihave HD' := (ownAt_of (F := Ideal) c (VE0 1 (xr 3 c)) X1) $$ HD'
  ihave Hx1 := (s1_cut_next c (VE0 1 c) (((VE2 1 (xr 1 c)).view.set ∪ (VE1 1 (xr 4 c)).view.set) ∪ (VE0 1 (xr 3 c)).view.set) (d1_3 c) X1) $$ Hx1
  icases Hx1 with ⟨HD, Hx1⟩
  -- entry signal to c xor 1: it is handed the slot of its first copy of stream 0
  conv => rhs; simp only [dev1_eq]
  iapply (wp_signal_barV m c 1 0 K (O₁ c) rfl W (routes1 c)) $$ [HO TB1 HA']
  · isplitr; · iexact HI
    isplitr; · iexact HR
    isplitl [HO]; · iexact HO
    isplitl [TB1]; · iexact TB1
    rw [payBar_to_1]
    iapply (grant_intro (F := Ideal) c (VE0 0 (xr 1 c)) 11 (by omega) (by omega) (agR 0 0) (by decide))
    isplitr; · iexact HR
    iexact HA'
  iintro HO
  sl_exec
  -- entry signal to c xor 3: the slot of its first copy of stream 1
  conv => rhs; simp only [dev2_eq]
  iapply (wp_signal_barV m c 3 1 K (O₂ c) rfl W (routes3 c)) $$ [HO TB3 HD']
  · isplitr; · iexact HI
    isplitr; · iexact HR
    isplitl [HO]; · iexact HO
    isplitl [TB3]; · iexact TB3
    rw [payBar_to_3]
    iapply (grant_intro (F := Ideal) c (VE0 1 (xr 3 c)) 17 (by omega) (by omega) (agR 1 0) (by decide))
    isplitr; · iexact HR
    iexact HD'
  iintro HO
  sl_exec
  -- entry signal to c xor 4: the slot of its second copy of stream 1
  conv => rhs; simp only [dev3_eq]
  iapply (wp_signal_barV m c 4 2 K (owedFrom c 0) rfl W (routes4 c)) $$ [HO TB4 HE']
  · isplitr; · iexact HI
    isplitr; · iexact HR
    isplitl [HO]; · iexact HO
    isplitl [TB4]; · iexact TB4
    rw [payBar_to_4]
    iapply (grant_intro (F := Ideal) c (VE1 1 (xr 4 c)) 18 (by omega) (by omega) (agR 1 1) (by decide))
    isplitr; · iexact HR
    iexact HE'
  iintro HO
  sl_exec
  -- the wait for the partners' three signals: their slots for the first copies of this device
  iapply (wp_wait_barV m c K (owedFrom c 0) W) $$ [CB HO HaB]
  · isplitr; · iexact HI
    isplitl [CB]; · iexact CB
    isplitl [HO]; · iexact HO
    isplitr; · iapply (mayWait_bar (F := Ideal) c); iexact Hlev
    iexact HaB
  iintro ⟨HO, HaB, #HrB, HP0, HP1, HP2⟩
  ihave HP0 := (payBar_0_elim (F := Ideal) c) $$ HP0
  icases HP0 with ⟨HgA, #HrA⟩
  ihave HP1 := (payBar_1_elim (F := Ideal) c) $$ HP1
  icases HP1 with ⟨HgD, #HrD⟩
  ihave HP2 := (payBar_2_elim (F := Ideal) c) $$ HP2
  icases HP2 with ⟨HgE, #HrE⟩
  sl_exec

  -- copy 0: the own block of stream 0, at the input's rows, to c xor 1
  iapply (wp_send_copyV' m c (xr 1 c) _ (dev4_eq c) (VE0 0 c) (VE0 0 c) 8 11 0 1 _ _ sem_ag0s_0 sem_ag0r_0
      (by omega) (by omega) (by decide) (by decide)
      (credit_VE0 0 c) (amtDma_sendOf 11 0 (Or.inl ⟨by omega, by omega⟩)) (grant c (VE2 1 (xr 1 c)) (agR 1 2) 0) fullShare X0
      (s1_payS8V m c X0 hS0) (s1_landR11 m c X0 hS0) K (owedFrom c 1) (owedFrom_succ c 0 _ rfl) _ (routes1 c)) $$ [HA HgA HG' HO T0a T0b]
  · isplitr; · iexact HI
    isplitl [HA]; · iexact HA
    isplitl [HgA]; · iexact HgA
    isplitl [HG']
    · iapply (grant_intro (F := Ideal) c (VE2 1 (xr 1 c)) 19 (by omega) (by omega) (agR 1 2) (by decide))
      isplitr; · iexact HR
      iexact HG'
    isplitl [HO]; · iexact HO
    isplitl [T0a]; · iexact T0a
    isplitr; · iapply (reached_dma (F := Ideal) c 8 (by omega) (by omega)); iexact HR
    isplitl [T0b]; · iexact T0b
    iexact HrA
  iintro ⟨Cs0, HO⟩
  sl_exec
  -- copy 1: the own block of stream 1 to c xor 3
  iapply (wp_send_copyV' m c (xr 3 c) _ (dev5_eq c) (VE0 1 c) (VE0 1 c) 14 17 0 2 _ _ sem_ag1s_0 sem_ag1r_0
      (by omega) (by omega) (by decide) (by decide)
      (credit_VE0 1 c) (amtDma_sendOf 17 0 (Or.inl ⟨by omega, by omega⟩)) (grant c (VE1 0 (xr 3 c)) (agR 0 1) 0) fullShare X1
      (s1_payS14V m c X1 hS1) (s1_landR17 m c X1 hS1) K (owedFrom c 2) (owedFrom_succ c 1 _ rfl) _ (routes3 c)) $$ [HD HgD HB' HO T1a T1b]
  · isplitr; · iexact HI
    isplitl [HD]; · iexact HD
    isplitl [HgD]; · iexact HgD
    isplitl [HB']
    · iapply (grant_intro (F := Ideal) c (VE1 0 (xr 3 c)) 12 (by omega) (by omega) (agR 0 1) (by decide))
      isplitr; · iexact HR
      iexact HB'
    isplitl [HO]; · iexact HO
    isplitl [T1a]; · iexact T1a
    isplitr; · iapply (reached_dma (F := Ideal) c 14 (by omega) (by omega)); iexact HR
    isplitl [T1b]; · iexact T1b
    iexact HrD
  iintro ⟨Cs1, HO⟩
  -- the first layer's weights are cast
  sl_exec
  ihave Hs8 := (s1_name_whole c cc0_scratch8 _) $$ Hs8
  icases Hs8 with ⟨%X8, Hs8, %hX8⟩
  ihave Hs9 := (s1_name_whole c cc0_scratch9 _) $$ Hs9
  icases Hs9 with ⟨%X9, Hs9, %hX9⟩

  have W8 : winIs m c 0 X8 := by
    rw [hX8, View.writes_singleton]; exact s1_win_stored m c f8 g1 hG1 inb_S256x512_S256x512_0_0 inb_S256x512_S256x512_0_0
  have W9 : woutIs m c 0 X9 := by
    rw [hX9, View.writes_singleton]; exact s1_wout_stored m c f9 g2 hG2 inb_S512x256_S512x256_0_0 inb_S512x256_S512x256_0_0

  -- copy 0 is waited for: its source comes back at the rows it read …
  first | sl_exec | skip
  try (conv => rhs; simp only [Prog.lift, Prog.bind_op, Prog.bind_ret, Prog.pure_eq_ret, sem_ag0s_0])
  iapply (wp_wait_copyV m c 8 0 1 (by omega) (by decide) K (owedFrom c 2) _
      (hw_waitDma2 (F := Ideal) c 8 0 ((credit_VE0 0 c).trans (amtDma_sendOf 11 0 (Or.inl ⟨by omega, by omega⟩)).symm))) $$ [Cs0 HO Ha8]
  · isplitr; · iexact HI
    isplitl [Cs0]; · iexact Cs0
    isplitl [HO]; · iexact HO
    isplitr; · iapply (mayWait_copy (F := Ideal) c (dsem 8) 0 2 (by omega) (by omega)); iexact Hlev
    iexact Ha8
  iintro ⟨HO, Ha8, #Hr8, HA⟩
  ihave HA := (s1_pay8V_open m c) $$ HA
  icases HA with ⟨%gA, %hgA, HA⟩
  -- … and the partner's block has landed, holding its rows of the gathered activations
  first | sl_exec | skip
  try (conv => rhs; simp only [Prog.lift, Prog.bind_op, Prog.bind_ret, Prog.pure_eq_ret, sem_ag0r_0])
  iapply (wp_wait_copyV m c 11 0 1 (by omega) (by decide) K (owedFrom c 2) _
      (hw_waitDma2 (F := Ideal) c 11 0 (credit_VE0 0 c))) $$ [C0 HO Ha11]
  · isplitr; · iexact HI
    isplitl [C0]; · iexact C0
    isplitl [HO]; · iexact HO
    isplitr; · iapply (mayWait_copy (F := Ideal) c (dsem 11) 0 2 (by omega) (by omega)); iexact Hlev
    iexact Ha11
  iintro ⟨HO, Ha11, #Hr11, HP11⟩
  ihave HP11 := (s1_land11_elim m c) $$ HP11
  icases HP11 with ⟨HA', HG1⟩
  ihave HA' := (s1_owns_open c (VE0 0 (xr 1 c)) fullShare _) $$ HA'
  icases HA' with ⟨%gA', %hgA', HA'⟩
  -- copy 1 is waited for: the same for stream 1
  first | sl_exec | skip
  try (conv => rhs; simp only [Prog.lift, Prog.bind_op, Prog.bind_ret, Prog.pure_eq_ret, sem_ag1s_0])
  iapply (wp_wait_copyV m c 14 0 2 (by omega) (by decide) K (owedFrom c 2) _
      (hw_waitDma2 (F := Ideal) c 14 0 ((credit_VE0 1 c).trans (amtDma_sendOf 17 0 (Or.inl ⟨by omega, by omega⟩)).symm))) $$ [Cs1 HO Ha14]
  · isplitr; · iexact HI
    isplitl [Cs1]; · iexact Cs1
    isplitl [HO]; · iexact HO
    isplitr; · iapply (mayWait_copy (F := Ideal) c (dsem 14) 1 2 (by omega) (by omega)); iexact Hlev
    iexact Ha14
  iintro ⟨HO, Ha14, #Hr14, HD⟩
  ihave HD := (s1_pay14V_open m c) $$ HD
  icases HD with ⟨%gD, %hgD, HD⟩
  -- … and the partner's block
  first | sl_exec | skip
  try (conv => rhs; simp only [Prog.lift, Prog.bind_op, Prog.bind_ret, Prog.pure_eq_ret, sem_ag1r_0])
  iapply (wp_wait_copyV m c 17 0 2 (by omega) (by decide) K (owedFrom c 2) _
      (hw_waitDma2 (F := Ideal) c 17 0 (credit_VE0 1 c))) $$ [C1 HO Ha17]
  · isplitr; · iexact HI
    isplitl [C1]; · iexact C1
    isplitl [HO]; · iexact HO
    isplitr; · iapply (mayWait_copy (F := Ideal) c (dsem 17) 1 2 (by omega) (by omega)); iexact Hlev
    iexact Ha17
  iintro ⟨HO, Ha17, #Hr17, HP17⟩
  ihave HP17 := (s1_land17_elim m c) $$ HP17
  icases HP17 with ⟨HD', HG3⟩
  ihave HD' := (s1_owns_open c (VE0 1 (xr 3 c)) fullShare _) $$ HD'
  icases HD' with ⟨%gD', %hgD', HD'⟩
  ihave HG3 := (grant_elim_at (F := Ideal) (xr 3 c) (VE1 0 c) (agR 0 1) 0 12 (by decide)) $$ HG3
  icases HG3 with ⟨HgB, #HrgB⟩
  first | sl_exec | skip
  try (conv => rhs; simp only [Prog.lift, Prog.bind_op, Prog.bind_ret, Prog.pure_eq_ret])

  -- the own block and the partner's go back into the first gather buffer: the own pair of blocks holds the gathered rows
  ihave Hx0 := (s1_put_back c (VE0 0 c) (((VE2 0 (xr 4 c)).view.set ∪ (VE1 0 (xr 3 c)).view.set) ∪ (VE0 0 (xr 1 c)).view.set) (d0_3 c) X0 gA) $$ [HA Hx0]
  · isplitl [HA]; · iexact HA
    iexact Hx0
  ihave Hx0 := (s1_put_back c (VE0 0 (xr 1 c)) ((VE2 0 (xr 4 c)).view.set ∪ (VE1 0 (xr 3 c)).view.set) (d0_2 c) _ gA') $$ [HA' Hx0]
  · isplitl [HA']; · iexact HA'
    iexact Hx0
  ihave Hx0 := (s1_name_part fullShare _) $$ Hx0
  icases Hx0 with ⟨%Z0, Hx0, %hZ0⟩
  have F0a : rowsAre0 c (A m 0 0) (k0_off3 c 0) 128 ((VE0 0 c).view.set.piecewise gA X0) :=
    join_VE0_0 c c (A m 0 0) (k0_off1 c 0) 128 X0 gA F0 hgA (k0_off3 c 0) 128 (fun row h1 h2 => Or.inl ⟨h1, h2⟩)
  have F0b : rowsAre0 c (A m 0 0) (k0_off5 c 0) 256 Z0 := by
    rw [hZ0]
    exact join_VE0_0 c (xr 1 c) (A m 0 0) (k0_off3 c 0) 128 _ gA' F0a hgA' (k0_off5 c 0) 256 (fun row h1 h2 => by omega)
  have hSB : (VE1 0 c).view.read (Elt Ideal) Z0 = rows256 (A m 0 0) (k0_off5 c 0) :=
    src_VE1_0 c c (A m 0 0) (k0_off5 c 0) 256 Z0 F0b (le_refl _) (le_refl _)
  ihave Hx0 := (s1_cut_next c (VE1 0 c) ((VE2 0 (xr 4 c)).view.set ∪ (VE1 0 (xr 3 c)).view.set) (d0_4 c) Z0) $$ Hx0
  icases Hx0 with ⟨HB, Hx0⟩
  ihave HB := (halves_split (F := Ideal) Z0).1 $$ HB
  icases HB with ⟨HBl, HBr⟩
  -- the slot of the first receive buffer for the partner's third reduce step
  ihave Hy0 := (heldBut_of_whole (F := Ideal) c cc0_scratch6 _) $$ Hy0
  ihave Hy0 := (heldBut_take_view_empty (F := Ideal) c (R2 0)).1 $$ Hy0
  icases Hy0 with ⟨HR2, Hy0⟩
  -- copy 2: the own pair of blocks of stream 0 to c xor 3
  iapply (wp_send_copyV' m c (xr 3 c) _ (dev6_eq c) (VE1 0 c) (VE1 0 c) 9 12 0 3 _ _ sem_ag0s_1 sem_ag0r_1
      (by omega) (by omega) (by decide) (by decide)
      (credit_VE1 0 c) (amtDma_sendOf 12 0 (Or.inl ⟨by omega, by omega⟩)) (grant c (R2 0) (rsR 0 1) 0) fullShare.left Z0
      (s1_payS9V m c Z0) (s1_landR12 m c Z0 hSB) K (owedFrom c 3) (owedFrom_succ c 2 _ rfl) _ (routes3 c)) $$ [HBl HgB HR2 HO T2a T2b]
  · isplitr; · iexact HI
    isplitl [HBl]; · iexact HBl
    isplitl [HgB]; · iexact HgB
    isplitl [HR2]
    · iapply (grant_intro (F := Ideal) c (R2 0) 26 (by omega) (by omega) (rsR 0 1) (by decide))
      isplitr; · iexact HR
      iexact HR2
    isplitl [HO]; · iexact HO
    isplitl [T2a]; · iexact T2a
    isplitr; · iapply (reached_dma (F := Ideal) c 9 (by omega) (by omega)); iexact HR
    isplitl [T2b]; · iexact T2b
    iexact HrgB
  iintro ⟨Cs2, HO⟩
  first | sl_exec | skip
  try (conv => rhs; simp only [Prog.lift, Prog.bind_op, Prog.bind_ret, Prog.pure_eq_ret])
  -- the same for stream 1
  ihave Hx1 := (s1_put_back c (VE0 1 c) (((VE2 1 (xr 1 c)).view.set ∪ (VE1 1 (xr 4 c)).view.set) ∪ (VE0 1 (xr 3 c)).view.set) (d1_3 c) X1 gD) $$ [HD Hx1]
  · isplitl [HD]; · iexact HD
    iexact Hx1
  ihave Hx1 := (s1_put_back c (VE0 1 (xr 3 c)) ((VE2 1 (xr 1 c)).view.set ∪ (VE1 1 (xr 4 c)).view.set) (d1_2 c) _ gD') $$ [HD' Hx1]
  · isplitl [HD']; · iexact HD'
    iexact Hx1
  ihave Hx1 := (s1_name_part fullShare _) $$ Hx1
  icases Hx1 with ⟨%Z1, Hx1, %hZ1⟩
  have F1a : rowsAre1 c (A m 0 1) (k0_off4 c 0) 128 ((VE0 1 c).view.set.piecewise gD X1) :=
    join_VE0_1 c c (A m 0 1) (k0_off2 c 0) 128 X1 gD F1 hgD (k0_off4 c 0) 128 (fun row h1 h2 => Or.inl ⟨h1, h2⟩)
  have F1b : rowsAre1 c (A m 0 1) (k0_off6 c 0) 256 Z1 := by
    rw [hZ1]
    exact join_VE0_1 c (xr 3 c) (A m 0 1) (k0_off4 c 0) 128 _ gD' F1a hgD' (k0_off6 c 0) 256 (fun row h1 h2 => by omega)
  have hSE : (VE1 1 c).view.read (Elt Ideal) Z1 = rows256 (A m 0 1) (k0_off6 c 0) :=
    src_VE1_1 c c (A m 0 1) (k0_off6 c 0) 256 Z1 F1b (le_refl _) (le_refl _)
  ihave Hx1 := (s1_cut_next c (VE1 1 c) ((VE2 1 (xr 1 c)).view.set ∪ (VE1 1 (xr 4 c)).view.set) (d1_4 c) Z1) $$ Hx1
  icases Hx1 with ⟨HE, Hx1⟩
  ihave HE := (halves_split (F := Ideal) Z1).1 $$ HE
  icases HE with ⟨HEl, HEr⟩
  -- copy 3: the own pair of blocks of stream 1 to c xor 4
  iapply (wp_send_copyV' m c (xr 4 c) _ (dev7_eq c) (VE1 1 c) (VE1 1 c) 15 18 0 4 _ _ sem_ag1s_1 sem_ag1r_1
      (by omega) (by omega) (by decide) (by decide)
      (credit_VE1 1 c) (amtDma_sendOf 18 0 (Or.inl ⟨by omega, by omega⟩)) (grant c (VE2 0 (xr 4 c)) (agR 0 2) 0) fullShare.left Z1
      (s1_payS15V m c Z1) (s1_landR18 m c Z1 hSE) K (owedFrom c 4) (owedFrom_succ c 3 _ rfl) _ (routes4 c)) $$ [HEl HgE HC' HO T3a T3b]
  · isplitr; · iexact HI
    isplitl [HEl]; · iexact HEl
    isplitl [HgE]; · iexact HgE
    isplitl [HC']
    · iapply (grant_intro (F := Ideal) c (VE2 0 (xr 4 c)) 13 (by omega) (by omega) (agR 0 2) (by decide))
      isplitr; · iexact HR
      iexact HC'
    isplitl [HO]; · iexact HO
    isplitl [T3a]; · iexact T3a
    isplitr; · iapply (reached_dma (F := Ideal) c 15 (by omega) (by omega)); iexact HR
    isplitl [T3b]; · iexact T3b
    iexact HrE
  iintro ⟨Cs3, HO⟩
  -- the matrix products of the first layer run on the own pair of blocks of each stream while copies 2 and 3 fly
  first | sl_exec | skip
  try (conv => rhs; simp only [Prog.lift, Prog.bind_op, Prog.bind_ret, Prog.pure_eq_ret])
  iapply (wp_load Variants.none (c : Thread nD τ) none Set.univ (sub_off7 c)) $$ [HBr]
  · iexact HBr
  iintro HBr
  first | sl_exec | skip
  try (conv => rhs; simp only [Prog.lift, Prog.bind_op, Prog.bind_ret, Prog.pure_eq_ret])
  iapply (wp_load Variants.none (c : Thread nD τ) none Set.univ (sub_off8 c)) $$ [HEr]
  · iexact HEr
  iintro HEr
  ihave Hs2 := (s1_name_whole c cc0_scratch2 _) $$ Hs2
  icases Hs2 with ⟨%X2, Hs2, %hX2⟩

  have F2 : rowsAre2 c (Pt m 0 0 c) (pairRow 0 c) 256 X2 := by
    rw [hX2, View.writes_singleton, k0_pay6_eq]
    exact mm_store0 m c 0 (k0_off5 c 0) 256 Z0 F0b X8 W8 X9 W9 (k0_off7 c) (k0_off7_inb c) (off7_col c) (by omega) (by omega) _ _ f2

  -- copy 2 is waited for: the lent half comes back, and the own pair of blocks goes back into the buffer …
  first | sl_exec | skip
  try (conv => rhs; simp only [Prog.lift, Prog.bind_op, Prog.bind_ret, Prog.pure_eq_ret, sem_ag0s_1])
  iapply (wp_wait_copyV m c 9 0 3 (by omega) (by decide) K (owedFrom c 4) _
      (hw_waitDma2 (F := Ideal) c 9 0 ((credit_VE1 0 c).trans (amtDma_sendOf 12 0 (Or.inl ⟨by omega, by omega⟩)).symm))) $$ [Cs2 HO Ha9]
  · isplitr; · iexact HI
    isplitl [Cs2]; · iexact Cs2
    isplitl [HO]; · iexact HO
    isplitr; · iapply (mayWait_copy (F := Ideal) c (dsem 9) 2 4 (by omega) (by omega)); iexact Hlev
    iexact Ha9
  iintro ⟨HO, Ha9, #Hr9, HP9⟩
  ihave Hs3 := (s1_name_whole c cc0_scratch3 _) $$ Hs3
  icases Hs3 with ⟨%X3, Hs3, %hX3⟩
  have F3 : rowsAre3 c (Pt m 0 1 c) (pairRow 1 c) 256 X3 := by
    rw [hX3, View.writes_singleton]
    first
      | exact s1_mm_store1' m c (k0_off6 c 0) 256 Z1 F1b X8 W8 X9 W9 (k0_off8 c) (k0_off8_inb c) (off8_col c) (by omega) (by omega) inb_S256x512_S256x512_0_0 inb_S512x256_S512x256_0_0 f3
      | (unfold seg1_okV'.sl.r_8 seg1_okV'.sl.r_9 seg1_okV'.sl.r_10; exact s1_mm_store1' m c (k0_off6 c 0) 256 Z1 F1b X8 W8 X9 W9 (k0_off8 c) (k0_off8_inb c) (off8_col c) (by omega) (by omega) inb_S256x512_S256x512_0_0 inb_S512x256_S512x256_0_0 f3)
      | (delta seg1_okV'.sl.r_8 seg1_okV'.sl.r_9 seg1_okV'.sl.r_10; exact s1_mm_store1' m c (k0_off6 c 0) 256 Z1 F1b X8 W8 X9 W9 (k0_off8 c) (k0_off8_inb c) (off8_col c) (by omega) (by omega) inb_S256x512_S256x512_0_0 inb_S512x256_S512x256_0_0 f3)
      | (simp only [seg1_okV'.sl.r_8, seg1_okV'.sl.r_9, seg1_okV'.sl.r_10]; exact s1_mm_store1' m c (k0_off6 c 0) 256 Z1 F1b X8 W8 X9 W9 (k0_off8 c) (k0_off8_inb c) (off8_col c) (by omega) (by omega) inb_S256x512_S256x512_0_0 inb_S512x256_S512x256_0_0 f3)
  ihave HP9 := (s1_pay9V_elim m c) $$ HP9
  ihave HB := (ownHalf_join (F := Ideal) c (VE1 0 c) Z0) $$ [HP9 HBr]
  · isplitl [HP9]; · iexact HP9
    iexact HBr
  ihave Hx0 := (s1_put_back c (VE1 0 c) ((VE2 0 (xr 4 c)).view.set ∪ (VE1 0 (xr 3 c)).view.set) (d0_4 c) Z0 Z0) $$ [HB Hx0]
  · isplitl [HB]; · iexact HB
    iexact Hx0
  have F0c : rowsAre0 c (A m 0 0) (k0_off5 c 0) 256 ((VE1 0 c).view.set.piecewise Z0 Z0) :=
    join_VE1_0 c c (A m 0 0) (k0_off5 c 0) 256 Z0 Z0 F0b hSB (k0_off5 c 0) 256 (fun row h1 h2 => Or.inl ⟨h1, h2⟩)
  -- … and the partner's pair has landed, holding its rows
  first | sl_exec | skip
  try (conv => rhs; simp only [Prog.lift, Prog.bind_op, Prog.bind_ret, Prog.pure_eq_ret, sem_ag0r_1])
  iapply (wp_wait_copyV m c 12 0 3 (by omega) (by decide) K (owedFrom c 4) _
      (hw_waitDma2 (F := Ideal) c 12 0 (credit_VE1 0 c))) $$ [C2 HO Ha12]
  · isplitr; · iexact HI
    isplitl [C2]; · iexact C2
    isplitl [HO]; · iexact HO
    isplitr; · iapply (mayWait_copy (F := Ideal) c (dsem 12) 2 4 (by omega) (by omega)); iexact Hlev
    iexact Ha12
  iintro ⟨HO, Ha12, #Hr12, HP12⟩
  ihave HP12 := (s1_land12_elim m c) $$ HP12
  icases HP12 with ⟨HB', HG2⟩
  ihave HB' := (s1_owns_open c (VE1 0 (xr 3 c)) fullShare _) $$ HB'
  icases HB' with ⟨%gB', %hgB', HB'⟩
  ihave Hx0 := (s1_put_back c (VE1 0 (xr 3 c)) (VE2 0 (xr 4 c)).view.set (d0_1 c) _ gB') $$ [HB' Hx0]
  · isplitl [HB']; · iexact HB'
    iexact Hx0
  ihave Hx0 := (s1_name_part fullShare _) $$ Hx0
  icases Hx0 with ⟨%V0, Hx0, %hV0⟩
  have F0d : rowsAre0 c (A m 0 0) (quadRow 0 c) 512 V0 := by
    show rowsAre0 c (A m 0 0) (k0_off9 c 0) 512 V0
    rw [hV0]
    exact join_VE1_0 c (xr 3 c) (A m 0 0) (k0_off5 c 0) 256 _ gB' F0c hgB' (k0_off9 c 0) 512 (fun row h1 h2 => by omega)

  -- copy 3 is waited for: the same for stream 1 …
  first | sl_exec | skip
  try (conv => rhs; simp only [Prog.lift, Prog.bind_op, Prog.bind_ret, Prog.pure_eq_ret, sem_ag1s_1])
  iapply (wp_wait_copyV m c 15 0 4 (by omega) (by decide) K (owedFrom c 4) _
      (hw_waitDma2 (F := Ideal) c 15 0 ((credit_VE1 1 c).trans (amtDma_sendOf 18 0 (Or.inl ⟨by omega, by omega⟩)).symm))) $$ [Cs3 HO Ha15]
  · isplitr; · iexact HI
    isplitl [Cs3]; · iexact Cs3
    isplitl [HO]; · iexact HO
    isplitr; · iapply (mayWait_copy (F := Ideal) c (dsem 15) 3 4 (by omega) (by omega)); iexact Hlev
    iexact Ha15
  iintro ⟨HO, Ha15, #Hr15, HP15⟩
  ihave HP15 := (s1_pay15V_elim m c) $$ HP15
  ihave HE := (ownHalf_join (F := Ideal) c (VE1 1 c) Z1) $$ [HP15 HEr]
  · isplitl [HP15]; · iexact HP15
    iexact HEr
  ihave Hx1 := (s1_put_back c (VE1 1 c) ((VE2 1 (xr 1 c)).view.set ∪ (VE1 1 (xr 4 c)).view.set) (d1_4 c) Z1 Z1) $$ [HE Hx1]
  · isplitl [HE]; · iexact HE
    iexact Hx1
  have F1c : rowsAre1 c (A m 0 1) (k0_off6 c 0) 256 ((VE1 1 c).view.set.piecewise Z1 Z1) :=
    join_VE1_1 c c (A m 0 1) (k0_off6 c 0) 256 Z1 Z1 F1b hSE (k0_off6 c 0) 256 (fun row h1 h2 => Or.inl ⟨h1, h2⟩)
  -- … and the partner's pair
  first | sl_exec | skip
  try (conv => rhs; simp only [Prog.lift, Prog.bind_op, Prog.bind_ret, Prog.pure_eq_ret, sem_ag1r_1])
  iapply (wp_wait_copyV m c 18 0 4 (by omega) (by decide) K (owedFrom c 4) _
      (hw_waitDma2 (F := Ideal) c 18 0 (credit_VE1 1 c))) $$ [C3 HO Ha18]
  · isplitr; · iexact HI
    isplitl [C3]; · iexact C3
    isplitl [HO]; · iexact HO
    isplitr; · iapply (mayWait_copy (F := Ideal) c (dsem 18) 3 4 (by omega) (by omega)); iexact Hlev
    iexact Ha18
  iintro ⟨HO, Ha18, #Hr18, HP18⟩
  ihave HP18 := (s1_land18_elim m c) $$ HP18
  icases HP18 with ⟨HE', HG4⟩
  ihave HE' := (s1_owns_open c (VE1 1 (xr 4 c)) fullShare _) $$ HE'
  icases HE' with ⟨%gE', %hgE', HE'⟩
  ihave Hx1 := (s1_put_back c (VE1 1 (xr 4 c)) (VE2 1 (xr 1 c)).view.set (d1_1 c) _ gE') $$ [HE' Hx1]
  · isplitl [HE']; · iexact HE'
    iexact Hx1
  ihave Hx1 := (s1_name_part fullShare _) $$ Hx1
  icases Hx1 with ⟨%V1, Hx1, %hV1⟩
  have F1d : rowsAre1 c (A m 0 1) (quadRow 1 c) 512 V1 := by
    show rowsAre1 c (A m 0 1) (k0_off10 c 0) 512 V1
    rw [hV1]
    exact join_VE1_1 c (xr 4 c) (A m 0 1) (k0_off6 c 0) 256 _ gE' F1c hgE' (k0_off10 c 0) 512 (fun row h1 h2 => by omega)
  first | sl_exec | skip
  try (conv => rhs; simp only [Prog.lift, Prog.bind_op, Prog.bind_ret, Prog.pure_eq_ret])

  -- the first quiet state, with contents
  rw [wp_ret]; imodintro
  isplitr
  · ipureintro; rfl
  iexists K
  unfold QV1 QV localBufsV
  isplitr; · iexact HI
  isplitr; · iexact HR
  isplitr; · iexact Hlev
  isplitl [HaB]; · iexact HaB
  isplitl [Ha8 Ha9 Ha10 Ha11 Ha12 Ha13 Ha14 Ha15 Ha16 Ha17 Ha18 Ha19 Ha20 Ha21 Ha22 Ha23 Ha24 Ha25 Ha26 Ha27 Ha28 Ha29 Ha30 Ha31 Ha32 Ha33 Ha34 Ha35 Ha36 Ha37 Ha38 Ha39]
  · iapply (s1_posAt4_intro c)
    isplitr; · iexact HR
    isplitl [Ha8]; · iexact Ha8
    isplitl [Ha9]; · iexact Ha9
    isplitl [Ha10]; · iexact Ha10
    isplitl [Ha11]; · iexact Ha11
    isplitl [Ha12]; · iexact Ha12
    isplitl [Ha13]; · iexact Ha13
    isplitl [Ha14]; · iexact Ha14
    isplitl [Ha15]; · iexact Ha15
    isplitl [Ha16]; · iexact Ha16
    isplitl [Ha17]; · iexact Ha17
    isplitl [Ha18]; · iexact Ha18
    isplitl [Ha19]; · iexact Ha19
    isplitl [Ha20]; · iexact Ha20
    isplitl [Ha21]; · iexact Ha21
    isplitl [Ha22]; · iexact Ha22
    isplitl [Ha23]; · iexact Ha23
    isplitl [Ha24]; · iexact Ha24
    isplitl [Ha25]; · iexact Ha25
    isplitl [Ha26]; · iexact Ha26
    isplitl [Ha27]; · iexact Ha27
    isplitl [Ha28]; · iexact Ha28
    isplitl [Ha29]; · iexact Ha29
    isplitl [Ha30]; · iexact Ha30
    isplitl [Ha31]; · iexact Ha31
    isplitl [Ha32]; · iexact Ha32
    isplitl [Ha33]; · iexact Ha33
    isplitl [Ha34]; · iexact Ha34
    isplitl [Ha35]; · iexact Ha35
    isplitl [Ha36]; · iexact Ha36
    isplitl [Ha37]; · iexact Ha37
    isplitl [Ha38]; · iexact Ha38
    isplitl [Ha39]; · iexact Ha39
    isplitr; · iexact Hr8
    isplitr; · iexact Hr9
    isplitr; · iexact Hr11
    isplitr; · iexact Hr12
    isplitr; · iexact Hr14
    isplitr; · iexact Hr15
    isplitr; · iexact Hr17
    iexact Hr18
  isplitl [Htoks]; · iexact Htoks
  isplitl [Hcreds]; · iexact Hcreds
  isplitl [HO]; · (iexists _; iexact HO)
  isplitl [Hw0 Hw1 Hw2 Hw3 Hw4 Hw5 Hw6 Hw7 Hs2 Hs3 Hs4 Hs5 Hs8 Hs9]
  · isplitl [Hw0]; · (iapply (s1_bufV_intro c cc0_stg0_0 _ g0 hG0); iapply (s1_ptw_of_setV c cc0_stg0_0 g0); iexact Hw0)
    isplitl [Hw1]; · (iapply (s1_bufV_intro c cc0_stg1_0 _ g1 hG1); iapply (s1_ptw_of_setV c cc0_stg1_0 g1); iexact Hw1)
    isplitl [Hw2]; · (iapply (s1_bufV_intro c cc0_stg2_0 _ g2 hG2); iapply (s1_ptw_of_setV c cc0_stg2_0 g2); iexact Hw2)
    isplitl [Hw3]; · (iapply (s1_bufV_intro c cc0_stg3_0 _ g3 hG3); iapply (s1_ptw_of_setV c cc0_stg3_0 g3); iexact Hw3)
    isplitl [Hw4]; · (iapply (s1_bufV_intro c cc0_stg4_0 _ g4 hG4); iapply (s1_ptw_of_setV c cc0_stg4_0 g4); iexact Hw4)
    isplitl [Hw5]; · (iapply (s1_bufV_intro c cc0_stg5_0 _ g5 hG5); iapply (s1_ptw_of_setV c cc0_stg5_0 g5); iexact Hw5)
    isplitl [Hw6]; · (iapply (s1_bufV_intro c cc0_stg6_0 _ g6 hG6); iapply (s1_ptw_of_setV c cc0_stg6_0 g6); iexact Hw6)
    isplitl [Hw7]; · (iapply (s1_bufV_intro c cc0_stg7_0 (fun _ => True) g7 trivial); iapply (s1_ptw_of_setV c cc0_stg7_0 g7); iexact Hw7)
    isplitl [Hs2]; · (iapply (s1_bufV_intro c cc0_scratch2 (rowsAre2 c (Pt m 0 0 c) (pairRow 0 c) 256) X2 F2); iexact Hs2)
    isplitl [Hs3]; · (iapply (s1_bufV_intro c cc0_scratch3 (rowsAre3 c (Pt m 0 1 c) (pairRow 1 c) 256) X3 F3); iexact Hs3)
    isplitl [Hs4]; · (iapply (s1_bufV_intro c cc0_scratch4 (fun _ => True) _ trivial); iexact Hs4)
    isplitl [Hs5]; · (iapply (s1_bufV_intro c cc0_scratch5 (fun _ => True) _ trivial); iexact Hs5)
    isplitl [Hs8]; · (iapply (s1_bufV_intro c cc0_scratch8 (winIs m c 0) X8 W8); iexact Hs8)
    iapply (s1_bufV_intro c cc0_scratch9 (woutIs m c 0) X9 W9); iexact Hs9
  isplitl [Hx0]; · (iapply (s1_heldButV_intro c cc0_scratch0 _ (rowsAre0 c (A m 0 0) (quadRow 0 c) 512) V0 F0d); iexact Hx0)
  isplitl [Hx1]; · (iapply (s1_heldButV_intro c cc0_scratch1 _ (rowsAre1 c (A m 0 1) (quadRow 1 c) 512) V1 F1d); iexact Hx1)
  isplitl [Hy0]; · (iapply (s1_heldButV_of_heldBut c cc0_scratch6 _); iexact Hy0)
  isplitl [Hy1]; · (iapply (s1_heldButV_of_heldBut c cc0_scratch7 ∅); iapply (heldBut_of_whole (F := Ideal) c cc0_scratch7 _); iexact Hy1)
  isplitl [HG4]; · iexact HG4
  isplitl [HG1]; · iexact HG1
  iexact HG2

/-- Segment 1 with contents. -/
theorem seg1_okV (c : Dev nD) : SpecV1 m c := fun Y hY => seg1_okV' m c Y (win_of_finds m c Y hY)

/-- info: 'Cert.KernelIdeal.Val.seg1_okV' depends on axioms: [propext, Classical.choice, Quot.sound] -/
#guard_msgs in #print axioms seg1_okV

end Cert.KernelIdeal.Val
end
-- ==== Proof.KernelIdeal.SegV10.lean ====
/- Segment 10 with contents (ideal instance): the second exchange of the last layer, the gathered rows and the
   partial products named. -/
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StepsV
import proofs.«900979_g7700000000000980_dist_mlpseq_tp1d_bs_bs_b256_d256_h512_v7x_i8_bf16_1_alg».proof.Proof.KernelIdeal.StepsVP
import proofs.«900979_g7700000000000980_dist_mlpseq_tp1d_bs_bs_b256_d256_h512_v7x_i8_bf16_1_alg».proof.Proof.KernelIdeal.ValLemmas
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.ValSteps
import proofs.«900979_g7700000000000980_dist_mlpseq_tp1d_bs_bs_b256_d256_h512_v7x_i8_bf16_1_alg».proof.Proof.KernelIdeal.QuietLemmas
import proofs.«900979_g7700000000000980_dist_mlpseq_tp1d_bs_bs_b256_d256_h512_v7x_i8_bf16_1_alg».proof.Proof.KernelIdeal.SegE

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

local notation "𝕄" => MT nD τ sig ℕ (Elt Ideal) ℕ UU ℕ

/-! # Segment 10 with contents

At the quiet point after 26 copies the first gather buffer holds the last layer's activations on the device's own
pair of row blocks; the second stream's pair is still in a register: it is the first thing the segment stores. Each
stream's pair then goes to the partner of the second exchange while the partner's pair lands, so each gather buffer
holds the activations on the device's four blocks; the two partial products read the own pair and leave the device's
partial of the last layer on those rows of the accumulators. -/

variable (m : Mem)

namespace Seg10

/-! ## Small facts about states with contents -/

theorem heldButV_forget (c : Dev nD) (b : Ref sig .tc) (A : Finset (Idx ((Memref.whole b).view.loc (c : Thread nD τ))))
    (P : Buf (Elt Ideal) ((Memref.whole b).view.loc (c : Thread nD τ)) → Prop) :
    heldButV c b A P ⊢ heldBut (F := Ideal) c b A := by
  unfold heldButV heldBut
  iintro ⟨%f, H, %hf⟩
  iexists f
  iexact H

theorem heldBut_toV (c : Dev nD) (b : Ref sig .tc) (A : Finset (Idx ((Memref.whole b).view.loc (c : Thread nD τ)))) :
    heldBut (F := Ideal) c b A ⊢ heldButV c b A (fun _ => True) := by
  unfold heldButV heldBut
  iintro ⟨%f, H⟩
  iexists f
  isplitl [H]
  · iexact H
  · ipureintro; trivial

theorem heldButV_of (c : Dev nD) (b : Ref sig .tc) (A : Finset (Idx ((Memref.whole b).view.loc (c : Thread nD τ))))
    (P : Buf (Elt Ideal) ((Memref.whole b).view.loc (c : Thread nD τ)) → Prop)
    (f : Buf (Elt Ideal) ((Memref.whole b).view.loc (c : Thread nD τ))) (h : P f) :
    ((Memref.whole b).view.loc (c : Thread nD τ) ↦[Finset.univ \ A]{fullShare} f : sProp 𝕄) ⊢ heldButV c b A P := by
  unfold heldButV
  iintro H
  iexists f
  isplitl [H]
  · iexact H
  · ipureintro; exact h

/-- The same contents on and off a set. -/
theorem pw_same {ι : Type} {π : ι → Type} (s : Finset ι) (f : ∀ i, π i) [∀ j, Decidable (j ∈ s)] : s.piecewise f f = f := by
  funext i
  by_cases h : i ∈ s
  · rw [Finset.piecewise_eq_of_mem _ _ _ h]
  · rw [Finset.piecewise_eq_of_notMem _ _ _ h]

theorem sdiff_swap {α : Type} [Fintype α] [DecidableEq α] (A B : Finset α) :
    (Finset.univ \ A) \ B = (Finset.univ \ B) \ A := sdiff_right_comm _ _ _

theorem pairRow0 (c : Dev nD) : pairRow 0 c = k0_off7 c 0 := rfl
theorem pairRow1 (c : Dev nD) : pairRow 1 c = k0_off8 c 0 := rfl
theorem quadRow0 (c : Dev nD) : quadRow 0 c = k0_off9 c 0 := rfl
theorem quadRow1 (c : Dev nD) : quadRow 1 c = k0_off10 c 0 := rfl

/-! ## Where the rows of segment 10 lie -/

theorem off18_eq8 : ∀ c : Dev nD, k0_off18 c 0 = k0_off8 c 0 := by decide +kernel
theorem off5_eq7 : ∀ c : Dev nD, k0_off5 c 0 = k0_off7 c 0 := by decide +kernel
theorem off6_eq8 : ∀ c : Dev nD, k0_off6 c 0 = k0_off8 c 0 := by decide +kernel
/-- The own pair and the pair of the partner across mask 3 are the two halves of the own four blocks (stream 0). -/
theorem quad0_halves : ∀ c : Dev nD, (k0_off7 c 0 = k0_off9 c 0 ∧ k0_off5 (xr 3 c) 0 = k0_off9 c 0 + 256)
    ∨ (k0_off5 (xr 3 c) 0 = k0_off9 c 0 ∧ k0_off7 c 0 = k0_off9 c 0 + 256) := by decide +kernel
/-- The own pair and the pair of the partner across mask 4 are the two halves of the own four blocks (stream 1). -/
theorem quad1_halves : ∀ c : Dev nD, (k0_off8 c 0 = k0_off10 c 0 ∧ k0_off6 (xr 4 c) 0 = k0_off10 c 0 + 256)
    ∨ (k0_off6 (xr 4 c) 0 = k0_off10 c 0 ∧ k0_off8 c 0 = k0_off10 c 0 + 256) := by decide +kernel

/-! ## The weight buffers read whole -/

theorem full8_apply (c : Dev nD) (w8 : Buf (Elt Ideal) ((Memref.whole cc0_scratch8).view.loc (c : Thread nD τ))) (e : Fin 256) (k : Fin 512) :
    (Memref.whole cc0_scratch8).view.readAt (Elt Ideal) (Rect.unit (s := S256x512) ![0, 0] S256x512.size inb_S256x512_S256x512_0_0).toLoadRect w8 (ValueIdx.ix2 e k) = w8 (ValueIdx.ix2 e k) := by
  show w8 ((Rect.unit (s := S256x512) ![0, 0] S256x512.size inb_S256x512_S256x512_0_0).emb (ValueIdx.ix2 e k)) = _
  congr 1
  funext a
  apply Fin.ext
  match a with
  | ⟨0, _⟩ => show 0 + 1 * e.val = e.val; omega
  | ⟨1, _⟩ => show 0 + 1 * k.val = k.val; omega

theorem full9_apply (c : Dev nD) (w9 : Buf (Elt Ideal) ((Memref.whole cc0_scratch9).view.loc (c : Thread nD τ))) (k : Fin 512) (col : Fin 256) :
    (Memref.whole cc0_scratch9).view.readAt (Elt Ideal) (Rect.unit (s := S512x256) ![0, 0] S512x256.size inb_S512x256_S512x256_0_0).toLoadRect w9 (ValueIdx.ix2 k col) = w9 (ValueIdx.ix2 k col) := by
  show w9 ((Rect.unit (s := S512x256) ![0, 0] S512x256.size inb_S512x256_S512x256_0_0).emb (ValueIdx.ix2 k col)) = _
  congr 1
  funext a
  apply Fin.ext
  match a with
  | ⟨0, _⟩ => show 0 + 1 * k.val = k.val; omega
  | ⟨1, _⟩ => show 0 + 1 * col.val = col.val; omega

/-! ## What the three stores of the segment leave -/

/-- The stored register is the second stream's own pair of the last layer's activations. -/
theorem st10_gather (c : Dev nD) (v1191 : FVec Ideal S256x256 .bf16)
    (hin : ∀ y : S256x256.Idx, v1191 y = rows256 (A m 2 1) (pairRow 1 c) y)
    (f1 : Buf (Elt Ideal) ((Memref.whole cc0_scratch1).view.loc (c : Thread nD τ))) :
    rowsAre1 c (A m 2 1) (pairRow 1 c) 256
      (((Memref.whole cc0_scratch1).access (Rect.unit (s := S1024x256) (k0_off18 c) S256x256.size (k0_off18_inb c))).write (Elt Ideal) f1 (k0_pay67 (F := Ideal) v1191) Finset.univ) := by
  have h := store_new1 c (A m 2 1) f1 (k0_off18 c) S256x256.size (k0_off18_inb c) (off18_col c) rfl (k0_pay67 (F := Ideal) v1191)
    (fun y => by
      rw [k0_pay67_apply, hin y]
      show nat2 (A m 2 1) (pairRow 1 c + (y 0).val) (y 1).val = _
      rw [pairRow1, off18_eq8])
  rw [pairRow1, ← off18_eq8]
  exact h

/-- The rows' product of the own pair of stream 0 is the device's partial on those rows. -/
theorem st10_acc0 (c : Dev nD) (f0 : Buf (Elt Ideal) ((Memref.whole cc0_scratch0).view.loc (c : Thread nD τ)))
    (hf0 : rowsAre0 c (A m 2 0) (pairRow 0 c) 256 f0)
    (w8 : Buf (Elt Ideal) ((Memref.whole cc0_scratch8).view.loc (c : Thread nD τ))) (hw8 : winIs m c 2 w8)
    (w9 : Buf (Elt Ideal) ((Memref.whole cc0_scratch9).view.loc (c : Thread nD τ))) (hw9 : woutIs m c 2 w9)
    (a2 : Buf (Elt Ideal) ((Memref.whole cc0_scratch2).view.loc (c : Thread nD τ))) :
    rowsAre2 c (Pt m 2 0 c) (pairRow 0 c) 256
      (((Memref.whole cc0_scratch2).access (Rect.unit (s := S1024x256) (k0_off7 c) S256x256.size (k0_off7_inb c))).write (Elt Ideal) a2
        (k0_pay68 (F := Ideal) ((Memref.whole cc0_scratch0).view.readAt (Elt Ideal) (Rect.unit (s := S1024x256) (k0_off7 c) S256x256.size (k0_off7_inb c)).toLoadRect f0)
          ((Memref.whole cc0_scratch8).view.readAt (Elt Ideal) (Rect.unit (s := S256x512) ![0, 0] S256x512.size inb_S256x512_S256x512_0_0).toLoadRect w8)
          ((Memref.whole cc0_scratch9).view.readAt (Elt Ideal) (Rect.unit (s := S512x256) ![0, 0] S512x256.size inb_S512x256_S512x256_0_0).toLoadRect w9)) Finset.univ) := by
  have hx := load_rows0 c (A m 2 0) (pairRow 0 c) 256 f0 hf0 (k0_off7 c) S256x256.size (k0_off7_inb c) (off7_col c)
    (le_of_eq (pairRow0 c)) (le_of_eq (by rw [pairRow0]; rfl))
  have hb : k0_off7 c 0 + 256 ≤ 1024 := k0_off7_inb c 0
  rw [pairRow0]
  refine store_new2 c (Pt m 2 0 c) a2 (k0_off7 c) S256x256.size (k0_off7_inb c) (off7_col c) rfl _ (fun y => ?_)
  obtain ⟨r, col, rfl⟩ : ∃ (r : Fin 256) (col : Fin 256), y = ValueIdx.ix2 r col := ⟨y 0, y 1, ValueIdx.eq_ix2 y⟩
  have hr : k0_off7 c 0 + r.val < 1024 := by have := r.isLt; omega
  show k0_pay68 (F := Ideal) _ _ _ (ValueIdx.ix2 r col) = nat2 (Pt m 2 0 c) (k0_off7 c 0 + r.val) col.val
  rw [k0_pay68_eq, nat2_eq _ _ _ hr col.isLt]
  exact mmRows_partOf m 2 c (A m 2 0) ⟨k0_off7 c 0 + r.val, hr⟩ _ _ _ r col
    (fun e => (congrFun hx (ValueIdx.ix2 r e)).trans (nat2_eq _ _ _ hr e.isLt))
    (fun e k => (full8_apply c w8 e k).trans (hw8 e k))
    (fun k => (full9_apply c w9 k col).trans (hw9 k col))

/-- The same for stream 1. -/
theorem st10_acc1 (c : Dev nD) (g1 : Buf (Elt Ideal) ((Memref.whole cc0_scratch1).view.loc (c : Thread nD τ)))
    (hg1 : rowsAre1 c (A m 2 1) (pairRow 1 c) 256 g1)
    (w8 : Buf (Elt Ideal) ((Memref.whole cc0_scratch8).view.loc (c : Thread nD τ))) (hw8 : winIs m c 2 w8)
    (w9 : Buf (Elt Ideal) ((Memref.whole cc0_scratch9).view.loc (c : Thread nD τ))) (hw9 : woutIs m c 2 w9)
    (a3 : Buf (Elt Ideal) ((Memref.whole cc0_scratch3).view.loc (c : Thread nD τ))) :
    rowsAre3 c (Pt m 2 1 c) (pairRow 1 c) 256
      (((Memref.whole cc0_scratch3).access (Rect.unit (s := S1024x256) (k0_off8 c) S256x256.size (k0_off8_inb c))).write (Elt Ideal) a3
        (k0_pay69 (F := Ideal) ((Memref.whole cc0_scratch1).view.readAt (Elt Ideal) (Rect.unit (s := S1024x256) (k0_off8 c) S256x256.size (k0_off8_inb c)).toLoadRect g1)
          ((Memref.whole cc0_scratch8).view.readAt (Elt Ideal) (Rect.unit (s := S256x512) ![0, 0] S256x512.size inb_S256x512_S256x512_0_0).toLoadRect w8)
          ((Memref.whole cc0_scratch9).view.readAt (Elt Ideal) (Rect.unit (s := S512x256) ![0, 0] S512x256.size inb_S512x256_S512x256_0_0).toLoadRect w9)) Finset.univ) := by
  have hx := load_rows1 c (A m 2 1) (pairRow 1 c) 256 g1 hg1 (k0_off8 c) S256x256.size (k0_off8_inb c) (off8_col c)
    (le_of_eq (pairRow1 c)) (le_of_eq (by rw [pairRow1]; rfl))
  have hb : k0_off8 c 0 + 256 ≤ 1024 := k0_off8_inb c 0
  rw [pairRow1]
  refine store_new3 c (Pt m 2 1 c) a3 (k0_off8 c) S256x256.size (k0_off8_inb c) (off8_col c) rfl _ (fun y => ?_)
  obtain ⟨r, col, rfl⟩ : ∃ (r : Fin 256) (col : Fin 256), y = ValueIdx.ix2 r col := ⟨y 0, y 1, ValueIdx.eq_ix2 y⟩
  have hr : k0_off8 c 0 + r.val < 1024 := by have := r.isLt; omega
  show k0_pay69 (F := Ideal) _ _ _ (ValueIdx.ix2 r col) = nat2 (Pt m 2 1 c) (k0_off8 c 0 + r.val) col.val
  rw [k0_pay69_eq, nat2_eq _ _ _ hr col.isLt]
  exact mmRows_partOf m 2 c (A m 2 1) ⟨k0_off8 c 0 + r.val, hr⟩ _ _ _ r col
    (fun e => (congrFun hx (ValueIdx.ix2 r e)).trans (nat2_eq _ _ _ hr e.isLt))
    (fun e k => (full8_apply c w8 e k).trans (hw8 e k))
    (fun k => (full9_apply c w9 k col).trans (hw9 k col))

/-! ## The quiet state opened -/

theorem QV_eq (K : GSem nD τ sig → ℕ) (c : Dev nD) (k₀ : ℕ) (lw : Fin 3)
    (out : Buf (Elt Ideal) ((Memref.whole cc0_stg7_0).view.loc (c : Thread nD τ)) → Prop)
    (P0 : Buf (Elt Ideal) ((Memref.whole cc0_scratch0).view.loc (c : Thread nD τ)) → Prop) (P1 : Buf (Elt Ideal) ((Memref.whole cc0_scratch1).view.loc (c : Thread nD τ)) → Prop) (P2 : Buf (Elt Ideal) ((Memref.whole cc0_scratch2).view.loc (c : Thread nD τ)) → Prop) (P3 : Buf (Elt Ideal) ((Memref.whole cc0_scratch3).view.loc (c : Thread nD τ)) → Prop) (P4 : Buf (Elt Ideal) ((Memref.whole cc0_scratch4).view.loc (c : Thread nD τ)) → Prop) (P5 : Buf (Elt Ideal) ((Memref.whole cc0_scratch5).view.loc (c : Thread nD τ)) → Prop) (P6 : Buf (Elt Ideal) ((Memref.whole cc0_scratch6).view.loc (c : Thread nD τ)) → Prop) (P7 : Buf (Elt Ideal) ((Memref.whole cc0_scratch7).view.loc (c : Thread nD τ)) → Prop)
    (A0 : Finset (Idx ((Memref.whole cc0_scratch0).view.loc (c : Thread nD τ)))) (A1 : Finset (Idx ((Memref.whole cc0_scratch1).view.loc (c : Thread nD τ))))
    (A6 : Finset (Idx ((Memref.whole cc0_scratch6).view.loc (c : Thread nD τ)))) (A7 : Finset (Idx ((Memref.whole cc0_scratch7).view.loc (c : Thread nD τ))))
    (Gr : sProp 𝕄) :
    QV m K c k₀ lw out P0 P1 P2 P3 P4 P5 P6 P7 A0 A1 A6 A7 Gr
      = iprop(invsAllV m K ∗ reachedAll ∗ levAts L lv ∗ atPos ER (barCell c) 1 ∅ 0
        ∗ posAt c (roundsDone k₀) ∗ toksCopies c k₀ (copyTab.drop k₀) ∗ credsCopies c k₀ (copyTab.drop k₀)
        ∗ (∃ W, owes (c : Thread nD τ) (owedFrom c k₀) W)
        ∗ localBufsV m c lw out P2 P3 P4 P5
        ∗ heldButV c cc0_scratch0 A0 P0 ∗ heldButV c cc0_scratch1 A1 P1
        ∗ heldButV c cc0_scratch6 A6 P6 ∗ heldButV c cc0_scratch7 A7 P7 ∗ Gr) := rfl

theorem localBufsV_eq (c : Dev nD) (lw : Fin 3)
    (out : Buf (Elt Ideal) ((Memref.whole cc0_stg7_0).view.loc (c : Thread nD τ)) → Prop)
    (P2 : Buf (Elt Ideal) ((Memref.whole cc0_scratch2).view.loc (c : Thread nD τ)) → Prop) (P3 : Buf (Elt Ideal) ((Memref.whole cc0_scratch3).view.loc (c : Thread nD τ)) → Prop) (P4 : Buf (Elt Ideal) ((Memref.whole cc0_scratch4).view.loc (c : Thread nD τ)) → Prop) (P5 : Buf (Elt Ideal) ((Memref.whole cc0_scratch5).view.loc (c : Thread nD τ)) → Prop) :
    localBufsV m c lw out P2 P3 P4 P5
      = iprop(bufV c cc0_stg0_0 (fun f => ∀ i, f i = m ((c : Thread nD τ).loc main_arg0) i)
        ∗ bufV c cc0_stg1_0 (fun f => ∀ i, f i = m ((c : Thread nD τ).loc main_arg1) i)
        ∗ bufV c cc0_stg2_0 (fun f => ∀ i, f i = m ((c : Thread nD τ).loc main_arg2) i)
        ∗ bufV c cc0_stg3_0 (fun f => ∀ i, f i = m ((c : Thread nD τ).loc main_arg3) i)
        ∗ bufV c cc0_stg4_0 (fun f => ∀ i, f i = m ((c : Thread nD τ).loc main_arg4) i)
        ∗ bufV c cc0_stg5_0 (fun f => ∀ i, f i = m ((c : Thread nD τ).loc main_arg5) i)
        ∗ bufV c cc0_stg6_0 (fun f => ∀ i, f i = m ((c : Thread nD τ).loc main_arg6) i)
        ∗ bufV c cc0_stg7_0 out
        ∗ bufV c cc0_scratch2 P2 ∗ bufV c cc0_scratch3 P3 ∗ bufV c cc0_scratch4 P4 ∗ bufV c cc0_scratch5 P5
        ∗ bufV c cc0_scratch8 (winIs m c lw) ∗ bufV c cc0_scratch9 (woutIs m c lw)) := rfl

theorem bufV_elim (c : Dev nD) (b : Ref sig .tc) (P : Buf (Elt Ideal) ((Memref.whole b).view.loc (c : Thread nD τ)) → Prop) :
    bufV c b P ⊢ iprop(∃ f, ptw (F := Ideal) c b f ∗ ⌜P f⌝) := by
  unfold bufV; exact Entails.refl _

theorem bufV_of (c : Dev nD) (b : Ref sig .tc) (P : Buf (Elt Ideal) ((Memref.whole b).view.loc (c : Thread nD τ)) → Prop)
    (f : Buf (Elt Ideal) ((Memref.whole b).view.loc (c : Thread nD τ))) (h : P f) :
    ptw (F := Ideal) c b f ⊢ bufV c b P := by
  unfold bufV
  iintro H
  iexists f
  isplitl [H]
  · iexact H
  · ipureintro; exact h

theorem heldButV_elim (c : Dev nD) (b : Ref sig .tc) (A : Finset (Idx ((Memref.whole b).view.loc (c : Thread nD τ))))
    (P : Buf (Elt Ideal) ((Memref.whole b).view.loc (c : Thread nD τ)) → Prop) :
    heldButV c b A P ⊢ iprop(∃ f : Buf (Elt Ideal) ((Memref.whole b).view.loc (c : Thread nD τ)),
      ((Memref.whole b).view.loc (c : Thread nD τ) ↦[Finset.univ \ A]{fullShare} f) ∗ ⌜P f⌝) := by
  unfold heldButV; exact Entails.refl _

theorem owns_elim (c : Dev nD) {s : Shape} {e : EltTy} (M : Memref sig .tc .vmem s e) (X : s.Idx → Elt Ideal e) :
    (owns (c : Thread nD τ) M fullShare X : sProp 𝕄)
      ⊢ iprop(∃ f, ⌜M.view.read (Elt Ideal) f = X⌝ ∗ (M.view.loc (c : Thread nD τ) ↦[M.view.set]{fullShare} f)) := by
  unfold owns; exact Entails.refl _

end Seg10

open Seg10

/-! ## Segment 10 -/

set_option maxHeartbeats 2000000 in
/-- Segment 10 with contents. Handed in: the second stream's own pair of the last layer's activations, still in a
    register. Before: the first gather buffer holds the activations on the own pair. After: both gather buffers hold
    them on the own four blocks, and the accumulators hold the device's partial of the last layer on the own pair. -/
theorem seg10_okV (c : Dev nD) (v2 v11 : BitVec 32) (v1191 : FVec Ideal S256x256 .bf16)
    (hin : ∀ y : S256x256.Idx, v1191 y = rows256 (A m 2 1) (pairRow 1 c) y) :
    (iprop(∃ K, QV m K c 26 2 (fun _ => True) (rowsAre0 c (A m 2 0) (pairRow 0 c) 256) (fun _ => True) (fun _ => True) (fun _ => True) (fun _ => True) (fun _ => True) (fun _ => True) (fun _ => True)
        (VE1 0 (xr 3 c)).view.set ((VE1 1 (xr 4 c)).view.set ∪ (VE2 1 (xr 1 c)).view.set) ∅ ∅
        iprop(grant (xr 3 c) (VE1 0 c) (agR 0 1) 2 ∗ grant (xr 4 c) (VE1 1 c) (agR 1 1) 2 ∗ grant (xr 1 c) (VE2 1 c) (agR 1 2) 2)) : sProp 𝕄)
      ⊢ wp frame (wpE (defs₀ (F := Ideal)) Variants.none (c : Thread nD τ) none) Set.univ
          (seg10 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v11 v1191)
          (fun _ => iprop(∃ K, QV m K c 28 2 (fun _ => True) (rowsAre0 c (A m 2 0) (quadRow 0 c) 512) (rowsAre1 c (A m 2 1) (quadRow 1 c) 512) (rowsAre2 c (Pt m 2 0 c) (pairRow 0 c) 256) (rowsAre3 c (Pt m 2 1 c) (pairRow 1 c) 256) (fun _ => True) (fun _ => True) (fun _ => True) (fun _ => True)
            (VE2 0 (xr 4 c)).view.set (VE2 1 (xr 1 c)).view.set (R2 0).view.set ∅
            iprop(grant (xr 4 c) (VE2 0 c) (agR 0 2) 2 ∗ grant (xr 1 c) (VE2 1 c) (agR 1 2) 2 ∗ grant (xr 3 c) (R2 0) (rsR 0 1) 2))) := by
  have hdA := geo10_rect18 c
  have hA0B' := geo10_A0B' c
  have hB0sub : (VE1 0 c).view.set ⊆ (Finset.univ \ (VE1 0 (xr 3 c)).view.set) \ (VE2 0 (xr 4 c)).view.set :=
    Finset.subset_sdiff.mpr ⟨Finset.subset_sdiff.mpr ⟨Finset.subset_univ _, disj_VE1_0 c⟩, geo10_B0B' c⟩
  have hAB1 : Disjoint ((VE1 1 (xr 4 c)).view.set ∪ (VE2 1 (xr 1 c)).view.set) (VE1 1 c).view.set :=
    Finset.disjoint_union_left.mpr ⟨(disj_VE1_1 c).symm, geo10_A2B1 c⟩
  have hA2A1 := geo10_A2A1 c
  have hsub7 := geo10_sub7 c
  have hsub8 := geo10_sub8 c
  have hroute3 : τ.routes (c : Thread nD τ) (xr 3 c : Thread nD τ) = true := Topo.routes_tc _ _
  have hroute4 : τ.routes (c : Thread nD τ) (xr 4 c : Thread nD τ) = true := Topo.routes_tc _ _
  refine exists_elim fun K => ?_
  rw [QV_eq, localBufsV_eq, posAt_26, toks_seg_26, creds_seg_26,
    show (agR 0 1 : DmaSem sig) = dsem 12 from by decide, show (agR 1 1 : DmaSem sig) = dsem 18 from by decide]
  iintro ⟨#HI, #HR, #Hlev, HatB, ⟨Ha8, Hr8, Ha9, Hr9, Ha10, Hr10, Ha11, Hr11, Ha12, Hr12, Ha13, #Hr13, Ha14, Hr14, Ha15, Hr15, Ha16, Hr16, Ha17, Hr17, Ha18, Hr18, Ha19, Hr19, Ha20, Hr20, Ha21, Hr21, Ha22, Hr22, Ha23, Hr23, Ha24, Hr24, Ha25, Hr25, Ha26, #Hr26, Ha27, Hr27, Ha28, Hr28, Ha29, Hr29, Ha30, Hr30, Ha31, Hr31, Ha32, Hr32, Ha33, Hr33, Ha34, Hr34, Ha35, Hr35, Ha36, Hr36, Ha37, Hr37, Ha38, Hr38, Ha39, Hr39⟩, ⟨⟨Ht9, Ht12⟩, ⟨Ht15, Ht18⟩, Htoks⟩, ⟨Hc12, Hc18, Hcreds⟩, ⟨%W, HO⟩, ⟨Hl0, Hl1, Hl2, Hl3, Hl4, Hl5, Hl6, Hl7, HS2, HS3, HS4, HS5, HS8, HS9⟩, Hs0, Hs1, Hs6, Hs7, Hg3, Hg4, Hg1⟩
  -- the program: nineteen operations
  unfold seg10
  rw [k0_part39_eq_skeleton, k0_part40_eq_skeleton, k0_part41_eq_skeleton]
  unfold k0_part39_skel k0_part40_skel k0_part41_skel
  simp only [Prog.lift, Prog.bind_op, Prog.bind_ret, Prog.pure_eq_ret, Prog.bind_assoc]
  ihave Hs1 := (heldButV_elim c cc0_scratch1 _ _) $$ Hs1
  icases Hs1 with ⟨%f1, Hs1, %hf1⟩
  ihave Hs0 := (heldButV_elim c cc0_scratch0 _ _) $$ Hs0
  icases Hs0 with ⟨%f0, Hs0, %hf0⟩
  ihave Hs6 := (heldButV_forget c cc0_scratch6 _ _) $$ Hs6
  -- the read and the store on the second gather buffer: the register handed in becomes the own pair of stream 1
  iapply (wp_load Variants.none (c : Thread nD τ) none Set.univ (load_ok_but cc0_scratch1 _ _ hdA)) $$ [Hs1]
  · iexact Hs1
  iintro Hs1
  iapply (wp_store Variants.none (c : Thread nD τ) none Set.univ (store_ok_but cc0_scratch1 _ _ _ hdA)) $$ [Hs1]
  · iexact Hs1
  iintro Hs1
  ihave Hs1 := (heldButV_of c cc0_scratch1 _ (rowsAre1 c (A m 2 1) (pairRow 1 c) 256) _ (st10_gather m c v1191 hin f1)) $$ Hs1
  ihave Hs1 := (heldButV_elim c cc0_scratch1 _ _) $$ Hs1
  icases Hs1 with ⟨%g1, Hs1, %hg1⟩
  -- what the two sources hold, and what each copy hands the partner: the landed pair at its contents, and the own slot
  have hsrc0 : (VE1 0 c).view.read (Elt Ideal) f0 = rows256 (A m 2 0) (k0_off5 c 0) :=
    src_VE1_0 c c (A m 2 0) (pairRow 0 c) 256 f0 hf0 (le_of_eq (by rw [pairRow0, off5_eq7])) (le_of_eq (by rw [pairRow0, off5_eq7]))
  have hsrc1 : (VE1 1 c).view.read (Elt Ideal) g1 = rows256 (A m 2 1) (k0_off6 c 0) :=
    src_VE1_1 c c (A m 2 1) (pairRow 1 c) 256 g1 hg1 (le_of_eq (by rw [pairRow1, off6_eq8])) (le_of_eq (by rw [pairRow1, off6_eq8]))
  have hpayS26 : ((VE1 0 c).view.loc (c : Thread nD τ) ↦[(VE1 0 c).view.set]{fullShare.left} f0 : sProp 𝕄) ⊢ payDmaV m c 9 2 := by
    show _ ⊢ ownHalf (F := Ideal) c (VE1 0 c)
    exact ownHalf_of c (VE1 0 c) f0
  have hpayS27 : ((VE1 1 c).view.loc (c : Thread nD τ) ↦[(VE1 1 c).view.set]{fullShare.left} g1 : sProp 𝕄) ⊢ payDmaV m c 15 2 := by
    show _ ⊢ ownHalf (F := Ideal) c (VE1 1 c)
    exact ownHalf_of c (VE1 1 c) g1
  have hpayR26 : ∀ fd : Buf (Elt Ideal) ((VE1 0 c).view.loc ((xr 3 c : Dev nD) : Thread nD τ)),
      iprop(((VE1 0 c).view.loc ((xr 3 c : Dev nD) : Thread nD τ) ↦[(VE1 0 c).view.set]{fullShare}
            ((VE1 0 c).view.write (Elt Ideal) fd ((VE1 0 c).view.read (Elt Ideal) f0) Finset.univ))
          ∗ (ownAt (F := Ideal) c (R2 0) ∗ reached ER (dcell c (dsem 26)) 2)) ⊢ payDmaV m (xr 3 c) 12 2 :=
    fun fd => payR12V m c 2 f0 hsrc0 fd
  have hpayR27 : ∀ fd : Buf (Elt Ideal) ((VE1 1 c).view.loc ((xr 4 c : Dev nD) : Thread nD τ)),
      iprop(((VE1 1 c).view.loc ((xr 4 c : Dev nD) : Thread nD τ) ↦[(VE1 1 c).view.set]{fullShare}
            ((VE1 1 c).view.write (Elt Ideal) fd ((VE1 1 c).view.read (Elt Ideal) g1) Finset.univ))
          ∗ (ownAt (F := Ideal) c (VE2 0 (xr 4 c)) ∗ reached ER (dcell c (dsem 13)) 2)) ⊢ payDmaV m (xr 4 c) 18 2 :=
    fun fd => payR18V m c 2 g1 hsrc1 fd
  -- out of the first gather buffer: the slot handed over with the second copy, then the first copy's source, half of it lent
  ihave Hsp := (rest_split (F := Ideal) hA0B' f0).1 $$ Hs0
  icases Hsp with ⟨HB', Hs0⟩
  ihave Hsp := (pointsTo_split_subset hB0sub).1 $$ Hs0
  icases Hsp with ⟨Hsrc0, Hs0⟩
  ihave Hh := (halves_split (F := Ideal) f0).1 $$ Hsrc0
  icases Hh with ⟨HsrcL0, HsrcR0⟩
  ihave Hr2 := (heldBut_take_view_empty (F := Ideal) c (R2 0)).1 $$ Hs6
  icases Hr2 with ⟨HR2, Hs6⟩
  unfold grant
  icases Hg3 with ⟨Hd3, #Hrp3⟩
  icases Hg4 with ⟨Hd4, #Hrp4⟩
  -- copy 26: the own pair of blocks of stream 0 to the partner across mask 3
  iapply (wp_send_copyV' m c (xr 3 c) _ (dev30_eq c) (VE1 0 c) (VE1 0 c) 9 12 2 27 _ _ sem_ag0s_1 sem_ag0r_1
      (by decide) (by decide) (by decide) (by decide) ((credit_VE1 0 c).trans rfl) rfl
      (iprop(ownAt c (R2 0) ∗ reached ER (dcell c (dsem 26)) 2)) fullShare.left f0
      hpayS26 hpayR26 K (owedFrom c 27) (owedFrom_succ c 26 (3, 12, 2) rfl) W hroute3) $$ [HsrcL0 Hd3 HR2 HO Ht9 Hr9 Ht12]
  · isplitr; · iexact HI
    isplitl [HsrcL0]; · iexact HsrcL0
    isplitl [Hd3]; · iexact Hd3
    isplitl [HR2]
    · isplitl [HR2]; · iexact HR2
      iexact Hr26
    isplitl [HO]; · iexact HO
    isplitl [Ht9]; · iexact Ht9
    isplitl [Hr9]; · iexact Hr9
    isplitl [Ht12]; · iexact Ht12
    iexact Hrp3
  iintro ⟨Hc9, HO⟩
  -- copy 27: the own pair of blocks of stream 1 to the partner across mask 4
  ihave Hsp := (rest_split (F := Ideal) hAB1 g1).1 $$ Hs1
  icases Hsp with ⟨Hsrc1, Hs1⟩
  ihave Hh := (halves_split (F := Ideal) g1).1 $$ Hsrc1
  icases Hh with ⟨HsrcL1, HsrcR1⟩
  ihave HV2 := (ownAt_of (F := Ideal) c (VE2 0 (xr 4 c)) f0) $$ HB'
  iapply (wp_send_copyV' m c (xr 4 c) _ (dev31_eq c) (VE1 1 c) (VE1 1 c) 15 18 2 28 _ _ sem_ag1s_1 sem_ag1r_1
      (by decide) (by decide) (by decide) (by decide) ((credit_VE1 1 c).trans rfl) rfl
      (iprop(ownAt c (VE2 0 (xr 4 c)) ∗ reached ER (dcell c (dsem 13)) 2)) fullShare.left g1
      hpayS27 hpayR27 K (owedFrom c 28) (owedFrom_succ c 27 (4, 18, 2) rfl) W hroute4) $$ [HsrcL1 Hd4 HV2 HO Ht15 Hr15 Ht18]
  · isplitr; · iexact HI
    isplitl [HsrcL1]; · iexact HsrcL1
    isplitl [Hd4]; · iexact Hd4
    isplitl [HV2]
    · isplitl [HV2]; · iexact HV2
      iexact Hr13
    isplitl [HO]; · iexact HO
    isplitl [Ht15]; · iexact Ht15
    isplitl [Hr15]; · iexact Hr15
    isplitl [Ht18]; · iexact Ht18
    iexact Hrp4
  iintro ⟨Hc15, HO⟩
  -- the two partial products: their reads of the lent rows go through the half that stayed
  ihave HS2 := (bufV_elim c cc0_scratch2 _) $$ HS2
  icases HS2 with ⟨%a2, HS2, %ha2⟩
  ihave HS3 := (bufV_elim c cc0_scratch3 _) $$ HS3
  icases HS3 with ⟨%a3, HS3, %ha3⟩
  ihave HS8 := (bufV_elim c cc0_scratch8 _) $$ HS8
  icases HS8 with ⟨%w8, HS8, %hw8⟩
  ihave HS9 := (bufV_elim c cc0_scratch9 _) $$ HS9
  icases HS9 with ⟨%w9, HS9, %hw9⟩
  iapply (wp_load Variants.none (c : Thread nD τ) none Set.univ hsub7) $$ [HsrcR0]
  · iexact HsrcR0
  iintro HsrcR0
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS2]
  · iexact HS2
  iintro HS2
  iapply (wp_store Variants.none (c : Thread nD τ) none Set.univ (Finset.subset_univ _)) $$ [HS2]
  · iexact HS2
  iintro HS2
  iapply (wp_load Variants.none (c : Thread nD τ) none Set.univ hsub8) $$ [HsrcR1]
  · iexact HsrcR1
  iintro HsrcR1
  iapply (wp_load Variants.none (c : Thread nD τ) none Set.univ (Finset.subset_univ _)) $$ [HS8]
  · iexact HS8
  iintro HS8
  iapply (wp_load Variants.none (c : Thread nD τ) none Set.univ (Finset.subset_univ _)) $$ [HS9]
  · iexact HS9
  iintro HS9
  iapply (wp_load Variants.none (c : Thread nD τ) none Set.univ (Finset.subset_univ _)) $$ [HS3]
  · iexact HS3
  iintro HS3
  iapply (wp_store Variants.none (c : Thread nD τ) none Set.univ (Finset.subset_univ _)) $$ [HS3]
  · iexact HS3
  iintro HS3
  -- the four waits
  simp only [sem_ag0s_1, sem_ag0r_1, sem_ag1s_1, sem_ag1r_1]
  ihave Hc9 := (Entails.of_eq (show (cred (tallyAt (dcell c (dsem 9)) 27 (amtDma 12 2)) : sProp 𝕄) = cred (tallyAt (dcell c (dsem 9)) 27 (amtDma 9 2)) from rfl)) $$ Hc9
  ihave Hc15 := (Entails.of_eq (show (cred (tallyAt (dcell c (dsem 15)) 28 (amtDma 18 2)) : sProp 𝕄) = cred (tallyAt (dcell c (dsem 15)) 28 (amtDma 15 2)) from rfl)) $$ Hc15
  ihave HM := (mayWait_copy (F := Ideal) c (dsem 9) 26 28 (by omega) (by omega)) $$ Hlev
  iapply (wp_wait_copyV m c 9 2 27 (by decide) (by decide) K (owedFrom c 28) _ (hw_waitDma2 (F := Ideal) c 9 2 ((credit_VE1 0 c).trans rfl))) $$ [Hc9 HO HM Ha9]
  · isplitr; · iexact HI
    isplitl [Hc9]; · iexact Hc9
    isplitl [HO]; · iexact HO
    isplitl [HM]; · iexact HM
    iexact Ha9
  iintro ⟨HO, Ha9, Hr9, Hp9⟩
  ihave HM := (mayWait_copy (F := Ideal) c (dsem 12) 26 28 (by omega) (by omega)) $$ Hlev
  iapply (wp_wait_copyV m c 12 2 27 (by decide) (by decide) K (owedFrom c 28) _ (hw_waitDma2 (F := Ideal) c 12 2 ((credit_VE1 0 c).trans rfl))) $$ [Hc12 HO HM Ha12]
  · isplitr; · iexact HI
    isplitl [Hc12]; · iexact Hc12
    isplitl [HO]; · iexact HO
    isplitl [HM]; · iexact HM
    iexact Ha12
  iintro ⟨HO, Ha12, Hr12, Hp12⟩
  ihave HM := (mayWait_copy (F := Ideal) c (dsem 15) 27 28 (by omega) (by omega)) $$ Hlev
  iapply (wp_wait_copyV m c 15 2 28 (by decide) (by decide) K (owedFrom c 28) _ (hw_waitDma2 (F := Ideal) c 15 2 ((credit_VE1 1 c).trans rfl))) $$ [Hc15 HO HM Ha15]
  · isplitr; · iexact HI
    isplitl [Hc15]; · iexact Hc15
    isplitl [HO]; · iexact HO
    isplitl [HM]; · iexact HM
    iexact Ha15
  iintro ⟨HO, Ha15, Hr15, Hp15⟩
  ihave HM := (mayWait_copy (F := Ideal) c (dsem 18) 27 28 (by omega) (by omega)) $$ Hlev
  iapply (wp_wait_copyV m c 18 2 28 (by decide) (by decide) K (owedFrom c 28) _ (hw_waitDma2 (F := Ideal) c 18 2 ((credit_VE1 1 c).trans rfl))) $$ [Hc18 HO HM Ha18]
  · isplitr; · iexact HI
    isplitl [Hc18]; · iexact Hc18
    isplitl [HO]; · iexact HO
    isplitl [HM]; · iexact HM
    iexact Ha18
  iintro ⟨HO, Ha18, Hr18, Hp18⟩
  -- the run is over: what the four landings handed back becomes buffers again, with their contents
  rw [wp_ret]
  imodintro
  iexists K
  rw [QV_eq, localBufsV_eq, posAt_28]
  ihave Hp9 := (Entails.of_eq (show payDmaV m c 9 2 = ownHalf (F := Ideal) c (VE1 0 c) from rfl)) $$ Hp9
  ihave Hp15 := (Entails.of_eq (show payDmaV m c 15 2 = ownHalf (F := Ideal) c (VE1 1 c) from rfl)) $$ Hp15
  ihave Hp12 := (pay12V_elim m c 2) $$ Hp12
  icases Hp12 with ⟨HA0, Hg3'⟩
  ihave HA0 := (owns_elim c (VE1 0 (xr 3 c)) _) $$ HA0
  icases HA0 with ⟨%gA0, %hgA0, HA0⟩
  ihave Hp18 := (pay18V_elim m c 2) $$ Hp18
  icases Hp18 with ⟨HA1, Hg4'⟩
  ihave HA1 := (owns_elim c (VE1 1 (xr 4 c)) _) $$ HA1
  icases HA1 with ⟨%gA1, %hgA1, HA1⟩
  unfold grant
  -- the first gather buffer: the lent half, the source, then the landed pair over them; the slot handed over stays away
  ihave Hsrc0 := (ownHalf_join (F := Ideal) c (VE1 0 c) f0) $$ [Hp9 HsrcR0]
  · isplitl [Hp9]; · iexact Hp9
    iexact HsrcR0
  ihave Hs0 := (pointsTo_join_subset (ℓ := (Memref.whole cc0_scratch0).view.loc (c : Thread nD τ)) (q := fullShare) (f := f0) (g := f0) hB0sub) $$ [Hsrc0 Hs0]
  · isplitl [Hsrc0]; · iexact Hsrc0
    iexact Hs0
  rw [pw_same, sdiff_swap (VE1 0 (xr 3 c)).view.set (VE2 0 (xr 4 c)).view.set]
  ihave Hs0 := (rest_join_at (F := Ideal) hA0B'.symm f0 gA0) $$ [HA0 Hs0]
  · isplitl [HA0]; · iexact HA0
    iexact Hs0
  ihave Hs0 := (heldButV_of c cc0_scratch0 _ (rowsAre0 c (A m 2 0) (quadRow 0 c) 512) _
      (join_VE1_0 c (xr 3 c) (A m 2 0) (pairRow 0 c) 256 f0 gA0 hf0 hgA0 (quadRow 0 c) 512
        (fun row h1 h2 => by have h := quad0_halves c; rw [quadRow0] at h1 h2; rw [pairRow0]; omega))) $$ Hs0
  -- the second gather buffer likewise
  ihave Hsrc1 := (ownHalf_join (F := Ideal) c (VE1 1 c) g1) $$ [Hp15 HsrcR1]
  · isplitl [Hp15]; · iexact Hp15
    iexact HsrcR1
  ihave Hs1 := (rest_join_at (F := Ideal) hAB1 g1 g1) $$ [Hsrc1 Hs1]
  · isplitl [Hsrc1]; · iexact Hsrc1
    iexact Hs1
  rw [pw_same, univ_sdiff_union (VE1 1 (xr 4 c)).view.set (VE2 1 (xr 1 c)).view.set, sdiff_swap (VE1 1 (xr 4 c)).view.set (VE2 1 (xr 1 c)).view.set]
  ihave Hs1 := (rest_join_at (F := Ideal) hA2A1 g1 gA1) $$ [HA1 Hs1]
  · isplitl [HA1]; · iexact HA1
    iexact Hs1
  ihave Hs1 := (heldButV_of c cc0_scratch1 _ (rowsAre1 c (A m 2 1) (quadRow 1 c) 512) _
      (join_VE1_1 c (xr 4 c) (A m 2 1) (pairRow 1 c) 256 g1 gA1 hg1 hgA1 (quadRow 1 c) 512
        (fun row h1 h2 => by have h := quad1_halves c; rw [quadRow1] at h1 h2; rw [pairRow1]; omega))) $$ Hs1
  -- the quiet state after 28 copies
  isplitr; · iexact HI
  isplitr; · iexact HR
  isplitr; · iexact Hlev
  isplitl [HatB]; · iexact HatB
  isplitl [Ha8 Hr8 Ha9 Hr9 Ha10 Hr10 Ha11 Hr11 Ha12 Hr12 Ha13 Ha14 Hr14 Ha15 Hr15 Ha16 Hr16 Ha17 Hr17 Ha18 Hr18 Ha19 Hr19 Ha20 Hr20 Ha21 Hr21 Ha22 Hr22 Ha23 Hr23 Ha24 Hr24 Ha25 Hr25 Ha26 Ha27 Hr27 Ha28 Hr28 Ha29 Hr29 Ha30 Hr30 Ha31 Hr31 Ha32 Hr32 Ha33 Hr33 Ha34 Hr34 Ha35 Hr35 Ha36 Hr36 Ha37 Hr37 Ha38 Hr38 Ha39 Hr39]
  · isplitl [Ha8]; · iexact Ha8
    isplitl [Hr8]; · iexact Hr8
    isplitl [Ha9]; · iexact Ha9
    isplitl [Hr9]; · iexact Hr9
    isplitl [Ha10]; · iexact Ha10
    isplitl [Hr10]; · iexact Hr10
    isplitl [Ha11]; · iexact Ha11
    isplitl [Hr11]; · iexact Hr11
    isplitl [Ha12]; · iexact Ha12
    isplitl [Hr12]; · iexact Hr12
    isplitl [Ha13]; · iexact Ha13
    isplitr; · iexact Hr13
    isplitl [Ha14]; · iexact Ha14
    isplitl [Hr14]; · iexact Hr14
    isplitl [Ha15]; · iexact Ha15
    isplitl [Hr15]; · iexact Hr15
    isplitl [Ha16]; · iexact Ha16
    isplitl [Hr16]; · iexact Hr16
    isplitl [Ha17]; · iexact Ha17
    isplitl [Hr17]; · iexact Hr17
    isplitl [Ha18]; · iexact Ha18
    isplitl [Hr18]; · iexact Hr18
    isplitl [Ha19]; · iexact Ha19
    isplitl [Hr19]; · iexact Hr19
    isplitl [Ha20]; · iexact Ha20
    isplitl [Hr20]; · iexact Hr20
    isplitl [Ha21]; · iexact Ha21
    isplitl [Hr21]; · iexact Hr21
    isplitl [Ha22]; · iexact Ha22
    isplitl [Hr22]; · iexact Hr22
    isplitl [Ha23]; · iexact Ha23
    isplitl [Hr23]; · iexact Hr23
    isplitl [Ha24]; · iexact Ha24
    isplitl [Hr24]; · iexact Hr24
    isplitl [Ha25]; · iexact Ha25
    isplitl [Hr25]; · iexact Hr25
    isplitl [Ha26]; · iexact Ha26
    isplitr; · iexact Hr26
    isplitl [Ha27]; · iexact Ha27
    isplitl [Hr27]; · iexact Hr27
    isplitl [Ha28]; · iexact Ha28
    isplitl [Hr28]; · iexact Hr28
    isplitl [Ha29]; · iexact Ha29
    isplitl [Hr29]; · iexact Hr29
    isplitl [Ha30]; · iexact Ha30
    isplitl [Hr30]; · iexact Hr30
    isplitl [Ha31]; · iexact Ha31
    isplitl [Hr31]; · iexact Hr31
    isplitl [Ha32]; · iexact Ha32
    isplitl [Hr32]; · iexact Hr32
    isplitl [Ha33]; · iexact Ha33
    isplitl [Hr33]; · iexact Hr33
    isplitl [Ha34]; · iexact Ha34
    isplitl [Hr34]; · iexact Hr34
    isplitl [Ha35]; · iexact Ha35
    isplitl [Hr35]; · iexact Hr35
    isplitl [Ha36]; · iexact Ha36
    isplitl [Hr36]; · iexact Hr36
    isplitl [Ha37]; · iexact Ha37
    isplitl [Hr37]; · iexact Hr37
    isplitl [Ha38]; · iexact Ha38
    isplitl [Hr38]; · iexact Hr38
    isplitl [Ha39]; · iexact Ha39
    iexact Hr39
  isplitl [Htoks]; · iexact Htoks
  isplitl [Hcreds]; · iexact Hcreds
  isplitl [HO]; · iexists _; iexact HO
  isplitl [Hl0 Hl1 Hl2 Hl3 Hl4 Hl5 Hl6 Hl7 HS2 HS3 HS4 HS5 HS8 HS9]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [HS2]
    · iapply (bufV_of c cc0_scratch2 _ _ (st10_acc0 m c f0 hf0 w8 hw8 w9 hw9 a2))
      iexact HS2
    isplitl [HS3]
    · iapply (bufV_of c cc0_scratch3 _ _ (st10_acc1 m c g1 hg1 w8 hw8 w9 hw9 a3))
      iexact HS3
    isplitl [HS4]; · iexact HS4
    isplitl [HS5]; · iexact HS5
    isplitl [HS8]
    · iapply (bufV_of c cc0_scratch8 _ _ hw8)
      iexact HS8
    iapply (bufV_of c cc0_scratch9 _ _ hw9)
    iexact HS9
  isplitl [Hs0]; · iexact Hs0
  isplitl [Hs1]; · iexact Hs1
  isplitl [Hs6]
  · iapply (heldBut_toV c cc0_scratch6 _)
    iexact Hs6
  isplitl [Hs7]; · iexact Hs7
  isplitl [Hg4']; · iexact Hg4'
  isplitl [Hg1]; · iexact Hg1
  iexact Hg3'

/-- info: 'Cert.KernelIdeal.Val.seg10_okV' depends on axioms: [propext, Classical.choice, Quot.sound] -/
#guard_msgs in #print axioms seg10_okV

end Cert.KernelIdeal.Val

end
-- ==== Proof.KernelIdeal.SegV5Seg.lean ====
import proofs.«900979_g7700000000000980_dist_mlpseq_tp1d_bs_bs_b256_d256_h512_v7x_i8_bf16_1_alg».proof.Proof.KernelIdeal.SegV9
import proofs.«900979_g7700000000000980_dist_mlpseq_tp1d_bs_bs_b256_d256_h512_v7x_i8_bf16_1_alg».proof.Proof.KernelIdeal.SegD

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

local notation "𝕄" => MT nD τ sig ℕ (Elt Ideal) ℕ UU ℕ

variable (m : Mem)

/-! # The last reduce step of layer 0, with contents

    The segment begins with the second stream's add of the third step (the landed slot is still in the receive buffer),
    casts both streams' four-device sums into the send buffers, exchanges them with the last partners and casts the
    sums of the eight into the own pairs of blocks of the two gather buffers. -/

/-- Rows 512 .. 767 of the second receive buffer, loaded. -/
theorem slot7_load512 (c : Dev nD) (G : Fin 1024 → Fin 256 → EReal) (b : ℕ)
    (f7 : Buf (Elt Ideal) ((Memref.whole cc0_scratch7).view.loc (c : Thread nD τ))) (h : slot7Is c G 512 b 256 f7) (y : S256x256.Idx) :
    ((Memref.whole cc0_scratch7).view.readAt (Elt Ideal) (Rect.unit (s := S1280x256) ![512, 0] S256x256.size inb_S1280x256_S256x256_512_0).toLoadRect f7) y = nat2 G (b + (y 0).val) (y 1).val := by
  have h0 : (y 0).val < 256 := (y 0).isLt
  have h1 : (y 1).val < 256 := (y 1).isLt
  have e : (Rect.unit (s := S1280x256) ![512, 0] S256x256.size inb_S1280x256_S256x256_512_0).emb y
      = ValueIdx.ix2 (⟨512 + (y 0).val, by omega⟩ : Fin 1280) (⟨(y 1).val, h1⟩ : Fin 256) := by
    funext a
    apply Fin.ext
    match a with
    | ⟨0, _⟩ => show 512 + 1 * (y 0).val = 512 + (y 0).val; omega
    | ⟨1, _⟩ => show 0 + 1 * (y 1).val = (y 1).val; omega
  show f7 ((Rect.unit (s := S1280x256) ![512, 0] S256x256.size inb_S1280x256_S256x256_512_0).emb y) = _
  rw [e, h _ _ (by show 512 ≤ 512 + (y 0).val; omega) (by show 512 + (y 0).val < 512 + 256; omega)]
  show nat2 G (b + (512 + (y 0).val - 512)) _ = _
  rw [Nat.add_sub_cancel_left]

/-- Two devices' sums of a device and of its second partner are the four devices' sum (second stream: across 4). -/
theorem nat2_S1_S2_1 (l : ℕ) (c : Dev nD) (i j : ℕ) :
    nat2 (S1 m l 1 c) i j + nat2 (S1 m l 1 (xr 4 c)) i j = nat2 (S2 m l 1 c) i j := by
  unfold nat2
  by_cases h : i < 1024 ∧ j < 256
  · rw [dif_pos h, dif_pos h, dif_pos h]; rfl
  · rw [dif_neg h, dif_neg h, dif_neg h]; exact add_zero 0

/-- What the first stream's copy hands the partner across 1. -/
theorem v5_payR27 (c : Dev nD) (b4 : Buf (Elt Ideal) ((SA 0).view.loc (c : Thread nD τ)))
    (h4 : (SA 0).view.read (Elt Ideal) b4 = rows256 (S2 m 0 0 c) (pairRow 0 c))
    (fd : Buf (Elt Ideal) ((R3 0).view.loc (xr 1 c : Thread nD τ))) :
    iprop(((R3 0).view.loc (xr 1 c : Thread nD τ) ↦[(R3 0).view.set]{fullShare} ((R3 0).view.write (Elt Ideal) fd ((SA 0).view.read (Elt Ideal) b4) Finset.univ))
        ∗ grant (F := Ideal) c (VE2 1 (xr 1 c)) (agR 1 2) 1)
      ⊢ payDmaV m (xr 1 c) 27 0 := by
  show _ ⊢ (iprop(owns (xr 1 c : Thread nD τ) (R3 0) fullShare (rows256 (S2 m 0 0 (xr 1 (xr 1 c))) (pairRow 0 (xr 1 c)))
      ∗ grant (xr 1 (xr 1 c)) (VE2 1 (xr 1 c)) (agR 1 2) 1) : sProp 𝕄)
  rw [xr_xr, pairRow0_x1]
  exact BI.sep_mono (owns_of_write (xr 1 c) (R3 0) fd _ _ h4) (Entails.refl _)

theorem v5_payR37 (c : Dev nD) (b5 : Buf (Elt Ideal) ((SA 1).view.loc (c : Thread nD τ)))
    (h5 : (SA 1).view.read (Elt Ideal) b5 = rows256 (S2 m 0 1 c) (pairRow 1 c))
    (fd : Buf (Elt Ideal) ((R3 1).view.loc (xr 3 c : Thread nD τ))) :
    iprop(((R3 1).view.loc (xr 3 c : Thread nD τ) ↦[(R3 1).view.set]{fullShare} ((R3 1).view.write (Elt Ideal) fd ((SA 1).view.read (Elt Ideal) b5) Finset.univ))
        ∗ grant (F := Ideal) c (VE1 0 (xr 3 c)) (agR 0 1) 1)
      ⊢ payDmaV m (xr 3 c) 37 0 := by
  show _ ⊢ (iprop(owns (xr 3 c : Thread nD τ) (R3 1) fullShare (rows256 (S2 m 0 1 (xr 3 (xr 3 c))) (pairRow 1 (xr 3 c)))
      ∗ grant (xr 3 (xr 3 c)) (VE1 0 (xr 3 c)) (agR 0 1) 1) : sProp 𝕄)
  rw [xr_xr, pairRow1_x3]
  exact BI.sep_mono (owns_of_write (xr 3 c) (R3 1) fd _ _ h5) (Entails.refl _)

/-- The quiet state this segment starts from: after the third reduce step's waits and the first stream's add. -/
def QV4k (K : GSem nD τ sig → ℕ) (c : Dev nD) : sProp 𝕄 :=
  QV m K c 12 1 (fun _ => True) (fun _ => True) (fun _ => True)
    (rowsAre2 c (S2 m 0 0 c) (pairRow 0 c) 256) (rowsAre3 c (S1 m 0 1 c) (pairRow 1 c) 256)
    (fun _ => True) (fun _ => True) (fun _ => True) (slot7Is c (S1 m 0 1 (xr 4 c)) 512 (pairRow 1 c) 256)
    ∅ (VE1 1 (xr 4 c)).view.set (R3 0).view.set (R3 1).view.set
    iprop(grantLast (xr 1 c) 0 0 ∗ grantLast (xr 3 c) 1 0 ∗ grant (xr 4 c) (VE1 1 c) (agR 1 1) 1)

set_option maxHeartbeats 8000000 in
theorem seg5_okV (c : Dev nD) (v2 v131 v134 : BitVec 32) :
    (iprop(∃ K, QV4k m K c) : sProp 𝕄)
      ⊢ wp frame (wpE (defs₀ (F := Ideal)) Variants.none (c : Thread nD τ) none) Set.univ
          (seg5 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134)
          (fun _ => iprop(∃ K, QV5 m K c)) := by
  have hd17 := d5_hd0 c
  have hd18 := d5_hd1 c
  refine exists_elim fun K => ?_
  unfold QV4k QV localBufsV bufV heldButV
  rw [posAt_12, toks_seg_12, creds_seg_12]
  iintro ⟨#HI, #HR, #Hlev, HatB, ⟨A8, #P8, A9, #P9, A10, #P10, A11, #P11, A12, #P12, A13, #P13, A14, #P14, A15, #P15, A16, #P16, A17, #P17, A18, #P18, A19, #P19, A20, #P20, A21, #P21, A22, #P22, A23, #P23, A24, #P24, A25, #P25, A26, #P26, A27, #P27, A28, #P28, A29, #P29, A30, #P30, A31, #P31, A32, #P32, A33, #P33, A34, #P34, A35, #P35, A36, #P36, A37, #P37, A38, #P38, A39, #P39⟩, ⟨⟨TAa, TAb⟩, ⟨TBa, TBb⟩, Htoks⟩, ⟨CA, CB, Hcreds⟩, ⟨%W, HO⟩, ⟨Hl0, Hl1, Hl2, Hl3, Hl4, Hl5, Hl6, Hl7, ⟨%a2, HS2, %h2⟩, ⟨%a3, HS3, %h3⟩, ⟨%b4, HS4, %h4⟩, ⟨%b5, HS5, %h5⟩, HS8, HS9⟩, ⟨%f0, Hs0, %hf0⟩, ⟨%f1, Hs1, %hf1⟩, ⟨%f6, Hs6, %hf6⟩, ⟨%f7, Hs7, %hf7⟩, Hg1, Hg2, Hg3⟩
  -- the values of the segment, as the steps below leave them in the buffers
  have hw33 : ∀ y : S256x256.Idx, k0_pay33 (F := Ideal) ((Memref.whole cc0_scratch3).view.readAt (Elt Ideal) (Rect.unit (s := S1024x256) (k0_off8 c) S256x256.size (k0_off8_inb c)).toLoadRect a3) ((Memref.whole cc0_scratch7).view.readAt (Elt Ideal) (Rect.unit (s := S1280x256) ![512, 0] S256x256.size inb_S1280x256_S256x256_512_0).toLoadRect f7) y
      = nat2 (S2 m 0 1 c) (k0_off8 c 0 + (y 0).val) (y 1).val := by
    intro y
    rw [k0_pay33_apply, load_rows3 c (S1 m 0 1 c) (pairRow 1 c) 256 a3 h3 (k0_off8 c) S256x256.size (k0_off8_inb c) (off8_col c) (Nat.le_refl _) (Nat.le_refl _),
      slot7_load512 c _ _ f7 hf7 y]
    exact nat2_S1_S2_1 m 0 c _ _
  have h3n := store_new3 c (S2 m 0 1 c) a3 (k0_off8 c) S256x256.size (k0_off8_inb c) (off8_col c) rfl _ hw33
  have h4r : (SA 0).view.read (Elt Ideal) (((Memref.whole cc0_scratch4).access (Rect.unit (s := S512x256) ![0, 0] S256x256.size inb_S512x256_S256x256_0_0)).write (Elt Ideal) b4 (k0_pay34 (F := Ideal) ((Memref.whole cc0_scratch2).view.readAt (Elt Ideal) (Rect.unit (s := S1024x256) (k0_off7 c) S256x256.size (k0_off7_inb c)).toLoadRect a2)) Finset.univ) = rows256 (S2 m 0 0 c) (pairRow 0 c) := by
    refine (View.read_write_univ _ _).trans ?_
    funext y
    rw [k0_pay34_apply, load_rows2 c (S2 m 0 0 c) (pairRow 0 c) 256 a2 h2 (k0_off7 c) S256x256.size (k0_off7_inb c) (off7_col c) (Nat.le_refl _) (Nat.le_refl _)]
    rfl
  have h5r : (SA 1).view.read (Elt Ideal) (((Memref.whole cc0_scratch5).access (Rect.unit (s := S512x256) ![0, 0] S256x256.size inb_S512x256_S256x256_0_0)).write (Elt Ideal) b5 (k0_pay35 (F := Ideal) ((Memref.whole cc0_scratch3).view.readAt (Elt Ideal) (Rect.unit (s := S1024x256) (k0_off8 c) S256x256.size (k0_off8_inb c)).toLoadRect (((Memref.whole cc0_scratch3).access (Rect.unit (s := S1024x256) (k0_off8 c) S256x256.size (k0_off8_inb c))).write (Elt Ideal) a3 (k0_pay33 (F := Ideal) ((Memref.whole cc0_scratch3).view.readAt (Elt Ideal) (Rect.unit (s := S1024x256) (k0_off8 c) S256x256.size (k0_off8_inb c)).toLoadRect a3) ((Memref.whole cc0_scratch7).view.readAt (Elt Ideal) (Rect.unit (s := S1280x256) ![512, 0] S256x256.size inb_S1280x256_S256x256_512_0).toLoadRect f7)) Finset.univ))) Finset.univ) = rows256 (S2 m 0 1 c) (pairRow 1 c) := by
    refine (View.read_write_univ _ _).trans ?_
    funext y
    rw [k0_pay35_apply, load_rows3 c (S2 m 0 1 c) (k0_off8 c 0) (S256x256.size 0) _ h3n (k0_off8 c) S256x256.size (k0_off8_inb c) (off8_col c) (Nat.le_refl _) (Nat.le_refl _)]
    rfl
  unfold seg5
  rw [k0_part19_eq_skeleton, k0_part20_eq_skeleton, k0_part21_eq_skeleton]
  unfold k0_part19_skel k0_part20_skel k0_part21_skel
  simp only [Prog.lift, Prog.bind_op, Prog.bind_ret, Prog.pure_eq_ret, Prog.bind_assoc]
  ihave Hg1 := (Entails.of_eq (show grantLast (F := Ideal) (xr 1 c) 0 0
      = iprop(ownAt (xr 1 c) (R3 0) ∗ reached ER (dcell (xr 1 c) (dsem 27)) 0) from rfl)) $$ Hg1
  icases Hg1 with ⟨Hd1, #Hrp1⟩
  ihave Hg2 := (Entails.of_eq (show grantLast (F := Ideal) (xr 3 c) 1 0
      = iprop(ownAt (xr 3 c) (R3 1) ∗ reached ER (dcell (xr 3 c) (dsem 37)) 0) from rfl)) $$ Hg2
  icases Hg2 with ⟨Hd2, #Hrp2⟩
  -- the second stream's add of the third step: the landed two-device sum is still in rows 512 .. of the receive buffer
  iapply (wp_load Variants.none (c : Thread nD τ) none Set.univ (Finset.subset_univ _)) $$ [HS3]
  · iexact HS3
  iintro HS3
  iapply (wp_load Variants.none (c : Thread nD τ) none Set.univ (load_ok_but cc0_scratch7 _ _ d5_hd7)) $$ [Hs7]
  · iexact Hs7
  iintro Hs7
  iapply (wp_load Variants.none (c : Thread nD τ) none Set.univ (Finset.subset_univ _)) $$ [HS3]
  · iexact HS3
  iintro HS3
  iapply (wp_store Variants.none (c : Thread nD τ) none Set.univ (Finset.subset_univ _)) $$ [HS3]
  · iexact HS3
  iintro HS3
  -- the first stream's four-device sum cast into its send buffer
  iapply (wp_load Variants.none (c : Thread nD τ) none Set.univ (Finset.subset_univ _)) $$ [HS2]
  · iexact HS2
  iintro HS2
  iapply (wp_load Variants.none (c : Thread nD τ) none Set.univ (Finset.subset_univ _)) $$ [HS4]
  · iexact HS4
  iintro HS4
  iapply (wp_store Variants.none (c : Thread nD τ) none Set.univ (Finset.subset_univ _)) $$ [HS4]
  · iexact HS4
  iintro HS4
  -- the gather and receive buffers' contents are dead from here: held at some contents
  ihave Hs0 := (heldBut_intro (F := Ideal) c cc0_scratch0 ∅ f0) $$ Hs0
  ihave Hs1 := (heldBut_intro (F := Ideal) c cc0_scratch1 (VE1 1 (xr 4 c)).view.set f1) $$ Hs1
  ihave Hs6 := (heldBut_intro (F := Ideal) c cc0_scratch6 (R3 0).view.set f6) $$ Hs6
  ihave Hs7 := (heldBut_intro (F := Ideal) c cc0_scratch7 (R3 1).view.set f7) $$ Hs7
  ihave Hx := (heldBut_take_view (F := Ideal) c (VE2 1 (xr 1 c)) (VE1 1 (xr 4 c)).view.set (d5_hdAB c)).1 $$ Hs1
  icases Hx with ⟨HV21, Hs1⟩
  ihave Hx := (heldBut_take_view_empty (F := Ideal) c (VE1 0 (xr 3 c))).1 $$ Hs0
  icases Hx with ⟨HV10, Hs0⟩
  -- copy 12: to the partner across 1
  ihave Hsp := (slice_split (F := Ideal) c (SA 0) _).1 $$ HS4
  icases Hsp with ⟨HSA0, HS4⟩
  iapply (wp_send_copyV' m c (xr 1 c) _ (dev16_eq c) (SA 0) (R3 0) 22 27 0 13 _ _ sem_rs0s_2 sem_rs0r_2
      (by omega) (by omega) (by decide) (by decide) ((credit_R3 0).trans amtD_27_0.symm) amtD_22_0
      (grant c (VE2 1 (xr 1 c)) (agR 1 2) 1) fullShare _
      (ownAt_of c (SA 0) _) (v5_payR27 m c _ h4r) K (owedFrom c 13) (owedFrom_succ c 12 (1, 27, 0) rfl) _ (Topo.routes_tc _ _)) $$ [HSA0 Hd1 HV21 HO TAa TAb]
  · isplitr; · iexact HI
    isplitl [HSA0]; · iexact HSA0
    isplitl [Hd1]; · iexact Hd1
    isplitl [HV21]
    · rw [grant_eq]
      isplitl [HV21]; · iexact HV21
      iexact P19
    isplitl [HO]; · iexact HO
    isplitl [TAa]; · iexact TAa
    isplitr; · iexact P22
    isplitl [TAb]; · iexact TAb
    iexact Hrp1
  iintro ⟨CsA, HO⟩
  -- the second stream's four-device sum cast into its send buffer, and copy 13: to the partner across 3
  iapply (wp_load Variants.none (c : Thread nD τ) none Set.univ (Finset.subset_univ _)) $$ [HS3]
  · iexact HS3
  iintro HS3
  iapply (wp_load Variants.none (c : Thread nD τ) none Set.univ (Finset.subset_univ _)) $$ [HS5]
  · iexact HS5
  iintro HS5
  iapply (wp_store Variants.none (c : Thread nD τ) none Set.univ (Finset.subset_univ _)) $$ [HS5]
  · iexact HS5
  iintro HS5
  ihave Hsp := (slice_split (F := Ideal) c (SA 1) _).1 $$ HS5
  icases Hsp with ⟨HSA1, HS5⟩
  iapply (wp_send_copyV' m c (xr 3 c) _ (dev17_eq c) (SA 1) (R3 1) 32 37 0 14 _ _ sem_rs1s_2 sem_rs1r_2
      (by omega) (by omega) (by decide) (by decide) ((credit_R3 1).trans amtD_37_0.symm) amtD_32_0
      (grant c (VE1 0 (xr 3 c)) (agR 0 1) 1) fullShare _
      (ownAt_of c (SA 1) _) (v5_payR37 m c _ h5r) K (owedFrom c 14) (owedFrom_succ c 13 (3, 37, 0) rfl) _ (Topo.routes_tc _ _)) $$ [HSA1 Hd2 HV10 HO TBa TBb]
  · isplitr; · iexact HI
    isplitl [HSA1]; · iexact HSA1
    isplitl [Hd2]; · iexact Hd2
    isplitl [HV10]
    · rw [grant_eq]
      isplitl [HV10]; · iexact HV10
      iexact P12
    isplitl [HO]; · iexact HO
    isplitl [TBa]; · iexact TBa
    isplitr; · iexact P32
    isplitl [TBb]; · iexact TBb
    iexact Hrp2
  iintro ⟨CsB, HO⟩
  -- the four waits
  simp only [sem_rs0s_2, sem_rs0r_2, sem_rs1s_2, sem_rs1r_2]
  ihave HM := (mayWait_copy (F := Ideal) c (dsem 22) 12 14 (by omega) (by omega)) $$ Hlev
  iapply (wp_wait_copyV m c 22 0 13 (by decide) (by decide) K (owedFrom c 14) _ (hw_waitDma2 (F := Ideal) c 22 0 ((credit_SA 0).trans (amtD_22_0.trans amtD_27_0).symm))) $$ [CsA HO HM A22]
  · isplitr; · iexact HI
    isplitl [CsA]; · iexact CsA
    isplitl [HO]; · iexact HO
    isplitl [HM]; · iexact HM
    iexact A22
  iintro ⟨HO, A22, #P22', Hp22⟩
  ihave HM := (mayWait_copy (F := Ideal) c (dsem 27) 12 14 (by omega) (by omega)) $$ Hlev
  iapply (wp_wait_copyV m c 27 0 13 (by decide) (by decide) K (owedFrom c 14) _ (hw_waitDma2 (F := Ideal) c 27 0 ((credit_R3 0).trans amtD_27_0.symm))) $$ [CA HO HM A27]
  · isplitr; · iexact HI
    isplitl [CA]; · iexact CA
    isplitl [HO]; · iexact HO
    isplitl [HM]; · iexact HM
    iexact A27
  iintro ⟨HO, A27, #P27', Hp27⟩
  ihave HM := (mayWait_copy (F := Ideal) c (dsem 32) 13 14 (by omega) (by omega)) $$ Hlev
  iapply (wp_wait_copyV m c 32 0 14 (by decide) (by decide) K (owedFrom c 14) _ (hw_waitDma2 (F := Ideal) c 32 0 ((credit_SA 1).trans (amtD_32_0.trans amtD_37_0).symm))) $$ [CsB HO HM A32]
  · isplitr; · iexact HI
    isplitl [CsB]; · iexact CsB
    isplitl [HO]; · iexact HO
    isplitl [HM]; · iexact HM
    iexact A32
  iintro ⟨HO, A32, #P32', Hp32⟩
  ihave HM := (mayWait_copy (F := Ideal) c (dsem 37) 13 14 (by omega) (by omega)) $$ Hlev
  iapply (wp_wait_copyV m c 37 0 14 (by decide) (by decide) K (owedFrom c 14) _ (hw_waitDma2 (F := Ideal) c 37 0 ((credit_R3 1).trans amtD_37_0.symm))) $$ [CB HO HM A37]
  · isplitr; · iexact HI
    isplitl [CB]; · iexact CB
    isplitl [HO]; · iexact HO
    isplitl [HM]; · iexact HM
    iexact A37
  iintro ⟨HO, A37, #P37', Hp37⟩
  -- the landed slots: the last partners' four-device sums on this device's pair of rows
  ihave Hp27 := (Entails.of_eq (show payDmaV m c 27 0
      = iprop((∃ f, ⌜(R3 0).view.read (Elt Ideal) f = rows256 (S2 m 0 0 (xr 1 c)) (pairRow 0 c)⌝ ∗ ((R3 0).view.loc (c : Thread nD τ) ↦[(R3 0).view.set]{fullShare} f))
          ∗ grant (xr 1 c) (VE2 1 c) (agR 1 2) 1) from rfl)) $$ Hp27
  icases Hp27 with ⟨⟨%r30, %hr30, HR30⟩, Hg4⟩
  ihave Hp37 := (Entails.of_eq (show payDmaV m c 37 0
      = iprop((∃ f, ⌜(R3 1).view.read (Elt Ideal) f = rows256 (S2 m 0 1 (xr 3 c)) (pairRow 1 c)⌝ ∗ ((R3 1).view.loc (c : Thread nD τ) ↦[(R3 1).view.set]{fullShare} f))
          ∗ grant (xr 3 c) (VE1 0 c) (agR 0 1) 1) from rfl)) $$ Hp37
  icases Hp37 with ⟨⟨%r31, %hr31, HR31⟩, Hg5⟩
  -- the landed sums added to the own, the results cast into the own pairs of blocks of the two gather buffers
  ihave Hs0 := (heldBut_elim (F := Ideal) c cc0_scratch0 _) $$ Hs0
  icases Hs0 with ⟨%g0, Hs0⟩
  ihave Hs1 := (heldBut_elim (F := Ideal) c cc0_scratch1 _) $$ Hs1
  icases Hs1 with ⟨%g1, Hs1⟩
  iapply (wp_load Variants.none (c : Thread nD τ) none Set.univ (Finset.subset_univ _)) $$ [HS2]
  · iexact HS2
  iintro HS2
  iapply (wp_load Variants.none (c : Thread nD τ) none Set.univ (sub_whole_slice cc0_scratch6 (Rect.unit (s := S1280x256) ![768, 0] S256x256.size inb_S1280x256_S256x256_768_0) (fun _ => rfl))) $$ [HR30]
  · iexact HR30
  iintro HR30
  iapply (wp_load Variants.none (c : Thread nD τ) none Set.univ (load_ok_but cc0_scratch0 _ _ hd17)) $$ [Hs0]
  · iexact Hs0
  iintro Hs0
  iapply (wp_store Variants.none (c : Thread nD τ) none Set.univ (store_ok_but cc0_scratch0 _ _ _ hd17)) $$ [Hs0]
  · iexact Hs0
  iintro Hs0
  iapply (wp_load Variants.none (c : Thread nD τ) none Set.univ (Finset.subset_univ _)) $$ [HS3]
  · iexact HS3
  iintro HS3
  iapply (wp_load Variants.none (c : Thread nD τ) none Set.univ (sub_whole_slice cc0_scratch7 (Rect.unit (s := S1280x256) ![768, 0] S256x256.size inb_S1280x256_S256x256_768_0) (fun _ => rfl))) $$ [HR31]
  · iexact HR31
  iintro HR31
  iapply (wp_load Variants.none (c : Thread nD τ) none Set.univ (load_ok_but cc0_scratch1 _ _ hd18)) $$ [Hs1]
  · iexact Hs1
  iintro Hs1
  iapply (wp_store Variants.none (c : Thread nD τ) none Set.univ (store_ok_but cc0_scratch1 _ _ _ hd18)) $$ [Hs1]
  · iexact Hs1
  iintro Hs1
  have hw0 : ∀ y : S256x256.Idx, k0_pay36 (F := Ideal) ((Memref.whole cc0_scratch2).view.readAt (Elt Ideal) (Rect.unit (s := S1024x256) (k0_off17 c) S256x256.size (k0_off17_inb c)).toLoadRect a2) ((Memref.whole cc0_scratch6).view.readAt (Elt Ideal) (Rect.unit (s := S1280x256) ![768, 0] S256x256.size inb_S1280x256_S256x256_768_0).toLoadRect r30) y
      = nat2 (A m 1 0) (k0_off17 c 0 + (y 0).val) (y 1).val := by
    intro y
    rw [k0_pay36_apply, v9_load2 m c 0 a2 h2 y, off17_row]
    have e : ((Memref.whole cc0_scratch6).view.readAt (Elt Ideal) (Rect.unit (s := S1280x256) ![768, 0] S256x256.size inb_S1280x256_S256x256_768_0).toLoadRect r30) y = nat2 (S2 m 0 0 (xr 1 c)) (pairRow 0 c + (y 0).val) (y 1).val := congrFun hr30 y
    rw [e]
    exact nat2_S2_last0 m 0 c _ _
  have hw1 : ∀ y : S256x256.Idx, k0_pay37 (F := Ideal) ((Memref.whole cc0_scratch3).view.readAt (Elt Ideal) (Rect.unit (s := S1024x256) (k0_off18 c) S256x256.size (k0_off18_inb c)).toLoadRect (((Memref.whole cc0_scratch3).access (Rect.unit (s := S1024x256) (k0_off8 c) S256x256.size (k0_off8_inb c))).write (Elt Ideal) a3 (k0_pay33 (F := Ideal) ((Memref.whole cc0_scratch3).view.readAt (Elt Ideal) (Rect.unit (s := S1024x256) (k0_off8 c) S256x256.size (k0_off8_inb c)).toLoadRect a3) ((Memref.whole cc0_scratch7).view.readAt (Elt Ideal) (Rect.unit (s := S1280x256) ![512, 0] S256x256.size inb_S1280x256_S256x256_512_0).toLoadRect f7)) Finset.univ)) ((Memref.whole cc0_scratch7).view.readAt (Elt Ideal) (Rect.unit (s := S1280x256) ![768, 0] S256x256.size inb_S1280x256_S256x256_768_0).toLoadRect r31) y
      = nat2 (A m 1 1) (k0_off18 c 0 + (y 0).val) (y 1).val := by
    intro y
    rw [k0_pay37_apply, v9_load3 m c 0 _ h3n y, off18_row]
    have e : ((Memref.whole cc0_scratch7).view.readAt (Elt Ideal) (Rect.unit (s := S1280x256) ![768, 0] S256x256.size inb_S1280x256_S256x256_768_0).toLoadRect r31) y = nat2 (S2 m 0 1 (xr 3 c)) (pairRow 1 c + (y 0).val) (y 1).val := congrFun hr31 y
    rw [e]
    exact nat2_S2_last1 m 0 c _ _
  have hP0 := store_new0 c (A m 1 0) g0 (k0_off17 c) S256x256.size (k0_off17_inb c) (off17_col c) rfl _ hw0
  rw [off17_row] at hP0
  have hP1 := store_new1 c (A m 1 1) g1 (k0_off18 c) S256x256.size (k0_off18_inb c) (off18_col c) rfl _ hw1
  rw [off18_row] at hP1
  -- the quiet state after 14 copies
  rw [wp_ret]
  imodintro
  iexists K
  unfold QV5 QV localBufsV
  rw [posAt_14]
  ihave Hp22 := (Entails.of_eq (show payDmaV m c 22 0 = ownAt (F := Ideal) c (SA 0) from rfl)) $$ Hp22
  ihave HS4 := (slice_join_ownAt (F := Ideal) c (SA 0) _) $$ [Hp22 HS4]
  · isplitl [Hp22]; · iexact Hp22
    iexact HS4
  ihave Hp32 := (Entails.of_eq (show payDmaV m c 32 0 = ownAt (F := Ideal) c (SA 1) from rfl)) $$ Hp32
  ihave HS5 := (slice_join_ownAt (F := Ideal) c (SA 1) _) $$ [Hp32 HS5]
  · isplitl [Hp32]; · iexact Hp32
    iexact HS5
  ihave HR30 := (ownAt_of (F := Ideal) c (R3 0) r30) $$ HR30
  ihave Hs6 := (heldBut_put_only (F := Ideal) c (R3 0)) $$ [HR30 Hs6]
  · isplitl [HR30]; · iexact HR30
    iexact Hs6
  ihave HR31 := (ownAt_of (F := Ideal) c (R3 1) r31) $$ HR31
  ihave Hs7 := (heldBut_put_only (F := Ideal) c (R3 1)) $$ [HR31 Hs7]
  · isplitl [HR31]; · iexact HR31
    iexact Hs7
  ihave Hs0 := (heldButV_intro c cc0_scratch0 (VE1 0 (xr 3 c)).view.set (rowsAre0 c (A m 1 0) (pairRow 0 c) 256) _ hP0) $$ Hs0
  ihave Hs1 := (heldButV_intro c cc0_scratch1 ((VE1 1 (xr 4 c)).view.set ∪ (VE2 1 (xr 1 c)).view.set) (rowsAre1 c (A m 1 1) (pairRow 1 c) 256) _ hP1) $$ Hs1
  ihave Hs6 := (heldButV_some c cc0_scratch6 _) $$ Hs6
  ihave Hs7 := (heldButV_some c cc0_scratch7 _) $$ Hs7
  ihave HS2 := (bufV_intro c cc0_scratch2 (rowsAre2 c (S2 m 0 0 c) (pairRow 0 c) 0) _ (fun _ _ h1 h2 => by omega)) $$ HS2
  ihave HS3 := (bufV_intro c cc0_scratch3 (rowsAre3 c (S2 m 0 1 c) (pairRow 1 c) 0) _ (fun _ _ h1 h2 => by omega)) $$ HS3
  ihave HS4 := (bufV_some c cc0_scratch4) $$ HS4
  ihave HS5 := (bufV_some c cc0_scratch5) $$ HS5
  isplitr; · iexact HI
  isplitr; · iexact HR
  isplitr; · iexact Hlev
  isplitl [HatB]; · iexact HatB
  isplitl [A8 A9 A10 A11 A12 A13 A14 A15 A16 A17 A18 A19 A20 A21 A22 A23 A24 A25 A26 A27 A28 A29 A30 A31 A32 A33 A34 A35 A36 A37 A38 A39]
  · skip
    isplitl [A8]; · iexact A8
    isplitr; · iexact P8
    isplitl [A9]; · iexact A9
    isplitr; · iexact P9
    isplitl [A10]; · iexact A10
    isplitr; · iexact P10
    isplitl [A11]; · iexact A11
    isplitr; · iexact P11
    isplitl [A12]; · iexact A12
    isplitr; · iexact P12
    isplitl [A13]; · iexact A13
    isplitr; · iexact P13
    isplitl [A14]; · iexact A14
    isplitr; · iexact P14
    isplitl [A15]; · iexact A15
    isplitr; · iexact P15
    isplitl [A16]; · iexact A16
    isplitr; · iexact P16
    isplitl [A17]; · iexact A17
    isplitr; · iexact P17
    isplitl [A18]; · iexact A18
    isplitr; · iexact P18
    isplitl [A19]; · iexact A19
    isplitr; · iexact P19
    isplitl [A20]; · iexact A20
    isplitr; · iexact P20
    isplitl [A21]; · iexact A21
    isplitr; · iexact P21
    isplitl [A22]; · iexact A22
    isplitr; · iexact P22'
    isplitl [A23]; · iexact A23
    isplitr; · iexact P23
    isplitl [A24]; · iexact A24
    isplitr; · iexact P24
    isplitl [A25]; · iexact A25
    isplitr; · iexact P25
    isplitl [A26]; · iexact A26
    isplitr; · iexact P26
    isplitl [A27]; · iexact A27
    isplitr; · iexact P27'
    isplitl [A28]; · iexact A28
    isplitr; · iexact P28
    isplitl [A29]; · iexact A29
    isplitr; · iexact P29
    isplitl [A30]; · iexact A30
    isplitr; · iexact P30
    isplitl [A31]; · iexact A31
    isplitr; · iexact P31
    isplitl [A32]; · iexact A32
    isplitr; · iexact P32'
    isplitl [A33]; · iexact A33
    isplitr; · iexact P33
    isplitl [A34]; · iexact A34
    isplitr; · iexact P34
    isplitl [A35]; · iexact A35
    isplitr; · iexact P35
    isplitl [A36]; · iexact A36
    isplitr; · iexact P36
    isplitl [A37]; · iexact A37
    isplitr; · iexact P37'
    isplitl [A38]; · iexact A38
    isplitr; · iexact P38
    isplitl [A39]; · iexact A39
    iexact P39
  isplitl [Htoks]; · iexact Htoks
  isplitl [Hcreds]; · iexact Hcreds
  isplitl [HO]; · iexists _; iexact HO
  isplitl [Hl0 Hl1 Hl2 Hl3 Hl4 Hl5 Hl6 Hl7 HS2 HS3 HS4 HS5 HS8 HS9]
  · unfold bufV
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [HS2]; · iexact HS2
    isplitl [HS3]; · iexact HS3
    isplitl [HS4]; · iexact HS4
    isplitl [HS5]; · iexact HS5
    isplitl [HS8]; · iexact HS8
    iexact HS9
  isplitl [Hs0]; · iexact Hs0
  isplitl [Hs1]; · iexact Hs1
  isplitl [Hs6]; · iexact Hs6
  isplitl [Hs7]; · iexact Hs7
  unfold grant
  isplitl [Hg5]; · iexact Hg5
  isplitl [Hg3]; · iexact Hg3
  iexact Hg4

/-- info: 'Cert.KernelIdeal.Val.seg5_okV' depends on axioms: [propext, Classical.choice, Quot.sound] -/
#guard_msgs in #print axioms seg5_okV

end Cert.KernelIdeal.Val

end
-- ==== Proof.KernelIdeal.SegV5Join.lean ====
import proofs.«900979_g7700000000000980_dist_mlpseq_tp1d_bs_bs_b256_d256_h512_v7x_i8_bf16_1_alg».proof.Proof.KernelIdeal.SegV5Seg
import proofs.«900979_g7700000000000980_dist_mlpseq_tp1d_bs_bs_b256_d256_h512_v7x_i8_bf16_1_alg».proof.Proof.KernelIdeal.SegV4
import proofs.«900979_g7700000000000980_dist_mlpseq_tp1d_bs_bs_b256_d256_h512_v7x_i8_bf16_1_alg».proof.Proof.KernelIdeal.QuietVMono

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

local notation "𝕄" => MT nD τ sig ℕ (Elt Ideal) ℕ UU ℕ

variable (m : Mem)

/-! # Segment 5 from the state segment 4 leaves

    Segment 4 knows the second accumulator on all four of the device's blocks; segment 5 needs its pair only. -/

theorem quad_pair1 : ∀ c : Dev nD, k0_off10 c 0 ≤ k0_off8 c 0 ∧ k0_off8 c 0 + 256 ≤ k0_off10 c 0 + 512 := by decide +kernel

theorem Q4post_QV4k (c : Dev nD) : (iprop(∃ K, Q4post m K c) : sProp 𝕄) ⊢ iprop(∃ K, QV4k m K c) := by
  unfold Q4post QV4k
  exact QV_mono_ex m c 12 1 _ _ _ _ _ (fun _ h => h) (fun _ h => h) (fun _ h => h) (fun _ h => h)
    (fun f h => rowsAre3_sub c (S1 m 0 1 c) (quadRow 1 c) 512 (pairRow 1 c) 256 f h (quad_pair1 c).1 (quad_pair1 c).2)
    (fun _ h => h) (fun _ h => h) (fun _ h => h) (fun _ h => h)

/-- Segment 5 from segment 4's state to SpecsV's state after 14 copies. -/
theorem seg5_from4 (c : Dev nD) (v2 v131 v134 : BitVec 32) :
    (iprop(∃ K, Q4post m K c) : sProp 𝕄)
      ⊢ wp frame (wpE (defs₀ (F := Ideal)) Variants.none (c : Thread nD τ) none) Set.univ
          (seg5 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v131 v134)
          (fun _ => iprop(∃ K, QV5 m K c)) :=
  (Q4post_QV4k m c).trans (seg5_okV m c v2 v131 v134)

end Cert.KernelIdeal.Val

end
-- ==== Proof.KernelIdeal.SegV14.lean ====
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.StepsVP
import proofs.«900979_g7700000000000980_dist_mlpseq_tp1d_bs_bs_b256_d256_h512_v7x_i8_bf16_1_alg».proof.Proof.KernelIdeal.QuietLemmas
import proofs.«900979_g7700000000000980_dist_mlpseq_tp1d_bs_bs_b256_d256_h512_v7x_i8_bf16_1_alg».proof.Proof.KernelIdeal.SegE
import proofs.«900979_g7700000000000980_dist_mlpseq_tp1d_bs_bs_b256_d256_h512_v7x_i8_bf16_1_alg».proof.Proof.KernelIdeal.Seg14
import proofs.«900979_g7700000000000980_dist_mlpseq_tp1d_bs_bs_b256_d256_h512_v7x_i8_bf16_1_alg».proof.Proof.KernelIdeal.SegV5

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

open Idealize.ShloMosaic.Tactic

/-! # Segment 14 with contents: the last reduce step of the last layer

The protocol and the ownership of this segment over the schedule with contents. What the two copies land on the
partners, what the output window holds after the final sum is stored, and what the landed slot of the second stream
holds once it is back in its buffer are facts about contents; they are taken as hypotheses `H36`, `H37`, `Vout`,
`Vlast`, each stated for all contents satisfying the state's predicates. -/

variable (m : Mem)

/-- A read through a rectangle of a whole buffer reads elements of the slice at that rectangle. -/
theorem sub_whole_slice14 (b : Ref sig .tc) (r : Rect b.ty.shape) (hr : ∀ a, r.stride a = 1) :
    (Memref.whole b).view.setOn r.toLoadRect.set ⊆ ((Memref.whole b).slice r hr).view.set := by
  rw [setOn_whole, set_slice_of_whole]

/-- A buffer held whole is held with nothing away. -/
theorem whole_as_but {ℓ : Loc nD τ sig} (f : Buf (Elt Ideal) ℓ) :
    (ℓ ↦{fullShare} f : sProp 𝕄) ⊢ (ℓ ↦[Finset.univ \ ∅]{fullShare} f) := by
  rw [Finset.sdiff_empty]

set_option maxHeartbeats 4000000 in
theorem seg14_okV (c : Dev nD) (v2 v1657 v1659 v1661 : BitVec 32)
    (H36 : ∀ (a4 : Buf (Elt Ideal) ((Memref.whole cc0_scratch4).view.loc (c : Thread nD τ)))
      (fd : Buf (Elt Ideal) ((R3h 0).view.loc ((xr 1 c : Dev nD) : Thread nD τ))), sndIs c (S2 m 2 0 c) (k0_off19 c 0) 128 a4 →
      iprop(((R3h 0).view.loc ((xr 1 c : Dev nD) : Thread nD τ) ↦[(R3h 0).view.set]{fullShare}
          ((R3h 0).view.write (Elt Ideal) fd ((SH 0).view.read (Elt Ideal) a4) Finset.univ)) ∗ emp) ⊢ payDmaV m (xr 1 c) 27 1)
    (H37 : ∀ (a3 : Buf (Elt Ideal) ((Memref.whole cc0_scratch3).view.loc (c : Thread nD τ)))
      (b5 fs : Buf (Elt Ideal) ((Memref.whole cc0_scratch5).view.loc (c : Thread nD τ)))
      (fd : Buf (Elt Ideal) ((R3h 1).view.loc ((xr 3 c : Dev nD) : Thread nD τ))),
      rowsAre3 c (S2 m 2 1 c) (pairRow 1 c) 256 a3 → fs = (((Memref.whole cc0_scratch5).access (Rect.unit (s := S512x256) ![0, 0] S128x256.size inb_S512x256_S128x256_0_0)).write (Elt Ideal) b5
        (k0_pay92 (F := Ideal) ((Memref.whole cc0_scratch3).view.readAt (Elt Ideal) (Rect.unit (s := S1024x256) (k0_off20 c) S128x256.size (k0_off20_inb c)).toLoadRect a3)) Finset.univ) →
      iprop(((R3h 1).view.loc ((xr 3 c : Dev nD) : Thread nD τ) ↦[(R3h 1).view.set]{fullShare}
          ((R3h 1).view.write (Elt Ideal) fd ((SH 1).view.read (Elt Ideal) fs) Finset.univ)) ∗ emp) ⊢ payDmaV m (xr 3 c) 37 1)
    (Vout : ∀ (a2 : Buf (Elt Ideal) ((Memref.whole cc0_scratch2).view.loc (c : Thread nD τ)))
      (g : Buf (Elt Ideal) ((Memref.whole cc0_scratch6).view.loc (c : Thread nD τ)))
      (o7 f7 : Buf (Elt Ideal) ((Memref.whole cc0_stg7_0).view.loc (c : Thread nD τ))),
      rowsAre2 c (S2 m 2 0 c) (pairRow 0 c) 256 a2 → (R3h 0).view.read (Elt Ideal) g = rows128 (S2 m 2 0 (xr 1 c)) (ownRow 0 c) →
      f7 = (((Memref.whole cc0_stg7_0).access (Rect.unit (s := S256x256) ![0, 0] S128x256.size inb_S256x256_S128x256_0_0)).write (Elt Ideal) o7
        (k0_pay93 (F := Ideal) ((Memref.whole cc0_scratch2).view.readAt (Elt Ideal) (Rect.unit (s := S1024x256) (k0_off1 c) S128x256.size (k0_off1_inb c)).toLoadRect a2)
          ((Memref.whole cc0_scratch6).view.readAt (Elt Ideal) (Rect.unit (s := S1280x256) ![768, 0] S128x256.size inb_S1280x256_S128x256_768_0).toLoadRect g)) Finset.univ) → outHalf m c f7)
    (Vlast : ∀ (g7 g : Buf (Elt Ideal) ((Memref.whole cc0_scratch7).view.loc (c : Thread nD τ))),
      (R3h 1).view.read (Elt Ideal) g = rows128 (S2 m 2 1 (xr 3 c)) (ownRow 1 c) →
      lastSlotIs c (S2 m 2 1 (xr 3 c)) (ownRow 1 c) ((R3h 1).view.set.piecewise g g7)) :
    (iprop(∃ K, QV13 m K c) : sProp 𝕄)
      ⊢ wp frame (wpE (defs₀ (F := Ideal)) Variants.none (c : Thread nD τ) none) Set.univ
          (seg14 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c v2 v1657 v1659 v1661)
          (fun _ => iprop(∃ K, QV14 m K c)) := by
  refine exists_elim fun K => ?_
  unfold QV13 QV localBufsV bufV heldButV
  rw [posAt_36, toks_seg_36, creds_seg_36, grantLast_2, grantLast_2, grant_eq, grant_eq, s14_rsR_02, s14_rsR_12]
  iintro ⟨#HI, #HR, #Hlev, HatB, ⟨Ha8, Hr8, Ha9, Hr9, Ha10, Hr10, Ha11, Hr11, Ha12, Hr12, Ha13, Hr13, Ha14, Hr14, Ha15, Hr15, Ha16, Hr16, Ha17, Hr17, Ha18, Hr18, Ha19, Hr19, Ha20, Hr20, Ha21, Hr21, Ha22, Hr22, Ha23, Hr23, Ha24, Hr24, Ha25, Hr25, Ha26, Hr26, Ha27, Hr27, Ha28, Hr28, Ha29, Hr29, Ha30, Hr30, Ha31, Hr31, Ha32, Hr32, Ha33, Hr33, Ha34, Hr34, Ha35, Hr35, Ha36, Hr36, Ha37, Hr37, Ha38, Hr38, Ha39, Hr39⟩, ⟨⟨Ht22, Ht27⟩, ⟨Ht32, Ht37⟩, Htoks⟩, ⟨Hc27, Hc37, Hcreds⟩, ⟨%W, HO⟩, ⟨Hl0, Hl1, Hl2, Hl3, Hl4, Hl5, Hl6, ⟨%o7, Hl7, %ho7⟩, ⟨%a2, HS2, %ha2⟩, ⟨%a3, HS3, %ha3⟩, ⟨%a4, HS4, %ha4⟩, ⟨%b5, HS5, %hb5⟩, HS8, HS9⟩, ⟨%x0, Hs0, %hx0⟩, ⟨%x1, Hs1, %hx1⟩, ⟨%g6, Hs6, %hg6⟩, ⟨%g7, Hs7, %hg7⟩, ⟨Hd36, #Hrp36⟩, ⟨Hd37, #Hrp37⟩, -⟩
  unfold seg14
  rw [k0_part54_eq_skeleton, k0_part55_eq_skeleton]
  unfold k0_part54_skel k0_part55_skel
  simp only [Prog.lift, Prog.bind_op, Prog.bind_ret, Prog.pure_eq_ret, Prog.bind_assoc]
  -- copy 36: the first stream's 128 rows to the partner across mask 1
  ihave Hx := (s14_cutH0 (F := Ideal) c a4) $$ HS4
  icases Hx with ⟨HsH0, HS4⟩
  iapply (wp_send_copyV' m c (xr 1 c) _ (dev40_eq c) (SH 0) (R3h 0) 22 27 1 37 _ _ sem_rs0s_2 sem_rs0r_2
      (by decide) (by decide) (by decide) (by decide) (credit_R3h 0) rfl (iprop(emp)) fullShare a4 (ownAt_of (F := Ideal) c (SH 0) a4)
      (fun fd => H36 a4 fd ha4) K (owedFrom c 37) (owedFrom_succ c 36 (1, 27, 1) rfl) _ (Topo.routes_tc _ _)) $$ [HsH0 Hd36 HO Ht22 Hr22 Ht27]
  · isplitr; · iexact HI
    isplitl [HsH0]; · iexact HsH0
    isplitl [Hd36]; · iexact Hd36
    isplitl []; · iempintro
    isplitl [HO]; · iexact HO
    isplitl [Ht22]; · iexact Ht22
    isplitl [Hr22]; · iexact Hr22
    isplitl [Ht27]; · iexact Ht27
    iexact Hrp36
  iintro ⟨Hc22, HO⟩
  -- the second stream's rows are cast into its send buffer, then copy 37: to the partner across mask 3
  iapply (wp_load Variants.none (c : Thread nD τ) none Set.univ (Finset.subset_univ _)) $$ [HS3]
  · iexact HS3
  iintro HS3
  iapply (wp_load Variants.none (c : Thread nD τ) none Set.univ (Finset.subset_univ _)) $$ [HS5]
  · iexact HS5
  iintro HS5
  iapply (wp_store Variants.none (c : Thread nD τ) none Set.univ (Finset.subset_univ _)) $$ [HS5]
  · iexact HS5
  iintro HS5
  ihave Hx := (s14_cutH1 (F := Ideal) c _) $$ HS5
  icases Hx with ⟨HsH1, HS5⟩
  iapply (wp_send_copyV' m c (xr 3 c) _ (dev41_eq c) (SH 1) (R3h 1) 32 37 1 38 _ _ sem_rs1s_2 sem_rs1r_2
      (by decide) (by decide) (by decide) (by decide) ((credit_R3h 1).trans rfl) rfl (iprop(emp)) fullShare _ (ownAt_of (F := Ideal) c (SH 1) _)
      (fun fd => H37 a3 b5 _ fd ha3 rfl) K (owedFrom c 38) (owedFrom_succ c 37 (3, 37, 1) rfl) _ (Topo.routes_tc _ _)) $$ [HsH1 Hd37 HO Ht32 Hr32 Ht37]
  · isplitr; · iexact HI
    isplitl [HsH1]; · iexact HsH1
    isplitl [Hd37]; · iexact Hd37
    isplitl []; · iempintro
    isplitl [HO]; · iexact HO
    isplitl [Ht32]; · iexact Ht32
    isplitl [Hr32]; · iexact Hr32
    isplitl [Ht37]; · iexact Ht37
    iexact Hrp37
  iintro ⟨Hc32, HO⟩
  -- the four waits
  simp only [sem_rs0s_2, sem_rs0r_2, sem_rs1s_2, sem_rs1r_2]
  ihave Hc22 := (Entails.of_eq (show (cred (tallyAt (dcell c (dsem 22)) 37 (amtDma 27 1)) : sProp 𝕄) = cred (tallyAt (dcell c (dsem 22)) 37 (amtDma 22 1)) from rfl)) $$ Hc22
  ihave Hc32 := (Entails.of_eq (show (cred (tallyAt (dcell c (dsem 32)) 38 (amtDma 37 1)) : sProp 𝕄) = cred (tallyAt (dcell c (dsem 32)) 38 (amtDma 32 1)) from rfl)) $$ Hc32
  ihave HM := (mayWait_copy (F := Ideal) c (dsem 22) 36 38 (by omega) (by omega)) $$ Hlev
  iapply (wp_wait_copyV' m c 22 1 37 _ rfl (by decide) (by decide) K (owedFrom c 38) _ ((credit_SH 0).trans rfl)) $$ [Hc22 HO HM Ha22]
  · isplitr; · iexact HI
    isplitl [Hc22]; · iexact Hc22
    isplitl [HO]; · iexact HO
    isplitl [HM]; · iexact HM
    iexact Ha22
  iintro ⟨HO, Ha22, Hr22, Hp22⟩
  ihave HM := (mayWait_copy (F := Ideal) c (dsem 27) 36 38 (by omega) (by omega)) $$ Hlev
  iapply (wp_wait_copyV' m c 27 1 37 _ rfl (by decide) (by decide) K (owedFrom c 38) _ (credit_R3h 0)) $$ [Hc27 HO HM Ha27]
  · isplitr; · iexact HI
    isplitl [Hc27]; · iexact Hc27
    isplitl [HO]; · iexact HO
    isplitl [HM]; · iexact HM
    iexact Ha27
  iintro ⟨HO, Ha27, Hr27, Hp27⟩
  ihave HM := (mayWait_copy (F := Ideal) c (dsem 32) 37 38 (by omega) (by omega)) $$ Hlev
  iapply (wp_wait_copyV' m c 32 1 38 _ rfl (by decide) (by decide) K (owedFrom c 38) _ ((credit_SH 1).trans rfl)) $$ [Hc32 HO HM Ha32]
  · isplitr; · iexact HI
    isplitl [Hc32]; · iexact Hc32
    isplitl [HO]; · iexact HO
    isplitl [HM]; · iexact HM
    iexact Ha32
  iintro ⟨HO, Ha32, Hr32, Hp32⟩
  ihave HM := (mayWait_copy (F := Ideal) c (dsem 37) 37 38 (by omega) (by omega)) $$ Hlev
  iapply (wp_wait_copyV' m c 37 1 38 _ rfl (by decide) (by decide) K (owedFrom c 38) _ ((credit_R3h 1).trans rfl)) $$ [Hc37 HO HM Ha37]
  · isplitr; · iexact HI
    isplitl [Hc37]; · iexact Hc37
    isplitl [HO]; · iexact HO
    isplitl [HM]; · iexact HM
    iexact Ha37
  iintro ⟨HO, Ha37, Hr37, Hp37⟩
  -- what the landings handed over: the lent rows, and the partners' sums on the own 128 rows
  ihave Hp22 := (Entails.of_eq (show payDmaV m c 22 1 = ownAt (F := Ideal) c (SH 0) from rfl)) $$ Hp22
  ihave Hp32 := (Entails.of_eq (show payDmaV m c 32 1 = ownAt (F := Ideal) c (SH 1) from rfl)) $$ Hp32
  ihave Hp27 := (Entails.of_eq (show payDmaV m c 27 1
      = owns (c : Thread nD τ) (R3h 0) fullShare (rows128 (S2 m 2 0 (xr 1 c)) (ownRow 0 c)) from rfl)) $$ Hp27
  ihave Hp37 := (Entails.of_eq (show payDmaV m c 37 1
      = owns (c : Thread nD τ) (R3h 1) fullShare (rows128 (S2 m 2 1 (xr 3 c)) (ownRow 1 c)) from rfl)) $$ Hp37
  unfold owns
  icases Hp27 with ⟨%g, %hg, Hland0⟩
  icases Hp37 with ⟨%gq, %hgq, Hland1⟩
  -- the landed sum of the first stream added to the own, the result stored into the first half of the output window
  iapply (wp_load Variants.none (c : Thread nD τ) none Set.univ (Finset.subset_univ _)) $$ [HS2]
  · iexact HS2
  iintro HS2
  iapply (wp_load Variants.none (c : Thread nD τ) none Set.univ (sub_whole_slice14 cc0_scratch6 (Rect.unit (s := S1280x256) ![768, 0] S128x256.size inb_S1280x256_S128x256_768_0) (fun _ => rfl))) $$ [Hland0]
  · iexact Hland0
  iintro Hland0
  iapply (wp_load Variants.none (c : Thread nD τ) none Set.univ (Finset.subset_univ _)) $$ [Hl7]
  · iexact Hl7
  iintro Hl7
  iapply (wp_store Variants.none (c : Thread nD τ) none Set.univ (Finset.subset_univ _)) $$ [Hl7]
  · iexact Hl7
  iintro Hl7
  -- nothing is pending
  rw [wp_ret]; imodintro
  iexists K
  unfold QV14 QV localBufsV bufV heldButV
  rw [posAt_38, toks_end, creds_end]
  ihave HS4 := (s14_joinH0 (F := Ideal) c _) $$ [Hp22 HS4]
  · isplitl [Hp22]; · iexact Hp22
    iexact HS4
  icases HS4 with ⟨%h4, HS4⟩
  ihave HS5 := (s14_joinH1 (F := Ideal) c _) $$ [Hp32 HS5]
  · isplitl [Hp32]; · iexact Hp32
    iexact HS5
  icases HS5 with ⟨%h5, HS5⟩
  ihave Hs6 := (slice_join_at (F := Ideal) c (R3h 0) g6 g) $$ [Hland0 Hs6]
  · isplitl [Hland0]; · iexact Hland0
    iexact Hs6
  ihave Hs6 := (whole_as_but _) $$ Hs6
  ihave Hs7 := (slice_join_at (F := Ideal) c (R3h 1) g7 gq) $$ [Hland1 Hs7]
  · isplitl [Hland1]; · iexact Hland1
    iexact Hs7
  ihave Hs7 := (whole_as_but _) $$ Hs7
  isplitr; · iexact HI
  isplitr; · iexact HR
  isplitr; · iexact Hlev
  isplitl [HatB]; · iexact HatB
  isplitl [Ha8 Hr8 Ha9 Hr9 Ha10 Hr10 Ha11 Hr11 Ha12 Hr12 Ha13 Hr13 Ha14 Hr14 Ha15 Hr15 Ha16 Hr16 Ha17 Hr17 Ha18 Hr18 Ha19 Hr19 Ha20 Hr20 Ha21 Hr21 Ha22 Hr22 Ha23 Hr23 Ha24 Hr24 Ha25 Hr25 Ha26 Hr26 Ha27 Hr27 Ha28 Hr28 Ha29 Hr29 Ha30 Hr30 Ha31 Hr31 Ha32 Hr32 Ha33 Hr33 Ha34 Hr34 Ha35 Hr35 Ha36 Hr36 Ha37 Hr37 Ha38 Hr38 Ha39 Hr39]
  · isplitl [Ha8]; · iexact Ha8
    isplitl [Hr8]; · iexact Hr8
    isplitl [Ha9]; · iexact Ha9
    isplitl [Hr9]; · iexact Hr9
    isplitl [Ha10]; · iexact Ha10
    isplitl [Hr10]; · iexact Hr10
    isplitl [Ha11]; · iexact Ha11
    isplitl [Hr11]; · iexact Hr11
    isplitl [Ha12]; · iexact Ha12
    isplitl [Hr12]; · iexact Hr12
    isplitl [Ha13]; · iexact Ha13
    isplitl [Hr13]; · iexact Hr13
    isplitl [Ha14]; · iexact Ha14
    isplitl [Hr14]; · iexact Hr14
    isplitl [Ha15]; · iexact Ha15
    isplitl [Hr15]; · iexact Hr15
    isplitl [Ha16]; · iexact Ha16
    isplitl [Hr16]; · iexact Hr16
    isplitl [Ha17]; · iexact Ha17
    isplitl [Hr17]; · iexact Hr17
    isplitl [Ha18]; · iexact Ha18
    isplitl [Hr18]; · iexact Hr18
    isplitl [Ha19]; · iexact Ha19
    isplitl [Hr19]; · iexact Hr19
    isplitl [Ha20]; · iexact Ha20
    isplitl [Hr20]; · iexact Hr20
    isplitl [Ha21]; · iexact Ha21
    isplitl [Hr21]; · iexact Hr21
    isplitl [Ha22]; · iexact Ha22
    isplitl [Hr22]; · iexact Hr22
    isplitl [Ha23]; · iexact Ha23
    isplitl [Hr23]; · iexact Hr23
    isplitl [Ha24]; · iexact Ha24
    isplitl [Hr24]; · iexact Hr24
    isplitl [Ha25]; · iexact Ha25
    isplitl [Hr25]; · iexact Hr25
    isplitl [Ha26]; · iexact Ha26
    isplitl [Hr26]; · iexact Hr26
    isplitl [Ha27]; · iexact Ha27
    isplitl [Hr27]; · iexact Hr27
    isplitl [Ha28]; · iexact Ha28
    isplitl [Hr28]; · iexact Hr28
    isplitl [Ha29]; · iexact Ha29
    isplitl [Hr29]; · iexact Hr29
    isplitl [Ha30]; · iexact Ha30
    isplitl [Hr30]; · iexact Hr30
    isplitl [Ha31]; · iexact Ha31
    isplitl [Hr31]; · iexact Hr31
    isplitl [Ha32]; · iexact Ha32
    isplitl [Hr32]; · iexact Hr32
    isplitl [Ha33]; · iexact Ha33
    isplitl [Hr33]; · iexact Hr33
    isplitl [Ha34]; · iexact Ha34
    isplitl [Hr34]; · iexact Hr34
    isplitl [Ha35]; · iexact Ha35
    isplitl [Hr35]; · iexact Hr35
    isplitl [Ha36]; · iexact Ha36
    isplitl [Hr36]; · iexact Hr36
    isplitl [Ha37]; · iexact Ha37
    isplitl [Hr37]; · iexact Hr37
    isplitl [Ha38]; · iexact Ha38
    isplitl [Hr38]; · iexact Hr38
    isplitl [Ha39]; · iexact Ha39
    iexact Hr39
  isplitl []; · iempintro
  isplitl []; · iempintro
  isplitl [HO]; · iexists _; iexact HO
  isplitl [Hl0 Hl1 Hl2 Hl3 Hl4 Hl5 Hl6 Hl7 HS2 HS3 HS4 HS5 HS8 HS9]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]
    · iexists _; isplitl [Hl7]; · iexact Hl7
      ipureintro; exact Vout a2 g o7 _ ha2 hg rfl
    isplitl [HS2]
    · iexists a2; isplitl [HS2]; · iexact HS2
      ipureintro; exact ha2
    isplitl [HS3]
    · iexists a3; isplitl [HS3]; · iexact HS3
      ipureintro; exact ha3
    isplitl [HS4]
    · iexists h4; isplitl [HS4]; · iexact HS4
      ipureintro; trivial
    isplitl [HS5]
    · iexists h5; isplitl [HS5]; · iexact HS5
      ipureintro; trivial
    isplitl [HS8]; · iexact HS8
    iexact HS9
  isplitl [Hs0]
  · iexists x0; isplitl [Hs0]; · iexact Hs0
    ipureintro; exact hx0
  isplitl [Hs1]
  · iexists x1; isplitl [Hs1]; · iexact Hs1
    ipureintro; exact hx1
  isplitl [Hs6]
  · iexists _; isplitl [Hs6]; · iexact Hs6
    ipureintro; trivial
  isplitl [Hs7]
  · iexists _; isplitl [Hs7]; · iexact Hs7
    ipureintro; exact Vlast g7 gq hgq
  iempintro

/-- info: 'Cert.KernelIdeal.Val.seg14_okV' depends on axioms: [propext, Classical.choice, Quot.sound] -/
#guard_msgs in #print axioms seg14_okV

end Cert.KernelIdeal.Val

end
-- ==== Proof.KernelIdeal.SegV14Facts.lean ====
import proofs.«900979_g7700000000000980_dist_mlpseq_tp1d_bs_bs_b256_d256_h512_v7x_i8_bf16_1_alg».proof.Proof.KernelIdeal.SegV9

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

local notation "𝕄" => MT nD τ sig ℕ (Elt Ideal) ℕ UU ℕ

variable (m : Mem)

/-! # The last step of the last layer: the four facts about contents

    The copy of the first stream carries the send buffer's first 128 rows (the four-device sum on the partner's own
    block); the second stream's carries the cast just stored. The landed block added to the own four-device sum on the
    own block is the result; the second stream's landed block stays in its slot. -/

/-- The first 128 rows of the first stream's send buffer, read through the slice the copy sends. -/
theorem snd_read128 (c : Dev nD) (G : Fin 1024 → Fin 256 → EReal) (b : ℕ)
    (f : Buf (Elt Ideal) ((Memref.whole cc0_scratch4).view.loc (c : Thread nD τ))) (h : sndIs c G b 128 f) :
    (SH 0).view.read (Elt Ideal) f = rows128 G b := by
  funext y
  have h0 : (y 0).val < 128 := (y 0).isLt
  have h1 : (y 1).val < 256 := (y 1).isLt
  have e : (Rect.unit (s := S512x256) ![0, 0] S128x256.size inb_S512x256_S128x256_0_0).emb y
      = ValueIdx.ix2 (⟨(y 0).val, by omega⟩ : Fin 512) (⟨(y 1).val, h1⟩ : Fin 256) := by
    funext a
    apply Fin.ext
    match a with
    | ⟨0, _⟩ => show 0 + 1 * (y 0).val = (y 0).val; omega
    | ⟨1, _⟩ => show 0 + 1 * (y 1).val = (y 1).val; omega
  show f ((Rect.unit (s := S512x256) ![0, 0] S128x256.size inb_S512x256_S128x256_0_0).emb y) = _
  rw [e, h _ _ h0]
  rfl

theorem v14_H36 (c : Dev nD) (a4 : Buf (Elt Ideal) ((Memref.whole cc0_scratch4).view.loc (c : Thread nD τ)))
    (fd : Buf (Elt Ideal) ((R3h 0).view.loc ((xr 1 c : Dev nD) : Thread nD τ)))
    (h : sndIs c (S2 m 2 0 c) (k0_off19 c 0) 128 a4) :
    iprop(((R3h 0).view.loc ((xr 1 c : Dev nD) : Thread nD τ) ↦[(R3h 0).view.set]{fullShare} ((R3h 0).view.write (Elt Ideal) fd ((SH 0).view.read (Elt Ideal) a4) Finset.univ)) ∗ emp)
      ⊢ payDmaV m (xr 1 c) 27 1 := by
  show _ ⊢ (owns (xr 1 c : Thread nD τ) (R3h 0) fullShare (rows128 (S2 m 2 0 (xr 1 (xr 1 c))) (ownRow 0 (xr 1 c))) : sProp 𝕄)
  rw [xr_xr, show ownRow 0 (xr 1 c) = k0_off19 c 0 from (off19_row c).symm]
  exact (sep_emp (PROP := sProp 𝕄)).1.trans (owns_of_write (xr 1 c) (R3h 0) fd _ _ (snd_read128 c _ _ a4 h))

theorem v14_H37 (c : Dev nD) (a3 : Buf (Elt Ideal) ((Memref.whole cc0_scratch3).view.loc (c : Thread nD τ)))
    (b5 fs : Buf (Elt Ideal) ((Memref.whole cc0_scratch5).view.loc (c : Thread nD τ)))
    (fd : Buf (Elt Ideal) ((R3h 1).view.loc ((xr 3 c : Dev nD) : Thread nD τ)))
    (h3 : rowsAre3 c (S2 m 2 1 c) (pairRow 1 c) 256 a3)
    (hfs : fs = ((Memref.whole cc0_scratch5).access (Rect.unit (s := S512x256) ![0, 0] S128x256.size inb_S512x256_S128x256_0_0)).write (Elt Ideal) b5
      (k0_pay92 (F := Ideal) ((Memref.whole cc0_scratch3).view.readAt (Elt Ideal) (Rect.unit (s := S1024x256) (k0_off20 c) S128x256.size (k0_off20_inb c)).toLoadRect a3)) Finset.univ) :
    iprop(((R3h 1).view.loc ((xr 3 c : Dev nD) : Thread nD τ) ↦[(R3h 1).view.set]{fullShare} ((R3h 1).view.write (Elt Ideal) fd ((SH 1).view.read (Elt Ideal) fs) Finset.univ)) ∗ emp)
      ⊢ payDmaV m (xr 3 c) 37 1 := by
  show _ ⊢ (owns (xr 3 c : Thread nD τ) (R3h 1) fullShare (rows128 (S2 m 2 1 (xr 3 (xr 3 c))) (ownRow 1 (xr 3 c))) : sProp 𝕄)
  rw [xr_xr, show ownRow 1 (xr 3 c) = k0_off20 c 0 from (off20_row c).symm]
  refine (sep_emp (PROP := sProp 𝕄)).1.trans (owns_of_write (xr 3 c) (R3h 1) fd _ _ ?_)
  subst hfs
  refine (View.read_write_univ _ _).trans ?_
  funext y
  rw [k0_pay92_apply, load_rows3 c (S2 m 2 1 c) (pairRow 1 c) 256 a3 h3 (k0_off20 c) S128x256.size (k0_off20_inb c) (off20_col c)
    (off20_in c).1 (off20_in c).2]
  rfl

/-- Rows 0 .. 127 of the result window through the rectangle the last store writes. -/
theorem out_emb (y : S128x256.Idx) (h0 : (y 0).val < 256) (h1 : (y 1).val < 256) :
    (Rect.unit (s := S256x256) ![0, 0] S128x256.size inb_S256x256_S128x256_0_0).emb y
      = ValueIdx.ix2 (⟨(y 0).val, h0⟩ : Fin 256) (⟨(y 1).val, h1⟩ : Fin 256) := by
  funext a
  apply Fin.ext
  match a with
  | ⟨0, _⟩ => show 0 + 1 * (y 0).val = (y 0).val; omega
  | ⟨1, _⟩ => show 0 + 1 * (y 1).val = (y 1).val; omega

theorem v14_Vout (c : Dev nD) (a2 : Buf (Elt Ideal) ((Memref.whole cc0_scratch2).view.loc (c : Thread nD τ)))
    (g : Buf (Elt Ideal) ((Memref.whole cc0_scratch6).view.loc (c : Thread nD τ)))
    (o7 f7 : Buf (Elt Ideal) ((Memref.whole cc0_stg7_0).view.loc (c : Thread nD τ)))
    (h2 : rowsAre2 c (S2 m 2 0 c) (pairRow 0 c) 256 a2)
    (hg : (R3h 0).view.read (Elt Ideal) g = rows128 (S2 m 2 0 (xr 1 c)) (ownRow 0 c))
    (hf7 : f7 = ((Memref.whole cc0_stg7_0).access (Rect.unit (s := S256x256) ![0, 0] S128x256.size inb_S256x256_S128x256_0_0)).write (Elt Ideal) o7
      (k0_pay93 (F := Ideal) ((Memref.whole cc0_scratch2).view.readAt (Elt Ideal) (Rect.unit (s := S1024x256) (k0_off1 c) S128x256.size (k0_off1_inb c)).toLoadRect a2)
        ((Memref.whole cc0_scratch6).view.readAt (Elt Ideal) (Rect.unit (s := S1280x256) ![768, 0] S128x256.size inb_S1280x256_S128x256_768_0).toLoadRect g)) Finset.univ) :
    outHalf m c f7 := by
  subst hf7
  intro r col hr
  let y : S128x256.Idx := fun a => match a with
    | ⟨0, _⟩ => (⟨r.val, hr⟩ : Fin 128)
    | ⟨1, _⟩ => col
  have ey : ValueIdx.ix2 r col = (Rect.unit (s := S256x256) ![0, 0] S128x256.size inb_S256x256_S128x256_0_0).emb y :=
    (out_emb y r.isLt col.isLt).symm
  rw [ey]
  refine (View.write_emb_of_mem (v := (Memref.whole cc0_stg7_0).access (Rect.unit (s := S256x256) ![0, 0] S128x256.size inb_S256x256_S128x256_0_0)) (Val := Elt Ideal) o7 _ (Finset.mem_univ y)).trans ?_
  show k0_pay93 (F := Ideal) _ _ y = _
  rw [k0_pay93_apply, load_rows2 c (S2 m 2 0 c) (pairRow 0 c) 256 a2 h2 (k0_off1 c) S128x256.size (k0_off1_inb c) (off1_col c)
    (off1_in c).1 (off1_in c).2]
  have e : (Memref.whole cc0_scratch6).view.readAt (Elt Ideal) (Rect.unit (s := S1280x256) ![768, 0] S128x256.size inb_S1280x256_S128x256_768_0).toLoadRect g y
      = nat2 (S2 m 2 0 (xr 1 c)) (k0_off1 c 0 + r.val) col.val := congrFun hg y
  rw [e]
  show nat2 (S2 m 2 0 c) (k0_off1 c 0 + r.val) col.val + _ = _
  rw [nat2_S2_last0 m 2 c]
  have hlt : k0_off1 c 0 + r.val < 1024 := by have := off1_row c; have := (idxOf 0 c).isLt; omega
  rw [nat2_eq _ _ _ hlt col.isLt]
  unfold OUT
  rw [dif_pos hr]
  exact congrArg (fun i => A m 3 0 i col) (Fin.ext (by show k0_off1 c 0 + r.val = 128 * (idxOf 0 c).val + r.val; rw [off1_row]))

theorem v14_Vlast (c : Dev nD) (g7 g : Buf (Elt Ideal) ((Memref.whole cc0_scratch7).view.loc (c : Thread nD τ)))
    (hg : (R3h 1).view.read (Elt Ideal) g = rows128 (S2 m 2 1 (xr 3 c)) (ownRow 1 c)) :
    lastSlotIs c (S2 m 2 1 (xr 3 c)) (ownRow 1 c) ((R3h 1).view.set.piecewise g g7) := by
  intro t col
  let y : S128x256.Idx := fun a => match a with
    | ⟨0, _⟩ => t
    | ⟨1, _⟩ => col
  have ey : ValueIdx.ix2 (⟨768 + t.val, by omega⟩ : Fin 1280) col = (R3h 1).view.emb y := by
    funext a
    apply Fin.ext
    match a with
    | ⟨0, _⟩ => show 768 + t.val = 768 + 1 * t.val; omega
    | ⟨1, _⟩ => show col.val = 0 + 1 * col.val; omega
  rw [ey]
  exact (congrFun (read_piecewise_self (R3h 1) c g7 g) y).trans (congrFun hg y)

end Cert.KernelIdeal.Val

end
-- ==== Proof.KernelIdeal.SegV14Done.lean ====
import proofs.«900979_g7700000000000980_dist_mlpseq_tp1d_bs_bs_b256_d256_h512_v7x_i8_bf16_1_alg».proof.Proof.KernelIdeal.SegV14
import proofs.«900979_g7700000000000980_dist_mlpseq_tp1d_bs_bs_b256_d256_h512_v7x_i8_bf16_1_alg».proof.Proof.KernelIdeal.SegV14Facts

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

local notation "𝕄" => MT nD τ sig ℕ (Elt Ideal) ℕ UU ℕ

variable (m : Mem)

/-! # Segment 14 with contents: the protocol's proof with its four facts about contents supplied -/

theorem seg14_specV (c : Dev nD) : SpecV14 m c := fun v2 v1657 v1659 v1661 =>
  seg14_okV m c v2 v1657 v1659 v1661
    (fun a4 fd h => v14_H36 m c a4 fd h)
    (fun a3 b5 fs fd h3 hfs => v14_H37 m c a3 b5 fs fd h3 hfs)
    (fun a2 g o7 f7 h2 hg hf7 => v14_Vout m c a2 g o7 f7 h2 hg hf7)
    (fun g7 g hg => v14_Vlast m c g7 g hg)

/-- info: 'Cert.KernelIdeal.Val.seg14_specV' depends on axioms: [propext, Classical.choice, Quot.sound] -/
#guard_msgs in #print axioms seg14_specV

end Cert.KernelIdeal.Val

end
-- ==== Proof.KernelIdeal.Seg15V.lean ====
import proofs.«900979_g7700000000000980_dist_mlpseq_tp1d_bs_bs_b256_d256_h512_v7x_i8_bf16_1_alg».proof.Proof.KernelIdeal.BodyV
import proofs.«900979_g7700000000000980_dist_mlpseq_tp1d_bs_bs_b256_d256_h512_v7x_i8_bf16_1_alg».proof.Proof.KernelIdeal.StepsV
import proofs.«900979_g7700000000000980_dist_mlpseq_tp1d_bs_bs_b256_d256_h512_v7x_i8_bf16_1_alg».proof.Proof.KernelIdeal.TablesV
import proofs.«900979_g7700000000000980_dist_mlpseq_tp1d_bs_bs_b256_d256_h512_v7x_i8_bf16_1_alg».proof.Proof.KernelIdeal.Seg15
import proofs.«900979_g7700000000000980_dist_mlpseq_tp1d_bs_bs_b256_d256_h512_v7x_i8_bf16_1_alg».proof.Proof.KernelIdeal.PayVals
import proofs.«900979_g7700000000000980_dist_mlpseq_tp1d_bs_bs_b256_d256_h512_v7x_i8_bf16_1_alg».proof.Proof.KernelIdeal.ValLemmas

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open scoped BigOperators

local notation "𝕄" => MT nD τ sig ℕ (Elt Ideal) ℕ UU ℕ

variable (m : Mem)

/-! # The last segment with contents

   The last loads read the device's own 128 rows of the second stream's accumulator, which hold the sum of four
   devices' partial products, and the slot of the last reduce step, where the partner `c xor 3` has landed the sum of
   the other four; their sum is the whole layer on those rows, the second half of the device's block of the result. -/

/-- A DMA cell all of whose rounds are consumed closes, under the schedule with contents as well. -/
theorem close_dmaV (K : GSem nD τ sig → ℕ) (c : Dev nD) (j R : ℕ) (hj8 : 8 ≤ j) (hj : j < 40) (hR : nRounds j ≤ R) :
    iprop(invsAllV m K ∗ atPos ER (dcell c (dsem j)) R ∅ 0) ⊢ iprop(|={Set.univ}=> semVal (dcell c (dsem j)) 0) := by
  iintro ⟨#HI, Hat⟩
  iapply (Rounds.cell_close ER (schedV m) (Set.mem_univ (K (dcell c (dsem j)))) (fun h => h) (R := R)
    (fun r hr => duties_dma_laterV m c j r hj (le_trans hR hr)))
  isplitr
  · iapply (invs_dmaV m K c j hj8 hj); iexact HI
  · iexact Hat

/-- Nothing lent: the buffer is whole, at contents with the same fact. -/
theorem heldButV_empty_eq (c : Dev nD) (b : Ref sig .tc) (P : Buf (Elt Ideal) ((Memref.whole b).view.loc (c : Thread nD τ)) → Prop) :
    heldButV c b ∅ P = bufV c b P := by
  unfold heldButV bufV
  simp only [Finset.sdiff_empty]

/-- The device's own rows of the second stream start at 128 times its index in that stream. -/
theorem ownRow1_eq : ∀ c : Dev nD, ownRow 1 c = 128 * (idxOf 1 c).val := by decide +kernel

/-- The four devices whose partial products a device has summed and the four its partner of the last step has: all eight. -/
theorem S2_pair_sum (c : Dev nD) (row : Fin 1024) (col : Fin 256) :
    S2 m 2 1 c row col + S2 m 2 1 (xr 3 c) row col = A m 3 1 row col := by
  have e1 : xr 1 c = Cert.Spec.x8 c 1 := by revert c; decide
  have e4 : xr 4 c = Cert.Spec.x8 c 4 := by revert c; decide
  have e5 : xr 1 (xr 4 c) = Cert.Spec.x8 c 5 := by revert c; decide
  have e3 : xr 3 c = Cert.Spec.x8 c 3 := by revert c; decide
  have e2 : xr 1 (xr 3 c) = Cert.Spec.x8 c 2 := by revert c; decide
  have e7 : xr 4 (xr 3 c) = Cert.Spec.x8 c 7 := by revert c; decide
  have e6 : xr 1 (xr 4 (xr 3 c)) = Cert.Spec.x8 c 6 := by revert c; decide
  rw [A_succ m 2 1 row col, ← Cert.Spec.tree2_eq c (fun d => Pt m 2 1 d row col)]
  show ((Pt m 2 1 c row col + Pt m 2 1 (xr 1 c) row col) + (Pt m 2 1 (xr 4 c) row col + Pt m 2 1 (xr 1 (xr 4 c)) row col))
      + ((Pt m 2 1 (xr 3 c) row col + Pt m 2 1 (xr 1 (xr 3 c)) row col) + (Pt m 2 1 (xr 4 (xr 3 c)) row col + Pt m 2 1 (xr 1 (xr 4 (xr 3 c))) row col)) = _
  rw [e6, e7, e2, e5, e3, e4, e1]
  rfl

/-! ## The result window after the last store -/

/-- The contents the last store leaves in the result window: below row 128 what was there, from row 128 the sum of
    the own rows of the second accumulator and the landed last slot. -/
theorem out_after (c : Dev nD)
    (f7 : Buf (Elt Ideal) ((Memref.whole cc0_stg7_0).view.loc (c : Thread nD τ)))
    (f3 : Buf (Elt Ideal) ((Memref.whole cc0_scratch3).view.loc (c : Thread nD τ)))
    (y7 : Buf (Elt Ideal) ((Memref.whole cc0_scratch7).view.loc (c : Thread nD τ)))
    (inb2 : ∀ a, k0_off2 c a + S128x256.size a ≤ S1024x256.size a)
    (hout : outHalf m c f7) (hacc : rowsAre3 c (S2 m 2 1 c) (ownRow 1 c) 128 f3)
    (hslot : lastSlotIs c (S2 m 2 1 (xr 3 c)) (ownRow 1 c) y7) :
    outAll m c (((Memref.whole cc0_stg7_0).view.slice (Rect.unit (s := S256x256) ![128, 0] S128x256.size inb_S256x256_S128x256_128_0)).write (Elt Ideal) f7
      (k0_pay1 (F := Ideal) ((Memref.whole cc0_scratch3).view.readAt (Elt Ideal) (Rect.unit (s := S1024x256) (k0_off2 c) S128x256.size inb2).toLoadRect f3)
        (k0_pay94 (F := Ideal) ((Memref.whole cc0_scratch7).view.readAt (Elt Ideal) (Rect.unit (s := S1280x256) ![768, 0] S128x256.size inb_S1280x256_S128x256_768_0).toLoadRect y7)))
      Finset.univ) := by
  intro r col
  by_cases h : r.val < 128
  · rw [View.write_of_not_mem]
    · exact hout r col h
    · intro hm
      have hm' := (Finset.ext_iff.mp (View.set_slice_whole cc0_stg7_0 (Rect.unit (s := S256x256) ![128, 0] S128x256.size inb_S256x256_S128x256_128_0)) _).mp
        (View.setOn_subset_set _ _ hm)
      rw [Rect.mem_set_unit] at hm'
      have h0 : 128 ≤ r.val := (hm' 0).1
      omega
  · have hr : 128 ≤ r.val := Nat.le_of_not_lt h
    have hr' : r.val - 128 < 128 := by have := r.isLt; omega
    let y : S128x256.Idx := fun a => match a with
      | ⟨0, _⟩ => ⟨r.val - 128, hr'⟩
      | ⟨1, _⟩ => ⟨col.val, col.isLt⟩
    have e : (Rect.unit (s := S256x256) ![128, 0] S128x256.size inb_S256x256_S128x256_128_0).emb y = ValueIdx.ix2 r col := by
      funext a; apply Fin.ext
      match a with
      | ⟨0, _⟩ => show 128 + 1 * (r.val - 128) = r.val; omega
      | ⟨1, _⟩ => show 0 + 1 * col.val = col.val; omega
    have es : (Rect.unit (s := S1280x256) ![768, 0] S128x256.size inb_S1280x256_S128x256_768_0).emb y
        = ValueIdx.ix2 (⟨768 + (r.val - 128), by omega⟩ : Fin 1280) col := by
      funext a; apply Fin.ext
      match a with
      | ⟨0, _⟩ => show 768 + 1 * (r.val - 128) = 768 + (r.val - 128); omega
      | ⟨1, _⟩ => show 0 + 1 * col.val = col.val; omega
    have hq : ownRow 1 c = 128 * (idxOf 1 c).val := ownRow1_eq c
    have hR : 128 * (idxOf 1 c).val + (r.val - 128) < 1024 := by have := (idxOf 1 c).isLt; omega
    have ha := congrFun (load_rows3 c (S2 m 2 1 c) (ownRow 1 c) 128 f3 hacc (k0_off2 c) S128x256.size inb2 (off2_col c) (le_refl _) (le_refl _)) y
    have hb : (Memref.whole cc0_scratch7).view.readAt (Elt Ideal) (Rect.unit (s := S1280x256) ![768, 0] S128x256.size inb_S1280x256_S128x256_768_0).toLoadRect y7 y
        = nat2 (S2 m 2 1 (xr 3 c)) (ownRow 1 c + (r.val - 128)) col.val := by
      show y7 ((Rect.unit (s := S1280x256) ![768, 0] S128x256.size inb_S1280x256_S128x256_768_0).emb y) = _
      rw [es]
      exact hslot ⟨r.val - 128, hr'⟩ col
    rw [← e]
    refine (View.write_emb_of_mem (v := (Memref.whole cc0_stg7_0).view.slice (Rect.unit (s := S256x256) ![128, 0] S128x256.size inb_S256x256_S128x256_128_0))
      (Val := Elt Ideal) f7 _ (Finset.mem_univ y)).trans ?_
    show k0_pay1 (F := Ideal) _ _ y = OUT m c r col
    rw [k0_pay1_apply, k0_pay94_apply, ha, hb]
    show nat2 (S2 m 2 1 c) (ownRow 1 c + (r.val - 128)) col.val + nat2 (S2 m 2 1 (xr 3 c)) (ownRow 1 c + (r.val - 128)) col.val = _
    rw [hq, nat2_eq _ _ _ hR col.isLt, nat2_eq _ _ _ hR col.isLt, S2_pair_sum]
    unfold OUT
    rw [dif_neg h]

/-- The result window's staging buffer, as the pipeline takes it back: at the device's block of the result. -/
theorem win7_close (c : Dev nD) (g : Buf (Elt Ideal) ((Memref.whole cc0_stg7_0).view.loc (c : Thread nD τ))) (hg : outAll m c g) :
    ptw (F := Ideal) c cc0_stg7_0 g ⊢ iprop(∃ X, ⌜afterV m c 7 X⌝ ∗ owns (Ix := ℕ) (Name := ℕ) (U := UU) (Lvl := ℕ) (c : Thread nD τ) (Memref.whole cc0_stg7_0) fullShare X) := by
  iintro H
  iexists ((Memref.whole cc0_stg7_0).view.read (Elt Ideal) g)
  isplitr
  · ipureintro
    show (Memref.whole cc0_stg7_0).view.read (Elt Ideal) g = fun y => OUT m c (y 0) (y 1)
    funext y
    exact (congrArg g (ValueIdx.eq_ix2 y)).trans (hg (y 0) (y 1))
  unfold owns
  iexists g
  isplitr
  · ipureintro; rfl
  rw [show (Memref.whole cc0_stg7_0).view.set = Finset.univ from by rw [Memref.view_whole]; exact View.set_whole _]
  iexact H

/-! ## The segment -/

set_option maxHeartbeats 4000000 in
/-- Segment 15 with contents, from the quiet point after the last copies — the result window's first half holds the
    result, the second accumulator's own rows and the landed last slot hold the two halves of the last sum — to the
    state the launch takes back, the result window at the device's block of the result. -/
theorem seg15_okV (c : Dev nD) :
    (iprop(∃ K, QV m K c 38 2 (outHalf m c) (fun _ => True) (fun _ => True) (fun _ => True)
        (rowsAre3 c (S2 m 2 1 c) (ownRow 1 c) 128) (fun _ => True) (fun _ => True) (fun _ => True)
        (lastSlotIs c (S2 m 2 1 (xr 3 c)) (ownRow 1 c)) ∅ ∅ ∅ ∅ iprop(emp)) : sProp 𝕄)
      ⊢ wp frame (wpE (defs₀ (F := Ideal)) Variants.none (c : Thread nD τ) none) Set.univ
          (seg15 (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c)
          (fun _ => PostBodyV m c) := by
  unfold QV localBufsV posAt
  rw [heldButV_empty_eq, heldButV_empty_eq, heldButV_empty_eq, heldButV_empty_eq]
  unfold bufV
  iintro ⟨%K, #HI, #Hr, #Hlev, HatB, ⟨Hp8, #Hq8, Hp9, #Hq9, Hp10, #Hq10, Hp11, #Hq11, Hp12, #Hq12, Hp13, #Hq13, Hp14, #Hq14, Hp15, #Hq15, Hp16, #Hq16, Hp17, #Hq17, Hp18, #Hq18, Hp19, #Hq19, Hp20, #Hq20, Hp21, #Hq21, Hp22, #Hq22, Hp23, #Hq23, Hp24, #Hq24, Hp25, #Hq25, Hp26, #Hq26, Hp27, #Hq27, Hp28, #Hq28, Hp29, #Hq29, Hp30, #Hq30, Hp31, #Hq31, Hp32, #Hq32, Hp33, #Hq33, Hp34, #Hq34, Hp35, #Hq35, Hp36, #Hq36, Hp37, #Hq37, Hp38, #Hq38, Hp39, #Hq39⟩, Htoks, Hcreds, ⟨%W, HO⟩, ⟨⟨%fw0, Hw0, %hv0⟩, ⟨%fw1, Hw1, %hv1⟩, ⟨%fw2, Hw2, %hv2⟩, ⟨%fw3, Hw3, %hv3⟩, ⟨%fw4, Hw4, %hv4⟩, ⟨%fw5, Hw5, %hv5⟩, ⟨%fw6, Hw6, %hv6⟩, ⟨%fw7, Hw7, %hout⟩, ⟨%fa0, Ha0, %ha0⟩, ⟨%fa1, Ha1, %hacc⟩, ⟨%fs0, Hs0, %hs0⟩, ⟨%fs1, Hs1, %hs1⟩, ⟨%fb0, Hb0, %hb0⟩, ⟨%fb1, Hb1, %hb1⟩⟩, ⟨%x0, Hx0, %hx0⟩, ⟨%x1, Hx1, %hx1⟩, ⟨%y0, Hy0, %hy0⟩, ⟨%y1, Hy1, %hslot⟩, Hemp⟩
  unfold seg15
  sl_exec
  imod (close_dmaV m K c 8 (roundsDone 38 8) (by decide) (by decide) (by decide)) $$ [Hp8] with Hz8
  · isplitr; · iexact HI
    iexact Hp8
  imod (close_dmaV m K c 9 (roundsDone 38 9) (by decide) (by decide) (by decide)) $$ [Hp9] with Hz9
  · isplitr; · iexact HI
    iexact Hp9
  imod (close_dmaV m K c 10 (roundsDone 38 10) (by decide) (by decide) (by decide)) $$ [Hp10] with Hz10
  · isplitr; · iexact HI
    iexact Hp10
  imod (close_dmaV m K c 11 (roundsDone 38 11) (by decide) (by decide) (by decide)) $$ [Hp11] with Hz11
  · isplitr; · iexact HI
    iexact Hp11
  imod (close_dmaV m K c 12 (roundsDone 38 12) (by decide) (by decide) (by decide)) $$ [Hp12] with Hz12
  · isplitr; · iexact HI
    iexact Hp12
  imod (close_dmaV m K c 13 (roundsDone 38 13) (by decide) (by decide) (by decide)) $$ [Hp13] with Hz13
  · isplitr; · iexact HI
    iexact Hp13
  imod (close_dmaV m K c 14 (roundsDone 38 14) (by decide) (by decide) (by decide)) $$ [Hp14] with Hz14
  · isplitr; · iexact HI
    iexact Hp14
  imod (close_dmaV m K c 15 (roundsDone 38 15) (by decide) (by decide) (by decide)) $$ [Hp15] with Hz15
  · isplitr; · iexact HI
    iexact Hp15
  imod (close_dmaV m K c 16 (roundsDone 38 16) (by decide) (by decide) (by decide)) $$ [Hp16] with Hz16
  · isplitr; · iexact HI
    iexact Hp16
  imod (close_dmaV m K c 17 (roundsDone 38 17) (by decide) (by decide) (by decide)) $$ [Hp17] with Hz17
  · isplitr; · iexact HI
    iexact Hp17
  imod (close_dmaV m K c 18 (roundsDone 38 18) (by decide) (by decide) (by decide)) $$ [Hp18] with Hz18
  · isplitr; · iexact HI
    iexact Hp18
  imod (close_dmaV m K c 19 (roundsDone 38 19) (by decide) (by decide) (by decide)) $$ [Hp19] with Hz19
  · isplitr; · iexact HI
    iexact Hp19
  imod (close_dmaV m K c 20 (roundsDone 38 20) (by decide) (by decide) (by decide)) $$ [Hp20] with Hz20
  · isplitr; · iexact HI
    iexact Hp20
  imod (close_dmaV m K c 21 (roundsDone 38 21) (by decide) (by decide) (by decide)) $$ [Hp21] with Hz21
  · isplitr; · iexact HI
    iexact Hp21
  imod (close_dmaV m K c 22 (roundsDone 38 22) (by decide) (by decide) (by decide)) $$ [Hp22] with Hz22
  · isplitr; · iexact HI
    iexact Hp22
  imod (close_dmaV m K c 23 (roundsDone 38 23) (by decide) (by decide) (by decide)) $$ [Hp23] with Hz23
  · isplitr; · iexact HI
    iexact Hp23
  imod (close_dmaV m K c 24 (roundsDone 38 24) (by decide) (by decide) (by decide)) $$ [Hp24] with Hz24
  · isplitr; · iexact HI
    iexact Hp24
  imod (close_dmaV m K c 25 (roundsDone 38 25) (by decide) (by decide) (by decide)) $$ [Hp25] with Hz25
  · isplitr; · iexact HI
    iexact Hp25
  imod (close_dmaV m K c 26 (roundsDone 38 26) (by decide) (by decide) (by decide)) $$ [Hp26] with Hz26
  · isplitr; · iexact HI
    iexact Hp26
  imod (close_dmaV m K c 27 (roundsDone 38 27) (by decide) (by decide) (by decide)) $$ [Hp27] with Hz27
  · isplitr; · iexact HI
    iexact Hp27
  imod (close_dmaV m K c 28 (roundsDone 38 28) (by decide) (by decide) (by decide)) $$ [Hp28] with Hz28
  · isplitr; · iexact HI
    iexact Hp28
  imod (close_dmaV m K c 29 (roundsDone 38 29) (by decide) (by decide) (by decide)) $$ [Hp29] with Hz29
  · isplitr; · iexact HI
    iexact Hp29
  imod (close_dmaV m K c 30 (roundsDone 38 30) (by decide) (by decide) (by decide)) $$ [Hp30] with Hz30
  · isplitr; · iexact HI
    iexact Hp30
  imod (close_dmaV m K c 31 (roundsDone 38 31) (by decide) (by decide) (by decide)) $$ [Hp31] with Hz31
  · isplitr; · iexact HI
    iexact Hp31
  imod (close_dmaV m K c 32 (roundsDone 38 32) (by decide) (by decide) (by decide)) $$ [Hp32] with Hz32
  · isplitr; · iexact HI
    iexact Hp32
  imod (close_dmaV m K c 33 (roundsDone 38 33) (by decide) (by decide) (by decide)) $$ [Hp33] with Hz33
  · isplitr; · iexact HI
    iexact Hp33
  imod (close_dmaV m K c 34 (roundsDone 38 34) (by decide) (by decide) (by decide)) $$ [Hp34] with Hz34
  · isplitr; · iexact HI
    iexact Hp34
  imod (close_dmaV m K c 35 (roundsDone 38 35) (by decide) (by decide) (by decide)) $$ [Hp35] with Hz35
  · isplitr; · iexact HI
    iexact Hp35
  imod (close_dmaV m K c 36 (roundsDone 38 36) (by decide) (by decide) (by decide)) $$ [Hp36] with Hz36
  · isplitr; · iexact HI
    iexact Hp36
  imod (close_dmaV m K c 37 (roundsDone 38 37) (by decide) (by decide) (by decide)) $$ [Hp37] with Hz37
  · isplitr; · iexact HI
    iexact Hp37
  imod (close_dmaV m K c 38 (roundsDone 38 38) (by decide) (by decide) (by decide)) $$ [Hp38] with Hz38
  · isplitr; · iexact HI
    iexact Hp38
  imod (close_dmaV m K c 39 (roundsDone 38 39) (by decide) (by decide) (by decide)) $$ [Hp39] with Hz39
  · isplitr; · iexact HI
    iexact Hp39
  rw [wp_ret]; imodintro
  unfold PostBodyV Φ₁ scratchAll Pipeline.RDat.owesAt Pipeline.owesWithin
  rw [sems_eq]
  isplitl [Hx0 Hx1 Ha0 Ha1 Hs0 Hs1 Hy0 Hy1 Hb0 Hb1 Hz8 Hz9 Hz10 Hz11 Hz12 Hz13 Hz14 Hz15 Hz16 Hz17 Hz18 Hz19 Hz20 Hz21 Hz22 Hz23 Hz24 Hz25 Hz26 Hz27 Hz28 Hz29 Hz30 Hz31 Hz32 Hz33 Hz34 Hz35 Hz36 Hz37 Hz38 Hz39]
  · isplitl [Hx0 Hx1 Ha0 Ha1 Hs0 Hs1 Hy0 Hy1 Hb0 Hb1]
    · isplitl [Hx0]; · (iexists _; iexact Hx0)
      isplitl [Hx1]; · (iexists _; iexact Hx1)
      isplitl [Ha0]; · (iexists _; iexact Ha0)
      isplitl [Ha1]; · (iexists _; iexact Ha1)
      isplitl [Hs0]; · (iexists _; iexact Hs0)
      isplitl [Hs1]; · (iexists _; iexact Hs1)
      isplitl [Hy0]; · (iexists _; iexact Hy0)
      isplitl [Hy1]; · (iexists _; iexact Hy1)
      isplitl [Hb0]; · (iexists _; iexact Hb0)
      iexists _; iexact Hb1
    · isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      isplitl [Hz19]; · iexact Hz19
      isplitl [Hz20]; · iexact Hz20
      isplitl [Hz21]; · iexact Hz21
      isplitl [Hz22]; · iexact Hz22
      isplitl [Hz23]; · iexact Hz23
      isplitl [Hz24]; · iexact Hz24
      isplitl [Hz25]; · iexact Hz25
      isplitl [Hz26]; · iexact Hz26
      isplitl [Hz27]; · iexact Hz27
      isplitl [Hz28]; · iexact Hz28
      isplitl [Hz29]; · iexact Hz29
      isplitl [Hz30]; · iexact Hz30
      isplitl [Hz31]; · iexact Hz31
      isplitl [Hz32]; · iexact Hz32
      isplitl [Hz33]; · iexact Hz33
      isplitl [Hz34]; · iexact Hz34
      isplitl [Hz35]; · iexact Hz35
      isplitl [Hz36]; · iexact Hz36
      isplitl [Hz37]; · iexact Hz37
      isplitl [Hz38]; · iexact Hz38
      iexact Hz39
  isplitl [HO]
  · iexists W
    isplitr; · (ipureintro; exact fun _ _ => Or.inl trivial)
    rw [show (rdatsV m 0 c).owed Gen.t0_0.succ = 0 from rfl, ← owedFrom_end c]
    iexact HO
  isplitl [Hw0]
  · iapply (win_close (F := Ideal) c cc0_stg0_0 _); iexact Hw0
  isplitl [Hw1]
  · iapply (win_close (F := Ideal) c cc0_stg1_0 _); iexact Hw1
  isplitl [Hw2]
  · iapply (win_close (F := Ideal) c cc0_stg2_0 _); iexact Hw2
  isplitl [Hw3]
  · iapply (win_close (F := Ideal) c cc0_stg3_0 _); iexact Hw3
  isplitl [Hw4]
  · iapply (win_close (F := Ideal) c cc0_stg4_0 _); iexact Hw4
  isplitl [Hw5]
  · iapply (win_close (F := Ideal) c cc0_stg5_0 _); iexact Hw5
  isplitl [Hw6]
  · iapply (win_close (F := Ideal) c cc0_stg6_0 _); iexact Hw6
  iapply (win7_close m c _ (out_after m c fw7 fa1 y1 _ hout hacc hslot)); iexact Hw7

/-- info: 'Cert.KernelIdeal.Val.seg15_okV' depends on axioms: [propext, Classical.choice, Quot.sound] -/
#guard_msgs in #print axioms seg15_okV

end Cert.KernelIdeal.Val

end
-- ==== Proof.KernelIdeal.AssembleAll.lean ====
import proofs.«900979_g7700000000000980_dist_mlpseq_tp1d_bs_bs_b256_d256_h512_v7x_i8_bf16_1_alg».proof.Proof.KernelIdeal.AssembleV
import proofs.«900979_g7700000000000980_dist_mlpseq_tp1d_bs_bs_b256_d256_h512_v7x_i8_bf16_1_alg».proof.Proof.KernelIdeal.ComposeVCuts
import proofs.«900979_g7700000000000980_dist_mlpseq_tp1d_bs_bs_b256_d256_h512_v7x_i8_bf16_1_alg».proof.Proof.KernelIdeal.SpecsV
import proofs.«900979_g7700000000000980_dist_mlpseq_tp1d_bs_bs_b256_d256_h512_v7x_i8_bf16_1_alg».proof.Proof.KernelIdeal.QuietVMono
import proofs.«900979_g7700000000000980_dist_mlpseq_tp1d_bs_bs_b256_d256_h512_v7x_i8_bf16_1_alg».proof.Proof.KernelIdeal.SegV4
import proofs.«900979_g7700000000000980_dist_mlpseq_tp1d_bs_bs_b256_d256_h512_v7x_i8_bf16_1_alg».proof.Proof.KernelIdeal.SegV9
import proofs.«900979_g7700000000000980_dist_mlpseq_tp1d_bs_bs_b256_d256_h512_v7x_i8_bf16_1_alg».proof.Proof.KernelIdeal.SegV2
import proofs.«900979_g7700000000000980_dist_mlpseq_tp1d_bs_bs_b256_d256_h512_v7x_i8_bf16_1_alg».proof.Proof.KernelIdeal.SegV8
import proofs.«900979_g7700000000000980_dist_mlpseq_tp1d_bs_bs_b256_d256_h512_v7x_i8_bf16_1_alg».proof.Proof.KernelIdeal.SegV7Done
import proofs.«900979_g7700000000000980_dist_mlpseq_tp1d_bs_bs_b256_d256_h512_v7x_i8_bf16_1_alg».proof.Proof.KernelIdeal.SegV12Done
import proofs.«900979_g7700000000000980_dist_mlpseq_tp1d_bs_bs_b256_d256_h512_v7x_i8_bf16_1_alg».proof.Proof.KernelIdeal.SegV3
import proofs.«900979_g7700000000000980_dist_mlpseq_tp1d_bs_bs_b256_d256_h512_v7x_i8_bf16_1_alg».proof.Proof.KernelIdeal.SegV6All
import proofs.«900979_g7700000000000980_dist_mlpseq_tp1d_bs_bs_b256_d256_h512_v7x_i8_bf16_1_alg».proof.Proof.KernelIdeal.SegV1
import proofs.«900979_g7700000000000980_dist_mlpseq_tp1d_bs_bs_b256_d256_h512_v7x_i8_bf16_1_alg».proof.Proof.KernelIdeal.SegV10
import proofs.«900979_g7700000000000980_dist_mlpseq_tp1d_bs_bs_b256_d256_h512_v7x_i8_bf16_1_alg».proof.Proof.KernelIdeal.SegV13
import proofs.«900979_g7700000000000980_dist_mlpseq_tp1d_bs_bs_b256_d256_h512_v7x_i8_bf16_1_alg».proof.Proof.KernelIdeal.SegV5Join
import proofs.«900979_g7700000000000980_dist_mlpseq_tp1d_bs_bs_b256_d256_h512_v7x_i8_bf16_1_alg».proof.Proof.KernelIdeal.SegV14Done
import proofs.«900979_g7700000000000980_dist_mlpseq_tp1d_bs_bs_b256_d256_h512_v7x_i8_bf16_1_alg».proof.Proof.KernelIdeal.Seg15V

noncomputable section

namespace Cert.KernelIdeal.Val

open Cert.KernelIdeal Cert.KernelIdeal.Gen Cert.KernelIdeal.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig ℕ (Elt Ideal) ℕ UU ℕ

/-! # One device's body with contents, from its fifteen segments

   The segments proved so far are put in place with the entailments at their cuts; each segment still to come, and each
   cut next to one, is a hypothesis of the one theorem below, in the form the composition takes it. -/

variable (m : Mem)

/-- An assertion beside a fact that holds. -/
theorem true_sep_intro {A : sProp 𝕄} : A ⊢ iprop(⌜True⌝ ∗ A) := by
  iintro H
  isplitr
  · ipureintro; trivial
  · iexact H

/-- The opening assertion of the last segment. -/
def Pre15 (c : Dev nD) : sProp 𝕄 :=
  iprop(∃ K, QV m K c 38 2 (outHalf m c) (fun _ => True) (fun _ => True) (fun _ => True)
        (rowsAre3 c (S2 m 2 1 c) (ownRow 1 c) 128) (fun _ => True) (fun _ => True) (fun _ => True)
        (lastSlotIs c (S2 m 2 1 (xr 3 c)) (ownRow 1 c)) ∅ ∅ ∅ ∅ iprop(emp))

/-- The device's own rows of the second stream lie in its pair's. -/
theorem own_in_pair1 : ∀ c : Dev nD, pairRow 1 c ≤ ownRow 1 c ∧ ownRow 1 c + 128 ≤ pairRow 1 c + 256 := by decide +kernel

/-- Cut 14: the quiet point after the last copies gives the last segment what it asks. -/
theorem cut14_ok (c : Dev nD) : (iprop(∃ K, QV14 m K c) : sProp 𝕄) ⊢ Pre15 m c := by
  unfold QV14 Pre15
  exact QV_mono_ex m c 38 2 ∅ ∅ ∅ ∅ iprop(emp) (fun _ h => h) (fun _ _ => trivial) (fun _ _ => trivial) (fun _ _ => trivial)
    (fun f h => rowsAre3_sub c _ _ _ _ _ f h (own_in_pair1 c).1 (own_in_pair1 c).2) (fun _ h => h) (fun _ h => h) (fun _ h => h) (fun _ h => h)

/-- Cut 8: the third reduce step's closing assertion of layer 1 is the quiet point after 24 copies (the gather buffers'
    facts there are about no rows). -/
theorem cut8_ok (c : Dev nD) : (iprop(∃ K, Q8post m K c) : sProp 𝕄) ⊢ iprop(∃ K, QV8 m K c) := by
  unfold Q8post QV8
  exact QV_mono_ex m c 24 2 ∅ (VE1 1 (xr 4 c)).view.set (R4 0).view.set (R4 1).view.set _ (fun _ h => h)
    (fun f _ => rowsAre0_zero c _ _ f) (fun f _ => rowsAre1_zero c _ _ f) (fun _ h => h) (fun _ h => h) (fun _ h => h) (fun _ h => h) (fun _ h => h) (fun _ h => h)

/-- The own row of `c xor 1` in the first stream, as the last reduce step's printed offset. -/
theorem own_xr1_off19 : ∀ c : Dev nD, ownRow 0 (xr 1 c) = k0_off19 c 0 := by decide +kernel

/-- Cut 13: the third reduce step's closing assertion of the last layer is the quiet point after 36 copies. -/
theorem cut13_ok (c : Dev nD) : (iprop(∃ K, Q13post m K c) : sProp 𝕄) ⊢ iprop(∃ K, QV13 m K c) := by
  unfold Q13post QV13
  exact QV_mono_ex m c 36 2 ∅ ∅ (R3h 0).view.set (R3h 1).view.set _ (fun _ h => h)
    (fun f _ => rowsAre0_zero c _ _ f) (fun f _ => rowsAre1_zero c _ _ f) (fun _ h => h) (fun _ h => h)
    (fun f h => by rw [← own_xr1_off19 c]; exact h) (fun _ h => h) (fun _ h => h) (fun _ h => h)

/-- The opening assertions of the segments (at 0 the launch's state; at 15 unused). -/
def PreA (c : Dev nD) (Y : (w : Fin cfg0.W) → (cfg0.win w).block.Idx → Elt Ideal (cfg0.win w).elt) : Fin 16 → sProp 𝕄
  | ⟨0, _⟩ => PreBodyV m c Y
  | ⟨1, _⟩ => iprop(∃ K, QE1V m K c 4 0 0)
  | ⟨2, _⟩ => iprop(∃ K, QE2V m K c 6 0 0)
  | ⟨3, _⟩ => iprop(∃ K, Q4pre m K c)
  | ⟨4, _⟩ => iprop(∃ K, Q4post m K c)
  | ⟨5, _⟩ => iprop(∃ K, QV5 m K c)
  | ⟨6, _⟩ => iprop(∃ K, QV6 m K c)
  | ⟨7, _⟩ => iprop(∃ K, Q8pre m K c)
  | ⟨8, _⟩ => iprop(∃ K, QV8 m K c)
  | ⟨9, _⟩ => iprop(∃ K, QV9k m K c)
  | ⟨10, _⟩ => iprop(∃ K, QE1V m K c 28 2 2)
  | ⟨11, _⟩ => iprop(∃ K, QE2V m K c 30 2 2)
  | ⟨12, _⟩ => iprop(∃ K, Q13pre m K c)
  | ⟨13, _⟩ => iprop(∃ K, QV13 m K c)
  | ⟨14, _⟩ => Pre15 m c
  | ⟨15, _⟩ => PostBodyV m c
  | ⟨_ + 16, h⟩ => absurd h (by omega)

/-- Their closing assertions (at 0 unused). -/
def PostA (c : Dev nD) : Fin 16 → sProp 𝕄
  | ⟨0, _⟩ => iprop(emp)
  | ⟨1, _⟩ => iprop(∃ K, QV1 m K c)
  | ⟨2, _⟩ => iprop(∃ K, QE2V m K c 6 0 0)
  | ⟨3, _⟩ => iprop(∃ K, Q4pre m K c)
  | ⟨4, _⟩ => iprop(∃ K, Q4post m K c)
  | ⟨5, _⟩ => iprop(∃ K, QV5 m K c)
  | ⟨6, _⟩ => iprop(∃ K, QV6 m K c)
  | ⟨7, _⟩ => iprop(∃ K, Q8pre m K c)
  | ⟨8, _⟩ => iprop(∃ K, Q8post m K c)
  | ⟨9, _⟩ => iprop(∃ K, QV9k m K c)
  | ⟨10, _⟩ => iprop(∃ K, QV10 m K c)
  | ⟨11, _⟩ => iprop(∃ K, QE2V m K c 30 2 2)
  | ⟨12, _⟩ => iprop(∃ K, Q13pre m K c)
  | ⟨13, _⟩ => iprop(∃ K, Q13post m K c)
  | ⟨14, _⟩ => iprop(∃ K, QV14 m K c)
  | ⟨15, _⟩ => PostBodyV m c
  | ⟨_ + 16, h⟩ => absurd h (by omega)

set_option maxHeartbeats 4000000 in
/-- One device's body, from the segments proved (2, 4, 5, 8, 9, 11, 14, 15 and the cuts that are proved) and, as hypotheses, the segments and
    cuts still to come. -/
theorem bodyOK_of (c : Dev nD)
 :
    BodyOK m c := fun Y hY =>
  wp_segmentsV_cuts (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 cc0_scratch17 c (PreA m c Y) (PostA m c)
    .rfl .rfl .rfl .rfl .rfl .rfl .rfl (cut8_ok m c) .rfl .rfl .rfl .rfl (cut13_ok m c) (cut14_ok m c)
    (fun _ => True) (fun _ => True) (fun _ => True) (fun _ => True) (fun _ => True)
    (fun r : (Σ' (v678 : BitVec 32) (v681 : BitVec 32) (v811 : BitVec 32) (v815 : BitVec 32), Vec Ideal S256x256 .bf16) => ∀ i : S256x256.Idx, r.2.2.2.2 i = nat2 (A m 1 0) (k0_off13 c 0 + (i 0).val) (i 1).val)
    (fun v : FVec Ideal S256x256 .f32 => ∀ y : S256x256.Idx, v y = nat2 (S1 m 1 1 c) (pair2Row 1 c + (y 0).val) (y 1).val)
    (fun _ => True)
    (fun v => ∀ i : S256x256.Idx, v i = rows256 (A m 2 1) (pairRow 1 c) i)
    (fun _ => True)
    (fun r : (Σ' (v1358 : BitVec 32) (v1362 : BitVec 32) (v1385 : FVec Ideal S256x512 .bf16) (v1386 : Vec Ideal S512x256 .bf16), FVec Ideal S256x256 .f32) => hidIs m c (A m 2 1) (k0_off14 c 0) 2 r.2.2.1 ∧ (∀ (k : Fin 512) (col : Fin 256), r.2.2.2.1 (ValueIdx.ix2 k col) = woutOf m 2 c k col) ∧ (∀ i, r.2.2.2.2 i = 0))
    (fun v : FVec Ideal S256x256 .f32 => ∀ y : S256x256.Idx, v y = nat2 (S1 m 2 1 c) (pair2Row 1 c + (y 0).val) (y 1).val)
    (fun _ => True) (fun _ => True)
    ((seg1_okV m c Y hY).trans (wp_mono _ _ _ (fun r => sep_mono_left (Idealize.SL.BI.Laws.pure_mono (fun h => ⟨h, trivial⟩)))))
    (fun v2 v11 v131 v134 v185 v187 _ => (seg2_okV m c v2 v11 v131 v134 v185 v187).trans (wp_mono _ _ _ (fun _ => true_sep_intro)))
    (fun v264 v268 v2 v131 v134 _ => (seg3_okV m c v2 v131 v134 v264 v268).trans (wp_mono _ _ _ (fun _ =>
      (QV_mono_ex m c 10 1 ∅ ∅ _ _ _ (fun _ h => h) (fun _ _ => trivial) (fun _ _ => trivial) (fun _ h => h) (fun _ h => h) (fun _ h => h) (fun _ h => h) (fun _ h => h) (fun _ h => h)).trans true_sep_intro)))
    (fun v496 v500 v2 v131 v134 _ => (seg4_okV m c v2 v131 v134 v496 v500).trans (wp_mono _ _ _ (fun _ => true_sep_intro)))
    (fun v2 v131 v134 _ => (seg5_from4 m c v2 v131 v134).trans (wp_mono _ _ _ (fun _ => true_sep_intro)))
    (fun v652 v2 v11 _ => seg6_V m c v2 v11 v652)
    (fun v678 v681 v811 v815 v818 v2 hF => seg7_closed m c v2 v678 v681 v811 v815 v818 hF)
    (fun v1041 v2 v678 v681 hF => (seg8_okV m c v2 v678 v681 v1041 hF).trans (wp_mono _ _ _ (fun _ => true_sep_intro)))
    (fun v1121 v2 v678 v681 _ => seg9_okV m c v2 v678 v681 v1121)
    (fun v1191 v2 v11 hF => (seg10_okV m c v2 v11 v1191 hF).trans (wp_mono _ _ _ (fun _ => true_sep_intro)))
    (fun v1225 v1228 v1279 v2 v11 _ => seg11_okV m c v2 v11 v1225 v1228 v1279)
    (fun v1358 v1362 v1385 v1386 cst_1075 v2 v1225 v1228 hF => seg12_doneV m c v2 v1225 v1228 v1358 v1362 v1385 v1386 cst_1075 hF)
    (fun v1571 v2 v11 v1225 v1228 hF => (seg13_okV m c v2 v11 v1225 v1228 v1571 hF).trans (wp_mono _ _ _ (fun _ => true_sep_intro)))
    (fun v1657 v1659 v1661 v2 _ => (seg14_specV m c v2 v1657 v1659 v1661).trans (wp_mono _ _ _ (fun _ => true_sep_intro)))
    (fun _ => seg15_okV m c)

/-- info: 'Cert.KernelIdeal.Val.bodyOK_of' depends on axioms: [propext, Classical.choice, Quot.sound] -/
#guard_msgs in #print axioms bodyOK_of

/-! ## The equality of results -/

/-- The kernel on eight devices and the reference on one, from memories where each device holds its blocks of the
    reference's arrays, both run, and each device's result block ends at its block of the reference's result. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) :=
  algebraic_of_bodies (fun m c => bodyOK_of m c)

/-- info: 'Cert.KernelIdeal.Val.algebraic' depends on axioms: [propext, Classical.choice, Quot.sound] -/
#guard_msgs in #print axioms algebraic

end Cert.KernelIdeal.Val

end
-- ==== Proof.lean ====
/- The certificate's five conjuncts, assembled.

   The reference is a straight-line host program of three layers, each
   `relu (X · Win) · Wout`; its run terminates with the arguments unchanged, which is its frame.
   The idealization rewrote no operation, so `preserves` asks nothing.
   The three conjuncts about the kernel (its two frames and the equality of results) rest on the run of
   the eight devices' threads (once with ownership only, for the frames at both instances; once with the contents
   named, at the ideal instance, for the equality): an all-gather of the activations by recursive doubling over the partners
   `c xor 1`, `c xor 3`, `c xor 4`, each device's partial product over its slice of the hidden axis, and a
   reduce-scatter by recursive halving over the same partners in reverse order, three times over. -/
import proofs.«900979_g7700000000000980_dist_mlpseq_tp1d_bs_bs_b256_d256_h512_v7x_i8_bf16_1_alg».proof.Defs
import proofs.«900979_g7700000000000980_dist_mlpseq_tp1d_bs_bs_b256_d256_h512_v7x_i8_bf16_1_alg».proof.Proof.Gen.Kernel
import proofs.«900979_g7700000000000980_dist_mlpseq_tp1d_bs_bs_b256_d256_h512_v7x_i8_bf16_1_alg».proof.Proof.Gen.Kernel.Skeleton
import proofs.«900979_g7700000000000980_dist_mlpseq_tp1d_bs_bs_b256_d256_h512_v7x_i8_bf16_1_alg».proof.Proof.Gen.Kernel.Launch
import proofs.«900979_g7700000000000980_dist_mlpseq_tp1d_bs_bs_b256_d256_h512_v7x_i8_bf16_1_alg».proof.Proof.Gen.Kernel.Points
import proofs.«900979_g7700000000000980_dist_mlpseq_tp1d_bs_bs_b256_d256_h512_v7x_i8_bf16_1_alg».proof.Proof.Gen.Kernel.Frame
import proofs.«900979_g7700000000000980_dist_mlpseq_tp1d_bs_bs_b256_d256_h512_v7x_i8_bf16_1_alg».proof.Proof.Gen.KernelIdeal
import proofs.«900979_g7700000000000980_dist_mlpseq_tp1d_bs_bs_b256_d256_h512_v7x_i8_bf16_1_alg».proof.Proof.Gen.KernelIdeal.Skeleton
import proofs.«900979_g7700000000000980_dist_mlpseq_tp1d_bs_bs_b256_d256_h512_v7x_i8_bf16_1_alg».proof.Proof.Gen.KernelIdeal.Launch
import proofs.«900979_g7700000000000980_dist_mlpseq_tp1d_bs_bs_b256_d256_h512_v7x_i8_bf16_1_alg».proof.Proof.Gen.KernelIdeal.Points
import proofs.«900979_g7700000000000980_dist_mlpseq_tp1d_bs_bs_b256_d256_h512_v7x_i8_bf16_1_alg».proof.Proof.Gen.KernelIdeal.Frame
import proofs.«900979_g7700000000000980_dist_mlpseq_tp1d_bs_bs_b256_d256_h512_v7x_i8_bf16_1_alg».proof.Proof.Gen.ReferenceIdeal
import proofs.«900979_g7700000000000980_dist_mlpseq_tp1d_bs_bs_b256_d256_h512_v7x_i8_bf16_1_alg».proof.Proof.Gen.ReferenceIdeal.Run
import proofs.«900979_g7700000000000980_dist_mlpseq_tp1d_bs_bs_b256_d256_h512_v7x_i8_bf16_1_alg».proof.Proof.Gen.ReferenceIdeal.Read
import proofs.«900979_g7700000000000980_dist_mlpseq_tp1d_bs_bs_b256_d256_h512_v7x_i8_bf16_1_alg».proof.Proof.Gen.Pre_finite_inputs_Kernel
import proofs.«900979_g7700000000000980_dist_mlpseq_tp1d_bs_bs_b256_d256_h512_v7x_i8_bf16_1_alg».proof.Proof.Gen.Pre_finite_inputs_ReferenceIdeal
import proofs.«900979_g7700000000000980_dist_mlpseq_tp1d_bs_bs_b256_d256_h512_v7x_i8_bf16_1_alg».proof.Proof.KernelIdeal.Body
import proofs.«900979_g7700000000000980_dist_mlpseq_tp1d_bs_bs_b256_d256_h512_v7x_i8_bf16_1_alg».proof.Proof.Kernel.Body
import proofs.«900979_g7700000000000980_dist_mlpseq_tp1d_bs_bs_b256_d256_h512_v7x_i8_bf16_1_alg».proof.Proof.KernelIdeal.AssembleAll
import Idealize.ShloMosaic.Adequacy
import Idealize.ShloMosaic.Init

noncomputable section

namespace Cert.Proof

open Idealize.ShloMosaic Idealize.SL.Sem

/-- The reference runs to the end with its seven argument arrays unchanged: its run with the result forgotten. -/
theorem frame_ri [hR : Cert.ReferenceIdeal.Facts] [hP : Cert.Pre_finite_inputs_ReferenceIdeal.Facts] :
    Cert.frame_ReferenceIdeal := fun m ρ _ =>
  (θ_run Cert.ReferenceIdeal.defs _ _).mono (fun _ h c => (h c).2) (Cert.ReferenceIdeal.Value.run (F := Ideal) m ρ)

/-- The kernel's frame at the word level: the same run, read at the bit-exact instance. -/
theorem frame_k : Cert.frame_Kernel (hKernel := Cert.Kernel.Gen.facts) (hPre_finite_inputs_Kernel := Cert.Pre_finite_inputs_Kernel.Gen.facts) :=
  fun m g _ => Cert.Kernel.Hand.frame_run (F := Bits) m g

/-- The idealized kernel's frame: the run of the eight devices' threads, with the results forgotten. -/
theorem frame_ki : Cert.frame_KernelIdeal (hKernelIdeal := Cert.KernelIdeal.Gen.facts) (hPre_finite_inputs_Kernel := Cert.Pre_finite_inputs_Kernel.Gen.facts) :=
  fun m g _ => Cert.KernelIdeal.Hand.frame_run (F := Ideal) m g

/-- The equality of results: the same run of the eight devices' threads with the contents of every landing named — a gather
    landing holds the gathered activations on the sender's rows, a reduce landing the sender's partial sums — gives each
    device's result block as the sum over the eight devices' partial products, three layers deep; the hidden axis splits
    into the devices' slices, and every reduction tree is the plain sum. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) :=
  Cert.KernelIdeal.Val.algebraic

/-- No operation was rewritten when the kernel was idealized. -/
theorem preserves : Cert.preserves_Kernel_KernelIdeal := trivial

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_k, frame_ki, frame_ri, preserves, algebraic⟩

end Cert.Proof

end
